-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S32768x1024 : Shape := ⟨2, ![32768, 1024]⟩
abbrev S65536x1024 : Shape := ⟨2, ![65536, 1024]⟩
abbrev S2x512x1024 : Shape := ⟨3, ![2, 512, 1024]⟩
abbrev S2 : Shape := ⟨1, ![2]⟩
abbrev S84 : Shape := ⟨1, ![84]⟩
abbrev S64 : Shape := ⟨1, ![64]⟩
abbrev S22 : Shape := ⟨1, ![22]⟩
abbrev S_ : Shape := ⟨0, ![]⟩
abbrev S1 : Shape := ⟨1, ![1]⟩
abbrev S128x1024 : Shape := ⟨2, ![128, 1024]⟩
abbrev S1x512x1024 : Shape := ⟨3, ![1, 512, 1024]⟩
abbrev S512x1024 : Shape := ⟨2, ![512, 1024]⟩

abbrev nBuf : Space → Nat
  | .hbm => 2
  | .vmem => 1
  | .smem => 0
  | _ => 0

abbrev bufTy : (tb : Table) → Fin (tcTables nBuf tb) → BufTy
  | .hbm, ⟨0, _⟩ => ⟨S32768x1024, .f32⟩
  | .hbm, ⟨1, _⟩ => ⟨S65536x1024, .f32⟩
  | .local _ .vmem, ⟨0, _⟩ => ⟨S2x512x1024, .f32⟩
  | _, _ => ⟨S32768x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_4 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | 4 => dmaSemScopedAt0_4 i
  | _ => false

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 516 → Bool
  | ⟨i, _⟩ => dmaSemScopedAt i

abbrev sig : RefSig :=
  (ofTc nBuf bufTy 1 516 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v61 : BitVec 32 := Scalar.muli v2 c4_i32_33
  let v62 : BitVec 32 := Scalar.addi c0_i32_34 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v63 : BitVec 32 := Scalar.muli v5 c2_i32_35
  let v64 : BitVec 32 := Scalar.addi v62 v63
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_36 : BitVec 32 := 1#32
  let v65 : BitVec 32 := Scalar.muli v9 c1_i32_36
  let v66 : BitVec 32 := Scalar.addi v64 v65
  v66.toNat
def k0_dev2 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_38 : BitVec 32 := 4#32
  let v67 : BitVec 32 := Scalar.muli v12 c4_i32_38
  let v68 : BitVec 32 := Scalar.addi c0_i32_39 v67
  let c1_i32_5 : BitVec 32 := 1#32
  let v13 : BitVec 32 := Scalar.subi c1_i32_5 v5
  let v14 : BitVec 32 := Scalar.select v10 v13 v5
  let c2_i32_40 : BitVec 32 := 2#32
  let v69 : BitVec 32 := Scalar.muli v14 c2_i32_40
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v71 : BitVec 32 := Scalar.muli v8 c1_i32_41
  let v72 : BitVec 32 := Scalar.addi v70 v71
  v72.toNat
def k0_dev3 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_43 : BitVec 32 := 4#32
  let v73 : BitVec 32 := Scalar.muli v16 c4_i32_43
  let v74 : BitVec 32 := Scalar.addi c0_i32_44 v73
  let c1_i32_7 : BitVec 32 := 1#32
  let v17 : BitVec 32 := Scalar.subi c1_i32_7 v5
  let v18 : BitVec 32 := Scalar.select v10 v5 v17
  let c2_i32_45 : BitVec 32 := 2#32
  let v75 : BitVec 32 := Scalar.muli v18 c2_i32_45
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v77 : BitVec 32 := Scalar.muli v8 c1_i32_46
  let v78 : BitVec 32 := Scalar.addi v76 v77
  v78.toNat
def k0_off1 (d0 : Dev nD) (c0_i32_48 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c32768_i32 : BitVec 32 := 32768#32
  let v57 : BitVec 32 := Scalar.muli v8 c32768_i32
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_8 v2
  let c0_i32 : BitVec 32 := 0#32
  let v20 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_9 : BitVec 32 := 1#32
  let v21 : BitVec 32 := Scalar.subi c1_i32_9 v5
  let v22 : BitVec 32 := Scalar.select v20 v5 v21
  let v23 : BitVec 32 := Scalar.addi v19 v22
  let c8192_i32 : BitVec 32 := 8192#32
  let v79 : BitVec 32 := Scalar.muli v23 c8192_i32
  let v80 : BitVec 32 := Scalar.addi v79 c0_i32_48
  let v81 : BitVec 32 := Scalar.addi v57 v80
  let c0_i32_55 : BitVec 32 := 0#32
  ![v81.toNat, 0]
def k0_off2 (d0 : Dev nD) (c0_i32_48 : BitVec 32) : Fin 2 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_8 v2
  let c0_i32 : BitVec 32 := 0#32
  let v20 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_9 : BitVec 32 := 1#32
  let v21 : BitVec 32 := Scalar.subi c1_i32_9 v5
  let v22 : BitVec 32 := Scalar.select v20 v5 v21
  let v23 : BitVec 32 := Scalar.addi v19 v22
  let c8192_i32 : BitVec 32 := 8192#32
  let v79 : BitVec 32 := Scalar.muli v23 c8192_i32
  let v80 : BitVec 32 := Scalar.addi v79 c0_i32_48
  let c0_i32_56 : BitVec 32 := 0#32
  ![v80.toNat, 0]
def k0_dev4 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v82 : BitVec 32 := Scalar.muli v2 c4_i32_51
  let v83 : BitVec 32 := Scalar.addi c0_i32_52 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v84 : BitVec 32 := Scalar.muli v5 c2_i32_53
  let v85 : BitVec 32 := Scalar.addi v83 v84
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_54 : BitVec 32 := 1#32
  let v86 : BitVec 32 := Scalar.muli v9 c1_i32_54
  let v87 : BitVec 32 := Scalar.addi v85 v86
  v87.toNat
def k0_dev5 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v97 : BitVec 32 := Scalar.muli v2 c4_i32_60
  let v98 : BitVec 32 := Scalar.addi c0_i32_61 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_62 : BitVec 32 := 2#32
  let v99 : BitVec 32 := Scalar.muli v5 c2_i32_62
  let v100 : BitVec 32 := Scalar.addi v98 v99
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_63 : BitVec 32 := 1#32
  let v101 : BitVec 32 := Scalar.muli v9 c1_i32_63
  let v102 : BitVec 32 := Scalar.addi v100 v101
  v102.toNat
def k0_dev6 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v112 : BitVec 32 := Scalar.muli v2 c4_i32_69
  let v113 : BitVec 32 := Scalar.addi c0_i32_70 v112
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v114 : BitVec 32 := Scalar.muli v5 c2_i32_71
  let v115 : BitVec 32 := Scalar.addi v113 v114
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_72 : BitVec 32 := 1#32
  let v116 : BitVec 32 := Scalar.muli v9 c1_i32_72
  let v117 : BitVec 32 := Scalar.addi v115 v116
  v117.toNat
def k0_dev7 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v127 : BitVec 32 := Scalar.muli v2 c4_i32_78
  let v128 : BitVec 32 := Scalar.addi c0_i32_79 v127
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v129 : BitVec 32 := Scalar.muli v5 c2_i32_80
  let v130 : BitVec 32 := Scalar.addi v128 v129
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v131 : BitVec 32 := Scalar.muli v9 c1_i32_81
  let v132 : BitVec 32 := Scalar.addi v130 v131
  v132.toNat
def k0_dev8 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v142 : BitVec 32 := Scalar.muli v2 c4_i32_87
  let v143 : BitVec 32 := Scalar.addi c0_i32_88 v142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v144 : BitVec 32 := Scalar.muli v5 c2_i32_89
  let v145 : BitVec 32 := Scalar.addi v143 v144
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_90 : BitVec 32 := 1#32
  let v146 : BitVec 32 := Scalar.muli v9 c1_i32_90
  let v147 : BitVec 32 := Scalar.addi v145 v146
  v147.toNat
def k0_dev9 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v157 : BitVec 32 := Scalar.muli v2 c4_i32_95
  let v158 : BitVec 32 := Scalar.addi c0_i32_96 v157
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_97 : BitVec 32 := 2#32
  let v159 : BitVec 32 := Scalar.muli v5 c2_i32_97
  let v160 : BitVec 32 := Scalar.addi v158 v159
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_98 : BitVec 32 := 1#32
  let v161 : BitVec 32 := Scalar.muli v9 c1_i32_98
  let v162 : BitVec 32 := Scalar.addi v160 v161
  v162.toNat
def k0_dev10 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_103 : BitVec 32 := 4#32
  let v172 : BitVec 32 := Scalar.muli v2 c4_i32_103
  let v173 : BitVec 32 := Scalar.addi c0_i32_104 v172
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_105 : BitVec 32 := 2#32
  let v174 : BitVec 32 := Scalar.muli v5 c2_i32_105
  let v175 : BitVec 32 := Scalar.addi v173 v174
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_106 : BitVec 32 := 1#32
  let v176 : BitVec 32 := Scalar.muli v9 c1_i32_106
  let v177 : BitVec 32 := Scalar.addi v175 v176
  v177.toNat
def k0_dev11 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_111 : BitVec 32 := 4#32
  let v187 : BitVec 32 := Scalar.muli v2 c4_i32_111
  let v188 : BitVec 32 := Scalar.addi c0_i32_112 v187
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_113 : BitVec 32 := 2#32
  let v189 : BitVec 32 := Scalar.muli v5 c2_i32_113
  let v190 : BitVec 32 := Scalar.addi v188 v189
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_114 : BitVec 32 := 1#32
  let v191 : BitVec 32 := Scalar.muli v9 c1_i32_114
  let v192 : BitVec 32 := Scalar.addi v190 v191
  v192.toNat
def k0_dev12 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_119 : BitVec 32 := 4#32
  let v202 : BitVec 32 := Scalar.muli v2 c4_i32_119
  let v203 : BitVec 32 := Scalar.addi c0_i32_120 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v204 : BitVec 32 := Scalar.muli v5 c2_i32_121
  let v205 : BitVec 32 := Scalar.addi v203 v204
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_122 : BitVec 32 := 1#32
  let v206 : BitVec 32 := Scalar.muli v9 c1_i32_122
  let v207 : BitVec 32 := Scalar.addi v205 v206
  v207.toNat
def k0_dev13 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v217 : BitVec 32 := Scalar.muli v2 c4_i32_127
  let v218 : BitVec 32 := Scalar.addi c0_i32_128 v217
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v219 : BitVec 32 := Scalar.muli v5 c2_i32_129
  let v220 : BitVec 32 := Scalar.addi v218 v219
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_130 : BitVec 32 := 1#32
  let v221 : BitVec 32 := Scalar.muli v9 c1_i32_130
  let v222 : BitVec 32 := Scalar.addi v220 v221
  v222.toNat
def k0_dev14 (d0 : Dev nD) : Nat :=
  let c0_i32_136 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_135 : BitVec 32 := 4#32
  let v232 : BitVec 32 := Scalar.muli v2 c4_i32_135
  let v233 : BitVec 32 := Scalar.addi c0_i32_136 v232
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_137 : BitVec 32 := 2#32
  let v234 : BitVec 32 := Scalar.muli v5 c2_i32_137
  let v235 : BitVec 32 := Scalar.addi v233 v234
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_138 : BitVec 32 := 1#32
  let v236 : BitVec 32 := Scalar.muli v9 c1_i32_138
  let v237 : BitVec 32 := Scalar.addi v235 v236
  v237.toNat
def k0_dev15 (d0 : Dev nD) : Nat :=
  let c0_i32_144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_143 : BitVec 32 := 4#32
  let v247 : BitVec 32 := Scalar.muli v2 c4_i32_143
  let v248 : BitVec 32 := Scalar.addi c0_i32_144 v247
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_145 : BitVec 32 := 2#32
  let v249 : BitVec 32 := Scalar.muli v5 c2_i32_145
  let v250 : BitVec 32 := Scalar.addi v248 v249
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_146 : BitVec 32 := 1#32
  let v251 : BitVec 32 := Scalar.muli v9 c1_i32_146
  let v252 : BitVec 32 := Scalar.addi v250 v251
  v252.toNat
def k0_dev16 (d0 : Dev nD) : Nat :=
  let c0_i32_152 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_151 : BitVec 32 := 4#32
  let v262 : BitVec 32 := Scalar.muli v2 c4_i32_151
  let v263 : BitVec 32 := Scalar.addi c0_i32_152 v262
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_153 : BitVec 32 := 2#32
  let v264 : BitVec 32 := Scalar.muli v5 c2_i32_153
  let v265 : BitVec 32 := Scalar.addi v263 v264
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_154 : BitVec 32 := 1#32
  let v266 : BitVec 32 := Scalar.muli v9 c1_i32_154
  let v267 : BitVec 32 := Scalar.addi v265 v266
  v267.toNat
def k0_dev17 (d0 : Dev nD) : Nat :=
  let c0_i32_160 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_159 : BitVec 32 := 4#32
  let v277 : BitVec 32 := Scalar.muli v2 c4_i32_159
  let v278 : BitVec 32 := Scalar.addi c0_i32_160 v277
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v279 : BitVec 32 := Scalar.muli v5 c2_i32_161
  let v280 : BitVec 32 := Scalar.addi v278 v279
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_162 : BitVec 32 := 1#32
  let v281 : BitVec 32 := Scalar.muli v9 c1_i32_162
  let v282 : BitVec 32 := Scalar.addi v280 v281
  v282.toNat
def k0_dev18 (d0 : Dev nD) : Nat :=
  let c0_i32_168 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_167 : BitVec 32 := 4#32
  let v292 : BitVec 32 := Scalar.muli v2 c4_i32_167
  let v293 : BitVec 32 := Scalar.addi c0_i32_168 v292
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v294 : BitVec 32 := Scalar.muli v5 c2_i32_169
  let v295 : BitVec 32 := Scalar.addi v293 v294
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_170 : BitVec 32 := 1#32
  let v296 : BitVec 32 := Scalar.muli v9 c1_i32_170
  let v297 : BitVec 32 := Scalar.addi v295 v296
  v297.toNat
def k0_dev19 (d0 : Dev nD) : Nat :=
  let c0_i32_176 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_175 : BitVec 32 := 4#32
  let v307 : BitVec 32 := Scalar.muli v2 c4_i32_175
  let v308 : BitVec 32 := Scalar.addi c0_i32_176 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_177 : BitVec 32 := 2#32
  let v309 : BitVec 32 := Scalar.muli v5 c2_i32_177
  let v310 : BitVec 32 := Scalar.addi v308 v309
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_178 : BitVec 32 := 1#32
  let v311 : BitVec 32 := Scalar.muli v9 c1_i32_178
  let v312 : BitVec 32 := Scalar.addi v310 v311
  v312.toNat
def k0_dev20 (d0 : Dev nD) : Nat :=
  let c0_i32_184 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_183 : BitVec 32 := 4#32
  let v322 : BitVec 32 := Scalar.muli v2 c4_i32_183
  let v323 : BitVec 32 := Scalar.addi c0_i32_184 v322
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_185 : BitVec 32 := 2#32
  let v324 : BitVec 32 := Scalar.muli v5 c2_i32_185
  let v325 : BitVec 32 := Scalar.addi v323 v324
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_186 : BitVec 32 := 1#32
  let v326 : BitVec 32 := Scalar.muli v9 c1_i32_186
  let v327 : BitVec 32 := Scalar.addi v325 v326
  v327.toNat
def k0_dev21 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v337 : BitVec 32 := Scalar.muli v2 c4_i32_191
  let v338 : BitVec 32 := Scalar.addi c0_i32_192 v337
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v339 : BitVec 32 := Scalar.muli v5 c2_i32_193
  let v340 : BitVec 32 := Scalar.addi v338 v339
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_194 : BitVec 32 := 1#32
  let v341 : BitVec 32 := Scalar.muli v9 c1_i32_194
  let v342 : BitVec 32 := Scalar.addi v340 v341
  v342.toNat
def k0_dev22 (d0 : Dev nD) : Nat :=
  let c0_i32_200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_199 : BitVec 32 := 4#32
  let v352 : BitVec 32 := Scalar.muli v2 c4_i32_199
  let v353 : BitVec 32 := Scalar.addi c0_i32_200 v352
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_201 : BitVec 32 := 2#32
  let v354 : BitVec 32 := Scalar.muli v5 c2_i32_201
  let v355 : BitVec 32 := Scalar.addi v353 v354
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_202 : BitVec 32 := 1#32
  let v356 : BitVec 32 := Scalar.muli v9 c1_i32_202
  let v357 : BitVec 32 := Scalar.addi v355 v356
  v357.toNat
def k0_dev23 (d0 : Dev nD) : Nat :=
  let c0_i32_208 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_207 : BitVec 32 := 4#32
  let v367 : BitVec 32 := Scalar.muli v2 c4_i32_207
  let v368 : BitVec 32 := Scalar.addi c0_i32_208 v367
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_209 : BitVec 32 := 2#32
  let v369 : BitVec 32 := Scalar.muli v5 c2_i32_209
  let v370 : BitVec 32 := Scalar.addi v368 v369
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_210 : BitVec 32 := 1#32
  let v371 : BitVec 32 := Scalar.muli v9 c1_i32_210
  let v372 : BitVec 32 := Scalar.addi v370 v371
  v372.toNat
def k0_dev24 (d0 : Dev nD) : Nat :=
  let c0_i32_216 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_215 : BitVec 32 := 4#32
  let v382 : BitVec 32 := Scalar.muli v2 c4_i32_215
  let v383 : BitVec 32 := Scalar.addi c0_i32_216 v382
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_217 : BitVec 32 := 2#32
  let v384 : BitVec 32 := Scalar.muli v5 c2_i32_217
  let v385 : BitVec 32 := Scalar.addi v383 v384
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_218 : BitVec 32 := 1#32
  let v386 : BitVec 32 := Scalar.muli v9 c1_i32_218
  let v387 : BitVec 32 := Scalar.addi v385 v386
  v387.toNat
def k0_dev25 (d0 : Dev nD) : Nat :=
  let c0_i32_224 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_223 : BitVec 32 := 4#32
  let v397 : BitVec 32 := Scalar.muli v2 c4_i32_223
  let v398 : BitVec 32 := Scalar.addi c0_i32_224 v397
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_225 : BitVec 32 := 2#32
  let v399 : BitVec 32 := Scalar.muli v5 c2_i32_225
  let v400 : BitVec 32 := Scalar.addi v398 v399
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_226 : BitVec 32 := 1#32
  let v401 : BitVec 32 := Scalar.muli v9 c1_i32_226
  let v402 : BitVec 32 := Scalar.addi v400 v401
  v402.toNat
def k0_dev26 (d0 : Dev nD) : Nat :=
  let c0_i32_232 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_231 : BitVec 32 := 4#32
  let v412 : BitVec 32 := Scalar.muli v2 c4_i32_231
  let v413 : BitVec 32 := Scalar.addi c0_i32_232 v412
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_233 : BitVec 32 := 2#32
  let v414 : BitVec 32 := Scalar.muli v5 c2_i32_233
  let v415 : BitVec 32 := Scalar.addi v413 v414
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_234 : BitVec 32 := 1#32
  let v416 : BitVec 32 := Scalar.muli v9 c1_i32_234
  let v417 : BitVec 32 := Scalar.addi v415 v416
  v417.toNat
def k0_dev27 (d0 : Dev nD) : Nat :=
  let c0_i32_240 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_239 : BitVec 32 := 4#32
  let v427 : BitVec 32 := Scalar.muli v2 c4_i32_239
  let v428 : BitVec 32 := Scalar.addi c0_i32_240 v427
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v429 : BitVec 32 := Scalar.muli v5 c2_i32_241
  let v430 : BitVec 32 := Scalar.addi v428 v429
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_242 : BitVec 32 := 1#32
  let v431 : BitVec 32 := Scalar.muli v9 c1_i32_242
  let v432 : BitVec 32 := Scalar.addi v430 v431
  v432.toNat
def k0_dev28 (d0 : Dev nD) : Nat :=
  let c0_i32_248 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_247 : BitVec 32 := 4#32
  let v442 : BitVec 32 := Scalar.muli v2 c4_i32_247
  let v443 : BitVec 32 := Scalar.addi c0_i32_248 v442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_249 : BitVec 32 := 2#32
  let v444 : BitVec 32 := Scalar.muli v5 c2_i32_249
  let v445 : BitVec 32 := Scalar.addi v443 v444
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_250 : BitVec 32 := 1#32
  let v446 : BitVec 32 := Scalar.muli v9 c1_i32_250
  let v447 : BitVec 32 := Scalar.addi v445 v446
  v447.toNat
def k0_dev29 (d0 : Dev nD) : Nat :=
  let c0_i32_256 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_255 : BitVec 32 := 4#32
  let v457 : BitVec 32 := Scalar.muli v2 c4_i32_255
  let v458 : BitVec 32 := Scalar.addi c0_i32_256 v457
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_257 : BitVec 32 := 2#32
  let v459 : BitVec 32 := Scalar.muli v5 c2_i32_257
  let v460 : BitVec 32 := Scalar.addi v458 v459
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_258 : BitVec 32 := 1#32
  let v461 : BitVec 32 := Scalar.muli v9 c1_i32_258
  let v462 : BitVec 32 := Scalar.addi v460 v461
  v462.toNat
def k0_dev30 (d0 : Dev nD) : Nat :=
  let c0_i32_264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_263 : BitVec 32 := 4#32
  let v472 : BitVec 32 := Scalar.muli v2 c4_i32_263
  let v473 : BitVec 32 := Scalar.addi c0_i32_264 v472
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_265 : BitVec 32 := 2#32
  let v474 : BitVec 32 := Scalar.muli v5 c2_i32_265
  let v475 : BitVec 32 := Scalar.addi v473 v474
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_266 : BitVec 32 := 1#32
  let v476 : BitVec 32 := Scalar.muli v9 c1_i32_266
  let v477 : BitVec 32 := Scalar.addi v475 v476
  v477.toNat
def k0_dev31 (d0 : Dev nD) : Nat :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_271 : BitVec 32 := 4#32
  let v487 : BitVec 32 := Scalar.muli v2 c4_i32_271
  let v488 : BitVec 32 := Scalar.addi c0_i32_272 v487
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_273 : BitVec 32 := 2#32
  let v489 : BitVec 32 := Scalar.muli v5 c2_i32_273
  let v490 : BitVec 32 := Scalar.addi v488 v489
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_274 : BitVec 32 := 1#32
  let v491 : BitVec 32 := Scalar.muli v9 c1_i32_274
  let v492 : BitVec 32 := Scalar.addi v490 v491
  v492.toNat
def k0_dev32 (d0 : Dev nD) : Nat :=
  let c0_i32_280 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_279 : BitVec 32 := 4#32
  let v502 : BitVec 32 := Scalar.muli v2 c4_i32_279
  let v503 : BitVec 32 := Scalar.addi c0_i32_280 v502
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_281 : BitVec 32 := 2#32
  let v504 : BitVec 32 := Scalar.muli v5 c2_i32_281
  let v505 : BitVec 32 := Scalar.addi v503 v504
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_282 : BitVec 32 := 1#32
  let v506 : BitVec 32 := Scalar.muli v9 c1_i32_282
  let v507 : BitVec 32 := Scalar.addi v505 v506
  v507.toNat
def k0_dev33 (d0 : Dev nD) : Nat :=
  let c0_i32_288 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_287 : BitVec 32 := 4#32
  let v517 : BitVec 32 := Scalar.muli v2 c4_i32_287
  let v518 : BitVec 32 := Scalar.addi c0_i32_288 v517
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_289 : BitVec 32 := 2#32
  let v519 : BitVec 32 := Scalar.muli v5 c2_i32_289
  let v520 : BitVec 32 := Scalar.addi v518 v519
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_290 : BitVec 32 := 1#32
  let v521 : BitVec 32 := Scalar.muli v9 c1_i32_290
  let v522 : BitVec 32 := Scalar.addi v520 v521
  v522.toNat
def k0_dev34 (d0 : Dev nD) : Nat :=
  let c0_i32_296 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_295 : BitVec 32 := 4#32
  let v532 : BitVec 32 := Scalar.muli v2 c4_i32_295
  let v533 : BitVec 32 := Scalar.addi c0_i32_296 v532
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_297 : BitVec 32 := 2#32
  let v534 : BitVec 32 := Scalar.muli v5 c2_i32_297
  let v535 : BitVec 32 := Scalar.addi v533 v534
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_298 : BitVec 32 := 1#32
  let v536 : BitVec 32 := Scalar.muli v9 c1_i32_298
  let v537 : BitVec 32 := Scalar.addi v535 v536
  v537.toNat
def k0_dev35 (d0 : Dev nD) : Nat :=
  let c0_i32_304 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_303 : BitVec 32 := 4#32
  let v547 : BitVec 32 := Scalar.muli v2 c4_i32_303
  let v548 : BitVec 32 := Scalar.addi c0_i32_304 v547
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_305 : BitVec 32 := 2#32
  let v549 : BitVec 32 := Scalar.muli v5 c2_i32_305
  let v550 : BitVec 32 := Scalar.addi v548 v549
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_306 : BitVec 32 := 1#32
  let v551 : BitVec 32 := Scalar.muli v9 c1_i32_306
  let v552 : BitVec 32 := Scalar.addi v550 v551
  v552.toNat
def k0_dev36 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v562 : BitVec 32 := Scalar.muli v2 c4_i32_311
  let v563 : BitVec 32 := Scalar.addi c0_i32_312 v562
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_313 : BitVec 32 := 2#32
  let v564 : BitVec 32 := Scalar.muli v5 c2_i32_313
  let v565 : BitVec 32 := Scalar.addi v563 v564
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_314 : BitVec 32 := 1#32
  let v566 : BitVec 32 := Scalar.muli v9 c1_i32_314
  let v567 : BitVec 32 := Scalar.addi v565 v566
  v567.toNat
def k0_dev37 (d0 : Dev nD) : Nat :=
  let c0_i32_320 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_319 : BitVec 32 := 4#32
  let v577 : BitVec 32 := Scalar.muli v2 c4_i32_319
  let v578 : BitVec 32 := Scalar.addi c0_i32_320 v577
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_321 : BitVec 32 := 2#32
  let v579 : BitVec 32 := Scalar.muli v5 c2_i32_321
  let v580 : BitVec 32 := Scalar.addi v578 v579
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_322 : BitVec 32 := 1#32
  let v581 : BitVec 32 := Scalar.muli v9 c1_i32_322
  let v582 : BitVec 32 := Scalar.addi v580 v581
  v582.toNat
def k0_dev38 (d0 : Dev nD) : Nat :=
  let c0_i32_328 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_327 : BitVec 32 := 4#32
  let v592 : BitVec 32 := Scalar.muli v2 c4_i32_327
  let v593 : BitVec 32 := Scalar.addi c0_i32_328 v592
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_329 : BitVec 32 := 2#32
  let v594 : BitVec 32 := Scalar.muli v5 c2_i32_329
  let v595 : BitVec 32 := Scalar.addi v593 v594
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_330 : BitVec 32 := 1#32
  let v596 : BitVec 32 := Scalar.muli v9 c1_i32_330
  let v597 : BitVec 32 := Scalar.addi v595 v596
  v597.toNat
def k0_dev39 (d0 : Dev nD) : Nat :=
  let c0_i32_336 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_335 : BitVec 32 := 4#32
  let v607 : BitVec 32 := Scalar.muli v2 c4_i32_335
  let v608 : BitVec 32 := Scalar.addi c0_i32_336 v607
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_337 : BitVec 32 := 2#32
  let v609 : BitVec 32 := Scalar.muli v5 c2_i32_337
  let v610 : BitVec 32 := Scalar.addi v608 v609
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_338 : BitVec 32 := 1#32
  let v611 : BitVec 32 := Scalar.muli v9 c1_i32_338
  let v612 : BitVec 32 := Scalar.addi v610 v611
  v612.toNat
def k0_dev40 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v622 : BitVec 32 := Scalar.muli v2 c4_i32_343
  let v623 : BitVec 32 := Scalar.addi c0_i32_344 v622
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v624 : BitVec 32 := Scalar.muli v5 c2_i32_345
  let v625 : BitVec 32 := Scalar.addi v623 v624
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_346 : BitVec 32 := 1#32
  let v626 : BitVec 32 := Scalar.muli v9 c1_i32_346
  let v627 : BitVec 32 := Scalar.addi v625 v626
  v627.toNat
def k0_dev41 (d0 : Dev nD) : Nat :=
  let c0_i32_352 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_351 : BitVec 32 := 4#32
  let v637 : BitVec 32 := Scalar.muli v2 c4_i32_351
  let v638 : BitVec 32 := Scalar.addi c0_i32_352 v637
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_353 : BitVec 32 := 2#32
  let v639 : BitVec 32 := Scalar.muli v5 c2_i32_353
  let v640 : BitVec 32 := Scalar.addi v638 v639
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_354 : BitVec 32 := 1#32
  let v641 : BitVec 32 := Scalar.muli v9 c1_i32_354
  let v642 : BitVec 32 := Scalar.addi v640 v641
  v642.toNat
def k0_dev42 (d0 : Dev nD) : Nat :=
  let c0_i32_360 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_359 : BitVec 32 := 4#32
  let v652 : BitVec 32 := Scalar.muli v2 c4_i32_359
  let v653 : BitVec 32 := Scalar.addi c0_i32_360 v652
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_361 : BitVec 32 := 2#32
  let v654 : BitVec 32 := Scalar.muli v5 c2_i32_361
  let v655 : BitVec 32 := Scalar.addi v653 v654
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_362 : BitVec 32 := 1#32
  let v656 : BitVec 32 := Scalar.muli v9 c1_i32_362
  let v657 : BitVec 32 := Scalar.addi v655 v656
  v657.toNat
def k0_dev43 (d0 : Dev nD) : Nat :=
  let c0_i32_368 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_367 : BitVec 32 := 4#32
  let v667 : BitVec 32 := Scalar.muli v2 c4_i32_367
  let v668 : BitVec 32 := Scalar.addi c0_i32_368 v667
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_369 : BitVec 32 := 2#32
  let v669 : BitVec 32 := Scalar.muli v5 c2_i32_369
  let v670 : BitVec 32 := Scalar.addi v668 v669
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_370 : BitVec 32 := 1#32
  let v671 : BitVec 32 := Scalar.muli v9 c1_i32_370
  let v672 : BitVec 32 := Scalar.addi v670 v671
  v672.toNat
def k0_dev44 (d0 : Dev nD) : Nat :=
  let c0_i32_376 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_375 : BitVec 32 := 4#32
  let v682 : BitVec 32 := Scalar.muli v2 c4_i32_375
  let v683 : BitVec 32 := Scalar.addi c0_i32_376 v682
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_377 : BitVec 32 := 2#32
  let v684 : BitVec 32 := Scalar.muli v5 c2_i32_377
  let v685 : BitVec 32 := Scalar.addi v683 v684
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_378 : BitVec 32 := 1#32
  let v686 : BitVec 32 := Scalar.muli v9 c1_i32_378
  let v687 : BitVec 32 := Scalar.addi v685 v686
  v687.toNat
def k0_dev45 (d0 : Dev nD) : Nat :=
  let c0_i32_384 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_383 : BitVec 32 := 4#32
  let v697 : BitVec 32 := Scalar.muli v2 c4_i32_383
  let v698 : BitVec 32 := Scalar.addi c0_i32_384 v697
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_385 : BitVec 32 := 2#32
  let v699 : BitVec 32 := Scalar.muli v5 c2_i32_385
  let v700 : BitVec 32 := Scalar.addi v698 v699
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_386 : BitVec 32 := 1#32
  let v701 : BitVec 32 := Scalar.muli v9 c1_i32_386
  let v702 : BitVec 32 := Scalar.addi v700 v701
  v702.toNat
def k0_dev46 (d0 : Dev nD) : Nat :=
  let c0_i32_392 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_391 : BitVec 32 := 4#32
  let v712 : BitVec 32 := Scalar.muli v2 c4_i32_391
  let v713 : BitVec 32 := Scalar.addi c0_i32_392 v712
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_393 : BitVec 32 := 2#32
  let v714 : BitVec 32 := Scalar.muli v5 c2_i32_393
  let v715 : BitVec 32 := Scalar.addi v713 v714
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_394 : BitVec 32 := 1#32
  let v716 : BitVec 32 := Scalar.muli v9 c1_i32_394
  let v717 : BitVec 32 := Scalar.addi v715 v716
  v717.toNat
def k0_dev47 (d0 : Dev nD) : Nat :=
  let c0_i32_400 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_399 : BitVec 32 := 4#32
  let v727 : BitVec 32 := Scalar.muli v2 c4_i32_399
  let v728 : BitVec 32 := Scalar.addi c0_i32_400 v727
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_401 : BitVec 32 := 2#32
  let v729 : BitVec 32 := Scalar.muli v5 c2_i32_401
  let v730 : BitVec 32 := Scalar.addi v728 v729
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_402 : BitVec 32 := 1#32
  let v731 : BitVec 32 := Scalar.muli v9 c1_i32_402
  let v732 : BitVec 32 := Scalar.addi v730 v731
  v732.toNat
def k0_dev48 (d0 : Dev nD) : Nat :=
  let c0_i32_408 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_407 : BitVec 32 := 4#32
  let v742 : BitVec 32 := Scalar.muli v2 c4_i32_407
  let v743 : BitVec 32 := Scalar.addi c0_i32_408 v742
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_409 : BitVec 32 := 2#32
  let v744 : BitVec 32 := Scalar.muli v5 c2_i32_409
  let v745 : BitVec 32 := Scalar.addi v743 v744
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_410 : BitVec 32 := 1#32
  let v746 : BitVec 32 := Scalar.muli v9 c1_i32_410
  let v747 : BitVec 32 := Scalar.addi v745 v746
  v747.toNat
def k0_dev49 (d0 : Dev nD) : Nat :=
  let c0_i32_416 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_415 : BitVec 32 := 4#32
  let v757 : BitVec 32 := Scalar.muli v2 c4_i32_415
  let v758 : BitVec 32 := Scalar.addi c0_i32_416 v757
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_417 : BitVec 32 := 2#32
  let v759 : BitVec 32 := Scalar.muli v5 c2_i32_417
  let v760 : BitVec 32 := Scalar.addi v758 v759
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_418 : BitVec 32 := 1#32
  let v761 : BitVec 32 := Scalar.muli v9 c1_i32_418
  let v762 : BitVec 32 := Scalar.addi v760 v761
  v762.toNat
def k0_dev50 (d0 : Dev nD) : Nat :=
  let c0_i32_424 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_423 : BitVec 32 := 4#32
  let v772 : BitVec 32 := Scalar.muli v2 c4_i32_423
  let v773 : BitVec 32 := Scalar.addi c0_i32_424 v772
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_425 : BitVec 32 := 2#32
  let v774 : BitVec 32 := Scalar.muli v5 c2_i32_425
  let v775 : BitVec 32 := Scalar.addi v773 v774
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_426 : BitVec 32 := 1#32
  let v776 : BitVec 32 := Scalar.muli v9 c1_i32_426
  let v777 : BitVec 32 := Scalar.addi v775 v776
  v777.toNat
def k0_dev51 (d0 : Dev nD) : Nat :=
  let c0_i32_432 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_431 : BitVec 32 := 4#32
  let v787 : BitVec 32 := Scalar.muli v2 c4_i32_431
  let v788 : BitVec 32 := Scalar.addi c0_i32_432 v787
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_433 : BitVec 32 := 2#32
  let v789 : BitVec 32 := Scalar.muli v5 c2_i32_433
  let v790 : BitVec 32 := Scalar.addi v788 v789
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_434 : BitVec 32 := 1#32
  let v791 : BitVec 32 := Scalar.muli v9 c1_i32_434
  let v792 : BitVec 32 := Scalar.addi v790 v791
  v792.toNat
def k0_dev52 (d0 : Dev nD) : Nat :=
  let c0_i32_440 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_439 : BitVec 32 := 4#32
  let v802 : BitVec 32 := Scalar.muli v2 c4_i32_439
  let v803 : BitVec 32 := Scalar.addi c0_i32_440 v802
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_441 : BitVec 32 := 2#32
  let v804 : BitVec 32 := Scalar.muli v5 c2_i32_441
  let v805 : BitVec 32 := Scalar.addi v803 v804
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_442 : BitVec 32 := 1#32
  let v806 : BitVec 32 := Scalar.muli v9 c1_i32_442
  let v807 : BitVec 32 := Scalar.addi v805 v806
  v807.toNat
def k0_dev53 (d0 : Dev nD) : Nat :=
  let c0_i32_448 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_447 : BitVec 32 := 4#32
  let v817 : BitVec 32 := Scalar.muli v2 c4_i32_447
  let v818 : BitVec 32 := Scalar.addi c0_i32_448 v817
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_449 : BitVec 32 := 2#32
  let v819 : BitVec 32 := Scalar.muli v5 c2_i32_449
  let v820 : BitVec 32 := Scalar.addi v818 v819
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_450 : BitVec 32 := 1#32
  let v821 : BitVec 32 := Scalar.muli v9 c1_i32_450
  let v822 : BitVec 32 := Scalar.addi v820 v821
  v822.toNat
def k0_dev54 (d0 : Dev nD) : Nat :=
  let c0_i32_456 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_455 : BitVec 32 := 4#32
  let v832 : BitVec 32 := Scalar.muli v2 c4_i32_455
  let v833 : BitVec 32 := Scalar.addi c0_i32_456 v832
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_457 : BitVec 32 := 2#32
  let v834 : BitVec 32 := Scalar.muli v5 c2_i32_457
  let v835 : BitVec 32 := Scalar.addi v833 v834
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_458 : BitVec 32 := 1#32
  let v836 : BitVec 32 := Scalar.muli v9 c1_i32_458
  let v837 : BitVec 32 := Scalar.addi v835 v836
  v837.toNat
def k0_dev55 (d0 : Dev nD) : Nat :=
  let c0_i32_464 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_463 : BitVec 32 := 4#32
  let v847 : BitVec 32 := Scalar.muli v2 c4_i32_463
  let v848 : BitVec 32 := Scalar.addi c0_i32_464 v847
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_465 : BitVec 32 := 2#32
  let v849 : BitVec 32 := Scalar.muli v5 c2_i32_465
  let v850 : BitVec 32 := Scalar.addi v848 v849
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_466 : BitVec 32 := 1#32
  let v851 : BitVec 32 := Scalar.muli v9 c1_i32_466
  let v852 : BitVec 32 := Scalar.addi v850 v851
  v852.toNat
def k0_dev56 (d0 : Dev nD) : Nat :=
  let c0_i32_472 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_471 : BitVec 32 := 4#32
  let v862 : BitVec 32 := Scalar.muli v2 c4_i32_471
  let v863 : BitVec 32 := Scalar.addi c0_i32_472 v862
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_473 : BitVec 32 := 2#32
  let v864 : BitVec 32 := Scalar.muli v5 c2_i32_473
  let v865 : BitVec 32 := Scalar.addi v863 v864
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_474 : BitVec 32 := 1#32
  let v866 : BitVec 32 := Scalar.muli v9 c1_i32_474
  let v867 : BitVec 32 := Scalar.addi v865 v866
  v867.toNat
def k0_dev57 (d0 : Dev nD) : Nat :=
  let c0_i32_480 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_479 : BitVec 32 := 4#32
  let v877 : BitVec 32 := Scalar.muli v2 c4_i32_479
  let v878 : BitVec 32 := Scalar.addi c0_i32_480 v877
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_481 : BitVec 32 := 2#32
  let v879 : BitVec 32 := Scalar.muli v5 c2_i32_481
  let v880 : BitVec 32 := Scalar.addi v878 v879
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_482 : BitVec 32 := 1#32
  let v881 : BitVec 32 := Scalar.muli v9 c1_i32_482
  let v882 : BitVec 32 := Scalar.addi v880 v881
  v882.toNat
def k0_dev58 (d0 : Dev nD) : Nat :=
  let c0_i32_488 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_487 : BitVec 32 := 4#32
  let v892 : BitVec 32 := Scalar.muli v2 c4_i32_487
  let v893 : BitVec 32 := Scalar.addi c0_i32_488 v892
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_489 : BitVec 32 := 2#32
  let v894 : BitVec 32 := Scalar.muli v5 c2_i32_489
  let v895 : BitVec 32 := Scalar.addi v893 v894
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_490 : BitVec 32 := 1#32
  let v896 : BitVec 32 := Scalar.muli v9 c1_i32_490
  let v897 : BitVec 32 := Scalar.addi v895 v896
  v897.toNat
def k0_dev59 (d0 : Dev nD) : Nat :=
  let c0_i32_496 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_495 : BitVec 32 := 4#32
  let v907 : BitVec 32 := Scalar.muli v2 c4_i32_495
  let v908 : BitVec 32 := Scalar.addi c0_i32_496 v907
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_497 : BitVec 32 := 2#32
  let v909 : BitVec 32 := Scalar.muli v5 c2_i32_497
  let v910 : BitVec 32 := Scalar.addi v908 v909
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_498 : BitVec 32 := 1#32
  let v911 : BitVec 32 := Scalar.muli v9 c1_i32_498
  let v912 : BitVec 32 := Scalar.addi v910 v911
  v912.toNat
def k0_dev60 (d0 : Dev nD) : Nat :=
  let c0_i32_504 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_503 : BitVec 32 := 4#32
  let v922 : BitVec 32 := Scalar.muli v2 c4_i32_503
  let v923 : BitVec 32 := Scalar.addi c0_i32_504 v922
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_505 : BitVec 32 := 2#32
  let v924 : BitVec 32 := Scalar.muli v5 c2_i32_505
  let v925 : BitVec 32 := Scalar.addi v923 v924
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_506 : BitVec 32 := 1#32
  let v926 : BitVec 32 := Scalar.muli v9 c1_i32_506
  let v927 : BitVec 32 := Scalar.addi v925 v926
  v927.toNat
def k0_dev61 (d0 : Dev nD) : Nat :=
  let c0_i32_512 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_511 : BitVec 32 := 4#32
  let v937 : BitVec 32 := Scalar.muli v2 c4_i32_511
  let v938 : BitVec 32 := Scalar.addi c0_i32_512 v937
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_513 : BitVec 32 := 2#32
  let v939 : BitVec 32 := Scalar.muli v5 c2_i32_513
  let v940 : BitVec 32 := Scalar.addi v938 v939
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_514 : BitVec 32 := 1#32
  let v941 : BitVec 32 := Scalar.muli v9 c1_i32_514
  let v942 : BitVec 32 := Scalar.addi v940 v941
  v942.toNat
def k0_dev62 (d0 : Dev nD) : Nat :=
  let c0_i32_520 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_519 : BitVec 32 := 4#32
  let v952 : BitVec 32 := Scalar.muli v2 c4_i32_519
  let v953 : BitVec 32 := Scalar.addi c0_i32_520 v952
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_521 : BitVec 32 := 2#32
  let v954 : BitVec 32 := Scalar.muli v5 c2_i32_521
  let v955 : BitVec 32 := Scalar.addi v953 v954
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_522 : BitVec 32 := 1#32
  let v956 : BitVec 32 := Scalar.muli v9 c1_i32_522
  let v957 : BitVec 32 := Scalar.addi v955 v956
  v957.toNat
def k0_dev63 (d0 : Dev nD) : Nat :=
  let c0_i32_528 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_527 : BitVec 32 := 4#32
  let v967 : BitVec 32 := Scalar.muli v2 c4_i32_527
  let v968 : BitVec 32 := Scalar.addi c0_i32_528 v967
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_529 : BitVec 32 := 2#32
  let v969 : BitVec 32 := Scalar.muli v5 c2_i32_529
  let v970 : BitVec 32 := Scalar.addi v968 v969
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_530 : BitVec 32 := 1#32
  let v971 : BitVec 32 := Scalar.muli v9 c1_i32_530
  let v972 : BitVec 32 := Scalar.addi v970 v971
  v972.toNat
def k0_dev64 (d0 : Dev nD) : Nat :=
  let c0_i32_536 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_535 : BitVec 32 := 4#32
  let v982 : BitVec 32 := Scalar.muli v2 c4_i32_535
  let v983 : BitVec 32 := Scalar.addi c0_i32_536 v982
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_537 : BitVec 32 := 2#32
  let v984 : BitVec 32 := Scalar.muli v5 c2_i32_537
  let v985 : BitVec 32 := Scalar.addi v983 v984
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_538 : BitVec 32 := 1#32
  let v986 : BitVec 32 := Scalar.muli v9 c1_i32_538
  let v987 : BitVec 32 := Scalar.addi v985 v986
  v987.toNat
def k0_dev65 (d0 : Dev nD) : Nat :=
  let c0_i32_544 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_543 : BitVec 32 := 4#32
  let v997 : BitVec 32 := Scalar.muli v2 c4_i32_543
  let v998 : BitVec 32 := Scalar.addi c0_i32_544 v997
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_545 : BitVec 32 := 2#32
  let v999 : BitVec 32 := Scalar.muli v5 c2_i32_545
  let v1000 : BitVec 32 := Scalar.addi v998 v999
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_546 : BitVec 32 := 1#32
  let v1001 : BitVec 32 := Scalar.muli v9 c1_i32_546
  let v1002 : BitVec 32 := Scalar.addi v1000 v1001
  v1002.toNat
def k0_dev66 (d0 : Dev nD) : Nat :=
  let c0_i32_552 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_551 : BitVec 32 := 4#32
  let v1012 : BitVec 32 := Scalar.muli v2 c4_i32_551
  let v1013 : BitVec 32 := Scalar.addi c0_i32_552 v1012
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_553 : BitVec 32 := 2#32
  let v1014 : BitVec 32 := Scalar.muli v5 c2_i32_553
  let v1015 : BitVec 32 := Scalar.addi v1013 v1014
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_554 : BitVec 32 := 1#32
  let v1016 : BitVec 32 := Scalar.muli v9 c1_i32_554
  let v1017 : BitVec 32 := Scalar.addi v1015 v1016
  v1017.toNat
def k0_dev67 (d0 : Dev nD) : Nat :=
  let c0_i32_560 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_559 : BitVec 32 := 4#32
  let v1027 : BitVec 32 := Scalar.muli v2 c4_i32_559
  let v1028 : BitVec 32 := Scalar.addi c0_i32_560 v1027
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_561 : BitVec 32 := 2#32
  let v1029 : BitVec 32 := Scalar.muli v5 c2_i32_561
  let v1030 : BitVec 32 := Scalar.addi v1028 v1029
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_562 : BitVec 32 := 1#32
  let v1031 : BitVec 32 := Scalar.muli v9 c1_i32_562
  let v1032 : BitVec 32 := Scalar.addi v1030 v1031
  v1032.toNat
def k0_off3 (d0 : Dev nD) (c5632_i32_566 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c32768_i32 : BitVec 32 := 32768#32
  let v57 : BitVec 32 := Scalar.muli v8 c32768_i32
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_8 v2
  let c0_i32 : BitVec 32 := 0#32
  let v20 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_9 : BitVec 32 := 1#32
  let v21 : BitVec 32 := Scalar.subi c1_i32_9 v5
  let v22 : BitVec 32 := Scalar.select v20 v5 v21
  let v23 : BitVec 32 := Scalar.addi v19 v22
  let c2_i32_23 : BitVec 32 := 2#32
  let v46 : BitVec 32 := Scalar.addi v23 c2_i32_23
  let c4_i32_24 : BitVec 32 := 4#32
  let c0_i32_25 : BitVec 32 := 0#32
  let v47 : BitVec 1 := Scalar.cmpi .eq c4_i32_24 c0_i32_25
  let c1_i32_26 : BitVec 32 := 1#32
  let v48 : BitVec 32 := Scalar.select v47 c1_i32_26 c4_i32_24
  let v49 : BitVec 32 := Scalar.remsi v46 v48
  let c0_i32_28 : BitVec 32 := 0#32
  let v51 : BitVec 1 := Scalar.cmpi .slt v49 c0_i32_28
  let c0_i32_29 : BitVec 32 := 0#32
  let v52 : BitVec 1 := Scalar.cmpi .slt v48 c0_i32_29
  let v53 : BitVec 1 := Scalar.xori v51 v52
  let c0_i32_27 : BitVec 32 := 0#32
  let v50 : BitVec 1 := Scalar.cmpi .ne v49 c0_i32_27
  let v54 : BitVec 1 := Scalar.andi v53 v50
  let v55 : BitVec 32 := Scalar.addi v49 v48
  let v56 : BitVec 32 := Scalar.select v54 v55 v49
  let c8192_i32_565 : BitVec 32 := 8192#32
  let v1039 : BitVec 32 := Scalar.muli v56 c8192_i32_565
  let v1040 : BitVec 32 := Scalar.addi v1039 c5632_i32_566
  let v1041 : BitVec 32 := Scalar.addi v57 v1040
  let c0_i32_572 : BitVec 32 := 0#32
  ![v1041.toNat, 0]
def k0_off4 (d0 : Dev nD) (c5632_i32_566 : BitVec 32) : Fin 2 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_8 v2
  let c0_i32 : BitVec 32 := 0#32
  let v20 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_9 : BitVec 32 := 1#32
  let v21 : BitVec 32 := Scalar.subi c1_i32_9 v5
  let v22 : BitVec 32 := Scalar.select v20 v5 v21
  let v23 : BitVec 32 := Scalar.addi v19 v22
  let c2_i32_23 : BitVec 32 := 2#32
  let v46 : BitVec 32 := Scalar.addi v23 c2_i32_23
  let c4_i32_24 : BitVec 32 := 4#32
  let c0_i32_25 : BitVec 32 := 0#32
  let v47 : BitVec 1 := Scalar.cmpi .eq c4_i32_24 c0_i32_25
  let c1_i32_26 : BitVec 32 := 1#32
  let v48 : BitVec 32 := Scalar.select v47 c1_i32_26 c4_i32_24
  let v49 : BitVec 32 := Scalar.remsi v46 v48
  let c0_i32_28 : BitVec 32 := 0#32
  let v51 : BitVec 1 := Scalar.cmpi .slt v49 c0_i32_28
  let c0_i32_29 : BitVec 32 := 0#32
  let v52 : BitVec 1 := Scalar.cmpi .slt v48 c0_i32_29
  let v53 : BitVec 1 := Scalar.xori v51 v52
  let c0_i32_27 : BitVec 32 := 0#32
  let v50 : BitVec 1 := Scalar.cmpi .ne v49 c0_i32_27
  let v54 : BitVec 1 := Scalar.andi v53 v50
  let v55 : BitVec 32 := Scalar.addi v49 v48
  let v56 : BitVec 32 := Scalar.select v54 v55 v49
  let c8192_i32_565 : BitVec 32 := 8192#32
  let v1039 : BitVec 32 := Scalar.muli v56 c8192_i32_565
  let v1040 : BitVec 32 := Scalar.addi v1039 c5632_i32_566
  let c0_i32_573 : BitVec 32 := 0#32
  ![v1040.toNat, 0]
def k0_dev68 (d0 : Dev nD) : Nat :=
  let c0_i32_569 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_568 : BitVec 32 := 4#32
  let v1042 : BitVec 32 := Scalar.muli v2 c4_i32_568
  let v1043 : BitVec 32 := Scalar.addi c0_i32_569 v1042
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_570 : BitVec 32 := 2#32
  let v1044 : BitVec 32 := Scalar.muli v5 c2_i32_570
  let v1045 : BitVec 32 := Scalar.addi v1043 v1044
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_571 : BitVec 32 := 1#32
  let v1046 : BitVec 32 := Scalar.muli v9 c1_i32_571
  let v1047 : BitVec 32 := Scalar.addi v1045 v1046
  v1047.toNat
def k0_dev69 (d0 : Dev nD) : Nat :=
  let c0_i32_578 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_577 : BitVec 32 := 4#32
  let v1057 : BitVec 32 := Scalar.muli v2 c4_i32_577
  let v1058 : BitVec 32 := Scalar.addi c0_i32_578 v1057
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_579 : BitVec 32 := 2#32
  let v1059 : BitVec 32 := Scalar.muli v5 c2_i32_579
  let v1060 : BitVec 32 := Scalar.addi v1058 v1059
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_580 : BitVec 32 := 1#32
  let v1061 : BitVec 32 := Scalar.muli v9 c1_i32_580
  let v1062 : BitVec 32 := Scalar.addi v1060 v1061
  v1062.toNat
def k0_dev70 (d0 : Dev nD) : Nat :=
  let c0_i32_587 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_586 : BitVec 32 := 4#32
  let v1072 : BitVec 32 := Scalar.muli v2 c4_i32_586
  let v1073 : BitVec 32 := Scalar.addi c0_i32_587 v1072
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_588 : BitVec 32 := 2#32
  let v1074 : BitVec 32 := Scalar.muli v5 c2_i32_588
  let v1075 : BitVec 32 := Scalar.addi v1073 v1074
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_589 : BitVec 32 := 1#32
  let v1076 : BitVec 32 := Scalar.muli v9 c1_i32_589
  let v1077 : BitVec 32 := Scalar.addi v1075 v1076
  v1077.toNat
def k0_dev71 (d0 : Dev nD) : Nat :=
  let c0_i32_596 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_595 : BitVec 32 := 4#32
  let v1087 : BitVec 32 := Scalar.muli v2 c4_i32_595
  let v1088 : BitVec 32 := Scalar.addi c0_i32_596 v1087
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_597 : BitVec 32 := 2#32
  let v1089 : BitVec 32 := Scalar.muli v5 c2_i32_597
  let v1090 : BitVec 32 := Scalar.addi v1088 v1089
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_598 : BitVec 32 := 1#32
  let v1091 : BitVec 32 := Scalar.muli v9 c1_i32_598
  let v1092 : BitVec 32 := Scalar.addi v1090 v1091
  v1092.toNat
def k0_dev72 (d0 : Dev nD) : Nat :=
  let c0_i32_605 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_604 : BitVec 32 := 4#32
  let v1102 : BitVec 32 := Scalar.muli v2 c4_i32_604
  let v1103 : BitVec 32 := Scalar.addi c0_i32_605 v1102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_606 : BitVec 32 := 2#32
  let v1104 : BitVec 32 := Scalar.muli v5 c2_i32_606
  let v1105 : BitVec 32 := Scalar.addi v1103 v1104
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_607 : BitVec 32 := 1#32
  let v1106 : BitVec 32 := Scalar.muli v9 c1_i32_607
  let v1107 : BitVec 32 := Scalar.addi v1105 v1106
  v1107.toNat
def k0_dev73 (d0 : Dev nD) : Nat :=
  let c0_i32_614 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_613 : BitVec 32 := 4#32
  let v1117 : BitVec 32 := Scalar.muli v2 c4_i32_613
  let v1118 : BitVec 32 := Scalar.addi c0_i32_614 v1117
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_615 : BitVec 32 := 2#32
  let v1119 : BitVec 32 := Scalar.muli v5 c2_i32_615
  let v1120 : BitVec 32 := Scalar.addi v1118 v1119
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_616 : BitVec 32 := 1#32
  let v1121 : BitVec 32 := Scalar.muli v9 c1_i32_616
  let v1122 : BitVec 32 := Scalar.addi v1120 v1121
  v1122.toNat
def k0_dev74 (d0 : Dev nD) : Nat :=
  let c0_i32_623 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_622 : BitVec 32 := 4#32
  let v1132 : BitVec 32 := Scalar.muli v2 c4_i32_622
  let v1133 : BitVec 32 := Scalar.addi c0_i32_623 v1132
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_624 : BitVec 32 := 2#32
  let v1134 : BitVec 32 := Scalar.muli v5 c2_i32_624
  let v1135 : BitVec 32 := Scalar.addi v1133 v1134
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_625 : BitVec 32 := 1#32
  let v1136 : BitVec 32 := Scalar.muli v9 c1_i32_625
  let v1137 : BitVec 32 := Scalar.addi v1135 v1136
  v1137.toNat
def k0_dev75 (d0 : Dev nD) : Nat :=
  let c0_i32_632 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_631 : BitVec 32 := 4#32
  let v1147 : BitVec 32 := Scalar.muli v2 c4_i32_631
  let v1148 : BitVec 32 := Scalar.addi c0_i32_632 v1147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_633 : BitVec 32 := 2#32
  let v1149 : BitVec 32 := Scalar.muli v5 c2_i32_633
  let v1150 : BitVec 32 := Scalar.addi v1148 v1149
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_634 : BitVec 32 := 1#32
  let v1151 : BitVec 32 := Scalar.muli v9 c1_i32_634
  let v1152 : BitVec 32 := Scalar.addi v1150 v1151
  v1152.toNat
def k0_dev76 (d0 : Dev nD) : Nat :=
  let c0_i32_641 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_640 : BitVec 32 := 4#32
  let v1162 : BitVec 32 := Scalar.muli v2 c4_i32_640
  let v1163 : BitVec 32 := Scalar.addi c0_i32_641 v1162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_642 : BitVec 32 := 2#32
  let v1164 : BitVec 32 := Scalar.muli v5 c2_i32_642
  let v1165 : BitVec 32 := Scalar.addi v1163 v1164
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_643 : BitVec 32 := 1#32
  let v1166 : BitVec 32 := Scalar.muli v9 c1_i32_643
  let v1167 : BitVec 32 := Scalar.addi v1165 v1166
  v1167.toNat
def k0_dev77 (d0 : Dev nD) : Nat :=
  let c0_i32_650 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_649 : BitVec 32 := 4#32
  let v1177 : BitVec 32 := Scalar.muli v2 c4_i32_649
  let v1178 : BitVec 32 := Scalar.addi c0_i32_650 v1177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_651 : BitVec 32 := 2#32
  let v1179 : BitVec 32 := Scalar.muli v5 c2_i32_651
  let v1180 : BitVec 32 := Scalar.addi v1178 v1179
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_652 : BitVec 32 := 1#32
  let v1181 : BitVec 32 := Scalar.muli v9 c1_i32_652
  let v1182 : BitVec 32 := Scalar.addi v1180 v1181
  v1182.toNat
def k0_dev78 (d0 : Dev nD) : Nat :=
  let c0_i32_659 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_658 : BitVec 32 := 4#32
  let v1192 : BitVec 32 := Scalar.muli v2 c4_i32_658
  let v1193 : BitVec 32 := Scalar.addi c0_i32_659 v1192
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_660 : BitVec 32 := 2#32
  let v1194 : BitVec 32 := Scalar.muli v5 c2_i32_660
  let v1195 : BitVec 32 := Scalar.addi v1193 v1194
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_661 : BitVec 32 := 1#32
  let v1196 : BitVec 32 := Scalar.muli v9 c1_i32_661
  let v1197 : BitVec 32 := Scalar.addi v1195 v1196
  v1197.toNat
def k0_dev79 (d0 : Dev nD) : Nat :=
  let c0_i32_668 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_667 : BitVec 32 := 4#32
  let v1207 : BitVec 32 := Scalar.muli v2 c4_i32_667
  let v1208 : BitVec 32 := Scalar.addi c0_i32_668 v1207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_669 : BitVec 32 := 2#32
  let v1209 : BitVec 32 := Scalar.muli v5 c2_i32_669
  let v1210 : BitVec 32 := Scalar.addi v1208 v1209
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_670 : BitVec 32 := 1#32
  let v1211 : BitVec 32 := Scalar.muli v9 c1_i32_670
  let v1212 : BitVec 32 := Scalar.addi v1210 v1211
  v1212.toNat
def k0_dev80 (d0 : Dev nD) : Nat :=
  let c0_i32_677 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_676 : BitVec 32 := 4#32
  let v1222 : BitVec 32 := Scalar.muli v2 c4_i32_676
  let v1223 : BitVec 32 := Scalar.addi c0_i32_677 v1222
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_678 : BitVec 32 := 2#32
  let v1224 : BitVec 32 := Scalar.muli v5 c2_i32_678
  let v1225 : BitVec 32 := Scalar.addi v1223 v1224
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_679 : BitVec 32 := 1#32
  let v1226 : BitVec 32 := Scalar.muli v9 c1_i32_679
  let v1227 : BitVec 32 := Scalar.addi v1225 v1226
  v1227.toNat
def k0_dev81 (d0 : Dev nD) : Nat :=
  let c0_i32_686 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_685 : BitVec 32 := 4#32
  let v1237 : BitVec 32 := Scalar.muli v2 c4_i32_685
  let v1238 : BitVec 32 := Scalar.addi c0_i32_686 v1237
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_687 : BitVec 32 := 2#32
  let v1239 : BitVec 32 := Scalar.muli v5 c2_i32_687
  let v1240 : BitVec 32 := Scalar.addi v1238 v1239
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_688 : BitVec 32 := 1#32
  let v1241 : BitVec 32 := Scalar.muli v9 c1_i32_688
  let v1242 : BitVec 32 := Scalar.addi v1240 v1241
  v1242.toNat
def k0_dev82 (d0 : Dev nD) : Nat :=
  let c0_i32_695 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_694 : BitVec 32 := 4#32
  let v1252 : BitVec 32 := Scalar.muli v2 c4_i32_694
  let v1253 : BitVec 32 := Scalar.addi c0_i32_695 v1252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_696 : BitVec 32 := 2#32
  let v1254 : BitVec 32 := Scalar.muli v5 c2_i32_696
  let v1255 : BitVec 32 := Scalar.addi v1253 v1254
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_697 : BitVec 32 := 1#32
  let v1256 : BitVec 32 := Scalar.muli v9 c1_i32_697
  let v1257 : BitVec 32 := Scalar.addi v1255 v1256
  v1257.toNat
def k0_dev83 (d0 : Dev nD) : Nat :=
  let c0_i32_704 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_703 : BitVec 32 := 4#32
  let v1267 : BitVec 32 := Scalar.muli v2 c4_i32_703
  let v1268 : BitVec 32 := Scalar.addi c0_i32_704 v1267
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_705 : BitVec 32 := 2#32
  let v1269 : BitVec 32 := Scalar.muli v5 c2_i32_705
  let v1270 : BitVec 32 := Scalar.addi v1268 v1269
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_706 : BitVec 32 := 1#32
  let v1271 : BitVec 32 := Scalar.muli v9 c1_i32_706
  let v1272 : BitVec 32 := Scalar.addi v1270 v1271
  v1272.toNat
def k0_dev84 (d0 : Dev nD) : Nat :=
  let c0_i32_713 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_712 : BitVec 32 := 4#32
  let v1282 : BitVec 32 := Scalar.muli v2 c4_i32_712
  let v1283 : BitVec 32 := Scalar.addi c0_i32_713 v1282
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_714 : BitVec 32 := 2#32
  let v1284 : BitVec 32 := Scalar.muli v5 c2_i32_714
  let v1285 : BitVec 32 := Scalar.addi v1283 v1284
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_715 : BitVec 32 := 1#32
  let v1286 : BitVec 32 := Scalar.muli v9 c1_i32_715
  let v1287 : BitVec 32 := Scalar.addi v1285 v1286
  v1287.toNat
def k0_dev85 (d0 : Dev nD) : Nat :=
  let c0_i32_722 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_721 : BitVec 32 := 4#32
  let v1297 : BitVec 32 := Scalar.muli v2 c4_i32_721
  let v1298 : BitVec 32 := Scalar.addi c0_i32_722 v1297
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_723 : BitVec 32 := 2#32
  let v1299 : BitVec 32 := Scalar.muli v5 c2_i32_723
  let v1300 : BitVec 32 := Scalar.addi v1298 v1299
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_724 : BitVec 32 := 1#32
  let v1301 : BitVec 32 := Scalar.muli v9 c1_i32_724
  let v1302 : BitVec 32 := Scalar.addi v1300 v1301
  v1302.toNat
def k0_dev86 (d0 : Dev nD) : Nat :=
  let c0_i32_731 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_730 : BitVec 32 := 4#32
  let v1312 : BitVec 32 := Scalar.muli v2 c4_i32_730
  let v1313 : BitVec 32 := Scalar.addi c0_i32_731 v1312
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_732 : BitVec 32 := 2#32
  let v1314 : BitVec 32 := Scalar.muli v5 c2_i32_732
  let v1315 : BitVec 32 := Scalar.addi v1313 v1314
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_733 : BitVec 32 := 1#32
  let v1316 : BitVec 32 := Scalar.muli v9 c1_i32_733
  let v1317 : BitVec 32 := Scalar.addi v1315 v1316
  v1317.toNat
def k0_dev87 (d0 : Dev nD) : Nat :=
  let c0_i32_740 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_739 : BitVec 32 := 4#32
  let v1327 : BitVec 32 := Scalar.muli v2 c4_i32_739
  let v1328 : BitVec 32 := Scalar.addi c0_i32_740 v1327
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_741 : BitVec 32 := 2#32
  let v1329 : BitVec 32 := Scalar.muli v5 c2_i32_741
  let v1330 : BitVec 32 := Scalar.addi v1328 v1329
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_742 : BitVec 32 := 1#32
  let v1331 : BitVec 32 := Scalar.muli v9 c1_i32_742
  let v1332 : BitVec 32 := Scalar.addi v1330 v1331
  v1332.toNat
def k0_off5 (d0 : Dev nD) (c0_i32_754 : BitVec 32) : Fin 2 → Nat :=
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_30 v8
  let c32768_i32_31 : BitVec 32 := 32768#32
  let v59 : BitVec 32 := Scalar.muli v58 c32768_i32_31
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_8 v2
  let c0_i32 : BitVec 32 := 0#32
  let v20 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_9 : BitVec 32 := 1#32
  let v21 : BitVec 32 := Scalar.subi c1_i32_9 v5
  let v22 : BitVec 32 := Scalar.select v20 v5 v21
  let v23 : BitVec 32 := Scalar.addi v19 v22
  let c8192_i32_753 : BitVec 32 := 8192#32
  let v1349 : BitVec 32 := Scalar.muli v23 c8192_i32_753
  let v1350 : BitVec 32 := Scalar.addi v59 v1349
  let v1351 : BitVec 32 := Scalar.addi v1350 c0_i32_754
  let c0_i32_761 : BitVec 32 := 0#32
  ![v1351.toNat, 0]
def k0_dev88 (d0 : Dev nD) : Nat :=
  let c0_i32_758 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_757 : BitVec 32 := 4#32
  let v1352 : BitVec 32 := Scalar.muli v12 c4_i32_757
  let v1353 : BitVec 32 := Scalar.addi c0_i32_758 v1352
  let c1_i32_5 : BitVec 32 := 1#32
  let v13 : BitVec 32 := Scalar.subi c1_i32_5 v5
  let v14 : BitVec 32 := Scalar.select v10 v13 v5
  let c2_i32_759 : BitVec 32 := 2#32
  let v1354 : BitVec 32 := Scalar.muli v14 c2_i32_759
  let v1355 : BitVec 32 := Scalar.addi v1353 v1354
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_760 : BitVec 32 := 1#32
  let v1356 : BitVec 32 := Scalar.muli v8 c1_i32_760
  let v1357 : BitVec 32 := Scalar.addi v1355 v1356
  v1357.toNat
def k0_dev89 (d0 : Dev nD) : Nat :=
  let c0_i32_766 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_765 : BitVec 32 := 4#32
  let v1364 : BitVec 32 := Scalar.muli v16 c4_i32_765
  let v1365 : BitVec 32 := Scalar.addi c0_i32_766 v1364
  let c1_i32_7 : BitVec 32 := 1#32
  let v17 : BitVec 32 := Scalar.subi c1_i32_7 v5
  let v18 : BitVec 32 := Scalar.select v10 v5 v17
  let c2_i32_767 : BitVec 32 := 2#32
  let v1366 : BitVec 32 := Scalar.muli v18 c2_i32_767
  let v1367 : BitVec 32 := Scalar.addi v1365 v1366
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_768 : BitVec 32 := 1#32
  let v1368 : BitVec 32 := Scalar.muli v8 c1_i32_768
  let v1369 : BitVec 32 := Scalar.addi v1367 v1368
  v1369.toNat
def k0_off6 (d0 : Dev nD) (c0_i32_783 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c32768_i32 : BitVec 32 := 32768#32
  let v57 : BitVec 32 := Scalar.muli v8 c32768_i32
  let v1386 : BitVec 32 := Scalar.addi v57 c0_i32_783
  let c0_i32_786 : BitVec 32 := 0#32
  ![v1386.toNat, 0]
def k0_dev90 (d0 : Dev nD) : Nat :=
  let c0_i32_802 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_801 : BitVec 32 := 4#32
  let v1405 : BitVec 32 := Scalar.muli v12 c4_i32_801
  let v1406 : BitVec 32 := Scalar.addi c0_i32_802 v1405
  let c1_i32_5 : BitVec 32 := 1#32
  let v13 : BitVec 32 := Scalar.subi c1_i32_5 v5
  let v14 : BitVec 32 := Scalar.select v10 v13 v5
  let c2_i32_803 : BitVec 32 := 2#32
  let v1407 : BitVec 32 := Scalar.muli v14 c2_i32_803
  let v1408 : BitVec 32 := Scalar.addi v1406 v1407
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_804 : BitVec 32 := 1#32
  let v1409 : BitVec 32 := Scalar.muli v8 c1_i32_804
  let v1410 : BitVec 32 := Scalar.addi v1408 v1409
  v1410.toNat
def k0_dev91 (d0 : Dev nD) : Nat :=
  let c0_i32_810 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_809 : BitVec 32 := 4#32
  let v1417 : BitVec 32 := Scalar.muli v16 c4_i32_809
  let v1418 : BitVec 32 := Scalar.addi c0_i32_810 v1417
  let c1_i32_7 : BitVec 32 := 1#32
  let v17 : BitVec 32 := Scalar.subi c1_i32_7 v5
  let v18 : BitVec 32 := Scalar.select v10 v5 v17
  let c2_i32_811 : BitVec 32 := 2#32
  let v1419 : BitVec 32 := Scalar.muli v18 c2_i32_811
  let v1420 : BitVec 32 := Scalar.addi v1418 v1419
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_812 : BitVec 32 := 1#32
  let v1421 : BitVec 32 := Scalar.muli v8 c1_i32_812
  let v1422 : BitVec 32 := Scalar.addi v1420 v1421
  v1422.toNat
def k0_dev92 (d0 : Dev nD) : Nat :=
  let c0_i32_846 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_845 : BitVec 32 := 4#32
  let v1458 : BitVec 32 := Scalar.muli v12 c4_i32_845
  let v1459 : BitVec 32 := Scalar.addi c0_i32_846 v1458
  let c1_i32_5 : BitVec 32 := 1#32
  let v13 : BitVec 32 := Scalar.subi c1_i32_5 v5
  let v14 : BitVec 32 := Scalar.select v10 v13 v5
  let c2_i32_847 : BitVec 32 := 2#32
  let v1460 : BitVec 32 := Scalar.muli v14 c2_i32_847
  let v1461 : BitVec 32 := Scalar.addi v1459 v1460
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_848 : BitVec 32 := 1#32
  let v1462 : BitVec 32 := Scalar.muli v8 c1_i32_848
  let v1463 : BitVec 32 := Scalar.addi v1461 v1462
  v1463.toNat
def k0_dev93 (d0 : Dev nD) : Nat :=
  let c0_i32_854 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_853 : BitVec 32 := 4#32
  let v1470 : BitVec 32 := Scalar.muli v16 c4_i32_853
  let v1471 : BitVec 32 := Scalar.addi c0_i32_854 v1470
  let c1_i32_7 : BitVec 32 := 1#32
  let v17 : BitVec 32 := Scalar.subi c1_i32_7 v5
  let v18 : BitVec 32 := Scalar.select v10 v5 v17
  let c2_i32_855 : BitVec 32 := 2#32
  let v1472 : BitVec 32 := Scalar.muli v18 c2_i32_855
  let v1473 : BitVec 32 := Scalar.addi v1471 v1472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_856 : BitVec 32 := 1#32
  let v1474 : BitVec 32 := Scalar.muli v8 c1_i32_856
  let v1475 : BitVec 32 := Scalar.addi v1473 v1474
  v1475.toNat
def k0_dev94 (d0 : Dev nD) : Nat :=
  let c0_i32_895 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_894 : BitVec 32 := 4#32
  let v1516 : BitVec 32 := Scalar.muli v12 c4_i32_894
  let v1517 : BitVec 32 := Scalar.addi c0_i32_895 v1516
  let c1_i32_5 : BitVec 32 := 1#32
  let v13 : BitVec 32 := Scalar.subi c1_i32_5 v5
  let v14 : BitVec 32 := Scalar.select v10 v13 v5
  let c2_i32_896 : BitVec 32 := 2#32
  let v1518 : BitVec 32 := Scalar.muli v14 c2_i32_896
  let v1519 : BitVec 32 := Scalar.addi v1517 v1518
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_897 : BitVec 32 := 1#32
  let v1520 : BitVec 32 := Scalar.muli v8 c1_i32_897
  let v1521 : BitVec 32 := Scalar.addi v1519 v1520
  v1521.toNat
def k0_dev95 (d0 : Dev nD) : Nat :=
  let c0_i32_903 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_902 : BitVec 32 := 4#32
  let v1528 : BitVec 32 := Scalar.muli v16 c4_i32_902
  let v1529 : BitVec 32 := Scalar.addi c0_i32_903 v1528
  let c1_i32_7 : BitVec 32 := 1#32
  let v17 : BitVec 32 := Scalar.subi c1_i32_7 v5
  let v18 : BitVec 32 := Scalar.select v10 v5 v17
  let c2_i32_904 : BitVec 32 := 2#32
  let v1530 : BitVec 32 := Scalar.muli v18 c2_i32_904
  let v1531 : BitVec 32 := Scalar.addi v1529 v1530
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_905 : BitVec 32 := 1#32
  let v1532 : BitVec 32 := Scalar.muli v8 c1_i32_905
  let v1533 : BitVec 32 := Scalar.addi v1531 v1532
  v1533.toNat
def k0_dev96 (d0 : Dev nD) : Nat :=
  let c0_i32_944 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_943 : BitVec 32 := 4#32
  let v1574 : BitVec 32 := Scalar.muli v12 c4_i32_943
  let v1575 : BitVec 32 := Scalar.addi c0_i32_944 v1574
  let c1_i32_5 : BitVec 32 := 1#32
  let v13 : BitVec 32 := Scalar.subi c1_i32_5 v5
  let v14 : BitVec 32 := Scalar.select v10 v13 v5
  let c2_i32_945 : BitVec 32 := 2#32
  let v1576 : BitVec 32 := Scalar.muli v14 c2_i32_945
  let v1577 : BitVec 32 := Scalar.addi v1575 v1576
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_946 : BitVec 32 := 1#32
  let v1578 : BitVec 32 := Scalar.muli v8 c1_i32_946
  let v1579 : BitVec 32 := Scalar.addi v1577 v1578
  v1579.toNat
def k0_dev97 (d0 : Dev nD) : Nat :=
  let c0_i32_952 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_951 : BitVec 32 := 4#32
  let v1586 : BitVec 32 := Scalar.muli v16 c4_i32_951
  let v1587 : BitVec 32 := Scalar.addi c0_i32_952 v1586
  let c1_i32_7 : BitVec 32 := 1#32
  let v17 : BitVec 32 := Scalar.subi c1_i32_7 v5
  let v18 : BitVec 32 := Scalar.select v10 v5 v17
  let c2_i32_953 : BitVec 32 := 2#32
  let v1588 : BitVec 32 := Scalar.muli v18 c2_i32_953
  let v1589 : BitVec 32 := Scalar.addi v1587 v1588
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_954 : BitVec 32 := 1#32
  let v1590 : BitVec 32 := Scalar.muli v8 c1_i32_954
  let v1591 : BitVec 32 := Scalar.addi v1589 v1590
  v1591.toNat
def k0_dev98 (d0 : Dev nD) : Nat :=
  let c0_i32_993 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_992 : BitVec 32 := 4#32
  let v1632 : BitVec 32 := Scalar.muli v12 c4_i32_992
  let v1633 : BitVec 32 := Scalar.addi c0_i32_993 v1632
  let c1_i32_5 : BitVec 32 := 1#32
  let v13 : BitVec 32 := Scalar.subi c1_i32_5 v5
  let v14 : BitVec 32 := Scalar.select v10 v13 v5
  let c2_i32_994 : BitVec 32 := 2#32
  let v1634 : BitVec 32 := Scalar.muli v14 c2_i32_994
  let v1635 : BitVec 32 := Scalar.addi v1633 v1634
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_995 : BitVec 32 := 1#32
  let v1636 : BitVec 32 := Scalar.muli v8 c1_i32_995
  let v1637 : BitVec 32 := Scalar.addi v1635 v1636
  v1637.toNat
def k0_dev99 (d0 : Dev nD) : Nat :=
  let c0_i32_1001 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1000 : BitVec 32 := 4#32
  let v1644 : BitVec 32 := Scalar.muli v16 c4_i32_1000
  let v1645 : BitVec 32 := Scalar.addi c0_i32_1001 v1644
  let c1_i32_7 : BitVec 32 := 1#32
  let v17 : BitVec 32 := Scalar.subi c1_i32_7 v5
  let v18 : BitVec 32 := Scalar.select v10 v5 v17
  let c2_i32_1002 : BitVec 32 := 2#32
  let v1646 : BitVec 32 := Scalar.muli v18 c2_i32_1002
  let v1647 : BitVec 32 := Scalar.addi v1645 v1646
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1003 : BitVec 32 := 1#32
  let v1648 : BitVec 32 := Scalar.muli v8 c1_i32_1003
  let v1649 : BitVec 32 := Scalar.addi v1647 v1648
  v1649.toNat
def k0_dev100 (d0 : Dev nD) : Nat :=
  let c0_i32_1042 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1041 : BitVec 32 := 4#32
  let v1690 : BitVec 32 := Scalar.muli v12 c4_i32_1041
  let v1691 : BitVec 32 := Scalar.addi c0_i32_1042 v1690
  let c1_i32_5 : BitVec 32 := 1#32
  let v13 : BitVec 32 := Scalar.subi c1_i32_5 v5
  let v14 : BitVec 32 := Scalar.select v10 v13 v5
  let c2_i32_1043 : BitVec 32 := 2#32
  let v1692 : BitVec 32 := Scalar.muli v14 c2_i32_1043
  let v1693 : BitVec 32 := Scalar.addi v1691 v1692
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1044 : BitVec 32 := 1#32
  let v1694 : BitVec 32 := Scalar.muli v8 c1_i32_1044
  let v1695 : BitVec 32 := Scalar.addi v1693 v1694
  v1695.toNat
def k0_dev101 (d0 : Dev nD) : Nat :=
  let c0_i32_1050 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1049 : BitVec 32 := 4#32
  let v1702 : BitVec 32 := Scalar.muli v16 c4_i32_1049
  let v1703 : BitVec 32 := Scalar.addi c0_i32_1050 v1702
  let c1_i32_7 : BitVec 32 := 1#32
  let v17 : BitVec 32 := Scalar.subi c1_i32_7 v5
  let v18 : BitVec 32 := Scalar.select v10 v5 v17
  let c2_i32_1051 : BitVec 32 := 2#32
  let v1704 : BitVec 32 := Scalar.muli v18 c2_i32_1051
  let v1705 : BitVec 32 := Scalar.addi v1703 v1704
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1052 : BitVec 32 := 1#32
  let v1706 : BitVec 32 := Scalar.muli v8 c1_i32_1052
  let v1707 : BitVec 32 := Scalar.addi v1705 v1706
  v1707.toNat
def k0_dev102 (d0 : Dev nD) : Nat :=
  let c0_i32_1091 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1090 : BitVec 32 := 4#32
  let v1748 : BitVec 32 := Scalar.muli v12 c4_i32_1090
  let v1749 : BitVec 32 := Scalar.addi c0_i32_1091 v1748
  let c1_i32_5 : BitVec 32 := 1#32
  let v13 : BitVec 32 := Scalar.subi c1_i32_5 v5
  let v14 : BitVec 32 := Scalar.select v10 v13 v5
  let c2_i32_1092 : BitVec 32 := 2#32
  let v1750 : BitVec 32 := Scalar.muli v14 c2_i32_1092
  let v1751 : BitVec 32 := Scalar.addi v1749 v1750
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1093 : BitVec 32 := 1#32
  let v1752 : BitVec 32 := Scalar.muli v8 c1_i32_1093
  let v1753 : BitVec 32 := Scalar.addi v1751 v1752
  v1753.toNat
def k0_dev103 (d0 : Dev nD) : Nat :=
  let c0_i32_1099 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1098 : BitVec 32 := 4#32
  let v1760 : BitVec 32 := Scalar.muli v16 c4_i32_1098
  let v1761 : BitVec 32 := Scalar.addi c0_i32_1099 v1760
  let c1_i32_7 : BitVec 32 := 1#32
  let v17 : BitVec 32 := Scalar.subi c1_i32_7 v5
  let v18 : BitVec 32 := Scalar.select v10 v5 v17
  let c2_i32_1100 : BitVec 32 := 2#32
  let v1762 : BitVec 32 := Scalar.muli v18 c2_i32_1100
  let v1763 : BitVec 32 := Scalar.addi v1761 v1762
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1101 : BitVec 32 := 1#32
  let v1764 : BitVec 32 := Scalar.muli v8 c1_i32_1101
  let v1765 : BitVec 32 := Scalar.addi v1763 v1764
  v1765.toNat
def k0_dev104 (d0 : Dev nD) : Nat :=
  let c0_i32_1140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1139 : BitVec 32 := 4#32
  let v1806 : BitVec 32 := Scalar.muli v12 c4_i32_1139
  let v1807 : BitVec 32 := Scalar.addi c0_i32_1140 v1806
  let c1_i32_5 : BitVec 32 := 1#32
  let v13 : BitVec 32 := Scalar.subi c1_i32_5 v5
  let v14 : BitVec 32 := Scalar.select v10 v13 v5
  let c2_i32_1141 : BitVec 32 := 2#32
  let v1808 : BitVec 32 := Scalar.muli v14 c2_i32_1141
  let v1809 : BitVec 32 := Scalar.addi v1807 v1808
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1142 : BitVec 32 := 1#32
  let v1810 : BitVec 32 := Scalar.muli v8 c1_i32_1142
  let v1811 : BitVec 32 := Scalar.addi v1809 v1810
  v1811.toNat
def k0_dev105 (d0 : Dev nD) : Nat :=
  let c0_i32_1148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1147 : BitVec 32 := 4#32
  let v1818 : BitVec 32 := Scalar.muli v16 c4_i32_1147
  let v1819 : BitVec 32 := Scalar.addi c0_i32_1148 v1818
  let c1_i32_7 : BitVec 32 := 1#32
  let v17 : BitVec 32 := Scalar.subi c1_i32_7 v5
  let v18 : BitVec 32 := Scalar.select v10 v5 v17
  let c2_i32_1149 : BitVec 32 := 2#32
  let v1820 : BitVec 32 := Scalar.muli v18 c2_i32_1149
  let v1821 : BitVec 32 := Scalar.addi v1819 v1820
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1150 : BitVec 32 := 1#32
  let v1822 : BitVec 32 := Scalar.muli v8 c1_i32_1150
  let v1823 : BitVec 32 := Scalar.addi v1821 v1822
  v1823.toNat
def k0_dev106 (d0 : Dev nD) : Nat :=
  let c0_i32_1189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1188 : BitVec 32 := 4#32
  let v1864 : BitVec 32 := Scalar.muli v12 c4_i32_1188
  let v1865 : BitVec 32 := Scalar.addi c0_i32_1189 v1864
  let c1_i32_5 : BitVec 32 := 1#32
  let v13 : BitVec 32 := Scalar.subi c1_i32_5 v5
  let v14 : BitVec 32 := Scalar.select v10 v13 v5
  let c2_i32_1190 : BitVec 32 := 2#32
  let v1866 : BitVec 32 := Scalar.muli v14 c2_i32_1190
  let v1867 : BitVec 32 := Scalar.addi v1865 v1866
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1191 : BitVec 32 := 1#32
  let v1868 : BitVec 32 := Scalar.muli v8 c1_i32_1191
  let v1869 : BitVec 32 := Scalar.addi v1867 v1868
  v1869.toNat
def k0_dev107 (d0 : Dev nD) : Nat :=
  let c0_i32_1197 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1196 : BitVec 32 := 4#32
  let v1876 : BitVec 32 := Scalar.muli v16 c4_i32_1196
  let v1877 : BitVec 32 := Scalar.addi c0_i32_1197 v1876
  let c1_i32_7 : BitVec 32 := 1#32
  let v17 : BitVec 32 := Scalar.subi c1_i32_7 v5
  let v18 : BitVec 32 := Scalar.select v10 v5 v17
  let c2_i32_1198 : BitVec 32 := 2#32
  let v1878 : BitVec 32 := Scalar.muli v18 c2_i32_1198
  let v1879 : BitVec 32 := Scalar.addi v1877 v1878
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1199 : BitVec 32 := 1#32
  let v1880 : BitVec 32 := Scalar.muli v8 c1_i32_1199
  let v1881 : BitVec 32 := Scalar.addi v1879 v1880
  v1881.toNat
def k0_dev108 (d0 : Dev nD) : Nat :=
  let c0_i32_1238 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1237 : BitVec 32 := 4#32
  let v1922 : BitVec 32 := Scalar.muli v12 c4_i32_1237
  let v1923 : BitVec 32 := Scalar.addi c0_i32_1238 v1922
  let c1_i32_5 : BitVec 32 := 1#32
  let v13 : BitVec 32 := Scalar.subi c1_i32_5 v5
  let v14 : BitVec 32 := Scalar.select v10 v13 v5
  let c2_i32_1239 : BitVec 32 := 2#32
  let v1924 : BitVec 32 := Scalar.muli v14 c2_i32_1239
  let v1925 : BitVec 32 := Scalar.addi v1923 v1924
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1240 : BitVec 32 := 1#32
  let v1926 : BitVec 32 := Scalar.muli v8 c1_i32_1240
  let v1927 : BitVec 32 := Scalar.addi v1925 v1926
  v1927.toNat
def k0_dev109 (d0 : Dev nD) : Nat :=
  let c0_i32_1246 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1245 : BitVec 32 := 4#32
  let v1934 : BitVec 32 := Scalar.muli v16 c4_i32_1245
  let v1935 : BitVec 32 := Scalar.addi c0_i32_1246 v1934
  let c1_i32_7 : BitVec 32 := 1#32
  let v17 : BitVec 32 := Scalar.subi c1_i32_7 v5
  let v18 : BitVec 32 := Scalar.select v10 v5 v17
  let c2_i32_1247 : BitVec 32 := 2#32
  let v1936 : BitVec 32 := Scalar.muli v18 c2_i32_1247
  let v1937 : BitVec 32 := Scalar.addi v1935 v1936
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1248 : BitVec 32 := 1#32
  let v1938 : BitVec 32 := Scalar.muli v8 c1_i32_1248
  let v1939 : BitVec 32 := Scalar.addi v1937 v1938
  v1939.toNat
def k0_dev110 (d0 : Dev nD) : Nat :=
  let c0_i32_1287 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1286 : BitVec 32 := 4#32
  let v1980 : BitVec 32 := Scalar.muli v12 c4_i32_1286
  let v1981 : BitVec 32 := Scalar.addi c0_i32_1287 v1980
  let c1_i32_5 : BitVec 32 := 1#32
  let v13 : BitVec 32 := Scalar.subi c1_i32_5 v5
  let v14 : BitVec 32 := Scalar.select v10 v13 v5
  let c2_i32_1288 : BitVec 32 := 2#32
  let v1982 : BitVec 32 := Scalar.muli v14 c2_i32_1288
  let v1983 : BitVec 32 := Scalar.addi v1981 v1982
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1289 : BitVec 32 := 1#32
  let v1984 : BitVec 32 := Scalar.muli v8 c1_i32_1289
  let v1985 : BitVec 32 := Scalar.addi v1983 v1984
  v1985.toNat
def k0_dev111 (d0 : Dev nD) : Nat :=
  let c0_i32_1295 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1294 : BitVec 32 := 4#32
  let v1992 : BitVec 32 := Scalar.muli v16 c4_i32_1294
  let v1993 : BitVec 32 := Scalar.addi c0_i32_1295 v1992
  let c1_i32_7 : BitVec 32 := 1#32
  let v17 : BitVec 32 := Scalar.subi c1_i32_7 v5
  let v18 : BitVec 32 := Scalar.select v10 v5 v17
  let c2_i32_1296 : BitVec 32 := 2#32
  let v1994 : BitVec 32 := Scalar.muli v18 c2_i32_1296
  let v1995 : BitVec 32 := Scalar.addi v1993 v1994
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1297 : BitVec 32 := 1#32
  let v1996 : BitVec 32 := Scalar.muli v8 c1_i32_1297
  let v1997 : BitVec 32 := Scalar.addi v1995 v1996
  v1997.toNat
def k0_dev112 (d0 : Dev nD) : Nat :=
  let c0_i32_1336 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1335 : BitVec 32 := 4#32
  let v2038 : BitVec 32 := Scalar.muli v12 c4_i32_1335
  let v2039 : BitVec 32 := Scalar.addi c0_i32_1336 v2038
  let c1_i32_5 : BitVec 32 := 1#32
  let v13 : BitVec 32 := Scalar.subi c1_i32_5 v5
  let v14 : BitVec 32 := Scalar.select v10 v13 v5
  let c2_i32_1337 : BitVec 32 := 2#32
  let v2040 : BitVec 32 := Scalar.muli v14 c2_i32_1337
  let v2041 : BitVec 32 := Scalar.addi v2039 v2040
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1338 : BitVec 32 := 1#32
  let v2042 : BitVec 32 := Scalar.muli v8 c1_i32_1338
  let v2043 : BitVec 32 := Scalar.addi v2041 v2042
  v2043.toNat
def k0_dev113 (d0 : Dev nD) : Nat :=
  let c0_i32_1344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1343 : BitVec 32 := 4#32
  let v2050 : BitVec 32 := Scalar.muli v16 c4_i32_1343
  let v2051 : BitVec 32 := Scalar.addi c0_i32_1344 v2050
  let c1_i32_7 : BitVec 32 := 1#32
  let v17 : BitVec 32 := Scalar.subi c1_i32_7 v5
  let v18 : BitVec 32 := Scalar.select v10 v5 v17
  let c2_i32_1345 : BitVec 32 := 2#32
  let v2052 : BitVec 32 := Scalar.muli v18 c2_i32_1345
  let v2053 : BitVec 32 := Scalar.addi v2051 v2052
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1346 : BitVec 32 := 1#32
  let v2054 : BitVec 32 := Scalar.muli v8 c1_i32_1346
  let v2055 : BitVec 32 := Scalar.addi v2053 v2054
  v2055.toNat
def k0_dev114 (d0 : Dev nD) : Nat :=
  let c0_i32_1385 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1384 : BitVec 32 := 4#32
  let v2096 : BitVec 32 := Scalar.muli v12 c4_i32_1384
  let v2097 : BitVec 32 := Scalar.addi c0_i32_1385 v2096
  let c1_i32_5 : BitVec 32 := 1#32
  let v13 : BitVec 32 := Scalar.subi c1_i32_5 v5
  let v14 : BitVec 32 := Scalar.select v10 v13 v5
  let c2_i32_1386 : BitVec 32 := 2#32
  let v2098 : BitVec 32 := Scalar.muli v14 c2_i32_1386
  let v2099 : BitVec 32 := Scalar.addi v2097 v2098
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1387 : BitVec 32 := 1#32
  let v2100 : BitVec 32 := Scalar.muli v8 c1_i32_1387
  let v2101 : BitVec 32 := Scalar.addi v2099 v2100
  v2101.toNat
def k0_dev115 (d0 : Dev nD) : Nat :=
  let c0_i32_1393 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1392 : BitVec 32 := 4#32
  let v2108 : BitVec 32 := Scalar.muli v16 c4_i32_1392
  let v2109 : BitVec 32 := Scalar.addi c0_i32_1393 v2108
  let c1_i32_7 : BitVec 32 := 1#32
  let v17 : BitVec 32 := Scalar.subi c1_i32_7 v5
  let v18 : BitVec 32 := Scalar.select v10 v5 v17
  let c2_i32_1394 : BitVec 32 := 2#32
  let v2110 : BitVec 32 := Scalar.muli v18 c2_i32_1394
  let v2111 : BitVec 32 := Scalar.addi v2109 v2110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1395 : BitVec 32 := 1#32
  let v2112 : BitVec 32 := Scalar.muli v8 c1_i32_1395
  let v2113 : BitVec 32 := Scalar.addi v2111 v2112
  v2113.toNat
def k0_dev116 (d0 : Dev nD) : Nat :=
  let c0_i32_1434 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1433 : BitVec 32 := 4#32
  let v2154 : BitVec 32 := Scalar.muli v12 c4_i32_1433
  let v2155 : BitVec 32 := Scalar.addi c0_i32_1434 v2154
  let c1_i32_5 : BitVec 32 := 1#32
  let v13 : BitVec 32 := Scalar.subi c1_i32_5 v5
  let v14 : BitVec 32 := Scalar.select v10 v13 v5
  let c2_i32_1435 : BitVec 32 := 2#32
  let v2156 : BitVec 32 := Scalar.muli v14 c2_i32_1435
  let v2157 : BitVec 32 := Scalar.addi v2155 v2156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1436 : BitVec 32 := 1#32
  let v2158 : BitVec 32 := Scalar.muli v8 c1_i32_1436
  let v2159 : BitVec 32 := Scalar.addi v2157 v2158
  v2159.toNat
def k0_dev117 (d0 : Dev nD) : Nat :=
  let c0_i32_1442 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1441 : BitVec 32 := 4#32
  let v2166 : BitVec 32 := Scalar.muli v16 c4_i32_1441
  let v2167 : BitVec 32 := Scalar.addi c0_i32_1442 v2166
  let c1_i32_7 : BitVec 32 := 1#32
  let v17 : BitVec 32 := Scalar.subi c1_i32_7 v5
  let v18 : BitVec 32 := Scalar.select v10 v5 v17
  let c2_i32_1443 : BitVec 32 := 2#32
  let v2168 : BitVec 32 := Scalar.muli v18 c2_i32_1443
  let v2169 : BitVec 32 := Scalar.addi v2167 v2168
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1444 : BitVec 32 := 1#32
  let v2170 : BitVec 32 := Scalar.muli v8 c1_i32_1444
  let v2171 : BitVec 32 := Scalar.addi v2169 v2170
  v2171.toNat
def k0_dev118 (d0 : Dev nD) : Nat :=
  let c0_i32_1483 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1482 : BitVec 32 := 4#32
  let v2212 : BitVec 32 := Scalar.muli v12 c4_i32_1482
  let v2213 : BitVec 32 := Scalar.addi c0_i32_1483 v2212
  let c1_i32_5 : BitVec 32 := 1#32
  let v13 : BitVec 32 := Scalar.subi c1_i32_5 v5
  let v14 : BitVec 32 := Scalar.select v10 v13 v5
  let c2_i32_1484 : BitVec 32 := 2#32
  let v2214 : BitVec 32 := Scalar.muli v14 c2_i32_1484
  let v2215 : BitVec 32 := Scalar.addi v2213 v2214
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1485 : BitVec 32 := 1#32
  let v2216 : BitVec 32 := Scalar.muli v8 c1_i32_1485
  let v2217 : BitVec 32 := Scalar.addi v2215 v2216
  v2217.toNat
def k0_dev119 (d0 : Dev nD) : Nat :=
  let c0_i32_1491 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1490 : BitVec 32 := 4#32
  let v2224 : BitVec 32 := Scalar.muli v16 c4_i32_1490
  let v2225 : BitVec 32 := Scalar.addi c0_i32_1491 v2224
  let c1_i32_7 : BitVec 32 := 1#32
  let v17 : BitVec 32 := Scalar.subi c1_i32_7 v5
  let v18 : BitVec 32 := Scalar.select v10 v5 v17
  let c2_i32_1492 : BitVec 32 := 2#32
  let v2226 : BitVec 32 := Scalar.muli v18 c2_i32_1492
  let v2227 : BitVec 32 := Scalar.addi v2225 v2226
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1493 : BitVec 32 := 1#32
  let v2228 : BitVec 32 := Scalar.muli v8 c1_i32_1493
  let v2229 : BitVec 32 := Scalar.addi v2227 v2228
  v2229.toNat
def k0_dev120 (d0 : Dev nD) : Nat :=
  let c0_i32_1532 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1531 : BitVec 32 := 4#32
  let v2270 : BitVec 32 := Scalar.muli v12 c4_i32_1531
  let v2271 : BitVec 32 := Scalar.addi c0_i32_1532 v2270
  let c1_i32_5 : BitVec 32 := 1#32
  let v13 : BitVec 32 := Scalar.subi c1_i32_5 v5
  let v14 : BitVec 32 := Scalar.select v10 v13 v5
  let c2_i32_1533 : BitVec 32 := 2#32
  let v2272 : BitVec 32 := Scalar.muli v14 c2_i32_1533
  let v2273 : BitVec 32 := Scalar.addi v2271 v2272
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1534 : BitVec 32 := 1#32
  let v2274 : BitVec 32 := Scalar.muli v8 c1_i32_1534
  let v2275 : BitVec 32 := Scalar.addi v2273 v2274
  v2275.toNat
def k0_dev121 (d0 : Dev nD) : Nat :=
  let c0_i32_1540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1539 : BitVec 32 := 4#32
  let v2282 : BitVec 32 := Scalar.muli v16 c4_i32_1539
  let v2283 : BitVec 32 := Scalar.addi c0_i32_1540 v2282
  let c1_i32_7 : BitVec 32 := 1#32
  let v17 : BitVec 32 := Scalar.subi c1_i32_7 v5
  let v18 : BitVec 32 := Scalar.select v10 v5 v17
  let c2_i32_1541 : BitVec 32 := 2#32
  let v2284 : BitVec 32 := Scalar.muli v18 c2_i32_1541
  let v2285 : BitVec 32 := Scalar.addi v2283 v2284
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1542 : BitVec 32 := 1#32
  let v2286 : BitVec 32 := Scalar.muli v8 c1_i32_1542
  let v2287 : BitVec 32 := Scalar.addi v2285 v2286
  v2287.toNat
def k0_dev122 (d0 : Dev nD) : Nat :=
  let c0_i32_1581 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1580 : BitVec 32 := 4#32
  let v2328 : BitVec 32 := Scalar.muli v12 c4_i32_1580
  let v2329 : BitVec 32 := Scalar.addi c0_i32_1581 v2328
  let c1_i32_5 : BitVec 32 := 1#32
  let v13 : BitVec 32 := Scalar.subi c1_i32_5 v5
  let v14 : BitVec 32 := Scalar.select v10 v13 v5
  let c2_i32_1582 : BitVec 32 := 2#32
  let v2330 : BitVec 32 := Scalar.muli v14 c2_i32_1582
  let v2331 : BitVec 32 := Scalar.addi v2329 v2330
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1583 : BitVec 32 := 1#32
  let v2332 : BitVec 32 := Scalar.muli v8 c1_i32_1583
  let v2333 : BitVec 32 := Scalar.addi v2331 v2332
  v2333.toNat
def k0_dev123 (d0 : Dev nD) : Nat :=
  let c0_i32_1589 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1588 : BitVec 32 := 4#32
  let v2340 : BitVec 32 := Scalar.muli v16 c4_i32_1588
  let v2341 : BitVec 32 := Scalar.addi c0_i32_1589 v2340
  let c1_i32_7 : BitVec 32 := 1#32
  let v17 : BitVec 32 := Scalar.subi c1_i32_7 v5
  let v18 : BitVec 32 := Scalar.select v10 v5 v17
  let c2_i32_1590 : BitVec 32 := 2#32
  let v2342 : BitVec 32 := Scalar.muli v18 c2_i32_1590
  let v2343 : BitVec 32 := Scalar.addi v2341 v2342
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1591 : BitVec 32 := 1#32
  let v2344 : BitVec 32 := Scalar.muli v8 c1_i32_1591
  let v2345 : BitVec 32 := Scalar.addi v2343 v2344
  v2345.toNat
def k0_dev124 (d0 : Dev nD) : Nat :=
  let c0_i32_1629 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1628 : BitVec 32 := 4#32
  let v2386 : BitVec 32 := Scalar.muli v12 c4_i32_1628
  let v2387 : BitVec 32 := Scalar.addi c0_i32_1629 v2386
  let c1_i32_5 : BitVec 32 := 1#32
  let v13 : BitVec 32 := Scalar.subi c1_i32_5 v5
  let v14 : BitVec 32 := Scalar.select v10 v13 v5
  let c2_i32_1630 : BitVec 32 := 2#32
  let v2388 : BitVec 32 := Scalar.muli v14 c2_i32_1630
  let v2389 : BitVec 32 := Scalar.addi v2387 v2388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1631 : BitVec 32 := 1#32
  let v2390 : BitVec 32 := Scalar.muli v8 c1_i32_1631
  let v2391 : BitVec 32 := Scalar.addi v2389 v2390
  v2391.toNat
def k0_dev125 (d0 : Dev nD) : Nat :=
  let c0_i32_1637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1636 : BitVec 32 := 4#32
  let v2398 : BitVec 32 := Scalar.muli v16 c4_i32_1636
  let v2399 : BitVec 32 := Scalar.addi c0_i32_1637 v2398
  let c1_i32_7 : BitVec 32 := 1#32
  let v17 : BitVec 32 := Scalar.subi c1_i32_7 v5
  let v18 : BitVec 32 := Scalar.select v10 v5 v17
  let c2_i32_1638 : BitVec 32 := 2#32
  let v2400 : BitVec 32 := Scalar.muli v18 c2_i32_1638
  let v2401 : BitVec 32 := Scalar.addi v2399 v2400
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1639 : BitVec 32 := 1#32
  let v2402 : BitVec 32 := Scalar.muli v8 c1_i32_1639
  let v2403 : BitVec 32 := Scalar.addi v2401 v2402
  v2403.toNat
def k0_dev126 (d0 : Dev nD) : Nat :=
  let c0_i32_1677 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1676 : BitVec 32 := 4#32
  let v2444 : BitVec 32 := Scalar.muli v12 c4_i32_1676
  let v2445 : BitVec 32 := Scalar.addi c0_i32_1677 v2444
  let c1_i32_5 : BitVec 32 := 1#32
  let v13 : BitVec 32 := Scalar.subi c1_i32_5 v5
  let v14 : BitVec 32 := Scalar.select v10 v13 v5
  let c2_i32_1678 : BitVec 32 := 2#32
  let v2446 : BitVec 32 := Scalar.muli v14 c2_i32_1678
  let v2447 : BitVec 32 := Scalar.addi v2445 v2446
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1679 : BitVec 32 := 1#32
  let v2448 : BitVec 32 := Scalar.muli v8 c1_i32_1679
  let v2449 : BitVec 32 := Scalar.addi v2447 v2448
  v2449.toNat
def k0_dev127 (d0 : Dev nD) : Nat :=
  let c0_i32_1685 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1684 : BitVec 32 := 4#32
  let v2456 : BitVec 32 := Scalar.muli v16 c4_i32_1684
  let v2457 : BitVec 32 := Scalar.addi c0_i32_1685 v2456
  let c1_i32_7 : BitVec 32 := 1#32
  let v17 : BitVec 32 := Scalar.subi c1_i32_7 v5
  let v18 : BitVec 32 := Scalar.select v10 v5 v17
  let c2_i32_1686 : BitVec 32 := 2#32
  let v2458 : BitVec 32 := Scalar.muli v18 c2_i32_1686
  let v2459 : BitVec 32 := Scalar.addi v2457 v2458
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1687 : BitVec 32 := 1#32
  let v2460 : BitVec 32 := Scalar.muli v8 c1_i32_1687
  let v2461 : BitVec 32 := Scalar.addi v2459 v2460
  v2461.toNat
def k0_dev128 (d0 : Dev nD) : Nat :=
  let c0_i32_1725 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1724 : BitVec 32 := 4#32
  let v2502 : BitVec 32 := Scalar.muli v12 c4_i32_1724
  let v2503 : BitVec 32 := Scalar.addi c0_i32_1725 v2502
  let c1_i32_5 : BitVec 32 := 1#32
  let v13 : BitVec 32 := Scalar.subi c1_i32_5 v5
  let v14 : BitVec 32 := Scalar.select v10 v13 v5
  let c2_i32_1726 : BitVec 32 := 2#32
  let v2504 : BitVec 32 := Scalar.muli v14 c2_i32_1726
  let v2505 : BitVec 32 := Scalar.addi v2503 v2504
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1727 : BitVec 32 := 1#32
  let v2506 : BitVec 32 := Scalar.muli v8 c1_i32_1727
  let v2507 : BitVec 32 := Scalar.addi v2505 v2506
  v2507.toNat
def k0_dev129 (d0 : Dev nD) : Nat :=
  let c0_i32_1733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1732 : BitVec 32 := 4#32
  let v2514 : BitVec 32 := Scalar.muli v16 c4_i32_1732
  let v2515 : BitVec 32 := Scalar.addi c0_i32_1733 v2514
  let c1_i32_7 : BitVec 32 := 1#32
  let v17 : BitVec 32 := Scalar.subi c1_i32_7 v5
  let v18 : BitVec 32 := Scalar.select v10 v5 v17
  let c2_i32_1734 : BitVec 32 := 2#32
  let v2516 : BitVec 32 := Scalar.muli v18 c2_i32_1734
  let v2517 : BitVec 32 := Scalar.addi v2515 v2516
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1735 : BitVec 32 := 1#32
  let v2518 : BitVec 32 := Scalar.muli v8 c1_i32_1735
  let v2519 : BitVec 32 := Scalar.addi v2517 v2518
  v2519.toNat
def k0_dev130 (d0 : Dev nD) : Nat :=
  let c0_i32_1773 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1772 : BitVec 32 := 4#32
  let v2560 : BitVec 32 := Scalar.muli v12 c4_i32_1772
  let v2561 : BitVec 32 := Scalar.addi c0_i32_1773 v2560
  let c1_i32_5 : BitVec 32 := 1#32
  let v13 : BitVec 32 := Scalar.subi c1_i32_5 v5
  let v14 : BitVec 32 := Scalar.select v10 v13 v5
  let c2_i32_1774 : BitVec 32 := 2#32
  let v2562 : BitVec 32 := Scalar.muli v14 c2_i32_1774
  let v2563 : BitVec 32 := Scalar.addi v2561 v2562
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1775 : BitVec 32 := 1#32
  let v2564 : BitVec 32 := Scalar.muli v8 c1_i32_1775
  let v2565 : BitVec 32 := Scalar.addi v2563 v2564
  v2565.toNat
def k0_dev131 (d0 : Dev nD) : Nat :=
  let c0_i32_1781 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1780 : BitVec 32 := 4#32
  let v2572 : BitVec 32 := Scalar.muli v16 c4_i32_1780
  let v2573 : BitVec 32 := Scalar.addi c0_i32_1781 v2572
  let c1_i32_7 : BitVec 32 := 1#32
  let v17 : BitVec 32 := Scalar.subi c1_i32_7 v5
  let v18 : BitVec 32 := Scalar.select v10 v5 v17
  let c2_i32_1782 : BitVec 32 := 2#32
  let v2574 : BitVec 32 := Scalar.muli v18 c2_i32_1782
  let v2575 : BitVec 32 := Scalar.addi v2573 v2574
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1783 : BitVec 32 := 1#32
  let v2576 : BitVec 32 := Scalar.muli v8 c1_i32_1783
  let v2577 : BitVec 32 := Scalar.addi v2575 v2576
  v2577.toNat
def k0_dev132 (d0 : Dev nD) : Nat :=
  let c0_i32_1821 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1820 : BitVec 32 := 4#32
  let v2618 : BitVec 32 := Scalar.muli v12 c4_i32_1820
  let v2619 : BitVec 32 := Scalar.addi c0_i32_1821 v2618
  let c1_i32_5 : BitVec 32 := 1#32
  let v13 : BitVec 32 := Scalar.subi c1_i32_5 v5
  let v14 : BitVec 32 := Scalar.select v10 v13 v5
  let c2_i32_1822 : BitVec 32 := 2#32
  let v2620 : BitVec 32 := Scalar.muli v14 c2_i32_1822
  let v2621 : BitVec 32 := Scalar.addi v2619 v2620
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1823 : BitVec 32 := 1#32
  let v2622 : BitVec 32 := Scalar.muli v8 c1_i32_1823
  let v2623 : BitVec 32 := Scalar.addi v2621 v2622
  v2623.toNat
def k0_dev133 (d0 : Dev nD) : Nat :=
  let c0_i32_1829 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1828 : BitVec 32 := 4#32
  let v2630 : BitVec 32 := Scalar.muli v16 c4_i32_1828
  let v2631 : BitVec 32 := Scalar.addi c0_i32_1829 v2630
  let c1_i32_7 : BitVec 32 := 1#32
  let v17 : BitVec 32 := Scalar.subi c1_i32_7 v5
  let v18 : BitVec 32 := Scalar.select v10 v5 v17
  let c2_i32_1830 : BitVec 32 := 2#32
  let v2632 : BitVec 32 := Scalar.muli v18 c2_i32_1830
  let v2633 : BitVec 32 := Scalar.addi v2631 v2632
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1831 : BitVec 32 := 1#32
  let v2634 : BitVec 32 := Scalar.muli v8 c1_i32_1831
  let v2635 : BitVec 32 := Scalar.addi v2633 v2634
  v2635.toNat
def k0_dev134 (d0 : Dev nD) : Nat :=
  let c0_i32_1869 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1868 : BitVec 32 := 4#32
  let v2676 : BitVec 32 := Scalar.muli v12 c4_i32_1868
  let v2677 : BitVec 32 := Scalar.addi c0_i32_1869 v2676
  let c1_i32_5 : BitVec 32 := 1#32
  let v13 : BitVec 32 := Scalar.subi c1_i32_5 v5
  let v14 : BitVec 32 := Scalar.select v10 v13 v5
  let c2_i32_1870 : BitVec 32 := 2#32
  let v2678 : BitVec 32 := Scalar.muli v14 c2_i32_1870
  let v2679 : BitVec 32 := Scalar.addi v2677 v2678
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1871 : BitVec 32 := 1#32
  let v2680 : BitVec 32 := Scalar.muli v8 c1_i32_1871
  let v2681 : BitVec 32 := Scalar.addi v2679 v2680
  v2681.toNat
def k0_dev135 (d0 : Dev nD) : Nat :=
  let c0_i32_1877 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1876 : BitVec 32 := 4#32
  let v2688 : BitVec 32 := Scalar.muli v16 c4_i32_1876
  let v2689 : BitVec 32 := Scalar.addi c0_i32_1877 v2688
  let c1_i32_7 : BitVec 32 := 1#32
  let v17 : BitVec 32 := Scalar.subi c1_i32_7 v5
  let v18 : BitVec 32 := Scalar.select v10 v5 v17
  let c2_i32_1878 : BitVec 32 := 2#32
  let v2690 : BitVec 32 := Scalar.muli v18 c2_i32_1878
  let v2691 : BitVec 32 := Scalar.addi v2689 v2690
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1879 : BitVec 32 := 1#32
  let v2692 : BitVec 32 := Scalar.muli v8 c1_i32_1879
  let v2693 : BitVec 32 := Scalar.addi v2691 v2692
  v2693.toNat
def k0_dev136 (d0 : Dev nD) : Nat :=
  let c0_i32_1917 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1916 : BitVec 32 := 4#32
  let v2734 : BitVec 32 := Scalar.muli v12 c4_i32_1916
  let v2735 : BitVec 32 := Scalar.addi c0_i32_1917 v2734
  let c1_i32_5 : BitVec 32 := 1#32
  let v13 : BitVec 32 := Scalar.subi c1_i32_5 v5
  let v14 : BitVec 32 := Scalar.select v10 v13 v5
  let c2_i32_1918 : BitVec 32 := 2#32
  let v2736 : BitVec 32 := Scalar.muli v14 c2_i32_1918
  let v2737 : BitVec 32 := Scalar.addi v2735 v2736
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1919 : BitVec 32 := 1#32
  let v2738 : BitVec 32 := Scalar.muli v8 c1_i32_1919
  let v2739 : BitVec 32 := Scalar.addi v2737 v2738
  v2739.toNat
def k0_dev137 (d0 : Dev nD) : Nat :=
  let c0_i32_1925 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1924 : BitVec 32 := 4#32
  let v2746 : BitVec 32 := Scalar.muli v16 c4_i32_1924
  let v2747 : BitVec 32 := Scalar.addi c0_i32_1925 v2746
  let c1_i32_7 : BitVec 32 := 1#32
  let v17 : BitVec 32 := Scalar.subi c1_i32_7 v5
  let v18 : BitVec 32 := Scalar.select v10 v5 v17
  let c2_i32_1926 : BitVec 32 := 2#32
  let v2748 : BitVec 32 := Scalar.muli v18 c2_i32_1926
  let v2749 : BitVec 32 := Scalar.addi v2747 v2748
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1927 : BitVec 32 := 1#32
  let v2750 : BitVec 32 := Scalar.muli v8 c1_i32_1927
  let v2751 : BitVec 32 := Scalar.addi v2749 v2750
  v2751.toNat
def k0_dev138 (d0 : Dev nD) : Nat :=
  let c0_i32_1965 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_1964 : BitVec 32 := 4#32
  let v2792 : BitVec 32 := Scalar.muli v12 c4_i32_1964
  let v2793 : BitVec 32 := Scalar.addi c0_i32_1965 v2792
  let c1_i32_5 : BitVec 32 := 1#32
  let v13 : BitVec 32 := Scalar.subi c1_i32_5 v5
  let v14 : BitVec 32 := Scalar.select v10 v13 v5
  let c2_i32_1966 : BitVec 32 := 2#32
  let v2794 : BitVec 32 := Scalar.muli v14 c2_i32_1966
  let v2795 : BitVec 32 := Scalar.addi v2793 v2794
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1967 : BitVec 32 := 1#32
  let v2796 : BitVec 32 := Scalar.muli v8 c1_i32_1967
  let v2797 : BitVec 32 := Scalar.addi v2795 v2796
  v2797.toNat
def k0_dev139 (d0 : Dev nD) : Nat :=
  let c0_i32_1973 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_1972 : BitVec 32 := 4#32
  let v2804 : BitVec 32 := Scalar.muli v16 c4_i32_1972
  let v2805 : BitVec 32 := Scalar.addi c0_i32_1973 v2804
  let c1_i32_7 : BitVec 32 := 1#32
  let v17 : BitVec 32 := Scalar.subi c1_i32_7 v5
  let v18 : BitVec 32 := Scalar.select v10 v5 v17
  let c2_i32_1974 : BitVec 32 := 2#32
  let v2806 : BitVec 32 := Scalar.muli v18 c2_i32_1974
  let v2807 : BitVec 32 := Scalar.addi v2805 v2806
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1975 : BitVec 32 := 1#32
  let v2808 : BitVec 32 := Scalar.muli v8 c1_i32_1975
  let v2809 : BitVec 32 := Scalar.addi v2807 v2808
  v2809.toNat
def k0_dev140 (d0 : Dev nD) : Nat :=
  let c0_i32_2013 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2012 : BitVec 32 := 4#32
  let v2850 : BitVec 32 := Scalar.muli v12 c4_i32_2012
  let v2851 : BitVec 32 := Scalar.addi c0_i32_2013 v2850
  let c1_i32_5 : BitVec 32 := 1#32
  let v13 : BitVec 32 := Scalar.subi c1_i32_5 v5
  let v14 : BitVec 32 := Scalar.select v10 v13 v5
  let c2_i32_2014 : BitVec 32 := 2#32
  let v2852 : BitVec 32 := Scalar.muli v14 c2_i32_2014
  let v2853 : BitVec 32 := Scalar.addi v2851 v2852
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2015 : BitVec 32 := 1#32
  let v2854 : BitVec 32 := Scalar.muli v8 c1_i32_2015
  let v2855 : BitVec 32 := Scalar.addi v2853 v2854
  v2855.toNat
def k0_dev141 (d0 : Dev nD) : Nat :=
  let c0_i32_2021 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2020 : BitVec 32 := 4#32
  let v2862 : BitVec 32 := Scalar.muli v16 c4_i32_2020
  let v2863 : BitVec 32 := Scalar.addi c0_i32_2021 v2862
  let c1_i32_7 : BitVec 32 := 1#32
  let v17 : BitVec 32 := Scalar.subi c1_i32_7 v5
  let v18 : BitVec 32 := Scalar.select v10 v5 v17
  let c2_i32_2022 : BitVec 32 := 2#32
  let v2864 : BitVec 32 := Scalar.muli v18 c2_i32_2022
  let v2865 : BitVec 32 := Scalar.addi v2863 v2864
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2023 : BitVec 32 := 1#32
  let v2866 : BitVec 32 := Scalar.muli v8 c1_i32_2023
  let v2867 : BitVec 32 := Scalar.addi v2865 v2866
  v2867.toNat
def k0_dev142 (d0 : Dev nD) : Nat :=
  let c0_i32_2061 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2060 : BitVec 32 := 4#32
  let v2908 : BitVec 32 := Scalar.muli v12 c4_i32_2060
  let v2909 : BitVec 32 := Scalar.addi c0_i32_2061 v2908
  let c1_i32_5 : BitVec 32 := 1#32
  let v13 : BitVec 32 := Scalar.subi c1_i32_5 v5
  let v14 : BitVec 32 := Scalar.select v10 v13 v5
  let c2_i32_2062 : BitVec 32 := 2#32
  let v2910 : BitVec 32 := Scalar.muli v14 c2_i32_2062
  let v2911 : BitVec 32 := Scalar.addi v2909 v2910
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2063 : BitVec 32 := 1#32
  let v2912 : BitVec 32 := Scalar.muli v8 c1_i32_2063
  let v2913 : BitVec 32 := Scalar.addi v2911 v2912
  v2913.toNat
def k0_dev143 (d0 : Dev nD) : Nat :=
  let c0_i32_2069 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2068 : BitVec 32 := 4#32
  let v2920 : BitVec 32 := Scalar.muli v16 c4_i32_2068
  let v2921 : BitVec 32 := Scalar.addi c0_i32_2069 v2920
  let c1_i32_7 : BitVec 32 := 1#32
  let v17 : BitVec 32 := Scalar.subi c1_i32_7 v5
  let v18 : BitVec 32 := Scalar.select v10 v5 v17
  let c2_i32_2070 : BitVec 32 := 2#32
  let v2922 : BitVec 32 := Scalar.muli v18 c2_i32_2070
  let v2923 : BitVec 32 := Scalar.addi v2921 v2922
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2071 : BitVec 32 := 1#32
  let v2924 : BitVec 32 := Scalar.muli v8 c1_i32_2071
  let v2925 : BitVec 32 := Scalar.addi v2923 v2924
  v2925.toNat
def k0_dev144 (d0 : Dev nD) : Nat :=
  let c0_i32_2109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2108 : BitVec 32 := 4#32
  let v2966 : BitVec 32 := Scalar.muli v12 c4_i32_2108
  let v2967 : BitVec 32 := Scalar.addi c0_i32_2109 v2966
  let c1_i32_5 : BitVec 32 := 1#32
  let v13 : BitVec 32 := Scalar.subi c1_i32_5 v5
  let v14 : BitVec 32 := Scalar.select v10 v13 v5
  let c2_i32_2110 : BitVec 32 := 2#32
  let v2968 : BitVec 32 := Scalar.muli v14 c2_i32_2110
  let v2969 : BitVec 32 := Scalar.addi v2967 v2968
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2111 : BitVec 32 := 1#32
  let v2970 : BitVec 32 := Scalar.muli v8 c1_i32_2111
  let v2971 : BitVec 32 := Scalar.addi v2969 v2970
  v2971.toNat
def k0_dev145 (d0 : Dev nD) : Nat :=
  let c0_i32_2117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2116 : BitVec 32 := 4#32
  let v2978 : BitVec 32 := Scalar.muli v16 c4_i32_2116
  let v2979 : BitVec 32 := Scalar.addi c0_i32_2117 v2978
  let c1_i32_7 : BitVec 32 := 1#32
  let v17 : BitVec 32 := Scalar.subi c1_i32_7 v5
  let v18 : BitVec 32 := Scalar.select v10 v5 v17
  let c2_i32_2118 : BitVec 32 := 2#32
  let v2980 : BitVec 32 := Scalar.muli v18 c2_i32_2118
  let v2981 : BitVec 32 := Scalar.addi v2979 v2980
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2119 : BitVec 32 := 1#32
  let v2982 : BitVec 32 := Scalar.muli v8 c1_i32_2119
  let v2983 : BitVec 32 := Scalar.addi v2981 v2982
  v2983.toNat
def k0_dev146 (d0 : Dev nD) : Nat :=
  let c0_i32_2157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2156 : BitVec 32 := 4#32
  let v3024 : BitVec 32 := Scalar.muli v12 c4_i32_2156
  let v3025 : BitVec 32 := Scalar.addi c0_i32_2157 v3024
  let c1_i32_5 : BitVec 32 := 1#32
  let v13 : BitVec 32 := Scalar.subi c1_i32_5 v5
  let v14 : BitVec 32 := Scalar.select v10 v13 v5
  let c2_i32_2158 : BitVec 32 := 2#32
  let v3026 : BitVec 32 := Scalar.muli v14 c2_i32_2158
  let v3027 : BitVec 32 := Scalar.addi v3025 v3026
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2159 : BitVec 32 := 1#32
  let v3028 : BitVec 32 := Scalar.muli v8 c1_i32_2159
  let v3029 : BitVec 32 := Scalar.addi v3027 v3028
  v3029.toNat
def k0_dev147 (d0 : Dev nD) : Nat :=
  let c0_i32_2165 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2164 : BitVec 32 := 4#32
  let v3036 : BitVec 32 := Scalar.muli v16 c4_i32_2164
  let v3037 : BitVec 32 := Scalar.addi c0_i32_2165 v3036
  let c1_i32_7 : BitVec 32 := 1#32
  let v17 : BitVec 32 := Scalar.subi c1_i32_7 v5
  let v18 : BitVec 32 := Scalar.select v10 v5 v17
  let c2_i32_2166 : BitVec 32 := 2#32
  let v3038 : BitVec 32 := Scalar.muli v18 c2_i32_2166
  let v3039 : BitVec 32 := Scalar.addi v3037 v3038
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2167 : BitVec 32 := 1#32
  let v3040 : BitVec 32 := Scalar.muli v8 c1_i32_2167
  let v3041 : BitVec 32 := Scalar.addi v3039 v3040
  v3041.toNat
def k0_dev148 (d0 : Dev nD) : Nat :=
  let c0_i32_2205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2204 : BitVec 32 := 4#32
  let v3082 : BitVec 32 := Scalar.muli v12 c4_i32_2204
  let v3083 : BitVec 32 := Scalar.addi c0_i32_2205 v3082
  let c1_i32_5 : BitVec 32 := 1#32
  let v13 : BitVec 32 := Scalar.subi c1_i32_5 v5
  let v14 : BitVec 32 := Scalar.select v10 v13 v5
  let c2_i32_2206 : BitVec 32 := 2#32
  let v3084 : BitVec 32 := Scalar.muli v14 c2_i32_2206
  let v3085 : BitVec 32 := Scalar.addi v3083 v3084
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2207 : BitVec 32 := 1#32
  let v3086 : BitVec 32 := Scalar.muli v8 c1_i32_2207
  let v3087 : BitVec 32 := Scalar.addi v3085 v3086
  v3087.toNat
def k0_dev149 (d0 : Dev nD) : Nat :=
  let c0_i32_2213 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2212 : BitVec 32 := 4#32
  let v3094 : BitVec 32 := Scalar.muli v16 c4_i32_2212
  let v3095 : BitVec 32 := Scalar.addi c0_i32_2213 v3094
  let c1_i32_7 : BitVec 32 := 1#32
  let v17 : BitVec 32 := Scalar.subi c1_i32_7 v5
  let v18 : BitVec 32 := Scalar.select v10 v5 v17
  let c2_i32_2214 : BitVec 32 := 2#32
  let v3096 : BitVec 32 := Scalar.muli v18 c2_i32_2214
  let v3097 : BitVec 32 := Scalar.addi v3095 v3096
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2215 : BitVec 32 := 1#32
  let v3098 : BitVec 32 := Scalar.muli v8 c1_i32_2215
  let v3099 : BitVec 32 := Scalar.addi v3097 v3098
  v3099.toNat
def k0_dev150 (d0 : Dev nD) : Nat :=
  let c0_i32_2253 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2252 : BitVec 32 := 4#32
  let v3140 : BitVec 32 := Scalar.muli v12 c4_i32_2252
  let v3141 : BitVec 32 := Scalar.addi c0_i32_2253 v3140
  let c1_i32_5 : BitVec 32 := 1#32
  let v13 : BitVec 32 := Scalar.subi c1_i32_5 v5
  let v14 : BitVec 32 := Scalar.select v10 v13 v5
  let c2_i32_2254 : BitVec 32 := 2#32
  let v3142 : BitVec 32 := Scalar.muli v14 c2_i32_2254
  let v3143 : BitVec 32 := Scalar.addi v3141 v3142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2255 : BitVec 32 := 1#32
  let v3144 : BitVec 32 := Scalar.muli v8 c1_i32_2255
  let v3145 : BitVec 32 := Scalar.addi v3143 v3144
  v3145.toNat
def k0_dev151 (d0 : Dev nD) : Nat :=
  let c0_i32_2261 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2260 : BitVec 32 := 4#32
  let v3152 : BitVec 32 := Scalar.muli v16 c4_i32_2260
  let v3153 : BitVec 32 := Scalar.addi c0_i32_2261 v3152
  let c1_i32_7 : BitVec 32 := 1#32
  let v17 : BitVec 32 := Scalar.subi c1_i32_7 v5
  let v18 : BitVec 32 := Scalar.select v10 v5 v17
  let c2_i32_2262 : BitVec 32 := 2#32
  let v3154 : BitVec 32 := Scalar.muli v18 c2_i32_2262
  let v3155 : BitVec 32 := Scalar.addi v3153 v3154
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2263 : BitVec 32 := 1#32
  let v3156 : BitVec 32 := Scalar.muli v8 c1_i32_2263
  let v3157 : BitVec 32 := Scalar.addi v3155 v3156
  v3157.toNat
def k0_dev152 (d0 : Dev nD) : Nat :=
  let c0_i32_2301 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2300 : BitVec 32 := 4#32
  let v3198 : BitVec 32 := Scalar.muli v12 c4_i32_2300
  let v3199 : BitVec 32 := Scalar.addi c0_i32_2301 v3198
  let c1_i32_5 : BitVec 32 := 1#32
  let v13 : BitVec 32 := Scalar.subi c1_i32_5 v5
  let v14 : BitVec 32 := Scalar.select v10 v13 v5
  let c2_i32_2302 : BitVec 32 := 2#32
  let v3200 : BitVec 32 := Scalar.muli v14 c2_i32_2302
  let v3201 : BitVec 32 := Scalar.addi v3199 v3200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2303 : BitVec 32 := 1#32
  let v3202 : BitVec 32 := Scalar.muli v8 c1_i32_2303
  let v3203 : BitVec 32 := Scalar.addi v3201 v3202
  v3203.toNat
def k0_dev153 (d0 : Dev nD) : Nat :=
  let c0_i32_2309 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2308 : BitVec 32 := 4#32
  let v3210 : BitVec 32 := Scalar.muli v16 c4_i32_2308
  let v3211 : BitVec 32 := Scalar.addi c0_i32_2309 v3210
  let c1_i32_7 : BitVec 32 := 1#32
  let v17 : BitVec 32 := Scalar.subi c1_i32_7 v5
  let v18 : BitVec 32 := Scalar.select v10 v5 v17
  let c2_i32_2310 : BitVec 32 := 2#32
  let v3212 : BitVec 32 := Scalar.muli v18 c2_i32_2310
  let v3213 : BitVec 32 := Scalar.addi v3211 v3212
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2311 : BitVec 32 := 1#32
  let v3214 : BitVec 32 := Scalar.muli v8 c1_i32_2311
  let v3215 : BitVec 32 := Scalar.addi v3213 v3214
  v3215.toNat
def k0_dev154 (d0 : Dev nD) : Nat :=
  let c0_i32_2349 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2348 : BitVec 32 := 4#32
  let v3256 : BitVec 32 := Scalar.muli v12 c4_i32_2348
  let v3257 : BitVec 32 := Scalar.addi c0_i32_2349 v3256
  let c1_i32_5 : BitVec 32 := 1#32
  let v13 : BitVec 32 := Scalar.subi c1_i32_5 v5
  let v14 : BitVec 32 := Scalar.select v10 v13 v5
  let c2_i32_2350 : BitVec 32 := 2#32
  let v3258 : BitVec 32 := Scalar.muli v14 c2_i32_2350
  let v3259 : BitVec 32 := Scalar.addi v3257 v3258
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2351 : BitVec 32 := 1#32
  let v3260 : BitVec 32 := Scalar.muli v8 c1_i32_2351
  let v3261 : BitVec 32 := Scalar.addi v3259 v3260
  v3261.toNat
def k0_dev155 (d0 : Dev nD) : Nat :=
  let c0_i32_2357 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2356 : BitVec 32 := 4#32
  let v3268 : BitVec 32 := Scalar.muli v16 c4_i32_2356
  let v3269 : BitVec 32 := Scalar.addi c0_i32_2357 v3268
  let c1_i32_7 : BitVec 32 := 1#32
  let v17 : BitVec 32 := Scalar.subi c1_i32_7 v5
  let v18 : BitVec 32 := Scalar.select v10 v5 v17
  let c2_i32_2358 : BitVec 32 := 2#32
  let v3270 : BitVec 32 := Scalar.muli v18 c2_i32_2358
  let v3271 : BitVec 32 := Scalar.addi v3269 v3270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2359 : BitVec 32 := 1#32
  let v3272 : BitVec 32 := Scalar.muli v8 c1_i32_2359
  let v3273 : BitVec 32 := Scalar.addi v3271 v3272
  v3273.toNat
def k0_dev156 (d0 : Dev nD) : Nat :=
  let c0_i32_2397 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2396 : BitVec 32 := 4#32
  let v3314 : BitVec 32 := Scalar.muli v12 c4_i32_2396
  let v3315 : BitVec 32 := Scalar.addi c0_i32_2397 v3314
  let c1_i32_5 : BitVec 32 := 1#32
  let v13 : BitVec 32 := Scalar.subi c1_i32_5 v5
  let v14 : BitVec 32 := Scalar.select v10 v13 v5
  let c2_i32_2398 : BitVec 32 := 2#32
  let v3316 : BitVec 32 := Scalar.muli v14 c2_i32_2398
  let v3317 : BitVec 32 := Scalar.addi v3315 v3316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2399 : BitVec 32 := 1#32
  let v3318 : BitVec 32 := Scalar.muli v8 c1_i32_2399
  let v3319 : BitVec 32 := Scalar.addi v3317 v3318
  v3319.toNat
def k0_dev157 (d0 : Dev nD) : Nat :=
  let c0_i32_2405 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2404 : BitVec 32 := 4#32
  let v3326 : BitVec 32 := Scalar.muli v16 c4_i32_2404
  let v3327 : BitVec 32 := Scalar.addi c0_i32_2405 v3326
  let c1_i32_7 : BitVec 32 := 1#32
  let v17 : BitVec 32 := Scalar.subi c1_i32_7 v5
  let v18 : BitVec 32 := Scalar.select v10 v5 v17
  let c2_i32_2406 : BitVec 32 := 2#32
  let v3328 : BitVec 32 := Scalar.muli v18 c2_i32_2406
  let v3329 : BitVec 32 := Scalar.addi v3327 v3328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2407 : BitVec 32 := 1#32
  let v3330 : BitVec 32 := Scalar.muli v8 c1_i32_2407
  let v3331 : BitVec 32 := Scalar.addi v3329 v3330
  v3331.toNat
def k0_dev158 (d0 : Dev nD) : Nat :=
  let c0_i32_2445 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2444 : BitVec 32 := 4#32
  let v3372 : BitVec 32 := Scalar.muli v12 c4_i32_2444
  let v3373 : BitVec 32 := Scalar.addi c0_i32_2445 v3372
  let c1_i32_5 : BitVec 32 := 1#32
  let v13 : BitVec 32 := Scalar.subi c1_i32_5 v5
  let v14 : BitVec 32 := Scalar.select v10 v13 v5
  let c2_i32_2446 : BitVec 32 := 2#32
  let v3374 : BitVec 32 := Scalar.muli v14 c2_i32_2446
  let v3375 : BitVec 32 := Scalar.addi v3373 v3374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2447 : BitVec 32 := 1#32
  let v3376 : BitVec 32 := Scalar.muli v8 c1_i32_2447
  let v3377 : BitVec 32 := Scalar.addi v3375 v3376
  v3377.toNat
def k0_dev159 (d0 : Dev nD) : Nat :=
  let c0_i32_2453 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2452 : BitVec 32 := 4#32
  let v3384 : BitVec 32 := Scalar.muli v16 c4_i32_2452
  let v3385 : BitVec 32 := Scalar.addi c0_i32_2453 v3384
  let c1_i32_7 : BitVec 32 := 1#32
  let v17 : BitVec 32 := Scalar.subi c1_i32_7 v5
  let v18 : BitVec 32 := Scalar.select v10 v5 v17
  let c2_i32_2454 : BitVec 32 := 2#32
  let v3386 : BitVec 32 := Scalar.muli v18 c2_i32_2454
  let v3387 : BitVec 32 := Scalar.addi v3385 v3386
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2455 : BitVec 32 := 1#32
  let v3388 : BitVec 32 := Scalar.muli v8 c1_i32_2455
  let v3389 : BitVec 32 := Scalar.addi v3387 v3388
  v3389.toNat
def k0_dev160 (d0 : Dev nD) : Nat :=
  let c0_i32_2493 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2492 : BitVec 32 := 4#32
  let v3430 : BitVec 32 := Scalar.muli v12 c4_i32_2492
  let v3431 : BitVec 32 := Scalar.addi c0_i32_2493 v3430
  let c1_i32_5 : BitVec 32 := 1#32
  let v13 : BitVec 32 := Scalar.subi c1_i32_5 v5
  let v14 : BitVec 32 := Scalar.select v10 v13 v5
  let c2_i32_2494 : BitVec 32 := 2#32
  let v3432 : BitVec 32 := Scalar.muli v14 c2_i32_2494
  let v3433 : BitVec 32 := Scalar.addi v3431 v3432
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2495 : BitVec 32 := 1#32
  let v3434 : BitVec 32 := Scalar.muli v8 c1_i32_2495
  let v3435 : BitVec 32 := Scalar.addi v3433 v3434
  v3435.toNat
def k0_dev161 (d0 : Dev nD) : Nat :=
  let c0_i32_2501 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2500 : BitVec 32 := 4#32
  let v3442 : BitVec 32 := Scalar.muli v16 c4_i32_2500
  let v3443 : BitVec 32 := Scalar.addi c0_i32_2501 v3442
  let c1_i32_7 : BitVec 32 := 1#32
  let v17 : BitVec 32 := Scalar.subi c1_i32_7 v5
  let v18 : BitVec 32 := Scalar.select v10 v5 v17
  let c2_i32_2502 : BitVec 32 := 2#32
  let v3444 : BitVec 32 := Scalar.muli v18 c2_i32_2502
  let v3445 : BitVec 32 := Scalar.addi v3443 v3444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2503 : BitVec 32 := 1#32
  let v3446 : BitVec 32 := Scalar.muli v8 c1_i32_2503
  let v3447 : BitVec 32 := Scalar.addi v3445 v3446
  v3447.toNat
def k0_dev162 (d0 : Dev nD) : Nat :=
  let c0_i32_2541 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2540 : BitVec 32 := 4#32
  let v3488 : BitVec 32 := Scalar.muli v12 c4_i32_2540
  let v3489 : BitVec 32 := Scalar.addi c0_i32_2541 v3488
  let c1_i32_5 : BitVec 32 := 1#32
  let v13 : BitVec 32 := Scalar.subi c1_i32_5 v5
  let v14 : BitVec 32 := Scalar.select v10 v13 v5
  let c2_i32_2542 : BitVec 32 := 2#32
  let v3490 : BitVec 32 := Scalar.muli v14 c2_i32_2542
  let v3491 : BitVec 32 := Scalar.addi v3489 v3490
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2543 : BitVec 32 := 1#32
  let v3492 : BitVec 32 := Scalar.muli v8 c1_i32_2543
  let v3493 : BitVec 32 := Scalar.addi v3491 v3492
  v3493.toNat
def k0_dev163 (d0 : Dev nD) : Nat :=
  let c0_i32_2549 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2548 : BitVec 32 := 4#32
  let v3500 : BitVec 32 := Scalar.muli v16 c4_i32_2548
  let v3501 : BitVec 32 := Scalar.addi c0_i32_2549 v3500
  let c1_i32_7 : BitVec 32 := 1#32
  let v17 : BitVec 32 := Scalar.subi c1_i32_7 v5
  let v18 : BitVec 32 := Scalar.select v10 v5 v17
  let c2_i32_2550 : BitVec 32 := 2#32
  let v3502 : BitVec 32 := Scalar.muli v18 c2_i32_2550
  let v3503 : BitVec 32 := Scalar.addi v3501 v3502
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2551 : BitVec 32 := 1#32
  let v3504 : BitVec 32 := Scalar.muli v8 c1_i32_2551
  let v3505 : BitVec 32 := Scalar.addi v3503 v3504
  v3505.toNat
def k0_dev164 (d0 : Dev nD) : Nat :=
  let c0_i32_2589 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2588 : BitVec 32 := 4#32
  let v3546 : BitVec 32 := Scalar.muli v12 c4_i32_2588
  let v3547 : BitVec 32 := Scalar.addi c0_i32_2589 v3546
  let c1_i32_5 : BitVec 32 := 1#32
  let v13 : BitVec 32 := Scalar.subi c1_i32_5 v5
  let v14 : BitVec 32 := Scalar.select v10 v13 v5
  let c2_i32_2590 : BitVec 32 := 2#32
  let v3548 : BitVec 32 := Scalar.muli v14 c2_i32_2590
  let v3549 : BitVec 32 := Scalar.addi v3547 v3548
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2591 : BitVec 32 := 1#32
  let v3550 : BitVec 32 := Scalar.muli v8 c1_i32_2591
  let v3551 : BitVec 32 := Scalar.addi v3549 v3550
  v3551.toNat
def k0_dev165 (d0 : Dev nD) : Nat :=
  let c0_i32_2597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2596 : BitVec 32 := 4#32
  let v3558 : BitVec 32 := Scalar.muli v16 c4_i32_2596
  let v3559 : BitVec 32 := Scalar.addi c0_i32_2597 v3558
  let c1_i32_7 : BitVec 32 := 1#32
  let v17 : BitVec 32 := Scalar.subi c1_i32_7 v5
  let v18 : BitVec 32 := Scalar.select v10 v5 v17
  let c2_i32_2598 : BitVec 32 := 2#32
  let v3560 : BitVec 32 := Scalar.muli v18 c2_i32_2598
  let v3561 : BitVec 32 := Scalar.addi v3559 v3560
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2599 : BitVec 32 := 1#32
  let v3562 : BitVec 32 := Scalar.muli v8 c1_i32_2599
  let v3563 : BitVec 32 := Scalar.addi v3561 v3562
  v3563.toNat
def k0_dev166 (d0 : Dev nD) : Nat :=
  let c0_i32_2637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2636 : BitVec 32 := 4#32
  let v3604 : BitVec 32 := Scalar.muli v12 c4_i32_2636
  let v3605 : BitVec 32 := Scalar.addi c0_i32_2637 v3604
  let c1_i32_5 : BitVec 32 := 1#32
  let v13 : BitVec 32 := Scalar.subi c1_i32_5 v5
  let v14 : BitVec 32 := Scalar.select v10 v13 v5
  let c2_i32_2638 : BitVec 32 := 2#32
  let v3606 : BitVec 32 := Scalar.muli v14 c2_i32_2638
  let v3607 : BitVec 32 := Scalar.addi v3605 v3606
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2639 : BitVec 32 := 1#32
  let v3608 : BitVec 32 := Scalar.muli v8 c1_i32_2639
  let v3609 : BitVec 32 := Scalar.addi v3607 v3608
  v3609.toNat
def k0_dev167 (d0 : Dev nD) : Nat :=
  let c0_i32_2645 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2644 : BitVec 32 := 4#32
  let v3616 : BitVec 32 := Scalar.muli v16 c4_i32_2644
  let v3617 : BitVec 32 := Scalar.addi c0_i32_2645 v3616
  let c1_i32_7 : BitVec 32 := 1#32
  let v17 : BitVec 32 := Scalar.subi c1_i32_7 v5
  let v18 : BitVec 32 := Scalar.select v10 v5 v17
  let c2_i32_2646 : BitVec 32 := 2#32
  let v3618 : BitVec 32 := Scalar.muli v18 c2_i32_2646
  let v3619 : BitVec 32 := Scalar.addi v3617 v3618
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2647 : BitVec 32 := 1#32
  let v3620 : BitVec 32 := Scalar.muli v8 c1_i32_2647
  let v3621 : BitVec 32 := Scalar.addi v3619 v3620
  v3621.toNat
def k0_dev168 (d0 : Dev nD) : Nat :=
  let c0_i32_2685 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2684 : BitVec 32 := 4#32
  let v3662 : BitVec 32 := Scalar.muli v12 c4_i32_2684
  let v3663 : BitVec 32 := Scalar.addi c0_i32_2685 v3662
  let c1_i32_5 : BitVec 32 := 1#32
  let v13 : BitVec 32 := Scalar.subi c1_i32_5 v5
  let v14 : BitVec 32 := Scalar.select v10 v13 v5
  let c2_i32_2686 : BitVec 32 := 2#32
  let v3664 : BitVec 32 := Scalar.muli v14 c2_i32_2686
  let v3665 : BitVec 32 := Scalar.addi v3663 v3664
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2687 : BitVec 32 := 1#32
  let v3666 : BitVec 32 := Scalar.muli v8 c1_i32_2687
  let v3667 : BitVec 32 := Scalar.addi v3665 v3666
  v3667.toNat
def k0_dev169 (d0 : Dev nD) : Nat :=
  let c0_i32_2693 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2692 : BitVec 32 := 4#32
  let v3674 : BitVec 32 := Scalar.muli v16 c4_i32_2692
  let v3675 : BitVec 32 := Scalar.addi c0_i32_2693 v3674
  let c1_i32_7 : BitVec 32 := 1#32
  let v17 : BitVec 32 := Scalar.subi c1_i32_7 v5
  let v18 : BitVec 32 := Scalar.select v10 v5 v17
  let c2_i32_2694 : BitVec 32 := 2#32
  let v3676 : BitVec 32 := Scalar.muli v18 c2_i32_2694
  let v3677 : BitVec 32 := Scalar.addi v3675 v3676
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2695 : BitVec 32 := 1#32
  let v3678 : BitVec 32 := Scalar.muli v8 c1_i32_2695
  let v3679 : BitVec 32 := Scalar.addi v3677 v3678
  v3679.toNat
def k0_dev170 (d0 : Dev nD) : Nat :=
  let c0_i32_2733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2732 : BitVec 32 := 4#32
  let v3720 : BitVec 32 := Scalar.muli v12 c4_i32_2732
  let v3721 : BitVec 32 := Scalar.addi c0_i32_2733 v3720
  let c1_i32_5 : BitVec 32 := 1#32
  let v13 : BitVec 32 := Scalar.subi c1_i32_5 v5
  let v14 : BitVec 32 := Scalar.select v10 v13 v5
  let c2_i32_2734 : BitVec 32 := 2#32
  let v3722 : BitVec 32 := Scalar.muli v14 c2_i32_2734
  let v3723 : BitVec 32 := Scalar.addi v3721 v3722
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2735 : BitVec 32 := 1#32
  let v3724 : BitVec 32 := Scalar.muli v8 c1_i32_2735
  let v3725 : BitVec 32 := Scalar.addi v3723 v3724
  v3725.toNat
def k0_dev171 (d0 : Dev nD) : Nat :=
  let c0_i32_2741 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2740 : BitVec 32 := 4#32
  let v3732 : BitVec 32 := Scalar.muli v16 c4_i32_2740
  let v3733 : BitVec 32 := Scalar.addi c0_i32_2741 v3732
  let c1_i32_7 : BitVec 32 := 1#32
  let v17 : BitVec 32 := Scalar.subi c1_i32_7 v5
  let v18 : BitVec 32 := Scalar.select v10 v5 v17
  let c2_i32_2742 : BitVec 32 := 2#32
  let v3734 : BitVec 32 := Scalar.muli v18 c2_i32_2742
  let v3735 : BitVec 32 := Scalar.addi v3733 v3734
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2743 : BitVec 32 := 1#32
  let v3736 : BitVec 32 := Scalar.muli v8 c1_i32_2743
  let v3737 : BitVec 32 := Scalar.addi v3735 v3736
  v3737.toNat
def k0_dev172 (d0 : Dev nD) : Nat :=
  let c0_i32_2781 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2780 : BitVec 32 := 4#32
  let v3778 : BitVec 32 := Scalar.muli v12 c4_i32_2780
  let v3779 : BitVec 32 := Scalar.addi c0_i32_2781 v3778
  let c1_i32_5 : BitVec 32 := 1#32
  let v13 : BitVec 32 := Scalar.subi c1_i32_5 v5
  let v14 : BitVec 32 := Scalar.select v10 v13 v5
  let c2_i32_2782 : BitVec 32 := 2#32
  let v3780 : BitVec 32 := Scalar.muli v14 c2_i32_2782
  let v3781 : BitVec 32 := Scalar.addi v3779 v3780
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2783 : BitVec 32 := 1#32
  let v3782 : BitVec 32 := Scalar.muli v8 c1_i32_2783
  let v3783 : BitVec 32 := Scalar.addi v3781 v3782
  v3783.toNat
def k0_dev173 (d0 : Dev nD) : Nat :=
  let c0_i32_2789 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2788 : BitVec 32 := 4#32
  let v3790 : BitVec 32 := Scalar.muli v16 c4_i32_2788
  let v3791 : BitVec 32 := Scalar.addi c0_i32_2789 v3790
  let c1_i32_7 : BitVec 32 := 1#32
  let v17 : BitVec 32 := Scalar.subi c1_i32_7 v5
  let v18 : BitVec 32 := Scalar.select v10 v5 v17
  let c2_i32_2790 : BitVec 32 := 2#32
  let v3792 : BitVec 32 := Scalar.muli v18 c2_i32_2790
  let v3793 : BitVec 32 := Scalar.addi v3791 v3792
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2791 : BitVec 32 := 1#32
  let v3794 : BitVec 32 := Scalar.muli v8 c1_i32_2791
  let v3795 : BitVec 32 := Scalar.addi v3793 v3794
  v3795.toNat
def k0_dev174 (d0 : Dev nD) : Nat :=
  let c0_i32_2829 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2828 : BitVec 32 := 4#32
  let v3836 : BitVec 32 := Scalar.muli v12 c4_i32_2828
  let v3837 : BitVec 32 := Scalar.addi c0_i32_2829 v3836
  let c1_i32_5 : BitVec 32 := 1#32
  let v13 : BitVec 32 := Scalar.subi c1_i32_5 v5
  let v14 : BitVec 32 := Scalar.select v10 v13 v5
  let c2_i32_2830 : BitVec 32 := 2#32
  let v3838 : BitVec 32 := Scalar.muli v14 c2_i32_2830
  let v3839 : BitVec 32 := Scalar.addi v3837 v3838
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2831 : BitVec 32 := 1#32
  let v3840 : BitVec 32 := Scalar.muli v8 c1_i32_2831
  let v3841 : BitVec 32 := Scalar.addi v3839 v3840
  v3841.toNat
def k0_dev175 (d0 : Dev nD) : Nat :=
  let c0_i32_2837 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2836 : BitVec 32 := 4#32
  let v3848 : BitVec 32 := Scalar.muli v16 c4_i32_2836
  let v3849 : BitVec 32 := Scalar.addi c0_i32_2837 v3848
  let c1_i32_7 : BitVec 32 := 1#32
  let v17 : BitVec 32 := Scalar.subi c1_i32_7 v5
  let v18 : BitVec 32 := Scalar.select v10 v5 v17
  let c2_i32_2838 : BitVec 32 := 2#32
  let v3850 : BitVec 32 := Scalar.muli v18 c2_i32_2838
  let v3851 : BitVec 32 := Scalar.addi v3849 v3850
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2839 : BitVec 32 := 1#32
  let v3852 : BitVec 32 := Scalar.muli v8 c1_i32_2839
  let v3853 : BitVec 32 := Scalar.addi v3851 v3852
  v3853.toNat
def k0_dev176 (d0 : Dev nD) : Nat :=
  let c0_i32_2877 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2876 : BitVec 32 := 4#32
  let v3894 : BitVec 32 := Scalar.muli v12 c4_i32_2876
  let v3895 : BitVec 32 := Scalar.addi c0_i32_2877 v3894
  let c1_i32_5 : BitVec 32 := 1#32
  let v13 : BitVec 32 := Scalar.subi c1_i32_5 v5
  let v14 : BitVec 32 := Scalar.select v10 v13 v5
  let c2_i32_2878 : BitVec 32 := 2#32
  let v3896 : BitVec 32 := Scalar.muli v14 c2_i32_2878
  let v3897 : BitVec 32 := Scalar.addi v3895 v3896
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2879 : BitVec 32 := 1#32
  let v3898 : BitVec 32 := Scalar.muli v8 c1_i32_2879
  let v3899 : BitVec 32 := Scalar.addi v3897 v3898
  v3899.toNat
def k0_dev177 (d0 : Dev nD) : Nat :=
  let c0_i32_2885 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2884 : BitVec 32 := 4#32
  let v3906 : BitVec 32 := Scalar.muli v16 c4_i32_2884
  let v3907 : BitVec 32 := Scalar.addi c0_i32_2885 v3906
  let c1_i32_7 : BitVec 32 := 1#32
  let v17 : BitVec 32 := Scalar.subi c1_i32_7 v5
  let v18 : BitVec 32 := Scalar.select v10 v5 v17
  let c2_i32_2886 : BitVec 32 := 2#32
  let v3908 : BitVec 32 := Scalar.muli v18 c2_i32_2886
  let v3909 : BitVec 32 := Scalar.addi v3907 v3908
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2887 : BitVec 32 := 1#32
  let v3910 : BitVec 32 := Scalar.muli v8 c1_i32_2887
  let v3911 : BitVec 32 := Scalar.addi v3909 v3910
  v3911.toNat
def k0_dev178 (d0 : Dev nD) : Nat :=
  let c0_i32_2925 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2924 : BitVec 32 := 4#32
  let v3952 : BitVec 32 := Scalar.muli v12 c4_i32_2924
  let v3953 : BitVec 32 := Scalar.addi c0_i32_2925 v3952
  let c1_i32_5 : BitVec 32 := 1#32
  let v13 : BitVec 32 := Scalar.subi c1_i32_5 v5
  let v14 : BitVec 32 := Scalar.select v10 v13 v5
  let c2_i32_2926 : BitVec 32 := 2#32
  let v3954 : BitVec 32 := Scalar.muli v14 c2_i32_2926
  let v3955 : BitVec 32 := Scalar.addi v3953 v3954
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2927 : BitVec 32 := 1#32
  let v3956 : BitVec 32 := Scalar.muli v8 c1_i32_2927
  let v3957 : BitVec 32 := Scalar.addi v3955 v3956
  v3957.toNat
def k0_dev179 (d0 : Dev nD) : Nat :=
  let c0_i32_2933 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2932 : BitVec 32 := 4#32
  let v3964 : BitVec 32 := Scalar.muli v16 c4_i32_2932
  let v3965 : BitVec 32 := Scalar.addi c0_i32_2933 v3964
  let c1_i32_7 : BitVec 32 := 1#32
  let v17 : BitVec 32 := Scalar.subi c1_i32_7 v5
  let v18 : BitVec 32 := Scalar.select v10 v5 v17
  let c2_i32_2934 : BitVec 32 := 2#32
  let v3966 : BitVec 32 := Scalar.muli v18 c2_i32_2934
  let v3967 : BitVec 32 := Scalar.addi v3965 v3966
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2935 : BitVec 32 := 1#32
  let v3968 : BitVec 32 := Scalar.muli v8 c1_i32_2935
  let v3969 : BitVec 32 := Scalar.addi v3967 v3968
  v3969.toNat
def k0_dev180 (d0 : Dev nD) : Nat :=
  let c0_i32_2973 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_2972 : BitVec 32 := 4#32
  let v4010 : BitVec 32 := Scalar.muli v12 c4_i32_2972
  let v4011 : BitVec 32 := Scalar.addi c0_i32_2973 v4010
  let c1_i32_5 : BitVec 32 := 1#32
  let v13 : BitVec 32 := Scalar.subi c1_i32_5 v5
  let v14 : BitVec 32 := Scalar.select v10 v13 v5
  let c2_i32_2974 : BitVec 32 := 2#32
  let v4012 : BitVec 32 := Scalar.muli v14 c2_i32_2974
  let v4013 : BitVec 32 := Scalar.addi v4011 v4012
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2975 : BitVec 32 := 1#32
  let v4014 : BitVec 32 := Scalar.muli v8 c1_i32_2975
  let v4015 : BitVec 32 := Scalar.addi v4013 v4014
  v4015.toNat
def k0_dev181 (d0 : Dev nD) : Nat :=
  let c0_i32_2981 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_2980 : BitVec 32 := 4#32
  let v4022 : BitVec 32 := Scalar.muli v16 c4_i32_2980
  let v4023 : BitVec 32 := Scalar.addi c0_i32_2981 v4022
  let c1_i32_7 : BitVec 32 := 1#32
  let v17 : BitVec 32 := Scalar.subi c1_i32_7 v5
  let v18 : BitVec 32 := Scalar.select v10 v5 v17
  let c2_i32_2982 : BitVec 32 := 2#32
  let v4024 : BitVec 32 := Scalar.muli v18 c2_i32_2982
  let v4025 : BitVec 32 := Scalar.addi v4023 v4024
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2983 : BitVec 32 := 1#32
  let v4026 : BitVec 32 := Scalar.muli v8 c1_i32_2983
  let v4027 : BitVec 32 := Scalar.addi v4025 v4026
  v4027.toNat
def k0_dev182 (d0 : Dev nD) : Nat :=
  let c0_i32_3021 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3020 : BitVec 32 := 4#32
  let v4068 : BitVec 32 := Scalar.muli v12 c4_i32_3020
  let v4069 : BitVec 32 := Scalar.addi c0_i32_3021 v4068
  let c1_i32_5 : BitVec 32 := 1#32
  let v13 : BitVec 32 := Scalar.subi c1_i32_5 v5
  let v14 : BitVec 32 := Scalar.select v10 v13 v5
  let c2_i32_3022 : BitVec 32 := 2#32
  let v4070 : BitVec 32 := Scalar.muli v14 c2_i32_3022
  let v4071 : BitVec 32 := Scalar.addi v4069 v4070
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3023 : BitVec 32 := 1#32
  let v4072 : BitVec 32 := Scalar.muli v8 c1_i32_3023
  let v4073 : BitVec 32 := Scalar.addi v4071 v4072
  v4073.toNat
def k0_dev183 (d0 : Dev nD) : Nat :=
  let c0_i32_3029 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3028 : BitVec 32 := 4#32
  let v4080 : BitVec 32 := Scalar.muli v16 c4_i32_3028
  let v4081 : BitVec 32 := Scalar.addi c0_i32_3029 v4080
  let c1_i32_7 : BitVec 32 := 1#32
  let v17 : BitVec 32 := Scalar.subi c1_i32_7 v5
  let v18 : BitVec 32 := Scalar.select v10 v5 v17
  let c2_i32_3030 : BitVec 32 := 2#32
  let v4082 : BitVec 32 := Scalar.muli v18 c2_i32_3030
  let v4083 : BitVec 32 := Scalar.addi v4081 v4082
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3031 : BitVec 32 := 1#32
  let v4084 : BitVec 32 := Scalar.muli v8 c1_i32_3031
  let v4085 : BitVec 32 := Scalar.addi v4083 v4084
  v4085.toNat
def k0_dev184 (d0 : Dev nD) : Nat :=
  let c0_i32_3069 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3068 : BitVec 32 := 4#32
  let v4126 : BitVec 32 := Scalar.muli v12 c4_i32_3068
  let v4127 : BitVec 32 := Scalar.addi c0_i32_3069 v4126
  let c1_i32_5 : BitVec 32 := 1#32
  let v13 : BitVec 32 := Scalar.subi c1_i32_5 v5
  let v14 : BitVec 32 := Scalar.select v10 v13 v5
  let c2_i32_3070 : BitVec 32 := 2#32
  let v4128 : BitVec 32 := Scalar.muli v14 c2_i32_3070
  let v4129 : BitVec 32 := Scalar.addi v4127 v4128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3071 : BitVec 32 := 1#32
  let v4130 : BitVec 32 := Scalar.muli v8 c1_i32_3071
  let v4131 : BitVec 32 := Scalar.addi v4129 v4130
  v4131.toNat
def k0_dev185 (d0 : Dev nD) : Nat :=
  let c0_i32_3077 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3076 : BitVec 32 := 4#32
  let v4138 : BitVec 32 := Scalar.muli v16 c4_i32_3076
  let v4139 : BitVec 32 := Scalar.addi c0_i32_3077 v4138
  let c1_i32_7 : BitVec 32 := 1#32
  let v17 : BitVec 32 := Scalar.subi c1_i32_7 v5
  let v18 : BitVec 32 := Scalar.select v10 v5 v17
  let c2_i32_3078 : BitVec 32 := 2#32
  let v4140 : BitVec 32 := Scalar.muli v18 c2_i32_3078
  let v4141 : BitVec 32 := Scalar.addi v4139 v4140
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3079 : BitVec 32 := 1#32
  let v4142 : BitVec 32 := Scalar.muli v8 c1_i32_3079
  let v4143 : BitVec 32 := Scalar.addi v4141 v4142
  v4143.toNat
def k0_dev186 (d0 : Dev nD) : Nat :=
  let c0_i32_3117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3116 : BitVec 32 := 4#32
  let v4184 : BitVec 32 := Scalar.muli v12 c4_i32_3116
  let v4185 : BitVec 32 := Scalar.addi c0_i32_3117 v4184
  let c1_i32_5 : BitVec 32 := 1#32
  let v13 : BitVec 32 := Scalar.subi c1_i32_5 v5
  let v14 : BitVec 32 := Scalar.select v10 v13 v5
  let c2_i32_3118 : BitVec 32 := 2#32
  let v4186 : BitVec 32 := Scalar.muli v14 c2_i32_3118
  let v4187 : BitVec 32 := Scalar.addi v4185 v4186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3119 : BitVec 32 := 1#32
  let v4188 : BitVec 32 := Scalar.muli v8 c1_i32_3119
  let v4189 : BitVec 32 := Scalar.addi v4187 v4188
  v4189.toNat
def k0_dev187 (d0 : Dev nD) : Nat :=
  let c0_i32_3125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3124 : BitVec 32 := 4#32
  let v4196 : BitVec 32 := Scalar.muli v16 c4_i32_3124
  let v4197 : BitVec 32 := Scalar.addi c0_i32_3125 v4196
  let c1_i32_7 : BitVec 32 := 1#32
  let v17 : BitVec 32 := Scalar.subi c1_i32_7 v5
  let v18 : BitVec 32 := Scalar.select v10 v5 v17
  let c2_i32_3126 : BitVec 32 := 2#32
  let v4198 : BitVec 32 := Scalar.muli v18 c2_i32_3126
  let v4199 : BitVec 32 := Scalar.addi v4197 v4198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3127 : BitVec 32 := 1#32
  let v4200 : BitVec 32 := Scalar.muli v8 c1_i32_3127
  let v4201 : BitVec 32 := Scalar.addi v4199 v4200
  v4201.toNat
def k0_dev188 (d0 : Dev nD) : Nat :=
  let c0_i32_3165 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3164 : BitVec 32 := 4#32
  let v4242 : BitVec 32 := Scalar.muli v12 c4_i32_3164
  let v4243 : BitVec 32 := Scalar.addi c0_i32_3165 v4242
  let c1_i32_5 : BitVec 32 := 1#32
  let v13 : BitVec 32 := Scalar.subi c1_i32_5 v5
  let v14 : BitVec 32 := Scalar.select v10 v13 v5
  let c2_i32_3166 : BitVec 32 := 2#32
  let v4244 : BitVec 32 := Scalar.muli v14 c2_i32_3166
  let v4245 : BitVec 32 := Scalar.addi v4243 v4244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3167 : BitVec 32 := 1#32
  let v4246 : BitVec 32 := Scalar.muli v8 c1_i32_3167
  let v4247 : BitVec 32 := Scalar.addi v4245 v4246
  v4247.toNat
def k0_dev189 (d0 : Dev nD) : Nat :=
  let c0_i32_3173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3172 : BitVec 32 := 4#32
  let v4254 : BitVec 32 := Scalar.muli v16 c4_i32_3172
  let v4255 : BitVec 32 := Scalar.addi c0_i32_3173 v4254
  let c1_i32_7 : BitVec 32 := 1#32
  let v17 : BitVec 32 := Scalar.subi c1_i32_7 v5
  let v18 : BitVec 32 := Scalar.select v10 v5 v17
  let c2_i32_3174 : BitVec 32 := 2#32
  let v4256 : BitVec 32 := Scalar.muli v18 c2_i32_3174
  let v4257 : BitVec 32 := Scalar.addi v4255 v4256
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3175 : BitVec 32 := 1#32
  let v4258 : BitVec 32 := Scalar.muli v8 c1_i32_3175
  let v4259 : BitVec 32 := Scalar.addi v4257 v4258
  v4259.toNat
def k0_dev190 (d0 : Dev nD) : Nat :=
  let c0_i32_3213 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3212 : BitVec 32 := 4#32
  let v4300 : BitVec 32 := Scalar.muli v12 c4_i32_3212
  let v4301 : BitVec 32 := Scalar.addi c0_i32_3213 v4300
  let c1_i32_5 : BitVec 32 := 1#32
  let v13 : BitVec 32 := Scalar.subi c1_i32_5 v5
  let v14 : BitVec 32 := Scalar.select v10 v13 v5
  let c2_i32_3214 : BitVec 32 := 2#32
  let v4302 : BitVec 32 := Scalar.muli v14 c2_i32_3214
  let v4303 : BitVec 32 := Scalar.addi v4301 v4302
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3215 : BitVec 32 := 1#32
  let v4304 : BitVec 32 := Scalar.muli v8 c1_i32_3215
  let v4305 : BitVec 32 := Scalar.addi v4303 v4304
  v4305.toNat
def k0_dev191 (d0 : Dev nD) : Nat :=
  let c0_i32_3221 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3220 : BitVec 32 := 4#32
  let v4312 : BitVec 32 := Scalar.muli v16 c4_i32_3220
  let v4313 : BitVec 32 := Scalar.addi c0_i32_3221 v4312
  let c1_i32_7 : BitVec 32 := 1#32
  let v17 : BitVec 32 := Scalar.subi c1_i32_7 v5
  let v18 : BitVec 32 := Scalar.select v10 v5 v17
  let c2_i32_3222 : BitVec 32 := 2#32
  let v4314 : BitVec 32 := Scalar.muli v18 c2_i32_3222
  let v4315 : BitVec 32 := Scalar.addi v4313 v4314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3223 : BitVec 32 := 1#32
  let v4316 : BitVec 32 := Scalar.muli v8 c1_i32_3223
  let v4317 : BitVec 32 := Scalar.addi v4315 v4316
  v4317.toNat
def k0_dev192 (d0 : Dev nD) : Nat :=
  let c0_i32_3261 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3260 : BitVec 32 := 4#32
  let v4358 : BitVec 32 := Scalar.muli v12 c4_i32_3260
  let v4359 : BitVec 32 := Scalar.addi c0_i32_3261 v4358
  let c1_i32_5 : BitVec 32 := 1#32
  let v13 : BitVec 32 := Scalar.subi c1_i32_5 v5
  let v14 : BitVec 32 := Scalar.select v10 v13 v5
  let c2_i32_3262 : BitVec 32 := 2#32
  let v4360 : BitVec 32 := Scalar.muli v14 c2_i32_3262
  let v4361 : BitVec 32 := Scalar.addi v4359 v4360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3263 : BitVec 32 := 1#32
  let v4362 : BitVec 32 := Scalar.muli v8 c1_i32_3263
  let v4363 : BitVec 32 := Scalar.addi v4361 v4362
  v4363.toNat
def k0_dev193 (d0 : Dev nD) : Nat :=
  let c0_i32_3269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3268 : BitVec 32 := 4#32
  let v4370 : BitVec 32 := Scalar.muli v16 c4_i32_3268
  let v4371 : BitVec 32 := Scalar.addi c0_i32_3269 v4370
  let c1_i32_7 : BitVec 32 := 1#32
  let v17 : BitVec 32 := Scalar.subi c1_i32_7 v5
  let v18 : BitVec 32 := Scalar.select v10 v5 v17
  let c2_i32_3270 : BitVec 32 := 2#32
  let v4372 : BitVec 32 := Scalar.muli v18 c2_i32_3270
  let v4373 : BitVec 32 := Scalar.addi v4371 v4372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3271 : BitVec 32 := 1#32
  let v4374 : BitVec 32 := Scalar.muli v8 c1_i32_3271
  let v4375 : BitVec 32 := Scalar.addi v4373 v4374
  v4375.toNat
def k0_dev194 (d0 : Dev nD) : Nat :=
  let c0_i32_3309 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3308 : BitVec 32 := 4#32
  let v4416 : BitVec 32 := Scalar.muli v12 c4_i32_3308
  let v4417 : BitVec 32 := Scalar.addi c0_i32_3309 v4416
  let c1_i32_5 : BitVec 32 := 1#32
  let v13 : BitVec 32 := Scalar.subi c1_i32_5 v5
  let v14 : BitVec 32 := Scalar.select v10 v13 v5
  let c2_i32_3310 : BitVec 32 := 2#32
  let v4418 : BitVec 32 := Scalar.muli v14 c2_i32_3310
  let v4419 : BitVec 32 := Scalar.addi v4417 v4418
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3311 : BitVec 32 := 1#32
  let v4420 : BitVec 32 := Scalar.muli v8 c1_i32_3311
  let v4421 : BitVec 32 := Scalar.addi v4419 v4420
  v4421.toNat
def k0_dev195 (d0 : Dev nD) : Nat :=
  let c0_i32_3317 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3316 : BitVec 32 := 4#32
  let v4428 : BitVec 32 := Scalar.muli v16 c4_i32_3316
  let v4429 : BitVec 32 := Scalar.addi c0_i32_3317 v4428
  let c1_i32_7 : BitVec 32 := 1#32
  let v17 : BitVec 32 := Scalar.subi c1_i32_7 v5
  let v18 : BitVec 32 := Scalar.select v10 v5 v17
  let c2_i32_3318 : BitVec 32 := 2#32
  let v4430 : BitVec 32 := Scalar.muli v18 c2_i32_3318
  let v4431 : BitVec 32 := Scalar.addi v4429 v4430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3319 : BitVec 32 := 1#32
  let v4432 : BitVec 32 := Scalar.muli v8 c1_i32_3319
  let v4433 : BitVec 32 := Scalar.addi v4431 v4432
  v4433.toNat
def k0_dev196 (d0 : Dev nD) : Nat :=
  let c0_i32_3357 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3356 : BitVec 32 := 4#32
  let v4474 : BitVec 32 := Scalar.muli v12 c4_i32_3356
  let v4475 : BitVec 32 := Scalar.addi c0_i32_3357 v4474
  let c1_i32_5 : BitVec 32 := 1#32
  let v13 : BitVec 32 := Scalar.subi c1_i32_5 v5
  let v14 : BitVec 32 := Scalar.select v10 v13 v5
  let c2_i32_3358 : BitVec 32 := 2#32
  let v4476 : BitVec 32 := Scalar.muli v14 c2_i32_3358
  let v4477 : BitVec 32 := Scalar.addi v4475 v4476
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3359 : BitVec 32 := 1#32
  let v4478 : BitVec 32 := Scalar.muli v8 c1_i32_3359
  let v4479 : BitVec 32 := Scalar.addi v4477 v4478
  v4479.toNat
def k0_dev197 (d0 : Dev nD) : Nat :=
  let c0_i32_3365 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3364 : BitVec 32 := 4#32
  let v4486 : BitVec 32 := Scalar.muli v16 c4_i32_3364
  let v4487 : BitVec 32 := Scalar.addi c0_i32_3365 v4486
  let c1_i32_7 : BitVec 32 := 1#32
  let v17 : BitVec 32 := Scalar.subi c1_i32_7 v5
  let v18 : BitVec 32 := Scalar.select v10 v5 v17
  let c2_i32_3366 : BitVec 32 := 2#32
  let v4488 : BitVec 32 := Scalar.muli v18 c2_i32_3366
  let v4489 : BitVec 32 := Scalar.addi v4487 v4488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3367 : BitVec 32 := 1#32
  let v4490 : BitVec 32 := Scalar.muli v8 c1_i32_3367
  let v4491 : BitVec 32 := Scalar.addi v4489 v4490
  v4491.toNat
def k0_dev198 (d0 : Dev nD) : Nat :=
  let c0_i32_3405 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3404 : BitVec 32 := 4#32
  let v4532 : BitVec 32 := Scalar.muli v12 c4_i32_3404
  let v4533 : BitVec 32 := Scalar.addi c0_i32_3405 v4532
  let c1_i32_5 : BitVec 32 := 1#32
  let v13 : BitVec 32 := Scalar.subi c1_i32_5 v5
  let v14 : BitVec 32 := Scalar.select v10 v13 v5
  let c2_i32_3406 : BitVec 32 := 2#32
  let v4534 : BitVec 32 := Scalar.muli v14 c2_i32_3406
  let v4535 : BitVec 32 := Scalar.addi v4533 v4534
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3407 : BitVec 32 := 1#32
  let v4536 : BitVec 32 := Scalar.muli v8 c1_i32_3407
  let v4537 : BitVec 32 := Scalar.addi v4535 v4536
  v4537.toNat
def k0_dev199 (d0 : Dev nD) : Nat :=
  let c0_i32_3413 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3412 : BitVec 32 := 4#32
  let v4544 : BitVec 32 := Scalar.muli v16 c4_i32_3412
  let v4545 : BitVec 32 := Scalar.addi c0_i32_3413 v4544
  let c1_i32_7 : BitVec 32 := 1#32
  let v17 : BitVec 32 := Scalar.subi c1_i32_7 v5
  let v18 : BitVec 32 := Scalar.select v10 v5 v17
  let c2_i32_3414 : BitVec 32 := 2#32
  let v4546 : BitVec 32 := Scalar.muli v18 c2_i32_3414
  let v4547 : BitVec 32 := Scalar.addi v4545 v4546
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3415 : BitVec 32 := 1#32
  let v4548 : BitVec 32 := Scalar.muli v8 c1_i32_3415
  let v4549 : BitVec 32 := Scalar.addi v4547 v4548
  v4549.toNat
def k0_dev200 (d0 : Dev nD) : Nat :=
  let c0_i32_3453 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3452 : BitVec 32 := 4#32
  let v4590 : BitVec 32 := Scalar.muli v12 c4_i32_3452
  let v4591 : BitVec 32 := Scalar.addi c0_i32_3453 v4590
  let c1_i32_5 : BitVec 32 := 1#32
  let v13 : BitVec 32 := Scalar.subi c1_i32_5 v5
  let v14 : BitVec 32 := Scalar.select v10 v13 v5
  let c2_i32_3454 : BitVec 32 := 2#32
  let v4592 : BitVec 32 := Scalar.muli v14 c2_i32_3454
  let v4593 : BitVec 32 := Scalar.addi v4591 v4592
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3455 : BitVec 32 := 1#32
  let v4594 : BitVec 32 := Scalar.muli v8 c1_i32_3455
  let v4595 : BitVec 32 := Scalar.addi v4593 v4594
  v4595.toNat
def k0_dev201 (d0 : Dev nD) : Nat :=
  let c0_i32_3461 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3460 : BitVec 32 := 4#32
  let v4602 : BitVec 32 := Scalar.muli v16 c4_i32_3460
  let v4603 : BitVec 32 := Scalar.addi c0_i32_3461 v4602
  let c1_i32_7 : BitVec 32 := 1#32
  let v17 : BitVec 32 := Scalar.subi c1_i32_7 v5
  let v18 : BitVec 32 := Scalar.select v10 v5 v17
  let c2_i32_3462 : BitVec 32 := 2#32
  let v4604 : BitVec 32 := Scalar.muli v18 c2_i32_3462
  let v4605 : BitVec 32 := Scalar.addi v4603 v4604
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3463 : BitVec 32 := 1#32
  let v4606 : BitVec 32 := Scalar.muli v8 c1_i32_3463
  let v4607 : BitVec 32 := Scalar.addi v4605 v4606
  v4607.toNat
def k0_dev202 (d0 : Dev nD) : Nat :=
  let c0_i32_3501 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3500 : BitVec 32 := 4#32
  let v4648 : BitVec 32 := Scalar.muli v12 c4_i32_3500
  let v4649 : BitVec 32 := Scalar.addi c0_i32_3501 v4648
  let c1_i32_5 : BitVec 32 := 1#32
  let v13 : BitVec 32 := Scalar.subi c1_i32_5 v5
  let v14 : BitVec 32 := Scalar.select v10 v13 v5
  let c2_i32_3502 : BitVec 32 := 2#32
  let v4650 : BitVec 32 := Scalar.muli v14 c2_i32_3502
  let v4651 : BitVec 32 := Scalar.addi v4649 v4650
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3503 : BitVec 32 := 1#32
  let v4652 : BitVec 32 := Scalar.muli v8 c1_i32_3503
  let v4653 : BitVec 32 := Scalar.addi v4651 v4652
  v4653.toNat
def k0_dev203 (d0 : Dev nD) : Nat :=
  let c0_i32_3509 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3508 : BitVec 32 := 4#32
  let v4660 : BitVec 32 := Scalar.muli v16 c4_i32_3508
  let v4661 : BitVec 32 := Scalar.addi c0_i32_3509 v4660
  let c1_i32_7 : BitVec 32 := 1#32
  let v17 : BitVec 32 := Scalar.subi c1_i32_7 v5
  let v18 : BitVec 32 := Scalar.select v10 v5 v17
  let c2_i32_3510 : BitVec 32 := 2#32
  let v4662 : BitVec 32 := Scalar.muli v18 c2_i32_3510
  let v4663 : BitVec 32 := Scalar.addi v4661 v4662
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3511 : BitVec 32 := 1#32
  let v4664 : BitVec 32 := Scalar.muli v8 c1_i32_3511
  let v4665 : BitVec 32 := Scalar.addi v4663 v4664
  v4665.toNat
def k0_dev204 (d0 : Dev nD) : Nat :=
  let c0_i32_3549 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3548 : BitVec 32 := 4#32
  let v4706 : BitVec 32 := Scalar.muli v12 c4_i32_3548
  let v4707 : BitVec 32 := Scalar.addi c0_i32_3549 v4706
  let c1_i32_5 : BitVec 32 := 1#32
  let v13 : BitVec 32 := Scalar.subi c1_i32_5 v5
  let v14 : BitVec 32 := Scalar.select v10 v13 v5
  let c2_i32_3550 : BitVec 32 := 2#32
  let v4708 : BitVec 32 := Scalar.muli v14 c2_i32_3550
  let v4709 : BitVec 32 := Scalar.addi v4707 v4708
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3551 : BitVec 32 := 1#32
  let v4710 : BitVec 32 := Scalar.muli v8 c1_i32_3551
  let v4711 : BitVec 32 := Scalar.addi v4709 v4710
  v4711.toNat
def k0_dev205 (d0 : Dev nD) : Nat :=
  let c0_i32_3557 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3556 : BitVec 32 := 4#32
  let v4718 : BitVec 32 := Scalar.muli v16 c4_i32_3556
  let v4719 : BitVec 32 := Scalar.addi c0_i32_3557 v4718
  let c1_i32_7 : BitVec 32 := 1#32
  let v17 : BitVec 32 := Scalar.subi c1_i32_7 v5
  let v18 : BitVec 32 := Scalar.select v10 v5 v17
  let c2_i32_3558 : BitVec 32 := 2#32
  let v4720 : BitVec 32 := Scalar.muli v18 c2_i32_3558
  let v4721 : BitVec 32 := Scalar.addi v4719 v4720
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3559 : BitVec 32 := 1#32
  let v4722 : BitVec 32 := Scalar.muli v8 c1_i32_3559
  let v4723 : BitVec 32 := Scalar.addi v4721 v4722
  v4723.toNat
def k0_dev206 (d0 : Dev nD) : Nat :=
  let c0_i32_3597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3596 : BitVec 32 := 4#32
  let v4764 : BitVec 32 := Scalar.muli v12 c4_i32_3596
  let v4765 : BitVec 32 := Scalar.addi c0_i32_3597 v4764
  let c1_i32_5 : BitVec 32 := 1#32
  let v13 : BitVec 32 := Scalar.subi c1_i32_5 v5
  let v14 : BitVec 32 := Scalar.select v10 v13 v5
  let c2_i32_3598 : BitVec 32 := 2#32
  let v4766 : BitVec 32 := Scalar.muli v14 c2_i32_3598
  let v4767 : BitVec 32 := Scalar.addi v4765 v4766
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3599 : BitVec 32 := 1#32
  let v4768 : BitVec 32 := Scalar.muli v8 c1_i32_3599
  let v4769 : BitVec 32 := Scalar.addi v4767 v4768
  v4769.toNat
def k0_dev207 (d0 : Dev nD) : Nat :=
  let c0_i32_3605 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3604 : BitVec 32 := 4#32
  let v4776 : BitVec 32 := Scalar.muli v16 c4_i32_3604
  let v4777 : BitVec 32 := Scalar.addi c0_i32_3605 v4776
  let c1_i32_7 : BitVec 32 := 1#32
  let v17 : BitVec 32 := Scalar.subi c1_i32_7 v5
  let v18 : BitVec 32 := Scalar.select v10 v5 v17
  let c2_i32_3606 : BitVec 32 := 2#32
  let v4778 : BitVec 32 := Scalar.muli v18 c2_i32_3606
  let v4779 : BitVec 32 := Scalar.addi v4777 v4778
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3607 : BitVec 32 := 1#32
  let v4780 : BitVec 32 := Scalar.muli v8 c1_i32_3607
  let v4781 : BitVec 32 := Scalar.addi v4779 v4780
  v4781.toNat
def k0_dev208 (d0 : Dev nD) : Nat :=
  let c0_i32_3645 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3644 : BitVec 32 := 4#32
  let v4822 : BitVec 32 := Scalar.muli v12 c4_i32_3644
  let v4823 : BitVec 32 := Scalar.addi c0_i32_3645 v4822
  let c1_i32_5 : BitVec 32 := 1#32
  let v13 : BitVec 32 := Scalar.subi c1_i32_5 v5
  let v14 : BitVec 32 := Scalar.select v10 v13 v5
  let c2_i32_3646 : BitVec 32 := 2#32
  let v4824 : BitVec 32 := Scalar.muli v14 c2_i32_3646
  let v4825 : BitVec 32 := Scalar.addi v4823 v4824
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3647 : BitVec 32 := 1#32
  let v4826 : BitVec 32 := Scalar.muli v8 c1_i32_3647
  let v4827 : BitVec 32 := Scalar.addi v4825 v4826
  v4827.toNat
def k0_dev209 (d0 : Dev nD) : Nat :=
  let c0_i32_3653 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3652 : BitVec 32 := 4#32
  let v4834 : BitVec 32 := Scalar.muli v16 c4_i32_3652
  let v4835 : BitVec 32 := Scalar.addi c0_i32_3653 v4834
  let c1_i32_7 : BitVec 32 := 1#32
  let v17 : BitVec 32 := Scalar.subi c1_i32_7 v5
  let v18 : BitVec 32 := Scalar.select v10 v5 v17
  let c2_i32_3654 : BitVec 32 := 2#32
  let v4836 : BitVec 32 := Scalar.muli v18 c2_i32_3654
  let v4837 : BitVec 32 := Scalar.addi v4835 v4836
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3655 : BitVec 32 := 1#32
  let v4838 : BitVec 32 := Scalar.muli v8 c1_i32_3655
  let v4839 : BitVec 32 := Scalar.addi v4837 v4838
  v4839.toNat
def k0_dev210 (d0 : Dev nD) : Nat :=
  let c0_i32_3693 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3692 : BitVec 32 := 4#32
  let v4880 : BitVec 32 := Scalar.muli v12 c4_i32_3692
  let v4881 : BitVec 32 := Scalar.addi c0_i32_3693 v4880
  let c1_i32_5 : BitVec 32 := 1#32
  let v13 : BitVec 32 := Scalar.subi c1_i32_5 v5
  let v14 : BitVec 32 := Scalar.select v10 v13 v5
  let c2_i32_3694 : BitVec 32 := 2#32
  let v4882 : BitVec 32 := Scalar.muli v14 c2_i32_3694
  let v4883 : BitVec 32 := Scalar.addi v4881 v4882
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3695 : BitVec 32 := 1#32
  let v4884 : BitVec 32 := Scalar.muli v8 c1_i32_3695
  let v4885 : BitVec 32 := Scalar.addi v4883 v4884
  v4885.toNat
def k0_dev211 (d0 : Dev nD) : Nat :=
  let c0_i32_3701 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3700 : BitVec 32 := 4#32
  let v4892 : BitVec 32 := Scalar.muli v16 c4_i32_3700
  let v4893 : BitVec 32 := Scalar.addi c0_i32_3701 v4892
  let c1_i32_7 : BitVec 32 := 1#32
  let v17 : BitVec 32 := Scalar.subi c1_i32_7 v5
  let v18 : BitVec 32 := Scalar.select v10 v5 v17
  let c2_i32_3702 : BitVec 32 := 2#32
  let v4894 : BitVec 32 := Scalar.muli v18 c2_i32_3702
  let v4895 : BitVec 32 := Scalar.addi v4893 v4894
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3703 : BitVec 32 := 1#32
  let v4896 : BitVec 32 := Scalar.muli v8 c1_i32_3703
  let v4897 : BitVec 32 := Scalar.addi v4895 v4896
  v4897.toNat
def k0_dev212 (d0 : Dev nD) : Nat :=
  let c0_i32_3741 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3740 : BitVec 32 := 4#32
  let v4938 : BitVec 32 := Scalar.muli v12 c4_i32_3740
  let v4939 : BitVec 32 := Scalar.addi c0_i32_3741 v4938
  let c1_i32_5 : BitVec 32 := 1#32
  let v13 : BitVec 32 := Scalar.subi c1_i32_5 v5
  let v14 : BitVec 32 := Scalar.select v10 v13 v5
  let c2_i32_3742 : BitVec 32 := 2#32
  let v4940 : BitVec 32 := Scalar.muli v14 c2_i32_3742
  let v4941 : BitVec 32 := Scalar.addi v4939 v4940
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3743 : BitVec 32 := 1#32
  let v4942 : BitVec 32 := Scalar.muli v8 c1_i32_3743
  let v4943 : BitVec 32 := Scalar.addi v4941 v4942
  v4943.toNat
def k0_dev213 (d0 : Dev nD) : Nat :=
  let c0_i32_3749 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3748 : BitVec 32 := 4#32
  let v4950 : BitVec 32 := Scalar.muli v16 c4_i32_3748
  let v4951 : BitVec 32 := Scalar.addi c0_i32_3749 v4950
  let c1_i32_7 : BitVec 32 := 1#32
  let v17 : BitVec 32 := Scalar.subi c1_i32_7 v5
  let v18 : BitVec 32 := Scalar.select v10 v5 v17
  let c2_i32_3750 : BitVec 32 := 2#32
  let v4952 : BitVec 32 := Scalar.muli v18 c2_i32_3750
  let v4953 : BitVec 32 := Scalar.addi v4951 v4952
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3751 : BitVec 32 := 1#32
  let v4954 : BitVec 32 := Scalar.muli v8 c1_i32_3751
  let v4955 : BitVec 32 := Scalar.addi v4953 v4954
  v4955.toNat
def k0_dev214 (d0 : Dev nD) : Nat :=
  let c0_i32_3789 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3788 : BitVec 32 := 4#32
  let v4996 : BitVec 32 := Scalar.muli v12 c4_i32_3788
  let v4997 : BitVec 32 := Scalar.addi c0_i32_3789 v4996
  let c1_i32_5 : BitVec 32 := 1#32
  let v13 : BitVec 32 := Scalar.subi c1_i32_5 v5
  let v14 : BitVec 32 := Scalar.select v10 v13 v5
  let c2_i32_3790 : BitVec 32 := 2#32
  let v4998 : BitVec 32 := Scalar.muli v14 c2_i32_3790
  let v4999 : BitVec 32 := Scalar.addi v4997 v4998
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3791 : BitVec 32 := 1#32
  let v5000 : BitVec 32 := Scalar.muli v8 c1_i32_3791
  let v5001 : BitVec 32 := Scalar.addi v4999 v5000
  v5001.toNat
def k0_dev215 (d0 : Dev nD) : Nat :=
  let c0_i32_3797 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_3796 : BitVec 32 := 4#32
  let v5008 : BitVec 32 := Scalar.muli v16 c4_i32_3796
  let v5009 : BitVec 32 := Scalar.addi c0_i32_3797 v5008
  let c1_i32_7 : BitVec 32 := 1#32
  let v17 : BitVec 32 := Scalar.subi c1_i32_7 v5
  let v18 : BitVec 32 := Scalar.select v10 v5 v17
  let c2_i32_3798 : BitVec 32 := 2#32
  let v5010 : BitVec 32 := Scalar.muli v18 c2_i32_3798
  let v5011 : BitVec 32 := Scalar.addi v5009 v5010
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3799 : BitVec 32 := 1#32
  let v5012 : BitVec 32 := Scalar.muli v8 c1_i32_3799
  let v5013 : BitVec 32 := Scalar.addi v5011 v5012
  v5013.toNat
def k0_off7 (d0 : Dev nD) (c3_i32 : BitVec 32) (c0_i32_3825 : BitVec 32) : Fin 2 → Nat :=
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_30 v8
  let c32768_i32_31 : BitVec 32 := 32768#32
  let v59 : BitVec 32 := Scalar.muli v58 c32768_i32_31
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_8 v2
  let c0_i32 : BitVec 32 := 0#32
  let v20 : BitVec 1 := Scalar.cmpi .eq v2 c0_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_9 : BitVec 32 := 1#32
  let v21 : BitVec 32 := Scalar.subi c1_i32_9 v5
  let v22 : BitVec 32 := Scalar.select v20 v5 v21
  let v23 : BitVec 32 := Scalar.addi v19 v22
  let v35 : BitVec 32 := Scalar.addi v23 c3_i32
  let c4_i32_17 : BitVec 32 := 4#32
  let c0_i32_18 : BitVec 32 := 0#32
  let v36 : BitVec 1 := Scalar.cmpi .eq c4_i32_17 c0_i32_18
  let c1_i32_19 : BitVec 32 := 1#32
  let v37 : BitVec 32 := Scalar.select v36 c1_i32_19 c4_i32_17
  let v38 : BitVec 32 := Scalar.remsi v35 v37
  let c0_i32_21 : BitVec 32 := 0#32
  let v40 : BitVec 1 := Scalar.cmpi .slt v38 c0_i32_21
  let c0_i32_22 : BitVec 32 := 0#32
  let v41 : BitVec 1 := Scalar.cmpi .slt v37 c0_i32_22
  let v42 : BitVec 1 := Scalar.xori v40 v41
  let c0_i32_20 : BitVec 32 := 0#32
  let v39 : BitVec 1 := Scalar.cmpi .ne v38 c0_i32_20
  let v43 : BitVec 1 := Scalar.andi v42 v39
  let v44 : BitVec 32 := Scalar.addi v38 v37
  let v45 : BitVec 32 := Scalar.select v43 v44 v38
  let c8192_i32_3824 : BitVec 32 := 8192#32
  let v5041 : BitVec 32 := Scalar.muli v45 c8192_i32_3824
  let v5042 : BitVec 32 := Scalar.addi v59 v5041
  let v5043 : BitVec 32 := Scalar.addi v5042 c0_i32_3825
  let c0_i32_3832 : BitVec 32 := 0#32
  ![v5043.toNat, 0]
def k0_off7_at (r : Fin 172) : BitVec 32 × BitVec 32 :=
  if r.val < 86 then
    if r.val < 43 then
      if r.val < 21 then
        if r.val < 10 then
          if r.val < 5 then
            if r.val < 2 then
              if r.val < 1 then
                (3#32, 0#32)
              else
                (1#32, 0#32)
            else
              if r.val < 3 then
                (3#32, 128#32)
              else
                if r.val < 4 then
                  (1#32, 128#32)
                else
                  (3#32, 256#32)
          else
            if r.val < 7 then
              if r.val < 6 then
                (1#32, 256#32)
              else
                (3#32, 384#32)
            else
              if r.val < 8 then
                (1#32, 384#32)
              else
                if r.val < 9 then
                  (3#32, 512#32)
                else
                  (1#32, 512#32)
        else
          if r.val < 15 then
            if r.val < 12 then
              if r.val < 11 then
                (3#32, 640#32)
              else
                (1#32, 640#32)
            else
              if r.val < 13 then
                (3#32, 768#32)
              else
                if r.val < 14 then
                  (1#32, 768#32)
                else
                  (3#32, 896#32)
          else
            if r.val < 18 then
              if r.val < 16 then
                (1#32, 896#32)
              else
                if r.val < 17 then
                  (3#32, 1024#32)
                else
                  (1#32, 1024#32)
            else
              if r.val < 19 then
                (3#32, 1152#32)
              else
                if r.val < 20 then
                  (1#32, 1152#32)
                else
                  (3#32, 1280#32)
      else
        if r.val < 32 then
          if r.val < 26 then
            if r.val < 23 then
              if r.val < 22 then
                (1#32, 1280#32)
              else
                (3#32, 1408#32)
            else
              if r.val < 24 then
                (1#32, 1408#32)
              else
                if r.val < 25 then
                  (3#32, 1536#32)
                else
                  (1#32, 1536#32)
          else
            if r.val < 29 then
              if r.val < 27 then
                (3#32, 1664#32)
              else
                if r.val < 28 then
                  (1#32, 1664#32)
                else
                  (3#32, 1792#32)
            else
              if r.val < 30 then
                (1#32, 1792#32)
              else
                if r.val < 31 then
                  (3#32, 1920#32)
                else
                  (1#32, 1920#32)
        else
          if r.val < 37 then
            if r.val < 34 then
              if r.val < 33 then
                (3#32, 2048#32)
              else
                (1#32, 2048#32)
            else
              if r.val < 35 then
                (3#32, 2176#32)
              else
                if r.val < 36 then
                  (1#32, 2176#32)
                else
                  (3#32, 2304#32)
          else
            if r.val < 40 then
              if r.val < 38 then
                (1#32, 2304#32)
              else
                if r.val < 39 then
                  (3#32, 2432#32)
                else
                  (1#32, 2432#32)
            else
              if r.val < 41 then
                (3#32, 2560#32)
              else
                if r.val < 42 then
                  (1#32, 2560#32)
                else
                  (3#32, 2688#32)
    else
      if r.val < 64 then
        if r.val < 53 then
          if r.val < 48 then
            if r.val < 45 then
              if r.val < 44 then
                (1#32, 2688#32)
              else
                (3#32, 2816#32)
            else
              if r.val < 46 then
                (1#32, 2816#32)
              else
                if r.val < 47 then
                  (3#32, 2944#32)
                else
                  (1#32, 2944#32)
          else
            if r.val < 50 then
              if r.val < 49 then
                (3#32, 3072#32)
              else
                (1#32, 3072#32)
            else
              if r.val < 51 then
                (3#32, 3200#32)
              else
                if r.val < 52 then
                  (1#32, 3200#32)
                else
                  (3#32, 3328#32)
        else
          if r.val < 58 then
            if r.val < 55 then
              if r.val < 54 then
                (1#32, 3328#32)
              else
                (3#32, 3456#32)
            else
              if r.val < 56 then
                (1#32, 3456#32)
              else
                if r.val < 57 then
                  (3#32, 3584#32)
                else
                  (1#32, 3584#32)
          else
            if r.val < 61 then
              if r.val < 59 then
                (3#32, 3712#32)
              else
                if r.val < 60 then
                  (1#32, 3712#32)
                else
                  (3#32, 3840#32)
            else
              if r.val < 62 then
                (1#32, 3840#32)
              else
                if r.val < 63 then
                  (3#32, 3968#32)
                else
                  (1#32, 3968#32)
      else
        if r.val < 75 then
          if r.val < 69 then
            if r.val < 66 then
              if r.val < 65 then
                (3#32, 4096#32)
              else
                (1#32, 4096#32)
            else
              if r.val < 67 then
                (3#32, 4224#32)
              else
                if r.val < 68 then
                  (1#32, 4224#32)
                else
                  (3#32, 4352#32)
          else
            if r.val < 72 then
              if r.val < 70 then
                (1#32, 4352#32)
              else
                if r.val < 71 then
                  (3#32, 4480#32)
                else
                  (1#32, 4480#32)
            else
              if r.val < 73 then
                (3#32, 4608#32)
              else
                if r.val < 74 then
                  (1#32, 4608#32)
                else
                  (3#32, 4736#32)
        else
          if r.val < 80 then
            if r.val < 77 then
              if r.val < 76 then
                (1#32, 4736#32)
              else
                (3#32, 4864#32)
            else
              if r.val < 78 then
                (1#32, 4864#32)
              else
                if r.val < 79 then
                  (3#32, 4992#32)
                else
                  (1#32, 4992#32)
          else
            if r.val < 83 then
              if r.val < 81 then
                (3#32, 5120#32)
              else
                if r.val < 82 then
                  (1#32, 5120#32)
                else
                  (3#32, 5248#32)
            else
              if r.val < 84 then
                (1#32, 5248#32)
              else
                if r.val < 85 then
                  (3#32, 5376#32)
                else
                  (1#32, 5376#32)
  else
    if r.val < 129 then
      if r.val < 107 then
        if r.val < 96 then
          if r.val < 91 then
            if r.val < 88 then
              if r.val < 87 then
                (3#32, 5504#32)
              else
                (1#32, 5504#32)
            else
              if r.val < 89 then
                (3#32, 5632#32)
              else
                if r.val < 90 then
                  (1#32, 5632#32)
                else
                  (3#32, 5760#32)
          else
            if r.val < 93 then
              if r.val < 92 then
                (1#32, 5760#32)
              else
                (3#32, 5888#32)
            else
              if r.val < 94 then
                (1#32, 5888#32)
              else
                if r.val < 95 then
                  (3#32, 6016#32)
                else
                  (1#32, 6016#32)
        else
          if r.val < 101 then
            if r.val < 98 then
              if r.val < 97 then
                (3#32, 6144#32)
              else
                (1#32, 6144#32)
            else
              if r.val < 99 then
                (3#32, 6272#32)
              else
                if r.val < 100 then
                  (1#32, 6272#32)
                else
                  (3#32, 6400#32)
          else
            if r.val < 104 then
              if r.val < 102 then
                (1#32, 6400#32)
              else
                if r.val < 103 then
                  (3#32, 6528#32)
                else
                  (1#32, 6528#32)
            else
              if r.val < 105 then
                (3#32, 6656#32)
              else
                if r.val < 106 then
                  (1#32, 6656#32)
                else
                  (3#32, 6784#32)
      else
        if r.val < 118 then
          if r.val < 112 then
            if r.val < 109 then
              if r.val < 108 then
                (1#32, 6784#32)
              else
                (3#32, 6912#32)
            else
              if r.val < 110 then
                (1#32, 6912#32)
              else
                if r.val < 111 then
                  (3#32, 7040#32)
                else
                  (1#32, 7040#32)
          else
            if r.val < 115 then
              if r.val < 113 then
                (3#32, 7168#32)
              else
                if r.val < 114 then
                  (1#32, 7168#32)
                else
                  (3#32, 7296#32)
            else
              if r.val < 116 then
                (1#32, 7296#32)
              else
                if r.val < 117 then
                  (3#32, 7424#32)
                else
                  (1#32, 7424#32)
        else
          if r.val < 123 then
            if r.val < 120 then
              if r.val < 119 then
                (3#32, 7552#32)
              else
                (1#32, 7552#32)
            else
              if r.val < 121 then
                (3#32, 7680#32)
              else
                if r.val < 122 then
                  (1#32, 7680#32)
                else
                  (3#32, 7808#32)
          else
            if r.val < 126 then
              if r.val < 124 then
                (1#32, 7808#32)
              else
                if r.val < 125 then
                  (3#32, 7936#32)
                else
                  (1#32, 7936#32)
            else
              if r.val < 127 then
                (3#32, 8064#32)
              else
                if r.val < 128 then
                  (1#32, 8064#32)
                else
                  (2#32, 0#32)
    else
      if r.val < 150 then
        if r.val < 139 then
          if r.val < 134 then
            if r.val < 131 then
              if r.val < 130 then
                (2#32, 128#32)
              else
                (2#32, 256#32)
            else
              if r.val < 132 then
                (2#32, 384#32)
              else
                if r.val < 133 then
                  (2#32, 512#32)
                else
                  (2#32, 640#32)
          else
            if r.val < 136 then
              if r.val < 135 then
                (2#32, 768#32)
              else
                (2#32, 896#32)
            else
              if r.val < 137 then
                (2#32, 1024#32)
              else
                if r.val < 138 then
                  (2#32, 1152#32)
                else
                  (2#32, 1280#32)
        else
          if r.val < 144 then
            if r.val < 141 then
              if r.val < 140 then
                (2#32, 1408#32)
              else
                (2#32, 1536#32)
            else
              if r.val < 142 then
                (2#32, 1664#32)
              else
                if r.val < 143 then
                  (2#32, 1792#32)
                else
                  (2#32, 1920#32)
          else
            if r.val < 147 then
              if r.val < 145 then
                (2#32, 2048#32)
              else
                if r.val < 146 then
                  (2#32, 2176#32)
                else
                  (2#32, 2304#32)
            else
              if r.val < 148 then
                (2#32, 2432#32)
              else
                if r.val < 149 then
                  (2#32, 2560#32)
                else
                  (2#32, 2688#32)
      else
        if r.val < 161 then
          if r.val < 155 then
            if r.val < 152 then
              if r.val < 151 then
                (2#32, 2816#32)
              else
                (2#32, 2944#32)
            else
              if r.val < 153 then
                (2#32, 3072#32)
              else
                if r.val < 154 then
                  (2#32, 3200#32)
                else
                  (2#32, 3328#32)
          else
            if r.val < 158 then
              if r.val < 156 then
                (2#32, 3456#32)
              else
                if r.val < 157 then
                  (2#32, 3584#32)
                else
                  (2#32, 3712#32)
            else
              if r.val < 159 then
                (2#32, 3840#32)
              else
                if r.val < 160 then
                  (2#32, 3968#32)
                else
                  (2#32, 4096#32)
        else
          if r.val < 166 then
            if r.val < 163 then
              if r.val < 162 then
                (2#32, 4224#32)
              else
                (2#32, 4352#32)
            else
              if r.val < 164 then
                (2#32, 4480#32)
              else
                if r.val < 165 then
                  (2#32, 4608#32)
                else
                  (2#32, 4736#32)
          else
            if r.val < 169 then
              if r.val < 167 then
                (2#32, 4864#32)
              else
                if r.val < 168 then
                  (2#32, 4992#32)
                else
                  (2#32, 5120#32)
            else
              if r.val < 170 then
                (2#32, 5248#32)
              else
                if r.val < 171 then
                  (2#32, 5376#32)
                else
                  (2#32, 5504#32)
def k0_dev216 (d0 : Dev nD) : Nat :=
  let c0_i32_3837 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3836 : BitVec 32 := 4#32
  let v5054 : BitVec 32 := Scalar.muli v12 c4_i32_3836
  let v5055 : BitVec 32 := Scalar.addi c0_i32_3837 v5054
  let c1_i32_5 : BitVec 32 := 1#32
  let v13 : BitVec 32 := Scalar.subi c1_i32_5 v5
  let v14 : BitVec 32 := Scalar.select v10 v13 v5
  let c2_i32_3838 : BitVec 32 := 2#32
  let v5056 : BitVec 32 := Scalar.muli v14 c2_i32_3838
  let v5057 : BitVec 32 := Scalar.addi v5055 v5056
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3839 : BitVec 32 := 1#32
  let v5058 : BitVec 32 := Scalar.muli v8 c1_i32_3839
  let v5059 : BitVec 32 := Scalar.addi v5057 v5058
  v5059.toNat
def k0_dev217 (d0 : Dev nD) : Nat :=
  let c0_i32_3865 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3864 : BitVec 32 := 4#32
  let v5092 : BitVec 32 := Scalar.muli v12 c4_i32_3864
  let v5093 : BitVec 32 := Scalar.addi c0_i32_3865 v5092
  let c1_i32_5 : BitVec 32 := 1#32
  let v13 : BitVec 32 := Scalar.subi c1_i32_5 v5
  let v14 : BitVec 32 := Scalar.select v10 v13 v5
  let c2_i32_3866 : BitVec 32 := 2#32
  let v5094 : BitVec 32 := Scalar.muli v14 c2_i32_3866
  let v5095 : BitVec 32 := Scalar.addi v5093 v5094
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3867 : BitVec 32 := 1#32
  let v5096 : BitVec 32 := Scalar.muli v8 c1_i32_3867
  let v5097 : BitVec 32 := Scalar.addi v5095 v5096
  v5097.toNat
def k0_dev218 (d0 : Dev nD) : Nat :=
  let c0_i32_3893 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3892 : BitVec 32 := 4#32
  let v5130 : BitVec 32 := Scalar.muli v12 c4_i32_3892
  let v5131 : BitVec 32 := Scalar.addi c0_i32_3893 v5130
  let c1_i32_5 : BitVec 32 := 1#32
  let v13 : BitVec 32 := Scalar.subi c1_i32_5 v5
  let v14 : BitVec 32 := Scalar.select v10 v13 v5
  let c2_i32_3894 : BitVec 32 := 2#32
  let v5132 : BitVec 32 := Scalar.muli v14 c2_i32_3894
  let v5133 : BitVec 32 := Scalar.addi v5131 v5132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3895 : BitVec 32 := 1#32
  let v5134 : BitVec 32 := Scalar.muli v8 c1_i32_3895
  let v5135 : BitVec 32 := Scalar.addi v5133 v5134
  v5135.toNat
def k0_dev219 (d0 : Dev nD) : Nat :=
  let c0_i32_3921 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3920 : BitVec 32 := 4#32
  let v5168 : BitVec 32 := Scalar.muli v12 c4_i32_3920
  let v5169 : BitVec 32 := Scalar.addi c0_i32_3921 v5168
  let c1_i32_5 : BitVec 32 := 1#32
  let v13 : BitVec 32 := Scalar.subi c1_i32_5 v5
  let v14 : BitVec 32 := Scalar.select v10 v13 v5
  let c2_i32_3922 : BitVec 32 := 2#32
  let v5170 : BitVec 32 := Scalar.muli v14 c2_i32_3922
  let v5171 : BitVec 32 := Scalar.addi v5169 v5170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3923 : BitVec 32 := 1#32
  let v5172 : BitVec 32 := Scalar.muli v8 c1_i32_3923
  let v5173 : BitVec 32 := Scalar.addi v5171 v5172
  v5173.toNat
def k0_dev220 (d0 : Dev nD) : Nat :=
  let c0_i32_3949 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3948 : BitVec 32 := 4#32
  let v5206 : BitVec 32 := Scalar.muli v12 c4_i32_3948
  let v5207 : BitVec 32 := Scalar.addi c0_i32_3949 v5206
  let c1_i32_5 : BitVec 32 := 1#32
  let v13 : BitVec 32 := Scalar.subi c1_i32_5 v5
  let v14 : BitVec 32 := Scalar.select v10 v13 v5
  let c2_i32_3950 : BitVec 32 := 2#32
  let v5208 : BitVec 32 := Scalar.muli v14 c2_i32_3950
  let v5209 : BitVec 32 := Scalar.addi v5207 v5208
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3951 : BitVec 32 := 1#32
  let v5210 : BitVec 32 := Scalar.muli v8 c1_i32_3951
  let v5211 : BitVec 32 := Scalar.addi v5209 v5210
  v5211.toNat
def k0_dev221 (d0 : Dev nD) : Nat :=
  let c0_i32_3977 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_3976 : BitVec 32 := 4#32
  let v5244 : BitVec 32 := Scalar.muli v12 c4_i32_3976
  let v5245 : BitVec 32 := Scalar.addi c0_i32_3977 v5244
  let c1_i32_5 : BitVec 32 := 1#32
  let v13 : BitVec 32 := Scalar.subi c1_i32_5 v5
  let v14 : BitVec 32 := Scalar.select v10 v13 v5
  let c2_i32_3978 : BitVec 32 := 2#32
  let v5246 : BitVec 32 := Scalar.muli v14 c2_i32_3978
  let v5247 : BitVec 32 := Scalar.addi v5245 v5246
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3979 : BitVec 32 := 1#32
  let v5248 : BitVec 32 := Scalar.muli v8 c1_i32_3979
  let v5249 : BitVec 32 := Scalar.addi v5247 v5248
  v5249.toNat
def k0_dev222 (d0 : Dev nD) : Nat :=
  let c0_i32_4005 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4004 : BitVec 32 := 4#32
  let v5282 : BitVec 32 := Scalar.muli v12 c4_i32_4004
  let v5283 : BitVec 32 := Scalar.addi c0_i32_4005 v5282
  let c1_i32_5 : BitVec 32 := 1#32
  let v13 : BitVec 32 := Scalar.subi c1_i32_5 v5
  let v14 : BitVec 32 := Scalar.select v10 v13 v5
  let c2_i32_4006 : BitVec 32 := 2#32
  let v5284 : BitVec 32 := Scalar.muli v14 c2_i32_4006
  let v5285 : BitVec 32 := Scalar.addi v5283 v5284
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4007 : BitVec 32 := 1#32
  let v5286 : BitVec 32 := Scalar.muli v8 c1_i32_4007
  let v5287 : BitVec 32 := Scalar.addi v5285 v5286
  v5287.toNat
def k0_dev223 (d0 : Dev nD) : Nat :=
  let c0_i32_4033 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4032 : BitVec 32 := 4#32
  let v5320 : BitVec 32 := Scalar.muli v12 c4_i32_4032
  let v5321 : BitVec 32 := Scalar.addi c0_i32_4033 v5320
  let c1_i32_5 : BitVec 32 := 1#32
  let v13 : BitVec 32 := Scalar.subi c1_i32_5 v5
  let v14 : BitVec 32 := Scalar.select v10 v13 v5
  let c2_i32_4034 : BitVec 32 := 2#32
  let v5322 : BitVec 32 := Scalar.muli v14 c2_i32_4034
  let v5323 : BitVec 32 := Scalar.addi v5321 v5322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4035 : BitVec 32 := 1#32
  let v5324 : BitVec 32 := Scalar.muli v8 c1_i32_4035
  let v5325 : BitVec 32 := Scalar.addi v5323 v5324
  v5325.toNat
def k0_dev224 (d0 : Dev nD) : Nat :=
  let c0_i32_4061 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4060 : BitVec 32 := 4#32
  let v5358 : BitVec 32 := Scalar.muli v12 c4_i32_4060
  let v5359 : BitVec 32 := Scalar.addi c0_i32_4061 v5358
  let c1_i32_5 : BitVec 32 := 1#32
  let v13 : BitVec 32 := Scalar.subi c1_i32_5 v5
  let v14 : BitVec 32 := Scalar.select v10 v13 v5
  let c2_i32_4062 : BitVec 32 := 2#32
  let v5360 : BitVec 32 := Scalar.muli v14 c2_i32_4062
  let v5361 : BitVec 32 := Scalar.addi v5359 v5360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4063 : BitVec 32 := 1#32
  let v5362 : BitVec 32 := Scalar.muli v8 c1_i32_4063
  let v5363 : BitVec 32 := Scalar.addi v5361 v5362
  v5363.toNat
def k0_dev225 (d0 : Dev nD) : Nat :=
  let c0_i32_4089 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4088 : BitVec 32 := 4#32
  let v5396 : BitVec 32 := Scalar.muli v12 c4_i32_4088
  let v5397 : BitVec 32 := Scalar.addi c0_i32_4089 v5396
  let c1_i32_5 : BitVec 32 := 1#32
  let v13 : BitVec 32 := Scalar.subi c1_i32_5 v5
  let v14 : BitVec 32 := Scalar.select v10 v13 v5
  let c2_i32_4090 : BitVec 32 := 2#32
  let v5398 : BitVec 32 := Scalar.muli v14 c2_i32_4090
  let v5399 : BitVec 32 := Scalar.addi v5397 v5398
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4091 : BitVec 32 := 1#32
  let v5400 : BitVec 32 := Scalar.muli v8 c1_i32_4091
  let v5401 : BitVec 32 := Scalar.addi v5399 v5400
  v5401.toNat
def k0_dev226 (d0 : Dev nD) : Nat :=
  let c0_i32_4117 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4116 : BitVec 32 := 4#32
  let v5434 : BitVec 32 := Scalar.muli v12 c4_i32_4116
  let v5435 : BitVec 32 := Scalar.addi c0_i32_4117 v5434
  let c1_i32_5 : BitVec 32 := 1#32
  let v13 : BitVec 32 := Scalar.subi c1_i32_5 v5
  let v14 : BitVec 32 := Scalar.select v10 v13 v5
  let c2_i32_4118 : BitVec 32 := 2#32
  let v5436 : BitVec 32 := Scalar.muli v14 c2_i32_4118
  let v5437 : BitVec 32 := Scalar.addi v5435 v5436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4119 : BitVec 32 := 1#32
  let v5438 : BitVec 32 := Scalar.muli v8 c1_i32_4119
  let v5439 : BitVec 32 := Scalar.addi v5437 v5438
  v5439.toNat
def k0_dev227 (d0 : Dev nD) : Nat :=
  let c0_i32_4145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4144 : BitVec 32 := 4#32
  let v5472 : BitVec 32 := Scalar.muli v12 c4_i32_4144
  let v5473 : BitVec 32 := Scalar.addi c0_i32_4145 v5472
  let c1_i32_5 : BitVec 32 := 1#32
  let v13 : BitVec 32 := Scalar.subi c1_i32_5 v5
  let v14 : BitVec 32 := Scalar.select v10 v13 v5
  let c2_i32_4146 : BitVec 32 := 2#32
  let v5474 : BitVec 32 := Scalar.muli v14 c2_i32_4146
  let v5475 : BitVec 32 := Scalar.addi v5473 v5474
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4147 : BitVec 32 := 1#32
  let v5476 : BitVec 32 := Scalar.muli v8 c1_i32_4147
  let v5477 : BitVec 32 := Scalar.addi v5475 v5476
  v5477.toNat
def k0_dev228 (d0 : Dev nD) : Nat :=
  let c0_i32_4173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4172 : BitVec 32 := 4#32
  let v5510 : BitVec 32 := Scalar.muli v12 c4_i32_4172
  let v5511 : BitVec 32 := Scalar.addi c0_i32_4173 v5510
  let c1_i32_5 : BitVec 32 := 1#32
  let v13 : BitVec 32 := Scalar.subi c1_i32_5 v5
  let v14 : BitVec 32 := Scalar.select v10 v13 v5
  let c2_i32_4174 : BitVec 32 := 2#32
  let v5512 : BitVec 32 := Scalar.muli v14 c2_i32_4174
  let v5513 : BitVec 32 := Scalar.addi v5511 v5512
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4175 : BitVec 32 := 1#32
  let v5514 : BitVec 32 := Scalar.muli v8 c1_i32_4175
  let v5515 : BitVec 32 := Scalar.addi v5513 v5514
  v5515.toNat
def k0_dev229 (d0 : Dev nD) : Nat :=
  let c0_i32_4201 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4200 : BitVec 32 := 4#32
  let v5548 : BitVec 32 := Scalar.muli v12 c4_i32_4200
  let v5549 : BitVec 32 := Scalar.addi c0_i32_4201 v5548
  let c1_i32_5 : BitVec 32 := 1#32
  let v13 : BitVec 32 := Scalar.subi c1_i32_5 v5
  let v14 : BitVec 32 := Scalar.select v10 v13 v5
  let c2_i32_4202 : BitVec 32 := 2#32
  let v5550 : BitVec 32 := Scalar.muli v14 c2_i32_4202
  let v5551 : BitVec 32 := Scalar.addi v5549 v5550
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4203 : BitVec 32 := 1#32
  let v5552 : BitVec 32 := Scalar.muli v8 c1_i32_4203
  let v5553 : BitVec 32 := Scalar.addi v5551 v5552
  v5553.toNat
def k0_dev230 (d0 : Dev nD) : Nat :=
  let c0_i32_4229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4228 : BitVec 32 := 4#32
  let v5586 : BitVec 32 := Scalar.muli v12 c4_i32_4228
  let v5587 : BitVec 32 := Scalar.addi c0_i32_4229 v5586
  let c1_i32_5 : BitVec 32 := 1#32
  let v13 : BitVec 32 := Scalar.subi c1_i32_5 v5
  let v14 : BitVec 32 := Scalar.select v10 v13 v5
  let c2_i32_4230 : BitVec 32 := 2#32
  let v5588 : BitVec 32 := Scalar.muli v14 c2_i32_4230
  let v5589 : BitVec 32 := Scalar.addi v5587 v5588
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4231 : BitVec 32 := 1#32
  let v5590 : BitVec 32 := Scalar.muli v8 c1_i32_4231
  let v5591 : BitVec 32 := Scalar.addi v5589 v5590
  v5591.toNat
def k0_dev231 (d0 : Dev nD) : Nat :=
  let c0_i32_4257 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4256 : BitVec 32 := 4#32
  let v5624 : BitVec 32 := Scalar.muli v12 c4_i32_4256
  let v5625 : BitVec 32 := Scalar.addi c0_i32_4257 v5624
  let c1_i32_5 : BitVec 32 := 1#32
  let v13 : BitVec 32 := Scalar.subi c1_i32_5 v5
  let v14 : BitVec 32 := Scalar.select v10 v13 v5
  let c2_i32_4258 : BitVec 32 := 2#32
  let v5626 : BitVec 32 := Scalar.muli v14 c2_i32_4258
  let v5627 : BitVec 32 := Scalar.addi v5625 v5626
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4259 : BitVec 32 := 1#32
  let v5628 : BitVec 32 := Scalar.muli v8 c1_i32_4259
  let v5629 : BitVec 32 := Scalar.addi v5627 v5628
  v5629.toNat
def k0_dev232 (d0 : Dev nD) : Nat :=
  let c0_i32_4285 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4284 : BitVec 32 := 4#32
  let v5662 : BitVec 32 := Scalar.muli v12 c4_i32_4284
  let v5663 : BitVec 32 := Scalar.addi c0_i32_4285 v5662
  let c1_i32_5 : BitVec 32 := 1#32
  let v13 : BitVec 32 := Scalar.subi c1_i32_5 v5
  let v14 : BitVec 32 := Scalar.select v10 v13 v5
  let c2_i32_4286 : BitVec 32 := 2#32
  let v5664 : BitVec 32 := Scalar.muli v14 c2_i32_4286
  let v5665 : BitVec 32 := Scalar.addi v5663 v5664
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4287 : BitVec 32 := 1#32
  let v5666 : BitVec 32 := Scalar.muli v8 c1_i32_4287
  let v5667 : BitVec 32 := Scalar.addi v5665 v5666
  v5667.toNat
def k0_dev233 (d0 : Dev nD) : Nat :=
  let c0_i32_4313 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4312 : BitVec 32 := 4#32
  let v5700 : BitVec 32 := Scalar.muli v12 c4_i32_4312
  let v5701 : BitVec 32 := Scalar.addi c0_i32_4313 v5700
  let c1_i32_5 : BitVec 32 := 1#32
  let v13 : BitVec 32 := Scalar.subi c1_i32_5 v5
  let v14 : BitVec 32 := Scalar.select v10 v13 v5
  let c2_i32_4314 : BitVec 32 := 2#32
  let v5702 : BitVec 32 := Scalar.muli v14 c2_i32_4314
  let v5703 : BitVec 32 := Scalar.addi v5701 v5702
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4315 : BitVec 32 := 1#32
  let v5704 : BitVec 32 := Scalar.muli v8 c1_i32_4315
  let v5705 : BitVec 32 := Scalar.addi v5703 v5704
  v5705.toNat
def k0_dev234 (d0 : Dev nD) : Nat :=
  let c0_i32_4341 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4340 : BitVec 32 := 4#32
  let v5738 : BitVec 32 := Scalar.muli v12 c4_i32_4340
  let v5739 : BitVec 32 := Scalar.addi c0_i32_4341 v5738
  let c1_i32_5 : BitVec 32 := 1#32
  let v13 : BitVec 32 := Scalar.subi c1_i32_5 v5
  let v14 : BitVec 32 := Scalar.select v10 v13 v5
  let c2_i32_4342 : BitVec 32 := 2#32
  let v5740 : BitVec 32 := Scalar.muli v14 c2_i32_4342
  let v5741 : BitVec 32 := Scalar.addi v5739 v5740
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4343 : BitVec 32 := 1#32
  let v5742 : BitVec 32 := Scalar.muli v8 c1_i32_4343
  let v5743 : BitVec 32 := Scalar.addi v5741 v5742
  v5743.toNat
def k0_dev235 (d0 : Dev nD) : Nat :=
  let c0_i32_4369 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4368 : BitVec 32 := 4#32
  let v5776 : BitVec 32 := Scalar.muli v12 c4_i32_4368
  let v5777 : BitVec 32 := Scalar.addi c0_i32_4369 v5776
  let c1_i32_5 : BitVec 32 := 1#32
  let v13 : BitVec 32 := Scalar.subi c1_i32_5 v5
  let v14 : BitVec 32 := Scalar.select v10 v13 v5
  let c2_i32_4370 : BitVec 32 := 2#32
  let v5778 : BitVec 32 := Scalar.muli v14 c2_i32_4370
  let v5779 : BitVec 32 := Scalar.addi v5777 v5778
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4371 : BitVec 32 := 1#32
  let v5780 : BitVec 32 := Scalar.muli v8 c1_i32_4371
  let v5781 : BitVec 32 := Scalar.addi v5779 v5780
  v5781.toNat
def k0_dev236 (d0 : Dev nD) : Nat :=
  let c0_i32_4397 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4396 : BitVec 32 := 4#32
  let v5814 : BitVec 32 := Scalar.muli v12 c4_i32_4396
  let v5815 : BitVec 32 := Scalar.addi c0_i32_4397 v5814
  let c1_i32_5 : BitVec 32 := 1#32
  let v13 : BitVec 32 := Scalar.subi c1_i32_5 v5
  let v14 : BitVec 32 := Scalar.select v10 v13 v5
  let c2_i32_4398 : BitVec 32 := 2#32
  let v5816 : BitVec 32 := Scalar.muli v14 c2_i32_4398
  let v5817 : BitVec 32 := Scalar.addi v5815 v5816
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4399 : BitVec 32 := 1#32
  let v5818 : BitVec 32 := Scalar.muli v8 c1_i32_4399
  let v5819 : BitVec 32 := Scalar.addi v5817 v5818
  v5819.toNat
def k0_dev237 (d0 : Dev nD) : Nat :=
  let c0_i32_4425 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_4 : BitVec 32 := 1#32
  let v11 : BitVec 32 := Scalar.subi c1_i32_4 v2
  let v12 : BitVec 32 := Scalar.select v10 v2 v11
  let c4_i32_4424 : BitVec 32 := 4#32
  let v5852 : BitVec 32 := Scalar.muli v12 c4_i32_4424
  let v5853 : BitVec 32 := Scalar.addi c0_i32_4425 v5852
  let c1_i32_5 : BitVec 32 := 1#32
  let v13 : BitVec 32 := Scalar.subi c1_i32_5 v5
  let v14 : BitVec 32 := Scalar.select v10 v13 v5
  let c2_i32_4426 : BitVec 32 := 2#32
  let v5854 : BitVec 32 := Scalar.muli v14 c2_i32_4426
  let v5855 : BitVec 32 := Scalar.addi v5853 v5854
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4427 : BitVec 32 := 1#32
  let v5856 : BitVec 32 := Scalar.muli v8 c1_i32_4427
  let v5857 : BitVec 32 := Scalar.addi v5855 v5856
  v5857.toNat
def k0_dev238 (d0 : Dev nD) : Nat :=
  let c0_i32_4463 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4462 : BitVec 32 := 4#32
  let v5903 : BitVec 32 := Scalar.muli v16 c4_i32_4462
  let v5904 : BitVec 32 := Scalar.addi c0_i32_4463 v5903
  let c1_i32_7 : BitVec 32 := 1#32
  let v17 : BitVec 32 := Scalar.subi c1_i32_7 v5
  let v18 : BitVec 32 := Scalar.select v10 v5 v17
  let c2_i32_4464 : BitVec 32 := 2#32
  let v5905 : BitVec 32 := Scalar.muli v18 c2_i32_4464
  let v5906 : BitVec 32 := Scalar.addi v5904 v5905
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4465 : BitVec 32 := 1#32
  let v5907 : BitVec 32 := Scalar.muli v8 c1_i32_4465
  let v5908 : BitVec 32 := Scalar.addi v5906 v5907
  v5908.toNat
def k0_dev239 (d0 : Dev nD) : Nat :=
  let c0_i32_4491 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4490 : BitVec 32 := 4#32
  let v5941 : BitVec 32 := Scalar.muli v16 c4_i32_4490
  let v5942 : BitVec 32 := Scalar.addi c0_i32_4491 v5941
  let c1_i32_7 : BitVec 32 := 1#32
  let v17 : BitVec 32 := Scalar.subi c1_i32_7 v5
  let v18 : BitVec 32 := Scalar.select v10 v5 v17
  let c2_i32_4492 : BitVec 32 := 2#32
  let v5943 : BitVec 32 := Scalar.muli v18 c2_i32_4492
  let v5944 : BitVec 32 := Scalar.addi v5942 v5943
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4493 : BitVec 32 := 1#32
  let v5945 : BitVec 32 := Scalar.muli v8 c1_i32_4493
  let v5946 : BitVec 32 := Scalar.addi v5944 v5945
  v5946.toNat
def k0_dev240 (d0 : Dev nD) : Nat :=
  let c0_i32_4519 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4518 : BitVec 32 := 4#32
  let v5979 : BitVec 32 := Scalar.muli v16 c4_i32_4518
  let v5980 : BitVec 32 := Scalar.addi c0_i32_4519 v5979
  let c1_i32_7 : BitVec 32 := 1#32
  let v17 : BitVec 32 := Scalar.subi c1_i32_7 v5
  let v18 : BitVec 32 := Scalar.select v10 v5 v17
  let c2_i32_4520 : BitVec 32 := 2#32
  let v5981 : BitVec 32 := Scalar.muli v18 c2_i32_4520
  let v5982 : BitVec 32 := Scalar.addi v5980 v5981
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4521 : BitVec 32 := 1#32
  let v5983 : BitVec 32 := Scalar.muli v8 c1_i32_4521
  let v5984 : BitVec 32 := Scalar.addi v5982 v5983
  v5984.toNat
def k0_dev241 (d0 : Dev nD) : Nat :=
  let c0_i32_4547 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4546 : BitVec 32 := 4#32
  let v6017 : BitVec 32 := Scalar.muli v16 c4_i32_4546
  let v6018 : BitVec 32 := Scalar.addi c0_i32_4547 v6017
  let c1_i32_7 : BitVec 32 := 1#32
  let v17 : BitVec 32 := Scalar.subi c1_i32_7 v5
  let v18 : BitVec 32 := Scalar.select v10 v5 v17
  let c2_i32_4548 : BitVec 32 := 2#32
  let v6019 : BitVec 32 := Scalar.muli v18 c2_i32_4548
  let v6020 : BitVec 32 := Scalar.addi v6018 v6019
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4549 : BitVec 32 := 1#32
  let v6021 : BitVec 32 := Scalar.muli v8 c1_i32_4549
  let v6022 : BitVec 32 := Scalar.addi v6020 v6021
  v6022.toNat
def k0_dev242 (d0 : Dev nD) : Nat :=
  let c0_i32_4575 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4574 : BitVec 32 := 4#32
  let v6055 : BitVec 32 := Scalar.muli v16 c4_i32_4574
  let v6056 : BitVec 32 := Scalar.addi c0_i32_4575 v6055
  let c1_i32_7 : BitVec 32 := 1#32
  let v17 : BitVec 32 := Scalar.subi c1_i32_7 v5
  let v18 : BitVec 32 := Scalar.select v10 v5 v17
  let c2_i32_4576 : BitVec 32 := 2#32
  let v6057 : BitVec 32 := Scalar.muli v18 c2_i32_4576
  let v6058 : BitVec 32 := Scalar.addi v6056 v6057
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4577 : BitVec 32 := 1#32
  let v6059 : BitVec 32 := Scalar.muli v8 c1_i32_4577
  let v6060 : BitVec 32 := Scalar.addi v6058 v6059
  v6060.toNat
def k0_dev243 (d0 : Dev nD) : Nat :=
  let c0_i32_4603 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4602 : BitVec 32 := 4#32
  let v6093 : BitVec 32 := Scalar.muli v16 c4_i32_4602
  let v6094 : BitVec 32 := Scalar.addi c0_i32_4603 v6093
  let c1_i32_7 : BitVec 32 := 1#32
  let v17 : BitVec 32 := Scalar.subi c1_i32_7 v5
  let v18 : BitVec 32 := Scalar.select v10 v5 v17
  let c2_i32_4604 : BitVec 32 := 2#32
  let v6095 : BitVec 32 := Scalar.muli v18 c2_i32_4604
  let v6096 : BitVec 32 := Scalar.addi v6094 v6095
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4605 : BitVec 32 := 1#32
  let v6097 : BitVec 32 := Scalar.muli v8 c1_i32_4605
  let v6098 : BitVec 32 := Scalar.addi v6096 v6097
  v6098.toNat
def k0_dev244 (d0 : Dev nD) : Nat :=
  let c0_i32_4631 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4630 : BitVec 32 := 4#32
  let v6131 : BitVec 32 := Scalar.muli v16 c4_i32_4630
  let v6132 : BitVec 32 := Scalar.addi c0_i32_4631 v6131
  let c1_i32_7 : BitVec 32 := 1#32
  let v17 : BitVec 32 := Scalar.subi c1_i32_7 v5
  let v18 : BitVec 32 := Scalar.select v10 v5 v17
  let c2_i32_4632 : BitVec 32 := 2#32
  let v6133 : BitVec 32 := Scalar.muli v18 c2_i32_4632
  let v6134 : BitVec 32 := Scalar.addi v6132 v6133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4633 : BitVec 32 := 1#32
  let v6135 : BitVec 32 := Scalar.muli v8 c1_i32_4633
  let v6136 : BitVec 32 := Scalar.addi v6134 v6135
  v6136.toNat
def k0_dev245 (d0 : Dev nD) : Nat :=
  let c0_i32_4659 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4658 : BitVec 32 := 4#32
  let v6169 : BitVec 32 := Scalar.muli v16 c4_i32_4658
  let v6170 : BitVec 32 := Scalar.addi c0_i32_4659 v6169
  let c1_i32_7 : BitVec 32 := 1#32
  let v17 : BitVec 32 := Scalar.subi c1_i32_7 v5
  let v18 : BitVec 32 := Scalar.select v10 v5 v17
  let c2_i32_4660 : BitVec 32 := 2#32
  let v6171 : BitVec 32 := Scalar.muli v18 c2_i32_4660
  let v6172 : BitVec 32 := Scalar.addi v6170 v6171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4661 : BitVec 32 := 1#32
  let v6173 : BitVec 32 := Scalar.muli v8 c1_i32_4661
  let v6174 : BitVec 32 := Scalar.addi v6172 v6173
  v6174.toNat
def k0_dev246 (d0 : Dev nD) : Nat :=
  let c0_i32_4687 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4686 : BitVec 32 := 4#32
  let v6207 : BitVec 32 := Scalar.muli v16 c4_i32_4686
  let v6208 : BitVec 32 := Scalar.addi c0_i32_4687 v6207
  let c1_i32_7 : BitVec 32 := 1#32
  let v17 : BitVec 32 := Scalar.subi c1_i32_7 v5
  let v18 : BitVec 32 := Scalar.select v10 v5 v17
  let c2_i32_4688 : BitVec 32 := 2#32
  let v6209 : BitVec 32 := Scalar.muli v18 c2_i32_4688
  let v6210 : BitVec 32 := Scalar.addi v6208 v6209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4689 : BitVec 32 := 1#32
  let v6211 : BitVec 32 := Scalar.muli v8 c1_i32_4689
  let v6212 : BitVec 32 := Scalar.addi v6210 v6211
  v6212.toNat
def k0_dev247 (d0 : Dev nD) : Nat :=
  let c0_i32_4715 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4714 : BitVec 32 := 4#32
  let v6245 : BitVec 32 := Scalar.muli v16 c4_i32_4714
  let v6246 : BitVec 32 := Scalar.addi c0_i32_4715 v6245
  let c1_i32_7 : BitVec 32 := 1#32
  let v17 : BitVec 32 := Scalar.subi c1_i32_7 v5
  let v18 : BitVec 32 := Scalar.select v10 v5 v17
  let c2_i32_4716 : BitVec 32 := 2#32
  let v6247 : BitVec 32 := Scalar.muli v18 c2_i32_4716
  let v6248 : BitVec 32 := Scalar.addi v6246 v6247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4717 : BitVec 32 := 1#32
  let v6249 : BitVec 32 := Scalar.muli v8 c1_i32_4717
  let v6250 : BitVec 32 := Scalar.addi v6248 v6249
  v6250.toNat
def k0_dev248 (d0 : Dev nD) : Nat :=
  let c0_i32_4743 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4742 : BitVec 32 := 4#32
  let v6283 : BitVec 32 := Scalar.muli v16 c4_i32_4742
  let v6284 : BitVec 32 := Scalar.addi c0_i32_4743 v6283
  let c1_i32_7 : BitVec 32 := 1#32
  let v17 : BitVec 32 := Scalar.subi c1_i32_7 v5
  let v18 : BitVec 32 := Scalar.select v10 v5 v17
  let c2_i32_4744 : BitVec 32 := 2#32
  let v6285 : BitVec 32 := Scalar.muli v18 c2_i32_4744
  let v6286 : BitVec 32 := Scalar.addi v6284 v6285
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4745 : BitVec 32 := 1#32
  let v6287 : BitVec 32 := Scalar.muli v8 c1_i32_4745
  let v6288 : BitVec 32 := Scalar.addi v6286 v6287
  v6288.toNat
def k0_dev249 (d0 : Dev nD) : Nat :=
  let c0_i32_4771 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4770 : BitVec 32 := 4#32
  let v6321 : BitVec 32 := Scalar.muli v16 c4_i32_4770
  let v6322 : BitVec 32 := Scalar.addi c0_i32_4771 v6321
  let c1_i32_7 : BitVec 32 := 1#32
  let v17 : BitVec 32 := Scalar.subi c1_i32_7 v5
  let v18 : BitVec 32 := Scalar.select v10 v5 v17
  let c2_i32_4772 : BitVec 32 := 2#32
  let v6323 : BitVec 32 := Scalar.muli v18 c2_i32_4772
  let v6324 : BitVec 32 := Scalar.addi v6322 v6323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4773 : BitVec 32 := 1#32
  let v6325 : BitVec 32 := Scalar.muli v8 c1_i32_4773
  let v6326 : BitVec 32 := Scalar.addi v6324 v6325
  v6326.toNat
def k0_dev250 (d0 : Dev nD) : Nat :=
  let c0_i32_4799 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4798 : BitVec 32 := 4#32
  let v6359 : BitVec 32 := Scalar.muli v16 c4_i32_4798
  let v6360 : BitVec 32 := Scalar.addi c0_i32_4799 v6359
  let c1_i32_7 : BitVec 32 := 1#32
  let v17 : BitVec 32 := Scalar.subi c1_i32_7 v5
  let v18 : BitVec 32 := Scalar.select v10 v5 v17
  let c2_i32_4800 : BitVec 32 := 2#32
  let v6361 : BitVec 32 := Scalar.muli v18 c2_i32_4800
  let v6362 : BitVec 32 := Scalar.addi v6360 v6361
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4801 : BitVec 32 := 1#32
  let v6363 : BitVec 32 := Scalar.muli v8 c1_i32_4801
  let v6364 : BitVec 32 := Scalar.addi v6362 v6363
  v6364.toNat
def k0_dev251 (d0 : Dev nD) : Nat :=
  let c0_i32_4827 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4826 : BitVec 32 := 4#32
  let v6397 : BitVec 32 := Scalar.muli v16 c4_i32_4826
  let v6398 : BitVec 32 := Scalar.addi c0_i32_4827 v6397
  let c1_i32_7 : BitVec 32 := 1#32
  let v17 : BitVec 32 := Scalar.subi c1_i32_7 v5
  let v18 : BitVec 32 := Scalar.select v10 v5 v17
  let c2_i32_4828 : BitVec 32 := 2#32
  let v6399 : BitVec 32 := Scalar.muli v18 c2_i32_4828
  let v6400 : BitVec 32 := Scalar.addi v6398 v6399
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4829 : BitVec 32 := 1#32
  let v6401 : BitVec 32 := Scalar.muli v8 c1_i32_4829
  let v6402 : BitVec 32 := Scalar.addi v6400 v6401
  v6402.toNat
def k0_dev252 (d0 : Dev nD) : Nat :=
  let c0_i32_4855 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4854 : BitVec 32 := 4#32
  let v6435 : BitVec 32 := Scalar.muli v16 c4_i32_4854
  let v6436 : BitVec 32 := Scalar.addi c0_i32_4855 v6435
  let c1_i32_7 : BitVec 32 := 1#32
  let v17 : BitVec 32 := Scalar.subi c1_i32_7 v5
  let v18 : BitVec 32 := Scalar.select v10 v5 v17
  let c2_i32_4856 : BitVec 32 := 2#32
  let v6437 : BitVec 32 := Scalar.muli v18 c2_i32_4856
  let v6438 : BitVec 32 := Scalar.addi v6436 v6437
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4857 : BitVec 32 := 1#32
  let v6439 : BitVec 32 := Scalar.muli v8 c1_i32_4857
  let v6440 : BitVec 32 := Scalar.addi v6438 v6439
  v6440.toNat
def k0_dev253 (d0 : Dev nD) : Nat :=
  let c0_i32_4883 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4882 : BitVec 32 := 4#32
  let v6473 : BitVec 32 := Scalar.muli v16 c4_i32_4882
  let v6474 : BitVec 32 := Scalar.addi c0_i32_4883 v6473
  let c1_i32_7 : BitVec 32 := 1#32
  let v17 : BitVec 32 := Scalar.subi c1_i32_7 v5
  let v18 : BitVec 32 := Scalar.select v10 v5 v17
  let c2_i32_4884 : BitVec 32 := 2#32
  let v6475 : BitVec 32 := Scalar.muli v18 c2_i32_4884
  let v6476 : BitVec 32 := Scalar.addi v6474 v6475
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4885 : BitVec 32 := 1#32
  let v6477 : BitVec 32 := Scalar.muli v8 c1_i32_4885
  let v6478 : BitVec 32 := Scalar.addi v6476 v6477
  v6478.toNat
def k0_dev254 (d0 : Dev nD) : Nat :=
  let c0_i32_4911 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4910 : BitVec 32 := 4#32
  let v6511 : BitVec 32 := Scalar.muli v16 c4_i32_4910
  let v6512 : BitVec 32 := Scalar.addi c0_i32_4911 v6511
  let c1_i32_7 : BitVec 32 := 1#32
  let v17 : BitVec 32 := Scalar.subi c1_i32_7 v5
  let v18 : BitVec 32 := Scalar.select v10 v5 v17
  let c2_i32_4912 : BitVec 32 := 2#32
  let v6513 : BitVec 32 := Scalar.muli v18 c2_i32_4912
  let v6514 : BitVec 32 := Scalar.addi v6512 v6513
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4913 : BitVec 32 := 1#32
  let v6515 : BitVec 32 := Scalar.muli v8 c1_i32_4913
  let v6516 : BitVec 32 := Scalar.addi v6514 v6515
  v6516.toNat
def k0_dev255 (d0 : Dev nD) : Nat :=
  let c0_i32_4939 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4938 : BitVec 32 := 4#32
  let v6549 : BitVec 32 := Scalar.muli v16 c4_i32_4938
  let v6550 : BitVec 32 := Scalar.addi c0_i32_4939 v6549
  let c1_i32_7 : BitVec 32 := 1#32
  let v17 : BitVec 32 := Scalar.subi c1_i32_7 v5
  let v18 : BitVec 32 := Scalar.select v10 v5 v17
  let c2_i32_4940 : BitVec 32 := 2#32
  let v6551 : BitVec 32 := Scalar.muli v18 c2_i32_4940
  let v6552 : BitVec 32 := Scalar.addi v6550 v6551
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4941 : BitVec 32 := 1#32
  let v6553 : BitVec 32 := Scalar.muli v8 c1_i32_4941
  let v6554 : BitVec 32 := Scalar.addi v6552 v6553
  v6554.toNat
def k0_dev256 (d0 : Dev nD) : Nat :=
  let c0_i32_4967 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4966 : BitVec 32 := 4#32
  let v6587 : BitVec 32 := Scalar.muli v16 c4_i32_4966
  let v6588 : BitVec 32 := Scalar.addi c0_i32_4967 v6587
  let c1_i32_7 : BitVec 32 := 1#32
  let v17 : BitVec 32 := Scalar.subi c1_i32_7 v5
  let v18 : BitVec 32 := Scalar.select v10 v5 v17
  let c2_i32_4968 : BitVec 32 := 2#32
  let v6589 : BitVec 32 := Scalar.muli v18 c2_i32_4968
  let v6590 : BitVec 32 := Scalar.addi v6588 v6589
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4969 : BitVec 32 := 1#32
  let v6591 : BitVec 32 := Scalar.muli v8 c1_i32_4969
  let v6592 : BitVec 32 := Scalar.addi v6590 v6591
  v6592.toNat
def k0_dev257 (d0 : Dev nD) : Nat :=
  let c0_i32_4995 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_4994 : BitVec 32 := 4#32
  let v6625 : BitVec 32 := Scalar.muli v16 c4_i32_4994
  let v6626 : BitVec 32 := Scalar.addi c0_i32_4995 v6625
  let c1_i32_7 : BitVec 32 := 1#32
  let v17 : BitVec 32 := Scalar.subi c1_i32_7 v5
  let v18 : BitVec 32 := Scalar.select v10 v5 v17
  let c2_i32_4996 : BitVec 32 := 2#32
  let v6627 : BitVec 32 := Scalar.muli v18 c2_i32_4996
  let v6628 : BitVec 32 := Scalar.addi v6626 v6627
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4997 : BitVec 32 := 1#32
  let v6629 : BitVec 32 := Scalar.muli v8 c1_i32_4997
  let v6630 : BitVec 32 := Scalar.addi v6628 v6629
  v6630.toNat
def k0_dev258 (d0 : Dev nD) : Nat :=
  let c0_i32_5023 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_5022 : BitVec 32 := 4#32
  let v6663 : BitVec 32 := Scalar.muli v16 c4_i32_5022
  let v6664 : BitVec 32 := Scalar.addi c0_i32_5023 v6663
  let c1_i32_7 : BitVec 32 := 1#32
  let v17 : BitVec 32 := Scalar.subi c1_i32_7 v5
  let v18 : BitVec 32 := Scalar.select v10 v5 v17
  let c2_i32_5024 : BitVec 32 := 2#32
  let v6665 : BitVec 32 := Scalar.muli v18 c2_i32_5024
  let v6666 : BitVec 32 := Scalar.addi v6664 v6665
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_5025 : BitVec 32 := 1#32
  let v6667 : BitVec 32 := Scalar.muli v8 c1_i32_5025
  let v6668 : BitVec 32 := Scalar.addi v6666 v6667
  v6668.toNat
def k0_dev259 (d0 : Dev nD) : Nat :=
  let c0_i32_5051 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 1 := Scalar.cmpi .eq v2 v5
  let c1_i32_6 : BitVec 32 := 1#32
  let v15 : BitVec 32 := Scalar.subi c1_i32_6 v2
  let v16 : BitVec 32 := Scalar.select v10 v15 v2
  let c4_i32_5050 : BitVec 32 := 4#32
  let v6701 : BitVec 32 := Scalar.muli v16 c4_i32_5050
  let v6702 : BitVec 32 := Scalar.addi c0_i32_5051 v6701
  let c1_i32_7 : BitVec 32 := 1#32
  let v17 : BitVec 32 := Scalar.subi c1_i32_7 v5
  let v18 : BitVec 32 := Scalar.select v10 v5 v17
  let c2_i32_5052 : BitVec 32 := 2#32
  let v6703 : BitVec 32 := Scalar.muli v18 c2_i32_5052
  let v6704 : BitVec 32 := Scalar.addi v6702 v6703
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_5053 : BitVec 32 := 1#32
  let v6705 : BitVec 32 := Scalar.muli v8 c1_i32_5053
  let v6706 : BitVec 32 := Scalar.addi v6704 v6705
  v6706.toNat

class Facts₀ : Prop where
  hamt_1 : (1#32 : BitVec 32).msb = false
  hamt_3 : (3#32 : BitVec 32).msb = false
  inb_S84_S1_0 : ∀ a, (![0] : Fin 1 → Nat) a + S1.size a ≤ S84.size a
  squeezes_S1_S_ : S1.Squeezes S_
  inb_S84_S1_1 : ∀ a, (![1] : Fin 1 → Nat) a + S1.size a ≤ S84.size a
  inb_S84_S1_2 : ∀ a, (![2] : Fin 1 → Nat) a + S1.size a ≤ S84.size a
  inb_S84_S1_3 : ∀ a, (![3] : Fin 1 → Nat) a + S1.size a ≤ S84.size a
  inb_S84_S1_4 : ∀ a, (![4] : Fin 1 → Nat) a + S1.size a ≤ S84.size a
  inb_S84_S1_5 : ∀ a, (![5] : Fin 1 → Nat) a + S1.size a ≤ S84.size a
  inb_S84_S1_6 : ∀ a, (![6] : Fin 1 → Nat) a + S1.size a ≤ S84.size a
  inb_S84_S1_7 : ∀ a, (![7] : Fin 1 → Nat) a + S1.size a ≤ S84.size a
  inb_S84_S1_8 : ∀ a, (![8] : Fin 1 → Nat) a + S1.size a ≤ S84.size a
  inb_S84_S1_9 : ∀ a, (![9] : Fin 1 → Nat) a + S1.size a ≤ S84.size a
  inb_S84_S1_10 : ∀ a, (![10] : Fin 1 → Nat) a + S1.size a ≤ S84.size a
  inb_S84_S1_11 : ∀ a, (![11] : Fin 1 → Nat) a + S1.size a ≤ S84.size a
  inb_S84_S1_12 : ∀ a, (![12] : Fin 1 → Nat) a + S1.size a ≤ S84.size a
  inb_S84_S1_13 : ∀ a, (![13] : Fin 1 → Nat) a + S1.size a ≤ S84.size a
  inb_S84_S1_14 : ∀ a, (![14] : Fin 1 → Nat) a + S1.size a ≤ S84.size a
  inb_S84_S1_15 : ∀ a, (![15] : Fin 1 → Nat) a + S1.size a ≤ S84.size a
  inb_S84_S1_16 : ∀ a, (![16] : Fin 1 → Nat) a + S1.size a ≤ S84.size a
  inb_S84_S1_17 : ∀ a, (![17] : Fin 1 → Nat) a + S1.size a ≤ S84.size a
  inb_S84_S1_18 : ∀ a, (![18] : Fin 1 → Nat) a + S1.size a ≤ S84.size a
  inb_S84_S1_19 : ∀ a, (![19] : Fin 1 → Nat) a + S1.size a ≤ S84.size a
  inb_S84_S1_20 : ∀ a, (![20] : Fin 1 → Nat) a + S1.size a ≤ S84.size a
  inb_S84_S1_21 : ∀ a, (![21] : Fin 1 → Nat) a + S1.size a ≤ S84.size a
  inb_S84_S1_22 : ∀ a, (![22] : Fin 1 → Nat) a + S1.size a ≤ S84.size a
  inb_S84_S1_23 : ∀ a, (![23] : Fin 1 → Nat) a + S1.size a ≤ S84.size a
  inb_S84_S1_24 : ∀ a, (![24] : Fin 1 → Nat) a + S1.size a ≤ S84.size a
  inb_S84_S1_25 : ∀ a, (![25] : Fin 1 → Nat) a + S1.size a ≤ S84.size a
  inb_S84_S1_26 : ∀ a, (![26] : Fin 1 → Nat) a + S1.size a ≤ S84.size a
  inb_S84_S1_27 : ∀ a, (![27] : Fin 1 → Nat) a + S1.size a ≤ S84.size a
  inb_S84_S1_28 : ∀ a, (![28] : Fin 1 → Nat) a + S1.size a ≤ S84.size a
  inb_S84_S1_29 : ∀ a, (![29] : Fin 1 → Nat) a + S1.size a ≤ S84.size a
  inb_S84_S1_30 : ∀ a, (![30] : Fin 1 → Nat) a + S1.size a ≤ S84.size a
  inb_S84_S1_31 : ∀ a, (![31] : Fin 1 → Nat) a + S1.size a ≤ S84.size a
  inb_S84_S1_32 : ∀ a, (![32] : Fin 1 → Nat) a + S1.size a ≤ S84.size a
  inb_S84_S1_33 : ∀ a, (![33] : Fin 1 → Nat) a + S1.size a ≤ S84.size a
  inb_S84_S1_34 : ∀ a, (![34] : Fin 1 → Nat) a + S1.size a ≤ S84.size a
  inb_S84_S1_35 : ∀ a, (![35] : Fin 1 → Nat) a + S1.size a ≤ S84.size a
  inb_S84_S1_36 : ∀ a, (![36] : Fin 1 → Nat) a + S1.size a ≤ S84.size a
  inb_S84_S1_37 : ∀ a, (![37] : Fin 1 → Nat) a + S1.size a ≤ S84.size a
  inb_S84_S1_38 : ∀ a, (![38] : Fin 1 → Nat) a + S1.size a ≤ S84.size a
  inb_S84_S1_39 : ∀ a, (![39] : Fin 1 → Nat) a + S1.size a ≤ S84.size a
  inb_S84_S1_40 : ∀ a, (![40] : Fin 1 → Nat) a + S1.size a ≤ S84.size a
  inb_S84_S1_41 : ∀ a, (![41] : Fin 1 → Nat) a + S1.size a ≤ S84.size a
  inb_S84_S1_42 : ∀ a, (![42] : Fin 1 → Nat) a + S1.size a ≤ S84.size a
  inb_S84_S1_43 : ∀ a, (![43] : Fin 1 → Nat) a + S1.size a ≤ S84.size a
  inb_S84_S1_44 : ∀ a, (![44] : Fin 1 → Nat) a + S1.size a ≤ S84.size a
  inb_S84_S1_45 : ∀ a, (![45] : Fin 1 → Nat) a + S1.size a ≤ S84.size a
  inb_S84_S1_46 : ∀ a, (![46] : Fin 1 → Nat) a + S1.size a ≤ S84.size a
  inb_S84_S1_47 : ∀ a, (![47] : Fin 1 → Nat) a + S1.size a ≤ S84.size a
  inb_S84_S1_48 : ∀ a, (![48] : Fin 1 → Nat) a + S1.size a ≤ S84.size a
  inb_S84_S1_49 : ∀ a, (![49] : Fin 1 → Nat) a + S1.size a ≤ S84.size a
  inb_S84_S1_50 : ∀ a, (![50] : Fin 1 → Nat) a + S1.size a ≤ S84.size a
  inb_S84_S1_51 : ∀ a, (![51] : Fin 1 → Nat) a + S1.size a ≤ S84.size a
  inb_S84_S1_52 : ∀ a, (![52] : Fin 1 → Nat) a + S1.size a ≤ S84.size a
  inb_S84_S1_53 : ∀ a, (![53] : Fin 1 → Nat) a + S1.size a ≤ S84.size a
  inb_S84_S1_54 : ∀ a, (![54] : Fin 1 → Nat) a + S1.size a ≤ S84.size a
  inb_S84_S1_55 : ∀ a, (![55] : Fin 1 → Nat) a + S1.size a ≤ S84.size a
  inb_S84_S1_56 : ∀ a, (![56] : Fin 1 → Nat) a + S1.size a ≤ S84.size a
  inb_S84_S1_57 : ∀ a, (![57] : Fin 1 → Nat) a + S1.size a ≤ S84.size a
  inb_S84_S1_58 : ∀ a, (![58] : Fin 1 → Nat) a + S1.size a ≤ S84.size a
  inb_S84_S1_59 : ∀ a, (![59] : Fin 1 → Nat) a + S1.size a ≤ S84.size a
  inb_S84_S1_60 : ∀ a, (![60] : Fin 1 → Nat) a + S1.size a ≤ S84.size a
  inb_S84_S1_61 : ∀ a, (![61] : Fin 1 → Nat) a + S1.size a ≤ S84.size a
  inb_S84_S1_62 : ∀ a, (![62] : Fin 1 → Nat) a + S1.size a ≤ S84.size a
  inb_S84_S1_63 : ∀ a, (![63] : Fin 1 → Nat) a + S1.size a ≤ S84.size a
  inb_S84_S1_64 : ∀ a, (![64] : Fin 1 → Nat) a + S1.size a ≤ S84.size a
  inb_S84_S1_65 : ∀ a, (![65] : Fin 1 → Nat) a + S1.size a ≤ S84.size a
  inb_S84_S1_66 : ∀ a, (![66] : Fin 1 → Nat) a + S1.size a ≤ S84.size a
  inb_S84_S1_67 : ∀ a, (![67] : Fin 1 → Nat) a + S1.size a ≤ S84.size a
  inb_S84_S1_68 : ∀ a, (![68] : Fin 1 → Nat) a + S1.size a ≤ S84.size a
  inb_S84_S1_69 : ∀ a, (![69] : Fin 1 → Nat) a + S1.size a ≤ S84.size a
  inb_S84_S1_70 : ∀ a, (![70] : Fin 1 → Nat) a + S1.size a ≤ S84.size a
  inb_S84_S1_71 : ∀ a, (![71] : Fin 1 → Nat) a + S1.size a ≤ S84.size a
  inb_S84_S1_72 : ∀ a, (![72] : Fin 1 → Nat) a + S1.size a ≤ S84.size a
  inb_S84_S1_73 : ∀ a, (![73] : Fin 1 → Nat) a + S1.size a ≤ S84.size a
  inb_S84_S1_74 : ∀ a, (![74] : Fin 1 → Nat) a + S1.size a ≤ S84.size a
  inb_S84_S1_75 : ∀ a, (![75] : Fin 1 → Nat) a + S1.size a ≤ S84.size a
  inb_S84_S1_76 : ∀ a, (![76] : Fin 1 → Nat) a + S1.size a ≤ S84.size a
  inb_S84_S1_77 : ∀ a, (![77] : Fin 1 → Nat) a + S1.size a ≤ S84.size a
  inb_S84_S1_78 : ∀ a, (![78] : Fin 1 → Nat) a + S1.size a ≤ S84.size a
  inb_S84_S1_79 : ∀ a, (![79] : Fin 1 → Nat) a + S1.size a ≤ S84.size a
  inb_S84_S1_80 : ∀ a, (![80] : Fin 1 → Nat) a + S1.size a ≤ S84.size a
  inb_S84_S1_81 : ∀ a, (![81] : Fin 1 → Nat) a + S1.size a ≤ S84.size a
  inb_S84_S1_82 : ∀ a, (![82] : Fin 1 → Nat) a + S1.size a ≤ S84.size a
  inb_S84_S1_83 : ∀ a, (![83] : Fin 1 → Nat) a + S1.size a ≤ S84.size a
  inb_S64_S1_0 : ∀ a, (![0] : Fin 1 → Nat) a + S1.size a ≤ S64.size a
  inb_S2_S1_0 : ∀ a, (![0] : Fin 1 → Nat) a + S1.size a ≤ S2.size a
  inb_S2x512x1024_S1x512x1024_0_0_0 : ∀ a, (![0, 0, 0] : Fin 3 → Nat) a + S1x512x1024.size a ≤ S2x512x1024.size a
  squeezes_S1x512x1024_S512x1024 : S1x512x1024.Squeezes S512x1024
  inb_S32768x1024_S512x1024_0_0 : ∀ a, (![0, 0] : Fin 2 → Nat) a + S512x1024.size a ≤ S32768x1024.size a
  inb_S64_S1_1 : ∀ a, (![1] : Fin 1 → Nat) a + S1.size a ≤ S64.size a
  inb_S2_S1_1 : ∀ a, (![1] : Fin 1 → Nat) a + S1.size a ≤ S2.size a
  inb_S2x512x1024_S1x512x1024_1_0_0 : ∀ a, (![1, 0, 0] : Fin 3 → Nat) a + S1x512x1024.size a ≤ S2x512x1024.size a
  inb_S32768x1024_S512x1024_512_0 : ∀ a, (![512, 0] : Fin 2 → Nat) a + S512x1024.size a ≤ S32768x1024.size a
  inb_S64_S1_2 : ∀ a, (![2] : Fin 1 → Nat) a + S1.size a ≤ S64.size a
  inb_S32768x1024_S512x1024_1024_0 : ∀ a, (![1024, 0] : Fin 2 → Nat) a + S512x1024.size a ≤ S32768x1024.size a
  inb_S64_S1_3 : ∀ a, (![3] : Fin 1 → Nat) a + S1.size a ≤ S64.size a
  inb_S32768x1024_S512x1024_1536_0 : ∀ a, (![1536, 0] : Fin 2 → Nat) a + S512x1024.size a ≤ S32768x1024.size a
  inb_S64_S1_4 : ∀ a, (![4] : Fin 1 → Nat) a + S1.size a ≤ S64.size a
  inb_S32768x1024_S512x1024_2048_0 : ∀ a, (![2048, 0] : Fin 2 → Nat) a + S512x1024.size a ≤ S32768x1024.size a
  inb_S64_S1_5 : ∀ a, (![5] : Fin 1 → Nat) a + S1.size a ≤ S64.size a
  inb_S32768x1024_S512x1024_2560_0 : ∀ a, (![2560, 0] : Fin 2 → Nat) a + S512x1024.size a ≤ S32768x1024.size a
  inb_S64_S1_6 : ∀ a, (![6] : Fin 1 → Nat) a + S1.size a ≤ S64.size a
  inb_S32768x1024_S512x1024_3072_0 : ∀ a, (![3072, 0] : Fin 2 → Nat) a + S512x1024.size a ≤ S32768x1024.size a
  inb_S64_S1_7 : ∀ a, (![7] : Fin 1 → Nat) a + S1.size a ≤ S64.size a
  inb_S32768x1024_S512x1024_3584_0 : ∀ a, (![3584, 0] : Fin 2 → Nat) a + S512x1024.size a ≤ S32768x1024.size a
  inb_S64_S1_8 : ∀ a, (![8] : Fin 1 → Nat) a + S1.size a ≤ S64.size a
  inb_S32768x1024_S512x1024_4096_0 : ∀ a, (![4096, 0] : Fin 2 → Nat) a + S512x1024.size a ≤ S32768x1024.size a
  inb_S64_S1_9 : ∀ a, (![9] : Fin 1 → Nat) a + S1.size a ≤ S64.size a
  inb_S32768x1024_S512x1024_4608_0 : ∀ a, (![4608, 0] : Fin 2 → Nat) a + S512x1024.size a ≤ S32768x1024.size a
  inb_S64_S1_10 : ∀ a, (![10] : Fin 1 → Nat) a + S1.size a ≤ S64.size a
  inb_S32768x1024_S512x1024_5120_0 : ∀ a, (![5120, 0] : Fin 2 → Nat) a + S512x1024.size a ≤ S32768x1024.size a
  inb_S64_S1_11 : ∀ a, (![11] : Fin 1 → Nat) a + S1.size a ≤ S64.size a
  inb_S32768x1024_S512x1024_5632_0 : ∀ a, (![5632, 0] : Fin 2 → Nat) a + S512x1024.size a ≤ S32768x1024.size a
  inb_S64_S1_12 : ∀ a, (![12] : Fin 1 → Nat) a + S1.size a ≤ S64.size a
  inb_S32768x1024_S512x1024_6144_0 : ∀ a, (![6144, 0] : Fin 2 → Nat) a + S512x1024.size a ≤ S32768x1024.size a
  inb_S64_S1_13 : ∀ a, (![13] : Fin 1 → Nat) a + S1.size a ≤ S64.size a
  inb_S32768x1024_S512x1024_6656_0 : ∀ a, (![6656, 0] : Fin 2 → Nat) a + S512x1024.size a ≤ S32768x1024.size a
  inb_S64_S1_14 : ∀ a, (![14] : Fin 1 → Nat) a + S1.size a ≤ S64.size a
  inb_S32768x1024_S512x1024_7168_0 : ∀ a, (![7168, 0] : Fin 2 → Nat) a + S512x1024.size a ≤ S32768x1024.size a
  inb_S64_S1_15 : ∀ a, (![15] : Fin 1 → Nat) a + S1.size a ≤ S64.size a
  inb_S32768x1024_S512x1024_7680_0 : ∀ a, (![7680, 0] : Fin 2 → Nat) a + S512x1024.size a ≤ S32768x1024.size a
  inb_S64_S1_16 : ∀ a, (![16] : Fin 1 → Nat) a + S1.size a ≤ S64.size a
  inb_S32768x1024_S512x1024_8192_0 : ∀ a, (![8192, 0] : Fin 2 → Nat) a + S512x1024.size a ≤ S32768x1024.size a
  inb_S64_S1_17 : ∀ a, (![17] : Fin 1 → Nat) a + S1.size a ≤ S64.size a
  inb_S32768x1024_S512x1024_8704_0 : ∀ a, (![8704, 0] : Fin 2 → Nat) a + S512x1024.size a ≤ S32768x1024.size a
  inb_S64_S1_18 : ∀ a, (![18] : Fin 1 → Nat) a + S1.size a ≤ S64.size a
  inb_S32768x1024_S512x1024_9216_0 : ∀ a, (![9216, 0] : Fin 2 → Nat) a + S512x1024.size a ≤ S32768x1024.size a
  inb_S64_S1_19 : ∀ a, (![19] : Fin 1 → Nat) a + S1.size a ≤ S64.size a
  inb_S32768x1024_S512x1024_9728_0 : ∀ a, (![9728, 0] : Fin 2 → Nat) a + S512x1024.size a ≤ S32768x1024.size a
  inb_S64_S1_20 : ∀ a, (![20] : Fin 1 → Nat) a + S1.size a ≤ S64.size a
  inb_S32768x1024_S512x1024_10240_0 : ∀ a, (![10240, 0] : Fin 2 → Nat) a + S512x1024.size a ≤ S32768x1024.size a
  inb_S64_S1_21 : ∀ a, (![21] : Fin 1 → Nat) a + S1.size a ≤ S64.size a
  inb_S32768x1024_S512x1024_10752_0 : ∀ a, (![10752, 0] : Fin 2 → Nat) a + S512x1024.size a ≤ S32768x1024.size a
  inb_S64_S1_22 : ∀ a, (![22] : Fin 1 → Nat) a + S1.size a ≤ S64.size a
  inb_S32768x1024_S512x1024_11264_0 : ∀ a, (![11264, 0] : Fin 2 → Nat) a + S512x1024.size a ≤ S32768x1024.size a
  inb_S64_S1_23 : ∀ a, (![23] : Fin 1 → Nat) a + S1.size a ≤ S64.size a
  inb_S32768x1024_S512x1024_11776_0 : ∀ a, (![11776, 0] : Fin 2 → Nat) a + S512x1024.size a ≤ S32768x1024.size a
  inb_S64_S1_24 : ∀ a, (![24] : Fin 1 → Nat) a + S1.size a ≤ S64.size a
  inb_S32768x1024_S512x1024_12288_0 : ∀ a, (![12288, 0] : Fin 2 → Nat) a + S512x1024.size a ≤ S32768x1024.size a
  inb_S64_S1_25 : ∀ a, (![25] : Fin 1 → Nat) a + S1.size a ≤ S64.size a
  inb_S32768x1024_S512x1024_12800_0 : ∀ a, (![12800, 0] : Fin 2 → Nat) a + S512x1024.size a ≤ S32768x1024.size a
  inb_S64_S1_26 : ∀ a, (![26] : Fin 1 → Nat) a + S1.size a ≤ S64.size a
  inb_S32768x1024_S512x1024_13312_0 : ∀ a, (![13312, 0] : Fin 2 → Nat) a + S512x1024.size a ≤ S32768x1024.size a
  inb_S64_S1_27 : ∀ a, (![27] : Fin 1 → Nat) a + S1.size a ≤ S64.size a
  inb_S32768x1024_S512x1024_13824_0 : ∀ a, (![13824, 0] : Fin 2 → Nat) a + S512x1024.size a ≤ S32768x1024.size a
  inb_S64_S1_28 : ∀ a, (![28] : Fin 1 → Nat) a + S1.size a ≤ S64.size a
  inb_S32768x1024_S512x1024_14336_0 : ∀ a, (![14336, 0] : Fin 2 → Nat) a + S512x1024.size a ≤ S32768x1024.size a
  inb_S64_S1_29 : ∀ a, (![29] : Fin 1 → Nat) a + S1.size a ≤ S64.size a
  inb_S32768x1024_S512x1024_14848_0 : ∀ a, (![14848, 0] : Fin 2 → Nat) a + S512x1024.size a ≤ S32768x1024.size a
  inb_S64_S1_30 : ∀ a, (![30] : Fin 1 → Nat) a + S1.size a ≤ S64.size a
  inb_S32768x1024_S512x1024_15360_0 : ∀ a, (![15360, 0] : Fin 2 → Nat) a + S512x1024.size a ≤ S32768x1024.size a
  inb_S64_S1_31 : ∀ a, (![31] : Fin 1 → Nat) a + S1.size a ≤ S64.size a
  inb_S32768x1024_S512x1024_15872_0 : ∀ a, (![15872, 0] : Fin 2 → Nat) a + S512x1024.size a ≤ S32768x1024.size a
  inb_S64_S1_32 : ∀ a, (![32] : Fin 1 → Nat) a + S1.size a ≤ S64.size a
  inb_S32768x1024_S512x1024_16384_0 : ∀ a, (![16384, 0] : Fin 2 → Nat) a + S512x1024.size a ≤ S32768x1024.size a
  inb_S64_S1_33 : ∀ a, (![33] : Fin 1 → Nat) a + S1.size a ≤ S64.size a
  inb_S32768x1024_S512x1024_16896_0 : ∀ a, (![16896, 0] : Fin 2 → Nat) a + S512x1024.size a ≤ S32768x1024.size a
  inb_S64_S1_34 : ∀ a, (![34] : Fin 1 → Nat) a + S1.size a ≤ S64.size a
  inb_S32768x1024_S512x1024_17408_0 : ∀ a, (![17408, 0] : Fin 2 → Nat) a + S512x1024.size a ≤ S32768x1024.size a
  inb_S64_S1_35 : ∀ a, (![35] : Fin 1 → Nat) a + S1.size a ≤ S64.size a
  inb_S32768x1024_S512x1024_17920_0 : ∀ a, (![17920, 0] : Fin 2 → Nat) a + S512x1024.size a ≤ S32768x1024.size a
  inb_S64_S1_36 : ∀ a, (![36] : Fin 1 → Nat) a + S1.size a ≤ S64.size a
  inb_S32768x1024_S512x1024_18432_0 : ∀ a, (![18432, 0] : Fin 2 → Nat) a + S512x1024.size a ≤ S32768x1024.size a
  inb_S64_S1_37 : ∀ a, (![37] : Fin 1 → Nat) a + S1.size a ≤ S64.size a
  inb_S32768x1024_S512x1024_18944_0 : ∀ a, (![18944, 0] : Fin 2 → Nat) a + S512x1024.size a ≤ S32768x1024.size a
  inb_S64_S1_38 : ∀ a, (![38] : Fin 1 → Nat) a + S1.size a ≤ S64.size a
  inb_S32768x1024_S512x1024_19456_0 : ∀ a, (![19456, 0] : Fin 2 → Nat) a + S512x1024.size a ≤ S32768x1024.size a
  inb_S64_S1_39 : ∀ a, (![39] : Fin 1 → Nat) a + S1.size a ≤ S64.size a
  inb_S32768x1024_S512x1024_19968_0 : ∀ a, (![19968, 0] : Fin 2 → Nat) a + S512x1024.size a ≤ S32768x1024.size a
  inb_S64_S1_40 : ∀ a, (![40] : Fin 1 → Nat) a + S1.size a ≤ S64.size a
  inb_S32768x1024_S512x1024_20480_0 : ∀ a, (![20480, 0] : Fin 2 → Nat) a + S512x1024.size a ≤ S32768x1024.size a
  inb_S64_S1_41 : ∀ a, (![41] : Fin 1 → Nat) a + S1.size a ≤ S64.size a
  inb_S32768x1024_S512x1024_20992_0 : ∀ a, (![20992, 0] : Fin 2 → Nat) a + S512x1024.size a ≤ S32768x1024.size a
  inb_S64_S1_42 : ∀ a, (![42] : Fin 1 → Nat) a + S1.size a ≤ S64.size a
  inb_S32768x1024_S512x1024_21504_0 : ∀ a, (![21504, 0] : Fin 2 → Nat) a + S512x1024.size a ≤ S32768x1024.size a
  inb_S64_S1_43 : ∀ a, (![43] : Fin 1 → Nat) a + S1.size a ≤ S64.size a
  inb_S32768x1024_S512x1024_22016_0 : ∀ a, (![22016, 0] : Fin 2 → Nat) a + S512x1024.size a ≤ S32768x1024.size a
  inb_S64_S1_44 : ∀ a, (![44] : Fin 1 → Nat) a + S1.size a ≤ S64.size a
  inb_S32768x1024_S512x1024_22528_0 : ∀ a, (![22528, 0] : Fin 2 → Nat) a + S512x1024.size a ≤ S32768x1024.size a
  inb_S64_S1_45 : ∀ a, (![45] : Fin 1 → Nat) a + S1.size a ≤ S64.size a
  inb_S32768x1024_S512x1024_23040_0 : ∀ a, (![23040, 0] : Fin 2 → Nat) a + S512x1024.size a ≤ S32768x1024.size a
  inb_S64_S1_46 : ∀ a, (![46] : Fin 1 → Nat) a + S1.size a ≤ S64.size a
  inb_S32768x1024_S512x1024_23552_0 : ∀ a, (![23552, 0] : Fin 2 → Nat) a + S512x1024.size a ≤ S32768x1024.size a
  inb_S64_S1_47 : ∀ a, (![47] : Fin 1 → Nat) a + S1.size a ≤ S64.size a
  inb_S32768x1024_S512x1024_24064_0 : ∀ a, (![24064, 0] : Fin 2 → Nat) a + S512x1024.size a ≤ S32768x1024.size a
  inb_S64_S1_48 : ∀ a, (![48] : Fin 1 → Nat) a + S1.size a ≤ S64.size a
  inb_S32768x1024_S512x1024_24576_0 : ∀ a, (![24576, 0] : Fin 2 → Nat) a + S512x1024.size a ≤ S32768x1024.size a
  inb_S64_S1_49 : ∀ a, (![49] : Fin 1 → Nat) a + S1.size a ≤ S64.size a
  inb_S32768x1024_S512x1024_25088_0 : ∀ a, (![25088, 0] : Fin 2 → Nat) a + S512x1024.size a ≤ S32768x1024.size a
  inb_S64_S1_50 : ∀ a, (![50] : Fin 1 → Nat) a + S1.size a ≤ S64.size a
  inb_S32768x1024_S512x1024_25600_0 : ∀ a, (![25600, 0] : Fin 2 → Nat) a + S512x1024.size a ≤ S32768x1024.size a
  inb_S64_S1_51 : ∀ a, (![51] : Fin 1 → Nat) a + S1.size a ≤ S64.size a
  inb_S32768x1024_S512x1024_26112_0 : ∀ a, (![26112, 0] : Fin 2 → Nat) a + S512x1024.size a ≤ S32768x1024.size a
  inb_S64_S1_52 : ∀ a, (![52] : Fin 1 → Nat) a + S1.size a ≤ S64.size a
  inb_S32768x1024_S512x1024_26624_0 : ∀ a, (![26624, 0] : Fin 2 → Nat) a + S512x1024.size a ≤ S32768x1024.size a
  inb_S64_S1_53 : ∀ a, (![53] : Fin 1 → Nat) a + S1.size a ≤ S64.size a
  inb_S32768x1024_S512x1024_27136_0 : ∀ a, (![27136, 0] : Fin 2 → Nat) a + S512x1024.size a ≤ S32768x1024.size a
  inb_S64_S1_54 : ∀ a, (![54] : Fin 1 → Nat) a + S1.size a ≤ S64.size a
  inb_S32768x1024_S512x1024_27648_0 : ∀ a, (![27648, 0] : Fin 2 → Nat) a + S512x1024.size a ≤ S32768x1024.size a
  inb_S64_S1_55 : ∀ a, (![55] : Fin 1 → Nat) a + S1.size a ≤ S64.size a
  inb_S32768x1024_S512x1024_28160_0 : ∀ a, (![28160, 0] : Fin 2 → Nat) a + S512x1024.size a ≤ S32768x1024.size a
  inb_S64_S1_56 : ∀ a, (![56] : Fin 1 → Nat) a + S1.size a ≤ S64.size a
  inb_S32768x1024_S512x1024_28672_0 : ∀ a, (![28672, 0] : Fin 2 → Nat) a + S512x1024.size a ≤ S32768x1024.size a
  inb_S64_S1_57 : ∀ a, (![57] : Fin 1 → Nat) a + S1.size a ≤ S64.size a
  inb_S32768x1024_S512x1024_29184_0 : ∀ a, (![29184, 0] : Fin 2 → Nat) a + S512x1024.size a ≤ S32768x1024.size a
  inb_S64_S1_58 : ∀ a, (![58] : Fin 1 → Nat) a + S1.size a ≤ S64.size a
  inb_S32768x1024_S512x1024_29696_0 : ∀ a, (![29696, 0] : Fin 2 → Nat) a + S512x1024.size a ≤ S32768x1024.size a
  inb_S64_S1_59 : ∀ a, (![59] : Fin 1 → Nat) a + S1.size a ≤ S64.size a
  inb_S32768x1024_S512x1024_30208_0 : ∀ a, (![30208, 0] : Fin 2 → Nat) a + S512x1024.size a ≤ S32768x1024.size a
  inb_S64_S1_60 : ∀ a, (![60] : Fin 1 → Nat) a + S1.size a ≤ S64.size a
  inb_S32768x1024_S512x1024_30720_0 : ∀ a, (![30720, 0] : Fin 2 → Nat) a + S512x1024.size a ≤ S32768x1024.size a
  inb_S64_S1_61 : ∀ a, (![61] : Fin 1 → Nat) a + S1.size a ≤ S64.size a
  inb_S32768x1024_S512x1024_31232_0 : ∀ a, (![31232, 0] : Fin 2 → Nat) a + S512x1024.size a ≤ S32768x1024.size a
  inb_S64_S1_62 : ∀ a, (![62] : Fin 1 → Nat) a + S1.size a ≤ S64.size a
  inb_S32768x1024_S512x1024_31744_0 : ∀ a, (![31744, 0] : Fin 2 → Nat) a + S512x1024.size a ≤ S32768x1024.size a
  inb_S64_S1_63 : ∀ a, (![63] : Fin 1 → Nat) a + S1.size a ≤ S64.size a
  inb_S32768x1024_S512x1024_32256_0 : ∀ a, (![32256, 0] : Fin 2 → Nat) a + S512x1024.size a ≤ S32768x1024.size a
  inb_S22_S1_0 : ∀ a, (![0] : Fin 1 → Nat) a + S1.size a ≤ S22.size a
  inb_S22_S1_1 : ∀ a, (![1] : Fin 1 → Nat) a + S1.size a ≤ S22.size a
  inb_S22_S1_2 : ∀ a, (![2] : Fin 1 → Nat) a + S1.size a ≤ S22.size a
  inb_S22_S1_3 : ∀ a, (![3] : Fin 1 → Nat) a + S1.size a ≤ S22.size a
  inb_S22_S1_4 : ∀ a, (![4] : Fin 1 → Nat) a + S1.size a ≤ S22.size a
  inb_S22_S1_5 : ∀ a, (![5] : Fin 1 → Nat) a + S1.size a ≤ S22.size a
  inb_S22_S1_6 : ∀ a, (![6] : Fin 1 → Nat) a + S1.size a ≤ S22.size a
  inb_S22_S1_7 : ∀ a, (![7] : Fin 1 → Nat) a + S1.size a ≤ S22.size a
  inb_S22_S1_8 : ∀ a, (![8] : Fin 1 → Nat) a + S1.size a ≤ S22.size a
  inb_S22_S1_9 : ∀ a, (![9] : Fin 1 → Nat) a + S1.size a ≤ S22.size a
  inb_S22_S1_10 : ∀ a, (![10] : Fin 1 → Nat) a + S1.size a ≤ S22.size a
  inb_S22_S1_11 : ∀ a, (![11] : Fin 1 → Nat) a + S1.size a ≤ S22.size a
  inb_S22_S1_12 : ∀ a, (![12] : Fin 1 → Nat) a + S1.size a ≤ S22.size a
  inb_S22_S1_13 : ∀ a, (![13] : Fin 1 → Nat) a + S1.size a ≤ S22.size a
  inb_S22_S1_14 : ∀ a, (![14] : Fin 1 → Nat) a + S1.size a ≤ S22.size a
  inb_S22_S1_15 : ∀ a, (![15] : Fin 1 → Nat) a + S1.size a ≤ S22.size a
  inb_S22_S1_16 : ∀ a, (![16] : Fin 1 → Nat) a + S1.size a ≤ S22.size a
  inb_S22_S1_17 : ∀ a, (![17] : Fin 1 → Nat) a + S1.size a ≤ S22.size a
  inb_S22_S1_18 : ∀ a, (![18] : Fin 1 → Nat) a + S1.size a ≤ S22.size a
  inb_S22_S1_19 : ∀ a, (![19] : Fin 1 → Nat) a + S1.size a ≤ S22.size a
  inb_S22_S1_20 : ∀ a, (![20] : Fin 1 → Nat) a + S1.size a ≤ S22.size a
  inb_S22_S1_21 : ∀ a, (![21] : Fin 1 → Nat) a + S1.size a ≤ S22.size a
  hcc0_scratch1 : 0 + S2.numel ≤ 516
  hcc0_scratch2 : 2 + S2.numel ≤ 516
  hcc0_scratch3 : 4 + S84.numel ≤ 516
  hcc0_scratch4 : 88 + S84.numel ≤ 516
  hcc0_scratch5 : 172 + S64.numel ≤ 516
  hcc0_scratch6 : 236 + S64.numel ≤ 516
  hcc0_scratch7 : 300 + S64.numel ≤ 516
  hcc0_scratch8 : 364 + S64.numel ≤ 516
  hcc0_scratch9 : 428 + S22.numel ≤ 516
  hcc0_scratch10 : 450 + S22.numel ≤ 516
  hcc0_scratch11 : 472 + S22.numel ≤ 516
  hcc0_scratch12 : 494 + S22.numel ≤ 516
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 64), ∀ a, (k0_off1 d0 (BitVec.ofNat 32 (128 * r.val))) a + S128x1024.size a ≤ S65536x1024.size a
  k0_off2_inb : ∀ d0 : Dev nD, ∀ (r : Fin 64), ∀ a, (k0_off2 d0 (BitVec.ofNat 32 (128 * r.val))) a + S128x1024.size a ≤ S32768x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_off3_inb : ∀ d0 : Dev nD, ∀ (r : Fin 20), ∀ a, (k0_off3 d0 (BitVec.ofNat 32 (5632 + 128 * r.val))) a + S128x1024.size a ≤ S65536x1024.size a
  k0_off4_inb : ∀ d0 : Dev nD, ∀ (r : Fin 20), ∀ a, (k0_off4 d0 (BitVec.ofNat 32 (5632 + 128 * r.val))) a + S128x1024.size a ≤ S32768x1024.size a
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_off5_inb : ∀ d0 : Dev nD, ∀ (r : Fin 64), ∀ a, (k0_off5 d0 (BitVec.ofNat 32 (128 * r.val))) a + S128x1024.size a ≤ S65536x1024.size a
  k0_dev88_lt : ∀ d0 : Dev nD, (k0_dev88 d0) < nD
  k0_dev89_lt : ∀ d0 : Dev nD, (k0_dev89 d0) < nD
  k0_off6_inb : ∀ d0 : Dev nD, ∀ (r : Fin 64), ∀ a, (k0_off6 d0 (BitVec.ofNat 32 (512 * r.val))) a + S512x1024.size a ≤ S65536x1024.size a
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_dev94_lt : ∀ d0 : Dev nD, (k0_dev94 d0) < nD
  k0_dev95_lt : ∀ d0 : Dev nD, (k0_dev95 d0) < nD
  k0_dev96_lt : ∀ d0 : Dev nD, (k0_dev96 d0) < nD
  k0_dev97_lt : ∀ d0 : Dev nD, (k0_dev97 d0) < nD
  k0_dev98_lt : ∀ d0 : Dev nD, (k0_dev98 d0) < nD
  k0_dev99_lt : ∀ d0 : Dev nD, (k0_dev99 d0) < nD
  k0_dev100_lt : ∀ d0 : Dev nD, (k0_dev100 d0) < nD
  k0_dev101_lt : ∀ d0 : Dev nD, (k0_dev101 d0) < nD
  k0_dev102_lt : ∀ d0 : Dev nD, (k0_dev102 d0) < nD
  k0_dev103_lt : ∀ d0 : Dev nD, (k0_dev103 d0) < nD
  k0_dev104_lt : ∀ d0 : Dev nD, (k0_dev104 d0) < nD
  k0_dev105_lt : ∀ d0 : Dev nD, (k0_dev105 d0) < nD
  k0_dev106_lt : ∀ d0 : Dev nD, (k0_dev106 d0) < nD
  k0_dev107_lt : ∀ d0 : Dev nD, (k0_dev107 d0) < nD
  k0_dev108_lt : ∀ d0 : Dev nD, (k0_dev108 d0) < nD
  k0_dev109_lt : ∀ d0 : Dev nD, (k0_dev109 d0) < nD
  k0_dev110_lt : ∀ d0 : Dev nD, (k0_dev110 d0) < nD
  k0_dev111_lt : ∀ d0 : Dev nD, (k0_dev111 d0) < nD
  k0_dev112_lt : ∀ d0 : Dev nD, (k0_dev112 d0) < nD
  k0_dev113_lt : ∀ d0 : Dev nD, (k0_dev113 d0) < nD
  k0_dev114_lt : ∀ d0 : Dev nD, (k0_dev114 d0) < nD
  k0_dev115_lt : ∀ d0 : Dev nD, (k0_dev115 d0) < nD
  k0_dev116_lt : ∀ d0 : Dev nD, (k0_dev116 d0) < nD
  k0_dev117_lt : ∀ d0 : Dev nD, (k0_dev117 d0) < nD
  k0_dev118_lt : ∀ d0 : Dev nD, (k0_dev118 d0) < nD
  k0_dev119_lt : ∀ d0 : Dev nD, (k0_dev119 d0) < nD
  k0_dev120_lt : ∀ d0 : Dev nD, (k0_dev120 d0) < nD
  k0_dev121_lt : ∀ d0 : Dev nD, (k0_dev121 d0) < nD
  k0_dev122_lt : ∀ d0 : Dev nD, (k0_dev122 d0) < nD
  k0_dev123_lt : ∀ d0 : Dev nD, (k0_dev123 d0) < nD
  k0_dev124_lt : ∀ d0 : Dev nD, (k0_dev124 d0) < nD
  k0_dev125_lt : ∀ d0 : Dev nD, (k0_dev125 d0) < nD
  k0_dev126_lt : ∀ d0 : Dev nD, (k0_dev126 d0) < nD
  k0_dev127_lt : ∀ d0 : Dev nD, (k0_dev127 d0) < nD
  k0_dev128_lt : ∀ d0 : Dev nD, (k0_dev128 d0) < nD
  k0_dev129_lt : ∀ d0 : Dev nD, (k0_dev129 d0) < nD
  k0_dev130_lt : ∀ d0 : Dev nD, (k0_dev130 d0) < nD
  k0_dev131_lt : ∀ d0 : Dev nD, (k0_dev131 d0) < nD
  k0_dev132_lt : ∀ d0 : Dev nD, (k0_dev132 d0) < nD
  k0_dev133_lt : ∀ d0 : Dev nD, (k0_dev133 d0) < nD
  k0_dev134_lt : ∀ d0 : Dev nD, (k0_dev134 d0) < nD
  k0_dev135_lt : ∀ d0 : Dev nD, (k0_dev135 d0) < nD
  k0_dev136_lt : ∀ d0 : Dev nD, (k0_dev136 d0) < nD
  k0_dev137_lt : ∀ d0 : Dev nD, (k0_dev137 d0) < nD
  k0_dev138_lt : ∀ d0 : Dev nD, (k0_dev138 d0) < nD
  k0_dev139_lt : ∀ d0 : Dev nD, (k0_dev139 d0) < nD
  k0_dev140_lt : ∀ d0 : Dev nD, (k0_dev140 d0) < nD
  k0_dev141_lt : ∀ d0 : Dev nD, (k0_dev141 d0) < nD
  k0_dev142_lt : ∀ d0 : Dev nD, (k0_dev142 d0) < nD
  k0_dev143_lt : ∀ d0 : Dev nD, (k0_dev143 d0) < nD
  k0_dev144_lt : ∀ d0 : Dev nD, (k0_dev144 d0) < nD
  k0_dev145_lt : ∀ d0 : Dev nD, (k0_dev145 d0) < nD
  k0_dev146_lt : ∀ d0 : Dev nD, (k0_dev146 d0) < nD
  k0_dev147_lt : ∀ d0 : Dev nD, (k0_dev147 d0) < nD
  k0_dev148_lt : ∀ d0 : Dev nD, (k0_dev148 d0) < nD
  k0_dev149_lt : ∀ d0 : Dev nD, (k0_dev149 d0) < nD
  k0_dev150_lt : ∀ d0 : Dev nD, (k0_dev150 d0) < nD
  k0_dev151_lt : ∀ d0 : Dev nD, (k0_dev151 d0) < nD
  k0_dev152_lt : ∀ d0 : Dev nD, (k0_dev152 d0) < nD
  k0_dev153_lt : ∀ d0 : Dev nD, (k0_dev153 d0) < nD
  k0_dev154_lt : ∀ d0 : Dev nD, (k0_dev154 d0) < nD
  k0_dev155_lt : ∀ d0 : Dev nD, (k0_dev155 d0) < nD
  k0_dev156_lt : ∀ d0 : Dev nD, (k0_dev156 d0) < nD
  k0_dev157_lt : ∀ d0 : Dev nD, (k0_dev157 d0) < nD
  k0_dev158_lt : ∀ d0 : Dev nD, (k0_dev158 d0) < nD
  k0_dev159_lt : ∀ d0 : Dev nD, (k0_dev159 d0) < nD
  k0_dev160_lt : ∀ d0 : Dev nD, (k0_dev160 d0) < nD
  k0_dev161_lt : ∀ d0 : Dev nD, (k0_dev161 d0) < nD
  k0_dev162_lt : ∀ d0 : Dev nD, (k0_dev162 d0) < nD
  k0_dev163_lt : ∀ d0 : Dev nD, (k0_dev163 d0) < nD
  k0_dev164_lt : ∀ d0 : Dev nD, (k0_dev164 d0) < nD
  k0_dev165_lt : ∀ d0 : Dev nD, (k0_dev165 d0) < nD
  k0_dev166_lt : ∀ d0 : Dev nD, (k0_dev166 d0) < nD
  k0_dev167_lt : ∀ d0 : Dev nD, (k0_dev167 d0) < nD
  k0_dev168_lt : ∀ d0 : Dev nD, (k0_dev168 d0) < nD
  k0_dev169_lt : ∀ d0 : Dev nD, (k0_dev169 d0) < nD
  k0_dev170_lt : ∀ d0 : Dev nD, (k0_dev170 d0) < nD
  k0_dev171_lt : ∀ d0 : Dev nD, (k0_dev171 d0) < nD
  k0_dev172_lt : ∀ d0 : Dev nD, (k0_dev172 d0) < nD
  k0_dev173_lt : ∀ d0 : Dev nD, (k0_dev173 d0) < nD
  k0_dev174_lt : ∀ d0 : Dev nD, (k0_dev174 d0) < nD
  k0_dev175_lt : ∀ d0 : Dev nD, (k0_dev175 d0) < nD
  k0_dev176_lt : ∀ d0 : Dev nD, (k0_dev176 d0) < nD
  k0_dev177_lt : ∀ d0 : Dev nD, (k0_dev177 d0) < nD
  k0_dev178_lt : ∀ d0 : Dev nD, (k0_dev178 d0) < nD
  k0_dev179_lt : ∀ d0 : Dev nD, (k0_dev179 d0) < nD
  k0_dev180_lt : ∀ d0 : Dev nD, (k0_dev180 d0) < nD
  k0_dev181_lt : ∀ d0 : Dev nD, (k0_dev181 d0) < nD
  k0_dev182_lt : ∀ d0 : Dev nD, (k0_dev182 d0) < nD
  k0_dev183_lt : ∀ d0 : Dev nD, (k0_dev183 d0) < nD
  k0_dev184_lt : ∀ d0 : Dev nD, (k0_dev184 d0) < nD
  k0_dev185_lt : ∀ d0 : Dev nD, (k0_dev185 d0) < nD
  k0_dev186_lt : ∀ d0 : Dev nD, (k0_dev186 d0) < nD
  k0_dev187_lt : ∀ d0 : Dev nD, (k0_dev187 d0) < nD
  k0_dev188_lt : ∀ d0 : Dev nD, (k0_dev188 d0) < nD
  k0_dev189_lt : ∀ d0 : Dev nD, (k0_dev189 d0) < nD
  k0_dev190_lt : ∀ d0 : Dev nD, (k0_dev190 d0) < nD
  k0_dev191_lt : ∀ d0 : Dev nD, (k0_dev191 d0) < nD
  k0_dev192_lt : ∀ d0 : Dev nD, (k0_dev192 d0) < nD
  k0_dev193_lt : ∀ d0 : Dev nD, (k0_dev193 d0) < nD
  k0_dev194_lt : ∀ d0 : Dev nD, (k0_dev194 d0) < nD
  k0_dev195_lt : ∀ d0 : Dev nD, (k0_dev195 d0) < nD
  k0_dev196_lt : ∀ d0 : Dev nD, (k0_dev196 d0) < nD
  k0_dev197_lt : ∀ d0 : Dev nD, (k0_dev197 d0) < nD
  k0_dev198_lt : ∀ d0 : Dev nD, (k0_dev198 d0) < nD
  k0_dev199_lt : ∀ d0 : Dev nD, (k0_dev199 d0) < nD
  k0_dev200_lt : ∀ d0 : Dev nD, (k0_dev200 d0) < nD
  k0_dev201_lt : ∀ d0 : Dev nD, (k0_dev201 d0) < nD
  k0_dev202_lt : ∀ d0 : Dev nD, (k0_dev202 d0) < nD
  k0_dev203_lt : ∀ d0 : Dev nD, (k0_dev203 d0) < nD
  k0_dev204_lt : ∀ d0 : Dev nD, (k0_dev204 d0) < nD
  k0_dev205_lt : ∀ d0 : Dev nD, (k0_dev205 d0) < nD
  k0_dev206_lt : ∀ d0 : Dev nD, (k0_dev206 d0) < nD
  k0_dev207_lt : ∀ d0 : Dev nD, (k0_dev207 d0) < nD
  k0_dev208_lt : ∀ d0 : Dev nD, (k0_dev208 d0) < nD
  k0_dev209_lt : ∀ d0 : Dev nD, (k0_dev209 d0) < nD
  k0_dev210_lt : ∀ d0 : Dev nD, (k0_dev210 d0) < nD
  k0_dev211_lt : ∀ d0 : Dev nD, (k0_dev211 d0) < nD
  k0_dev212_lt : ∀ d0 : Dev nD, (k0_dev212 d0) < nD
  k0_dev213_lt : ∀ d0 : Dev nD, (k0_dev213 d0) < nD
  k0_dev214_lt : ∀ d0 : Dev nD, (k0_dev214 d0) < nD
  k0_dev215_lt : ∀ d0 : Dev nD, (k0_dev215 d0) < nD
  k0_off7_inb : ∀ d0 : Dev nD, ∀ (r : Fin 172), ∀ a, (k0_off7 d0 (k0_off7_at r).1 (k0_off7_at r).2) a + S128x1024.size a ≤ S65536x1024.size a
  k0_dev216_lt : ∀ d0 : Dev nD, (k0_dev216 d0) < nD
  k0_dev217_lt : ∀ d0 : Dev nD, (k0_dev217 d0) < nD
  k0_dev218_lt : ∀ d0 : Dev nD, (k0_dev218 d0) < nD
  k0_dev219_lt : ∀ d0 : Dev nD, (k0_dev219 d0) < nD
  k0_dev220_lt : ∀ d0 : Dev nD, (k0_dev220 d0) < nD
  k0_dev221_lt : ∀ d0 : Dev nD, (k0_dev221 d0) < nD
  k0_dev222_lt : ∀ d0 : Dev nD, (k0_dev222 d0) < nD
  k0_dev223_lt : ∀ d0 : Dev nD, (k0_dev223 d0) < nD
  k0_dev224_lt : ∀ d0 : Dev nD, (k0_dev224 d0) < nD
  k0_dev225_lt : ∀ d0 : Dev nD, (k0_dev225 d0) < nD
  k0_dev226_lt : ∀ d0 : Dev nD, (k0_dev226 d0) < nD
  k0_dev227_lt : ∀ d0 : Dev nD, (k0_dev227 d0) < nD
  k0_dev228_lt : ∀ d0 : Dev nD, (k0_dev228 d0) < nD
  k0_dev229_lt : ∀ d0 : Dev nD, (k0_dev229 d0) < nD
  k0_dev230_lt : ∀ d0 : Dev nD, (k0_dev230 d0) < nD
  k0_dev231_lt : ∀ d0 : Dev nD, (k0_dev231 d0) < nD
  k0_dev232_lt : ∀ d0 : Dev nD, (k0_dev232 d0) < nD
  k0_dev233_lt : ∀ d0 : Dev nD, (k0_dev233 d0) < nD
  k0_dev234_lt : ∀ d0 : Dev nD, (k0_dev234 d0) < nD
  k0_dev235_lt : ∀ d0 : Dev nD, (k0_dev235 d0) < nD
  k0_dev236_lt : ∀ d0 : Dev nD, (k0_dev236 d0) < nD
  k0_dev237_lt : ∀ d0 : Dev nD, (k0_dev237 d0) < nD
  k0_dev238_lt : ∀ d0 : Dev nD, (k0_dev238 d0) < nD
  k0_dev239_lt : ∀ d0 : Dev nD, (k0_dev239 d0) < nD
  k0_dev240_lt : ∀ d0 : Dev nD, (k0_dev240 d0) < nD
  k0_dev241_lt : ∀ d0 : Dev nD, (k0_dev241 d0) < nD
  k0_dev242_lt : ∀ d0 : Dev nD, (k0_dev242 d0) < nD
  k0_dev243_lt : ∀ d0 : Dev nD, (k0_dev243 d0) < nD
  k0_dev244_lt : ∀ d0 : Dev nD, (k0_dev244 d0) < nD
  k0_dev245_lt : ∀ d0 : Dev nD, (k0_dev245 d0) < nD
  k0_dev246_lt : ∀ d0 : Dev nD, (k0_dev246 d0) < nD
  k0_dev247_lt : ∀ d0 : Dev nD, (k0_dev247 d0) < nD
  k0_dev248_lt : ∀ d0 : Dev nD, (k0_dev248 d0) < nD
  k0_dev249_lt : ∀ d0 : Dev nD, (k0_dev249 d0) < nD
  k0_dev250_lt : ∀ d0 : Dev nD, (k0_dev250 d0) < nD
  k0_dev251_lt : ∀ d0 : Dev nD, (k0_dev251 d0) < nD
  k0_dev252_lt : ∀ d0 : Dev nD, (k0_dev252 d0) < nD
  k0_dev253_lt : ∀ d0 : Dev nD, (k0_dev253 d0) < nD
  k0_dev254_lt : ∀ d0 : Dev nD, (k0_dev254 d0) < nD
  k0_dev255_lt : ∀ d0 : Dev nD, (k0_dev255 d0) < nD
  k0_dev256_lt : ∀ d0 : Dev nD, (k0_dev256 d0) < nD
  k0_dev257_lt : ∀ d0 : Dev nD, (k0_dev257 d0) < nD
  k0_dev258_lt : ∀ d0 : Dev nD, (k0_dev258 d0) < nD
  k0_dev259_lt : ∀ d0 : Dev nD, (k0_dev259 d0) < nD

variable [Facts₀]

abbrev cc0_scratch1 : DmaSems sig S2 := SemArray.consecutive 0 S2 hcc0_scratch1
abbrev cc0_scratch2 : DmaSems sig S2 := SemArray.consecutive 2 S2 hcc0_scratch2
abbrev cc0_scratch3 : DmaSems sig S84 := SemArray.consecutive 4 S84 hcc0_scratch3
abbrev cc0_scratch4 : DmaSems sig S84 := SemArray.consecutive 88 S84 hcc0_scratch4
abbrev cc0_scratch5 : DmaSems sig S64 := SemArray.consecutive 172 S64 hcc0_scratch5
abbrev cc0_scratch6 : DmaSems sig S64 := SemArray.consecutive 236 S64 hcc0_scratch6
abbrev cc0_scratch7 : DmaSems sig S64 := SemArray.consecutive 300 S64 hcc0_scratch7
abbrev cc0_scratch8 : DmaSems sig S64 := SemArray.consecutive 364 S64 hcc0_scratch8
abbrev cc0_scratch9 : DmaSems sig S22 := SemArray.consecutive 428 S22 hcc0_scratch9
abbrev cc0_scratch10 : DmaSems sig S22 := SemArray.consecutive 450 S22 hcc0_scratch10
abbrev cc0_scratch11 : DmaSems sig S22 := SemArray.consecutive 472 S22 hcc0_scratch11
abbrev cc0_scratch12 : DmaSems sig S22 := SemArray.consecutive 494 S22 hcc0_scratch12

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Mesh.lean ====
/-
  The mesh of this kernel: eight devices, logical id `d = 4·x + 2·y + z` with `x, y, z ∈ {0, 1}`.
  The four devices of one z-plane form a ring in the order (x, y) = (0,0) → (0,1) → (1,1) → (1,0) → (0,0);
  `rpos` is a device's position on that ring, `nxt` / `prv` its ring neighbours (same z), and `zpeer` the
  device with the same (x, y) in the other plane. Everything here is decided over the eight devices.
-/
import proofs.«900672_g7700000000000673_dist_ag_v7x_xyz2x2x2_z_m32768_n1024_f32_1_alg».proof.KernelIdeal

namespace Cert.AG

open Idealize.ShloMosaic

/-- The number of devices of the compiled mesh. -/
abbrev nDev : Nat := 8

/-- The device's coordinate on the mesh axis along which `x` is cut. -/
def zc (c : Fin nDev) : Fin 2 := ⟨c.val % 2, Nat.mod_lt _ (by decide)⟩

/-- The device at the same (x, y) in the other z-plane. -/
def zpeer (c : Fin nDev) : Fin nDev := ![1, 0, 3, 2, 5, 4, 7, 6] c
/-- The next device on the z-plane's ring. -/
def nxt (c : Fin nDev) : Fin nDev := ![2, 3, 6, 7, 0, 1, 4, 5] c
/-- The previous device on the z-plane's ring. -/
def prv (c : Fin nDev) : Fin nDev := ![4, 5, 0, 1, 6, 7, 2, 3] c
/-- The device's position on its ring: which quarter of a half it is first to hold. -/
def rpos (c : Fin nDev) : Fin 4 := ![0, 0, 1, 1, 3, 3, 2, 2] c

theorem zpeer_zpeer (c : Fin nDev) : zpeer (zpeer c) = c := by revert c; decide
theorem prv_nxt (c : Fin nDev) : prv (nxt c) = c := by revert c; decide
theorem nxt_prv (c : Fin nDev) : nxt (prv c) = c := by revert c; decide
theorem nxt_nxt_eq_prv_prv (c : Fin nDev) : nxt (nxt c) = prv (prv c) := by revert c; decide
theorem zc_zpeer (c : Fin nDev) : (zc (zpeer c)).val = 1 - (zc c).val := by revert c; decide
theorem zc_nxt (c : Fin nDev) : zc (nxt c) = zc c := by revert c; decide
theorem zc_prv (c : Fin nDev) : zc (prv c) = zc c := by revert c; decide
theorem rpos_nxt (c : Fin nDev) : (rpos (nxt c)).val = ((rpos c).val + 1) % 4 := by revert c; decide
theorem rpos_prv (c : Fin nDev) : (rpos (prv c)).val = ((rpos c).val + 3) % 4 := by revert c; decide
theorem rpos_zpeer (c : Fin nDev) : rpos (zpeer c) = rpos c := by revert c; decide
theorem zpeer_nxt (c : Fin nDev) : zpeer (nxt c) = nxt (zpeer c) := by revert c; decide
theorem zpeer_prv (c : Fin nDev) : zpeer (prv c) = prv (zpeer c) := by revert c; decide
theorem zpeer_ne (c : Fin nDev) : zpeer c ≠ c := by revert c; decide
theorem nxt_ne (c : Fin nDev) : nxt c ≠ c := by revert c; decide
theorem prv_ne (c : Fin nDev) : prv c ≠ c := by revert c; decide
theorem nxt_ne_prv (c : Fin nDev) : nxt c ≠ prv c := by revert c; decide
theorem nxt_ne_zpeer (c : Fin nDev) : nxt c ≠ zpeer c := by revert c; decide
theorem prv_ne_zpeer (c : Fin nDev) : prv c ≠ zpeer c := by revert c; decide

end Cert.AG
-- ==== Proof.Contents.lean ====
/-
  What each device's result array ends up holding, as a pure function of ALL devices' argument blocks.
  A device's result has two halves of 32768 rows. The half at its own z is its own block. The other half is
  made of four quarters of 8192 rows, each of 64 chunks of 128 rows, and each chunk is a copy of the same rows of the
  block of some device of the OTHER z-plane: `srcDev` says which, following the route the chunk travelled.
-/
import proofs.«900672_g7700000000000673_dist_ag_v7x_xyz2x2x2_z_m32768_n1024_f32_1_alg».proof.Proof.Mesh
import Idealize.ShloMosaic.Lib.Layout

namespace Cert.AG

open Idealize.ShloMosaic Cert.KernelIdeal

/-- Row `i` (below 32768) of the half a device does not own: the device whose block that row is a copy of.
    Quarter `r` came straight from the z-peer; quarter `r - 1` through the previous ring device, from ITS z-peer; quarter
    `r + 1` through the next one; the quarter opposite on the ring by three routes, chunk by chunk: the first 22 chunks
    through two steps backwards, the next 22 through two steps forwards, the last 20 straight from the z-peer. -/
def srcDev (c : Fin nDev) (i : Nat) : Fin nDev :=
  if i / 8192 = (rpos c).val then zpeer c
  else if i / 8192 = ((rpos c).val + 3) % 4 then zpeer (prv c)
  else if i / 8192 = ((rpos c).val + 1) % 4 then zpeer (nxt c)
  else if (i % 8192) / 128 < 22 then zpeer (prv (prv c))
  else if (i % 8192) / 128 < 44 then zpeer (nxt (nxt c))
  else zpeer c

/-- Every source of the other half lies in the other z-plane. -/
theorem zc_srcDev (c : Fin nDev) (i : Nat) : (zc (srcDev c i)).val = 1 - (zc c).val := by
  unfold srcDev
  split_ifs <;> simp only [zpeer_prv, zpeer_nxt, zc_prv, zc_nxt, zc_zpeer]

/-- The row of a block that row `i` of the whole array is, whichever half it lies in. -/
def rowIn (i : S65536x1024.Idx) : S32768x1024.Idx :=
  Shape.pair (d := ![32768, 1024]) ⟨(i 0).val % 32768, Nat.mod_lt _ (by decide)⟩ ⟨(i 1).val, (i 1).isLt⟩

/-- Device `c`'s result: its own block in its own half, and in the other half each row from the block of the device
    the row's chunk was copied from. -/
def gathered {α : Type} (xs : Fin nDev → S32768x1024.Idx → α) (c : Fin nDev) : S65536x1024.Idx → α := fun i =>
  if (i 0).val / 32768 = (zc c).val then xs c (rowIn i) else xs (srcDev c ((i 0).val % 32768)) (rowIn i)

end Cert.AG
-- ==== Proof.Cells.lean ====
/-
  The cells, the slices and the landing predicate of the all-gather.
  A device's DMA semaphores are the 516 cells of one pool, laid out family by family; the result array is cut
  into chunks of 128 rows (and, for the local copies, of 512 rows); and every copy that lands on a device, remote or
  local, leaves the rows it wrote equal to the device's gathered result there: that one fact is every landing's payload.
-/
import proofs.«900672_g7700000000000673_dist_ag_v7x_xyz2x2x2_z_m32768_n1024_f32_1_alg».proof.Proof.Contents
import proofs.«900672_g7700000000000673_dist_ag_v7x_xyz2x2x2_z_m32768_n1024_f32_1_alg».proof.Proof.Gen.KernelIdeal
import proofs.«900672_g7700000000000673_dist_ag_v7x_xyz2x2x2_z_m32768_n1024_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The arrays -/

abbrev xM : Memref sig .tc .hbm S32768x1024 .f32 := Memref.whole main_arg0
abbrev oM : Memref sig .tc .hbm S65536x1024 .f32 := Memref.whole main_v1
abbrev vM : Memref sig .tc .vmem S2x512x1024 .f32 := Memref.whole cc0_scratch0

/-- Every device's argument block, as launched. -/
abbrev xs (d : Fin nDev) : S32768x1024.Idx → Elt F .f32 := m ((d : Thread nD τ).loc main_arg0)

/-- What device `d`'s result must end as. -/
abbrev goal (d : Dev nD) : Buf (Elt F) ((d : Thread nD τ).loc main_v1) := gathered (xs m) d

/-! ## Element sets: ranges of rows -/

/-- Rows `R … R + n` of the result array, all columns. -/
def rows (R n : Nat) : Finset S65536x1024.Idx := Finset.univ.filter fun i => R ≤ (i 0).val ∧ (i 0).val < R + n
/-- Rows `R … R + n` of the argument block, all columns. -/
def xrows (R n : Nat) : Finset S32768x1024.Idx := Finset.univ.filter fun i => R ≤ (i 0).val ∧ (i 0).val < R + n
/-- One of the two slots of the staging buffer of the local copies. -/
def slot (s : Nat) : Finset S2x512x1024.Idx := Finset.univ.filter fun i => (i 0).val = s

/-! ## What a set of elements holds -/

/-- Elements of device `d`'s result array at the gathered result. -/
def holdsOn (d : Dev nD) (S : Finset S65536x1024.Idx) : sProp 𝕄 :=
  iprop(∃ f : Buf (Elt F) ((d : Thread nD τ).loc main_v1),
    (((d : Thread nD τ).loc main_v1) ↦[S]{fullShare} f) ∗ ⌜∀ i ∈ S, f i = goal m d i⌝)
/-- The same elements at the gathered result, held at a share `q` (a chunk read by two copies at once). -/
def holdsAt (q : PosShare TreeShare) (d : Dev nD) (S : Finset S65536x1024.Idx) : sProp 𝕄 :=
  iprop(∃ f : Buf (Elt F) ((d : Thread nD τ).loc main_v1),
    (((d : Thread nD τ).loc main_v1) ↦[S]{q} f) ∗ ⌜∀ i ∈ S, f i = goal m d i⌝)
/-- Elements of device `d`'s result array at contents nobody has promised anything about: lent to the device that will write them. -/
def lentOn (d : Dev nD) (S : Finset S65536x1024.Idx) : sProp 𝕄 :=
  iprop(∃ f : Buf (Elt F) ((d : Thread nD τ).loc main_v1), (((d : Thread nD τ).loc main_v1) ↦[S]{fullShare} f))
/-- Rows of device `d`'s argument block at a share, unchanged. -/
def xAt (q : PosShare TreeShare) (d : Dev nD) (S : Finset S32768x1024.Idx) : sProp 𝕄 :=
  (((d : Thread nD τ).loc main_arg0) ↦[S]{q} m ((d : Thread nD τ).loc main_arg0))
/-- A slot of the staging buffer at some contents. -/
def slotAny (d : Dev nD) (s : Nat) : sProp 𝕄 :=
  iprop(∃ f : Buf (Elt F) ((d : Thread nD τ).loc cc0_scratch0), (((d : Thread nD τ).loc cc0_scratch0) ↦[slot s]{fullShare} f))
/-- A slot of the staging buffer holding rows `512·k …` of the device's argument block. -/
def slotHas (d : Dev nD) (s k : Nat) : sProp 𝕄 :=
  iprop(∃ f : Buf (Elt F) ((d : Thread nD τ).loc cc0_scratch0), (((d : Thread nD τ).loc cc0_scratch0) ↦[slot s]{fullShare} f)
    ∗ ⌜∀ i ∈ slot s, ∀ h : 512 * k + (i 1).val < 32768,
        f i = m ((d : Thread nD τ).loc main_arg0) (Shape.pair (d := ![32768, 1024]) ⟨512 * k + (i 1).val, h⟩ ⟨(i 2).val, (i 2).isLt⟩)⌝)

/-! ## Which rows each copy moves (z the device's plane, r its ring position) -/

/-- The first row of the half the device does not own, and of the one it owns. -/
def fbase (d : Dev nD) : Nat := (1 - (zc d).val) * 32768
def mbase (d : Dev nD) : Nat := (zc d).val * 32768
/-- The first row of the quarter `k` steps further round the ring. -/
def qrow (d : Dev nD) (k : Nat) : Nat := (((rpos d).val + k) % 4) * 8192

/-- Rows of the argument block the `i`-th copy to the z-peer reads (`i < 84`). -/
def rowZS (d : Dev nD) (i : Nat) : Nat := if i < 64 then qrow d 0 + 128 * i else qrow d 2 + 5632 + 128 * (i - 64)
/-- Rows of the result the `i`-th copy FROM the z-peer writes (`i < 84`). -/
def rowZR (d : Dev nD) (i : Nat) : Nat := fbase d + rowZS d i
/-- Rows written by the previous / next ring device's forward of chunk `i`, -/
def rowH1P (d : Dev nD) (i : Nat) : Nat := fbase d + qrow d 3 + 128 * i
def rowH1N (d : Dev nD) (i : Nat) : Nat := fbase d + qrow d 1 + 128 * i
/-- and by their relays of chunk `j` (from the previous device) and `22 + j` (from the next) of the opposite quarter. -/
def rowH2P (d : Dev nD) (j : Nat) : Nat := fbase d + qrow d 2 + 128 * j
def rowH2N (d : Dev nD) (j : Nat) : Nat := fbase d + qrow d 2 + 128 * (22 + j)
/-- Rows of the result the `k`-th local copy writes. -/
def rowOwn (d : Dev nD) (k : Nat) : Nat := mbase d + 512 * k

/-! ## The cells -/

/-- The runtime's barrier semaphore of collective id 0. -/
abbrev barS : Sem sig := (SemArray.scalar (sig.barrier 0 rfl) : Sems sig S_).sem
abbrev barCell (d : Dev nD) : GSem nD τ sig := ((d : Thread nD τ), .reg barS)
/-- DMA cell `k` of device `d`: 0–1 local in, 2–3 local out, 4–87 sends to the z-peer, 88–171 their receives,
    172–235 / 236–299 sends of the forwards to the next / previous device, 300–363 / 364–427 receives from the previous / next,
    428–449 / 450–471 sends of the relays, 472–493 / 494–515 their receives. -/
abbrev dcell (d : Dev nD) (k : DmaSem sig) : GSem nD τ sig := ((d : Thread nD τ), .dma k)

/-- The credit of one chunk of 128 rows, of one local copy into the staging buffer, and of one out of it. -/
abbrev N128 : Nat := (oM.slice (Rect.unit (s := S65536x1024) ![0, 0] S128x1024.size (by decide)) (fun _ => rfl)).view.dmaCredit

/-- The credit of a local copy into a slot of the staging buffer, and of one out of it into 512 rows of the result. -/
abbrev N512in : Nat := ((vM.slice (Rect.unit (s := S2x512x1024) ![0, 0, 0] S1x512x1024.size inb_S2x512x1024_S1x512x1024_0_0_0) (fun _ => rfl)).squeeze S512x1024 squeezes_S1x512x1024_S512x1024).view.dmaCredit
abbrev N512out : Nat := (oM.slice (Rect.unit (s := S65536x1024) ![0, 0] S512x1024.size (by decide)) (fun _ => rfl)).view.dmaCredit
theorem N128_pos : 0 < N128 := View.dmaCredit_pos _ (by decide)
theorem N512in_pos : 0 < N512in := View.dmaCredit_pos _ (by decide)
theorem N512out_pos : 0 < N512out := View.dmaCredit_pos _ (by decide)

/-! ## The schedule -/

/-- What each signaller hands a device with its barrier signal: the chunks of ITS result array that device will write.
    Duty 0 is the z-peer's, duty 1 the previous ring device's, duty 2 the next one's. -/
def barPay (d : Dev nD) (j : Fin 3) : sProp 𝕄 :=
  match j with
  | 0 => bigSep (Finset.range 84) fun i => lentOn (F := F) (zpeer d) (rows (rowZR (zpeer d) i) 128)
  | 1 => iprop((bigSep (Finset.range 64) fun i => lentOn (F := F) (prv d) (rows (rowH1N (prv d) i) 128))
          ∗ bigSep (Finset.range 22) fun j => lentOn (F := F) (prv d) (rows (rowH2N (prv d) j) 128))
  | 2 => iprop((bigSep (Finset.range 64) fun i => lentOn (F := F) (nxt d) (rows (rowH1P (nxt d) i) 128))
          ∗ bigSep (Finset.range 22) fun j => lentOn (F := F) (nxt d) (rows (rowH2P (nxt d) j) 128))

/-- What the completion of a copy hands the owner of DMA cell `n` of device `d` in round `r`. -/
def dmaPay (d : Dev nD) (n r : Nat) : sProp 𝕄 :=
  if n < 2 then iprop(slotHas m d n (2 * r + n) ∗ xAt m fullShare.right d (xrows (512 * (2 * r + n)) 512))
  else if n < 4 then iprop(holdsOn m d (rows (rowOwn d (2 * r + (n - 2))) 512) ∗ slotAny (F := F) d (n - 2))
  else if n < 88 then xAt m fullShare.left d (xrows (rowZS d (n - 4)) 128)
  else if n < 172 then holdsOn m d (rows (rowZR d (n - 88)) 128)
  else if n < 236 then holdsAt m fullShare.left d (rows (rowZR d (n - 172)) 128)
  else if n < 300 then holdsAt m fullShare.right d (rows (rowZR d (n - 236)) 128)
  else if n < 364 then holdsOn m d (rows (rowH1P d (n - 300)) 128)
  else if n < 428 then holdsOn m d (rows (rowH1N d (n - 364)) 128)
  else if n < 450 then holdsOn m d (rows (rowH1P d (n - 428)) 128)
  else if n < 472 then holdsOn m d (rows (rowH1N d (22 + (n - 450))) 128)
  else if n < 494 then holdsOn m d (rows (rowH2P d (n - 472)) 128)
  else holdsOn m d (rows (rowH2N d (n - 494)) 128)

instance holdsOn_storable (d : Dev nD) (S : Finset S65536x1024.Idx) : BI.Storable (upEmb : UEmb _ 𝕄) (holdsOn (F := F) m d S) := by unfold holdsOn; infer_instance
instance holdsAt_storable (q : PosShare TreeShare) (d : Dev nD) (S : Finset S65536x1024.Idx) : BI.Storable (upEmb : UEmb _ 𝕄) (holdsAt (F := F) m q d S) := by unfold holdsAt; infer_instance
instance lentOn_storable (d : Dev nD) (S : Finset S65536x1024.Idx) : BI.Storable (upEmb : UEmb _ 𝕄) (lentOn (F := F) d S) := by unfold lentOn; infer_instance
instance xAt_storable (q : PosShare TreeShare) (d : Dev nD) (S : Finset S32768x1024.Idx) : BI.Storable (upEmb : UEmb _ 𝕄) (xAt (F := F) m q d S) := by unfold xAt; infer_instance
instance slotAny_storable (d : Dev nD) (s : Nat) : BI.Storable (upEmb : UEmb _ 𝕄) (slotAny (F := F) d s) := by unfold slotAny; infer_instance
instance slotHas_storable (d : Dev nD) (s k : Nat) : BI.Storable (upEmb : UEmb _ 𝕄) (slotHas (F := F) m d s k) := by unfold slotHas; infer_instance
instance barPay_storable (d : Dev nD) (j : Fin 3) : BI.Storable (upEmb : UEmb _ 𝕄) (barPay (F := F) d j) := by
  unfold barPay
  match j with
  | 0 => infer_instance
  | 1 => infer_instance
  | 2 => infer_instance
set_option maxHeartbeats 4000000 in
instance dmaPay_storable (d : Dev nD) (n r : Nat) : BI.Storable (upEmb : UEmb _ 𝕄) (dmaPay (F := F) m d n r) := by
  unfold dmaPay; split_ifs <;> infer_instance

/-- The protocol: the barrier cell has one round of three duties of one unit; the four local cells 32 rounds of one
    copy each; every other DMA cell one round of one copy of a chunk. -/
def agRd : Rounds.Schedule (GSem nD τ sig) (Fin 3) 𝕄 where
  duties g r := match g.2 with
    | .reg _ => if r = 0 then Finset.univ else ∅
    | .dma k => if k.val < 4 then (if r < 32 then {0} else ∅) else (if r = 0 then {0} else ∅)
  unitless _ := False
  amount g _ _ := match g.2 with
    | .reg _ => 1
    | .dma k => if k.val < 2 then N512in else if k.val < 4 then N512out else N128
  payload g r j := match g.2 with
    | .reg _ => barPay (F := F) g.1.1 j
    | .dma k => dmaPay m g.1.1 k.val r
  amount_pos g _ _ _ := by
    cases g.2 with
    | reg _ => exact Nat.one_pos
    | dma k =>
      dsimp only
      split_ifs
      · exact N512in_pos
      · exact N512out_pos
      · exact N128_pos

instance agRd_payload_storable (g : GSem nD τ sig) (r : ℕ) (j : Fin 3) :
    BI.Storable (upEmb : UEmb _ 𝕄) ((agRd (F := F) m).payload g r j) := by
  show BI.Storable upEmb (match g.2 with
    | .reg _ => barPay (F := F) g.1.1 j
    | .dma k => dmaPay m g.1.1 k.val r)
  cases g.2 with
  | reg _ => dsimp only; infer_instance
  | dma k => dsimp only; infer_instance

end Cert.KernelIdeal.AG

end
-- ==== Proof.State.lean ====
/-
  The state of one device's body between two of its effects, as counters: how many of each kind of event have
  happened. Each family of events happens in increasing index order, so what the device holds of a family is a
  separating conjunction over an INTERVAL of indices between two counters: the copies not yet enqueued, the copies in
  flight, the receives not yet waited, the chunks held. An effect moves one index from one interval to the next.
-/
import proofs.«900672_g7700000000000673_dist_ag_v7x_xyz2x2x2_z_m32768_n1024_f32_1_alg».proof.Proof.Cells

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A separating conjunction over the indices `lo ≤ i < hi`. -/
def seg (lo hi : Nat) (Φ : Nat → sProp 𝕄) : sProp 𝕄 := bigSep (Finset.Ico lo hi) Φ

/-- DMA cell number `n` (below 516) of device `d`. -/
def dcn (d : Dev nD) (n : Nat) : GSem nD τ sig := dcell d ⟨n % 516, Nat.mod_lt _ (by decide)⟩

/-- The counters. `sig`: barrier signals sent (to the z-peer, the next, the previous device, in that order); `bw`: the
    barrier waited. `zs` / `wz`: copies to the z-peer enqueued / their sends waited. `zrw`: receives of the first 64
    z-peer copies waited (the forward loop); `zrd`: of the last 20 (the final loop). `n1` / `p1`: forwards to the next /
    previous device enqueued; `w1n` / `w1p`: their sends waited. `rpw` / `rnw`: receives of the forwards from the previous /
    next device waited. `n2` / `p2`, `w2n` / `w2p`: the same for the 22 relays each way. `h2pw` / `h2nw`: receives of the
    relays waited. `ci` / `ciw`: local copies into the staging buffer enqueued / waited; `co`: copies out of it enqueued;
    `low`: their waits done. -/
structure Cnt where
  sig : Nat
  bw : Bool
  zs : Nat
  wz : Nat
  zrw : Nat
  zrd : Nat
  n1 : Nat
  p1 : Nat
  w1n : Nat
  w1p : Nat
  rpw : Nat
  rnw : Nat
  n2 : Nat
  p2 : Nat
  w2n : Nat
  w2p : Nat
  h2pw : Nat
  h2nw : Nat
  ci : Nat
  ciw : Nat
  co : Nat
  low : Nat
  deriving DecidableEq, Repr

/-- Nothing has happened yet; everything has. -/
def Cnt.start : Cnt := ⟨0, false, 0, 0, 0, 0, 0, 0, 0, 0, 0, 0, 0, 0, 0, 0, 0, 0, 0, 0, 0, 0⟩
def Cnt.done : Cnt := ⟨3, true, 84, 84, 64, 20, 64, 64, 64, 64, 64, 64, 22, 22, 22, 22, 22, 22, 64, 64, 64, 64⟩

/-- The device a barrier signal goes to, in program order, and the duty of that device's barrier cell it pays. -/
def sigPeer (c : Dev nD) (s : Nat) : Dev nD := if s = 0 then zpeer c else if s = 1 then nxt c else prv c
def sigDuty (s : Nat) : Fin 3 := if s = 0 then 0 else if s = 1 then 1 else 2

/-- The chunks of its own result array a device lends with each barrier signal: to the z-peer the 84 it will write, to
    the next device the 64 + 22 it will write, to the previous one likewise. -/
def myLend (c : Dev nD) (s : Nat) : sProp 𝕄 :=
  if s = 0 then seg 0 84 fun i => lentOn (F := F) c (rows (rowZR c i) 128)
  else if s = 1 then iprop((seg 0 64 fun i => lentOn (F := F) c (rows (rowH1N c i) 128)) ∗ seg 0 22 fun j => lentOn (F := F) c (rows (rowH2N c j) 128))
  else iprop((seg 0 64 fun i => lentOn (F := F) c (rows (rowH1P c i) 128)) ∗ seg 0 22 fun j => lentOn (F := F) c (rows (rowH2P c j) 128))

/-- What the device still owes other devices' cells: the barrier units not yet signalled and the arrivals of the
    copies not yet enqueued. -/
def Owed (c : Dev nD) (n : Cnt) : CellTallies nD τ sig Unit :=
  (∑ s ∈ Finset.Ico n.sig 3, tallyAt (barCell (sigPeer c s)) () 1)
  + (∑ i ∈ Finset.Ico n.zs 84, tallyAt (dcn (zpeer c) (88 + i)) () N128)
  + (∑ i ∈ Finset.Ico n.n1 64, tallyAt (dcn (nxt c) (300 + i)) () N128)
  + (∑ i ∈ Finset.Ico n.p1 64, tallyAt (dcn (prv c) (364 + i)) () N128)
  + (∑ j ∈ Finset.Ico n.n2 22, tallyAt (dcn (nxt c) (472 + j)) () N128)
  + (∑ j ∈ Finset.Ico n.p2 22, tallyAt (dcn (prv c) (494 + j)) () N128)

/-- A cell of one round the device has not waited yet: its position and the credit for its one copy; -/
def pend (g : GSem nD τ sig) : sProp 𝕄 := iprop(atPos ER g 0 ∅ 0 ∗ cred (tallyAt g () N128))
/-- the two tokens an addressed copy pays with: the issuer's send cell's and the target's receive cell's. -/
def toks (gs gr : GSem nD τ sig) : sProp 𝕄 := iprop(dutyTok ER gs 0 0 ∗ dutyTok ER gr 0 0)

/-- The position of a local cell (slot `s`) after `w` waits on the two local cells of its kind together: at the round it
    has reached, or closed after its 32 rounds. -/
def locPos (g : GSem nD τ sig) (s w : Nat) : sProp 𝕄 :=
  if (w + 1 - s) / 2 < 32 then iprop(atPos ER g ((w + 1 - s) / 2) ∅ 0 ∗ reached ER g ((w + 1 - s) / 2)) else semVal g 0

/-- THE STATE, all but what the device owes. -/
def StR (c : Dev nD) (n : Cnt) : sProp 𝕄 :=
  iprop(
    -- the barrier: the signals still to send, each with its token and what it lends; its own cell until waited
    (seg n.sig 3 fun s => iprop(dutyTok ER (barCell (sigPeer c s)) 0 (sigDuty s) ∗ myLend (F := F) c s))
    ∗ (if n.bw then iprop(emp) else iprop(atPos ER (barCell c) 0 ∅ 0 ∗ cred (tallyAt (barCell c) () 3)))
    -- what the three peers lent it (from the barrier wait on), not yet written
    ∗ (if n.bw then iprop(
          (seg n.zs 84 fun i => lentOn (F := F) (zpeer c) (rows (rowZR (zpeer c) i) 128))
          ∗ (seg n.n1 64 fun i => lentOn (F := F) (nxt c) (rows (rowH1P (nxt c) i) 128))
          ∗ (seg n.p1 64 fun i => lentOn (F := F) (prv c) (rows (rowH1N (prv c) i) 128))
          ∗ (seg n.n2 22 fun j => lentOn (F := F) (nxt c) (rows (rowH2P (nxt c) j) 128))
          ∗ (seg n.p2 22 fun j => lentOn (F := F) (prv c) (rows (rowH2N (prv c) j) 128))) else iprop(emp))
    -- the copies to the z-peer: tokens and source rows before, credit in flight, the rows back and the cell closed after
    ∗ (seg n.zs 84 fun i => iprop(toks (dcn c (4 + i)) (dcn (zpeer c) (88 + i)) ∗ xAt m fullShare.left c (xrows (rowZS c i) 128)))
    ∗ (seg n.wz n.zs fun i => cred (tallyAt (dcn c (4 + i)) () N128))
    ∗ (seg n.wz 84 fun i => atPos ER (dcn c (4 + i)) 0 ∅ 0)
    ∗ (seg 0 n.wz fun i => iprop(semVal (dcn c (4 + i)) 0 ∗ xAt m fullShare.left c (xrows (rowZS c i) 128)))
    -- their receives: the first 64 waited in the forward loop, the last 20 in the final loop
    ∗ (seg n.zrw 64 fun i => pend (dcn c (88 + i))) ∗ (seg 0 n.zrw fun i => semVal (dcn c (88 + i)) 0)
    ∗ (seg n.zrd 20 fun j => pend (dcn c (152 + j)))
    ∗ (seg 0 n.zrd fun j => iprop(semVal (dcn c (152 + j)) 0 ∗ holdsOn m c (rows (rowZR c (64 + j)) 128)))
    -- a received chunk of its own quarter: each half held from the receive until its forward, and again after the send is waited
    ∗ (seg n.n1 n.zrw fun i => holdsAt m fullShare.left c (rows (rowZR c i) 128)) ∗ (seg 0 n.w1n fun i => holdsAt m fullShare.left c (rows (rowZR c i) 128))
    ∗ (seg n.p1 n.zrw fun i => holdsAt m fullShare.right c (rows (rowZR c i) 128)) ∗ (seg 0 n.w1p fun i => holdsAt m fullShare.right c (rows (rowZR c i) 128))
    -- the forwards: tokens before, credit in flight, the send cell's position until waited, closed after
    ∗ (seg n.n1 64 fun i => toks (dcn c (172 + i)) (dcn (nxt c) (300 + i))) ∗ (seg n.w1n n.n1 fun i => cred (tallyAt (dcn c (172 + i)) () N128))
    ∗ (seg n.w1n 64 fun i => atPos ER (dcn c (172 + i)) 0 ∅ 0) ∗ (seg 0 n.w1n fun i => semVal (dcn c (172 + i)) 0)
    ∗ (seg n.p1 64 fun i => toks (dcn c (236 + i)) (dcn (prv c) (364 + i))) ∗ (seg n.w1p n.p1 fun i => cred (tallyAt (dcn c (236 + i)) () N128))
    ∗ (seg n.w1p 64 fun i => atPos ER (dcn c (236 + i)) 0 ∅ 0) ∗ (seg 0 n.w1p fun i => semVal (dcn c (236 + i)) 0)
    -- the forwards it receives: from the previous device (chunks 0..21 are relayed on to the next device) and from the next (22..43 relayed back)
    ∗ (seg n.rpw 64 fun i => pend (dcn c (300 + i))) ∗ (seg 0 n.rpw fun i => semVal (dcn c (300 + i)) 0)
    ∗ (seg n.n2 (min n.rpw 22) fun i => holdsOn m c (rows (rowH1P c i) 128)) ∗ (seg 0 n.w2n fun i => holdsOn m c (rows (rowH1P c i) 128))
    ∗ (seg 22 n.rpw fun i => holdsOn m c (rows (rowH1P c i) 128))
    ∗ (seg n.rnw 64 fun i => pend (dcn c (364 + i))) ∗ (seg 0 n.rnw fun i => semVal (dcn c (364 + i)) 0)
    ∗ (seg 0 (min n.rnw 22) fun i => holdsOn m c (rows (rowH1N c i) 128)) ∗ (seg (22 + n.p2) (min n.rnw 44) fun i => holdsOn m c (rows (rowH1N c i) 128))
    ∗ (seg 22 (22 + n.w2p) fun i => holdsOn m c (rows (rowH1N c i) 128)) ∗ (seg 44 n.rnw fun i => holdsOn m c (rows (rowH1N c i) 128))
    -- the relays
    ∗ (seg n.n2 22 fun j => toks (dcn c (428 + j)) (dcn (nxt c) (472 + j))) ∗ (seg n.w2n n.n2 fun j => cred (tallyAt (dcn c (428 + j)) () N128))
    ∗ (seg n.w2n 22 fun j => atPos ER (dcn c (428 + j)) 0 ∅ 0) ∗ (seg 0 n.w2n fun j => semVal (dcn c (428 + j)) 0)
    ∗ (seg n.p2 22 fun j => toks (dcn c (450 + j)) (dcn (prv c) (494 + j))) ∗ (seg n.w2p n.p2 fun j => cred (tallyAt (dcn c (450 + j)) () N128))
    ∗ (seg n.w2p 22 fun j => atPos ER (dcn c (450 + j)) 0 ∅ 0) ∗ (seg 0 n.w2p fun j => semVal (dcn c (450 + j)) 0)
    -- the relays it receives
    ∗ (seg n.h2pw 22 fun j => pend (dcn c (472 + j))) ∗ (seg 0 n.h2pw fun j => iprop(semVal (dcn c (472 + j)) 0 ∗ holdsOn m c (rows (rowH2P c j) 128)))
    ∗ (seg n.h2nw 22 fun j => pend (dcn c (494 + j))) ∗ (seg 0 n.h2nw fun j => iprop(semVal (dcn c (494 + j)) 0 ∗ holdsOn m c (rows (rowH2N c j) 128)))
    -- the local copies, slot k % 2, round k / 2 of the slot's two cells
    ∗ (seg n.ci 64 fun k => iprop(dutyTok ER (dcn c (k % 2)) (k / 2) 0 ∗ xAt m fullShare.right c (xrows (512 * k) 512)))
    ∗ (seg n.ciw n.ci fun k => cred (tallyAt (dcn c (k % 2)) () N512in))
    ∗ (seg 0 n.ciw fun k => xAt m fullShare.right c (xrows (512 * k) 512))
    ∗ locPos (dcn c 0) 0 n.ciw ∗ locPos (dcn c 1) 1 n.ciw
    ∗ (seg n.ci (n.low + 2) fun k => slotAny (F := F) c (k % 2)) ∗ (seg n.co n.ciw fun k => slotHas m c (k % 2) k)
    ∗ (seg n.co 64 fun k => iprop(dutyTok ER (dcn c (2 + k % 2)) (k / 2) 0 ∗ lentOn (F := F) c (rows (rowOwn c k) 512)))
    ∗ (seg n.low n.co fun k => cred (tallyAt (dcn c (2 + k % 2)) () N512out))
    ∗ (seg 0 n.low fun k => holdsOn m c (rows (rowOwn c k) 512))
    ∗ locPos (dcn c 2) 0 n.low ∗ locPos (dcn c 3) 1 n.low)

/-- THE STATE: what the device owes other devices' cells (at some record of the waits it has made), and the rest. -/
def St (c : Dev nD) (n : Cnt) : sProp 𝕄 := iprop((∃ W, owes (c : Thread nD τ) (Owed c n) W) ∗ StR m c n)

end Cert.KernelIdeal.AG

end
-- ==== Proof.Tables.lean ====
/-
  The schedule of the all-gather, read at one cell.
  Every rule that steps a signal, a copy or a wait asks what the schedule says at the one cell it touches: which
  duties the round has, what a duty contributes, how many units the round expects, what a duty's units hand the
  cell's owner, and what the payloads of a whole round amount to. This module answers those questions once, for an
  arbitrary device and an arbitrary index inside each family of cells.
-/
import proofs.«900672_g7700000000000673_dist_ag_v7x_xyz2x2x2_z_m32768_n1024_f32_1_alg».proof.Proof.Cells

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The barrier cell: one round, the three neighbours' signals of one unit each -/

theorem duties_bar (d : Dev nD) : (agRd (F := F) m).duties (barCell d) 0 = Finset.univ := by
  dsimp only [agRd]; exact if_pos rfl

theorem duties_bar_later (d : Dev nD) (r : Nat) (h : 1 ≤ r) : (agRd (F := F) m).duties (barCell d) r = ∅ := by
  dsimp only [agRd]; exact if_neg (by omega)

theorem amount_bar (d : Dev nD) (r : Nat) (j : Fin 3) : (agRd (F := F) m).amount (barCell d) r j = 1 := rfl

theorem expect_bar (d : Dev nD) : (agRd (F := F) m).expect (barCell d) 0 = 3 := by
  unfold Schedule.expect Schedule.amountOf
  rw [duties_bar, Finset.sum_congr rfl fun j _ => amount_bar m d 0 j, Finset.sum_const, Finset.card_univ, Fintype.card_fin,
    smul_eq_mul]

theorem payload_bar (d : Dev nD) (j : Fin 3) : (agRd (F := F) m).payload (barCell d) 0 j = barPay (F := F) d j := rfl

/-- The whole of the barrier round, no duty taken: the three neighbours' loans, in the order of the duties. -/
theorem rest_bar (d : Dev nD) :
    bigSep ((agRd (F := F) m).duties (barCell d) 0 \ ∅) (fun j => (agRd (F := F) m).payload (barCell d) 0 j)
      = iprop(barPay (F := F) d 0 ∗ barPay (F := F) d 1 ∗ barPay (F := F) d 2) := by
  rw [Finset.sdiff_empty, duties_bar, bigSep_univ_eq_bigSepL [0, 1, 2] (by decide) (by decide), bigSepL_cons_cons, bigSepL_cons_cons,
    bigSepL_singleton, payload_bar, payload_bar, payload_bar]
  rfl

/-! ## The cells of one copy (index 4 and above): one round, one duty, a chunk's credit -/

theorem duties_dma (d : Dev nD) (k : DmaSem sig) (hk : 4 ≤ k.val) : (agRd (F := F) m).duties (dcell d k) 0 = {0} := by
  dsimp only [agRd]; rw [if_neg (by omega), if_pos rfl]

theorem duties_dma_later (d : Dev nD) (k : DmaSem sig) (hk : 4 ≤ k.val) (r : Nat) (h : 1 ≤ r) : (agRd (F := F) m).duties (dcell d k) r = ∅ := by
  dsimp only [agRd]; rw [if_neg (by omega), if_neg (by omega)]

theorem amount_dma (d : Dev nD) (k : DmaSem sig) (hk : 4 ≤ k.val) (r : Nat) (j : Fin 3) : (agRd (F := F) m).amount (dcell d k) r j = N128 := by
  dsimp only [agRd]; rw [if_neg (by omega), if_neg (by omega)]

theorem expect_dma (d : Dev nD) (k : DmaSem sig) (hk : 4 ≤ k.val) : (agRd (F := F) m).expect (dcell d k) 0 = N128 := by
  unfold Schedule.expect Schedule.amountOf; rw [duties_dma m d k hk, Finset.sum_singleton, amount_dma m d k hk]

theorem payload_dma (d : Dev nD) (k : DmaSem sig) (r : Nat) (j : Fin 3) : (agRd (F := F) m).payload (dcell d k) r j = dmaPay m d k.val r := rfl

theorem rest_dma (d : Dev nD) (k : DmaSem sig) (hk : 4 ≤ k.val) :
    bigSep ((agRd (F := F) m).duties (dcell d k) 0 \ ∅) (fun j => (agRd (F := F) m).payload (dcell d k) 0 j) = dmaPay m d k.val 0 := by
  rw [Finset.sdiff_empty, duties_dma m d k hk, bigSep_singleton, payload_dma]

/-! ## The four cells of the local copies (index below 4): 32 rounds, one copy a round -/

theorem duties_loc (d : Dev nD) (k : DmaSem sig) (hk : k.val < 4) (r : Nat) (hr : r < 32) : (agRd (F := F) m).duties (dcell d k) r = {0} := by
  dsimp only [agRd]; rw [if_pos hk, if_pos hr]

theorem duties_loc_later (d : Dev nD) (k : DmaSem sig) (hk : k.val < 4) (r : Nat) (hr : 32 ≤ r) : (agRd (F := F) m).duties (dcell d k) r = ∅ := by
  dsimp only [agRd]; rw [if_pos hk, if_neg (by omega)]

theorem amount_lin (d : Dev nD) (k : DmaSem sig) (hk : k.val < 2) (r : Nat) (j : Fin 3) : (agRd (F := F) m).amount (dcell d k) r j = N512in := by
  dsimp only [agRd]; rw [if_pos hk]

theorem amount_lout (d : Dev nD) (k : DmaSem sig) (hk : 2 ≤ k.val) (hk' : k.val < 4) (r : Nat) (j : Fin 3) :
    (agRd (F := F) m).amount (dcell d k) r j = N512out := by
  dsimp only [agRd]; rw [if_neg (by omega), if_pos hk']

theorem expect_lin (d k) (hk : k.val < 2) (r) (hr : r < 32) : (agRd (F := F) m).expect (dcell d k) r = N512in := by
  unfold Schedule.expect Schedule.amountOf
  rw [duties_loc m d k (by omega) r hr, Finset.sum_singleton, amount_lin m d k hk]

theorem expect_lout (d k) (hk : 2 ≤ k.val) (hk' : k.val < 4) (r) (hr : r < 32) : (agRd (F := F) m).expect (dcell d k) r = N512out := by
  unfold Schedule.expect Schedule.amountOf
  rw [duties_loc m d k hk' r hr, Finset.sum_singleton, amount_lout m d k hk hk']

/-- The whole of a local cell's round `r`, no duty taken: the one copy's payload. -/
theorem rest_loc (d k) (hk : k.val < 4) (r) (hr : r < 32) :
    bigSep ((agRd (F := F) m).duties (dcell d k) r \ ∅) (fun j => (agRd (F := F) m).payload (dcell d k) r j) = dmaPay m d k.val r := by
  rw [Finset.sdiff_empty, duties_loc m d k hk r hr, bigSep_singleton, payload_dma]

/-! ## The payload of each family, in closed form

The payload of a DMA cell is chosen by comparing the cell's index with the families' bases, one after another; at the
cell of base `b` and index `i` every comparison is decided by arithmetic, and the index inside the family, `b + i - b`, is `i`. -/

/-- A local copy into slot `s` of the staging buffer, round `r`: the slot holds block `2 r + s` of the argument, and the share of those rows comes back. -/
theorem dmaPay_lin (d) (s : Nat) (hs : s < 2) (r : Nat) :
    dmaPay m d s r = iprop(slotHas m d s (2 * r + s) ∗ xAt m fullShare.right d (xrows (512 * (2 * r + s)) 512)) := by
  unfold dmaPay; rw [if_pos hs]

/-- A local copy out of slot `s`, round `r`: block `2 r + s` of the device's own half holds the gathered result, and the slot is free again. -/
theorem dmaPay_lout (d) (s : Nat) (hs : s < 2) (r : Nat) :
    dmaPay m d (2 + s) r = iprop(holdsOn m d (rows (rowOwn d (2 * r + s)) 512) ∗ slotAny (F := F) d s) := by
  unfold dmaPay
  rw [if_neg (show ¬ 2 + s < 2 by omega), if_pos (show 2 + s < 4 by omega), Nat.add_sub_cancel_left]

/-- The send cells of the copies to the z-peer: the share of the rows read comes back. -/
theorem dmaPay_zs (d) (i : Nat) (hi : i < 84) (r : Nat) :
    dmaPay m d (4 + i) r = xAt m fullShare.left d (xrows (rowZS d i) 128) := by
  unfold dmaPay
  rw [if_neg (show ¬ 4 + i < 2 by omega), if_neg (show ¬ 4 + i < 4 by omega), if_pos (show 4 + i < 88 by omega),
    Nat.add_sub_cancel_left]

/-- The receive cells of the z-peer's copies: the chunk written holds the gathered result. -/
theorem dmaPay_zr (d) (i : Nat) (hi : i < 84) (r : Nat) :
    dmaPay m d (88 + i) r = holdsOn m d (rows (rowZR d i) 128) := by
  unfold dmaPay
  rw [if_neg (show ¬ 88 + i < 2 by omega), if_neg (show ¬ 88 + i < 4 by omega), if_neg (show ¬ 88 + i < 88 by omega), if_pos (show 88 + i < 172 by omega),
    Nat.add_sub_cancel_left]

/-- The send cells of the forwards to the next device: the left half of the chunk read comes back. -/
theorem dmaPay_h1sn (d) (i : Nat) (hi : i < 64) (r : Nat) :
    dmaPay m d (172 + i) r = holdsAt m fullShare.left d (rows (rowZR d i) 128) := by
  unfold dmaPay
  rw [if_neg (show ¬ 172 + i < 2 by omega), if_neg (show ¬ 172 + i < 4 by omega), if_neg (show ¬ 172 + i < 88 by omega), if_neg (show ¬ 172 + i < 172 by omega), if_pos (show 172 + i < 236 by omega),
    Nat.add_sub_cancel_left]

/-- The send cells of the forwards to the previous device: the right half comes back. -/
theorem dmaPay_h1sp (d) (i : Nat) (hi : i < 64) (r : Nat) :
    dmaPay m d (236 + i) r = holdsAt m fullShare.right d (rows (rowZR d i) 128) := by
  unfold dmaPay
  rw [if_neg (show ¬ 236 + i < 2 by omega), if_neg (show ¬ 236 + i < 4 by omega), if_neg (show ¬ 236 + i < 88 by omega), if_neg (show ¬ 236 + i < 172 by omega), if_neg (show ¬ 236 + i < 236 by omega), if_pos (show 236 + i < 300 by omega),
    Nat.add_sub_cancel_left]

/-- The receive cells of the previous device's forwards. -/
theorem dmaPay_h1rp (d) (i : Nat) (hi : i < 64) (r : Nat) :
    dmaPay m d (300 + i) r = holdsOn m d (rows (rowH1P d i) 128) := by
  unfold dmaPay
  rw [if_neg (show ¬ 300 + i < 2 by omega), if_neg (show ¬ 300 + i < 4 by omega), if_neg (show ¬ 300 + i < 88 by omega), if_neg (show ¬ 300 + i < 172 by omega), if_neg (show ¬ 300 + i < 236 by omega), if_neg (show ¬ 300 + i < 300 by omega), if_pos (show 300 + i < 364 by omega),
    Nat.add_sub_cancel_left]

/-- The receive cells of the next device's forwards. -/
theorem dmaPay_h1rn (d) (i : Nat) (hi : i < 64) (r : Nat) :
    dmaPay m d (364 + i) r = holdsOn m d (rows (rowH1N d i) 128) := by
  unfold dmaPay
  rw [if_neg (show ¬ 364 + i < 2 by omega), if_neg (show ¬ 364 + i < 4 by omega), if_neg (show ¬ 364 + i < 88 by omega), if_neg (show ¬ 364 + i < 172 by omega), if_neg (show ¬ 364 + i < 236 by omega), if_neg (show ¬ 364 + i < 300 by omega), if_neg (show ¬ 364 + i < 364 by omega), if_pos (show 364 + i < 428 by omega),
    Nat.add_sub_cancel_left]

/-- The send cells of the relays to the next device: the chunk read, received from the previous one, comes back. -/
theorem dmaPay_h2sn (d) (j : Nat) (hj : j < 22) (r : Nat) :
    dmaPay m d (428 + j) r = holdsOn m d (rows (rowH1P d j) 128) := by
  unfold dmaPay
  rw [if_neg (show ¬ 428 + j < 2 by omega), if_neg (show ¬ 428 + j < 4 by omega), if_neg (show ¬ 428 + j < 88 by omega), if_neg (show ¬ 428 + j < 172 by omega), if_neg (show ¬ 428 + j < 236 by omega), if_neg (show ¬ 428 + j < 300 by omega), if_neg (show ¬ 428 + j < 364 by omega), if_neg (show ¬ 428 + j < 428 by omega), if_pos (show 428 + j < 450 by omega),
    Nat.add_sub_cancel_left]

/-- The send cells of the relays to the previous device: the chunk read, received from the next one, comes back. -/
theorem dmaPay_h2sp (d) (j : Nat) (hj : j < 22) (r : Nat) :
    dmaPay m d (450 + j) r = holdsOn m d (rows (rowH1N d (22 + j)) 128) := by
  unfold dmaPay
  rw [if_neg (show ¬ 450 + j < 2 by omega), if_neg (show ¬ 450 + j < 4 by omega), if_neg (show ¬ 450 + j < 88 by omega), if_neg (show ¬ 450 + j < 172 by omega), if_neg (show ¬ 450 + j < 236 by omega), if_neg (show ¬ 450 + j < 300 by omega), if_neg (show ¬ 450 + j < 364 by omega), if_neg (show ¬ 450 + j < 428 by omega), if_neg (show ¬ 450 + j < 450 by omega), if_pos (show 450 + j < 472 by omega),
    Nat.add_sub_cancel_left]

/-- The receive cells of the previous device's relays. -/
theorem dmaPay_h2rp (d) (j : Nat) (hj : j < 22) (r : Nat) :
    dmaPay m d (472 + j) r = holdsOn m d (rows (rowH2P d j) 128) := by
  unfold dmaPay
  rw [if_neg (show ¬ 472 + j < 2 by omega), if_neg (show ¬ 472 + j < 4 by omega), if_neg (show ¬ 472 + j < 88 by omega), if_neg (show ¬ 472 + j < 172 by omega), if_neg (show ¬ 472 + j < 236 by omega), if_neg (show ¬ 472 + j < 300 by omega), if_neg (show ¬ 472 + j < 364 by omega), if_neg (show ¬ 472 + j < 428 by omega), if_neg (show ¬ 472 + j < 450 by omega), if_neg (show ¬ 472 + j < 472 by omega), if_pos (show 472 + j < 494 by omega),
    Nat.add_sub_cancel_left]

/-- The receive cells of the next device's relays. -/
theorem dmaPay_h2rn (d) (j : Nat) (hj : j < 22) (r : Nat) :
    dmaPay m d (494 + j) r = holdsOn m d (rows (rowH2N d j) 128) := by
  unfold dmaPay
  rw [if_neg (show ¬ 494 + j < 2 by omega), if_neg (show ¬ 494 + j < 4 by omega), if_neg (show ¬ 494 + j < 88 by omega), if_neg (show ¬ 494 + j < 172 by omega), if_neg (show ¬ 494 + j < 236 by omega), if_neg (show ¬ 494 + j < 300 by omega), if_neg (show ¬ 494 + j < 364 by omega), if_neg (show ¬ 494 + j < 428 by omega), if_neg (show ¬ 494 + j < 450 by omega), if_neg (show ¬ 494 + j < 472 by omega), if_neg (show ¬ 494 + j < 494 by omega),
    Nat.add_sub_cancel_left]

/-- info: 'Cert.KernelIdeal.AG.rest_bar' depends on axioms: [propext, Classical.choice, Quot.sound] -/
#guard_msgs in #print axioms rest_bar

/-- info: 'Cert.KernelIdeal.AG.rest_dma' depends on axioms: [propext, Classical.choice, Quot.sound] -/
#guard_msgs in #print axioms rest_dma

/-- info: 'Cert.KernelIdeal.AG.rest_loc' depends on axioms: [propext, Classical.choice, Quot.sound] -/
#guard_msgs in #print axioms rest_loc

/-- info: 'Cert.KernelIdeal.AG.dmaPay_h2rn' depends on axioms: [propext, Classical.choice, Quot.sound] -/
#guard_msgs in #print axioms dmaPay_h2rn

end Cert.KernelIdeal.AG

end
-- ==== Proof.Ctx.lean ====
/-
  What a step of the body is stated against: the record of every cell's invariant, the levels, the weakest
  precondition of a piece of the body on a device, and the slices as the printed body spells them.
-/
import proofs.«900672_g7700000000000673_dist_ag_v7x_xyz2x2x2_z_m32768_n1024_f32_1_alg».proof.Proof.State
import proofs.«900672_g7700000000000673_dist_ag_v7x_xyz2x2x2_z_m32768_n1024_f32_1_alg».proof.Proof.Tables

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What every device knows: the cells' invariants and that every cell has reached round 0; the levels -/

/-- A cell of the protocol: a device's barrier cell (`none`) or one of its 516 DMA cells. -/
abbrev CellIx : Type := Dev nD × Option (DmaSem sig)
def kcell (x : CellIx) : GSem nD τ sig := match x.2 with | none => barCell x.1 | some k => dcell x.1 k

/-- The invariants of all cells of all devices at the names `K`, and that each has reached round 0. -/
def recs (K : CellIx → ℕ) : sProp 𝕄 :=
  iprop((bigSep Finset.univ fun x : CellIx => cellInv ER (agRd m) (K x) (kcell x)) ∗ bigSep Finset.univ fun x : CellIx => reached ER (kcell x) 0)

instance recs_persistent (K : CellIx → ℕ) : BI.Persistent (recs m K) := by unfold recs; infer_instance

/-- Only TensorCore threads wait. A device waits its barrier while owing every arrival, a receive from the z-peer while
    owing forwards and relays, a forward's receive while owing relays: so barrier cells sit at 1, the z-peer's receives at
    2, the forwards' at 3, the relays' at 4; send cells and local cells, which nobody owes, at 0. -/
def L (g : GSem nD τ sig) : Finset Unit := if g.1.2 = .tc then {()} else ∅
def lv (g : GSem nD τ sig) (_ : Unit) : ℕ := match g.2 with
  | .reg _ => 1
  | .dma k => if k.val < 88 then 0 else if k.val < 172 then 2 else if k.val < 300 then 0 else if k.val < 428 then 3 else if k.val < 472 then 0 else 4

/-- What a step needs beside the state. -/
def Ctx (K : CellIx → ℕ) : sProp 𝕄 := iprop(recs m K ∗ levAts L lv)
instance Ctx_persistent (K : CellIx → ℕ) : BI.Persistent (Ctx m K) := by unfold Ctx; infer_instance

abbrev 𝒱₀ : Variants := Variants.none

/-- The weakest precondition of a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The slices, as the printed body spells them -/

abbrev oS128 (off : Fin 2 → Nat) (h : ∀ a, off a + S128x1024.size a ≤ S65536x1024.size a) : Memref sig .tc .hbm S128x1024 .f32 :=
  oM.slice (Rect.unit (s := S65536x1024) off S128x1024.size h) (fun _ => rfl)
abbrev xS128 (off : Fin 2 → Nat) (h : ∀ a, off a + S128x1024.size a ≤ S32768x1024.size a) : Memref sig .tc .hbm S128x1024 .f32 :=
  xM.slice (Rect.unit (s := S32768x1024) off S128x1024.size h) (fun _ => rfl)
abbrev oS512 (off : Fin 2 → Nat) (h : ∀ a, off a + S512x1024.size a ≤ S65536x1024.size a) : Memref sig .tc .hbm S512x1024 .f32 :=
  oM.slice (Rect.unit (s := S65536x1024) off S512x1024.size h) (fun _ => rfl)
abbrev xS512 (off : Fin 2 → Nat) (h : ∀ a, off a + S512x1024.size a ≤ S32768x1024.size a) : Memref sig .tc .hbm S512x1024 .f32 :=
  xM.slice (Rect.unit (s := S32768x1024) off S512x1024.size h) (fun _ => rfl)
abbrev vSl (s : Nat) (h : ∀ a, (![s, 0, 0] : Fin 3 → Nat) a + S1x512x1024.size a ≤ S2x512x1024.size a) : Memref sig .tc .vmem S512x1024 .f32 :=
  (vM.slice (Rect.unit (s := S2x512x1024) ![s, 0, 0] S1x512x1024.size h) (fun _ => rfl)).squeeze S512x1024 squeezes_S1x512x1024_S512x1024

end Cert.KernelIdeal.AG

end
-- ==== Proof.Base.lean ====
/-
  What every step's proof uses: an interval loses its first index or gains a last one; what is owed loses the tally of
  the copy just enqueued; a DMA cell named by its number; a wait is admissible when the waited cell's level is below
  the level of every cell still owed; one cell's invariant out of the record of all.
-/
import proofs.«900672_g7700000000000673_dist_ag_v7x_xyz2x2x2_z_m32768_n1024_f32_1_alg».proof.Proof.Ctx

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Intervals -/

/-- An interval of naturals is its first index and the rest; one longer, it is itself and its last index. -/
private theorem Ico_pop {lo hi : Nat} (h : lo < hi) : Finset.Ico lo hi = insert lo (Finset.Ico (lo + 1) hi) := by
  ext x; simp only [Finset.mem_insert, Finset.mem_Ico]; omega
private theorem Ico_push {lo hi : Nat} (h : lo ≤ hi) : Finset.Ico lo (hi + 1) = insert hi (Finset.Ico lo hi) := by
  ext x; simp only [Finset.mem_insert, Finset.mem_Ico]; omega

theorem seg_pop {lo hi : Nat} (h : lo < hi) (Φ : Nat → sProp 𝕄) : seg lo hi Φ = iprop(Φ lo ∗ seg (lo + 1) hi Φ) := by
  unfold seg
  rw [Ico_pop h]
  exact bigSep_insert (by simp)
theorem seg_push {lo hi : Nat} (h : lo ≤ hi) (Φ : Nat → sProp 𝕄) : seg lo (hi + 1) Φ = iprop(seg lo hi Φ ∗ Φ hi) := by
  unfold seg
  rw [Ico_push h]
  exact (bigSep_insert (by simp)).trans (Std.Commutative.comm (op := (BI.sep : sProp 𝕄 → _ → _)) _ _)
theorem seg_empty {lo hi : Nat} (h : hi ≤ lo) (Φ : Nat → sProp 𝕄) : seg lo hi Φ = iprop(emp) := by
  unfold seg
  rw [Finset.Ico_eq_empty (by omega)]
  rfl
theorem seg_congr {lo hi : Nat} {Φ Ψ : Nat → sProp 𝕄} (h : ∀ i, lo ≤ i → i < hi → Φ i = Ψ i) : seg lo hi Φ = seg lo hi Ψ :=
  bigSep_congr fun i hi => h i (Finset.mem_Ico.mp hi).1 (Finset.mem_Ico.mp hi).2
/-- An interval cut at a point inside it. -/
theorem seg_split {lo mid hi : Nat} (h1 : lo ≤ mid) (h2 : mid ≤ hi) (Φ : Nat → sProp 𝕄) : seg lo hi Φ = iprop(seg lo mid Φ ∗ seg mid hi Φ) := by
  unfold seg
  rw [← Finset.Ico_union_Ico_eq_Ico h1 h2]
  exact bigSep_union (Finset.Ico_disjoint_Ico_consecutive lo mid hi)
theorem seg_sep {lo hi : Nat} (Φ Ψ : Nat → sProp 𝕄) : seg lo hi (fun i => iprop(Φ i ∗ Ψ i)) = iprop(seg lo hi Φ ∗ seg lo hi Ψ) :=
  bigSep_sep' _ Φ Ψ

/-! ## DMA cells by number -/

theorem dcn_of_val (d : Dev nD) (s : DmaSem sig) (k : Nat) (h : s.val = k) : dcell d s = dcn d k := by
  subst h
  have hs : s = ⟨s.val % 516, Nat.mod_lt _ (by decide)⟩ := Fin.ext (Nat.mod_eq_of_lt s.isLt).symm
  unfold dcn
  exact congrArg (fun k => dcell d k) hs
theorem dcn_inj (d : Dev nD) {k k' : Nat} (hk : k < 516) (hk' : k' < 516) (h : dcn d k = dcn d k') : k = k' := by
  unfold dcn at h
  have h1 := SemLoc.dma.inj (Prod.mk.inj h).2
  have h2 : k % 516 = k' % 516 := Fin.mk.inj h1
  rwa [Nat.mod_eq_of_lt hk, Nat.mod_eq_of_lt hk'] at h2
/-- The cell of the global record that DMA cell `k` of device `d` is. -/
theorem kcell_dcn (d : Dev nD) (k : Nat) : kcell (d, some ⟨k % 516, Nat.mod_lt _ (by decide)⟩) = dcn d k := rfl
theorem kcell_bar (d : Dev nD) : kcell (d, none) = barCell d := rfl

/-! ## What is owed loses one tally -/

/-- A sum over an interval is its first summand and the sum over the rest. -/
private theorem sum_pop {lo hi : Nat} (h : lo < hi) (f : Nat → CellTallies nD τ sig Unit) :
    ∑ i ∈ Finset.Ico lo hi, f i = f lo + ∑ i ∈ Finset.Ico (lo + 1) hi, f i := by
  rw [Ico_pop h, Finset.sum_insert (by simp)]

/-- A sum of one-cell tallies is positive at a cell only if that cell is one of the summands'. -/
private theorem sum_tally_pos {lo hi : Nat} (cell : Nat → GSem nD τ sig) (k : Nat) (g : GSem nD τ sig) (u : Unit)
    (h : 0 < (∑ i ∈ Finset.Ico lo hi, tallyAt (cell i) () k) g u) : ∃ i, lo ≤ i ∧ i < hi ∧ g = cell i := by
  by_contra hn
  have hz : (∑ i ∈ Finset.Ico lo hi, tallyAt (cell i) () k) g u = 0 := by
    rw [Finset.sum_apply, Finsupp.finset_sum_apply]
    refine Finset.sum_eq_zero fun i hi => ?_
    rw [tallyAt_apply, if_neg]
    rintro ⟨hg, -⟩
    exact hn ⟨i, (Finset.mem_Ico.mp hi).1, (Finset.mem_Ico.mp hi).2, hg⟩
  omega

/-- The level of a DMA cell by its number. -/
private theorem lv_dcn (d : Dev nD) (k : Nat) (hk : k < 516) (u : Unit) :
    lv (dcn d k) u = if k < 88 then 0 else if k < 172 then 2 else if k < 300 then 0 else if k < 428 then 3 else if k < 472 then 0 else 4 := by
  show (if k % 516 < 88 then 0 else if k % 516 < 172 then 2 else if k % 516 < 300 then 0 else if k % 516 < 428 then 3 else if k % 516 < 472 then 0 else 4) = _
  rw [Nat.mod_eq_of_lt hk]

theorem Owed_sig (c : Dev nD) (n : Cnt) (h : n.sig < 3) : Owed c n = Owed c { n with sig := n.sig + 1 } + tallyAt (barCell (sigPeer c n.sig)) () 1 := by
  unfold Owed
  dsimp only
  rw [sum_pop h]
  ac_rfl
theorem Owed_zs (c : Dev nD) (n : Cnt) (h : n.zs < 84) : Owed c n = Owed c { n with zs := n.zs + 1 } + tallyAt (dcn (zpeer c) (88 + n.zs)) () N128 := by
  unfold Owed
  dsimp only
  rw [sum_pop h]
  ac_rfl
theorem Owed_n1 (c : Dev nD) (n : Cnt) (h : n.n1 < 64) : Owed c n = Owed c { n with n1 := n.n1 + 1 } + tallyAt (dcn (nxt c) (300 + n.n1)) () N128 := by
  unfold Owed
  dsimp only
  rw [sum_pop h]
  ac_rfl
theorem Owed_p1 (c : Dev nD) (n : Cnt) (h : n.p1 < 64) : Owed c n = Owed c { n with p1 := n.p1 + 1 } + tallyAt (dcn (prv c) (364 + n.p1)) () N128 := by
  unfold Owed
  dsimp only
  rw [sum_pop h]
  ac_rfl
theorem Owed_n2 (c : Dev nD) (n : Cnt) (h : n.n2 < 22) : Owed c n = Owed c { n with n2 := n.n2 + 1 } + tallyAt (dcn (nxt c) (472 + n.n2)) () N128 := by
  unfold Owed
  dsimp only
  rw [sum_pop h]
  ac_rfl
theorem Owed_p2 (c : Dev nD) (n : Cnt) (h : n.p2 < 22) : Owed c n = Owed c { n with p2 := n.p2 + 1 } + tallyAt (dcn (prv c) (494 + n.p2)) () N128 := by
  unfold Owed
  dsimp only
  rw [sum_pop h]
  ac_rfl
/-- With every signal and every copy out, nothing is owed. -/
theorem Owed_zero (c : Dev nD) (n : Cnt) (hsig : n.sig = 3) (hzs : n.zs = 84) (hn1 : n.n1 = 64) (hp1 : n.p1 = 64) (hn2 : n.n2 = 22) (hp2 : n.p2 = 22) : Owed c n = 0 := by
  unfold Owed
  rw [hsig, hzs, hn1, hp1, hn2, hp2]
  simp only [Finset.Ico_self, Finset.sum_empty, add_zero]
/-- A cell still owed something is a TensorCore thread's, at the level of its family, by what remains to be sent. -/
theorem Owed_pos (c : Dev nD) (n : Cnt) (g : GSem nD τ sig) (u : Unit) (h : 0 < Owed c n g u) :
    g.1.2 = .tc ∧ ((n.sig < 3 ∧ lv g u = 1) ∨ (n.zs < 84 ∧ lv g u = 2) ∨ ((n.n1 < 64 ∨ n.p1 < 64) ∧ lv g u = 3) ∨ ((n.n2 < 22 ∨ n.p2 < 22) ∧ lv g u = 4)) := by
  unfold Owed at h
  simp only [Pi.add_apply, Finsupp.add_apply] at h
  have hc : ∀ (lo hi : Nat) (cell : Nat → GSem nD τ sig) (k : Nat), 0 < (∑ i ∈ Finset.Ico lo hi, tallyAt (cell i) () k) g u →
      ∃ i, lo ≤ i ∧ i < hi ∧ g = cell i := fun lo hi cell k => sum_tally_pos cell k g u
  have h6 : 0 < (∑ s ∈ Finset.Ico n.sig 3, tallyAt (barCell (sigPeer c s)) () 1) g u
      ∨ 0 < (∑ i ∈ Finset.Ico n.zs 84, tallyAt (dcn (zpeer c) (88 + i)) () N128) g u
      ∨ 0 < (∑ i ∈ Finset.Ico n.n1 64, tallyAt (dcn (nxt c) (300 + i)) () N128) g u
      ∨ 0 < (∑ i ∈ Finset.Ico n.p1 64, tallyAt (dcn (prv c) (364 + i)) () N128) g u
      ∨ 0 < (∑ j ∈ Finset.Ico n.n2 22, tallyAt (dcn (nxt c) (472 + j)) () N128) g u
      ∨ 0 < (∑ j ∈ Finset.Ico n.p2 22, tallyAt (dcn (prv c) (494 + j)) () N128) g u := by omega
  rcases h6 with h | h | h | h | h | h
  · obtain ⟨i, h1, h2, rfl⟩ := hc _ _ _ _ h
    exact ⟨rfl, Or.inl ⟨by omega, rfl⟩⟩
  · obtain ⟨i, h1, h2, rfl⟩ := hc _ _ _ _ h
    refine ⟨rfl, Or.inr (Or.inl ⟨by omega, ?_⟩)⟩
    rw [lv_dcn _ _ (by omega), if_neg (by omega), if_pos (by omega)]
  · obtain ⟨i, h1, h2, rfl⟩ := hc _ _ _ _ h
    refine ⟨rfl, Or.inr (Or.inr (Or.inl ⟨Or.inl (by omega), ?_⟩))⟩
    rw [lv_dcn _ _ (by omega), if_neg (by omega), if_neg (by omega), if_neg (by omega), if_pos (by omega)]
  · obtain ⟨i, h1, h2, rfl⟩ := hc _ _ _ _ h
    refine ⟨rfl, Or.inr (Or.inr (Or.inl ⟨Or.inr (by omega), ?_⟩))⟩
    rw [lv_dcn _ _ (by omega), if_neg (by omega), if_neg (by omega), if_neg (by omega), if_pos (by omega)]
  · obtain ⟨i, h1, h2, rfl⟩ := hc _ _ _ _ h
    refine ⟨rfl, Or.inr (Or.inr (Or.inr ⟨Or.inl (by omega), ?_⟩))⟩
    rw [lv_dcn _ _ (by omega), if_neg (by omega), if_neg (by omega), if_neg (by omega), if_neg (by omega), if_neg (by omega)]
  · obtain ⟨i, h1, h2, rfl⟩ := hc _ _ _ _ h
    refine ⟨rfl, Or.inr (Or.inr (Or.inr ⟨Or.inr (by omega), ?_⟩))⟩
    rw [lv_dcn _ _ (by omega), if_neg (by omega), if_neg (by omega), if_neg (by omega), if_neg (by omega), if_neg (by omega)]

/-! ## A wait is admissible below everything owed -/

theorem mayWait_lvl (c : Dev nD) (sm : SemLoc sig) (O : CellTallies nD τ sig Unit) (t : Nat)
    (hsm : lv ((c : Thread nD τ), sm) () ≤ t) (hO : ∀ g u, 0 < O g u → g.1.2 = .tc ∧ t < lv g u) :
    (levAts L lv : sProp 𝕄) ⊢ MayWait (c : Thread nD τ) sm () O :=
  MayOwe.of_cut (L := L) (lev := lv) t
    (fun p hp => by rw [Finset.mem_singleton.mp hp]; unfold L; rw [if_pos rfl]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

/-! ## One cell out of the record -/

theorem recs_inv (K : CellIx → ℕ) (x : CellIx) : recs m K ⊢ cellInv ER (agRd m) (K x) (kcell x) := by
  have h : (bigSep Finset.univ fun x : CellIx => cellInv ER (agRd m) (K x) (kcell x)) ⊢ cellInv ER (agRd m) (K x) (kcell x) :=
    bigSep_elim (Finset.mem_univ x)
  unfold recs
  iintro ⟨H, -⟩
  iapply h
  iexact H
theorem recs_reached (K : CellIx → ℕ) (x : CellIx) : recs m K ⊢ reached ER (kcell x) 0 := by
  have h : (bigSep Finset.univ fun x : CellIx => reached ER (kcell x) 0 : sProp 𝕄) ⊢ reached ER (kcell x) 0 :=
    bigSep_elim (Finset.mem_univ x)
  unfold recs
  iintro ⟨-, H⟩
  iapply h
  iexact H

/-! ## Halves of a chunk -/

/-- A chunk held whole at the gathered result is its two halves, each at the gathered result, and back. -/
theorem holdsOn_halves (d : Dev nD) (S : Finset S65536x1024.Idx) :
    holdsOn m d S ⊣⊢ iprop(holdsAt m fullShare.left d S ∗ holdsAt m fullShare.right d S) := by
  unfold holdsOn holdsAt
  constructor
  · iintro ⟨%f, Hf, %hf⟩
    ihave H := (pointsTo_share (PosShare.mem_left_op_right fullShare)).1 $$ Hf
    icases H with ⟨H1, H2⟩
    isplitl [H1]
    · iexists f
      isplitl [H1]
      · iexact H1
      · ipureintro; exact hf
    · iexists f
      isplitl [H2]
      · iexact H2
      · ipureintro; exact hf
  · iintro ⟨⟨%f, Hf, %hf⟩, ⟨%g, Hg, %hg⟩⟩
    -- both halves are at the gathered result on `S`, so the second is at the first's contents there
    ihave Hg' := (Entails.of_eq (pointsTo_congr (q := fullShare.right) (f := g) (g := f) (fun i hi => (hg i hi).trans (hf i hi).symm))) $$ Hg
    iexists f
    isplitl [Hf Hg']
    · iapply (pointsTo_share (PosShare.mem_left_op_right fullShare)).2
      isplitl [Hf]
      · iexact Hf
      · iexact Hg'
    · ipureintro; exact hf

end Cert.KernelIdeal.AG

end
-- ==== Proof.LaunchDefs.lean ====
/-
  The launch's vocabulary: the cells and duty tokens as minted, what each device owes at launch, what it is dealt, what it enters its body with and what it leaves with.
-/
import proofs.«900672_g7700000000000673_dist_ag_v7x_xyz2x2x2_z_m32768_n1024_f32_1_alg».proof.Proof.Base
import proofs.«900672_g7700000000000673_dist_ag_v7x_xyz2x2x2_z_m32768_n1024_f32_1_alg».proof.Proof.Gen.KernelIdeal.Frame
import proofs.«900672_g7700000000000673_dist_ag_v7x_xyz2x2x2_z_m32768_n1024_f32_1_alg».proof.Proof.Gen.KernelIdeal.Points

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells and the duty tokens, as minted -/

theorem kcell_injective : Function.Injective (kcell : CellIx → GSem nD τ sig) := by
  rintro ⟨c, o⟩ ⟨c', o'⟩ h
  have h1 : c = c' := by
    have := congrArg (fun g : GSem nD τ sig => g.1.1) h
    cases o <;> cases o' <;> exact this
  subst h1
  cases o with
  | none =>
    cases o' with
    | none => rfl
    | some k' =>
      have h2 : SemLoc.reg barS = SemLoc.dma k' := congrArg Prod.snd h
      cases h2
  | some k =>
    cases o' with
    | none =>
      have h2 : SemLoc.dma k = SemLoc.reg barS := congrArg Prod.snd h
      cases h2
    | some k' =>
      have h2 : SemLoc.dma k = SemLoc.dma k' := congrArg Prod.snd h
      rw [SemLoc.dma.inj h2]
def agCells : Finset (GSem nD τ sig) := Finset.univ.map ⟨kcell, kcell_injective⟩

/-- A device's own cells' duty tokens: its barrier's three; one for each of its 512 one-round DMA cells; one per round
    for its four local cells. -/
abbrev TokIx : Type := Dev nD × (Fin 3 ⊕ (Fin 512 ⊕ (Fin 4 × Fin 32)))
def tokOf (x : TokIx) : GSem nD τ sig × ℕ × Fin 3 := match x.2 with
  | .inl j => (barCell x.1, 0, j)
  | .inr (.inl i) => (dcn x.1 (4 + i.val), 0, 0)
  | .inr (.inr (s, r)) => (dcn x.1 s.val, r.val, 0)
theorem tokOf_injective : Function.Injective (tokOf : TokIx → GSem nD τ sig × ℕ × Fin 3) := by
  -- a barrier cell is no DMA cell
  have bar_ne (d : Dev nD) (n : Nat) : barCell d ≠ dcn d n := fun h => by
    unfold dcn at h
    have h2 := (Prod.mk.inj h).2
    cases h2
  rintro ⟨c, t⟩ ⟨c', t'⟩ h
  have h1 : c = c' := by
    have := congrArg (fun x : GSem nD τ sig × ℕ × Fin 3 => x.1.1.1) h
    rcases t with j | i | ⟨s, r⟩ <;> rcases t' with j' | i' | ⟨s', r'⟩ <;> exact this
  subst h1
  have hg := congrArg (fun x : GSem nD τ sig × ℕ × Fin 3 => x.1) h
  have hr := congrArg (fun x : GSem nD τ sig × ℕ × Fin 3 => x.2.1) h
  have hj := congrArg (fun x : GSem nD τ sig × ℕ × Fin 3 => x.2.2) h
  rcases t with j | i | ⟨s, r⟩ <;> rcases t' with j' | i' | ⟨s', r'⟩
  -- the same kind: the duty, the cell's number, or the cell's number and the round decide; different kinds differ in the cell
  · have : j = j' := hj
    rw [this]
  · exact absurd hg (bar_ne c (4 + i'.val))
  · exact absurd hg (bar_ne c s'.val)
  · exact absurd hg.symm (bar_ne c (4 + i.val))
  · have h3 : 4 + i.val = 4 + i'.val := dcn_inj c (by have := i.isLt; omega) (by have := i'.isLt; omega) hg
    have : i = i' := Fin.ext (by omega)
    rw [this]
  · have h3 : 4 + i.val = s'.val := dcn_inj c (by have := i.isLt; omega) (by have := s'.isLt; omega) hg
    exact absurd h3 (by have := s'.isLt; omega)
  · exact absurd hg.symm (bar_ne c s.val)
  · have h3 : s.val = 4 + i'.val := dcn_inj c (by have := s.isLt; omega) (by have := i'.isLt; omega) hg
    exact absurd h3 (by have := s.isLt; omega)
  · have h3 : s.val = s'.val := dcn_inj c (by have := s.isLt; omega) (by have := s'.isLt; omega) hg
    have hs : s = s' := Fin.ext h3
    have hr' : r = r' := Fin.ext hr
    rw [hs, hr']
def agToks : Finset (GSem nD τ sig × ℕ × Fin 3) := Finset.univ.map ⟨tokOf, tokOf_injective⟩

/-- The launch's resource: the pipeline library's copy (no staging cells here) and the protocol's. -/
def u₀ : UU :=
  (initOf (Pipeline.cells cfgs cellOf_inj) (Pipeline.launchToks cfgs cellOf_inj), initOf agCells agToks)

/-! ## What each device owes at launch, and the kernel's own semaphores -/

def O₀ (c : Dev nD) : CellTallies nD τ sig Unit := Owed c Cnt.start
/-- The kernel's own (scoped) semaphores: all 516 DMA semaphores. -/
abbrev osem : DmaSem sig → SemLoc sig := fun k => .dma k

/-! ## What the launch deals a device, and what the global step makes of it -/

/-- Dealt to device `c`: the round states of its 517 cells, their positions and that each has reached round 0, and its own
    cells' duty tokens. -/
def G (c : Dev nD) : sProp 𝕄 :=
  iprop((bigSep Finset.univ fun o : Option (DmaSem sig) => roundState ER (agRd m) (kcell (c, o)) 0)
    ∗ (bigSep Finset.univ fun o : Option (DmaSem sig) => iprop(atPos ER (kcell (c, o)) 0 ∅ 0 ∗ reached ER (kcell (c, o)) 0))
    ∗ bigSep Finset.univ fun t : Fin 3 ⊕ (Fin 512 ⊕ (Fin 4 × Fin 32)) => dutyTok ER (tokOf (c, t)).1 (tokOf (c, t)).2.1 (tokOf (c, t)).2.2)

/-- The tokens of the duties device `c` PAYS: its three barrier signals' (on the peers' barrier cells), both tokens of each
    of its 256 addressed copies (its own send cell's, the target's receive cell's), and its local copies'. -/
def payToks (c : Dev nD) : sProp 𝕄 :=
  iprop((seg 0 3 fun s => dutyTok ER (barCell (sigPeer c s)) 0 (sigDuty s))
    ∗ (seg 0 84 fun i => toks (dcn c (4 + i)) (dcn (zpeer c) (88 + i)))
    ∗ (seg 0 64 fun i => toks (dcn c (172 + i)) (dcn (nxt c) (300 + i)))
    ∗ (seg 0 64 fun i => toks (dcn c (236 + i)) (dcn (prv c) (364 + i)))
    ∗ (seg 0 22 fun j => toks (dcn c (428 + j)) (dcn (nxt c) (472 + j)))
    ∗ (seg 0 22 fun j => toks (dcn c (450 + j)) (dcn (prv c) (494 + j)))
    ∗ (seg 0 64 fun k => dutyTok ER (dcn c (k % 2)) (k / 2) 0)
    ∗ (seg 0 64 fun k => dutyTok ER (dcn c (2 + k % 2)) (k / 2) 0))

/-- After the global step: the record of every cell's invariant at some names, the device's 517 positions, and the tokens
    of the duties it pays. -/
def G' (c : Dev nD) : sProp 𝕄 :=
  iprop(∃ K : CellIx → ℕ, recs m K
    ∗ (bigSep Finset.univ fun o : Option (DmaSem sig) => atPos ER (kcell (c, o)) 0 ∅ 0) ∗ payToks c)

/-! ## Entering and leaving the body -/

/-- The state a device enters its body with, but for the staging buffer (which the launch hands over separately). -/
def X (c : Dev nD) : sProp 𝕄 :=
  iprop(∃ K : CellIx → ℕ, Ctx m K ∗ (iprop(slotAny (F := F) c 0 ∗ slotAny (F := F) c 1) -∗ StR m c Cnt.start))
/-- What a device leaves with: a share of its whole argument block, untouched (the share the local copies read through:
    enough to read the block's final contents), and its result array at the gathered result. -/
def Y (c : Dev nD) : sProp 𝕄 :=
  iprop((((c : Thread nD τ).loc main_arg0) ↦{fullShare.right} m ((c : Thread nD τ).loc main_arg0))
    ∗ (((c : Thread nD τ).loc main_v1) ↦{fullShare} goal m c))

def Φ₀ (c : Dev nD) : sProp 𝕄 := iprop(∃ K : CellIx → ℕ, Ctx m K ∗ StR m c Cnt.start)
def Φ₁ (c : Dev nD) : sProp 𝕄 := StR m c Cnt.done

/-- What the run ends with on device `c`: the result array at the gathered result, the argument block as it was. -/
def QY (c : Dev nD) (s : MemSt nD τ sig (Elt F)) : Prop :=
  s.mem ((c.tc : Thread nD τ).loc main_v1) = goal m c ∧ s.mem ((c.tc : Thread nD τ).loc main_arg0) = m ((c.tc : Thread nD τ).loc main_arg0)

/-- The pipeline's proof data: no window is staged, so only the invariant before and after the one point and what is owed there. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.AG

end
-- ==== Proof.Ghost.lean ====
/-
  The protocol's ghost state: minted for every device, then regrouped by one global step: every cell's invariant made known to all, each duty's token dealt to the device that pays it.
-/
import proofs.«900672_g7700000000000673_dist_ag_v7x_xyz2x2x2_z_m32768_n1024_f32_1_alg».proof.Proof.LaunchDefs

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Re-indexing -/

/-- A family over `Fin n` is the family over the interval `0 … n` of the indices' values. -/
theorem bigSep_fin_seg (n : Nat) (Φ : Nat → sProp 𝕄) : (bigSep Finset.univ fun i : Fin n => Φ i.val) = seg 0 n Φ := by
  unfold seg
  have h : (Finset.univ : Finset (Fin n)).map Fin.valEmbedding = Finset.Ico 0 n := by
    ext x
    simp only [Finset.mem_map, Finset.mem_univ, true_and, Finset.mem_Ico, Fin.valEmbedding_apply]
    constructor
    · rintro ⟨i, rfl⟩; exact ⟨Nat.zero_le _, i.isLt⟩
    · rintro ⟨-, hx⟩; exact ⟨⟨x, hx⟩, rfl⟩
  rw [← h, bigSep_map]
  rfl

/-- An interval moved down to start at zero. -/
theorem seg_shift (b n : Nat) (Φ : Nat → sProp 𝕄) : seg b (b + n) Φ = seg 0 n fun i => Φ (b + i) := by
  unfold seg
  have h : (Finset.Ico 0 n).map (addLeftEmbedding b) = Finset.Ico b (b + n) := by
    ext x
    simp only [Finset.mem_map, Finset.mem_Ico, addLeftEmbedding_apply]
    constructor
    · rintro ⟨i, ⟨-, hi⟩, rfl⟩; omega
    · rintro ⟨h1, h2⟩; exact ⟨x - b, ⟨Nat.zero_le _, by omega⟩, by omega⟩
  rw [← h, bigSep_map]
  rfl

omit [FloatOps F] in
private theorem sep_swap_inner (A B C D : sProp 𝕄) : iprop(((A ∗ B) ∗ C) ∗ D) = iprop((A ∗ C) ∗ B ∗ D) := by
  show BI.sep (BI.sep (BI.sep A B) C) D = BI.sep (BI.sep A C) (BI.sep B D)
  ac_rfl

/-- Two families of `n` members each, interleaved: the even indices carry the first, the odd ones the second. -/
theorem seg_interleave (n : Nat) (Φ : Nat → Nat → sProp 𝕄) :
    seg 0 (2 * n) (fun k => Φ (k % 2) (k / 2)) = iprop(seg 0 n (Φ 0) ∗ seg 0 n (Φ 1)) := by
  induction n with
  | zero =>
    rw [seg_empty (le_refl _), seg_empty (le_refl _)]
    exact (equiv_iff.mp emp_sep).symm
  | succ n ih =>
    rw [show 2 * (n + 1) = 2 * n + 1 + 1 from by omega, seg_push (by omega), seg_push (by omega), ih,
      seg_push (Nat.zero_le n), seg_push (Nat.zero_le n),
      show (2 * n) % 2 = 0 from by omega, show (2 * n) / 2 = n from by omega,
      show (2 * n + 1) % 2 = 1 from by omega, show (2 * n + 1) / 2 = n from by omega]
    exact sep_swap_inner _ _ _ _

/-- A family over an optional index is its member at `none` and the family over the index. -/
theorem bigSep_option {α : Type} [Fintype α] (Φ : Option α → sProp 𝕄) :
    bigSep Finset.univ Φ = iprop(Φ none ∗ bigSep Finset.univ fun a : α => Φ (some a)) := by
  rw [bigSep_univ_equiv (Equiv.optionEquivSumPUnit.{0, 0} α).symm Φ, bigSep_univ_sum, bigSep_univ_of_subsingleton PUnit.unit]
  exact Std.Commutative.comm (op := (BI.sep : sProp 𝕄 → _ → _)) _ _

/-! ## Minting -/

/-- The protocol's copy of the launch resource mints `G` for every device (the theorem's `hu₀`, second half). -/
theorem fund_ag : BI.own (ER (initOf agCells agToks)) ⊢ (|==> bigSep Finset.univ (G m) : sProp 𝕄) := by
  have hX (Φ : GSem nD τ sig → sProp 𝕄) : bigSep agCells Φ = bigSep Finset.univ fun c : Dev nD => bigSep Finset.univ fun o : Option (DmaSem sig) => Φ (kcell (c, o)) := by
    unfold agCells; rw [bigSep_map, bigSep_univ_prod]; rfl
  have hT : bigSep agToks (fun x => (dutyTok ER x.1 x.2.1 x.2.2 : sProp 𝕄))
      = bigSep Finset.univ fun c : Dev nD => bigSep Finset.univ fun t : Fin 3 ⊕ (Fin 512 ⊕ (Fin 4 × Fin 32)) =>
          dutyTok ER (tokOf (c, t)).1 (tokOf (c, t)).2.1 (tokOf (c, t)).2.2 := by
    unfold agToks; rw [bigSep_map, bigSep_univ_prod]; rfl
  iintro HX
  imod (Rounds.fund ER (agRd m) agCells agToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The tokens, as minted and as paid -/

/-- The token of DMA cell `k` of device `c` for its round 0; the tokens of its one-round cells `b … b + n`; the tokens of
    the 32 rounds of its local cell `s`. -/
def dtk (c : Dev nD) (k : Nat) : sProp 𝕄 := dutyTok ER (dcn c k) 0 0
def tk (c : Dev nD) (b n : Nat) : sProp 𝕄 := seg 0 n fun i => dtk (F := F) c (b + i)
def lk (c : Dev nD) (s : Nat) : sProp 𝕄 := seg 0 32 fun r => dutyTok ER (dcn c s) r 0

/-- The duty tokens of device `c`'s own cells, as minted. -/
def minted (c : Dev nD) : sProp 𝕄 :=
  bigSep Finset.univ fun t : Fin 3 ⊕ (Fin 512 ⊕ (Fin 4 × Fin 32)) => dutyTok ER (tokOf (c, t)).1 (tokOf (c, t)).2.1 (tokOf (c, t)).2.2

theorem seg_three (Φ : Nat → sProp 𝕄) : seg 0 3 Φ = iprop(Φ 0 ∗ Φ 1 ∗ Φ 2) := by
  unfold seg
  rw [show Finset.Ico 0 3 = {0, 1, 2} from by decide, bigSep_insert (by decide), bigSep_insert (by decide), bigSep_singleton]
  rfl

/-- Family by family: the barrier's three tokens, the ten families of one-round cells, the four local cells' rounds. -/
theorem minted_eq (c : Dev nD) : minted (F := F) c = iprop(
    (dutyTok ER (barCell c) 0 0 ∗ dutyTok ER (barCell c) 0 1 ∗ dutyTok ER (barCell c) 0 2)
    ∗ (tk c 4 84 ∗ tk c 88 84 ∗ tk c 172 64 ∗ tk c 236 64 ∗ tk c 300 64 ∗ tk c 364 64 ∗ tk c 428 22 ∗ tk c 450 22 ∗ tk c 472 22 ∗ tk c 494 22)
    ∗ (lk c 0 ∗ lk c 1 ∗ lk c 2 ∗ lk c 3)) := by
  have h0 : minted (F := F) c = iprop((bigSep Finset.univ fun j : Fin 3 => dutyTok ER (barCell c) 0 j)
      ∗ (bigSep Finset.univ fun i : Fin 512 => dtk c (4 + i.val))
      ∗ (bigSep Finset.univ fun s : Fin 4 => bigSep Finset.univ fun r : Fin 32 => dutyTok ER (dcn c s.val) r.val 0)) := by
    unfold minted; rw [bigSep_univ_sum, bigSep_univ_sum, bigSep_univ_prod]; rfl
  have hB : (bigSep Finset.univ fun j : Fin 3 => (dutyTok ER (barCell c) 0 j : sProp 𝕄))
      = iprop(dutyTok ER (barCell c) 0 0 ∗ dutyTok ER (barCell c) 0 1 ∗ dutyTok ER (barCell c) 0 2) :=
    bigSep_univ_eq_bigSepL [0, 1, 2] (by decide) (by decide) _
  have e (b n : Nat) : seg b (b + n) (dtk (F := F) c) = tk c b n := seg_shift b n _
  have hD : (bigSep Finset.univ fun i : Fin 512 => dtk (F := F) c (4 + i.val))
      = iprop(tk c 4 84 ∗ tk c 88 84 ∗ tk c 172 64 ∗ tk c 236 64 ∗ tk c 300 64 ∗ tk c 364 64 ∗ tk c 428 22 ∗ tk c 450 22 ∗ tk c 472 22 ∗ tk c 494 22) := by
    have h1 : (bigSep Finset.univ fun i : Fin 512 => dtk (F := F) c (4 + i.val)) = seg 4 516 (dtk c) :=
      (bigSep_fin_seg 512 fun i => dtk c (4 + i)).trans (seg_shift 4 512 (dtk c)).symm
    rw [h1, seg_split (lo := 4) (mid := 88) (hi := 516) (by omega) (by omega), seg_split (lo := 88) (mid := 172) (hi := 516) (by omega) (by omega),
      seg_split (lo := 172) (mid := 236) (hi := 516) (by omega) (by omega), seg_split (lo := 236) (mid := 300) (hi := 516) (by omega) (by omega),
      seg_split (lo := 300) (mid := 364) (hi := 516) (by omega) (by omega), seg_split (lo := 364) (mid := 428) (hi := 516) (by omega) (by omega),
      seg_split (lo := 428) (mid := 450) (hi := 516) (by omega) (by omega), seg_split (lo := 450) (mid := 472) (hi := 516) (by omega) (by omega),
      seg_split (lo := 472) (mid := 494) (hi := 516) (by omega) (by omega),
      show seg 4 88 (dtk (F := F) c) = tk c 4 84 from e 4 84, show seg 88 172 (dtk (F := F) c) = tk c 88 84 from e 88 84,
      show seg 172 236 (dtk (F := F) c) = tk c 172 64 from e 172 64, show seg 236 300 (dtk (F := F) c) = tk c 236 64 from e 236 64,
      show seg 300 364 (dtk (F := F) c) = tk c 300 64 from e 300 64, show seg 364 428 (dtk (F := F) c) = tk c 364 64 from e 364 64,
      show seg 428 450 (dtk (F := F) c) = tk c 428 22 from e 428 22, show seg 450 472 (dtk (F := F) c) = tk c 450 22 from e 450 22,
      show seg 472 494 (dtk (F := F) c) = tk c 472 22 from e 472 22, show seg 494 516 (dtk (F := F) c) = tk c 494 22 from e 494 22]
  have hL : (bigSep Finset.univ fun s : Fin 4 => bigSep Finset.univ fun r : Fin 32 => (dutyTok ER (dcn c s.val) r.val 0 : sProp 𝕄))
      = iprop(lk c 0 ∗ lk c 1 ∗ lk c 2 ∗ lk c 3) := by
    have h1 (s : Fin 4) : (bigSep Finset.univ fun r : Fin 32 => (dutyTok ER (dcn c s.val) r.val 0 : sProp 𝕄)) = lk c s.val :=
      bigSep_fin_seg 32 fun r => dutyTok ER (dcn c s.val) r 0
    rw [bigSep_congr (s := Finset.univ) fun s _ => h1 s]
    exact bigSep_univ_eq_bigSepL [0, 1, 2, 3] (by decide) (by decide) fun s : Fin 4 => lk (F := F) c s.val
  rw [h0, hB, hD, hL]

/-- What a device pays with, family by family. -/
theorem payToks_eq (c : Dev nD) : payToks (F := F) c = iprop(
    (dutyTok ER (barCell (zpeer c)) 0 0 ∗ dutyTok ER (barCell (nxt c)) 0 1 ∗ dutyTok ER (barCell (prv c)) 0 2)
    ∗ (tk c 4 84 ∗ tk (zpeer c) 88 84) ∗ (tk c 172 64 ∗ tk (nxt c) 300 64) ∗ (tk c 236 64 ∗ tk (prv c) 364 64)
    ∗ (tk c 428 22 ∗ tk (nxt c) 472 22) ∗ (tk c 450 22 ∗ tk (prv c) 494 22) ∗ (lk c 0 ∗ lk c 1) ∗ (lk c 2 ∗ lk c 3)) := by
  have hB : (seg 0 3 fun s => (dutyTok ER (barCell (sigPeer c s)) 0 (sigDuty s) : sProp 𝕄))
      = iprop(dutyTok ER (barCell (zpeer c)) 0 0 ∗ dutyTok ER (barCell (nxt c)) 0 1 ∗ dutyTok ER (barCell (prv c)) 0 2) := seg_three _
  have hT (d : Dev nD) (a b n : Nat) : (seg 0 n fun i => (toks (dcn c (a + i)) (dcn d (b + i)) : sProp 𝕄)) = iprop(tk c a n ∗ tk d b n) :=
    seg_sep (fun i => dtk c (a + i)) (fun i => dtk d (b + i))
  have hI : (seg 0 64 fun k => (dutyTok ER (dcn c (k % 2)) (k / 2) 0 : sProp 𝕄)) = iprop(lk c 0 ∗ lk c 1) :=
    seg_interleave 32 fun s r => dutyTok ER (dcn c s) r 0
  have hO : (seg 0 64 fun k => (dutyTok ER (dcn c (2 + k % 2)) (k / 2) 0 : sProp 𝕄)) = iprop(lk c 2 ∗ lk c 3) :=
    seg_interleave 32 fun s r => dutyTok ER (dcn c (2 + s)) r 0
  unfold payToks
  rw [hB, hT (zpeer c) 4 88 84, hT (nxt c) 172 300 64, hT (prv c) 236 364 64, hT (nxt c) 428 472 22, hT (prv c) 450 494 22, hI, hO]

/-! ## Dealing the tokens -/

/-- A family over the devices may be read along a bijection of the devices. -/
theorem bigSep_along (f g : Dev nD → Dev nD) (h1 : ∀ c, g (f c) = c) (h2 : ∀ c, f (g c) = c) (Φ : Dev nD → sProp 𝕄) :
    (bigSep Finset.univ fun c => Φ (f c)) = bigSep Finset.univ Φ :=
  (bigSep_univ_equiv ⟨f, g, h1, h2⟩ Φ).symm

/-- Every device's minted tokens, dealt: a send cell's and a local cell's token stays; a receive cell's goes to the device
    that copies onto it; a barrier's three go to the three devices that signal it. -/
theorem deal : (bigSep Finset.univ fun c : Dev nD => minted (F := F) c) ⊢ bigSep Finset.univ fun c : Dev nD => payToks (F := F) c := by
  rw [bigSep_congr (s := Finset.univ) fun (c : Dev nD) _ => minted_eq (F := F) c,
    bigSep_congr (s := Finset.univ) fun (c : Dev nD) _ => payToks_eq (F := F) c]
  simp only [bigSep_sep']
  rw [bigSep_along zpeer zpeer zpeer_zpeer zpeer_zpeer fun c => (dutyTok ER (barCell c) 0 0 : sProp 𝕄),
    bigSep_along nxt prv prv_nxt nxt_prv fun c => (dutyTok ER (barCell c) 0 1 : sProp 𝕄),
    bigSep_along prv nxt nxt_prv prv_nxt fun c => (dutyTok ER (barCell c) 0 2 : sProp 𝕄),
    bigSep_along zpeer zpeer zpeer_zpeer zpeer_zpeer fun c => tk (F := F) c 88 84,
    bigSep_along nxt prv prv_nxt nxt_prv fun c => tk (F := F) c 300 64,
    bigSep_along prv nxt nxt_prv prv_nxt fun c => tk (F := F) c 364 64,
    bigSep_along nxt prv prv_nxt nxt_prv fun c => tk (F := F) c 472 22,
    bigSep_along prv nxt nxt_prv prv_nxt fun c => tk (F := F) c 494 22]
  iintro ⟨⟨B0, B1, B2⟩, ⟨Zs, Zr, Sn, Sp, Rp, Rn, S2n, S2p, R2p, R2n⟩, L0, L1, L2, L3⟩
  isplitl [B0 B1 B2]
  · isplitl [B0]; · iexact B0
    isplitl [B1] <;> iassumption
  isplitl [Zs Zr]; · isplitl [Zs] <;> iassumption
  isplitl [Sn Rp]; · isplitl [Sn] <;> iassumption
  isplitl [Sp Rn]; · isplitl [Sp] <;> iassumption
  isplitl [S2n R2p]; · isplitl [S2n] <;> iassumption
  isplitl [S2p R2n]; · isplitl [S2p] <;> iassumption
  isplitl [L0 L1]; · isplitl [L0] <;> iassumption
  isplitl [L2] <;> iassumption

/-! ## The global step -/

/-- The barrier semaphore is the launch's one unscoped semaphore: the one regular semaphore is not scoped, every DMA
    semaphore is. -/
theorem unscopedSems0_eq (c : Dev nD) : (unscopedSems0 c : sProp 𝕄) = semVal (barCell c) 0 := by
  have hd : ∀ k : Fin 516, dmaSemScoped k = true := by decide
  have h : (Finset.univ.filter fun sm : SemLoc sig => ¬ sm.isScoped .tc) = {SemLoc.reg barS} := by
    ext sm
    simp only [Finset.mem_filter, Finset.mem_univ, true_and, Finset.mem_singleton]
    cases sm with
    | reg s =>
      have hs : s = barS := Fin.ext (by have h1 : s.val < 1 := s.isLt; have h2 : (barS : Sem sig).val < 1 := (barS : Sem sig).isLt; omega)
      subst hs
      exact iff_of_true (by decide) rfl
    | dma k =>
      refine iff_of_false (fun h' => h' (hd k)) (fun h' => ?_)
      cases h'
  unfold unscopedSems0
  rw [h, bigSep_singleton]

/-- A device's 516 own semaphores and its barrier semaphore are the counters of its 517 cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option (DmaSem sig) => semVal (kcell (c, o)) 0 : sProp 𝕄) := by
  have hO : (Pipeline.ownSems0 (Ix := Unit) (Name := ℕ) (U := UU) (Lvl := ℕ) (Val := Elt F) (τ := τ) osem c : sProp 𝕄)
      = bigSep Finset.univ fun a : DmaSem sig => semVal (kcell (c, some a)) 0 := rfl
  rw [unscopedSems0_eq, bigSep_option, hO]
  iintro ⟨HS, HB⟩
  isplitl [HB]; · iexact HB
  iexact HS

/-- Per device: every cell's counter at zero and round state at zero become the cell's invariant at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o : Option (DmaSem sig) => iprop(∃ κ : ℕ, cellInv ER (agRd m) κ (kcell (c, o))))
          ∗ (bigSep Finset.univ fun o : Option (DmaSem sig) => iprop(atPos ER (kcell (c, o)) 0 ∅ 0 ∗ reached ER (kcell (c, o)) 0)) ∗ minted (F := F) c) := by
  unfold G minted
  iintro ⟨Hos, Hus, Hst, Hat, Htok⟩
  ihave Hv := (sems0_eq (F := F) c) $$ [Hos Hus]
  · isplitl [Hos] <;> iassumption
  imod (show iprop((bigSep Finset.univ fun o : Option (DmaSem sig) => semVal (kcell (c, o)) 0) ∗ bigSep Finset.univ fun o : Option (DmaSem sig) => roundState ER (agRd m) (kcell (c, o)) 0)
      ⊢ (|={Set.univ}=> bigSep Finset.univ fun o : Option (DmaSem sig) => iprop(∃ κ : ℕ, cellInv ER (agRd m) κ (kcell (c, o))) : sProp 𝕄) from by
        rw [← bigSep_sep']
        exact (bigSep_mono fun o _ => (Rounds.body_intro ER (agRd m) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-- What stays with a device once the records are known to all: its 517 positions and the tokens it pays with. -/
theorem ghost_intro (K : CellIx → ℕ) (c : Dev nD) :
    iprop(recs m K ∗ (bigSep Finset.univ fun o : Option (DmaSem sig) => atPos ER (kcell (c, o)) 0 ∅ 0) ∗ payToks (F := F) c) ⊢ G' m c := by
  unfold G'
  iintro ⟨#HR, Hat, Htk⟩
  iexists K
  isplitr; · iexact HR
  isplitl [Hat] <;> iassumption

/-- A persistent assertion in hand is there for every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices together: the names are chosen, the records made known to every device, the tokens dealt. -/
theorem regroup :
    (bigSep Finset.univ fun c : Dev nD => iprop((bigSep Finset.univ fun o : Option (DmaSem sig) => iprop(∃ κ : ℕ, cellInv ER (agRd m) κ (kcell (c, o))))
          ∗ (bigSep Finset.univ fun o : Option (DmaSem sig) => iprop(atPos ER (kcell (c, o)) 0 ∅ 0 ∗ reached ER (kcell (c, o)) 0)) ∗ minted (F := F) c) : sProp 𝕄)
      ⊢ bigSep Finset.univ (G' m) := by
  rw [bigSep_sep', bigSep_sep', ← bigSep_univ_prod (fun x : CellIx => iprop(∃ κ : ℕ, cellInv ER (agRd m) κ (kcell x))),
    bigSep_congr (s := Finset.univ) (fun (c : Dev nD) _ => bigSep_sep' Finset.univ (fun o : Option (DmaSem sig) => (atPos ER (kcell (c, o)) 0 ∅ 0 : sProp 𝕄)) (fun o => reached ER (kcell (c, o)) 0)),
    bigSep_sep', ← bigSep_univ_prod (fun x : CellIx => (reached ER (kcell x) 0 : sProp 𝕄))]
  iintro ⟨HI, ⟨Hat, #HR⟩, Htok⟩
  ihave HK := (BI.bigSep_exists_pi Finset.univ (fun (x : CellIx) (κ : ℕ) => (cellInv ER (agRd m) κ (kcell x) : sProp 𝕄))) $$ HI
  icases HK with ⟨%K, #HI⟩
  ihave Htk := (deal (F := F)) $$ Htok
  iapply (bigSep_with_persistent (R := recs m K) fun c _ => ghost_intro m K c)
  isplitr
  · unfold recs; isplitl; · iexact HI
    iexact HR
  · iapply (Entails.of_eq (bigSep_sep' Finset.univ (fun c : Dev nD => bigSep Finset.univ fun o : Option (DmaSem sig) => (atPos ER (kcell (c, o)) 0 ∅ 0 : sProp 𝕄)) (fun c => payToks (F := F) c)).symm)
    isplitl [Hat]; · iexact Hat
    iexact Htk

/-- The global step (the theorem's `hglob`): every device's own semaphores and its barrier semaphore, at zero, with the
    round states, become the cells' invariants, known to all; the tokens are dealt to the devices that pay them. -/
theorem glob_ag : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.AG.fund_ag' depends on axioms: [propext, Classical.choice, Quot.sound] -/
#guard_msgs in #print axioms fund_ag
/-- info: 'Cert.KernelIdeal.AG.glob_ag' depends on axioms: [propext, Classical.choice, Quot.sound] -/
#guard_msgs in #print axioms glob_ag

end Cert.KernelIdeal.AG

end
-- ==== Proof.Creds.lean ====
/-
  The launch credit: summing what all devices owe a cell gives that cell's owner three barrier units and one chunk's credit on each receive cell.
-/
import proofs.«900672_g7700000000000673_dist_ag_v7x_xyz2x2x2_z_m32768_n1024_f32_1_alg».proof.Proof.LaunchDefs

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the devices owe at launch, family by family: the three barrier units, then the arrivals of the five kinds of addressed copies. -/
private theorem O₀_eq : (O₀ : Dev nD → CellTallies nD τ sig Unit) = fun d =>
    (∑ s ∈ Finset.Ico 0 3, tallyAt (barCell (sigPeer d s)) () 1)
    + (∑ i ∈ Finset.Ico 0 84, tallyAt (dcn (zpeer d) (88 + i)) () N128)
    + (∑ i ∈ Finset.Ico 0 64, tallyAt (dcn (nxt d) (300 + i)) () N128)
    + (∑ i ∈ Finset.Ico 0 64, tallyAt (dcn (prv d) (364 + i)) () N128)
    + (∑ j ∈ Finset.Ico 0 22, tallyAt (dcn (nxt d) (472 + j)) () N128)
    + (∑ j ∈ Finset.Ico 0 22, tallyAt (dcn (prv d) (494 + j)) () N128) := rfl

/-- One family of arrivals: every device `d` owes cell `base + i` of device `f d` one chunk, `f` a bijection of the
    devices; summed over the devices, each device is credited one chunk on each of its own cells `base + i`. -/
private theorem cred_fam (f finv : Dev nD → Dev nD) (h1 : ∀ c, f (finv c) = c) (h2 : ∀ d, finv (f d) = d) (base n : Nat) (c : Dev nD) :
    (Pipeline.launchCred (fun d => ∑ i ∈ Finset.Ico 0 n, tallyAt (dcn (f d) (base + i)) () N128) c : sProp 𝕄)
      ⊢ seg 0 n fun i => cred (tallyAt (dcn c (base + i)) () N128) := by
  rw [Pipeline.launchCred_sum (Finset.Ico 0 n) (fun i d => tallyAt (dcn (f d) (base + i)) () N128) c]
  unfold seg
  exact bigSep_mono fun i _ =>
    Pipeline.launchCred_tallyAt (.dma ⟨(base + i) % 516, Nat.mod_lt _ (by decide)⟩) f finv h1 h2 () N128 c

/-- The device whose `s`-th barrier signal goes to `c`: signals go to the z-peer, the next and the previous device, so they
    come from the z-peer, the previous and the next. -/
private def sigFrom (c : Dev nD) (s : Nat) : Dev nD := if s = 0 then zpeer c else if s = 1 then prv c else nxt c

private theorem sigPeer_sigFrom (s : Nat) (c : Dev nD) : sigPeer (sigFrom c s) s = c := by
  unfold sigPeer sigFrom
  split_ifs
  · exact zpeer_zpeer c
  · exact nxt_prv c
  · exact prv_nxt c

private theorem sigFrom_sigPeer (s : Nat) (d : Dev nD) : sigFrom (sigPeer d s) s = d := by
  unfold sigPeer sigFrom
  split_ifs
  · exact zpeer_zpeer d
  · exact prv_nxt d
  · exact nxt_prv d

/-- The barrier: each of the three signals is a bijection of the devices, so each credits every device one unit. -/
private theorem cred_bar (c : Dev nD) :
    (Pipeline.launchCred (fun d => ∑ s ∈ Finset.Ico 0 3, tallyAt (barCell (sigPeer d s)) () 1) c : sProp 𝕄)
      ⊢ cred (tallyAt (barCell c) () 3) := by
  rw [Pipeline.launchCred_sum (Finset.Ico 0 3) (fun s d => tallyAt (barCell (sigPeer d s)) () 1) c]
  refine (bigSep_mono (Ψ := fun _ => cred (tallyAt (barCell c) () 1)) fun s _ =>
    Pipeline.launchCred_tallyAt (.reg barS) (fun d => sigPeer d s) (fun d => sigFrom d s)
      (sigPeer_sigFrom s) (sigFrom_sigPeer s) () 1 c).trans ?_
  rw [← Pipeline.cred_finsetSum]
  refine Entails.of_eq (congrArg cred ?_)
  rw [Nat.Ico_zero_eq_range, Finset.sum_range_succ, Finset.sum_range_succ, Finset.sum_range_succ, Finset.sum_range_zero,
    zero_add, tallyAt_add, tallyAt_add]

/-- The launch credit of a device: three units on its barrier cell and a chunk's credit on each of its 256 receive cells. -/
theorem creds_ag (c : Dev nD) :
    (Pipeline.launchCred O₀ c : sProp 𝕄) ⊢ iprop(cred (tallyAt (barCell c) () 3)
      ∗ (seg 0 84 fun i => cred (tallyAt (dcn c (88 + i)) () N128))
      ∗ (seg 0 64 fun i => cred (tallyAt (dcn c (300 + i)) () N128))
      ∗ (seg 0 64 fun i => cred (tallyAt (dcn c (364 + i)) () N128))
      ∗ (seg 0 22 fun j => cred (tallyAt (dcn c (472 + j)) () N128))
      ∗ (seg 0 22 fun j => cred (tallyAt (dcn c (494 + j)) () N128))) := by
  rw [O₀_eq, Pipeline.launchCred_add, Pipeline.launchCred_add, Pipeline.launchCred_add, Pipeline.launchCred_add, Pipeline.launchCred_add]
  iintro ⟨⟨⟨⟨⟨Hb, Hz⟩, Hn1⟩, Hp1⟩, Hn2⟩, Hp2⟩
  isplitl [Hb]; · iapply (cred_bar (F := F) c) $$ Hb
  isplitl [Hz]; · iapply (cred_fam (F := F) zpeer zpeer zpeer_zpeer zpeer_zpeer 88 84 c) $$ Hz
  isplitl [Hn1]; · iapply (cred_fam (F := F) nxt prv nxt_prv prv_nxt 300 64 c) $$ Hn1
  isplitl [Hp1]; · iapply (cred_fam (F := F) prv nxt prv_nxt nxt_prv 364 64 c) $$ Hp1
  isplitl [Hn2]; · iapply (cred_fam (F := F) nxt prv nxt_prv prv_nxt 472 22 c) $$ Hn2
  iapply (cred_fam (F := F) prv nxt prv_nxt nxt_prv 494 22 c) $$ Hp2

/-- info: 'Cert.KernelIdeal.AG.creds_ag' depends on axioms: [propext, Classical.choice, Quot.sound] -/
#guard_msgs in #print axioms creds_ag

end Cert.KernelIdeal.AG

end
-- ==== Proof.Sets.lean ====
/-
  The pieces of the three arrays as the program names them, and as the proof holds them.
  The program names a piece of an array as a slice at an offset; the proof holds it as a range of rows of the
  whole array (or one slot of the staging buffer). Here: each slice lies in its whole array's location and covers
  exactly that range of rows; and a copy from one slice to another leaves, at each index of the destination's rows,
  the source's element at the matching row.
-/
import proofs.«900672_g7700000000000673_dist_ag_v7x_xyz2x2x2_z_m32768_n1024_f32_1_alg».proof.Proof.Cells
import Idealize.ShloMosaic.Lib.Pipeline.Value

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Where each slice lies, and which elements it covers -/

/-- A unit-stride rectangle of a two-axis shape that starts at row `R`, column 0 and keeps every column
    holds exactly the indices whose row lies in `R … R + n`. -/
theorem mem_unit_rows {N C n : Nat} (off : Fin 2 → Nat) (R : Nat) (hoff : off = ![R, 0])
    (h : ∀ a, off a + (![n, C] : Fin 2 → Nat) a ≤ (⟨2, ![N, C]⟩ : Shape).size a) (i : (⟨2, ![N, C]⟩ : Shape).Idx) :
    i ∈ (Rect.unit (s := ⟨2, ![N, C]⟩) off ![n, C] h).set ↔ R ≤ (i 0).val ∧ (i 0).val < R + n := by
  subst hoff
  rw [Rect.mem_set_unit, Fin.forall_fin_two]
  have h1 : (i 1).val < C := (i 1).isLt
  constructor
  · rintro ⟨h0, -⟩; exact h0
  · intro h0; exact ⟨h0, Nat.zero_le _, by simpa using h1⟩

theorem oSlice128_loc (off : Fin 2 → Nat) (h : ∀ a, off a + S128x1024.size a ≤ S65536x1024.size a) (d : Dev nD) :
    (oM.slice (Rect.unit (s := S65536x1024) off S128x1024.size h) (fun _ => rfl)).view.loc (d : Thread nD τ)
      = (d : Thread nD τ).loc main_v1 := rfl

theorem oSlice128_set (off : Fin 2 → Nat) (h : ∀ a, off a + S128x1024.size a ≤ S65536x1024.size a) (R : Nat)
    (hoff : off = ![R, 0]) :
    (oM.slice (Rect.unit (s := S65536x1024) off S128x1024.size h) (fun _ => rfl)).view.set = rows R 128 := by
  refine (View.set_slice_whole main_v1 (Rect.unit (s := S65536x1024) off S128x1024.size h)).trans ?_
  ext i
  rw [rows, Finset.mem_filter]
  exact (mem_unit_rows off R hoff h i).trans (by simp)

theorem oSlice512_loc (off : Fin 2 → Nat) (h : ∀ a, off a + S512x1024.size a ≤ S65536x1024.size a) (d : Dev nD) :
    (oM.slice (Rect.unit (s := S65536x1024) off S512x1024.size h) (fun _ => rfl)).view.loc (d : Thread nD τ)
      = (d : Thread nD τ).loc main_v1 := rfl

theorem oSlice512_set (off : Fin 2 → Nat) (h : ∀ a, off a + S512x1024.size a ≤ S65536x1024.size a) (R : Nat)
    (hoff : off = ![R, 0]) :
    (oM.slice (Rect.unit (s := S65536x1024) off S512x1024.size h) (fun _ => rfl)).view.set = rows R 512 := by
  refine (View.set_slice_whole main_v1 (Rect.unit (s := S65536x1024) off S512x1024.size h)).trans ?_
  ext i
  rw [rows, Finset.mem_filter]
  exact (mem_unit_rows off R hoff h i).trans (by simp)

theorem xSlice128_loc (off : Fin 2 → Nat) (h : ∀ a, off a + S128x1024.size a ≤ S32768x1024.size a) (d : Dev nD) :
    (xM.slice (Rect.unit (s := S32768x1024) off S128x1024.size h) (fun _ => rfl)).view.loc (d : Thread nD τ)
      = (d : Thread nD τ).loc main_arg0 := rfl

theorem xSlice128_set (off : Fin 2 → Nat) (h : ∀ a, off a + S128x1024.size a ≤ S32768x1024.size a) (R : Nat)
    (hoff : off = ![R, 0]) :
    (xM.slice (Rect.unit (s := S32768x1024) off S128x1024.size h) (fun _ => rfl)).view.set = xrows R 128 := by
  refine (View.set_slice_whole main_arg0 (Rect.unit (s := S32768x1024) off S128x1024.size h)).trans ?_
  ext i
  rw [xrows, Finset.mem_filter]
  exact (mem_unit_rows off R hoff h i).trans (by simp)

theorem xSlice512_loc (off : Fin 2 → Nat) (h : ∀ a, off a + S512x1024.size a ≤ S32768x1024.size a) (d : Dev nD) :
    (xM.slice (Rect.unit (s := S32768x1024) off S512x1024.size h) (fun _ => rfl)).view.loc (d : Thread nD τ)
      = (d : Thread nD τ).loc main_arg0 := rfl

theorem xSlice512_set (off : Fin 2 → Nat) (h : ∀ a, off a + S512x1024.size a ≤ S32768x1024.size a) (R : Nat)
    (hoff : off = ![R, 0]) :
    (xM.slice (Rect.unit (s := S32768x1024) off S512x1024.size h) (fun _ => rfl)).view.set = xrows R 512 := by
  refine (View.set_slice_whole main_arg0 (Rect.unit (s := S32768x1024) off S512x1024.size h)).trans ?_
  ext i
  rw [xrows, Finset.mem_filter]
  exact (mem_unit_rows off R hoff h i).trans (by simp)

theorem vSlot_loc (s : Nat) (h : ∀ a, (![s, 0, 0] : Fin 3 → Nat) a + S1x512x1024.size a ≤ S2x512x1024.size a) (d : Dev nD) :
    ((vM.slice (Rect.unit (s := S2x512x1024) ![s, 0, 0] S1x512x1024.size h) (fun _ => rfl)).squeeze S512x1024
        squeezes_S1x512x1024_S512x1024).view.loc (d : Thread nD τ)
      = (d : Thread nD τ).loc cc0_scratch0 := rfl

/-- A slot of the staging buffer, squeezed to two axes, still covers the slot: the indices whose first coordinate is `s`. -/
theorem vSlot_set (s : Nat) (h : ∀ a, (![s, 0, 0] : Fin 3 → Nat) a + S1x512x1024.size a ≤ S2x512x1024.size a) :
    ((vM.slice (Rect.unit (s := S2x512x1024) ![s, 0, 0] S1x512x1024.size h) (fun _ => rfl)).squeeze S512x1024
        squeezes_S1x512x1024_S512x1024).view.set = slot s := by
  refine (View.set_reshape ((View.whole cc0_scratch0).slice (Rect.unit (s := S2x512x1024) ![s, 0, 0] S1x512x1024.size h))
    squeezes_S1x512x1024_S512x1024.numel_eq).trans ?_
  refine (View.set_slice_whole cc0_scratch0 (Rect.unit (s := S2x512x1024) ![s, 0, 0] S1x512x1024.size h)).trans ?_
  ext i
  rw [slot, Finset.mem_filter, Rect.mem_set_unit]
  have h1 : (i 1).val < 512 := (i 1).isLt
  have h2 : (i 2).val < 1024 := (i 2).isLt
  constructor
  · intro H
    have := H 0
    simp at this
    exact ⟨Finset.mem_univ _, by omega⟩
  · rintro ⟨-, H⟩ a
    have ha : a = 0 ∨ a = 1 ∨ a = 2 := by
      rcases a with ⟨_ | _ | _ | n, hn⟩
      · exact Or.inl rfl
      · exact Or.inr (Or.inl rfl)
      · exact Or.inr (Or.inr rfl)
      · exact absurd hn (by show ¬ (n + 3 < 3); omega)
    rcases ha with rfl | rfl | rfl
    · show s ≤ (i 0).val ∧ (i 0).val < s + 1
      omega
    · show 0 ≤ (i 1).val ∧ (i 1).val < 0 + 512
      omega
    · show 0 ≤ (i 2).val ∧ (i 2).val < 0 + 1024
      omega

/-! ## What a copy leaves at an index -/

/-- Where a unit-stride rectangle at row `R`, column 0 puts its own row `r`, column `c`: row `R + r`, column `c`. -/
theorem unit_emb_pair {N C n : Nat} (off : Fin 2 → Nat) (R : Nat) (hoff : off = ![R, 0])
    (h : ∀ a, off a + (![n, C] : Fin 2 → Nat) a ≤ (⟨2, ![N, C]⟩ : Shape).size a)
    (r : Fin n) (c : Fin C) (hR : R + r.val < N) :
    (Rect.unit (s := ⟨2, ![N, C]⟩) off ![n, C] h).emb (Shape.pair (d := ![n, C]) r c)
      = Shape.pair (d := ![N, C]) ⟨R + r.val, hR⟩ c := by
  subst hoff
  funext a
  apply Fin.ext
  rw [Rect.emb_apply]
  rcases a with ⟨_ | _ | k, hk⟩
  · show R + 1 * r.val = R + r.val
    omega
  · show 0 + 1 * c.val = c.val
    omega
  · exact absurd hk (by show ¬ (k + 2 < 2); omega)

/-- An index whose row lies in `R … R + n` is where the rectangle at row `R` puts its row `i 0 - R`, column `i 1`. -/
theorem unit_emb_rows {N C n : Nat} (off : Fin 2 → Nat) (R : Nat) (hoff : off = ![R, 0])
    (h : ∀ a, off a + (![n, C] : Fin 2 → Nat) a ≤ (⟨2, ![N, C]⟩ : Shape).size a)
    (i : (⟨2, ![N, C]⟩ : Shape).Idx) (hlo : R ≤ (i 0).val) (hhi : (i 0).val < R + n) :
    (Rect.unit (s := ⟨2, ![N, C]⟩) off ![n, C] h).emb
        (Shape.pair (d := ![n, C]) ⟨(i 0).val - R, (by omega : (i 0).val - R < n)⟩ ⟨(i 1).val, (i 1).isLt⟩) = i := by
  have hN : (i 0).val < N := (i 0).isLt
  refine (unit_emb_pair off R hoff h ⟨(i 0).val - R, (by omega : (i 0).val - R < n)⟩ ⟨(i 1).val, (i 1).isLt⟩
    (by show R + ((i 0).val - R) < N; omega)).trans ?_
  refine Eq.trans ?_ (Shape.pair_eta i)
  congr 1
  apply Fin.ext
  show R + ((i 0).val - R) = (i 0).val
  omega

/-- A forward keeps its rows: a chunk copied between the same rows of two result arrays leaves, at each index of
    those rows, the source's element at that index. -/
theorem land_o_to_o {Val : EltTy → Type} (offs offd : Fin 2 → Nat)
    (hs : ∀ a, offs a + S128x1024.size a ≤ S65536x1024.size a)
    (hd : ∀ a, offd a + S128x1024.size a ≤ S65536x1024.size a)
    (R : Nat) (hos : offs = ![R, 0]) (hod : offd = ![R, 0])
    (fs fd : S65536x1024.Idx → Val .f32) (i : S65536x1024.Idx) (hi : i ∈ rows R 128) :
    (oM.slice (Rect.unit (s := S65536x1024) offd S128x1024.size hd) (fun _ => rfl)).view.write Val fd
        ((oM.slice (Rect.unit (s := S65536x1024) offs S128x1024.size hs) (fun _ => rfl)).view.read Val fs)
        Finset.univ i = fs i := by
  rw [rows, Finset.mem_filter] at hi
  obtain ⟨-, hlo, hhi⟩ := hi
  have hxd := unit_emb_rows (N := 65536) (C := 1024) (n := 128) offd R hod hd i hlo hhi
  have hxs := unit_emb_rows (N := 65536) (C := 1024) (n := 128) offs R hos hs i hlo hhi
  have key := View.write_emb_of_mem
    (v := (oM.slice (Rect.unit (s := S65536x1024) offd S128x1024.size hd) (fun _ => rfl)).view) (Val := Val) fd
    ((oM.slice (Rect.unit (s := S65536x1024) offs S128x1024.size hs) (fun _ => rfl)).view.read Val fs)
    (M := Finset.univ)
    (x := Shape.pair (d := ![128, 1024]) ⟨(i 0).val - R, (by omega : (i 0).val - R < 128)⟩ ⟨(i 1).val, (i 1).isLt⟩) (Finset.mem_univ _)
  refine Eq.trans ?_ (key.trans ?_)
  · exact congrArg _ hxd.symm
  · exact congrArg fs hxs

/-- A chunk of the argument block copied into the result: rows `Rs …` of the block land on rows `Rd …` of the result,
    so the result's row `i 0` then holds the block's row `Rs + (i 0 - Rd)`. -/
theorem land_x_to_o {Val : EltTy → Type} (offs offd : Fin 2 → Nat)
    (hs : ∀ a, offs a + S128x1024.size a ≤ S32768x1024.size a)
    (hd : ∀ a, offd a + S128x1024.size a ≤ S65536x1024.size a)
    (Rs Rd : Nat) (hos : offs = ![Rs, 0]) (hod : offd = ![Rd, 0]) (hRs : Rs + 128 ≤ 32768)
    (fs : S32768x1024.Idx → Val .f32) (fd : S65536x1024.Idx → Val .f32) (i : S65536x1024.Idx) (hi : i ∈ rows Rd 128) :
    (oM.slice (Rect.unit (s := S65536x1024) offd S128x1024.size hd) (fun _ => rfl)).view.write Val fd
        ((xM.slice (Rect.unit (s := S32768x1024) offs S128x1024.size hs) (fun _ => rfl)).view.read Val fs)
        Finset.univ i
      = fs (Shape.pair (d := ![32768, 1024])
          ⟨Rs + ((i 0).val - Rd), by rw [rows, Finset.mem_filter] at hi; show Rs + ((i 0).val - Rd) < 32768; omega⟩ ⟨(i 1).val, (i 1).isLt⟩) := by
  have hi' := hi
  rw [rows, Finset.mem_filter] at hi'
  obtain ⟨-, hlo, hhi⟩ := hi'
  have hxd := unit_emb_rows (N := 65536) (C := 1024) (n := 128) offd Rd hod hd i hlo hhi
  have hxs := unit_emb_pair (N := 32768) (C := 1024) (n := 128) offs Rs hos hs
    ⟨(i 0).val - Rd, (by omega : (i 0).val - Rd < 128)⟩ ⟨(i 1).val, (i 1).isLt⟩
    (by show Rs + ((i 0).val - Rd) < 32768; omega)
  have key := View.write_emb_of_mem
    (v := (oM.slice (Rect.unit (s := S65536x1024) offd S128x1024.size hd) (fun _ => rfl)).view) (Val := Val) fd
    ((xM.slice (Rect.unit (s := S32768x1024) offs S128x1024.size hs) (fun _ => rfl)).view.read Val fs)
    (M := Finset.univ)
    (x := Shape.pair (d := ![128, 1024]) ⟨(i 0).val - Rd, (by omega : (i 0).val - Rd < 128)⟩ ⟨(i 1).val, (i 1).isLt⟩)
    (Finset.mem_univ _)
  refine Eq.trans ?_ (key.trans ?_)
  · exact congrArg _ hxd.symm
  · exact congrArg fs hxs

/-! ### The staging buffer -/

/-- The index of the staging buffer at slot `s`, row `r`, column `c`. -/
def vAt (s : Nat) (hs2 : s < 2) (r : Fin 512) (c : Fin 1024) : S2x512x1024.Idx := fun a =>
  ⟨![s, r.val, c.val] a, by
    rcases a with ⟨_ | _ | _ | k, hk⟩
    · exact hs2
    · exact r.isLt
    · exact c.isLt
    · exact absurd hk (by show ¬ (k + 3 < 3); omega)⟩

@[simp] theorem vAt_val_zero (s : Nat) (hs2 : s < 2) (r : Fin 512) (c : Fin 1024) : (vAt s hs2 r c 0).val = s := rfl
@[simp] theorem vAt_val_one (s : Nat) (hs2 : s < 2) (r : Fin 512) (c : Fin 1024) : (vAt s hs2 r c 1).val = r.val := rfl
@[simp] theorem vAt_val_two (s : Nat) (hs2 : s < 2) (r : Fin 512) (c : Fin 1024) : (vAt s hs2 r c 2).val = c.val := rfl

theorem vAt_mem_slot (s : Nat) (hs2 : s < 2) (r : Fin 512) (c : Fin 1024) : vAt s hs2 r c ∈ slot s := by
  rw [slot, Finset.mem_filter]
  exact ⟨Finset.mem_univ _, rfl⟩

/-- Every index of slot `s` is the one at its own row and column. -/
theorem vAt_eq_of_slot (s : Nat) (hs2 : s < 2) (i : S2x512x1024.Idx) (hi : (i 0).val = s) :
    vAt s hs2 ⟨(i 1).val, (i 1).isLt⟩ ⟨(i 2).val, (i 2).isLt⟩ = i := by
  funext a
  apply Fin.ext
  rcases a with ⟨_ | _ | _ | k, hk⟩
  · exact hi.symm
  · rfl
  · rfl
  · exact absurd hk (by show ¬ (k + 3 < 3); omega)

/-- Where the squeezed slot `s` puts its row `r`, column `c`: slot `s`, row `r`, column `c` of the staging buffer. -/
theorem vSlot_emb_pair (s : Nat) (h : ∀ a, (![s, 0, 0] : Fin 3 → Nat) a + S1x512x1024.size a ≤ S2x512x1024.size a)
    (hs2 : s < 2) (r : Fin 512) (c : Fin 1024) :
    ((vM.slice (Rect.unit (s := S2x512x1024) ![s, 0, 0] S1x512x1024.size h) (fun _ => rfl)).squeeze S512x1024
        squeezes_S1x512x1024_S512x1024).view.emb (Shape.pair (d := ![512, 1024]) r c) = vAt s hs2 r c := by
  have e := Shape.reshapeEquiv_cons_one (n := 2) (d := ![512, 1024]) squeezes_S1x512x1024_S512x1024.numel_eq
    (Shape.pair (d := ![512, 1024]) r c)
  show (Rect.unit (s := S2x512x1024) ![s, 0, 0] S1x512x1024.size h).emb
    (Shape.reshapeEquiv squeezes_S1x512x1024_S512x1024.numel_eq (Shape.pair (d := ![512, 1024]) r c)) = _
  rw [e]
  funext a
  apply Fin.ext
  rw [Rect.emb_apply]
  rcases a with ⟨_ | _ | _ | k, hk⟩
  · show s + 1 * 0 = s
    omega
  · show 0 + 1 * r.val = r.val
    omega
  · show 0 + 1 * c.val = c.val
    omega
  · exact absurd hk (by show ¬ (k + 3 < 3); omega)

/-- A piece of 512 rows of the argument block copied into a slot of the staging buffer: the slot's row `i 1`,
    column `i 2` then holds the block's row `Rs + i 1`, column `i 2`. -/
theorem land_x_to_v {Val : EltTy → Type} (offs : Fin 2 → Nat)
    (hs : ∀ a, offs a + S512x1024.size a ≤ S32768x1024.size a)
    (s : Nat) (hd : ∀ a, (![s, 0, 0] : Fin 3 → Nat) a + S1x512x1024.size a ≤ S2x512x1024.size a)
    (Rs : Nat) (hos : offs = ![Rs, 0]) (hRs : Rs + 512 ≤ 32768)
    (fs : S32768x1024.Idx → Val .f32) (fd : S2x512x1024.Idx → Val .f32) (i : S2x512x1024.Idx) (hi : i ∈ slot s) :
    ((vM.slice (Rect.unit (s := S2x512x1024) ![s, 0, 0] S1x512x1024.size hd) (fun _ => rfl)).squeeze S512x1024
        squeezes_S1x512x1024_S512x1024).view.write Val fd
        ((xM.slice (Rect.unit (s := S32768x1024) offs S512x1024.size hs) (fun _ => rfl)).view.read Val fs)
        Finset.univ i
      = fs (Shape.pair (d := ![32768, 1024])
          ⟨Rs + (i 1).val, by have h1 : (i 1).val < 512 := (i 1).isLt; show Rs + (i 1).val < 32768; omega⟩
          ⟨(i 2).val, (i 2).isLt⟩) := by
  have hi0 : (i 0).val = s := by rw [slot, Finset.mem_filter] at hi; exact hi.2
  have h0 : (i 0).val < 2 := (i 0).isLt
  have h1 : (i 1).val < 512 := (i 1).isLt
  have hs2 : s < 2 := by omega
  have hxd := (vSlot_emb_pair s hd hs2 ⟨(i 1).val, (i 1).isLt⟩ ⟨(i 2).val, (i 2).isLt⟩).trans
    (vAt_eq_of_slot s hs2 i hi0)
  have hxs := unit_emb_pair (N := 32768) (C := 1024) (n := 512) offs Rs hos hs
    ⟨(i 1).val, (i 1).isLt⟩ ⟨(i 2).val, (i 2).isLt⟩ (by show Rs + (i 1).val < 32768; omega)
  have key := View.write_emb_of_mem
    (v := ((vM.slice (Rect.unit (s := S2x512x1024) ![s, 0, 0] S1x512x1024.size hd) (fun _ => rfl)).squeeze S512x1024
        squeezes_S1x512x1024_S512x1024).view) (Val := Val) fd
    ((xM.slice (Rect.unit (s := S32768x1024) offs S512x1024.size hs) (fun _ => rfl)).view.read Val fs)
    (M := Finset.univ)
    (x := Shape.pair (d := ![512, 1024]) ⟨(i 1).val, (i 1).isLt⟩ ⟨(i 2).val, (i 2).isLt⟩) (Finset.mem_univ _)
  refine Eq.trans ?_ (key.trans ?_)
  · exact congrArg _ hxd.symm
  · exact congrArg fs hxs

/-- A slot of the staging buffer copied into 512 rows of the result: the result's row `i 0`, column `i 1` then
    holds the slot's row `i 0 - Rd`, column `i 1`. -/
theorem land_v_to_o {Val : EltTy → Type} (s : Nat)
    (hs : ∀ a, (![s, 0, 0] : Fin 3 → Nat) a + S1x512x1024.size a ≤ S2x512x1024.size a) (hs2 : s < 2)
    (offd : Fin 2 → Nat) (hd : ∀ a, offd a + S512x1024.size a ≤ S65536x1024.size a)
    (Rd : Nat) (hod : offd = ![Rd, 0])
    (fv : S2x512x1024.Idx → Val .f32) (fd : S65536x1024.Idx → Val .f32) (i : S65536x1024.Idx) (hi : i ∈ rows Rd 512) :
    (oM.slice (Rect.unit (s := S65536x1024) offd S512x1024.size hd) (fun _ => rfl)).view.write Val fd
        (((vM.slice (Rect.unit (s := S2x512x1024) ![s, 0, 0] S1x512x1024.size hs) (fun _ => rfl)).squeeze S512x1024
          squeezes_S1x512x1024_S512x1024).view.read Val fv)
        Finset.univ i
      = fv (vAt s hs2 ⟨(i 0).val - Rd, by rw [rows, Finset.mem_filter] at hi; omega⟩ ⟨(i 1).val, (i 1).isLt⟩) := by
  have hi' := hi
  rw [rows, Finset.mem_filter] at hi'
  obtain ⟨-, hlo, hhi⟩ := hi'
  have hxd := unit_emb_rows (N := 65536) (C := 1024) (n := 512) offd Rd hod hd i hlo hhi
  have hxs := vSlot_emb_pair s hs hs2 ⟨(i 0).val - Rd, (by omega : (i 0).val - Rd < 512)⟩ ⟨(i 1).val, (i 1).isLt⟩
  have key := View.write_emb_of_mem
    (v := (oM.slice (Rect.unit (s := S65536x1024) offd S512x1024.size hd) (fun _ => rfl)).view) (Val := Val) fd
    (((vM.slice (Rect.unit (s := S2x512x1024) ![s, 0, 0] S1x512x1024.size hs) (fun _ => rfl)).squeeze S512x1024
          squeezes_S1x512x1024_S512x1024).view.read Val fv)
    (M := Finset.univ)
    (x := Shape.pair (d := ![512, 1024]) ⟨(i 0).val - Rd, (by omega : (i 0).val - Rd < 512)⟩ ⟨(i 1).val, (i 1).isLt⟩)
    (Finset.mem_univ _)
  refine Eq.trans ?_ (key.trans ?_)
  · exact congrArg _ hxd.symm
  · exact congrArg fv hxs

/-- info: 'Cert.KernelIdeal.AG.land_o_to_o' depends on axioms: [propext, Classical.choice, Quot.sound] -/
#guard_msgs in #print axioms land_o_to_o

/-- info: 'Cert.KernelIdeal.AG.land_x_to_o' depends on axioms: [propext, Classical.choice, Quot.sound] -/
#guard_msgs in #print axioms land_x_to_o

/-- info: 'Cert.KernelIdeal.AG.land_x_to_v' depends on axioms: [propext, Classical.choice, Quot.sound] -/
#guard_msgs in #print axioms land_x_to_v

/-- info: 'Cert.KernelIdeal.AG.land_v_to_o' depends on axioms: [propext, Classical.choice, Quot.sound] -/
#guard_msgs in #print axioms land_v_to_o

end Cert.KernelIdeal.AG

end
-- ==== Proof.Routes.lean ====
/-
  The routes of the all-gather, as pure facts about row numbers and about the gathered result.

  Every chunk of a device's result array is named twice: by the device that sends it, through the sender's plane and
  ring position, and by the device that receives it, through its own. This module shows that the two names are the same
  rows, that every chunk lies inside its array, that on the rows of each chunk the receiver's gathered result is
  what the sender holds there (its own argument block for the first hop, its own gathered result for a forward or a
  relay), and that the chunks of one device cover its whole result array.
-/
import proofs.«900672_g7700000000000673_dist_ag_v7x_xyz2x2x2_z_m32768_n1024_f32_1_alg».proof.Proof.Cells

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## Bounds: every chunk lies inside its array -/

theorem rowZS_le (d : Dev nD) (i : Nat) (h : i < 84) : rowZS d i + 128 ≤ 32768 := by
  have hr := (rpos d).isLt
  unfold rowZS qrow
  split_ifs <;> omega

theorem rowZR_le (d : Dev nD) (i : Nat) (h : i < 84) : rowZR d i + 128 ≤ 65536 := by
  have hs := rowZS_le d i h
  have hz := (zc d).isLt
  unfold rowZR fbase
  omega

theorem rowH1P_le (d : Dev nD) (i : Nat) (h : i < 64) : rowH1P d i + 128 ≤ 65536 := by
  have hr := (rpos d).isLt
  have hz := (zc d).isLt
  unfold rowH1P fbase qrow
  omega

theorem rowH1N_le (d : Dev nD) (i : Nat) (h : i < 64) : rowH1N d i + 128 ≤ 65536 := by
  have hr := (rpos d).isLt
  have hz := (zc d).isLt
  unfold rowH1N fbase qrow
  omega

theorem rowH2P_le (d : Dev nD) (j : Nat) (h : j < 22) : rowH2P d j + 128 ≤ 65536 := by
  have hr := (rpos d).isLt
  have hz := (zc d).isLt
  unfold rowH2P fbase qrow
  omega

theorem rowH2N_le (d : Dev nD) (j : Nat) (h : j < 22) : rowH2N d j + 128 ≤ 65536 := by
  have hr := (rpos d).isLt
  have hz := (zc d).isLt
  unfold rowH2N fbase qrow
  omega

theorem rowOwn_le (d : Dev nD) (k : Nat) (h : k < 64) : rowOwn d k + 512 ≤ 65536 := by
  have hz := (zc d).isLt
  unfold rowOwn mbase
  omega

/-! ## The same rows, named from both ends of a copy

The sender names a chunk through its own plane and ring position, the receiver through its own. A step to the z-peer
swaps the two halves and keeps the ring position; a step along the ring keeps the half and moves the position by one,
so a quarter `k` steps round from the receiver is the quarter `k ± 1` steps round from the sender. -/

theorem rowZR_zpeer (c : Dev nD) (i : Nat) : rowZR (zpeer c) i = mbase c + rowZS c i := by
  have hz := (zc c).isLt
  unfold rowZR rowZS fbase mbase qrow
  rw [zc_zpeer, rpos_zpeer]
  split_ifs <;> omega

theorem rowH1P_nxt (c : Dev nD) (a : Nat) (h : a < 64) : rowH1P (nxt c) a = rowZR c a := by
  have hr := (rpos c).isLt
  unfold rowH1P rowZR rowZS fbase qrow
  rw [zc_nxt, rpos_nxt, if_pos h]
  omega

theorem rowH1N_prv (c : Dev nD) (a : Nat) (h : a < 64) : rowH1N (prv c) a = rowZR c a := by
  have hr := (rpos c).isLt
  unfold rowH1N rowZR rowZS fbase qrow
  rw [zc_prv, rpos_prv, if_pos h]
  omega

theorem rowH2P_nxt (c : Dev nD) (j : Nat) : rowH2P (nxt c) j = rowH1P c j := by
  have hr := (rpos c).isLt
  unfold rowH2P rowH1P fbase qrow
  rw [zc_nxt, rpos_nxt]
  omega

theorem rowH2N_prv (c : Dev nD) (j : Nat) : rowH2N (prv c) j = rowH1N c (22 + j) := by
  have hr := (rpos c).isLt
  unfold rowH2N rowH1N fbase qrow
  rw [zc_prv, rpos_prv]
  omega

/-! ## Membership, spelt out -/

theorem mem_rows {R n : Nat} {i : S65536x1024.Idx} : i ∈ rows R n ↔ R ≤ (i 0).val ∧ (i 0).val < R + n := by
  unfold rows
  simp only [Finset.mem_filter, Finset.mem_univ, true_and]

theorem mem_xrows {R n : Nat} {i : S32768x1024.Idx} : i ∈ xrows R n ↔ R ≤ (i 0).val ∧ (i 0).val < R + n := by
  unfold xrows
  simp only [Finset.mem_filter, Finset.mem_univ, true_and]

theorem rowIn_val0 (i : S65536x1024.Idx) : ((rowIn i) 0).val = (i 0).val % 32768 := rfl

theorem rowIn_val1 (i : S65536x1024.Idx) : ((rowIn i) 1).val = (i 1).val := rfl

/-! ## The gathered result, by the half a row lies in -/

/-- In the device's own half the gathered result is its own block. -/
private theorem goal_mine (c : Dev nD) (i : S65536x1024.Idx) (h : (i 0).val / 32768 = (zc c).val) :
    goal m c i = xs m c (rowIn i) := if_pos h

/-- In the other half it is the block of the device the row's chunk came from. -/
private theorem goal_other (c : Dev nD) (i : S65536x1024.Idx) (h : (i 0).val / 32768 ≠ (zc c).val) :
    goal m c i = xs m (srcDev c ((i 0).val % 32768)) (rowIn i) := if_neg h

/-! ## The source of a row, by its quarter and its chunk

A row `t` of the other half lies in quarter `t / 8192` and, inside it, in chunk `t % 8192 / 128`. The quarters are
named by how many steps round the ring they are from the device's own position `r`: `r`, `r + 3` (one step back),
`r + 1`, and `r + 2` (opposite), all modulo 4 and therefore pairwise different. -/

private theorem srcDev_q0 (c : Dev nD) (t : Nat) (h : t / 8192 = (rpos c).val) : srcDev c t = zpeer c := if_pos h

private theorem srcDev_q3 (c : Dev nD) (t : Nat) (h : t / 8192 = ((rpos c).val + 3) % 4) : srcDev c t = zpeer (prv c) := by
  have hr := (rpos c).isLt
  unfold srcDev
  rw [if_neg (by omega), if_pos h]

private theorem srcDev_q1 (c : Dev nD) (t : Nat) (h : t / 8192 = ((rpos c).val + 1) % 4) : srcDev c t = zpeer (nxt c) := by
  have hr := (rpos c).isLt
  unfold srcDev
  rw [if_neg (by omega), if_neg (by omega), if_pos h]

private theorem srcDev_q2_lo (c : Dev nD) (t : Nat) (h : t / 8192 = ((rpos c).val + 2) % 4) (hc : t % 8192 / 128 < 22) :
    srcDev c t = zpeer (prv (prv c)) := by
  have hr := (rpos c).isLt
  unfold srcDev
  rw [if_neg (by omega), if_neg (by omega), if_neg (by omega), if_pos hc]

private theorem srcDev_q2_mid (c : Dev nD) (t : Nat) (h : t / 8192 = ((rpos c).val + 2) % 4)
    (hc : 22 ≤ t % 8192 / 128) (hc' : t % 8192 / 128 < 44) : srcDev c t = zpeer (nxt (nxt c)) := by
  have hr := (rpos c).isLt
  unfold srcDev
  rw [if_neg (by omega), if_neg (by omega), if_neg (by omega), if_neg (by omega), if_pos hc']

private theorem srcDev_q2_hi (c : Dev nD) (t : Nat) (h : t / 8192 = ((rpos c).val + 2) % 4) (hc : 44 ≤ t % 8192 / 128) :
    srcDev c t = zpeer c := by
  have hr := (rpos c).isLt
  unfold srcDev
  rw [if_neg (by omega), if_neg (by omega), if_neg (by omega), if_neg (by omega), if_neg (by omega)]

/-! ## What the gathered result is on each kind of chunk -/

/-- A local copy writes rows of the device's own half: there the result is the device's own block. -/
theorem goal_own (c : Dev nD) (k : Nat) (hk : k < 64) (i : S65536x1024.Idx) (hi : i ∈ rows (rowOwn c k) 512) :
    goal m c i = m ((c : Thread nD τ).loc main_arg0) (rowIn i) := by
  rw [mem_rows] at hi
  unfold rowOwn mbase at hi
  have hz := (zc c).isLt
  exact goal_mine m c i (by omega)

/-- A copy to the z-peer lands in the half the z-peer does not own, in the quarter of the common ring position (or in
    the last 20 chunks of the opposite quarter): there the z-peer's result is the sender's block. -/
theorem goal_z (c : Dev nD) (k : Nat) (hk : k < 84) (i : S65536x1024.Idx) (hi : i ∈ rows (rowZR (zpeer c) k) 128) :
    goal m (zpeer c) i = m ((c : Thread nD τ).loc main_arg0) (rowIn i) := by
  rw [mem_rows, rowZR_zpeer] at hi
  have hle := rowZS_le c k hk
  have hz := (zc c).isLt
  have hr := (rpos c).isLt
  have hzp := zc_zpeer c
  have hhalf : (i 0).val / 32768 ≠ (zc (zpeer c)).val := by
    unfold mbase at hi; omega
  rw [goal_other m (zpeer c) i hhalf]
  have hsrc : srcDev (zpeer c) ((i 0).val % 32768) = c := by
    unfold mbase rowZS qrow at hi
    unfold rowZS qrow at hle
    by_cases h64 : k < 64
    · rw [if_pos h64] at hi hle
      rw [srcDev_q0 (zpeer c) _ (by rw [rpos_zpeer]; omega), zpeer_zpeer]
    · rw [if_neg h64] at hi hle
      rw [srcDev_q2_hi (zpeer c) _ (by rw [rpos_zpeer]; omega) (by omega), zpeer_zpeer]
  rw [hsrc]

/-- A forward to the next ring device carries a chunk of the sender's own quarter; for the receiver that is the quarter one
    step back, whose source is the z-peer of the previous device: the sender's own source. -/
theorem goal_fwd_nxt (c : Dev nD) (a : Nat) (ha : a < 64) (i : S65536x1024.Idx) (hi : i ∈ rows (rowZR c a) 128) :
    goal m (nxt c) i = goal m c i := by
  rw [mem_rows] at hi
  have hle := rowZR_le c a (by omega)
  unfold rowZR rowZS fbase qrow at hi hle
  rw [if_pos ha] at hi hle
  have hz := (zc c).isLt
  have hr := (rpos c).isLt
  have hn := rpos_nxt c
  rw [goal_other m c i (by omega), goal_other m (nxt c) i (by rw [zc_nxt]; omega),
    srcDev_q0 c _ (by omega), srcDev_q3 (nxt c) _ (by omega), prv_nxt]

/-- A forward to the previous ring device: for the receiver the chunk lies in the quarter one step forward. -/
theorem goal_fwd_prv (c : Dev nD) (a : Nat) (ha : a < 64) (i : S65536x1024.Idx) (hi : i ∈ rows (rowZR c a) 128) :
    goal m (prv c) i = goal m c i := by
  rw [mem_rows] at hi
  have hle := rowZR_le c a (by omega)
  unfold rowZR rowZS fbase qrow at hi hle
  rw [if_pos ha] at hi hle
  have hz := (zc c).isLt
  have hr := (rpos c).isLt
  have hn := rpos_prv c
  rw [goal_other m c i (by omega), goal_other m (prv c) i (by rw [zc_prv]; omega),
    srcDev_q0 c _ (by omega), srcDev_q1 (prv c) _ (by omega), nxt_prv]

/-- A relay to the next ring device carries one of the first 22 chunks of the quarter one step back from the sender; for the
    receiver that is the opposite quarter, whose first 22 chunks come from two steps back. -/
theorem goal_relay_nxt (c : Dev nD) (j : Nat) (hj : j < 22) (i : S65536x1024.Idx) (hi : i ∈ rows (rowH1P c j) 128) :
    goal m (nxt c) i = goal m c i := by
  rw [mem_rows] at hi
  have hle := rowH1P_le c j (by omega)
  unfold rowH1P fbase qrow at hi hle
  have hz := (zc c).isLt
  have hr := (rpos c).isLt
  have hn := rpos_nxt c
  rw [goal_other m c i (by omega), goal_other m (nxt c) i (by rw [zc_nxt]; omega),
    srcDev_q3 c _ (by omega), srcDev_q2_lo (nxt c) _ (by omega) (by omega), prv_nxt]

/-- A relay to the previous ring device carries one of chunks 22 … 43 of the quarter one step forward from the sender; for
    the receiver that is the opposite quarter, whose chunks 22 … 43 come from two steps forward. -/
theorem goal_relay_prv (c : Dev nD) (j : Nat) (hj : j < 22) (i : S65536x1024.Idx) (hi : i ∈ rows (rowH1N c (22 + j)) 128) :
    goal m (prv c) i = goal m c i := by
  rw [mem_rows] at hi
  have hle := rowH1N_le c (22 + j) (by omega)
  unfold rowH1N fbase qrow at hi hle
  have hz := (zc c).isLt
  have hr := (rpos c).isLt
  have hn := rpos_prv c
  rw [goal_other m c i (by omega), goal_other m (prv c) i (by rw [zc_prv]; omega),
    srcDev_q1 c _ (by omega), srcDev_q2_mid (prv c) _ (by omega) (by omega) (by omega), nxt_prv]

/-! ## The chunks cover the array

A row of the device's own half lies in one of the 64 local copies. A row of the other half lies in one of four quarters,
and in it in one of 64 chunks: the quarter of the device's own position came from the z-peer, the quarters one step back
and one step forward from the ring neighbours' forwards, and the opposite quarter from the two relays (22 chunks each)
and the z-peer's last 20 copies. -/

theorem cover (c : Dev nD) (i : S65536x1024.Idx) :
    (∃ k, k < 64 ∧ i ∈ rows (rowOwn c k) 512) ∨ (∃ a, a < 84 ∧ i ∈ rows (rowZR c a) 128) ∨ (∃ a, a < 64 ∧ i ∈ rows (rowH1P c a) 128)
      ∨ (∃ a, a < 64 ∧ i ∈ rows (rowH1N c a) 128) ∨ (∃ j, j < 22 ∧ i ∈ rows (rowH2P c j) 128) ∨ (∃ j, j < 22 ∧ i ∈ rows (rowH2N c j) 128) := by
  have h0 : (i 0).val < 65536 := (i 0).isLt
  have hz := (zc c).isLt
  have hr := (rpos c).isLt
  simp only [mem_rows]
  unfold rowOwn rowZR rowZS rowH1P rowH1N rowH2P rowH2N fbase mbase qrow
  -- the device's own half: one of the 64 local copies
  by_cases hh : (i 0).val / 32768 = (zc c).val
  · exact Or.inl ⟨(i 0).val % 32768 / 512, by omega, by omega, by omega⟩
  -- the other half, the quarter of the device's own ring position: the z-peer's first 64 copies
  by_cases q0 : (i 0).val % 32768 / 8192 = (rpos c).val
  · refine Or.inr (Or.inl ⟨(i 0).val % 8192 / 128, by omega, ?_⟩)
    rw [if_pos (by omega)]
    constructor <;> omega
  -- one step back: the previous device's forwards
  by_cases q3 : (i 0).val % 32768 / 8192 = ((rpos c).val + 3) % 4
  · exact Or.inr (Or.inr (Or.inl ⟨(i 0).val % 8192 / 128, by omega, by omega, by omega⟩))
  -- one step forward: the next device's forwards
  by_cases q1 : (i 0).val % 32768 / 8192 = ((rpos c).val + 1) % 4
  · exact Or.inr (Or.inr (Or.inr (Or.inl ⟨(i 0).val % 8192 / 128, by omega, by omega, by omega⟩)))
  -- the opposite quarter, by chunk: two relays of 22 chunks, then the z-peer's last 20 copies
  have q2 : (i 0).val % 32768 / 8192 = ((rpos c).val + 2) % 4 := by omega
  by_cases c22 : (i 0).val % 8192 / 128 < 22
  · exact Or.inr (Or.inr (Or.inr (Or.inr (Or.inl ⟨(i 0).val % 8192 / 128, c22, by omega, by omega⟩))))
  by_cases c44 : (i 0).val % 8192 / 128 < 44
  · exact Or.inr (Or.inr (Or.inr (Or.inr (Or.inr ⟨(i 0).val % 8192 / 128 - 22, by omega, by omega, by omega⟩))))
  · refine Or.inr (Or.inl ⟨64 + ((i 0).val % 8192 / 128 - 44), by omega, ?_⟩)
    rw [if_neg (by omega)]
    constructor <;> omega

/-- info: 'Cert.KernelIdeal.AG.goal_relay_prv' depends on axioms: [propext, Classical.choice, Quot.sound] -/
#guard_msgs in #print axioms goal_relay_prv

/-- info: 'Cert.KernelIdeal.AG.cover' depends on axioms: [propext, Classical.choice, Quot.sound] -/
#guard_msgs in #print axioms cover

end Cert.KernelIdeal.AG

end
-- ==== Proof.Entry.lean ====
/-
  Entering the body: the two arrays are cut into the chunks the state holds them by, the launch credit lands on the receive cells, the dealt ghost state fills the state's intervals, the staging buffer is its two slots.
-/
import proofs.«900672_g7700000000000673_dist_ag_v7x_xyz2x2x2_z_m32768_n1024_f32_1_alg».proof.Proof.LaunchDefs
import proofs.«900672_g7700000000000673_dist_ag_v7x_xyz2x2x2_z_m32768_n1024_f32_1_alg».proof.Proof.Creds
import proofs.«900672_g7700000000000673_dist_ag_v7x_xyz2x2x2_z_m32768_n1024_f32_1_alg».proof.Proof.Sets
import proofs.«900672_g7700000000000673_dist_ag_v7x_xyz2x2x2_z_m32768_n1024_f32_1_alg».proof.Proof.Routes

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Intervals -/

/-- An interval shifted: indices `a + lo … a + hi` are `a +` the indices `lo … hi`. -/
private theorem seg_shift (a n : Nat) (Φ : Nat → sProp 𝕄) : seg a (a + n) Φ = seg 0 n fun i => Φ (a + i) := by
  induction n with
  | zero => rw [seg_empty (show a + 0 ≤ a from le_refl _), seg_empty (le_refl 0)]
  | succ n ih =>
    rw [show a + (n + 1) = a + n + 1 from rfl, seg_push (Nat.le_add_right a n), seg_push (Nat.zero_le n), ih]

/-- The interval `a … b` of length `n`, counted from `a`. -/
private theorem seg_at (a n b : Nat) (h : a + n = b) (Φ : Nat → sProp 𝕄) : seg a b Φ = seg 0 n fun i => Φ (a + i) := by
  subst h
  exact seg_shift a n Φ

/-- Nothing is held over an empty interval. -/
private theorem emp_seg {lo hi : Nat} (h : hi ≤ lo) (Φ : Nat → sProp 𝕄) : (emp : sProp 𝕄) ⊢ seg lo hi Φ :=
  Entails.of_eq (seg_empty h Φ).symm

/-! ## The positions of a device's 517 cells, by cell number -/

private theorem cellOpt_injOn :
    Set.InjOn (fun n : Nat => (some ⟨n % 516, Nat.mod_lt _ (by decide)⟩ : Option (DmaSem sig))) (Finset.Ico 0 516 : Finset Nat) := by
  intro a ha b hb h
  have h1 : a % 516 = b % 516 := congrArg Fin.val (Option.some.inj h)
  rw [Finset.mem_coe, Finset.mem_Ico] at ha hb
  omega

/-- The device's positions: its barrier cell's and its 516 DMA cells' in the order of their numbers. -/
private theorem pos_cut (c : Dev nD) :
    (bigSep Finset.univ fun o : Option (DmaSem sig) => (atPos ER (kcell (c, o)) 0 ∅ 0 : sProp 𝕄))
      ⊢ iprop(atPos ER (barCell c) 0 ∅ 0 ∗ seg 0 516 fun n => atPos ER (dcn c n) 0 ∅ 0) := by
  rw [bigSep_univ_at _ (none : Option (DmaSem sig))]
  refine sep_mono_right ?_
  have h2 : (seg 0 516 fun n => atPos ER (dcn c n) 0 ∅ 0 : sProp 𝕄)
      = bigSep ((Finset.Ico 0 516).image fun n : Nat => (some ⟨n % 516, Nat.mod_lt _ (by decide)⟩ : Option (DmaSem sig)))
          (fun o => atPos ER (kcell (c, o)) 0 ∅ 0) := by
    rw [bigSep_image_of_injOn cellOpt_injOn]
    rfl
  rw [h2]
  refine bigSep_subset fun o ho => ?_
  obtain ⟨n, -, rfl⟩ := Finset.mem_image.mp ho
  exact Finset.mem_erase.mpr ⟨Option.some_ne_none _, Finset.mem_univ _⟩

/-- The 516 positions, family by family. -/
private theorem pos_fams (Φ : Nat → sProp 𝕄) :
    seg 0 516 Φ = iprop(seg 0 4 Φ ∗ (seg 0 84 fun i => Φ (4 + i)) ∗ (seg 0 64 fun i => Φ (88 + i)) ∗ (seg 0 20 fun i => Φ (152 + i))
      ∗ (seg 0 64 fun i => Φ (172 + i)) ∗ (seg 0 64 fun i => Φ (236 + i)) ∗ (seg 0 64 fun i => Φ (300 + i)) ∗ (seg 0 64 fun i => Φ (364 + i))
      ∗ (seg 0 22 fun i => Φ (428 + i)) ∗ (seg 0 22 fun i => Φ (450 + i)) ∗ (seg 0 22 fun i => Φ (472 + i)) ∗ (seg 0 22 fun i => Φ (494 + i))) := by
  rw [seg_split (show 0 ≤ 4 by decide) (show 4 ≤ 516 by decide) Φ, seg_split (show 4 ≤ 88 by decide) (show 88 ≤ 516 by decide) Φ,
    seg_split (show 88 ≤ 152 by decide) (show 152 ≤ 516 by decide) Φ, seg_split (show 152 ≤ 172 by decide) (show 172 ≤ 516 by decide) Φ,
    seg_split (show 172 ≤ 236 by decide) (show 236 ≤ 516 by decide) Φ, seg_split (show 236 ≤ 300 by decide) (show 300 ≤ 516 by decide) Φ,
    seg_split (show 300 ≤ 364 by decide) (show 364 ≤ 516 by decide) Φ, seg_split (show 364 ≤ 428 by decide) (show 428 ≤ 516 by decide) Φ,
    seg_split (show 428 ≤ 450 by decide) (show 450 ≤ 516 by decide) Φ, seg_split (show 450 ≤ 472 by decide) (show 472 ≤ 516 by decide) Φ,
    seg_split (show 472 ≤ 494 by decide) (show 494 ≤ 516 by decide) Φ,
    seg_at 4 84 88 rfl Φ, seg_at 88 64 152 rfl Φ, seg_at 152 20 172 rfl Φ, seg_at 172 64 236 rfl Φ, seg_at 236 64 300 rfl Φ, seg_at 300 64 364 rfl Φ,
    seg_at 364 64 428 rfl Φ, seg_at 428 22 450 rfl Φ, seg_at 450 22 472 rfl Φ, seg_at 472 22 494 rfl Φ, seg_at 494 22 516 rfl Φ]

/-- A local cell before any wait: at round 0, which it has reached. -/
private theorem locPos_start (g : GSem nD τ sig) (s : Nat) (hs : s < 2) :
    iprop(atPos ER g 0 ∅ 0 ∗ reached ER g 0) ⊢ (locPos g s 0 : sProp 𝕄) := by
  have h0 : (0 + 1 - s) / 2 = 0 := by omega
  unfold locPos
  rw [h0, if_pos (by decide)]

/-- The two slots of the staging buffer, as the state lists them. -/
private theorem slots_start (c : Dev nD) :
    iprop(slotAny (F := F) c 0 ∗ slotAny (F := F) c 1) ⊢ seg 0 (0 + 2) fun k => slotAny (F := F) c (k % 2) := by
  rw [show (0 + 2 : Nat) = 2 from rfl, seg_pop (show 0 < 2 by decide), seg_pop (show 0 + 1 < 2 by decide), seg_empty (show 2 ≤ 0 + 1 + 1 by decide)]
  iintro ⟨H0, H1⟩
  isplitl [H0]; · iexact H0
  isplitl [H1]; · iexact H1
  iempintro

/-! ## Cutting an array into pairwise disjoint ranges of rows -/

private theorem seg_mono {lo hi : Nat} {Φ Ψ : Nat → sProp 𝕄} (h : ∀ i, lo ≤ i → i < hi → Φ i ⊢ Ψ i) : seg lo hi Φ ⊢ seg lo hi Ψ := by
  have h2 : bigSep (Finset.Ico lo hi) Φ ⊢ bigSep (Finset.Ico lo hi) Ψ :=
    bigSep_mono fun i hi => h i (Finset.mem_Ico.mp hi).1 (Finset.mem_Ico.mp hi).2
  exact h2

/-- A whole buffer, cut into the first `n` of a family of pairwise disjoint sets of elements (what the sets leave is dropped). -/
private theorem pointsTo_cut (ℓ : Loc nD τ sig) (q : PosShare TreeShare) (f : Buf (Elt F) ℓ) (n : Nat) (K : Nat → Finset (Idx ℓ))
    (h : ∀ t < n, ∀ t' < n, t ≠ t' → Disjoint (K t) (K t')) :
    (ℓ ↦{q} f : sProp 𝕄) ⊢ seg 0 n fun t => ℓ ↦[K t]{q} f := by
  have h1 : (ℓ ↦{q} f : sProp 𝕄) ⊢ ℓ ↦[(Finset.Ico 0 n).biUnion K]{q} f := by
    iintro H
    ihave H2 := (pointsTo_split_subset (I := (Finset.Ico 0 n).biUnion K) (Finset.subset_univ _)).1 $$ H
    icases H2 with ⟨H3, -⟩
    iexact H3
  refine h1.trans (Entails.of_eq ?_)
  rw [pointsTo_biUnion (Finset.Ico 0 n) K fun t ht t' ht' hne => h t (Finset.mem_Ico.mp ht).2 t' (Finset.mem_Ico.mp ht').2 hne]
  rfl

private theorem xrows_disj {R n R' n' : Nat} (h : R + n ≤ R' ∨ R' + n' ≤ R) : Disjoint (xrows R n) (xrows R' n') := by
  rw [Finset.disjoint_left]
  intro i h1 h2
  rw [mem_xrows] at h1 h2
  omega

private theorem rows_disj {R n R' n' : Nat} (h : R + n ≤ R' ∨ R' + n' ≤ R) : Disjoint (rows R n) (rows R' n') := by
  rw [Finset.disjoint_left]
  intro i h1 h2
  rw [mem_rows] at h1 h2
  omega

/-- The argument block as the state holds it: the left half by the 84 chunks sent to the z-peer, the right half by the 64
    pieces of the local copies. -/
private def XCut (c : Dev nD) : sProp 𝕄 :=
  iprop((seg 0 84 fun i => xAt m fullShare.left c (xrows (rowZS c i) 128)) ∗ (seg 0 64 fun k => xAt m fullShare.right c (xrows (512 * k) 512)))

private theorem x_cut (c : Dev nD) :
    ((((c : Thread nD τ).loc main_arg0) ↦{fullShare} m ((c : Thread nD τ).loc main_arg0)) : sProp 𝕄) ⊢ XCut m c := by
  have hr : (rpos c).val < 4 := (rpos c).isLt
  unfold XCut
  refine (pointsTo_share (PosShare.mem_left_op_right fullShare)).1.trans (BIClass.sep_mono ?_ ?_)
  · refine pointsTo_cut ((c : Thread nD τ).loc main_arg0) fullShare.left (m ((c : Thread nD τ).loc main_arg0)) 84 (fun i => xrows (rowZS c i) 128)
      fun t ht t' ht' hne => xrows_disj ?_
    unfold rowZS qrow
    split_ifs <;> omega
  · exact pointsTo_cut ((c : Thread nD τ).loc main_arg0) fullShare.right (m ((c : Thread nD τ).loc main_arg0)) 64 (fun k => xrows (512 * k) 512)
      fun t ht t' ht' hne => xrows_disj (by omega)

/-- The result array's rows, family by family: the 64 pieces of the device's own half, then the chunks the z-peer, the
    previous and the next ring device will write. -/
private def oRow (c : Dev nD) (t : Nat) : Nat :=
  if t < 64 then rowOwn c t else if t < 148 then rowZR c (t - 64) else if t < 212 then rowH1N c (t - 148)
  else if t < 234 then rowH2N c (t - 212) else if t < 298 then rowH1P c (t - 234) else rowH2P c (t - 298)
private def oWid (t : Nat) : Nat := if t < 64 then 512 else 128

private theorem oRow_disj (c : Dev nD) (t : Nat) (ht : t < 320) (t' : Nat) (ht' : t' < 320) (hne : t ≠ t') :
    oRow c t + oWid t ≤ oRow c t' ∨ oRow c t' + oWid t' ≤ oRow c t := by
  have hr : (rpos c).val < 4 := (rpos c).isLt
  have hz : (zc c).val < 2 := (zc c).isLt
  unfold oRow oWid rowOwn rowZR rowZS rowH1N rowH2N rowH1P rowH2P fbase mbase qrow
  split_ifs <;> omega

private theorem myLend_0 (c : Dev nD) : myLend (F := F) c 0 = seg 0 84 fun i => lentOn (F := F) c (rows (rowZR c i) 128) := by
  unfold myLend; exact if_pos rfl
private theorem myLend_1 (c : Dev nD) : myLend (F := F) c 1
    = iprop((seg 0 64 fun i => lentOn (F := F) c (rows (rowH1N c i) 128)) ∗ seg 0 22 fun j => lentOn (F := F) c (rows (rowH2N c j) 128)) := by
  unfold myLend; rw [if_neg (by decide), if_pos rfl]
private theorem myLend_2 (c : Dev nD) : myLend (F := F) c 2
    = iprop((seg 0 64 fun i => lentOn (F := F) c (rows (rowH1P c i) 128)) ∗ seg 0 22 fun j => lentOn (F := F) c (rows (rowH2P c j) 128)) := by
  unfold myLend; rw [if_neg (by decide), if_neg (by decide)]

/-- One family of the cut result array, lent: at whatever it holds. -/
private theorem lend_piece (c : Dev nD) (a n w : Nat) (R : Nat → Nat) (h : ∀ i < n, oRow c (a + i) = R i ∧ oWid (a + i) = w) :
    (seg 0 n fun i => ((((c : Thread nD τ).loc main_v1) ↦[rows (oRow c (a + i)) (oWid (a + i))]{fullShare} m ((c : Thread nD τ).loc main_v1)) : sProp 𝕄))
      ⊢ seg 0 n fun i => lentOn (F := F) c (rows (R i) w) := by
  refine seg_mono fun i _ hi => ?_
  rw [(h i hi).1, (h i hi).2]
  unfold lentOn
  iintro H
  iexists _
  iexact H

/-- The result array as the state holds it at the start: the 64 pieces of the device's own half and the 256 chunks it lends the
    three devices that will write them. -/
private def OCut (c : Dev nD) : sProp 𝕄 :=
  iprop((seg 0 64 fun k => lentOn (F := F) c (rows (rowOwn c k) 512)) ∗ myLend (F := F) c 0 ∗ myLend (F := F) c 1 ∗ myLend (F := F) c 2)

private theorem o_cut (c : Dev nD) :
    ((((c : Thread nD τ).loc main_v1) ↦{fullShare} m ((c : Thread nD τ).loc main_v1)) : sProp 𝕄) ⊢ OCut (F := F) c := by
  unfold OCut
  refine (pointsTo_cut ((c : Thread nD τ).loc main_v1) fullShare (m ((c : Thread nD τ).loc main_v1)) 320 (fun t => rows (oRow c t) (oWid t))
    fun t ht t' ht' hne => rows_disj (oRow_disj c t ht t' ht' hne)).trans ?_
  rw [seg_split (show 0 ≤ 64 by decide) (show 64 ≤ 320 by decide), seg_split (show 64 ≤ 148 by decide) (show 148 ≤ 320 by decide),
    seg_split (show 148 ≤ 212 by decide) (show 212 ≤ 320 by decide), seg_split (show 212 ≤ 234 by decide) (show 234 ≤ 320 by decide),
    seg_split (show 234 ≤ 298 by decide) (show 298 ≤ 320 by decide),
    seg_at 0 64 64 rfl, seg_at 64 84 148 rfl, seg_at 148 64 212 rfl, seg_at 212 22 234 rfl, seg_at 234 64 298 rfl, seg_at 298 22 320 rfl,
    myLend_0, myLend_1, myLend_2]
  iintro ⟨H0, H1, H2, H3, H4, H5⟩
  isplitl [H0]
  · iapply (lend_piece m c 0 64 512 (rowOwn c) fun i hi => ⟨by unfold oRow; rw [if_pos (by omega), Nat.zero_add], by unfold oWid; rw [if_pos (by omega)]⟩) $$ H0
  isplitl [H1]
  · iapply (lend_piece m c 64 84 128 (rowZR c) fun i hi =>
      ⟨by unfold oRow; rw [if_neg (by omega), if_pos (by omega), Nat.add_sub_cancel_left], by unfold oWid; rw [if_neg (by omega)]⟩) $$ H1
  isplitl [H2 H3]
  · isplitl [H2]
    · iapply (lend_piece m c 148 64 128 (rowH1N c) fun i hi =>
        ⟨by unfold oRow; rw [if_neg (by omega), if_neg (by omega), if_pos (by omega), Nat.add_sub_cancel_left], by unfold oWid; rw [if_neg (by omega)]⟩) $$ H2
    · iapply (lend_piece m c 212 22 128 (rowH2N c) fun i hi =>
        ⟨by unfold oRow; rw [if_neg (by omega), if_neg (by omega), if_neg (by omega), if_pos (by omega), Nat.add_sub_cancel_left], by unfold oWid; rw [if_neg (by omega)]⟩) $$ H3
  · isplitl [H4]
    · iapply (lend_piece m c 234 64 128 (rowH1P c) fun i hi =>
        ⟨by unfold oRow; rw [if_neg (by omega), if_neg (by omega), if_neg (by omega), if_neg (by omega), if_pos (by omega), Nat.add_sub_cancel_left], by unfold oWid; rw [if_neg (by omega)]⟩) $$ H4
    · iapply (lend_piece m c 298 22 128 (rowH2P c) fun i hi =>
        ⟨by unfold oRow; rw [if_neg (by omega), if_neg (by omega), if_neg (by omega), if_neg (by omega), if_neg (by omega), Nat.add_sub_cancel_left], by unfold oWid; rw [if_neg (by omega)]⟩) $$ H5

/- From here on an interval is compared by its bounds and its body only. -/
attribute [local irreducible] seg

/-! ## Entering the body -/

private theorem seg_pair {lo hi : Nat} (Φ Ψ : Nat → sProp 𝕄) : iprop(seg lo hi Φ ∗ seg lo hi Ψ) ⊢ seg lo hi fun i => iprop(Φ i ∗ Ψ i) :=
  Entails.of_eq (seg_sep Φ Ψ).symm

private theorem seg3 (Φ : Nat → sProp 𝕄) : seg 0 3 Φ = iprop(Φ 0 ∗ Φ 1 ∗ Φ 2 ∗ emp) := by
  rw [seg_pop (show 0 < 3 by decide), seg_pop (show 0 + 1 < 3 by decide), seg_pop (show 0 + 1 + 1 < 3 by decide),
    seg_empty (show 3 ≤ 0 + 1 + 1 + 1 by decide)]

/-- Three tokens and three loans, paired. Nothing here depends on what they are. -/
private theorem pair3 (T0 T1 T2 Z L0 L1 L2 : sProp 𝕄) :
    iprop((T0 ∗ T1 ∗ T2 ∗ Z) ∗ L0 ∗ L1 ∗ L2) ⊢ iprop((T0 ∗ L0) ∗ (T1 ∗ L1) ∗ (T2 ∗ L2) ∗ emp) := by
  iintro ⟨⟨T0, T1, T2, -⟩, L0, L1, L2⟩
  isplitl [T0 L0]
  · isplitl [T0]; · iexact T0
    iexact L0
  isplitl [T1 L1]
  · isplitl [T1]; · iexact T1
    iexact L1
  isplitl [T2 L2]
  · isplitl [T2]; · iexact T2
    iexact L2
  iempintro

/-- The barrier signals still to send: each with its token and the chunks it lends. -/
private theorem bar_item (c : Dev nD) :
    iprop((seg 0 3 fun s => dutyTok ER (barCell (sigPeer c s)) 0 (sigDuty s)) ∗ myLend (F := F) c 0 ∗ myLend (F := F) c 1 ∗ myLend (F := F) c 2)
      ⊢ seg 0 3 fun s => iprop(dutyTok ER (barCell (sigPeer c s)) 0 (sigDuty s) ∗ myLend (F := F) c s) := by
  rw [seg3, seg3]
  exact pair3 _ _ _ _ _ _ _

/-- Before the barrier wait, the branch of the state that says so. -/
private theorem ite_bw_false {A B : sProp 𝕄} : B ⊢ (if Cnt.start.bw then A else B) :=
  Entails.of_eq (if_neg (show ¬ (Cnt.start.bw = true) by decide)).symm

/-- Receive cells not yet waited: each its position and its chunk's credit. -/
private theorem pend_seg (c : Dev nD) (base n : Nat) :
    iprop((seg 0 n fun i => atPos ER (dcn c (base + i)) 0 ∅ 0) ∗ seg 0 n fun i => cred (tallyAt (dcn c (base + i)) () N128))
      ⊢ (seg 0 n fun i => pend (dcn c (base + i)) : sProp 𝕄) := by
  unfold pend
  exact Entails.of_eq (seg_sep _ _).symm

private theorem reached_dcn (K : CellIx → ℕ) (c : Dev nD) (k : Nat) : recs m K ⊢ reached ER (dcn c k) 0 :=
  recs_reached m K (c, some ⟨k % 516, Nat.mod_lt _ (by decide)⟩)

/-- A local cell at the start: its position, and the record says it has reached round 0. -/
private theorem loc_item (K : CellIx → ℕ) (c : Dev nD) (k s : Nat) (hs : s < 2) :
    iprop(atPos ER (dcn c k) 0 ∅ 0 ∗ recs m K) ⊢ (locPos (dcn c k) s 0 : sProp 𝕄) := by
  iintro ⟨HP, HR⟩
  iapply (locPos_start (F := F) (dcn c k) s hs)
  isplitl [HP]; · iexact HP
  iapply (reached_dcn m K c k); iexact HR

private theorem seg4 (Φ : Nat → sProp 𝕄) : seg 0 4 Φ = iprop(Φ 0 ∗ Φ 1 ∗ Φ 2 ∗ Φ 3 ∗ emp) := by
  rw [seg_pop (show 0 < 4 by decide), seg_pop (show 0 + 1 < 4 by decide), seg_pop (show 0 + 1 + 1 < 4 by decide),
    seg_pop (show 0 + 1 + 1 + 1 < 4 by decide), seg_empty (show 4 ≤ 0 + 1 + 1 + 1 + 1 by decide)]

/-- The credit on the 84 receive cells of the z-peer's copies, as the state waits them: the first 64, then the last 20. -/
private theorem cz_split (c : Dev nD) :
    (seg 0 84 fun i => cred (tallyAt (dcn c (88 + i)) () N128) : sProp 𝕄)
      ⊢ iprop((seg 0 64 fun i => cred (tallyAt (dcn c (88 + i)) () N128)) ∗ seg 0 20 fun j => cred (tallyAt (dcn c (152 + j)) () N128)) := by
  rw [seg_split (show 0 ≤ 64 by decide) (show 64 ≤ 84 by decide), seg_at 64 20 84 rfl]
  refine BIClass.sep_mono (Entails.of_eq rfl) (Entails.of_eq (seg_congr fun j _ _ => ?_))
  rw [show 88 + (64 + j) = 152 + j by omega]

/-- The launch credit as the state holds it. -/
private def Creds (c : Dev nD) : sProp 𝕄 :=
  iprop(cred (tallyAt (barCell c) () 3)
    ∗ (seg 0 64 fun i => cred (tallyAt (dcn c (88 + i)) () N128)) ∗ (seg 0 20 fun j => cred (tallyAt (dcn c (152 + j)) () N128))
    ∗ (seg 0 64 fun i => cred (tallyAt (dcn c (300 + i)) () N128)) ∗ (seg 0 64 fun i => cred (tallyAt (dcn c (364 + i)) () N128))
    ∗ (seg 0 22 fun j => cred (tallyAt (dcn c (472 + j)) () N128)) ∗ (seg 0 22 fun j => cred (tallyAt (dcn c (494 + j)) () N128)))

private theorem creds7 (c : Dev nD) : (Pipeline.launchCred O₀ c : sProp 𝕄) ⊢ Creds (F := F) c := by
  unfold Creds
  refine (creds_ag (F := F) c).trans ?_
  iintro ⟨Cb, Cz84, Cp1, Cn1, Cp2, Cn2⟩
  ihave Hcz := (cz_split (F := F) c) $$ Cz84
  icases Hcz with ⟨Cz, Cd⟩
  isplitl [Cb]; · iexact Cb
  isplitl [Cz]; · iexact Cz
  isplitl [Cd]; · iexact Cd
  isplitl [Cp1]; · iexact Cp1
  isplitl [Cn1]; · iexact Cn1
  isplitl [Cp2]; · iexact Cp2
  iexact Cn2

/-- The device's 517 positions as the state holds them: the barrier cell's, the four local cells', then family by family. -/
private def Poss (c : Dev nD) : sProp 𝕄 :=
  iprop(atPos ER (barCell c) 0 ∅ 0
    ∗ (atPos ER (dcn c 0) 0 ∅ 0 ∗ atPos ER (dcn c 1) 0 ∅ 0 ∗ atPos ER (dcn c 2) 0 ∅ 0 ∗ atPos ER (dcn c 3) 0 ∅ 0 ∗ emp)
    ∗ (seg 0 84 fun i => atPos ER (dcn c (4 + i)) 0 ∅ 0) ∗ (seg 0 64 fun i => atPos ER (dcn c (88 + i)) 0 ∅ 0) ∗ (seg 0 20 fun i => atPos ER (dcn c (152 + i)) 0 ∅ 0)
    ∗ (seg 0 64 fun i => atPos ER (dcn c (172 + i)) 0 ∅ 0) ∗ (seg 0 64 fun i => atPos ER (dcn c (236 + i)) 0 ∅ 0) ∗ (seg 0 64 fun i => atPos ER (dcn c (300 + i)) 0 ∅ 0)
    ∗ (seg 0 64 fun i => atPos ER (dcn c (364 + i)) 0 ∅ 0) ∗ (seg 0 22 fun i => atPos ER (dcn c (428 + i)) 0 ∅ 0) ∗ (seg 0 22 fun i => atPos ER (dcn c (450 + i)) 0 ∅ 0)
    ∗ (seg 0 22 fun i => atPos ER (dcn c (472 + i)) 0 ∅ 0) ∗ (seg 0 22 fun i => atPos ER (dcn c (494 + i)) 0 ∅ 0))

private theorem pos13 (c : Dev nD) :
    (bigSep Finset.univ fun o : Option (DmaSem sig) => (atPos ER (kcell (c, o)) 0 ∅ 0 : sProp 𝕄)) ⊢ Poss (F := F) c := by
  refine (pos_cut (F := F) c).trans (Entails.of_eq ?_)
  unfold Poss
  rw [pos_fams, seg4]

/-- What the state at the start is made of, in the state's own order (its empty intervals left out); each item is the
    pieces the launch hands over for it. -/
private def Pre (c : Dev nD) (K : CellIx → ℕ) : sProp 𝕄 :=
  iprop(
    ((seg 0 3 fun s => dutyTok ER (barCell (sigPeer c s)) 0 (sigDuty s)) ∗ myLend (F := F) c 0 ∗ myLend (F := F) c 1 ∗ myLend (F := F) c 2)
    ∗ (atPos ER (barCell c) 0 ∅ 0 ∗ cred (tallyAt (barCell c) () 3))
    ∗ ((seg 0 84 fun i => toks (dcn c (4 + i)) (dcn (zpeer c) (88 + i))) ∗ seg 0 84 fun i => xAt m fullShare.left c (xrows (rowZS c i) 128))
    ∗ (seg 0 84 fun i => atPos ER (dcn c (4 + i)) 0 ∅ 0)
    ∗ ((seg 0 64 fun i => atPos ER (dcn c (88 + i)) 0 ∅ 0) ∗ seg 0 64 fun i => cred (tallyAt (dcn c (88 + i)) () N128))
    ∗ ((seg 0 20 fun i => atPos ER (dcn c (152 + i)) 0 ∅ 0) ∗ seg 0 20 fun j => cred (tallyAt (dcn c (152 + j)) () N128))
    ∗ (seg 0 64 fun i => toks (dcn c (172 + i)) (dcn (nxt c) (300 + i)))
    ∗ (seg 0 64 fun i => atPos ER (dcn c (172 + i)) 0 ∅ 0)
    ∗ (seg 0 64 fun i => toks (dcn c (236 + i)) (dcn (prv c) (364 + i)))
    ∗ (seg 0 64 fun i => atPos ER (dcn c (236 + i)) 0 ∅ 0)
    ∗ ((seg 0 64 fun i => atPos ER (dcn c (300 + i)) 0 ∅ 0) ∗ seg 0 64 fun i => cred (tallyAt (dcn c (300 + i)) () N128))
    ∗ ((seg 0 64 fun i => atPos ER (dcn c (364 + i)) 0 ∅ 0) ∗ seg 0 64 fun i => cred (tallyAt (dcn c (364 + i)) () N128))
    ∗ (seg 0 22 fun j => toks (dcn c (428 + j)) (dcn (nxt c) (472 + j)))
    ∗ (seg 0 22 fun i => atPos ER (dcn c (428 + i)) 0 ∅ 0)
    ∗ (seg 0 22 fun j => toks (dcn c (450 + j)) (dcn (prv c) (494 + j)))
    ∗ (seg 0 22 fun i => atPos ER (dcn c (450 + i)) 0 ∅ 0)
    ∗ ((seg 0 22 fun i => atPos ER (dcn c (472 + i)) 0 ∅ 0) ∗ seg 0 22 fun j => cred (tallyAt (dcn c (472 + j)) () N128))
    ∗ ((seg 0 22 fun i => atPos ER (dcn c (494 + i)) 0 ∅ 0) ∗ seg 0 22 fun j => cred (tallyAt (dcn c (494 + j)) () N128))
    ∗ ((seg 0 64 fun k => dutyTok ER (dcn c (k % 2)) (k / 2) 0) ∗ seg 0 64 fun k => xAt m fullShare.right c (xrows (512 * k) 512))
    ∗ (atPos ER (dcn c 0) 0 ∅ 0 ∗ recs m K)
    ∗ (atPos ER (dcn c 1) 0 ∅ 0 ∗ recs m K)
    ∗ (slotAny (F := F) c 0 ∗ slotAny (F := F) c 1)
    ∗ ((seg 0 64 fun k => dutyTok ER (dcn c (2 + k % 2)) (k / 2) 0) ∗ seg 0 64 fun k => lentOn (F := F) c (rows (rowOwn c k) 512))
    ∗ (atPos ER (dcn c 2) 0 ∅ 0 ∗ recs m K)
    ∗ (atPos ER (dcn c 3) 0 ∅ 0 ∗ recs m K))

/-- The pieces as the launch hands them over (the record; the two arrays' cuts; the credit; the positions; the tokens; the two
    slots), put in the state's order. Nothing here depends on what the pieces are. -/
private theorem shuffle (R : sProp 𝕄) [BI.Persistent R]
    (XL XR Own L0 L1 L2 Cb Cz Cd Cp1 Cn1 Cp2 Cn2 Pb P0 P1 P2 P3 Z Pzs Pzr Pzd Ps1n Ps1p Pr1p Pr1n Ps2n Ps2p Pr2p Pr2n Tb Tz Tn1 Tp1 Tn2 Tp2 Tli Tlo S0 S1 : sProp 𝕄) :
    iprop(R ∗ (XL ∗ XR) ∗ (Own ∗ L0 ∗ L1 ∗ L2) ∗ (Cb ∗ Cz ∗ Cd ∗ Cp1 ∗ Cn1 ∗ Cp2 ∗ Cn2)
        ∗ (Pb ∗ (P0 ∗ P1 ∗ P2 ∗ P3 ∗ Z) ∗ Pzs ∗ Pzr ∗ Pzd ∗ Ps1n ∗ Ps1p ∗ Pr1p ∗ Pr1n ∗ Ps2n ∗ Ps2p ∗ Pr2p ∗ Pr2n)
        ∗ (Tb ∗ Tz ∗ Tn1 ∗ Tp1 ∗ Tn2 ∗ Tp2 ∗ Tli ∗ Tlo) ∗ (S0 ∗ S1))
      ⊢ iprop((Tb ∗ L0 ∗ L1 ∗ L2) ∗ (Pb ∗ Cb) ∗ (Tz ∗ XL) ∗ Pzs ∗ (Pzr ∗ Cz) ∗ (Pzd ∗ Cd) ∗ Tn1 ∗ Ps1n ∗ Tp1 ∗ Ps1p ∗ (Pr1p ∗ Cp1) ∗ (Pr1n ∗ Cn1)
        ∗ Tn2 ∗ Ps2n ∗ Tp2 ∗ Ps2p ∗ (Pr2p ∗ Cp2) ∗ (Pr2n ∗ Cn2) ∗ (Tli ∗ XR) ∗ (P0 ∗ R) ∗ (P1 ∗ R) ∗ (S0 ∗ S1) ∗ (Tlo ∗ Own) ∗ (P2 ∗ R) ∗ (P3 ∗ R)) := by
  iintro ⟨#HR, ⟨XL, XR⟩, ⟨Own, L0, L1, L2⟩, ⟨Cb, Cz, Cd, Cp1, Cn1, Cp2, Cn2⟩,
    ⟨Pb, ⟨P0, P1, P2, P3, -⟩, Pzs, Pzr, Pzd, Ps1n, Ps1p, Pr1p, Pr1n, Ps2n, Ps2p, Pr2p, Pr2n⟩, ⟨Tb, Tz, Tn1, Tp1, Tn2, Tp2, Tli, Tlo⟩, ⟨S0, S1⟩⟩
  isplitl [Tb L0 L1 L2]
  · isplitl [Tb]; · iexact Tb
    isplitl [L0]; · iexact L0
    isplitl [L1]; · iexact L1
    iexact L2
  isplitl [Pb Cb]
  · isplitl [Pb]; · iexact Pb
    iexact Cb
  isplitl [Tz XL]
  · isplitl [Tz]; · iexact Tz
    iexact XL
  isplitl [Pzs]; · iexact Pzs
  isplitl [Pzr Cz]
  · isplitl [Pzr]; · iexact Pzr
    iexact Cz
  isplitl [Pzd Cd]
  · isplitl [Pzd]; · iexact Pzd
    iexact Cd
  isplitl [Tn1]; · iexact Tn1
  isplitl [Ps1n]; · iexact Ps1n
  isplitl [Tp1]; · iexact Tp1
  isplitl [Ps1p]; · iexact Ps1p
  isplitl [Pr1p Cp1]
  · isplitl [Pr1p]; · iexact Pr1p
    iexact Cp1
  isplitl [Pr1n Cn1]
  · isplitl [Pr1n]; · iexact Pr1n
    iexact Cn1
  isplitl [Tn2]; · iexact Tn2
  isplitl [Ps2n]; · iexact Ps2n
  isplitl [Tp2]; · iexact Tp2
  isplitl [Ps2p]; · iexact Ps2p
  isplitl [Pr2p Cp2]
  · isplitl [Pr2p]; · iexact Pr2p
    iexact Cp2
  isplitl [Pr2n Cn2]
  · isplitl [Pr2n]; · iexact Pr2n
    iexact Cn2
  isplitl [Tli XR]
  · isplitl [Tli]; · iexact Tli
    iexact XR
  isplitl [P0]
  · isplitl [P0]; · iexact P0
    iexact HR
  isplitl [P1]
  · isplitl [P1]; · iexact P1
    iexact HR
  isplitl [S0 S1]
  · isplitl [S0]; · iexact S0
    iexact S1
  isplitl [Tlo Own]
  · isplitl [Tlo]; · iexact Tlo
    iexact Own
  isplitl [P2]
  · isplitl [P2]; · iexact P2
    iexact HR
  isplitl [P3]; · iexact P3
  iexact HR

/-- One conjunct of the state from its pieces, the rest from the rest; -/
private theorem takeP {P Q C R : sProp 𝕄} (hC : P ⊢ C) (h : Q ⊢ R) : iprop(P ∗ Q) ⊢ iprop(C ∗ R) := BIClass.sep_mono hC h
/-- a conjunct that needs nothing; -/
private theorem skipE {Q C R : sProp 𝕄} (hC : (emp : sProp 𝕄) ⊢ C) (h : Q ⊢ R) : Q ⊢ iprop(C ∗ R) := by
  iintro H
  isplitr
  · iapply hC; iempintro
  · iapply h; iexact H
/-- an empty interval. -/
private theorem skipS {lo hi : Nat} {Φ : Nat → sProp 𝕄} {Q R : sProp 𝕄} (hle : hi ≤ lo) (h : Q ⊢ R) : Q ⊢ iprop(seg lo hi Φ ∗ R) :=
  skipE (emp_seg hle Φ) h

/-- The state at the start, conjunct by conjunct: at the start every "after" interval is empty and every "before" interval whole. -/
private theorem pre_StR (c : Dev nD) (K : CellIx → ℕ) : Pre m c K ⊢ StR m c Cnt.start := by
  unfold Pre StR
  refine takeP (bar_item (F := F) c) ?_
  refine takeP ite_bw_false ?_
  refine skipE ite_bw_false ?_
  refine takeP (seg_pair _ _) ?_
  refine skipS (by decide) ?_
  refine takeP (Entails.of_eq rfl) ?_
  refine skipS (by decide) ?_
  refine takeP (pend_seg (F := F) c 88 64) ?_
  refine skipS (by decide) ?_
  refine takeP (pend_seg (F := F) c 152 20) ?_
  refine skipS (by decide) ?_
  refine skipS (by decide) ?_
  refine skipS (by decide) ?_
  refine skipS (by decide) ?_
  refine skipS (by decide) ?_
  refine takeP (Entails.of_eq rfl) ?_
  refine skipS (by decide) ?_
  refine takeP (Entails.of_eq rfl) ?_
  refine skipS (by decide) ?_
  refine takeP (Entails.of_eq rfl) ?_
  refine skipS (by decide) ?_
  refine takeP (Entails.of_eq rfl) ?_
  refine skipS (by decide) ?_
  refine takeP (pend_seg (F := F) c 300 64) ?_
  refine skipS (by decide) ?_
  refine skipS (by decide) ?_
  refine skipS (by decide) ?_
  refine skipS (by decide) ?_
  refine takeP (pend_seg (F := F) c 364 64) ?_
  refine skipS (by decide) ?_
  refine skipS (by decide) ?_
  refine skipS (by decide) ?_
  refine skipS (by decide) ?_
  refine skipS (by decide) ?_
  refine takeP (Entails.of_eq rfl) ?_
  refine skipS (by decide) ?_
  refine takeP (Entails.of_eq rfl) ?_
  refine skipS (by decide) ?_
  refine takeP (Entails.of_eq rfl) ?_
  refine skipS (by decide) ?_
  refine takeP (Entails.of_eq rfl) ?_
  refine skipS (by decide) ?_
  refine takeP (pend_seg (F := F) c 472 22) ?_
  refine skipS (by decide) ?_
  refine takeP (pend_seg (F := F) c 494 22) ?_
  refine skipS (by decide) ?_
  refine takeP (seg_pair _ _) ?_
  refine skipS (by decide) ?_
  refine skipS (by decide) ?_
  refine takeP (loc_item m K c 0 0 (by decide)) ?_
  refine takeP (loc_item m K c 1 1 (by decide)) ?_
  refine takeP (slots_start (F := F) c) ?_
  refine skipS (by decide) ?_
  refine takeP (seg_pair _ _) ?_
  refine skipS (by decide) ?_
  refine skipS (by decide) ?_
  refine takeP (loc_item m K c 2 0 (by decide)) ?_
  exact loc_item m K c 3 1 (by decide)

/-- From what the launch hands over, the state at the start. -/
private theorem start_wand (c : Dev nD) (K : CellIx → ℕ) :
    iprop(recs m K ∗ XCut m c ∗ OCut (F := F) c ∗ Creds (F := F) c ∗ Poss (F := F) c ∗ payToks (F := F) c
        ∗ (slotAny (F := F) c 0 ∗ slotAny (F := F) c 1))
      ⊢ StR m c Cnt.start := by
  unfold XCut OCut Creds Poss payToks
  exact (shuffle (recs m K) _ _ _ _ _ _ _ _ _ _ _ _ _ _ _ _ _ _ _ _ _ _ _ _ _ _ _ _ _ _ _ _ _ _ _ _ _ _ _ _).trans (pre_StR m c K)

/-- The theorem's `hX`: the two arrays cut into the chunks the state holds them by, the launch credit onto the receive
    cells, the dealt ghost state into the state's intervals. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Hx, Ho⟩, #Hlev, Hcr, -, ⟨%K, #Hrec, Hat, Htok⟩⟩
  ihave Hc := (creds7 (F := F) c) $$ Hcr
  ihave Hx' := (x_cut m c) $$ Hx
  ihave Ho' := (o_cut m c) $$ Ho
  ihave Hp := (pos13 (F := F) c) $$ Hat
  imodintro
  isplitl
  · unfold X
    iexists K
    isplitr
    · unfold Ctx
      isplitr
      · iexact Hrec
      · iexact Hlev
    iintro Hs
    iapply (start_wand m c K)
    isplitr; · iexact Hrec
    isplitl [Hx']; · iexact Hx'
    isplitl [Ho']; · iexact Ho'
    isplitl [Hc]; · iexact Hc
    isplitl [Hp]; · iexact Hp
    isplitl [Htok]; · iexact Htok
    iexact Hs
  · iempintro

/-! ## The staging buffer is its two slots -/

/-- Every index of the staging buffer lies in slot 0 or in slot 1, -/
private theorem slot_cover : (Finset.univ : Finset S2x512x1024.Idx) = slot 0 ∪ slot 1 := by
  ext i
  have h0 : (i 0).val < 2 := (i 0).isLt
  simp only [slot, Finset.mem_univ, Finset.mem_union, Finset.mem_filter, true_and, true_iff]
  omega

/-- and in one of them only. -/
private theorem slot_disj : Disjoint (slot 0) (slot 1) := by
  rw [Finset.disjoint_left]
  intro i h0 h1
  rw [slot, Finset.mem_filter] at h0 h1
  omega

/-- The theorem's `hin`: the staging buffer, whole at some contents, is its two slots. -/
theorem phi0_intro (c : Dev nD) :
    iprop(X m c ∗ Pipeline.prefHeld Pipeline.Prefetch.none c (fun _ => fullShare.right) (fun k => k.elim0) ∗ Pipeline.scopedRest cfg0.spec c)
      ⊢ Φ₀ m c := by
  rw [scopedRest0_eq]
  unfold X Φ₀
  iintro ⟨⟨%K, HC, HW⟩, -, ⟨%f, Hr⟩⟩
  iexists K
  isplitl [HC]; · iexact HC
  iapply HW
  ihave Hr' := (Entails.of_eq (congrArg (fun S => (((c : Thread nD τ).loc cc0_scratch0) ↦[S]{fullShare} f : sProp 𝕄)) slot_cover)) $$ Hr
  ihave H2 := (pointsTo_union slot_disj).1 $$ Hr'
  icases H2 with ⟨H0, H1⟩
  unfold slotAny
  isplitl [H0]
  · iexists f; iexact H0
  · iexists f; iexact H1

/-- info: 'Cert.KernelIdeal.AG.start_intro' depends on axioms: [propext, Classical.choice, Quot.sound] -/
#guard_msgs in #print axioms start_intro
/-- info: 'Cert.KernelIdeal.AG.phi0_intro' depends on axioms: [propext, Classical.choice, Quot.sound] -/
#guard_msgs in #print axioms phi0_intro

end Cert.KernelIdeal.AG

end
-- ==== Proof.Exit.lean ====
/-
  Leaving the body: every own cell is closed, the staging buffer is whole again, the chunks of each array are rejoined, the result array as the gathered result.
-/
import proofs.«900672_g7700000000000673_dist_ag_v7x_xyz2x2x2_z_m32768_n1024_f32_1_alg».proof.Proof.LaunchDefs
import proofs.«900672_g7700000000000673_dist_ag_v7x_xyz2x2x2_z_m32768_n1024_f32_1_alg».proof.Proof.Sets
import proofs.«900672_g7700000000000673_dist_ag_v7x_xyz2x2x2_z_m32768_n1024_f32_1_alg».proof.Proof.Routes

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Two general facts: an interval moved to start at zero; full-share points-tos of one buffer join -/

/-- An interval of length `n` starting at `a`, re-indexed from zero. -/
private theorem seg_shift (a n : Nat) (Φ : Nat → sProp 𝕄) : seg a (a + n) Φ = seg 0 n fun i => Φ (a + i) := by
  unfold seg
  have hmap : Finset.Ico a (a + n) = (Finset.Ico 0 n).map (addLeftEmbedding a) := by
    ext x
    rw [Finset.mem_map, Finset.mem_Ico]
    constructor
    · rintro ⟨h1, h2⟩
      exact ⟨x - a, Finset.mem_Ico.mpr ⟨Nat.zero_le _, by omega⟩, by show a + (x - a) = x; omega⟩
    · rintro ⟨y, hy, rfl⟩
      have hy' := (Finset.mem_Ico.mp hy).2
      show a ≤ a + y ∧ a + y < a + n
      omega
  rw [hmap]
  exact bigSep_map _

/-- Two full-share points-tos of one buffer at the same contents join into one on the union of their sets: the sets are
    disjoint, since nothing shares an element with a full share. -/
private theorem full_join {ℓ : Loc nD τ sig} {I J : Finset (Idx ℓ)} {f : Buf (Elt F) ℓ} :
    iprop((ℓ ↦[I]{fullShare} f) ∗ ℓ ↦[J]{fullShare} f) ⊢ (ℓ ↦[I ∪ J]{fullShare} f : sProp 𝕄) := by
  iintro ⟨H1, H2⟩
  icombine H1 H2 gives %h
  have hd : Disjoint I J := Finset.disjoint_left.mpr fun i hi hj =>
    not_opDef_fullShare _ (h i (Finset.mem_inter.mpr ⟨hi, hj⟩)).2
  iapply (pointsTo_union hd).2
  isplitl [H1]
  · iexact H1
  · iexact H2

/-- A whole family of full-share points-tos at the same contents joins into one on the union of the family's sets. -/
private theorem full_biUnion {ℓ : Loc nD τ sig} (S : Finset Nat) (K : Nat → Finset (Idx ℓ)) (f : Buf (Elt F) ℓ) :
    bigSep S (fun t => ℓ ↦[K t]{fullShare} f) ⊢ (ℓ ↦[S.biUnion K]{fullShare} f : sProp 𝕄) := by
  induction S using Finset.induction_on with
  | empty =>
    rw [Finset.biUnion_empty, pointsTo_empty]
    exact .rfl
  | insert t S ht ih =>
    rw [bigSep_insert ht, Finset.biUnion_insert]
    exact (sep_mono_r ih).trans full_join

/-! ## The state when everything has happened -/

private theorem locPos_done (g : GSem nD τ sig) (s : Nat) (hs : s < 2) : locPos (F := F) g s 64 = semVal g 0 := by
  unfold locPos
  exact if_neg (by omega)

/-- At the end every "before" interval is empty: what is left is the closed cells, the two slots of the staging buffer,
    the argument block's rows at the share the local copies read through, and the chunks of the result array. -/
private theorem done_shape (c : Dev nD) : StR m c Cnt.done ⊢ iprop(
    (semVal (dcn c 0) 0 ∗ semVal (dcn c 1) 0 ∗ semVal (dcn c 2) 0 ∗ semVal (dcn c 3) 0
      ∗ (seg 0 84 fun i => semVal (dcn c (4 + i)) 0) ∗ (seg 0 64 fun i => semVal (dcn c (88 + i)) 0)
      ∗ (seg 0 20 fun j => semVal (dcn c (152 + j)) 0) ∗ (seg 0 64 fun i => semVal (dcn c (172 + i)) 0)
      ∗ (seg 0 64 fun i => semVal (dcn c (236 + i)) 0) ∗ (seg 0 64 fun i => semVal (dcn c (300 + i)) 0)
      ∗ (seg 0 64 fun i => semVal (dcn c (364 + i)) 0) ∗ (seg 0 22 fun j => semVal (dcn c (428 + j)) 0)
      ∗ (seg 0 22 fun j => semVal (dcn c (450 + j)) 0) ∗ (seg 0 22 fun j => semVal (dcn c (472 + j)) 0)
      ∗ (seg 0 22 fun j => semVal (dcn c (494 + j)) 0))
    ∗ (seg 64 66 fun k => slotAny (F := F) c (k % 2))
    ∗ (seg 0 64 fun k => xAt m fullShare.right c (xrows (512 * k) 512))
    ∗ ((seg 0 64 fun k => holdsOn m c (rows (rowOwn c k) 512))
      ∗ (((seg 0 64 fun i => holdsAt m fullShare.left c (rows (rowZR c i) 128))
          ∗ (seg 0 64 fun i => holdsAt m fullShare.right c (rows (rowZR c i) 128)))
        ∗ (seg 0 20 fun j => holdsOn m c (rows (rowZR c (64 + j)) 128)))
      ∗ ((seg 0 22 fun i => holdsOn m c (rows (rowH1P c i) 128)) ∗ (seg 22 64 fun i => holdsOn m c (rows (rowH1P c i) 128)))
      ∗ ((seg 0 22 fun i => holdsOn m c (rows (rowH1N c i) 128)) ∗ (seg 22 44 fun i => holdsOn m c (rows (rowH1N c i) 128))
        ∗ (seg 44 64 fun i => holdsOn m c (rows (rowH1N c i) 128)))
      ∗ (seg 0 22 fun j => holdsOn m c (rows (rowH2P c j) 128))
      ∗ (seg 0 22 fun j => holdsOn m c (rows (rowH2N c j) 128)))) := by
  unfold StR
  simp only [Cnt.done]
  rw [locPos_done (dcn c 0) 0 (by omega), locPos_done (dcn c 1) 1 (by omega), locPos_done (dcn c 2) 0 (by omega),
    locPos_done (dcn c 3) 1 (by omega)]
  iintro ⟨-, -, -, -, -, -, H7, -, H9, -, H11, -, H13, -, H15, -, -, -, H19, -, -, -, H23, -, H25, -, H27, H28, -, H30,
    H31, -, H33, H34, -, -, -, H38, -, -, -, H42, -, H44, -, H46, -, -, H49, H50, H51, H52, -, -, -, H56, H57, H58⟩
  ihave H7 := (Entails.of_eq (seg_sep _ _)) $$ H7
  icases H7 with ⟨H7, -⟩
  ihave H11 := (Entails.of_eq (seg_sep _ _)) $$ H11
  icases H11 with ⟨H11s, H11h⟩
  ihave H44 := (Entails.of_eq (seg_sep _ _)) $$ H44
  icases H44 with ⟨H44s, H44h⟩
  ihave H46 := (Entails.of_eq (seg_sep _ _)) $$ H46
  icases H46 with ⟨H46s, H46h⟩
  isplitl [H50 H51 H57 H58 H7 H9 H11s H19 H23 H25 H30 H38 H42 H44s H46s]
  · isplitl [H50]; · iexact H50
    isplitl [H51]; · iexact H51
    isplitl [H57]; · iexact H57
    isplitl [H58]; · iexact H58
    isplitl [H7]; · iexact H7
    isplitl [H9]; · iexact H9
    isplitl [H11s]; · iexact H11s
    isplitl [H19]; · iexact H19
    isplitl [H23]; · iexact H23
    isplitl [H25]; · iexact H25
    isplitl [H30]; · iexact H30
    isplitl [H38]; · iexact H38
    isplitl [H42]; · iexact H42
    isplitl [H44s]; · iexact H44s
    iexact H46s
  isplitl [H52]; · iexact H52
  isplitl [H49]; · iexact H49
  isplitl [H56]; · iexact H56
  isplitl [H13 H15 H11h]
  · isplitl [H13 H15]
    · isplitl [H13]; · iexact H13
      iexact H15
    iexact H11h
  isplitl [H27 H28]
  · isplitl [H27]; · iexact H27
    iexact H28
  isplitl [H31 H33 H34]
  · isplitl [H31]; · iexact H31
    isplitl [H33]; · iexact H33
    iexact H34
  isplitl [H44h]; · iexact H44h
  iexact H46h

/-! ## (i) The 516 cells, closed -/

private theorem seg_one (a : Nat) (Φ : Nat → sProp 𝕄) : seg a (a + 1) Φ = Φ a := by
  unfold seg
  rw [Nat.Ico_succ_singleton]
  exact bigSep_singleton

/-- The kernel's own semaphores at zero are its 516 DMA cells at zero, by number. -/
private theorem ownSems0_seg (c : Dev nD) :
    (Pipeline.ownSems0 (Ix := Unit) (Name := ℕ) (U := UU) (Lvl := ℕ) (Val := Elt F) (τ := τ) osem c : sProp 𝕄)
      = seg 0 516 fun n => semVal (dcn c n) 0 := by
  unfold Pipeline.ownSems0 seg
  have hmap : Finset.Ico 0 516 = (Finset.univ : Finset (DmaSem sig)).map Fin.valEmbedding := by
    ext x
    rw [Finset.mem_map, Finset.mem_Ico]
    constructor
    · rintro ⟨-, h⟩
      exact ⟨⟨x, h⟩, Finset.mem_univ _, rfl⟩
    · rintro ⟨k, -, rfl⟩
      exact ⟨Nat.zero_le _, k.isLt⟩
  rw [hmap, bigSep_map]
  refine bigSep_congr fun k _ => ?_
  show semVal (dcell c k) 0 = semVal (dcn c k.val) 0
  rw [dcn_of_val c k k.val rfl]

/-- The cells family by family, as the state holds them, are all of them. -/
private theorem sems_join (c : Dev nD) :
    iprop(semVal (dcn c 0) 0 ∗ semVal (dcn c 1) 0 ∗ semVal (dcn c 2) 0 ∗ semVal (dcn c 3) 0
      ∗ (seg 0 84 fun i => semVal (dcn c (4 + i)) 0) ∗ (seg 0 64 fun i => semVal (dcn c (88 + i)) 0)
      ∗ (seg 0 20 fun j => semVal (dcn c (152 + j)) 0) ∗ (seg 0 64 fun i => semVal (dcn c (172 + i)) 0)
      ∗ (seg 0 64 fun i => semVal (dcn c (236 + i)) 0) ∗ (seg 0 64 fun i => semVal (dcn c (300 + i)) 0)
      ∗ (seg 0 64 fun i => semVal (dcn c (364 + i)) 0) ∗ (seg 0 22 fun j => semVal (dcn c (428 + j)) 0)
      ∗ (seg 0 22 fun j => semVal (dcn c (450 + j)) 0) ∗ (seg 0 22 fun j => semVal (dcn c (472 + j)) 0)
      ∗ (seg 0 22 fun j => semVal (dcn c (494 + j)) 0))
      ⊢ (Pipeline.ownSems0 (Ix := Unit) (Name := ℕ) (U := UU) (Lvl := ℕ) (Val := Elt F) (τ := τ) osem c : sProp 𝕄) := by
  have e0 : seg 0 4 (fun n => (semVal (dcn c n) 0 : sProp 𝕄)) = iprop(semVal (dcn c 0) 0 ∗ seg 1 4 fun n => semVal (dcn c n) 0) := seg_pop (by omega) _
  have e1 : seg 1 4 (fun n => (semVal (dcn c n) 0 : sProp 𝕄)) = iprop(semVal (dcn c 1) 0 ∗ seg 2 4 fun n => semVal (dcn c n) 0) := seg_pop (by omega) _
  have e2 : seg 2 4 (fun n => (semVal (dcn c n) 0 : sProp 𝕄)) = iprop(semVal (dcn c 2) 0 ∗ seg 3 4 fun n => semVal (dcn c n) 0) := seg_pop (by omega) _
  have e3 : seg 3 4 (fun n => (semVal (dcn c n) 0 : sProp 𝕄)) = semVal (dcn c 3) 0 := seg_one 3 _
  have s1 : seg 4 88 (fun n => (semVal (dcn c n) 0 : sProp 𝕄)) = seg 0 84 fun i => semVal (dcn c (4 + i)) 0 := seg_shift 4 84 _
  have s2 : seg 88 152 (fun n => (semVal (dcn c n) 0 : sProp 𝕄)) = seg 0 64 fun i => semVal (dcn c (88 + i)) 0 := seg_shift 88 64 _
  have s3 : seg 152 172 (fun n => (semVal (dcn c n) 0 : sProp 𝕄)) = seg 0 20 fun i => semVal (dcn c (152 + i)) 0 := seg_shift 152 20 _
  have s4 : seg 172 236 (fun n => (semVal (dcn c n) 0 : sProp 𝕄)) = seg 0 64 fun i => semVal (dcn c (172 + i)) 0 := seg_shift 172 64 _
  have s5 : seg 236 300 (fun n => (semVal (dcn c n) 0 : sProp 𝕄)) = seg 0 64 fun i => semVal (dcn c (236 + i)) 0 := seg_shift 236 64 _
  have s6 : seg 300 364 (fun n => (semVal (dcn c n) 0 : sProp 𝕄)) = seg 0 64 fun i => semVal (dcn c (300 + i)) 0 := seg_shift 300 64 _
  have s7 : seg 364 428 (fun n => (semVal (dcn c n) 0 : sProp 𝕄)) = seg 0 64 fun i => semVal (dcn c (364 + i)) 0 := seg_shift 364 64 _
  have s8 : seg 428 450 (fun n => (semVal (dcn c n) 0 : sProp 𝕄)) = seg 0 22 fun i => semVal (dcn c (428 + i)) 0 := seg_shift 428 22 _
  have s9 : seg 450 472 (fun n => (semVal (dcn c n) 0 : sProp 𝕄)) = seg 0 22 fun i => semVal (dcn c (450 + i)) 0 := seg_shift 450 22 _
  have s10 : seg 472 494 (fun n => (semVal (dcn c n) 0 : sProp 𝕄)) = seg 0 22 fun i => semVal (dcn c (472 + i)) 0 := seg_shift 472 22 _
  have s11 : seg 494 516 (fun n => (semVal (dcn c n) 0 : sProp 𝕄)) = seg 0 22 fun i => semVal (dcn c (494 + i)) 0 := seg_shift 494 22 _
  rw [ownSems0_seg,
    seg_split (lo := 0) (mid := 4) (hi := 516) (by omega) (by omega), seg_split (lo := 4) (mid := 88) (hi := 516) (by omega) (by omega),
    seg_split (lo := 88) (mid := 152) (hi := 516) (by omega) (by omega), seg_split (lo := 152) (mid := 172) (hi := 516) (by omega) (by omega),
    seg_split (lo := 172) (mid := 236) (hi := 516) (by omega) (by omega), seg_split (lo := 236) (mid := 300) (hi := 516) (by omega) (by omega),
    seg_split (lo := 300) (mid := 364) (hi := 516) (by omega) (by omega), seg_split (lo := 364) (mid := 428) (hi := 516) (by omega) (by omega),
    seg_split (lo := 428) (mid := 450) (hi := 516) (by omega) (by omega), seg_split (lo := 450) (mid := 472) (hi := 516) (by omega) (by omega),
    seg_split (lo := 472) (mid := 494) (hi := 516) (by omega) (by omega),
    e0, e1, e2, e3, s1, s2, s3, s4, s5, s6, s7, s8, s9, s10, s11]
  iintro ⟨H0, H1, H2, H3, R⟩
  isplitl [H0 H1 H2 H3]
  · isplitl [H0]; · iexact H0
    isplitl [H1]; · iexact H1
    isplitl [H2]; · iexact H2
    iexact H3
  iexact R

/-! ## (ii) The staging buffer, whole again -/

private theorem slot_disjoint : Disjoint (slot 0) (slot 1) := by
  rw [Finset.disjoint_left]
  intro i h0 h1
  rw [slot, Finset.mem_filter] at h0 h1
  omega

private theorem slot_cover : slot 0 ∪ slot 1 = (Finset.univ : Finset S2x512x1024.Idx) := by
  ext i
  have h : (i 0).val < 2 := (i 0).isLt
  rw [Finset.mem_union, slot, slot, Finset.mem_filter, Finset.mem_filter]
  constructor
  · intro _
    exact Finset.mem_univ _
  · intro _
    have h' : (i 0).val = 0 ∨ (i 0).val = 1 := by omega
    exact h'.imp (fun h => ⟨Finset.mem_univ _, h⟩) (fun h => ⟨Finset.mem_univ _, h⟩)

/-- The two slots, each at some contents, are the whole buffer at some contents: the first's on slot 0, the second's on slot 1. -/
private theorem slots_join (c : Dev nD) :
    (seg 64 66 fun k => slotAny (F := F) c (k % 2))
      ⊢ (Pipeline.scopedRest (Ix := Unit) (Name := ℕ) (U := UU) (Lvl := ℕ) (Val := Elt F) cfg0.spec c : sProp 𝕄) := by
  have e0 : seg 64 66 (fun k => slotAny (F := F) c (k % 2)) = iprop(slotAny (F := F) c 0 ∗ seg 65 66 fun k => slotAny (F := F) c (k % 2)) :=
    seg_pop (by omega) _
  have e1 : seg 65 66 (fun k => slotAny (F := F) c (k % 2)) = slotAny (F := F) c 1 := seg_one 65 _
  rw [scopedRest0_eq, e0, e1]
  unfold slotAny
  iintro ⟨⟨%f0, H0⟩, ⟨%f1, H1⟩⟩
  have hj : iprop((((c : Thread nD τ).loc cc0_scratch0) ↦[slot 0]{fullShare} f0) ∗ (((c : Thread nD τ).loc cc0_scratch0) ↦[slot 1]{fullShare} f1))
      ⊢ ((((c : Thread nD τ).loc cc0_scratch0) ↦{fullShare} ((slot 1).piecewise f1 f0)) : sProp 𝕄) := by
    have h := pointsTo_join (Val := Elt F) (Ix := Unit) (Name := ℕ) (U := UU) (Lvl := ℕ) (q := fullShare) (f := f0) (g := f1) slot_disjoint
    rwa [slot_cover] at h
  iexists ((slot 1).piecewise f1 f0)
  iapply hj
  isplitl [H0]
  · iexact H0
  · iexact H1

/-! ## (iii) The arrays, rejoined -/

private theorem xrows_disjoint {k k' : Nat} (h : k ≠ k') : Disjoint (xrows (512 * k) 512) (xrows (512 * k') 512) := by
  rw [Finset.disjoint_left]
  intro i h1 h2
  rw [mem_xrows] at h1 h2
  omega

private theorem xrows_cover : (Finset.Ico 0 64).biUnion (fun k => xrows (512 * k) 512) = (Finset.univ : Finset S32768x1024.Idx) := by
  refine Finset.eq_univ_iff_forall.mpr fun i => ?_
  have h : (i 0).val < 32768 := (i 0).isLt
  rw [Finset.mem_biUnion]
  exact ⟨(i 0).val / 512, Finset.mem_Ico.mpr ⟨Nat.zero_le _, by omega⟩, mem_xrows.mpr ⟨by omega, by omega⟩⟩

/-- The 64 pieces of the argument block the local copies read, all at the launch contents, are the whole block. -/
private theorem xrows_join (c : Dev nD) :
    (seg 0 64 fun k => xAt m fullShare.right c (xrows (512 * k) 512))
      ⊢ ((((c : Thread nD τ).loc main_arg0) ↦{fullShare.right} m ((c : Thread nD τ).loc main_arg0)) : sProp 𝕄) := by
  have h := pointsTo_biUnion (Val := Elt F) (Ix := Unit) (Name := ℕ) (U := UU) (Lvl := ℕ) (ℓ := (c : Thread nD τ).loc main_arg0)
    (q := fullShare.right) (f := m ((c : Thread nD τ).loc main_arg0)) (Finset.Ico 0 64) (fun k => xrows (512 * k) 512)
    (fun k _ k' _ h => xrows_disjoint h)
  rw [xrows_cover] at h
  exact Entails.of_eq h.symm

/-- A chunk held at the gathered result is a points-to at the gathered result: off the chunk the contents do not matter. -/
private theorem holdsOn_goal (c : Dev nD) (S : Finset S65536x1024.Idx) :
    holdsOn m c S ⊢ ((((c : Thread nD τ).loc main_v1) ↦[S]{fullShare} goal m c) : sProp 𝕄) := by
  unfold holdsOn
  iintro ⟨%f, Hf, %hf⟩
  iapply (Entails.of_eq (pointsTo_congr (q := fullShare) hf))
  iexact Hf

private theorem family_join (c : Dev nD) (lo hi : Nat) (R : Nat → Nat) (n : Nat) :
    (seg lo hi fun i => holdsOn m c (rows (R i) n))
      ⊢ ((((c : Thread nD τ).loc main_v1) ↦[(Finset.Ico lo hi).biUnion fun i => rows (R i) n]{fullShare} goal m c) : sProp 𝕄) := by
  unfold seg
  exact (bigSep_mono fun i _ => holdsOn_goal m c _).trans (full_biUnion _ _ _)

/-- The six families of chunks are the whole result array. -/
private theorem chunks_cover (c : Dev nD) :
    ((Finset.Ico 0 64).biUnion (fun k => rows (rowOwn c k) 512)) ∪ ((Finset.Ico 0 84).biUnion (fun i => rows (rowZR c i) 128))
      ∪ ((Finset.Ico 0 64).biUnion (fun i => rows (rowH1P c i) 128)) ∪ ((Finset.Ico 0 64).biUnion (fun i => rows (rowH1N c i) 128))
      ∪ ((Finset.Ico 0 22).biUnion (fun j => rows (rowH2P c j) 128)) ∪ ((Finset.Ico 0 22).biUnion (fun j => rows (rowH2N c j) 128))
      = (Finset.univ : Finset S65536x1024.Idx) := by
  refine Finset.eq_univ_iff_forall.mpr fun i => ?_
  simp only [Finset.mem_union, Finset.mem_biUnion, Finset.mem_Ico]
  rcases cover c i with ⟨k, hk, h⟩ | ⟨k, hk, h⟩ | ⟨k, hk, h⟩ | ⟨k, hk, h⟩ | ⟨k, hk, h⟩ | ⟨k, hk, h⟩
  · exact Or.inl (Or.inl (Or.inl (Or.inl (Or.inl ⟨k, ⟨Nat.zero_le _, hk⟩, h⟩))))
  · exact Or.inl (Or.inl (Or.inl (Or.inl (Or.inr ⟨k, ⟨Nat.zero_le _, hk⟩, h⟩))))
  · exact Or.inl (Or.inl (Or.inl (Or.inr ⟨k, ⟨Nat.zero_le _, hk⟩, h⟩)))
  · exact Or.inl (Or.inl (Or.inr ⟨k, ⟨Nat.zero_le _, hk⟩, h⟩))
  · exact Or.inl (Or.inr ⟨k, ⟨Nat.zero_le _, hk⟩, h⟩)
  · exact Or.inr ⟨k, ⟨Nat.zero_le _, hk⟩, h⟩

/-- Every chunk of the result array at the gathered result: the whole array at the gathered result. -/
private theorem chunks_join (c : Dev nD) :
    iprop((seg 0 64 fun k => holdsOn m c (rows (rowOwn c k) 512))
      ∗ (((seg 0 64 fun i => holdsAt m fullShare.left c (rows (rowZR c i) 128))
          ∗ (seg 0 64 fun i => holdsAt m fullShare.right c (rows (rowZR c i) 128)))
        ∗ (seg 0 20 fun j => holdsOn m c (rows (rowZR c (64 + j)) 128)))
      ∗ ((seg 0 22 fun i => holdsOn m c (rows (rowH1P c i) 128)) ∗ (seg 22 64 fun i => holdsOn m c (rows (rowH1P c i) 128)))
      ∗ ((seg 0 22 fun i => holdsOn m c (rows (rowH1N c i) 128)) ∗ (seg 22 44 fun i => holdsOn m c (rows (rowH1N c i) 128))
        ∗ (seg 44 64 fun i => holdsOn m c (rows (rowH1N c i) 128)))
      ∗ (seg 0 22 fun j => holdsOn m c (rows (rowH2P c j) 128))
      ∗ (seg 0 22 fun j => holdsOn m c (rows (rowH2N c j) 128)))
      ⊢ ((((c : Thread nD τ).loc main_v1) ↦{fullShare} goal m c) : sProp 𝕄) := by
  -- the halves of the z-peer's first 64 chunks rejoin
  have hz : iprop((seg 0 64 fun i => holdsAt m fullShare.left c (rows (rowZR c i) 128))
      ∗ (seg 0 64 fun i => holdsAt m fullShare.right c (rows (rowZR c i) 128)))
      ⊢ seg 0 64 fun i => holdsOn m c (rows (rowZR c i) 128) := by
    rw [← seg_sep]
    unfold seg
    exact bigSep_mono fun i _ => (holdsOn_halves m c _).2
  -- its last 20 are chunks 64 … 83, and with the first 64 they are one family
  have hl : (seg 0 20 fun j => holdsOn m c (rows (rowZR c (64 + j)) 128)) = seg 64 84 fun i => holdsOn m c (rows (rowZR c i) 128) :=
    (seg_shift 64 20 fun i => holdsOn m c (rows (rowZR c i) 128)).symm
  have hzz : iprop((seg 0 64 fun i => holdsOn m c (rows (rowZR c i) 128)) ∗ seg 64 84 fun i => holdsOn m c (rows (rowZR c i) 128))
      = seg 0 84 fun i => holdsOn m c (rows (rowZR c i) 128) := (seg_split (by omega) (by omega) _).symm
  -- the forwards from each ring neighbour, held in pieces by what was relayed on, are one family each
  have hp : iprop((seg 0 22 fun i => holdsOn m c (rows (rowH1P c i) 128)) ∗ (seg 22 64 fun i => holdsOn m c (rows (rowH1P c i) 128)))
      = seg 0 64 fun i => holdsOn m c (rows (rowH1P c i) 128) := (seg_split (by omega) (by omega) _).symm
  have hn : iprop((seg 0 22 fun i => holdsOn m c (rows (rowH1N c i) 128)) ∗ (seg 22 44 fun i => holdsOn m c (rows (rowH1N c i) 128))
        ∗ (seg 44 64 fun i => holdsOn m c (rows (rowH1N c i) 128)))
      = seg 0 64 fun i => holdsOn m c (rows (rowH1N c i) 128) := by
    rw [← seg_split (lo := 22) (mid := 44) (hi := 64) (by omega) (by omega), ← seg_split (lo := 0) (mid := 22) (hi := 64) (by omega) (by omega)]
  iintro ⟨HO, ⟨HLR, HL⟩, HP, HN, H2P, H2N⟩
  ihave HZ := hz $$ HLR
  ihave HL := (Entails.of_eq hl) $$ HL
  ihave HZ := (Entails.of_eq hzz) $$ [HZ HL]
  · isplitl [HZ]
    · iexact HZ
    · iexact HL
  ihave HP := (Entails.of_eq hp) $$ HP
  ihave HN := (Entails.of_eq hn) $$ HN
  ihave HO := (family_join m c 0 64 (rowOwn c) 512) $$ HO
  ihave HZ := (family_join m c 0 84 (rowZR c) 128) $$ HZ
  ihave HP := (family_join m c 0 64 (rowH1P c) 128) $$ HP
  ihave HN := (family_join m c 0 64 (rowH1N c) 128) $$ HN
  ihave H2P := (family_join m c 0 22 (rowH2P c) 128) $$ H2P
  ihave H2N := (family_join m c 0 22 (rowH2N c) 128) $$ H2N
  ihave H := full_join $$ [HO HZ]
  · isplitl [HO]
    · iexact HO
    · iexact HZ
  ihave H := full_join $$ [H HP]
  · isplitl [H]
    · iexact H
    · iexact HP
  ihave H := full_join $$ [H HN]
  · isplitl [H]
    · iexact H
    · iexact HN
  ihave H := full_join $$ [H H2P]
  · isplitl [H]
    · iexact H
    · iexact H2P
  ihave H := full_join $$ [H H2N]
  · isplitl [H]
    · iexact H
    · iexact H2N
  iapply (Entails.of_eq (congrArg (fun S => ((((c : Thread nD τ).loc main_v1) ↦[S]{fullShare} goal m c) : sProp 𝕄)) (chunks_cover c)))
  iexact H

/-! ## Leaving the body -/

/-- The theorem's `hout`: every own cell closed, the staging buffer whole again, the chunks of each array rejoined. -/
theorem phi1_exit (c : Dev nD) :
    Φ₁ m c ⊢ iprop(Y m c ∗ Pipeline.ownSems0 osem c ∗ Pipeline.scopedRest cfg0.spec c) := by
  unfold Φ₁ Y
  iintro H
  ihave H := (done_shape m c) $$ H
  icases H with ⟨HS, HV, HX, HC⟩
  isplitl [HX HC]
  · isplitl [HX]
    · iapply (xrows_join m c)
      iexact HX
    · iapply (chunks_join m c)
      iexact HC
  isplitl [HS]
  · iapply (sems_join c)
    iexact HS
  · iapply (slots_join c)
    iexact HV

/-- The theorem's `hY`: what the device leaves with, read against the final memory: the result array IS the gathered
    result and the argument block what it was. -/
theorem read_final (c : Dev nD) (s' : Phys nD τ sig (Elt F)) :
    iprop(Y m c ∗ emp ∗ SI s') ⊢ |={Set.univ}=> iprop(⌜QY m c s'.mem⌝ ∗ SI s') := by
  unfold Y
  iintro ⟨⟨Hx, Ho⟩, -, HSI⟩
  -- each whole-buffer points-to, at whatever share, agrees with the memory at every index
  icombine HSI Hx gives %hx
  icombine HSI Ho gives %ho
  imodintro
  isplitr
  · ipureintro
    exact ⟨Buf.eq_of_forall_mem_univ ho, Buf.eq_of_forall_mem_univ hx⟩
  iexact HSI

/-- info: 'Cert.KernelIdeal.AG.phi1_exit' depends on axioms: [propext, Classical.choice, Quot.sound] -/
#guard_msgs in #print axioms phi1_exit

/-- info: 'Cert.KernelIdeal.AG.read_final' depends on axioms: [propext, Classical.choice, Quot.sound] -/
#guard_msgs in #print axioms read_final

end Cert.KernelIdeal.AG

end
-- ==== Proof.StepsBar.lean ====
/-
  The barrier: three signals, each lending the chunks the signalled device will write, then one wait for the three units the peers send, with which their lent chunks arrive.
-/
import proofs.«900672_g7700000000000673_dist_ag_v7x_xyz2x2x2_z_m32768_n1024_f32_1_alg».proof.Proof.Base
import proofs.«900672_g7700000000000673_dist_ag_v7x_xyz2x2x2_z_m32768_n1024_f32_1_alg».proof.Proof.Sets
import proofs.«900672_g7700000000000673_dist_ag_v7x_xyz2x2x2_z_m32768_n1024_f32_1_alg».proof.Proof.Routes

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A device's loan with its `s`-th signal is the payload of the duty that signal pays at the signalled device's
    barrier cell: that duty names the chunks the PAYER's array offers, and going to a neighbour and back (to the z-peer
    and back; to the next device and to its previous one; to the previous and to its next) is the identity. -/
private theorem myLend_eq (c : Dev nD) (s : Nat) (hs : s < 3) :
    myLend (F := F) c s = barPay (F := F) (sigPeer c s) (sigDuty s) := by
  have h0 : ∀ (hi : Nat) (Φ : Nat → sProp 𝕄), seg 0 hi Φ = bigSep (Finset.range hi) Φ := fun hi Φ => by
    unfold seg; rw [Finset.range_eq_Ico]
  obtain rfl | rfl | rfl : s = 0 ∨ s = 1 ∨ s = 2 := by omega
  · unfold myLend sigPeer sigDuty
    rw [if_pos rfl, if_pos rfl, if_pos rfl, h0]
    show _ = bigSep (Finset.range 84) fun i => lentOn (F := F) (zpeer (zpeer c)) (rows (rowZR (zpeer (zpeer c)) i) 128)
    rw [zpeer_zpeer]
  · unfold myLend sigPeer sigDuty
    rw [if_neg (by decide), if_pos rfl, if_neg (by decide), if_pos rfl, if_neg (by decide), if_pos rfl, h0, h0]
    show _ = iprop((bigSep (Finset.range 64) fun i => lentOn (F := F) (prv (nxt c)) (rows (rowH1N (prv (nxt c)) i) 128))
      ∗ bigSep (Finset.range 22) fun j => lentOn (F := F) (prv (nxt c)) (rows (rowH2N (prv (nxt c)) j) 128))
    rw [prv_nxt]
  · unfold myLend sigPeer sigDuty
    rw [if_neg (by decide), if_neg (by decide), if_neg (by decide), if_neg (by decide), if_neg (by decide), if_neg (by decide), h0, h0]
    show _ = iprop((bigSep (Finset.range 64) fun i => lentOn (F := F) (nxt (prv c)) (rows (rowH1P (nxt (prv c)) i) 128))
      ∗ bigSep (Finset.range 22) fun j => lentOn (F := F) (nxt (prv c)) (rows (rowH2P (nxt (prv c)) j) 128))
    rw [nxt_prv]

/-- The three payloads of a device's barrier round are the five families of chunks its three neighbours lend it, every
    chunk of each family (the z-peer's 84, and 64 + 22 of the next and of the previous ring device): the intervals of
    chunks not yet written, while their lower ends are all 0. -/
private theorem barPay_segs (c : Dev nD) {z a b d e : Nat} (hz : z = 0) (ha : a = 0) (hb : b = 0) (hd : d = 0) (he : e = 0) :
    iprop(barPay (F := F) c 0 ∗ barPay (F := F) c 1 ∗ barPay (F := F) c 2) ⊢
      iprop((seg z 84 fun i => lentOn (F := F) (zpeer c) (rows (rowZR (zpeer c) i) 128))
          ∗ (seg a 64 fun i => lentOn (F := F) (nxt c) (rows (rowH1P (nxt c) i) 128))
          ∗ (seg b 64 fun i => lentOn (F := F) (prv c) (rows (rowH1N (prv c) i) 128))
          ∗ (seg d 22 fun j => lentOn (F := F) (nxt c) (rows (rowH2P (nxt c) j) 128))
          ∗ (seg e 22 fun j => lentOn (F := F) (prv c) (rows (rowH2N (prv c) j) 128))) := by
  subst hz ha hb hd he
  unfold seg
  rw [← Finset.range_eq_Ico, ← Finset.range_eq_Ico, ← Finset.range_eq_Ico]
  rw [show barPay (F := F) c 0 = bigSep (Finset.range 84) fun i => lentOn (F := F) (zpeer c) (rows (rowZR (zpeer c) i) 128) from rfl,
    show barPay (F := F) c 1 = iprop((bigSep (Finset.range 64) fun i => lentOn (F := F) (prv c) (rows (rowH1N (prv c) i) 128))
      ∗ bigSep (Finset.range 22) fun j => lentOn (F := F) (prv c) (rows (rowH2N (prv c) j) 128)) from rfl,
    show barPay (F := F) c 2 = iprop((bigSep (Finset.range 64) fun i => lentOn (F := F) (nxt c) (rows (rowH1P (nxt c) i) 128))
      ∗ bigSep (Finset.range 22) fun j => lentOn (F := F) (nxt c) (rows (rowH2P (nxt c) j) 128)) from rfl]
  iintro ⟨H0, ⟨H1a, H1b⟩, ⟨H2a, H2b⟩⟩
  isplitl [H0]; · iexact H0
  isplitl [H2a]; · iexact H2a
  isplitl [H1a]; · iexact H1a
  isplitl [H2b]; · iexact H2b
  iexact H1b

/-- A barrier signal, the `n.sig`-th: to the z-peer, the next or the previous device. -/
theorem step_sig (K : CellIx → ℕ) (c : Dev nD) (n : Cnt) {α : Type} {Q : α → sProp 𝕄}
    {k : PUnit → Prog (TpuEff nD τ sig (Elt F) Λ₀ .tc) α}
    (hs : n.sig < 3) (dev : Dev nD) (hdev : dev = sigPeer c n.sig) (k' : Nat) (hk : k' = 1) :
    iprop(Ctx m K ∗ St m c n ∗ (St m c { n with sig := n.sig + 1 } -∗ WP c (k ⟨⟩) Q))
      ⊢ WP c (.op (.semSignal ((dev, .tc) : Thread nD τ) barS k') k) Q := by
  subst hdev hk
  unfold Ctx St StR
  dsimp only
  -- the signal's index leaves the interval of the signals still to send
  rw [seg_pop hs]
  -- what the device lends with this signal is the payload of the duty it pays
  have hpay : myLend (F := F) c n.sig
      ⊢ (agRd (F := F) m).payload (((sigPeer c n.sig, .tc) : Thread nD τ), SemLoc.reg barS) 0 (sigDuty n.sig) :=
    Entails.of_eq ((myLend_eq c n.sig hs).trans (payload_bar m (sigPeer c n.sig) (sigDuty n.sig)).symm)
  iintro ⟨⟨#HI, #Hlev⟩, ⟨⟨%W, HO⟩, ⟨⟨Htok, Hlend⟩, Hsig⟩, Hrest⟩, Hk⟩
  -- the signal pays duty `sigDuty n.sig` of the peer's barrier round with the loan, one unit off what is owed
  iapply (wp_signal 𝒱₀ ER (agRd m) (c : Thread nD τ) none (dst := ((sigPeer c n.sig, .tc) : Thread nD τ)) (sem := barS) (r := 0)
    (d := sigDuty n.sig) (κ := K (sigPeer c n.sig, none))
    (by rw [show (((sigPeer c n.sig, .tc) : Thread nD τ), SemLoc.reg barS) = barCell (sigPeer c n.sig) from rfl, duties_bar]; exact Finset.mem_univ _)
    (amount_bar m (sigPeer c n.sig) 0 (sigDuty n.sig)) () (Owed c { n with sig := n.sig + 1 }) (Owed_sig c n hs))
    $$ [HO Htok Hlend]
  · isplitr; · iapply (recs_inv m K (sigPeer c n.sig, none)); iexact HI
    isplitl [HO]; · iexact HO
    isplitl [Htok]; · iexact Htok
    isplitl [Hlend]
    · iapply hpay; iexact Hlend
    iapply (recs_reached m K (sigPeer c n.sig, none)); iexact HI
  iintro HO
  iapply Hk
  isplitl [HO]; · iexists W; iexact HO
  isplitl [Hsig]; · iexact Hsig
  iexact Hrest

/-- The barrier wait for its three units, every signal sent and no copy enqueued yet: the three peers' chunks arrive. -/
theorem step_barwait (K : CellIx → ℕ) (c : Dev nD) (n : Cnt) {α : Type} {Q : α → sProp 𝕄}
    {k : PUnit → Prog (TpuEff nD τ sig (Elt F) Λ₀ .tc) α}
    (hs : n.sig = 3) (hb : n.bw = false) (hz : n.zs = 0) (h1 : n.n1 = 0) (h2 : n.p1 = 0) (h3 : n.n2 = 0) (h4 : n.p2 = 0)
    (k' : Nat) (hk : k' = 3) :
    iprop(Ctx m K ∗ St m c n ∗ (St m c { n with bw := true } -∗ WP c (k ⟨⟩) Q))
      ⊢ WP c (.op (.semWait barS k') k) Q := by
  subst hk
  unfold Ctx St StR
  dsimp only
  -- before the wait the device holds its barrier cell's position and credit and none of the loans; after it, the loans
  rw [hb, if_neg Bool.false_ne_true, if_neg Bool.false_ne_true, if_pos (rfl : true = true), if_pos (rfl : true = true),
    show Owed c { n with bw := true } = Owed c n from rfl]
  iintro ⟨⟨#HI, #Hlev⟩, ⟨⟨%W, HO⟩, Hsig, ⟨Hat, Hcred⟩, -, Hrest⟩, Hk⟩
  -- the barrier sits at level 1; with every signal sent, whatever is still owed is a copy's arrival, at level 2 or above
  iapply (wp_wait_rest_token 𝒱₀ ER (agRd m) (c : Thread nD τ) none (wpE_semWait_eq 𝒱₀ (c : Thread nD τ) none Set.univ)
    (Set.mem_univ (K (c, none))) () (R := 0) (T := ∅) (m := 0) (by rw [Nat.zero_add]; exact (expect_bar m c).symm))
    $$ [Hcred HO Hat]
  · isplitr; · iapply (recs_inv m K (c, none)); iexact HI
    isplitl [Hcred]; · iexact Hcred
    isplitl [HO]; · iexact HO
    isplitr
    · iapply (mayWait_lvl c (.reg barS) (Owed c n) 1 (le_refl 1) (fun g u h => by
        obtain ⟨htc, h' | h' | h' | h'⟩ := Owed_pos c n g u h
        · exact absurd h'.1 (by omega)
        · exact ⟨htc, by omega⟩
        · exact ⟨htc, by omega⟩
        · exact ⟨htc, by omega⟩))
      iexact Hlev
    iexact Hat
  -- the cell is the runtime's: its position after the round is dropped; the round's payloads are the neighbours' loans
  iintro ⟨HO, -, -, Hpay⟩
  ihave Hpay := (Entails.of_eq (rest_bar m c)) $$ Hpay
  ihave Hpay := (barPay_segs c hz h1 h2 h3 h4) $$ Hpay
  iapply Hk
  isplitl [HO]; · iexists _; iexact HO
  isplitl [Hsig]; · iexact Hsig
  isplitr; · iempintro
  isplitl [Hpay]; · iexact Hpay
  iexact Hrest

/-- info: 'Cert.KernelIdeal.AG.step_sig' depends on axioms: [propext, Classical.choice, Quot.sound] -/
#guard_msgs in #print axioms step_sig

/-- info: 'Cert.KernelIdeal.AG.step_barwait' depends on axioms: [propext, Classical.choice, Quot.sound] -/
#guard_msgs in #print axioms step_barwait

end Cert.KernelIdeal.AG

end
-- ==== Proof.StepsSend.lean ====
/-
  The addressed copies: the device's own rows to its z-peer, a received chunk forwarded to both ring neighbours, a forwarded chunk relayed one step further. Each spends the two duty tokens, lends its source, writes rows the target lent, and takes its arrival off what is owed.
-/
import proofs.«900672_g7700000000000673_dist_ag_v7x_xyz2x2x2_z_m32768_n1024_f32_1_alg».proof.Proof.Base
import proofs.«900672_g7700000000000673_dist_ag_v7x_xyz2x2x2_z_m32768_n1024_f32_1_alg».proof.Proof.Sets
import proofs.«900672_g7700000000000673_dist_ag_v7x_xyz2x2x2_z_m32768_n1024_f32_1_alg».proof.Proof.Routes

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local irreducible] seg

/-! ## Small facts used by every copy -/

/-- An interval with the next index's conjunct beside it is the interval one longer (when the interval is void
    the conjunct is dropped). -/
private theorem seg_snoc {lo hi : Nat} (Φ : Nat → sProp 𝕄) : iprop(seg lo hi Φ ∗ Φ hi) ⊢ seg lo (hi + 1) Φ := by
  by_cases h : lo ≤ hi
  · rw [seg_push h]
  · rw [seg_empty (show hi + 1 ≤ lo by omega) Φ]
    exact Affine.affine

/-- Two rows of the argument block with the same row number hold the same element. -/
private theorem row_congr {β : Type} (f : S32768x1024.Idx → β) {a b : Nat} (ha : a < 32768) (hb : b < 32768) (y : Fin 1024) (h : a = b) :
    f (Shape.pair (d := ![32768, 1024]) ⟨a, ha⟩ y) = f (Shape.pair (d := ![32768, 1024]) ⟨b, hb⟩ y) := by
  subst h; rfl

/-! ## The common core -/

/-- An addressed copy of one chunk, from a source slice held at a share into rows the target device lent: it spends
    the two duty tokens of its send cell and of the target's receive cell, takes the arrival off what is owed, and
    returns the send cell's credit. The two payload entailments say what the schedule promises at those cells. -/
private theorem send_core (K : CellIx → ℕ) (c : Dev nD) {α : Type} {Q : α → sProp 𝕄} {k : PUnit → Prog (TpuEff nD τ sig (Elt F) Λ₀ .tc) α}
    {src : Memref sig .tc .hbm S128x1024 .f32} (d : Dev nD)
    (offd : Fin 2 → Nat) (hd : ∀ a, offd a + S128x1024.size a ≤ S65536x1024.size a) (Rd : Nat) (hod : offd = ![Rd, 0])
    (sS sR : DmaSem sig) (kS kR : Nat) (hsS : sS.val = kS) (hsR : sR.val = kR) (hS4 : 4 ≤ kS) (hR4 : 4 ≤ kR)
    (q : PosShare TreeShare) (fs : Buf (Elt F) (src.view.loc (c : Thread nD τ)))
    (S : Finset _) (hS : src.view.set = S) (Src : sProp 𝕄) (hSrc : Src = (src.view.loc (c : Thread nD τ) ↦[S]{q} fs))
    (O₀ O : CellTallies nD τ sig Unit) (hO : O₀ = O + tallyAt (dcn d kR) () N128)
    (hpay₁ : (src.view.loc (c : Thread nD τ) ↦[S]{q} fs) ⊢ dmaPay m c kS 0)
    (hpay₂ : ∀ fd : Buf (Elt F) ((d : Thread nD τ).loc main_v1),
      (((d : Thread nD τ).loc main_v1) ↦[rows Rd 128]{fullShare}
          ((oS128 offd hd).view.write (Elt F) fd (src.view.read (Elt F) fs) Finset.univ)) ⊢ dmaPay m d kR 0)
    {hsc hsrc hdst hsem} :
    iprop(Ctx m K ∗ (∃ W, owes (c : Thread nD τ) O₀ W) ∗ toks (F := F) (dcn c kS) (dcn d kR)
        ∗ Src ∗ lentOn (F := F) d (rows Rd 128)
        ∗ (((∃ W, owes (c : Thread nD τ) O W) ∗ cred (tallyAt (dcn c kS) () N128)) -∗ WP c (k ⟨⟩) Q))
      ⊢ WP c (.op (.enqueueDma src (.remote (Dev.tc d : Thread nD τ) (oS128 offd hd) (.dma sS) hsc) (.dma sR) hsrc hdst hsem) k) Q := by
  subst hsS hsR hS hSrc
  rw [← dcn_of_val c sS _ rfl, ← dcn_of_val d sR _ rfl]
  rw [← dcn_of_val d sR _ rfl] at hO
  unfold Ctx toks lentOn
  iintro ⟨⟨#Hrecs, #Hlev⟩, ⟨%W, HO⟩, ⟨Ht₁, Ht₂⟩, Hsrc, ⟨%fd, Hdst⟩, Hk⟩
  have h := wp_send_pointsTo (Γ := .empty) (defs := defs₀ (F := F)) 𝒱₀ ER (agRd m) (c : Thread nD τ) none
    (hsc := hsc) (hsrc := hsrc) (hdst := hdst) (hsem := hsem) (Es := Set.univ) (Q := Q)
    (src := src) (dst := oS128 offd hd) (c' := (Dev.tc d : Thread nD τ)) (sS := .dma sS) (sem := .dma sR) (k := k)
    (q := q) (fs := fs) (fd := fd) (W := W) (r₁ := 0) (r₂ := 0) (d₁ := 0) (d₂ := 0)
    (κ₁ := K (c, some sS)) (κ₂ := K (d, some sR))
    (by rw [duties_dma m c sS hS4]; exact Finset.mem_singleton_self _)
    (by rw [duties_dma m d sR hR4]; exact Finset.mem_singleton_self _)
    () () N128 rfl (amount_dma m c sS hS4 0 0) (amount_dma m d sR hR4 0 0)
    (O₀ := O₀) O hO
    (by rw [payload_dma]; exact hpay₁)
    (by rw [payload_dma, oSlice128_set offd hd Rd hod]; exact hpay₂ fd)
  rw [oSlice128_set offd hd Rd hod] at h
  iapply h $$ [Hsrc Hdst HO Ht₁ Ht₂] [Hk]
  · isplitr; · iapply (recs_inv m K (c, some sS)); iexact Hrecs
    isplitr; · iapply (recs_inv m K (d, some sR)); iexact Hrecs
    isplitl [Hsrc]; · iexact Hsrc
    isplitl [Hdst]; · iexact Hdst
    isplitl [HO]; · iexact HO
    isplitl [Ht₁]; · iexact Ht₁
    isplitr; · iapply (recs_reached m K (c, some sS)); iexact Hrecs
    isplitl [Ht₂]; · iexact Ht₂
    iapply (recs_reached m K (d, some sR)); iexact Hrecs
  · iintro ⟨Hc, HO'⟩
    iapply Hk
    isplitl [HO']
    · iexists W; iexact HO'
    · iexact Hc

/-! ## The copies to the z-peer -/

/-- What the z-peer's receive cell is promised: the rows written hold the z-peer's gathered result, which there is
    the sender's own argument block at the matching rows. -/
private theorem zr_pay (c : Dev nD) (i : Nat) (hi : i < 84) (offs offd : Fin 2 → Nat)
    (hs : ∀ a, offs a + S128x1024.size a ≤ S32768x1024.size a) (hd : ∀ a, offd a + S128x1024.size a ≤ S65536x1024.size a)
    (hos : offs = ![rowZS c i, 0]) (hod : offd = ![rowZR (zpeer c) i, 0])
    (fd : Buf (Elt F) ((zpeer c : Thread nD τ).loc main_v1)) :
    (((zpeer c : Thread nD τ).loc main_v1) ↦[rows (rowZR (zpeer c) i) 128]{fullShare}
        ((oS128 offd hd).view.write (Elt F) fd ((xS128 offs hs).view.read (Elt F) (m ((c : Thread nD τ).loc main_arg0))) Finset.univ))
      ⊢ dmaPay m (zpeer c) (88 + i) 0 := by
  rw [dmaPay_zr m (zpeer c) i hi 0]
  unfold holdsOn
  iintro H
  iexists _
  isplitl [H]
  · iexact H
  · ipureintro
    intro j hj
    have hj' := hj
    rw [mem_rows, rowZR_zpeer] at hj'
    have hle := rowZS_le c i hi
    have hz := (zc c).isLt
    refine (land_x_to_o offs offd hs hd (rowZS c i) (rowZR (zpeer c) i) hos hod hle _ fd j hj).trans ?_
    refine Eq.trans ?_ (goal_z m c i hi j hj).symm
    refine row_congr _ _ _ _ ?_
    rw [rowZR_zpeer]
    unfold mbase at hj' ⊢
    omega

/-- The `n.zs`-th copy to the z-peer: rows of the argument block (their left share is lent) into rows of the z-peer's result that it lent at the barrier. -/
theorem step_zsend (K : CellIx → ℕ) (c : Dev nD) (n : Cnt) {α : Type} {Q : α → sProp 𝕄} {k : PUnit → Prog (TpuEff nD τ sig (Elt F) Λ₀ .tc) α} (hb : n.bw = true) (hz : n.zs < 84) (dev : Dev nD) (hdev : dev = zpeer c)
    (offs offd : Fin 2 → Nat) (hs hd) (hos : offs = ![rowZS c n.zs, 0]) (hod : offd = ![rowZR (zpeer c) n.zs, 0])
    (sS sR : DmaSem sig) (hsS : sS.val = 4 + n.zs) (hsR : sR.val = 88 + n.zs) {hsc hsrc hdst hsem} :
    iprop(Ctx m K ∗ St m c n ∗ (St m c { n with zs := n.zs + 1 } -∗ WP c (k ⟨⟩) Q))
      ⊢ WP c (.op (.enqueueDma (xS128 offs hs) (.remote (Dev.tc dev : Thread nD τ) (oS128 offd hd) (.dma sS) hsc) (.dma sR) hsrc hdst hsem) k) Q := by
  subst hdev
  have hp₁ : (((c : Thread nD τ).loc main_arg0) ↦[xrows (rowZS c n.zs) 128]{fullShare.left} m ((c : Thread nD τ).loc main_arg0))
      ⊢ dmaPay m c (4 + n.zs) 0 := by
    rw [dmaPay_zs m c n.zs hz 0]; unfold xAt; exact .rfl
  have hcore := send_core m K c (Q := Q) (k := k) (src := xS128 offs hs) (zpeer c) offd hd (rowZR (zpeer c) n.zs) hod sS sR (4 + n.zs) (88 + n.zs) hsS hsR
    (by omega) (by omega) fullShare.left (m ((c : Thread nD τ).loc main_arg0)) (xrows (rowZS c n.zs) 128) (xSlice128_set offs hs _ hos)
    (xAt m fullShare.left c (xrows (rowZS c n.zs) 128)) rfl
    (Owed c n) (Owed c { n with zs := n.zs + 1 }) (Owed_zs c n hz) hp₁ (fun fd => zr_pay m c n.zs hz offs offd hs hd hos hod fd)
    (hsc := hsc) (hsrc := hsrc) (hdst := hdst) (hsem := hsem)
  unfold St StR
  dsimp only
  simp only [hb, ↓reduceIte]
  rw [seg_pop hz, seg_pop hz]
  iintro ⟨#HC, ⟨HO, Hsig, Hbw, ⟨⟨Hd, Hl0⟩, Hl1, Hl2, Hl3, Hl4⟩, ⟨⟨Htok, Hx⟩, Hzs⟩, Hcr, Hrest⟩, Hk⟩
  iapply hcore
  isplitr; · iexact HC
  isplitl [HO]; · iexact HO
  isplitl [Htok]; · iexact Htok
  isplitl [Hx]; · iexact Hx
  isplitl [Hd]; · iexact Hd
  iintro ⟨HO', Hc⟩
  iapply Hk
  isplitl [HO']; · iexact HO'
  isplitl [Hsig]; · iexact Hsig
  isplitl [Hbw]; · iexact Hbw
  isplitl [Hl0 Hl1 Hl2 Hl3 Hl4]
  · isplitl [Hl0]; · iexact Hl0
    isplitl [Hl1]; · iexact Hl1
    isplitl [Hl2]; · iexact Hl2
    isplitl [Hl3]; · iexact Hl3
    iexact Hl4
  isplitl [Hzs]; · iexact Hzs
  isplitl [Hcr Hc]
  · iapply seg_snoc
    isplitl [Hcr]; · iexact Hcr
    iexact Hc
  iexact Hrest

/-! ## Forwards and relays: a chunk of the result array copied to the same rows of a ring neighbour's -/

/-- What the neighbour's receive cell is promised: the rows written hold the neighbour's gathered result, because the
    chunk read held the sender's, and on those rows the two devices' gathered results agree. -/
private theorem fwd_pay (c d : Dev nD) (offs offd : Fin 2 → Nat)
    (hs : ∀ a, offs a + S128x1024.size a ≤ S65536x1024.size a) (hd : ∀ a, offd a + S128x1024.size a ≤ S65536x1024.size a)
    (R Rd : Nat) (hos : offs = ![R, 0]) (hod : offd = ![Rd, 0]) (hR : Rd = R)
    (f : Buf (Elt F) ((c : Thread nD τ).loc main_v1)) (hf : ∀ i ∈ rows R 128, f i = goal m c i)
    (hg : ∀ i ∈ rows R 128, goal m d i = goal m c i) (fd : Buf (Elt F) ((d : Thread nD τ).loc main_v1)) :
    (((d : Thread nD τ).loc main_v1) ↦[rows Rd 128]{fullShare}
        ((oS128 offd hd).view.write (Elt F) fd ((oS128 offs hs).view.read (Elt F) f) Finset.univ))
      ⊢ holdsOn m d (rows Rd 128) := by
  subst hR
  unfold holdsOn
  iintro H
  iexists _
  isplitl [H]
  · iexact H
  · ipureintro
    intro j hj
    exact (land_o_to_o offs offd hs hd Rd hos hod f fd j hj).trans ((hf j hj).trans (hg j hj).symm)

/-- A chunk held at a share at the gathered result is sent on: the share is lent to the copy (the send cell's payload),
    and the neighbour's rows, once written, hold its gathered result (the receive cell's payload). -/
private theorem fwd_core (K : CellIx → ℕ) (c : Dev nD) {α : Type} {Q : α → sProp 𝕄} {k : PUnit → Prog (TpuEff nD τ sig (Elt F) Λ₀ .tc) α} (d : Dev nD) (offs offd : Fin 2 → Nat)
    (hs : ∀ a, offs a + S128x1024.size a ≤ S65536x1024.size a) (hd : ∀ a, offd a + S128x1024.size a ≤ S65536x1024.size a)
    (R Rd : Nat) (hos : offs = ![R, 0]) (hod : offd = ![Rd, 0]) (hR : Rd = R)
    (sS sR : DmaSem sig) (kS kR : Nat) (hsS : sS.val = kS) (hsR : sR.val = kR) (hS4 : 4 ≤ kS) (hR4 : 4 ≤ kR)
    (q : PosShare TreeShare) (Src : sProp 𝕄) (hSrc : Src = holdsAt m q c (rows R 128))
    (O₀ O : CellTallies nD τ sig Unit) (hO : O₀ = O + tallyAt (dcn d kR) () N128)
    (hp₁ : dmaPay m c kS 0 = Src) (hp₂ : dmaPay m d kR 0 = holdsOn m d (rows Rd 128))
    (hg : ∀ i ∈ rows R 128, goal m d i = goal m c i) {hsc hsrc hdst hsem} :
    iprop(Ctx m K ∗ (∃ W, owes (c : Thread nD τ) O₀ W) ∗ toks (F := F) (dcn c kS) (dcn d kR)
        ∗ Src ∗ lentOn (F := F) d (rows Rd 128)
        ∗ (((∃ W, owes (c : Thread nD τ) O W) ∗ cred (tallyAt (dcn c kS) () N128)) -∗ WP c (k ⟨⟩) Q))
      ⊢ WP c (.op (.enqueueDma (oS128 offs hs) (.remote (Dev.tc d : Thread nD τ) (oS128 offd hd) (.dma sS) hsc) (.dma sR) hsrc hdst hsem) k) Q := by
  subst hSrc
  unfold holdsAt
  iintro ⟨#HC, HO, Htok, ⟨%f, Hf, %hf⟩, Hd, Hk⟩
  have hpay₁ : (((c : Thread nD τ).loc main_v1) ↦[rows R 128]{q} f) ⊢ dmaPay m c kS 0 := by
    rw [hp₁]
    unfold holdsAt
    iintro H
    iexists f
    isplitl [H]
    · iexact H
    · ipureintro; exact hf
  have hcore := send_core m K c (Q := Q) (k := k) (src := oS128 offs hs) d offd hd Rd hod sS sR kS kR hsS hsR hS4 hR4 q f
    (rows R 128) (oSlice128_set offs hs R hos) (((c : Thread nD τ).loc main_v1) ↦[rows R 128]{q} f) rfl O₀ O hO hpay₁
    (fun fd => by rw [hp₂]; exact fwd_pay m c d offs offd hs hd R Rd hos hod hR f hf hg fd)
    (hsc := hsc) (hsrc := hsrc) (hdst := hdst) (hsem := hsem)
  iapply hcore
  isplitr; · iexact HC
  isplitl [HO]; · iexact HO
  isplitl [Htok]; · iexact Htok
  isplitl [Hf]; · iexact Hf
  isplitl [Hd]; · iexact Hd
  iexact Hk

/-- The forward of chunk `n.n1` to the next device: the left half of the chunk is lent to the copy. -/
theorem step_n1 (K : CellIx → ℕ) (c : Dev nD) (n : Cnt) {α : Type} {Q : α → sProp 𝕄} {k : PUnit → Prog (TpuEff nD τ sig (Elt F) Λ₀ .tc) α} (hb : n.bw = true) (hi : n.n1 < n.zrw) (h64 : n.n1 < 64) (dev : Dev nD) (hdev : dev = nxt c)
    (offs offd : Fin 2 → Nat) (hs hd) (hos : offs = ![rowZR c n.n1, 0]) (hod : offd = ![rowH1P (nxt c) n.n1, 0])
    (sS sR : DmaSem sig) (hsS : sS.val = 172 + n.n1) (hsR : sR.val = 300 + n.n1) {hsc hsrc hdst hsem} :
    iprop(Ctx m K ∗ St m c n ∗ (St m c { n with n1 := n.n1 + 1 } -∗ WP c (k ⟨⟩) Q))
      ⊢ WP c (.op (.enqueueDma (oS128 offs hs) (.remote (Dev.tc dev : Thread nD τ) (oS128 offd hd) (.dma sS) hsc) (.dma sR) hsrc hdst hsem) k) Q := by
  subst hdev
  have hcore := fwd_core m K c (Q := Q) (k := k) (nxt c) offs offd hs hd (rowZR c n.n1) (rowH1P (nxt c) n.n1) hos hod (rowH1P_nxt c _ h64)
    sS sR (172 + n.n1) (300 + n.n1) hsS hsR (by omega) (by omega) fullShare.left (holdsAt m fullShare.left c (rows (rowZR c n.n1) 128)) rfl
    (Owed c n) (Owed c { n with n1 := n.n1 + 1 }) (Owed_n1 c n h64) (dmaPay_h1sn m c n.n1 h64 0) (dmaPay_h1rp m (nxt c) n.n1 h64 0)
    (fun i hi => goal_fwd_nxt m c n.n1 h64 i hi) (hsc := hsc) (hsrc := hsrc) (hdst := hdst) (hsem := hsem)
  unfold St StR
  dsimp only
  simp only [hb, ↓reduceIte]
  rw [seg_pop h64, seg_pop h64, seg_pop hi]
  iintro ⟨#HC, ⟨HO, H1, H2, ⟨Hl0, ⟨Hd, Hl1⟩, Hl2, Hl3, Hl4⟩, H4, H5, H6, H7, H8, H9, H10, H11, ⟨Hsrc, H12⟩, H13, H14, H15, ⟨Htok, H16⟩, H17, Hrest⟩, Hk⟩
  iapply hcore
  isplitr; · iexact HC
  isplitl [HO]; · iexact HO
  isplitl [Htok]; · iexact Htok
  isplitl [Hsrc]; · iexact Hsrc
  isplitl [Hd]; · iexact Hd
  iintro ⟨HO', Hc⟩
  iapply Hk
  isplitl [HO']; · iexact HO'
  iframe
  iapply seg_snoc
  iframe

/-- The forward of chunk `n.p1` to the previous device: the right half. -/
theorem step_p1 (K : CellIx → ℕ) (c : Dev nD) (n : Cnt) {α : Type} {Q : α → sProp 𝕄} {k : PUnit → Prog (TpuEff nD τ sig (Elt F) Λ₀ .tc) α} (hb : n.bw = true) (hi : n.p1 < n.zrw) (h64 : n.p1 < 64) (dev : Dev nD) (hdev : dev = prv c)
    (offs offd : Fin 2 → Nat) (hs hd) (hos : offs = ![rowZR c n.p1, 0]) (hod : offd = ![rowH1N (prv c) n.p1, 0])
    (sS sR : DmaSem sig) (hsS : sS.val = 236 + n.p1) (hsR : sR.val = 364 + n.p1) {hsc hsrc hdst hsem} :
    iprop(Ctx m K ∗ St m c n ∗ (St m c { n with p1 := n.p1 + 1 } -∗ WP c (k ⟨⟩) Q))
      ⊢ WP c (.op (.enqueueDma (oS128 offs hs) (.remote (Dev.tc dev : Thread nD τ) (oS128 offd hd) (.dma sS) hsc) (.dma sR) hsrc hdst hsem) k) Q := by
  subst hdev
  have hcore := fwd_core m K c (Q := Q) (k := k) (prv c) offs offd hs hd (rowZR c n.p1) (rowH1N (prv c) n.p1) hos hod (rowH1N_prv c _ h64)
    sS sR (236 + n.p1) (364 + n.p1) hsS hsR (by omega) (by omega) fullShare.right (holdsAt m fullShare.right c (rows (rowZR c n.p1) 128)) rfl
    (Owed c n) (Owed c { n with p1 := n.p1 + 1 }) (Owed_p1 c n h64) (dmaPay_h1sp m c n.p1 h64 0) (dmaPay_h1rn m (prv c) n.p1 h64 0)
    (fun i hi => goal_fwd_prv m c n.p1 h64 i hi) (hsc := hsc) (hsrc := hsrc) (hdst := hdst) (hsem := hsem)
  unfold St StR
  dsimp only
  simp only [hb, ↓reduceIte]
  rw [seg_pop h64, seg_pop h64, seg_pop hi]
  iintro ⟨#HC, ⟨HO, H1, H2, ⟨Hl0, Hl1, ⟨Hd, Hl2⟩, Hl3, Hl4⟩, H4, H5, H6, H7, H8, H9, H10, H11, H12, H13, ⟨Hsrc, H14⟩, H15, H16, H17, H18, H19, ⟨Htok, H20⟩, H21, Hrest⟩, Hk⟩
  iapply hcore
  isplitr; · iexact HC
  isplitl [HO]; · iexact HO
  isplitl [Htok]; · iexact Htok
  isplitl [Hsrc]; · iexact Hsrc
  isplitl [Hd]; · iexact Hd
  iintro ⟨HO', Hc⟩
  iapply Hk
  isplitl [HO']; · iexact HO'
  iframe
  iapply seg_snoc
  iframe

/-- The relay of chunk `n.n2` (received from the previous device) on to the next one. -/
theorem step_n2 (K : CellIx → ℕ) (c : Dev nD) (n : Cnt) {α : Type} {Q : α → sProp 𝕄} {k : PUnit → Prog (TpuEff nD τ sig (Elt F) Λ₀ .tc) α} (hb : n.bw = true) (hi : n.n2 < min n.rpw 22) (dev : Dev nD) (hdev : dev = nxt c)
    (offs offd : Fin 2 → Nat) (hs hd) (hos : offs = ![rowH1P c n.n2, 0]) (hod : offd = ![rowH2P (nxt c) n.n2, 0])
    (sS sR : DmaSem sig) (hsS : sS.val = 428 + n.n2) (hsR : sR.val = 472 + n.n2) {hsc hsrc hdst hsem} :
    iprop(Ctx m K ∗ St m c n ∗ (St m c { n with n2 := n.n2 + 1 } -∗ WP c (k ⟨⟩) Q))
      ⊢ WP c (.op (.enqueueDma (oS128 offs hs) (.remote (Dev.tc dev : Thread nD τ) (oS128 offd hd) (.dma sS) hsc) (.dma sR) hsrc hdst hsem) k) Q := by
  subst hdev
  have h22 : n.n2 < 22 := lt_of_lt_of_le hi (min_le_right _ _)
  have hcore := fwd_core m K c (Q := Q) (k := k) (nxt c) offs offd hs hd (rowH1P c n.n2) (rowH2P (nxt c) n.n2) hos hod (rowH2P_nxt c _)
    sS sR (428 + n.n2) (472 + n.n2) hsS hsR (by omega) (by omega) fullShare (holdsOn m c (rows (rowH1P c n.n2) 128)) rfl
    (Owed c n) (Owed c { n with n2 := n.n2 + 1 }) (Owed_n2 c n h22) (dmaPay_h2sn m c n.n2 h22 0) (dmaPay_h2rp m (nxt c) n.n2 h22 0)
    (fun i hi => goal_relay_nxt m c n.n2 h22 i hi) (hsc := hsc) (hsrc := hsrc) (hdst := hdst) (hsem := hsem)
  unfold St StR
  dsimp only
  simp only [hb, ↓reduceIte]
  rw [seg_pop h22, seg_pop h22, seg_pop hi]
  iintro ⟨#HC, ⟨HO, H1, H2, ⟨Hl0, Hl1, Hl2, ⟨Hd, Hl3⟩, Hl4⟩, H4, H5, H6, H7, H8, H9, H10, H11, H12, H13, H14, H15, H16, H17, H18, H19, H20, H21, H22, H23, H24, H25, ⟨Hsrc, H26⟩, H27, H28, H29, H30, H31, H32, H33, H34, ⟨Htok, H35⟩, H36, Hrest⟩, Hk⟩
  iapply hcore
  isplitr; · iexact HC
  isplitl [HO]; · iexact HO
  isplitl [Htok]; · iexact Htok
  isplitl [Hsrc]; · iexact Hsrc
  isplitl [Hd]; · iexact Hd
  iintro ⟨HO', Hc⟩
  iapply Hk
  isplitl [HO']; · iexact HO'
  iframe
  iapply seg_snoc
  iframe

/-- The relay of chunk `22 + n.p2` (received from the next device) back to the previous one. -/
theorem step_p2 (K : CellIx → ℕ) (c : Dev nD) (n : Cnt) {α : Type} {Q : α → sProp 𝕄} {k : PUnit → Prog (TpuEff nD τ sig (Elt F) Λ₀ .tc) α} (hb : n.bw = true) (hi : 22 + n.p2 < min n.rnw 44) (dev : Dev nD) (hdev : dev = prv c)
    (offs offd : Fin 2 → Nat) (hs hd) (hos : offs = ![rowH1N c (22 + n.p2), 0]) (hod : offd = ![rowH2N (prv c) n.p2, 0])
    (sS sR : DmaSem sig) (hsS : sS.val = 450 + n.p2) (hsR : sR.val = 494 + n.p2) {hsc hsrc hdst hsem} :
    iprop(Ctx m K ∗ St m c n ∗ (St m c { n with p2 := n.p2 + 1 } -∗ WP c (k ⟨⟩) Q))
      ⊢ WP c (.op (.enqueueDma (oS128 offs hs) (.remote (Dev.tc dev : Thread nD τ) (oS128 offd hd) (.dma sS) hsc) (.dma sR) hsrc hdst hsem) k) Q := by
  subst hdev
  have h22 : n.p2 < 22 := by have := lt_of_lt_of_le hi (min_le_right _ _); omega
  have hcore := fwd_core m K c (Q := Q) (k := k) (prv c) offs offd hs hd (rowH1N c (22 + n.p2)) (rowH2N (prv c) n.p2) hos hod (rowH2N_prv c _)
    sS sR (450 + n.p2) (494 + n.p2) hsS hsR (by omega) (by omega) fullShare (holdsOn m c (rows (rowH1N c (22 + n.p2)) 128)) rfl
    (Owed c n) (Owed c { n with p2 := n.p2 + 1 }) (Owed_p2 c n h22) (dmaPay_h2sp m c n.p2 h22 0) (dmaPay_h2rn m (prv c) n.p2 h22 0)
    (fun i hi => goal_relay_prv m c n.p2 h22 i hi) (hsc := hsc) (hsrc := hsrc) (hdst := hdst) (hsem := hsem)
  unfold St StR
  dsimp only
  simp only [hb, ↓reduceIte]
  rw [← Nat.add_assoc 22 n.p2 1]
  rw [seg_pop h22, seg_pop h22, seg_pop hi]
  iintro ⟨#HC, ⟨HO, H1, H2, ⟨Hl0, Hl1, Hl2, Hl3, ⟨Hd, Hl4⟩⟩, H4, H5, H6, H7, H8, H9, H10, H11, H12, H13, H14, H15, H16, H17, H18, H19, H20, H21, H22, H23, H24, H25, H26, H27, H28, H29, H30, H31, ⟨Hsrc, H32⟩, H33, H34, H35, H36, H37, H38, ⟨Htok, H39⟩, H40, Hrest⟩, Hk⟩
  iapply hcore
  isplitr; · iexact HC
  isplitl [HO]; · iexact HO
  isplitl [Htok]; · iexact Htok
  isplitl [Hsrc]; · iexact Hsrc
  isplitl [Hd]; · iexact Hd
  iintro ⟨HO', Hc⟩
  iapply Hk
  isplitl [HO']; · iexact HO'
  iframe
  iapply seg_snoc
  iframe

/-- info: 'Cert.KernelIdeal.AG.step_zsend' depends on axioms: [propext, Classical.choice, Quot.sound] -/
#guard_msgs in #print axioms step_zsend

/-- info: 'Cert.KernelIdeal.AG.step_n1' depends on axioms: [propext, Classical.choice, Quot.sound] -/
#guard_msgs in #print axioms step_n1

/-- info: 'Cert.KernelIdeal.AG.step_p1' depends on axioms: [propext, Classical.choice, Quot.sound] -/
#guard_msgs in #print axioms step_p1

/-- info: 'Cert.KernelIdeal.AG.step_n2' depends on axioms: [propext, Classical.choice, Quot.sound] -/
#guard_msgs in #print axioms step_n2

/-- info: 'Cert.KernelIdeal.AG.step_p2' depends on axioms: [propext, Classical.choice, Quot.sound] -/
#guard_msgs in #print axioms step_p2

end Cert.KernelIdeal.AG

end
-- ==== Proof.StepsRecv.lean ====
/-
  The waits for copies other devices make into this one: the rows arrive holding the gathered result, and the cell, which has one round, closes.
-/
import proofs.«900672_g7700000000000673_dist_ag_v7x_xyz2x2x2_z_m32768_n1024_f32_1_alg».proof.Proof.Base
import proofs.«900672_g7700000000000673_dist_ag_v7x_xyz2x2x2_z_m32768_n1024_f32_1_alg».proof.Proof.Sets
import proofs.«900672_g7700000000000673_dist_ag_v7x_xyz2x2x2_z_m32768_n1024_f32_1_alg».proof.Proof.Routes

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A wait on one of the device's own cells of one copy: the credit for the copy and the cell's position go in; the cell
    comes back closed, with what the copy's completion hands its owner. What is owed is unchanged. -/
private theorem wait_own (K : CellIx → ℕ) (c : Dev nD) {α : Type} {Q : α → sProp 𝕄} {k : PUnit → Prog (TpuEff nD τ sig (Elt F) Λ₀ .tc) α} (O : CellTallies nD τ sig Unit)
    {w : TpuEff nD τ sig (Elt F) Λ₀ .tc PUnit} (sR : DmaSem sig) (h4 : 4 ≤ sR.val)
    (hw : ∀ K' : PUnit → sProp 𝕄, wpE (defs₀ (F := F)) 𝒱₀ (c : Thread nD τ) none Set.univ w K' = waitSpec (c : Thread nD τ) Set.univ (.dma sR) N128 K')
    (hMW : (levAts L lv : sProp 𝕄) ⊢ MayWait (c : Thread nD τ) (.dma sR) () O) :
    iprop(Ctx m K ∗ (∃ W, owes (c : Thread nD τ) O W) ∗ pend (dcell c sR)
        ∗ (((∃ W, owes (c : Thread nD τ) O W) ∗ semVal (dcell c sR) 0 ∗ dmaPay m c sR.val 0) -∗ WP c (k ⟨⟩) Q))
      ⊢ WP c (.op w k) Q := by
  unfold Ctx pend
  iintro ⟨⟨#Hrecs, #Hlev⟩, ⟨%W, Howes⟩, ⟨Hat, Hcred⟩, Hk⟩
  ihave #Hinv := (recs_inv m K (c, some sR)) $$ Hrecs
  ihave Hmw := hMW $$ Hlev
  iapply (Rounds.wp_wait_rest_token 𝒱₀ ER (agRd m) (c : Thread nD τ) none hw (Set.mem_univ (K (c, some sR))) ()
    (R := 0) (m := 0) (T := ∅) (by rw [Nat.zero_add]; exact (expect_dma m c sR h4).symm)) $$ [Hcred Howes Hmw Hat]
  · isplitr; · iexact Hinv
    isplitl [Hcred]; · iexact Hcred
    isplitl [Howes]; · iexact Howes
    isplitl [Hmw]; · iexact Hmw
    iexact Hat
  iintro ⟨Howes, Hat, #Hr, Hpay⟩
  imod (Rounds.cell_close ER (agRd m) (Set.mem_univ (K (c, some sR))) (fun h => h) (R := 1)
    (fun r hr => duties_dma_later m c sR h4 r hr)) $$ [Hat] with Hsv
  · isplitr; · iexact Hinv
    iexact Hat
  iapply Hk
  isplitl [Howes]; · iexists _; iexact Howes
  isplitl [Hsv]; · iexact Hsv
  iapply (Entails.of_eq (rest_dma m c sR h4)) $$ Hpay

/-- Chunk `r` of a family of which the first 22 are passed on (those from `a` on not yet) joins the chunks kept: among
    the first 22 it extends the run still to be passed on, otherwise the run from 22 on. -/
private theorem keep_first (Φ : Nat → sProp 𝕄) (a r : Nat) (h : a ≤ r) :
    iprop(seg a (min r 22) Φ ∗ seg 22 r Φ ∗ Φ r) ⊢ iprop(seg a (min (r + 1) 22) Φ ∗ seg 22 (r + 1) Φ) := by
  by_cases h22 : r < 22
  · rw [Nat.min_eq_left (show r ≤ 22 by omega), Nat.min_eq_left (show r + 1 ≤ 22 by omega), seg_push h Φ,
      seg_empty (show r + 1 ≤ 22 by omega) Φ, seg_empty (show r ≤ 22 by omega) Φ]
    iintro ⟨H1, H2, H3⟩
    iframe
  · rw [Nat.min_eq_right (show 22 ≤ r by omega), Nat.min_eq_right (show 22 ≤ r + 1 by omega), seg_push (show 22 ≤ r by omega) Φ]

/-- Chunk `r` of a family of which chunks 22 … 43 are passed on (those from `22 + b` on not yet) joins the chunks kept:
    the run below 22, the run still to be passed on, or the run from 44 on. -/
private theorem keep_middle (Φ : Nat → sProp 𝕄) (b r : Nat) (h : b ≤ r - 22) :
    iprop(seg 0 (min r 22) Φ ∗ seg (22 + b) (min r 44) Φ ∗ seg 44 r Φ ∗ Φ r)
      ⊢ iprop(seg 0 (min (r + 1) 22) Φ ∗ seg (22 + b) (min (r + 1) 44) Φ ∗ seg 44 (r + 1) Φ) := by
  by_cases h22 : r < 22
  · rw [Nat.min_eq_left (show r ≤ 22 by omega), Nat.min_eq_left (show r + 1 ≤ 22 by omega),
      Nat.min_eq_left (show r ≤ 44 by omega), Nat.min_eq_left (show r + 1 ≤ 44 by omega),
      seg_push (Nat.zero_le r) Φ,
      seg_empty (show r + 1 ≤ 22 + b by omega) Φ, seg_empty (show r ≤ 22 + b by omega) Φ,
      seg_empty (show r + 1 ≤ 44 by omega) Φ, seg_empty (show r ≤ 44 by omega) Φ]
    iintro ⟨H1, H2, H3, H4⟩
    iframe
  by_cases h44 : r < 44
  · rw [Nat.min_eq_right (show 22 ≤ r by omega), Nat.min_eq_right (show 22 ≤ r + 1 by omega),
      Nat.min_eq_left (show r ≤ 44 by omega), Nat.min_eq_left (show r + 1 ≤ 44 by omega),
      seg_push (show 22 + b ≤ r by omega) Φ,
      seg_empty (show r + 1 ≤ 44 by omega) Φ, seg_empty (show r ≤ 44 by omega) Φ]
    iintro ⟨H1, H2, H3, H4⟩
    iframe
  · rw [Nat.min_eq_right (show 22 ≤ r by omega), Nat.min_eq_right (show 22 ≤ r + 1 by omega),
      Nat.min_eq_right (show 44 ≤ r by omega), Nat.min_eq_right (show 44 ≤ r + 1 by omega),
      seg_push (show 44 ≤ r by omega) Φ]

/-- The wait for the `n.zrw`-th chunk from the z-peer (forward loop): every signal and every copy to the z-peer is out, so all it still owes lies above; the chunk arrives whole and is kept as its two halves. -/
theorem step_zrw (K : CellIx → ℕ) (c : Dev nD) (n : Cnt) {α : Type} {Q : α → sProp 𝕄} {k : PUnit → Prog (TpuEff nD τ sig (Elt F) Λ₀ .tc) α} (hb : n.bw = true) (hsig : n.sig = 3) (hzs : n.zs = 84) (hi : n.zrw < 64) (hn1 : n.n1 ≤ n.zrw) (hp1 : n.p1 ≤ n.zrw)
    {w : TpuEff nD τ sig (Elt F) Λ₀ .tc PUnit} (sR : DmaSem sig) (hsR : sR.val = 88 + n.zrw)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with zrw := n.zrw + 1 } -∗ WP c (k ⟨⟩) Q))
      ⊢ WP c (.op w k) Q := by
  have hcell : dcn c (88 + n.zrw) = dcell c sR := (dcn_of_val c sR _ hsR).symm
  have hMW : (levAts L lv : sProp 𝕄) ⊢ MayWait (c : Thread nD τ) (.dma sR) () (Owed c n) :=
    mayWait_lvl c (.dma sR) (Owed c n) 2
      (by dsimp only [lv]; split_ifs <;> omega)
      (fun g u h => by
        obtain ⟨htc, ⟨h, _⟩ | ⟨h, _⟩ | ⟨_, h⟩ | ⟨_, h⟩⟩ := Owed_pos c n g u h
        · omega
        · omega
        · exact ⟨htc, by omega⟩
        · exact ⟨htc, by omega⟩)
  have key := wait_own m K c (Owed c n) sR (by omega) hw hMW (Q := Q) (k := k)
  rw [hsR, dmaPay_zr m c n.zrw (by omega) 0] at key
  have hO : Owed c { n with zrw := n.zrw + 1 } = Owed c n := rfl
  unfold St StR
  rw [hO]
  dsimp only
  rw [seg_pop hi (fun i => pend (dcn c (88 + i))), seg_push (Nat.zero_le n.zrw) (fun i => semVal (dcn c (88 + i)) 0),
    seg_push hn1 (fun i => holdsAt m fullShare.left c (rows (rowZR c i) 128)),
    seg_push hp1 (fun i => holdsAt m fullShare.right c (rows (rowZR c i) 128)), hcell]
  iintro ⟨#Hctx, ⟨Howes, H1, H2, H3, H4, H5, H6, H7, ⟨Hp, H8⟩, H9, H10, H11, H12, H13, H14, Hrest⟩, Hk⟩
  iapply key
  isplitr; · iexact Hctx
  isplitl [Howes]; · iexact Howes
  isplitl [Hp]; · iexact Hp
  iintro ⟨Howes, Hsv, Hpay⟩
  icases (holdsOn_halves m c _).mp $$ Hpay with ⟨Hl, Hr⟩
  iapply Hk
  iframe

/-- The wait for one of the last 20 chunks from the z-peer (final loop): nothing is owed any more. -/
theorem step_zrd (K : CellIx → ℕ) (c : Dev nD) (n : Cnt) {α : Type} {Q : α → sProp 𝕄} {k : PUnit → Prog (TpuEff nD τ sig (Elt F) Λ₀ .tc) α} (hb : n.bw = true) (hsig : n.sig = 3) (hzs : n.zs = 84) (hn1 : n.n1 = 64) (hp1 : n.p1 = 64) (hn2 : n.n2 = 22) (hp2 : n.p2 = 22) (hi : n.zrd < 20)
    {w : TpuEff nD τ sig (Elt F) Λ₀ .tc PUnit} (sR : DmaSem sig) (hsR : sR.val = 152 + n.zrd)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with zrd := n.zrd + 1 } -∗ WP c (k ⟨⟩) Q))
      ⊢ WP c (.op w k) Q := by
  have hcell : dcn c (152 + n.zrd) = dcell c sR := (dcn_of_val c sR _ hsR).symm
  have hMW : (levAts L lv : sProp 𝕄) ⊢ MayWait (c : Thread nD τ) (.dma sR) () (Owed c n) := by
    rw [Owed_zero c n hsig hzs hn1 hp1 hn2 hp2, MayWait_zero]; iintro _; iempintro
  have key := wait_own m K c (Owed c n) sR (by omega) hw hMW (Q := Q) (k := k)
  rw [hsR, show 152 + n.zrd = 88 + (64 + n.zrd) by omega, dmaPay_zr m c (64 + n.zrd) (by omega) 0] at key
  have hO : Owed c { n with zrd := n.zrd + 1 } = Owed c n := rfl
  unfold St StR
  rw [hO]
  dsimp only
  rw [seg_pop hi (fun j => pend (dcn c (152 + j))),
    seg_push (Nat.zero_le n.zrd) (fun j => iprop(semVal (dcn c (152 + j)) 0 ∗ holdsOn m c (rows (rowZR c (64 + j)) 128))), hcell]
  iintro ⟨#Hctx, ⟨Howes, H1, H2, H3, H4, H5, H6, H7, H8, H9, ⟨Hp, H10⟩, H11, Hrest⟩, Hk⟩
  iapply key
  isplitr; · iexact Hctx
  isplitl [Howes]; · iexact Howes
  isplitl [Hp]; · iexact Hp
  iintro ⟨Howes, Hsv, Hpay⟩
  iapply Hk
  iframe

/-- The wait for the previous device's forward of chunk `n.rpw`: all forwards are out. One of the first 22 chunks waits to be relayed on; a later one is simply held. -/
theorem step_rpw (K : CellIx → ℕ) (c : Dev nD) (n : Cnt) {α : Type} {Q : α → sProp 𝕄} {k : PUnit → Prog (TpuEff nD τ sig (Elt F) Λ₀ .tc) α} (hb : n.bw = true) (hsig : n.sig = 3) (hzs : n.zs = 84) (hn1 : n.n1 = 64) (hp1 : n.p1 = 64) (hi : n.rpw < 64) (hn2 : n.n2 ≤ n.rpw)
    {w : TpuEff nD τ sig (Elt F) Λ₀ .tc PUnit} (sR : DmaSem sig) (hsR : sR.val = 300 + n.rpw)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with rpw := n.rpw + 1 } -∗ WP c (k ⟨⟩) Q))
      ⊢ WP c (.op w k) Q := by
  have hcell : dcn c (300 + n.rpw) = dcell c sR := (dcn_of_val c sR _ hsR).symm
  have hMW : (levAts L lv : sProp 𝕄) ⊢ MayWait (c : Thread nD τ) (.dma sR) () (Owed c n) :=
    mayWait_lvl c (.dma sR) (Owed c n) 3
      (by dsimp only [lv]; split_ifs <;> omega)
      (fun g u h => by
        obtain ⟨htc, ⟨h, _⟩ | ⟨h, _⟩ | ⟨h, _⟩ | ⟨_, h⟩⟩ := Owed_pos c n g u h
        · omega
        · omega
        · omega
        · exact ⟨htc, by omega⟩)
  have key := wait_own m K c (Owed c n) sR (by omega) hw hMW (Q := Q) (k := k)
  rw [hsR, dmaPay_h1rp m c n.rpw hi 0] at key
  have hkeep := keep_first (fun i => holdsOn m c (rows (rowH1P c i) 128)) n.n2 n.rpw hn2
  have hO : Owed c { n with rpw := n.rpw + 1 } = Owed c n := rfl
  unfold St StR
  rw [hO]
  dsimp only
  rw [seg_pop hi (fun i => pend (dcn c (300 + i))), seg_push (Nat.zero_le n.rpw) (fun i => semVal (dcn c (300 + i)) 0), hcell]
  iintro ⟨#Hctx, ⟨Howes, H1, H2, H3, H4, H5, H6, H7, H8, H9, H10, H11, H12, H13, H14, H15, H16, H17, H18, H19, H20, H21, H22, H23, ⟨Hp, H24⟩, H25, H26, H27, H28, Hrest⟩, Hk⟩
  iapply key
  isplitr; · iexact Hctx
  isplitl [Howes]; · iexact Howes
  isplitl [Hp]; · iexact Hp
  iintro ⟨Howes, Hsv, Hpay⟩
  icases hkeep $$ [H26 H28 Hpay] with ⟨H26, H28⟩
  · isplitl [H26]; · iexact H26
    isplitl [H28]; · iexact H28
    iexact Hpay
  iapply Hk
  iframe

/-- The wait for the next device's forward of chunk `n.rnw`. Chunks 22 … 43 wait to be relayed back; the others are simply held. -/
theorem step_rnw (K : CellIx → ℕ) (c : Dev nD) (n : Cnt) {α : Type} {Q : α → sProp 𝕄} {k : PUnit → Prog (TpuEff nD τ sig (Elt F) Λ₀ .tc) α} (hb : n.bw = true) (hsig : n.sig = 3) (hzs : n.zs = 84) (hn1 : n.n1 = 64) (hp1 : n.p1 = 64) (hi : n.rnw < 64) (hp2 : n.p2 ≤ n.rnw - 22)
    {w : TpuEff nD τ sig (Elt F) Λ₀ .tc PUnit} (sR : DmaSem sig) (hsR : sR.val = 364 + n.rnw)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with rnw := n.rnw + 1 } -∗ WP c (k ⟨⟩) Q))
      ⊢ WP c (.op w k) Q := by
  have hcell : dcn c (364 + n.rnw) = dcell c sR := (dcn_of_val c sR _ hsR).symm
  have hMW : (levAts L lv : sProp 𝕄) ⊢ MayWait (c : Thread nD τ) (.dma sR) () (Owed c n) :=
    mayWait_lvl c (.dma sR) (Owed c n) 3
      (by dsimp only [lv]; split_ifs <;> omega)
      (fun g u h => by
        obtain ⟨htc, ⟨h, _⟩ | ⟨h, _⟩ | ⟨h, _⟩ | ⟨_, h⟩⟩ := Owed_pos c n g u h
        · omega
        · omega
        · omega
        · exact ⟨htc, by omega⟩)
  have key := wait_own m K c (Owed c n) sR (by omega) hw hMW (Q := Q) (k := k)
  rw [hsR, dmaPay_h1rn m c n.rnw hi 0] at key
  have hkeep := keep_middle (fun i => holdsOn m c (rows (rowH1N c i) 128)) n.p2 n.rnw hp2
  have hO : Owed c { n with rnw := n.rnw + 1 } = Owed c n := rfl
  unfold St StR
  rw [hO]
  dsimp only
  rw [seg_pop hi (fun i => pend (dcn c (364 + i))), seg_push (Nat.zero_le n.rnw) (fun i => semVal (dcn c (364 + i)) 0), hcell]
  iintro ⟨#Hctx, ⟨Howes, H1, H2, H3, H4, H5, H6, H7, H8, H9, H10, H11, H12, H13, H14, H15, H16, H17, H18, H19, H20, H21, H22, H23, H24, H25, H26, H27, H28, ⟨Hp, H29⟩, H30, H31, H32, H33, H34, Hrest⟩, Hk⟩
  iapply key
  isplitr; · iexact Hctx
  isplitl [Howes]; · iexact Howes
  isplitl [Hp]; · iexact Hp
  iintro ⟨Howes, Hsv, Hpay⟩
  icases hkeep $$ [H31 H32 H34 Hpay] with ⟨H31, H32, H34⟩
  · isplitl [H31]; · iexact H31
    isplitl [H32]; · iexact H32
    isplitl [H34]; · iexact H34
    iexact Hpay
  iapply Hk
  iframe

/-- The wait for a relay from the previous device: nothing is owed any more. -/
theorem step_h2pw (K : CellIx → ℕ) (c : Dev nD) (n : Cnt) {α : Type} {Q : α → sProp 𝕄} {k : PUnit → Prog (TpuEff nD τ sig (Elt F) Λ₀ .tc) α} (hb : n.bw = true) (hsig : n.sig = 3) (hzs : n.zs = 84) (hn1 : n.n1 = 64) (hp1 : n.p1 = 64) (hn2 : n.n2 = 22) (hp2 : n.p2 = 22) (hi : n.h2pw < 22)
    {w : TpuEff nD τ sig (Elt F) Λ₀ .tc PUnit} (sR : DmaSem sig) (hsR : sR.val = 472 + n.h2pw)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with h2pw := n.h2pw + 1 } -∗ WP c (k ⟨⟩) Q))
      ⊢ WP c (.op w k) Q := by
  have hcell : dcn c (472 + n.h2pw) = dcell c sR := (dcn_of_val c sR _ hsR).symm
  have hMW : (levAts L lv : sProp 𝕄) ⊢ MayWait (c : Thread nD τ) (.dma sR) () (Owed c n) := by
    rw [Owed_zero c n hsig hzs hn1 hp1 hn2 hp2, MayWait_zero]; iintro _; iempintro
  have key := wait_own m K c (Owed c n) sR (by omega) hw hMW (Q := Q) (k := k)
  rw [hsR, dmaPay_h2rp m c n.h2pw hi 0] at key
  have hO : Owed c { n with h2pw := n.h2pw + 1 } = Owed c n := rfl
  unfold St StR
  rw [hO]
  dsimp only
  rw [seg_pop hi (fun j => pend (dcn c (472 + j))),
    seg_push (Nat.zero_le n.h2pw) (fun j => iprop(semVal (dcn c (472 + j)) 0 ∗ holdsOn m c (rows (rowH2P c j) 128))), hcell]
  iintro ⟨#Hctx, ⟨Howes, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, ⟨Hp, H43⟩, H44, Hrest⟩, Hk⟩
  iapply key
  isplitr; · iexact Hctx
  isplitl [Howes]; · iexact Howes
  isplitl [Hp]; · iexact Hp
  iintro ⟨Howes, Hsv, Hpay⟩
  iapply Hk
  iframe

/-- The wait for a relay from the next device. -/
theorem step_h2nw (K : CellIx → ℕ) (c : Dev nD) (n : Cnt) {α : Type} {Q : α → sProp 𝕄} {k : PUnit → Prog (TpuEff nD τ sig (Elt F) Λ₀ .tc) α} (hb : n.bw = true) (hsig : n.sig = 3) (hzs : n.zs = 84) (hn1 : n.n1 = 64) (hp1 : n.p1 = 64) (hn2 : n.n2 = 22) (hp2 : n.p2 = 22) (hi : n.h2nw < 22)
    {w : TpuEff nD τ sig (Elt F) Λ₀ .tc PUnit} (sR : DmaSem sig) (hsR : sR.val = 494 + n.h2nw)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with h2nw := n.h2nw + 1 } -∗ WP c (k ⟨⟩) Q))
      ⊢ WP c (.op w k) Q := by
  have hcell : dcn c (494 + n.h2nw) = dcell c sR := (dcn_of_val c sR _ hsR).symm
  have hMW : (levAts L lv : sProp 𝕄) ⊢ MayWait (c : Thread nD τ) (.dma sR) () (Owed c n) := by
    rw [Owed_zero c n hsig hzs hn1 hp1 hn2 hp2, MayWait_zero]; iintro _; iempintro
  have key := wait_own m K c (Owed c n) sR (by omega) hw hMW (Q := Q) (k := k)
  rw [hsR, dmaPay_h2rn m c n.h2nw hi 0] at key
  have hO : Owed c { n with h2nw := n.h2nw + 1 } = Owed c n := rfl
  unfold St StR
  rw [hO]
  dsimp only
  rw [seg_pop hi (fun j => pend (dcn c (494 + j))),
    seg_push (Nat.zero_le n.h2nw) (fun j => iprop(semVal (dcn c (494 + j)) 0 ∗ holdsOn m c (rows (rowH2N c j) 128))), hcell]
  iintro ⟨#Hctx, ⟨Howes, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, ⟨Hp, H45⟩, H46, Hrest⟩, Hk⟩
  iapply key
  isplitr; · iexact Hctx
  isplitl [Howes]; · iexact Howes
  isplitl [Hp]; · iexact Hp
  iintro ⟨Howes, Hsv, Hpay⟩
  iapply Hk
  iframe

/-- info: 'Cert.KernelIdeal.AG.step_zrw' depends on axioms: [propext, Classical.choice, Quot.sound] -/
#guard_msgs in #print axioms step_zrw

/-- info: 'Cert.KernelIdeal.AG.step_zrd' depends on axioms: [propext, Classical.choice, Quot.sound] -/
#guard_msgs in #print axioms step_zrd

/-- info: 'Cert.KernelIdeal.AG.step_rpw' depends on axioms: [propext, Classical.choice, Quot.sound] -/
#guard_msgs in #print axioms step_rpw

/-- info: 'Cert.KernelIdeal.AG.step_rnw' depends on axioms: [propext, Classical.choice, Quot.sound] -/
#guard_msgs in #print axioms step_rnw

/-- info: 'Cert.KernelIdeal.AG.step_h2pw' depends on axioms: [propext, Classical.choice, Quot.sound] -/
#guard_msgs in #print axioms step_h2pw

/-- info: 'Cert.KernelIdeal.AG.step_h2nw' depends on axioms: [propext, Classical.choice, Quot.sound] -/
#guard_msgs in #print axioms step_h2nw

end Cert.KernelIdeal.AG

end
-- ==== Proof.StepsSendWait.lean ====
/-
  The waits for this device's own copies to have been read out of their source: the source comes back and the send cell closes.
-/
import proofs.«900672_g7700000000000673_dist_ag_v7x_xyz2x2x2_z_m32768_n1024_f32_1_alg».proof.Proof.Base
import proofs.«900672_g7700000000000673_dist_ag_v7x_xyz2x2x2_z_m32768_n1024_f32_1_alg».proof.Proof.Sets
import proofs.«900672_g7700000000000673_dist_ag_v7x_xyz2x2x2_z_m32768_n1024_f32_1_alg».proof.Proof.Routes

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Steps

/-! ## Taking part of a separating conjunction out, and putting what replaces it back in -/

/-- What is taken out of, and put back into, the second factor is taken out of and put back into the product. -/
private theorem focus_r {A B B' X Y : sProp 𝕄} (h : B ⊢ iprop(X ∗ (Y -∗ B'))) :
    iprop(A ∗ B) ⊢ iprop(X ∗ (Y -∗ A ∗ B')) := by
  iintro ⟨HA, HB⟩
  ihave H := h $$ HB
  icases H with ⟨HX, HW⟩
  isplitl [HX]; · iexact HX
  iintro HY
  isplitl [HA]; · iexact HA
  iapply HW; iexact HY

/-! ## The wait itself, on any send cell

A send cell has one round of one duty, the copy's having been read out of its source; the device holds the credit the
enqueue returned and the cell's position at the start of that round. Send cells sit at level 0 and every cell the device
still owes sits at level 1 or above, so the wait is admissible whatever is still owed. The wait hands over the duty's
payload; no later round has a duty, so the cell is closed at once and its counter comes back at zero. -/

private theorem wait_send (K : CellIx → ℕ) (c : Dev nD) (n : Cnt) {α : Type} {Q : α → sProp 𝕄} {k : PUnit → Prog (TpuEff nD τ sig (Elt F) Λ₀ .tc) α}
    (sR : DmaSem sig) (hk4 : 4 ≤ sR.val) (hlv : lv ((c : Thread nD τ), .dma sR) () = 0)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma sR) N128 K') :
    iprop(Ctx m K ∗ (∃ W, owes (c : Thread nD τ) (Owed c n) W)
        ∗ cred (tallyAt (dcell c sR) () N128) ∗ atPos ER (dcell c sR) 0 ∅ 0
        ∗ (((∃ W, owes (c : Thread nD τ) (Owed c n) W) ∗ semVal (dcell c sR) 0 ∗ dmaPay m c sR.val 0) -∗ WP c (k ⟨⟩) Q))
      ⊢ WP c (.op w k) Q := by
  unfold Ctx
  iintro ⟨⟨#Hrec, #Hlev⟩, ⟨%W, How⟩, Hc, Hat, Hk⟩
  ihave #Hinv := (recs_inv m K (c, some sR)) $$ Hrec
  ihave Hmw := (mayWait_lvl c (.dma sR) (Owed c n) 0 (le_of_eq hlv) (fun g u h => by
      obtain ⟨h1, h2⟩ := Owed_pos c n g u h
      exact ⟨h1, by rcases h2 with ⟨_, h⟩ | ⟨_, h⟩ | ⟨_, h⟩ | ⟨_, h⟩ <;> omega⟩)) $$ Hlev
  iapply (wp_wait_rest_token 𝒱₀ ER (agRd m) (c : Thread nD τ) none hw (Set.mem_univ (K (c, some sR))) () (R := 0) (T := ∅) (m := 0)
    (by rw [Nat.zero_add]; exact (expect_dma m c sR hk4).symm)) $$ [Hc How Hat Hmw]
  · isplitr; · iexact Hinv
    isplitl [Hc]; · iexact Hc
    isplitl [How]; · iexact How
    isplitl [Hmw]; · iexact Hmw
    iexact Hat
  iintro ⟨How, Hat, -, Hrest⟩
  ihave Hpay := (Entails.of_eq (rest_dma m c sR hk4)) $$ Hrest
  imod (cell_close ER (agRd m) (g := dcell c sR) (Set.mem_univ (K (c, some sR))) (fun h => h) (R := 1)
    (fun r hr => duties_dma_later m c sR hk4 r hr)) $$ [Hat] with Hv
  · isplitr; · iexact Hinv
    iexact Hat
  iapply Hk
  isplitl [How]; · iexists _; iexact How
  isplitl [Hv]; · iexact Hv
  iexact Hpay

/-! ## From the state to the wait and back -/

/-- Taking out of the second factor while the first factor absorbs something more that is put back. -/
private theorem focus_pair {H H' G G' X Y P : sProp 𝕄} (hH : iprop(H ∗ P) ⊢ H') (hG : G ⊢ iprop(X ∗ (Y -∗ G'))) :
    iprop(H ∗ G) ⊢ iprop(X ∗ ((Y ∗ P) -∗ H' ∗ G')) := by
  iintro ⟨HH, HG⟩
  ihave H := hG $$ HG
  icases H with ⟨HX, HW⟩
  isplitl [HX]; · iexact HX
  iintro ⟨HY, HP⟩
  isplitl [HH HP]
  · iapply hH
    isplitl [HH]; · iexact HH
    iexact HP
  iapply HW; iexact HY

-- An interval is compared with another by its bounds and its body, never by what it unfolds to.
attribute [local irreducible] seg

/-- Descend along a chain of separating conjunctions until the given step applies. -/
local syntax "seek " tactic : tactic
macro_rules | `(tactic| seek $t:tactic) => `(tactic| first | $t:tactic | (refine focus_r ?_; seek $t:tactic))

/-- The three intervals of a family of send cells with base number `b`, `s` copies enqueued and `w` of them waited, of
    `N` in all: the credits in flight, the positions of the cells not yet waited, and what is held of the cells already
    waited (`Ψ`). Waiting cell `b + w` takes its credit and its position out and puts `Ψ w` in. -/
private theorem send_cells (c : Dev nD) (b w s N : Nat) (hi : w < s) (hb : w < N) (Ψ : Nat → sProp 𝕄) (T : sProp 𝕄) :
    iprop((seg w s fun i => cred (tallyAt (dcn c (b + i)) () N128)) ∗ (seg w N fun i => atPos ER (dcn c (b + i)) 0 ∅ 0)
        ∗ (seg 0 w Ψ) ∗ T)
      ⊢ iprop((cred (tallyAt (dcn c (b + w)) () N128) ∗ atPos ER (dcn c (b + w)) 0 ∅ 0)
        ∗ (Ψ w -∗ (seg (w + 1) s fun i => cred (tallyAt (dcn c (b + i)) () N128)) ∗ (seg (w + 1) N fun i => atPos ER (dcn c (b + i)) 0 ∅ 0)
            ∗ (seg 0 (w + 1) Ψ) ∗ T)) := by
  rw [seg_pop hi, seg_pop hb, seg_push (Nat.zero_le w)]
  iintro ⟨⟨Hc, H1⟩, ⟨Hat, H2⟩, H3, HT⟩
  isplitl [Hc Hat]
  · isplitl [Hc]; · iexact Hc
    iexact Hat
  iintro Hv
  isplitl [H1]; · iexact H1
  isplitl [H2]; · iexact H2
  isplitl [H3 Hv]
  · isplitl [H3]; · iexact H3
    iexact Hv
  iexact HT

set_option maxRecDepth 8192 in
/-- The state around the wait of the next copy to the z-peer. -/
private theorem St_wz (c : Dev nD) (n : Cnt) (hi : n.wz < n.zs) (hb : n.wz < 84) :
    StR m c n ⊢ iprop((cred (tallyAt (dcn c (4 + n.wz)) () N128) ∗ atPos ER (dcn c (4 + n.wz)) 0 ∅ 0)
      ∗ ((semVal (dcn c (4 + n.wz)) 0 ∗ xAt m fullShare.left c (xrows (rowZS c n.wz) 128)) -∗ StR m c { n with wz := n.wz + 1 })) := by
  unfold StR; dsimp only
  seek (exact send_cells c 4 n.wz n.zs 84 hi hb (fun i => iprop(semVal (dcn c (4 + i)) 0 ∗ xAt m fullShare.left c (xrows (rowZS c i) 128))) _)

set_option maxRecDepth 8192 in
/-- The state around the wait of the next forward to the next device: the left half goes back among the halves held. -/
private theorem St_w1n (c : Dev nD) (n : Cnt) (hi : n.w1n < n.n1) (hb : n.w1n < 64) :
    StR m c n ⊢ iprop((cred (tallyAt (dcn c (172 + n.w1n)) () N128) ∗ atPos ER (dcn c (172 + n.w1n)) 0 ∅ 0)
      ∗ ((semVal (dcn c (172 + n.w1n)) 0 ∗ holdsAt m fullShare.left c (rows (rowZR c n.w1n) 128)) -∗ StR m c { n with w1n := n.w1n + 1 })) := by
  unfold StR; dsimp only
  seek (refine focus_pair (Entails.of_eq (seg_push (Nat.zero_le n.w1n) (fun i => holdsAt m fullShare.left c (rows (rowZR c i) 128))).symm) ?_)
  seek (exact send_cells c 172 n.w1n n.n1 64 hi hb (fun i => semVal (dcn c (172 + i)) 0) _)

set_option maxRecDepth 8192 in
/-- The state around the wait of the next forward to the previous device: the right half goes back. -/
private theorem St_w1p (c : Dev nD) (n : Cnt) (hi : n.w1p < n.p1) (hb : n.w1p < 64) :
    StR m c n ⊢ iprop((cred (tallyAt (dcn c (236 + n.w1p)) () N128) ∗ atPos ER (dcn c (236 + n.w1p)) 0 ∅ 0)
      ∗ ((semVal (dcn c (236 + n.w1p)) 0 ∗ holdsAt m fullShare.right c (rows (rowZR c n.w1p) 128)) -∗ StR m c { n with w1p := n.w1p + 1 })) := by
  unfold StR; dsimp only
  seek (refine focus_pair (Entails.of_eq (seg_push (Nat.zero_le n.w1p) (fun i => holdsAt m fullShare.right c (rows (rowZR c i) 128))).symm) ?_)
  seek (exact send_cells c 236 n.w1p n.p1 64 hi hb (fun i => semVal (dcn c (236 + i)) 0) _)

set_option maxRecDepth 8192 in
/-- The state around the wait of the next relay to the next device: the chunk received from the previous device goes back. -/
private theorem St_w2n (c : Dev nD) (n : Cnt) (hi : n.w2n < n.n2) (hb : n.w2n < 22) :
    StR m c n ⊢ iprop((cred (tallyAt (dcn c (428 + n.w2n)) () N128) ∗ atPos ER (dcn c (428 + n.w2n)) 0 ∅ 0)
      ∗ ((semVal (dcn c (428 + n.w2n)) 0 ∗ holdsOn m c (rows (rowH1P c n.w2n) 128)) -∗ StR m c { n with w2n := n.w2n + 1 })) := by
  unfold StR; dsimp only
  seek (refine focus_pair (Entails.of_eq (seg_push (Nat.zero_le n.w2n) (fun i => holdsOn m c (rows (rowH1P c i) 128))).symm) ?_)
  seek (exact send_cells c 428 n.w2n n.n2 22 hi hb (fun j => semVal (dcn c (428 + j)) 0) _)

set_option maxRecDepth 8192 in
/-- The state around the wait of the next relay to the previous device: chunk `22 + n.w2p` received from the next device goes back. -/
private theorem St_w2p (c : Dev nD) (n : Cnt) (hi : n.w2p < n.p2) (hb : n.w2p < 22) :
    StR m c n ⊢ iprop((cred (tallyAt (dcn c (450 + n.w2p)) () N128) ∗ atPos ER (dcn c (450 + n.w2p)) 0 ∅ 0)
      ∗ ((semVal (dcn c (450 + n.w2p)) 0 ∗ holdsOn m c (rows (rowH1N c (22 + n.w2p)) 128)) -∗ StR m c { n with w2p := n.w2p + 1 })) := by
  unfold StR; dsimp only
  seek (refine focus_pair (Entails.of_eq (seg_push (show 22 ≤ 22 + n.w2p by omega) (fun i => holdsOn m c (rows (rowH1N c i) 128))).symm) ?_)
  seek (exact send_cells c 450 n.w2p n.p2 22 hi hb (fun j => semVal (dcn c (450 + j)) 0) _)

/-- A wait on send cell `j` of the device, from the state: the credit and the position come out of the state, the wait
    runs, and the closed cell and the payload `P` go back in; what the device owes is untouched. -/
private theorem step_send_wait (K : CellIx → ℕ) (c : Dev nD) (n : Cnt) {α : Type} {Q : α → sProp 𝕄} {k : PUnit → Prog (TpuEff nD τ sig (Elt F) Λ₀ .tc) α}
    (n' : Cnt) (hO : Owed c n' = Owed c n) (j : Nat) (P : sProp 𝕄)
    (sR : DmaSem sig) (hsR : sR.val = j) (hk4 : 4 ≤ j) (hfam : j < 88 ∨ (172 ≤ j ∧ j < 300) ∨ (428 ≤ j ∧ j < 472))
    (hpay : dmaPay m c j 0 = P)
    (hfocus : StR m c n ⊢ iprop((cred (tallyAt (dcn c j) () N128) ∗ atPos ER (dcn c j) 0 ∅ 0) ∗ ((semVal (dcn c j) 0 ∗ P) -∗ StR m c n')))
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c n' -∗ WP c (k ⟨⟩) Q)) ⊢ WP c (.op w k) Q := by
  have hcell : dcell c sR = dcn c j := dcn_of_val c sR j hsR
  have hlv : lv ((c : Thread nD τ), .dma sR) () = 0 := by
    show (if sR.val < 88 then 0 else if sR.val < 172 then 2 else if sR.val < 300 then 0 else if sR.val < 428 then 3 else if sR.val < 472 then 0 else 4) = 0
    split_ifs <;> omega
  have core := wait_send m K c n (Q := Q) (k := k) sR (by omega) hlv hw
  rw [hcell, hsR, hpay] at core
  unfold St
  rw [hO]
  iintro ⟨#HC, ⟨How, HS⟩, Hk⟩
  ihave H := hfocus $$ HS
  icases H with ⟨⟨Hc, Hat⟩, Hback⟩
  iapply core
  isplitr; · iexact HC
  isplitl [How]; · iexact How
  isplitl [Hc]; · iexact Hc
  isplitl [Hat]; · iexact Hat
  iintro ⟨How, Hv, Hpay⟩
  iapply Hk
  isplitl [How]; · iexact How
  iapply Hback
  isplitl [Hv]; · iexact Hv
  iexact Hpay

/-- A copy to the z-peer has been read out of the argument block. -/
theorem step_wz (K : CellIx → ℕ) (c : Dev nD) (n : Cnt) {α : Type} {Q : α → sProp 𝕄} {k : PUnit → Prog (TpuEff nD τ sig (Elt F) Λ₀ .tc) α}
    (hi : n.wz < n.zs) (hb : n.wz < 84)
    {w : TpuEff nD τ sig (Elt F) Λ₀ .tc PUnit} (sR : DmaSem sig) (hsR : sR.val = 4 + n.wz)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with wz := n.wz + 1 } -∗ WP c (k ⟨⟩) Q))
      ⊢ WP c (.op w k) Q :=
  step_send_wait m K c n { n with wz := n.wz + 1 } rfl (4 + n.wz) _ sR hsR (by omega) (by omega) (dmaPay_zs m c n.wz hb 0) (St_wz m c n hi hb) hw

/-- A forward to the next device has been read out: the chunk's left half is back. -/
theorem step_w1n (K : CellIx → ℕ) (c : Dev nD) (n : Cnt) {α : Type} {Q : α → sProp 𝕄} {k : PUnit → Prog (TpuEff nD τ sig (Elt F) Λ₀ .tc) α}
    (hi : n.w1n < n.n1) (hb : n.w1n < 64)
    {w : TpuEff nD τ sig (Elt F) Λ₀ .tc PUnit} (sR : DmaSem sig) (hsR : sR.val = 172 + n.w1n)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with w1n := n.w1n + 1 } -∗ WP c (k ⟨⟩) Q))
      ⊢ WP c (.op w k) Q :=
  step_send_wait m K c n { n with w1n := n.w1n + 1 } rfl (172 + n.w1n) _ sR hsR (by omega) (by omega) (dmaPay_h1sn m c n.w1n hb 0) (St_w1n m c n hi hb) hw

/-- A forward to the previous device has been read out: the right half is back. -/
theorem step_w1p (K : CellIx → ℕ) (c : Dev nD) (n : Cnt) {α : Type} {Q : α → sProp 𝕄} {k : PUnit → Prog (TpuEff nD τ sig (Elt F) Λ₀ .tc) α}
    (hi : n.w1p < n.p1) (hb : n.w1p < 64)
    {w : TpuEff nD τ sig (Elt F) Λ₀ .tc PUnit} (sR : DmaSem sig) (hsR : sR.val = 236 + n.w1p)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with w1p := n.w1p + 1 } -∗ WP c (k ⟨⟩) Q))
      ⊢ WP c (.op w k) Q :=
  step_send_wait m K c n { n with w1p := n.w1p + 1 } rfl (236 + n.w1p) _ sR hsR (by omega) (by omega) (dmaPay_h1sp m c n.w1p hb 0) (St_w1p m c n hi hb) hw

/-- A relay to the next device has been read out. -/
theorem step_w2n (K : CellIx → ℕ) (c : Dev nD) (n : Cnt) {α : Type} {Q : α → sProp 𝕄} {k : PUnit → Prog (TpuEff nD τ sig (Elt F) Λ₀ .tc) α}
    (hi : n.w2n < n.n2) (hb : n.w2n < 22)
    {w : TpuEff nD τ sig (Elt F) Λ₀ .tc PUnit} (sR : DmaSem sig) (hsR : sR.val = 428 + n.w2n)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with w2n := n.w2n + 1 } -∗ WP c (k ⟨⟩) Q))
      ⊢ WP c (.op w k) Q :=
  step_send_wait m K c n { n with w2n := n.w2n + 1 } rfl (428 + n.w2n) _ sR hsR (by omega) (by omega) (dmaPay_h2sn m c n.w2n hb 0) (St_w2n m c n hi hb) hw

/-- A relay to the previous device has been read out. -/
theorem step_w2p (K : CellIx → ℕ) (c : Dev nD) (n : Cnt) {α : Type} {Q : α → sProp 𝕄} {k : PUnit → Prog (TpuEff nD τ sig (Elt F) Λ₀ .tc) α}
    (hi : n.w2p < n.p2) (hb : n.w2p < 22)
    {w : TpuEff nD τ sig (Elt F) Λ₀ .tc PUnit} (sR : DmaSem sig) (hsR : sR.val = 450 + n.w2p)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with w2p := n.w2p + 1 } -∗ WP c (k ⟨⟩) Q))
      ⊢ WP c (.op w k) Q :=
  step_send_wait m K c n { n with w2p := n.w2p + 1 } rfl (450 + n.w2p) _ sR hsR (by omega) (by omega) (dmaPay_h2sp m c n.w2p hb 0) (St_w2p m c n hi hb) hw

end Steps

/-- info: 'Cert.KernelIdeal.AG.step_wz' depends on axioms: [propext, Classical.choice, Quot.sound] -/
#guard_msgs in #print axioms step_wz

/-- info: 'Cert.KernelIdeal.AG.step_w1n' depends on axioms: [propext, Classical.choice, Quot.sound] -/
#guard_msgs in #print axioms step_w1n

/-- info: 'Cert.KernelIdeal.AG.step_w1p' depends on axioms: [propext, Classical.choice, Quot.sound] -/
#guard_msgs in #print axioms step_w1p

/-- info: 'Cert.KernelIdeal.AG.step_w2n' depends on axioms: [propext, Classical.choice, Quot.sound] -/
#guard_msgs in #print axioms step_w2n

/-- info: 'Cert.KernelIdeal.AG.step_w2p' depends on axioms: [propext, Classical.choice, Quot.sound] -/
#guard_msgs in #print axioms step_w2p

end Cert.KernelIdeal.AG

end
-- ==== Proof.StepsLocal.lean ====
/-
  The local copies: rows of the argument block into a slot of the staging buffer, and out of it into the own half of the result; the two cells of each slot go through 32 rounds.
  The state is cut into what is owed, the part the local copies never touch, and the twelve conjuncts of the local copies as a function of their four
  counters; each step moves one index between intervals of that last part and applies one rule of the rounds discipline at the cell of the copy's slot.
-/
import proofs.«900672_g7700000000000673_dist_ag_v7x_xyz2x2x2_z_m32768_n1024_f32_1_alg».proof.Proof.Base
import proofs.«900672_g7700000000000673_dist_ag_v7x_xyz2x2x2_z_m32768_n1024_f32_1_alg».proof.Proof.Sets
import proofs.«900672_g7700000000000673_dist_ag_v7x_xyz2x2x2_z_m32768_n1024_f32_1_alg».proof.Proof.Routes

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The state, cut at the local copies -/

/-- Everything the state holds beside what is owed and the local copies: no conjunct of it reads the four counters of the local copies. -/
private def FrSt (c : Dev nD) (n : Cnt) : sProp 𝕄 :=
  iprop(
    (seg n.sig 3 fun s => iprop(dutyTok ER (barCell (sigPeer c s)) 0 (sigDuty s) ∗ myLend (F := F) c s))
    ∗ (if n.bw then iprop(emp) else iprop(atPos ER (barCell c) 0 ∅ 0 ∗ cred (tallyAt (barCell c) () 3)))
    ∗ (if n.bw then iprop(
          (seg n.zs 84 fun i => lentOn (F := F) (zpeer c) (rows (rowZR (zpeer c) i) 128))
          ∗ (seg n.n1 64 fun i => lentOn (F := F) (nxt c) (rows (rowH1P (nxt c) i) 128))
          ∗ (seg n.p1 64 fun i => lentOn (F := F) (prv c) (rows (rowH1N (prv c) i) 128))
          ∗ (seg n.n2 22 fun j => lentOn (F := F) (nxt c) (rows (rowH2P (nxt c) j) 128))
          ∗ (seg n.p2 22 fun j => lentOn (F := F) (prv c) (rows (rowH2N (prv c) j) 128))) else iprop(emp))
    ∗ (seg n.zs 84 fun i => iprop(toks (dcn c (4 + i)) (dcn (zpeer c) (88 + i)) ∗ xAt m fullShare.left c (xrows (rowZS c i) 128)))
    ∗ (seg n.wz n.zs fun i => cred (tallyAt (dcn c (4 + i)) () N128))
    ∗ (seg n.wz 84 fun i => atPos ER (dcn c (4 + i)) 0 ∅ 0)
    ∗ (seg 0 n.wz fun i => iprop(semVal (dcn c (4 + i)) 0 ∗ xAt m fullShare.left c (xrows (rowZS c i) 128)))
    ∗ (seg n.zrw 64 fun i => pend (dcn c (88 + i))) ∗ (seg 0 n.zrw fun i => semVal (dcn c (88 + i)) 0)
    ∗ (seg n.zrd 20 fun j => pend (dcn c (152 + j)))
    ∗ (seg 0 n.zrd fun j => iprop(semVal (dcn c (152 + j)) 0 ∗ holdsOn m c (rows (rowZR c (64 + j)) 128)))
    ∗ (seg n.n1 n.zrw fun i => holdsAt m fullShare.left c (rows (rowZR c i) 128)) ∗ (seg 0 n.w1n fun i => holdsAt m fullShare.left c (rows (rowZR c i) 128))
    ∗ (seg n.p1 n.zrw fun i => holdsAt m fullShare.right c (rows (rowZR c i) 128)) ∗ (seg 0 n.w1p fun i => holdsAt m fullShare.right c (rows (rowZR c i) 128))
    ∗ (seg n.n1 64 fun i => toks (dcn c (172 + i)) (dcn (nxt c) (300 + i))) ∗ (seg n.w1n n.n1 fun i => cred (tallyAt (dcn c (172 + i)) () N128))
    ∗ (seg n.w1n 64 fun i => atPos ER (dcn c (172 + i)) 0 ∅ 0) ∗ (seg 0 n.w1n fun i => semVal (dcn c (172 + i)) 0)
    ∗ (seg n.p1 64 fun i => toks (dcn c (236 + i)) (dcn (prv c) (364 + i))) ∗ (seg n.w1p n.p1 fun i => cred (tallyAt (dcn c (236 + i)) () N128))
    ∗ (seg n.w1p 64 fun i => atPos ER (dcn c (236 + i)) 0 ∅ 0) ∗ (seg 0 n.w1p fun i => semVal (dcn c (236 + i)) 0)
    ∗ (seg n.rpw 64 fun i => pend (dcn c (300 + i))) ∗ (seg 0 n.rpw fun i => semVal (dcn c (300 + i)) 0)
    ∗ (seg n.n2 (min n.rpw 22) fun i => holdsOn m c (rows (rowH1P c i) 128)) ∗ (seg 0 n.w2n fun i => holdsOn m c (rows (rowH1P c i) 128))
    ∗ (seg 22 n.rpw fun i => holdsOn m c (rows (rowH1P c i) 128))
    ∗ (seg n.rnw 64 fun i => pend (dcn c (364 + i))) ∗ (seg 0 n.rnw fun i => semVal (dcn c (364 + i)) 0)
    ∗ (seg 0 (min n.rnw 22) fun i => holdsOn m c (rows (rowH1N c i) 128)) ∗ (seg (22 + n.p2) (min n.rnw 44) fun i => holdsOn m c (rows (rowH1N c i) 128))
    ∗ (seg 22 (22 + n.w2p) fun i => holdsOn m c (rows (rowH1N c i) 128)) ∗ (seg 44 n.rnw fun i => holdsOn m c (rows (rowH1N c i) 128))
    ∗ (seg n.n2 22 fun j => toks (dcn c (428 + j)) (dcn (nxt c) (472 + j))) ∗ (seg n.w2n n.n2 fun j => cred (tallyAt (dcn c (428 + j)) () N128))
    ∗ (seg n.w2n 22 fun j => atPos ER (dcn c (428 + j)) 0 ∅ 0) ∗ (seg 0 n.w2n fun j => semVal (dcn c (428 + j)) 0)
    ∗ (seg n.p2 22 fun j => toks (dcn c (450 + j)) (dcn (prv c) (494 + j))) ∗ (seg n.w2p n.p2 fun j => cred (tallyAt (dcn c (450 + j)) () N128))
    ∗ (seg n.w2p 22 fun j => atPos ER (dcn c (450 + j)) 0 ∅ 0) ∗ (seg 0 n.w2p fun j => semVal (dcn c (450 + j)) 0)
    ∗ (seg n.h2pw 22 fun j => pend (dcn c (472 + j))) ∗ (seg 0 n.h2pw fun j => iprop(semVal (dcn c (472 + j)) 0 ∗ holdsOn m c (rows (rowH2P c j) 128)))
    ∗ (seg n.h2nw 22 fun j => pend (dcn c (494 + j))) ∗ (seg 0 n.h2nw fun j => iprop(semVal (dcn c (494 + j)) 0 ∗ holdsOn m c (rows (rowH2N c j) 128))))

/-- What the state holds of the local copies, as a function of their four counters. -/
private def LocSt (c : Dev nD) (ci ciw co low : Nat) : sProp 𝕄 :=
  iprop(
    (seg ci 64 fun k => iprop(dutyTok ER (dcn c (k % 2)) (k / 2) 0 ∗ xAt m fullShare.right c (xrows (512 * k) 512)))
    ∗ (seg ciw ci fun k => cred (tallyAt (dcn c (k % 2)) () N512in))
    ∗ (seg 0 ciw fun k => xAt m fullShare.right c (xrows (512 * k) 512))
    ∗ locPos (dcn c 0) 0 ciw ∗ locPos (dcn c 1) 1 ciw
    ∗ (seg ci (low + 2) fun k => slotAny (F := F) c (k % 2)) ∗ (seg co ciw fun k => slotHas m c (k % 2) k)
    ∗ (seg co 64 fun k => iprop(dutyTok ER (dcn c (2 + k % 2)) (k / 2) 0 ∗ lentOn (F := F) c (rows (rowOwn c k) 512)))
    ∗ (seg low co fun k => cred (tallyAt (dcn c (2 + k % 2)) () N512out))
    ∗ (seg 0 low fun k => holdsOn m c (rows (rowOwn c k) 512))
    ∗ locPos (dcn c 2) 0 low ∗ locPos (dcn c 3) 1 low)

/-- One conjunct moved from the head of a chain into the head of its front part. -/
private theorem peel {A B Fr L : sProp 𝕄} (h : B ⊣⊢ iprop(Fr ∗ L)) : iprop(A ∗ B) ⊣⊢ iprop((A ∗ Fr) ∗ L) :=
  (sep_congr_right h).trans sep_assoc.symm

set_option maxHeartbeats 1000000 in
private theorem StR_split' (c : Dev nD) (n : Cnt) :
    StR m c n ⊣⊢ iprop(FrSt m c n ∗ LocSt m c n.ci n.ciw n.co n.low) := by
  unfold StR FrSt LocSt
  exact peel (peel (peel (peel (peel (peel (peel (peel (peel (peel (peel (peel (peel (peel (peel (peel (peel (peel (peel (peel (peel (peel (peel (peel (peel (peel (peel (peel (peel (peel (peel (peel (peel (peel (peel (peel (peel (peel (peel (peel (peel (peel (peel (peel (peel (BiEntails.rfl)))))))))))))))))))))))))))))))))))))))))))))

/-- The state is what is owed, the part the local copies do not touch, and the local copies' part. -/
private theorem StR_split (c : Dev nD) (n : Cnt) :
    StR m c n = iprop(FrSt m c n ∗ LocSt m c n.ci n.ciw n.co n.low) :=
  BI.equiv_iff.mp ⟨(StR_split' m c n).1, (StR_split' m c n).2⟩

/-! ## The position of a local cell -/

private theorem locPos_open (g : GSem nD τ sig) (s w : Nat) (h : (w + 1 - s) / 2 < 32) :
    (locPos g s w : sProp 𝕄) = iprop(atPos ER g ((w + 1 - s) / 2) ∅ 0 ∗ reached ER g ((w + 1 - s) / 2)) := by
  unfold locPos; rw [if_pos h]

private theorem locPos_closed (g : GSem nD τ sig) (s w : Nat) (h : 32 ≤ (w + 1 - s) / 2) :
    (locPos g s w : sProp 𝕄) = semVal g 0 := by
  unfold locPos; rw [if_neg (by omega)]

/-- The position only reads the round. -/
private theorem locPos_congr (g : GSem nD τ sig) (s w w' : Nat) (h : (w' + 1 - s) / 2 = (w + 1 - s) / 2) :
    (locPos g s w' : sProp 𝕄) = locPos g s w := by
  unfold locPos; rw [h]

/-- Below its last round a local cell has reached its round, and every earlier one. -/
private theorem locPos_reached (g : GSem nD τ sig) (s w r : Nat) (h : (w + 1 - s) / 2 < 32) (hr : r ≤ (w + 1 - s) / 2) :
    (locPos g s w : sProp 𝕄) ⊢ reached ER g r := by
  rw [locPos_open g s w h]
  iintro ⟨-, Hr⟩
  iapply (reached_mono ER hr)
  iexact Hr

/-- Of the two cells of a kind (numbers `b` and `b1 = b + 1`), the one of slot `j % 2` has reached round `j / 2` when its position is there or later. -/
private theorem locPair_reached (c : Dev nD) (b b1 : Nat) (hb1 : b1 = b + 1) (w j : Nat)
    (hlt : (w + 1 - j % 2) / 2 < 32) (hr : j / 2 ≤ (w + 1 - j % 2) / 2) :
    iprop(locPos (dcn c b) 0 w ∗ locPos (dcn c b1) 1 w) ⊢ (reached ER (dcn c (b + j % 2)) (j / 2) : sProp 𝕄) := by
  subst hb1
  rcases Nat.mod_two_eq_zero_or_one j with h | h
  · rw [h] at hlt hr ⊢
    rw [Nat.add_zero]
    iintro ⟨H, -⟩
    iapply (locPos_reached (dcn c b) 0 w (j / 2) hlt hr)
    iexact H
  · rw [h] at hlt hr ⊢
    iintro ⟨-, H⟩
    iapply (locPos_reached (dcn c (b + 1)) 1 w (j / 2) hlt hr)
    iexact H

/-- The cell of slot `w % 2` taken out of the pair; when it comes back one wait later, the pair is the pair one wait later: the other cell's round does not move. -/
private theorem locPair_take (c : Dev nD) (b b1 : Nat) (hb1 : b1 = b + 1) (w : Nat) :
    iprop(locPos (dcn c b) 0 w ∗ locPos (dcn c b1) 1 w) ⊢
      (iprop(locPos (dcn c (b + w % 2)) (w % 2) w
        ∗ (locPos (dcn c (b + w % 2)) (w % 2) (w + 1) -∗ locPos (dcn c b) 0 (w + 1) ∗ locPos (dcn c b1) 1 (w + 1))) : sProp 𝕄) := by
  subst hb1
  rcases Nat.mod_two_eq_zero_or_one w with h | h
  · rw [h, Nat.add_zero, locPos_congr (dcn c (b + 1)) 1 w (w + 1) (by omega)]
    iintro ⟨H0, H1⟩
    isplitl [H0]; · iexact H0
    iintro H0
    isplitl [H0]; · iexact H0
    iexact H1
  · rw [h, locPos_congr (dcn c b) 0 w (w + 1) (by omega)]
    iintro ⟨H0, H1⟩
    isplitl [H1]; · iexact H1
    iintro H1
    isplitl [H0]; · iexact H0
    iexact H1

/-! ## A wait on a local cell -/

/-- The wait that ends copy `w` of a kind (cells `b`, `b + 1`; slot `w % 2`, round `w / 2`): the copy's credit pays it, at a level below
    everything owed; the cell moves to its next round, or is closed after its last, and the copy's payload comes. -/
private theorem wait_loc (K : CellIx → ℕ) (c : Dev nD) {α : Type} {Q : α → sProp 𝕄} {k : PUnit → Prog (TpuEff nD τ sig (Elt F) Λ₀ .tc) α}
    (b w N : Nat) (h64 : w < 64) (hb : b + 1 < 4)
    {wt : TpuEff nD τ sig (Elt F) Λ₀ .tc PUnit} (sR : DmaSem sig) (hsR : sR.val = b + w % 2)
    (hexp : (agRd (F := F) m).expect (dcell c sR) (w / 2) = N)
    (hw : ∀ K' : PUnit → sProp 𝕄, wpE (defs₀ (F := F)) 𝒱₀ (c : Thread nD τ) none Set.univ wt K' = waitSpec (c : Thread nD τ) Set.univ (.dma sR) N K')
    (O : CellTallies nD τ sig Unit) (hO : ∀ g u, 0 < O g u → g.1.2 = .tc ∧ 0 < lv g u) :
    iprop(Ctx m K ∗ (∃ W, owes (c : Thread nD τ) O W) ∗ cred (tallyAt (dcn c (b + w % 2)) () N)
        ∗ locPos (dcn c (b + w % 2)) (w % 2) w
        ∗ (((∃ W, owes (c : Thread nD τ) O W) ∗ locPos (dcn c (b + w % 2)) (w % 2) (w + 1) ∗ dmaPay m c (b + w % 2) (w / 2)) -∗ WP c (k ⟨⟩) Q))
      ⊢ WP c (.op wt k) Q := by
  have hg : dcell c sR = dcn c (b + w % 2) := dcn_of_val c sR _ hsR
  have h2 : w % 2 < 2 := Nat.mod_lt _ (by decide)
  have hsR4 : sR.val < 4 := by omega
  have hR : (w + 1 - w % 2) / 2 = w / 2 := by omega
  have hR' : (w + 1 + 1 - w % 2) / 2 = w / 2 + 1 := by omega
  have hinv : recs m K ⊢ cellInv ER (agRd m) (K (c, some sR)) (dcell c sR) := recs_inv m K (c, some sR)
  have hlvl : (levAts L lv : sProp 𝕄) ⊢ MayWait (c : Thread nD τ) (.dma sR) () O :=
    mayWait_lvl c (.dma sR) O 0 (by show (if sR.val < 88 then 0 else _) ≤ 0; rw [if_pos (by omega)]) (fun g u h => hO g u h)
  have hrest := rest_loc m c sR hsR4 (w / 2) (by omega)
  rw [← hg, ← hsR, locPos_open _ _ _ (by omega : (w + 1 - w % 2) / 2 < 32), hR]
  by_cases hlast : w / 2 + 1 < 32
  · rw [locPos_open _ _ _ (by omega : (w + 1 + 1 - w % 2) / 2 < 32), hR']
    unfold Ctx
    iintro ⟨⟨#Hrecs, #Hlev⟩, ⟨%W, HO⟩, Hc, ⟨Hat, #Hr⟩, Hk⟩
    ihave #Hinv := hinv $$ Hrecs
    ihave #Hmw := hlvl $$ Hlev
    iapply (wp_wait_rest_token (Γ := .empty) (defs := defs₀ (F := F)) 𝒱₀ ER (agRd m) (c : Thread nD τ) none (κ := K (c, some sR))
        (w := wt) (sm := .dma sR) (k' := N) hw (Set.mem_univ _) () (O := O) (W := W) (R := w / 2) (T := ∅) (m := 0)
        (by rw [Nat.zero_add]; exact hexp.symm)) $$ [HO Hc Hat]
    · isplitr; · iexact Hinv
      isplitl [Hc]; · iexact Hc
      isplitl [HO]; · iexact HO
      isplitr; · iexact Hmw
      iexact Hat
    iintro ⟨HO, Hat, #Hr', Hpay⟩
    ihave Hpay := (Entails.of_eq hrest) $$ Hpay
    iapply Hk
    isplitl [HO]; · iexists _; iexact HO
    isplitl [Hat]
    · isplitl [Hat]; · iexact Hat
      iexact Hr'
    iexact Hpay
  · rw [locPos_closed _ _ _ (by omega : 32 ≤ (w + 1 + 1 - w % 2) / 2)]
    unfold Ctx
    iintro ⟨⟨#Hrecs, #Hlev⟩, ⟨%W, HO⟩, Hc, ⟨Hat, #Hr⟩, Hk⟩
    ihave #Hinv := hinv $$ Hrecs
    ihave #Hmw := hlvl $$ Hlev
    iapply (wp_wait_rest_token (Γ := .empty) (defs := defs₀ (F := F)) 𝒱₀ ER (agRd m) (c : Thread nD τ) none (κ := K (c, some sR))
        (w := wt) (sm := .dma sR) (k' := N) hw (Set.mem_univ _) () (O := O) (W := W) (R := w / 2) (T := ∅) (m := 0)
        (by rw [Nat.zero_add]; exact hexp.symm)) $$ [HO Hc Hat]
    · isplitr; · iexact Hinv
      isplitl [Hc]; · iexact Hc
      isplitl [HO]; · iexact HO
      isplitr; · iexact Hmw
      iexact Hat
    iintro ⟨HO, Hat, #Hr', Hpay⟩
    ihave Hpay := (Entails.of_eq hrest) $$ Hpay
    -- after its last round the cell has no duty left: close it
    imod (cell_close ER (agRd m) (g := dcell c sR) (κ := K (c, some sR)) (Es := Set.univ) (Set.mem_univ _) (fun h => h) (R := w / 2 + 1)
      (fun r hr => duties_loc_later m c sR hsR4 r (by omega))) $$ [Hat] with Hv
    · isplitr; · iexact Hinv
      iexact Hat
    iapply Hk
    isplitl [HO]; · iexists _; iexact HO
    isplitl [Hv]; · iexact Hv
    iexact Hpay

/-! ## What a set holds, as equations -/

private theorem slotAny_eq (d : Dev nD) (s : Nat) :
    (slotAny d s : sProp 𝕄) = iprop(∃ f : Buf (Elt F) ((d : Thread nD τ).loc cc0_scratch0), (((d : Thread nD τ).loc cc0_scratch0) ↦[slot s]{fullShare} f)) := rfl

private theorem xAt_eq (q : PosShare TreeShare) (d : Dev nD) (S : Finset S32768x1024.Idx) :
    (xAt m q d S : sProp 𝕄) = (((d : Thread nD τ).loc main_arg0) ↦[S]{q} m ((d : Thread nD τ).loc main_arg0)) := rfl

/-! ## The copy into a slot -/

set_option maxHeartbeats 1000000 in
/-- Copy `ci` into its slot, on the local copies' part of the state, the copy before it waited. -/
private theorem loc_ci (K : CellIx → ℕ) (c : Dev nD) {α : Type} {Q : α → sProp 𝕄} {k : PUnit → Prog (TpuEff nD τ sig (Elt F) Λ₀ .tc) α}
    (ci co low : Nat) (hi : ci < 64) (hfree : ci < low + 2)
    (offs : Fin 2 → Nat) (hs) (hv) (hos : offs = ![512 * ci, 0]) (sS : DmaSem sig) (hsS : sS.val = ci % 2) {hsrc hdst hsem} :
    iprop(Ctx m K ∗ LocSt m c ci ci co low ∗ (LocSt m c (ci + 1) ci co low -∗ WP c (k ⟨⟩) Q))
      ⊢ WP c (.op (.enqueueDma (xS512 offs hs) (.here (vSl (ci % 2) hv)) (.dma sS) hsrc hdst hsem) k) Q := by
  have hg : dcell c sS = dcn c (ci % 2) := dcn_of_val c sS _ hsS
  have hs2 : ci % 2 < 2 := Nat.mod_lt _ (by decide)
  have hsS4 : sS.val < 4 := by omega
  have hinv : recs m K ⊢ cellInv ER (agRd m) (K (c, some sS)) (dcell c sS) := recs_inv m K (c, some sS)
  have hreach := persistent_entails_right (locPair_reached (F := F) c 0 1 rfl ci ci (by omega) (by omega))
  rw [Nat.zero_add, ← hg] at hreach
  unfold LocSt
  rw [seg_pop hi, seg_pop hfree, seg_push (le_refl ci), ← hg, slotAny_eq c (ci % 2), xAt_eq m fullShare.right c (xrows (512 * ci) 512)]
  unfold Ctx
  iintro ⟨⟨#Hrecs, #Hlev⟩, ⟨⟨⟨Htok, Hx⟩, Hs1⟩, Hs2, Hs3, Hp0, Hp1, ⟨⟨%f, Hsl⟩, Hs6⟩, Hs7, Hs8, Hs9, Hs10, Hp2, Hp3⟩, Hk⟩
  ihave #Hinv := hinv $$ Hrecs
  ihave Hpp := hreach $$ [Hp0 Hp1]
  · isplitl [Hp0]; · iexact Hp0
    iexact Hp1
  icases Hpp with ⟨#Hr, Hp0, Hp1⟩
  have hrule := wp_copy_pointsTo (Γ := .empty) (defs := defs₀ (F := F)) 𝒱₀ ER (agRd m) (c : Thread nD τ) none
      (hsrc := hsrc) (hdst := hdst) (hsem := hsem) (Es := Set.univ) (Q := Q)
      (src := xS512 offs hs) (dst := vSl (ci % 2) hv) (sem := .dma sS) (k := k) (q := fullShare.right)
      (fs := m ((c : Thread nD τ).loc main_arg0)) (fd := f) (r := ci / 2) (d := 0) (κ := K (c, some sS))
      (by rw [duties_loc m c sS hsS4 (ci / 2) (by omega)]; exact Finset.mem_singleton_self _)
      () N512in rfl (amount_lin m c sS (by omega) (ci / 2) 0)
      (by
        rw [payload_dma, hsS, dmaPay_lin m c (ci % 2) hs2 (ci / 2), show 2 * (ci / 2) + ci % 2 = ci from by omega,
          xSlice512_set offs hs _ hos, vSlot_set (ci % 2) hv]
        unfold slotHas xAt
        iintro ⟨Hd, Hs⟩
        isplitl [Hd]
        · iexists _
          isplitl [Hd]; · iexact Hd
          ipureintro
          intro i hi h
          exact land_x_to_v offs hs (ci % 2) hv (512 * ci) hos (by omega) _ f i hi
        · iexact Hs)
  rw [xSlice512_set offs hs _ hos, vSlot_set (ci % 2) hv] at hrule
  iapply hrule $$ [Hx Hsl Htok]
  · isplitr; · iexact Hinv
    isplitl [Hx]; · iexact Hx
    isplitl [Hsl]; · iexact Hsl
    isplitl [Htok]; · iexact Htok
    iexact Hr
  iintro Hc
  iapply Hk
  iframe

/-! ## The four steps -/

private theorem St_cut (c : Dev nD) (n : Cnt) :
    St m c n = iprop((∃ W, owes (c : Thread nD τ) (Owed c n) W) ∗ FrSt m c n ∗ LocSt m c n.ci n.ciw n.co n.low) := by
  unfold St; rw [StR_split]

/-- Every cell still owed something sits above the local cells' level. -/
private theorem Owed_above (c : Dev nD) (n : Cnt) (g : GSem nD τ sig) (u : Unit) (h : 0 < Owed c n g u) : g.1.2 = .tc ∧ 0 < lv g u := by
  obtain ⟨h1, h2⟩ := Owed_pos c n g u h
  exact ⟨h1, by rcases h2 with ⟨-, h⟩ | ⟨-, h⟩ | ⟨-, h⟩ | ⟨-, h⟩ <;> omega⟩

/-- The copy of rows `512·n.ci` into the slot: the slot is free (the copy out of it two trips ago has been waited) and the one before has been waited. -/
theorem step_ci (K : CellIx → ℕ) (c : Dev nD) (n : Cnt) {α : Type} {Q : α → sProp 𝕄} {k : PUnit → Prog (TpuEff nD τ sig (Elt F) Λ₀ .tc) α}
    (hi : n.ci < 64) (hfree : n.ci < n.low + 2) (hone : n.ciw = n.ci)
    (offs : Fin 2 → Nat) (hs) (hv) (hos : offs = ![512 * n.ci, 0]) (sS : DmaSem sig) (hsS : sS.val = n.ci % 2) {hsrc hdst hsem} :
    iprop(Ctx m K ∗ St m c n ∗ (St m c { n with ci := n.ci + 1 } -∗ WP c (k ⟨⟩) Q))
      ⊢ WP c (.op (.enqueueDma (xS512 offs hs) (.here (vSl (n.ci % 2) hv)) (.dma sS) hsrc hdst hsem) k) Q := by
  have e : St m c { n with ci := n.ci + 1 }
      = iprop((∃ W, owes (c : Thread nD τ) (Owed c n) W) ∗ FrSt m c n ∗ LocSt m c (n.ci + 1) n.ciw n.co n.low) :=
    St_cut m c { n with ci := n.ci + 1 }
  rw [e, St_cut m c n, hone]
  iintro ⟨#HC, ⟨HO, HF, HL⟩, Hk⟩
  iapply (loc_ci m K c n.ci n.co n.low hi hfree offs hs hv hos sS hsS)
  isplitr; · iexact HC
  isplitl [HL]; · iexact HL
  iintro HL
  iapply Hk
  isplitl [HO]; · iexact HO
  isplitl [HF]; · iexact HF
  iexact HL

set_option maxHeartbeats 1000000 in
/-- Its wait: the slot holds the rows, the rows' share is back. -/
theorem step_ciw (K : CellIx → ℕ) (c : Dev nD) (n : Cnt) {α : Type} {Q : α → sProp 𝕄} {k : PUnit → Prog (TpuEff nD τ sig (Elt F) Λ₀ .tc) α}
    (hi : n.ciw < n.ci) (h64 : n.ciw < 64) (hco : n.co ≤ n.ciw)
    {w : TpuEff nD τ sig (Elt F) Λ₀ .tc PUnit} (sR : DmaSem sig) (hsR : sR.val = n.ciw % 2)
    (hw : ∀ K' : PUnit → sProp 𝕄, wpE (defs₀ (F := F)) 𝒱₀ (c : Thread nD τ) none Set.univ w K' = waitSpec (c : Thread nD τ) Set.univ (.dma sR) N512in K') :
    iprop(Ctx m K ∗ St m c n ∗ (St m c { n with ciw := n.ciw + 1 } -∗ WP c (k ⟨⟩) Q))
      ⊢ WP c (.op w k) Q := by
  have e : St m c { n with ciw := n.ciw + 1 }
      = iprop((∃ W, owes (c : Thread nD τ) (Owed c n) W) ∗ FrSt m c n ∗ LocSt m c n.ci (n.ciw + 1) n.co n.low) :=
    St_cut m c { n with ciw := n.ciw + 1 }
  have h2 : n.ciw % 2 < 2 := Nat.mod_lt _ (by decide)
  have hwait := wait_loc m K c (Q := Q) (k := k) 0 n.ciw N512in h64 (by omega) sR (by rw [Nat.zero_add]; exact hsR)
    (expect_lin m c sR (by omega) (n.ciw / 2) (by omega)) hw (Owed c n) (Owed_above c n)
  have htake := locPair_take (F := F) c 0 1 rfl n.ciw
  rw [Nat.zero_add] at hwait htake
  rw [dmaPay_lin m c (n.ciw % 2) h2 (n.ciw / 2), show 2 * (n.ciw / 2) + n.ciw % 2 = n.ciw from by omega] at hwait
  rw [e, St_cut m c n]
  unfold LocSt
  rw [seg_pop hi, seg_push (Nat.zero_le n.ciw), seg_push hco]
  iintro ⟨#HC, ⟨HO, HF, Hs1, ⟨Hc, Hs2⟩, Hs3, Hp0, Hp1, Hs6, Hs7, Hs8, Hs9, Hs10, Hp2, Hp3⟩, Hk⟩
  ihave Hp := htake $$ [Hp0 Hp1]
  · isplitl [Hp0]; · iexact Hp0
    iexact Hp1
  icases Hp with ⟨Hp, Hpb⟩
  iapply hwait
  isplitr; · iexact HC
  isplitl [HO]; · iexact HO
  isplitl [Hc]; · iexact Hc
  isplitl [Hp]; · iexact Hp
  iintro ⟨HO, Hp, Hsl, Hx⟩
  ihave Hpp := Hpb $$ Hp
  icases Hpp with ⟨Hp0, Hp1⟩
  iapply Hk
  iframe

private theorem slotHas_eq (d : Dev nD) (s k : Nat) :
    (slotHas m d s k : sProp 𝕄) = iprop(∃ f : Buf (Elt F) ((d : Thread nD τ).loc cc0_scratch0), (((d : Thread nD τ).loc cc0_scratch0) ↦[slot s]{fullShare} f)
      ∗ ⌜∀ i ∈ slot s, ∀ h : 512 * k + (i 1).val < 32768,
          f i = m ((d : Thread nD τ).loc main_arg0) (Shape.pair (d := ![32768, 1024]) ⟨512 * k + (i 1).val, h⟩ ⟨(i 2).val, (i 2).isLt⟩)⌝) := rfl

private theorem lentOn_eq (d : Dev nD) (S : Finset S65536x1024.Idx) :
    (lentOn d S : sProp 𝕄) = iprop(∃ f : Buf (Elt F) ((d : Thread nD τ).loc main_v1), (((d : Thread nD τ).loc main_v1) ↦[S]{fullShare} f)) := rfl

/-! ## The copy out of a slot -/

set_option maxHeartbeats 1000000 in
/-- Copy `co` out of its slot into the own half, on the local copies' part of the state: the slot holds block `co` of the argument,
    and the result's rows then hold the argument's rows at the matching offset, which is the gathered result there. -/
private theorem loc_co (K : CellIx → ℕ) (c : Dev nD) {α : Type} {Q : α → sProp 𝕄} {k : PUnit → Prog (TpuEff nD τ sig (Elt F) Λ₀ .tc) α}
    (ci ciw co low : Nat) (hi : co < ciw) (h64 : co < 64) (hfree : co < low + 2) (hlo : low ≤ co)
    (offd : Fin 2 → Nat) (hd) (hv) (hod : offd = ![rowOwn c co, 0]) (sS : DmaSem sig) (hsS : sS.val = 2 + co % 2) {hsrc hdst hsem} :
    iprop(Ctx m K ∗ LocSt m c ci ciw co low ∗ (LocSt m c ci ciw (co + 1) low -∗ WP c (k ⟨⟩) Q))
      ⊢ WP c (.op (.enqueueDma (vSl (co % 2) hv) (.here (oS512 offd hd)) (.dma sS) hsrc hdst hsem) k) Q := by
  have hg : dcell c sS = dcn c (2 + co % 2) := dcn_of_val c sS _ hsS
  have hs2 : co % 2 < 2 := Nat.mod_lt _ (by decide)
  have hsS4 : sS.val < 4 := by omega
  have hinv : recs m K ⊢ cellInv ER (agRd m) (K (c, some sS)) (dcell c sS) := recs_inv m K (c, some sS)
  have hreach := persistent_entails_right (locPair_reached (F := F) c 2 3 rfl low co (by omega) (by omega))
  rw [← hg] at hreach
  unfold LocSt
  rw [seg_pop hi, seg_pop h64, seg_push hlo, ← hg, slotHas_eq m c (co % 2) co, lentOn_eq c (rows (rowOwn c co) 512)]
  unfold Ctx
  iintro ⟨⟨#Hrecs, #Hlev⟩, ⟨Hs1, Hs2, Hs3, Hp0, Hp1, Hs6, ⟨⟨%f, Hsl, %hf⟩, Hs7⟩, ⟨⟨Htok, ⟨%fd, Hd⟩⟩, Hs8⟩, Hs9, Hs10, Hp2, Hp3⟩, Hk⟩
  ihave #Hinv := hinv $$ Hrecs
  ihave Hpp := hreach $$ [Hp2 Hp3]
  · isplitl [Hp2]; · iexact Hp2
    iexact Hp3
  icases Hpp with ⟨#Hr, Hp2, Hp3⟩
  have hrule := wp_copy_pointsTo (Γ := .empty) (defs := defs₀ (F := F)) 𝒱₀ ER (agRd m) (c : Thread nD τ) none
      (hsrc := hsrc) (hdst := hdst) (hsem := hsem) (Es := Set.univ) (Q := Q)
      (src := vSl (co % 2) hv) (dst := oS512 offd hd) (sem := .dma sS) (k := k) (q := fullShare)
      (fs := f) (fd := fd) (r := co / 2) (d := 0) (κ := K (c, some sS))
      (by rw [duties_loc m c sS hsS4 (co / 2) (by omega)]; exact Finset.mem_singleton_self _)
      () N512out rfl (amount_lout m c sS (by omega) hsS4 (co / 2) 0)
      (by
        rw [payload_dma, hsS, dmaPay_lout m c (co % 2) hs2 (co / 2), show 2 * (co / 2) + co % 2 = co from by omega,
          oSlice512_set offd hd _ hod, vSlot_set (co % 2) hv]
        unfold holdsOn slotAny
        iintro ⟨Hd, Hs⟩
        isplitl [Hd]
        · iexists _
          isplitl [Hd]; · iexact Hd
          ipureintro
          intro i hi
          have hi' := hi
          rw [mem_rows] at hi'
          have hz := (zc c).isLt
          have hlt : 512 * co + ((i 0).val - rowOwn c co) < 32768 := by omega
          refine (land_v_to_o (co % 2) hv hs2 offd hd (rowOwn c co) hod f fd i hi).trans ?_
          rw [goal_own m c co h64 i hi]
          have hr512 : (i 0).val - rowOwn c co < 512 := by omega
          refine (hf (vAt (co % 2) hs2 ⟨(i 0).val - rowOwn c co, hr512⟩ ⟨(i 1).val, (i 1).isLt⟩) (vAt_mem_slot _ hs2 _ _) hlt).trans (congrArg _ ?_)
          unfold rowIn
          congr 1
          apply Fin.ext
          show 512 * co + ((i 0).val - rowOwn c co) = (i 0).val % 32768
          unfold rowOwn mbase at hi' ⊢
          omega
        · iexists _; iexact Hs)
  rw [oSlice512_set offd hd _ hod, vSlot_set (co % 2) hv] at hrule
  iapply hrule $$ [Hsl Hd Htok]
  · isplitr; · iexact Hinv
    isplitl [Hsl]; · iexact Hsl
    isplitl [Hd]; · iexact Hd
    isplitl [Htok]; · iexact Htok
    iexact Hr
  iintro Hc
  iapply Hk
  iframe

/-- The copy out of the slot into rows `512·n.co` of the own half. -/
theorem step_co (K : CellIx → ℕ) (c : Dev nD) (n : Cnt) {α : Type} {Q : α → sProp 𝕄} {k : PUnit → Prog (TpuEff nD τ sig (Elt F) Λ₀ .tc) α}
    (hi : n.co < n.ciw) (h64 : n.co < 64) (hfree : n.co < n.low + 2) (hlo : n.low ≤ n.co)
    (offd : Fin 2 → Nat) (hd) (hv) (hod : offd = ![rowOwn c n.co, 0]) (sS : DmaSem sig) (hsS : sS.val = 2 + n.co % 2) {hsrc hdst hsem} :
    iprop(Ctx m K ∗ St m c n ∗ (St m c { n with co := n.co + 1 } -∗ WP c (k ⟨⟩) Q))
      ⊢ WP c (.op (.enqueueDma (vSl (n.co % 2) hv) (.here (oS512 offd hd)) (.dma sS) hsrc hdst hsem) k) Q := by
  have e : St m c { n with co := n.co + 1 }
      = iprop((∃ W, owes (c : Thread nD τ) (Owed c n) W) ∗ FrSt m c n ∗ LocSt m c n.ci n.ciw (n.co + 1) n.low) :=
    St_cut m c { n with co := n.co + 1 }
  rw [e, St_cut m c n]
  iintro ⟨#HC, ⟨HO, HF, HL⟩, Hk⟩
  iapply (loc_co m K c n.ci n.ciw n.co n.low hi h64 hfree hlo offd hd hv hod sS hsS)
  isplitr; · iexact HC
  isplitl [HL]; · iexact HL
  iintro HL
  iapply Hk
  isplitl [HO]; · iexact HO
  isplitl [HF]; · iexact HF
  iexact HL

set_option maxHeartbeats 1000000 in
/-- Its wait: the own half's rows hold the gathered result, the slot is free again. -/
theorem step_low (K : CellIx → ℕ) (c : Dev nD) (n : Cnt) {α : Type} {Q : α → sProp 𝕄} {k : PUnit → Prog (TpuEff nD τ sig (Elt F) Λ₀ .tc) α}
    (hi : n.low < n.co) (h64 : n.low < 64) (hci : n.ci ≤ n.low + 2)
    {w : TpuEff nD τ sig (Elt F) Λ₀ .tc PUnit} (sR : DmaSem sig) (hsR : sR.val = 2 + n.low % 2)
    (hw : ∀ K' : PUnit → sProp 𝕄, wpE (defs₀ (F := F)) 𝒱₀ (c : Thread nD τ) none Set.univ w K' = waitSpec (c : Thread nD τ) Set.univ (.dma sR) N512out K') :
    iprop(Ctx m K ∗ St m c n ∗ (St m c { n with low := n.low + 1 } -∗ WP c (k ⟨⟩) Q))
      ⊢ WP c (.op w k) Q := by
  have e : St m c { n with low := n.low + 1 }
      = iprop((∃ W, owes (c : Thread nD τ) (Owed c n) W) ∗ FrSt m c n ∗ LocSt m c n.ci n.ciw n.co (n.low + 1)) :=
    St_cut m c { n with low := n.low + 1 }
  have h2 : n.low % 2 < 2 := Nat.mod_lt _ (by decide)
  have hwait := wait_loc m K c (Q := Q) (k := k) 2 n.low N512out h64 (by omega) sR hsR
    (expect_lout m c sR (by omega) (by omega) (n.low / 2) (by omega)) hw (Owed c n) (Owed_above c n)
  have htake := locPair_take (F := F) c 2 3 rfl n.low
  rw [dmaPay_lout m c (n.low % 2) h2 (n.low / 2), show 2 * (n.low / 2) + n.low % 2 = n.low from by omega] at hwait
  rw [e, St_cut m c n]
  unfold LocSt
  rw [seg_pop hi, seg_push (Nat.zero_le n.low), show n.low + 1 + 2 = n.low + 2 + 1 from by omega, seg_push hci,
    show (n.low + 2) % 2 = n.low % 2 from by omega]
  iintro ⟨#HC, ⟨HO, HF, Hs1, Hs2, Hs3, Hp0, Hp1, Hs6, Hs7, Hs8, ⟨Hc, Hs9⟩, Hs10, Hp2, Hp3⟩, Hk⟩
  ihave Hp := htake $$ [Hp2 Hp3]
  · isplitl [Hp2]; · iexact Hp2
    iexact Hp3
  icases Hp with ⟨Hp, Hpb⟩
  iapply hwait
  isplitr; · iexact HC
  isplitl [HO]; · iexact HO
  isplitl [Hc]; · iexact Hc
  isplitl [Hp]; · iexact Hp
  iintro ⟨HO, Hp, Hho, Hsl⟩
  ihave Hpp := Hpb $$ Hp
  icases Hpp with ⟨Hp2, Hp3⟩
  iapply Hk
  iframe

/-- info: 'Cert.KernelIdeal.AG.step_ci' depends on axioms: [propext, Classical.choice, Quot.sound] -/
#guard_msgs in #print axioms step_ci

/-- info: 'Cert.KernelIdeal.AG.step_ciw' depends on axioms: [propext, Classical.choice, Quot.sound] -/
#guard_msgs in #print axioms step_ciw

/-- info: 'Cert.KernelIdeal.AG.step_co' depends on axioms: [propext, Classical.choice, Quot.sound] -/
#guard_msgs in #print axioms step_co

/-- info: 'Cert.KernelIdeal.AG.step_low' depends on axioms: [propext, Classical.choice, Quot.sound] -/
#guard_msgs in #print axioms step_low

end Cert.KernelIdeal.AG

end
-- ==== Proof.Steps.lean ====
/-
  The step lemmas, one per kind of effect of the body, gathered.
-/
import proofs.«900672_g7700000000000673_dist_ag_v7x_xyz2x2x2_z_m32768_n1024_f32_1_alg».proof.Proof.StepsBar
import proofs.«900672_g7700000000000673_dist_ag_v7x_xyz2x2x2_z_m32768_n1024_f32_1_alg».proof.Proof.StepsSend
import proofs.«900672_g7700000000000673_dist_ag_v7x_xyz2x2x2_z_m32768_n1024_f32_1_alg».proof.Proof.StepsRecv
import proofs.«900672_g7700000000000673_dist_ag_v7x_xyz2x2x2_z_m32768_n1024_f32_1_alg».proof.Proof.StepsSendWait
import proofs.«900672_g7700000000000673_dist_ag_v7x_xyz2x2x2_z_m32768_n1024_f32_1_alg».proof.Proof.StepsLocal
-- ==== Proof.DevTable.lean ====
/-
  Which device each of the 259 printed device chains `k0_devN` addresses, as a function of the
  addressing device `c`: its z-peer, or its next or previous neighbour on its z-plane's ring. Each chain
  is word arithmetic on the device id; each equation is decided over the eight devices. `devN_val` is
  the equation of naturals, `devN_eq` the same as an equation of devices, for rewriting a printed address.
-/
import proofs.«900672_g7700000000000673_dist_ag_v7x_xyz2x2x2_z_m32768_n1024_f32_1_alg».proof.Proof.Mesh
import proofs.«900672_g7700000000000673_dist_ag_v7x_xyz2x2x2_z_m32768_n1024_f32_1_alg».proof.Proof.Gen.KernelIdeal

namespace Cert.KernelIdeal.AGDev

open Cert.KernelIdeal Idealize.ShloMosaic Cert.AG

theorem dev1_val (c : Dev nD) : k0_dev1 c = (zpeer c).val := by revert c; decide +kernel
theorem dev1_eq (c : Dev nD) (h : k0_dev1 c < nD) : (⟨k0_dev1 c, h⟩ : Dev nD) = zpeer c := Fin.ext (dev1_val c)
theorem dev2_val (c : Dev nD) : k0_dev2 c = (nxt c).val := by revert c; decide +kernel
theorem dev2_eq (c : Dev nD) (h : k0_dev2 c < nD) : (⟨k0_dev2 c, h⟩ : Dev nD) = nxt c := Fin.ext (dev2_val c)
theorem dev3_val (c : Dev nD) : k0_dev3 c = (prv c).val := by revert c; decide +kernel
theorem dev3_eq (c : Dev nD) (h : k0_dev3 c < nD) : (⟨k0_dev3 c, h⟩ : Dev nD) = prv c := Fin.ext (dev3_val c)
theorem dev4_val (c : Dev nD) : k0_dev4 c = (zpeer c).val := by revert c; decide +kernel
theorem dev4_eq (c : Dev nD) (h : k0_dev4 c < nD) : (⟨k0_dev4 c, h⟩ : Dev nD) = zpeer c := Fin.ext (dev4_val c)
theorem dev5_val (c : Dev nD) : k0_dev5 c = (zpeer c).val := by revert c; decide +kernel
theorem dev5_eq (c : Dev nD) (h : k0_dev5 c < nD) : (⟨k0_dev5 c, h⟩ : Dev nD) = zpeer c := Fin.ext (dev5_val c)
theorem dev6_val (c : Dev nD) : k0_dev6 c = (zpeer c).val := by revert c; decide +kernel
theorem dev6_eq (c : Dev nD) (h : k0_dev6 c < nD) : (⟨k0_dev6 c, h⟩ : Dev nD) = zpeer c := Fin.ext (dev6_val c)
theorem dev7_val (c : Dev nD) : k0_dev7 c = (zpeer c).val := by revert c; decide +kernel
theorem dev7_eq (c : Dev nD) (h : k0_dev7 c < nD) : (⟨k0_dev7 c, h⟩ : Dev nD) = zpeer c := Fin.ext (dev7_val c)
theorem dev8_val (c : Dev nD) : k0_dev8 c = (zpeer c).val := by revert c; decide +kernel
theorem dev8_eq (c : Dev nD) (h : k0_dev8 c < nD) : (⟨k0_dev8 c, h⟩ : Dev nD) = zpeer c := Fin.ext (dev8_val c)
theorem dev9_val (c : Dev nD) : k0_dev9 c = (zpeer c).val := by revert c; decide +kernel
theorem dev9_eq (c : Dev nD) (h : k0_dev9 c < nD) : (⟨k0_dev9 c, h⟩ : Dev nD) = zpeer c := Fin.ext (dev9_val c)
theorem dev10_val (c : Dev nD) : k0_dev10 c = (zpeer c).val := by revert c; decide +kernel
theorem dev10_eq (c : Dev nD) (h : k0_dev10 c < nD) : (⟨k0_dev10 c, h⟩ : Dev nD) = zpeer c := Fin.ext (dev10_val c)
theorem dev11_val (c : Dev nD) : k0_dev11 c = (zpeer c).val := by revert c; decide +kernel
theorem dev11_eq (c : Dev nD) (h : k0_dev11 c < nD) : (⟨k0_dev11 c, h⟩ : Dev nD) = zpeer c := Fin.ext (dev11_val c)
theorem dev12_val (c : Dev nD) : k0_dev12 c = (zpeer c).val := by revert c; decide +kernel
theorem dev12_eq (c : Dev nD) (h : k0_dev12 c < nD) : (⟨k0_dev12 c, h⟩ : Dev nD) = zpeer c := Fin.ext (dev12_val c)
theorem dev13_val (c : Dev nD) : k0_dev13 c = (zpeer c).val := by revert c; decide +kernel
theorem dev13_eq (c : Dev nD) (h : k0_dev13 c < nD) : (⟨k0_dev13 c, h⟩ : Dev nD) = zpeer c := Fin.ext (dev13_val c)
theorem dev14_val (c : Dev nD) : k0_dev14 c = (zpeer c).val := by revert c; decide +kernel
theorem dev14_eq (c : Dev nD) (h : k0_dev14 c < nD) : (⟨k0_dev14 c, h⟩ : Dev nD) = zpeer c := Fin.ext (dev14_val c)
theorem dev15_val (c : Dev nD) : k0_dev15 c = (zpeer c).val := by revert c; decide +kernel
theorem dev15_eq (c : Dev nD) (h : k0_dev15 c < nD) : (⟨k0_dev15 c, h⟩ : Dev nD) = zpeer c := Fin.ext (dev15_val c)
theorem dev16_val (c : Dev nD) : k0_dev16 c = (zpeer c).val := by revert c; decide +kernel
theorem dev16_eq (c : Dev nD) (h : k0_dev16 c < nD) : (⟨k0_dev16 c, h⟩ : Dev nD) = zpeer c := Fin.ext (dev16_val c)
theorem dev17_val (c : Dev nD) : k0_dev17 c = (zpeer c).val := by revert c; decide +kernel
theorem dev17_eq (c : Dev nD) (h : k0_dev17 c < nD) : (⟨k0_dev17 c, h⟩ : Dev nD) = zpeer c := Fin.ext (dev17_val c)
theorem dev18_val (c : Dev nD) : k0_dev18 c = (zpeer c).val := by revert c; decide +kernel
theorem dev18_eq (c : Dev nD) (h : k0_dev18 c < nD) : (⟨k0_dev18 c, h⟩ : Dev nD) = zpeer c := Fin.ext (dev18_val c)
theorem dev19_val (c : Dev nD) : k0_dev19 c = (zpeer c).val := by revert c; decide +kernel
theorem dev19_eq (c : Dev nD) (h : k0_dev19 c < nD) : (⟨k0_dev19 c, h⟩ : Dev nD) = zpeer c := Fin.ext (dev19_val c)
theorem dev20_val (c : Dev nD) : k0_dev20 c = (zpeer c).val := by revert c; decide +kernel
theorem dev20_eq (c : Dev nD) (h : k0_dev20 c < nD) : (⟨k0_dev20 c, h⟩ : Dev nD) = zpeer c := Fin.ext (dev20_val c)
theorem dev21_val (c : Dev nD) : k0_dev21 c = (zpeer c).val := by revert c; decide +kernel
theorem dev21_eq (c : Dev nD) (h : k0_dev21 c < nD) : (⟨k0_dev21 c, h⟩ : Dev nD) = zpeer c := Fin.ext (dev21_val c)
theorem dev22_val (c : Dev nD) : k0_dev22 c = (zpeer c).val := by revert c; decide +kernel
theorem dev22_eq (c : Dev nD) (h : k0_dev22 c < nD) : (⟨k0_dev22 c, h⟩ : Dev nD) = zpeer c := Fin.ext (dev22_val c)
theorem dev23_val (c : Dev nD) : k0_dev23 c = (zpeer c).val := by revert c; decide +kernel
theorem dev23_eq (c : Dev nD) (h : k0_dev23 c < nD) : (⟨k0_dev23 c, h⟩ : Dev nD) = zpeer c := Fin.ext (dev23_val c)
theorem dev24_val (c : Dev nD) : k0_dev24 c = (zpeer c).val := by revert c; decide +kernel
theorem dev24_eq (c : Dev nD) (h : k0_dev24 c < nD) : (⟨k0_dev24 c, h⟩ : Dev nD) = zpeer c := Fin.ext (dev24_val c)
theorem dev25_val (c : Dev nD) : k0_dev25 c = (zpeer c).val := by revert c; decide +kernel
theorem dev25_eq (c : Dev nD) (h : k0_dev25 c < nD) : (⟨k0_dev25 c, h⟩ : Dev nD) = zpeer c := Fin.ext (dev25_val c)
theorem dev26_val (c : Dev nD) : k0_dev26 c = (zpeer c).val := by revert c; decide +kernel
theorem dev26_eq (c : Dev nD) (h : k0_dev26 c < nD) : (⟨k0_dev26 c, h⟩ : Dev nD) = zpeer c := Fin.ext (dev26_val c)
theorem dev27_val (c : Dev nD) : k0_dev27 c = (zpeer c).val := by revert c; decide +kernel
theorem dev27_eq (c : Dev nD) (h : k0_dev27 c < nD) : (⟨k0_dev27 c, h⟩ : Dev nD) = zpeer c := Fin.ext (dev27_val c)
theorem dev28_val (c : Dev nD) : k0_dev28 c = (zpeer c).val := by revert c; decide +kernel
theorem dev28_eq (c : Dev nD) (h : k0_dev28 c < nD) : (⟨k0_dev28 c, h⟩ : Dev nD) = zpeer c := Fin.ext (dev28_val c)
theorem dev29_val (c : Dev nD) : k0_dev29 c = (zpeer c).val := by revert c; decide +kernel
theorem dev29_eq (c : Dev nD) (h : k0_dev29 c < nD) : (⟨k0_dev29 c, h⟩ : Dev nD) = zpeer c := Fin.ext (dev29_val c)
theorem dev30_val (c : Dev nD) : k0_dev30 c = (zpeer c).val := by revert c; decide +kernel
theorem dev30_eq (c : Dev nD) (h : k0_dev30 c < nD) : (⟨k0_dev30 c, h⟩ : Dev nD) = zpeer c := Fin.ext (dev30_val c)
theorem dev31_val (c : Dev nD) : k0_dev31 c = (zpeer c).val := by revert c; decide +kernel
theorem dev31_eq (c : Dev nD) (h : k0_dev31 c < nD) : (⟨k0_dev31 c, h⟩ : Dev nD) = zpeer c := Fin.ext (dev31_val c)
theorem dev32_val (c : Dev nD) : k0_dev32 c = (zpeer c).val := by revert c; decide +kernel
theorem dev32_eq (c : Dev nD) (h : k0_dev32 c < nD) : (⟨k0_dev32 c, h⟩ : Dev nD) = zpeer c := Fin.ext (dev32_val c)
theorem dev33_val (c : Dev nD) : k0_dev33 c = (zpeer c).val := by revert c; decide +kernel
theorem dev33_eq (c : Dev nD) (h : k0_dev33 c < nD) : (⟨k0_dev33 c, h⟩ : Dev nD) = zpeer c := Fin.ext (dev33_val c)
theorem dev34_val (c : Dev nD) : k0_dev34 c = (zpeer c).val := by revert c; decide +kernel
theorem dev34_eq (c : Dev nD) (h : k0_dev34 c < nD) : (⟨k0_dev34 c, h⟩ : Dev nD) = zpeer c := Fin.ext (dev34_val c)
theorem dev35_val (c : Dev nD) : k0_dev35 c = (zpeer c).val := by revert c; decide +kernel
theorem dev35_eq (c : Dev nD) (h : k0_dev35 c < nD) : (⟨k0_dev35 c, h⟩ : Dev nD) = zpeer c := Fin.ext (dev35_val c)
theorem dev36_val (c : Dev nD) : k0_dev36 c = (zpeer c).val := by revert c; decide +kernel
theorem dev36_eq (c : Dev nD) (h : k0_dev36 c < nD) : (⟨k0_dev36 c, h⟩ : Dev nD) = zpeer c := Fin.ext (dev36_val c)
theorem dev37_val (c : Dev nD) : k0_dev37 c = (zpeer c).val := by revert c; decide +kernel
theorem dev37_eq (c : Dev nD) (h : k0_dev37 c < nD) : (⟨k0_dev37 c, h⟩ : Dev nD) = zpeer c := Fin.ext (dev37_val c)
theorem dev38_val (c : Dev nD) : k0_dev38 c = (zpeer c).val := by revert c; decide +kernel
theorem dev38_eq (c : Dev nD) (h : k0_dev38 c < nD) : (⟨k0_dev38 c, h⟩ : Dev nD) = zpeer c := Fin.ext (dev38_val c)
theorem dev39_val (c : Dev nD) : k0_dev39 c = (zpeer c).val := by revert c; decide +kernel
theorem dev39_eq (c : Dev nD) (h : k0_dev39 c < nD) : (⟨k0_dev39 c, h⟩ : Dev nD) = zpeer c := Fin.ext (dev39_val c)
theorem dev40_val (c : Dev nD) : k0_dev40 c = (zpeer c).val := by revert c; decide +kernel
theorem dev40_eq (c : Dev nD) (h : k0_dev40 c < nD) : (⟨k0_dev40 c, h⟩ : Dev nD) = zpeer c := Fin.ext (dev40_val c)
theorem dev41_val (c : Dev nD) : k0_dev41 c = (zpeer c).val := by revert c; decide +kernel
theorem dev41_eq (c : Dev nD) (h : k0_dev41 c < nD) : (⟨k0_dev41 c, h⟩ : Dev nD) = zpeer c := Fin.ext (dev41_val c)
theorem dev42_val (c : Dev nD) : k0_dev42 c = (zpeer c).val := by revert c; decide +kernel
theorem dev42_eq (c : Dev nD) (h : k0_dev42 c < nD) : (⟨k0_dev42 c, h⟩ : Dev nD) = zpeer c := Fin.ext (dev42_val c)
theorem dev43_val (c : Dev nD) : k0_dev43 c = (zpeer c).val := by revert c; decide +kernel
theorem dev43_eq (c : Dev nD) (h : k0_dev43 c < nD) : (⟨k0_dev43 c, h⟩ : Dev nD) = zpeer c := Fin.ext (dev43_val c)
theorem dev44_val (c : Dev nD) : k0_dev44 c = (zpeer c).val := by revert c; decide +kernel
theorem dev44_eq (c : Dev nD) (h : k0_dev44 c < nD) : (⟨k0_dev44 c, h⟩ : Dev nD) = zpeer c := Fin.ext (dev44_val c)
theorem dev45_val (c : Dev nD) : k0_dev45 c = (zpeer c).val := by revert c; decide +kernel
theorem dev45_eq (c : Dev nD) (h : k0_dev45 c < nD) : (⟨k0_dev45 c, h⟩ : Dev nD) = zpeer c := Fin.ext (dev45_val c)
theorem dev46_val (c : Dev nD) : k0_dev46 c = (zpeer c).val := by revert c; decide +kernel
theorem dev46_eq (c : Dev nD) (h : k0_dev46 c < nD) : (⟨k0_dev46 c, h⟩ : Dev nD) = zpeer c := Fin.ext (dev46_val c)
theorem dev47_val (c : Dev nD) : k0_dev47 c = (zpeer c).val := by revert c; decide +kernel
theorem dev47_eq (c : Dev nD) (h : k0_dev47 c < nD) : (⟨k0_dev47 c, h⟩ : Dev nD) = zpeer c := Fin.ext (dev47_val c)
theorem dev48_val (c : Dev nD) : k0_dev48 c = (zpeer c).val := by revert c; decide +kernel
theorem dev48_eq (c : Dev nD) (h : k0_dev48 c < nD) : (⟨k0_dev48 c, h⟩ : Dev nD) = zpeer c := Fin.ext (dev48_val c)
theorem dev49_val (c : Dev nD) : k0_dev49 c = (zpeer c).val := by revert c; decide +kernel
theorem dev49_eq (c : Dev nD) (h : k0_dev49 c < nD) : (⟨k0_dev49 c, h⟩ : Dev nD) = zpeer c := Fin.ext (dev49_val c)
theorem dev50_val (c : Dev nD) : k0_dev50 c = (zpeer c).val := by revert c; decide +kernel
theorem dev50_eq (c : Dev nD) (h : k0_dev50 c < nD) : (⟨k0_dev50 c, h⟩ : Dev nD) = zpeer c := Fin.ext (dev50_val c)
theorem dev51_val (c : Dev nD) : k0_dev51 c = (zpeer c).val := by revert c; decide +kernel
theorem dev51_eq (c : Dev nD) (h : k0_dev51 c < nD) : (⟨k0_dev51 c, h⟩ : Dev nD) = zpeer c := Fin.ext (dev51_val c)
theorem dev52_val (c : Dev nD) : k0_dev52 c = (zpeer c).val := by revert c; decide +kernel
theorem dev52_eq (c : Dev nD) (h : k0_dev52 c < nD) : (⟨k0_dev52 c, h⟩ : Dev nD) = zpeer c := Fin.ext (dev52_val c)
theorem dev53_val (c : Dev nD) : k0_dev53 c = (zpeer c).val := by revert c; decide +kernel
theorem dev53_eq (c : Dev nD) (h : k0_dev53 c < nD) : (⟨k0_dev53 c, h⟩ : Dev nD) = zpeer c := Fin.ext (dev53_val c)
theorem dev54_val (c : Dev nD) : k0_dev54 c = (zpeer c).val := by revert c; decide +kernel
theorem dev54_eq (c : Dev nD) (h : k0_dev54 c < nD) : (⟨k0_dev54 c, h⟩ : Dev nD) = zpeer c := Fin.ext (dev54_val c)
theorem dev55_val (c : Dev nD) : k0_dev55 c = (zpeer c).val := by revert c; decide +kernel
theorem dev55_eq (c : Dev nD) (h : k0_dev55 c < nD) : (⟨k0_dev55 c, h⟩ : Dev nD) = zpeer c := Fin.ext (dev55_val c)
theorem dev56_val (c : Dev nD) : k0_dev56 c = (zpeer c).val := by revert c; decide +kernel
theorem dev56_eq (c : Dev nD) (h : k0_dev56 c < nD) : (⟨k0_dev56 c, h⟩ : Dev nD) = zpeer c := Fin.ext (dev56_val c)
theorem dev57_val (c : Dev nD) : k0_dev57 c = (zpeer c).val := by revert c; decide +kernel
theorem dev57_eq (c : Dev nD) (h : k0_dev57 c < nD) : (⟨k0_dev57 c, h⟩ : Dev nD) = zpeer c := Fin.ext (dev57_val c)
theorem dev58_val (c : Dev nD) : k0_dev58 c = (zpeer c).val := by revert c; decide +kernel
theorem dev58_eq (c : Dev nD) (h : k0_dev58 c < nD) : (⟨k0_dev58 c, h⟩ : Dev nD) = zpeer c := Fin.ext (dev58_val c)
theorem dev59_val (c : Dev nD) : k0_dev59 c = (zpeer c).val := by revert c; decide +kernel
theorem dev59_eq (c : Dev nD) (h : k0_dev59 c < nD) : (⟨k0_dev59 c, h⟩ : Dev nD) = zpeer c := Fin.ext (dev59_val c)
theorem dev60_val (c : Dev nD) : k0_dev60 c = (zpeer c).val := by revert c; decide +kernel
theorem dev60_eq (c : Dev nD) (h : k0_dev60 c < nD) : (⟨k0_dev60 c, h⟩ : Dev nD) = zpeer c := Fin.ext (dev60_val c)
theorem dev61_val (c : Dev nD) : k0_dev61 c = (zpeer c).val := by revert c; decide +kernel
theorem dev61_eq (c : Dev nD) (h : k0_dev61 c < nD) : (⟨k0_dev61 c, h⟩ : Dev nD) = zpeer c := Fin.ext (dev61_val c)
theorem dev62_val (c : Dev nD) : k0_dev62 c = (zpeer c).val := by revert c; decide +kernel
theorem dev62_eq (c : Dev nD) (h : k0_dev62 c < nD) : (⟨k0_dev62 c, h⟩ : Dev nD) = zpeer c := Fin.ext (dev62_val c)
theorem dev63_val (c : Dev nD) : k0_dev63 c = (zpeer c).val := by revert c; decide +kernel
theorem dev63_eq (c : Dev nD) (h : k0_dev63 c < nD) : (⟨k0_dev63 c, h⟩ : Dev nD) = zpeer c := Fin.ext (dev63_val c)
theorem dev64_val (c : Dev nD) : k0_dev64 c = (zpeer c).val := by revert c; decide +kernel
theorem dev64_eq (c : Dev nD) (h : k0_dev64 c < nD) : (⟨k0_dev64 c, h⟩ : Dev nD) = zpeer c := Fin.ext (dev64_val c)
theorem dev65_val (c : Dev nD) : k0_dev65 c = (zpeer c).val := by revert c; decide +kernel
theorem dev65_eq (c : Dev nD) (h : k0_dev65 c < nD) : (⟨k0_dev65 c, h⟩ : Dev nD) = zpeer c := Fin.ext (dev65_val c)
theorem dev66_val (c : Dev nD) : k0_dev66 c = (zpeer c).val := by revert c; decide +kernel
theorem dev66_eq (c : Dev nD) (h : k0_dev66 c < nD) : (⟨k0_dev66 c, h⟩ : Dev nD) = zpeer c := Fin.ext (dev66_val c)
theorem dev67_val (c : Dev nD) : k0_dev67 c = (zpeer c).val := by revert c; decide +kernel
theorem dev67_eq (c : Dev nD) (h : k0_dev67 c < nD) : (⟨k0_dev67 c, h⟩ : Dev nD) = zpeer c := Fin.ext (dev67_val c)
theorem dev68_val (c : Dev nD) : k0_dev68 c = (zpeer c).val := by revert c; decide +kernel
theorem dev68_eq (c : Dev nD) (h : k0_dev68 c < nD) : (⟨k0_dev68 c, h⟩ : Dev nD) = zpeer c := Fin.ext (dev68_val c)
theorem dev69_val (c : Dev nD) : k0_dev69 c = (zpeer c).val := by revert c; decide +kernel
theorem dev69_eq (c : Dev nD) (h : k0_dev69 c < nD) : (⟨k0_dev69 c, h⟩ : Dev nD) = zpeer c := Fin.ext (dev69_val c)
theorem dev70_val (c : Dev nD) : k0_dev70 c = (zpeer c).val := by revert c; decide +kernel
theorem dev70_eq (c : Dev nD) (h : k0_dev70 c < nD) : (⟨k0_dev70 c, h⟩ : Dev nD) = zpeer c := Fin.ext (dev70_val c)
theorem dev71_val (c : Dev nD) : k0_dev71 c = (zpeer c).val := by revert c; decide +kernel
theorem dev71_eq (c : Dev nD) (h : k0_dev71 c < nD) : (⟨k0_dev71 c, h⟩ : Dev nD) = zpeer c := Fin.ext (dev71_val c)
theorem dev72_val (c : Dev nD) : k0_dev72 c = (zpeer c).val := by revert c; decide +kernel
theorem dev72_eq (c : Dev nD) (h : k0_dev72 c < nD) : (⟨k0_dev72 c, h⟩ : Dev nD) = zpeer c := Fin.ext (dev72_val c)
theorem dev73_val (c : Dev nD) : k0_dev73 c = (zpeer c).val := by revert c; decide +kernel
theorem dev73_eq (c : Dev nD) (h : k0_dev73 c < nD) : (⟨k0_dev73 c, h⟩ : Dev nD) = zpeer c := Fin.ext (dev73_val c)
theorem dev74_val (c : Dev nD) : k0_dev74 c = (zpeer c).val := by revert c; decide +kernel
theorem dev74_eq (c : Dev nD) (h : k0_dev74 c < nD) : (⟨k0_dev74 c, h⟩ : Dev nD) = zpeer c := Fin.ext (dev74_val c)
theorem dev75_val (c : Dev nD) : k0_dev75 c = (zpeer c).val := by revert c; decide +kernel
theorem dev75_eq (c : Dev nD) (h : k0_dev75 c < nD) : (⟨k0_dev75 c, h⟩ : Dev nD) = zpeer c := Fin.ext (dev75_val c)
theorem dev76_val (c : Dev nD) : k0_dev76 c = (zpeer c).val := by revert c; decide +kernel
theorem dev76_eq (c : Dev nD) (h : k0_dev76 c < nD) : (⟨k0_dev76 c, h⟩ : Dev nD) = zpeer c := Fin.ext (dev76_val c)
theorem dev77_val (c : Dev nD) : k0_dev77 c = (zpeer c).val := by revert c; decide +kernel
theorem dev77_eq (c : Dev nD) (h : k0_dev77 c < nD) : (⟨k0_dev77 c, h⟩ : Dev nD) = zpeer c := Fin.ext (dev77_val c)
theorem dev78_val (c : Dev nD) : k0_dev78 c = (zpeer c).val := by revert c; decide +kernel
theorem dev78_eq (c : Dev nD) (h : k0_dev78 c < nD) : (⟨k0_dev78 c, h⟩ : Dev nD) = zpeer c := Fin.ext (dev78_val c)
theorem dev79_val (c : Dev nD) : k0_dev79 c = (zpeer c).val := by revert c; decide +kernel
theorem dev79_eq (c : Dev nD) (h : k0_dev79 c < nD) : (⟨k0_dev79 c, h⟩ : Dev nD) = zpeer c := Fin.ext (dev79_val c)
theorem dev80_val (c : Dev nD) : k0_dev80 c = (zpeer c).val := by revert c; decide +kernel
theorem dev80_eq (c : Dev nD) (h : k0_dev80 c < nD) : (⟨k0_dev80 c, h⟩ : Dev nD) = zpeer c := Fin.ext (dev80_val c)
theorem dev81_val (c : Dev nD) : k0_dev81 c = (zpeer c).val := by revert c; decide +kernel
theorem dev81_eq (c : Dev nD) (h : k0_dev81 c < nD) : (⟨k0_dev81 c, h⟩ : Dev nD) = zpeer c := Fin.ext (dev81_val c)
theorem dev82_val (c : Dev nD) : k0_dev82 c = (zpeer c).val := by revert c; decide +kernel
theorem dev82_eq (c : Dev nD) (h : k0_dev82 c < nD) : (⟨k0_dev82 c, h⟩ : Dev nD) = zpeer c := Fin.ext (dev82_val c)
theorem dev83_val (c : Dev nD) : k0_dev83 c = (zpeer c).val := by revert c; decide +kernel
theorem dev83_eq (c : Dev nD) (h : k0_dev83 c < nD) : (⟨k0_dev83 c, h⟩ : Dev nD) = zpeer c := Fin.ext (dev83_val c)
theorem dev84_val (c : Dev nD) : k0_dev84 c = (zpeer c).val := by revert c; decide +kernel
theorem dev84_eq (c : Dev nD) (h : k0_dev84 c < nD) : (⟨k0_dev84 c, h⟩ : Dev nD) = zpeer c := Fin.ext (dev84_val c)
theorem dev85_val (c : Dev nD) : k0_dev85 c = (zpeer c).val := by revert c; decide +kernel
theorem dev85_eq (c : Dev nD) (h : k0_dev85 c < nD) : (⟨k0_dev85 c, h⟩ : Dev nD) = zpeer c := Fin.ext (dev85_val c)
theorem dev86_val (c : Dev nD) : k0_dev86 c = (zpeer c).val := by revert c; decide +kernel
theorem dev86_eq (c : Dev nD) (h : k0_dev86 c < nD) : (⟨k0_dev86 c, h⟩ : Dev nD) = zpeer c := Fin.ext (dev86_val c)
theorem dev87_val (c : Dev nD) : k0_dev87 c = (zpeer c).val := by revert c; decide +kernel
theorem dev87_eq (c : Dev nD) (h : k0_dev87 c < nD) : (⟨k0_dev87 c, h⟩ : Dev nD) = zpeer c := Fin.ext (dev87_val c)
theorem dev88_val (c : Dev nD) : k0_dev88 c = (nxt c).val := by revert c; decide +kernel
theorem dev88_eq (c : Dev nD) (h : k0_dev88 c < nD) : (⟨k0_dev88 c, h⟩ : Dev nD) = nxt c := Fin.ext (dev88_val c)
theorem dev89_val (c : Dev nD) : k0_dev89 c = (prv c).val := by revert c; decide +kernel
theorem dev89_eq (c : Dev nD) (h : k0_dev89 c < nD) : (⟨k0_dev89 c, h⟩ : Dev nD) = prv c := Fin.ext (dev89_val c)
theorem dev90_val (c : Dev nD) : k0_dev90 c = (nxt c).val := by revert c; decide +kernel
theorem dev90_eq (c : Dev nD) (h : k0_dev90 c < nD) : (⟨k0_dev90 c, h⟩ : Dev nD) = nxt c := Fin.ext (dev90_val c)
theorem dev91_val (c : Dev nD) : k0_dev91 c = (prv c).val := by revert c; decide +kernel
theorem dev91_eq (c : Dev nD) (h : k0_dev91 c < nD) : (⟨k0_dev91 c, h⟩ : Dev nD) = prv c := Fin.ext (dev91_val c)
theorem dev92_val (c : Dev nD) : k0_dev92 c = (nxt c).val := by revert c; decide +kernel
theorem dev92_eq (c : Dev nD) (h : k0_dev92 c < nD) : (⟨k0_dev92 c, h⟩ : Dev nD) = nxt c := Fin.ext (dev92_val c)
theorem dev93_val (c : Dev nD) : k0_dev93 c = (prv c).val := by revert c; decide +kernel
theorem dev93_eq (c : Dev nD) (h : k0_dev93 c < nD) : (⟨k0_dev93 c, h⟩ : Dev nD) = prv c := Fin.ext (dev93_val c)
theorem dev94_val (c : Dev nD) : k0_dev94 c = (nxt c).val := by revert c; decide +kernel
theorem dev94_eq (c : Dev nD) (h : k0_dev94 c < nD) : (⟨k0_dev94 c, h⟩ : Dev nD) = nxt c := Fin.ext (dev94_val c)
theorem dev95_val (c : Dev nD) : k0_dev95 c = (prv c).val := by revert c; decide +kernel
theorem dev95_eq (c : Dev nD) (h : k0_dev95 c < nD) : (⟨k0_dev95 c, h⟩ : Dev nD) = prv c := Fin.ext (dev95_val c)
theorem dev96_val (c : Dev nD) : k0_dev96 c = (nxt c).val := by revert c; decide +kernel
theorem dev96_eq (c : Dev nD) (h : k0_dev96 c < nD) : (⟨k0_dev96 c, h⟩ : Dev nD) = nxt c := Fin.ext (dev96_val c)
theorem dev97_val (c : Dev nD) : k0_dev97 c = (prv c).val := by revert c; decide +kernel
theorem dev97_eq (c : Dev nD) (h : k0_dev97 c < nD) : (⟨k0_dev97 c, h⟩ : Dev nD) = prv c := Fin.ext (dev97_val c)
theorem dev98_val (c : Dev nD) : k0_dev98 c = (nxt c).val := by revert c; decide +kernel
theorem dev98_eq (c : Dev nD) (h : k0_dev98 c < nD) : (⟨k0_dev98 c, h⟩ : Dev nD) = nxt c := Fin.ext (dev98_val c)
theorem dev99_val (c : Dev nD) : k0_dev99 c = (prv c).val := by revert c; decide +kernel
theorem dev99_eq (c : Dev nD) (h : k0_dev99 c < nD) : (⟨k0_dev99 c, h⟩ : Dev nD) = prv c := Fin.ext (dev99_val c)
theorem dev100_val (c : Dev nD) : k0_dev100 c = (nxt c).val := by revert c; decide +kernel
theorem dev100_eq (c : Dev nD) (h : k0_dev100 c < nD) : (⟨k0_dev100 c, h⟩ : Dev nD) = nxt c := Fin.ext (dev100_val c)
theorem dev101_val (c : Dev nD) : k0_dev101 c = (prv c).val := by revert c; decide +kernel
theorem dev101_eq (c : Dev nD) (h : k0_dev101 c < nD) : (⟨k0_dev101 c, h⟩ : Dev nD) = prv c := Fin.ext (dev101_val c)
theorem dev102_val (c : Dev nD) : k0_dev102 c = (nxt c).val := by revert c; decide +kernel
theorem dev102_eq (c : Dev nD) (h : k0_dev102 c < nD) : (⟨k0_dev102 c, h⟩ : Dev nD) = nxt c := Fin.ext (dev102_val c)
theorem dev103_val (c : Dev nD) : k0_dev103 c = (prv c).val := by revert c; decide +kernel
theorem dev103_eq (c : Dev nD) (h : k0_dev103 c < nD) : (⟨k0_dev103 c, h⟩ : Dev nD) = prv c := Fin.ext (dev103_val c)
theorem dev104_val (c : Dev nD) : k0_dev104 c = (nxt c).val := by revert c; decide +kernel
theorem dev104_eq (c : Dev nD) (h : k0_dev104 c < nD) : (⟨k0_dev104 c, h⟩ : Dev nD) = nxt c := Fin.ext (dev104_val c)
theorem dev105_val (c : Dev nD) : k0_dev105 c = (prv c).val := by revert c; decide +kernel
theorem dev105_eq (c : Dev nD) (h : k0_dev105 c < nD) : (⟨k0_dev105 c, h⟩ : Dev nD) = prv c := Fin.ext (dev105_val c)
theorem dev106_val (c : Dev nD) : k0_dev106 c = (nxt c).val := by revert c; decide +kernel
theorem dev106_eq (c : Dev nD) (h : k0_dev106 c < nD) : (⟨k0_dev106 c, h⟩ : Dev nD) = nxt c := Fin.ext (dev106_val c)
theorem dev107_val (c : Dev nD) : k0_dev107 c = (prv c).val := by revert c; decide +kernel
theorem dev107_eq (c : Dev nD) (h : k0_dev107 c < nD) : (⟨k0_dev107 c, h⟩ : Dev nD) = prv c := Fin.ext (dev107_val c)
theorem dev108_val (c : Dev nD) : k0_dev108 c = (nxt c).val := by revert c; decide +kernel
theorem dev108_eq (c : Dev nD) (h : k0_dev108 c < nD) : (⟨k0_dev108 c, h⟩ : Dev nD) = nxt c := Fin.ext (dev108_val c)
theorem dev109_val (c : Dev nD) : k0_dev109 c = (prv c).val := by revert c; decide +kernel
theorem dev109_eq (c : Dev nD) (h : k0_dev109 c < nD) : (⟨k0_dev109 c, h⟩ : Dev nD) = prv c := Fin.ext (dev109_val c)
theorem dev110_val (c : Dev nD) : k0_dev110 c = (nxt c).val := by revert c; decide +kernel
theorem dev110_eq (c : Dev nD) (h : k0_dev110 c < nD) : (⟨k0_dev110 c, h⟩ : Dev nD) = nxt c := Fin.ext (dev110_val c)
theorem dev111_val (c : Dev nD) : k0_dev111 c = (prv c).val := by revert c; decide +kernel
theorem dev111_eq (c : Dev nD) (h : k0_dev111 c < nD) : (⟨k0_dev111 c, h⟩ : Dev nD) = prv c := Fin.ext (dev111_val c)
theorem dev112_val (c : Dev nD) : k0_dev112 c = (nxt c).val := by revert c; decide +kernel
theorem dev112_eq (c : Dev nD) (h : k0_dev112 c < nD) : (⟨k0_dev112 c, h⟩ : Dev nD) = nxt c := Fin.ext (dev112_val c)
theorem dev113_val (c : Dev nD) : k0_dev113 c = (prv c).val := by revert c; decide +kernel
theorem dev113_eq (c : Dev nD) (h : k0_dev113 c < nD) : (⟨k0_dev113 c, h⟩ : Dev nD) = prv c := Fin.ext (dev113_val c)
theorem dev114_val (c : Dev nD) : k0_dev114 c = (nxt c).val := by revert c; decide +kernel
theorem dev114_eq (c : Dev nD) (h : k0_dev114 c < nD) : (⟨k0_dev114 c, h⟩ : Dev nD) = nxt c := Fin.ext (dev114_val c)
theorem dev115_val (c : Dev nD) : k0_dev115 c = (prv c).val := by revert c; decide +kernel
theorem dev115_eq (c : Dev nD) (h : k0_dev115 c < nD) : (⟨k0_dev115 c, h⟩ : Dev nD) = prv c := Fin.ext (dev115_val c)
theorem dev116_val (c : Dev nD) : k0_dev116 c = (nxt c).val := by revert c; decide +kernel
theorem dev116_eq (c : Dev nD) (h : k0_dev116 c < nD) : (⟨k0_dev116 c, h⟩ : Dev nD) = nxt c := Fin.ext (dev116_val c)
theorem dev117_val (c : Dev nD) : k0_dev117 c = (prv c).val := by revert c; decide +kernel
theorem dev117_eq (c : Dev nD) (h : k0_dev117 c < nD) : (⟨k0_dev117 c, h⟩ : Dev nD) = prv c := Fin.ext (dev117_val c)
theorem dev118_val (c : Dev nD) : k0_dev118 c = (nxt c).val := by revert c; decide +kernel
theorem dev118_eq (c : Dev nD) (h : k0_dev118 c < nD) : (⟨k0_dev118 c, h⟩ : Dev nD) = nxt c := Fin.ext (dev118_val c)
theorem dev119_val (c : Dev nD) : k0_dev119 c = (prv c).val := by revert c; decide +kernel
theorem dev119_eq (c : Dev nD) (h : k0_dev119 c < nD) : (⟨k0_dev119 c, h⟩ : Dev nD) = prv c := Fin.ext (dev119_val c)
theorem dev120_val (c : Dev nD) : k0_dev120 c = (nxt c).val := by revert c; decide +kernel
theorem dev120_eq (c : Dev nD) (h : k0_dev120 c < nD) : (⟨k0_dev120 c, h⟩ : Dev nD) = nxt c := Fin.ext (dev120_val c)
theorem dev121_val (c : Dev nD) : k0_dev121 c = (prv c).val := by revert c; decide +kernel
theorem dev121_eq (c : Dev nD) (h : k0_dev121 c < nD) : (⟨k0_dev121 c, h⟩ : Dev nD) = prv c := Fin.ext (dev121_val c)
theorem dev122_val (c : Dev nD) : k0_dev122 c = (nxt c).val := by revert c; decide +kernel
theorem dev122_eq (c : Dev nD) (h : k0_dev122 c < nD) : (⟨k0_dev122 c, h⟩ : Dev nD) = nxt c := Fin.ext (dev122_val c)
theorem dev123_val (c : Dev nD) : k0_dev123 c = (prv c).val := by revert c; decide +kernel
theorem dev123_eq (c : Dev nD) (h : k0_dev123 c < nD) : (⟨k0_dev123 c, h⟩ : Dev nD) = prv c := Fin.ext (dev123_val c)
theorem dev124_val (c : Dev nD) : k0_dev124 c = (nxt c).val := by revert c; decide +kernel
theorem dev124_eq (c : Dev nD) (h : k0_dev124 c < nD) : (⟨k0_dev124 c, h⟩ : Dev nD) = nxt c := Fin.ext (dev124_val c)
theorem dev125_val (c : Dev nD) : k0_dev125 c = (prv c).val := by revert c; decide +kernel
theorem dev125_eq (c : Dev nD) (h : k0_dev125 c < nD) : (⟨k0_dev125 c, h⟩ : Dev nD) = prv c := Fin.ext (dev125_val c)
theorem dev126_val (c : Dev nD) : k0_dev126 c = (nxt c).val := by revert c; decide +kernel
theorem dev126_eq (c : Dev nD) (h : k0_dev126 c < nD) : (⟨k0_dev126 c, h⟩ : Dev nD) = nxt c := Fin.ext (dev126_val c)
theorem dev127_val (c : Dev nD) : k0_dev127 c = (prv c).val := by revert c; decide +kernel
theorem dev127_eq (c : Dev nD) (h : k0_dev127 c < nD) : (⟨k0_dev127 c, h⟩ : Dev nD) = prv c := Fin.ext (dev127_val c)
theorem dev128_val (c : Dev nD) : k0_dev128 c = (nxt c).val := by revert c; decide +kernel
theorem dev128_eq (c : Dev nD) (h : k0_dev128 c < nD) : (⟨k0_dev128 c, h⟩ : Dev nD) = nxt c := Fin.ext (dev128_val c)
theorem dev129_val (c : Dev nD) : k0_dev129 c = (prv c).val := by revert c; decide +kernel
theorem dev129_eq (c : Dev nD) (h : k0_dev129 c < nD) : (⟨k0_dev129 c, h⟩ : Dev nD) = prv c := Fin.ext (dev129_val c)
theorem dev130_val (c : Dev nD) : k0_dev130 c = (nxt c).val := by revert c; decide +kernel
theorem dev130_eq (c : Dev nD) (h : k0_dev130 c < nD) : (⟨k0_dev130 c, h⟩ : Dev nD) = nxt c := Fin.ext (dev130_val c)
theorem dev131_val (c : Dev nD) : k0_dev131 c = (prv c).val := by revert c; decide +kernel
theorem dev131_eq (c : Dev nD) (h : k0_dev131 c < nD) : (⟨k0_dev131 c, h⟩ : Dev nD) = prv c := Fin.ext (dev131_val c)
theorem dev132_val (c : Dev nD) : k0_dev132 c = (nxt c).val := by revert c; decide +kernel
theorem dev132_eq (c : Dev nD) (h : k0_dev132 c < nD) : (⟨k0_dev132 c, h⟩ : Dev nD) = nxt c := Fin.ext (dev132_val c)
theorem dev133_val (c : Dev nD) : k0_dev133 c = (prv c).val := by revert c; decide +kernel
theorem dev133_eq (c : Dev nD) (h : k0_dev133 c < nD) : (⟨k0_dev133 c, h⟩ : Dev nD) = prv c := Fin.ext (dev133_val c)
theorem dev134_val (c : Dev nD) : k0_dev134 c = (nxt c).val := by revert c; decide +kernel
theorem dev134_eq (c : Dev nD) (h : k0_dev134 c < nD) : (⟨k0_dev134 c, h⟩ : Dev nD) = nxt c := Fin.ext (dev134_val c)
theorem dev135_val (c : Dev nD) : k0_dev135 c = (prv c).val := by revert c; decide +kernel
theorem dev135_eq (c : Dev nD) (h : k0_dev135 c < nD) : (⟨k0_dev135 c, h⟩ : Dev nD) = prv c := Fin.ext (dev135_val c)
theorem dev136_val (c : Dev nD) : k0_dev136 c = (nxt c).val := by revert c; decide +kernel
theorem dev136_eq (c : Dev nD) (h : k0_dev136 c < nD) : (⟨k0_dev136 c, h⟩ : Dev nD) = nxt c := Fin.ext (dev136_val c)
theorem dev137_val (c : Dev nD) : k0_dev137 c = (prv c).val := by revert c; decide +kernel
theorem dev137_eq (c : Dev nD) (h : k0_dev137 c < nD) : (⟨k0_dev137 c, h⟩ : Dev nD) = prv c := Fin.ext (dev137_val c)
theorem dev138_val (c : Dev nD) : k0_dev138 c = (nxt c).val := by revert c; decide +kernel
theorem dev138_eq (c : Dev nD) (h : k0_dev138 c < nD) : (⟨k0_dev138 c, h⟩ : Dev nD) = nxt c := Fin.ext (dev138_val c)
theorem dev139_val (c : Dev nD) : k0_dev139 c = (prv c).val := by revert c; decide +kernel
theorem dev139_eq (c : Dev nD) (h : k0_dev139 c < nD) : (⟨k0_dev139 c, h⟩ : Dev nD) = prv c := Fin.ext (dev139_val c)
theorem dev140_val (c : Dev nD) : k0_dev140 c = (nxt c).val := by revert c; decide +kernel
theorem dev140_eq (c : Dev nD) (h : k0_dev140 c < nD) : (⟨k0_dev140 c, h⟩ : Dev nD) = nxt c := Fin.ext (dev140_val c)
theorem dev141_val (c : Dev nD) : k0_dev141 c = (prv c).val := by revert c; decide +kernel
theorem dev141_eq (c : Dev nD) (h : k0_dev141 c < nD) : (⟨k0_dev141 c, h⟩ : Dev nD) = prv c := Fin.ext (dev141_val c)
theorem dev142_val (c : Dev nD) : k0_dev142 c = (nxt c).val := by revert c; decide +kernel
theorem dev142_eq (c : Dev nD) (h : k0_dev142 c < nD) : (⟨k0_dev142 c, h⟩ : Dev nD) = nxt c := Fin.ext (dev142_val c)
theorem dev143_val (c : Dev nD) : k0_dev143 c = (prv c).val := by revert c; decide +kernel
theorem dev143_eq (c : Dev nD) (h : k0_dev143 c < nD) : (⟨k0_dev143 c, h⟩ : Dev nD) = prv c := Fin.ext (dev143_val c)
theorem dev144_val (c : Dev nD) : k0_dev144 c = (nxt c).val := by revert c; decide +kernel
theorem dev144_eq (c : Dev nD) (h : k0_dev144 c < nD) : (⟨k0_dev144 c, h⟩ : Dev nD) = nxt c := Fin.ext (dev144_val c)
theorem dev145_val (c : Dev nD) : k0_dev145 c = (prv c).val := by revert c; decide +kernel
theorem dev145_eq (c : Dev nD) (h : k0_dev145 c < nD) : (⟨k0_dev145 c, h⟩ : Dev nD) = prv c := Fin.ext (dev145_val c)
theorem dev146_val (c : Dev nD) : k0_dev146 c = (nxt c).val := by revert c; decide +kernel
theorem dev146_eq (c : Dev nD) (h : k0_dev146 c < nD) : (⟨k0_dev146 c, h⟩ : Dev nD) = nxt c := Fin.ext (dev146_val c)
theorem dev147_val (c : Dev nD) : k0_dev147 c = (prv c).val := by revert c; decide +kernel
theorem dev147_eq (c : Dev nD) (h : k0_dev147 c < nD) : (⟨k0_dev147 c, h⟩ : Dev nD) = prv c := Fin.ext (dev147_val c)
theorem dev148_val (c : Dev nD) : k0_dev148 c = (nxt c).val := by revert c; decide +kernel
theorem dev148_eq (c : Dev nD) (h : k0_dev148 c < nD) : (⟨k0_dev148 c, h⟩ : Dev nD) = nxt c := Fin.ext (dev148_val c)
theorem dev149_val (c : Dev nD) : k0_dev149 c = (prv c).val := by revert c; decide +kernel
theorem dev149_eq (c : Dev nD) (h : k0_dev149 c < nD) : (⟨k0_dev149 c, h⟩ : Dev nD) = prv c := Fin.ext (dev149_val c)
theorem dev150_val (c : Dev nD) : k0_dev150 c = (nxt c).val := by revert c; decide +kernel
theorem dev150_eq (c : Dev nD) (h : k0_dev150 c < nD) : (⟨k0_dev150 c, h⟩ : Dev nD) = nxt c := Fin.ext (dev150_val c)
theorem dev151_val (c : Dev nD) : k0_dev151 c = (prv c).val := by revert c; decide +kernel
theorem dev151_eq (c : Dev nD) (h : k0_dev151 c < nD) : (⟨k0_dev151 c, h⟩ : Dev nD) = prv c := Fin.ext (dev151_val c)
theorem dev152_val (c : Dev nD) : k0_dev152 c = (nxt c).val := by revert c; decide +kernel
theorem dev152_eq (c : Dev nD) (h : k0_dev152 c < nD) : (⟨k0_dev152 c, h⟩ : Dev nD) = nxt c := Fin.ext (dev152_val c)
theorem dev153_val (c : Dev nD) : k0_dev153 c = (prv c).val := by revert c; decide +kernel
theorem dev153_eq (c : Dev nD) (h : k0_dev153 c < nD) : (⟨k0_dev153 c, h⟩ : Dev nD) = prv c := Fin.ext (dev153_val c)
theorem dev154_val (c : Dev nD) : k0_dev154 c = (nxt c).val := by revert c; decide +kernel
theorem dev154_eq (c : Dev nD) (h : k0_dev154 c < nD) : (⟨k0_dev154 c, h⟩ : Dev nD) = nxt c := Fin.ext (dev154_val c)
theorem dev155_val (c : Dev nD) : k0_dev155 c = (prv c).val := by revert c; decide +kernel
theorem dev155_eq (c : Dev nD) (h : k0_dev155 c < nD) : (⟨k0_dev155 c, h⟩ : Dev nD) = prv c := Fin.ext (dev155_val c)
theorem dev156_val (c : Dev nD) : k0_dev156 c = (nxt c).val := by revert c; decide +kernel
theorem dev156_eq (c : Dev nD) (h : k0_dev156 c < nD) : (⟨k0_dev156 c, h⟩ : Dev nD) = nxt c := Fin.ext (dev156_val c)
theorem dev157_val (c : Dev nD) : k0_dev157 c = (prv c).val := by revert c; decide +kernel
theorem dev157_eq (c : Dev nD) (h : k0_dev157 c < nD) : (⟨k0_dev157 c, h⟩ : Dev nD) = prv c := Fin.ext (dev157_val c)
theorem dev158_val (c : Dev nD) : k0_dev158 c = (nxt c).val := by revert c; decide +kernel
theorem dev158_eq (c : Dev nD) (h : k0_dev158 c < nD) : (⟨k0_dev158 c, h⟩ : Dev nD) = nxt c := Fin.ext (dev158_val c)
theorem dev159_val (c : Dev nD) : k0_dev159 c = (prv c).val := by revert c; decide +kernel
theorem dev159_eq (c : Dev nD) (h : k0_dev159 c < nD) : (⟨k0_dev159 c, h⟩ : Dev nD) = prv c := Fin.ext (dev159_val c)
theorem dev160_val (c : Dev nD) : k0_dev160 c = (nxt c).val := by revert c; decide +kernel
theorem dev160_eq (c : Dev nD) (h : k0_dev160 c < nD) : (⟨k0_dev160 c, h⟩ : Dev nD) = nxt c := Fin.ext (dev160_val c)
theorem dev161_val (c : Dev nD) : k0_dev161 c = (prv c).val := by revert c; decide +kernel
theorem dev161_eq (c : Dev nD) (h : k0_dev161 c < nD) : (⟨k0_dev161 c, h⟩ : Dev nD) = prv c := Fin.ext (dev161_val c)
theorem dev162_val (c : Dev nD) : k0_dev162 c = (nxt c).val := by revert c; decide +kernel
theorem dev162_eq (c : Dev nD) (h : k0_dev162 c < nD) : (⟨k0_dev162 c, h⟩ : Dev nD) = nxt c := Fin.ext (dev162_val c)
theorem dev163_val (c : Dev nD) : k0_dev163 c = (prv c).val := by revert c; decide +kernel
theorem dev163_eq (c : Dev nD) (h : k0_dev163 c < nD) : (⟨k0_dev163 c, h⟩ : Dev nD) = prv c := Fin.ext (dev163_val c)
theorem dev164_val (c : Dev nD) : k0_dev164 c = (nxt c).val := by revert c; decide +kernel
theorem dev164_eq (c : Dev nD) (h : k0_dev164 c < nD) : (⟨k0_dev164 c, h⟩ : Dev nD) = nxt c := Fin.ext (dev164_val c)
theorem dev165_val (c : Dev nD) : k0_dev165 c = (prv c).val := by revert c; decide +kernel
theorem dev165_eq (c : Dev nD) (h : k0_dev165 c < nD) : (⟨k0_dev165 c, h⟩ : Dev nD) = prv c := Fin.ext (dev165_val c)
theorem dev166_val (c : Dev nD) : k0_dev166 c = (nxt c).val := by revert c; decide +kernel
theorem dev166_eq (c : Dev nD) (h : k0_dev166 c < nD) : (⟨k0_dev166 c, h⟩ : Dev nD) = nxt c := Fin.ext (dev166_val c)
theorem dev167_val (c : Dev nD) : k0_dev167 c = (prv c).val := by revert c; decide +kernel
theorem dev167_eq (c : Dev nD) (h : k0_dev167 c < nD) : (⟨k0_dev167 c, h⟩ : Dev nD) = prv c := Fin.ext (dev167_val c)
theorem dev168_val (c : Dev nD) : k0_dev168 c = (nxt c).val := by revert c; decide +kernel
theorem dev168_eq (c : Dev nD) (h : k0_dev168 c < nD) : (⟨k0_dev168 c, h⟩ : Dev nD) = nxt c := Fin.ext (dev168_val c)
theorem dev169_val (c : Dev nD) : k0_dev169 c = (prv c).val := by revert c; decide +kernel
theorem dev169_eq (c : Dev nD) (h : k0_dev169 c < nD) : (⟨k0_dev169 c, h⟩ : Dev nD) = prv c := Fin.ext (dev169_val c)
theorem dev170_val (c : Dev nD) : k0_dev170 c = (nxt c).val := by revert c; decide +kernel
theorem dev170_eq (c : Dev nD) (h : k0_dev170 c < nD) : (⟨k0_dev170 c, h⟩ : Dev nD) = nxt c := Fin.ext (dev170_val c)
theorem dev171_val (c : Dev nD) : k0_dev171 c = (prv c).val := by revert c; decide +kernel
theorem dev171_eq (c : Dev nD) (h : k0_dev171 c < nD) : (⟨k0_dev171 c, h⟩ : Dev nD) = prv c := Fin.ext (dev171_val c)
theorem dev172_val (c : Dev nD) : k0_dev172 c = (nxt c).val := by revert c; decide +kernel
theorem dev172_eq (c : Dev nD) (h : k0_dev172 c < nD) : (⟨k0_dev172 c, h⟩ : Dev nD) = nxt c := Fin.ext (dev172_val c)
theorem dev173_val (c : Dev nD) : k0_dev173 c = (prv c).val := by revert c; decide +kernel
theorem dev173_eq (c : Dev nD) (h : k0_dev173 c < nD) : (⟨k0_dev173 c, h⟩ : Dev nD) = prv c := Fin.ext (dev173_val c)
theorem dev174_val (c : Dev nD) : k0_dev174 c = (nxt c).val := by revert c; decide +kernel
theorem dev174_eq (c : Dev nD) (h : k0_dev174 c < nD) : (⟨k0_dev174 c, h⟩ : Dev nD) = nxt c := Fin.ext (dev174_val c)
theorem dev175_val (c : Dev nD) : k0_dev175 c = (prv c).val := by revert c; decide +kernel
theorem dev175_eq (c : Dev nD) (h : k0_dev175 c < nD) : (⟨k0_dev175 c, h⟩ : Dev nD) = prv c := Fin.ext (dev175_val c)
theorem dev176_val (c : Dev nD) : k0_dev176 c = (nxt c).val := by revert c; decide +kernel
theorem dev176_eq (c : Dev nD) (h : k0_dev176 c < nD) : (⟨k0_dev176 c, h⟩ : Dev nD) = nxt c := Fin.ext (dev176_val c)
theorem dev177_val (c : Dev nD) : k0_dev177 c = (prv c).val := by revert c; decide +kernel
theorem dev177_eq (c : Dev nD) (h : k0_dev177 c < nD) : (⟨k0_dev177 c, h⟩ : Dev nD) = prv c := Fin.ext (dev177_val c)
theorem dev178_val (c : Dev nD) : k0_dev178 c = (nxt c).val := by revert c; decide +kernel
theorem dev178_eq (c : Dev nD) (h : k0_dev178 c < nD) : (⟨k0_dev178 c, h⟩ : Dev nD) = nxt c := Fin.ext (dev178_val c)
theorem dev179_val (c : Dev nD) : k0_dev179 c = (prv c).val := by revert c; decide +kernel
theorem dev179_eq (c : Dev nD) (h : k0_dev179 c < nD) : (⟨k0_dev179 c, h⟩ : Dev nD) = prv c := Fin.ext (dev179_val c)
theorem dev180_val (c : Dev nD) : k0_dev180 c = (nxt c).val := by revert c; decide +kernel
theorem dev180_eq (c : Dev nD) (h : k0_dev180 c < nD) : (⟨k0_dev180 c, h⟩ : Dev nD) = nxt c := Fin.ext (dev180_val c)
theorem dev181_val (c : Dev nD) : k0_dev181 c = (prv c).val := by revert c; decide +kernel
theorem dev181_eq (c : Dev nD) (h : k0_dev181 c < nD) : (⟨k0_dev181 c, h⟩ : Dev nD) = prv c := Fin.ext (dev181_val c)
theorem dev182_val (c : Dev nD) : k0_dev182 c = (nxt c).val := by revert c; decide +kernel
theorem dev182_eq (c : Dev nD) (h : k0_dev182 c < nD) : (⟨k0_dev182 c, h⟩ : Dev nD) = nxt c := Fin.ext (dev182_val c)
theorem dev183_val (c : Dev nD) : k0_dev183 c = (prv c).val := by revert c; decide +kernel
theorem dev183_eq (c : Dev nD) (h : k0_dev183 c < nD) : (⟨k0_dev183 c, h⟩ : Dev nD) = prv c := Fin.ext (dev183_val c)
theorem dev184_val (c : Dev nD) : k0_dev184 c = (nxt c).val := by revert c; decide +kernel
theorem dev184_eq (c : Dev nD) (h : k0_dev184 c < nD) : (⟨k0_dev184 c, h⟩ : Dev nD) = nxt c := Fin.ext (dev184_val c)
theorem dev185_val (c : Dev nD) : k0_dev185 c = (prv c).val := by revert c; decide +kernel
theorem dev185_eq (c : Dev nD) (h : k0_dev185 c < nD) : (⟨k0_dev185 c, h⟩ : Dev nD) = prv c := Fin.ext (dev185_val c)
theorem dev186_val (c : Dev nD) : k0_dev186 c = (nxt c).val := by revert c; decide +kernel
theorem dev186_eq (c : Dev nD) (h : k0_dev186 c < nD) : (⟨k0_dev186 c, h⟩ : Dev nD) = nxt c := Fin.ext (dev186_val c)
theorem dev187_val (c : Dev nD) : k0_dev187 c = (prv c).val := by revert c; decide +kernel
theorem dev187_eq (c : Dev nD) (h : k0_dev187 c < nD) : (⟨k0_dev187 c, h⟩ : Dev nD) = prv c := Fin.ext (dev187_val c)
theorem dev188_val (c : Dev nD) : k0_dev188 c = (nxt c).val := by revert c; decide +kernel
theorem dev188_eq (c : Dev nD) (h : k0_dev188 c < nD) : (⟨k0_dev188 c, h⟩ : Dev nD) = nxt c := Fin.ext (dev188_val c)
theorem dev189_val (c : Dev nD) : k0_dev189 c = (prv c).val := by revert c; decide +kernel
theorem dev189_eq (c : Dev nD) (h : k0_dev189 c < nD) : (⟨k0_dev189 c, h⟩ : Dev nD) = prv c := Fin.ext (dev189_val c)
theorem dev190_val (c : Dev nD) : k0_dev190 c = (nxt c).val := by revert c; decide +kernel
theorem dev190_eq (c : Dev nD) (h : k0_dev190 c < nD) : (⟨k0_dev190 c, h⟩ : Dev nD) = nxt c := Fin.ext (dev190_val c)
theorem dev191_val (c : Dev nD) : k0_dev191 c = (prv c).val := by revert c; decide +kernel
theorem dev191_eq (c : Dev nD) (h : k0_dev191 c < nD) : (⟨k0_dev191 c, h⟩ : Dev nD) = prv c := Fin.ext (dev191_val c)
theorem dev192_val (c : Dev nD) : k0_dev192 c = (nxt c).val := by revert c; decide +kernel
theorem dev192_eq (c : Dev nD) (h : k0_dev192 c < nD) : (⟨k0_dev192 c, h⟩ : Dev nD) = nxt c := Fin.ext (dev192_val c)
theorem dev193_val (c : Dev nD) : k0_dev193 c = (prv c).val := by revert c; decide +kernel
theorem dev193_eq (c : Dev nD) (h : k0_dev193 c < nD) : (⟨k0_dev193 c, h⟩ : Dev nD) = prv c := Fin.ext (dev193_val c)
theorem dev194_val (c : Dev nD) : k0_dev194 c = (nxt c).val := by revert c; decide +kernel
theorem dev194_eq (c : Dev nD) (h : k0_dev194 c < nD) : (⟨k0_dev194 c, h⟩ : Dev nD) = nxt c := Fin.ext (dev194_val c)
theorem dev195_val (c : Dev nD) : k0_dev195 c = (prv c).val := by revert c; decide +kernel
theorem dev195_eq (c : Dev nD) (h : k0_dev195 c < nD) : (⟨k0_dev195 c, h⟩ : Dev nD) = prv c := Fin.ext (dev195_val c)
theorem dev196_val (c : Dev nD) : k0_dev196 c = (nxt c).val := by revert c; decide +kernel
theorem dev196_eq (c : Dev nD) (h : k0_dev196 c < nD) : (⟨k0_dev196 c, h⟩ : Dev nD) = nxt c := Fin.ext (dev196_val c)
theorem dev197_val (c : Dev nD) : k0_dev197 c = (prv c).val := by revert c; decide +kernel
theorem dev197_eq (c : Dev nD) (h : k0_dev197 c < nD) : (⟨k0_dev197 c, h⟩ : Dev nD) = prv c := Fin.ext (dev197_val c)
theorem dev198_val (c : Dev nD) : k0_dev198 c = (nxt c).val := by revert c; decide +kernel
theorem dev198_eq (c : Dev nD) (h : k0_dev198 c < nD) : (⟨k0_dev198 c, h⟩ : Dev nD) = nxt c := Fin.ext (dev198_val c)
theorem dev199_val (c : Dev nD) : k0_dev199 c = (prv c).val := by revert c; decide +kernel
theorem dev199_eq (c : Dev nD) (h : k0_dev199 c < nD) : (⟨k0_dev199 c, h⟩ : Dev nD) = prv c := Fin.ext (dev199_val c)
theorem dev200_val (c : Dev nD) : k0_dev200 c = (nxt c).val := by revert c; decide +kernel
theorem dev200_eq (c : Dev nD) (h : k0_dev200 c < nD) : (⟨k0_dev200 c, h⟩ : Dev nD) = nxt c := Fin.ext (dev200_val c)
theorem dev201_val (c : Dev nD) : k0_dev201 c = (prv c).val := by revert c; decide +kernel
theorem dev201_eq (c : Dev nD) (h : k0_dev201 c < nD) : (⟨k0_dev201 c, h⟩ : Dev nD) = prv c := Fin.ext (dev201_val c)
theorem dev202_val (c : Dev nD) : k0_dev202 c = (nxt c).val := by revert c; decide +kernel
theorem dev202_eq (c : Dev nD) (h : k0_dev202 c < nD) : (⟨k0_dev202 c, h⟩ : Dev nD) = nxt c := Fin.ext (dev202_val c)
theorem dev203_val (c : Dev nD) : k0_dev203 c = (prv c).val := by revert c; decide +kernel
theorem dev203_eq (c : Dev nD) (h : k0_dev203 c < nD) : (⟨k0_dev203 c, h⟩ : Dev nD) = prv c := Fin.ext (dev203_val c)
theorem dev204_val (c : Dev nD) : k0_dev204 c = (nxt c).val := by revert c; decide +kernel
theorem dev204_eq (c : Dev nD) (h : k0_dev204 c < nD) : (⟨k0_dev204 c, h⟩ : Dev nD) = nxt c := Fin.ext (dev204_val c)
theorem dev205_val (c : Dev nD) : k0_dev205 c = (prv c).val := by revert c; decide +kernel
theorem dev205_eq (c : Dev nD) (h : k0_dev205 c < nD) : (⟨k0_dev205 c, h⟩ : Dev nD) = prv c := Fin.ext (dev205_val c)
theorem dev206_val (c : Dev nD) : k0_dev206 c = (nxt c).val := by revert c; decide +kernel
theorem dev206_eq (c : Dev nD) (h : k0_dev206 c < nD) : (⟨k0_dev206 c, h⟩ : Dev nD) = nxt c := Fin.ext (dev206_val c)
theorem dev207_val (c : Dev nD) : k0_dev207 c = (prv c).val := by revert c; decide +kernel
theorem dev207_eq (c : Dev nD) (h : k0_dev207 c < nD) : (⟨k0_dev207 c, h⟩ : Dev nD) = prv c := Fin.ext (dev207_val c)
theorem dev208_val (c : Dev nD) : k0_dev208 c = (nxt c).val := by revert c; decide +kernel
theorem dev208_eq (c : Dev nD) (h : k0_dev208 c < nD) : (⟨k0_dev208 c, h⟩ : Dev nD) = nxt c := Fin.ext (dev208_val c)
theorem dev209_val (c : Dev nD) : k0_dev209 c = (prv c).val := by revert c; decide +kernel
theorem dev209_eq (c : Dev nD) (h : k0_dev209 c < nD) : (⟨k0_dev209 c, h⟩ : Dev nD) = prv c := Fin.ext (dev209_val c)
theorem dev210_val (c : Dev nD) : k0_dev210 c = (nxt c).val := by revert c; decide +kernel
theorem dev210_eq (c : Dev nD) (h : k0_dev210 c < nD) : (⟨k0_dev210 c, h⟩ : Dev nD) = nxt c := Fin.ext (dev210_val c)
theorem dev211_val (c : Dev nD) : k0_dev211 c = (prv c).val := by revert c; decide +kernel
theorem dev211_eq (c : Dev nD) (h : k0_dev211 c < nD) : (⟨k0_dev211 c, h⟩ : Dev nD) = prv c := Fin.ext (dev211_val c)
theorem dev212_val (c : Dev nD) : k0_dev212 c = (nxt c).val := by revert c; decide +kernel
theorem dev212_eq (c : Dev nD) (h : k0_dev212 c < nD) : (⟨k0_dev212 c, h⟩ : Dev nD) = nxt c := Fin.ext (dev212_val c)
theorem dev213_val (c : Dev nD) : k0_dev213 c = (prv c).val := by revert c; decide +kernel
theorem dev213_eq (c : Dev nD) (h : k0_dev213 c < nD) : (⟨k0_dev213 c, h⟩ : Dev nD) = prv c := Fin.ext (dev213_val c)
theorem dev214_val (c : Dev nD) : k0_dev214 c = (nxt c).val := by revert c; decide +kernel
theorem dev214_eq (c : Dev nD) (h : k0_dev214 c < nD) : (⟨k0_dev214 c, h⟩ : Dev nD) = nxt c := Fin.ext (dev214_val c)
theorem dev215_val (c : Dev nD) : k0_dev215 c = (prv c).val := by revert c; decide +kernel
theorem dev215_eq (c : Dev nD) (h : k0_dev215 c < nD) : (⟨k0_dev215 c, h⟩ : Dev nD) = prv c := Fin.ext (dev215_val c)
theorem dev216_val (c : Dev nD) : k0_dev216 c = (nxt c).val := by revert c; decide +kernel
theorem dev216_eq (c : Dev nD) (h : k0_dev216 c < nD) : (⟨k0_dev216 c, h⟩ : Dev nD) = nxt c := Fin.ext (dev216_val c)
theorem dev217_val (c : Dev nD) : k0_dev217 c = (nxt c).val := by revert c; decide +kernel
theorem dev217_eq (c : Dev nD) (h : k0_dev217 c < nD) : (⟨k0_dev217 c, h⟩ : Dev nD) = nxt c := Fin.ext (dev217_val c)
theorem dev218_val (c : Dev nD) : k0_dev218 c = (nxt c).val := by revert c; decide +kernel
theorem dev218_eq (c : Dev nD) (h : k0_dev218 c < nD) : (⟨k0_dev218 c, h⟩ : Dev nD) = nxt c := Fin.ext (dev218_val c)
theorem dev219_val (c : Dev nD) : k0_dev219 c = (nxt c).val := by revert c; decide +kernel
theorem dev219_eq (c : Dev nD) (h : k0_dev219 c < nD) : (⟨k0_dev219 c, h⟩ : Dev nD) = nxt c := Fin.ext (dev219_val c)
theorem dev220_val (c : Dev nD) : k0_dev220 c = (nxt c).val := by revert c; decide +kernel
theorem dev220_eq (c : Dev nD) (h : k0_dev220 c < nD) : (⟨k0_dev220 c, h⟩ : Dev nD) = nxt c := Fin.ext (dev220_val c)
theorem dev221_val (c : Dev nD) : k0_dev221 c = (nxt c).val := by revert c; decide +kernel
theorem dev221_eq (c : Dev nD) (h : k0_dev221 c < nD) : (⟨k0_dev221 c, h⟩ : Dev nD) = nxt c := Fin.ext (dev221_val c)
theorem dev222_val (c : Dev nD) : k0_dev222 c = (nxt c).val := by revert c; decide +kernel
theorem dev222_eq (c : Dev nD) (h : k0_dev222 c < nD) : (⟨k0_dev222 c, h⟩ : Dev nD) = nxt c := Fin.ext (dev222_val c)
theorem dev223_val (c : Dev nD) : k0_dev223 c = (nxt c).val := by revert c; decide +kernel
theorem dev223_eq (c : Dev nD) (h : k0_dev223 c < nD) : (⟨k0_dev223 c, h⟩ : Dev nD) = nxt c := Fin.ext (dev223_val c)
theorem dev224_val (c : Dev nD) : k0_dev224 c = (nxt c).val := by revert c; decide +kernel
theorem dev224_eq (c : Dev nD) (h : k0_dev224 c < nD) : (⟨k0_dev224 c, h⟩ : Dev nD) = nxt c := Fin.ext (dev224_val c)
theorem dev225_val (c : Dev nD) : k0_dev225 c = (nxt c).val := by revert c; decide +kernel
theorem dev225_eq (c : Dev nD) (h : k0_dev225 c < nD) : (⟨k0_dev225 c, h⟩ : Dev nD) = nxt c := Fin.ext (dev225_val c)
theorem dev226_val (c : Dev nD) : k0_dev226 c = (nxt c).val := by revert c; decide +kernel
theorem dev226_eq (c : Dev nD) (h : k0_dev226 c < nD) : (⟨k0_dev226 c, h⟩ : Dev nD) = nxt c := Fin.ext (dev226_val c)
theorem dev227_val (c : Dev nD) : k0_dev227 c = (nxt c).val := by revert c; decide +kernel
theorem dev227_eq (c : Dev nD) (h : k0_dev227 c < nD) : (⟨k0_dev227 c, h⟩ : Dev nD) = nxt c := Fin.ext (dev227_val c)
theorem dev228_val (c : Dev nD) : k0_dev228 c = (nxt c).val := by revert c; decide +kernel
theorem dev228_eq (c : Dev nD) (h : k0_dev228 c < nD) : (⟨k0_dev228 c, h⟩ : Dev nD) = nxt c := Fin.ext (dev228_val c)
theorem dev229_val (c : Dev nD) : k0_dev229 c = (nxt c).val := by revert c; decide +kernel
theorem dev229_eq (c : Dev nD) (h : k0_dev229 c < nD) : (⟨k0_dev229 c, h⟩ : Dev nD) = nxt c := Fin.ext (dev229_val c)
theorem dev230_val (c : Dev nD) : k0_dev230 c = (nxt c).val := by revert c; decide +kernel
theorem dev230_eq (c : Dev nD) (h : k0_dev230 c < nD) : (⟨k0_dev230 c, h⟩ : Dev nD) = nxt c := Fin.ext (dev230_val c)
theorem dev231_val (c : Dev nD) : k0_dev231 c = (nxt c).val := by revert c; decide +kernel
theorem dev231_eq (c : Dev nD) (h : k0_dev231 c < nD) : (⟨k0_dev231 c, h⟩ : Dev nD) = nxt c := Fin.ext (dev231_val c)
theorem dev232_val (c : Dev nD) : k0_dev232 c = (nxt c).val := by revert c; decide +kernel
theorem dev232_eq (c : Dev nD) (h : k0_dev232 c < nD) : (⟨k0_dev232 c, h⟩ : Dev nD) = nxt c := Fin.ext (dev232_val c)
theorem dev233_val (c : Dev nD) : k0_dev233 c = (nxt c).val := by revert c; decide +kernel
theorem dev233_eq (c : Dev nD) (h : k0_dev233 c < nD) : (⟨k0_dev233 c, h⟩ : Dev nD) = nxt c := Fin.ext (dev233_val c)
theorem dev234_val (c : Dev nD) : k0_dev234 c = (nxt c).val := by revert c; decide +kernel
theorem dev234_eq (c : Dev nD) (h : k0_dev234 c < nD) : (⟨k0_dev234 c, h⟩ : Dev nD) = nxt c := Fin.ext (dev234_val c)
theorem dev235_val (c : Dev nD) : k0_dev235 c = (nxt c).val := by revert c; decide +kernel
theorem dev235_eq (c : Dev nD) (h : k0_dev235 c < nD) : (⟨k0_dev235 c, h⟩ : Dev nD) = nxt c := Fin.ext (dev235_val c)
theorem dev236_val (c : Dev nD) : k0_dev236 c = (nxt c).val := by revert c; decide +kernel
theorem dev236_eq (c : Dev nD) (h : k0_dev236 c < nD) : (⟨k0_dev236 c, h⟩ : Dev nD) = nxt c := Fin.ext (dev236_val c)
theorem dev237_val (c : Dev nD) : k0_dev237 c = (nxt c).val := by revert c; decide +kernel
theorem dev237_eq (c : Dev nD) (h : k0_dev237 c < nD) : (⟨k0_dev237 c, h⟩ : Dev nD) = nxt c := Fin.ext (dev237_val c)
theorem dev238_val (c : Dev nD) : k0_dev238 c = (prv c).val := by revert c; decide +kernel
theorem dev238_eq (c : Dev nD) (h : k0_dev238 c < nD) : (⟨k0_dev238 c, h⟩ : Dev nD) = prv c := Fin.ext (dev238_val c)
theorem dev239_val (c : Dev nD) : k0_dev239 c = (prv c).val := by revert c; decide +kernel
theorem dev239_eq (c : Dev nD) (h : k0_dev239 c < nD) : (⟨k0_dev239 c, h⟩ : Dev nD) = prv c := Fin.ext (dev239_val c)
theorem dev240_val (c : Dev nD) : k0_dev240 c = (prv c).val := by revert c; decide +kernel
theorem dev240_eq (c : Dev nD) (h : k0_dev240 c < nD) : (⟨k0_dev240 c, h⟩ : Dev nD) = prv c := Fin.ext (dev240_val c)
theorem dev241_val (c : Dev nD) : k0_dev241 c = (prv c).val := by revert c; decide +kernel
theorem dev241_eq (c : Dev nD) (h : k0_dev241 c < nD) : (⟨k0_dev241 c, h⟩ : Dev nD) = prv c := Fin.ext (dev241_val c)
theorem dev242_val (c : Dev nD) : k0_dev242 c = (prv c).val := by revert c; decide +kernel
theorem dev242_eq (c : Dev nD) (h : k0_dev242 c < nD) : (⟨k0_dev242 c, h⟩ : Dev nD) = prv c := Fin.ext (dev242_val c)
theorem dev243_val (c : Dev nD) : k0_dev243 c = (prv c).val := by revert c; decide +kernel
theorem dev243_eq (c : Dev nD) (h : k0_dev243 c < nD) : (⟨k0_dev243 c, h⟩ : Dev nD) = prv c := Fin.ext (dev243_val c)
theorem dev244_val (c : Dev nD) : k0_dev244 c = (prv c).val := by revert c; decide +kernel
theorem dev244_eq (c : Dev nD) (h : k0_dev244 c < nD) : (⟨k0_dev244 c, h⟩ : Dev nD) = prv c := Fin.ext (dev244_val c)
theorem dev245_val (c : Dev nD) : k0_dev245 c = (prv c).val := by revert c; decide +kernel
theorem dev245_eq (c : Dev nD) (h : k0_dev245 c < nD) : (⟨k0_dev245 c, h⟩ : Dev nD) = prv c := Fin.ext (dev245_val c)
theorem dev246_val (c : Dev nD) : k0_dev246 c = (prv c).val := by revert c; decide +kernel
theorem dev246_eq (c : Dev nD) (h : k0_dev246 c < nD) : (⟨k0_dev246 c, h⟩ : Dev nD) = prv c := Fin.ext (dev246_val c)
theorem dev247_val (c : Dev nD) : k0_dev247 c = (prv c).val := by revert c; decide +kernel
theorem dev247_eq (c : Dev nD) (h : k0_dev247 c < nD) : (⟨k0_dev247 c, h⟩ : Dev nD) = prv c := Fin.ext (dev247_val c)
theorem dev248_val (c : Dev nD) : k0_dev248 c = (prv c).val := by revert c; decide +kernel
theorem dev248_eq (c : Dev nD) (h : k0_dev248 c < nD) : (⟨k0_dev248 c, h⟩ : Dev nD) = prv c := Fin.ext (dev248_val c)
theorem dev249_val (c : Dev nD) : k0_dev249 c = (prv c).val := by revert c; decide +kernel
theorem dev249_eq (c : Dev nD) (h : k0_dev249 c < nD) : (⟨k0_dev249 c, h⟩ : Dev nD) = prv c := Fin.ext (dev249_val c)
theorem dev250_val (c : Dev nD) : k0_dev250 c = (prv c).val := by revert c; decide +kernel
theorem dev250_eq (c : Dev nD) (h : k0_dev250 c < nD) : (⟨k0_dev250 c, h⟩ : Dev nD) = prv c := Fin.ext (dev250_val c)
theorem dev251_val (c : Dev nD) : k0_dev251 c = (prv c).val := by revert c; decide +kernel
theorem dev251_eq (c : Dev nD) (h : k0_dev251 c < nD) : (⟨k0_dev251 c, h⟩ : Dev nD) = prv c := Fin.ext (dev251_val c)
theorem dev252_val (c : Dev nD) : k0_dev252 c = (prv c).val := by revert c; decide +kernel
theorem dev252_eq (c : Dev nD) (h : k0_dev252 c < nD) : (⟨k0_dev252 c, h⟩ : Dev nD) = prv c := Fin.ext (dev252_val c)
theorem dev253_val (c : Dev nD) : k0_dev253 c = (prv c).val := by revert c; decide +kernel
theorem dev253_eq (c : Dev nD) (h : k0_dev253 c < nD) : (⟨k0_dev253 c, h⟩ : Dev nD) = prv c := Fin.ext (dev253_val c)
theorem dev254_val (c : Dev nD) : k0_dev254 c = (prv c).val := by revert c; decide +kernel
theorem dev254_eq (c : Dev nD) (h : k0_dev254 c < nD) : (⟨k0_dev254 c, h⟩ : Dev nD) = prv c := Fin.ext (dev254_val c)
theorem dev255_val (c : Dev nD) : k0_dev255 c = (prv c).val := by revert c; decide +kernel
theorem dev255_eq (c : Dev nD) (h : k0_dev255 c < nD) : (⟨k0_dev255 c, h⟩ : Dev nD) = prv c := Fin.ext (dev255_val c)
theorem dev256_val (c : Dev nD) : k0_dev256 c = (prv c).val := by revert c; decide +kernel
theorem dev256_eq (c : Dev nD) (h : k0_dev256 c < nD) : (⟨k0_dev256 c, h⟩ : Dev nD) = prv c := Fin.ext (dev256_val c)
theorem dev257_val (c : Dev nD) : k0_dev257 c = (prv c).val := by revert c; decide +kernel
theorem dev257_eq (c : Dev nD) (h : k0_dev257 c < nD) : (⟨k0_dev257 c, h⟩ : Dev nD) = prv c := Fin.ext (dev257_val c)
theorem dev258_val (c : Dev nD) : k0_dev258 c = (prv c).val := by revert c; decide +kernel
theorem dev258_eq (c : Dev nD) (h : k0_dev258 c < nD) : (⟨k0_dev258 c, h⟩ : Dev nD) = prv c := Fin.ext (dev258_val c)
theorem dev259_val (c : Dev nD) : k0_dev259 c = (prv c).val := by revert c; decide +kernel
theorem dev259_eq (c : Dev nD) (h : k0_dev259 c < nD) : (⟨k0_dev259 c, h⟩ : Dev nD) = prv c := Fin.ext (dev259_val c)

/-- info: 'Cert.KernelIdeal.AGDev.dev259_val' depends on axioms: [propext, Quot.sound] -/
#guard_msgs in #print axioms dev259_val

end Cert.KernelIdeal.AGDev
-- ==== Proof.DevOff.lean ====
/-
  The seven printed offset functions `k0_off1 … k0_off7` in closed form, for every device `c` of the mesh.
  Write `z = (zc c).val` for the device's z-plane and `r = (rpos c).val` for its position on the plane's ring.
  The whole array has two halves of 32768 rows (one per z-plane), a half has four quarters of 8192 rows
  (one per ring position), a quarter has 64 chunks of 128 rows. Every offset is
      (a half's base) + (a quarter's number) * 8192 + (a chunk's row inside the quarter),
  computed by the program in 32-bit words from the device id; none of the sums wraps, and each equation is
  decided over the eight devices and the chunks the program addresses. The second coordinate (the column)
  is always 0.
    off1 : own half,     quarter r,       chunk i          (in the whole array)
    off2 : quarter r, chunk i                              (in the device's own block of 32768 rows)
    off3 : own half,     quarter r + 2,   chunks 44 … 63   (row 5632 = 44 * 128 onwards)
    off4 : quarter r + 2, chunks 44 … 63                   (in the device's own block)
    off5 : other half,   quarter r,       chunk i
    off6 : own half,     row 512 * k                       (the 64 local pieces of 512 rows)
    off7 : other half,   quarter r + q for the printed q ∈ {1, 2, 3}, at the printed row inside the quarter
-/
import proofs.«900672_g7700000000000673_dist_ag_v7x_xyz2x2x2_z_m32768_n1024_f32_1_alg».proof.Proof.Mesh
import proofs.«900672_g7700000000000673_dist_ag_v7x_xyz2x2x2_z_m32768_n1024_f32_1_alg».proof.Proof.Gen.KernelIdeal
import proofs.«900672_g7700000000000673_dist_ag_v7x_xyz2x2x2_z_m32768_n1024_f32_1_alg».proof.Proof.DevTable

namespace Cert.KernelIdeal.AGDev

open Cert.KernelIdeal Idealize.ShloMosaic Cert.AG

/-- Chunk `i` of the device's own quarter, in its own half of the whole array. -/
theorem off1_eq (c : Dev nD) (i : Fin 64) :
    k0_off1 c (BitVec.ofNat 32 (128 * i.val))
      = ![(zc c).val * 32768 + (rpos c).val * 8192 + 128 * i.val, 0] := by
  have h : ∀ c : Dev nD, ∀ i : Fin 64, ∀ a : Fin 2,
      k0_off1 c (BitVec.ofNat 32 (128 * i.val)) a
        = (![(zc c).val * 32768 + (rpos c).val * 8192 + 128 * i.val, 0] : Fin 2 → Nat) a := by
    decide +kernel
  exact funext (h c i)

/-- Chunk `i` of the device's own quarter, in its own block. -/
theorem off2_eq (c : Dev nD) (i : Fin 64) :
    k0_off2 c (BitVec.ofNat 32 (128 * i.val))
      = ![(rpos c).val * 8192 + 128 * i.val, 0] := by
  have h : ∀ c : Dev nD, ∀ i : Fin 64, ∀ a : Fin 2,
      k0_off2 c (BitVec.ofNat 32 (128 * i.val)) a
        = (![(rpos c).val * 8192 + 128 * i.val, 0] : Fin 2 → Nat) a := by
    decide +kernel
  exact funext (h c i)

/-- Chunk `44 + i` of the quarter opposite the device's own on the ring, in its own half of the whole array. -/
theorem off3_eq (c : Dev nD) (i : Fin 20) :
    k0_off3 c (BitVec.ofNat 32 (5632 + 128 * i.val))
      = ![(zc c).val * 32768 + (((rpos c).val + 2) % 4) * 8192 + 5632 + 128 * i.val, 0] := by
  have h : ∀ c : Dev nD, ∀ i : Fin 20, ∀ a : Fin 2,
      k0_off3 c (BitVec.ofNat 32 (5632 + 128 * i.val)) a
        = (![(zc c).val * 32768 + (((rpos c).val + 2) % 4) * 8192 + 5632 + 128 * i.val, 0] : Fin 2 → Nat) a := by
    decide +kernel
  exact funext (h c i)

/-- Chunk `44 + i` of the quarter opposite the device's own on the ring, in its own block. -/
theorem off4_eq (c : Dev nD) (i : Fin 20) :
    k0_off4 c (BitVec.ofNat 32 (5632 + 128 * i.val))
      = ![(((rpos c).val + 2) % 4) * 8192 + 5632 + 128 * i.val, 0] := by
  have h : ∀ c : Dev nD, ∀ i : Fin 20, ∀ a : Fin 2,
      k0_off4 c (BitVec.ofNat 32 (5632 + 128 * i.val)) a
        = (![(((rpos c).val + 2) % 4) * 8192 + 5632 + 128 * i.val, 0] : Fin 2 → Nat) a := by
    decide +kernel
  exact funext (h c i)

/-- Chunk `i` of the device's own quarter, in the OTHER half of the whole array. -/
theorem off5_eq (c : Dev nD) (i : Fin 64) :
    k0_off5 c (BitVec.ofNat 32 (128 * i.val))
      = ![(1 - (zc c).val) * 32768 + (rpos c).val * 8192 + 128 * i.val, 0] := by
  have h : ∀ c : Dev nD, ∀ i : Fin 64, ∀ a : Fin 2,
      k0_off5 c (BitVec.ofNat 32 (128 * i.val)) a
        = (![(1 - (zc c).val) * 32768 + (rpos c).val * 8192 + 128 * i.val, 0] : Fin 2 → Nat) a := by
    decide +kernel
  exact funext (h c i)

/-- Piece `k` (512 rows) of the device's own half of the whole array. -/
theorem off6_eq (c : Dev nD) (k : Fin 64) :
    k0_off6 c (BitVec.ofNat 32 (512 * k.val))
      = ![(zc c).val * 32768 + 512 * k.val, 0] := by
  have h : ∀ c : Dev nD, ∀ k : Fin 64, ∀ a : Fin 2,
      k0_off6 c (BitVec.ofNat 32 (512 * k.val)) a
        = (![(zc c).val * 32768 + 512 * k.val, 0] : Fin 2 → Nat) a := by
    decide +kernel
  exact funext (h c k)

/-- Access `s` of the 172 the seventh function serves: the quarter `r + q` (mod 4) of the OTHER half, at the
    printed row inside the quarter, `q` and the row being the two printed parameters of access `s`. -/
theorem off7_eq (c : Dev nD) (s : Fin 172) :
    k0_off7 c (k0_off7_at s).1 (k0_off7_at s).2
      = ![(1 - (zc c).val) * 32768 + (((rpos c).val + (k0_off7_at s).1.toNat) % 4) * 8192
            + (k0_off7_at s).2.toNat, 0] := by
  have h : ∀ c : Dev nD, ∀ s : Fin 172, ∀ a : Fin 2,
      k0_off7 c (k0_off7_at s).1 (k0_off7_at s).2 a
        = (![(1 - (zc c).val) * 32768 + (((rpos c).val + (k0_off7_at s).1.toNat) % 4) * 8192
              + (k0_off7_at s).2.toNat, 0] : Fin 2 → Nat) a := by
    decide +kernel
  exact funext (h c s)

/-- info: 'Cert.KernelIdeal.AGDev.off7_eq' depends on axioms: [propext, Quot.sound] -/
#guard_msgs in #print axioms off7_eq

/-- info: 'Cert.KernelIdeal.AGDev.dev259_val' depends on axioms: [propext, Quot.sound] -/
#guard_msgs in #print axioms dev259_val

end Cert.KernelIdeal.AGDev
-- ==== Proof.OffRows.lean ====
/-
  The printed offset functions `k0_off1 … k0_off7`, read as the row functions of the all-gather.

  The program slices its arrays at offsets it computes in 32-bit words from the device id. In closed form each is
      (a half's base) + (a quarter's number) * 8192 + (a row inside the quarter),
  with `z` the device's plane and `r` its position on the plane's ring. The row functions name the same rows by the
  copy that moves them: `rowZS` / `rowZR` for the 84 copies to and from the device in the other plane, `rowH1P` /
  `rowH1N` for the forwards of the ring neighbours, `rowH2P` / `rowH2N` for their relays of the opposite quarter,
  `rowOwn` for the local copies. Here every offset the program forms is shown to be one of those rows, for every
  device, with the chunk's number a plain natural. Since `r < 4`, the quarter `(r + 0) % 4` is `r`; the other
  quarters keep their `% 4` on both sides. Where a chunk is named from the other end of a copy (the receiver's rows
  through the sender's offset), the identities between neighbouring devices' row functions are used.
-/
import proofs.«900672_g7700000000000673_dist_ag_v7x_xyz2x2x2_z_m32768_n1024_f32_1_alg».proof.Proof.DevOff
import proofs.«900672_g7700000000000673_dist_ag_v7x_xyz2x2x2_z_m32768_n1024_f32_1_alg».proof.Proof.Cells
import proofs.«900672_g7700000000000673_dist_ag_v7x_xyz2x2x2_z_m32768_n1024_f32_1_alg».proof.Proof.Routes

namespace Cert.KernelIdeal.AG

open Cert.KernelIdeal Cert.KernelIdeal.AGDev Cert.AG Idealize.ShloMosaic

/-- Two offsets in column 0 are equal when their rows are. -/
private theorem vec_row {a b : Nat} (h : a = b) : (![a, 0] : Fin 2 → Nat) = ![b, 0] := by rw [h]

/-! ## The copies to the device in the other plane -/

/-- Chunk `i < 64` of the device's own block: the rows its `i`-th copy to the other plane reads. -/
theorem off2_row (c : Dev nD) (i : Nat) (hi : i < 64) :
    k0_off2 c (BitVec.ofNat 32 (128 * i)) = ![rowZS c i, 0] := by
  have h : k0_off2 c (BitVec.ofNat 32 (128 * i)) = ![(rpos c).val * 8192 + 128 * i, 0] := off2_eq c ⟨i, hi⟩
  rw [h]
  refine vec_row ?_
  have hr := (rpos c).isLt
  unfold rowZS qrow
  rw [if_pos hi]
  omega

/-- The same chunk in the device's own half of the whole array: the rows that copy writes on the other plane's device,
    which holds them in the half it does not own, the sender's. -/
theorem off1_row (c : Dev nD) (i : Nat) (hi : i < 64) :
    k0_off1 c (BitVec.ofNat 32 (128 * i)) = ![rowZR (zpeer c) i, 0] := by
  have h : k0_off1 c (BitVec.ofNat 32 (128 * i))
      = ![(zc c).val * 32768 + (rpos c).val * 8192 + 128 * i, 0] := off1_eq c ⟨i, hi⟩
  rw [h, rowZR_zpeer]
  refine vec_row ?_
  have hr := (rpos c).isLt
  unfold mbase rowZS qrow
  rw [if_pos hi]
  omega

/-- Copies `64 ≤ i < 84` read chunks `44 … 63` of the opposite quarter of the device's own block. -/
theorem off4_row (c : Dev nD) (i : Nat) (h1 : 64 ≤ i) (h2 : i < 84) :
    k0_off4 c (BitVec.ofNat 32 (5632 + 128 * (i - 64))) = ![rowZS c i, 0] := by
  have h : k0_off4 c (BitVec.ofNat 32 (5632 + 128 * (i - 64)))
      = ![(((rpos c).val + 2) % 4) * 8192 + 5632 + 128 * (i - 64), 0] := off4_eq c ⟨i - 64, by omega⟩
  rw [h]
  refine vec_row ?_
  unfold rowZS qrow
  rw [if_neg (by omega)]

/-- and write the same chunks of the sender's half on the other plane's device. -/
theorem off3_row (c : Dev nD) (i : Nat) (h1 : 64 ≤ i) (h2 : i < 84) :
    k0_off3 c (BitVec.ofNat 32 (5632 + 128 * (i - 64))) = ![rowZR (zpeer c) i, 0] := by
  have h : k0_off3 c (BitVec.ofNat 32 (5632 + 128 * (i - 64)))
      = ![(zc c).val * 32768 + (((rpos c).val + 2) % 4) * 8192 + 5632 + 128 * (i - 64), 0] :=
    off3_eq c ⟨i - 64, by omega⟩
  rw [h, rowZR_zpeer]
  refine vec_row ?_
  unfold mbase rowZS qrow
  rw [if_neg (by omega)]
  omega

/-! ## The chunks received from the other plane, and their forwards along the ring -/

/-- Chunk `i < 64` of the device's own quarter in the OTHER half: the rows the `i`-th copy from the other plane wrote. -/
theorem off5_row (c : Dev nD) (i : Nat) (hi : i < 64) :
    k0_off5 c (BitVec.ofNat 32 (128 * i)) = ![rowZR c i, 0] := by
  have h : k0_off5 c (BitVec.ofNat 32 (128 * i))
      = ![(1 - (zc c).val) * 32768 + (rpos c).val * 8192 + 128 * i, 0] := off5_eq c ⟨i, hi⟩
  rw [h]
  refine vec_row ?_
  have hr := (rpos c).isLt
  unfold rowZR fbase rowZS qrow
  rw [if_pos hi]
  omega

/-- Forwarded to the next ring device, the chunk lands in the quarter one step back from that device's own. -/
theorem off5_row_nxt (c : Dev nD) (i : Nat) (hi : i < 64) :
    k0_off5 c (BitVec.ofNat 32 (128 * i)) = ![rowH1P (nxt c) i, 0] := by
  rw [rowH1P_nxt c i hi]
  exact off5_row c i hi

/-- Forwarded to the previous ring device, it lands in the quarter one step forward from that device's own. -/
theorem off5_row_prv (c : Dev nD) (i : Nat) (hi : i < 64) :
    k0_off5 c (BitVec.ofNat 32 (128 * i)) = ![rowH1N (prv c) i, 0] := by
  rw [rowH1N_prv c i hi]
  exact off5_row c i hi

/-! ## The local copies -/

/-- Piece `k < 64` of 512 rows of the device's own half. -/
theorem off6_row (c : Dev nD) (k : Nat) (hk : k < 64) :
    k0_off6 c (BitVec.ofNat 32 (512 * k)) = ![rowOwn c k, 0] := by
  have h : k0_off6 c (BitVec.ofNat 32 (512 * k)) = ![(zc c).val * 32768 + 512 * k, 0] := off6_eq c ⟨k, hk⟩
  rw [h]
  rfl

/-! ## The seventh function: a quarter of the other half, a number of ring steps away

It takes the ring step and the row inside the quarter as words. The program forms it at 172 pairs, listed in the
order first met: chunk `i < 64` three steps on and then one step on, alternately, and after those chunks `j < 44`
two steps on. -/

private theorem at_back_all :
    ∀ i : Fin 64, k0_off7_at ⟨2 * i.val, by omega⟩ = (3#32, BitVec.ofNat 32 (128 * i.val)) := by
  decide +kernel

/-- Pair `2 i` is three steps on (that is, one step back), chunk `i`. -/
private theorem at_back (i : Nat) (hi : i < 64) :
    k0_off7_at ⟨2 * i, by omega⟩ = (3#32, BitVec.ofNat 32 (128 * i)) :=
  at_back_all ⟨i, hi⟩

private theorem at_fwd_all :
    ∀ i : Fin 64, k0_off7_at ⟨2 * i.val + 1, by omega⟩ = (1#32, BitVec.ofNat 32 (128 * i.val)) := by
  decide +kernel

/-- Pair `2 i + 1` is one step on, chunk `i`. -/
private theorem at_fwd (i : Nat) (hi : i < 64) :
    k0_off7_at ⟨2 * i + 1, by omega⟩ = (1#32, BitVec.ofNat 32 (128 * i)) :=
  at_fwd_all ⟨i, hi⟩

private theorem at_opp_all :
    ∀ j : Fin 44, k0_off7_at ⟨128 + j.val, by omega⟩ = (2#32, BitVec.ofNat 32 (128 * j.val)) := by
  decide +kernel

/-- Pair `128 + j` is two steps on, chunk `j`. -/
private theorem at_opp (j : Nat) (hj : j < 44) :
    k0_off7_at ⟨128 + j, by omega⟩ = (2#32, BitVec.ofNat 32 (128 * j)) :=
  at_opp_all ⟨j, hj⟩

/-- A chunk's first row, as a word, is the number itself: `128 * i` is far below `2 ^ 32`. -/
private theorem toNat_chunk (i : Nat) (hi : i < 64) : (BitVec.ofNat 32 (128 * i)).toNat = 128 * i := by
  rw [BitVec.toNat_ofNat]
  exact Nat.mod_eq_of_lt (by omega)

/-- One step back, chunk `i`. -/
private theorem off7_back (c : Dev nD) (i : Nat) (hi : i < 64) :
    k0_off7 c 3#32 (BitVec.ofNat 32 (128 * i))
      = ![(1 - (zc c).val) * 32768 + (((rpos c).val + 3) % 4) * 8192 + 128 * i, 0] := by
  have h := off7_eq c ⟨2 * i, by omega⟩
  rw [at_back i hi] at h
  have e : k0_off7 c 3#32 (BitVec.ofNat 32 (128 * i))
      = ![(1 - (zc c).val) * 32768 + (((rpos c).val + (3#32 : BitVec 32).toNat) % 4) * 8192
            + (BitVec.ofNat 32 (128 * i)).toNat, 0] := h
  rw [e, toNat_chunk i hi]
  rfl

/-- One step on, chunk `i`. -/
private theorem off7_fwd (c : Dev nD) (i : Nat) (hi : i < 64) :
    k0_off7 c 1#32 (BitVec.ofNat 32 (128 * i))
      = ![(1 - (zc c).val) * 32768 + (((rpos c).val + 1) % 4) * 8192 + 128 * i, 0] := by
  have h := off7_eq c ⟨2 * i + 1, by omega⟩
  rw [at_fwd i hi] at h
  have e : k0_off7 c 1#32 (BitVec.ofNat 32 (128 * i))
      = ![(1 - (zc c).val) * 32768 + (((rpos c).val + (1#32 : BitVec 32).toNat) % 4) * 8192
            + (BitVec.ofNat 32 (128 * i)).toNat, 0] := h
  rw [e, toNat_chunk i hi]
  rfl

/-- Two steps on (the opposite quarter), chunk `j < 44`. -/
private theorem off7_opp (c : Dev nD) (j : Nat) (hj : j < 44) :
    k0_off7 c 2#32 (BitVec.ofNat 32 (128 * j))
      = ![(1 - (zc c).val) * 32768 + (((rpos c).val + 2) % 4) * 8192 + 128 * j, 0] := by
  have h := off7_eq c ⟨128 + j, by omega⟩
  rw [at_opp j hj] at h
  have e : k0_off7 c 2#32 (BitVec.ofNat 32 (128 * j))
      = ![(1 - (zc c).val) * 32768 + (((rpos c).val + (2#32 : BitVec 32).toNat) % 4) * 8192
            + (BitVec.ofNat 32 (128 * j)).toNat, 0] := h
  rw [e, toNat_chunk j (by omega)]
  rfl

/-- Two steps on, chunks `44 … 63`. The program never forms the function at these pairs, so this one is decided over
    the eight devices and the twenty chunks directly; no sum wraps. -/
private theorem off7_opp_tail (c : Dev nD) (i : Fin 20) :
    k0_off7 c 2#32 (BitVec.ofNat 32 (5632 + 128 * i.val))
      = ![(1 - (zc c).val) * 32768 + (((rpos c).val + 2) % 4) * 8192 + 5632 + 128 * i.val, 0] := by
  have h : ∀ c : Dev nD, ∀ i : Fin 20, ∀ a : Fin 2,
      k0_off7 c 2#32 (BitVec.ofNat 32 (5632 + 128 * i.val)) a
        = (![(1 - (zc c).val) * 32768 + (((rpos c).val + 2) % 4) * 8192 + 5632 + 128 * i.val, 0] : Fin 2 → Nat) a := by
    decide +kernel
  exact funext (h c i)

/-- The chunk the previous ring device forwarded: one step back. -/
theorem off7_rowH1P (c : Dev nD) (i : Nat) (hi : i < 64) :
    k0_off7 c 3#32 (BitVec.ofNat 32 (128 * i)) = ![rowH1P c i, 0] := by
  rw [off7_back c i hi]
  refine vec_row ?_
  unfold rowH1P fbase qrow
  rfl

/-- The chunk the next ring device forwarded: one step on. -/
theorem off7_rowH1N (c : Dev nD) (i : Nat) (hi : i < 64) :
    k0_off7 c 1#32 (BitVec.ofNat 32 (128 * i)) = ![rowH1N c i, 0] := by
  rw [off7_fwd c i hi]
  refine vec_row ?_
  unfold rowH1N fbase qrow
  rfl

/-- The first 22 chunks of the opposite quarter, relayed by the previous ring device. -/
theorem off7_rowH2P (c : Dev nD) (j : Nat) (hj : j < 22) :
    k0_off7 c 2#32 (BitVec.ofNat 32 (128 * j)) = ![rowH2P c j, 0] := by
  rw [off7_opp c j (by omega)]
  refine vec_row ?_
  unfold rowH2P fbase qrow
  rfl

/-- Chunks `22 … 43` of the opposite quarter, relayed by the next ring device. -/
theorem off7_rowH2N (c : Dev nD) (j : Nat) (hj : j < 22) :
    k0_off7 c 2#32 (BitVec.ofNat 32 (128 * (22 + j))) = ![rowH2N c j, 0] := by
  rw [off7_opp c (22 + j) (by omega)]
  refine vec_row ?_
  unfold rowH2N fbase qrow
  rfl

/-- What the previous device forwarded is, for the next device, the opposite quarter: the relay's destination. -/
theorem off7_rowH2P_nxt (c : Dev nD) (j : Nat) (hj : j < 22) :
    k0_off7 c 3#32 (BitVec.ofNat 32 (128 * j)) = ![rowH2P (nxt c) j, 0] := by
  rw [rowH2P_nxt c j]
  exact off7_rowH1P c j (by omega)

/-- What the next device forwarded is, for the previous device, the opposite quarter as well. -/
theorem off7_rowH2N_prv (c : Dev nD) (j : Nat) (hj : j < 22) :
    k0_off7 c 1#32 (BitVec.ofNat 32 (128 * (22 + j))) = ![rowH2N (prv c) j, 0] := by
  rw [rowH2N_prv c j]
  exact off7_rowH1N c (22 + j) (by omega)

/-- The last twenty chunks of the opposite quarter: the rows copies `64 ≤ i < 84` from the other plane wrote. -/
theorem off7_rowZR (c : Dev nD) (i : Nat) (h1 : 64 ≤ i) (h2 : i < 84) :
    k0_off7 c 2#32 (BitVec.ofNat 32 (5632 + 128 * (i - 64))) = ![rowZR c i, 0] := by
  have h : k0_off7 c 2#32 (BitVec.ofNat 32 (5632 + 128 * (i - 64)))
      = ![(1 - (zc c).val) * 32768 + (((rpos c).val + 2) % 4) * 8192 + 5632 + 128 * (i - 64), 0] :=
    off7_opp_tail c ⟨i - 64, by omega⟩
  rw [h]
  refine vec_row ?_
  unfold rowZR fbase rowZS qrow
  rw [if_neg (by omega)]
  omega

/-- info: 'Cert.KernelIdeal.AG.off7_rowZR' depends on axioms: [propext, Quot.sound] -/
#guard_msgs in #print axioms off7_rowZR

/-- info: 'Cert.KernelIdeal.AG.off7_rowH2N_prv' depends on axioms: [propext, Quot.sound] -/
#guard_msgs in #print axioms off7_rowH2N_prv

/-- info: 'Cert.KernelIdeal.AG.off3_row' depends on axioms: [propext, Quot.sound] -/
#guard_msgs in #print axioms off3_row

end Cert.KernelIdeal.AG
-- ==== Proof.Parts.lean ====
/-
  Running the printed body, one effect at a time, over the counters.

  The body is cut into parts of sixty printed statements. Between two effects the device's state is `St m c n` at literal
  counters `n`, and every effect of the body is an instance of one of the step lemmas at such counters. This module has the
  three lemmas that chain a part's effects (one effect and then the rest; the return; a part and then the rest), and the tactic
  that, at each effect, finds the step lemma the effect is an instance of and proves its hypotheses. With it every part has
  the same proof.
-/
import proofs.«900672_g7700000000000673_dist_ag_v7x_xyz2x2x2_z_m32768_n1024_f32_1_alg».proof.Proof.Steps
import proofs.«900672_g7700000000000673_dist_ag_v7x_xyz2x2x2_z_m32768_n1024_f32_1_alg».proof.Proof.DevTable
import proofs.«900672_g7700000000000673_dist_ag_v7x_xyz2x2x2_z_m32768_n1024_f32_1_alg».proof.Proof.OffRows
import proofs.«900672_g7700000000000673_dist_ag_v7x_xyz2x2x2_z_m32768_n1024_f32_1_alg».proof.Proof.Gen.KernelIdeal.Skeleton

noncomputable section

namespace Cert.KernelIdeal.AG

open Cert.KernelIdeal Cert.KernelIdeal.Gen Cert.KernelIdeal.AGDev Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One effect, then the rest; the return; one part, then the rest

Every goal on the way through a part has the one shape `Ctx m K ∗ St m c n ∗ R ⊢ WP c prog Q`: the invariants, the state at
literal counters, and whatever the end of the part is owed. A step lemma turns the head effect into the state at the next
counters; the return hands the final state to the continuation; a part followed by more program is the part at the
continuation that runs the rest. -/

/-- An effect's step lemma, then the rest of the program from the state it leaves. -/
theorem step_chain (m : (ℓ : Loc nD τ sig) → Buf (Elt F) ℓ) (K : CellIx → ℕ) (c : Dev nD) (n n' : Cnt) {α : Type} {Q : α → sProp 𝕄}
    {p p' : Prog (TpuEff nD τ sig (Elt F) Λ₀ .tc) α} {R : sProp 𝕄}
    (hstep : iprop(Ctx m K ∗ St m c n ∗ (St m c n' -∗ WP c p' Q)) ⊢ WP c p Q)
    (hrest : iprop(Ctx m K ∗ St m c n' ∗ R) ⊢ WP c p' Q) :
    iprop(Ctx m K ∗ St m c n ∗ R) ⊢ WP c p Q := by
  iintro ⟨#HC, HS, HR⟩
  iapply hstep
  isplitr; · iexact HC
  isplitl [HS]; · iexact HS
  iintro HS'
  iapply hrest
  isplitr; · iexact HC
  isplitl [HS']; · iexact HS'
  iexact HR

/-- The return of a part: the state goes to the continuation. -/
theorem part_ret (m : (ℓ : Loc nD τ sig) → Buf (Elt F) ℓ) (K : CellIx → ℕ) (c : Dev nD) (n : Cnt) {α : Type} (v : α) (Kt : α → sProp 𝕄) :
    iprop(Ctx m K ∗ St m c n ∗ (∀ out, St m c n -∗ Kt out)) ⊢ WP c (.ret v) Kt := by
  iintro ⟨-, HS, HK⟩
  iapply (le_wp_ret frame (wpE (defs₀ (F := F)) 𝒱₀ (c : Thread nD τ) none) Set.univ v Kt)
  iapply HK
  iexact HS

/-- The return of a part whose continuation is told a fact about the returned value. -/
theorem part_ret_fact (m : (ℓ : Loc nD τ sig) → Buf (Elt F) ℓ) (K : CellIx → ℕ) (c : Dev nD) (n : Cnt) {α : Type} (φ : α → Prop) (v : α) (hv : φ v) (Kt : α → sProp 𝕄) :
    iprop(Ctx m K ∗ St m c n ∗ (∀ out, ⌜φ out⌝ -∗ St m c n -∗ Kt out)) ⊢ WP c (.ret v) Kt := by
  iintro ⟨-, HS, HK⟩
  iapply (le_wp_ret frame (wpE (defs₀ (F := F)) 𝒱₀ (c : Thread nD τ) none) Set.univ v Kt)
  iapply HK
  · ipureintro; exact hv
  · iexact HS

/-- A part, then the rest of the program from the state the part leaves, whatever the part returns. -/
theorem part_chain (m : (ℓ : Loc nD τ sig) → Buf (Elt F) ℓ) (K : CellIx → ℕ) (c : Dev nD) (n n' : Cnt) {α β : Type} {Q : α → sProp 𝕄}
    {p : Prog (TpuEff nD τ sig (Elt F) Λ₀ .tc) β} {rest : β → Prog (TpuEff nD τ sig (Elt F) Λ₀ .tc) α} {R : sProp 𝕄}
    (hpart : iprop(Ctx m K ∗ St m c n ∗ (∀ out, St m c n' -∗ WP c (rest out) Q)) ⊢ WP c p (fun out => WP c (rest out) Q))
    (hrest : ∀ out, iprop(Ctx m K ∗ St m c n' ∗ R) ⊢ WP c (rest out) Q) :
    iprop(Ctx m K ∗ St m c n ∗ R) ⊢ WP c (p >>= rest) Q := by
  show _ ⊢ wp frame (wpE (defs₀ (F := F)) 𝒱₀ (c : Thread nD τ) none) Set.univ (p >>= rest) Q
  rw [wp_bind]
  iintro ⟨#HC, HS, HR⟩
  iapply hpart
  isplitr; · iexact HC
  isplitl [HS]; · iexact HS
  iintro %out HS'
  iapply (hrest out)
  isplitr; · iexact HC
  isplitl [HS']; · iexact HS'
  iexact HR

/-- The same when the part tells its continuation a fact about what it returns. -/
theorem part_chain_fact (m : (ℓ : Loc nD τ sig) → Buf (Elt F) ℓ) (K : CellIx → ℕ) (c : Dev nD) (n n' : Cnt) {α β : Type} {Q : α → sProp 𝕄} (φ : β → Prop)
    {p : Prog (TpuEff nD τ sig (Elt F) Λ₀ .tc) β} {rest : β → Prog (TpuEff nD τ sig (Elt F) Λ₀ .tc) α} {R : sProp 𝕄}
    (hpart : iprop(Ctx m K ∗ St m c n ∗ (∀ out, ⌜φ out⌝ -∗ St m c n' -∗ WP c (rest out) Q)) ⊢ WP c p (fun out => WP c (rest out) Q))
    (hrest : ∀ out, φ out → iprop(Ctx m K ∗ St m c n' ∗ R) ⊢ WP c (rest out) Q) :
    iprop(Ctx m K ∗ St m c n ∗ R) ⊢ WP c (p >>= rest) Q := by
  show _ ⊢ wp frame (wpE (defs₀ (F := F)) 𝒱₀ (c : Thread nD τ) none) Set.univ (p >>= rest) Q
  rw [wp_bind]
  iintro ⟨#HC, HS, HR⟩
  iapply hpart
  isplitr; · iexact HC
  isplitl [HS]; · iexact HS
  iintro %out %hout HS'
  iapply (hrest out hout)
  isplitr; · iexact HC
  isplitl [HS']; · iexact HS'
  iexact HR

/-! ## The tactic

`ag_step` reads, from a goal of the one shape, the literal counters and the effect at the head of the program, and applies
that effect's step lemma. Which lemma: a barrier signal or wait by the effect itself; a copy or a DMA wait by the array its
(send) semaphore is cut from, which names the family; the copy's or wait's number in its family is the family's counter
(every family runs in increasing order). The lemma's device equation is the table's `devN_eq` of the printed chain `k0_devN`;
its offset equations are the row lemmas at the counter; a semaphore's number and a view's credit are found by evaluation; every
remaining hypothesis is a decidable fact about literal counters. The state the lemma leaves is then written with its counters
evaluated. -/

open Lean Elab Tactic Meta

/-- The number `N` when the constant is the printed device chain `k0_devN`. -/
def devNum? : Name → Option Nat
  | .str _ s => if s.startsWith "k0_dev" then (s.drop 6).toNat? else none
  | _ => none

/-- The number `N` when the constant is the semaphore array `cc0_scratchN`. -/
def scratchNum? : Name → Option Nat
  | .str _ s => if s.startsWith "cc0_scratch" then (s.drop 11).toNat? else none
  | _ => none

def findNum? (f : Name → Option Nat) (e : Expr) : Option Nat :=
  (e.find? fun t => t.isConst && (f t.constName!).isSome).bind fun t => f t.constName!

/-- `⟨k0_devN c, _⟩ = d`, where `d` is the device the table says chain `N` addresses (up to unfolding `sigPeer`). -/
elab "ag_dev" : tactic => withMainContext do
  let tgt ← instantiateMVars (← getMainTarget)
  let some (_, lhs, _) := tgt.eq? | throwError "ag_dev: not an equation: {tgt}"
  let some num := findNum? devNum? lhs | throwError "ag_dev: no printed device chain in {lhs}"
  let lem := mkIdent (`Cert.KernelIdeal.AGDev ++ Name.mkSimple s!"dev{num}_eq")
  evalTactic (← `(tactic| exact ($lem _ _).trans rfl))

/-- A counter, evaluated; a literal again if it is a number. -/
def evalField (e : Expr) : MetaM Expr := do
  let e ← whnfD e
  match e.rawNatLit? with
  | some k => return mkNatLit k
  | none => return e

def natOfField (e : Expr) : MetaM Nat := do
  let e ← whnfD e
  match e.rawNatLit? with
  | some k => return k
  | none => throwError "ag_step: a counter that is not a literal: {e}"

/-- The pieces of a goal `Ctx m K ∗ St m c n ∗ R ⊢ WP c prog Q`. -/
structure Pieces where
  tgt : Expr
  args : Array Expr
  lhs : Expr
  inner : Expr
  st : Expr
  rhs : Expr
  rargs : Array Expr

def pieces (tgt : Expr) : MetaM Pieces := do
  let args := tgt.getAppArgs
  unless args.size ≥ 2 do throwError "ag_step: the goal is not an entailment: {tgt}"
  let lhs := args[args.size - 2]!
  let rhs := args[args.size - 1]!
  unless lhs.isApp && lhs.appArg!.isApp && lhs.appArg!.appFn!.isApp do throwError "ag_step: the goal's left side is not of the shape Ctx ∗ St ∗ R: {lhs}"
  let inner := lhs.appArg!
  let st := inner.appFn!.appArg!
  unless st.isAppOf ``St do throwError "ag_step: no state in second place: {st}"
  let rargs := rhs.getAppArgs
  unless rargs.size ≥ 2 do throwError "ag_step: the goal's right side is not a weakest precondition: {rhs}"
  return { tgt, args, lhs, inner, st, rhs, rargs }

/-- Write the goal's state with its counters evaluated, and its program with the head redex reduced. -/
def normGoal : TacticM Unit := withMainContext do
  let g ← getMainGoal
  let P ← pieces (← instantiateMVars (← g.getType))
  let n ← whnfD P.st.appArg!
  unless n.isAppOf ``Cnt.mk do throwError "ag_step: the counters are not a literal record: {n}"
  let fields ← (n.getAppArgs.mapM evalField : MetaM (Array Expr))
  let n' := mkAppN n.getAppFn fields
  let st' := mkApp P.st.appFn! n'
  let inner' := mkApp (mkApp P.inner.appFn!.appFn! st') P.inner.appArg!
  let lhs' := mkApp P.lhs.appFn! inner'
  let i := P.rargs.size - 2
  let rhs' := mkAppN P.rhs.getAppFn (P.rargs.set! i (← whnfCore P.rargs[i]!))
  let tgt' := mkAppN P.tgt.getAppFn ((P.args.set! (P.args.size - 2) lhs').set! (P.args.size - 1) rhs')
  replaceMainGoal [← g.replaceTargetDefEq tgt']

/-- Apply the step lemma `lem` to a goal `Ctx m K ∗ St m c n ∗ (St m c ?n' -∗ WP c ?p' Q) ⊢ WP c (.op eff k) Q`: its conclusion is
    unified with the goal, which fixes the device, offsets and semaphores it speaks of; then each hypothesis is proved according
    to its name. -/
def applyStep (g : MVarId) (lem : Name) (hos hod : Option (TSyntax `term)) : TacticM Unit := g.withContext do
  let c ← mkConstWithFreshMVarLevels lem
  let (xs, bis, concl) ← forallMetaTelescope (← inferType c)
  unless (← isDefEq concl (← g.getType)) do
    throwError "ag_step: {lem} does not fit the head effect: {concl}"
  g.assign (mkAppN c xs)
  let close (x : Expr) (tac : TSyntax `tactic) : TacticM Unit := do
    setGoals [x.mvarId!]
    evalTactic tac
    unless (← getGoals).isEmpty do throwError "ag_step: a hypothesis of {lem} is left open"
  let nameOf (x : Expr) : MetaM Name := return (← x.mvarId!.getDecl).userName
  for x in xs, bi in bis do
    unless (← x.mvarId!.isAssigned) do
      if bi.isInstImplicit then x.mvarId!.assign (← synthInstance (← inferType x))
  -- a wait's clause first: it says which semaphore is waited on
  for x in xs do
    unless (← x.mvarId!.isAssigned) do
      if (← nameOf x) == `hw then close x (← `(tactic| exact fun K' => wpE_waitDma2_eq _ _ _ _ K'))
  for x in xs do
    unless (← x.mvarId!.isAssigned) do
      let nm ← nameOf x
      if nm == `hdev then close x (← `(tactic| ag_dev))
      else if nm == `hk || nm == `hsS || nm == `hsR then close x (← `(tactic| rfl))
      else if nm == `hos then
        match hos with
        | some t => close x (← `(tactic| exact $t))
        | none => close x (← `(tactic| rfl))
      else if nm == `hod then
        match hod with
        | some t => close x (← `(tactic| exact $t))
        | none => close x (← `(tactic| rfl))
      else close x (← `(tactic| decide))

elab "ag_step" : tactic => withMainContext do
  let P ← pieces (← instantiateMVars (← getMainTarget))
  let n ← whnfD P.st.appArg!
  unless n.isAppOf ``Cnt.mk do throwError "ag_step: the counters are not a literal record: {n}"
  let cnt (i : Nat) : MetaM Nat := natOfField n.getAppArgs[i]!
  let prog ← whnfR P.rargs[P.rargs.size - 2]!
  unless prog.isAppOf ``Prog.op do throwError "ag_step: the program is not at an effect"
  let pargs := prog.getAppArgs
  let eff := pargs[pargs.size - 2]!
  let eargs := eff.getAppArgs
  let head ← match eff.getAppFn.constName? with
    | some (.str _ s) => pure s
    | _ => throwError "ag_step: the head effect is not a constructor: {eff}"
  let none' : Option (TSyntax `term) := none
  let (lem, hos, hod) : Name × Option (TSyntax `term) × Option (TSyntax `term) ←
    if head == "semSignal" then pure (``step_sig, none', none')
    else if head == "semWait" then pure (``step_barwait, none', none')
    else if head == "enqueueDma" then do
      let tgtE := eargs[eargs.size - 5]!
      let semE := eargs[eargs.size - 4]!
      if tgtE.isAppOf ``DmaTarget.remote then
        let targs := tgtE.getAppArgs
        let some s := findNum? scratchNum? targs[targs.size - 2]! | throwError "ag_step: a copy's send semaphore is cut from no array"
        if s == 3 then
          let i ← cnt 2
          let iq := quote i
          if i < 64 then
            pure (``step_zsend, some (← `(off2_row _ $iq (by decide))), some (← `(off1_row _ $iq (by decide))))
          else
            pure (``step_zsend, some (← `(off4_row _ $iq (by decide) (by decide))), some (← `(off3_row _ $iq (by decide) (by decide))))
        else if s == 5 then
          let iq := quote (← cnt 6)
          pure (``step_n1, some (← `(off5_row _ $iq (by decide))), some (← `(off5_row_nxt _ $iq (by decide))))
        else if s == 6 then
          let iq := quote (← cnt 7)
          pure (``step_p1, some (← `(off5_row _ $iq (by decide))), some (← `(off5_row_prv _ $iq (by decide))))
        else if s == 9 then
          let jq := quote (← cnt 12)
          pure (``step_n2, some (← `(off7_rowH1P _ $jq (by decide))), some (← `(off7_rowH2P_nxt _ $jq (by decide))))
        else if s == 10 then
          let j ← cnt 13
          let jq := quote j
          let jq' := quote (22 + j)
          pure (``step_p2, some (← `(off7_rowH1N _ $jq' (by decide))), some (← `(off7_rowH2N_prv _ $jq (by decide))))
        else throwError "ag_step: an addressed copy on array {s}"
      else
        let some s := findNum? scratchNum? semE | throwError "ag_step: a copy's semaphore is cut from no array"
        if s == 1 then pure (``step_ci, none', none')
        else if s == 2 then
          let kq := quote (← cnt 20)
          pure (``step_co, none', some (← `(off6_row _ $kq (by decide))))
        else throwError "ag_step: a local copy on array {s}"
    else if head == "waitDma2" then do
      let some s := findNum? scratchNum? eargs[eargs.size - 5]! | throwError "ag_step: a wait's semaphore is cut from no array"
      let lem ← match s with
        | 1 => pure ``step_ciw
        | 2 => pure ``step_low
        | 3 => pure ``step_wz
        | 4 => if (← cnt 4) < 64 then pure ``step_zrw else pure ``step_zrd
        | 5 => pure ``step_w1n
        | 6 => pure ``step_w1p
        | 7 => pure ``step_rpw
        | 8 => pure ``step_rnw
        | 9 => pure ``step_w2n
        | 10 => pure ``step_w2p
        | 11 => pure ``step_h2pw
        | 12 => pure ``step_h2nw
        | _ => throwError "ag_step: a wait on array {s}"
      pure (lem, none', none')
    else throwError "ag_step: no step lemma for the effect {head}"
  let others := (← getGoals).tail
  evalTactic (← `(tactic| apply step_chain))
  -- the goals left: the step and the rest of the program (and the next counters and program, which the step fixes)
  let mut step? : Option MVarId := none
  let mut rest? : Option MVarId := none
  for g in (← getGoals) do
    if others.contains g then continue
    match (← g.getTag).eraseMacroScopes with
    | .str _ "hstep" => step? := some g
    | .str _ "hrest" => rest? := some g
    | _ => pure ()
  let (some gs, some gr) := (step?, rest?) | throwError "ag_step: the chain lemma's goals were not found among {← (← getGoals).mapM fun g => g.getTag}"
  applyStep gs lem hos hod
  setGoals [gr]
  normGoal
  setGoals ((← getGoals) ++ others)

/-- Every effect up to the return, one after the other; an effect that no step lemma fits is reported where it stands. -/
elab "ag_steps" : tactic => do
  repeat
    let atEffect ← withMainContext do
      let P ← pieces (← instantiateMVars (← getMainTarget))
      return (← whnfR P.rargs[P.rargs.size - 2]!).isAppOf ``Prog.op
    unless atEffect do break
    evalTactic (← `(tactic| ag_step))

/-- A printed leaf part: its skeleton, its effects one by one, its return. -/
macro "ag_part " eq:ident skel:ident : tactic => `(tactic| (
  rw [$eq:ident]; unfold $skel:ident
  simp only [semSignalWord, semWaitWord, Prog.lift, Prog.bind_op, Prog.bind_ret, Prog.pure_eq_ret, wp_deviceId]
  ag_steps
  first
    | exact part_ret _ _ _ _ _ _
    | exact part_ret_fact _ _ _ _ _ _ (by rfl) _))

/-- info: 'Cert.KernelIdeal.AG.step_chain' depends on axioms: [propext, Classical.choice, Quot.sound] -/
#guard_msgs in #print axioms step_chain

/-- info: 'Cert.KernelIdeal.AG.part_chain_fact' depends on axioms: [propext, Classical.choice, Quot.sound] -/
#guard_msgs in #print axioms part_chain_fact

end Cert.KernelIdeal.AG

end
-- ==== Proof.Leaves.lean ====
/-
  The leaf parts of the body, one statement each: from the state at the counters reached before the part, the part
  runs and leaves the state at the counters reached after it, whatever words it is handed and whatever it returns.
  The first part reads the device id and returns it; the second returns the barrier semaphore, which the third takes.
-/
import proofs.«900672_g7700000000000673_dist_ag_v7x_xyz2x2x2_z_m32768_n1024_f32_1_alg».proof.Proof.Parts

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_1 (m : (ℓ : Loc nD τ sig) → Buf (Elt F) ℓ) (K : CellIx → ℕ) (c : Dev nD) (Kt : (Σ' (d0 : Dev nD) (v2 : BitVec 32) (v5 : BitVec 32) (v8 : BitVec 32) (v9 : BitVec 32) (v12 : BitVec 32) (v14 : BitVec 32) (v16 : BitVec 32) (v18 : BitVec 32) (v23 : BitVec 32) (v34 : BitVec 32) (v35 : BitVec 32), BitVec 32) → sProp 𝕄) :
    iprop(Ctx m K ∗ St m c ⟨0, false, 0, 0, 0, 0, 0, 0, 0, 0, 0, 0, 0, 0, 0, 0, 0, 0, 0, 0, 0, 0⟩ ∗ (∀ out, ⌜(fun out => out.1 = c) out⌝ -∗ St m c ⟨0, false, 0, 0, 0, 0, 0, 0, 0, 0, 0, 0, 0, 0, 0, 0, 0, 0, 0, 0, 0, 0⟩ -∗ Kt out))
      ⊢ WP c (k0_part1 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 ) Kt := by
  ag_part k0_part1_eq_skeleton k0_part1_skel

set_option maxRecDepth 65536 in
theorem part_2 (m : (ℓ : Loc nD τ sig) → Buf (Elt F) ℓ) (K : CellIx → ℕ) (c : Dev nD) (v2 v5 v8 v9 v12 v14 v23 v35 c4_i32_17 : BitVec 32) (Kt : (Σ' (v45 : BitVec 32) (v56 : BitVec 32) (v57 : BitVec 32) (v59 : BitVec 32) (v60 : Sems sig S_), BitVec 32) → sProp 𝕄) :
    iprop(Ctx m K ∗ St m c ⟨0, false, 0, 0, 0, 0, 0, 0, 0, 0, 0, 0, 0, 0, 0, 0, 0, 0, 0, 0, 0, 0⟩ ∗ (∀ out, ⌜(fun out => out.2.2.2.2.1 = SemArray.scalar (sig.barrier 0 rfl)) out⌝ -∗ St m c ⟨1, false, 0, 0, 0, 0, 0, 0, 0, 0, 0, 0, 0, 0, 0, 0, 0, 0, 0, 0, 0, 0⟩ -∗ Kt out))
      ⊢ WP c (k0_part2 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v35 c4_i32_17) Kt := by
  ag_part k0_part2_eq_skeleton k0_part2_skel

set_option maxRecDepth 65536 in
theorem part_3 (m : (ℓ : Loc nD τ sig) → Buf (Elt F) ℓ) (K : CellIx → ℕ) (c : Dev nD) (v2 v5 v8 v9 v16 v18 v23 v57 v70 : BitVec 32) (Kt : (Σ' (v100 : BitVec 32), BitVec 32) → sProp 𝕄) :
    iprop(Ctx m K ∗ St m c ⟨1, false, 0, 0, 0, 0, 0, 0, 0, 0, 0, 0, 0, 0, 0, 0, 0, 0, 0, 0, 0, 0⟩ ∗ (∀ out, St m c ⟨3, true, 1, 0, 0, 0, 0, 0, 0, 0, 0, 0, 0, 0, 0, 0, 0, 0, 0, 0, 0, 0⟩ -∗ Kt out))
      ⊢ WP c (k0_part3 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v16 v18 v23 v57 (SemArray.scalar (sig.barrier 0 rfl)) v70) Kt := by
  ag_part k0_part3_eq_skeleton k0_part3_skel

set_option maxRecDepth 65536 in
theorem part_4 (m : (ℓ : Loc nD τ sig) → Buf (Elt F) ℓ) (K : CellIx → ℕ) (c : Dev nD) (v2 v5 v9 v23 v57 v100 c1_i32_63 : BitVec 32) (Kt : (PUnit) → sProp 𝕄) :
    iprop(Ctx m K ∗ St m c ⟨3, true, 1, 0, 0, 0, 0, 0, 0, 0, 0, 0, 0, 0, 0, 0, 0, 0, 0, 0, 0, 0⟩ ∗ (∀ out, St m c ⟨3, true, 3, 0, 0, 0, 0, 0, 0, 0, 0, 0, 0, 0, 0, 0, 0, 0, 0, 0, 0, 0⟩ -∗ Kt out))
      ⊢ WP c (k0_part4 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v100 c1_i32_63) Kt := by
  ag_part k0_part4_eq_skeleton k0_part4_skel

set_option maxRecDepth 65536 in
theorem part_5 (m : (ℓ : Loc nD τ sig) → Buf (Elt F) ℓ) (K : CellIx → ℕ) (c : Dev nD) (v2 v5 v9 v23 v57 : BitVec 32) (Kt : (PUnit) → sProp 𝕄) :
    iprop(Ctx m K ∗ St m c ⟨3, true, 3, 0, 0, 0, 0, 0, 0, 0, 0, 0, 0, 0, 0, 0, 0, 0, 0, 0, 0, 0⟩ ∗ (∀ out, St m c ⟨3, true, 6, 0, 0, 0, 0, 0, 0, 0, 0, 0, 0, 0, 0, 0, 0, 0, 0, 0, 0, 0⟩ -∗ Kt out))
      ⊢ WP c (k0_part5 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part5_eq_skeleton k0_part5_skel

set_option maxRecDepth 65536 in
theorem part_6 (m : (ℓ : Loc nD τ sig) → Buf (Elt F) ℓ) (K : CellIx → ℕ) (c : Dev nD) (v2 v5 v9 v23 v57 : BitVec 32) (Kt : (Σ' (v203 : BitVec 32), BitVec 32) → sProp 𝕄) :
    iprop(Ctx m K ∗ St m c ⟨3, true, 6, 0, 0, 0, 0, 0, 0, 0, 0, 0, 0, 0, 0, 0, 0, 0, 0, 0, 0, 0⟩ ∗ (∀ out, St m c ⟨3, true, 8, 0, 0, 0, 0, 0, 0, 0, 0, 0, 0, 0, 0, 0, 0, 0, 0, 0, 0, 0⟩ -∗ Kt out))
      ⊢ WP c (k0_part6 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part6_eq_skeleton k0_part6_skel

set_option maxRecDepth 65536 in
theorem part_7 (m : (ℓ : Loc nD τ sig) → Buf (Elt F) ℓ) (K : CellIx → ℕ) (c : Dev nD) (v2 v5 v9 v23 v57 v203 v204 : BitVec 32) (Kt : (PUnit) → sProp 𝕄) :
    iprop(Ctx m K ∗ St m c ⟨3, true, 8, 0, 0, 0, 0, 0, 0, 0, 0, 0, 0, 0, 0, 0, 0, 0, 0, 0, 0, 0⟩ ∗ (∀ out, St m c ⟨3, true, 10, 0, 0, 0, 0, 0, 0, 0, 0, 0, 0, 0, 0, 0, 0, 0, 0, 0, 0, 0⟩ -∗ Kt out))
      ⊢ WP c (k0_part7 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v203 v204) Kt := by
  ag_part k0_part7_eq_skeleton k0_part7_skel

set_option maxRecDepth 65536 in
theorem part_8 (m : (ℓ : Loc nD τ sig) → Buf (Elt F) ℓ) (K : CellIx → ℕ) (c : Dev nD) (v2 v5 v9 v23 v57 : BitVec 32) (Kt : (Σ' (v274 : BitVec 32), BitVec 32) → sProp 𝕄) :
    iprop(Ctx m K ∗ St m c ⟨3, true, 10, 0, 0, 0, 0, 0, 0, 0, 0, 0, 0, 0, 0, 0, 0, 0, 0, 0, 0, 0⟩ ∗ (∀ out, St m c ⟨3, true, 13, 0, 0, 0, 0, 0, 0, 0, 0, 0, 0, 0, 0, 0, 0, 0, 0, 0, 0, 0⟩ -∗ Kt out))
      ⊢ WP c (k0_part8 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part8_eq_skeleton k0_part8_skel

set_option maxRecDepth 65536 in
theorem part_9 (m : (ℓ : Loc nD τ sig) → Buf (Elt F) ℓ) (K : CellIx → ℕ) (c : Dev nD) (v2 v5 v9 v23 v57 v274 c1664_i32 : BitVec 32) (Kt : (BitVec 32) → sProp 𝕄) :
    iprop(Ctx m K ∗ St m c ⟨3, true, 13, 0, 0, 0, 0, 0, 0, 0, 0, 0, 0, 0, 0, 0, 0, 0, 0, 0, 0, 0⟩ ∗ (∀ out, St m c ⟨3, true, 15, 0, 0, 0, 0, 0, 0, 0, 0, 0, 0, 0, 0, 0, 0, 0, 0, 0, 0, 0⟩ -∗ Kt out))
      ⊢ WP c (k0_part9 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v274 c1664_i32) Kt := by
  ag_part k0_part9_eq_skeleton k0_part9_skel

set_option maxRecDepth 65536 in
theorem part_10 (m : (ℓ : Loc nD τ sig) → Buf (Elt F) ℓ) (K : CellIx → ℕ) (c : Dev nD) (v2 v5 v9 v23 v57 v308 : BitVec 32) (Kt : (PUnit) → sProp 𝕄) :
    iprop(Ctx m K ∗ St m c ⟨3, true, 15, 0, 0, 0, 0, 0, 0, 0, 0, 0, 0, 0, 0, 0, 0, 0, 0, 0, 0, 0⟩ ∗ (∀ out, St m c ⟨3, true, 17, 0, 0, 0, 0, 0, 0, 0, 0, 0, 0, 0, 0, 0, 0, 0, 0, 0, 0, 0⟩ -∗ Kt out))
      ⊢ WP c (k0_part10 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v308) Kt := by
  ag_part k0_part10_eq_skeleton k0_part10_skel

set_option maxRecDepth 65536 in
theorem part_11 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 17, 0, 0, 0, 0, 0, 0, 0, 0, 0, 0, 0, 0, 0, 0, 0, 0, 0, 0, 0⟩ ∗ (∀ out, St m c ⟨3, true, 20, 0, 0, 0, 0, 0, 0, 0, 0, 0, 0, 0, 0, 0, 0, 0, 0, 0, 0, 0⟩ -∗ Kt out))
      ⊢ WP c (k0_part11 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part11_eq_skeleton k0_part11_skel

set_option maxRecDepth 65536 in
theorem part_12 (m : (ℓ : Loc nD τ sig) → Buf (Elt F) ℓ) (K : CellIx → ℕ) (c : Dev nD) (v2 v5 v9 v23 v57 c8192_i32_213 : BitVec 32) (Kt : (BitVec 32) → sProp 𝕄) :
    iprop(Ctx m K ∗ St m c ⟨3, true, 20, 0, 0, 0, 0, 0, 0, 0, 0, 0, 0, 0, 0, 0, 0, 0, 0, 0, 0, 0⟩ ∗ (∀ out, St m c ⟨3, true, 22, 0, 0, 0, 0, 0, 0, 0, 0, 0, 0, 0, 0, 0, 0, 0, 0, 0, 0, 0⟩ -∗ Kt out))
      ⊢ WP c (k0_part12 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 c8192_i32_213) Kt := by
  ag_part k0_part12_eq_skeleton k0_part12_skel

set_option maxRecDepth 65536 in
theorem part_13 (m : (ℓ : Loc nD τ sig) → Buf (Elt F) ℓ) (K : CellIx → ℕ) (c : Dev nD) (v2 v5 v9 v23 v57 v412 : BitVec 32) (Kt : (PUnit) → sProp 𝕄) :
    iprop(Ctx m K ∗ St m c ⟨3, true, 22, 0, 0, 0, 0, 0, 0, 0, 0, 0, 0, 0, 0, 0, 0, 0, 0, 0, 0, 0⟩ ∗ (∀ out, St m c ⟨3, true, 24, 0, 0, 0, 0, 0, 0, 0, 0, 0, 0, 0, 0, 0, 0, 0, 0, 0, 0, 0⟩ -∗ Kt out))
      ⊢ WP c (k0_part13 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v412) Kt := by
  ag_part k0_part13_eq_skeleton k0_part13_skel

set_option maxRecDepth 65536 in
theorem part_14 (m : (ℓ : Loc nD τ sig) → Buf (Elt F) ℓ) (K : CellIx → ℕ) (c : Dev nD) (v2 v5 v9 v23 v57 : BitVec 32) (Kt : (PUnit) → sProp 𝕄) :
    iprop(Ctx m K ∗ St m c ⟨3, true, 24, 0, 0, 0, 0, 0, 0, 0, 0, 0, 0, 0, 0, 0, 0, 0, 0, 0, 0, 0⟩ ∗ (∀ out, St m c ⟨3, true, 26, 0, 0, 0, 0, 0, 0, 0, 0, 0, 0, 0, 0, 0, 0, 0, 0, 0, 0, 0⟩ -∗ Kt out))
      ⊢ WP c (k0_part14 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part14_eq_skeleton k0_part14_skel

set_option maxRecDepth 65536 in
theorem part_15 (m : (ℓ : Loc nD τ sig) → Buf (Elt F) ℓ) (K : CellIx → ℕ) (c : Dev nD) (v2 v5 v9 v23 v57 : BitVec 32) (Kt : (PUnit) → sProp 𝕄) :
    iprop(Ctx m K ∗ St m c ⟨3, true, 26, 0, 0, 0, 0, 0, 0, 0, 0, 0, 0, 0, 0, 0, 0, 0, 0, 0, 0, 0⟩ ∗ (∀ out, St m c ⟨3, true, 29, 0, 0, 0, 0, 0, 0, 0, 0, 0, 0, 0, 0, 0, 0, 0, 0, 0, 0, 0⟩ -∗ Kt out))
      ⊢ WP c (k0_part15 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part15_eq_skeleton k0_part15_skel

set_option maxRecDepth 65536 in
theorem part_16 (m : (ℓ : Loc nD τ sig) → Buf (Elt F) ℓ) (K : CellIx → ℕ) (c : Dev nD) (v2 v5 v9 v23 v57 : BitVec 32) (Kt : (Σ' (v550 : BitVec 32), BitVec 32) → sProp 𝕄) :
    iprop(Ctx m K ∗ St m c ⟨3, true, 29, 0, 0, 0, 0, 0, 0, 0, 0, 0, 0, 0, 0, 0, 0, 0, 0, 0, 0, 0⟩ ∗ (∀ out, St m c ⟨3, true, 31, 0, 0, 0, 0, 0, 0, 0, 0, 0, 0, 0, 0, 0, 0, 0, 0, 0, 0, 0⟩ -∗ Kt out))
      ⊢ WP c (k0_part16 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part16_eq_skeleton k0_part16_skel

set_option maxRecDepth 65536 in
theorem part_17 (m : (ℓ : Loc nD τ sig) → Buf (Elt F) ℓ) (K : CellIx → ℕ) (c : Dev nD) (v2 v5 v9 v23 v57 v550 c1_i32_306 : BitVec 32) (Kt : (PUnit) → sProp 𝕄) :
    iprop(Ctx m K ∗ St m c ⟨3, true, 31, 0, 0, 0, 0, 0, 0, 0, 0, 0, 0, 0, 0, 0, 0, 0, 0, 0, 0, 0⟩ ∗ (∀ out, St m c ⟨3, true, 33, 0, 0, 0, 0, 0, 0, 0, 0, 0, 0, 0, 0, 0, 0, 0, 0, 0, 0, 0⟩ -∗ Kt out))
      ⊢ WP c (k0_part17 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v550 c1_i32_306) Kt := by
  ag_part k0_part17_eq_skeleton k0_part17_skel

set_option maxRecDepth 65536 in
theorem part_18 (m : (ℓ : Loc nD τ sig) → Buf (Elt F) ℓ) (K : CellIx → ℕ) (c : Dev nD) (v2 v5 v9 v23 v57 : BitVec 32) (Kt : (PUnit) → sProp 𝕄) :
    iprop(Ctx m K ∗ St m c ⟨3, true, 33, 0, 0, 0, 0, 0, 0, 0, 0, 0, 0, 0, 0, 0, 0, 0, 0, 0, 0, 0⟩ ∗ (∀ out, St m c ⟨3, true, 36, 0, 0, 0, 0, 0, 0, 0, 0, 0, 0, 0, 0, 0, 0, 0, 0, 0, 0, 0⟩ -∗ Kt out))
      ⊢ WP c (k0_part18 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part18_eq_skeleton k0_part18_skel

set_option maxRecDepth 65536 in
theorem part_19 (m : (ℓ : Loc nD τ sig) → Buf (Elt F) ℓ) (K : CellIx → ℕ) (c : Dev nD) (v2 v5 v9 v23 v57 : BitVec 32) (Kt : (Σ' (v653 : BitVec 32), BitVec 32) → sProp 𝕄) :
    iprop(Ctx m K ∗ St m c ⟨3, true, 36, 0, 0, 0, 0, 0, 0, 0, 0, 0, 0, 0, 0, 0, 0, 0, 0, 0, 0, 0⟩ ∗ (∀ out, St m c ⟨3, true, 38, 0, 0, 0, 0, 0, 0, 0, 0, 0, 0, 0, 0, 0, 0, 0, 0, 0, 0, 0⟩ -∗ Kt out))
      ⊢ WP c (k0_part19 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part19_eq_skeleton k0_part19_skel

set_option maxRecDepth 65536 in
theorem part_20 (m : (ℓ : Loc nD τ sig) → Buf (Elt F) ℓ) (K : CellIx → ℕ) (c : Dev nD) (v2 v5 v9 v23 v57 v653 v654 : BitVec 32) (Kt : (PUnit) → sProp 𝕄) :
    iprop(Ctx m K ∗ St m c ⟨3, true, 38, 0, 0, 0, 0, 0, 0, 0, 0, 0, 0, 0, 0, 0, 0, 0, 0, 0, 0, 0⟩ ∗ (∀ out, St m c ⟨3, true, 40, 0, 0, 0, 0, 0, 0, 0, 0, 0, 0, 0, 0, 0, 0, 0, 0, 0, 0, 0⟩ -∗ Kt out))
      ⊢ WP c (k0_part20 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v653 v654) Kt := by
  ag_part k0_part20_eq_skeleton k0_part20_skel

set_option maxRecDepth 65536 in
theorem part_21 (m : (ℓ : Loc nD τ sig) → Buf (Elt F) ℓ) (K : CellIx → ℕ) (c : Dev nD) (v2 v5 v9 v23 v57 : BitVec 32) (Kt : (Σ' (v724 : BitVec 32), BitVec 32) → sProp 𝕄) :
    iprop(Ctx m K ∗ St m c ⟨3, true, 40, 0, 0, 0, 0, 0, 0, 0, 0, 0, 0, 0, 0, 0, 0, 0, 0, 0, 0, 0⟩ ∗ (∀ out, St m c ⟨3, true, 43, 0, 0, 0, 0, 0, 0, 0, 0, 0, 0, 0, 0, 0, 0, 0, 0, 0, 0, 0⟩ -∗ Kt out))
      ⊢ WP c (k0_part21 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part21_eq_skeleton k0_part21_skel

set_option maxRecDepth 65536 in
theorem part_22 (m : (ℓ : Loc nD τ sig) → Buf (Elt F) ℓ) (K : CellIx → ℕ) (c : Dev nD) (v2 v5 v9 v23 v57 v724 c5504_i32 : BitVec 32) (Kt : (BitVec 32) → sProp 𝕄) :
    iprop(Ctx m K ∗ St m c ⟨3, true, 43, 0, 0, 0, 0, 0, 0, 0, 0, 0, 0, 0, 0, 0, 0, 0, 0, 0, 0, 0⟩ ∗ (∀ out, St m c ⟨3, true, 45, 0, 0, 0, 0, 0, 0, 0, 0, 0, 0, 0, 0, 0, 0, 0, 0, 0, 0, 0⟩ -∗ Kt out))
      ⊢ WP c (k0_part22 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v724 c5504_i32) Kt := by
  ag_part k0_part22_eq_skeleton k0_part22_skel

set_option maxRecDepth 65536 in
theorem part_23 (m : (ℓ : Loc nD τ sig) → Buf (Elt F) ℓ) (K : CellIx → ℕ) (c : Dev nD) (v2 v5 v9 v23 v57 v758 : BitVec 32) (Kt : (PUnit) → sProp 𝕄) :
    iprop(Ctx m K ∗ St m c ⟨3, true, 45, 0, 0, 0, 0, 0, 0, 0, 0, 0, 0, 0, 0, 0, 0, 0, 0, 0, 0, 0⟩ ∗ (∀ out, St m c ⟨3, true, 47, 0, 0, 0, 0, 0, 0, 0, 0, 0, 0, 0, 0, 0, 0, 0, 0, 0, 0, 0⟩ -∗ Kt out))
      ⊢ WP c (k0_part23 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v758) Kt := by
  ag_part k0_part23_eq_skeleton k0_part23_skel

set_option maxRecDepth 65536 in
theorem part_24 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 47, 0, 0, 0, 0, 0, 0, 0, 0, 0, 0, 0, 0, 0, 0, 0, 0, 0, 0, 0⟩ ∗ (∀ out, St m c ⟨3, true, 50, 0, 0, 0, 0, 0, 0, 0, 0, 0, 0, 0, 0, 0, 0, 0, 0, 0, 0, 0⟩ -∗ Kt out))
      ⊢ WP c (k0_part24 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part24_eq_skeleton k0_part24_skel

set_option maxRecDepth 65536 in
theorem part_25 (m : (ℓ : Loc nD τ sig) → Buf (Elt F) ℓ) (K : CellIx → ℕ) (c : Dev nD) (v2 v5 v9 v23 v57 c8192_i32_453 : BitVec 32) (Kt : (BitVec 32) → sProp 𝕄) :
    iprop(Ctx m K ∗ St m c ⟨3, true, 50, 0, 0, 0, 0, 0, 0, 0, 0, 0, 0, 0, 0, 0, 0, 0, 0, 0, 0, 0⟩ ∗ (∀ out, St m c ⟨3, true, 52, 0, 0, 0, 0, 0, 0, 0, 0, 0, 0, 0, 0, 0, 0, 0, 0, 0, 0, 0⟩ -∗ Kt out))
      ⊢ WP c (k0_part25 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 c8192_i32_453) Kt := by
  ag_part k0_part25_eq_skeleton k0_part25_skel

set_option maxRecDepth 65536 in
theorem part_26 (m : (ℓ : Loc nD τ sig) → Buf (Elt F) ℓ) (K : CellIx → ℕ) (c : Dev nD) (v2 v5 v9 v23 v57 v862 : BitVec 32) (Kt : (PUnit) → sProp 𝕄) :
    iprop(Ctx m K ∗ St m c ⟨3, true, 52, 0, 0, 0, 0, 0, 0, 0, 0, 0, 0, 0, 0, 0, 0, 0, 0, 0, 0, 0⟩ ∗ (∀ out, St m c ⟨3, true, 54, 0, 0, 0, 0, 0, 0, 0, 0, 0, 0, 0, 0, 0, 0, 0, 0, 0, 0, 0⟩ -∗ Kt out))
      ⊢ WP c (k0_part26 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v862) Kt := by
  ag_part k0_part26_eq_skeleton k0_part26_skel

set_option maxRecDepth 65536 in
theorem part_27 (m : (ℓ : Loc nD τ sig) → Buf (Elt F) ℓ) (K : CellIx → ℕ) (c : Dev nD) (v2 v5 v9 v23 v57 : BitVec 32) (Kt : (PUnit) → sProp 𝕄) :
    iprop(Ctx m K ∗ St m c ⟨3, true, 54, 0, 0, 0, 0, 0, 0, 0, 0, 0, 0, 0, 0, 0, 0, 0, 0, 0, 0, 0⟩ ∗ (∀ out, St m c ⟨3, true, 56, 0, 0, 0, 0, 0, 0, 0, 0, 0, 0, 0, 0, 0, 0, 0, 0, 0, 0, 0⟩ -∗ Kt out))
      ⊢ WP c (k0_part27 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part27_eq_skeleton k0_part27_skel

set_option maxRecDepth 65536 in
theorem part_28 (m : (ℓ : Loc nD τ sig) → Buf (Elt F) ℓ) (K : CellIx → ℕ) (c : Dev nD) (v2 v5 v9 v23 v57 : BitVec 32) (Kt : (PUnit) → sProp 𝕄) :
    iprop(Ctx m K ∗ St m c ⟨3, true, 56, 0, 0, 0, 0, 0, 0, 0, 0, 0, 0, 0, 0, 0, 0, 0, 0, 0, 0, 0⟩ ∗ (∀ out, St m c ⟨3, true, 59, 0, 0, 0, 0, 0, 0, 0, 0, 0, 0, 0, 0, 0, 0, 0, 0, 0, 0, 0⟩ -∗ Kt out))
      ⊢ WP c (k0_part28 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part28_eq_skeleton k0_part28_skel

set_option maxRecDepth 65536 in
theorem part_29 (m : (ℓ : Loc nD τ sig) → Buf (Elt F) ℓ) (K : CellIx → ℕ) (c : Dev nD) (v2 v5 v9 v23 v57 : BitVec 32) (Kt : (Σ' (v1000 : BitVec 32), BitVec 32) → sProp 𝕄) :
    iprop(Ctx m K ∗ St m c ⟨3, true, 59, 0, 0, 0, 0, 0, 0, 0, 0, 0, 0, 0, 0, 0, 0, 0, 0, 0, 0, 0⟩ ∗ (∀ out, St m c ⟨3, true, 61, 0, 0, 0, 0, 0, 0, 0, 0, 0, 0, 0, 0, 0, 0, 0, 0, 0, 0, 0⟩ -∗ Kt out))
      ⊢ WP c (k0_part29 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part29_eq_skeleton k0_part29_skel

set_option maxRecDepth 65536 in
theorem part_30 (m : (ℓ : Loc nD τ sig) → Buf (Elt F) ℓ) (K : CellIx → ℕ) (c : Dev nD) (v2 v5 v9 v23 v57 v1000 c1_i32_546 : BitVec 32) (Kt : (PUnit) → sProp 𝕄) :
    iprop(Ctx m K ∗ St m c ⟨3, true, 61, 0, 0, 0, 0, 0, 0, 0, 0, 0, 0, 0, 0, 0, 0, 0, 0, 0, 0, 0⟩ ∗ (∀ out, St m c ⟨3, true, 63, 0, 0, 0, 0, 0, 0, 0, 0, 0, 0, 0, 0, 0, 0, 0, 0, 0, 0, 0⟩ -∗ Kt out))
      ⊢ WP c (k0_part30 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v1000 c1_i32_546) Kt := by
  ag_part k0_part30_eq_skeleton k0_part30_skel

set_option maxRecDepth 65536 in
theorem part_31 (m : (ℓ : Loc nD τ sig) → Buf (Elt F) ℓ) (K : CellIx → ℕ) (c : Dev nD) (v2 v5 v9 v56 v57 : BitVec 32) (Kt : (PUnit) → sProp 𝕄) :
    iprop(Ctx m K ∗ St m c ⟨3, true, 63, 0, 0, 0, 0, 0, 0, 0, 0, 0, 0, 0, 0, 0, 0, 0, 0, 0, 0, 0⟩ ∗ (∀ out, St m c ⟨3, true, 66, 0, 0, 0, 0, 0, 0, 0, 0, 0, 0, 0, 0, 0, 0, 0, 0, 0, 0, 0⟩ -∗ Kt out))
      ⊢ WP c (k0_part31 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57) Kt := by
  ag_part k0_part31_eq_skeleton k0_part31_skel

set_option maxRecDepth 65536 in
theorem part_32 (m : (ℓ : Loc nD τ sig) → Buf (Elt F) ℓ) (K : CellIx → ℕ) (c : Dev nD) (v2 v5 v9 v56 v57 : BitVec 32) (Kt : (Σ' (v1103 : BitVec 32), BitVec 32) → sProp 𝕄) :
    iprop(Ctx m K ∗ St m c ⟨3, true, 66, 0, 0, 0, 0, 0, 0, 0, 0, 0, 0, 0, 0, 0, 0, 0, 0, 0, 0, 0⟩ ∗ (∀ out, St m c ⟨3, true, 68, 0, 0, 0, 0, 0, 0, 0, 0, 0, 0, 0, 0, 0, 0, 0, 0, 0, 0, 0⟩ -∗ Kt out))
      ⊢ WP c (k0_part32 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57) Kt := by
  ag_part k0_part32_eq_skeleton k0_part32_skel

set_option maxRecDepth 65536 in
theorem part_33 (m : (ℓ : Loc nD τ sig) → Buf (Elt F) ℓ) (K : CellIx → ℕ) (c : Dev nD) (v2 v5 v9 v56 v57 v1103 v1104 : BitVec 32) (Kt : (PUnit) → sProp 𝕄) :
    iprop(Ctx m K ∗ St m c ⟨3, true, 68, 0, 0, 0, 0, 0, 0, 0, 0, 0, 0, 0, 0, 0, 0, 0, 0, 0, 0, 0⟩ ∗ (∀ out, St m c ⟨3, true, 70, 0, 0, 0, 0, 0, 0, 0, 0, 0, 0, 0, 0, 0, 0, 0, 0, 0, 0, 0⟩ -∗ Kt out))
      ⊢ WP c (k0_part33 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57 v1103 v1104) Kt := by
  ag_part k0_part33_eq_skeleton k0_part33_skel

set_option maxRecDepth 65536 in
theorem part_34 (m : (ℓ : Loc nD τ sig) → Buf (Elt F) ℓ) (K : CellIx → ℕ) (c : Dev nD) (v2 v5 v9 v56 v57 : BitVec 32) (Kt : (Σ' (v1174 : BitVec 32), BitVec 32) → sProp 𝕄) :
    iprop(Ctx m K ∗ St m c ⟨3, true, 70, 0, 0, 0, 0, 0, 0, 0, 0, 0, 0, 0, 0, 0, 0, 0, 0, 0, 0, 0⟩ ∗ (∀ out, St m c ⟨3, true, 73, 0, 0, 0, 0, 0, 0, 0, 0, 0, 0, 0, 0, 0, 0, 0, 0, 0, 0, 0⟩ -∗ Kt out))
      ⊢ WP c (k0_part34 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57) Kt := by
  ag_part k0_part34_eq_skeleton k0_part34_skel

set_option maxRecDepth 65536 in
theorem part_35 (m : (ℓ : Loc nD τ sig) → Buf (Elt F) ℓ) (K : CellIx → ℕ) (c : Dev nD) (v2 v5 v9 v56 v57 v1174 c6784_i32_647 : BitVec 32) (Kt : (BitVec 32) → sProp 𝕄) :
    iprop(Ctx m K ∗ St m c ⟨3, true, 73, 0, 0, 0, 0, 0, 0, 0, 0, 0, 0, 0, 0, 0, 0, 0, 0, 0, 0, 0⟩ ∗ (∀ out, St m c ⟨3, true, 75, 0, 0, 0, 0, 0, 0, 0, 0, 0, 0, 0, 0, 0, 0, 0, 0, 0, 0, 0⟩ -∗ Kt out))
      ⊢ WP c (k0_part35 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57 v1174 c6784_i32_647) Kt := by
  ag_part k0_part35_eq_skeleton k0_part35_skel

set_option maxRecDepth 65536 in
theorem part_36 (m : (ℓ : Loc nD τ sig) → Buf (Elt F) ℓ) (K : CellIx → ℕ) (c : Dev nD) (v2 v5 v9 v56 v57 v1208 : BitVec 32) (Kt : (PUnit) → sProp 𝕄) :
    iprop(Ctx m K ∗ St m c ⟨3, true, 75, 0, 0, 0, 0, 0, 0, 0, 0, 0, 0, 0, 0, 0, 0, 0, 0, 0, 0, 0⟩ ∗ (∀ out, St m c ⟨3, true, 77, 0, 0, 0, 0, 0, 0, 0, 0, 0, 0, 0, 0, 0, 0, 0, 0, 0, 0, 0⟩ -∗ Kt out))
      ⊢ WP c (k0_part36 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57 v1208) Kt := by
  ag_part k0_part36_eq_skeleton k0_part36_skel

set_option maxRecDepth 65536 in
theorem part_37 (m : (ℓ : Loc nD τ sig) → Buf (Elt F) ℓ) (K : CellIx → ℕ) (c : Dev nD) (v2 v5 v9 v56 v57 : BitVec 32) (Kt : (BitVec 32) → sProp 𝕄) :
    iprop(Ctx m K ∗ St m c ⟨3, true, 77, 0, 0, 0, 0, 0, 0, 0, 0, 0, 0, 0, 0, 0, 0, 0, 0, 0, 0, 0⟩ ∗ (∀ out, St m c ⟨3, true, 80, 0, 0, 0, 0, 0, 0, 0, 0, 0, 0, 0, 0, 0, 0, 0, 0, 0, 0, 0⟩ -∗ Kt out))
      ⊢ WP c (k0_part37 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57) Kt := by
  ag_part k0_part37_eq_skeleton k0_part37_skel

set_option maxRecDepth 65536 in
theorem part_38 (m : (ℓ : Loc nD τ sig) → Buf (Elt F) ℓ) (K : CellIx → ℕ) (c : Dev nD) (v2 v5 v9 v56 v57 c8192_i32_709 : BitVec 32) (Kt : (BitVec 32) → sProp 𝕄) :
    iprop(Ctx m K ∗ St m c ⟨3, true, 80, 0, 0, 0, 0, 0, 0, 0, 0, 0, 0, 0, 0, 0, 0, 0, 0, 0, 0, 0⟩ ∗ (∀ out, St m c ⟨3, true, 82, 0, 0, 0, 0, 0, 0, 0, 0, 0, 0, 0, 0, 0, 0, 0, 0, 0, 0, 0⟩ -∗ Kt out))
      ⊢ WP c (k0_part38 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57 c8192_i32_709) Kt := by
  ag_part k0_part38_eq_skeleton k0_part38_skel

set_option maxRecDepth 65536 in
theorem part_39 (m : (ℓ : Loc nD τ sig) → Buf (Elt F) ℓ) (K : CellIx → ℕ) (c : Dev nD) (v2 v5 v9 v56 v57 v1312 : BitVec 32) (Kt : (PUnit) → sProp 𝕄) :
    iprop(Ctx m K ∗ St m c ⟨3, true, 82, 0, 0, 0, 0, 0, 0, 0, 0, 0, 0, 0, 0, 0, 0, 0, 0, 0, 0, 0⟩ ∗ (∀ out, St m c ⟨3, true, 84, 0, 0, 0, 0, 0, 0, 0, 0, 0, 0, 0, 0, 0, 0, 0, 0, 0, 0, 0⟩ -∗ Kt out))
      ⊢ WP c (k0_part39 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57 v1312) Kt := by
  ag_part k0_part39_eq_skeleton k0_part39_skel

set_option maxRecDepth 65536 in
theorem part_40 (m : (ℓ : Loc nD τ sig) → Buf (Elt F) ℓ) (K : CellIx → ℕ) (c : Dev nD) (v8 v12 v14 v16 v18 v23 v59 : BitVec 32) (Kt : (PUnit) → sProp 𝕄) :
    iprop(Ctx m K ∗ St m c ⟨3, true, 84, 0, 0, 0, 0, 0, 0, 0, 0, 0, 0, 0, 0, 0, 0, 0, 0, 0, 0, 0⟩ ∗ (∀ out, St m c ⟨3, true, 84, 0, 1, 0, 1, 1, 0, 0, 0, 0, 0, 0, 0, 0, 0, 0, 0, 0, 0, 0⟩ -∗ Kt out))
      ⊢ WP c (k0_part40 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v23 v59) Kt := by
  ag_part k0_part40_eq_skeleton k0_part40_skel

set_option maxRecDepth 65536 in
theorem part_41 (m : (ℓ : Loc nD τ sig) → Buf (Elt F) ℓ) (K : CellIx → ℕ) (c : Dev nD) (v2 v5 v9 v12 v14 v23 v57 v59 : BitVec 32) (Kt : (Σ' (v1408 : BitVec 32), BitVec 32) → sProp 𝕄) :
    iprop(Ctx m K ∗ St m c ⟨3, true, 84, 0, 1, 0, 1, 1, 0, 0, 0, 0, 0, 0, 0, 0, 0, 0, 0, 0, 0, 0⟩ ∗ (∀ out, St m c ⟨3, true, 84, 0, 2, 0, 1, 1, 0, 0, 0, 0, 0, 0, 0, 0, 0, 0, 1, 1, 1, 0⟩ -∗ Kt out))
      ⊢ WP c (k0_part41 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v12 v14 v23 v57 v59) Kt := by
  ag_part k0_part41_eq_skeleton k0_part41_skel

set_option maxRecDepth 65536 in
theorem part_42 (m : (ℓ : Loc nD τ sig) → Buf (Elt F) ℓ) (K : CellIx → ℕ) (c : Dev nD) (v8 v16 v18 v57 v1408 c1_i32_804 : BitVec 32) (Kt : (PUnit) → sProp 𝕄) :
    iprop(Ctx m K ∗ St m c ⟨3, true, 84, 0, 2, 0, 1, 1, 0, 0, 0, 0, 0, 0, 0, 0, 0, 0, 1, 1, 1, 0⟩ ∗ (∀ out, St m c ⟨3, true, 84, 0, 2, 0, 2, 2, 0, 0, 0, 0, 0, 0, 0, 0, 0, 0, 2, 2, 1, 0⟩ -∗ Kt out))
      ⊢ WP c (k0_part42 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v57 v1408 c1_i32_804) Kt := by
  ag_part k0_part42_eq_skeleton k0_part42_skel

set_option maxRecDepth 65536 in
theorem part_43 (m : (ℓ : Loc nD τ sig) → Buf (Elt F) ℓ) (K : CellIx → ℕ) (c : Dev nD) (v2 v5 v8 v9 v12 v14 v16 v23 v59 : BitVec 32) (Kt : (BitVec 32) → sProp 𝕄) :
    iprop(Ctx m K ∗ St m c ⟨3, true, 84, 0, 2, 0, 2, 2, 0, 0, 0, 0, 0, 0, 0, 0, 0, 0, 2, 2, 1, 0⟩ ∗ (∀ out, St m c ⟨3, true, 84, 0, 3, 0, 3, 2, 0, 0, 0, 0, 0, 0, 0, 0, 0, 0, 2, 2, 2, 0⟩ -∗ Kt out))
      ⊢ WP c (k0_part43 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v23 v59) Kt := by
  ag_part k0_part43_eq_skeleton k0_part43_skel

set_option maxRecDepth 65536 in
theorem part_44 (m : (ℓ : Loc nD τ sig) → Buf (Elt F) ℓ) (K : CellIx → ℕ) (c : Dev nD) (v8 v18 v57 v1471 : BitVec 32) (Kt : (PUnit) → sProp 𝕄) :
    iprop(Ctx m K ∗ St m c ⟨3, true, 84, 0, 3, 0, 3, 2, 0, 0, 0, 0, 0, 0, 0, 0, 0, 0, 2, 2, 2, 0⟩ ∗ (∀ out, St m c ⟨3, true, 84, 0, 3, 0, 3, 3, 0, 0, 0, 0, 0, 0, 0, 0, 0, 0, 3, 3, 2, 1⟩ -∗ Kt out))
      ⊢ WP c (k0_part44 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v18 v57 v1471) Kt := by
  ag_part k0_part44_eq_skeleton k0_part44_skel

set_option maxRecDepth 65536 in
theorem part_45 (m : (ℓ : Loc nD τ sig) → Buf (Elt F) ℓ) (K : CellIx → ℕ) (c : Dev nD) (v2 v5 v8 v9 v12 v14 v16 v18 v23 v59 : BitVec 32) (Kt : (PUnit) → sProp 𝕄) :
    iprop(Ctx m K ∗ St m c ⟨3, true, 84, 0, 3, 0, 3, 3, 0, 0, 0, 0, 0, 0, 0, 0, 0, 0, 3, 3, 2, 1⟩ ∗ (∀ out, St m c ⟨3, true, 84, 0, 4, 0, 4, 3, 0, 0, 0, 0, 0, 0, 0, 0, 0, 0, 3, 3, 3, 1⟩ -∗ Kt out))
      ⊢ WP c (k0_part45 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59) Kt := by
  ag_part k0_part45_eq_skeleton k0_part45_skel

set_option maxRecDepth 65536 in
theorem part_46 (m : (ℓ : Loc nD τ sig) → Buf (Elt F) ℓ) (K : CellIx → ℕ) (c : Dev nD) (v57 : BitVec 32) (Kt : (BitVec 32) → sProp 𝕄) :
    iprop(Ctx m K ∗ St m c ⟨3, true, 84, 0, 4, 0, 4, 3, 0, 0, 0, 0, 0, 0, 0, 0, 0, 0, 3, 3, 3, 1⟩ ∗ (∀ out, St m c ⟨3, true, 84, 0, 4, 0, 4, 4, 0, 0, 0, 0, 0, 0, 0, 0, 0, 0, 4, 4, 4, 2⟩ -∗ Kt out))
      ⊢ WP c (k0_part46 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v57) Kt := by
  ag_part k0_part46_eq_skeleton k0_part46_skel

set_option maxRecDepth 65536 in
theorem part_47 (m : (ℓ : Loc nD τ sig) → Buf (Elt F) ℓ) (K : CellIx → ℕ) (c : Dev nD) (v2 v5 v8 v9 v12 v14 v16 v18 v23 v59 c4_i32_933 : BitVec 32) (Kt : (PUnit) → sProp 𝕄) :
    iprop(Ctx m K ∗ St m c ⟨3, true, 84, 0, 4, 0, 4, 4, 0, 0, 0, 0, 0, 0, 0, 0, 0, 0, 4, 4, 4, 2⟩ ∗ (∀ out, St m c ⟨3, true, 84, 0, 5, 0, 5, 4, 0, 0, 0, 0, 0, 0, 0, 0, 0, 0, 4, 4, 4, 2⟩ -∗ Kt out))
      ⊢ WP c (k0_part47 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59 c4_i32_933) Kt := by
  ag_part k0_part47_eq_skeleton k0_part47_skel

set_option maxRecDepth 65536 in
theorem part_48 (m : (ℓ : Loc nD τ sig) → Buf (Elt F) ℓ) (K : CellIx → ℕ) (c : Dev nD) (v2 v5 v57 : BitVec 32) (Kt : (BitVec 32) → sProp 𝕄) :
    iprop(Ctx m K ∗ St m c ⟨3, true, 84, 0, 5, 0, 5, 4, 0, 0, 0, 0, 0, 0, 0, 0, 0, 0, 4, 4, 4, 2⟩ ∗ (∀ out, St m c ⟨3, true, 84, 0, 5, 0, 5, 5, 0, 0, 0, 0, 0, 0, 0, 0, 0, 0, 5, 5, 5, 3⟩ -∗ Kt out))
      ⊢ WP c (k0_part48 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v57) Kt := by
  ag_part k0_part48_eq_skeleton k0_part48_skel

set_option maxRecDepth 65536 in
theorem part_49 (m : (ℓ : Loc nD τ sig) → Buf (Elt F) ℓ) (K : CellIx → ℕ) (c : Dev nD) (v8 v9 v12 v14 v16 v18 v23 v59 v1622 : BitVec 32) (Kt : (PUnit) → sProp 𝕄) :
    iprop(Ctx m K ∗ St m c ⟨3, true, 84, 0, 5, 0, 5, 5, 0, 0, 0, 0, 0, 0, 0, 0, 0, 0, 5, 5, 5, 3⟩ ∗ (∀ out, St m c ⟨3, true, 84, 0, 6, 0, 6, 6, 0, 0, 0, 0, 0, 0, 0, 0, 0, 0, 5, 5, 5, 3⟩ -∗ Kt out))
      ⊢ WP c (k0_part49 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v9 v12 v14 v16 v18 v23 v59 v1622) Kt := by
  ag_part k0_part49_eq_skeleton k0_part49_skel

set_option maxRecDepth 65536 in
theorem part_50 (m : (ℓ : Loc nD τ sig) → Buf (Elt F) ℓ) (K : CellIx → ℕ) (c : Dev nD) (v2 v5 v9 v57 : BitVec 32) (Kt : (PUnit) → sProp 𝕄) :
    iprop(Ctx m K ∗ St m c ⟨3, true, 84, 0, 6, 0, 6, 6, 0, 0, 0, 0, 0, 0, 0, 0, 0, 0, 5, 5, 5, 3⟩ ∗ (∀ out, St m c ⟨3, true, 84, 0, 6, 0, 6, 6, 0, 0, 0, 0, 0, 0, 0, 0, 0, 0, 6, 6, 6, 4⟩ -∗ Kt out))
      ⊢ WP c (k0_part50 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v57) Kt := by
  ag_part k0_part50_eq_skeleton k0_part50_skel

set_option maxRecDepth 65536 in
theorem part_51 (m : (ℓ : Loc nD τ sig) → Buf (Elt F) ℓ) (K : CellIx → ℕ) (c : Dev nD) (v8 v12 v14 v16 v18 v23 v59 : BitVec 32) (Kt : (PUnit) → sProp 𝕄) :
    iprop(Ctx m K ∗ St m c ⟨3, true, 84, 0, 6, 0, 6, 6, 0, 0, 0, 0, 0, 0, 0, 0, 0, 0, 6, 6, 6, 4⟩ ∗ (∀ out, St m c ⟨3, true, 84, 0, 7, 0, 7, 7, 0, 0, 0, 0, 0, 0, 0, 0, 0, 0, 6, 6, 6, 4⟩ -∗ Kt out))
      ⊢ WP c (k0_part51 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v23 v59) Kt := by
  ag_part k0_part51_eq_skeleton k0_part51_skel

set_option maxRecDepth 65536 in
theorem part_52 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 84, 0, 7, 0, 7, 7, 0, 0, 0, 0, 0, 0, 0, 0, 0, 0, 6, 6, 6, 4⟩ ∗ (∀ out, St m c ⟨3, true, 84, 0, 8, 0, 7, 7, 0, 0, 0, 0, 0, 0, 0, 0, 0, 0, 7, 7, 7, 5⟩ -∗ Kt out))
      ⊢ WP c (k0_part52 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part52_eq_skeleton k0_part52_skel

set_option maxRecDepth 65536 in
theorem part_53 (m : (ℓ : Loc nD τ sig) → Buf (Elt F) ℓ) (K : CellIx → ℕ) (c : Dev nD) (v8 v12 v14 v16 v18 v59 v1745 : BitVec 32) (Kt : (PUnit) → sProp 𝕄) :
    iprop(Ctx m K ∗ St m c ⟨3, true, 84, 0, 8, 0, 7, 7, 0, 0, 0, 0, 0, 0, 0, 0, 0, 0, 7, 7, 7, 5⟩ ∗ (∀ out, St m c ⟨3, true, 84, 0, 8, 0, 8, 8, 0, 0, 0, 0, 0, 0, 0, 0, 0, 0, 7, 7, 7, 6⟩ -∗ Kt out))
      ⊢ WP c (k0_part53 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v59 v1745) Kt := by
  ag_part k0_part53_eq_skeleton k0_part53_skel

set_option maxRecDepth 65536 in
theorem part_54 (m : (ℓ : Loc nD τ sig) → Buf (Elt F) ℓ) (K : CellIx → ℕ) (c : Dev nD) (v2 v5 v9 v23 v57 v59 : BitVec 32) (Kt : (BitVec 32) → sProp 𝕄) :
    iprop(Ctx m K ∗ St m c ⟨3, true, 84, 0, 8, 0, 8, 8, 0, 0, 0, 0, 0, 0, 0, 0, 0, 0, 7, 7, 7, 6⟩ ∗ (∀ out, St m c ⟨3, true, 84, 0, 9, 0, 8, 8, 0, 0, 0, 0, 0, 0, 0, 0, 0, 0, 8, 8, 8, 6⟩ -∗ Kt out))
      ⊢ WP c (k0_part54 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v59) Kt := by
  ag_part k0_part54_eq_skeleton k0_part54_skel

set_option maxRecDepth 65536 in
theorem part_55 (m : (ℓ : Loc nD τ sig) → Buf (Elt F) ℓ) (K : CellIx → ℕ) (c : Dev nD) (v8 v12 v14 v16 v18 c4_i32_1139 : BitVec 32) (Kt : (PUnit) → sProp 𝕄) :
    iprop(Ctx m K ∗ St m c ⟨3, true, 84, 0, 9, 0, 8, 8, 0, 0, 0, 0, 0, 0, 0, 0, 0, 0, 8, 8, 8, 6⟩ ∗ (∀ out, St m c ⟨3, true, 84, 0, 9, 0, 9, 9, 0, 0, 0, 0, 0, 0, 0, 0, 0, 0, 8, 8, 8, 7⟩ -∗ Kt out))
      ⊢ WP c (k0_part55 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 c4_i32_1139) Kt := by
  ag_part k0_part55_eq_skeleton k0_part55_skel

set_option maxRecDepth 65536 in
theorem part_56 (m : (ℓ : Loc nD τ sig) → Buf (Elt F) ℓ) (K : CellIx → ℕ) (c : Dev nD) (v2 v5 v9 v12 v14 v23 v57 v59 : BitVec 32) (Kt : (BitVec 32) → sProp 𝕄) :
    iprop(Ctx m K ∗ St m c ⟨3, true, 84, 0, 9, 0, 9, 9, 0, 0, 0, 0, 0, 0, 0, 0, 0, 0, 8, 8, 8, 7⟩ ∗ (∀ out, St m c ⟨3, true, 84, 0, 10, 0, 9, 9, 0, 0, 0, 0, 0, 0, 0, 0, 0, 0, 9, 9, 9, 7⟩ -∗ Kt out))
      ⊢ WP c (k0_part56 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v12 v14 v23 v57 v59) Kt := by
  ag_part k0_part56_eq_skeleton k0_part56_skel

set_option maxRecDepth 65536 in
theorem part_57 (m : (ℓ : Loc nD τ sig) → Buf (Elt F) ℓ) (K : CellIx → ℕ) (c : Dev nD) (v8 v16 v18 v1867 : BitVec 32) (Kt : (PUnit) → sProp 𝕄) :
    iprop(Ctx m K ∗ St m c ⟨3, true, 84, 0, 10, 0, 9, 9, 0, 0, 0, 0, 0, 0, 0, 0, 0, 0, 9, 9, 9, 7⟩ ∗ (∀ out, St m c ⟨3, true, 84, 0, 10, 0, 10, 10, 0, 0, 0, 0, 0, 0, 0, 0, 0, 0, 10, 9, 9, 8⟩ -∗ Kt out))
      ⊢ WP c (k0_part57 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v1867) Kt := by
  ag_part k0_part57_eq_skeleton k0_part57_skel

set_option maxRecDepth 65536 in
theorem part_58 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 10, 0, 10, 10, 0, 0, 0, 0, 0, 0, 0, 0, 0, 0, 10, 9, 9, 8⟩ ∗ (∀ out, St m c ⟨3, true, 84, 0, 11, 0, 10, 10, 0, 0, 0, 0, 0, 0, 0, 0, 0, 0, 10, 10, 10, 8⟩ -∗ Kt out))
      ⊢ WP c (k0_part58 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part58_eq_skeleton k0_part58_skel

set_option maxRecDepth 65536 in
theorem part_59 (m : (ℓ : Loc nD τ sig) → Buf (Elt F) ℓ) (K : CellIx → ℕ) (c : Dev nD) (v8 v16 v18 : BitVec 32) (Kt : (PUnit) → sProp 𝕄) :
    iprop(Ctx m K ∗ St m c ⟨3, true, 84, 0, 11, 0, 10, 10, 0, 0, 0, 0, 0, 0, 0, 0, 0, 0, 10, 10, 10, 8⟩ ∗ (∀ out, St m c ⟨3, true, 84, 0, 11, 0, 11, 11, 0, 0, 0, 0, 0, 0, 0, 0, 0, 0, 11, 10, 10, 9⟩ -∗ Kt out))
      ⊢ WP c (k0_part59 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18) Kt := by
  ag_part k0_part59_eq_skeleton k0_part59_skel

set_option maxRecDepth 65536 in
theorem part_60 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 11, 0, 11, 11, 0, 0, 0, 0, 0, 0, 0, 0, 0, 0, 11, 10, 10, 9⟩ ∗ (∀ out, St m c ⟨3, true, 84, 0, 12, 0, 12, 11, 0, 0, 0, 0, 0, 0, 0, 0, 0, 0, 11, 11, 11, 9⟩ -∗ Kt out))
      ⊢ WP c (k0_part60 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part60_eq_skeleton k0_part60_skel

set_option maxRecDepth 65536 in
theorem part_61 (m : (ℓ : Loc nD τ sig) → Buf (Elt F) ℓ) (K : CellIx → ℕ) (c : Dev nD) (v8 v16 v18 v57 : BitVec 32) (Kt : (PUnit) → sProp 𝕄) :
    iprop(Ctx m K ∗ St m c ⟨3, true, 84, 0, 12, 0, 12, 11, 0, 0, 0, 0, 0, 0, 0, 0, 0, 0, 11, 11, 11, 9⟩ ∗ (∀ out, St m c ⟨3, true, 84, 0, 12, 0, 12, 12, 0, 0, 0, 0, 0, 0, 0, 0, 0, 0, 12, 12, 11, 10⟩ -∗ Kt out))
      ⊢ WP c (k0_part61 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v57) Kt := by
  ag_part k0_part61_eq_skeleton k0_part61_skel

set_option maxRecDepth 65536 in
theorem part_62 (m : (ℓ : Loc nD τ sig) → Buf (Elt F) ℓ) (K : CellIx → ℕ) (c : Dev nD) (v2 v5 v8 v9 v12 v14 v16 v23 v59 : BitVec 32) (Kt : (BitVec 32) → sProp 𝕄) :
    iprop(Ctx m K ∗ St m c ⟨3, true, 84, 0, 12, 0, 12, 12, 0, 0, 0, 0, 0, 0, 0, 0, 0, 0, 12, 12, 11, 10⟩ ∗ (∀ out, St m c ⟨3, true, 84, 0, 13, 0, 13, 12, 0, 0, 0, 0, 0, 0, 0, 0, 0, 0, 12, 12, 12, 10⟩ -∗ Kt out))
      ⊢ WP c (k0_part62 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v23 v59) Kt := by
  ag_part k0_part62_eq_skeleton k0_part62_skel

set_option maxRecDepth 65536 in
theorem part_63 (m : (ℓ : Loc nD τ sig) → Buf (Elt F) ℓ) (K : CellIx → ℕ) (c : Dev nD) (v8 v18 v57 v2051 : BitVec 32) (Kt : (PUnit) → sProp 𝕄) :
    iprop(Ctx m K ∗ St m c ⟨3, true, 84, 0, 13, 0, 13, 12, 0, 0, 0, 0, 0, 0, 0, 0, 0, 0, 12, 12, 12, 10⟩ ∗ (∀ out, St m c ⟨3, true, 84, 0, 13, 0, 13, 13, 0, 0, 0, 0, 0, 0, 0, 0, 0, 0, 13, 13, 12, 11⟩ -∗ Kt out))
      ⊢ WP c (k0_part63 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v18 v57 v2051) Kt := by
  ag_part k0_part63_eq_skeleton k0_part63_skel

set_option maxRecDepth 65536 in
theorem part_64 (m : (ℓ : Loc nD τ sig) → Buf (Elt F) ℓ) (K : CellIx → ℕ) (c : Dev nD) (v2 v5 v8 v9 v12 v14 v16 v18 v23 v59 : BitVec 32) (Kt : (PUnit) → sProp 𝕄) :
    iprop(Ctx m K ∗ St m c ⟨3, true, 84, 0, 13, 0, 13, 13, 0, 0, 0, 0, 0, 0, 0, 0, 0, 0, 13, 13, 12, 11⟩ ∗ (∀ out, St m c ⟨3, true, 84, 0, 14, 0, 14, 13, 0, 0, 0, 0, 0, 0, 0, 0, 0, 0, 13, 13, 13, 11⟩ -∗ Kt out))
      ⊢ WP c (k0_part64 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59) Kt := by
  ag_part k0_part64_eq_skeleton k0_part64_skel

set_option maxRecDepth 65536 in
theorem part_65 (m : (ℓ : Loc nD τ sig) → Buf (Elt F) ℓ) (K : CellIx → ℕ) (c : Dev nD) (v57 : BitVec 32) (Kt : (BitVec 32) → sProp 𝕄) :
    iprop(Ctx m K ∗ St m c ⟨3, true, 84, 0, 14, 0, 14, 13, 0, 0, 0, 0, 0, 0, 0, 0, 0, 0, 13, 13, 13, 11⟩ ∗ (∀ out, St m c ⟨3, true, 84, 0, 14, 0, 14, 14, 0, 0, 0, 0, 0, 0, 0, 0, 0, 0, 14, 14, 14, 12⟩ -∗ Kt out))
      ⊢ WP c (k0_part65 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v57) Kt := by
  ag_part k0_part65_eq_skeleton k0_part65_skel

set_option maxRecDepth 65536 in
theorem part_66 (m : (ℓ : Loc nD τ sig) → Buf (Elt F) ℓ) (K : CellIx → ℕ) (c : Dev nD) (v2 v5 v8 v9 v12 v14 v16 v18 v23 v59 c4_i32_1423 : BitVec 32) (Kt : (PUnit) → sProp 𝕄) :
    iprop(Ctx m K ∗ St m c ⟨3, true, 84, 0, 14, 0, 14, 14, 0, 0, 0, 0, 0, 0, 0, 0, 0, 0, 14, 14, 14, 12⟩ ∗ (∀ out, St m c ⟨3, true, 84, 0, 15, 0, 15, 14, 0, 0, 0, 0, 0, 0, 0, 0, 0, 0, 14, 14, 14, 12⟩ -∗ Kt out))
      ⊢ WP c (k0_part66 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59 c4_i32_1423) Kt := by
  ag_part k0_part66_eq_skeleton k0_part66_skel

set_option maxRecDepth 65536 in
theorem part_67 (m : (ℓ : Loc nD τ sig) → Buf (Elt F) ℓ) (K : CellIx → ℕ) (c : Dev nD) (v2 v5 v57 : BitVec 32) (Kt : (BitVec 32) → sProp 𝕄) :
    iprop(Ctx m K ∗ St m c ⟨3, true, 84, 0, 15, 0, 15, 14, 0, 0, 0, 0, 0, 0, 0, 0, 0, 0, 14, 14, 14, 12⟩ ∗ (∀ out, St m c ⟨3, true, 84, 0, 15, 0, 15, 15, 0, 0, 0, 0, 0, 0, 0, 0, 0, 0, 15, 15, 15, 13⟩ -∗ Kt out))
      ⊢ WP c (k0_part67 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v57) Kt := by
  ag_part k0_part67_eq_skeleton k0_part67_skel

set_option maxRecDepth 65536 in
theorem part_68 (m : (ℓ : Loc nD τ sig) → Buf (Elt F) ℓ) (K : CellIx → ℕ) (c : Dev nD) (v8 v9 v12 v14 v16 v18 v23 v59 v2202 : BitVec 32) (Kt : (PUnit) → sProp 𝕄) :
    iprop(Ctx m K ∗ St m c ⟨3, true, 84, 0, 15, 0, 15, 15, 0, 0, 0, 0, 0, 0, 0, 0, 0, 0, 15, 15, 15, 13⟩ ∗ (∀ out, St m c ⟨3, true, 84, 0, 16, 0, 16, 16, 0, 0, 0, 0, 0, 0, 0, 0, 0, 0, 15, 15, 15, 13⟩ -∗ Kt out))
      ⊢ WP c (k0_part68 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v9 v12 v14 v16 v18 v23 v59 v2202) Kt := by
  ag_part k0_part68_eq_skeleton k0_part68_skel

set_option maxRecDepth 65536 in
theorem part_69 (m : (ℓ : Loc nD τ sig) → Buf (Elt F) ℓ) (K : CellIx → ℕ) (c : Dev nD) (v2 v5 v9 v57 : BitVec 32) (Kt : (PUnit) → sProp 𝕄) :
    iprop(Ctx m K ∗ St m c ⟨3, true, 84, 0, 16, 0, 16, 16, 0, 0, 0, 0, 0, 0, 0, 0, 0, 0, 15, 15, 15, 13⟩ ∗ (∀ out, St m c ⟨3, true, 84, 0, 16, 0, 16, 16, 0, 0, 0, 0, 0, 0, 0, 0, 0, 0, 16, 16, 16, 14⟩ -∗ Kt out))
      ⊢ WP c (k0_part69 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v57) Kt := by
  ag_part k0_part69_eq_skeleton k0_part69_skel

set_option maxRecDepth 65536 in
theorem part_70 (m : (ℓ : Loc nD τ sig) → Buf (Elt F) ℓ) (K : CellIx → ℕ) (c : Dev nD) (v8 v12 v14 v16 v18 v23 v59 : BitVec 32) (Kt : (PUnit) → sProp 𝕄) :
    iprop(Ctx m K ∗ St m c ⟨3, true, 84, 0, 16, 0, 16, 16, 0, 0, 0, 0, 0, 0, 0, 0, 0, 0, 16, 16, 16, 14⟩ ∗ (∀ out, St m c ⟨3, true, 84, 0, 17, 0, 17, 17, 0, 0, 0, 0, 0, 0, 0, 0, 0, 0, 16, 16, 16, 14⟩ -∗ Kt out))
      ⊢ WP c (k0_part70 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v23 v59) Kt := by
  ag_part k0_part70_eq_skeleton k0_part70_skel

set_option maxRecDepth 65536 in
theorem part_71 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 84, 0, 17, 0, 17, 17, 0, 0, 0, 0, 0, 0, 0, 0, 0, 0, 16, 16, 16, 14⟩ ∗ (∀ out, St m c ⟨3, true, 84, 0, 18, 0, 17, 17, 0, 0, 0, 0, 0, 0, 0, 0, 0, 0, 17, 17, 17, 15⟩ -∗ Kt out))
      ⊢ WP c (k0_part71 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part71_eq_skeleton k0_part71_skel

set_option maxRecDepth 65536 in
theorem part_72 (m : (ℓ : Loc nD τ sig) → Buf (Elt F) ℓ) (K : CellIx → ℕ) (c : Dev nD) (v8 v12 v14 v16 v18 v59 v2325 : BitVec 32) (Kt : (PUnit) → sProp 𝕄) :
    iprop(Ctx m K ∗ St m c ⟨3, true, 84, 0, 18, 0, 17, 17, 0, 0, 0, 0, 0, 0, 0, 0, 0, 0, 17, 17, 17, 15⟩ ∗ (∀ out, St m c ⟨3, true, 84, 0, 18, 0, 18, 18, 0, 0, 0, 0, 0, 0, 0, 0, 0, 0, 17, 17, 17, 16⟩ -∗ Kt out))
      ⊢ WP c (k0_part72 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v59 v2325) Kt := by
  ag_part k0_part72_eq_skeleton k0_part72_skel

set_option maxRecDepth 65536 in
theorem part_73 (m : (ℓ : Loc nD τ sig) → Buf (Elt F) ℓ) (K : CellIx → ℕ) (c : Dev nD) (v2 v5 v9 v23 v57 v59 : BitVec 32) (Kt : (BitVec 32) → sProp 𝕄) :
    iprop(Ctx m K ∗ St m c ⟨3, true, 84, 0, 18, 0, 18, 18, 0, 0, 0, 0, 0, 0, 0, 0, 0, 0, 17, 17, 17, 16⟩ ∗ (∀ out, St m c ⟨3, true, 84, 0, 19, 0, 18, 18, 0, 0, 0, 0, 0, 0, 0, 0, 0, 0, 18, 18, 18, 16⟩ -∗ Kt out))
      ⊢ WP c (k0_part73 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v59) Kt := by
  ag_part k0_part73_eq_skeleton k0_part73_skel

set_option maxRecDepth 65536 in
theorem part_74 (m : (ℓ : Loc nD τ sig) → Buf (Elt F) ℓ) (K : CellIx → ℕ) (c : Dev nD) (v8 v12 v14 v16 v18 c4_i32_1628 : BitVec 32) (Kt : (PUnit) → sProp 𝕄) :
    iprop(Ctx m K ∗ St m c ⟨3, true, 84, 0, 19, 0, 18, 18, 0, 0, 0, 0, 0, 0, 0, 0, 0, 0, 18, 18, 18, 16⟩ ∗ (∀ out, St m c ⟨3, true, 84, 0, 19, 0, 19, 19, 0, 0, 0, 0, 0, 0, 0, 0, 0, 0, 18, 18, 18, 17⟩ -∗ Kt out))
      ⊢ WP c (k0_part74 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 c4_i32_1628) Kt := by
  ag_part k0_part74_eq_skeleton k0_part74_skel

set_option maxRecDepth 65536 in
theorem part_75 (m : (ℓ : Loc nD τ sig) → Buf (Elt F) ℓ) (K : CellIx → ℕ) (c : Dev nD) (v2 v5 v9 v12 v14 v23 v57 v59 : BitVec 32) (Kt : (BitVec 32) → sProp 𝕄) :
    iprop(Ctx m K ∗ St m c ⟨3, true, 84, 0, 19, 0, 19, 19, 0, 0, 0, 0, 0, 0, 0, 0, 0, 0, 18, 18, 18, 17⟩ ∗ (∀ out, St m c ⟨3, true, 84, 0, 20, 0, 19, 19, 0, 0, 0, 0, 0, 0, 0, 0, 0, 0, 19, 19, 19, 17⟩ -∗ Kt out))
      ⊢ WP c (k0_part75 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v12 v14 v23 v57 v59) Kt := by
  ag_part k0_part75_eq_skeleton k0_part75_skel

set_option maxRecDepth 65536 in
theorem part_76 (m : (ℓ : Loc nD τ sig) → Buf (Elt F) ℓ) (K : CellIx → ℕ) (c : Dev nD) (v8 v16 v18 v2447 : BitVec 32) (Kt : (PUnit) → sProp 𝕄) :
    iprop(Ctx m K ∗ St m c ⟨3, true, 84, 0, 20, 0, 19, 19, 0, 0, 0, 0, 0, 0, 0, 0, 0, 0, 19, 19, 19, 17⟩ ∗ (∀ out, St m c ⟨3, true, 84, 0, 20, 0, 20, 20, 0, 0, 0, 0, 0, 0, 0, 0, 0, 0, 20, 19, 19, 18⟩ -∗ Kt out))
      ⊢ WP c (k0_part76 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v2447) Kt := by
  ag_part k0_part76_eq_skeleton k0_part76_skel

set_option maxRecDepth 65536 in
theorem part_77 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 20, 0, 20, 20, 0, 0, 0, 0, 0, 0, 0, 0, 0, 0, 20, 19, 19, 18⟩ ∗ (∀ out, St m c ⟨3, true, 84, 0, 21, 0, 20, 20, 0, 0, 0, 0, 0, 0, 0, 0, 0, 0, 20, 20, 20, 18⟩ -∗ Kt out))
      ⊢ WP c (k0_part77 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part77_eq_skeleton k0_part77_skel

set_option maxRecDepth 65536 in
theorem part_78 (m : (ℓ : Loc nD τ sig) → Buf (Elt F) ℓ) (K : CellIx → ℕ) (c : Dev nD) (v8 v16 v18 : BitVec 32) (Kt : (PUnit) → sProp 𝕄) :
    iprop(Ctx m K ∗ St m c ⟨3, true, 84, 0, 21, 0, 20, 20, 0, 0, 0, 0, 0, 0, 0, 0, 0, 0, 20, 20, 20, 18⟩ ∗ (∀ out, St m c ⟨3, true, 84, 0, 21, 0, 21, 21, 0, 0, 0, 0, 0, 0, 0, 0, 0, 0, 21, 20, 20, 19⟩ -∗ Kt out))
      ⊢ WP c (k0_part78 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18) Kt := by
  ag_part k0_part78_eq_skeleton k0_part78_skel

set_option maxRecDepth 65536 in
theorem part_79 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 21, 0, 21, 21, 0, 0, 0, 0, 0, 0, 0, 0, 0, 0, 21, 20, 20, 19⟩ ∗ (∀ out, St m c ⟨3, true, 84, 0, 22, 0, 22, 21, 0, 0, 0, 0, 0, 0, 0, 0, 0, 0, 21, 21, 21, 19⟩ -∗ Kt out))
      ⊢ WP c (k0_part79 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part79_eq_skeleton k0_part79_skel

set_option maxRecDepth 65536 in
theorem part_80 (m : (ℓ : Loc nD τ sig) → Buf (Elt F) ℓ) (K : CellIx → ℕ) (c : Dev nD) (v8 v16 v18 v57 : BitVec 32) (Kt : (PUnit) → sProp 𝕄) :
    iprop(Ctx m K ∗ St m c ⟨3, true, 84, 0, 22, 0, 22, 21, 0, 0, 0, 0, 0, 0, 0, 0, 0, 0, 21, 21, 21, 19⟩ ∗ (∀ out, St m c ⟨3, true, 84, 0, 22, 0, 22, 22, 0, 0, 0, 0, 0, 0, 0, 0, 0, 0, 22, 22, 21, 20⟩ -∗ Kt out))
      ⊢ WP c (k0_part80 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v57) Kt := by
  ag_part k0_part80_eq_skeleton k0_part80_skel

set_option maxRecDepth 65536 in
theorem part_81 (m : (ℓ : Loc nD τ sig) → Buf (Elt F) ℓ) (K : CellIx → ℕ) (c : Dev nD) (v2 v5 v8 v9 v12 v14 v16 v23 v59 : BitVec 32) (Kt : (BitVec 32) → sProp 𝕄) :
    iprop(Ctx m K ∗ St m c ⟨3, true, 84, 0, 22, 0, 22, 22, 0, 0, 0, 0, 0, 0, 0, 0, 0, 0, 22, 22, 21, 20⟩ ∗ (∀ out, St m c ⟨3, true, 84, 0, 23, 0, 23, 22, 0, 0, 0, 0, 0, 0, 0, 0, 0, 0, 22, 22, 22, 20⟩ -∗ Kt out))
      ⊢ WP c (k0_part81 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v23 v59) Kt := by
  ag_part k0_part81_eq_skeleton k0_part81_skel

set_option maxRecDepth 65536 in
theorem part_82 (m : (ℓ : Loc nD τ sig) → Buf (Elt F) ℓ) (K : CellIx → ℕ) (c : Dev nD) (v8 v18 v57 v2631 : BitVec 32) (Kt : (PUnit) → sProp 𝕄) :
    iprop(Ctx m K ∗ St m c ⟨3, true, 84, 0, 23, 0, 23, 22, 0, 0, 0, 0, 0, 0, 0, 0, 0, 0, 22, 22, 22, 20⟩ ∗ (∀ out, St m c ⟨3, true, 84, 0, 23, 0, 23, 23, 0, 0, 0, 0, 0, 0, 0, 0, 0, 0, 23, 23, 22, 21⟩ -∗ Kt out))
      ⊢ WP c (k0_part82 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v18 v57 v2631) Kt := by
  ag_part k0_part82_eq_skeleton k0_part82_skel

set_option maxRecDepth 65536 in
theorem part_83 (m : (ℓ : Loc nD τ sig) → Buf (Elt F) ℓ) (K : CellIx → ℕ) (c : Dev nD) (v2 v5 v8 v9 v12 v14 v16 v18 v23 v59 : BitVec 32) (Kt : (PUnit) → sProp 𝕄) :
    iprop(Ctx m K ∗ St m c ⟨3, true, 84, 0, 23, 0, 23, 23, 0, 0, 0, 0, 0, 0, 0, 0, 0, 0, 23, 23, 22, 21⟩ ∗ (∀ out, St m c ⟨3, true, 84, 0, 24, 0, 24, 23, 0, 0, 0, 0, 0, 0, 0, 0, 0, 0, 23, 23, 23, 21⟩ -∗ Kt out))
      ⊢ WP c (k0_part83 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59) Kt := by
  ag_part k0_part83_eq_skeleton k0_part83_skel

set_option maxRecDepth 65536 in
theorem part_84 (m : (ℓ : Loc nD τ sig) → Buf (Elt F) ℓ) (K : CellIx → ℕ) (c : Dev nD) (v57 : BitVec 32) (Kt : (BitVec 32) → sProp 𝕄) :
    iprop(Ctx m K ∗ St m c ⟨3, true, 84, 0, 24, 0, 24, 23, 0, 0, 0, 0, 0, 0, 0, 0, 0, 0, 23, 23, 23, 21⟩ ∗ (∀ out, St m c ⟨3, true, 84, 0, 24, 0, 24, 24, 0, 0, 0, 0, 0, 0, 0, 0, 0, 0, 24, 24, 24, 22⟩ -∗ Kt out))
      ⊢ WP c (k0_part84 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v57) Kt := by
  ag_part k0_part84_eq_skeleton k0_part84_skel

set_option maxRecDepth 65536 in
theorem part_85 (m : (ℓ : Loc nD τ sig) → Buf (Elt F) ℓ) (K : CellIx → ℕ) (c : Dev nD) (v2 v5 v8 v9 v12 v14 v16 v18 v23 v59 c4_i32_1906 : BitVec 32) (Kt : (PUnit) → sProp 𝕄) :
    iprop(Ctx m K ∗ St m c ⟨3, true, 84, 0, 24, 0, 24, 24, 0, 0, 0, 0, 0, 0, 0, 0, 0, 0, 24, 24, 24, 22⟩ ∗ (∀ out, St m c ⟨3, true, 84, 0, 25, 0, 25, 24, 0, 0, 0, 0, 0, 0, 0, 0, 0, 0, 24, 24, 24, 22⟩ -∗ Kt out))
      ⊢ WP c (k0_part85 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59 c4_i32_1906) Kt := by
  ag_part k0_part85_eq_skeleton k0_part85_skel

set_option maxRecDepth 65536 in
theorem part_86 (m : (ℓ : Loc nD τ sig) → Buf (Elt F) ℓ) (K : CellIx → ℕ) (c : Dev nD) (v2 v5 v57 : BitVec 32) (Kt : (BitVec 32) → sProp 𝕄) :
    iprop(Ctx m K ∗ St m c ⟨3, true, 84, 0, 25, 0, 25, 24, 0, 0, 0, 0, 0, 0, 0, 0, 0, 0, 24, 24, 24, 22⟩ ∗ (∀ out, St m c ⟨3, true, 84, 0, 25, 0, 25, 25, 0, 0, 0, 0, 0, 0, 0, 0, 0, 0, 25, 25, 25, 23⟩ -∗ Kt out))
      ⊢ WP c (k0_part86 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v57) Kt := by
  ag_part k0_part86_eq_skeleton k0_part86_skel

set_option maxRecDepth 65536 in
theorem part_87 (m : (ℓ : Loc nD τ sig) → Buf (Elt F) ℓ) (K : CellIx → ℕ) (c : Dev nD) (v8 v9 v12 v14 v16 v18 v23 v59 v2782 : BitVec 32) (Kt : (PUnit) → sProp 𝕄) :
    iprop(Ctx m K ∗ St m c ⟨3, true, 84, 0, 25, 0, 25, 25, 0, 0, 0, 0, 0, 0, 0, 0, 0, 0, 25, 25, 25, 23⟩ ∗ (∀ out, St m c ⟨3, true, 84, 0, 26, 0, 26, 26, 0, 0, 0, 0, 0, 0, 0, 0, 0, 0, 25, 25, 25, 23⟩ -∗ Kt out))
      ⊢ WP c (k0_part87 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v9 v12 v14 v16 v18 v23 v59 v2782) Kt := by
  ag_part k0_part87_eq_skeleton k0_part87_skel

set_option maxRecDepth 65536 in
theorem part_88 (m : (ℓ : Loc nD τ sig) → Buf (Elt F) ℓ) (K : CellIx → ℕ) (c : Dev nD) (v2 v5 v9 v57 : BitVec 32) (Kt : (PUnit) → sProp 𝕄) :
    iprop(Ctx m K ∗ St m c ⟨3, true, 84, 0, 26, 0, 26, 26, 0, 0, 0, 0, 0, 0, 0, 0, 0, 0, 25, 25, 25, 23⟩ ∗ (∀ out, St m c ⟨3, true, 84, 0, 26, 0, 26, 26, 0, 0, 0, 0, 0, 0, 0, 0, 0, 0, 26, 26, 26, 24⟩ -∗ Kt out))
      ⊢ WP c (k0_part88 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v57) Kt := by
  ag_part k0_part88_eq_skeleton k0_part88_skel

set_option maxRecDepth 65536 in
theorem part_89 (m : (ℓ : Loc nD τ sig) → Buf (Elt F) ℓ) (K : CellIx → ℕ) (c : Dev nD) (v8 v12 v14 v16 v18 v23 v59 : BitVec 32) (Kt : (PUnit) → sProp 𝕄) :
    iprop(Ctx m K ∗ St m c ⟨3, true, 84, 0, 26, 0, 26, 26, 0, 0, 0, 0, 0, 0, 0, 0, 0, 0, 26, 26, 26, 24⟩ ∗ (∀ out, St m c ⟨3, true, 84, 0, 27, 0, 27, 27, 0, 0, 0, 0, 0, 0, 0, 0, 0, 0, 26, 26, 26, 24⟩ -∗ Kt out))
      ⊢ WP c (k0_part89 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v23 v59) Kt := by
  ag_part k0_part89_eq_skeleton k0_part89_skel

set_option maxRecDepth 65536 in
theorem part_90 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 84, 0, 27, 0, 27, 27, 0, 0, 0, 0, 0, 0, 0, 0, 0, 0, 26, 26, 26, 24⟩ ∗ (∀ out, St m c ⟨3, true, 84, 0, 28, 0, 27, 27, 0, 0, 0, 0, 0, 0, 0, 0, 0, 0, 27, 27, 27, 25⟩ -∗ Kt out))
      ⊢ WP c (k0_part90 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part90_eq_skeleton k0_part90_skel

set_option maxRecDepth 65536 in
theorem part_91 (m : (ℓ : Loc nD τ sig) → Buf (Elt F) ℓ) (K : CellIx → ℕ) (c : Dev nD) (v8 v12 v14 v16 v18 v59 v2905 : BitVec 32) (Kt : (PUnit) → sProp 𝕄) :
    iprop(Ctx m K ∗ St m c ⟨3, true, 84, 0, 28, 0, 27, 27, 0, 0, 0, 0, 0, 0, 0, 0, 0, 0, 27, 27, 27, 25⟩ ∗ (∀ out, St m c ⟨3, true, 84, 0, 28, 0, 28, 28, 0, 0, 0, 0, 0, 0, 0, 0, 0, 0, 27, 27, 27, 26⟩ -∗ Kt out))
      ⊢ WP c (k0_part91 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v59 v2905) Kt := by
  ag_part k0_part91_eq_skeleton k0_part91_skel

set_option maxRecDepth 65536 in
theorem part_92 (m : (ℓ : Loc nD τ sig) → Buf (Elt F) ℓ) (K : CellIx → ℕ) (c : Dev nD) (v2 v5 v9 v23 v57 v59 : BitVec 32) (Kt : (BitVec 32) → sProp 𝕄) :
    iprop(Ctx m K ∗ St m c ⟨3, true, 84, 0, 28, 0, 28, 28, 0, 0, 0, 0, 0, 0, 0, 0, 0, 0, 27, 27, 27, 26⟩ ∗ (∀ out, St m c ⟨3, true, 84, 0, 29, 0, 28, 28, 0, 0, 0, 0, 0, 0, 0, 0, 0, 0, 28, 28, 28, 26⟩ -∗ Kt out))
      ⊢ WP c (k0_part92 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v59) Kt := by
  ag_part k0_part92_eq_skeleton k0_part92_skel

set_option maxRecDepth 65536 in
theorem part_93 (m : (ℓ : Loc nD τ sig) → Buf (Elt F) ℓ) (K : CellIx → ℕ) (c : Dev nD) (v8 v12 v14 v16 v18 c4_i32_2108 : BitVec 32) (Kt : (PUnit) → sProp 𝕄) :
    iprop(Ctx m K ∗ St m c ⟨3, true, 84, 0, 29, 0, 28, 28, 0, 0, 0, 0, 0, 0, 0, 0, 0, 0, 28, 28, 28, 26⟩ ∗ (∀ out, St m c ⟨3, true, 84, 0, 29, 0, 29, 29, 0, 0, 0, 0, 0, 0, 0, 0, 0, 0, 28, 28, 28, 27⟩ -∗ Kt out))
      ⊢ WP c (k0_part93 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 c4_i32_2108) Kt := by
  ag_part k0_part93_eq_skeleton k0_part93_skel

set_option maxRecDepth 65536 in
theorem part_94 (m : (ℓ : Loc nD τ sig) → Buf (Elt F) ℓ) (K : CellIx → ℕ) (c : Dev nD) (v2 v5 v9 v12 v14 v23 v57 v59 : BitVec 32) (Kt : (BitVec 32) → sProp 𝕄) :
    iprop(Ctx m K ∗ St m c ⟨3, true, 84, 0, 29, 0, 29, 29, 0, 0, 0, 0, 0, 0, 0, 0, 0, 0, 28, 28, 28, 27⟩ ∗ (∀ out, St m c ⟨3, true, 84, 0, 30, 0, 29, 29, 0, 0, 0, 0, 0, 0, 0, 0, 0, 0, 29, 29, 29, 27⟩ -∗ Kt out))
      ⊢ WP c (k0_part94 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v12 v14 v23 v57 v59) Kt := by
  ag_part k0_part94_eq_skeleton k0_part94_skel

set_option maxRecDepth 65536 in
theorem part_95 (m : (ℓ : Loc nD τ sig) → Buf (Elt F) ℓ) (K : CellIx → ℕ) (c : Dev nD) (v8 v16 v18 v3027 : BitVec 32) (Kt : (PUnit) → sProp 𝕄) :
    iprop(Ctx m K ∗ St m c ⟨3, true, 84, 0, 30, 0, 29, 29, 0, 0, 0, 0, 0, 0, 0, 0, 0, 0, 29, 29, 29, 27⟩ ∗ (∀ out, St m c ⟨3, true, 84, 0, 30, 0, 30, 30, 0, 0, 0, 0, 0, 0, 0, 0, 0, 0, 30, 29, 29, 28⟩ -∗ Kt out))
      ⊢ WP c (k0_part95 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v3027) Kt := by
  ag_part k0_part95_eq_skeleton k0_part95_skel

set_option maxRecDepth 65536 in
theorem part_96 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 30, 0, 30, 30, 0, 0, 0, 0, 0, 0, 0, 0, 0, 0, 30, 29, 29, 28⟩ ∗ (∀ out, St m c ⟨3, true, 84, 0, 31, 0, 30, 30, 0, 0, 0, 0, 0, 0, 0, 0, 0, 0, 30, 30, 30, 28⟩ -∗ Kt out))
      ⊢ WP c (k0_part96 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part96_eq_skeleton k0_part96_skel

set_option maxRecDepth 65536 in
theorem part_97 (m : (ℓ : Loc nD τ sig) → Buf (Elt F) ℓ) (K : CellIx → ℕ) (c : Dev nD) (v8 v16 v18 : BitVec 32) (Kt : (PUnit) → sProp 𝕄) :
    iprop(Ctx m K ∗ St m c ⟨3, true, 84, 0, 31, 0, 30, 30, 0, 0, 0, 0, 0, 0, 0, 0, 0, 0, 30, 30, 30, 28⟩ ∗ (∀ out, St m c ⟨3, true, 84, 0, 31, 0, 31, 31, 0, 0, 0, 0, 0, 0, 0, 0, 0, 0, 31, 30, 30, 29⟩ -∗ Kt out))
      ⊢ WP c (k0_part97 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18) Kt := by
  ag_part k0_part97_eq_skeleton k0_part97_skel

set_option maxRecDepth 65536 in
theorem part_98 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 31, 0, 31, 31, 0, 0, 0, 0, 0, 0, 0, 0, 0, 0, 31, 30, 30, 29⟩ ∗ (∀ out, St m c ⟨3, true, 84, 0, 32, 0, 32, 31, 0, 0, 0, 0, 0, 0, 0, 0, 0, 0, 31, 31, 31, 29⟩ -∗ Kt out))
      ⊢ WP c (k0_part98 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part98_eq_skeleton k0_part98_skel

set_option maxRecDepth 65536 in
theorem part_99 (m : (ℓ : Loc nD τ sig) → Buf (Elt F) ℓ) (K : CellIx → ℕ) (c : Dev nD) (v8 v16 v18 v57 : BitVec 32) (Kt : (PUnit) → sProp 𝕄) :
    iprop(Ctx m K ∗ St m c ⟨3, true, 84, 0, 32, 0, 32, 31, 0, 0, 0, 0, 0, 0, 0, 0, 0, 0, 31, 31, 31, 29⟩ ∗ (∀ out, St m c ⟨3, true, 84, 0, 32, 0, 32, 32, 0, 0, 0, 0, 0, 0, 0, 0, 0, 0, 32, 32, 31, 30⟩ -∗ Kt out))
      ⊢ WP c (k0_part99 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v57) Kt := by
  ag_part k0_part99_eq_skeleton k0_part99_skel

set_option maxRecDepth 65536 in
theorem part_100 (m : (ℓ : Loc nD τ sig) → Buf (Elt F) ℓ) (K : CellIx → ℕ) (c : Dev nD) (v2 v5 v8 v9 v12 v14 v16 v23 v59 : BitVec 32) (Kt : (BitVec 32) → sProp 𝕄) :
    iprop(Ctx m K ∗ St m c ⟨3, true, 84, 0, 32, 0, 32, 32, 0, 0, 0, 0, 0, 0, 0, 0, 0, 0, 32, 32, 31, 30⟩ ∗ (∀ out, St m c ⟨3, true, 84, 0, 33, 0, 33, 32, 0, 0, 0, 0, 0, 0, 0, 0, 0, 0, 32, 32, 32, 30⟩ -∗ Kt out))
      ⊢ WP c (k0_part100 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v23 v59) Kt := by
  ag_part k0_part100_eq_skeleton k0_part100_skel

set_option maxRecDepth 65536 in
theorem part_101 (m : (ℓ : Loc nD τ sig) → Buf (Elt F) ℓ) (K : CellIx → ℕ) (c : Dev nD) (v8 v18 v57 v3211 : BitVec 32) (Kt : (PUnit) → sProp 𝕄) :
    iprop(Ctx m K ∗ St m c ⟨3, true, 84, 0, 33, 0, 33, 32, 0, 0, 0, 0, 0, 0, 0, 0, 0, 0, 32, 32, 32, 30⟩ ∗ (∀ out, St m c ⟨3, true, 84, 0, 33, 0, 33, 33, 0, 0, 0, 0, 0, 0, 0, 0, 0, 0, 33, 33, 32, 31⟩ -∗ Kt out))
      ⊢ WP c (k0_part101 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v18 v57 v3211) Kt := by
  ag_part k0_part101_eq_skeleton k0_part101_skel

set_option maxRecDepth 65536 in
theorem part_102 (m : (ℓ : Loc nD τ sig) → Buf (Elt F) ℓ) (K : CellIx → ℕ) (c : Dev nD) (v2 v5 v8 v9 v12 v14 v16 v18 v23 v59 : BitVec 32) (Kt : (PUnit) → sProp 𝕄) :
    iprop(Ctx m K ∗ St m c ⟨3, true, 84, 0, 33, 0, 33, 33, 0, 0, 0, 0, 0, 0, 0, 0, 0, 0, 33, 33, 32, 31⟩ ∗ (∀ out, St m c ⟨3, true, 84, 0, 34, 0, 34, 33, 0, 0, 0, 0, 0, 0, 0, 0, 0, 0, 33, 33, 33, 31⟩ -∗ Kt out))
      ⊢ WP c (k0_part102 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59) Kt := by
  ag_part k0_part102_eq_skeleton k0_part102_skel

set_option maxRecDepth 65536 in
theorem part_103 (m : (ℓ : Loc nD τ sig) → Buf (Elt F) ℓ) (K : CellIx → ℕ) (c : Dev nD) (v57 : BitVec 32) (Kt : (BitVec 32) → sProp 𝕄) :
    iprop(Ctx m K ∗ St m c ⟨3, true, 84, 0, 34, 0, 34, 33, 0, 0, 0, 0, 0, 0, 0, 0, 0, 0, 33, 33, 33, 31⟩ ∗ (∀ out, St m c ⟨3, true, 84, 0, 34, 0, 34, 34, 0, 0, 0, 0, 0, 0, 0, 0, 0, 0, 34, 34, 34, 32⟩ -∗ Kt out))
      ⊢ WP c (k0_part103 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v57) Kt := by
  ag_part k0_part103_eq_skeleton k0_part103_skel

set_option maxRecDepth 65536 in
theorem part_104 (m : (ℓ : Loc nD τ sig) → Buf (Elt F) ℓ) (K : CellIx → ℕ) (c : Dev nD) (v2 v5 v8 v9 v12 v14 v16 v18 v23 v59 c4_i32_2386 : BitVec 32) (Kt : (PUnit) → sProp 𝕄) :
    iprop(Ctx m K ∗ St m c ⟨3, true, 84, 0, 34, 0, 34, 34, 0, 0, 0, 0, 0, 0, 0, 0, 0, 0, 34, 34, 34, 32⟩ ∗ (∀ out, St m c ⟨3, true, 84, 0, 35, 0, 35, 34, 0, 0, 0, 0, 0, 0, 0, 0, 0, 0, 34, 34, 34, 32⟩ -∗ Kt out))
      ⊢ WP c (k0_part104 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59 c4_i32_2386) Kt := by
  ag_part k0_part104_eq_skeleton k0_part104_skel

set_option maxRecDepth 65536 in
theorem part_105 (m : (ℓ : Loc nD τ sig) → Buf (Elt F) ℓ) (K : CellIx → ℕ) (c : Dev nD) (v2 v5 v57 : BitVec 32) (Kt : (BitVec 32) → sProp 𝕄) :
    iprop(Ctx m K ∗ St m c ⟨3, true, 84, 0, 35, 0, 35, 34, 0, 0, 0, 0, 0, 0, 0, 0, 0, 0, 34, 34, 34, 32⟩ ∗ (∀ out, St m c ⟨3, true, 84, 0, 35, 0, 35, 35, 0, 0, 0, 0, 0, 0, 0, 0, 0, 0, 35, 35, 35, 33⟩ -∗ Kt out))
      ⊢ WP c (k0_part105 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v57) Kt := by
  ag_part k0_part105_eq_skeleton k0_part105_skel

set_option maxRecDepth 65536 in
theorem part_106 (m : (ℓ : Loc nD τ sig) → Buf (Elt F) ℓ) (K : CellIx → ℕ) (c : Dev nD) (v8 v9 v12 v14 v16 v18 v23 v59 v3362 : BitVec 32) (Kt : (PUnit) → sProp 𝕄) :
    iprop(Ctx m K ∗ St m c ⟨3, true, 84, 0, 35, 0, 35, 35, 0, 0, 0, 0, 0, 0, 0, 0, 0, 0, 35, 35, 35, 33⟩ ∗ (∀ out, St m c ⟨3, true, 84, 0, 36, 0, 36, 36, 0, 0, 0, 0, 0, 0, 0, 0, 0, 0, 35, 35, 35, 33⟩ -∗ Kt out))
      ⊢ WP c (k0_part106 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v9 v12 v14 v16 v18 v23 v59 v3362) Kt := by
  ag_part k0_part106_eq_skeleton k0_part106_skel

set_option maxRecDepth 65536 in
theorem part_107 (m : (ℓ : Loc nD τ sig) → Buf (Elt F) ℓ) (K : CellIx → ℕ) (c : Dev nD) (v2 v5 v9 v57 : BitVec 32) (Kt : (PUnit) → sProp 𝕄) :
    iprop(Ctx m K ∗ St m c ⟨3, true, 84, 0, 36, 0, 36, 36, 0, 0, 0, 0, 0, 0, 0, 0, 0, 0, 35, 35, 35, 33⟩ ∗ (∀ out, St m c ⟨3, true, 84, 0, 36, 0, 36, 36, 0, 0, 0, 0, 0, 0, 0, 0, 0, 0, 36, 36, 36, 34⟩ -∗ Kt out))
      ⊢ WP c (k0_part107 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v57) Kt := by
  ag_part k0_part107_eq_skeleton k0_part107_skel

set_option maxRecDepth 65536 in
theorem part_108 (m : (ℓ : Loc nD τ sig) → Buf (Elt F) ℓ) (K : CellIx → ℕ) (c : Dev nD) (v8 v12 v14 v16 v18 v23 v59 : BitVec 32) (Kt : (PUnit) → sProp 𝕄) :
    iprop(Ctx m K ∗ St m c ⟨3, true, 84, 0, 36, 0, 36, 36, 0, 0, 0, 0, 0, 0, 0, 0, 0, 0, 36, 36, 36, 34⟩ ∗ (∀ out, St m c ⟨3, true, 84, 0, 37, 0, 37, 37, 0, 0, 0, 0, 0, 0, 0, 0, 0, 0, 36, 36, 36, 34⟩ -∗ Kt out))
      ⊢ WP c (k0_part108 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v23 v59) Kt := by
  ag_part k0_part108_eq_skeleton k0_part108_skel

set_option maxRecDepth 65536 in
theorem part_109 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 84, 0, 37, 0, 37, 37, 0, 0, 0, 0, 0, 0, 0, 0, 0, 0, 36, 36, 36, 34⟩ ∗ (∀ out, St m c ⟨3, true, 84, 0, 38, 0, 37, 37, 0, 0, 0, 0, 0, 0, 0, 0, 0, 0, 37, 37, 37, 35⟩ -∗ Kt out))
      ⊢ WP c (k0_part109 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part109_eq_skeleton k0_part109_skel

set_option maxRecDepth 65536 in
theorem part_110 (m : (ℓ : Loc nD τ sig) → Buf (Elt F) ℓ) (K : CellIx → ℕ) (c : Dev nD) (v8 v12 v14 v16 v18 v59 v3485 : BitVec 32) (Kt : (PUnit) → sProp 𝕄) :
    iprop(Ctx m K ∗ St m c ⟨3, true, 84, 0, 38, 0, 37, 37, 0, 0, 0, 0, 0, 0, 0, 0, 0, 0, 37, 37, 37, 35⟩ ∗ (∀ out, St m c ⟨3, true, 84, 0, 38, 0, 38, 38, 0, 0, 0, 0, 0, 0, 0, 0, 0, 0, 37, 37, 37, 36⟩ -∗ Kt out))
      ⊢ WP c (k0_part110 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v59 v3485) Kt := by
  ag_part k0_part110_eq_skeleton k0_part110_skel

set_option maxRecDepth 65536 in
theorem part_111 (m : (ℓ : Loc nD τ sig) → Buf (Elt F) ℓ) (K : CellIx → ℕ) (c : Dev nD) (v2 v5 v9 v23 v57 v59 : BitVec 32) (Kt : (BitVec 32) → sProp 𝕄) :
    iprop(Ctx m K ∗ St m c ⟨3, true, 84, 0, 38, 0, 38, 38, 0, 0, 0, 0, 0, 0, 0, 0, 0, 0, 37, 37, 37, 36⟩ ∗ (∀ out, St m c ⟨3, true, 84, 0, 39, 0, 38, 38, 0, 0, 0, 0, 0, 0, 0, 0, 0, 0, 38, 38, 38, 36⟩ -∗ Kt out))
      ⊢ WP c (k0_part111 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v59) Kt := by
  ag_part k0_part111_eq_skeleton k0_part111_skel

set_option maxRecDepth 65536 in
theorem part_112 (m : (ℓ : Loc nD τ sig) → Buf (Elt F) ℓ) (K : CellIx → ℕ) (c : Dev nD) (v8 v12 v14 v16 v18 c4_i32_2588 : BitVec 32) (Kt : (PUnit) → sProp 𝕄) :
    iprop(Ctx m K ∗ St m c ⟨3, true, 84, 0, 39, 0, 38, 38, 0, 0, 0, 0, 0, 0, 0, 0, 0, 0, 38, 38, 38, 36⟩ ∗ (∀ out, St m c ⟨3, true, 84, 0, 39, 0, 39, 39, 0, 0, 0, 0, 0, 0, 0, 0, 0, 0, 38, 38, 38, 37⟩ -∗ Kt out))
      ⊢ WP c (k0_part112 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 c4_i32_2588) Kt := by
  ag_part k0_part112_eq_skeleton k0_part112_skel

set_option maxRecDepth 65536 in
theorem part_113 (m : (ℓ : Loc nD τ sig) → Buf (Elt F) ℓ) (K : CellIx → ℕ) (c : Dev nD) (v2 v5 v9 v12 v14 v23 v57 v59 : BitVec 32) (Kt : (BitVec 32) → sProp 𝕄) :
    iprop(Ctx m K ∗ St m c ⟨3, true, 84, 0, 39, 0, 39, 39, 0, 0, 0, 0, 0, 0, 0, 0, 0, 0, 38, 38, 38, 37⟩ ∗ (∀ out, St m c ⟨3, true, 84, 0, 40, 0, 39, 39, 0, 0, 0, 0, 0, 0, 0, 0, 0, 0, 39, 39, 39, 37⟩ -∗ Kt out))
      ⊢ WP c (k0_part113 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v12 v14 v23 v57 v59) Kt := by
  ag_part k0_part113_eq_skeleton k0_part113_skel

set_option maxRecDepth 65536 in
theorem part_114 (m : (ℓ : Loc nD τ sig) → Buf (Elt F) ℓ) (K : CellIx → ℕ) (c : Dev nD) (v8 v16 v18 v3607 : BitVec 32) (Kt : (PUnit) → sProp 𝕄) :
    iprop(Ctx m K ∗ St m c ⟨3, true, 84, 0, 40, 0, 39, 39, 0, 0, 0, 0, 0, 0, 0, 0, 0, 0, 39, 39, 39, 37⟩ ∗ (∀ out, St m c ⟨3, true, 84, 0, 40, 0, 40, 40, 0, 0, 0, 0, 0, 0, 0, 0, 0, 0, 40, 39, 39, 38⟩ -∗ Kt out))
      ⊢ WP c (k0_part114 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v3607) Kt := by
  ag_part k0_part114_eq_skeleton k0_part114_skel

set_option maxRecDepth 65536 in
theorem part_115 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 40, 0, 40, 40, 0, 0, 0, 0, 0, 0, 0, 0, 0, 0, 40, 39, 39, 38⟩ ∗ (∀ out, St m c ⟨3, true, 84, 0, 41, 0, 40, 40, 0, 0, 0, 0, 0, 0, 0, 0, 0, 0, 40, 40, 40, 38⟩ -∗ Kt out))
      ⊢ WP c (k0_part115 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part115_eq_skeleton k0_part115_skel

set_option maxRecDepth 65536 in
theorem part_116 (m : (ℓ : Loc nD τ sig) → Buf (Elt F) ℓ) (K : CellIx → ℕ) (c : Dev nD) (v8 v16 v18 : BitVec 32) (Kt : (PUnit) → sProp 𝕄) :
    iprop(Ctx m K ∗ St m c ⟨3, true, 84, 0, 41, 0, 40, 40, 0, 0, 0, 0, 0, 0, 0, 0, 0, 0, 40, 40, 40, 38⟩ ∗ (∀ out, St m c ⟨3, true, 84, 0, 41, 0, 41, 41, 0, 0, 0, 0, 0, 0, 0, 0, 0, 0, 41, 40, 40, 39⟩ -∗ Kt out))
      ⊢ WP c (k0_part116 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18) Kt := by
  ag_part k0_part116_eq_skeleton k0_part116_skel

set_option maxRecDepth 65536 in
theorem part_117 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 41, 0, 41, 41, 0, 0, 0, 0, 0, 0, 0, 0, 0, 0, 41, 40, 40, 39⟩ ∗ (∀ out, St m c ⟨3, true, 84, 0, 42, 0, 42, 41, 0, 0, 0, 0, 0, 0, 0, 0, 0, 0, 41, 41, 41, 39⟩ -∗ Kt out))
      ⊢ WP c (k0_part117 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part117_eq_skeleton k0_part117_skel

set_option maxRecDepth 65536 in
theorem part_118 (m : (ℓ : Loc nD τ sig) → Buf (Elt F) ℓ) (K : CellIx → ℕ) (c : Dev nD) (v8 v16 v18 v57 : BitVec 32) (Kt : (PUnit) → sProp 𝕄) :
    iprop(Ctx m K ∗ St m c ⟨3, true, 84, 0, 42, 0, 42, 41, 0, 0, 0, 0, 0, 0, 0, 0, 0, 0, 41, 41, 41, 39⟩ ∗ (∀ out, St m c ⟨3, true, 84, 0, 42, 0, 42, 42, 0, 0, 0, 0, 0, 0, 0, 0, 0, 0, 42, 42, 41, 40⟩ -∗ Kt out))
      ⊢ WP c (k0_part118 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v57) Kt := by
  ag_part k0_part118_eq_skeleton k0_part118_skel

set_option maxRecDepth 65536 in
theorem part_119 (m : (ℓ : Loc nD τ sig) → Buf (Elt F) ℓ) (K : CellIx → ℕ) (c : Dev nD) (v2 v5 v8 v9 v12 v14 v16 v23 v59 : BitVec 32) (Kt : (BitVec 32) → sProp 𝕄) :
    iprop(Ctx m K ∗ St m c ⟨3, true, 84, 0, 42, 0, 42, 42, 0, 0, 0, 0, 0, 0, 0, 0, 0, 0, 42, 42, 41, 40⟩ ∗ (∀ out, St m c ⟨3, true, 84, 0, 43, 0, 43, 42, 0, 0, 0, 0, 0, 0, 0, 0, 0, 0, 42, 42, 42, 40⟩ -∗ Kt out))
      ⊢ WP c (k0_part119 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v23 v59) Kt := by
  ag_part k0_part119_eq_skeleton k0_part119_skel

set_option maxRecDepth 65536 in
theorem part_120 (m : (ℓ : Loc nD τ sig) → Buf (Elt F) ℓ) (K : CellIx → ℕ) (c : Dev nD) (v8 v18 v57 v3791 : BitVec 32) (Kt : (PUnit) → sProp 𝕄) :
    iprop(Ctx m K ∗ St m c ⟨3, true, 84, 0, 43, 0, 43, 42, 0, 0, 0, 0, 0, 0, 0, 0, 0, 0, 42, 42, 42, 40⟩ ∗ (∀ out, St m c ⟨3, true, 84, 0, 43, 0, 43, 43, 0, 0, 0, 0, 0, 0, 0, 0, 0, 0, 43, 43, 42, 41⟩ -∗ Kt out))
      ⊢ WP c (k0_part120 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v18 v57 v3791) Kt := by
  ag_part k0_part120_eq_skeleton k0_part120_skel

set_option maxRecDepth 65536 in
theorem part_121 (m : (ℓ : Loc nD τ sig) → Buf (Elt F) ℓ) (K : CellIx → ℕ) (c : Dev nD) (v2 v5 v8 v9 v12 v14 v16 v18 v23 v59 : BitVec 32) (Kt : (PUnit) → sProp 𝕄) :
    iprop(Ctx m K ∗ St m c ⟨3, true, 84, 0, 43, 0, 43, 43, 0, 0, 0, 0, 0, 0, 0, 0, 0, 0, 43, 43, 42, 41⟩ ∗ (∀ out, St m c ⟨3, true, 84, 0, 44, 0, 44, 43, 0, 0, 0, 0, 0, 0, 0, 0, 0, 0, 43, 43, 43, 41⟩ -∗ Kt out))
      ⊢ WP c (k0_part121 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59) Kt := by
  ag_part k0_part121_eq_skeleton k0_part121_skel

set_option maxRecDepth 65536 in
theorem part_122 (m : (ℓ : Loc nD τ sig) → Buf (Elt F) ℓ) (K : CellIx → ℕ) (c : Dev nD) (v57 : BitVec 32) (Kt : (BitVec 32) → sProp 𝕄) :
    iprop(Ctx m K ∗ St m c ⟨3, true, 84, 0, 44, 0, 44, 43, 0, 0, 0, 0, 0, 0, 0, 0, 0, 0, 43, 43, 43, 41⟩ ∗ (∀ out, St m c ⟨3, true, 84, 0, 44, 0, 44, 44, 0, 0, 0, 0, 0, 0, 0, 0, 0, 0, 44, 44, 44, 42⟩ -∗ Kt out))
      ⊢ WP c (k0_part122 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v57) Kt := by
  ag_part k0_part122_eq_skeleton k0_part122_skel

set_option maxRecDepth 65536 in
theorem part_123 (m : (ℓ : Loc nD τ sig) → Buf (Elt F) ℓ) (K : CellIx → ℕ) (c : Dev nD) (v2 v5 v8 v9 v12 v14 v16 v18 v23 v59 c4_i32_2866 : BitVec 32) (Kt : (PUnit) → sProp 𝕄) :
    iprop(Ctx m K ∗ St m c ⟨3, true, 84, 0, 44, 0, 44, 44, 0, 0, 0, 0, 0, 0, 0, 0, 0, 0, 44, 44, 44, 42⟩ ∗ (∀ out, St m c ⟨3, true, 84, 0, 45, 0, 45, 44, 0, 0, 0, 0, 0, 0, 0, 0, 0, 0, 44, 44, 44, 42⟩ -∗ Kt out))
      ⊢ WP c (k0_part123 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59 c4_i32_2866) Kt := by
  ag_part k0_part123_eq_skeleton k0_part123_skel

set_option maxRecDepth 65536 in
theorem part_124 (m : (ℓ : Loc nD τ sig) → Buf (Elt F) ℓ) (K : CellIx → ℕ) (c : Dev nD) (v2 v5 v57 : BitVec 32) (Kt : (BitVec 32) → sProp 𝕄) :
    iprop(Ctx m K ∗ St m c ⟨3, true, 84, 0, 45, 0, 45, 44, 0, 0, 0, 0, 0, 0, 0, 0, 0, 0, 44, 44, 44, 42⟩ ∗ (∀ out, St m c ⟨3, true, 84, 0, 45, 0, 45, 45, 0, 0, 0, 0, 0, 0, 0, 0, 0, 0, 45, 45, 45, 43⟩ -∗ Kt out))
      ⊢ WP c (k0_part124 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v57) Kt := by
  ag_part k0_part124_eq_skeleton k0_part124_skel

set_option maxRecDepth 65536 in
theorem part_125 (m : (ℓ : Loc nD τ sig) → Buf (Elt F) ℓ) (K : CellIx → ℕ) (c : Dev nD) (v8 v9 v12 v14 v16 v18 v23 v59 v3942 : BitVec 32) (Kt : (PUnit) → sProp 𝕄) :
    iprop(Ctx m K ∗ St m c ⟨3, true, 84, 0, 45, 0, 45, 45, 0, 0, 0, 0, 0, 0, 0, 0, 0, 0, 45, 45, 45, 43⟩ ∗ (∀ out, St m c ⟨3, true, 84, 0, 46, 0, 46, 46, 0, 0, 0, 0, 0, 0, 0, 0, 0, 0, 45, 45, 45, 43⟩ -∗ Kt out))
      ⊢ WP c (k0_part125 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v9 v12 v14 v16 v18 v23 v59 v3942) Kt := by
  ag_part k0_part125_eq_skeleton k0_part125_skel

set_option maxRecDepth 65536 in
theorem part_126 (m : (ℓ : Loc nD τ sig) → Buf (Elt F) ℓ) (K : CellIx → ℕ) (c : Dev nD) (v2 v5 v9 v57 : BitVec 32) (Kt : (PUnit) → sProp 𝕄) :
    iprop(Ctx m K ∗ St m c ⟨3, true, 84, 0, 46, 0, 46, 46, 0, 0, 0, 0, 0, 0, 0, 0, 0, 0, 45, 45, 45, 43⟩ ∗ (∀ out, St m c ⟨3, true, 84, 0, 46, 0, 46, 46, 0, 0, 0, 0, 0, 0, 0, 0, 0, 0, 46, 46, 46, 44⟩ -∗ Kt out))
      ⊢ WP c (k0_part126 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v57) Kt := by
  ag_part k0_part126_eq_skeleton k0_part126_skel

set_option maxRecDepth 65536 in
theorem part_127 (m : (ℓ : Loc nD τ sig) → Buf (Elt F) ℓ) (K : CellIx → ℕ) (c : Dev nD) (v8 v12 v14 v16 v18 v23 v59 : BitVec 32) (Kt : (PUnit) → sProp 𝕄) :
    iprop(Ctx m K ∗ St m c ⟨3, true, 84, 0, 46, 0, 46, 46, 0, 0, 0, 0, 0, 0, 0, 0, 0, 0, 46, 46, 46, 44⟩ ∗ (∀ out, St m c ⟨3, true, 84, 0, 47, 0, 47, 47, 0, 0, 0, 0, 0, 0, 0, 0, 0, 0, 46, 46, 46, 44⟩ -∗ Kt out))
      ⊢ WP c (k0_part127 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v23 v59) Kt := by
  ag_part k0_part127_eq_skeleton k0_part127_skel

set_option maxRecDepth 65536 in
theorem part_128 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 84, 0, 47, 0, 47, 47, 0, 0, 0, 0, 0, 0, 0, 0, 0, 0, 46, 46, 46, 44⟩ ∗ (∀ out, St m c ⟨3, true, 84, 0, 48, 0, 47, 47, 0, 0, 0, 0, 0, 0, 0, 0, 0, 0, 47, 47, 47, 45⟩ -∗ Kt out))
      ⊢ WP c (k0_part128 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part128_eq_skeleton k0_part128_skel

set_option maxRecDepth 65536 in
theorem part_129 (m : (ℓ : Loc nD τ sig) → Buf (Elt F) ℓ) (K : CellIx → ℕ) (c : Dev nD) (v8 v12 v14 v16 v18 v59 v4065 : BitVec 32) (Kt : (PUnit) → sProp 𝕄) :
    iprop(Ctx m K ∗ St m c ⟨3, true, 84, 0, 48, 0, 47, 47, 0, 0, 0, 0, 0, 0, 0, 0, 0, 0, 47, 47, 47, 45⟩ ∗ (∀ out, St m c ⟨3, true, 84, 0, 48, 0, 48, 48, 0, 0, 0, 0, 0, 0, 0, 0, 0, 0, 47, 47, 47, 46⟩ -∗ Kt out))
      ⊢ WP c (k0_part129 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v59 v4065) Kt := by
  ag_part k0_part129_eq_skeleton k0_part129_skel

set_option maxRecDepth 65536 in
theorem part_130 (m : (ℓ : Loc nD τ sig) → Buf (Elt F) ℓ) (K : CellIx → ℕ) (c : Dev nD) (v2 v5 v9 v23 v57 v59 : BitVec 32) (Kt : (BitVec 32) → sProp 𝕄) :
    iprop(Ctx m K ∗ St m c ⟨3, true, 84, 0, 48, 0, 48, 48, 0, 0, 0, 0, 0, 0, 0, 0, 0, 0, 47, 47, 47, 46⟩ ∗ (∀ out, St m c ⟨3, true, 84, 0, 49, 0, 48, 48, 0, 0, 0, 0, 0, 0, 0, 0, 0, 0, 48, 48, 48, 46⟩ -∗ Kt out))
      ⊢ WP c (k0_part130 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v59) Kt := by
  ag_part k0_part130_eq_skeleton k0_part130_skel

set_option maxRecDepth 65536 in
theorem part_131 (m : (ℓ : Loc nD τ sig) → Buf (Elt F) ℓ) (K : CellIx → ℕ) (c : Dev nD) (v8 v12 v14 v16 v18 c4_i32_3068 : BitVec 32) (Kt : (PUnit) → sProp 𝕄) :
    iprop(Ctx m K ∗ St m c ⟨3, true, 84, 0, 49, 0, 48, 48, 0, 0, 0, 0, 0, 0, 0, 0, 0, 0, 48, 48, 48, 46⟩ ∗ (∀ out, St m c ⟨3, true, 84, 0, 49, 0, 49, 49, 0, 0, 0, 0, 0, 0, 0, 0, 0, 0, 48, 48, 48, 47⟩ -∗ Kt out))
      ⊢ WP c (k0_part131 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 c4_i32_3068) Kt := by
  ag_part k0_part131_eq_skeleton k0_part131_skel

set_option maxRecDepth 65536 in
theorem part_132 (m : (ℓ : Loc nD τ sig) → Buf (Elt F) ℓ) (K : CellIx → ℕ) (c : Dev nD) (v2 v5 v9 v12 v14 v23 v57 v59 : BitVec 32) (Kt : (BitVec 32) → sProp 𝕄) :
    iprop(Ctx m K ∗ St m c ⟨3, true, 84, 0, 49, 0, 49, 49, 0, 0, 0, 0, 0, 0, 0, 0, 0, 0, 48, 48, 48, 47⟩ ∗ (∀ out, St m c ⟨3, true, 84, 0, 50, 0, 49, 49, 0, 0, 0, 0, 0, 0, 0, 0, 0, 0, 49, 49, 49, 47⟩ -∗ Kt out))
      ⊢ WP c (k0_part132 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v12 v14 v23 v57 v59) Kt := by
  ag_part k0_part132_eq_skeleton k0_part132_skel

set_option maxRecDepth 65536 in
theorem part_133 (m : (ℓ : Loc nD τ sig) → Buf (Elt F) ℓ) (K : CellIx → ℕ) (c : Dev nD) (v8 v16 v18 v4187 : BitVec 32) (Kt : (PUnit) → sProp 𝕄) :
    iprop(Ctx m K ∗ St m c ⟨3, true, 84, 0, 50, 0, 49, 49, 0, 0, 0, 0, 0, 0, 0, 0, 0, 0, 49, 49, 49, 47⟩ ∗ (∀ out, St m c ⟨3, true, 84, 0, 50, 0, 50, 50, 0, 0, 0, 0, 0, 0, 0, 0, 0, 0, 50, 49, 49, 48⟩ -∗ Kt out))
      ⊢ WP c (k0_part133 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v4187) Kt := by
  ag_part k0_part133_eq_skeleton k0_part133_skel

set_option maxRecDepth 65536 in
theorem part_134 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 50, 0, 50, 50, 0, 0, 0, 0, 0, 0, 0, 0, 0, 0, 50, 49, 49, 48⟩ ∗ (∀ out, St m c ⟨3, true, 84, 0, 51, 0, 50, 50, 0, 0, 0, 0, 0, 0, 0, 0, 0, 0, 50, 50, 50, 48⟩ -∗ Kt out))
      ⊢ WP c (k0_part134 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part134_eq_skeleton k0_part134_skel

set_option maxRecDepth 65536 in
theorem part_135 (m : (ℓ : Loc nD τ sig) → Buf (Elt F) ℓ) (K : CellIx → ℕ) (c : Dev nD) (v8 v16 v18 : BitVec 32) (Kt : (PUnit) → sProp 𝕄) :
    iprop(Ctx m K ∗ St m c ⟨3, true, 84, 0, 51, 0, 50, 50, 0, 0, 0, 0, 0, 0, 0, 0, 0, 0, 50, 50, 50, 48⟩ ∗ (∀ out, St m c ⟨3, true, 84, 0, 51, 0, 51, 51, 0, 0, 0, 0, 0, 0, 0, 0, 0, 0, 51, 50, 50, 49⟩ -∗ Kt out))
      ⊢ WP c (k0_part135 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18) Kt := by
  ag_part k0_part135_eq_skeleton k0_part135_skel

set_option maxRecDepth 65536 in
theorem part_136 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 51, 0, 51, 51, 0, 0, 0, 0, 0, 0, 0, 0, 0, 0, 51, 50, 50, 49⟩ ∗ (∀ out, St m c ⟨3, true, 84, 0, 52, 0, 52, 51, 0, 0, 0, 0, 0, 0, 0, 0, 0, 0, 51, 51, 51, 49⟩ -∗ Kt out))
      ⊢ WP c (k0_part136 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part136_eq_skeleton k0_part136_skel

set_option maxRecDepth 65536 in
theorem part_137 (m : (ℓ : Loc nD τ sig) → Buf (Elt F) ℓ) (K : CellIx → ℕ) (c : Dev nD) (v8 v16 v18 v57 : BitVec 32) (Kt : (PUnit) → sProp 𝕄) :
    iprop(Ctx m K ∗ St m c ⟨3, true, 84, 0, 52, 0, 52, 51, 0, 0, 0, 0, 0, 0, 0, 0, 0, 0, 51, 51, 51, 49⟩ ∗ (∀ out, St m c ⟨3, true, 84, 0, 52, 0, 52, 52, 0, 0, 0, 0, 0, 0, 0, 0, 0, 0, 52, 52, 51, 50⟩ -∗ Kt out))
      ⊢ WP c (k0_part137 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v57) Kt := by
  ag_part k0_part137_eq_skeleton k0_part137_skel

set_option maxRecDepth 65536 in
theorem part_138 (m : (ℓ : Loc nD τ sig) → Buf (Elt F) ℓ) (K : CellIx → ℕ) (c : Dev nD) (v2 v5 v8 v9 v12 v14 v16 v23 v59 : BitVec 32) (Kt : (BitVec 32) → sProp 𝕄) :
    iprop(Ctx m K ∗ St m c ⟨3, true, 84, 0, 52, 0, 52, 52, 0, 0, 0, 0, 0, 0, 0, 0, 0, 0, 52, 52, 51, 50⟩ ∗ (∀ out, St m c ⟨3, true, 84, 0, 53, 0, 53, 52, 0, 0, 0, 0, 0, 0, 0, 0, 0, 0, 52, 52, 52, 50⟩ -∗ Kt out))
      ⊢ WP c (k0_part138 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v23 v59) Kt := by
  ag_part k0_part138_eq_skeleton k0_part138_skel

set_option maxRecDepth 65536 in
theorem part_139 (m : (ℓ : Loc nD τ sig) → Buf (Elt F) ℓ) (K : CellIx → ℕ) (c : Dev nD) (v8 v18 v57 v4371 : BitVec 32) (Kt : (PUnit) → sProp 𝕄) :
    iprop(Ctx m K ∗ St m c ⟨3, true, 84, 0, 53, 0, 53, 52, 0, 0, 0, 0, 0, 0, 0, 0, 0, 0, 52, 52, 52, 50⟩ ∗ (∀ out, St m c ⟨3, true, 84, 0, 53, 0, 53, 53, 0, 0, 0, 0, 0, 0, 0, 0, 0, 0, 53, 53, 52, 51⟩ -∗ Kt out))
      ⊢ WP c (k0_part139 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v18 v57 v4371) Kt := by
  ag_part k0_part139_eq_skeleton k0_part139_skel

set_option maxRecDepth 65536 in
theorem part_140 (m : (ℓ : Loc nD τ sig) → Buf (Elt F) ℓ) (K : CellIx → ℕ) (c : Dev nD) (v2 v5 v8 v9 v12 v14 v16 v18 v23 v59 : BitVec 32) (Kt : (PUnit) → sProp 𝕄) :
    iprop(Ctx m K ∗ St m c ⟨3, true, 84, 0, 53, 0, 53, 53, 0, 0, 0, 0, 0, 0, 0, 0, 0, 0, 53, 53, 52, 51⟩ ∗ (∀ out, St m c ⟨3, true, 84, 0, 54, 0, 54, 53, 0, 0, 0, 0, 0, 0, 0, 0, 0, 0, 53, 53, 53, 51⟩ -∗ Kt out))
      ⊢ WP c (k0_part140 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59) Kt := by
  ag_part k0_part140_eq_skeleton k0_part140_skel

set_option maxRecDepth 65536 in
theorem part_141 (m : (ℓ : Loc nD τ sig) → Buf (Elt F) ℓ) (K : CellIx → ℕ) (c : Dev nD) (v57 : BitVec 32) (Kt : (BitVec 32) → sProp 𝕄) :
    iprop(Ctx m K ∗ St m c ⟨3, true, 84, 0, 54, 0, 54, 53, 0, 0, 0, 0, 0, 0, 0, 0, 0, 0, 53, 53, 53, 51⟩ ∗ (∀ out, St m c ⟨3, true, 84, 0, 54, 0, 54, 54, 0, 0, 0, 0, 0, 0, 0, 0, 0, 0, 54, 54, 54, 52⟩ -∗ Kt out))
      ⊢ WP c (k0_part141 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v57) Kt := by
  ag_part k0_part141_eq_skeleton k0_part141_skel

set_option maxRecDepth 65536 in
theorem part_142 (m : (ℓ : Loc nD τ sig) → Buf (Elt F) ℓ) (K : CellIx → ℕ) (c : Dev nD) (v2 v5 v8 v9 v12 v14 v16 v18 v23 v59 c4_i32_3346 : BitVec 32) (Kt : (PUnit) → sProp 𝕄) :
    iprop(Ctx m K ∗ St m c ⟨3, true, 84, 0, 54, 0, 54, 54, 0, 0, 0, 0, 0, 0, 0, 0, 0, 0, 54, 54, 54, 52⟩ ∗ (∀ out, St m c ⟨3, true, 84, 0, 55, 0, 55, 54, 0, 0, 0, 0, 0, 0, 0, 0, 0, 0, 54, 54, 54, 52⟩ -∗ Kt out))
      ⊢ WP c (k0_part142 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59 c4_i32_3346) Kt := by
  ag_part k0_part142_eq_skeleton k0_part142_skel

set_option maxRecDepth 65536 in
theorem part_143 (m : (ℓ : Loc nD τ sig) → Buf (Elt F) ℓ) (K : CellIx → ℕ) (c : Dev nD) (v2 v5 v57 : BitVec 32) (Kt : (BitVec 32) → sProp 𝕄) :
    iprop(Ctx m K ∗ St m c ⟨3, true, 84, 0, 55, 0, 55, 54, 0, 0, 0, 0, 0, 0, 0, 0, 0, 0, 54, 54, 54, 52⟩ ∗ (∀ out, St m c ⟨3, true, 84, 0, 55, 0, 55, 55, 0, 0, 0, 0, 0, 0, 0, 0, 0, 0, 55, 55, 55, 53⟩ -∗ Kt out))
      ⊢ WP c (k0_part143 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v57) Kt := by
  ag_part k0_part143_eq_skeleton k0_part143_skel

set_option maxRecDepth 65536 in
theorem part_144 (m : (ℓ : Loc nD τ sig) → Buf (Elt F) ℓ) (K : CellIx → ℕ) (c : Dev nD) (v8 v9 v12 v14 v16 v18 v23 v59 v4522 : BitVec 32) (Kt : (PUnit) → sProp 𝕄) :
    iprop(Ctx m K ∗ St m c ⟨3, true, 84, 0, 55, 0, 55, 55, 0, 0, 0, 0, 0, 0, 0, 0, 0, 0, 55, 55, 55, 53⟩ ∗ (∀ out, St m c ⟨3, true, 84, 0, 56, 0, 56, 56, 0, 0, 0, 0, 0, 0, 0, 0, 0, 0, 55, 55, 55, 53⟩ -∗ Kt out))
      ⊢ WP c (k0_part144 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v9 v12 v14 v16 v18 v23 v59 v4522) Kt := by
  ag_part k0_part144_eq_skeleton k0_part144_skel

set_option maxRecDepth 65536 in
theorem part_145 (m : (ℓ : Loc nD τ sig) → Buf (Elt F) ℓ) (K : CellIx → ℕ) (c : Dev nD) (v2 v5 v9 v57 : BitVec 32) (Kt : (PUnit) → sProp 𝕄) :
    iprop(Ctx m K ∗ St m c ⟨3, true, 84, 0, 56, 0, 56, 56, 0, 0, 0, 0, 0, 0, 0, 0, 0, 0, 55, 55, 55, 53⟩ ∗ (∀ out, St m c ⟨3, true, 84, 0, 56, 0, 56, 56, 0, 0, 0, 0, 0, 0, 0, 0, 0, 0, 56, 56, 56, 54⟩ -∗ Kt out))
      ⊢ WP c (k0_part145 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v57) Kt := by
  ag_part k0_part145_eq_skeleton k0_part145_skel

set_option maxRecDepth 65536 in
theorem part_146 (m : (ℓ : Loc nD τ sig) → Buf (Elt F) ℓ) (K : CellIx → ℕ) (c : Dev nD) (v8 v12 v14 v16 v18 v23 v59 : BitVec 32) (Kt : (PUnit) → sProp 𝕄) :
    iprop(Ctx m K ∗ St m c ⟨3, true, 84, 0, 56, 0, 56, 56, 0, 0, 0, 0, 0, 0, 0, 0, 0, 0, 56, 56, 56, 54⟩ ∗ (∀ out, St m c ⟨3, true, 84, 0, 57, 0, 57, 57, 0, 0, 0, 0, 0, 0, 0, 0, 0, 0, 56, 56, 56, 54⟩ -∗ Kt out))
      ⊢ WP c (k0_part146 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v23 v59) Kt := by
  ag_part k0_part146_eq_skeleton k0_part146_skel

set_option maxRecDepth 65536 in
theorem part_147 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 84, 0, 57, 0, 57, 57, 0, 0, 0, 0, 0, 0, 0, 0, 0, 0, 56, 56, 56, 54⟩ ∗ (∀ out, St m c ⟨3, true, 84, 0, 58, 0, 57, 57, 0, 0, 0, 0, 0, 0, 0, 0, 0, 0, 57, 57, 57, 55⟩ -∗ Kt out))
      ⊢ WP c (k0_part147 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part147_eq_skeleton k0_part147_skel

set_option maxRecDepth 65536 in
theorem part_148 (m : (ℓ : Loc nD τ sig) → Buf (Elt F) ℓ) (K : CellIx → ℕ) (c : Dev nD) (v8 v12 v14 v16 v18 v59 v4645 : BitVec 32) (Kt : (PUnit) → sProp 𝕄) :
    iprop(Ctx m K ∗ St m c ⟨3, true, 84, 0, 58, 0, 57, 57, 0, 0, 0, 0, 0, 0, 0, 0, 0, 0, 57, 57, 57, 55⟩ ∗ (∀ out, St m c ⟨3, true, 84, 0, 58, 0, 58, 58, 0, 0, 0, 0, 0, 0, 0, 0, 0, 0, 57, 57, 57, 56⟩ -∗ Kt out))
      ⊢ WP c (k0_part148 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v59 v4645) Kt := by
  ag_part k0_part148_eq_skeleton k0_part148_skel

set_option maxRecDepth 65536 in
theorem part_149 (m : (ℓ : Loc nD τ sig) → Buf (Elt F) ℓ) (K : CellIx → ℕ) (c : Dev nD) (v2 v5 v9 v23 v57 v59 : BitVec 32) (Kt : (BitVec 32) → sProp 𝕄) :
    iprop(Ctx m K ∗ St m c ⟨3, true, 84, 0, 58, 0, 58, 58, 0, 0, 0, 0, 0, 0, 0, 0, 0, 0, 57, 57, 57, 56⟩ ∗ (∀ out, St m c ⟨3, true, 84, 0, 59, 0, 58, 58, 0, 0, 0, 0, 0, 0, 0, 0, 0, 0, 58, 58, 58, 56⟩ -∗ Kt out))
      ⊢ WP c (k0_part149 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v59) Kt := by
  ag_part k0_part149_eq_skeleton k0_part149_skel

set_option maxRecDepth 65536 in
theorem part_150 (m : (ℓ : Loc nD τ sig) → Buf (Elt F) ℓ) (K : CellIx → ℕ) (c : Dev nD) (v8 v12 v14 v16 v18 c4_i32_3548 : BitVec 32) (Kt : (PUnit) → sProp 𝕄) :
    iprop(Ctx m K ∗ St m c ⟨3, true, 84, 0, 59, 0, 58, 58, 0, 0, 0, 0, 0, 0, 0, 0, 0, 0, 58, 58, 58, 56⟩ ∗ (∀ out, St m c ⟨3, true, 84, 0, 59, 0, 59, 59, 0, 0, 0, 0, 0, 0, 0, 0, 0, 0, 58, 58, 58, 57⟩ -∗ Kt out))
      ⊢ WP c (k0_part150 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 c4_i32_3548) Kt := by
  ag_part k0_part150_eq_skeleton k0_part150_skel

set_option maxRecDepth 65536 in
theorem part_151 (m : (ℓ : Loc nD τ sig) → Buf (Elt F) ℓ) (K : CellIx → ℕ) (c : Dev nD) (v2 v5 v9 v12 v14 v23 v57 v59 : BitVec 32) (Kt : (BitVec 32) → sProp 𝕄) :
    iprop(Ctx m K ∗ St m c ⟨3, true, 84, 0, 59, 0, 59, 59, 0, 0, 0, 0, 0, 0, 0, 0, 0, 0, 58, 58, 58, 57⟩ ∗ (∀ out, St m c ⟨3, true, 84, 0, 60, 0, 59, 59, 0, 0, 0, 0, 0, 0, 0, 0, 0, 0, 59, 59, 59, 57⟩ -∗ Kt out))
      ⊢ WP c (k0_part151 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v12 v14 v23 v57 v59) Kt := by
  ag_part k0_part151_eq_skeleton k0_part151_skel

set_option maxRecDepth 65536 in
theorem part_152 (m : (ℓ : Loc nD τ sig) → Buf (Elt F) ℓ) (K : CellIx → ℕ) (c : Dev nD) (v8 v16 v18 v4767 : BitVec 32) (Kt : (PUnit) → sProp 𝕄) :
    iprop(Ctx m K ∗ St m c ⟨3, true, 84, 0, 60, 0, 59, 59, 0, 0, 0, 0, 0, 0, 0, 0, 0, 0, 59, 59, 59, 57⟩ ∗ (∀ out, St m c ⟨3, true, 84, 0, 60, 0, 60, 60, 0, 0, 0, 0, 0, 0, 0, 0, 0, 0, 60, 59, 59, 58⟩ -∗ Kt out))
      ⊢ WP c (k0_part152 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v4767) Kt := by
  ag_part k0_part152_eq_skeleton k0_part152_skel

set_option maxRecDepth 65536 in
theorem part_153 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 60, 0, 60, 60, 0, 0, 0, 0, 0, 0, 0, 0, 0, 0, 60, 59, 59, 58⟩ ∗ (∀ out, St m c ⟨3, true, 84, 0, 61, 0, 60, 60, 0, 0, 0, 0, 0, 0, 0, 0, 0, 0, 60, 60, 60, 58⟩ -∗ Kt out))
      ⊢ WP c (k0_part153 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part153_eq_skeleton k0_part153_skel

set_option maxRecDepth 65536 in
theorem part_154 (m : (ℓ : Loc nD τ sig) → Buf (Elt F) ℓ) (K : CellIx → ℕ) (c : Dev nD) (v8 v16 v18 : BitVec 32) (Kt : (PUnit) → sProp 𝕄) :
    iprop(Ctx m K ∗ St m c ⟨3, true, 84, 0, 61, 0, 60, 60, 0, 0, 0, 0, 0, 0, 0, 0, 0, 0, 60, 60, 60, 58⟩ ∗ (∀ out, St m c ⟨3, true, 84, 0, 61, 0, 61, 61, 0, 0, 0, 0, 0, 0, 0, 0, 0, 0, 61, 60, 60, 59⟩ -∗ Kt out))
      ⊢ WP c (k0_part154 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18) Kt := by
  ag_part k0_part154_eq_skeleton k0_part154_skel

set_option maxRecDepth 65536 in
theorem part_155 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 61, 0, 61, 61, 0, 0, 0, 0, 0, 0, 0, 0, 0, 0, 61, 60, 60, 59⟩ ∗ (∀ out, St m c ⟨3, true, 84, 0, 62, 0, 62, 61, 0, 0, 0, 0, 0, 0, 0, 0, 0, 0, 61, 61, 61, 59⟩ -∗ Kt out))
      ⊢ WP c (k0_part155 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part155_eq_skeleton k0_part155_skel

set_option maxRecDepth 65536 in
theorem part_156 (m : (ℓ : Loc nD τ sig) → Buf (Elt F) ℓ) (K : CellIx → ℕ) (c : Dev nD) (v8 v16 v18 v57 : BitVec 32) (Kt : (PUnit) → sProp 𝕄) :
    iprop(Ctx m K ∗ St m c ⟨3, true, 84, 0, 62, 0, 62, 61, 0, 0, 0, 0, 0, 0, 0, 0, 0, 0, 61, 61, 61, 59⟩ ∗ (∀ out, St m c ⟨3, true, 84, 0, 62, 0, 62, 62, 0, 0, 0, 0, 0, 0, 0, 0, 0, 0, 62, 62, 61, 60⟩ -∗ Kt out))
      ⊢ WP c (k0_part156 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v57) Kt := by
  ag_part k0_part156_eq_skeleton k0_part156_skel

set_option maxRecDepth 65536 in
theorem part_157 (m : (ℓ : Loc nD τ sig) → Buf (Elt F) ℓ) (K : CellIx → ℕ) (c : Dev nD) (v2 v5 v8 v9 v12 v14 v16 v23 v59 : BitVec 32) (Kt : (BitVec 32) → sProp 𝕄) :
    iprop(Ctx m K ∗ St m c ⟨3, true, 84, 0, 62, 0, 62, 62, 0, 0, 0, 0, 0, 0, 0, 0, 0, 0, 62, 62, 61, 60⟩ ∗ (∀ out, St m c ⟨3, true, 84, 0, 63, 0, 63, 62, 0, 0, 0, 0, 0, 0, 0, 0, 0, 0, 62, 62, 62, 60⟩ -∗ Kt out))
      ⊢ WP c (k0_part157 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v23 v59) Kt := by
  ag_part k0_part157_eq_skeleton k0_part157_skel

set_option maxRecDepth 65536 in
theorem part_158 (m : (ℓ : Loc nD τ sig) → Buf (Elt F) ℓ) (K : CellIx → ℕ) (c : Dev nD) (v8 v18 v57 v4951 : BitVec 32) (Kt : (PUnit) → sProp 𝕄) :
    iprop(Ctx m K ∗ St m c ⟨3, true, 84, 0, 63, 0, 63, 62, 0, 0, 0, 0, 0, 0, 0, 0, 0, 0, 62, 62, 62, 60⟩ ∗ (∀ out, St m c ⟨3, true, 84, 0, 63, 0, 63, 63, 0, 0, 0, 0, 0, 0, 0, 0, 0, 0, 63, 63, 62, 61⟩ -∗ Kt out))
      ⊢ WP c (k0_part158 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v18 v57 v4951) Kt := by
  ag_part k0_part158_eq_skeleton k0_part158_skel

set_option maxRecDepth 65536 in
theorem part_159 (m : (ℓ : Loc nD τ sig) → Buf (Elt F) ℓ) (K : CellIx → ℕ) (c : Dev nD) (v2 v5 v8 v9 v12 v14 v16 v18 v23 v59 : BitVec 32) (Kt : (PUnit) → sProp 𝕄) :
    iprop(Ctx m K ∗ St m c ⟨3, true, 84, 0, 63, 0, 63, 63, 0, 0, 0, 0, 0, 0, 0, 0, 0, 0, 63, 63, 62, 61⟩ ∗ (∀ out, St m c ⟨3, true, 84, 0, 64, 0, 64, 63, 0, 0, 0, 0, 0, 0, 0, 0, 0, 0, 63, 63, 63, 61⟩ -∗ Kt out))
      ⊢ WP c (k0_part159 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59) Kt := by
  ag_part k0_part159_eq_skeleton k0_part159_skel

set_option maxRecDepth 65536 in
theorem part_160 (m : (ℓ : Loc nD τ sig) → Buf (Elt F) ℓ) (K : CellIx → ℕ) (c : Dev nD) (v45 v57 v59 : BitVec 32) (Kt : (BitVec 32) → sProp 𝕄) :
    iprop(Ctx m K ∗ St m c ⟨3, true, 84, 0, 64, 0, 64, 63, 0, 0, 0, 0, 0, 0, 0, 0, 0, 0, 63, 63, 63, 61⟩ ∗ (∀ out, St m c ⟨3, true, 84, 0, 64, 0, 64, 64, 0, 0, 0, 0, 0, 0, 0, 0, 0, 0, 64, 64, 64, 62⟩ -∗ Kt out))
      ⊢ WP c (k0_part160 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v45 v57 v59) Kt := by
  ag_part k0_part160_eq_skeleton k0_part160_skel

set_option maxRecDepth 65536 in
theorem part_161 (m : (ℓ : Loc nD τ sig) → Buf (Elt F) ℓ) (K : CellIx → ℕ) (c : Dev nD) (v8 v12 v14 v16 v18 v34 v59 v5042 : BitVec 32) (Kt : (PUnit) → sProp 𝕄) :
    iprop(Ctx m K ∗ St m c ⟨3, true, 84, 0, 64, 0, 64, 64, 0, 0, 0, 0, 0, 0, 0, 0, 0, 0, 64, 64, 64, 62⟩ ∗ (∀ out, St m c ⟨3, true, 84, 0, 64, 0, 64, 64, 0, 0, 1, 0, 1, 0, 0, 0, 0, 0, 64, 64, 64, 62⟩ -∗ Kt out))
      ⊢ WP c (k0_part161 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v59 v5042) Kt := by
  ag_part k0_part161_eq_skeleton k0_part161_skel

set_option maxRecDepth 65536 in
theorem part_162 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 1, 0, 1, 0, 0, 0, 0, 0, 64, 64, 64, 62⟩ ∗ (∀ out, St m c ⟨3, true, 84, 0, 64, 0, 64, 64, 0, 0, 2, 1, 2, 0, 0, 0, 0, 0, 64, 64, 64, 62⟩ -∗ Kt out))
      ⊢ WP c (k0_part162 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part162_eq_skeleton k0_part162_skel

set_option maxRecDepth 65536 in
theorem part_163 (m : (ℓ : Loc nD τ sig) → Buf (Elt F) ℓ) (K : CellIx → ℕ) (c : Dev nD) (v8 v12 v14 v16 v18 v45 v59 v5107 : BitVec 32) (Kt : (PUnit) → sProp 𝕄) :
    iprop(Ctx m K ∗ St m c ⟨3, true, 84, 0, 64, 0, 64, 64, 0, 0, 2, 1, 2, 0, 0, 0, 0, 0, 64, 64, 64, 62⟩ ∗ (∀ out, St m c ⟨3, true, 84, 0, 64, 0, 64, 64, 0, 0, 3, 2, 3, 0, 0, 0, 0, 0, 64, 64, 64, 62⟩ -∗ Kt out))
      ⊢ WP c (k0_part163 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v45 v59 v5107) Kt := by
  ag_part k0_part163_eq_skeleton k0_part163_skel

set_option maxRecDepth 65536 in
theorem part_164 (m : (ℓ : Loc nD τ sig) → Buf (Elt F) ℓ) (K : CellIx → ℕ) (c : Dev nD) (v8 v12 v14 v16 v18 v34 v45 v59 : BitVec 32) (Kt : (PUnit) → sProp 𝕄) :
    iprop(Ctx m K ∗ St m c ⟨3, true, 84, 0, 64, 0, 64, 64, 0, 0, 3, 2, 3, 0, 0, 0, 0, 0, 64, 64, 64, 62⟩ ∗ (∀ out, St m c ⟨3, true, 84, 0, 64, 0, 64, 64, 0, 0, 4, 3, 3, 0, 0, 0, 0, 0, 64, 64, 64, 62⟩ -∗ Kt out))
      ⊢ WP c (k0_part164 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part164_eq_skeleton k0_part164_skel

set_option maxRecDepth 65536 in
theorem part_165 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 4, 3, 3, 0, 0, 0, 0, 0, 64, 64, 64, 62⟩ ∗ (∀ out, St m c ⟨3, true, 84, 0, 64, 0, 64, 64, 0, 0, 5, 4, 4, 0, 0, 0, 0, 0, 64, 64, 64, 62⟩ -∗ Kt out))
      ⊢ WP c (k0_part165 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part165_eq_skeleton k0_part165_skel

set_option maxRecDepth 65536 in
theorem part_166 (m : (ℓ : Loc nD τ sig) → Buf (Elt F) ℓ) (K : CellIx → ℕ) (c : Dev nD) (v8 v12 v14 v16 v18 v34 v45 v59 c4_i32_3948 : BitVec 32) (Kt : (PUnit) → sProp 𝕄) :
    iprop(Ctx m K ∗ St m c ⟨3, true, 84, 0, 64, 0, 64, 64, 0, 0, 5, 4, 4, 0, 0, 0, 0, 0, 64, 64, 64, 62⟩ ∗ (∀ out, St m c ⟨3, true, 84, 0, 64, 0, 64, 64, 0, 0, 5, 5, 5, 0, 0, 0, 0, 0, 64, 64, 64, 62⟩ -∗ Kt out))
      ⊢ WP c (k0_part166 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 c4_i32_3948) Kt := by
  ag_part k0_part166_eq_skeleton k0_part166_skel

set_option maxRecDepth 65536 in
theorem part_167 (m : (ℓ : Loc nD τ sig) → Buf (Elt F) ℓ) (K : CellIx → ℕ) (c : Dev nD) (v8 v12 v14 v16 v34 v45 v59 : BitVec 32) (Kt : (BitVec 32) → sProp 𝕄) :
    iprop(Ctx m K ∗ St m c ⟨3, true, 84, 0, 64, 0, 64, 64, 0, 0, 5, 5, 5, 0, 0, 0, 0, 0, 64, 64, 64, 62⟩ ∗ (∀ out, St m c ⟨3, true, 84, 0, 64, 0, 64, 64, 0, 0, 6, 6, 6, 0, 0, 0, 0, 0, 64, 64, 64, 62⟩ -∗ Kt out))
      ⊢ WP c (k0_part167 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v34 v45 v59) Kt := by
  ag_part k0_part167_eq_skeleton k0_part167_skel

set_option maxRecDepth 65536 in
theorem part_168 (m : (ℓ : Loc nD τ sig) → Buf (Elt F) ℓ) (K : CellIx → ℕ) (c : Dev nD) (v8 v12 v14 v18 v34 v59 v5272 : BitVec 32) (Kt : (PUnit) → sProp 𝕄) :
    iprop(Ctx m K ∗ St m c ⟨3, true, 84, 0, 64, 0, 64, 64, 0, 0, 6, 6, 6, 0, 0, 0, 0, 0, 64, 64, 64, 62⟩ ∗ (∀ out, St m c ⟨3, true, 84, 0, 64, 0, 64, 64, 0, 0, 7, 7, 7, 0, 0, 0, 0, 0, 64, 64, 64, 62⟩ -∗ Kt out))
      ⊢ WP c (k0_part168 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v18 v34 v59 v5272) Kt := by
  ag_part k0_part168_eq_skeleton k0_part168_skel

set_option maxRecDepth 65536 in
theorem part_169 (m : (ℓ : Loc nD τ sig) → Buf (Elt F) ℓ) (K : CellIx → ℕ) (c : Dev nD) (v8 v12 v14 v16 v18 v34 v45 v59 : BitVec 32) (Kt : (Σ' (v5338 : BitVec 32), BitVec 32) → sProp 𝕄) :
    iprop(Ctx m K ∗ St m c ⟨3, true, 84, 0, 64, 0, 64, 64, 0, 0, 7, 7, 7, 0, 0, 0, 0, 0, 64, 64, 64, 62⟩ ∗ (∀ out, St m c ⟨3, true, 84, 0, 64, 0, 64, 64, 0, 0, 8, 7, 8, 0, 0, 0, 0, 0, 64, 64, 64, 62⟩ -∗ Kt out))
      ⊢ WP c (k0_part169 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part169_eq_skeleton k0_part169_skel

set_option maxRecDepth 65536 in
theorem part_170 (m : (ℓ : Loc nD τ sig) → Buf (Elt F) ℓ) (K : CellIx → ℕ) (c : Dev nD) (v8 v12 v14 v16 v18 v34 v45 v59 v5338 c1_i32_4045 : BitVec 32) (Kt : (PUnit) → sProp 𝕄) :
    iprop(Ctx m K ∗ St m c ⟨3, true, 84, 0, 64, 0, 64, 64, 0, 0, 8, 7, 8, 0, 0, 0, 0, 0, 64, 64, 64, 62⟩ ∗ (∀ out, St m c ⟨3, true, 84, 0, 64, 0, 64, 64, 0, 0, 9, 8, 9, 0, 0, 0, 0, 0, 64, 64, 64, 62⟩ -∗ Kt out))
      ⊢ WP c (k0_part170 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v5338 c1_i32_4045) Kt := by
  ag_part k0_part170_eq_skeleton k0_part170_skel

set_option maxRecDepth 65536 in
theorem part_171 (m : (ℓ : Loc nD τ sig) → Buf (Elt F) ℓ) (K : CellIx → ℕ) (c : Dev nD) (v8 v12 v14 v16 v18 v45 v59 : BitVec 32) (Kt : (PUnit) → sProp 𝕄) :
    iprop(Ctx m K ∗ St m c ⟨3, true, 84, 0, 64, 0, 64, 64, 0, 0, 9, 8, 9, 0, 0, 0, 0, 0, 64, 64, 64, 62⟩ ∗ (∀ out, St m c ⟨3, true, 84, 0, 64, 0, 64, 64, 0, 0, 10, 9, 9, 0, 0, 0, 0, 0, 64, 64, 64, 62⟩ -∗ Kt out))
      ⊢ WP c (k0_part171 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v45 v59) Kt := by
  ag_part k0_part171_eq_skeleton k0_part171_skel

set_option maxRecDepth 65536 in
theorem part_172 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 10, 9, 9, 0, 0, 0, 0, 0, 64, 64, 64, 62⟩ ∗ (∀ out, St m c ⟨3, true, 84, 0, 64, 0, 64, 64, 0, 0, 11, 10, 10, 0, 0, 0, 0, 0, 64, 64, 64, 62⟩ -∗ Kt out))
      ⊢ WP c (k0_part172 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part172_eq_skeleton k0_part172_skel

set_option maxRecDepth 65536 in
theorem part_173 (m : (ℓ : Loc nD τ sig) → Buf (Elt F) ℓ) (K : CellIx → ℕ) (c : Dev nD) (v8 v12 v14 v16 v18 v34 v45 v59 v5437 : BitVec 32) (Kt : (PUnit) → sProp 𝕄) :
    iprop(Ctx m K ∗ St m c ⟨3, true, 84, 0, 64, 0, 64, 64, 0, 0, 11, 10, 10, 0, 0, 0, 0, 0, 64, 64, 64, 62⟩ ∗ (∀ out, St m c ⟨3, true, 84, 0, 64, 0, 64, 64, 0, 0, 12, 11, 11, 0, 0, 0, 0, 0, 64, 64, 64, 62⟩ -∗ Kt out))
      ⊢ WP c (k0_part173 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v5437) Kt := by
  ag_part k0_part173_eq_skeleton k0_part173_skel

set_option maxRecDepth 65536 in
theorem part_174 (m : (ℓ : Loc nD τ sig) → Buf (Elt F) ℓ) (K : CellIx → ℕ) (c : Dev nD) (v8 v12 v14 v16 v18 v34 v45 v59 : BitVec 32) (Kt : (Σ' (v5503 : BitVec 32), BitVec 32) → sProp 𝕄) :
    iprop(Ctx m K ∗ St m c ⟨3, true, 84, 0, 64, 0, 64, 64, 0, 0, 12, 11, 11, 0, 0, 0, 0, 0, 64, 64, 64, 62⟩ ∗ (∀ out, St m c ⟨3, true, 84, 0, 64, 0, 64, 64, 0, 0, 12, 12, 12, 0, 0, 0, 0, 0, 64, 64, 64, 62⟩ -∗ Kt out))
      ⊢ WP c (k0_part174 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part174_eq_skeleton k0_part174_skel

set_option maxRecDepth 65536 in
theorem part_175 (m : (ℓ : Loc nD τ sig) → Buf (Elt F) ℓ) (K : CellIx → ℕ) (c : Dev nD) (v8 v12 v14 v34 v45 v59 v5503 c1_i32_4167 : BitVec 32) (Kt : (PUnit) → sProp 𝕄) :
    iprop(Ctx m K ∗ St m c ⟨3, true, 84, 0, 64, 0, 64, 64, 0, 0, 12, 12, 12, 0, 0, 0, 0, 0, 64, 64, 64, 62⟩ ∗ (∀ out, St m c ⟨3, true, 84, 0, 64, 0, 64, 64, 0, 0, 13, 13, 13, 0, 0, 0, 0, 0, 64, 64, 64, 62⟩ -∗ Kt out))
      ⊢ WP c (k0_part175 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v34 v45 v59 v5503 c1_i32_4167) Kt := by
  ag_part k0_part175_eq_skeleton k0_part175_skel

set_option maxRecDepth 65536 in
theorem part_176 (m : (ℓ : Loc nD τ sig) → Buf (Elt F) ℓ) (K : CellIx → ℕ) (c : Dev nD) (v8 v12 v14 v16 v18 v34 v59 : BitVec 32) (Kt : (PUnit) → sProp 𝕄) :
    iprop(Ctx m K ∗ St m c ⟨3, true, 84, 0, 64, 0, 64, 64, 0, 0, 13, 13, 13, 0, 0, 0, 0, 0, 64, 64, 64, 62⟩ ∗ (∀ out, St m c ⟨3, true, 84, 0, 64, 0, 64, 64, 0, 0, 14, 13, 14, 0, 0, 0, 0, 0, 64, 64, 64, 62⟩ -∗ Kt out))
      ⊢ WP c (k0_part176 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v59) Kt := by
  ag_part k0_part176_eq_skeleton k0_part176_skel

set_option maxRecDepth 65536 in
theorem part_177 (m : (ℓ : Loc nD τ sig) → Buf (Elt F) ℓ) (K : CellIx → ℕ) (c : Dev nD) (v8 v12 v14 v16 v18 v34 v45 v59 : BitVec 32) (Kt : (Σ' (v5602 : BitVec 32), BitVec 32) → sProp 𝕄) :
    iprop(Ctx m K ∗ St m c ⟨3, true, 84, 0, 64, 0, 64, 64, 0, 0, 14, 13, 14, 0, 0, 0, 0, 0, 64, 64, 64, 62⟩ ∗ (∀ out, St m c ⟨3, true, 84, 0, 64, 0, 64, 64, 0, 0, 15, 14, 15, 0, 0, 0, 0, 0, 64, 64, 64, 62⟩ -∗ Kt out))
      ⊢ WP c (k0_part177 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part177_eq_skeleton k0_part177_skel

set_option maxRecDepth 65536 in
theorem part_178 (m : (ℓ : Loc nD τ sig) → Buf (Elt F) ℓ) (K : CellIx → ℕ) (c : Dev nD) (v8 v12 v14 v16 v18 v34 v45 v59 v5602 c2_i32_4240 : BitVec 32) (Kt : (BitVec 32) → sProp 𝕄) :
    iprop(Ctx m K ∗ St m c ⟨3, true, 84, 0, 64, 0, 64, 64, 0, 0, 15, 14, 15, 0, 0, 0, 0, 0, 64, 64, 64, 62⟩ ∗ (∀ out, St m c ⟨3, true, 84, 0, 64, 0, 64, 64, 0, 0, 16, 15, 16, 0, 0, 0, 0, 0, 64, 64, 64, 62⟩ -∗ Kt out))
      ⊢ WP c (k0_part178 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v5602 c2_i32_4240) Kt := by
  ag_part k0_part178_eq_skeleton k0_part178_skel

set_option maxRecDepth 65536 in
theorem part_179 (m : (ℓ : Loc nD τ sig) → Buf (Elt F) ℓ) (K : CellIx → ℕ) (c : Dev nD) (v8 v12 v14 v16 v18 v45 v59 v5637 : BitVec 32) (Kt : (PUnit) → sProp 𝕄) :
    iprop(Ctx m K ∗ St m c ⟨3, true, 84, 0, 64, 0, 64, 64, 0, 0, 16, 15, 16, 0, 0, 0, 0, 0, 64, 64, 64, 62⟩ ∗ (∀ out, St m c ⟨3, true, 84, 0, 64, 0, 64, 64, 0, 0, 17, 16, 16, 0, 0, 0, 0, 0, 64, 64, 64, 62⟩ -∗ Kt out))
      ⊢ WP c (k0_part179 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v45 v59 v5637) Kt := by
  ag_part k0_part179_eq_skeleton k0_part179_skel

set_option maxRecDepth 65536 in
theorem part_180 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 17, 16, 16, 0, 0, 0, 0, 0, 64, 64, 64, 62⟩ ∗ (∀ out, St m c ⟨3, true, 84, 0, 64, 0, 64, 64, 0, 0, 18, 17, 17, 0, 0, 0, 0, 0, 64, 64, 64, 62⟩ -∗ Kt out))
      ⊢ WP c (k0_part180 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part180_eq_skeleton k0_part180_skel

set_option maxRecDepth 65536 in
theorem part_181 (m : (ℓ : Loc nD τ sig) → Buf (Elt F) ℓ) (K : CellIx → ℕ) (c : Dev nD) (v8 v12 v14 v16 v18 v34 v45 v59 v5701 : BitVec 32) (Kt : (PUnit) → sProp 𝕄) :
    iprop(Ctx m K ∗ St m c ⟨3, true, 84, 0, 64, 0, 64, 64, 0, 0, 18, 17, 17, 0, 0, 0, 0, 0, 64, 64, 64, 62⟩ ∗ (∀ out, St m c ⟨3, true, 84, 0, 64, 0, 64, 64, 0, 0, 18, 18, 18, 0, 0, 0, 0, 0, 64, 64, 64, 62⟩ -∗ Kt out))
      ⊢ WP c (k0_part181 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v5701) Kt := by
  ag_part k0_part181_eq_skeleton k0_part181_skel

set_option maxRecDepth 65536 in
theorem part_182 (m : (ℓ : Loc nD τ sig) → Buf (Elt F) ℓ) (K : CellIx → ℕ) (c : Dev nD) (v8 v12 v14 v16 v34 v45 v59 : BitVec 32) (Kt : (Σ' (v5767 : BitVec 32), BitVec 32) → sProp 𝕄) :
    iprop(Ctx m K ∗ St m c ⟨3, true, 84, 0, 64, 0, 64, 64, 0, 0, 18, 18, 18, 0, 0, 0, 0, 0, 64, 64, 64, 62⟩ ∗ (∀ out, St m c ⟨3, true, 84, 0, 64, 0, 64, 64, 0, 0, 19, 19, 19, 0, 0, 0, 0, 0, 64, 64, 64, 62⟩ -∗ Kt out))
      ⊢ WP c (k0_part182 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v34 v45 v59) Kt := by
  ag_part k0_part182_eq_skeleton k0_part182_skel

set_option maxRecDepth 65536 in
theorem part_183 (m : (ℓ : Loc nD τ sig) → Buf (Elt F) ℓ) (K : CellIx → ℕ) (c : Dev nD) (v8 v12 v14 v18 v34 v45 v59 v5767 c2_i32_4362 : BitVec 32) (Kt : (BitVec 32) → sProp 𝕄) :
    iprop(Ctx m K ∗ St m c ⟨3, true, 84, 0, 64, 0, 64, 64, 0, 0, 19, 19, 19, 0, 0, 0, 0, 0, 64, 64, 64, 62⟩ ∗ (∀ out, St m c ⟨3, true, 84, 0, 64, 0, 64, 64, 0, 0, 20, 20, 20, 0, 0, 0, 0, 0, 64, 64, 64, 62⟩ -∗ Kt out))
      ⊢ WP c (k0_part183 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v18 v34 v45 v59 v5767 c2_i32_4362) Kt := by
  ag_part k0_part183_eq_skeleton k0_part183_skel

set_option maxRecDepth 65536 in
theorem part_184 (m : (ℓ : Loc nD τ sig) → Buf (Elt F) ℓ) (K : CellIx → ℕ) (c : Dev nD) (v8 v12 v14 v16 v18 v34 v59 v5802 : BitVec 32) (Kt : (PUnit) → sProp 𝕄) :
    iprop(Ctx m K ∗ St m c ⟨3, true, 84, 0, 64, 0, 64, 64, 0, 0, 20, 20, 20, 0, 0, 0, 0, 0, 64, 64, 64, 62⟩ ∗ (∀ out, St m c ⟨3, true, 84, 0, 64, 0, 64, 64, 0, 0, 21, 20, 21, 0, 0, 0, 0, 0, 64, 64, 64, 62⟩ -∗ Kt out))
      ⊢ WP c (k0_part184 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v59 v5802) Kt := by
  ag_part k0_part184_eq_skeleton k0_part184_skel

set_option maxRecDepth 65536 in
theorem part_185 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 21, 20, 21, 0, 0, 0, 0, 0, 64, 64, 64, 62⟩ ∗ (∀ out, St m c ⟨3, true, 84, 0, 64, 0, 64, 64, 0, 0, 22, 21, 22, 0, 0, 0, 0, 0, 64, 64, 64, 62⟩ -∗ Kt out))
      ⊢ WP c (k0_part185 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part185_eq_skeleton k0_part185_skel

set_option maxRecDepth 65536 in
theorem part_186 (m : (ℓ : Loc nD τ sig) → Buf (Elt F) ℓ) (K : CellIx → ℕ) (c : Dev nD) (v8 v12 v14 v16 v18 v34 v45 v59 v5867 : BitVec 32) (Kt : (PUnit) → sProp 𝕄) :
    iprop(Ctx m K ∗ St m c ⟨3, true, 84, 0, 64, 0, 64, 64, 0, 0, 22, 21, 22, 0, 0, 0, 0, 0, 64, 64, 64, 62⟩ ∗ (∀ out, St m c ⟨3, true, 84, 0, 64, 0, 64, 64, 0, 0, 23, 22, 22, 0, 0, 0, 0, 0, 64, 64, 64, 62⟩ -∗ Kt out))
      ⊢ WP c (k0_part186 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v5867) Kt := by
  ag_part k0_part186_eq_skeleton k0_part186_skel

set_option maxRecDepth 65536 in
theorem part_187 (m : (ℓ : Loc nD τ sig) → Buf (Elt F) ℓ) (K : CellIx → ℕ) (c : Dev nD) (v8 v12 v16 v18 v34 v45 v59 : BitVec 32) (Kt : (Σ' (v5932 : BitVec 32), BitVec 32) → sProp 𝕄) :
    iprop(Ctx m K ∗ St m c ⟨3, true, 84, 0, 64, 0, 64, 64, 0, 0, 23, 22, 22, 0, 0, 0, 0, 0, 64, 64, 64, 62⟩ ∗ (∀ out, St m c ⟨3, true, 84, 0, 64, 0, 64, 64, 0, 0, 24, 23, 22, 1, 0, 0, 0, 0, 64, 64, 64, 62⟩ -∗ Kt out))
      ⊢ WP c (k0_part187 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v16 v18 v34 v45 v59) Kt := by
  ag_part k0_part187_eq_skeleton k0_part187_skel

set_option maxRecDepth 65536 in
theorem part_188 (m : (ℓ : Loc nD τ sig) → Buf (Elt F) ℓ) (K : CellIx → ℕ) (c : Dev nD) (v8 v14 v16 v18 v34 v45 v59 v5932 c2_i32_4484 : BitVec 32) (Kt : (BitVec 32) → sProp 𝕄) :
    iprop(Ctx m K ∗ St m c ⟨3, true, 84, 0, 64, 0, 64, 64, 0, 0, 24, 23, 22, 1, 0, 0, 0, 0, 64, 64, 64, 62⟩ ∗ (∀ out, St m c ⟨3, true, 84, 0, 64, 0, 64, 64, 0, 0, 25, 24, 22, 2, 0, 0, 0, 0, 64, 64, 64, 62⟩ -∗ Kt out))
      ⊢ WP c (k0_part188 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v14 v16 v18 v34 v45 v59 v5932 c2_i32_4484) Kt := by
  ag_part k0_part188_eq_skeleton k0_part188_skel

set_option maxRecDepth 65536 in
theorem part_189 (m : (ℓ : Loc nD τ sig) → Buf (Elt F) ℓ) (K : CellIx → ℕ) (c : Dev nD) (v8 v12 v14 v16 v18 v45 v59 v5967 : BitVec 32) (Kt : (PUnit) → sProp 𝕄) :
    iprop(Ctx m K ∗ St m c ⟨3, true, 84, 0, 64, 0, 64, 64, 0, 0, 25, 24, 22, 2, 0, 0, 0, 0, 64, 64, 64, 62⟩ ∗ (∀ out, St m c ⟨3, true, 84, 0, 64, 0, 64, 64, 0, 0, 25, 25, 22, 3, 0, 0, 0, 0, 64, 64, 64, 62⟩ -∗ Kt out))
      ⊢ WP c (k0_part189 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v45 v59 v5967) Kt := by
  ag_part k0_part189_eq_skeleton k0_part189_skel

set_option maxRecDepth 65536 in
theorem part_190 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 25, 25, 22, 3, 0, 0, 0, 0, 64, 64, 64, 62⟩ ∗ (∀ out, St m c ⟨3, true, 84, 0, 64, 0, 64, 64, 0, 0, 26, 26, 22, 4, 0, 0, 0, 0, 64, 64, 64, 62⟩ -∗ Kt out))
      ⊢ WP c (k0_part190 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part190_eq_skeleton k0_part190_skel

set_option maxRecDepth 65536 in
theorem part_191 (m : (ℓ : Loc nD τ sig) → Buf (Elt F) ℓ) (K : CellIx → ℕ) (c : Dev nD) (v8 v12 v14 v16 v18 v34 v59 v6032 : BitVec 32) (Kt : (PUnit) → sProp 𝕄) :
    iprop(Ctx m K ∗ St m c ⟨3, true, 84, 0, 64, 0, 64, 64, 0, 0, 26, 26, 22, 4, 0, 0, 0, 0, 64, 64, 64, 62⟩ ∗ (∀ out, St m c ⟨3, true, 84, 0, 64, 0, 64, 64, 0, 0, 27, 27, 22, 5, 0, 0, 0, 0, 64, 64, 64, 62⟩ -∗ Kt out))
      ⊢ WP c (k0_part191 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v59 v6032) Kt := by
  ag_part k0_part191_eq_skeleton k0_part191_skel

set_option maxRecDepth 65536 in
theorem part_192 (m : (ℓ : Loc nD τ sig) → Buf (Elt F) ℓ) (K : CellIx → ℕ) (c : Dev nD) (v8 v12 v14 v16 v18 v34 v45 v59 : BitVec 32) (Kt : (PUnit) → sProp 𝕄) :
    iprop(Ctx m K ∗ St m c ⟨3, true, 84, 0, 64, 0, 64, 64, 0, 0, 27, 27, 22, 5, 0, 0, 0, 0, 64, 64, 64, 62⟩ ∗ (∀ out, St m c ⟨3, true, 84, 0, 64, 0, 64, 64, 0, 0, 28, 28, 22, 5, 0, 0, 0, 0, 64, 64, 64, 62⟩ -∗ Kt out))
      ⊢ WP c (k0_part192 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part192_eq_skeleton k0_part192_skel

set_option maxRecDepth 65536 in
theorem part_193 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 28, 28, 22, 5, 0, 0, 0, 0, 64, 64, 64, 62⟩ ∗ (∀ out, St m c ⟨3, true, 84, 0, 64, 0, 64, 64, 0, 0, 29, 29, 22, 6, 0, 0, 0, 0, 64, 64, 64, 62⟩ -∗ Kt out))
      ⊢ WP c (k0_part193 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part193_eq_skeleton k0_part193_skel

set_option maxRecDepth 65536 in
theorem part_194 (m : (ℓ : Loc nD τ sig) → Buf (Elt F) ℓ) (K : CellIx → ℕ) (c : Dev nD) (v8 v12 v14 v16 v18 v34 v45 v59 c4_i32_4630 : BitVec 32) (Kt : (PUnit) → sProp 𝕄) :
    iprop(Ctx m K ∗ St m c ⟨3, true, 84, 0, 64, 0, 64, 64, 0, 0, 29, 29, 22, 6, 0, 0, 0, 0, 64, 64, 64, 62⟩ ∗ (∀ out, St m c ⟨3, true, 84, 0, 64, 0, 64, 64, 0, 0, 30, 29, 22, 7, 0, 0, 0, 0, 64, 64, 64, 62⟩ -∗ Kt out))
      ⊢ WP c (k0_part194 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 c4_i32_4630) Kt := by
  ag_part k0_part194_eq_skeleton k0_part194_skel

set_option maxRecDepth 65536 in
theorem part_195 (m : (ℓ : Loc nD τ sig) → Buf (Elt F) ℓ) (K : CellIx → ℕ) (c : Dev nD) (v8 v12 v16 v18 v34 v45 v59 : BitVec 32) (Kt : (BitVec 32) → sProp 𝕄) :
    iprop(Ctx m K ∗ St m c ⟨3, true, 84, 0, 64, 0, 64, 64, 0, 0, 30, 29, 22, 7, 0, 0, 0, 0, 64, 64, 64, 62⟩ ∗ (∀ out, St m c ⟨3, true, 84, 0, 64, 0, 64, 64, 0, 0, 31, 30, 22, 8, 0, 0, 0, 0, 64, 64, 64, 62⟩ -∗ Kt out))
      ⊢ WP c (k0_part195 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v16 v18 v34 v45 v59) Kt := by
  ag_part k0_part195_eq_skeleton k0_part195_skel

set_option maxRecDepth 65536 in
theorem part_196 (m : (ℓ : Loc nD τ sig) → Buf (Elt F) ℓ) (K : CellIx → ℕ) (c : Dev nD) (v8 v14 v16 v18 v45 v59 v6197 : BitVec 32) (Kt : (PUnit) → sProp 𝕄) :
    iprop(Ctx m K ∗ St m c ⟨3, true, 84, 0, 64, 0, 64, 64, 0, 0, 31, 30, 22, 8, 0, 0, 0, 0, 64, 64, 64, 62⟩ ∗ (∀ out, St m c ⟨3, true, 84, 0, 64, 0, 64, 64, 0, 0, 32, 31, 22, 9, 0, 0, 0, 0, 64, 64, 64, 62⟩ -∗ Kt out))
      ⊢ WP c (k0_part196 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v14 v16 v18 v45 v59 v6197) Kt := by
  ag_part k0_part196_eq_skeleton k0_part196_skel

set_option maxRecDepth 65536 in
theorem part_197 (m : (ℓ : Loc nD τ sig) → Buf (Elt F) ℓ) (K : CellIx → ℕ) (c : Dev nD) (v8 v12 v14 v16 v18 v34 v45 v59 : BitVec 32) (Kt : (Σ' (v6263 : BitVec 32), BitVec 32) → sProp 𝕄) :
    iprop(Ctx m K ∗ St m c ⟨3, true, 84, 0, 64, 0, 64, 64, 0, 0, 32, 31, 22, 9, 0, 0, 0, 0, 64, 64, 64, 62⟩ ∗ (∀ out, St m c ⟨3, true, 84, 0, 64, 0, 64, 64, 0, 0, 32, 32, 22, 10, 0, 0, 0, 0, 64, 64, 64, 62⟩ -∗ Kt out))
      ⊢ WP c (k0_part197 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part197_eq_skeleton k0_part197_skel

set_option maxRecDepth 65536 in
theorem part_198 (m : (ℓ : Loc nD τ sig) → Buf (Elt F) ℓ) (K : CellIx → ℕ) (c : Dev nD) (v8 v12 v14 v16 v18 v34 v45 v59 v6263 c1_i32_4727 : BitVec 32) (Kt : (PUnit) → sProp 𝕄) :
    iprop(Ctx m K ∗ St m c ⟨3, true, 84, 0, 64, 0, 64, 64, 0, 0, 32, 32, 22, 10, 0, 0, 0, 0, 64, 64, 64, 62⟩ ∗ (∀ out, St m c ⟨3, true, 84, 0, 64, 0, 64, 64, 0, 0, 33, 33, 22, 11, 0, 0, 0, 0, 64, 64, 64, 62⟩ -∗ Kt out))
      ⊢ WP c (k0_part198 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6263 c1_i32_4727) Kt := by
  ag_part k0_part198_eq_skeleton k0_part198_skel

set_option maxRecDepth 65536 in
theorem part_199 (m : (ℓ : Loc nD τ sig) → Buf (Elt F) ℓ) (K : CellIx → ℕ) (c : Dev nD) (v8 v12 v14 v16 v18 v34 v59 : BitVec 32) (Kt : (PUnit) → sProp 𝕄) :
    iprop(Ctx m K ∗ St m c ⟨3, true, 84, 0, 64, 0, 64, 64, 0, 0, 33, 33, 22, 11, 0, 0, 0, 0, 64, 64, 64, 62⟩ ∗ (∀ out, St m c ⟨3, true, 84, 0, 64, 0, 64, 64, 0, 0, 34, 34, 22, 11, 0, 0, 0, 0, 64, 64, 64, 62⟩ -∗ Kt out))
      ⊢ WP c (k0_part199 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v59) Kt := by
  ag_part k0_part199_eq_skeleton k0_part199_skel

set_option maxRecDepth 65536 in
theorem part_200 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 34, 34, 22, 11, 0, 0, 0, 0, 64, 64, 64, 62⟩ ∗ (∀ out, St m c ⟨3, true, 84, 0, 64, 0, 64, 64, 0, 0, 35, 35, 22, 12, 0, 0, 0, 0, 64, 64, 64, 62⟩ -∗ Kt out))
      ⊢ WP c (k0_part200 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part200_eq_skeleton k0_part200_skel

set_option maxRecDepth 65536 in
theorem part_201 (m : (ℓ : Loc nD τ sig) → Buf (Elt F) ℓ) (K : CellIx → ℕ) (c : Dev nD) (v8 v12 v14 v16 v18 v34 v45 v59 v6362 : BitVec 32) (Kt : (PUnit) → sProp 𝕄) :
    iprop(Ctx m K ∗ St m c ⟨3, true, 84, 0, 64, 0, 64, 64, 0, 0, 35, 35, 22, 12, 0, 0, 0, 0, 64, 64, 64, 62⟩ ∗ (∀ out, St m c ⟨3, true, 84, 0, 64, 0, 64, 64, 0, 0, 36, 36, 22, 13, 0, 0, 0, 0, 64, 64, 64, 62⟩ -∗ Kt out))
      ⊢ WP c (k0_part201 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6362) Kt := by
  ag_part k0_part201_eq_skeleton k0_part201_skel

set_option maxRecDepth 65536 in
theorem part_202 (m : (ℓ : Loc nD τ sig) → Buf (Elt F) ℓ) (K : CellIx → ℕ) (c : Dev nD) (v8 v12 v14 v16 v18 v34 v45 v59 : BitVec 32) (Kt : (Σ' (v6428 : BitVec 32), BitVec 32) → sProp 𝕄) :
    iprop(Ctx m K ∗ St m c ⟨3, true, 84, 0, 64, 0, 64, 64, 0, 0, 36, 36, 22, 13, 0, 0, 0, 0, 64, 64, 64, 62⟩ ∗ (∀ out, St m c ⟨3, true, 84, 0, 64, 0, 64, 64, 0, 0, 37, 36, 22, 14, 0, 0, 0, 0, 64, 64, 64, 62⟩ -∗ Kt out))
      ⊢ WP c (k0_part202 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part202_eq_skeleton k0_part202_skel

set_option maxRecDepth 65536 in
theorem part_203 (m : (ℓ : Loc nD τ sig) → Buf (Elt F) ℓ) (K : CellIx → ℕ) (c : Dev nD) (v8 v16 v18 v34 v45 v59 v6428 c1_i32_4849 : BitVec 32) (Kt : (PUnit) → sProp 𝕄) :
    iprop(Ctx m K ∗ St m c ⟨3, true, 84, 0, 64, 0, 64, 64, 0, 0, 37, 36, 22, 14, 0, 0, 0, 0, 64, 64, 64, 62⟩ ∗ (∀ out, St m c ⟨3, true, 84, 0, 64, 0, 64, 64, 0, 0, 38, 37, 22, 15, 0, 0, 0, 0, 64, 64, 64, 62⟩ -∗ Kt out))
      ⊢ WP c (k0_part203 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v34 v45 v59 v6428 c1_i32_4849) Kt := by
  ag_part k0_part203_eq_skeleton k0_part203_skel

set_option maxRecDepth 65536 in
theorem part_204 (m : (ℓ : Loc nD τ sig) → Buf (Elt F) ℓ) (K : CellIx → ℕ) (c : Dev nD) (v8 v12 v14 v16 v18 v45 v59 : BitVec 32) (Kt : (PUnit) → sProp 𝕄) :
    iprop(Ctx m K ∗ St m c ⟨3, true, 84, 0, 64, 0, 64, 64, 0, 0, 38, 37, 22, 15, 0, 0, 0, 0, 64, 64, 64, 62⟩ ∗ (∀ out, St m c ⟨3, true, 84, 0, 64, 0, 64, 64, 0, 0, 38, 38, 22, 16, 0, 0, 0, 0, 64, 64, 64, 62⟩ -∗ Kt out))
      ⊢ WP c (k0_part204 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v45 v59) Kt := by
  ag_part k0_part204_eq_skeleton k0_part204_skel

set_option maxRecDepth 65536 in
theorem part_205 (m : (ℓ : Loc nD τ sig) → Buf (Elt F) ℓ) (K : CellIx → ℕ) (c : Dev nD) (v8 v12 v14 v16 v18 v34 v45 v59 : BitVec 32) (Kt : (Σ' (v6527 : BitVec 32), BitVec 32) → sProp 𝕄) :
    iprop(Ctx m K ∗ St m c ⟨3, true, 84, 0, 64, 0, 64, 64, 0, 0, 38, 38, 22, 16, 0, 0, 0, 0, 64, 64, 64, 62⟩ ∗ (∀ out, St m c ⟨3, true, 84, 0, 64, 0, 64, 64, 0, 0, 39, 39, 22, 17, 0, 0, 0, 0, 64, 64, 64, 62⟩ -∗ Kt out))
      ⊢ WP c (k0_part205 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part205_eq_skeleton k0_part205_skel

set_option maxRecDepth 65536 in
theorem part_206 (m : (ℓ : Loc nD τ sig) → Buf (Elt F) ℓ) (K : CellIx → ℕ) (c : Dev nD) (v8 v12 v14 v16 v18 v34 v45 v59 v6527 c2_i32_4922 : BitVec 32) (Kt : (BitVec 32) → sProp 𝕄) :
    iprop(Ctx m K ∗ St m c ⟨3, true, 84, 0, 64, 0, 64, 64, 0, 0, 39, 39, 22, 17, 0, 0, 0, 0, 64, 64, 64, 62⟩ ∗ (∀ out, St m c ⟨3, true, 84, 0, 64, 0, 64, 64, 0, 0, 40, 40, 22, 18, 0, 0, 0, 0, 64, 64, 64, 62⟩ -∗ Kt out))
      ⊢ WP c (k0_part206 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6527 c2_i32_4922) Kt := by
  ag_part k0_part206_eq_skeleton k0_part206_skel

set_option maxRecDepth 65536 in
theorem part_207 (m : (ℓ : Loc nD τ sig) → Buf (Elt F) ℓ) (K : CellIx → ℕ) (c : Dev nD) (v8 v12 v14 v16 v18 v34 v59 v6562 : BitVec 32) (Kt : (PUnit) → sProp 𝕄) :
    iprop(Ctx m K ∗ St m c ⟨3, true, 84, 0, 64, 0, 64, 64, 0, 0, 40, 40, 22, 18, 0, 0, 0, 0, 64, 64, 64, 62⟩ ∗ (∀ out, St m c ⟨3, true, 84, 0, 64, 0, 64, 64, 0, 0, 41, 41, 22, 18, 0, 0, 0, 0, 64, 64, 64, 62⟩ -∗ Kt out))
      ⊢ WP c (k0_part207 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v59 v6562) Kt := by
  ag_part k0_part207_eq_skeleton k0_part207_skel

set_option maxRecDepth 65536 in
theorem part_208 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 41, 41, 22, 18, 0, 0, 0, 0, 64, 64, 64, 62⟩ ∗ (∀ out, St m c ⟨3, true, 84, 0, 64, 0, 64, 64, 0, 0, 42, 42, 22, 19, 0, 0, 0, 0, 64, 64, 64, 62⟩ -∗ Kt out))
      ⊢ WP c (k0_part208 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part208_eq_skeleton k0_part208_skel

set_option maxRecDepth 65536 in
theorem part_209 (m : (ℓ : Loc nD τ sig) → Buf (Elt F) ℓ) (K : CellIx → ℕ) (c : Dev nD) (v8 v12 v14 v16 v18 v34 v45 v59 v6626 : BitVec 32) (Kt : (PUnit) → sProp 𝕄) :
    iprop(Ctx m K ∗ St m c ⟨3, true, 84, 0, 64, 0, 64, 64, 0, 0, 42, 42, 22, 19, 0, 0, 0, 0, 64, 64, 64, 62⟩ ∗ (∀ out, St m c ⟨3, true, 84, 0, 64, 0, 64, 64, 0, 0, 43, 42, 22, 20, 0, 0, 0, 0, 64, 64, 64, 62⟩ -∗ Kt out))
      ⊢ WP c (k0_part209 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6626) Kt := by
  ag_part k0_part209_eq_skeleton k0_part209_skel

set_option maxRecDepth 65536 in
theorem part_210 (m : (ℓ : Loc nD τ sig) → Buf (Elt F) ℓ) (K : CellIx → ℕ) (c : Dev nD) (v8 v12 v16 v18 v34 v45 v59 : BitVec 32) (Kt : (Σ' (v6692 : BitVec 32), BitVec 32) → sProp 𝕄) :
    iprop(Ctx m K ∗ St m c ⟨3, true, 84, 0, 64, 0, 64, 64, 0, 0, 43, 42, 22, 20, 0, 0, 0, 0, 64, 64, 64, 62⟩ ∗ (∀ out, St m c ⟨3, true, 84, 0, 64, 0, 64, 64, 0, 0, 44, 43, 22, 21, 0, 0, 0, 0, 64, 64, 64, 62⟩ -∗ Kt out))
      ⊢ WP c (k0_part210 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v16 v18 v34 v45 v59) Kt := by
  ag_part k0_part210_eq_skeleton k0_part210_skel

set_option maxRecDepth 65536 in
theorem part_211 (m : (ℓ : Loc nD τ sig) → Buf (Elt F) ℓ) (K : CellIx → ℕ) (c : Dev nD) (v8 v14 v16 v18 v34 v45 v59 v6692 c2_i32_5044 : BitVec 32) (Kt : (BitVec 32) → sProp 𝕄) :
    iprop(Ctx m K ∗ St m c ⟨3, true, 84, 0, 64, 0, 64, 64, 0, 0, 44, 43, 22, 21, 0, 0, 0, 0, 64, 64, 64, 62⟩ ∗ (∀ out, St m c ⟨3, true, 84, 0, 64, 0, 64, 64, 0, 0, 45, 44, 22, 22, 0, 0, 0, 0, 64, 64, 64, 62⟩ -∗ Kt out))
      ⊢ WP c (k0_part211 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v14 v16 v18 v34 v45 v59 v6692 c2_i32_5044) Kt := by
  ag_part k0_part211_eq_skeleton k0_part211_skel

set_option maxRecDepth 65536 in
theorem part_212 (m : (ℓ : Loc nD τ sig) → Buf (Elt F) ℓ) (K : CellIx → ℕ) (c : Dev nD) (v8 v12 v14 v16 v18 v34 v45 v59 v6727 : BitVec 32) (Kt : (Σ' (v6758 : BitVec 32), BitVec 32) → sProp 𝕄) :
    iprop(Ctx m K ∗ St m c ⟨3, true, 84, 0, 64, 0, 64, 64, 0, 0, 45, 44, 22, 22, 0, 0, 0, 0, 64, 64, 64, 62⟩ ∗ (∀ out, St m c ⟨3, true, 84, 0, 64, 0, 64, 64, 0, 0, 46, 45, 22, 22, 0, 0, 0, 0, 64, 64, 64, 62⟩ -∗ Kt out))
      ⊢ WP c (k0_part212 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6727) Kt := by
  ag_part k0_part212_eq_skeleton k0_part212_skel

set_option maxRecDepth 65536 in
theorem part_213 (m : (ℓ : Loc nD τ sig) → Buf (Elt F) ℓ) (K : CellIx → ℕ) (c : Dev nD) (v8 v12 v14 v16 v18 v34 v45 v59 v6758 c1_i32_5093 : BitVec 32) (Kt : (BitVec 32) → sProp 𝕄) :
    iprop(Ctx m K ∗ St m c ⟨3, true, 84, 0, 64, 0, 64, 64, 0, 0, 46, 45, 22, 22, 0, 0, 0, 0, 64, 64, 64, 62⟩ ∗ (∀ out, St m c ⟨3, true, 84, 0, 64, 0, 64, 64, 0, 0, 47, 47, 22, 22, 0, 0, 0, 0, 64, 64, 64, 62⟩ -∗ Kt out))
      ⊢ WP c (k0_part213 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6758 c1_i32_5093) Kt := by
  ag_part k0_part213_eq_skeleton k0_part213_skel

set_option maxRecDepth 65536 in
theorem part_214 (m : (ℓ : Loc nD τ sig) → Buf (Elt F) ℓ) (K : CellIx → ℕ) (c : Dev nD) (v8 v12 v14 v16 v18 v34 v45 v59 v6792 : BitVec 32) (Kt : (Σ' (v6823 : BitVec 32), BitVec 32) → sProp 𝕄) :
    iprop(Ctx m K ∗ St m c ⟨3, true, 84, 0, 64, 0, 64, 64, 0, 0, 47, 47, 22, 22, 0, 0, 0, 0, 64, 64, 64, 62⟩ ∗ (∀ out, St m c ⟨3, true, 84, 0, 64, 0, 64, 64, 0, 0, 48, 48, 22, 22, 0, 0, 0, 0, 64, 64, 64, 62⟩ -∗ Kt out))
      ⊢ WP c (k0_part214 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6792) Kt := by
  ag_part k0_part214_eq_skeleton k0_part214_skel

set_option maxRecDepth 65536 in
theorem part_215 (m : (ℓ : Loc nD τ sig) → Buf (Elt F) ℓ) (K : CellIx → ℕ) (c : Dev nD) (v8 v12 v14 v16 v18 v34 v45 v59 v6823 c1_i32_5143 : BitVec 32) (Kt : (BitVec 32) → sProp 𝕄) :
    iprop(Ctx m K ∗ St m c ⟨3, true, 84, 0, 64, 0, 64, 64, 0, 0, 48, 48, 22, 22, 0, 0, 0, 0, 64, 64, 64, 62⟩ ∗ (∀ out, St m c ⟨3, true, 84, 0, 64, 0, 64, 64, 0, 0, 50, 49, 22, 22, 0, 0, 0, 0, 64, 64, 64, 62⟩ -∗ Kt out))
      ⊢ WP c (k0_part215 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6823 c1_i32_5143) Kt := by
  ag_part k0_part215_eq_skeleton k0_part215_skel

set_option maxRecDepth 65536 in
theorem part_216 (m : (ℓ : Loc nD τ sig) → Buf (Elt F) ℓ) (K : CellIx → ℕ) (c : Dev nD) (v8 v12 v14 v16 v18 v34 v45 v59 v6857 : BitVec 32) (Kt : (Σ' (v6888 : BitVec 32), BitVec 32) → sProp 𝕄) :
    iprop(Ctx m K ∗ St m c ⟨3, true, 84, 0, 64, 0, 64, 64, 0, 0, 50, 49, 22, 22, 0, 0, 0, 0, 64, 64, 64, 62⟩ ∗ (∀ out, St m c ⟨3, true, 84, 0, 64, 0, 64, 64, 0, 0, 51, 50, 22, 22, 0, 0, 0, 0, 64, 64, 64, 62⟩ -∗ Kt out))
      ⊢ WP c (k0_part216 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6857) Kt := by
  ag_part k0_part216_eq_skeleton k0_part216_skel

set_option maxRecDepth 65536 in
theorem part_217 (m : (ℓ : Loc nD τ sig) → Buf (Elt F) ℓ) (K : CellIx → ℕ) (c : Dev nD) (v8 v12 v14 v16 v18 v34 v45 v59 v6888 c1_i32_5193 : BitVec 32) (Kt : (BitVec 32) → sProp 𝕄) :
    iprop(Ctx m K ∗ St m c ⟨3, true, 84, 0, 64, 0, 64, 64, 0, 0, 51, 50, 22, 22, 0, 0, 0, 0, 64, 64, 64, 62⟩ ∗ (∀ out, St m c ⟨3, true, 84, 0, 64, 0, 64, 64, 0, 0, 52, 52, 22, 22, 0, 0, 0, 0, 64, 64, 64, 62⟩ -∗ Kt out))
      ⊢ WP c (k0_part217 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6888 c1_i32_5193) Kt := by
  ag_part k0_part217_eq_skeleton k0_part217_skel

set_option maxRecDepth 65536 in
theorem part_218 (m : (ℓ : Loc nD τ sig) → Buf (Elt F) ℓ) (K : CellIx → ℕ) (c : Dev nD) (v8 v12 v14 v16 v18 v34 v45 v59 v6922 : BitVec 32) (Kt : (Σ' (v6953 : BitVec 32), BitVec 32) → sProp 𝕄) :
    iprop(Ctx m K ∗ St m c ⟨3, true, 84, 0, 64, 0, 64, 64, 0, 0, 52, 52, 22, 22, 0, 0, 0, 0, 64, 64, 64, 62⟩ ∗ (∀ out, St m c ⟨3, true, 84, 0, 64, 0, 64, 64, 0, 0, 53, 53, 22, 22, 0, 0, 0, 0, 64, 64, 64, 62⟩ -∗ Kt out))
      ⊢ WP c (k0_part218 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6922) Kt := by
  ag_part k0_part218_eq_skeleton k0_part218_skel

set_option maxRecDepth 65536 in
theorem part_219 (m : (ℓ : Loc nD τ sig) → Buf (Elt F) ℓ) (K : CellIx → ℕ) (c : Dev nD) (v8 v12 v14 v16 v18 v34 v45 v59 v6953 c1_i32_5243 : BitVec 32) (Kt : (BitVec 32) → sProp 𝕄) :
    iprop(Ctx m K ∗ St m c ⟨3, true, 84, 0, 64, 0, 64, 64, 0, 0, 53, 53, 22, 22, 0, 0, 0, 0, 64, 64, 64, 62⟩ ∗ (∀ out, St m c ⟨3, true, 84, 0, 64, 0, 64, 64, 0, 0, 55, 54, 22, 22, 0, 0, 0, 0, 64, 64, 64, 62⟩ -∗ Kt out))
      ⊢ WP c (k0_part219 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6953 c1_i32_5243) Kt := by
  ag_part k0_part219_eq_skeleton k0_part219_skel

set_option maxRecDepth 65536 in
theorem part_220 (m : (ℓ : Loc nD τ sig) → Buf (Elt F) ℓ) (K : CellIx → ℕ) (c : Dev nD) (v8 v12 v14 v16 v18 v34 v45 v59 v6987 : BitVec 32) (Kt : (Σ' (v7018 : BitVec 32), BitVec 32) → sProp 𝕄) :
    iprop(Ctx m K ∗ St m c ⟨3, true, 84, 0, 64, 0, 64, 64, 0, 0, 55, 54, 22, 22, 0, 0, 0, 0, 64, 64, 64, 62⟩ ∗ (∀ out, St m c ⟨3, true, 84, 0, 64, 0, 64, 64, 0, 0, 56, 55, 22, 22, 0, 0, 0, 0, 64, 64, 64, 62⟩ -∗ Kt out))
      ⊢ WP c (k0_part220 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6987) Kt := by
  ag_part k0_part220_eq_skeleton k0_part220_skel

set_option maxRecDepth 65536 in
theorem part_221 (m : (ℓ : Loc nD τ sig) → Buf (Elt F) ℓ) (K : CellIx → ℕ) (c : Dev nD) (v8 v12 v14 v16 v18 v34 v45 v59 v7018 c1_i32_5293 : BitVec 32) (Kt : (BitVec 32) → sProp 𝕄) :
    iprop(Ctx m K ∗ St m c ⟨3, true, 84, 0, 64, 0, 64, 64, 0, 0, 56, 55, 22, 22, 0, 0, 0, 0, 64, 64, 64, 62⟩ ∗ (∀ out, St m c ⟨3, true, 84, 0, 64, 0, 64, 64, 0, 0, 57, 57, 22, 22, 0, 0, 0, 0, 64, 64, 64, 62⟩ -∗ Kt out))
      ⊢ WP c (k0_part221 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v7018 c1_i32_5293) Kt := by
  ag_part k0_part221_eq_skeleton k0_part221_skel

set_option maxRecDepth 65536 in
theorem part_222 (m : (ℓ : Loc nD τ sig) → Buf (Elt F) ℓ) (K : CellIx → ℕ) (c : Dev nD) (v8 v12 v14 v16 v18 v34 v45 v59 v7052 : BitVec 32) (Kt : (Σ' (v7083 : BitVec 32), BitVec 32) → sProp 𝕄) :
    iprop(Ctx m K ∗ St m c ⟨3, true, 84, 0, 64, 0, 64, 64, 0, 0, 57, 57, 22, 22, 0, 0, 0, 0, 64, 64, 64, 62⟩ ∗ (∀ out, St m c ⟨3, true, 84, 0, 64, 0, 64, 64, 0, 0, 58, 58, 22, 22, 0, 0, 0, 0, 64, 64, 64, 62⟩ -∗ Kt out))
      ⊢ WP c (k0_part222 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v7052) Kt := by
  ag_part k0_part222_eq_skeleton k0_part222_skel

set_option maxRecDepth 65536 in
theorem part_223 (m : (ℓ : Loc nD τ sig) → Buf (Elt F) ℓ) (K : CellIx → ℕ) (c : Dev nD) (v8 v12 v14 v16 v18 v34 v45 v59 v7083 c1_i32_5343 : BitVec 32) (Kt : (BitVec 32) → sProp 𝕄) :
    iprop(Ctx m K ∗ St m c ⟨3, true, 84, 0, 64, 0, 64, 64, 0, 0, 58, 58, 22, 22, 0, 0, 0, 0, 64, 64, 64, 62⟩ ∗ (∀ out, St m c ⟨3, true, 84, 0, 64, 0, 64, 64, 0, 0, 60, 59, 22, 22, 0, 0, 0, 0, 64, 64, 64, 62⟩ -∗ Kt out))
      ⊢ WP c (k0_part223 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v7083 c1_i32_5343) Kt := by
  ag_part k0_part223_eq_skeleton k0_part223_skel

set_option maxRecDepth 65536 in
theorem part_224 (m : (ℓ : Loc nD τ sig) → Buf (Elt F) ℓ) (K : CellIx → ℕ) (c : Dev nD) (v8 v12 v14 v16 v18 v34 v45 v59 v7117 : BitVec 32) (Kt : (Σ' (v7148 : BitVec 32), BitVec 32) → sProp 𝕄) :
    iprop(Ctx m K ∗ St m c ⟨3, true, 84, 0, 64, 0, 64, 64, 0, 0, 60, 59, 22, 22, 0, 0, 0, 0, 64, 64, 64, 62⟩ ∗ (∀ out, St m c ⟨3, true, 84, 0, 64, 0, 64, 64, 0, 0, 61, 60, 22, 22, 0, 0, 0, 0, 64, 64, 64, 62⟩ -∗ Kt out))
      ⊢ WP c (k0_part224 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v7117) Kt := by
  ag_part k0_part224_eq_skeleton k0_part224_skel

set_option maxRecDepth 65536 in
theorem part_225 (m : (ℓ : Loc nD τ sig) → Buf (Elt F) ℓ) (K : CellIx → ℕ) (c : Dev nD) (v8 v12 v14 v16 v18 v34 v45 v59 v7148 c1_i32_5393 : BitVec 32) (Kt : (BitVec 32) → sProp 𝕄) :
    iprop(Ctx m K ∗ St m c ⟨3, true, 84, 0, 64, 0, 64, 64, 0, 0, 61, 60, 22, 22, 0, 0, 0, 0, 64, 64, 64, 62⟩ ∗ (∀ out, St m c ⟨3, true, 84, 0, 64, 0, 64, 64, 0, 0, 62, 62, 22, 22, 0, 0, 0, 0, 64, 64, 64, 62⟩ -∗ Kt out))
      ⊢ WP c (k0_part225 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v7148 c1_i32_5393) Kt := by
  ag_part k0_part225_eq_skeleton k0_part225_skel

set_option maxRecDepth 65536 in
theorem part_226 (m : (ℓ : Loc nD τ sig) → Buf (Elt F) ℓ) (K : CellIx → ℕ) (c : Dev nD) (v8 v12 v14 v16 v18 v34 v45 v59 v7182 : BitVec 32) (Kt : (Σ' (v7213 : BitVec 32), BitVec 32) → sProp 𝕄) :
    iprop(Ctx m K ∗ St m c ⟨3, true, 84, 0, 64, 0, 64, 64, 0, 0, 62, 62, 22, 22, 0, 0, 0, 0, 64, 64, 64, 62⟩ ∗ (∀ out, St m c ⟨3, true, 84, 0, 64, 0, 64, 64, 0, 0, 63, 63, 22, 22, 0, 0, 0, 0, 64, 64, 64, 62⟩ -∗ Kt out))
      ⊢ WP c (k0_part226 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v7182) Kt := by
  ag_part k0_part226_eq_skeleton k0_part226_skel

set_option maxRecDepth 65536 in
theorem part_227 (m : (ℓ : Loc nD τ sig) → Buf (Elt F) ℓ) (K : CellIx → ℕ) (c : Dev nD) (v8 v12 v14 v16 v18 v34 v56 v59 v7213 c1_i32_5443 : BitVec 32) (Kt : (BitVec 32) → sProp 𝕄) :
    iprop(Ctx m K ∗ St m c ⟨3, true, 84, 0, 64, 0, 64, 64, 0, 0, 63, 63, 22, 22, 0, 0, 0, 0, 64, 64, 64, 62⟩ ∗ (∀ out, St m c ⟨3, true, 84, 0, 64, 0, 64, 64, 0, 0, 64, 64, 22, 22, 0, 0, 1, 0, 64, 64, 64, 62⟩ -∗ Kt out))
      ⊢ WP c (k0_part227 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v56 v59 v7213 c1_i32_5443) Kt := by
  ag_part k0_part227_eq_skeleton k0_part227_skel

set_option maxRecDepth 65536 in
theorem part_228 (m : (ℓ : Loc nD τ sig) → Buf (Elt F) ℓ) (K : CellIx → ℕ) (c : Dev nD) (v8 v16 v18 v56 v59 v7247 : BitVec 32) (Kt : (Σ' (v7278 : BitVec 32), BitVec 32) → sProp 𝕄) :
    iprop(Ctx m K ∗ St m c ⟨3, true, 84, 0, 64, 0, 64, 64, 0, 0, 64, 64, 22, 22, 0, 0, 1, 0, 64, 64, 64, 62⟩ ∗ (∀ out, St m c ⟨3, true, 84, 0, 64, 0, 64, 64, 0, 0, 64, 64, 22, 22, 0, 0, 3, 0, 64, 64, 64, 62⟩ -∗ Kt out))
      ⊢ WP c (k0_part228 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7247) Kt := by
  ag_part k0_part228_eq_skeleton k0_part228_skel

set_option maxRecDepth 65536 in
theorem part_229 (m : (ℓ : Loc nD τ sig) → Buf (Elt F) ℓ) (K : CellIx → ℕ) (c : Dev nD) (v8 v16 v18 v56 v59 v7278 c1_i32_5493 : BitVec 32) (Kt : (BitVec 32) → sProp 𝕄) :
    iprop(Ctx m K ∗ St m c ⟨3, true, 84, 0, 64, 0, 64, 64, 0, 0, 64, 64, 22, 22, 0, 0, 3, 0, 64, 64, 64, 62⟩ ∗ (∀ out, St m c ⟨3, true, 84, 0, 64, 0, 64, 64, 0, 0, 64, 64, 22, 22, 0, 0, 6, 0, 64, 64, 64, 62⟩ -∗ Kt out))
      ⊢ WP c (k0_part229 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7278 c1_i32_5493) Kt := by
  ag_part k0_part229_eq_skeleton k0_part229_skel

set_option maxRecDepth 65536 in
theorem part_230 (m : (ℓ : Loc nD τ sig) → Buf (Elt F) ℓ) (K : CellIx → ℕ) (c : Dev nD) (v8 v16 v18 v56 v59 v7312 : BitVec 32) (Kt : (Σ' (v7343 : BitVec 32), BitVec 32) → sProp 𝕄) :
    iprop(Ctx m K ∗ St m c ⟨3, true, 84, 0, 64, 0, 64, 64, 0, 0, 64, 64, 22, 22, 0, 0, 6, 0, 64, 64, 64, 62⟩ ∗ (∀ out, St m c ⟨3, true, 84, 0, 64, 0, 64, 64, 0, 0, 64, 64, 22, 22, 0, 0, 8, 0, 64, 64, 64, 62⟩ -∗ Kt out))
      ⊢ WP c (k0_part230 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7312) Kt := by
  ag_part k0_part230_eq_skeleton k0_part230_skel

set_option maxRecDepth 65536 in
theorem part_231 (m : (ℓ : Loc nD τ sig) → Buf (Elt F) ℓ) (K : CellIx → ℕ) (c : Dev nD) (v8 v16 v18 v56 v59 v7343 c1_i32_5543 : BitVec 32) (Kt : (BitVec 32) → sProp 𝕄) :
    iprop(Ctx m K ∗ St m c ⟨3, true, 84, 0, 64, 0, 64, 64, 0, 0, 64, 64, 22, 22, 0, 0, 8, 0, 64, 64, 64, 62⟩ ∗ (∀ out, St m c ⟨3, true, 84, 0, 64, 0, 64, 64, 0, 0, 64, 64, 22, 22, 0, 0, 11, 0, 64, 64, 64, 62⟩ -∗ Kt out))
      ⊢ WP c (k0_part231 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7343 c1_i32_5543) Kt := by
  ag_part k0_part231_eq_skeleton k0_part231_skel

set_option maxRecDepth 65536 in
theorem part_232 (m : (ℓ : Loc nD τ sig) → Buf (Elt F) ℓ) (K : CellIx → ℕ) (c : Dev nD) (v8 v16 v18 v56 v59 v7377 : BitVec 32) (Kt : (Σ' (v7408 : BitVec 32), BitVec 32) → sProp 𝕄) :
    iprop(Ctx m K ∗ St m c ⟨3, true, 84, 0, 64, 0, 64, 64, 0, 0, 64, 64, 22, 22, 0, 0, 11, 0, 64, 64, 64, 62⟩ ∗ (∀ out, St m c ⟨3, true, 84, 0, 64, 0, 64, 64, 0, 0, 64, 64, 22, 22, 0, 0, 13, 0, 64, 64, 64, 62⟩ -∗ Kt out))
      ⊢ WP c (k0_part232 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7377) Kt := by
  ag_part k0_part232_eq_skeleton k0_part232_skel

set_option maxRecDepth 65536 in
theorem part_233 (m : (ℓ : Loc nD τ sig) → Buf (Elt F) ℓ) (K : CellIx → ℕ) (c : Dev nD) (v8 v16 v18 v56 v59 v7408 c1_i32_5593 : BitVec 32) (Kt : (BitVec 32) → sProp 𝕄) :
    iprop(Ctx m K ∗ St m c ⟨3, true, 84, 0, 64, 0, 64, 64, 0, 0, 64, 64, 22, 22, 0, 0, 13, 0, 64, 64, 64, 62⟩ ∗ (∀ out, St m c ⟨3, true, 84, 0, 64, 0, 64, 64, 0, 0, 64, 64, 22, 22, 0, 0, 16, 0, 64, 64, 64, 62⟩ -∗ Kt out))
      ⊢ WP c (k0_part233 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7408 c1_i32_5593) Kt := by
  ag_part k0_part233_eq_skeleton k0_part233_skel

set_option maxRecDepth 65536 in
theorem part_234 (m : (ℓ : Loc nD τ sig) → Buf (Elt F) ℓ) (K : CellIx → ℕ) (c : Dev nD) (v8 v16 v18 v56 v59 v7442 : BitVec 32) (Kt : (Σ' (v7473 : BitVec 32), BitVec 32) → sProp 𝕄) :
    iprop(Ctx m K ∗ St m c ⟨3, true, 84, 0, 64, 0, 64, 64, 0, 0, 64, 64, 22, 22, 0, 0, 16, 0, 64, 64, 64, 62⟩ ∗ (∀ out, St m c ⟨3, true, 84, 0, 64, 0, 64, 64, 0, 0, 64, 64, 22, 22, 0, 0, 18, 0, 64, 64, 64, 62⟩ -∗ Kt out))
      ⊢ WP c (k0_part234 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7442) Kt := by
  ag_part k0_part234_eq_skeleton k0_part234_skel

set_option maxRecDepth 65536 in
theorem part_235 (m : (ℓ : Loc nD τ sig) → Buf (Elt F) ℓ) (K : CellIx → ℕ) (c : Dev nD) (v8 v16 v18 v56 v59 v7473 c1_i32_5643 : BitVec 32) (Kt : (BitVec 32) → sProp 𝕄) :
    iprop(Ctx m K ∗ St m c ⟨3, true, 84, 0, 64, 0, 64, 64, 0, 0, 64, 64, 22, 22, 0, 0, 18, 0, 64, 64, 64, 62⟩ ∗ (∀ out, St m c ⟨3, true, 84, 0, 64, 0, 64, 64, 0, 0, 64, 64, 22, 22, 0, 0, 21, 0, 64, 64, 64, 62⟩ -∗ Kt out))
      ⊢ WP c (k0_part235 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7473 c1_i32_5643) Kt := by
  ag_part k0_part235_eq_skeleton k0_part235_skel

set_option maxRecDepth 65536 in
theorem part_236 (m : (ℓ : Loc nD τ sig) → Buf (Elt F) ℓ) (K : CellIx → ℕ) (c : Dev nD) (v8 v16 v18 v56 v59 v7507 : BitVec 32) (Kt : (Σ' (v7538 : BitVec 32), BitVec 32) → sProp 𝕄) :
    iprop(Ctx m K ∗ St m c ⟨3, true, 84, 0, 64, 0, 64, 64, 0, 0, 64, 64, 22, 22, 0, 0, 21, 0, 64, 64, 64, 62⟩ ∗ (∀ out, St m c ⟨3, true, 84, 0, 64, 0, 64, 64, 0, 0, 64, 64, 22, 22, 0, 0, 22, 1, 64, 64, 64, 62⟩ -∗ Kt out))
      ⊢ WP c (k0_part236 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7507) Kt := by
  ag_part k0_part236_eq_skeleton k0_part236_skel

set_option maxRecDepth 65536 in
theorem part_237 (m : (ℓ : Loc nD τ sig) → Buf (Elt F) ℓ) (K : CellIx → ℕ) (c : Dev nD) (v8 v16 v18 v56 v59 v7538 c1_i32_5693 : BitVec 32) (Kt : (BitVec 32) → sProp 𝕄) :
    iprop(Ctx m K ∗ St m c ⟨3, true, 84, 0, 64, 0, 64, 64, 0, 0, 64, 64, 22, 22, 0, 0, 22, 1, 64, 64, 64, 62⟩ ∗ (∀ out, St m c ⟨3, true, 84, 0, 64, 0, 64, 64, 0, 0, 64, 64, 22, 22, 0, 0, 22, 4, 64, 64, 64, 62⟩ -∗ Kt out))
      ⊢ WP c (k0_part237 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7538 c1_i32_5693) Kt := by
  ag_part k0_part237_eq_skeleton k0_part237_skel

set_option maxRecDepth 65536 in
theorem part_238 (m : (ℓ : Loc nD τ sig) → Buf (Elt F) ℓ) (K : CellIx → ℕ) (c : Dev nD) (v8 v16 v18 v56 v59 v7572 : BitVec 32) (Kt : (Σ' (v7603 : BitVec 32), BitVec 32) → sProp 𝕄) :
    iprop(Ctx m K ∗ St m c ⟨3, true, 84, 0, 64, 0, 64, 64, 0, 0, 64, 64, 22, 22, 0, 0, 22, 4, 64, 64, 64, 62⟩ ∗ (∀ out, St m c ⟨3, true, 84, 0, 64, 0, 64, 64, 0, 0, 64, 64, 22, 22, 0, 0, 22, 6, 64, 64, 64, 62⟩ -∗ Kt out))
      ⊢ WP c (k0_part238 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7572) Kt := by
  ag_part k0_part238_eq_skeleton k0_part238_skel

set_option maxRecDepth 65536 in
theorem part_239 (m : (ℓ : Loc nD τ sig) → Buf (Elt F) ℓ) (K : CellIx → ℕ) (c : Dev nD) (v8 v16 v18 v56 v59 v7603 c1_i32_5743 : BitVec 32) (Kt : (BitVec 32) → sProp 𝕄) :
    iprop(Ctx m K ∗ St m c ⟨3, true, 84, 0, 64, 0, 64, 64, 0, 0, 64, 64, 22, 22, 0, 0, 22, 6, 64, 64, 64, 62⟩ ∗ (∀ out, St m c ⟨3, true, 84, 0, 64, 0, 64, 64, 0, 0, 64, 64, 22, 22, 0, 0, 22, 9, 64, 64, 64, 62⟩ -∗ Kt out))
      ⊢ WP c (k0_part239 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7603 c1_i32_5743) Kt := by
  ag_part k0_part239_eq_skeleton k0_part239_skel

set_option maxRecDepth 65536 in
theorem part_240 (m : (ℓ : Loc nD τ sig) → Buf (Elt F) ℓ) (K : CellIx → ℕ) (c : Dev nD) (v8 v16 v18 v56 v59 v7637 : BitVec 32) (Kt : (Σ' (v7668 : BitVec 32), BitVec 32) → sProp 𝕄) :
    iprop(Ctx m K ∗ St m c ⟨3, true, 84, 0, 64, 0, 64, 64, 0, 0, 64, 64, 22, 22, 0, 0, 22, 9, 64, 64, 64, 62⟩ ∗ (∀ out, St m c ⟨3, true, 84, 0, 64, 0, 64, 64, 0, 0, 64, 64, 22, 22, 0, 0, 22, 11, 64, 64, 64, 62⟩ -∗ Kt out))
      ⊢ WP c (k0_part240 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7637) Kt := by
  ag_part k0_part240_eq_skeleton k0_part240_skel

set_option maxRecDepth 65536 in
theorem part_241 (m : (ℓ : Loc nD τ sig) → Buf (Elt F) ℓ) (K : CellIx → ℕ) (c : Dev nD) (v8 v16 v18 v56 v59 v7668 c1_i32_5793 : BitVec 32) (Kt : (BitVec 32) → sProp 𝕄) :
    iprop(Ctx m K ∗ St m c ⟨3, true, 84, 0, 64, 0, 64, 64, 0, 0, 64, 64, 22, 22, 0, 0, 22, 11, 64, 64, 64, 62⟩ ∗ (∀ out, St m c ⟨3, true, 84, 0, 64, 0, 64, 64, 0, 0, 64, 64, 22, 22, 0, 0, 22, 14, 64, 64, 64, 62⟩ -∗ Kt out))
      ⊢ WP c (k0_part241 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7668 c1_i32_5793) Kt := by
  ag_part k0_part241_eq_skeleton k0_part241_skel

set_option maxRecDepth 65536 in
theorem part_242 (m : (ℓ : Loc nD τ sig) → Buf (Elt F) ℓ) (K : CellIx → ℕ) (c : Dev nD) (v8 v16 v18 v56 v59 v7702 : BitVec 32) (Kt : (Σ' (v7733 : BitVec 32), BitVec 32) → sProp 𝕄) :
    iprop(Ctx m K ∗ St m c ⟨3, true, 84, 0, 64, 0, 64, 64, 0, 0, 64, 64, 22, 22, 0, 0, 22, 14, 64, 64, 64, 62⟩ ∗ (∀ out, St m c ⟨3, true, 84, 0, 64, 0, 64, 64, 0, 0, 64, 64, 22, 22, 0, 0, 22, 16, 64, 64, 64, 62⟩ -∗ Kt out))
      ⊢ WP c (k0_part242 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7702) Kt := by
  ag_part k0_part242_eq_skeleton k0_part242_skel

set_option maxRecDepth 65536 in
theorem part_243 (m : (ℓ : Loc nD τ sig) → Buf (Elt F) ℓ) (K : CellIx → ℕ) (c : Dev nD) (v8 v16 v18 v56 v59 v7733 c1_i32_5843 : BitVec 32) (Kt : (BitVec 32) → sProp 𝕄) :
    iprop(Ctx m K ∗ St m c ⟨3, true, 84, 0, 64, 0, 64, 64, 0, 0, 64, 64, 22, 22, 0, 0, 22, 16, 64, 64, 64, 62⟩ ∗ (∀ out, St m c ⟨3, true, 84, 0, 64, 0, 64, 64, 0, 0, 64, 64, 22, 22, 0, 0, 22, 19, 64, 64, 64, 62⟩ -∗ Kt out))
      ⊢ WP c (k0_part243 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7733 c1_i32_5843) Kt := by
  ag_part k0_part243_eq_skeleton k0_part243_skel

set_option maxRecDepth 65536 in
theorem part_244 (m : (ℓ : Loc nD τ sig) → Buf (Elt F) ℓ) (K : CellIx → ℕ) (c : Dev nD) (v8 v16 v18 v56 v59 v7767 : BitVec 32) (Kt : (Σ' (v7798 : BitVec 32), BitVec 32) → sProp 𝕄) :
    iprop(Ctx m K ∗ St m c ⟨3, true, 84, 0, 64, 0, 64, 64, 0, 0, 64, 64, 22, 22, 0, 0, 22, 19, 64, 64, 64, 62⟩ ∗ (∀ out, St m c ⟨3, true, 84, 0, 64, 0, 64, 64, 0, 0, 64, 64, 22, 22, 0, 0, 22, 21, 64, 64, 64, 62⟩ -∗ Kt out))
      ⊢ WP c (k0_part244 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7767) Kt := by
  ag_part k0_part244_eq_skeleton k0_part244_skel

set_option maxRecDepth 65536 in
theorem part_245 (m : (ℓ : Loc nD τ sig) → Buf (Elt F) ℓ) (K : CellIx → ℕ) (c : Dev nD) (v2 v5 v8 v9 v7798 c1_i32_5893 : BitVec 32) (Kt : (PUnit) → sProp 𝕄) :
    iprop(Ctx m K ∗ St m c ⟨3, true, 84, 0, 64, 0, 64, 64, 0, 0, 64, 64, 22, 22, 0, 0, 22, 21, 64, 64, 64, 62⟩ ∗ (∀ out, St m c ⟨3, true, 84, 0, 64, 2, 64, 64, 0, 0, 64, 64, 22, 22, 0, 0, 22, 22, 64, 64, 64, 62⟩ -∗ Kt out))
      ⊢ WP c (k0_part245 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v7798 c1_i32_5893) Kt := by
  ag_part k0_part245_eq_skeleton k0_part245_skel

set_option maxRecDepth 65536 in
theorem part_246 (m : (ℓ : Loc nD τ sig) → Buf (Elt F) ℓ) (K : CellIx → ℕ) (c : Dev nD) (v2 v5 v9 : BitVec 32) (Kt : (PUnit) → sProp 𝕄) :
    iprop(Ctx m K ∗ St m c ⟨3, true, 84, 0, 64, 2, 64, 64, 0, 0, 64, 64, 22, 22, 0, 0, 22, 22, 64, 64, 64, 62⟩ ∗ (∀ out, St m c ⟨3, true, 84, 0, 64, 5, 64, 64, 0, 0, 64, 64, 22, 22, 0, 0, 22, 22, 64, 64, 64, 62⟩ -∗ Kt out))
      ⊢ WP c (k0_part246 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9) Kt := by
  ag_part k0_part246_eq_skeleton k0_part246_skel

set_option maxRecDepth 65536 in
theorem part_247 (m : (ℓ : Loc nD τ sig) → Buf (Elt F) ℓ) (K : CellIx → ℕ) (c : Dev nD) (v2 v5 v9 : BitVec 32) (Kt : (PUnit) → sProp 𝕄) :
    iprop(Ctx m K ∗ St m c ⟨3, true, 84, 0, 64, 5, 64, 64, 0, 0, 64, 64, 22, 22, 0, 0, 22, 22, 64, 64, 64, 62⟩ ∗ (∀ out, St m c ⟨3, true, 84, 0, 64, 9, 64, 64, 0, 0, 64, 64, 22, 22, 0, 0, 22, 22, 64, 64, 64, 62⟩ -∗ Kt out))
      ⊢ WP c (k0_part247 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9) Kt := by
  ag_part k0_part247_eq_skeleton k0_part247_skel

set_option maxRecDepth 65536 in
theorem part_248 (m : (ℓ : Loc nD τ sig) → Buf (Elt F) ℓ) (K : CellIx → ℕ) (c : Dev nD) (v2 v5 v9 : BitVec 32) (Kt : (BitVec 32) → sProp 𝕄) :
    iprop(Ctx m K ∗ St m c ⟨3, true, 84, 0, 64, 9, 64, 64, 0, 0, 64, 64, 22, 22, 0, 0, 22, 22, 64, 64, 64, 62⟩ ∗ (∀ out, St m c ⟨3, true, 84, 0, 64, 12, 64, 64, 0, 0, 64, 64, 22, 22, 0, 0, 22, 22, 64, 64, 64, 62⟩ -∗ Kt out))
      ⊢ WP c (k0_part248 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9) Kt := by
  ag_part k0_part248_eq_skeleton k0_part248_skel

set_option maxRecDepth 65536 in
theorem part_249 (m : (ℓ : Loc nD τ sig) → Buf (Elt F) ℓ) (K : CellIx → ℕ) (c : Dev nD) (v2 v5 v9 c4_i32_5994 : BitVec 32) (Kt : (BitVec 32) → sProp 𝕄) :
    iprop(Ctx m K ∗ St m c ⟨3, true, 84, 0, 64, 12, 64, 64, 0, 0, 64, 64, 22, 22, 0, 0, 22, 22, 64, 64, 64, 62⟩ ∗ (∀ out, St m c ⟨3, true, 84, 0, 64, 15, 64, 64, 0, 0, 64, 64, 22, 22, 0, 0, 22, 22, 64, 64, 64, 62⟩ -∗ Kt out))
      ⊢ WP c (k0_part249 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 c4_i32_5994) Kt := by
  ag_part k0_part249_eq_skeleton k0_part249_skel

set_option maxRecDepth 65536 in
theorem part_250 (m : (ℓ : Loc nD τ sig) → Buf (Elt F) ℓ) (K : CellIx → ℕ) (c : Dev nD) (v2 v5 v9 v7956 : BitVec 32) (Kt : (BitVec 32) → sProp 𝕄) :
    iprop(Ctx m K ∗ St m c ⟨3, true, 84, 0, 64, 15, 64, 64, 0, 0, 64, 64, 22, 22, 0, 0, 22, 22, 64, 64, 64, 62⟩ ∗ (∀ out, St m c ⟨3, true, 84, 0, 64, 18, 64, 64, 0, 0, 64, 64, 22, 22, 0, 0, 22, 22, 64, 64, 64, 62⟩ -∗ Kt out))
      ⊢ WP c (k0_part250 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v7956) Kt := by
  ag_part k0_part250_eq_skeleton k0_part250_skel

set_option maxRecDepth 65536 in
theorem part_251 (m : (ℓ : Loc nD τ sig) → Buf (Elt F) ℓ) (K : CellIx → ℕ) (c : Dev nD) (v2 v5 v9 v7988 : BitVec 32) (Kt : (PUnit) → sProp 𝕄) :
    iprop(Ctx m K ∗ St m c ⟨3, true, 84, 0, 64, 18, 64, 64, 0, 0, 64, 64, 22, 22, 0, 0, 22, 22, 64, 64, 64, 62⟩ ∗ (∀ out, St m c ⟨3, true, 84, 3, 64, 20, 64, 64, 0, 0, 64, 64, 22, 22, 0, 0, 22, 22, 64, 64, 64, 62⟩ -∗ Kt out))
      ⊢ WP c (k0_part251 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v7988) Kt := by
  ag_part k0_part251_eq_skeleton k0_part251_skel

set_option maxRecDepth 65536 in
theorem part_252 (m : (ℓ : Loc nD τ sig) → Buf (Elt F) ℓ) (K : CellIx → ℕ) (c : Dev nD) (Kt : (PUnit) → sProp 𝕄) :
    iprop(Ctx m K ∗ St m c ⟨3, true, 84, 3, 64, 20, 64, 64, 0, 0, 64, 64, 22, 22, 0, 0, 22, 22, 64, 64, 64, 62⟩ ∗ (∀ out, St m c ⟨3, true, 84, 9, 64, 20, 64, 64, 0, 0, 64, 64, 22, 22, 0, 0, 22, 22, 64, 64, 64, 62⟩ -∗ Kt out))
      ⊢ WP c (k0_part252 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part252_eq_skeleton k0_part252_skel

set_option maxRecDepth 65536 in
theorem part_253 (m : (ℓ : Loc nD τ sig) → Buf (Elt F) ℓ) (K : CellIx → ℕ) (c : Dev nD) (Kt : (PUnit) → sProp 𝕄) :
    iprop(Ctx m K ∗ St m c ⟨3, true, 84, 9, 64, 20, 64, 64, 0, 0, 64, 64, 22, 22, 0, 0, 22, 22, 64, 64, 64, 62⟩ ∗ (∀ out, St m c ⟨3, true, 84, 15, 64, 20, 64, 64, 0, 0, 64, 64, 22, 22, 0, 0, 22, 22, 64, 64, 64, 62⟩ -∗ Kt out))
      ⊢ WP c (k0_part253 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part253_eq_skeleton k0_part253_skel

set_option maxRecDepth 65536 in
theorem part_254 (m : (ℓ : Loc nD τ sig) → Buf (Elt F) ℓ) (K : CellIx → ℕ) (c : Dev nD) (Kt : (PUnit) → sProp 𝕄) :
    iprop(Ctx m K ∗ St m c ⟨3, true, 84, 15, 64, 20, 64, 64, 0, 0, 64, 64, 22, 22, 0, 0, 22, 22, 64, 64, 64, 62⟩ ∗ (∀ out, St m c ⟨3, true, 84, 21, 64, 20, 64, 64, 0, 0, 64, 64, 22, 22, 0, 0, 22, 22, 64, 64, 64, 62⟩ -∗ Kt out))
      ⊢ WP c (k0_part254 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part254_eq_skeleton k0_part254_skel

set_option maxRecDepth 65536 in
theorem part_255 (m : (ℓ : Loc nD τ sig) → Buf (Elt F) ℓ) (K : CellIx → ℕ) (c : Dev nD) (Kt : (PUnit) → sProp 𝕄) :
    iprop(Ctx m K ∗ St m c ⟨3, true, 84, 21, 64, 20, 64, 64, 0, 0, 64, 64, 22, 22, 0, 0, 22, 22, 64, 64, 64, 62⟩ ∗ (∀ out, St m c ⟨3, true, 84, 27, 64, 20, 64, 64, 0, 0, 64, 64, 22, 22, 0, 0, 22, 22, 64, 64, 64, 62⟩ -∗ Kt out))
      ⊢ WP c (k0_part255 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part255_eq_skeleton k0_part255_skel

set_option maxRecDepth 65536 in
theorem part_256 (m : (ℓ : Loc nD τ sig) → Buf (Elt F) ℓ) (K : CellIx → ℕ) (c : Dev nD) (Kt : (PUnit) → sProp 𝕄) :
    iprop(Ctx m K ∗ St m c ⟨3, true, 84, 27, 64, 20, 64, 64, 0, 0, 64, 64, 22, 22, 0, 0, 22, 22, 64, 64, 64, 62⟩ ∗ (∀ out, St m c ⟨3, true, 84, 33, 64, 20, 64, 64, 0, 0, 64, 64, 22, 22, 0, 0, 22, 22, 64, 64, 64, 62⟩ -∗ Kt out))
      ⊢ WP c (k0_part256 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part256_eq_skeleton k0_part256_skel

set_option maxRecDepth 65536 in
theorem part_257 (m : (ℓ : Loc nD τ sig) → Buf (Elt F) ℓ) (K : CellIx → ℕ) (c : Dev nD) (Kt : (PUnit) → sProp 𝕄) :
    iprop(Ctx m K ∗ St m c ⟨3, true, 84, 33, 64, 20, 64, 64, 0, 0, 64, 64, 22, 22, 0, 0, 22, 22, 64, 64, 64, 62⟩ ∗ (∀ out, St m c ⟨3, true, 84, 39, 64, 20, 64, 64, 0, 0, 64, 64, 22, 22, 0, 0, 22, 22, 64, 64, 64, 62⟩ -∗ Kt out))
      ⊢ WP c (k0_part257 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part257_eq_skeleton k0_part257_skel

set_option maxRecDepth 65536 in
theorem part_258 (m : (ℓ : Loc nD τ sig) → Buf (Elt F) ℓ) (K : CellIx → ℕ) (c : Dev nD) (Kt : (PUnit) → sProp 𝕄) :
    iprop(Ctx m K ∗ St m c ⟨3, true, 84, 39, 64, 20, 64, 64, 0, 0, 64, 64, 22, 22, 0, 0, 22, 22, 64, 64, 64, 62⟩ ∗ (∀ out, St m c ⟨3, true, 84, 45, 64, 20, 64, 64, 0, 0, 64, 64, 22, 22, 0, 0, 22, 22, 64, 64, 64, 62⟩ -∗ Kt out))
      ⊢ WP c (k0_part258 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part258_eq_skeleton k0_part258_skel

set_option maxRecDepth 65536 in
theorem part_259 (m : (ℓ : Loc nD τ sig) → Buf (Elt F) ℓ) (K : CellIx → ℕ) (c : Dev nD) (Kt : (PUnit) → sProp 𝕄) :
    iprop(Ctx m K ∗ St m c ⟨3, true, 84, 45, 64, 20, 64, 64, 0, 0, 64, 64, 22, 22, 0, 0, 22, 22, 64, 64, 64, 62⟩ ∗ (∀ out, St m c ⟨3, true, 84, 51, 64, 20, 64, 64, 0, 0, 64, 64, 22, 22, 0, 0, 22, 22, 64, 64, 64, 62⟩ -∗ Kt out))
      ⊢ WP c (k0_part259 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part259_eq_skeleton k0_part259_skel

set_option maxRecDepth 65536 in
theorem part_260 (m : (ℓ : Loc nD τ sig) → Buf (Elt F) ℓ) (K : CellIx → ℕ) (c : Dev nD) (Kt : (PUnit) → sProp 𝕄) :
    iprop(Ctx m K ∗ St m c ⟨3, true, 84, 51, 64, 20, 64, 64, 0, 0, 64, 64, 22, 22, 0, 0, 22, 22, 64, 64, 64, 62⟩ ∗ (∀ out, St m c ⟨3, true, 84, 57, 64, 20, 64, 64, 0, 0, 64, 64, 22, 22, 0, 0, 22, 22, 64, 64, 64, 62⟩ -∗ Kt out))
      ⊢ WP c (k0_part260 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part260_eq_skeleton k0_part260_skel

set_option maxRecDepth 65536 in
theorem part_261 (m : (ℓ : Loc nD τ sig) → Buf (Elt F) ℓ) (K : CellIx → ℕ) (c : Dev nD) (Kt : (PUnit) → sProp 𝕄) :
    iprop(Ctx m K ∗ St m c ⟨3, true, 84, 57, 64, 20, 64, 64, 0, 0, 64, 64, 22, 22, 0, 0, 22, 22, 64, 64, 64, 62⟩ ∗ (∀ out, St m c ⟨3, true, 84, 63, 64, 20, 64, 64, 0, 0, 64, 64, 22, 22, 0, 0, 22, 22, 64, 64, 64, 62⟩ -∗ Kt out))
      ⊢ WP c (k0_part261 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part261_eq_skeleton k0_part261_skel

set_option maxRecDepth 65536 in
theorem part_262 (m : (ℓ : Loc nD τ sig) → Buf (Elt F) ℓ) (K : CellIx → ℕ) (c : Dev nD) (Kt : (PUnit) → sProp 𝕄) :
    iprop(Ctx m K ∗ St m c ⟨3, true, 84, 63, 64, 20, 64, 64, 0, 0, 64, 64, 22, 22, 0, 0, 22, 22, 64, 64, 64, 62⟩ ∗ (∀ out, St m c ⟨3, true, 84, 69, 64, 20, 64, 64, 0, 0, 64, 64, 22, 22, 0, 0, 22, 22, 64, 64, 64, 62⟩ -∗ Kt out))
      ⊢ WP c (k0_part262 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part262_eq_skeleton k0_part262_skel

set_option maxRecDepth 65536 in
theorem part_263 (m : (ℓ : Loc nD τ sig) → Buf (Elt F) ℓ) (K : CellIx → ℕ) (c : Dev nD) (Kt : (PUnit) → sProp 𝕄) :
    iprop(Ctx m K ∗ St m c ⟨3, true, 84, 69, 64, 20, 64, 64, 0, 0, 64, 64, 22, 22, 0, 0, 22, 22, 64, 64, 64, 62⟩ ∗ (∀ out, St m c ⟨3, true, 84, 75, 64, 20, 64, 64, 0, 0, 64, 64, 22, 22, 0, 0, 22, 22, 64, 64, 64, 62⟩ -∗ Kt out))
      ⊢ WP c (k0_part263 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part263_eq_skeleton k0_part263_skel

set_option maxRecDepth 65536 in
theorem part_264 (m : (ℓ : Loc nD τ sig) → Buf (Elt F) ℓ) (K : CellIx → ℕ) (c : Dev nD) (Kt : (PUnit) → sProp 𝕄) :
    iprop(Ctx m K ∗ St m c ⟨3, true, 84, 75, 64, 20, 64, 64, 0, 0, 64, 64, 22, 22, 0, 0, 22, 22, 64, 64, 64, 62⟩ ∗ (∀ out, St m c ⟨3, true, 84, 81, 64, 20, 64, 64, 0, 0, 64, 64, 22, 22, 0, 0, 22, 22, 64, 64, 64, 62⟩ -∗ Kt out))
      ⊢ WP c (k0_part264 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part264_eq_skeleton k0_part264_skel

set_option maxRecDepth 65536 in
theorem part_265 (m : (ℓ : Loc nD τ sig) → Buf (Elt F) ℓ) (K : CellIx → ℕ) (c : Dev nD) (Kt : (PUnit) → sProp 𝕄) :
    iprop(Ctx m K ∗ St m c ⟨3, true, 84, 81, 64, 20, 64, 64, 0, 0, 64, 64, 22, 22, 0, 0, 22, 22, 64, 64, 64, 62⟩ ∗ (∀ out, St m c ⟨3, true, 84, 84, 64, 20, 64, 64, 2, 1, 64, 64, 22, 22, 0, 0, 22, 22, 64, 64, 64, 62⟩ -∗ Kt out))
      ⊢ WP c (k0_part265 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part265_eq_skeleton k0_part265_skel

set_option maxRecDepth 65536 in
theorem part_266 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 2, 1, 64, 64, 22, 22, 0, 0, 22, 22, 64, 64, 64, 62⟩ ∗ (∀ out, St m c ⟨3, true, 84, 84, 64, 20, 64, 64, 5, 4, 64, 64, 22, 22, 0, 0, 22, 22, 64, 64, 64, 62⟩ -∗ Kt out))
      ⊢ WP c (k0_part266 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part266_eq_skeleton k0_part266_skel

set_option maxRecDepth 65536 in
theorem part_267 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 5, 4, 64, 64, 22, 22, 0, 0, 22, 22, 64, 64, 64, 62⟩ ∗ (∀ out, St m c ⟨3, true, 84, 84, 64, 20, 64, 64, 8, 7, 64, 64, 22, 22, 0, 0, 22, 22, 64, 64, 64, 62⟩ -∗ Kt out))
      ⊢ WP c (k0_part267 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part267_eq_skeleton k0_part267_skel

set_option maxRecDepth 65536 in
theorem part_268 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 8, 7, 64, 64, 22, 22, 0, 0, 22, 22, 64, 64, 64, 62⟩ ∗ (∀ out, St m c ⟨3, true, 84, 84, 64, 20, 64, 64, 11, 10, 64, 64, 22, 22, 0, 0, 22, 22, 64, 64, 64, 62⟩ -∗ Kt out))
      ⊢ WP c (k0_part268 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part268_eq_skeleton k0_part268_skel

set_option maxRecDepth 65536 in
theorem part_269 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 11, 10, 64, 64, 22, 22, 0, 0, 22, 22, 64, 64, 64, 62⟩ ∗ (∀ out, St m c ⟨3, true, 84, 84, 64, 20, 64, 64, 14, 13, 64, 64, 22, 22, 0, 0, 22, 22, 64, 64, 64, 62⟩ -∗ Kt out))
      ⊢ WP c (k0_part269 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part269_eq_skeleton k0_part269_skel

set_option maxRecDepth 65536 in
theorem part_270 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 14, 13, 64, 64, 22, 22, 0, 0, 22, 22, 64, 64, 64, 62⟩ ∗ (∀ out, St m c ⟨3, true, 84, 84, 64, 20, 64, 64, 17, 16, 64, 64, 22, 22, 0, 0, 22, 22, 64, 64, 64, 62⟩ -∗ Kt out))
      ⊢ WP c (k0_part270 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part270_eq_skeleton k0_part270_skel

set_option maxRecDepth 65536 in
theorem part_271 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 17, 16, 64, 64, 22, 22, 0, 0, 22, 22, 64, 64, 64, 62⟩ ∗ (∀ out, St m c ⟨3, true, 84, 84, 64, 20, 64, 64, 20, 19, 64, 64, 22, 22, 0, 0, 22, 22, 64, 64, 64, 62⟩ -∗ Kt out))
      ⊢ WP c (k0_part271 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part271_eq_skeleton k0_part271_skel

set_option maxRecDepth 65536 in
theorem part_272 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 20, 19, 64, 64, 22, 22, 0, 0, 22, 22, 64, 64, 64, 62⟩ ∗ (∀ out, St m c ⟨3, true, 84, 84, 64, 20, 64, 64, 23, 22, 64, 64, 22, 22, 0, 0, 22, 22, 64, 64, 64, 62⟩ -∗ Kt out))
      ⊢ WP c (k0_part272 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part272_eq_skeleton k0_part272_skel

set_option maxRecDepth 65536 in
theorem part_273 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 23, 22, 64, 64, 22, 22, 0, 0, 22, 22, 64, 64, 64, 62⟩ ∗ (∀ out, St m c ⟨3, true, 84, 84, 64, 20, 64, 64, 26, 25, 64, 64, 22, 22, 0, 0, 22, 22, 64, 64, 64, 62⟩ -∗ Kt out))
      ⊢ WP c (k0_part273 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part273_eq_skeleton k0_part273_skel

set_option maxRecDepth 65536 in
theorem part_274 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 26, 25, 64, 64, 22, 22, 0, 0, 22, 22, 64, 64, 64, 62⟩ ∗ (∀ out, St m c ⟨3, true, 84, 84, 64, 20, 64, 64, 29, 28, 64, 64, 22, 22, 0, 0, 22, 22, 64, 64, 64, 62⟩ -∗ Kt out))
      ⊢ WP c (k0_part274 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part274_eq_skeleton k0_part274_skel

set_option maxRecDepth 65536 in
theorem part_275 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 29, 28, 64, 64, 22, 22, 0, 0, 22, 22, 64, 64, 64, 62⟩ ∗ (∀ out, St m c ⟨3, true, 84, 84, 64, 20, 64, 64, 32, 31, 64, 64, 22, 22, 0, 0, 22, 22, 64, 64, 64, 62⟩ -∗ Kt out))
      ⊢ WP c (k0_part275 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part275_eq_skeleton k0_part275_skel

set_option maxRecDepth 65536 in
theorem part_276 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 32, 31, 64, 64, 22, 22, 0, 0, 22, 22, 64, 64, 64, 62⟩ ∗ (∀ out, St m c ⟨3, true, 84, 84, 64, 20, 64, 64, 35, 34, 64, 64, 22, 22, 0, 0, 22, 22, 64, 64, 64, 62⟩ -∗ Kt out))
      ⊢ WP c (k0_part276 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part276_eq_skeleton k0_part276_skel

set_option maxRecDepth 65536 in
theorem part_277 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 35, 34, 64, 64, 22, 22, 0, 0, 22, 22, 64, 64, 64, 62⟩ ∗ (∀ out, St m c ⟨3, true, 84, 84, 64, 20, 64, 64, 38, 37, 64, 64, 22, 22, 0, 0, 22, 22, 64, 64, 64, 62⟩ -∗ Kt out))
      ⊢ WP c (k0_part277 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part277_eq_skeleton k0_part277_skel

set_option maxRecDepth 65536 in
theorem part_278 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 38, 37, 64, 64, 22, 22, 0, 0, 22, 22, 64, 64, 64, 62⟩ ∗ (∀ out, St m c ⟨3, true, 84, 84, 64, 20, 64, 64, 41, 40, 64, 64, 22, 22, 0, 0, 22, 22, 64, 64, 64, 62⟩ -∗ Kt out))
      ⊢ WP c (k0_part278 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part278_eq_skeleton k0_part278_skel

set_option maxRecDepth 65536 in
theorem part_279 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 41, 40, 64, 64, 22, 22, 0, 0, 22, 22, 64, 64, 64, 62⟩ ∗ (∀ out, St m c ⟨3, true, 84, 84, 64, 20, 64, 64, 44, 43, 64, 64, 22, 22, 0, 0, 22, 22, 64, 64, 64, 62⟩ -∗ Kt out))
      ⊢ WP c (k0_part279 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part279_eq_skeleton k0_part279_skel

set_option maxRecDepth 65536 in
theorem part_280 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 44, 43, 64, 64, 22, 22, 0, 0, 22, 22, 64, 64, 64, 62⟩ ∗ (∀ out, St m c ⟨3, true, 84, 84, 64, 20, 64, 64, 47, 46, 64, 64, 22, 22, 0, 0, 22, 22, 64, 64, 64, 62⟩ -∗ Kt out))
      ⊢ WP c (k0_part280 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part280_eq_skeleton k0_part280_skel

set_option maxRecDepth 65536 in
theorem part_281 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 47, 46, 64, 64, 22, 22, 0, 0, 22, 22, 64, 64, 64, 62⟩ ∗ (∀ out, St m c ⟨3, true, 84, 84, 64, 20, 64, 64, 50, 49, 64, 64, 22, 22, 0, 0, 22, 22, 64, 64, 64, 62⟩ -∗ Kt out))
      ⊢ WP c (k0_part281 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part281_eq_skeleton k0_part281_skel

set_option maxRecDepth 65536 in
theorem part_282 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 50, 49, 64, 64, 22, 22, 0, 0, 22, 22, 64, 64, 64, 62⟩ ∗ (∀ out, St m c ⟨3, true, 84, 84, 64, 20, 64, 64, 53, 52, 64, 64, 22, 22, 0, 0, 22, 22, 64, 64, 64, 62⟩ -∗ Kt out))
      ⊢ WP c (k0_part282 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part282_eq_skeleton k0_part282_skel

set_option maxRecDepth 65536 in
theorem part_283 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 53, 52, 64, 64, 22, 22, 0, 0, 22, 22, 64, 64, 64, 62⟩ ∗ (∀ out, St m c ⟨3, true, 84, 84, 64, 20, 64, 64, 56, 55, 64, 64, 22, 22, 0, 0, 22, 22, 64, 64, 64, 62⟩ -∗ Kt out))
      ⊢ WP c (k0_part283 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part283_eq_skeleton k0_part283_skel

set_option maxRecDepth 65536 in
theorem part_284 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 56, 55, 64, 64, 22, 22, 0, 0, 22, 22, 64, 64, 64, 62⟩ ∗ (∀ out, St m c ⟨3, true, 84, 84, 64, 20, 64, 64, 59, 58, 64, 64, 22, 22, 0, 0, 22, 22, 64, 64, 64, 62⟩ -∗ Kt out))
      ⊢ WP c (k0_part284 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part284_eq_skeleton k0_part284_skel

set_option maxRecDepth 65536 in
theorem part_285 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 59, 58, 64, 64, 22, 22, 0, 0, 22, 22, 64, 64, 64, 62⟩ ∗ (∀ out, St m c ⟨3, true, 84, 84, 64, 20, 64, 64, 62, 61, 64, 64, 22, 22, 0, 0, 22, 22, 64, 64, 64, 62⟩ -∗ Kt out))
      ⊢ WP c (k0_part285 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part285_eq_skeleton k0_part285_skel

set_option maxRecDepth 65536 in
theorem part_286 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 62, 61, 64, 64, 22, 22, 0, 0, 22, 22, 64, 64, 64, 62⟩ ∗ (∀ out, St m c ⟨3, true, 84, 84, 64, 20, 64, 64, 64, 64, 64, 64, 22, 22, 1, 0, 22, 22, 64, 64, 64, 62⟩ -∗ Kt out))
      ⊢ WP c (k0_part286 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part286_eq_skeleton k0_part286_skel

set_option maxRecDepth 65536 in
theorem part_287 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 64, 64, 64, 64, 22, 22, 1, 0, 22, 22, 64, 64, 64, 62⟩ ∗ (∀ out, St m c ⟨3, true, 84, 84, 64, 20, 64, 64, 64, 64, 64, 64, 22, 22, 7, 0, 22, 22, 64, 64, 64, 62⟩ -∗ Kt out))
      ⊢ WP c (k0_part287 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part287_eq_skeleton k0_part287_skel

set_option maxRecDepth 65536 in
theorem part_288 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 64, 64, 64, 64, 22, 22, 7, 0, 22, 22, 64, 64, 64, 62⟩ ∗ (∀ out, St m c ⟨3, true, 84, 84, 64, 20, 64, 64, 64, 64, 64, 64, 22, 22, 13, 0, 22, 22, 64, 64, 64, 62⟩ -∗ Kt out))
      ⊢ WP c (k0_part288 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part288_eq_skeleton k0_part288_skel

set_option maxRecDepth 65536 in
theorem part_289 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 64, 64, 64, 64, 22, 22, 13, 0, 22, 22, 64, 64, 64, 62⟩ ∗ (∀ out, St m c ⟨3, true, 84, 84, 64, 20, 64, 64, 64, 64, 64, 64, 22, 22, 19, 0, 22, 22, 64, 64, 64, 62⟩ -∗ Kt out))
      ⊢ WP c (k0_part289 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part289_eq_skeleton k0_part289_skel

set_option maxRecDepth 65536 in
theorem part_290 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 64, 64, 64, 64, 22, 22, 19, 0, 22, 22, 64, 64, 64, 62⟩ ∗ (∀ out, St m c ⟨3, true, 84, 84, 64, 20, 64, 64, 64, 64, 64, 64, 22, 22, 22, 3, 22, 22, 64, 64, 64, 62⟩ -∗ Kt out))
      ⊢ WP c (k0_part290 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part290_eq_skeleton k0_part290_skel

set_option maxRecDepth 65536 in
theorem part_291 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 64, 64, 64, 64, 22, 22, 22, 3, 22, 22, 64, 64, 64, 62⟩ ∗ (∀ out, St m c ⟨3, true, 84, 84, 64, 20, 64, 64, 64, 64, 64, 64, 22, 22, 22, 9, 22, 22, 64, 64, 64, 62⟩ -∗ Kt out))
      ⊢ WP c (k0_part291 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part291_eq_skeleton k0_part291_skel

set_option maxRecDepth 65536 in
theorem part_292 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 64, 64, 64, 64, 22, 22, 22, 9, 22, 22, 64, 64, 64, 62⟩ ∗ (∀ out, St m c ⟨3, true, 84, 84, 64, 20, 64, 64, 64, 64, 64, 64, 22, 22, 22, 15, 22, 22, 64, 64, 64, 62⟩ -∗ Kt out))
      ⊢ WP c (k0_part292 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part292_eq_skeleton k0_part292_skel

set_option maxRecDepth 65536 in
theorem part_293 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 64, 64, 64, 64, 22, 22, 22, 15, 22, 22, 64, 64, 64, 62⟩ ∗ (∀ out, St m c ⟨3, true, 84, 84, 64, 20, 64, 64, 64, 64, 64, 64, 22, 22, 22, 21, 22, 22, 64, 64, 64, 62⟩ -∗ Kt out))
      ⊢ WP c (k0_part293 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part293_eq_skeleton k0_part293_skel

end Cert.KernelIdeal.AG

end
-- ==== Proof.Seq.lean ====
/-
  Running the printed parts in sequence.

  A part of the second level, and the body itself, are printed as a sequence of parts, each handing a tuple of words to the
  rest. Each part's theorem is stated at any continuation, so the sequence is proved by applying, part after part, the part's
  theorem at the continuation that runs the rest: the weakest precondition of `p >>= rest` is that of `p` at the weakest
  precondition of `rest`. The state's counters after one part are the counters before the next.
-/
import proofs.«900672_g7700000000000673_dist_ag_v7x_xyz2x2x2_z_m32768_n1024_f32_1_alg».proof.Proof.Parts

noncomputable section

namespace Cert.KernelIdeal.AG

open Cert.KernelIdeal Cert.KernelIdeal.Gen Cert.KernelIdeal.AGDev Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Lean Elab Tactic Meta

/-! ## Parts in sequence

A part of the second level, and the body itself, run printed parts one after the other, each handing a tuple of words to the
rest. `ag_seq` reads the part `k0_partN` at the head, applies its theorem `part_N` at the continuation that runs the rest, then
takes the returned tuple apart; a fact the part tells about what it returns (the device it read; the barrier semaphore) is
substituted. -/

/-- The number `N` when the constant is the printed part `k0_partN`. -/
private def partNum? : Name → Option Nat
  | .str _ s => if s.startsWith "k0_part" then (s.drop 7).toNat? else none
  | _ => none

/-- Take a tuple apart into its components, as far as it goes. -/
private partial def splitTuple (g : MVarId) (x : FVarId) : MetaM MVarId := g.withContext do
  let ty ← whnfD (← x.getType)
  if ty.isAppOf ``PSigma || ty.isAppOf ``PUnit then
    match (← g.cases x) with
    | #[s] =>
      if h : 1 < s.fields.size then
        let e := s.fields[1]
        if e.isFVar then splitTuple s.mvarId e.fvarId! else pure s.mvarId
      else pure s.mvarId
    | _ => throwError "ag_seq: a returned value that is not a tuple"
  else pure g

/-- Close `g` by the theorem `lem`, all of whose arguments its conclusion fixes. -/
private def closeBy (g : MVarId) (lem : Name) : MetaM Bool := g.withContext do
  let c ← mkConstWithFreshMVarLevels lem
  let (xs, bis, concl) ← forallMetaTelescope (← inferType c)
  unless (← isDefEq concl (← g.getType)) do return false
  for x in xs, bi in bis do
    unless (← x.mvarId!.isAssigned) do
      if bi.isInstImplicit then x.mvarId!.assign (← synthInstance (← inferType x))
  g.assign (mkAppN c xs)
  return true

elab "ag_seq" : tactic => withMainContext do
  let g₀ ← getMainGoal
  let others := (← getGoals).tail
  let P ← pieces (← instantiateMVars (← g₀.getType))
  let prog ← whnfCore P.rargs[P.rargs.size - 2]!
  let (p, bound) := if prog.isAppOfArity ``Bind.bind 6 then (prog.getAppArgs[4]!, true) else (prog, false)
  let some N := (p.getAppFn.constName?).bind partNum? | throwError "ag_seq: the program is not at a printed part"
  let lem := `Cert.KernelIdeal.AG ++ Name.mkSimple s!"part_{N}"
  if !bound then
    -- the part is all that is left: its theorem is the goal
    unless (← closeBy g₀ lem) do throwError "ag_seq: {lem} does not fit the goal"
    setGoals others
    return
  let find (nm : String) : TacticM MVarId := do
    for g in (← getGoals) do
      if others.contains g then continue
      if let .str _ s := (← g.getTag).eraseMacroScopes then
        if s == nm then return g
    throwError "ag_seq: the chain lemma's goal {nm} was not found"
  let s ← saveState
  evalTactic (← `(tactic| apply part_chain))
  let mut fact := false
  unless (← closeBy (← find "hpart") lem) do
    s.restore
    evalTactic (← `(tactic| apply part_chain_fact))
    unless (← closeBy (← find "hpart") lem) do throwError "ag_seq: {lem} does not fit the head of the program"
    fact := true
  let gr ← find "hrest"
  let (x, gr) ← gr.intro1
  let gr ← splitTuple gr x
  setGoals [gr]
  if fact then
    let h := mkIdent `hout
    let h' := mkIdent `hout'
    evalTactic (← `(tactic| (intro $h:ident; dsimp only at $h:ident; have $h':ident := Eq.symm $h:ident; subst $h':ident)))
  -- the goal as a plain application again (introducing and substituting may leave it annotated)
  let g ← getMainGoal
  let t ← instantiateMVars (← g.getType)
  replaceMainGoal [← g.replaceTargetDefEq t.consumeMData.headBeta]
  normGoal
  setGoals ((← getGoals) ++ others)

/-- Every part in sequence, one after the other; a part whose theorem does not fit is reported where it stands. -/
elab "ag_seqs" : tactic => do
  repeat
    if (← getGoals).isEmpty then break
    let atPart ← withMainContext do
      let P ← pieces (← instantiateMVars (← getMainTarget))
      let prog ← whnfCore P.rargs[P.rargs.size - 2]!
      let p := if prog.isAppOfArity ``Bind.bind 6 then prog.getAppArgs[4]! else prog
      return ((p.getAppFn.constName?).bind partNum?).isSome
    unless atPart do break
    evalTactic (← `(tactic| ag_seq))

/-- The return of the body, which returns nothing: the state goes to the continuation. -/
theorem part_ret_unit (m : (ℓ : Loc nD τ sig) → Buf (Elt F) ℓ) (K : CellIx → ℕ) (c : Dev nD) (n : Cnt) (Kt : PUnit → sProp 𝕄) :
    iprop(Ctx m K ∗ St m c n ∗ (St m c n -∗ Kt ⟨⟩)) ⊢ WP c (.ret ⟨⟩) Kt := by
  iintro ⟨-, HS, HK⟩
  iapply (le_wp_ret frame (wpE (defs₀ (F := F)) 𝒱₀ (c : Thread nD τ) none) Set.univ PUnit.unit Kt)
  iapply HK
  iexact HS

/-- A printed part of the second level, or the body: its parts in sequence, then whatever effects it has of its own, then its return. -/
macro "ag_parts " eq:ident skel:ident : tactic => `(tactic| (
  rw [$eq:ident]; unfold $skel:ident
  ag_seqs
  try simp only [semSignalWord, semWaitWord, Prog.lift, Prog.bind_op, Prog.bind_ret, Prog.pure_eq_ret, wp_deviceId]
  try ag_steps
  first
    | done
    | exact part_ret _ _ _ _ _ _
    | exact part_ret_fact _ _ _ _ _ _ (by rfl) _
    | exact part_ret_unit _ _ _ _ _))

/-- info: 'Cert.KernelIdeal.AG.part_ret_unit' depends on axioms: [propext, Classical.choice, Quot.sound] -/
#guard_msgs in #print axioms part_ret_unit

end Cert.KernelIdeal.AG

end
-- ==== Proof.Body.lean ====
/-
  The body whole. Its printed text is five stretches of up to sixty leaf parts each, then three last waits. Each
  stretch runs its leaves in order, from the counters its first leaf starts at to those its last leaf ends at: the first
  covers the barrier, the 84 copies to the z-peer and the first twelve trips of the forward loop; the second and third the
  rest of that loop and the start of the relay loop; the fourth the relay loop and half of the last receives; the fifth the
  remaining receives and the waits for the device's own sends. The body is the five in sequence and the three waits.
-/
import proofs.«900672_g7700000000000673_dist_ag_v7x_xyz2x2x2_z_m32768_n1024_f32_1_alg».proof.Proof.LaunchDefs
import proofs.«900672_g7700000000000673_dist_ag_v7x_xyz2x2x2_z_m32768_n1024_f32_1_alg».proof.Proof.Leaves
import proofs.«900672_g7700000000000673_dist_ag_v7x_xyz2x2x2_z_m32768_n1024_f32_1_alg».proof.Proof.Seq

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
/-- The first stretch reads the device id, which it returns first: its continuation learns that it is `c`. -/
theorem part_294 (m : (ℓ : Loc nD τ sig) → Buf (Elt F) ℓ) (K : CellIx → ℕ) (c : Dev nD) (Kt : (Σ' (d0 : Dev nD) (v2 : BitVec 32) (v5 : BitVec 32) (v8 : BitVec 32) (v9 : BitVec 32) (v12 : BitVec 32) (v14 : BitVec 32) (v16 : BitVec 32) (v18 : BitVec 32) (v23 : BitVec 32) (v34 : BitVec 32) (v45 : BitVec 32) (v56 : BitVec 32) (v57 : BitVec 32), BitVec 32) → sProp 𝕄) :
    iprop(Ctx m K ∗ St m c ⟨0, false, 0, 0, 0, 0, 0, 0, 0, 0, 0, 0, 0, 0, 0, 0, 0, 0, 0, 0, 0, 0⟩ ∗ (∀ out, ⌜(fun out => out.1 = c) out⌝ -∗ St m c ⟨3, true, 84, 0, 12, 0, 12, 11, 0, 0, 0, 0, 0, 0, 0, 0, 0, 0, 11, 11, 11, 9⟩ -∗ Kt out))
      ⊢ WP c (k0_part294 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12) Kt := by
  ag_parts k0_part294_eq_skeleton k0_part294_skel

set_option maxRecDepth 65536 in
theorem part_295 (m : (ℓ : Loc nD τ sig) → Buf (Elt F) ℓ) (K : CellIx → ℕ) (c : Dev nD) (v2 v5 v8 v9 v12 v14 v16 v18 v23 v57 v59 : BitVec 32) (Kt : (PUnit) → sProp 𝕄) :
    iprop(Ctx m K ∗ St m c ⟨3, true, 84, 0, 12, 0, 12, 11, 0, 0, 0, 0, 0, 0, 0, 0, 0, 0, 11, 11, 11, 9⟩ ∗ (∀ out, St m c ⟨3, true, 84, 0, 43, 0, 43, 43, 0, 0, 0, 0, 0, 0, 0, 0, 0, 0, 43, 43, 42, 41⟩ -∗ Kt out))
      ⊢ WP c (k0_part295 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v57 v59) Kt := by
  ag_parts k0_part295_eq_skeleton k0_part295_skel

set_option maxRecDepth 65536 in
theorem part_296 (m : (ℓ : Loc nD τ sig) → Buf (Elt F) ℓ) (K : CellIx → ℕ) (c : Dev nD) (v2 v5 v8 v9 v12 v14 v16 v18 v23 v34 v45 v57 v59 : BitVec 32) (Kt : (BitVec 32) → sProp 𝕄) :
    iprop(Ctx m K ∗ St m c ⟨3, true, 84, 0, 43, 0, 43, 43, 0, 0, 0, 0, 0, 0, 0, 0, 0, 0, 43, 43, 42, 41⟩ ∗ (∀ out, St m c ⟨3, true, 84, 0, 64, 0, 64, 64, 0, 0, 18, 17, 17, 0, 0, 0, 0, 0, 64, 64, 64, 62⟩ -∗ Kt out))
      ⊢ WP c (k0_part296 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v34 v45 v57 v59) Kt := by
  ag_parts k0_part296_eq_skeleton k0_part296_skel

set_option maxRecDepth 65536 in
theorem part_297 (m : (ℓ : Loc nD τ sig) → Buf (Elt F) ℓ) (K : CellIx → ℕ) (c : Dev nD) (v8 v12 v14 v16 v18 v34 v45 v56 v59 v5701 : BitVec 32) (Kt : (Σ' (v7668 : BitVec 32), BitVec 32) → sProp 𝕄) :
    iprop(Ctx m K ∗ St m c ⟨3, true, 84, 0, 64, 0, 64, 64, 0, 0, 18, 17, 17, 0, 0, 0, 0, 0, 64, 64, 64, 62⟩ ∗ (∀ out, St m c ⟨3, true, 84, 0, 64, 0, 64, 64, 0, 0, 64, 64, 22, 22, 0, 0, 22, 11, 64, 64, 64, 62⟩ -∗ Kt out))
      ⊢ WP c (k0_part297 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v56 v59 v5701) Kt := by
  ag_parts k0_part297_eq_skeleton k0_part297_skel

set_option maxRecDepth 65536 in
theorem part_298 (m : (ℓ : Loc nD τ sig) → Buf (Elt F) ℓ) (K : CellIx → ℕ) (c : Dev nD) (v2 v5 v8 v9 v16 v18 v56 v59 v7668 c1_i32_5793 : BitVec 32) (Kt : (PUnit) → sProp 𝕄) :
    iprop(Ctx m K ∗ St m c ⟨3, true, 84, 0, 64, 0, 64, 64, 0, 0, 64, 64, 22, 22, 0, 0, 22, 11, 64, 64, 64, 62⟩ ∗ (∀ out, St m c ⟨3, true, 84, 84, 64, 20, 64, 64, 64, 64, 64, 64, 22, 22, 22, 21, 22, 22, 64, 64, 64, 62⟩ -∗ Kt out))
      ⊢ WP c (k0_part298 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v16 v18 v56 v59 v7668 c1_i32_5793) Kt := by
  ag_parts k0_part298_eq_skeleton k0_part298_skel

set_option maxRecDepth 65536 in
/-- The body on device `c`, from the state where nothing has happened to the state where everything has: the five
    stretches in sequence, then the last relay's send wait and the waits of the last two local copies. -/
theorem body_all (m : (ℓ : Loc nD τ sig) → Buf (Elt F) ℓ) (K : CellIx → ℕ) (c : Dev nD) (Kt : PUnit → sProp 𝕄) :
    iprop(Ctx m K ∗ St m c Cnt.start ∗ (St m c Cnt.done -∗ Kt ⟨⟩))
      ⊢ WP c (cc0_body (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6
          cc0_scratch7 cc0_scratch8 cc0_scratch9 cc0_scratch10 cc0_scratch11 cc0_scratch12) Kt := by
  ag_parts cc0_body_eq_skeleton cc0_body_skel

/-- info: 'Cert.KernelIdeal.AG.body_all' depends on axioms: [propext, Classical.choice, Quot.sound] -/
#guard_msgs in #print axioms body_all

end Cert.KernelIdeal.AG

end
-- ==== Proof.Run.lean ====
/-
  The run of the whole mesh, from the launch theorem.
  No window is staged, so the pipeline has one point and no cell of its own: the library's body obligation is the body's
  own theorem between the state where nothing has happened and the state where everything has, with what the device owes
  at launch before it and nothing owed after it. The launch theorem then mints the protocol's ghost state, deals it, lets
  every device enter its body and leave it, and reads the final memory.
-/
import proofs.«900672_g7700000000000673_dist_ag_v7x_xyz2x2x2_z_m32768_n1024_f32_1_alg».proof.Proof.Ghost
import proofs.«900672_g7700000000000673_dist_ag_v7x_xyz2x2x2_z_m32768_n1024_f32_1_alg».proof.Proof.Entry
import proofs.«900672_g7700000000000673_dist_ag_v7x_xyz2x2x2_z_m32768_n1024_f32_1_alg».proof.Proof.Exit
import proofs.«900672_g7700000000000673_dist_ag_v7x_xyz2x2x2_z_m32768_n1024_f32_1_alg».proof.Proof.Body

noncomputable section

namespace Cert.KernelIdeal.AG

open Cert.KernelIdeal Cert.KernelIdeal.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one point's body, in the library's form -/

omit [FloatOps F] in
/-- No window is staged: a separating conjunction over the windows is empty. -/
private theorem bigSep_W0 (Φ : Fin cfg0.W → sProp 𝕄) : bigSep Finset.univ Φ = iprop(emp) := by
  rw [show (Finset.univ : Finset (Fin cfg0.W)) = ∅ from Finset.univ_eq_empty]; exact bigSep_empty

/-- The invariant before the point with what is owed at launch is the state where nothing has happened, at some record of
    the cells' invariants. -/
private theorem St_start_intro (c : Dev nD) :
    iprop(Φ₀ m c ∗ (dats (F := F) m 0 c).owesAt () t0_0.castSucc) ⊢ iprop(∃ K : CellIx → ℕ, Ctx m K ∗ St m c Cnt.start) := by
  unfold Φ₀ St
  iintro ⟨⟨%K, Hctx, HR⟩, ⟨%W, -, HO⟩⟩
  iexists K
  isplitl [Hctx]; · iexact Hctx
  isplitl [HO]
  · iexists W; iexact HO
  iexact HR

/-- The state where everything has happened owes nothing: it is the invariant after the point with nothing owed. -/
private theorem St_done_elim (c : Dev nD) :
    St m c Cnt.done ⊢ iprop(Φ₁ m c ∗ (dats (F := F) m 0 c).owesAt () t0_0.succ) := by
  unfold Φ₁ St
  rw [Owed_zero c Cnt.done rfl rfl rfl rfl rfl rfl]
  iintro ⟨⟨%W, HO⟩, HR⟩
  isplitl [HR]; · iexact HR
  iexists W
  isplitr; · ipureintro; exact fun _ _ => Or.inl trivial
  iexact HO

/-! ## The run -/

section
-- the printed body enters only by name: the table's row at the body's label is compared with it without unfolding its text
attribute [local irreducible] cc0_body
set_option maxRecDepth 16384 in
/-- The library's body obligation on device `c`: the one point's body from `Φ₀` and what is owed at launch to `Φ₁` and nothing owed. -/
theorem body_obligation (c : Dev nD) : BodyObligation (dats (F := F) m 0 c) (defs₀ (F := F)) 𝒱₀ () Set.univ := fun t => by
  rw [Gen.fin_N0 t]
  rw [bigSep_W0, bigSep_W0]
  show iprop(Φ₀ m c ∗ (dats (F := F) m 0 c).owesAt () t0_0.castSucc ∗ emp)
    ⊢ WP c (cc0_body (F := F) (Memref.whole main_arg0) (Memref.isWhole_whole _) (Memref.whole main_v1) (Memref.isWhole_whole _)
        (Memref.whole cc0_scratch0) (Memref.isWhole_whole _) cc0_scratch1 cc0_scratch2 cc0_scratch3 cc0_scratch4 cc0_scratch5 cc0_scratch6
        cc0_scratch7 cc0_scratch8 cc0_scratch9 cc0_scratch10 cc0_scratch11 cc0_scratch12)
      (fun _ => iprop(Φ₁ m c ∗ (dats (F := F) m 0 c).owesAt () t0_0.succ ∗ emp))
  iintro ⟨HΦ, HO, -⟩
  ihave Hs := (St_start_intro m c) $$ [HΦ HO]
  · isplitl [HΦ] <;> iassumption
  icases Hs with ⟨%K, Hctx, Hst⟩
  iapply (body_all m K c fun _ => iprop(Φ₁ m c ∗ (dats (F := F) m 0 c).owesAt () t0_0.succ ∗ emp))
  isplitl [Hctx]; · iexact Hctx
  isplitl [Hst]; · iexact Hst
  iintro Hd
  ihave Hd' := (St_done_elim m c) $$ Hd
  icases Hd' with ⟨H1, H2⟩
  isplitl [H1]; · iexact H1
  isplitl [H2]; · iexact H2
  iempintro
end

/-! ### The theorem's side conditions -/

/-- The kernel's own semaphores are its 516 DMA semaphores: all scoped, distinct, and (no window being staged) none a staging
    semaphore. -/
theorem ownSemFacts : Pipeline.OwnSemFacts cfg0.spec osem :=
  ⟨fun k => by revert k; decide, fun _ _ h => SemLoc.dma.inj h, fun _ w _ => w.elim0⟩

omit [FloatOps F] in
/-- Only TensorCore threads wait. -/
theorem L_of_ne (g : GSem nD τ sig) (h : g.1.2 ≠ .tc) : L g = ∅ := if_neg h

/-- The pipeline itself waits on nothing: no window is staged. -/
theorem waits (c : Dev nD) : (levAts L lv : sProp 𝕄) ⊢ Pipeline.cellsWaits cfgs (dats (F := F) m) () 0 c :=
  Pipeline.cellsWaits_intro cfgs (dats (F := F) m) () 0 c fun w _ _ => w.elim0

/-- At the compiled mesh of eight devices, for any contents, from any memory with zero counters: every weakly fair
    execution terminates, nothing faults, every device's result array ends at the gathered result and its argument block
    as it was. -/
theorem run_kernel : θ_run defs (onTc (τ := τ) (main (F := F))) (s₀ m ρ) (fun r => ∀ c : Dev nD,
    r.2.mem ((c.tc : Thread nD τ).loc main_v1) = goal m c
    ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats (F := F) m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0)
    (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob_ag m)
    (hA := fun _ w => w.elim0) (hpf := fun _ k => k.elim0)
    (X := X m) (Y := Y m) (Z := fun _ => iprop(emp))
    (hX := start_intro m ρ) (hin := phi0_intro m) (hout := phi1_exit m)
    (QY := QY m)
    (hY := read_final m)
    (hQ := fun _ h c => (h c).2.2)

/-- info: 'Cert.KernelIdeal.AG.run_kernel' depends on axioms: [propext, Classical.choice, Quot.sound] -/
#guard_msgs in #print axioms run_kernel

end Cert.KernelIdeal.AG

end
-- ==== Proof.W.Cells.lean ====
/-
  The cells, the slices and the landing predicate of the all-gather.
  A device's DMA semaphores are the 516 cells of one pool, laid out family by family; the result array is cut
  into chunks of 128 rows (and, for the local copies, of 512 rows); and every copy that lands on a device, remote or
  local, leaves the rows it wrote equal to the device's gathered result there: that one fact is every landing's payload.
-/
import proofs.«900672_g7700000000000673_dist_ag_v7x_xyz2x2x2_z_m32768_n1024_f32_1_alg».proof.Proof.Contents
import proofs.«900672_g7700000000000673_dist_ag_v7x_xyz2x2x2_z_m32768_n1024_f32_1_alg».proof.Proof.Gen.Kernel
import proofs.«900672_g7700000000000673_dist_ag_v7x_xyz2x2x2_z_m32768_n1024_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The arrays -/

abbrev xM : Memref sig .tc .hbm S32768x1024 .f32 := Memref.whole main_arg0
abbrev oM : Memref sig .tc .hbm S65536x1024 .f32 := Memref.whole main_v1
abbrev vM : Memref sig .tc .vmem S2x512x1024 .f32 := Memref.whole cc0_scratch0

/-- Every device's argument block, as launched. -/
abbrev xs (d : Fin nDev) : S32768x1024.Idx → Elt F .f32 := m ((d : Thread nD τ).loc main_arg0)

/-- What device `d`'s result must end as. -/
abbrev goal (d : Dev nD) : Buf (Elt F) ((d : Thread nD τ).loc main_v1) := gathered (xs m) d

/-! ## Element sets: ranges of rows -/

/-- Rows `R … R + n` of the result array, all columns. -/
def rows (R n : Nat) : Finset S65536x1024.Idx := Finset.univ.filter fun i => R ≤ (i 0).val ∧ (i 0).val < R + n
/-- Rows `R … R + n` of the argument block, all columns. -/
def xrows (R n : Nat) : Finset S32768x1024.Idx := Finset.univ.filter fun i => R ≤ (i 0).val ∧ (i 0).val < R + n
/-- One of the two slots of the staging buffer of the local copies. -/
def slot (s : Nat) : Finset S2x512x1024.Idx := Finset.univ.filter fun i => (i 0).val = s

/-! ## What a set of elements holds -/

/-- Elements of device `d`'s result array at the gathered result. -/
def holdsOn (d : Dev nD) (S : Finset S65536x1024.Idx) : sProp 𝕄 :=
  iprop(∃ f : Buf (Elt F) ((d : Thread nD τ).loc main_v1),
    (((d : Thread nD τ).loc main_v1) ↦[S]{fullShare} f) ∗ ⌜∀ i ∈ S, f i = goal m d i⌝)
/-- The same elements at the gathered result, held at a share `q` (a chunk read by two copies at once). -/
def holdsAt (q : PosShare TreeShare) (d : Dev nD) (S : Finset S65536x1024.Idx) : sProp 𝕄 :=
  iprop(∃ f : Buf (Elt F) ((d : Thread nD τ).loc main_v1),
    (((d : Thread nD τ).loc main_v1) ↦[S]{q} f) ∗ ⌜∀ i ∈ S, f i = goal m d i⌝)
/-- Elements of device `d`'s result array at contents nobody has promised anything about: lent to the device that will write them. -/
def lentOn (d : Dev nD) (S : Finset S65536x1024.Idx) : sProp 𝕄 :=
  iprop(∃ f : Buf (Elt F) ((d : Thread nD τ).loc main_v1), (((d : Thread nD τ).loc main_v1) ↦[S]{fullShare} f))
/-- Rows of device `d`'s argument block at a share, unchanged. -/
def xAt (q : PosShare TreeShare) (d : Dev nD) (S : Finset S32768x1024.Idx) : sProp 𝕄 :=
  (((d : Thread nD τ).loc main_arg0) ↦[S]{q} m ((d : Thread nD τ).loc main_arg0))
/-- A slot of the staging buffer at some contents. -/
def slotAny (d : Dev nD) (s : Nat) : sProp 𝕄 :=
  iprop(∃ f : Buf (Elt F) ((d : Thread nD τ).loc cc0_scratch0), (((d : Thread nD τ).loc cc0_scratch0) ↦[slot s]{fullShare} f))
/-- A slot of the staging buffer holding rows `512·k …` of the device's argument block. -/
def slotHas (d : Dev nD) (s k : Nat) : sProp 𝕄 :=
  iprop(∃ f : Buf (Elt F) ((d : Thread nD τ).loc cc0_scratch0), (((d : Thread nD τ).loc cc0_scratch0) ↦[slot s]{fullShare} f)
    ∗ ⌜∀ i ∈ slot s, ∀ h : 512 * k + (i 1).val < 32768,
        f i = m ((d : Thread nD τ).loc main_arg0) (Shape.pair (d := ![32768, 1024]) ⟨512 * k + (i 1).val, h⟩ ⟨(i 2).val, (i 2).isLt⟩)⌝)

/-! ## Which rows each copy moves (z the device's plane, r its ring position) -/

/-- The first row of the half the device does not own, and of the one it owns. -/
def fbase (d : Dev nD) : Nat := (1 - (zc d).val) * 32768
def mbase (d : Dev nD) : Nat := (zc d).val * 32768
/-- The first row of the quarter `k` steps further round the ring. -/
def qrow (d : Dev nD) (k : Nat) : Nat := (((rpos d).val + k) % 4) * 8192

/-- Rows of the argument block the `i`-th copy to the z-peer reads (`i < 84`). -/
def rowZS (d : Dev nD) (i : Nat) : Nat := if i < 64 then qrow d 0 + 128 * i else qrow d 2 + 5632 + 128 * (i - 64)
/-- Rows of the result the `i`-th copy FROM the z-peer writes (`i < 84`). -/
def rowZR (d : Dev nD) (i : Nat) : Nat := fbase d + rowZS d i
/-- Rows written by the previous / next ring device's forward of chunk `i`, -/
def rowH1P (d : Dev nD) (i : Nat) : Nat := fbase d + qrow d 3 + 128 * i
def rowH1N (d : Dev nD) (i : Nat) : Nat := fbase d + qrow d 1 + 128 * i
/-- and by their relays of chunk `j` (from the previous device) and `22 + j` (from the next) of the opposite quarter. -/
def rowH2P (d : Dev nD) (j : Nat) : Nat := fbase d + qrow d 2 + 128 * j
def rowH2N (d : Dev nD) (j : Nat) : Nat := fbase d + qrow d 2 + 128 * (22 + j)
/-- Rows of the result the `k`-th local copy writes. -/
def rowOwn (d : Dev nD) (k : Nat) : Nat := mbase d + 512 * k

/-! ## The cells -/

/-- The runtime's barrier semaphore of collective id 0. -/
abbrev barS : Sem sig := (SemArray.scalar (sig.barrier 0 rfl) : Sems sig S_).sem
abbrev barCell (d : Dev nD) : GSem nD τ sig := ((d : Thread nD τ), .reg barS)
/-- DMA cell `k` of device `d`: 0–1 local in, 2–3 local out, 4–87 sends to the z-peer, 88–171 their receives,
    172–235 / 236–299 sends of the forwards to the next / previous device, 300–363 / 364–427 receives from the previous / next,
    428–449 / 450–471 sends of the relays, 472–493 / 494–515 their receives. -/
abbrev dcell (d : Dev nD) (k : DmaSem sig) : GSem nD τ sig := ((d : Thread nD τ), .dma k)

/-- The credit of one chunk of 128 rows, of one local copy into the staging buffer, and of one out of it. -/
abbrev N128 : Nat := (oM.slice (Rect.unit (s := S65536x1024) ![0, 0] S128x1024.size (by decide)) (fun _ => rfl)).view.dmaCredit

/-- The credit of a local copy into a slot of the staging buffer, and of one out of it into 512 rows of the result. -/
abbrev N512in : Nat := ((vM.slice (Rect.unit (s := S2x512x1024) ![0, 0, 0] S1x512x1024.size inb_S2x512x1024_S1x512x1024_0_0_0) (fun _ => rfl)).squeeze S512x1024 squeezes_S1x512x1024_S512x1024).view.dmaCredit
abbrev N512out : Nat := (oM.slice (Rect.unit (s := S65536x1024) ![0, 0] S512x1024.size (by decide)) (fun _ => rfl)).view.dmaCredit
theorem N128_pos : 0 < N128 := View.dmaCredit_pos _ (by decide)
theorem N512in_pos : 0 < N512in := View.dmaCredit_pos _ (by decide)
theorem N512out_pos : 0 < N512out := View.dmaCredit_pos _ (by decide)

/-! ## The schedule -/

/-- What each signaller hands a device with its barrier signal: the chunks of ITS result array that device will write.
    Duty 0 is the z-peer's, duty 1 the previous ring device's, duty 2 the next one's. -/
def barPay (d : Dev nD) (j : Fin 3) : sProp 𝕄 :=
  match j with
  | 0 => bigSep (Finset.range 84) fun i => lentOn (F := F) (zpeer d) (rows (rowZR (zpeer d) i) 128)
  | 1 => iprop((bigSep (Finset.range 64) fun i => lentOn (F := F) (prv d) (rows (rowH1N (prv d) i) 128))
          ∗ bigSep (Finset.range 22) fun j => lentOn (F := F) (prv d) (rows (rowH2N (prv d) j) 128))
  | 2 => iprop((bigSep (Finset.range 64) fun i => lentOn (F := F) (nxt d) (rows (rowH1P (nxt d) i) 128))
          ∗ bigSep (Finset.range 22) fun j => lentOn (F := F) (nxt d) (rows (rowH2P (nxt d) j) 128))

/-- What the completion of a copy hands the owner of DMA cell `n` of device `d` in round `r`. -/
def dmaPay (d : Dev nD) (n r : Nat) : sProp 𝕄 :=
  if n < 2 then iprop(slotHas m d n (2 * r + n) ∗ xAt m fullShare.right d (xrows (512 * (2 * r + n)) 512))
  else if n < 4 then iprop(holdsOn m d (rows (rowOwn d (2 * r + (n - 2))) 512) ∗ slotAny (F := F) d (n - 2))
  else if n < 88 then xAt m fullShare.left d (xrows (rowZS d (n - 4)) 128)
  else if n < 172 then holdsOn m d (rows (rowZR d (n - 88)) 128)
  else if n < 236 then holdsAt m fullShare.left d (rows (rowZR d (n - 172)) 128)
  else if n < 300 then holdsAt m fullShare.right d (rows (rowZR d (n - 236)) 128)
  else if n < 364 then holdsOn m d (rows (rowH1P d (n - 300)) 128)
  else if n < 428 then holdsOn m d (rows (rowH1N d (n - 364)) 128)
  else if n < 450 then holdsOn m d (rows (rowH1P d (n - 428)) 128)
  else if n < 472 then holdsOn m d (rows (rowH1N d (22 + (n - 450))) 128)
  else if n < 494 then holdsOn m d (rows (rowH2P d (n - 472)) 128)
  else holdsOn m d (rows (rowH2N d (n - 494)) 128)

instance holdsOn_storable (d : Dev nD) (S : Finset S65536x1024.Idx) : BI.Storable (upEmb : UEmb _ 𝕄) (holdsOn (F := F) m d S) := by unfold holdsOn; infer_instance
instance holdsAt_storable (q : PosShare TreeShare) (d : Dev nD) (S : Finset S65536x1024.Idx) : BI.Storable (upEmb : UEmb _ 𝕄) (holdsAt (F := F) m q d S) := by unfold holdsAt; infer_instance
instance lentOn_storable (d : Dev nD) (S : Finset S65536x1024.Idx) : BI.Storable (upEmb : UEmb _ 𝕄) (lentOn (F := F) d S) := by unfold lentOn; infer_instance
instance xAt_storable (q : PosShare TreeShare) (d : Dev nD) (S : Finset S32768x1024.Idx) : BI.Storable (upEmb : UEmb _ 𝕄) (xAt (F := F) m q d S) := by unfold xAt; infer_instance
instance slotAny_storable (d : Dev nD) (s : Nat) : BI.Storable (upEmb : UEmb _ 𝕄) (slotAny (F := F) d s) := by unfold slotAny; infer_instance
instance slotHas_storable (d : Dev nD) (s k : Nat) : BI.Storable (upEmb : UEmb _ 𝕄) (slotHas (F := F) m d s k) := by unfold slotHas; infer_instance
instance barPay_storable (d : Dev nD) (j : Fin 3) : BI.Storable (upEmb : UEmb _ 𝕄) (barPay (F := F) d j) := by
  unfold barPay
  match j with
  | 0 => infer_instance
  | 1 => infer_instance
  | 2 => infer_instance
set_option maxHeartbeats 4000000 in
instance dmaPay_storable (d : Dev nD) (n r : Nat) : BI.Storable (upEmb : UEmb _ 𝕄) (dmaPay (F := F) m d n r) := by
  unfold dmaPay; split_ifs <;> infer_instance

/-- The protocol: the barrier cell has one round of three duties of one unit; the four local cells 32 rounds of one
    copy each; every other DMA cell one round of one copy of a chunk. -/
def agRd : Rounds.Schedule (GSem nD τ sig) (Fin 3) 𝕄 where
  duties g r := match g.2 with
    | .reg _ => if r = 0 then Finset.univ else ∅
    | .dma k => if k.val < 4 then (if r < 32 then {0} else ∅) else (if r = 0 then {0} else ∅)
  unitless _ := False
  amount g _ _ := match g.2 with
    | .reg _ => 1
    | .dma k => if k.val < 2 then N512in else if k.val < 4 then N512out else N128
  payload g r j := match g.2 with
    | .reg _ => barPay (F := F) g.1.1 j
    | .dma k => dmaPay m g.1.1 k.val r
  amount_pos g _ _ _ := by
    cases g.2 with
    | reg _ => exact Nat.one_pos
    | dma k =>
      dsimp only
      split_ifs
      · exact N512in_pos
      · exact N512out_pos
      · exact N128_pos

instance agRd_payload_storable (g : GSem nD τ sig) (r : ℕ) (j : Fin 3) :
    BI.Storable (upEmb : UEmb _ 𝕄) ((agRd (F := F) m).payload g r j) := by
  show BI.Storable upEmb (match g.2 with
    | .reg _ => barPay (F := F) g.1.1 j
    | .dma k => dmaPay m g.1.1 k.val r)
  cases g.2 with
  | reg _ => dsimp only; infer_instance
  | dma k => dsimp only; infer_instance

end Cert.Kernel.AG

end
-- ==== Proof.W.State.lean ====
/-
  The state of one device's body between two of its effects, as counters: how many of each kind of event have
  happened. Each family of events happens in increasing index order, so what the device holds of a family is a
  separating conjunction over an INTERVAL of indices between two counters: the copies not yet enqueued, the copies in
  flight, the receives not yet waited, the chunks held. An effect moves one index from one interval to the next.
-/
import proofs.«900672_g7700000000000673_dist_ag_v7x_xyz2x2x2_z_m32768_n1024_f32_1_alg».proof.Proof.W.Cells

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A separating conjunction over the indices `lo ≤ i < hi`. -/
def seg (lo hi : Nat) (Φ : Nat → sProp 𝕄) : sProp 𝕄 := bigSep (Finset.Ico lo hi) Φ

/-- DMA cell number `n` (below 516) of device `d`. -/
def dcn (d : Dev nD) (n : Nat) : GSem nD τ sig := dcell d ⟨n % 516, Nat.mod_lt _ (by decide)⟩

/-- The counters. `sig`: barrier signals sent (to the z-peer, the next, the previous device, in that order); `bw`: the
    barrier waited. `zs` / `wz`: copies to the z-peer enqueued / their sends waited. `zrw`: receives of the first 64
    z-peer copies waited (the forward loop); `zrd`: of the last 20 (the final loop). `n1` / `p1`: forwards to the next /
    previous device enqueued; `w1n` / `w1p`: their sends waited. `rpw` / `rnw`: receives of the forwards from the previous /
    next device waited. `n2` / `p2`, `w2n` / `w2p`: the same for the 22 relays each way. `h2pw` / `h2nw`: receives of the
    relays waited. `ci` / `ciw`: local copies into the staging buffer enqueued / waited; `co`: copies out of it enqueued;
    `low`: their waits done. -/
structure Cnt where
  sig : Nat
  bw : Bool
  zs : Nat
  wz : Nat
  zrw : Nat
  zrd : Nat
  n1 : Nat
  p1 : Nat
  w1n : Nat
  w1p : Nat
  rpw : Nat
  rnw : Nat
  n2 : Nat
  p2 : Nat
  w2n : Nat
  w2p : Nat
  h2pw : Nat
  h2nw : Nat
  ci : Nat
  ciw : Nat
  co : Nat
  low : Nat
  deriving DecidableEq, Repr

/-- Nothing has happened yet; everything has. -/
def Cnt.start : Cnt := ⟨0, false, 0, 0, 0, 0, 0, 0, 0, 0, 0, 0, 0, 0, 0, 0, 0, 0, 0, 0, 0, 0⟩
def Cnt.done : Cnt := ⟨3, true, 84, 84, 64, 20, 64, 64, 64, 64, 64, 64, 22, 22, 22, 22, 22, 22, 64, 64, 64, 64⟩

/-- The device a barrier signal goes to, in program order, and the duty of that device's barrier cell it pays. -/
def sigPeer (c : Dev nD) (s : Nat) : Dev nD := if s = 0 then zpeer c else if s = 1 then nxt c else prv c
def sigDuty (s : Nat) : Fin 3 := if s = 0 then 0 else if s = 1 then 1 else 2

/-- The chunks of its own result array a device lends with each barrier signal: to the z-peer the 84 it will write, to
    the next device the 64 + 22 it will write, to the previous one likewise. -/
def myLend (c : Dev nD) (s : Nat) : sProp 𝕄 :=
  if s = 0 then seg 0 84 fun i => lentOn (F := F) c (rows (rowZR c i) 128)
  else if s = 1 then iprop((seg 0 64 fun i => lentOn (F := F) c (rows (rowH1N c i) 128)) ∗ seg 0 22 fun j => lentOn (F := F) c (rows (rowH2N c j) 128))
  else iprop((seg 0 64 fun i => lentOn (F := F) c (rows (rowH1P c i) 128)) ∗ seg 0 22 fun j => lentOn (F := F) c (rows (rowH2P c j) 128))

/-- What the device still owes other devices' cells: the barrier units not yet signalled and the arrivals of the
    copies not yet enqueued. -/
def Owed (c : Dev nD) (n : Cnt) : CellTallies nD τ sig Unit :=
  (∑ s ∈ Finset.Ico n.sig 3, tallyAt (barCell (sigPeer c s)) () 1)
  + (∑ i ∈ Finset.Ico n.zs 84, tallyAt (dcn (zpeer c) (88 + i)) () N128)
  + (∑ i ∈ Finset.Ico n.n1 64, tallyAt (dcn (nxt c) (300 + i)) () N128)
  + (∑ i ∈ Finset.Ico n.p1 64, tallyAt (dcn (prv c) (364 + i)) () N128)
  + (∑ j ∈ Finset.Ico n.n2 22, tallyAt (dcn (nxt c) (472 + j)) () N128)
  + (∑ j ∈ Finset.Ico n.p2 22, tallyAt (dcn (prv c) (494 + j)) () N128)

/-- A cell of one round the device has not waited yet: its position and the credit for its one copy; -/
def pend (g : GSem nD τ sig) : sProp 𝕄 := iprop(atPos ER g 0 ∅ 0 ∗ cred (tallyAt g () N128))
/-- the two tokens an addressed copy pays with: the issuer's send cell's and the target's receive cell's. -/
def toks (gs gr : GSem nD τ sig) : sProp 𝕄 := iprop(dutyTok ER gs 0 0 ∗ dutyTok ER gr 0 0)

/-- The position of a local cell (slot `s`) after `w` waits on the two local cells of its kind together: at the round it
    has reached, or closed after its 32 rounds. -/
def locPos (g : GSem nD τ sig) (s w : Nat) : sProp 𝕄 :=
  if (w + 1 - s) / 2 < 32 then iprop(atPos ER g ((w + 1 - s) / 2) ∅ 0 ∗ reached ER g ((w + 1 - s) / 2)) else semVal g 0

/-- THE STATE, all but what the device owes. -/
def StR (c : Dev nD) (n : Cnt) : sProp 𝕄 :=
  iprop(
    -- the barrier: the signals still to send, each with its token and what it lends; its own cell until waited
    (seg n.sig 3 fun s => iprop(dutyTok ER (barCell (sigPeer c s)) 0 (sigDuty s) ∗ myLend (F := F) c s))
    ∗ (if n.bw then iprop(emp) else iprop(atPos ER (barCell c) 0 ∅ 0 ∗ cred (tallyAt (barCell c) () 3)))
    -- what the three peers lent it (from the barrier wait on), not yet written
    ∗ (if n.bw then iprop(
          (seg n.zs 84 fun i => lentOn (F := F) (zpeer c) (rows (rowZR (zpeer c) i) 128))
          ∗ (seg n.n1 64 fun i => lentOn (F := F) (nxt c) (rows (rowH1P (nxt c) i) 128))
          ∗ (seg n.p1 64 fun i => lentOn (F := F) (prv c) (rows (rowH1N (prv c) i) 128))
          ∗ (seg n.n2 22 fun j => lentOn (F := F) (nxt c) (rows (rowH2P (nxt c) j) 128))
          ∗ (seg n.p2 22 fun j => lentOn (F := F) (prv c) (rows (rowH2N (prv c) j) 128))) else iprop(emp))
    -- the copies to the z-peer: tokens and source rows before, credit in flight, the rows back and the cell closed after
    ∗ (seg n.zs 84 fun i => iprop(toks (dcn c (4 + i)) (dcn (zpeer c) (88 + i)) ∗ xAt m fullShare.left c (xrows (rowZS c i) 128)))
    ∗ (seg n.wz n.zs fun i => cred (tallyAt (dcn c (4 + i)) () N128))
    ∗ (seg n.wz 84 fun i => atPos ER (dcn c (4 + i)) 0 ∅ 0)
    ∗ (seg 0 n.wz fun i => iprop(semVal (dcn c (4 + i)) 0 ∗ xAt m fullShare.left c (xrows (rowZS c i) 128)))
    -- their receives: the first 64 waited in the forward loop, the last 20 in the final loop
    ∗ (seg n.zrw 64 fun i => pend (dcn c (88 + i))) ∗ (seg 0 n.zrw fun i => semVal (dcn c (88 + i)) 0)
    ∗ (seg n.zrd 20 fun j => pend (dcn c (152 + j)))
    ∗ (seg 0 n.zrd fun j => iprop(semVal (dcn c (152 + j)) 0 ∗ holdsOn m c (rows (rowZR c (64 + j)) 128)))
    -- a received chunk of its own quarter: each half held from the receive until its forward, and again after the send is waited
    ∗ (seg n.n1 n.zrw fun i => holdsAt m fullShare.left c (rows (rowZR c i) 128)) ∗ (seg 0 n.w1n fun i => holdsAt m fullShare.left c (rows (rowZR c i) 128))
    ∗ (seg n.p1 n.zrw fun i => holdsAt m fullShare.right c (rows (rowZR c i) 128)) ∗ (seg 0 n.w1p fun i => holdsAt m fullShare.right c (rows (rowZR c i) 128))
    -- the forwards: tokens before, credit in flight, the send cell's position until waited, closed after
    ∗ (seg n.n1 64 fun i => toks (dcn c (172 + i)) (dcn (nxt c) (300 + i))) ∗ (seg n.w1n n.n1 fun i => cred (tallyAt (dcn c (172 + i)) () N128))
    ∗ (seg n.w1n 64 fun i => atPos ER (dcn c (172 + i)) 0 ∅ 0) ∗ (seg 0 n.w1n fun i => semVal (dcn c (172 + i)) 0)
    ∗ (seg n.p1 64 fun i => toks (dcn c (236 + i)) (dcn (prv c) (364 + i))) ∗ (seg n.w1p n.p1 fun i => cred (tallyAt (dcn c (236 + i)) () N128))
    ∗ (seg n.w1p 64 fun i => atPos ER (dcn c (236 + i)) 0 ∅ 0) ∗ (seg 0 n.w1p fun i => semVal (dcn c (236 + i)) 0)
    -- the forwards it receives: from the previous device (chunks 0..21 are relayed on to the next device) and from the next (22..43 relayed back)
    ∗ (seg n.rpw 64 fun i => pend (dcn c (300 + i))) ∗ (seg 0 n.rpw fun i => semVal (dcn c (300 + i)) 0)
    ∗ (seg n.n2 (min n.rpw 22) fun i => holdsOn m c (rows (rowH1P c i) 128)) ∗ (seg 0 n.w2n fun i => holdsOn m c (rows (rowH1P c i) 128))
    ∗ (seg 22 n.rpw fun i => holdsOn m c (rows (rowH1P c i) 128))
    ∗ (seg n.rnw 64 fun i => pend (dcn c (364 + i))) ∗ (seg 0 n.rnw fun i => semVal (dcn c (364 + i)) 0)
    ∗ (seg 0 (min n.rnw 22) fun i => holdsOn m c (rows (rowH1N c i) 128)) ∗ (seg (22 + n.p2) (min n.rnw 44) fun i => holdsOn m c (rows (rowH1N c i) 128))
    ∗ (seg 22 (22 + n.w2p) fun i => holdsOn m c (rows (rowH1N c i) 128)) ∗ (seg 44 n.rnw fun i => holdsOn m c (rows (rowH1N c i) 128))
    -- the relays
    ∗ (seg n.n2 22 fun j => toks (dcn c (428 + j)) (dcn (nxt c) (472 + j))) ∗ (seg n.w2n n.n2 fun j => cred (tallyAt (dcn c (428 + j)) () N128))
    ∗ (seg n.w2n 22 fun j => atPos ER (dcn c (428 + j)) 0 ∅ 0) ∗ (seg 0 n.w2n fun j => semVal (dcn c (428 + j)) 0)
    ∗ (seg n.p2 22 fun j => toks (dcn c (450 + j)) (dcn (prv c) (494 + j))) ∗ (seg n.w2p n.p2 fun j => cred (tallyAt (dcn c (450 + j)) () N128))
    ∗ (seg n.w2p 22 fun j => atPos ER (dcn c (450 + j)) 0 ∅ 0) ∗ (seg 0 n.w2p fun j => semVal (dcn c (450 + j)) 0)
    -- the relays it receives
    ∗ (seg n.h2pw 22 fun j => pend (dcn c (472 + j))) ∗ (seg 0 n.h2pw fun j => iprop(semVal (dcn c (472 + j)) 0 ∗ holdsOn m c (rows (rowH2P c j) 128)))
    ∗ (seg n.h2nw 22 fun j => pend (dcn c (494 + j))) ∗ (seg 0 n.h2nw fun j => iprop(semVal (dcn c (494 + j)) 0 ∗ holdsOn m c (rows (rowH2N c j) 128)))
    -- the local copies, slot k % 2, round k / 2 of the slot's two cells
    ∗ (seg n.ci 64 fun k => iprop(dutyTok ER (dcn c (k % 2)) (k / 2) 0 ∗ xAt m fullShare.right c (xrows (512 * k) 512)))
    ∗ (seg n.ciw n.ci fun k => cred (tallyAt (dcn c (k % 2)) () N512in))
    ∗ (seg 0 n.ciw fun k => xAt m fullShare.right c (xrows (512 * k) 512))
    ∗ locPos (dcn c 0) 0 n.ciw ∗ locPos (dcn c 1) 1 n.ciw
    ∗ (seg n.ci (n.low + 2) fun k => slotAny (F := F) c (k % 2)) ∗ (seg n.co n.ciw fun k => slotHas m c (k % 2) k)
    ∗ (seg n.co 64 fun k => iprop(dutyTok ER (dcn c (2 + k % 2)) (k / 2) 0 ∗ lentOn (F := F) c (rows (rowOwn c k) 512)))
    ∗ (seg n.low n.co fun k => cred (tallyAt (dcn c (2 + k % 2)) () N512out))
    ∗ (seg 0 n.low fun k => holdsOn m c (rows (rowOwn c k) 512))
    ∗ locPos (dcn c 2) 0 n.low ∗ locPos (dcn c 3) 1 n.low)

/-- THE STATE: what the device owes other devices' cells (at some record of the waits it has made), and the rest. -/
def St (c : Dev nD) (n : Cnt) : sProp 𝕄 := iprop((∃ W, owes (c : Thread nD τ) (Owed c n) W) ∗ StR m c n)

end Cert.Kernel.AG

end
-- ==== Proof.W.Tables.lean ====
/-
  The schedule of the all-gather, read at one cell.
  Every rule that steps a signal, a copy or a wait asks what the schedule says at the one cell it touches: which
  duties the round has, what a duty contributes, how many units the round expects, what a duty's units hand the
  cell's owner, and what the payloads of a whole round amount to. This module answers those questions once, for an
  arbitrary device and an arbitrary index inside each family of cells.
-/
import proofs.«900672_g7700000000000673_dist_ag_v7x_xyz2x2x2_z_m32768_n1024_f32_1_alg».proof.Proof.W.Cells

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The barrier cell: one round, the three neighbours' signals of one unit each -/

theorem duties_bar (d : Dev nD) : (agRd (F := F) m).duties (barCell d) 0 = Finset.univ := by
  dsimp only [agRd]; exact if_pos rfl

theorem duties_bar_later (d : Dev nD) (r : Nat) (h : 1 ≤ r) : (agRd (F := F) m).duties (barCell d) r = ∅ := by
  dsimp only [agRd]; exact if_neg (by omega)

theorem amount_bar (d : Dev nD) (r : Nat) (j : Fin 3) : (agRd (F := F) m).amount (barCell d) r j = 1 := rfl

theorem expect_bar (d : Dev nD) : (agRd (F := F) m).expect (barCell d) 0 = 3 := by
  unfold Schedule.expect Schedule.amountOf
  rw [duties_bar, Finset.sum_congr rfl fun j _ => amount_bar m d 0 j, Finset.sum_const, Finset.card_univ, Fintype.card_fin,
    smul_eq_mul]

theorem payload_bar (d : Dev nD) (j : Fin 3) : (agRd (F := F) m).payload (barCell d) 0 j = barPay (F := F) d j := rfl

/-- The whole of the barrier round, no duty taken: the three neighbours' loans, in the order of the duties. -/
theorem rest_bar (d : Dev nD) :
    bigSep ((agRd (F := F) m).duties (barCell d) 0 \ ∅) (fun j => (agRd (F := F) m).payload (barCell d) 0 j)
      = iprop(barPay (F := F) d 0 ∗ barPay (F := F) d 1 ∗ barPay (F := F) d 2) := by
  rw [Finset.sdiff_empty, duties_bar, bigSep_univ_eq_bigSepL [0, 1, 2] (by decide) (by decide), bigSepL_cons_cons, bigSepL_cons_cons,
    bigSepL_singleton, payload_bar, payload_bar, payload_bar]
  rfl

/-! ## The cells of one copy (index 4 and above): one round, one duty, a chunk's credit -/

theorem duties_dma (d : Dev nD) (k : DmaSem sig) (hk : 4 ≤ k.val) : (agRd (F := F) m).duties (dcell d k) 0 = {0} := by
  dsimp only [agRd]; rw [if_neg (by omega), if_pos rfl]

theorem duties_dma_later (d : Dev nD) (k : DmaSem sig) (hk : 4 ≤ k.val) (r : Nat) (h : 1 ≤ r) : (agRd (F := F) m).duties (dcell d k) r = ∅ := by
  dsimp only [agRd]; rw [if_neg (by omega), if_neg (by omega)]

theorem amount_dma (d : Dev nD) (k : DmaSem sig) (hk : 4 ≤ k.val) (r : Nat) (j : Fin 3) : (agRd (F := F) m).amount (dcell d k) r j = N128 := by
  dsimp only [agRd]; rw [if_neg (by omega), if_neg (by omega)]

theorem expect_dma (d : Dev nD) (k : DmaSem sig) (hk : 4 ≤ k.val) : (agRd (F := F) m).expect (dcell d k) 0 = N128 := by
  unfold Schedule.expect Schedule.amountOf; rw [duties_dma m d k hk, Finset.sum_singleton, amount_dma m d k hk]

theorem payload_dma (d : Dev nD) (k : DmaSem sig) (r : Nat) (j : Fin 3) : (agRd (F := F) m).payload (dcell d k) r j = dmaPay m d k.val r := rfl

theorem rest_dma (d : Dev nD) (k : DmaSem sig) (hk : 4 ≤ k.val) :
    bigSep ((agRd (F := F) m).duties (dcell d k) 0 \ ∅) (fun j => (agRd (F := F) m).payload (dcell d k) 0 j) = dmaPay m d k.val 0 := by
  rw [Finset.sdiff_empty, duties_dma m d k hk, bigSep_singleton, payload_dma]

/-! ## The four cells of the local copies (index below 4): 32 rounds, one copy a round -/

theorem duties_loc (d : Dev nD) (k : DmaSem sig) (hk : k.val < 4) (r : Nat) (hr : r < 32) : (agRd (F := F) m).duties (dcell d k) r = {0} := by
  dsimp only [agRd]; rw [if_pos hk, if_pos hr]

theorem duties_loc_later (d : Dev nD) (k : DmaSem sig) (hk : k.val < 4) (r : Nat) (hr : 32 ≤ r) : (agRd (F := F) m).duties (dcell d k) r = ∅ := by
  dsimp only [agRd]; rw [if_pos hk, if_neg (by omega)]

theorem amount_lin (d : Dev nD) (k : DmaSem sig) (hk : k.val < 2) (r : Nat) (j : Fin 3) : (agRd (F := F) m).amount (dcell d k) r j = N512in := by
  dsimp only [agRd]; rw [if_pos hk]

theorem amount_lout (d : Dev nD) (k : DmaSem sig) (hk : 2 ≤ k.val) (hk' : k.val < 4) (r : Nat) (j : Fin 3) :
    (agRd (F := F) m).amount (dcell d k) r j = N512out := by
  dsimp only [agRd]; rw [if_neg (by omega), if_pos hk']

theorem expect_lin (d k) (hk : k.val < 2) (r) (hr : r < 32) : (agRd (F := F) m).expect (dcell d k) r = N512in := by
  unfold Schedule.expect Schedule.amountOf
  rw [duties_loc m d k (by omega) r hr, Finset.sum_singleton, amount_lin m d k hk]

theorem expect_lout (d k) (hk : 2 ≤ k.val) (hk' : k.val < 4) (r) (hr : r < 32) : (agRd (F := F) m).expect (dcell d k) r = N512out := by
  unfold Schedule.expect Schedule.amountOf
  rw [duties_loc m d k hk' r hr, Finset.sum_singleton, amount_lout m d k hk hk']

/-- The whole of a local cell's round `r`, no duty taken: the one copy's payload. -/
theorem rest_loc (d k) (hk : k.val < 4) (r) (hr : r < 32) :
    bigSep ((agRd (F := F) m).duties (dcell d k) r \ ∅) (fun j => (agRd (F := F) m).payload (dcell d k) r j) = dmaPay m d k.val r := by
  rw [Finset.sdiff_empty, duties_loc m d k hk r hr, bigSep_singleton, payload_dma]

/-! ## The payload of each family, in closed form

The payload of a DMA cell is chosen by comparing the cell's index with the families' bases, one after another; at the
cell of base `b` and index `i` every comparison is decided by arithmetic, and the index inside the family, `b + i - b`, is `i`. -/

/-- A local copy into slot `s` of the staging buffer, round `r`: the slot holds block `2 r + s` of the argument, and the share of those rows comes back. -/
theorem dmaPay_lin (d) (s : Nat) (hs : s < 2) (r : Nat) :
    dmaPay m d s r = iprop(slotHas m d s (2 * r + s) ∗ xAt m fullShare.right d (xrows (512 * (2 * r + s)) 512)) := by
  unfold dmaPay; rw [if_pos hs]

/-- A local copy out of slot `s`, round `r`: block `2 r + s` of the device's own half holds the gathered result, and the slot is free again. -/
theorem dmaPay_lout (d) (s : Nat) (hs : s < 2) (r : Nat) :
    dmaPay m d (2 + s) r = iprop(holdsOn m d (rows (rowOwn d (2 * r + s)) 512) ∗ slotAny (F := F) d s) := by
  unfold dmaPay
  rw [if_neg (show ¬ 2 + s < 2 by omega), if_pos (show 2 + s < 4 by omega), Nat.add_sub_cancel_left]

/-- The send cells of the copies to the z-peer: the share of the rows read comes back. -/
theorem dmaPay_zs (d) (i : Nat) (hi : i < 84) (r : Nat) :
    dmaPay m d (4 + i) r = xAt m fullShare.left d (xrows (rowZS d i) 128) := by
  unfold dmaPay
  rw [if_neg (show ¬ 4 + i < 2 by omega), if_neg (show ¬ 4 + i < 4 by omega), if_pos (show 4 + i < 88 by omega),
    Nat.add_sub_cancel_left]

/-- The receive cells of the z-peer's copies: the chunk written holds the gathered result. -/
theorem dmaPay_zr (d) (i : Nat) (hi : i < 84) (r : Nat) :
    dmaPay m d (88 + i) r = holdsOn m d (rows (rowZR d i) 128) := by
  unfold dmaPay
  rw [if_neg (show ¬ 88 + i < 2 by omega), if_neg (show ¬ 88 + i < 4 by omega), if_neg (show ¬ 88 + i < 88 by omega), if_pos (show 88 + i < 172 by omega),
    Nat.add_sub_cancel_left]

/-- The send cells of the forwards to the next device: the left half of the chunk read comes back. -/
theorem dmaPay_h1sn (d) (i : Nat) (hi : i < 64) (r : Nat) :
    dmaPay m d (172 + i) r = holdsAt m fullShare.left d (rows (rowZR d i) 128) := by
  unfold dmaPay
  rw [if_neg (show ¬ 172 + i < 2 by omega), if_neg (show ¬ 172 + i < 4 by omega), if_neg (show ¬ 172 + i < 88 by omega), if_neg (show ¬ 172 + i < 172 by omega), if_pos (show 172 + i < 236 by omega),
    Nat.add_sub_cancel_left]

/-- The send cells of the forwards to the previous device: the right half comes back. -/
theorem dmaPay_h1sp (d) (i : Nat) (hi : i < 64) (r : Nat) :
    dmaPay m d (236 + i) r = holdsAt m fullShare.right d (rows (rowZR d i) 128) := by
  unfold dmaPay
  rw [if_neg (show ¬ 236 + i < 2 by omega), if_neg (show ¬ 236 + i < 4 by omega), if_neg (show ¬ 236 + i < 88 by omega), if_neg (show ¬ 236 + i < 172 by omega), if_neg (show ¬ 236 + i < 236 by omega), if_pos (show 236 + i < 300 by omega),
    Nat.add_sub_cancel_left]

/-- The receive cells of the previous device's forwards. -/
theorem dmaPay_h1rp (d) (i : Nat) (hi : i < 64) (r : Nat) :
    dmaPay m d (300 + i) r = holdsOn m d (rows (rowH1P d i) 128) := by
  unfold dmaPay
  rw [if_neg (show ¬ 300 + i < 2 by omega), if_neg (show ¬ 300 + i < 4 by omega), if_neg (show ¬ 300 + i < 88 by omega), if_neg (show ¬ 300 + i < 172 by omega), if_neg (show ¬ 300 + i < 236 by omega), if_neg (show ¬ 300 + i < 300 by omega), if_pos (show 300 + i < 364 by omega),
    Nat.add_sub_cancel_left]

/-- The receive cells of the next device's forwards. -/
theorem dmaPay_h1rn (d) (i : Nat) (hi : i < 64) (r : Nat) :
    dmaPay m d (364 + i) r = holdsOn m d (rows (rowH1N d i) 128) := by
  unfold dmaPay
  rw [if_neg (show ¬ 364 + i < 2 by omega), if_neg (show ¬ 364 + i < 4 by omega), if_neg (show ¬ 364 + i < 88 by omega), if_neg (show ¬ 364 + i < 172 by omega), if_neg (show ¬ 364 + i < 236 by omega), if_neg (show ¬ 364 + i < 300 by omega), if_neg (show ¬ 364 + i < 364 by omega), if_pos (show 364 + i < 428 by omega),
    Nat.add_sub_cancel_left]

/-- The send cells of the relays to the next device: the chunk read, received from the previous one, comes back. -/
theorem dmaPay_h2sn (d) (j : Nat) (hj : j < 22) (r : Nat) :
    dmaPay m d (428 + j) r = holdsOn m d (rows (rowH1P d j) 128) := by
  unfold dmaPay
  rw [if_neg (show ¬ 428 + j < 2 by omega), if_neg (show ¬ 428 + j < 4 by omega), if_neg (show ¬ 428 + j < 88 by omega), if_neg (show ¬ 428 + j < 172 by omega), if_neg (show ¬ 428 + j < 236 by omega), if_neg (show ¬ 428 + j < 300 by omega), if_neg (show ¬ 428 + j < 364 by omega), if_neg (show ¬ 428 + j < 428 by omega), if_pos (show 428 + j < 450 by omega),
    Nat.add_sub_cancel_left]

/-- The send cells of the relays to the previous device: the chunk read, received from the next one, comes back. -/
theorem dmaPay_h2sp (d) (j : Nat) (hj : j < 22) (r : Nat) :
    dmaPay m d (450 + j) r = holdsOn m d (rows (rowH1N d (22 + j)) 128) := by
  unfold dmaPay
  rw [if_neg (show ¬ 450 + j < 2 by omega), if_neg (show ¬ 450 + j < 4 by omega), if_neg (show ¬ 450 + j < 88 by omega), if_neg (show ¬ 450 + j < 172 by omega), if_neg (show ¬ 450 + j < 236 by omega), if_neg (show ¬ 450 + j < 300 by omega), if_neg (show ¬ 450 + j < 364 by omega), if_neg (show ¬ 450 + j < 428 by omega), if_neg (show ¬ 450 + j < 450 by omega), if_pos (show 450 + j < 472 by omega),
    Nat.add_sub_cancel_left]

/-- The receive cells of the previous device's relays. -/
theorem dmaPay_h2rp (d) (j : Nat) (hj : j < 22) (r : Nat) :
    dmaPay m d (472 + j) r = holdsOn m d (rows (rowH2P d j) 128) := by
  unfold dmaPay
  rw [if_neg (show ¬ 472 + j < 2 by omega), if_neg (show ¬ 472 + j < 4 by omega), if_neg (show ¬ 472 + j < 88 by omega), if_neg (show ¬ 472 + j < 172 by omega), if_neg (show ¬ 472 + j < 236 by omega), if_neg (show ¬ 472 + j < 300 by omega), if_neg (show ¬ 472 + j < 364 by omega), if_neg (show ¬ 472 + j < 428 by omega), if_neg (show ¬ 472 + j < 450 by omega), if_neg (show ¬ 472 + j < 472 by omega), if_pos (show 472 + j < 494 by omega),
    Nat.add_sub_cancel_left]

/-- The receive cells of the next device's relays. -/
theorem dmaPay_h2rn (d) (j : Nat) (hj : j < 22) (r : Nat) :
    dmaPay m d (494 + j) r = holdsOn m d (rows (rowH2N d j) 128) := by
  unfold dmaPay
  rw [if_neg (show ¬ 494 + j < 2 by omega), if_neg (show ¬ 494 + j < 4 by omega), if_neg (show ¬ 494 + j < 88 by omega), if_neg (show ¬ 494 + j < 172 by omega), if_neg (show ¬ 494 + j < 236 by omega), if_neg (show ¬ 494 + j < 300 by omega), if_neg (show ¬ 494 + j < 364 by omega), if_neg (show ¬ 494 + j < 428 by omega), if_neg (show ¬ 494 + j < 450 by omega), if_neg (show ¬ 494 + j < 472 by omega), if_neg (show ¬ 494 + j < 494 by omega),
    Nat.add_sub_cancel_left]

/-- info: 'Cert.Kernel.AG.rest_bar' depends on axioms: [propext, Classical.choice, Quot.sound] -/
#guard_msgs in #print axioms rest_bar

/-- info: 'Cert.Kernel.AG.rest_dma' depends on axioms: [propext, Classical.choice, Quot.sound] -/
#guard_msgs in #print axioms rest_dma

/-- info: 'Cert.Kernel.AG.rest_loc' depends on axioms: [propext, Classical.choice, Quot.sound] -/
#guard_msgs in #print axioms rest_loc

/-- info: 'Cert.Kernel.AG.dmaPay_h2rn' depends on axioms: [propext, Classical.choice, Quot.sound] -/
#guard_msgs in #print axioms dmaPay_h2rn

end Cert.Kernel.AG

end
-- ==== Proof.W.Ctx.lean ====
/-
  What a step of the body is stated against: the record of every cell's invariant, the levels, the weakest
  precondition of a piece of the body on a device, and the slices as the printed body spells them.
-/
import proofs.«900672_g7700000000000673_dist_ag_v7x_xyz2x2x2_z_m32768_n1024_f32_1_alg».proof.Proof.W.State
import proofs.«900672_g7700000000000673_dist_ag_v7x_xyz2x2x2_z_m32768_n1024_f32_1_alg».proof.Proof.W.Tables

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What every device knows: the cells' invariants and that every cell has reached round 0; the levels -/

/-- A cell of the protocol: a device's barrier cell (`none`) or one of its 516 DMA cells. -/
abbrev CellIx : Type := Dev nD × Option (DmaSem sig)
def kcell (x : CellIx) : GSem nD τ sig := match x.2 with | none => barCell x.1 | some k => dcell x.1 k

/-- The invariants of all cells of all devices at the names `K`, and that each has reached round 0. -/
def recs (K : CellIx → ℕ) : sProp 𝕄 :=
  iprop((bigSep Finset.univ fun x : CellIx => cellInv ER (agRd m) (K x) (kcell x)) ∗ bigSep Finset.univ fun x : CellIx => reached ER (kcell x) 0)

instance recs_persistent (K : CellIx → ℕ) : BI.Persistent (recs m K) := by unfold recs; infer_instance

/-- Only TensorCore threads wait. A device waits its barrier while owing every arrival, a receive from the z-peer while
    owing forwards and relays, a forward's receive while owing relays: so barrier cells sit at 1, the z-peer's receives at
    2, the forwards' at 3, the relays' at 4; send cells and local cells, which nobody owes, at 0. -/
def L (g : GSem nD τ sig) : Finset Unit := if g.1.2 = .tc then {()} else ∅
def lv (g : GSem nD τ sig) (_ : Unit) : ℕ := match g.2 with
  | .reg _ => 1
  | .dma k => if k.val < 88 then 0 else if k.val < 172 then 2 else if k.val < 300 then 0 else if k.val < 428 then 3 else if k.val < 472 then 0 else 4

/-- What a step needs beside the state. -/
def Ctx (K : CellIx → ℕ) : sProp 𝕄 := iprop(recs m K ∗ levAts L lv)
instance Ctx_persistent (K : CellIx → ℕ) : BI.Persistent (Ctx m K) := by unfold Ctx; infer_instance

abbrev 𝒱₀ : Variants := Variants.none

/-- The weakest precondition of a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The slices, as the printed body spells them -/

abbrev oS128 (off : Fin 2 → Nat) (h : ∀ a, off a + S128x1024.size a ≤ S65536x1024.size a) : Memref sig .tc .hbm S128x1024 .f32 :=
  oM.slice (Rect.unit (s := S65536x1024) off S128x1024.size h) (fun _ => rfl)
abbrev xS128 (off : Fin 2 → Nat) (h : ∀ a, off a + S128x1024.size a ≤ S32768x1024.size a) : Memref sig .tc .hbm S128x1024 .f32 :=
  xM.slice (Rect.unit (s := S32768x1024) off S128x1024.size h) (fun _ => rfl)
abbrev oS512 (off : Fin 2 → Nat) (h : ∀ a, off a + S512x1024.size a ≤ S65536x1024.size a) : Memref sig .tc .hbm S512x1024 .f32 :=
  oM.slice (Rect.unit (s := S65536x1024) off S512x1024.size h) (fun _ => rfl)
abbrev xS512 (off : Fin 2 → Nat) (h : ∀ a, off a + S512x1024.size a ≤ S32768x1024.size a) : Memref sig .tc .hbm S512x1024 .f32 :=
  xM.slice (Rect.unit (s := S32768x1024) off S512x1024.size h) (fun _ => rfl)
abbrev vSl (s : Nat) (h : ∀ a, (![s, 0, 0] : Fin 3 → Nat) a + S1x512x1024.size a ≤ S2x512x1024.size a) : Memref sig .tc .vmem S512x1024 .f32 :=
  (vM.slice (Rect.unit (s := S2x512x1024) ![s, 0, 0] S1x512x1024.size h) (fun _ => rfl)).squeeze S512x1024 squeezes_S1x512x1024_S512x1024

end Cert.Kernel.AG

end
-- ==== Proof.W.Base.lean ====
/-
  What every step's proof uses: an interval loses its first index or gains a last one; what is owed loses the tally of
  the copy just enqueued; a DMA cell named by its number; a wait is admissible when the waited cell's level is below
  the level of every cell still owed; one cell's invariant out of the record of all.
-/
import proofs.«900672_g7700000000000673_dist_ag_v7x_xyz2x2x2_z_m32768_n1024_f32_1_alg».proof.Proof.W.Ctx

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Intervals -/

/-- An interval of naturals is its first index and the rest; one longer, it is itself and its last index. -/
private theorem Ico_pop {lo hi : Nat} (h : lo < hi) : Finset.Ico lo hi = insert lo (Finset.Ico (lo + 1) hi) := by
  ext x; simp only [Finset.mem_insert, Finset.mem_Ico]; omega
private theorem Ico_push {lo hi : Nat} (h : lo ≤ hi) : Finset.Ico lo (hi + 1) = insert hi (Finset.Ico lo hi) := by
  ext x; simp only [Finset.mem_insert, Finset.mem_Ico]; omega

theorem seg_pop {lo hi : Nat} (h : lo < hi) (Φ : Nat → sProp 𝕄) : seg lo hi Φ = iprop(Φ lo ∗ seg (lo + 1) hi Φ) := by
  unfold seg
  rw [Ico_pop h]
  exact bigSep_insert (by simp)
theorem seg_push {lo hi : Nat} (h : lo ≤ hi) (Φ : Nat → sProp 𝕄) : seg lo (hi + 1) Φ = iprop(seg lo hi Φ ∗ Φ hi) := by
  unfold seg
  rw [Ico_push h]
  exact (bigSep_insert (by simp)).trans (Std.Commutative.comm (op := (BI.sep : sProp 𝕄 → _ → _)) _ _)
theorem seg_empty {lo hi : Nat} (h : hi ≤ lo) (Φ : Nat → sProp 𝕄) : seg lo hi Φ = iprop(emp) := by
  unfold seg
  rw [Finset.Ico_eq_empty (by omega)]
  rfl
theorem seg_congr {lo hi : Nat} {Φ Ψ : Nat → sProp 𝕄} (h : ∀ i, lo ≤ i → i < hi → Φ i = Ψ i) : seg lo hi Φ = seg lo hi Ψ :=
  bigSep_congr fun i hi => h i (Finset.mem_Ico.mp hi).1 (Finset.mem_Ico.mp hi).2
/-- An interval cut at a point inside it. -/
theorem seg_split {lo mid hi : Nat} (h1 : lo ≤ mid) (h2 : mid ≤ hi) (Φ : Nat → sProp 𝕄) : seg lo hi Φ = iprop(seg lo mid Φ ∗ seg mid hi Φ) := by
  unfold seg
  rw [← Finset.Ico_union_Ico_eq_Ico h1 h2]
  exact bigSep_union (Finset.Ico_disjoint_Ico_consecutive lo mid hi)
theorem seg_sep {lo hi : Nat} (Φ Ψ : Nat → sProp 𝕄) : seg lo hi (fun i => iprop(Φ i ∗ Ψ i)) = iprop(seg lo hi Φ ∗ seg lo hi Ψ) :=
  bigSep_sep' _ Φ Ψ

/-! ## DMA cells by number -/

theorem dcn_of_val (d : Dev nD) (s : DmaSem sig) (k : Nat) (h : s.val = k) : dcell d s = dcn d k := by
  subst h
  have hs : s = ⟨s.val % 516, Nat.mod_lt _ (by decide)⟩ := Fin.ext (Nat.mod_eq_of_lt s.isLt).symm
  unfold dcn
  exact congrArg (fun k => dcell d k) hs
theorem dcn_inj (d : Dev nD) {k k' : Nat} (hk : k < 516) (hk' : k' < 516) (h : dcn d k = dcn d k') : k = k' := by
  unfold dcn at h
  have h1 := SemLoc.dma.inj (Prod.mk.inj h).2
  have h2 : k % 516 = k' % 516 := Fin.mk.inj h1
  rwa [Nat.mod_eq_of_lt hk, Nat.mod_eq_of_lt hk'] at h2
/-- The cell of the global record that DMA cell `k` of device `d` is. -/
theorem kcell_dcn (d : Dev nD) (k : Nat) : kcell (d, some ⟨k % 516, Nat.mod_lt _ (by decide)⟩) = dcn d k := rfl
theorem kcell_bar (d : Dev nD) : kcell (d, none) = barCell d := rfl

/-! ## What is owed loses one tally -/

/-- A sum over an interval is its first summand and the sum over the rest. -/
private theorem sum_pop {lo hi : Nat} (h : lo < hi) (f : Nat → CellTallies nD τ sig Unit) :
    ∑ i ∈ Finset.Ico lo hi, f i = f lo + ∑ i ∈ Finset.Ico (lo + 1) hi, f i := by
  rw [Ico_pop h, Finset.sum_insert (by simp)]

/-- A sum of one-cell tallies is positive at a cell only if that cell is one of the summands'. -/
private theorem sum_tally_pos {lo hi : Nat} (cell : Nat → GSem nD τ sig) (k : Nat) (g : GSem nD τ sig) (u : Unit)
    (h : 0 < (∑ i ∈ Finset.Ico lo hi, tallyAt (cell i) () k) g u) : ∃ i, lo ≤ i ∧ i < hi ∧ g = cell i := by
  by_contra hn
  have hz : (∑ i ∈ Finset.Ico lo hi, tallyAt (cell i) () k) g u = 0 := by
    rw [Finset.sum_apply, Finsupp.finset_sum_apply]
    refine Finset.sum_eq_zero fun i hi => ?_
    rw [tallyAt_apply, if_neg]
    rintro ⟨hg, -⟩
    exact hn ⟨i, (Finset.mem_Ico.mp hi).1, (Finset.mem_Ico.mp hi).2, hg⟩
  omega

/-- The level of a DMA cell by its number. -/
private theorem lv_dcn (d : Dev nD) (k : Nat) (hk : k < 516) (u : Unit) :
    lv (dcn d k) u = if k < 88 then 0 else if k < 172 then 2 else if k < 300 then 0 else if k < 428 then 3 else if k < 472 then 0 else 4 := by
  show (if k % 516 < 88 then 0 else if k % 516 < 172 then 2 else if k % 516 < 300 then 0 else if k % 516 < 428 then 3 else if k % 516 < 472 then 0 else 4) = _
  rw [Nat.mod_eq_of_lt hk]

theorem Owed_sig (c : Dev nD) (n : Cnt) (h : n.sig < 3) : Owed c n = Owed c { n with sig := n.sig + 1 } + tallyAt (barCell (sigPeer c n.sig)) () 1 := by
  unfold Owed
  dsimp only
  rw [sum_pop h]
  ac_rfl
theorem Owed_zs (c : Dev nD) (n : Cnt) (h : n.zs < 84) : Owed c n = Owed c { n with zs := n.zs + 1 } + tallyAt (dcn (zpeer c) (88 + n.zs)) () N128 := by
  unfold Owed
  dsimp only
  rw [sum_pop h]
  ac_rfl
theorem Owed_n1 (c : Dev nD) (n : Cnt) (h : n.n1 < 64) : Owed c n = Owed c { n with n1 := n.n1 + 1 } + tallyAt (dcn (nxt c) (300 + n.n1)) () N128 := by
  unfold Owed
  dsimp only
  rw [sum_pop h]
  ac_rfl
theorem Owed_p1 (c : Dev nD) (n : Cnt) (h : n.p1 < 64) : Owed c n = Owed c { n with p1 := n.p1 + 1 } + tallyAt (dcn (prv c) (364 + n.p1)) () N128 := by
  unfold Owed
  dsimp only
  rw [sum_pop h]
  ac_rfl
theorem Owed_n2 (c : Dev nD) (n : Cnt) (h : n.n2 < 22) : Owed c n = Owed c { n with n2 := n.n2 + 1 } + tallyAt (dcn (nxt c) (472 + n.n2)) () N128 := by
  unfold Owed
  dsimp only
  rw [sum_pop h]
  ac_rfl
theorem Owed_p2 (c : Dev nD) (n : Cnt) (h : n.p2 < 22) : Owed c n = Owed c { n with p2 := n.p2 + 1 } + tallyAt (dcn (prv c) (494 + n.p2)) () N128 := by
  unfold Owed
  dsimp only
  rw [sum_pop h]
  ac_rfl
/-- With every signal and every copy out, nothing is owed. -/
theorem Owed_zero (c : Dev nD) (n : Cnt) (hsig : n.sig = 3) (hzs : n.zs = 84) (hn1 : n.n1 = 64) (hp1 : n.p1 = 64) (hn2 : n.n2 = 22) (hp2 : n.p2 = 22) : Owed c n = 0 := by
  unfold Owed
  rw [hsig, hzs, hn1, hp1, hn2, hp2]
  simp only [Finset.Ico_self, Finset.sum_empty, add_zero]
/-- A cell still owed something is a TensorCore thread's, at the level of its family, by what remains to be sent. -/
theorem Owed_pos (c : Dev nD) (n : Cnt) (g : GSem nD τ sig) (u : Unit) (h : 0 < Owed c n g u) :
    g.1.2 = .tc ∧ ((n.sig < 3 ∧ lv g u = 1) ∨ (n.zs < 84 ∧ lv g u = 2) ∨ ((n.n1 < 64 ∨ n.p1 < 64) ∧ lv g u = 3) ∨ ((n.n2 < 22 ∨ n.p2 < 22) ∧ lv g u = 4)) := by
  unfold Owed at h
  simp only [Pi.add_apply, Finsupp.add_apply] at h
  have hc : ∀ (lo hi : Nat) (cell : Nat → GSem nD τ sig) (k : Nat), 0 < (∑ i ∈ Finset.Ico lo hi, tallyAt (cell i) () k) g u →
      ∃ i, lo ≤ i ∧ i < hi ∧ g = cell i := fun lo hi cell k => sum_tally_pos cell k g u
  have h6 : 0 < (∑ s ∈ Finset.Ico n.sig 3, tallyAt (barCell (sigPeer c s)) () 1) g u
      ∨ 0 < (∑ i ∈ Finset.Ico n.zs 84, tallyAt (dcn (zpeer c) (88 + i)) () N128) g u
      ∨ 0 < (∑ i ∈ Finset.Ico n.n1 64, tallyAt (dcn (nxt c) (300 + i)) () N128) g u
      ∨ 0 < (∑ i ∈ Finset.Ico n.p1 64, tallyAt (dcn (prv c) (364 + i)) () N128) g u
      ∨ 0 < (∑ j ∈ Finset.Ico n.n2 22, tallyAt (dcn (nxt c) (472 + j)) () N128) g u
      ∨ 0 < (∑ j ∈ Finset.Ico n.p2 22, tallyAt (dcn (prv c) (494 + j)) () N128) g u := by omega
  rcases h6 with h | h | h | h | h | h
  · obtain ⟨i, h1, h2, rfl⟩ := hc _ _ _ _ h
    exact ⟨rfl, Or.inl ⟨by omega, rfl⟩⟩
  · obtain ⟨i, h1, h2, rfl⟩ := hc _ _ _ _ h
    refine ⟨rfl, Or.inr (Or.inl ⟨by omega, ?_⟩)⟩
    rw [lv_dcn _ _ (by omega), if_neg (by omega), if_pos (by omega)]
  · obtain ⟨i, h1, h2, rfl⟩ := hc _ _ _ _ h
    refine ⟨rfl, Or.inr (Or.inr (Or.inl ⟨Or.inl (by omega), ?_⟩))⟩
    rw [lv_dcn _ _ (by omega), if_neg (by omega), if_neg (by omega), if_neg (by omega), if_pos (by omega)]
  · obtain ⟨i, h1, h2, rfl⟩ := hc _ _ _ _ h
    refine ⟨rfl, Or.inr (Or.inr (Or.inl ⟨Or.inr (by omega), ?_⟩))⟩
    rw [lv_dcn _ _ (by omega), if_neg (by omega), if_neg (by omega), if_neg (by omega), if_pos (by omega)]
  · obtain ⟨i, h1, h2, rfl⟩ := hc _ _ _ _ h
    refine ⟨rfl, Or.inr (Or.inr (Or.inr ⟨Or.inl (by omega), ?_⟩))⟩
    rw [lv_dcn _ _ (by omega), if_neg (by omega), if_neg (by omega), if_neg (by omega), if_neg (by omega), if_neg (by omega)]
  · obtain ⟨i, h1, h2, rfl⟩ := hc _ _ _ _ h
    refine ⟨rfl, Or.inr (Or.inr (Or.inr ⟨Or.inr (by omega), ?_⟩))⟩
    rw [lv_dcn _ _ (by omega), if_neg (by omega), if_neg (by omega), if_neg (by omega), if_neg (by omega), if_neg (by omega)]

/-! ## A wait is admissible below everything owed -/

theorem mayWait_lvl (c : Dev nD) (sm : SemLoc sig) (O : CellTallies nD τ sig Unit) (t : Nat)
    (hsm : lv ((c : Thread nD τ), sm) () ≤ t) (hO : ∀ g u, 0 < O g u → g.1.2 = .tc ∧ t < lv g u) :
    (levAts L lv : sProp 𝕄) ⊢ MayWait (c : Thread nD τ) sm () O :=
  MayOwe.of_cut (L := L) (lev := lv) t
    (fun p hp => by rw [Finset.mem_singleton.mp hp]; unfold L; rw [if_pos rfl]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

/-! ## One cell out of the record -/

theorem recs_inv (K : CellIx → ℕ) (x : CellIx) : recs m K ⊢ cellInv ER (agRd m) (K x) (kcell x) := by
  have h : (bigSep Finset.univ fun x : CellIx => cellInv ER (agRd m) (K x) (kcell x)) ⊢ cellInv ER (agRd m) (K x) (kcell x) :=
    bigSep_elim (Finset.mem_univ x)
  unfold recs
  iintro ⟨H, -⟩
  iapply h
  iexact H
theorem recs_reached (K : CellIx → ℕ) (x : CellIx) : recs m K ⊢ reached ER (kcell x) 0 := by
  have h : (bigSep Finset.univ fun x : CellIx => reached ER (kcell x) 0 : sProp 𝕄) ⊢ reached ER (kcell x) 0 :=
    bigSep_elim (Finset.mem_univ x)
  unfold recs
  iintro ⟨-, H⟩
  iapply h
  iexact H

/-! ## Halves of a chunk -/

/-- A chunk held whole at the gathered result is its two halves, each at the gathered result, and back. -/
theorem holdsOn_halves (d : Dev nD) (S : Finset S65536x1024.Idx) :
    holdsOn m d S ⊣⊢ iprop(holdsAt m fullShare.left d S ∗ holdsAt m fullShare.right d S) := by
  unfold holdsOn holdsAt
  constructor
  · iintro ⟨%f, Hf, %hf⟩
    ihave H := (pointsTo_share (PosShare.mem_left_op_right fullShare)).1 $$ Hf
    icases H with ⟨H1, H2⟩
    isplitl [H1]
    · iexists f
      isplitl [H1]
      · iexact H1
      · ipureintro; exact hf
    · iexists f
      isplitl [H2]
      · iexact H2
      · ipureintro; exact hf
  · iintro ⟨⟨%f, Hf, %hf⟩, ⟨%g, Hg, %hg⟩⟩
    -- both halves are at the gathered result on `S`, so the second is at the first's contents there
    ihave Hg' := (Entails.of_eq (pointsTo_congr (q := fullShare.right) (f := g) (g := f) (fun i hi => (hg i hi).trans (hf i hi).symm))) $$ Hg
    iexists f
    isplitl [Hf Hg']
    · iapply (pointsTo_share (PosShare.mem_left_op_right fullShare)).2
      isplitl [Hf]
      · iexact Hf
      · iexact Hg'
    · ipureintro; exact hf

end Cert.Kernel.AG

end
-- ==== Proof.W.LaunchDefs.lean ====
/-
  The launch's vocabulary: the cells and duty tokens as minted, what each device owes at launch, what it is dealt, what it enters its body with and what it leaves with.
-/
import proofs.«900672_g7700000000000673_dist_ag_v7x_xyz2x2x2_z_m32768_n1024_f32_1_alg».proof.Proof.W.Base
import proofs.«900672_g7700000000000673_dist_ag_v7x_xyz2x2x2_z_m32768_n1024_f32_1_alg».proof.Proof.Gen.Kernel.Frame
import proofs.«900672_g7700000000000673_dist_ag_v7x_xyz2x2x2_z_m32768_n1024_f32_1_alg».proof.Proof.Gen.Kernel.Points

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells and the duty tokens, as minted -/

theorem kcell_injective : Function.Injective (kcell : CellIx → GSem nD τ sig) := by
  rintro ⟨c, o⟩ ⟨c', o'⟩ h
  have h1 : c = c' := by
    have := congrArg (fun g : GSem nD τ sig => g.1.1) h
    cases o <;> cases o' <;> exact this
  subst h1
  cases o with
  | none =>
    cases o' with
    | none => rfl
    | some k' =>
      have h2 : SemLoc.reg barS = SemLoc.dma k' := congrArg Prod.snd h
      cases h2
  | some k =>
    cases o' with
    | none =>
      have h2 : SemLoc.dma k = SemLoc.reg barS := congrArg Prod.snd h
      cases h2
    | some k' =>
      have h2 : SemLoc.dma k = SemLoc.dma k' := congrArg Prod.snd h
      rw [SemLoc.dma.inj h2]
def agCells : Finset (GSem nD τ sig) := Finset.univ.map ⟨kcell, kcell_injective⟩

/-- A device's own cells' duty tokens: its barrier's three; one for each of its 512 one-round DMA cells; one per round
    for its four local cells. -/
abbrev TokIx : Type := Dev nD × (Fin 3 ⊕ (Fin 512 ⊕ (Fin 4 × Fin 32)))
def tokOf (x : TokIx) : GSem nD τ sig × ℕ × Fin 3 := match x.2 with
  | .inl j => (barCell x.1, 0, j)
  | .inr (.inl i) => (dcn x.1 (4 + i.val), 0, 0)
  | .inr (.inr (s, r)) => (dcn x.1 s.val, r.val, 0)
theorem tokOf_injective : Function.Injective (tokOf : TokIx → GSem nD τ sig × ℕ × Fin 3) := by
  -- a barrier cell is no DMA cell
  have bar_ne (d : Dev nD) (n : Nat) : barCell d ≠ dcn d n := fun h => by
    unfold dcn at h
    have h2 := (Prod.mk.inj h).2
    cases h2
  rintro ⟨c, t⟩ ⟨c', t'⟩ h
  have h1 : c = c' := by
    have := congrArg (fun x : GSem nD τ sig × ℕ × Fin 3 => x.1.1.1) h
    rcases t with j | i | ⟨s, r⟩ <;> rcases t' with j' | i' | ⟨s', r'⟩ <;> exact this
  subst h1
  have hg := congrArg (fun x : GSem nD τ sig × ℕ × Fin 3 => x.1) h
  have hr := congrArg (fun x : GSem nD τ sig × ℕ × Fin 3 => x.2.1) h
  have hj := congrArg (fun x : GSem nD τ sig × ℕ × Fin 3 => x.2.2) h
  rcases t with j | i | ⟨s, r⟩ <;> rcases t' with j' | i' | ⟨s', r'⟩
  -- the same kind: the duty, the cell's number, or the cell's number and the round decide; different kinds differ in the cell
  · have : j = j' := hj
    rw [this]
  · exact absurd hg (bar_ne c (4 + i'.val))
  · exact absurd hg (bar_ne c s'.val)
  · exact absurd hg.symm (bar_ne c (4 + i.val))
  · have h3 : 4 + i.val = 4 + i'.val := dcn_inj c (by have := i.isLt; omega) (by have := i'.isLt; omega) hg
    have : i = i' := Fin.ext (by omega)
    rw [this]
  · have h3 : 4 + i.val = s'.val := dcn_inj c (by have := i.isLt; omega) (by have := s'.isLt; omega) hg
    exact absurd h3 (by have := s'.isLt; omega)
  · exact absurd hg.symm (bar_ne c s.val)
  · have h3 : s.val = 4 + i'.val := dcn_inj c (by have := s.isLt; omega) (by have := i'.isLt; omega) hg
    exact absurd h3 (by have := s.isLt; omega)
  · have h3 : s.val = s'.val := dcn_inj c (by have := s.isLt; omega) (by have := s'.isLt; omega) hg
    have hs : s = s' := Fin.ext h3
    have hr' : r = r' := Fin.ext hr
    rw [hs, hr']
def agToks : Finset (GSem nD τ sig × ℕ × Fin 3) := Finset.univ.map ⟨tokOf, tokOf_injective⟩

/-- The launch's resource: the pipeline library's copy (no staging cells here) and the protocol's. -/
def u₀ : UU :=
  (initOf (Pipeline.cells cfgs cellOf_inj) (Pipeline.launchToks cfgs cellOf_inj), initOf agCells agToks)

/-! ## What each device owes at launch, and the kernel's own semaphores -/

def O₀ (c : Dev nD) : CellTallies nD τ sig Unit := Owed c Cnt.start
/-- The kernel's own (scoped) semaphores: all 516 DMA semaphores. -/
abbrev osem : DmaSem sig → SemLoc sig := fun k => .dma k

/-! ## What the launch deals a device, and what the global step makes of it -/

/-- Dealt to device `c`: the round states of its 517 cells, their positions and that each has reached round 0, and its own
    cells' duty tokens. -/
def G (c : Dev nD) : sProp 𝕄 :=
  iprop((bigSep Finset.univ fun o : Option (DmaSem sig) => roundState ER (agRd m) (kcell (c, o)) 0)
    ∗ (bigSep Finset.univ fun o : Option (DmaSem sig) => iprop(atPos ER (kcell (c, o)) 0 ∅ 0 ∗ reached ER (kcell (c, o)) 0))
    ∗ bigSep Finset.univ fun t : Fin 3 ⊕ (Fin 512 ⊕ (Fin 4 × Fin 32)) => dutyTok ER (tokOf (c, t)).1 (tokOf (c, t)).2.1 (tokOf (c, t)).2.2)

/-- The tokens of the duties device `c` PAYS: its three barrier signals' (on the peers' barrier cells), both tokens of each
    of its 256 addressed copies (its own send cell's, the target's receive cell's), and its local copies'. -/
def payToks (c : Dev nD) : sProp 𝕄 :=
  iprop((seg 0 3 fun s => dutyTok ER (barCell (sigPeer c s)) 0 (sigDuty s))
    ∗ (seg 0 84 fun i => toks (dcn c (4 + i)) (dcn (zpeer c) (88 + i)))
    ∗ (seg 0 64 fun i => toks (dcn c (172 + i)) (dcn (nxt c) (300 + i)))
    ∗ (seg 0 64 fun i => toks (dcn c (236 + i)) (dcn (prv c) (364 + i)))
    ∗ (seg 0 22 fun j => toks (dcn c (428 + j)) (dcn (nxt c) (472 + j)))
    ∗ (seg 0 22 fun j => toks (dcn c (450 + j)) (dcn (prv c) (494 + j)))
    ∗ (seg 0 64 fun k => dutyTok ER (dcn c (k % 2)) (k / 2) 0)
    ∗ (seg 0 64 fun k => dutyTok ER (dcn c (2 + k % 2)) (k / 2) 0))

/-- After the global step: the record of every cell's invariant at some names, the device's 517 positions, and the tokens
    of the duties it pays. -/
def G' (c : Dev nD) : sProp 𝕄 :=
  iprop(∃ K : CellIx → ℕ, recs m K
    ∗ (bigSep Finset.univ fun o : Option (DmaSem sig) => atPos ER (kcell (c, o)) 0 ∅ 0) ∗ payToks c)

/-! ## Entering and leaving the body -/

/-- The state a device enters its body with, but for the staging buffer (which the launch hands over separately). -/
def X (c : Dev nD) : sProp 𝕄 :=
  iprop(∃ K : CellIx → ℕ, Ctx m K ∗ (iprop(slotAny (F := F) c 0 ∗ slotAny (F := F) c 1) -∗ StR m c Cnt.start))
/-- What a device leaves with: a share of its whole argument block, untouched (the share the local copies read through:
    enough to read the block's final contents), and its result array at the gathered result. -/
def Y (c : Dev nD) : sProp 𝕄 :=
  iprop((((c : Thread nD τ).loc main_arg0) ↦{fullShare.right} m ((c : Thread nD τ).loc main_arg0))
    ∗ (((c : Thread nD τ).loc main_v1) ↦{fullShare} goal m c))

def Φ₀ (c : Dev nD) : sProp 𝕄 := iprop(∃ K : CellIx → ℕ, Ctx m K ∗ StR m c Cnt.start)
def Φ₁ (c : Dev nD) : sProp 𝕄 := StR m c Cnt.done

/-- What the run ends with on device `c`: the result array at the gathered result, the argument block as it was. -/
def QY (c : Dev nD) (s : MemSt nD τ sig (Elt F)) : Prop :=
  s.mem ((c.tc : Thread nD τ).loc main_v1) = goal m c ∧ s.mem ((c.tc : Thread nD τ).loc main_arg0) = m ((c.tc : Thread nD τ).loc main_arg0)

/-- The pipeline's proof data: no window is staged, so only the invariant before and after the one point and what is owed there. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.AG

end
-- ==== Proof.W.Ghost.lean ====
/-
  The protocol's ghost state: minted for every device, then regrouped by one global step: every cell's invariant made known to all, each duty's token dealt to the device that pays it.
-/
import proofs.«900672_g7700000000000673_dist_ag_v7x_xyz2x2x2_z_m32768_n1024_f32_1_alg».proof.Proof.W.LaunchDefs

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Re-indexing -/

/-- A family over `Fin n` is the family over the interval `0 … n` of the indices' values. -/
theorem bigSep_fin_seg (n : Nat) (Φ : Nat → sProp 𝕄) : (bigSep Finset.univ fun i : Fin n => Φ i.val) = seg 0 n Φ := by
  unfold seg
  have h : (Finset.univ : Finset (Fin n)).map Fin.valEmbedding = Finset.Ico 0 n := by
    ext x
    simp only [Finset.mem_map, Finset.mem_univ, true_and, Finset.mem_Ico, Fin.valEmbedding_apply]
    constructor
    · rintro ⟨i, rfl⟩; exact ⟨Nat.zero_le _, i.isLt⟩
    · rintro ⟨-, hx⟩; exact ⟨⟨x, hx⟩, rfl⟩
  rw [← h, bigSep_map]
  rfl

/-- An interval moved down to start at zero. -/
theorem seg_shift (b n : Nat) (Φ : Nat → sProp 𝕄) : seg b (b + n) Φ = seg 0 n fun i => Φ (b + i) := by
  unfold seg
  have h : (Finset.Ico 0 n).map (addLeftEmbedding b) = Finset.Ico b (b + n) := by
    ext x
    simp only [Finset.mem_map, Finset.mem_Ico, addLeftEmbedding_apply]
    constructor
    · rintro ⟨i, ⟨-, hi⟩, rfl⟩; omega
    · rintro ⟨h1, h2⟩; exact ⟨x - b, ⟨Nat.zero_le _, by omega⟩, by omega⟩
  rw [← h, bigSep_map]
  rfl

omit [FloatOps F] in
private theorem sep_swap_inner (A B C D : sProp 𝕄) : iprop(((A ∗ B) ∗ C) ∗ D) = iprop((A ∗ C) ∗ B ∗ D) := by
  show BI.sep (BI.sep (BI.sep A B) C) D = BI.sep (BI.sep A C) (BI.sep B D)
  ac_rfl

/-- Two families of `n` members each, interleaved: the even indices carry the first, the odd ones the second. -/
theorem seg_interleave (n : Nat) (Φ : Nat → Nat → sProp 𝕄) :
    seg 0 (2 * n) (fun k => Φ (k % 2) (k / 2)) = iprop(seg 0 n (Φ 0) ∗ seg 0 n (Φ 1)) := by
  induction n with
  | zero =>
    rw [seg_empty (le_refl _), seg_empty (le_refl _)]
    exact (equiv_iff.mp emp_sep).symm
  | succ n ih =>
    rw [show 2 * (n + 1) = 2 * n + 1 + 1 from by omega, seg_push (by omega), seg_push (by omega), ih,
      seg_push (Nat.zero_le n), seg_push (Nat.zero_le n),
      show (2 * n) % 2 = 0 from by omega, show (2 * n) / 2 = n from by omega,
      show (2 * n + 1) % 2 = 1 from by omega, show (2 * n + 1) / 2 = n from by omega]
    exact sep_swap_inner _ _ _ _

/-- A family over an optional index is its member at `none` and the family over the index. -/
theorem bigSep_option {α : Type} [Fintype α] (Φ : Option α → sProp 𝕄) :
    bigSep Finset.univ Φ = iprop(Φ none ∗ bigSep Finset.univ fun a : α => Φ (some a)) := by
  rw [bigSep_univ_equiv (Equiv.optionEquivSumPUnit.{0, 0} α).symm Φ, bigSep_univ_sum, bigSep_univ_of_subsingleton PUnit.unit]
  exact Std.Commutative.comm (op := (BI.sep : sProp 𝕄 → _ → _)) _ _

/-! ## Minting -/

/-- The protocol's copy of the launch resource mints `G` for every device (the theorem's `hu₀`, second half). -/
theorem fund_ag : BI.own (ER (initOf agCells agToks)) ⊢ (|==> bigSep Finset.univ (G m) : sProp 𝕄) := by
  have hX (Φ : GSem nD τ sig → sProp 𝕄) : bigSep agCells Φ = bigSep Finset.univ fun c : Dev nD => bigSep Finset.univ fun o : Option (DmaSem sig) => Φ (kcell (c, o)) := by
    unfold agCells; rw [bigSep_map, bigSep_univ_prod]; rfl
  have hT : bigSep agToks (fun x => (dutyTok ER x.1 x.2.1 x.2.2 : sProp 𝕄))
      = bigSep Finset.univ fun c : Dev nD => bigSep Finset.univ fun t : Fin 3 ⊕ (Fin 512 ⊕ (Fin 4 × Fin 32)) =>
          dutyTok ER (tokOf (c, t)).1 (tokOf (c, t)).2.1 (tokOf (c, t)).2.2 := by
    unfold agToks; rw [bigSep_map, bigSep_univ_prod]; rfl
  iintro HX
  imod (Rounds.fund ER (agRd m) agCells agToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The tokens, as minted and as paid -/

/-- The token of DMA cell `k` of device `c` for its round 0; the tokens of its one-round cells `b … b + n`; the tokens of
    the 32 rounds of its local cell `s`. -/
def dtk (c : Dev nD) (k : Nat) : sProp 𝕄 := dutyTok ER (dcn c k) 0 0
def tk (c : Dev nD) (b n : Nat) : sProp 𝕄 := seg 0 n fun i => dtk (F := F) c (b + i)
def lk (c : Dev nD) (s : Nat) : sProp 𝕄 := seg 0 32 fun r => dutyTok ER (dcn c s) r 0

/-- The duty tokens of device `c`'s own cells, as minted. -/
def minted (c : Dev nD) : sProp 𝕄 :=
  bigSep Finset.univ fun t : Fin 3 ⊕ (Fin 512 ⊕ (Fin 4 × Fin 32)) => dutyTok ER (tokOf (c, t)).1 (tokOf (c, t)).2.1 (tokOf (c, t)).2.2

theorem seg_three (Φ : Nat → sProp 𝕄) : seg 0 3 Φ = iprop(Φ 0 ∗ Φ 1 ∗ Φ 2) := by
  unfold seg
  rw [show Finset.Ico 0 3 = {0, 1, 2} from by decide, bigSep_insert (by decide), bigSep_insert (by decide), bigSep_singleton]
  rfl

/-- Family by family: the barrier's three tokens, the ten families of one-round cells, the four local cells' rounds. -/
theorem minted_eq (c : Dev nD) : minted (F := F) c = iprop(
    (dutyTok ER (barCell c) 0 0 ∗ dutyTok ER (barCell c) 0 1 ∗ dutyTok ER (barCell c) 0 2)
    ∗ (tk c 4 84 ∗ tk c 88 84 ∗ tk c 172 64 ∗ tk c 236 64 ∗ tk c 300 64 ∗ tk c 364 64 ∗ tk c 428 22 ∗ tk c 450 22 ∗ tk c 472 22 ∗ tk c 494 22)
    ∗ (lk c 0 ∗ lk c 1 ∗ lk c 2 ∗ lk c 3)) := by
  have h0 : minted (F := F) c = iprop((bigSep Finset.univ fun j : Fin 3 => dutyTok ER (barCell c) 0 j)
      ∗ (bigSep Finset.univ fun i : Fin 512 => dtk c (4 + i.val))
      ∗ (bigSep Finset.univ fun s : Fin 4 => bigSep Finset.univ fun r : Fin 32 => dutyTok ER (dcn c s.val) r.val 0)) := by
    unfold minted; rw [bigSep_univ_sum, bigSep_univ_sum, bigSep_univ_prod]; rfl
  have hB : (bigSep Finset.univ fun j : Fin 3 => (dutyTok ER (barCell c) 0 j : sProp 𝕄))
      = iprop(dutyTok ER (barCell c) 0 0 ∗ dutyTok ER (barCell c) 0 1 ∗ dutyTok ER (barCell c) 0 2) :=
    bigSep_univ_eq_bigSepL [0, 1, 2] (by decide) (by decide) _
  have e (b n : Nat) : seg b (b + n) (dtk (F := F) c) = tk c b n := seg_shift b n _
  have hD : (bigSep Finset.univ fun i : Fin 512 => dtk (F := F) c (4 + i.val))
      = iprop(tk c 4 84 ∗ tk c 88 84 ∗ tk c 172 64 ∗ tk c 236 64 ∗ tk c 300 64 ∗ tk c 364 64 ∗ tk c 428 22 ∗ tk c 450 22 ∗ tk c 472 22 ∗ tk c 494 22) := by
    have h1 : (bigSep Finset.univ fun i : Fin 512 => dtk (F := F) c (4 + i.val)) = seg 4 516 (dtk c) :=
      (bigSep_fin_seg 512 fun i => dtk c (4 + i)).trans (seg_shift 4 512 (dtk c)).symm
    rw [h1, seg_split (lo := 4) (mid := 88) (hi := 516) (by omega) (by omega), seg_split (lo := 88) (mid := 172) (hi := 516) (by omega) (by omega),
      seg_split (lo := 172) (mid := 236) (hi := 516) (by omega) (by omega), seg_split (lo := 236) (mid := 300) (hi := 516) (by omega) (by omega),
      seg_split (lo := 300) (mid := 364) (hi := 516) (by omega) (by omega), seg_split (lo := 364) (mid := 428) (hi := 516) (by omega) (by omega),
      seg_split (lo := 428) (mid := 450) (hi := 516) (by omega) (by omega), seg_split (lo := 450) (mid := 472) (hi := 516) (by omega) (by omega),
      seg_split (lo := 472) (mid := 494) (hi := 516) (by omega) (by omega),
      show seg 4 88 (dtk (F := F) c) = tk c 4 84 from e 4 84, show seg 88 172 (dtk (F := F) c) = tk c 88 84 from e 88 84,
      show seg 172 236 (dtk (F := F) c) = tk c 172 64 from e 172 64, show seg 236 300 (dtk (F := F) c) = tk c 236 64 from e 236 64,
      show seg 300 364 (dtk (F := F) c) = tk c 300 64 from e 300 64, show seg 364 428 (dtk (F := F) c) = tk c 364 64 from e 364 64,
      show seg 428 450 (dtk (F := F) c) = tk c 428 22 from e 428 22, show seg 450 472 (dtk (F := F) c) = tk c 450 22 from e 450 22,
      show seg 472 494 (dtk (F := F) c) = tk c 472 22 from e 472 22, show seg 494 516 (dtk (F := F) c) = tk c 494 22 from e 494 22]
  have hL : (bigSep Finset.univ fun s : Fin 4 => bigSep Finset.univ fun r : Fin 32 => (dutyTok ER (dcn c s.val) r.val 0 : sProp 𝕄))
      = iprop(lk c 0 ∗ lk c 1 ∗ lk c 2 ∗ lk c 3) := by
    have h1 (s : Fin 4) : (bigSep Finset.univ fun r : Fin 32 => (dutyTok ER (dcn c s.val) r.val 0 : sProp 𝕄)) = lk c s.val :=
      bigSep_fin_seg 32 fun r => dutyTok ER (dcn c s.val) r 0
    rw [bigSep_congr (s := Finset.univ) fun s _ => h1 s]
    exact bigSep_univ_eq_bigSepL [0, 1, 2, 3] (by decide) (by decide) fun s : Fin 4 => lk (F := F) c s.val
  rw [h0, hB, hD, hL]

/-- What a device pays with, family by family. -/
theorem payToks_eq (c : Dev nD) : payToks (F := F) c = iprop(
    (dutyTok ER (barCell (zpeer c)) 0 0 ∗ dutyTok ER (barCell (nxt c)) 0 1 ∗ dutyTok ER (barCell (prv c)) 0 2)
    ∗ (tk c 4 84 ∗ tk (zpeer c) 88 84) ∗ (tk c 172 64 ∗ tk (nxt c) 300 64) ∗ (tk c 236 64 ∗ tk (prv c) 364 64)
    ∗ (tk c 428 22 ∗ tk (nxt c) 472 22) ∗ (tk c 450 22 ∗ tk (prv c) 494 22) ∗ (lk c 0 ∗ lk c 1) ∗ (lk c 2 ∗ lk c 3)) := by
  have hB : (seg 0 3 fun s => (dutyTok ER (barCell (sigPeer c s)) 0 (sigDuty s) : sProp 𝕄))
      = iprop(dutyTok ER (barCell (zpeer c)) 0 0 ∗ dutyTok ER (barCell (nxt c)) 0 1 ∗ dutyTok ER (barCell (prv c)) 0 2) := seg_three _
  have hT (d : Dev nD) (a b n : Nat) : (seg 0 n fun i => (toks (dcn c (a + i)) (dcn d (b + i)) : sProp 𝕄)) = iprop(tk c a n ∗ tk d b n) :=
    seg_sep (fun i => dtk c (a + i)) (fun i => dtk d (b + i))
  have hI : (seg 0 64 fun k => (dutyTok ER (dcn c (k % 2)) (k / 2) 0 : sProp 𝕄)) = iprop(lk c 0 ∗ lk c 1) :=
    seg_interleave 32 fun s r => dutyTok ER (dcn c s) r 0
  have hO : (seg 0 64 fun k => (dutyTok ER (dcn c (2 + k % 2)) (k / 2) 0 : sProp 𝕄)) = iprop(lk c 2 ∗ lk c 3) :=
    seg_interleave 32 fun s r => dutyTok ER (dcn c (2 + s)) r 0
  unfold payToks
  rw [hB, hT (zpeer c) 4 88 84, hT (nxt c) 172 300 64, hT (prv c) 236 364 64, hT (nxt c) 428 472 22, hT (prv c) 450 494 22, hI, hO]

/-! ## Dealing the tokens -/

/-- A family over the devices may be read along a bijection of the devices. -/
theorem bigSep_along (f g : Dev nD → Dev nD) (h1 : ∀ c, g (f c) = c) (h2 : ∀ c, f (g c) = c) (Φ : Dev nD → sProp 𝕄) :
    (bigSep Finset.univ fun c => Φ (f c)) = bigSep Finset.univ Φ :=
  (bigSep_univ_equiv ⟨f, g, h1, h2⟩ Φ).symm

/-- Every device's minted tokens, dealt: a send cell's and a local cell's token stays; a receive cell's goes to the device
    that copies onto it; a barrier's three go to the three devices that signal it. -/
theorem deal : (bigSep Finset.univ fun c : Dev nD => minted (F := F) c) ⊢ bigSep Finset.univ fun c : Dev nD => payToks (F := F) c := by
  rw [bigSep_congr (s := Finset.univ) fun (c : Dev nD) _ => minted_eq (F := F) c,
    bigSep_congr (s := Finset.univ) fun (c : Dev nD) _ => payToks_eq (F := F) c]
  simp only [bigSep_sep']
  rw [bigSep_along zpeer zpeer zpeer_zpeer zpeer_zpeer fun c => (dutyTok ER (barCell c) 0 0 : sProp 𝕄),
    bigSep_along nxt prv prv_nxt nxt_prv fun c => (dutyTok ER (barCell c) 0 1 : sProp 𝕄),
    bigSep_along prv nxt nxt_prv prv_nxt fun c => (dutyTok ER (barCell c) 0 2 : sProp 𝕄),
    bigSep_along zpeer zpeer zpeer_zpeer zpeer_zpeer fun c => tk (F := F) c 88 84,
    bigSep_along nxt prv prv_nxt nxt_prv fun c => tk (F := F) c 300 64,
    bigSep_along prv nxt nxt_prv prv_nxt fun c => tk (F := F) c 364 64,
    bigSep_along nxt prv prv_nxt nxt_prv fun c => tk (F := F) c 472 22,
    bigSep_along prv nxt nxt_prv prv_nxt fun c => tk (F := F) c 494 22]
  iintro ⟨⟨B0, B1, B2⟩, ⟨Zs, Zr, Sn, Sp, Rp, Rn, S2n, S2p, R2p, R2n⟩, L0, L1, L2, L3⟩
  isplitl [B0 B1 B2]
  · isplitl [B0]; · iexact B0
    isplitl [B1] <;> iassumption
  isplitl [Zs Zr]; · isplitl [Zs] <;> iassumption
  isplitl [Sn Rp]; · isplitl [Sn] <;> iassumption
  isplitl [Sp Rn]; · isplitl [Sp] <;> iassumption
  isplitl [S2n R2p]; · isplitl [S2n] <;> iassumption
  isplitl [S2p R2n]; · isplitl [S2p] <;> iassumption
  isplitl [L0 L1]; · isplitl [L0] <;> iassumption
  isplitl [L2] <;> iassumption

/-! ## The global step -/

/-- The barrier semaphore is the launch's one unscoped semaphore: the one regular semaphore is not scoped, every DMA
    semaphore is. -/
theorem unscopedSems0_eq (c : Dev nD) : (unscopedSems0 c : sProp 𝕄) = semVal (barCell c) 0 := by
  have hd : ∀ k : Fin 516, dmaSemScoped k = true := by decide
  have h : (Finset.univ.filter fun sm : SemLoc sig => ¬ sm.isScoped .tc) = {SemLoc.reg barS} := by
    ext sm
    simp only [Finset.mem_filter, Finset.mem_univ, true_and, Finset.mem_singleton]
    cases sm with
    | reg s =>
      have hs : s = barS := Fin.ext (by have h1 : s.val < 1 := s.isLt; have h2 : (barS : Sem sig).val < 1 := (barS : Sem sig).isLt; omega)
      subst hs
      exact iff_of_true (by decide) rfl
    | dma k =>
      refine iff_of_false (fun h' => h' (hd k)) (fun h' => ?_)
      cases h'
  unfold unscopedSems0
  rw [h, bigSep_singleton]

/-- A device's 516 own semaphores and its barrier semaphore are the counters of its 517 cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option (DmaSem sig) => semVal (kcell (c, o)) 0 : sProp 𝕄) := by
  have hO : (Pipeline.ownSems0 (Ix := Unit) (Name := ℕ) (U := UU) (Lvl := ℕ) (Val := Elt F) (τ := τ) osem c : sProp 𝕄)
      = bigSep Finset.univ fun a : DmaSem sig => semVal (kcell (c, some a)) 0 := rfl
  rw [unscopedSems0_eq, bigSep_option, hO]
  iintro ⟨HS, HB⟩
  isplitl [HB]; · iexact HB
  iexact HS

/-- Per device: every cell's counter at zero and round state at zero become the cell's invariant at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o : Option (DmaSem sig) => iprop(∃ κ : ℕ, cellInv ER (agRd m) κ (kcell (c, o))))
          ∗ (bigSep Finset.univ fun o : Option (DmaSem sig) => iprop(atPos ER (kcell (c, o)) 0 ∅ 0 ∗ reached ER (kcell (c, o)) 0)) ∗ minted (F := F) c) := by
  unfold G minted
  iintro ⟨Hos, Hus, Hst, Hat, Htok⟩
  ihave Hv := (sems0_eq (F := F) c) $$ [Hos Hus]
  · isplitl [Hos] <;> iassumption
  imod (show iprop((bigSep Finset.univ fun o : Option (DmaSem sig) => semVal (kcell (c, o)) 0) ∗ bigSep Finset.univ fun o : Option (DmaSem sig) => roundState ER (agRd m) (kcell (c, o)) 0)
      ⊢ (|={Set.univ}=> bigSep Finset.univ fun o : Option (DmaSem sig) => iprop(∃ κ : ℕ, cellInv ER (agRd m) κ (kcell (c, o))) : sProp 𝕄) from by
        rw [← bigSep_sep']
        exact (bigSep_mono fun o _ => (Rounds.body_intro ER (agRd m) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-- What stays with a device once the records are known to all: its 517 positions and the tokens it pays with. -/
theorem ghost_intro (K : CellIx → ℕ) (c : Dev nD) :
    iprop(recs m K ∗ (bigSep Finset.univ fun o : Option (DmaSem sig) => atPos ER (kcell (c, o)) 0 ∅ 0) ∗ payToks (F := F) c) ⊢ G' m c := by
  unfold G'
  iintro ⟨#HR, Hat, Htk⟩
  iexists K
  isplitr; · iexact HR
  isplitl [Hat] <;> iassumption

/-- A persistent assertion in hand is there for every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices together: the names are chosen, the records made known to every device, the tokens dealt. -/
theorem regroup :
    (bigSep Finset.univ fun c : Dev nD => iprop((bigSep Finset.univ fun o : Option (DmaSem sig) => iprop(∃ κ : ℕ, cellInv ER (agRd m) κ (kcell (c, o))))
          ∗ (bigSep Finset.univ fun o : Option (DmaSem sig) => iprop(atPos ER (kcell (c, o)) 0 ∅ 0 ∗ reached ER (kcell (c, o)) 0)) ∗ minted (F := F) c) : sProp 𝕄)
      ⊢ bigSep Finset.univ (G' m) := by
  rw [bigSep_sep', bigSep_sep', ← bigSep_univ_prod (fun x : CellIx => iprop(∃ κ : ℕ, cellInv ER (agRd m) κ (kcell x))),
    bigSep_congr (s := Finset.univ) (fun (c : Dev nD) _ => bigSep_sep' Finset.univ (fun o : Option (DmaSem sig) => (atPos ER (kcell (c, o)) 0 ∅ 0 : sProp 𝕄)) (fun o => reached ER (kcell (c, o)) 0)),
    bigSep_sep', ← bigSep_univ_prod (fun x : CellIx => (reached ER (kcell x) 0 : sProp 𝕄))]
  iintro ⟨HI, ⟨Hat, #HR⟩, Htok⟩
  ihave HK := (BI.bigSep_exists_pi Finset.univ (fun (x : CellIx) (κ : ℕ) => (cellInv ER (agRd m) κ (kcell x) : sProp 𝕄))) $$ HI
  icases HK with ⟨%K, #HI⟩
  ihave Htk := (deal (F := F)) $$ Htok
  iapply (bigSep_with_persistent (R := recs m K) fun c _ => ghost_intro m K c)
  isplitr
  · unfold recs; isplitl; · iexact HI
    iexact HR
  · iapply (Entails.of_eq (bigSep_sep' Finset.univ (fun c : Dev nD => bigSep Finset.univ fun o : Option (DmaSem sig) => (atPos ER (kcell (c, o)) 0 ∅ 0 : sProp 𝕄)) (fun c => payToks (F := F) c)).symm)
    isplitl [Hat]; · iexact Hat
    iexact Htk

/-- The global step (the theorem's `hglob`): every device's own semaphores and its barrier semaphore, at zero, with the
    round states, become the cells' invariants, known to all; the tokens are dealt to the devices that pay them. -/
theorem glob_ag : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.AG.fund_ag' depends on axioms: [propext, Classical.choice, Quot.sound] -/
#guard_msgs in #print axioms fund_ag
/-- info: 'Cert.Kernel.AG.glob_ag' depends on axioms: [propext, Classical.choice, Quot.sound] -/
#guard_msgs in #print axioms glob_ag

end Cert.Kernel.AG

end
-- ==== Proof.W.Creds.lean ====
/-
  The launch credit: summing what all devices owe a cell gives that cell's owner three barrier units and one chunk's credit on each receive cell.
-/
import proofs.«900672_g7700000000000673_dist_ag_v7x_xyz2x2x2_z_m32768_n1024_f32_1_alg».proof.Proof.W.LaunchDefs

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the devices owe at launch, family by family: the three barrier units, then the arrivals of the five kinds of addressed copies. -/
private theorem O₀_eq : (O₀ : Dev nD → CellTallies nD τ sig Unit) = fun d =>
    (∑ s ∈ Finset.Ico 0 3, tallyAt (barCell (sigPeer d s)) () 1)
    + (∑ i ∈ Finset.Ico 0 84, tallyAt (dcn (zpeer d) (88 + i)) () N128)
    + (∑ i ∈ Finset.Ico 0 64, tallyAt (dcn (nxt d) (300 + i)) () N128)
    + (∑ i ∈ Finset.Ico 0 64, tallyAt (dcn (prv d) (364 + i)) () N128)
    + (∑ j ∈ Finset.Ico 0 22, tallyAt (dcn (nxt d) (472 + j)) () N128)
    + (∑ j ∈ Finset.Ico 0 22, tallyAt (dcn (prv d) (494 + j)) () N128) := rfl

/-- One family of arrivals: every device `d` owes cell `base + i` of device `f d` one chunk, `f` a bijection of the
    devices; summed over the devices, each device is credited one chunk on each of its own cells `base + i`. -/
private theorem cred_fam (f finv : Dev nD → Dev nD) (h1 : ∀ c, f (finv c) = c) (h2 : ∀ d, finv (f d) = d) (base n : Nat) (c : Dev nD) :
    (Pipeline.launchCred (fun d => ∑ i ∈ Finset.Ico 0 n, tallyAt (dcn (f d) (base + i)) () N128) c : sProp 𝕄)
      ⊢ seg 0 n fun i => cred (tallyAt (dcn c (base + i)) () N128) := by
  rw [Pipeline.launchCred_sum (Finset.Ico 0 n) (fun i d => tallyAt (dcn (f d) (base + i)) () N128) c]
  unfold seg
  exact bigSep_mono fun i _ =>
    Pipeline.launchCred_tallyAt (.dma ⟨(base + i) % 516, Nat.mod_lt _ (by decide)⟩) f finv h1 h2 () N128 c

/-- The device whose `s`-th barrier signal goes to `c`: signals go to the z-peer, the next and the previous device, so they
    come from the z-peer, the previous and the next. -/
private def sigFrom (c : Dev nD) (s : Nat) : Dev nD := if s = 0 then zpeer c else if s = 1 then prv c else nxt c

private theorem sigPeer_sigFrom (s : Nat) (c : Dev nD) : sigPeer (sigFrom c s) s = c := by
  unfold sigPeer sigFrom
  split_ifs
  · exact zpeer_zpeer c
  · exact nxt_prv c
  · exact prv_nxt c

private theorem sigFrom_sigPeer (s : Nat) (d : Dev nD) : sigFrom (sigPeer d s) s = d := by
  unfold sigPeer sigFrom
  split_ifs
  · exact zpeer_zpeer d
  · exact prv_nxt d
  · exact nxt_prv d

/-- The barrier: each of the three signals is a bijection of the devices, so each credits every device one unit. -/
private theorem cred_bar (c : Dev nD) :
    (Pipeline.launchCred (fun d => ∑ s ∈ Finset.Ico 0 3, tallyAt (barCell (sigPeer d s)) () 1) c : sProp 𝕄)
      ⊢ cred (tallyAt (barCell c) () 3) := by
  rw [Pipeline.launchCred_sum (Finset.Ico 0 3) (fun s d => tallyAt (barCell (sigPeer d s)) () 1) c]
  refine (bigSep_mono (Ψ := fun _ => cred (tallyAt (barCell c) () 1)) fun s _ =>
    Pipeline.launchCred_tallyAt (.reg barS) (fun d => sigPeer d s) (fun d => sigFrom d s)
      (sigPeer_sigFrom s) (sigFrom_sigPeer s) () 1 c).trans ?_
  rw [← Pipeline.cred_finsetSum]
  refine Entails.of_eq (congrArg cred ?_)
  rw [Nat.Ico_zero_eq_range, Finset.sum_range_succ, Finset.sum_range_succ, Finset.sum_range_succ, Finset.sum_range_zero,
    zero_add, tallyAt_add, tallyAt_add]

/-- The launch credit of a device: three units on its barrier cell and a chunk's credit on each of its 256 receive cells. -/
theorem creds_ag (c : Dev nD) :
    (Pipeline.launchCred O₀ c : sProp 𝕄) ⊢ iprop(cred (tallyAt (barCell c) () 3)
      ∗ (seg 0 84 fun i => cred (tallyAt (dcn c (88 + i)) () N128))
      ∗ (seg 0 64 fun i => cred (tallyAt (dcn c (300 + i)) () N128))
      ∗ (seg 0 64 fun i => cred (tallyAt (dcn c (364 + i)) () N128))
      ∗ (seg 0 22 fun j => cred (tallyAt (dcn c (472 + j)) () N128))
      ∗ (seg 0 22 fun j => cred (tallyAt (dcn c (494 + j)) () N128))) := by
  rw [O₀_eq, Pipeline.launchCred_add, Pipeline.launchCred_add, Pipeline.launchCred_add, Pipeline.launchCred_add, Pipeline.launchCred_add]
  iintro ⟨⟨⟨⟨⟨Hb, Hz⟩, Hn1⟩, Hp1⟩, Hn2⟩, Hp2⟩
  isplitl [Hb]; · iapply (cred_bar (F := F) c) $$ Hb
  isplitl [Hz]; · iapply (cred_fam (F := F) zpeer zpeer zpeer_zpeer zpeer_zpeer 88 84 c) $$ Hz
  isplitl [Hn1]; · iapply (cred_fam (F := F) nxt prv nxt_prv prv_nxt 300 64 c) $$ Hn1
  isplitl [Hp1]; · iapply (cred_fam (F := F) prv nxt prv_nxt nxt_prv 364 64 c) $$ Hp1
  isplitl [Hn2]; · iapply (cred_fam (F := F) nxt prv nxt_prv prv_nxt 472 22 c) $$ Hn2
  iapply (cred_fam (F := F) prv nxt prv_nxt nxt_prv 494 22 c) $$ Hp2

/-- info: 'Cert.Kernel.AG.creds_ag' depends on axioms: [propext, Classical.choice, Quot.sound] -/
#guard_msgs in #print axioms creds_ag

end Cert.Kernel.AG

end
-- ==== Proof.W.Sets.lean ====
/-
  The pieces of the three arrays as the program names them, and as the proof holds them.
  The program names a piece of an array as a slice at an offset; the proof holds it as a range of rows of the
  whole array (or one slot of the staging buffer). Here: each slice lies in its whole array's location and covers
  exactly that range of rows; and a copy from one slice to another leaves, at each index of the destination's rows,
  the source's element at the matching row.
-/
import proofs.«900672_g7700000000000673_dist_ag_v7x_xyz2x2x2_z_m32768_n1024_f32_1_alg».proof.Proof.W.Cells
import Idealize.ShloMosaic.Lib.Pipeline.Value

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Where each slice lies, and which elements it covers -/

/-- A unit-stride rectangle of a two-axis shape that starts at row `R`, column 0 and keeps every column
    holds exactly the indices whose row lies in `R … R + n`. -/
theorem mem_unit_rows {N C n : Nat} (off : Fin 2 → Nat) (R : Nat) (hoff : off = ![R, 0])
    (h : ∀ a, off a + (![n, C] : Fin 2 → Nat) a ≤ (⟨2, ![N, C]⟩ : Shape).size a) (i : (⟨2, ![N, C]⟩ : Shape).Idx) :
    i ∈ (Rect.unit (s := ⟨2, ![N, C]⟩) off ![n, C] h).set ↔ R ≤ (i 0).val ∧ (i 0).val < R + n := by
  subst hoff
  rw [Rect.mem_set_unit, Fin.forall_fin_two]
  have h1 : (i 1).val < C := (i 1).isLt
  constructor
  · rintro ⟨h0, -⟩; exact h0
  · intro h0; exact ⟨h0, Nat.zero_le _, by simpa using h1⟩

theorem oSlice128_loc (off : Fin 2 → Nat) (h : ∀ a, off a + S128x1024.size a ≤ S65536x1024.size a) (d : Dev nD) :
    (oM.slice (Rect.unit (s := S65536x1024) off S128x1024.size h) (fun _ => rfl)).view.loc (d : Thread nD τ)
      = (d : Thread nD τ).loc main_v1 := rfl

theorem oSlice128_set (off : Fin 2 → Nat) (h : ∀ a, off a + S128x1024.size a ≤ S65536x1024.size a) (R : Nat)
    (hoff : off = ![R, 0]) :
    (oM.slice (Rect.unit (s := S65536x1024) off S128x1024.size h) (fun _ => rfl)).view.set = rows R 128 := by
  refine (View.set_slice_whole main_v1 (Rect.unit (s := S65536x1024) off S128x1024.size h)).trans ?_
  ext i
  rw [rows, Finset.mem_filter]
  exact (mem_unit_rows off R hoff h i).trans (by simp)

theorem oSlice512_loc (off : Fin 2 → Nat) (h : ∀ a, off a + S512x1024.size a ≤ S65536x1024.size a) (d : Dev nD) :
    (oM.slice (Rect.unit (s := S65536x1024) off S512x1024.size h) (fun _ => rfl)).view.loc (d : Thread nD τ)
      = (d : Thread nD τ).loc main_v1 := rfl

theorem oSlice512_set (off : Fin 2 → Nat) (h : ∀ a, off a + S512x1024.size a ≤ S65536x1024.size a) (R : Nat)
    (hoff : off = ![R, 0]) :
    (oM.slice (Rect.unit (s := S65536x1024) off S512x1024.size h) (fun _ => rfl)).view.set = rows R 512 := by
  refine (View.set_slice_whole main_v1 (Rect.unit (s := S65536x1024) off S512x1024.size h)).trans ?_
  ext i
  rw [rows, Finset.mem_filter]
  exact (mem_unit_rows off R hoff h i).trans (by simp)

theorem xSlice128_loc (off : Fin 2 → Nat) (h : ∀ a, off a + S128x1024.size a ≤ S32768x1024.size a) (d : Dev nD) :
    (xM.slice (Rect.unit (s := S32768x1024) off S128x1024.size h) (fun _ => rfl)).view.loc (d : Thread nD τ)
      = (d : Thread nD τ).loc main_arg0 := rfl

theorem xSlice128_set (off : Fin 2 → Nat) (h : ∀ a, off a + S128x1024.size a ≤ S32768x1024.size a) (R : Nat)
    (hoff : off = ![R, 0]) :
    (xM.slice (Rect.unit (s := S32768x1024) off S128x1024.size h) (fun _ => rfl)).view.set = xrows R 128 := by
  refine (View.set_slice_whole main_arg0 (Rect.unit (s := S32768x1024) off S128x1024.size h)).trans ?_
  ext i
  rw [xrows, Finset.mem_filter]
  exact (mem_unit_rows off R hoff h i).trans (by simp)

theorem xSlice512_loc (off : Fin 2 → Nat) (h : ∀ a, off a + S512x1024.size a ≤ S32768x1024.size a) (d : Dev nD) :
    (xM.slice (Rect.unit (s := S32768x1024) off S512x1024.size h) (fun _ => rfl)).view.loc (d : Thread nD τ)
      = (d : Thread nD τ).loc main_arg0 := rfl

theorem xSlice512_set (off : Fin 2 → Nat) (h : ∀ a, off a + S512x1024.size a ≤ S32768x1024.size a) (R : Nat)
    (hoff : off = ![R, 0]) :
    (xM.slice (Rect.unit (s := S32768x1024) off S512x1024.size h) (fun _ => rfl)).view.set = xrows R 512 := by
  refine (View.set_slice_whole main_arg0 (Rect.unit (s := S32768x1024) off S512x1024.size h)).trans ?_
  ext i
  rw [xrows, Finset.mem_filter]
  exact (mem_unit_rows off R hoff h i).trans (by simp)

theorem vSlot_loc (s : Nat) (h : ∀ a, (![s, 0, 0] : Fin 3 → Nat) a + S1x512x1024.size a ≤ S2x512x1024.size a) (d : Dev nD) :
    ((vM.slice (Rect.unit (s := S2x512x1024) ![s, 0, 0] S1x512x1024.size h) (fun _ => rfl)).squeeze S512x1024
        squeezes_S1x512x1024_S512x1024).view.loc (d : Thread nD τ)
      = (d : Thread nD τ).loc cc0_scratch0 := rfl

/-- A slot of the staging buffer, squeezed to two axes, still covers the slot: the indices whose first coordinate is `s`. -/
theorem vSlot_set (s : Nat) (h : ∀ a, (![s, 0, 0] : Fin 3 → Nat) a + S1x512x1024.size a ≤ S2x512x1024.size a) :
    ((vM.slice (Rect.unit (s := S2x512x1024) ![s, 0, 0] S1x512x1024.size h) (fun _ => rfl)).squeeze S512x1024
        squeezes_S1x512x1024_S512x1024).view.set = slot s := by
  refine (View.set_reshape ((View.whole cc0_scratch0).slice (Rect.unit (s := S2x512x1024) ![s, 0, 0] S1x512x1024.size h))
    squeezes_S1x512x1024_S512x1024.numel_eq).trans ?_
  refine (View.set_slice_whole cc0_scratch0 (Rect.unit (s := S2x512x1024) ![s, 0, 0] S1x512x1024.size h)).trans ?_
  ext i
  rw [slot, Finset.mem_filter, Rect.mem_set_unit]
  have h1 : (i 1).val < 512 := (i 1).isLt
  have h2 : (i 2).val < 1024 := (i 2).isLt
  constructor
  · intro H
    have := H 0
    simp at this
    exact ⟨Finset.mem_univ _, by omega⟩
  · rintro ⟨-, H⟩ a
    have ha : a = 0 ∨ a = 1 ∨ a = 2 := by
      rcases a with ⟨_ | _ | _ | n, hn⟩
      · exact Or.inl rfl
      · exact Or.inr (Or.inl rfl)
      · exact Or.inr (Or.inr rfl)
      · exact absurd hn (by show ¬ (n + 3 < 3); omega)
    rcases ha with rfl | rfl | rfl
    · show s ≤ (i 0).val ∧ (i 0).val < s + 1
      omega
    · show 0 ≤ (i 1).val ∧ (i 1).val < 0 + 512
      omega
    · show 0 ≤ (i 2).val ∧ (i 2).val < 0 + 1024
      omega

/-! ## What a copy leaves at an index -/

/-- Where a unit-stride rectangle at row `R`, column 0 puts its own row `r`, column `c`: row `R + r`, column `c`. -/
theorem unit_emb_pair {N C n : Nat} (off : Fin 2 → Nat) (R : Nat) (hoff : off = ![R, 0])
    (h : ∀ a, off a + (![n, C] : Fin 2 → Nat) a ≤ (⟨2, ![N, C]⟩ : Shape).size a)
    (r : Fin n) (c : Fin C) (hR : R + r.val < N) :
    (Rect.unit (s := ⟨2, ![N, C]⟩) off ![n, C] h).emb (Shape.pair (d := ![n, C]) r c)
      = Shape.pair (d := ![N, C]) ⟨R + r.val, hR⟩ c := by
  subst hoff
  funext a
  apply Fin.ext
  rw [Rect.emb_apply]
  rcases a with ⟨_ | _ | k, hk⟩
  · show R + 1 * r.val = R + r.val
    omega
  · show 0 + 1 * c.val = c.val
    omega
  · exact absurd hk (by show ¬ (k + 2 < 2); omega)

/-- An index whose row lies in `R … R + n` is where the rectangle at row `R` puts its row `i 0 - R`, column `i 1`. -/
theorem unit_emb_rows {N C n : Nat} (off : Fin 2 → Nat) (R : Nat) (hoff : off = ![R, 0])
    (h : ∀ a, off a + (![n, C] : Fin 2 → Nat) a ≤ (⟨2, ![N, C]⟩ : Shape).size a)
    (i : (⟨2, ![N, C]⟩ : Shape).Idx) (hlo : R ≤ (i 0).val) (hhi : (i 0).val < R + n) :
    (Rect.unit (s := ⟨2, ![N, C]⟩) off ![n, C] h).emb
        (Shape.pair (d := ![n, C]) ⟨(i 0).val - R, (by omega : (i 0).val - R < n)⟩ ⟨(i 1).val, (i 1).isLt⟩) = i := by
  have hN : (i 0).val < N := (i 0).isLt
  refine (unit_emb_pair off R hoff h ⟨(i 0).val - R, (by omega : (i 0).val - R < n)⟩ ⟨(i 1).val, (i 1).isLt⟩
    (by show R + ((i 0).val - R) < N; omega)).trans ?_
  refine Eq.trans ?_ (Shape.pair_eta i)
  congr 1
  apply Fin.ext
  show R + ((i 0).val - R) = (i 0).val
  omega

/-- A forward keeps its rows: a chunk copied between the same rows of two result arrays leaves, at each index of
    those rows, the source's element at that index. -/
theorem land_o_to_o {Val : EltTy → Type} (offs offd : Fin 2 → Nat)
    (hs : ∀ a, offs a + S128x1024.size a ≤ S65536x1024.size a)
    (hd : ∀ a, offd a + S128x1024.size a ≤ S65536x1024.size a)
    (R : Nat) (hos : offs = ![R, 0]) (hod : offd = ![R, 0])
    (fs fd : S65536x1024.Idx → Val .f32) (i : S65536x1024.Idx) (hi : i ∈ rows R 128) :
    (oM.slice (Rect.unit (s := S65536x1024) offd S128x1024.size hd) (fun _ => rfl)).view.write Val fd
        ((oM.slice (Rect.unit (s := S65536x1024) offs S128x1024.size hs) (fun _ => rfl)).view.read Val fs)
        Finset.univ i = fs i := by
  rw [rows, Finset.mem_filter] at hi
  obtain ⟨-, hlo, hhi⟩ := hi
  have hxd := unit_emb_rows (N := 65536) (C := 1024) (n := 128) offd R hod hd i hlo hhi
  have hxs := unit_emb_rows (N := 65536) (C := 1024) (n := 128) offs R hos hs i hlo hhi
  have key := View.write_emb_of_mem
    (v := (oM.slice (Rect.unit (s := S65536x1024) offd S128x1024.size hd) (fun _ => rfl)).view) (Val := Val) fd
    ((oM.slice (Rect.unit (s := S65536x1024) offs S128x1024.size hs) (fun _ => rfl)).view.read Val fs)
    (M := Finset.univ)
    (x := Shape.pair (d := ![128, 1024]) ⟨(i 0).val - R, (by omega : (i 0).val - R < 128)⟩ ⟨(i 1).val, (i 1).isLt⟩) (Finset.mem_univ _)
  refine Eq.trans ?_ (key.trans ?_)
  · exact congrArg _ hxd.symm
  · exact congrArg fs hxs

/-- A chunk of the argument block copied into the result: rows `Rs …` of the block land on rows `Rd …` of the result,
    so the result's row `i 0` then holds the block's row `Rs + (i 0 - Rd)`. -/
theorem land_x_to_o {Val : EltTy → Type} (offs offd : Fin 2 → Nat)
    (hs : ∀ a, offs a + S128x1024.size a ≤ S32768x1024.size a)
    (hd : ∀ a, offd a + S128x1024.size a ≤ S65536x1024.size a)
    (Rs Rd : Nat) (hos : offs = ![Rs, 0]) (hod : offd = ![Rd, 0]) (hRs : Rs + 128 ≤ 32768)
    (fs : S32768x1024.Idx → Val .f32) (fd : S65536x1024.Idx → Val .f32) (i : S65536x1024.Idx) (hi : i ∈ rows Rd 128) :
    (oM.slice (Rect.unit (s := S65536x1024) offd S128x1024.size hd) (fun _ => rfl)).view.write Val fd
        ((xM.slice (Rect.unit (s := S32768x1024) offs S128x1024.size hs) (fun _ => rfl)).view.read Val fs)
        Finset.univ i
      = fs (Shape.pair (d := ![32768, 1024])
          ⟨Rs + ((i 0).val - Rd), by rw [rows, Finset.mem_filter] at hi; show Rs + ((i 0).val - Rd) < 32768; omega⟩ ⟨(i 1).val, (i 1).isLt⟩) := by
  have hi' := hi
  rw [rows, Finset.mem_filter] at hi'
  obtain ⟨-, hlo, hhi⟩ := hi'
  have hxd := unit_emb_rows (N := 65536) (C := 1024) (n := 128) offd Rd hod hd i hlo hhi
  have hxs := unit_emb_pair (N := 32768) (C := 1024) (n := 128) offs Rs hos hs
    ⟨(i 0).val - Rd, (by omega : (i 0).val - Rd < 128)⟩ ⟨(i 1).val, (i 1).isLt⟩
    (by show Rs + ((i 0).val - Rd) < 32768; omega)
  have key := View.write_emb_of_mem
    (v := (oM.slice (Rect.unit (s := S65536x1024) offd S128x1024.size hd) (fun _ => rfl)).view) (Val := Val) fd
    ((xM.slice (Rect.unit (s := S32768x1024) offs S128x1024.size hs) (fun _ => rfl)).view.read Val fs)
    (M := Finset.univ)
    (x := Shape.pair (d := ![128, 1024]) ⟨(i 0).val - Rd, (by omega : (i 0).val - Rd < 128)⟩ ⟨(i 1).val, (i 1).isLt⟩)
    (Finset.mem_univ _)
  refine Eq.trans ?_ (key.trans ?_)
  · exact congrArg _ hxd.symm
  · exact congrArg fs hxs

/-! ### The staging buffer -/

/-- The index of the staging buffer at slot `s`, row `r`, column `c`. -/
def vAt (s : Nat) (hs2 : s < 2) (r : Fin 512) (c : Fin 1024) : S2x512x1024.Idx := fun a =>
  ⟨![s, r.val, c.val] a, by
    rcases a with ⟨_ | _ | _ | k, hk⟩
    · exact hs2
    · exact r.isLt
    · exact c.isLt
    · exact absurd hk (by show ¬ (k + 3 < 3); omega)⟩

@[simp] theorem vAt_val_zero (s : Nat) (hs2 : s < 2) (r : Fin 512) (c : Fin 1024) : (vAt s hs2 r c 0).val = s := rfl
@[simp] theorem vAt_val_one (s : Nat) (hs2 : s < 2) (r : Fin 512) (c : Fin 1024) : (vAt s hs2 r c 1).val = r.val := rfl
@[simp] theorem vAt_val_two (s : Nat) (hs2 : s < 2) (r : Fin 512) (c : Fin 1024) : (vAt s hs2 r c 2).val = c.val := rfl

theorem vAt_mem_slot (s : Nat) (hs2 : s < 2) (r : Fin 512) (c : Fin 1024) : vAt s hs2 r c ∈ slot s := by
  rw [slot, Finset.mem_filter]
  exact ⟨Finset.mem_univ _, rfl⟩

/-- Every index of slot `s` is the one at its own row and column. -/
theorem vAt_eq_of_slot (s : Nat) (hs2 : s < 2) (i : S2x512x1024.Idx) (hi : (i 0).val = s) :
    vAt s hs2 ⟨(i 1).val, (i 1).isLt⟩ ⟨(i 2).val, (i 2).isLt⟩ = i := by
  funext a
  apply Fin.ext
  rcases a with ⟨_ | _ | _ | k, hk⟩
  · exact hi.symm
  · rfl
  · rfl
  · exact absurd hk (by show ¬ (k + 3 < 3); omega)

/-- Where the squeezed slot `s` puts its row `r`, column `c`: slot `s`, row `r`, column `c` of the staging buffer. -/
theorem vSlot_emb_pair (s : Nat) (h : ∀ a, (![s, 0, 0] : Fin 3 → Nat) a + S1x512x1024.size a ≤ S2x512x1024.size a)
    (hs2 : s < 2) (r : Fin 512) (c : Fin 1024) :
    ((vM.slice (Rect.unit (s := S2x512x1024) ![s, 0, 0] S1x512x1024.size h) (fun _ => rfl)).squeeze S512x1024
        squeezes_S1x512x1024_S512x1024).view.emb (Shape.pair (d := ![512, 1024]) r c) = vAt s hs2 r c := by
  have e := Shape.reshapeEquiv_cons_one (n := 2) (d := ![512, 1024]) squeezes_S1x512x1024_S512x1024.numel_eq
    (Shape.pair (d := ![512, 1024]) r c)
  show (Rect.unit (s := S2x512x1024) ![s, 0, 0] S1x512x1024.size h).emb
    (Shape.reshapeEquiv squeezes_S1x512x1024_S512x1024.numel_eq (Shape.pair (d := ![512, 1024]) r c)) = _
  rw [e]
  funext a
  apply Fin.ext
  rw [Rect.emb_apply]
  rcases a with ⟨_ | _ | _ | k, hk⟩
  · show s + 1 * 0 = s
    omega
  · show 0 + 1 * r.val = r.val
    omega
  · show 0 + 1 * c.val = c.val
    omega
  · exact absurd hk (by show ¬ (k + 3 < 3); omega)

/-- A piece of 512 rows of the argument block copied into a slot of the staging buffer: the slot's row `i 1`,
    column `i 2` then holds the block's row `Rs + i 1`, column `i 2`. -/
theorem land_x_to_v {Val : EltTy → Type} (offs : Fin 2 → Nat)
    (hs : ∀ a, offs a + S512x1024.size a ≤ S32768x1024.size a)
    (s : Nat) (hd : ∀ a, (![s, 0, 0] : Fin 3 → Nat) a + S1x512x1024.size a ≤ S2x512x1024.size a)
    (Rs : Nat) (hos : offs = ![Rs, 0]) (hRs : Rs + 512 ≤ 32768)
    (fs : S32768x1024.Idx → Val .f32) (fd : S2x512x1024.Idx → Val .f32) (i : S2x512x1024.Idx) (hi : i ∈ slot s) :
    ((vM.slice (Rect.unit (s := S2x512x1024) ![s, 0, 0] S1x512x1024.size hd) (fun _ => rfl)).squeeze S512x1024
        squeezes_S1x512x1024_S512x1024).view.write Val fd
        ((xM.slice (Rect.unit (s := S32768x1024) offs S512x1024.size hs) (fun _ => rfl)).view.read Val fs)
        Finset.univ i
      = fs (Shape.pair (d := ![32768, 1024])
          ⟨Rs + (i 1).val, by have h1 : (i 1).val < 512 := (i 1).isLt; show Rs + (i 1).val < 32768; omega⟩
          ⟨(i 2).val, (i 2).isLt⟩) := by
  have hi0 : (i 0).val = s := by rw [slot, Finset.mem_filter] at hi; exact hi.2
  have h0 : (i 0).val < 2 := (i 0).isLt
  have h1 : (i 1).val < 512 := (i 1).isLt
  have hs2 : s < 2 := by omega
  have hxd := (vSlot_emb_pair s hd hs2 ⟨(i 1).val, (i 1).isLt⟩ ⟨(i 2).val, (i 2).isLt⟩).trans
    (vAt_eq_of_slot s hs2 i hi0)
  have hxs := unit_emb_pair (N := 32768) (C := 1024) (n := 512) offs Rs hos hs
    ⟨(i 1).val, (i 1).isLt⟩ ⟨(i 2).val, (i 2).isLt⟩ (by show Rs + (i 1).val < 32768; omega)
  have key := View.write_emb_of_mem
    (v := ((vM.slice (Rect.unit (s := S2x512x1024) ![s, 0, 0] S1x512x1024.size hd) (fun _ => rfl)).squeeze S512x1024
        squeezes_S1x512x1024_S512x1024).view) (Val := Val) fd
    ((xM.slice (Rect.unit (s := S32768x1024) offs S512x1024.size hs) (fun _ => rfl)).view.read Val fs)
    (M := Finset.univ)
    (x := Shape.pair (d := ![512, 1024]) ⟨(i 1).val, (i 1).isLt⟩ ⟨(i 2).val, (i 2).isLt⟩) (Finset.mem_univ _)
  refine Eq.trans ?_ (key.trans ?_)
  · exact congrArg _ hxd.symm
  · exact congrArg fs hxs

/-- A slot of the staging buffer copied into 512 rows of the result: the result's row `i 0`, column `i 1` then
    holds the slot's row `i 0 - Rd`, column `i 1`. -/
theorem land_v_to_o {Val : EltTy → Type} (s : Nat)
    (hs : ∀ a, (![s, 0, 0] : Fin 3 → Nat) a + S1x512x1024.size a ≤ S2x512x1024.size a) (hs2 : s < 2)
    (offd : Fin 2 → Nat) (hd : ∀ a, offd a + S512x1024.size a ≤ S65536x1024.size a)
    (Rd : Nat) (hod : offd = ![Rd, 0])
    (fv : S2x512x1024.Idx → Val .f32) (fd : S65536x1024.Idx → Val .f32) (i : S65536x1024.Idx) (hi : i ∈ rows Rd 512) :
    (oM.slice (Rect.unit (s := S65536x1024) offd S512x1024.size hd) (fun _ => rfl)).view.write Val fd
        (((vM.slice (Rect.unit (s := S2x512x1024) ![s, 0, 0] S1x512x1024.size hs) (fun _ => rfl)).squeeze S512x1024
          squeezes_S1x512x1024_S512x1024).view.read Val fv)
        Finset.univ i
      = fv (vAt s hs2 ⟨(i 0).val - Rd, by rw [rows, Finset.mem_filter] at hi; omega⟩ ⟨(i 1).val, (i 1).isLt⟩) := by
  have hi' := hi
  rw [rows, Finset.mem_filter] at hi'
  obtain ⟨-, hlo, hhi⟩ := hi'
  have hxd := unit_emb_rows (N := 65536) (C := 1024) (n := 512) offd Rd hod hd i hlo hhi
  have hxs := vSlot_emb_pair s hs hs2 ⟨(i 0).val - Rd, (by omega : (i 0).val - Rd < 512)⟩ ⟨(i 1).val, (i 1).isLt⟩
  have key := View.write_emb_of_mem
    (v := (oM.slice (Rect.unit (s := S65536x1024) offd S512x1024.size hd) (fun _ => rfl)).view) (Val := Val) fd
    (((vM.slice (Rect.unit (s := S2x512x1024) ![s, 0, 0] S1x512x1024.size hs) (fun _ => rfl)).squeeze S512x1024
          squeezes_S1x512x1024_S512x1024).view.read Val fv)
    (M := Finset.univ)
    (x := Shape.pair (d := ![512, 1024]) ⟨(i 0).val - Rd, (by omega : (i 0).val - Rd < 512)⟩ ⟨(i 1).val, (i 1).isLt⟩)
    (Finset.mem_univ _)
  refine Eq.trans ?_ (key.trans ?_)
  · exact congrArg _ hxd.symm
  · exact congrArg fv hxs

/-- info: 'Cert.Kernel.AG.land_o_to_o' depends on axioms: [propext, Classical.choice, Quot.sound] -/
#guard_msgs in #print axioms land_o_to_o

/-- info: 'Cert.Kernel.AG.land_x_to_o' depends on axioms: [propext, Classical.choice, Quot.sound] -/
#guard_msgs in #print axioms land_x_to_o

/-- info: 'Cert.Kernel.AG.land_x_to_v' depends on axioms: [propext, Classical.choice, Quot.sound] -/
#guard_msgs in #print axioms land_x_to_v

/-- info: 'Cert.Kernel.AG.land_v_to_o' depends on axioms: [propext, Classical.choice, Quot.sound] -/
#guard_msgs in #print axioms land_v_to_o

end Cert.Kernel.AG

end
-- ==== Proof.W.Routes.lean ====
/-
  The routes of the all-gather, as pure facts about row numbers and about the gathered result.

  Every chunk of a device's result array is named twice: by the device that sends it, through the sender's plane and
  ring position, and by the device that receives it, through its own. This module shows that the two names are the same
  rows, that every chunk lies inside its array, that on the rows of each chunk the receiver's gathered result is
  what the sender holds there (its own argument block for the first hop, its own gathered result for a forward or a
  relay), and that the chunks of one device cover its whole result array.
-/
import proofs.«900672_g7700000000000673_dist_ag_v7x_xyz2x2x2_z_m32768_n1024_f32_1_alg».proof.Proof.W.Cells

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## Bounds: every chunk lies inside its array -/

theorem rowZS_le (d : Dev nD) (i : Nat) (h : i < 84) : rowZS d i + 128 ≤ 32768 := by
  have hr := (rpos d).isLt
  unfold rowZS qrow
  split_ifs <;> omega

theorem rowZR_le (d : Dev nD) (i : Nat) (h : i < 84) : rowZR d i + 128 ≤ 65536 := by
  have hs := rowZS_le d i h
  have hz := (zc d).isLt
  unfold rowZR fbase
  omega

theorem rowH1P_le (d : Dev nD) (i : Nat) (h : i < 64) : rowH1P d i + 128 ≤ 65536 := by
  have hr := (rpos d).isLt
  have hz := (zc d).isLt
  unfold rowH1P fbase qrow
  omega

theorem rowH1N_le (d : Dev nD) (i : Nat) (h : i < 64) : rowH1N d i + 128 ≤ 65536 := by
  have hr := (rpos d).isLt
  have hz := (zc d).isLt
  unfold rowH1N fbase qrow
  omega

theorem rowH2P_le (d : Dev nD) (j : Nat) (h : j < 22) : rowH2P d j + 128 ≤ 65536 := by
  have hr := (rpos d).isLt
  have hz := (zc d).isLt
  unfold rowH2P fbase qrow
  omega

theorem rowH2N_le (d : Dev nD) (j : Nat) (h : j < 22) : rowH2N d j + 128 ≤ 65536 := by
  have hr := (rpos d).isLt
  have hz := (zc d).isLt
  unfold rowH2N fbase qrow
  omega

theorem rowOwn_le (d : Dev nD) (k : Nat) (h : k < 64) : rowOwn d k + 512 ≤ 65536 := by
  have hz := (zc d).isLt
  unfold rowOwn mbase
  omega

/-! ## The same rows, named from both ends of a copy

The sender names a chunk through its own plane and ring position, the receiver through its own. A step to the z-peer
swaps the two halves and keeps the ring position; a step along the ring keeps the half and moves the position by one,
so a quarter `k` steps round from the receiver is the quarter `k ± 1` steps round from the sender. -/

theorem rowZR_zpeer (c : Dev nD) (i : Nat) : rowZR (zpeer c) i = mbase c + rowZS c i := by
  have hz := (zc c).isLt
  unfold rowZR rowZS fbase mbase qrow
  rw [zc_zpeer, rpos_zpeer]
  split_ifs <;> omega

theorem rowH1P_nxt (c : Dev nD) (a : Nat) (h : a < 64) : rowH1P (nxt c) a = rowZR c a := by
  have hr := (rpos c).isLt
  unfold rowH1P rowZR rowZS fbase qrow
  rw [zc_nxt, rpos_nxt, if_pos h]
  omega

theorem rowH1N_prv (c : Dev nD) (a : Nat) (h : a < 64) : rowH1N (prv c) a = rowZR c a := by
  have hr := (rpos c).isLt
  unfold rowH1N rowZR rowZS fbase qrow
  rw [zc_prv, rpos_prv, if_pos h]
  omega

theorem rowH2P_nxt (c : Dev nD) (j : Nat) : rowH2P (nxt c) j = rowH1P c j := by
  have hr := (rpos c).isLt
  unfold rowH2P rowH1P fbase qrow
  rw [zc_nxt, rpos_nxt]
  omega

theorem rowH2N_prv (c : Dev nD) (j : Nat) : rowH2N (prv c) j = rowH1N c (22 + j) := by
  have hr := (rpos c).isLt
  unfold rowH2N rowH1N fbase qrow
  rw [zc_prv, rpos_prv]
  omega

/-! ## Membership, spelt out -/

theorem mem_rows {R n : Nat} {i : S65536x1024.Idx} : i ∈ rows R n ↔ R ≤ (i 0).val ∧ (i 0).val < R + n := by
  unfold rows
  simp only [Finset.mem_filter, Finset.mem_univ, true_and]

theorem mem_xrows {R n : Nat} {i : S32768x1024.Idx} : i ∈ xrows R n ↔ R ≤ (i 0).val ∧ (i 0).val < R + n := by
  unfold xrows
  simp only [Finset.mem_filter, Finset.mem_univ, true_and]

theorem rowIn_val0 (i : S65536x1024.Idx) : ((rowIn i) 0).val = (i 0).val % 32768 := rfl

theorem rowIn_val1 (i : S65536x1024.Idx) : ((rowIn i) 1).val = (i 1).val := rfl

/-! ## The gathered result, by the half a row lies in -/

/-- In the device's own half the gathered result is its own block. -/
private theorem goal_mine (c : Dev nD) (i : S65536x1024.Idx) (h : (i 0).val / 32768 = (zc c).val) :
    goal m c i = xs m c (rowIn i) := if_pos h

/-- In the other half it is the block of the device the row's chunk came from. -/
private theorem goal_other (c : Dev nD) (i : S65536x1024.Idx) (h : (i 0).val / 32768 ≠ (zc c).val) :
    goal m c i = xs m (srcDev c ((i 0).val % 32768)) (rowIn i) := if_neg h

/-! ## The source of a row, by its quarter and its chunk

A row `t` of the other half lies in quarter `t / 8192` and, inside it, in chunk `t % 8192 / 128`. The quarters are
named by how many steps round the ring they are from the device's own position `r`: `r`, `r + 3` (one step back),
`r + 1`, and `r + 2` (opposite), all modulo 4 and therefore pairwise different. -/

private theorem srcDev_q0 (c : Dev nD) (t : Nat) (h : t / 8192 = (rpos c).val) : srcDev c t = zpeer c := if_pos h

private theorem srcDev_q3 (c : Dev nD) (t : Nat) (h : t / 8192 = ((rpos c).val + 3) % 4) : srcDev c t = zpeer (prv c) := by
  have hr := (rpos c).isLt
  unfold srcDev
  rw [if_neg (by omega), if_pos h]

private theorem srcDev_q1 (c : Dev nD) (t : Nat) (h : t / 8192 = ((rpos c).val + 1) % 4) : srcDev c t = zpeer (nxt c) := by
  have hr := (rpos c).isLt
  unfold srcDev
  rw [if_neg (by omega), if_neg (by omega), if_pos h]

private theorem srcDev_q2_lo (c : Dev nD) (t : Nat) (h : t / 8192 = ((rpos c).val + 2) % 4) (hc : t % 8192 / 128 < 22) :
    srcDev c t = zpeer (prv (prv c)) := by
  have hr := (rpos c).isLt
  unfold srcDev
  rw [if_neg (by omega), if_neg (by omega), if_neg (by omega), if_pos hc]

private theorem srcDev_q2_mid (c : Dev nD) (t : Nat) (h : t / 8192 = ((rpos c).val + 2) % 4)
    (hc : 22 ≤ t % 8192 / 128) (hc' : t % 8192 / 128 < 44) : srcDev c t = zpeer (nxt (nxt c)) := by
  have hr := (rpos c).isLt
  unfold srcDev
  rw [if_neg (by omega), if_neg (by omega), if_neg (by omega), if_neg (by omega), if_pos hc']

private theorem srcDev_q2_hi (c : Dev nD) (t : Nat) (h : t / 8192 = ((rpos c).val + 2) % 4) (hc : 44 ≤ t % 8192 / 128) :
    srcDev c t = zpeer c := by
  have hr := (rpos c).isLt
  unfold srcDev
  rw [if_neg (by omega), if_neg (by omega), if_neg (by omega), if_neg (by omega), if_neg (by omega)]

/-! ## What the gathered result is on each kind of chunk -/

/-- A local copy writes rows of the device's own half: there the result is the device's own block. -/
theorem goal_own (c : Dev nD) (k : Nat) (hk : k < 64) (i : S65536x1024.Idx) (hi : i ∈ rows (rowOwn c k) 512) :
    goal m c i = m ((c : Thread nD τ).loc main_arg0) (rowIn i) := by
  rw [mem_rows] at hi
  unfold rowOwn mbase at hi
  have hz := (zc c).isLt
  exact goal_mine m c i (by omega)

/-- A copy to the z-peer lands in the half the z-peer does not own, in the quarter of the common ring position (or in
    the last 20 chunks of the opposite quarter): there the z-peer's result is the sender's block. -/
theorem goal_z (c : Dev nD) (k : Nat) (hk : k < 84) (i : S65536x1024.Idx) (hi : i ∈ rows (rowZR (zpeer c) k) 128) :
    goal m (zpeer c) i = m ((c : Thread nD τ).loc main_arg0) (rowIn i) := by
  rw [mem_rows, rowZR_zpeer] at hi
  have hle := rowZS_le c k hk
  have hz := (zc c).isLt
  have hr := (rpos c).isLt
  have hzp := zc_zpeer c
  have hhalf : (i 0).val / 32768 ≠ (zc (zpeer c)).val := by
    unfold mbase at hi; omega
  rw [goal_other m (zpeer c) i hhalf]
  have hsrc : srcDev (zpeer c) ((i 0).val % 32768) = c := by
    unfold mbase rowZS qrow at hi
    unfold rowZS qrow at hle
    by_cases h64 : k < 64
    · rw [if_pos h64] at hi hle
      rw [srcDev_q0 (zpeer c) _ (by rw [rpos_zpeer]; omega), zpeer_zpeer]
    · rw [if_neg h64] at hi hle
      rw [srcDev_q2_hi (zpeer c) _ (by rw [rpos_zpeer]; omega) (by omega), zpeer_zpeer]
  rw [hsrc]

/-- A forward to the next ring device carries a chunk of the sender's own quarter; for the receiver that is the quarter one
    step back, whose source is the z-peer of the previous device: the sender's own source. -/
theorem goal_fwd_nxt (c : Dev nD) (a : Nat) (ha : a < 64) (i : S65536x1024.Idx) (hi : i ∈ rows (rowZR c a) 128) :
    goal m (nxt c) i = goal m c i := by
  rw [mem_rows] at hi
  have hle := rowZR_le c a (by omega)
  unfold rowZR rowZS fbase qrow at hi hle
  rw [if_pos ha] at hi hle
  have hz := (zc c).isLt
  have hr := (rpos c).isLt
  have hn := rpos_nxt c
  rw [goal_other m c i (by omega), goal_other m (nxt c) i (by rw [zc_nxt]; omega),
    srcDev_q0 c _ (by omega), srcDev_q3 (nxt c) _ (by omega), prv_nxt]

/-- A forward to the previous ring device: for the receiver the chunk lies in the quarter one step forward. -/
theorem goal_fwd_prv (c : Dev nD) (a : Nat) (ha : a < 64) (i : S65536x1024.Idx) (hi : i ∈ rows (rowZR c a) 128) :
    goal m (prv c) i = goal m c i := by
  rw [mem_rows] at hi
  have hle := rowZR_le c a (by omega)
  unfold rowZR rowZS fbase qrow at hi hle
  rw [if_pos ha] at hi hle
  have hz := (zc c).isLt
  have hr := (rpos c).isLt
  have hn := rpos_prv c
  rw [goal_other m c i (by omega), goal_other m (prv c) i (by rw [zc_prv]; omega),
    srcDev_q0 c _ (by omega), srcDev_q1 (prv c) _ (by omega), nxt_prv]

/-- A relay to the next ring device carries one of the first 22 chunks of the quarter one step back from the sender; for the
    receiver that is the opposite quarter, whose first 22 chunks come from two steps back. -/
theorem goal_relay_nxt (c : Dev nD) (j : Nat) (hj : j < 22) (i : S65536x1024.Idx) (hi : i ∈ rows (rowH1P c j) 128) :
    goal m (nxt c) i = goal m c i := by
  rw [mem_rows] at hi
  have hle := rowH1P_le c j (by omega)
  unfold rowH1P fbase qrow at hi hle
  have hz := (zc c).isLt
  have hr := (rpos c).isLt
  have hn := rpos_nxt c
  rw [goal_other m c i (by omega), goal_other m (nxt c) i (by rw [zc_nxt]; omega),
    srcDev_q3 c _ (by omega), srcDev_q2_lo (nxt c) _ (by omega) (by omega), prv_nxt]

/-- A relay to the previous ring device carries one of chunks 22 … 43 of the quarter one step forward from the sender; for
    the receiver that is the opposite quarter, whose chunks 22 … 43 come from two steps forward. -/
theorem goal_relay_prv (c : Dev nD) (j : Nat) (hj : j < 22) (i : S65536x1024.Idx) (hi : i ∈ rows (rowH1N c (22 + j)) 128) :
    goal m (prv c) i = goal m c i := by
  rw [mem_rows] at hi
  have hle := rowH1N_le c (22 + j) (by omega)
  unfold rowH1N fbase qrow at hi hle
  have hz := (zc c).isLt
  have hr := (rpos c).isLt
  have hn := rpos_prv c
  rw [goal_other m c i (by omega), goal_other m (prv c) i (by rw [zc_prv]; omega),
    srcDev_q1 c _ (by omega), srcDev_q2_mid (prv c) _ (by omega) (by omega) (by omega), nxt_prv]

/-! ## The chunks cover the array

A row of the device's own half lies in one of the 64 local copies. A row of the other half lies in one of four quarters,
and in it in one of 64 chunks: the quarter of the device's own position came from the z-peer, the quarters one step back
and one step forward from the ring neighbours' forwards, and the opposite quarter from the two relays (22 chunks each)
and the z-peer's last 20 copies. -/

theorem cover (c : Dev nD) (i : S65536x1024.Idx) :
    (∃ k, k < 64 ∧ i ∈ rows (rowOwn c k) 512) ∨ (∃ a, a < 84 ∧ i ∈ rows (rowZR c a) 128) ∨ (∃ a, a < 64 ∧ i ∈ rows (rowH1P c a) 128)
      ∨ (∃ a, a < 64 ∧ i ∈ rows (rowH1N c a) 128) ∨ (∃ j, j < 22 ∧ i ∈ rows (rowH2P c j) 128) ∨ (∃ j, j < 22 ∧ i ∈ rows (rowH2N c j) 128) := by
  have h0 : (i 0).val < 65536 := (i 0).isLt
  have hz := (zc c).isLt
  have hr := (rpos c).isLt
  simp only [mem_rows]
  unfold rowOwn rowZR rowZS rowH1P rowH1N rowH2P rowH2N fbase mbase qrow
  -- the device's own half: one of the 64 local copies
  by_cases hh : (i 0).val / 32768 = (zc c).val
  · exact Or.inl ⟨(i 0).val % 32768 / 512, by omega, by omega, by omega⟩
  -- the other half, the quarter of the device's own ring position: the z-peer's first 64 copies
  by_cases q0 : (i 0).val % 32768 / 8192 = (rpos c).val
  · refine Or.inr (Or.inl ⟨(i 0).val % 8192 / 128, by omega, ?_⟩)
    rw [if_pos (by omega)]
    constructor <;> omega
  -- one step back: the previous device's forwards
  by_cases q3 : (i 0).val % 32768 / 8192 = ((rpos c).val + 3) % 4
  · exact Or.inr (Or.inr (Or.inl ⟨(i 0).val % 8192 / 128, by omega, by omega, by omega⟩))
  -- one step forward: the next device's forwards
  by_cases q1 : (i 0).val % 32768 / 8192 = ((rpos c).val + 1) % 4
  · exact Or.inr (Or.inr (Or.inr (Or.inl ⟨(i 0).val % 8192 / 128, by omega, by omega, by omega⟩)))
  -- the opposite quarter, by chunk: two relays of 22 chunks, then the z-peer's last 20 copies
  have q2 : (i 0).val % 32768 / 8192 = ((rpos c).val + 2) % 4 := by omega
  by_cases c22 : (i 0).val % 8192 / 128 < 22
  · exact Or.inr (Or.inr (Or.inr (Or.inr (Or.inl ⟨(i 0).val % 8192 / 128, c22, by omega, by omega⟩))))
  by_cases c44 : (i 0).val % 8192 / 128 < 44
  · exact Or.inr (Or.inr (Or.inr (Or.inr (Or.inr ⟨(i 0).val % 8192 / 128 - 22, by omega, by omega, by omega⟩))))
  · refine Or.inr (Or.inl ⟨64 + ((i 0).val % 8192 / 128 - 44), by omega, ?_⟩)
    rw [if_neg (by omega)]
    constructor <;> omega

/-- info: 'Cert.Kernel.AG.goal_relay_prv' depends on axioms: [propext, Classical.choice, Quot.sound] -/
#guard_msgs in #print axioms goal_relay_prv

/-- info: 'Cert.Kernel.AG.cover' depends on axioms: [propext, Classical.choice, Quot.sound] -/
#guard_msgs in #print axioms cover

end Cert.Kernel.AG

end
-- ==== Proof.W.Entry.lean ====
/-
  Entering the body: the two arrays are cut into the chunks the state holds them by, the launch credit lands on the receive cells, the dealt ghost state fills the state's intervals, the staging buffer is its two slots.
-/
import proofs.«900672_g7700000000000673_dist_ag_v7x_xyz2x2x2_z_m32768_n1024_f32_1_alg».proof.Proof.W.LaunchDefs
import proofs.«900672_g7700000000000673_dist_ag_v7x_xyz2x2x2_z_m32768_n1024_f32_1_alg».proof.Proof.W.Creds
import proofs.«900672_g7700000000000673_dist_ag_v7x_xyz2x2x2_z_m32768_n1024_f32_1_alg».proof.Proof.W.Sets
import proofs.«900672_g7700000000000673_dist_ag_v7x_xyz2x2x2_z_m32768_n1024_f32_1_alg».proof.Proof.W.Routes

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Intervals -/

/-- An interval shifted: indices `a + lo … a + hi` are `a +` the indices `lo … hi`. -/
private theorem seg_shift (a n : Nat) (Φ : Nat → sProp 𝕄) : seg a (a + n) Φ = seg 0 n fun i => Φ (a + i) := by
  induction n with
  | zero => rw [seg_empty (show a + 0 ≤ a from le_refl _), seg_empty (le_refl 0)]
  | succ n ih =>
    rw [show a + (n + 1) = a + n + 1 from rfl, seg_push (Nat.le_add_right a n), seg_push (Nat.zero_le n), ih]

/-- The interval `a … b` of length `n`, counted from `a`. -/
private theorem seg_at (a n b : Nat) (h : a + n = b) (Φ : Nat → sProp 𝕄) : seg a b Φ = seg 0 n fun i => Φ (a + i) := by
  subst h
  exact seg_shift a n Φ

/-- Nothing is held over an empty interval. -/
private theorem emp_seg {lo hi : Nat} (h : hi ≤ lo) (Φ : Nat → sProp 𝕄) : (emp : sProp 𝕄) ⊢ seg lo hi Φ :=
  Entails.of_eq (seg_empty h Φ).symm

/-! ## The positions of a device's 517 cells, by cell number -/

private theorem cellOpt_injOn :
    Set.InjOn (fun n : Nat => (some ⟨n % 516, Nat.mod_lt _ (by decide)⟩ : Option (DmaSem sig))) (Finset.Ico 0 516 : Finset Nat) := by
  intro a ha b hb h
  have h1 : a % 516 = b % 516 := congrArg Fin.val (Option.some.inj h)
  rw [Finset.mem_coe, Finset.mem_Ico] at ha hb
  omega

/-- The device's positions: its barrier cell's and its 516 DMA cells' in the order of their numbers. -/
private theorem pos_cut (c : Dev nD) :
    (bigSep Finset.univ fun o : Option (DmaSem sig) => (atPos ER (kcell (c, o)) 0 ∅ 0 : sProp 𝕄))
      ⊢ iprop(atPos ER (barCell c) 0 ∅ 0 ∗ seg 0 516 fun n => atPos ER (dcn c n) 0 ∅ 0) := by
  rw [bigSep_univ_at _ (none : Option (DmaSem sig))]
  refine sep_mono_right ?_
  have h2 : (seg 0 516 fun n => atPos ER (dcn c n) 0 ∅ 0 : sProp 𝕄)
      = bigSep ((Finset.Ico 0 516).image fun n : Nat => (some ⟨n % 516, Nat.mod_lt _ (by decide)⟩ : Option (DmaSem sig)))
          (fun o => atPos ER (kcell (c, o)) 0 ∅ 0) := by
    rw [bigSep_image_of_injOn cellOpt_injOn]
    rfl
  rw [h2]
  refine bigSep_subset fun o ho => ?_
  obtain ⟨n, -, rfl⟩ := Finset.mem_image.mp ho
  exact Finset.mem_erase.mpr ⟨Option.some_ne_none _, Finset.mem_univ _⟩

/-- The 516 positions, family by family. -/
private theorem pos_fams (Φ : Nat → sProp 𝕄) :
    seg 0 516 Φ = iprop(seg 0 4 Φ ∗ (seg 0 84 fun i => Φ (4 + i)) ∗ (seg 0 64 fun i => Φ (88 + i)) ∗ (seg 0 20 fun i => Φ (152 + i))
      ∗ (seg 0 64 fun i => Φ (172 + i)) ∗ (seg 0 64 fun i => Φ (236 + i)) ∗ (seg 0 64 fun i => Φ (300 + i)) ∗ (seg 0 64 fun i => Φ (364 + i))
      ∗ (seg 0 22 fun i => Φ (428 + i)) ∗ (seg 0 22 fun i => Φ (450 + i)) ∗ (seg 0 22 fun i => Φ (472 + i)) ∗ (seg 0 22 fun i => Φ (494 + i))) := by
  rw [seg_split (show 0 ≤ 4 by decide) (show 4 ≤ 516 by decide) Φ, seg_split (show 4 ≤ 88 by decide) (show 88 ≤ 516 by decide) Φ,
    seg_split (show 88 ≤ 152 by decide) (show 152 ≤ 516 by decide) Φ, seg_split (show 152 ≤ 172 by decide) (show 172 ≤ 516 by decide) Φ,
    seg_split (show 172 ≤ 236 by decide) (show 236 ≤ 516 by decide) Φ, seg_split (show 236 ≤ 300 by decide) (show 300 ≤ 516 by decide) Φ,
    seg_split (show 300 ≤ 364 by decide) (show 364 ≤ 516 by decide) Φ, seg_split (show 364 ≤ 428 by decide) (show 428 ≤ 516 by decide) Φ,
    seg_split (show 428 ≤ 450 by decide) (show 450 ≤ 516 by decide) Φ, seg_split (show 450 ≤ 472 by decide) (show 472 ≤ 516 by decide) Φ,
    seg_split (show 472 ≤ 494 by decide) (show 494 ≤ 516 by decide) Φ,
    seg_at 4 84 88 rfl Φ, seg_at 88 64 152 rfl Φ, seg_at 152 20 172 rfl Φ, seg_at 172 64 236 rfl Φ, seg_at 236 64 300 rfl Φ, seg_at 300 64 364 rfl Φ,
    seg_at 364 64 428 rfl Φ, seg_at 428 22 450 rfl Φ, seg_at 450 22 472 rfl Φ, seg_at 472 22 494 rfl Φ, seg_at 494 22 516 rfl Φ]

/-- A local cell before any wait: at round 0, which it has reached. -/
private theorem locPos_start (g : GSem nD τ sig) (s : Nat) (hs : s < 2) :
    iprop(atPos ER g 0 ∅ 0 ∗ reached ER g 0) ⊢ (locPos g s 0 : sProp 𝕄) := by
  have h0 : (0 + 1 - s) / 2 = 0 := by omega
  unfold locPos
  rw [h0, if_pos (by decide)]

/-- The two slots of the staging buffer, as the state lists them. -/
private theorem slots_start (c : Dev nD) :
    iprop(slotAny (F := F) c 0 ∗ slotAny (F := F) c 1) ⊢ seg 0 (0 + 2) fun k => slotAny (F := F) c (k % 2) := by
  rw [show (0 + 2 : Nat) = 2 from rfl, seg_pop (show 0 < 2 by decide), seg_pop (show 0 + 1 < 2 by decide), seg_empty (show 2 ≤ 0 + 1 + 1 by decide)]
  iintro ⟨H0, H1⟩
  isplitl [H0]; · iexact H0
  isplitl [H1]; · iexact H1
  iempintro

/-! ## Cutting an array into pairwise disjoint ranges of rows -/

private theorem seg_mono {lo hi : Nat} {Φ Ψ : Nat → sProp 𝕄} (h : ∀ i, lo ≤ i → i < hi → Φ i ⊢ Ψ i) : seg lo hi Φ ⊢ seg lo hi Ψ := by
  have h2 : bigSep (Finset.Ico lo hi) Φ ⊢ bigSep (Finset.Ico lo hi) Ψ :=
    bigSep_mono fun i hi => h i (Finset.mem_Ico.mp hi).1 (Finset.mem_Ico.mp hi).2
  exact h2

/-- A whole buffer, cut into the first `n` of a family of pairwise disjoint sets of elements (what the sets leave is dropped). -/
private theorem pointsTo_cut (ℓ : Loc nD τ sig) (q : PosShare TreeShare) (f : Buf (Elt F) ℓ) (n : Nat) (K : Nat → Finset (Idx ℓ))
    (h : ∀ t < n, ∀ t' < n, t ≠ t' → Disjoint (K t) (K t')) :
    (ℓ ↦{q} f : sProp 𝕄) ⊢ seg 0 n fun t => ℓ ↦[K t]{q} f := by
  have h1 : (ℓ ↦{q} f : sProp 𝕄) ⊢ ℓ ↦[(Finset.Ico 0 n).biUnion K]{q} f := by
    iintro H
    ihave H2 := (pointsTo_split_subset (I := (Finset.Ico 0 n).biUnion K) (Finset.subset_univ _)).1 $$ H
    icases H2 with ⟨H3, -⟩
    iexact H3
  refine h1.trans (Entails.of_eq ?_)
  rw [pointsTo_biUnion (Finset.Ico 0 n) K fun t ht t' ht' hne => h t (Finset.mem_Ico.mp ht).2 t' (Finset.mem_Ico.mp ht').2 hne]
  rfl

private theorem xrows_disj {R n R' n' : Nat} (h : R + n ≤ R' ∨ R' + n' ≤ R) : Disjoint (xrows R n) (xrows R' n') := by
  rw [Finset.disjoint_left]
  intro i h1 h2
  rw [mem_xrows] at h1 h2
  omega

private theorem rows_disj {R n R' n' : Nat} (h : R + n ≤ R' ∨ R' + n' ≤ R) : Disjoint (rows R n) (rows R' n') := by
  rw [Finset.disjoint_left]
  intro i h1 h2
  rw [mem_rows] at h1 h2
  omega

/-- The argument block as the state holds it: the left half by the 84 chunks sent to the z-peer, the right half by the 64
    pieces of the local copies. -/
private def XCut (c : Dev nD) : sProp 𝕄 :=
  iprop((seg 0 84 fun i => xAt m fullShare.left c (xrows (rowZS c i) 128)) ∗ (seg 0 64 fun k => xAt m fullShare.right c (xrows (512 * k) 512)))

private theorem x_cut (c : Dev nD) :
    ((((c : Thread nD τ).loc main_arg0) ↦{fullShare} m ((c : Thread nD τ).loc main_arg0)) : sProp 𝕄) ⊢ XCut m c := by
  have hr : (rpos c).val < 4 := (rpos c).isLt
  unfold XCut
  refine (pointsTo_share (PosShare.mem_left_op_right fullShare)).1.trans (BIClass.sep_mono ?_ ?_)
  · refine pointsTo_cut ((c : Thread nD τ).loc main_arg0) fullShare.left (m ((c : Thread nD τ).loc main_arg0)) 84 (fun i => xrows (rowZS c i) 128)
      fun t ht t' ht' hne => xrows_disj ?_
    unfold rowZS qrow
    split_ifs <;> omega
  · exact pointsTo_cut ((c : Thread nD τ).loc main_arg0) fullShare.right (m ((c : Thread nD τ).loc main_arg0)) 64 (fun k => xrows (512 * k) 512)
      fun t ht t' ht' hne => xrows_disj (by omega)

/-- The result array's rows, family by family: the 64 pieces of the device's own half, then the chunks the z-peer, the
    previous and the next ring device will write. -/
private def oRow (c : Dev nD) (t : Nat) : Nat :=
  if t < 64 then rowOwn c t else if t < 148 then rowZR c (t - 64) else if t < 212 then rowH1N c (t - 148)
  else if t < 234 then rowH2N c (t - 212) else if t < 298 then rowH1P c (t - 234) else rowH2P c (t - 298)
private def oWid (t : Nat) : Nat := if t < 64 then 512 else 128

private theorem oRow_disj (c : Dev nD) (t : Nat) (ht : t < 320) (t' : Nat) (ht' : t' < 320) (hne : t ≠ t') :
    oRow c t + oWid t ≤ oRow c t' ∨ oRow c t' + oWid t' ≤ oRow c t := by
  have hr : (rpos c).val < 4 := (rpos c).isLt
  have hz : (zc c).val < 2 := (zc c).isLt
  unfold oRow oWid rowOwn rowZR rowZS rowH1N rowH2N rowH1P rowH2P fbase mbase qrow
  split_ifs <;> omega

private theorem myLend_0 (c : Dev nD) : myLend (F := F) c 0 = seg 0 84 fun i => lentOn (F := F) c (rows (rowZR c i) 128) := by
  unfold myLend; exact if_pos rfl
private theorem myLend_1 (c : Dev nD) : myLend (F := F) c 1
    = iprop((seg 0 64 fun i => lentOn (F := F) c (rows (rowH1N c i) 128)) ∗ seg 0 22 fun j => lentOn (F := F) c (rows (rowH2N c j) 128)) := by
  unfold myLend; rw [if_neg (by decide), if_pos rfl]
private theorem myLend_2 (c : Dev nD) : myLend (F := F) c 2
    = iprop((seg 0 64 fun i => lentOn (F := F) c (rows (rowH1P c i) 128)) ∗ seg 0 22 fun j => lentOn (F := F) c (rows (rowH2P c j) 128)) := by
  unfold myLend; rw [if_neg (by decide), if_neg (by decide)]

/-- One family of the cut result array, lent: at whatever it holds. -/
private theorem lend_piece (c : Dev nD) (a n w : Nat) (R : Nat → Nat) (h : ∀ i < n, oRow c (a + i) = R i ∧ oWid (a + i) = w) :
    (seg 0 n fun i => ((((c : Thread nD τ).loc main_v1) ↦[rows (oRow c (a + i)) (oWid (a + i))]{fullShare} m ((c : Thread nD τ).loc main_v1)) : sProp 𝕄))
      ⊢ seg 0 n fun i => lentOn (F := F) c (rows (R i) w) := by
  refine seg_mono fun i _ hi => ?_
  rw [(h i hi).1, (h i hi).2]
  unfold lentOn
  iintro H
  iexists _
  iexact H

/-- The result array as the state holds it at the start: the 64 pieces of the device's own half and the 256 chunks it lends the
    three devices that will write them. -/
private def OCut (c : Dev nD) : sProp 𝕄 :=
  iprop((seg 0 64 fun k => lentOn (F := F) c (rows (rowOwn c k) 512)) ∗ myLend (F := F) c 0 ∗ myLend (F := F) c 1 ∗ myLend (F := F) c 2)

private theorem o_cut (c : Dev nD) :
    ((((c : Thread nD τ).loc main_v1) ↦{fullShare} m ((c : Thread nD τ).loc main_v1)) : sProp 𝕄) ⊢ OCut (F := F) c := by
  unfold OCut
  refine (pointsTo_cut ((c : Thread nD τ).loc main_v1) fullShare (m ((c : Thread nD τ).loc main_v1)) 320 (fun t => rows (oRow c t) (oWid t))
    fun t ht t' ht' hne => rows_disj (oRow_disj c t ht t' ht' hne)).trans ?_
  rw [seg_split (show 0 ≤ 64 by decide) (show 64 ≤ 320 by decide), seg_split (show 64 ≤ 148 by decide) (show 148 ≤ 320 by decide),
    seg_split (show 148 ≤ 212 by decide) (show 212 ≤ 320 by decide), seg_split (show 212 ≤ 234 by decide) (show 234 ≤ 320 by decide),
    seg_split (show 234 ≤ 298 by decide) (show 298 ≤ 320 by decide),
    seg_at 0 64 64 rfl, seg_at 64 84 148 rfl, seg_at 148 64 212 rfl, seg_at 212 22 234 rfl, seg_at 234 64 298 rfl, seg_at 298 22 320 rfl,
    myLend_0, myLend_1, myLend_2]
  iintro ⟨H0, H1, H2, H3, H4, H5⟩
  isplitl [H0]
  · iapply (lend_piece m c 0 64 512 (rowOwn c) fun i hi => ⟨by unfold oRow; rw [if_pos (by omega), Nat.zero_add], by unfold oWid; rw [if_pos (by omega)]⟩) $$ H0
  isplitl [H1]
  · iapply (lend_piece m c 64 84 128 (rowZR c) fun i hi =>
      ⟨by unfold oRow; rw [if_neg (by omega), if_pos (by omega), Nat.add_sub_cancel_left], by unfold oWid; rw [if_neg (by omega)]⟩) $$ H1
  isplitl [H2 H3]
  · isplitl [H2]
    · iapply (lend_piece m c 148 64 128 (rowH1N c) fun i hi =>
        ⟨by unfold oRow; rw [if_neg (by omega), if_neg (by omega), if_pos (by omega), Nat.add_sub_cancel_left], by unfold oWid; rw [if_neg (by omega)]⟩) $$ H2
    · iapply (lend_piece m c 212 22 128 (rowH2N c) fun i hi =>
        ⟨by unfold oRow; rw [if_neg (by omega), if_neg (by omega), if_neg (by omega), if_pos (by omega), Nat.add_sub_cancel_left], by unfold oWid; rw [if_neg (by omega)]⟩) $$ H3
  · isplitl [H4]
    · iapply (lend_piece m c 234 64 128 (rowH1P c) fun i hi =>
        ⟨by unfold oRow; rw [if_neg (by omega), if_neg (by omega), if_neg (by omega), if_neg (by omega), if_pos (by omega), Nat.add_sub_cancel_left], by unfold oWid; rw [if_neg (by omega)]⟩) $$ H4
    · iapply (lend_piece m c 298 22 128 (rowH2P c) fun i hi =>
        ⟨by unfold oRow; rw [if_neg (by omega), if_neg (by omega), if_neg (by omega), if_neg (by omega), if_neg (by omega), Nat.add_sub_cancel_left], by unfold oWid; rw [if_neg (by omega)]⟩) $$ H5

/- From here on an interval is compared by its bounds and its body only. -/
attribute [local irreducible] seg

/-! ## Entering the body -/

private theorem seg_pair {lo hi : Nat} (Φ Ψ : Nat → sProp 𝕄) : iprop(seg lo hi Φ ∗ seg lo hi Ψ) ⊢ seg lo hi fun i => iprop(Φ i ∗ Ψ i) :=
  Entails.of_eq (seg_sep Φ Ψ).symm

private theorem seg3 (Φ : Nat → sProp 𝕄) : seg 0 3 Φ = iprop(Φ 0 ∗ Φ 1 ∗ Φ 2 ∗ emp) := by
  rw [seg_pop (show 0 < 3 by decide), seg_pop (show 0 + 1 < 3 by decide), seg_pop (show 0 + 1 + 1 < 3 by decide),
    seg_empty (show 3 ≤ 0 + 1 + 1 + 1 by decide)]

/-- Three tokens and three loans, paired. Nothing here depends on what they are. -/
private theorem pair3 (T0 T1 T2 Z L0 L1 L2 : sProp 𝕄) :
    iprop((T0 ∗ T1 ∗ T2 ∗ Z) ∗ L0 ∗ L1 ∗ L2) ⊢ iprop((T0 ∗ L0) ∗ (T1 ∗ L1) ∗ (T2 ∗ L2) ∗ emp) := by
  iintro ⟨⟨T0, T1, T2, -⟩, L0, L1, L2⟩
  isplitl [T0 L0]
  · isplitl [T0]; · iexact T0
    iexact L0
  isplitl [T1 L1]
  · isplitl [T1]; · iexact T1
    iexact L1
  isplitl [T2 L2]
  · isplitl [T2]; · iexact T2
    iexact L2
  iempintro

/-- The barrier signals still to send: each with its token and the chunks it lends. -/
private theorem bar_item (c : Dev nD) :
    iprop((seg 0 3 fun s => dutyTok ER (barCell (sigPeer c s)) 0 (sigDuty s)) ∗ myLend (F := F) c 0 ∗ myLend (F := F) c 1 ∗ myLend (F := F) c 2)
      ⊢ seg 0 3 fun s => iprop(dutyTok ER (barCell (sigPeer c s)) 0 (sigDuty s) ∗ myLend (F := F) c s) := by
  rw [seg3, seg3]
  exact pair3 _ _ _ _ _ _ _

/-- Before the barrier wait, the branch of the state that says so. -/
private theorem ite_bw_false {A B : sProp 𝕄} : B ⊢ (if Cnt.start.bw then A else B) :=
  Entails.of_eq (if_neg (show ¬ (Cnt.start.bw = true) by decide)).symm

/-- Receive cells not yet waited: each its position and its chunk's credit. -/
private theorem pend_seg (c : Dev nD) (base n : Nat) :
    iprop((seg 0 n fun i => atPos ER (dcn c (base + i)) 0 ∅ 0) ∗ seg 0 n fun i => cred (tallyAt (dcn c (base + i)) () N128))
      ⊢ (seg 0 n fun i => pend (dcn c (base + i)) : sProp 𝕄) := by
  unfold pend
  exact Entails.of_eq (seg_sep _ _).symm

private theorem reached_dcn (K : CellIx → ℕ) (c : Dev nD) (k : Nat) : recs m K ⊢ reached ER (dcn c k) 0 :=
  recs_reached m K (c, some ⟨k % 516, Nat.mod_lt _ (by decide)⟩)

/-- A local cell at the start: its position, and the record says it has reached round 0. -/
private theorem loc_item (K : CellIx → ℕ) (c : Dev nD) (k s : Nat) (hs : s < 2) :
    iprop(atPos ER (dcn c k) 0 ∅ 0 ∗ recs m K) ⊢ (locPos (dcn c k) s 0 : sProp 𝕄) := by
  iintro ⟨HP, HR⟩
  iapply (locPos_start (F := F) (dcn c k) s hs)
  isplitl [HP]; · iexact HP
  iapply (reached_dcn m K c k); iexact HR

private theorem seg4 (Φ : Nat → sProp 𝕄) : seg 0 4 Φ = iprop(Φ 0 ∗ Φ 1 ∗ Φ 2 ∗ Φ 3 ∗ emp) := by
  rw [seg_pop (show 0 < 4 by decide), seg_pop (show 0 + 1 < 4 by decide), seg_pop (show 0 + 1 + 1 < 4 by decide),
    seg_pop (show 0 + 1 + 1 + 1 < 4 by decide), seg_empty (show 4 ≤ 0 + 1 + 1 + 1 + 1 by decide)]

/-- The credit on the 84 receive cells of the z-peer's copies, as the state waits them: the first 64, then the last 20. -/
private theorem cz_split (c : Dev nD) :
    (seg 0 84 fun i => cred (tallyAt (dcn c (88 + i)) () N128) : sProp 𝕄)
      ⊢ iprop((seg 0 64 fun i => cred (tallyAt (dcn c (88 + i)) () N128)) ∗ seg 0 20 fun j => cred (tallyAt (dcn c (152 + j)) () N128)) := by
  rw [seg_split (show 0 ≤ 64 by decide) (show 64 ≤ 84 by decide), seg_at 64 20 84 rfl]
  refine BIClass.sep_mono (Entails.of_eq rfl) (Entails.of_eq (seg_congr fun j _ _ => ?_))
  rw [show 88 + (64 + j) = 152 + j by omega]

/-- The launch credit as the state holds it. -/
private def Creds (c : Dev nD) : sProp 𝕄 :=
  iprop(cred (tallyAt (barCell c) () 3)
    ∗ (seg 0 64 fun i => cred (tallyAt (dcn c (88 + i)) () N128)) ∗ (seg 0 20 fun j => cred (tallyAt (dcn c (152 + j)) () N128))
    ∗ (seg 0 64 fun i => cred (tallyAt (dcn c (300 + i)) () N128)) ∗ (seg 0 64 fun i => cred (tallyAt (dcn c (364 + i)) () N128))
    ∗ (seg 0 22 fun j => cred (tallyAt (dcn c (472 + j)) () N128)) ∗ (seg 0 22 fun j => cred (tallyAt (dcn c (494 + j)) () N128)))

private theorem creds7 (c : Dev nD) : (Pipeline.launchCred O₀ c : sProp 𝕄) ⊢ Creds (F := F) c := by
  unfold Creds
  refine (creds_ag (F := F) c).trans ?_
  iintro ⟨Cb, Cz84, Cp1, Cn1, Cp2, Cn2⟩
  ihave Hcz := (cz_split (F := F) c) $$ Cz84
  icases Hcz with ⟨Cz, Cd⟩
  isplitl [Cb]; · iexact Cb
  isplitl [Cz]; · iexact Cz
  isplitl [Cd]; · iexact Cd
  isplitl [Cp1]; · iexact Cp1
  isplitl [Cn1]; · iexact Cn1
  isplitl [Cp2]; · iexact Cp2
  iexact Cn2

/-- The device's 517 positions as the state holds them: the barrier cell's, the four local cells', then family by family. -/
private def Poss (c : Dev nD) : sProp 𝕄 :=
  iprop(atPos ER (barCell c) 0 ∅ 0
    ∗ (atPos ER (dcn c 0) 0 ∅ 0 ∗ atPos ER (dcn c 1) 0 ∅ 0 ∗ atPos ER (dcn c 2) 0 ∅ 0 ∗ atPos ER (dcn c 3) 0 ∅ 0 ∗ emp)
    ∗ (seg 0 84 fun i => atPos ER (dcn c (4 + i)) 0 ∅ 0) ∗ (seg 0 64 fun i => atPos ER (dcn c (88 + i)) 0 ∅ 0) ∗ (seg 0 20 fun i => atPos ER (dcn c (152 + i)) 0 ∅ 0)
    ∗ (seg 0 64 fun i => atPos ER (dcn c (172 + i)) 0 ∅ 0) ∗ (seg 0 64 fun i => atPos ER (dcn c (236 + i)) 0 ∅ 0) ∗ (seg 0 64 fun i => atPos ER (dcn c (300 + i)) 0 ∅ 0)
    ∗ (seg 0 64 fun i => atPos ER (dcn c (364 + i)) 0 ∅ 0) ∗ (seg 0 22 fun i => atPos ER (dcn c (428 + i)) 0 ∅ 0) ∗ (seg 0 22 fun i => atPos ER (dcn c (450 + i)) 0 ∅ 0)
    ∗ (seg 0 22 fun i => atPos ER (dcn c (472 + i)) 0 ∅ 0) ∗ (seg 0 22 fun i => atPos ER (dcn c (494 + i)) 0 ∅ 0))

private theorem pos13 (c : Dev nD) :
    (bigSep Finset.univ fun o : Option (DmaSem sig) => (atPos ER (kcell (c, o)) 0 ∅ 0 : sProp 𝕄)) ⊢ Poss (F := F) c := by
  refine (pos_cut (F := F) c).trans (Entails.of_eq ?_)
  unfold Poss
  rw [pos_fams, seg4]

/-- What the state at the start is made of, in the state's own order (its empty intervals left out); each item is the
    pieces the launch hands over for it. -/
private def Pre (c : Dev nD) (K : CellIx → ℕ) : sProp 𝕄 :=
  iprop(
    ((seg 0 3 fun s => dutyTok ER (barCell (sigPeer c s)) 0 (sigDuty s)) ∗ myLend (F := F) c 0 ∗ myLend (F := F) c 1 ∗ myLend (F := F) c 2)
    ∗ (atPos ER (barCell c) 0 ∅ 0 ∗ cred (tallyAt (barCell c) () 3))
    ∗ ((seg 0 84 fun i => toks (dcn c (4 + i)) (dcn (zpeer c) (88 + i))) ∗ seg 0 84 fun i => xAt m fullShare.left c (xrows (rowZS c i) 128))
    ∗ (seg 0 84 fun i => atPos ER (dcn c (4 + i)) 0 ∅ 0)
    ∗ ((seg 0 64 fun i => atPos ER (dcn c (88 + i)) 0 ∅ 0) ∗ seg 0 64 fun i => cred (tallyAt (dcn c (88 + i)) () N128))
    ∗ ((seg 0 20 fun i => atPos ER (dcn c (152 + i)) 0 ∅ 0) ∗ seg 0 20 fun j => cred (tallyAt (dcn c (152 + j)) () N128))
    ∗ (seg 0 64 fun i => toks (dcn c (172 + i)) (dcn (nxt c) (300 + i)))
    ∗ (seg 0 64 fun i => atPos ER (dcn c (172 + i)) 0 ∅ 0)
    ∗ (seg 0 64 fun i => toks (dcn c (236 + i)) (dcn (prv c) (364 + i)))
    ∗ (seg 0 64 fun i => atPos ER (dcn c (236 + i)) 0 ∅ 0)
    ∗ ((seg 0 64 fun i => atPos ER (dcn c (300 + i)) 0 ∅ 0) ∗ seg 0 64 fun i => cred (tallyAt (dcn c (300 + i)) () N128))
    ∗ ((seg 0 64 fun i => atPos ER (dcn c (364 + i)) 0 ∅ 0) ∗ seg 0 64 fun i => cred (tallyAt (dcn c (364 + i)) () N128))
    ∗ (seg 0 22 fun j => toks (dcn c (428 + j)) (dcn (nxt c) (472 + j)))
    ∗ (seg 0 22 fun i => atPos ER (dcn c (428 + i)) 0 ∅ 0)
    ∗ (seg 0 22 fun j => toks (dcn c (450 + j)) (dcn (prv c) (494 + j)))
    ∗ (seg 0 22 fun i => atPos ER (dcn c (450 + i)) 0 ∅ 0)
    ∗ ((seg 0 22 fun i => atPos ER (dcn c (472 + i)) 0 ∅ 0) ∗ seg 0 22 fun j => cred (tallyAt (dcn c (472 + j)) () N128))
    ∗ ((seg 0 22 fun i => atPos ER (dcn c (494 + i)) 0 ∅ 0) ∗ seg 0 22 fun j => cred (tallyAt (dcn c (494 + j)) () N128))
    ∗ ((seg 0 64 fun k => dutyTok ER (dcn c (k % 2)) (k / 2) 0) ∗ seg 0 64 fun k => xAt m fullShare.right c (xrows (512 * k) 512))
    ∗ (atPos ER (dcn c 0) 0 ∅ 0 ∗ recs m K)
    ∗ (atPos ER (dcn c 1) 0 ∅ 0 ∗ recs m K)
    ∗ (slotAny (F := F) c 0 ∗ slotAny (F := F) c 1)
    ∗ ((seg 0 64 fun k => dutyTok ER (dcn c (2 + k % 2)) (k / 2) 0) ∗ seg 0 64 fun k => lentOn (F := F) c (rows (rowOwn c k) 512))
    ∗ (atPos ER (dcn c 2) 0 ∅ 0 ∗ recs m K)
    ∗ (atPos ER (dcn c 3) 0 ∅ 0 ∗ recs m K))

/-- The pieces as the launch hands them over (the record; the two arrays' cuts; the credit; the positions; the tokens; the two
    slots), put in the state's order. Nothing here depends on what the pieces are. -/
private theorem shuffle (R : sProp 𝕄) [BI.Persistent R]
    (XL XR Own L0 L1 L2 Cb Cz Cd Cp1 Cn1 Cp2 Cn2 Pb P0 P1 P2 P3 Z Pzs Pzr Pzd Ps1n Ps1p Pr1p Pr1n Ps2n Ps2p Pr2p Pr2n Tb Tz Tn1 Tp1 Tn2 Tp2 Tli Tlo S0 S1 : sProp 𝕄) :
    iprop(R ∗ (XL ∗ XR) ∗ (Own ∗ L0 ∗ L1 ∗ L2) ∗ (Cb ∗ Cz ∗ Cd ∗ Cp1 ∗ Cn1 ∗ Cp2 ∗ Cn2)
        ∗ (Pb ∗ (P0 ∗ P1 ∗ P2 ∗ P3 ∗ Z) ∗ Pzs ∗ Pzr ∗ Pzd ∗ Ps1n ∗ Ps1p ∗ Pr1p ∗ Pr1n ∗ Ps2n ∗ Ps2p ∗ Pr2p ∗ Pr2n)
        ∗ (Tb ∗ Tz ∗ Tn1 ∗ Tp1 ∗ Tn2 ∗ Tp2 ∗ Tli ∗ Tlo) ∗ (S0 ∗ S1))
      ⊢ iprop((Tb ∗ L0 ∗ L1 ∗ L2) ∗ (Pb ∗ Cb) ∗ (Tz ∗ XL) ∗ Pzs ∗ (Pzr ∗ Cz) ∗ (Pzd ∗ Cd) ∗ Tn1 ∗ Ps1n ∗ Tp1 ∗ Ps1p ∗ (Pr1p ∗ Cp1) ∗ (Pr1n ∗ Cn1)
        ∗ Tn2 ∗ Ps2n ∗ Tp2 ∗ Ps2p ∗ (Pr2p ∗ Cp2) ∗ (Pr2n ∗ Cn2) ∗ (Tli ∗ XR) ∗ (P0 ∗ R) ∗ (P1 ∗ R) ∗ (S0 ∗ S1) ∗ (Tlo ∗ Own) ∗ (P2 ∗ R) ∗ (P3 ∗ R)) := by
  iintro ⟨#HR, ⟨XL, XR⟩, ⟨Own, L0, L1, L2⟩, ⟨Cb, Cz, Cd, Cp1, Cn1, Cp2, Cn2⟩,
    ⟨Pb, ⟨P0, P1, P2, P3, -⟩, Pzs, Pzr, Pzd, Ps1n, Ps1p, Pr1p, Pr1n, Ps2n, Ps2p, Pr2p, Pr2n⟩, ⟨Tb, Tz, Tn1, Tp1, Tn2, Tp2, Tli, Tlo⟩, ⟨S0, S1⟩⟩
  isplitl [Tb L0 L1 L2]
  · isplitl [Tb]; · iexact Tb
    isplitl [L0]; · iexact L0
    isplitl [L1]; · iexact L1
    iexact L2
  isplitl [Pb Cb]
  · isplitl [Pb]; · iexact Pb
    iexact Cb
  isplitl [Tz XL]
  · isplitl [Tz]; · iexact Tz
    iexact XL
  isplitl [Pzs]; · iexact Pzs
  isplitl [Pzr Cz]
  · isplitl [Pzr]; · iexact Pzr
    iexact Cz
  isplitl [Pzd Cd]
  · isplitl [Pzd]; · iexact Pzd
    iexact Cd
  isplitl [Tn1]; · iexact Tn1
  isplitl [Ps1n]; · iexact Ps1n
  isplitl [Tp1]; · iexact Tp1
  isplitl [Ps1p]; · iexact Ps1p
  isplitl [Pr1p Cp1]
  · isplitl [Pr1p]; · iexact Pr1p
    iexact Cp1
  isplitl [Pr1n Cn1]
  · isplitl [Pr1n]; · iexact Pr1n
    iexact Cn1
  isplitl [Tn2]; · iexact Tn2
  isplitl [Ps2n]; · iexact Ps2n
  isplitl [Tp2]; · iexact Tp2
  isplitl [Ps2p]; · iexact Ps2p
  isplitl [Pr2p Cp2]
  · isplitl [Pr2p]; · iexact Pr2p
    iexact Cp2
  isplitl [Pr2n Cn2]
  · isplitl [Pr2n]; · iexact Pr2n
    iexact Cn2
  isplitl [Tli XR]
  · isplitl [Tli]; · iexact Tli
    iexact XR
  isplitl [P0]
  · isplitl [P0]; · iexact P0
    iexact HR
  isplitl [P1]
  · isplitl [P1]; · iexact P1
    iexact HR
  isplitl [S0 S1]
  · isplitl [S0]; · iexact S0
    iexact S1
  isplitl [Tlo Own]
  · isplitl [Tlo]; · iexact Tlo
    iexact Own
  isplitl [P2]
  · isplitl [P2]; · iexact P2
    iexact HR
  isplitl [P3]; · iexact P3
  iexact HR

/-- One conjunct of the state from its pieces, the rest from the rest; -/
private theorem takeP {P Q C R : sProp 𝕄} (hC : P ⊢ C) (h : Q ⊢ R) : iprop(P ∗ Q) ⊢ iprop(C ∗ R) := BIClass.sep_mono hC h
/-- a conjunct that needs nothing; -/
private theorem skipE {Q C R : sProp 𝕄} (hC : (emp : sProp 𝕄) ⊢ C) (h : Q ⊢ R) : Q ⊢ iprop(C ∗ R) := by
  iintro H
  isplitr
  · iapply hC; iempintro
  · iapply h; iexact H
/-- an empty interval. -/
private theorem skipS {lo hi : Nat} {Φ : Nat → sProp 𝕄} {Q R : sProp 𝕄} (hle : hi ≤ lo) (h : Q ⊢ R) : Q ⊢ iprop(seg lo hi Φ ∗ R) :=
  skipE (emp_seg hle Φ) h

/-- The state at the start, conjunct by conjunct: at the start every "after" interval is empty and every "before" interval whole. -/
private theorem pre_StR (c : Dev nD) (K : CellIx → ℕ) : Pre m c K ⊢ StR m c Cnt.start := by
  unfold Pre StR
  refine takeP (bar_item (F := F) c) ?_
  refine takeP ite_bw_false ?_
  refine skipE ite_bw_false ?_
  refine takeP (seg_pair _ _) ?_
  refine skipS (by decide) ?_
  refine takeP (Entails.of_eq rfl) ?_
  refine skipS (by decide) ?_
  refine takeP (pend_seg (F := F) c 88 64) ?_
  refine skipS (by decide) ?_
  refine takeP (pend_seg (F := F) c 152 20) ?_
  refine skipS (by decide) ?_
  refine skipS (by decide) ?_
  refine skipS (by decide) ?_
  refine skipS (by decide) ?_
  refine skipS (by decide) ?_
  refine takeP (Entails.of_eq rfl) ?_
  refine skipS (by decide) ?_
  refine takeP (Entails.of_eq rfl) ?_
  refine skipS (by decide) ?_
  refine takeP (Entails.of_eq rfl) ?_
  refine skipS (by decide) ?_
  refine takeP (Entails.of_eq rfl) ?_
  refine skipS (by decide) ?_
  refine takeP (pend_seg (F := F) c 300 64) ?_
  refine skipS (by decide) ?_
  refine skipS (by decide) ?_
  refine skipS (by decide) ?_
  refine skipS (by decide) ?_
  refine takeP (pend_seg (F := F) c 364 64) ?_
  refine skipS (by decide) ?_
  refine skipS (by decide) ?_
  refine skipS (by decide) ?_
  refine skipS (by decide) ?_
  refine skipS (by decide) ?_
  refine takeP (Entails.of_eq rfl) ?_
  refine skipS (by decide) ?_
  refine takeP (Entails.of_eq rfl) ?_
  refine skipS (by decide) ?_
  refine takeP (Entails.of_eq rfl) ?_
  refine skipS (by decide) ?_
  refine takeP (Entails.of_eq rfl) ?_
  refine skipS (by decide) ?_
  refine takeP (pend_seg (F := F) c 472 22) ?_
  refine skipS (by decide) ?_
  refine takeP (pend_seg (F := F) c 494 22) ?_
  refine skipS (by decide) ?_
  refine takeP (seg_pair _ _) ?_
  refine skipS (by decide) ?_
  refine skipS (by decide) ?_
  refine takeP (loc_item m K c 0 0 (by decide)) ?_
  refine takeP (loc_item m K c 1 1 (by decide)) ?_
  refine takeP (slots_start (F := F) c) ?_
  refine skipS (by decide) ?_
  refine takeP (seg_pair _ _) ?_
  refine skipS (by decide) ?_
  refine skipS (by decide) ?_
  refine takeP (loc_item m K c 2 0 (by decide)) ?_
  exact loc_item m K c 3 1 (by decide)

/-- From what the launch hands over, the state at the start. -/
private theorem start_wand (c : Dev nD) (K : CellIx → ℕ) :
    iprop(recs m K ∗ XCut m c ∗ OCut (F := F) c ∗ Creds (F := F) c ∗ Poss (F := F) c ∗ payToks (F := F) c
        ∗ (slotAny (F := F) c 0 ∗ slotAny (F := F) c 1))
      ⊢ StR m c Cnt.start := by
  unfold XCut OCut Creds Poss payToks
  exact (shuffle (recs m K) _ _ _ _ _ _ _ _ _ _ _ _ _ _ _ _ _ _ _ _ _ _ _ _ _ _ _ _ _ _ _ _ _ _ _ _ _ _ _ _).trans (pre_StR m c K)

/-- The theorem's `hX`: the two arrays cut into the chunks the state holds them by, the launch credit onto the receive
    cells, the dealt ghost state into the state's intervals. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Hx, Ho⟩, #Hlev, Hcr, -, ⟨%K, #Hrec, Hat, Htok⟩⟩
  ihave Hc := (creds7 (F := F) c) $$ Hcr
  ihave Hx' := (x_cut m c) $$ Hx
  ihave Ho' := (o_cut m c) $$ Ho
  ihave Hp := (pos13 (F := F) c) $$ Hat
  imodintro
  isplitl
  · unfold X
    iexists K
    isplitr
    · unfold Ctx
      isplitr
      · iexact Hrec
      · iexact Hlev
    iintro Hs
    iapply (start_wand m c K)
    isplitr; · iexact Hrec
    isplitl [Hx']; · iexact Hx'
    isplitl [Ho']; · iexact Ho'
    isplitl [Hc]; · iexact Hc
    isplitl [Hp]; · iexact Hp
    isplitl [Htok]; · iexact Htok
    iexact Hs
  · iempintro

/-! ## The staging buffer is its two slots -/

/-- Every index of the staging buffer lies in slot 0 or in slot 1, -/
private theorem slot_cover : (Finset.univ : Finset S2x512x1024.Idx) = slot 0 ∪ slot 1 := by
  ext i
  have h0 : (i 0).val < 2 := (i 0).isLt
  simp only [slot, Finset.mem_univ, Finset.mem_union, Finset.mem_filter, true_and, true_iff]
  omega

/-- and in one of them only. -/
private theorem slot_disj : Disjoint (slot 0) (slot 1) := by
  rw [Finset.disjoint_left]
  intro i h0 h1
  rw [slot, Finset.mem_filter] at h0 h1
  omega

/-- The theorem's `hin`: the staging buffer, whole at some contents, is its two slots. -/
theorem phi0_intro (c : Dev nD) :
    iprop(X m c ∗ Pipeline.prefHeld Pipeline.Prefetch.none c (fun _ => fullShare.right) (fun k => k.elim0) ∗ Pipeline.scopedRest cfg0.spec c)
      ⊢ Φ₀ m c := by
  rw [scopedRest0_eq]
  unfold X Φ₀
  iintro ⟨⟨%K, HC, HW⟩, -, ⟨%f, Hr⟩⟩
  iexists K
  isplitl [HC]; · iexact HC
  iapply HW
  ihave Hr' := (Entails.of_eq (congrArg (fun S => (((c : Thread nD τ).loc cc0_scratch0) ↦[S]{fullShare} f : sProp 𝕄)) slot_cover)) $$ Hr
  ihave H2 := (pointsTo_union slot_disj).1 $$ Hr'
  icases H2 with ⟨H0, H1⟩
  unfold slotAny
  isplitl [H0]
  · iexists f; iexact H0
  · iexists f; iexact H1

/-- info: 'Cert.Kernel.AG.start_intro' depends on axioms: [propext, Classical.choice, Quot.sound] -/
#guard_msgs in #print axioms start_intro
/-- info: 'Cert.Kernel.AG.phi0_intro' depends on axioms: [propext, Classical.choice, Quot.sound] -/
#guard_msgs in #print axioms phi0_intro

end Cert.Kernel.AG

end
-- ==== Proof.W.Exit.lean ====
/-
  Leaving the body: every own cell is closed, the staging buffer is whole again, the chunks of each array are rejoined, the result array as the gathered result.
-/
import proofs.«900672_g7700000000000673_dist_ag_v7x_xyz2x2x2_z_m32768_n1024_f32_1_alg».proof.Proof.W.LaunchDefs
import proofs.«900672_g7700000000000673_dist_ag_v7x_xyz2x2x2_z_m32768_n1024_f32_1_alg».proof.Proof.W.Sets
import proofs.«900672_g7700000000000673_dist_ag_v7x_xyz2x2x2_z_m32768_n1024_f32_1_alg».proof.Proof.W.Routes

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Two general facts: an interval moved to start at zero; full-share points-tos of one buffer join -/

/-- An interval of length `n` starting at `a`, re-indexed from zero. -/
private theorem seg_shift (a n : Nat) (Φ : Nat → sProp 𝕄) : seg a (a + n) Φ = seg 0 n fun i => Φ (a + i) := by
  unfold seg
  have hmap : Finset.Ico a (a + n) = (Finset.Ico 0 n).map (addLeftEmbedding a) := by
    ext x
    rw [Finset.mem_map, Finset.mem_Ico]
    constructor
    · rintro ⟨h1, h2⟩
      exact ⟨x - a, Finset.mem_Ico.mpr ⟨Nat.zero_le _, by omega⟩, by show a + (x - a) = x; omega⟩
    · rintro ⟨y, hy, rfl⟩
      have hy' := (Finset.mem_Ico.mp hy).2
      show a ≤ a + y ∧ a + y < a + n
      omega
  rw [hmap]
  exact bigSep_map _

/-- Two full-share points-tos of one buffer at the same contents join into one on the union of their sets: the sets are
    disjoint, since nothing shares an element with a full share. -/
private theorem full_join {ℓ : Loc nD τ sig} {I J : Finset (Idx ℓ)} {f : Buf (Elt F) ℓ} :
    iprop((ℓ ↦[I]{fullShare} f) ∗ ℓ ↦[J]{fullShare} f) ⊢ (ℓ ↦[I ∪ J]{fullShare} f : sProp 𝕄) := by
  iintro ⟨H1, H2⟩
  icombine H1 H2 gives %h
  have hd : Disjoint I J := Finset.disjoint_left.mpr fun i hi hj =>
    not_opDef_fullShare _ (h i (Finset.mem_inter.mpr ⟨hi, hj⟩)).2
  iapply (pointsTo_union hd).2
  isplitl [H1]
  · iexact H1
  · iexact H2

/-- A whole family of full-share points-tos at the same contents joins into one on the union of the family's sets. -/
private theorem full_biUnion {ℓ : Loc nD τ sig} (S : Finset Nat) (K : Nat → Finset (Idx ℓ)) (f : Buf (Elt F) ℓ) :
    bigSep S (fun t => ℓ ↦[K t]{fullShare} f) ⊢ (ℓ ↦[S.biUnion K]{fullShare} f : sProp 𝕄) := by
  induction S using Finset.induction_on with
  | empty =>
    rw [Finset.biUnion_empty, pointsTo_empty]
    exact .rfl
  | insert t S ht ih =>
    rw [bigSep_insert ht, Finset.biUnion_insert]
    exact (sep_mono_r ih).trans full_join

/-! ## The state when everything has happened -/

private theorem locPos_done (g : GSem nD τ sig) (s : Nat) (hs : s < 2) : locPos (F := F) g s 64 = semVal g 0 := by
  unfold locPos
  exact if_neg (by omega)

/-- At the end every "before" interval is empty: what is left is the closed cells, the two slots of the staging buffer,
    the argument block's rows at the share the local copies read through, and the chunks of the result array. -/
private theorem done_shape (c : Dev nD) : StR m c Cnt.done ⊢ iprop(
    (semVal (dcn c 0) 0 ∗ semVal (dcn c 1) 0 ∗ semVal (dcn c 2) 0 ∗ semVal (dcn c 3) 0
      ∗ (seg 0 84 fun i => semVal (dcn c (4 + i)) 0) ∗ (seg 0 64 fun i => semVal (dcn c (88 + i)) 0)
      ∗ (seg 0 20 fun j => semVal (dcn c (152 + j)) 0) ∗ (seg 0 64 fun i => semVal (dcn c (172 + i)) 0)
      ∗ (seg 0 64 fun i => semVal (dcn c (236 + i)) 0) ∗ (seg 0 64 fun i => semVal (dcn c (300 + i)) 0)
      ∗ (seg 0 64 fun i => semVal (dcn c (364 + i)) 0) ∗ (seg 0 22 fun j => semVal (dcn c (428 + j)) 0)
      ∗ (seg 0 22 fun j => semVal (dcn c (450 + j)) 0) ∗ (seg 0 22 fun j => semVal (dcn c (472 + j)) 0)
      ∗ (seg 0 22 fun j => semVal (dcn c (494 + j)) 0))
    ∗ (seg 64 66 fun k => slotAny (F := F) c (k % 2))
    ∗ (seg 0 64 fun k => xAt m fullShare.right c (xrows (512 * k) 512))
    ∗ ((seg 0 64 fun k => holdsOn m c (rows (rowOwn c k) 512))
      ∗ (((seg 0 64 fun i => holdsAt m fullShare.left c (rows (rowZR c i) 128))
          ∗ (seg 0 64 fun i => holdsAt m fullShare.right c (rows (rowZR c i) 128)))
        ∗ (seg 0 20 fun j => holdsOn m c (rows (rowZR c (64 + j)) 128)))
      ∗ ((seg 0 22 fun i => holdsOn m c (rows (rowH1P c i) 128)) ∗ (seg 22 64 fun i => holdsOn m c (rows (rowH1P c i) 128)))
      ∗ ((seg 0 22 fun i => holdsOn m c (rows (rowH1N c i) 128)) ∗ (seg 22 44 fun i => holdsOn m c (rows (rowH1N c i) 128))
        ∗ (seg 44 64 fun i => holdsOn m c (rows (rowH1N c i) 128)))
      ∗ (seg 0 22 fun j => holdsOn m c (rows (rowH2P c j) 128))
      ∗ (seg 0 22 fun j => holdsOn m c (rows (rowH2N c j) 128)))) := by
  unfold StR
  simp only [Cnt.done]
  rw [locPos_done (dcn c 0) 0 (by omega), locPos_done (dcn c 1) 1 (by omega), locPos_done (dcn c 2) 0 (by omega),
    locPos_done (dcn c 3) 1 (by omega)]
  iintro ⟨-, -, -, -, -, -, H7, -, H9, -, H11, -, H13, -, H15, -, -, -, H19, -, -, -, H23, -, H25, -, H27, H28, -, H30,
    H31, -, H33, H34, -, -, -, H38, -, -, -, H42, -, H44, -, H46, -, -, H49, H50, H51, H52, -, -, -, H56, H57, H58⟩
  ihave H7 := (Entails.of_eq (seg_sep _ _)) $$ H7
  icases H7 with ⟨H7, -⟩
  ihave H11 := (Entails.of_eq (seg_sep _ _)) $$ H11
  icases H11 with ⟨H11s, H11h⟩
  ihave H44 := (Entails.of_eq (seg_sep _ _)) $$ H44
  icases H44 with ⟨H44s, H44h⟩
  ihave H46 := (Entails.of_eq (seg_sep _ _)) $$ H46
  icases H46 with ⟨H46s, H46h⟩
  isplitl [H50 H51 H57 H58 H7 H9 H11s H19 H23 H25 H30 H38 H42 H44s H46s]
  · isplitl [H50]; · iexact H50
    isplitl [H51]; · iexact H51
    isplitl [H57]; · iexact H57
    isplitl [H58]; · iexact H58
    isplitl [H7]; · iexact H7
    isplitl [H9]; · iexact H9
    isplitl [H11s]; · iexact H11s
    isplitl [H19]; · iexact H19
    isplitl [H23]; · iexact H23
    isplitl [H25]; · iexact H25
    isplitl [H30]; · iexact H30
    isplitl [H38]; · iexact H38
    isplitl [H42]; · iexact H42
    isplitl [H44s]; · iexact H44s
    iexact H46s
  isplitl [H52]; · iexact H52
  isplitl [H49]; · iexact H49
  isplitl [H56]; · iexact H56
  isplitl [H13 H15 H11h]
  · isplitl [H13 H15]
    · isplitl [H13]; · iexact H13
      iexact H15
    iexact H11h
  isplitl [H27 H28]
  · isplitl [H27]; · iexact H27
    iexact H28
  isplitl [H31 H33 H34]
  · isplitl [H31]; · iexact H31
    isplitl [H33]; · iexact H33
    iexact H34
  isplitl [H44h]; · iexact H44h
  iexact H46h

/-! ## (i) The 516 cells, closed -/

private theorem seg_one (a : Nat) (Φ : Nat → sProp 𝕄) : seg a (a + 1) Φ = Φ a := by
  unfold seg
  rw [Nat.Ico_succ_singleton]
  exact bigSep_singleton

/-- The kernel's own semaphores at zero are its 516 DMA cells at zero, by number. -/
private theorem ownSems0_seg (c : Dev nD) :
    (Pipeline.ownSems0 (Ix := Unit) (Name := ℕ) (U := UU) (Lvl := ℕ) (Val := Elt F) (τ := τ) osem c : sProp 𝕄)
      = seg 0 516 fun n => semVal (dcn c n) 0 := by
  unfold Pipeline.ownSems0 seg
  have hmap : Finset.Ico 0 516 = (Finset.univ : Finset (DmaSem sig)).map Fin.valEmbedding := by
    ext x
    rw [Finset.mem_map, Finset.mem_Ico]
    constructor
    · rintro ⟨-, h⟩
      exact ⟨⟨x, h⟩, Finset.mem_univ _, rfl⟩
    · rintro ⟨k, -, rfl⟩
      exact ⟨Nat.zero_le _, k.isLt⟩
  rw [hmap, bigSep_map]
  refine bigSep_congr fun k _ => ?_
  show semVal (dcell c k) 0 = semVal (dcn c k.val) 0
  rw [dcn_of_val c k k.val rfl]

/-- The cells family by family, as the state holds them, are all of them. -/
private theorem sems_join (c : Dev nD) :
    iprop(semVal (dcn c 0) 0 ∗ semVal (dcn c 1) 0 ∗ semVal (dcn c 2) 0 ∗ semVal (dcn c 3) 0
      ∗ (seg 0 84 fun i => semVal (dcn c (4 + i)) 0) ∗ (seg 0 64 fun i => semVal (dcn c (88 + i)) 0)
      ∗ (seg 0 20 fun j => semVal (dcn c (152 + j)) 0) ∗ (seg 0 64 fun i => semVal (dcn c (172 + i)) 0)
      ∗ (seg 0 64 fun i => semVal (dcn c (236 + i)) 0) ∗ (seg 0 64 fun i => semVal (dcn c (300 + i)) 0)
      ∗ (seg 0 64 fun i => semVal (dcn c (364 + i)) 0) ∗ (seg 0 22 fun j => semVal (dcn c (428 + j)) 0)
      ∗ (seg 0 22 fun j => semVal (dcn c (450 + j)) 0) ∗ (seg 0 22 fun j => semVal (dcn c (472 + j)) 0)
      ∗ (seg 0 22 fun j => semVal (dcn c (494 + j)) 0))
      ⊢ (Pipeline.ownSems0 (Ix := Unit) (Name := ℕ) (U := UU) (Lvl := ℕ) (Val := Elt F) (τ := τ) osem c : sProp 𝕄) := by
  have e0 : seg 0 4 (fun n => (semVal (dcn c n) 0 : sProp 𝕄)) = iprop(semVal (dcn c 0) 0 ∗ seg 1 4 fun n => semVal (dcn c n) 0) := seg_pop (by omega) _
  have e1 : seg 1 4 (fun n => (semVal (dcn c n) 0 : sProp 𝕄)) = iprop(semVal (dcn c 1) 0 ∗ seg 2 4 fun n => semVal (dcn c n) 0) := seg_pop (by omega) _
  have e2 : seg 2 4 (fun n => (semVal (dcn c n) 0 : sProp 𝕄)) = iprop(semVal (dcn c 2) 0 ∗ seg 3 4 fun n => semVal (dcn c n) 0) := seg_pop (by omega) _
  have e3 : seg 3 4 (fun n => (semVal (dcn c n) 0 : sProp 𝕄)) = semVal (dcn c 3) 0 := seg_one 3 _
  have s1 : seg 4 88 (fun n => (semVal (dcn c n) 0 : sProp 𝕄)) = seg 0 84 fun i => semVal (dcn c (4 + i)) 0 := seg_shift 4 84 _
  have s2 : seg 88 152 (fun n => (semVal (dcn c n) 0 : sProp 𝕄)) = seg 0 64 fun i => semVal (dcn c (88 + i)) 0 := seg_shift 88 64 _
  have s3 : seg 152 172 (fun n => (semVal (dcn c n) 0 : sProp 𝕄)) = seg 0 20 fun i => semVal (dcn c (152 + i)) 0 := seg_shift 152 20 _
  have s4 : seg 172 236 (fun n => (semVal (dcn c n) 0 : sProp 𝕄)) = seg 0 64 fun i => semVal (dcn c (172 + i)) 0 := seg_shift 172 64 _
  have s5 : seg 236 300 (fun n => (semVal (dcn c n) 0 : sProp 𝕄)) = seg 0 64 fun i => semVal (dcn c (236 + i)) 0 := seg_shift 236 64 _
  have s6 : seg 300 364 (fun n => (semVal (dcn c n) 0 : sProp 𝕄)) = seg 0 64 fun i => semVal (dcn c (300 + i)) 0 := seg_shift 300 64 _
  have s7 : seg 364 428 (fun n => (semVal (dcn c n) 0 : sProp 𝕄)) = seg 0 64 fun i => semVal (dcn c (364 + i)) 0 := seg_shift 364 64 _
  have s8 : seg 428 450 (fun n => (semVal (dcn c n) 0 : sProp 𝕄)) = seg 0 22 fun i => semVal (dcn c (428 + i)) 0 := seg_shift 428 22 _
  have s9 : seg 450 472 (fun n => (semVal (dcn c n) 0 : sProp 𝕄)) = seg 0 22 fun i => semVal (dcn c (450 + i)) 0 := seg_shift 450 22 _
  have s10 : seg 472 494 (fun n => (semVal (dcn c n) 0 : sProp 𝕄)) = seg 0 22 fun i => semVal (dcn c (472 + i)) 0 := seg_shift 472 22 _
  have s11 : seg 494 516 (fun n => (semVal (dcn c n) 0 : sProp 𝕄)) = seg 0 22 fun i => semVal (dcn c (494 + i)) 0 := seg_shift 494 22 _
  rw [ownSems0_seg,
    seg_split (lo := 0) (mid := 4) (hi := 516) (by omega) (by omega), seg_split (lo := 4) (mid := 88) (hi := 516) (by omega) (by omega),
    seg_split (lo := 88) (mid := 152) (hi := 516) (by omega) (by omega), seg_split (lo := 152) (mid := 172) (hi := 516) (by omega) (by omega),
    seg_split (lo := 172) (mid := 236) (hi := 516) (by omega) (by omega), seg_split (lo := 236) (mid := 300) (hi := 516) (by omega) (by omega),
    seg_split (lo := 300) (mid := 364) (hi := 516) (by omega) (by omega), seg_split (lo := 364) (mid := 428) (hi := 516) (by omega) (by omega),
    seg_split (lo := 428) (mid := 450) (hi := 516) (by omega) (by omega), seg_split (lo := 450) (mid := 472) (hi := 516) (by omega) (by omega),
    seg_split (lo := 472) (mid := 494) (hi := 516) (by omega) (by omega),
    e0, e1, e2, e3, s1, s2, s3, s4, s5, s6, s7, s8, s9, s10, s11]
  iintro ⟨H0, H1, H2, H3, R⟩
  isplitl [H0 H1 H2 H3]
  · isplitl [H0]; · iexact H0
    isplitl [H1]; · iexact H1
    isplitl [H2]; · iexact H2
    iexact H3
  iexact R

/-! ## (ii) The staging buffer, whole again -/

private theorem slot_disjoint : Disjoint (slot 0) (slot 1) := by
  rw [Finset.disjoint_left]
  intro i h0 h1
  rw [slot, Finset.mem_filter] at h0 h1
  omega

private theorem slot_cover : slot 0 ∪ slot 1 = (Finset.univ : Finset S2x512x1024.Idx) := by
  ext i
  have h : (i 0).val < 2 := (i 0).isLt
  rw [Finset.mem_union, slot, slot, Finset.mem_filter, Finset.mem_filter]
  constructor
  · intro _
    exact Finset.mem_univ _
  · intro _
    have h' : (i 0).val = 0 ∨ (i 0).val = 1 := by omega
    exact h'.imp (fun h => ⟨Finset.mem_univ _, h⟩) (fun h => ⟨Finset.mem_univ _, h⟩)

/-- The two slots, each at some contents, are the whole buffer at some contents: the first's on slot 0, the second's on slot 1. -/
private theorem slots_join (c : Dev nD) :
    (seg 64 66 fun k => slotAny (F := F) c (k % 2))
      ⊢ (Pipeline.scopedRest (Ix := Unit) (Name := ℕ) (U := UU) (Lvl := ℕ) (Val := Elt F) cfg0.spec c : sProp 𝕄) := by
  have e0 : seg 64 66 (fun k => slotAny (F := F) c (k % 2)) = iprop(slotAny (F := F) c 0 ∗ seg 65 66 fun k => slotAny (F := F) c (k % 2)) :=
    seg_pop (by omega) _
  have e1 : seg 65 66 (fun k => slotAny (F := F) c (k % 2)) = slotAny (F := F) c 1 := seg_one 65 _
  rw [scopedRest0_eq, e0, e1]
  unfold slotAny
  iintro ⟨⟨%f0, H0⟩, ⟨%f1, H1⟩⟩
  have hj : iprop((((c : Thread nD τ).loc cc0_scratch0) ↦[slot 0]{fullShare} f0) ∗ (((c : Thread nD τ).loc cc0_scratch0) ↦[slot 1]{fullShare} f1))
      ⊢ ((((c : Thread nD τ).loc cc0_scratch0) ↦{fullShare} ((slot 1).piecewise f1 f0)) : sProp 𝕄) := by
    have h := pointsTo_join (Val := Elt F) (Ix := Unit) (Name := ℕ) (U := UU) (Lvl := ℕ) (q := fullShare) (f := f0) (g := f1) slot_disjoint
    rwa [slot_cover] at h
  iexists ((slot 1).piecewise f1 f0)
  iapply hj
  isplitl [H0]
  · iexact H0
  · iexact H1

/-! ## (iii) The arrays, rejoined -/

private theorem xrows_disjoint {k k' : Nat} (h : k ≠ k') : Disjoint (xrows (512 * k) 512) (xrows (512 * k') 512) := by
  rw [Finset.disjoint_left]
  intro i h1 h2
  rw [mem_xrows] at h1 h2
  omega

private theorem xrows_cover : (Finset.Ico 0 64).biUnion (fun k => xrows (512 * k) 512) = (Finset.univ : Finset S32768x1024.Idx) := by
  refine Finset.eq_univ_iff_forall.mpr fun i => ?_
  have h : (i 0).val < 32768 := (i 0).isLt
  rw [Finset.mem_biUnion]
  exact ⟨(i 0).val / 512, Finset.mem_Ico.mpr ⟨Nat.zero_le _, by omega⟩, mem_xrows.mpr ⟨by omega, by omega⟩⟩

/-- The 64 pieces of the argument block the local copies read, all at the launch contents, are the whole block. -/
private theorem xrows_join (c : Dev nD) :
    (seg 0 64 fun k => xAt m fullShare.right c (xrows (512 * k) 512))
      ⊢ ((((c : Thread nD τ).loc main_arg0) ↦{fullShare.right} m ((c : Thread nD τ).loc main_arg0)) : sProp 𝕄) := by
  have h := pointsTo_biUnion (Val := Elt F) (Ix := Unit) (Name := ℕ) (U := UU) (Lvl := ℕ) (ℓ := (c : Thread nD τ).loc main_arg0)
    (q := fullShare.right) (f := m ((c : Thread nD τ).loc main_arg0)) (Finset.Ico 0 64) (fun k => xrows (512 * k) 512)
    (fun k _ k' _ h => xrows_disjoint h)
  rw [xrows_cover] at h
  exact Entails.of_eq h.symm

/-- A chunk held at the gathered result is a points-to at the gathered result: off the chunk the contents do not matter. -/
private theorem holdsOn_goal (c : Dev nD) (S : Finset S65536x1024.Idx) :
    holdsOn m c S ⊢ ((((c : Thread nD τ).loc main_v1) ↦[S]{fullShare} goal m c) : sProp 𝕄) := by
  unfold holdsOn
  iintro ⟨%f, Hf, %hf⟩
  iapply (Entails.of_eq (pointsTo_congr (q := fullShare) hf))
  iexact Hf

private theorem family_join (c : Dev nD) (lo hi : Nat) (R : Nat → Nat) (n : Nat) :
    (seg lo hi fun i => holdsOn m c (rows (R i) n))
      ⊢ ((((c : Thread nD τ).loc main_v1) ↦[(Finset.Ico lo hi).biUnion fun i => rows (R i) n]{fullShare} goal m c) : sProp 𝕄) := by
  unfold seg
  exact (bigSep_mono fun i _ => holdsOn_goal m c _).trans (full_biUnion _ _ _)

/-- The six families of chunks are the whole result array. -/
private theorem chunks_cover (c : Dev nD) :
    ((Finset.Ico 0 64).biUnion (fun k => rows (rowOwn c k) 512)) ∪ ((Finset.Ico 0 84).biUnion (fun i => rows (rowZR c i) 128))
      ∪ ((Finset.Ico 0 64).biUnion (fun i => rows (rowH1P c i) 128)) ∪ ((Finset.Ico 0 64).biUnion (fun i => rows (rowH1N c i) 128))
      ∪ ((Finset.Ico 0 22).biUnion (fun j => rows (rowH2P c j) 128)) ∪ ((Finset.Ico 0 22).biUnion (fun j => rows (rowH2N c j) 128))
      = (Finset.univ : Finset S65536x1024.Idx) := by
  refine Finset.eq_univ_iff_forall.mpr fun i => ?_
  simp only [Finset.mem_union, Finset.mem_biUnion, Finset.mem_Ico]
  rcases cover c i with ⟨k, hk, h⟩ | ⟨k, hk, h⟩ | ⟨k, hk, h⟩ | ⟨k, hk, h⟩ | ⟨k, hk, h⟩ | ⟨k, hk, h⟩
  · exact Or.inl (Or.inl (Or.inl (Or.inl (Or.inl ⟨k, ⟨Nat.zero_le _, hk⟩, h⟩))))
  · exact Or.inl (Or.inl (Or.inl (Or.inl (Or.inr ⟨k, ⟨Nat.zero_le _, hk⟩, h⟩))))
  · exact Or.inl (Or.inl (Or.inl (Or.inr ⟨k, ⟨Nat.zero_le _, hk⟩, h⟩)))
  · exact Or.inl (Or.inl (Or.inr ⟨k, ⟨Nat.zero_le _, hk⟩, h⟩))
  · exact Or.inl (Or.inr ⟨k, ⟨Nat.zero_le _, hk⟩, h⟩)
  · exact Or.inr ⟨k, ⟨Nat.zero_le _, hk⟩, h⟩

/-- Every chunk of the result array at the gathered result: the whole array at the gathered result. -/
private theorem chunks_join (c : Dev nD) :
    iprop((seg 0 64 fun k => holdsOn m c (rows (rowOwn c k) 512))
      ∗ (((seg 0 64 fun i => holdsAt m fullShare.left c (rows (rowZR c i) 128))
          ∗ (seg 0 64 fun i => holdsAt m fullShare.right c (rows (rowZR c i) 128)))
        ∗ (seg 0 20 fun j => holdsOn m c (rows (rowZR c (64 + j)) 128)))
      ∗ ((seg 0 22 fun i => holdsOn m c (rows (rowH1P c i) 128)) ∗ (seg 22 64 fun i => holdsOn m c (rows (rowH1P c i) 128)))
      ∗ ((seg 0 22 fun i => holdsOn m c (rows (rowH1N c i) 128)) ∗ (seg 22 44 fun i => holdsOn m c (rows (rowH1N c i) 128))
        ∗ (seg 44 64 fun i => holdsOn m c (rows (rowH1N c i) 128)))
      ∗ (seg 0 22 fun j => holdsOn m c (rows (rowH2P c j) 128))
      ∗ (seg 0 22 fun j => holdsOn m c (rows (rowH2N c j) 128)))
      ⊢ ((((c : Thread nD τ).loc main_v1) ↦{fullShare} goal m c) : sProp 𝕄) := by
  -- the halves of the z-peer's first 64 chunks rejoin
  have hz : iprop((seg 0 64 fun i => holdsAt m fullShare.left c (rows (rowZR c i) 128))
      ∗ (seg 0 64 fun i => holdsAt m fullShare.right c (rows (rowZR c i) 128)))
      ⊢ seg 0 64 fun i => holdsOn m c (rows (rowZR c i) 128) := by
    rw [← seg_sep]
    unfold seg
    exact bigSep_mono fun i _ => (holdsOn_halves m c _).2
  -- its last 20 are chunks 64 … 83, and with the first 64 they are one family
  have hl : (seg 0 20 fun j => holdsOn m c (rows (rowZR c (64 + j)) 128)) = seg 64 84 fun i => holdsOn m c (rows (rowZR c i) 128) :=
    (seg_shift 64 20 fun i => holdsOn m c (rows (rowZR c i) 128)).symm
  have hzz : iprop((seg 0 64 fun i => holdsOn m c (rows (rowZR c i) 128)) ∗ seg 64 84 fun i => holdsOn m c (rows (rowZR c i) 128))
      = seg 0 84 fun i => holdsOn m c (rows (rowZR c i) 128) := (seg_split (by omega) (by omega) _).symm
  -- the forwards from each ring neighbour, held in pieces by what was relayed on, are one family each
  have hp : iprop((seg 0 22 fun i => holdsOn m c (rows (rowH1P c i) 128)) ∗ (seg 22 64 fun i => holdsOn m c (rows (rowH1P c i) 128)))
      = seg 0 64 fun i => holdsOn m c (rows (rowH1P c i) 128) := (seg_split (by omega) (by omega) _).symm
  have hn : iprop((seg 0 22 fun i => holdsOn m c (rows (rowH1N c i) 128)) ∗ (seg 22 44 fun i => holdsOn m c (rows (rowH1N c i) 128))
        ∗ (seg 44 64 fun i => holdsOn m c (rows (rowH1N c i) 128)))
      = seg 0 64 fun i => holdsOn m c (rows (rowH1N c i) 128) := by
    rw [← seg_split (lo := 22) (mid := 44) (hi := 64) (by omega) (by omega), ← seg_split (lo := 0) (mid := 22) (hi := 64) (by omega) (by omega)]
  iintro ⟨HO, ⟨HLR, HL⟩, HP, HN, H2P, H2N⟩
  ihave HZ := hz $$ HLR
  ihave HL := (Entails.of_eq hl) $$ HL
  ihave HZ := (Entails.of_eq hzz) $$ [HZ HL]
  · isplitl [HZ]
    · iexact HZ
    · iexact HL
  ihave HP := (Entails.of_eq hp) $$ HP
  ihave HN := (Entails.of_eq hn) $$ HN
  ihave HO := (family_join m c 0 64 (rowOwn c) 512) $$ HO
  ihave HZ := (family_join m c 0 84 (rowZR c) 128) $$ HZ
  ihave HP := (family_join m c 0 64 (rowH1P c) 128) $$ HP
  ihave HN := (family_join m c 0 64 (rowH1N c) 128) $$ HN
  ihave H2P := (family_join m c 0 22 (rowH2P c) 128) $$ H2P
  ihave H2N := (family_join m c 0 22 (rowH2N c) 128) $$ H2N
  ihave H := full_join $$ [HO HZ]
  · isplitl [HO]
    · iexact HO
    · iexact HZ
  ihave H := full_join $$ [H HP]
  · isplitl [H]
    · iexact H
    · iexact HP
  ihave H := full_join $$ [H HN]
  · isplitl [H]
    · iexact H
    · iexact HN
  ihave H := full_join $$ [H H2P]
  · isplitl [H]
    · iexact H
    · iexact H2P
  ihave H := full_join $$ [H H2N]
  · isplitl [H]
    · iexact H
    · iexact H2N
  iapply (Entails.of_eq (congrArg (fun S => ((((c : Thread nD τ).loc main_v1) ↦[S]{fullShare} goal m c) : sProp 𝕄)) (chunks_cover c)))
  iexact H

/-! ## Leaving the body -/

/-- The theorem's `hout`: every own cell closed, the staging buffer whole again, the chunks of each array rejoined. -/
theorem phi1_exit (c : Dev nD) :
    Φ₁ m c ⊢ iprop(Y m c ∗ Pipeline.ownSems0 osem c ∗ Pipeline.scopedRest cfg0.spec c) := by
  unfold Φ₁ Y
  iintro H
  ihave H := (done_shape m c) $$ H
  icases H with ⟨HS, HV, HX, HC⟩
  isplitl [HX HC]
  · isplitl [HX]
    · iapply (xrows_join m c)
      iexact HX
    · iapply (chunks_join m c)
      iexact HC
  isplitl [HS]
  · iapply (sems_join c)
    iexact HS
  · iapply (slots_join c)
    iexact HV

/-- The theorem's `hY`: what the device leaves with, read against the final memory: the result array IS the gathered
    result and the argument block what it was. -/
theorem read_final (c : Dev nD) (s' : Phys nD τ sig (Elt F)) :
    iprop(Y m c ∗ emp ∗ SI s') ⊢ |={Set.univ}=> iprop(⌜QY m c s'.mem⌝ ∗ SI s') := by
  unfold Y
  iintro ⟨⟨Hx, Ho⟩, -, HSI⟩
  -- each whole-buffer points-to, at whatever share, agrees with the memory at every index
  icombine HSI Hx gives %hx
  icombine HSI Ho gives %ho
  imodintro
  isplitr
  · ipureintro
    exact ⟨Buf.eq_of_forall_mem_univ ho, Buf.eq_of_forall_mem_univ hx⟩
  iexact HSI

/-- info: 'Cert.Kernel.AG.phi1_exit' depends on axioms: [propext, Classical.choice, Quot.sound] -/
#guard_msgs in #print axioms phi1_exit

/-- info: 'Cert.Kernel.AG.read_final' depends on axioms: [propext, Classical.choice, Quot.sound] -/
#guard_msgs in #print axioms read_final

end Cert.Kernel.AG

end
-- ==== Proof.W.StepsBar.lean ====
/-
  The barrier: three signals, each lending the chunks the signalled device will write, then one wait for the three units the peers send, with which their lent chunks arrive.
-/
import proofs.«900672_g7700000000000673_dist_ag_v7x_xyz2x2x2_z_m32768_n1024_f32_1_alg».proof.Proof.W.Base
import proofs.«900672_g7700000000000673_dist_ag_v7x_xyz2x2x2_z_m32768_n1024_f32_1_alg».proof.Proof.W.Sets
import proofs.«900672_g7700000000000673_dist_ag_v7x_xyz2x2x2_z_m32768_n1024_f32_1_alg».proof.Proof.W.Routes

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A device's loan with its `s`-th signal is the payload of the duty that signal pays at the signalled device's
    barrier cell: that duty names the chunks the PAYER's array offers, and going to a neighbour and back (to the z-peer
    and back; to the next device and to its previous one; to the previous and to its next) is the identity. -/
private theorem myLend_eq (c : Dev nD) (s : Nat) (hs : s < 3) :
    myLend (F := F) c s = barPay (F := F) (sigPeer c s) (sigDuty s) := by
  have h0 : ∀ (hi : Nat) (Φ : Nat → sProp 𝕄), seg 0 hi Φ = bigSep (Finset.range hi) Φ := fun hi Φ => by
    unfold seg; rw [Finset.range_eq_Ico]
  obtain rfl | rfl | rfl : s = 0 ∨ s = 1 ∨ s = 2 := by omega
  · unfold myLend sigPeer sigDuty
    rw [if_pos rfl, if_pos rfl, if_pos rfl, h0]
    show _ = bigSep (Finset.range 84) fun i => lentOn (F := F) (zpeer (zpeer c)) (rows (rowZR (zpeer (zpeer c)) i) 128)
    rw [zpeer_zpeer]
  · unfold myLend sigPeer sigDuty
    rw [if_neg (by decide), if_pos rfl, if_neg (by decide), if_pos rfl, if_neg (by decide), if_pos rfl, h0, h0]
    show _ = iprop((bigSep (Finset.range 64) fun i => lentOn (F := F) (prv (nxt c)) (rows (rowH1N (prv (nxt c)) i) 128))
      ∗ bigSep (Finset.range 22) fun j => lentOn (F := F) (prv (nxt c)) (rows (rowH2N (prv (nxt c)) j) 128))
    rw [prv_nxt]
  · unfold myLend sigPeer sigDuty
    rw [if_neg (by decide), if_neg (by decide), if_neg (by decide), if_neg (by decide), if_neg (by decide), if_neg (by decide), h0, h0]
    show _ = iprop((bigSep (Finset.range 64) fun i => lentOn (F := F) (nxt (prv c)) (rows (rowH1P (nxt (prv c)) i) 128))
      ∗ bigSep (Finset.range 22) fun j => lentOn (F := F) (nxt (prv c)) (rows (rowH2P (nxt (prv c)) j) 128))
    rw [nxt_prv]

/-- The three payloads of a device's barrier round are the five families of chunks its three neighbours lend it, every
    chunk of each family (the z-peer's 84, and 64 + 22 of the next and of the previous ring device): the intervals of
    chunks not yet written, while their lower ends are all 0. -/
private theorem barPay_segs (c : Dev nD) {z a b d e : Nat} (hz : z = 0) (ha : a = 0) (hb : b = 0) (hd : d = 0) (he : e = 0) :
    iprop(barPay (F := F) c 0 ∗ barPay (F := F) c 1 ∗ barPay (F := F) c 2) ⊢
      iprop((seg z 84 fun i => lentOn (F := F) (zpeer c) (rows (rowZR (zpeer c) i) 128))
          ∗ (seg a 64 fun i => lentOn (F := F) (nxt c) (rows (rowH1P (nxt c) i) 128))
          ∗ (seg b 64 fun i => lentOn (F := F) (prv c) (rows (rowH1N (prv c) i) 128))
          ∗ (seg d 22 fun j => lentOn (F := F) (nxt c) (rows (rowH2P (nxt c) j) 128))
          ∗ (seg e 22 fun j => lentOn (F := F) (prv c) (rows (rowH2N (prv c) j) 128))) := by
  subst hz ha hb hd he
  unfold seg
  rw [← Finset.range_eq_Ico, ← Finset.range_eq_Ico, ← Finset.range_eq_Ico]
  rw [show barPay (F := F) c 0 = bigSep (Finset.range 84) fun i => lentOn (F := F) (zpeer c) (rows (rowZR (zpeer c) i) 128) from rfl,
    show barPay (F := F) c 1 = iprop((bigSep (Finset.range 64) fun i => lentOn (F := F) (prv c) (rows (rowH1N (prv c) i) 128))
      ∗ bigSep (Finset.range 22) fun j => lentOn (F := F) (prv c) (rows (rowH2N (prv c) j) 128)) from rfl,
    show barPay (F := F) c 2 = iprop((bigSep (Finset.range 64) fun i => lentOn (F := F) (nxt c) (rows (rowH1P (nxt c) i) 128))
      ∗ bigSep (Finset.range 22) fun j => lentOn (F := F) (nxt c) (rows (rowH2P (nxt c) j) 128)) from rfl]
  iintro ⟨H0, ⟨H1a, H1b⟩, ⟨H2a, H2b⟩⟩
  isplitl [H0]; · iexact H0
  isplitl [H2a]; · iexact H2a
  isplitl [H1a]; · iexact H1a
  isplitl [H2b]; · iexact H2b
  iexact H1b

/-- A barrier signal, the `n.sig`-th: to the z-peer, the next or the previous device. -/
theorem step_sig (K : CellIx → ℕ) (c : Dev nD) (n : Cnt) {α : Type} {Q : α → sProp 𝕄}
    {k : PUnit → Prog (TpuEff nD τ sig (Elt F) Λ₀ .tc) α}
    (hs : n.sig < 3) (dev : Dev nD) (hdev : dev = sigPeer c n.sig) (k' : Nat) (hk : k' = 1) :
    iprop(Ctx m K ∗ St m c n ∗ (St m c { n with sig := n.sig + 1 } -∗ WP c (k ⟨⟩) Q))
      ⊢ WP c (.op (.semSignal ((dev, .tc) : Thread nD τ) barS k') k) Q := by
  subst hdev hk
  unfold Ctx St StR
  dsimp only
  -- the signal's index leaves the interval of the signals still to send
  rw [seg_pop hs]
  -- what the device lends with this signal is the payload of the duty it pays
  have hpay : myLend (F := F) c n.sig
      ⊢ (agRd (F := F) m).payload (((sigPeer c n.sig, .tc) : Thread nD τ), SemLoc.reg barS) 0 (sigDuty n.sig) :=
    Entails.of_eq ((myLend_eq c n.sig hs).trans (payload_bar m (sigPeer c n.sig) (sigDuty n.sig)).symm)
  iintro ⟨⟨#HI, #Hlev⟩, ⟨⟨%W, HO⟩, ⟨⟨Htok, Hlend⟩, Hsig⟩, Hrest⟩, Hk⟩
  -- the signal pays duty `sigDuty n.sig` of the peer's barrier round with the loan, one unit off what is owed
  iapply (wp_signal 𝒱₀ ER (agRd m) (c : Thread nD τ) none (dst := ((sigPeer c n.sig, .tc) : Thread nD τ)) (sem := barS) (r := 0)
    (d := sigDuty n.sig) (κ := K (sigPeer c n.sig, none))
    (by rw [show (((sigPeer c n.sig, .tc) : Thread nD τ), SemLoc.reg barS) = barCell (sigPeer c n.sig) from rfl, duties_bar]; exact Finset.mem_univ _)
    (amount_bar m (sigPeer c n.sig) 0 (sigDuty n.sig)) () (Owed c { n with sig := n.sig + 1 }) (Owed_sig c n hs))
    $$ [HO Htok Hlend]
  · isplitr; · iapply (recs_inv m K (sigPeer c n.sig, none)); iexact HI
    isplitl [HO]; · iexact HO
    isplitl [Htok]; · iexact Htok
    isplitl [Hlend]
    · iapply hpay; iexact Hlend
    iapply (recs_reached m K (sigPeer c n.sig, none)); iexact HI
  iintro HO
  iapply Hk
  isplitl [HO]; · iexists W; iexact HO
  isplitl [Hsig]; · iexact Hsig
  iexact Hrest

/-- The barrier wait for its three units, every signal sent and no copy enqueued yet: the three peers' chunks arrive. -/
theorem step_barwait (K : CellIx → ℕ) (c : Dev nD) (n : Cnt) {α : Type} {Q : α → sProp 𝕄}
    {k : PUnit → Prog (TpuEff nD τ sig (Elt F) Λ₀ .tc) α}
    (hs : n.sig = 3) (hb : n.bw = false) (hz : n.zs = 0) (h1 : n.n1 = 0) (h2 : n.p1 = 0) (h3 : n.n2 = 0) (h4 : n.p2 = 0)
    (k' : Nat) (hk : k' = 3) :
    iprop(Ctx m K ∗ St m c n ∗ (St m c { n with bw := true } -∗ WP c (k ⟨⟩) Q))
      ⊢ WP c (.op (.semWait barS k') k) Q := by
  subst hk
  unfold Ctx St StR
  dsimp only
  -- before the wait the device holds its barrier cell's position and credit and none of the loans; after it, the loans
  rw [hb, if_neg Bool.false_ne_true, if_neg Bool.false_ne_true, if_pos (rfl : true = true), if_pos (rfl : true = true),
    show Owed c { n with bw := true } = Owed c n from rfl]
  iintro ⟨⟨#HI, #Hlev⟩, ⟨⟨%W, HO⟩, Hsig, ⟨Hat, Hcred⟩, -, Hrest⟩, Hk⟩
  -- the barrier sits at level 1; with every signal sent, whatever is still owed is a copy's arrival, at level 2 or above
  iapply (wp_wait_rest_token 𝒱₀ ER (agRd m) (c : Thread nD τ) none (wpE_semWait_eq 𝒱₀ (c : Thread nD τ) none Set.univ)
    (Set.mem_univ (K (c, none))) () (R := 0) (T := ∅) (m := 0) (by rw [Nat.zero_add]; exact (expect_bar m c).symm))
    $$ [Hcred HO Hat]
  · isplitr; · iapply (recs_inv m K (c, none)); iexact HI
    isplitl [Hcred]; · iexact Hcred
    isplitl [HO]; · iexact HO
    isplitr
    · iapply (mayWait_lvl c (.reg barS) (Owed c n) 1 (le_refl 1) (fun g u h => by
        obtain ⟨htc, h' | h' | h' | h'⟩ := Owed_pos c n g u h
        · exact absurd h'.1 (by omega)
        · exact ⟨htc, by omega⟩
        · exact ⟨htc, by omega⟩
        · exact ⟨htc, by omega⟩))
      iexact Hlev
    iexact Hat
  -- the cell is the runtime's: its position after the round is dropped; the round's payloads are the neighbours' loans
  iintro ⟨HO, -, -, Hpay⟩
  ihave Hpay := (Entails.of_eq (rest_bar m c)) $$ Hpay
  ihave Hpay := (barPay_segs c hz h1 h2 h3 h4) $$ Hpay
  iapply Hk
  isplitl [HO]; · iexists _; iexact HO
  isplitl [Hsig]; · iexact Hsig
  isplitr; · iempintro
  isplitl [Hpay]; · iexact Hpay
  iexact Hrest

/-- info: 'Cert.Kernel.AG.step_sig' depends on axioms: [propext, Classical.choice, Quot.sound] -/
#guard_msgs in #print axioms step_sig

/-- info: 'Cert.Kernel.AG.step_barwait' depends on axioms: [propext, Classical.choice, Quot.sound] -/
#guard_msgs in #print axioms step_barwait

end Cert.Kernel.AG

end
-- ==== Proof.W.StepsSend.lean ====
/-
  The addressed copies: the device's own rows to its z-peer, a received chunk forwarded to both ring neighbours, a forwarded chunk relayed one step further. Each spends the two duty tokens, lends its source, writes rows the target lent, and takes its arrival off what is owed.
-/
import proofs.«900672_g7700000000000673_dist_ag_v7x_xyz2x2x2_z_m32768_n1024_f32_1_alg».proof.Proof.W.Base
import proofs.«900672_g7700000000000673_dist_ag_v7x_xyz2x2x2_z_m32768_n1024_f32_1_alg».proof.Proof.W.Sets
import proofs.«900672_g7700000000000673_dist_ag_v7x_xyz2x2x2_z_m32768_n1024_f32_1_alg».proof.Proof.W.Routes

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local irreducible] seg

/-! ## Small facts used by every copy -/

/-- An interval with the next index's conjunct beside it is the interval one longer (when the interval is void
    the conjunct is dropped). -/
private theorem seg_snoc {lo hi : Nat} (Φ : Nat → sProp 𝕄) : iprop(seg lo hi Φ ∗ Φ hi) ⊢ seg lo (hi + 1) Φ := by
  by_cases h : lo ≤ hi
  · rw [seg_push h]
  · rw [seg_empty (show hi + 1 ≤ lo by omega) Φ]
    exact Affine.affine

/-- Two rows of the argument block with the same row number hold the same element. -/
private theorem row_congr {β : Type} (f : S32768x1024.Idx → β) {a b : Nat} (ha : a < 32768) (hb : b < 32768) (y : Fin 1024) (h : a = b) :
    f (Shape.pair (d := ![32768, 1024]) ⟨a, ha⟩ y) = f (Shape.pair (d := ![32768, 1024]) ⟨b, hb⟩ y) := by
  subst h; rfl

/-! ## The common core -/

/-- An addressed copy of one chunk, from a source slice held at a share into rows the target device lent: it spends
    the two duty tokens of its send cell and of the target's receive cell, takes the arrival off what is owed, and
    returns the send cell's credit. The two payload entailments say what the schedule promises at those cells. -/
private theorem send_core (K : CellIx → ℕ) (c : Dev nD) {α : Type} {Q : α → sProp 𝕄} {k : PUnit → Prog (TpuEff nD τ sig (Elt F) Λ₀ .tc) α}
    {src : Memref sig .tc .hbm S128x1024 .f32} (d : Dev nD)
    (offd : Fin 2 → Nat) (hd : ∀ a, offd a + S128x1024.size a ≤ S65536x1024.size a) (Rd : Nat) (hod : offd = ![Rd, 0])
    (sS sR : DmaSem sig) (kS kR : Nat) (hsS : sS.val = kS) (hsR : sR.val = kR) (hS4 : 4 ≤ kS) (hR4 : 4 ≤ kR)
    (q : PosShare TreeShare) (fs : Buf (Elt F) (src.view.loc (c : Thread nD τ)))
    (S : Finset _) (hS : src.view.set = S) (Src : sProp 𝕄) (hSrc : Src = (src.view.loc (c : Thread nD τ) ↦[S]{q} fs))
    (O₀ O : CellTallies nD τ sig Unit) (hO : O₀ = O + tallyAt (dcn d kR) () N128)
    (hpay₁ : (src.view.loc (c : Thread nD τ) ↦[S]{q} fs) ⊢ dmaPay m c kS 0)
    (hpay₂ : ∀ fd : Buf (Elt F) ((d : Thread nD τ).loc main_v1),
      (((d : Thread nD τ).loc main_v1) ↦[rows Rd 128]{fullShare}
          ((oS128 offd hd).view.write (Elt F) fd (src.view.read (Elt F) fs) Finset.univ)) ⊢ dmaPay m d kR 0)
    {hsc hsrc hdst hsem} :
    iprop(Ctx m K ∗ (∃ W, owes (c : Thread nD τ) O₀ W) ∗ toks (F := F) (dcn c kS) (dcn d kR)
        ∗ Src ∗ lentOn (F := F) d (rows Rd 128)
        ∗ (((∃ W, owes (c : Thread nD τ) O W) ∗ cred (tallyAt (dcn c kS) () N128)) -∗ WP c (k ⟨⟩) Q))
      ⊢ WP c (.op (.enqueueDma src (.remote (Dev.tc d : Thread nD τ) (oS128 offd hd) (.dma sS) hsc) (.dma sR) hsrc hdst hsem) k) Q := by
  subst hsS hsR hS hSrc
  rw [← dcn_of_val c sS _ rfl, ← dcn_of_val d sR _ rfl]
  rw [← dcn_of_val d sR _ rfl] at hO
  unfold Ctx toks lentOn
  iintro ⟨⟨#Hrecs, #Hlev⟩, ⟨%W, HO⟩, ⟨Ht₁, Ht₂⟩, Hsrc, ⟨%fd, Hdst⟩, Hk⟩
  have h := wp_send_pointsTo (Γ := .empty) (defs := defs₀ (F := F)) 𝒱₀ ER (agRd m) (c : Thread nD τ) none
    (hsc := hsc) (hsrc := hsrc) (hdst := hdst) (hsem := hsem) (Es := Set.univ) (Q := Q)
    (src := src) (dst := oS128 offd hd) (c' := (Dev.tc d : Thread nD τ)) (sS := .dma sS) (sem := .dma sR) (k := k)
    (q := q) (fs := fs) (fd := fd) (W := W) (r₁ := 0) (r₂ := 0) (d₁ := 0) (d₂ := 0)
    (κ₁ := K (c, some sS)) (κ₂ := K (d, some sR))
    (by rw [duties_dma m c sS hS4]; exact Finset.mem_singleton_self _)
    (by rw [duties_dma m d sR hR4]; exact Finset.mem_singleton_self _)
    () () N128 rfl (amount_dma m c sS hS4 0 0) (amount_dma m d sR hR4 0 0)
    (O₀ := O₀) O hO
    (by rw [payload_dma]; exact hpay₁)
    (by rw [payload_dma, oSlice128_set offd hd Rd hod]; exact hpay₂ fd)
  rw [oSlice128_set offd hd Rd hod] at h
  iapply h $$ [Hsrc Hdst HO Ht₁ Ht₂] [Hk]
  · isplitr; · iapply (recs_inv m K (c, some sS)); iexact Hrecs
    isplitr; · iapply (recs_inv m K (d, some sR)); iexact Hrecs
    isplitl [Hsrc]; · iexact Hsrc
    isplitl [Hdst]; · iexact Hdst
    isplitl [HO]; · iexact HO
    isplitl [Ht₁]; · iexact Ht₁
    isplitr; · iapply (recs_reached m K (c, some sS)); iexact Hrecs
    isplitl [Ht₂]; · iexact Ht₂
    iapply (recs_reached m K (d, some sR)); iexact Hrecs
  · iintro ⟨Hc, HO'⟩
    iapply Hk
    isplitl [HO']
    · iexists W; iexact HO'
    · iexact Hc

/-! ## The copies to the z-peer -/

/-- What the z-peer's receive cell is promised: the rows written hold the z-peer's gathered result, which there is
    the sender's own argument block at the matching rows. -/
private theorem zr_pay (c : Dev nD) (i : Nat) (hi : i < 84) (offs offd : Fin 2 → Nat)
    (hs : ∀ a, offs a + S128x1024.size a ≤ S32768x1024.size a) (hd : ∀ a, offd a + S128x1024.size a ≤ S65536x1024.size a)
    (hos : offs = ![rowZS c i, 0]) (hod : offd = ![rowZR (zpeer c) i, 0])
    (fd : Buf (Elt F) ((zpeer c : Thread nD τ).loc main_v1)) :
    (((zpeer c : Thread nD τ).loc main_v1) ↦[rows (rowZR (zpeer c) i) 128]{fullShare}
        ((oS128 offd hd).view.write (Elt F) fd ((xS128 offs hs).view.read (Elt F) (m ((c : Thread nD τ).loc main_arg0))) Finset.univ))
      ⊢ dmaPay m (zpeer c) (88 + i) 0 := by
  rw [dmaPay_zr m (zpeer c) i hi 0]
  unfold holdsOn
  iintro H
  iexists _
  isplitl [H]
  · iexact H
  · ipureintro
    intro j hj
    have hj' := hj
    rw [mem_rows, rowZR_zpeer] at hj'
    have hle := rowZS_le c i hi
    have hz := (zc c).isLt
    refine (land_x_to_o offs offd hs hd (rowZS c i) (rowZR (zpeer c) i) hos hod hle _ fd j hj).trans ?_
    refine Eq.trans ?_ (goal_z m c i hi j hj).symm
    refine row_congr _ _ _ _ ?_
    rw [rowZR_zpeer]
    unfold mbase at hj' ⊢
    omega

/-- The `n.zs`-th copy to the z-peer: rows of the argument block (their left share is lent) into rows of the z-peer's result that it lent at the barrier. -/
theorem step_zsend (K : CellIx → ℕ) (c : Dev nD) (n : Cnt) {α : Type} {Q : α → sProp 𝕄} {k : PUnit → Prog (TpuEff nD τ sig (Elt F) Λ₀ .tc) α} (hb : n.bw = true) (hz : n.zs < 84) (dev : Dev nD) (hdev : dev = zpeer c)
    (offs offd : Fin 2 → Nat) (hs hd) (hos : offs = ![rowZS c n.zs, 0]) (hod : offd = ![rowZR (zpeer c) n.zs, 0])
    (sS sR : DmaSem sig) (hsS : sS.val = 4 + n.zs) (hsR : sR.val = 88 + n.zs) {hsc hsrc hdst hsem} :
    iprop(Ctx m K ∗ St m c n ∗ (St m c { n with zs := n.zs + 1 } -∗ WP c (k ⟨⟩) Q))
      ⊢ WP c (.op (.enqueueDma (xS128 offs hs) (.remote (Dev.tc dev : Thread nD τ) (oS128 offd hd) (.dma sS) hsc) (.dma sR) hsrc hdst hsem) k) Q := by
  subst hdev
  have hp₁ : (((c : Thread nD τ).loc main_arg0) ↦[xrows (rowZS c n.zs) 128]{fullShare.left} m ((c : Thread nD τ).loc main_arg0))
      ⊢ dmaPay m c (4 + n.zs) 0 := by
    rw [dmaPay_zs m c n.zs hz 0]; unfold xAt; exact .rfl
  have hcore := send_core m K c (Q := Q) (k := k) (src := xS128 offs hs) (zpeer c) offd hd (rowZR (zpeer c) n.zs) hod sS sR (4 + n.zs) (88 + n.zs) hsS hsR
    (by omega) (by omega) fullShare.left (m ((c : Thread nD τ).loc main_arg0)) (xrows (rowZS c n.zs) 128) (xSlice128_set offs hs _ hos)
    (xAt m fullShare.left c (xrows (rowZS c n.zs) 128)) rfl
    (Owed c n) (Owed c { n with zs := n.zs + 1 }) (Owed_zs c n hz) hp₁ (fun fd => zr_pay m c n.zs hz offs offd hs hd hos hod fd)
    (hsc := hsc) (hsrc := hsrc) (hdst := hdst) (hsem := hsem)
  unfold St StR
  dsimp only
  simp only [hb, ↓reduceIte]
  rw [seg_pop hz, seg_pop hz]
  iintro ⟨#HC, ⟨HO, Hsig, Hbw, ⟨⟨Hd, Hl0⟩, Hl1, Hl2, Hl3, Hl4⟩, ⟨⟨Htok, Hx⟩, Hzs⟩, Hcr, Hrest⟩, Hk⟩
  iapply hcore
  isplitr; · iexact HC
  isplitl [HO]; · iexact HO
  isplitl [Htok]; · iexact Htok
  isplitl [Hx]; · iexact Hx
  isplitl [Hd]; · iexact Hd
  iintro ⟨HO', Hc⟩
  iapply Hk
  isplitl [HO']; · iexact HO'
  isplitl [Hsig]; · iexact Hsig
  isplitl [Hbw]; · iexact Hbw
  isplitl [Hl0 Hl1 Hl2 Hl3 Hl4]
  · isplitl [Hl0]; · iexact Hl0
    isplitl [Hl1]; · iexact Hl1
    isplitl [Hl2]; · iexact Hl2
    isplitl [Hl3]; · iexact Hl3
    iexact Hl4
  isplitl [Hzs]; · iexact Hzs
  isplitl [Hcr Hc]
  · iapply seg_snoc
    isplitl [Hcr]; · iexact Hcr
    iexact Hc
  iexact Hrest

/-! ## Forwards and relays: a chunk of the result array copied to the same rows of a ring neighbour's -/

/-- What the neighbour's receive cell is promised: the rows written hold the neighbour's gathered result, because the
    chunk read held the sender's, and on those rows the two devices' gathered results agree. -/
private theorem fwd_pay (c d : Dev nD) (offs offd : Fin 2 → Nat)
    (hs : ∀ a, offs a + S128x1024.size a ≤ S65536x1024.size a) (hd : ∀ a, offd a + S128x1024.size a ≤ S65536x1024.size a)
    (R Rd : Nat) (hos : offs = ![R, 0]) (hod : offd = ![Rd, 0]) (hR : Rd = R)
    (f : Buf (Elt F) ((c : Thread nD τ).loc main_v1)) (hf : ∀ i ∈ rows R 128, f i = goal m c i)
    (hg : ∀ i ∈ rows R 128, goal m d i = goal m c i) (fd : Buf (Elt F) ((d : Thread nD τ).loc main_v1)) :
    (((d : Thread nD τ).loc main_v1) ↦[rows Rd 128]{fullShare}
        ((oS128 offd hd).view.write (Elt F) fd ((oS128 offs hs).view.read (Elt F) f) Finset.univ))
      ⊢ holdsOn m d (rows Rd 128) := by
  subst hR
  unfold holdsOn
  iintro H
  iexists _
  isplitl [H]
  · iexact H
  · ipureintro
    intro j hj
    exact (land_o_to_o offs offd hs hd Rd hos hod f fd j hj).trans ((hf j hj).trans (hg j hj).symm)

/-- A chunk held at a share at the gathered result is sent on: the share is lent to the copy (the send cell's payload),
    and the neighbour's rows, once written, hold its gathered result (the receive cell's payload). -/
private theorem fwd_core (K : CellIx → ℕ) (c : Dev nD) {α : Type} {Q : α → sProp 𝕄} {k : PUnit → Prog (TpuEff nD τ sig (Elt F) Λ₀ .tc) α} (d : Dev nD) (offs offd : Fin 2 → Nat)
    (hs : ∀ a, offs a + S128x1024.size a ≤ S65536x1024.size a) (hd : ∀ a, offd a + S128x1024.size a ≤ S65536x1024.size a)
    (R Rd : Nat) (hos : offs = ![R, 0]) (hod : offd = ![Rd, 0]) (hR : Rd = R)
    (sS sR : DmaSem sig) (kS kR : Nat) (hsS : sS.val = kS) (hsR : sR.val = kR) (hS4 : 4 ≤ kS) (hR4 : 4 ≤ kR)
    (q : PosShare TreeShare) (Src : sProp 𝕄) (hSrc : Src = holdsAt m q c (rows R 128))
    (O₀ O : CellTallies nD τ sig Unit) (hO : O₀ = O + tallyAt (dcn d kR) () N128)
    (hp₁ : dmaPay m c kS 0 = Src) (hp₂ : dmaPay m d kR 0 = holdsOn m d (rows Rd 128))
    (hg : ∀ i ∈ rows R 128, goal m d i = goal m c i) {hsc hsrc hdst hsem} :
    iprop(Ctx m K ∗ (∃ W, owes (c : Thread nD τ) O₀ W) ∗ toks (F := F) (dcn c kS) (dcn d kR)
        ∗ Src ∗ lentOn (F := F) d (rows Rd 128)
        ∗ (((∃ W, owes (c : Thread nD τ) O W) ∗ cred (tallyAt (dcn c kS) () N128)) -∗ WP c (k ⟨⟩) Q))
      ⊢ WP c (.op (.enqueueDma (oS128 offs hs) (.remote (Dev.tc d : Thread nD τ) (oS128 offd hd) (.dma sS) hsc) (.dma sR) hsrc hdst hsem) k) Q := by
  subst hSrc
  unfold holdsAt
  iintro ⟨#HC, HO, Htok, ⟨%f, Hf, %hf⟩, Hd, Hk⟩
  have hpay₁ : (((c : Thread nD τ).loc main_v1) ↦[rows R 128]{q} f) ⊢ dmaPay m c kS 0 := by
    rw [hp₁]
    unfold holdsAt
    iintro H
    iexists f
    isplitl [H]
    · iexact H
    · ipureintro; exact hf
  have hcore := send_core m K c (Q := Q) (k := k) (src := oS128 offs hs) d offd hd Rd hod sS sR kS kR hsS hsR hS4 hR4 q f
    (rows R 128) (oSlice128_set offs hs R hos) (((c : Thread nD τ).loc main_v1) ↦[rows R 128]{q} f) rfl O₀ O hO hpay₁
    (fun fd => by rw [hp₂]; exact fwd_pay m c d offs offd hs hd R Rd hos hod hR f hf hg fd)
    (hsc := hsc) (hsrc := hsrc) (hdst := hdst) (hsem := hsem)
  iapply hcore
  isplitr; · iexact HC
  isplitl [HO]; · iexact HO
  isplitl [Htok]; · iexact Htok
  isplitl [Hf]; · iexact Hf
  isplitl [Hd]; · iexact Hd
  iexact Hk

/-- The forward of chunk `n.n1` to the next device: the left half of the chunk is lent to the copy. -/
theorem step_n1 (K : CellIx → ℕ) (c : Dev nD) (n : Cnt) {α : Type} {Q : α → sProp 𝕄} {k : PUnit → Prog (TpuEff nD τ sig (Elt F) Λ₀ .tc) α} (hb : n.bw = true) (hi : n.n1 < n.zrw) (h64 : n.n1 < 64) (dev : Dev nD) (hdev : dev = nxt c)
    (offs offd : Fin 2 → Nat) (hs hd) (hos : offs = ![rowZR c n.n1, 0]) (hod : offd = ![rowH1P (nxt c) n.n1, 0])
    (sS sR : DmaSem sig) (hsS : sS.val = 172 + n.n1) (hsR : sR.val = 300 + n.n1) {hsc hsrc hdst hsem} :
    iprop(Ctx m K ∗ St m c n ∗ (St m c { n with n1 := n.n1 + 1 } -∗ WP c (k ⟨⟩) Q))
      ⊢ WP c (.op (.enqueueDma (oS128 offs hs) (.remote (Dev.tc dev : Thread nD τ) (oS128 offd hd) (.dma sS) hsc) (.dma sR) hsrc hdst hsem) k) Q := by
  subst hdev
  have hcore := fwd_core m K c (Q := Q) (k := k) (nxt c) offs offd hs hd (rowZR c n.n1) (rowH1P (nxt c) n.n1) hos hod (rowH1P_nxt c _ h64)
    sS sR (172 + n.n1) (300 + n.n1) hsS hsR (by omega) (by omega) fullShare.left (holdsAt m fullShare.left c (rows (rowZR c n.n1) 128)) rfl
    (Owed c n) (Owed c { n with n1 := n.n1 + 1 }) (Owed_n1 c n h64) (dmaPay_h1sn m c n.n1 h64 0) (dmaPay_h1rp m (nxt c) n.n1 h64 0)
    (fun i hi => goal_fwd_nxt m c n.n1 h64 i hi) (hsc := hsc) (hsrc := hsrc) (hdst := hdst) (hsem := hsem)
  unfold St StR
  dsimp only
  simp only [hb, ↓reduceIte]
  rw [seg_pop h64, seg_pop h64, seg_pop hi]
  iintro ⟨#HC, ⟨HO, H1, H2, ⟨Hl0, ⟨Hd, Hl1⟩, Hl2, Hl3, Hl4⟩, H4, H5, H6, H7, H8, H9, H10, H11, ⟨Hsrc, H12⟩, H13, H14, H15, ⟨Htok, H16⟩, H17, Hrest⟩, Hk⟩
  iapply hcore
  isplitr; · iexact HC
  isplitl [HO]; · iexact HO
  isplitl [Htok]; · iexact Htok
  isplitl [Hsrc]; · iexact Hsrc
  isplitl [Hd]; · iexact Hd
  iintro ⟨HO', Hc⟩
  iapply Hk
  isplitl [HO']; · iexact HO'
  iframe
  iapply seg_snoc
  iframe

/-- The forward of chunk `n.p1` to the previous device: the right half. -/
theorem step_p1 (K : CellIx → ℕ) (c : Dev nD) (n : Cnt) {α : Type} {Q : α → sProp 𝕄} {k : PUnit → Prog (TpuEff nD τ sig (Elt F) Λ₀ .tc) α} (hb : n.bw = true) (hi : n.p1 < n.zrw) (h64 : n.p1 < 64) (dev : Dev nD) (hdev : dev = prv c)
    (offs offd : Fin 2 → Nat) (hs hd) (hos : offs = ![rowZR c n.p1, 0]) (hod : offd = ![rowH1N (prv c) n.p1, 0])
    (sS sR : DmaSem sig) (hsS : sS.val = 236 + n.p1) (hsR : sR.val = 364 + n.p1) {hsc hsrc hdst hsem} :
    iprop(Ctx m K ∗ St m c n ∗ (St m c { n with p1 := n.p1 + 1 } -∗ WP c (k ⟨⟩) Q))
      ⊢ WP c (.op (.enqueueDma (oS128 offs hs) (.remote (Dev.tc dev : Thread nD τ) (oS128 offd hd) (.dma sS) hsc) (.dma sR) hsrc hdst hsem) k) Q := by
  subst hdev
  have hcore := fwd_core m K c (Q := Q) (k := k) (prv c) offs offd hs hd (rowZR c n.p1) (rowH1N (prv c) n.p1) hos hod (rowH1N_prv c _ h64)
    sS sR (236 + n.p1) (364 + n.p1) hsS hsR (by omega) (by omega) fullShare.right (holdsAt m fullShare.right c (rows (rowZR c n.p1) 128)) rfl
    (Owed c n) (Owed c { n with p1 := n.p1 + 1 }) (Owed_p1 c n h64) (dmaPay_h1sp m c n.p1 h64 0) (dmaPay_h1rn m (prv c) n.p1 h64 0)
    (fun i hi => goal_fwd_prv m c n.p1 h64 i hi) (hsc := hsc) (hsrc := hsrc) (hdst := hdst) (hsem := hsem)
  unfold St StR
  dsimp only
  simp only [hb, ↓reduceIte]
  rw [seg_pop h64, seg_pop h64, seg_pop hi]
  iintro ⟨#HC, ⟨HO, H1, H2, ⟨Hl0, Hl1, ⟨Hd, Hl2⟩, Hl3, Hl4⟩, H4, H5, H6, H7, H8, H9, H10, H11, H12, H13, ⟨Hsrc, H14⟩, H15, H16, H17, H18, H19, ⟨Htok, H20⟩, H21, Hrest⟩, Hk⟩
  iapply hcore
  isplitr; · iexact HC
  isplitl [HO]; · iexact HO
  isplitl [Htok]; · iexact Htok
  isplitl [Hsrc]; · iexact Hsrc
  isplitl [Hd]; · iexact Hd
  iintro ⟨HO', Hc⟩
  iapply Hk
  isplitl [HO']; · iexact HO'
  iframe
  iapply seg_snoc
  iframe

/-- The relay of chunk `n.n2` (received from the previous device) on to the next one. -/
theorem step_n2 (K : CellIx → ℕ) (c : Dev nD) (n : Cnt) {α : Type} {Q : α → sProp 𝕄} {k : PUnit → Prog (TpuEff nD τ sig (Elt F) Λ₀ .tc) α} (hb : n.bw = true) (hi : n.n2 < min n.rpw 22) (dev : Dev nD) (hdev : dev = nxt c)
    (offs offd : Fin 2 → Nat) (hs hd) (hos : offs = ![rowH1P c n.n2, 0]) (hod : offd = ![rowH2P (nxt c) n.n2, 0])
    (sS sR : DmaSem sig) (hsS : sS.val = 428 + n.n2) (hsR : sR.val = 472 + n.n2) {hsc hsrc hdst hsem} :
    iprop(Ctx m K ∗ St m c n ∗ (St m c { n with n2 := n.n2 + 1 } -∗ WP c (k ⟨⟩) Q))
      ⊢ WP c (.op (.enqueueDma (oS128 offs hs) (.remote (Dev.tc dev : Thread nD τ) (oS128 offd hd) (.dma sS) hsc) (.dma sR) hsrc hdst hsem) k) Q := by
  subst hdev
  have h22 : n.n2 < 22 := lt_of_lt_of_le hi (min_le_right _ _)
  have hcore := fwd_core m K c (Q := Q) (k := k) (nxt c) offs offd hs hd (rowH1P c n.n2) (rowH2P (nxt c) n.n2) hos hod (rowH2P_nxt c _)
    sS sR (428 + n.n2) (472 + n.n2) hsS hsR (by omega) (by omega) fullShare (holdsOn m c (rows (rowH1P c n.n2) 128)) rfl
    (Owed c n) (Owed c { n with n2 := n.n2 + 1 }) (Owed_n2 c n h22) (dmaPay_h2sn m c n.n2 h22 0) (dmaPay_h2rp m (nxt c) n.n2 h22 0)
    (fun i hi => goal_relay_nxt m c n.n2 h22 i hi) (hsc := hsc) (hsrc := hsrc) (hdst := hdst) (hsem := hsem)
  unfold St StR
  dsimp only
  simp only [hb, ↓reduceIte]
  rw [seg_pop h22, seg_pop h22, seg_pop hi]
  iintro ⟨#HC, ⟨HO, H1, H2, ⟨Hl0, Hl1, Hl2, ⟨Hd, Hl3⟩, Hl4⟩, H4, H5, H6, H7, H8, H9, H10, H11, H12, H13, H14, H15, H16, H17, H18, H19, H20, H21, H22, H23, H24, H25, ⟨Hsrc, H26⟩, H27, H28, H29, H30, H31, H32, H33, H34, ⟨Htok, H35⟩, H36, Hrest⟩, Hk⟩
  iapply hcore
  isplitr; · iexact HC
  isplitl [HO]; · iexact HO
  isplitl [Htok]; · iexact Htok
  isplitl [Hsrc]; · iexact Hsrc
  isplitl [Hd]; · iexact Hd
  iintro ⟨HO', Hc⟩
  iapply Hk
  isplitl [HO']; · iexact HO'
  iframe
  iapply seg_snoc
  iframe

/-- The relay of chunk `22 + n.p2` (received from the next device) back to the previous one. -/
theorem step_p2 (K : CellIx → ℕ) (c : Dev nD) (n : Cnt) {α : Type} {Q : α → sProp 𝕄} {k : PUnit → Prog (TpuEff nD τ sig (Elt F) Λ₀ .tc) α} (hb : n.bw = true) (hi : 22 + n.p2 < min n.rnw 44) (dev : Dev nD) (hdev : dev = prv c)
    (offs offd : Fin 2 → Nat) (hs hd) (hos : offs = ![rowH1N c (22 + n.p2), 0]) (hod : offd = ![rowH2N (prv c) n.p2, 0])
    (sS sR : DmaSem sig) (hsS : sS.val = 450 + n.p2) (hsR : sR.val = 494 + n.p2) {hsc hsrc hdst hsem} :
    iprop(Ctx m K ∗ St m c n ∗ (St m c { n with p2 := n.p2 + 1 } -∗ WP c (k ⟨⟩) Q))
      ⊢ WP c (.op (.enqueueDma (oS128 offs hs) (.remote (Dev.tc dev : Thread nD τ) (oS128 offd hd) (.dma sS) hsc) (.dma sR) hsrc hdst hsem) k) Q := by
  subst hdev
  have h22 : n.p2 < 22 := by have := lt_of_lt_of_le hi (min_le_right _ _); omega
  have hcore := fwd_core m K c (Q := Q) (k := k) (prv c) offs offd hs hd (rowH1N c (22 + n.p2)) (rowH2N (prv c) n.p2) hos hod (rowH2N_prv c _)
    sS sR (450 + n.p2) (494 + n.p2) hsS hsR (by omega) (by omega) fullShare (holdsOn m c (rows (rowH1N c (22 + n.p2)) 128)) rfl
    (Owed c n) (Owed c { n with p2 := n.p2 + 1 }) (Owed_p2 c n h22) (dmaPay_h2sp m c n.p2 h22 0) (dmaPay_h2rn m (prv c) n.p2 h22 0)
    (fun i hi => goal_relay_prv m c n.p2 h22 i hi) (hsc := hsc) (hsrc := hsrc) (hdst := hdst) (hsem := hsem)
  unfold St StR
  dsimp only
  simp only [hb, ↓reduceIte]
  rw [← Nat.add_assoc 22 n.p2 1]
  rw [seg_pop h22, seg_pop h22, seg_pop hi]
  iintro ⟨#HC, ⟨HO, H1, H2, ⟨Hl0, Hl1, Hl2, Hl3, ⟨Hd, Hl4⟩⟩, H4, H5, H6, H7, H8, H9, H10, H11, H12, H13, H14, H15, H16, H17, H18, H19, H20, H21, H22, H23, H24, H25, H26, H27, H28, H29, H30, H31, ⟨Hsrc, H32⟩, H33, H34, H35, H36, H37, H38, ⟨Htok, H39⟩, H40, Hrest⟩, Hk⟩
  iapply hcore
  isplitr; · iexact HC
  isplitl [HO]; · iexact HO
  isplitl [Htok]; · iexact Htok
  isplitl [Hsrc]; · iexact Hsrc
  isplitl [Hd]; · iexact Hd
  iintro ⟨HO', Hc⟩
  iapply Hk
  isplitl [HO']; · iexact HO'
  iframe
  iapply seg_snoc
  iframe

/-- info: 'Cert.Kernel.AG.step_zsend' depends on axioms: [propext, Classical.choice, Quot.sound] -/
#guard_msgs in #print axioms step_zsend

/-- info: 'Cert.Kernel.AG.step_n1' depends on axioms: [propext, Classical.choice, Quot.sound] -/
#guard_msgs in #print axioms step_n1

/-- info: 'Cert.Kernel.AG.step_p1' depends on axioms: [propext, Classical.choice, Quot.sound] -/
#guard_msgs in #print axioms step_p1

/-- info: 'Cert.Kernel.AG.step_n2' depends on axioms: [propext, Classical.choice, Quot.sound] -/
#guard_msgs in #print axioms step_n2

/-- info: 'Cert.Kernel.AG.step_p2' depends on axioms: [propext, Classical.choice, Quot.sound] -/
#guard_msgs in #print axioms step_p2

end Cert.Kernel.AG

end
-- ==== Proof.W.StepsRecv.lean ====
/-
  The waits for copies other devices make into this one: the rows arrive holding the gathered result, and the cell, which has one round, closes.
-/
import proofs.«900672_g7700000000000673_dist_ag_v7x_xyz2x2x2_z_m32768_n1024_f32_1_alg».proof.Proof.W.Base
import proofs.«900672_g7700000000000673_dist_ag_v7x_xyz2x2x2_z_m32768_n1024_f32_1_alg».proof.Proof.W.Sets
import proofs.«900672_g7700000000000673_dist_ag_v7x_xyz2x2x2_z_m32768_n1024_f32_1_alg».proof.Proof.W.Routes

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A wait on one of the device's own cells of one copy: the credit for the copy and the cell's position go in; the cell
    comes back closed, with what the copy's completion hands its owner. What is owed is unchanged. -/
private theorem wait_own (K : CellIx → ℕ) (c : Dev nD) {α : Type} {Q : α → sProp 𝕄} {k : PUnit → Prog (TpuEff nD τ sig (Elt F) Λ₀ .tc) α} (O : CellTallies nD τ sig Unit)
    {w : TpuEff nD τ sig (Elt F) Λ₀ .tc PUnit} (sR : DmaSem sig) (h4 : 4 ≤ sR.val)
    (hw : ∀ K' : PUnit → sProp 𝕄, wpE (defs₀ (F := F)) 𝒱₀ (c : Thread nD τ) none Set.univ w K' = waitSpec (c : Thread nD τ) Set.univ (.dma sR) N128 K')
    (hMW : (levAts L lv : sProp 𝕄) ⊢ MayWait (c : Thread nD τ) (.dma sR) () O) :
    iprop(Ctx m K ∗ (∃ W, owes (c : Thread nD τ) O W) ∗ pend (dcell c sR)
        ∗ (((∃ W, owes (c : Thread nD τ) O W) ∗ semVal (dcell c sR) 0 ∗ dmaPay m c sR.val 0) -∗ WP c (k ⟨⟩) Q))
      ⊢ WP c (.op w k) Q := by
  unfold Ctx pend
  iintro ⟨⟨#Hrecs, #Hlev⟩, ⟨%W, Howes⟩, ⟨Hat, Hcred⟩, Hk⟩
  ihave #Hinv := (recs_inv m K (c, some sR)) $$ Hrecs
  ihave Hmw := hMW $$ Hlev
  iapply (Rounds.wp_wait_rest_token 𝒱₀ ER (agRd m) (c : Thread nD τ) none hw (Set.mem_univ (K (c, some sR))) ()
    (R := 0) (m := 0) (T := ∅) (by rw [Nat.zero_add]; exact (expect_dma m c sR h4).symm)) $$ [Hcred Howes Hmw Hat]
  · isplitr; · iexact Hinv
    isplitl [Hcred]; · iexact Hcred
    isplitl [Howes]; · iexact Howes
    isplitl [Hmw]; · iexact Hmw
    iexact Hat
  iintro ⟨Howes, Hat, #Hr, Hpay⟩
  imod (Rounds.cell_close ER (agRd m) (Set.mem_univ (K (c, some sR))) (fun h => h) (R := 1)
    (fun r hr => duties_dma_later m c sR h4 r hr)) $$ [Hat] with Hsv
  · isplitr; · iexact Hinv
    iexact Hat
  iapply Hk
  isplitl [Howes]; · iexists _; iexact Howes
  isplitl [Hsv]; · iexact Hsv
  iapply (Entails.of_eq (rest_dma m c sR h4)) $$ Hpay

/-- Chunk `r` of a family of which the first 22 are passed on (those from `a` on not yet) joins the chunks kept: among
    the first 22 it extends the run still to be passed on, otherwise the run from 22 on. -/
private theorem keep_first (Φ : Nat → sProp 𝕄) (a r : Nat) (h : a ≤ r) :
    iprop(seg a (min r 22) Φ ∗ seg 22 r Φ ∗ Φ r) ⊢ iprop(seg a (min (r + 1) 22) Φ ∗ seg 22 (r + 1) Φ) := by
  by_cases h22 : r < 22
  · rw [Nat.min_eq_left (show r ≤ 22 by omega), Nat.min_eq_left (show r + 1 ≤ 22 by omega), seg_push h Φ,
      seg_empty (show r + 1 ≤ 22 by omega) Φ, seg_empty (show r ≤ 22 by omega) Φ]
    iintro ⟨H1, H2, H3⟩
    iframe
  · rw [Nat.min_eq_right (show 22 ≤ r by omega), Nat.min_eq_right (show 22 ≤ r + 1 by omega), seg_push (show 22 ≤ r by omega) Φ]

/-- Chunk `r` of a family of which chunks 22 … 43 are passed on (those from `22 + b` on not yet) joins the chunks kept:
    the run below 22, the run still to be passed on, or the run from 44 on. -/
private theorem keep_middle (Φ : Nat → sProp 𝕄) (b r : Nat) (h : b ≤ r - 22) :
    iprop(seg 0 (min r 22) Φ ∗ seg (22 + b) (min r 44) Φ ∗ seg 44 r Φ ∗ Φ r)
      ⊢ iprop(seg 0 (min (r + 1) 22) Φ ∗ seg (22 + b) (min (r + 1) 44) Φ ∗ seg 44 (r + 1) Φ) := by
  by_cases h22 : r < 22
  · rw [Nat.min_eq_left (show r ≤ 22 by omega), Nat.min_eq_left (show r + 1 ≤ 22 by omega),
      Nat.min_eq_left (show r ≤ 44 by omega), Nat.min_eq_left (show r + 1 ≤ 44 by omega),
      seg_push (Nat.zero_le r) Φ,
      seg_empty (show r + 1 ≤ 22 + b by omega) Φ, seg_empty (show r ≤ 22 + b by omega) Φ,
      seg_empty (show r + 1 ≤ 44 by omega) Φ, seg_empty (show r ≤ 44 by omega) Φ]
    iintro ⟨H1, H2, H3, H4⟩
    iframe
  by_cases h44 : r < 44
  · rw [Nat.min_eq_right (show 22 ≤ r by omega), Nat.min_eq_right (show 22 ≤ r + 1 by omega),
      Nat.min_eq_left (show r ≤ 44 by omega), Nat.min_eq_left (show r + 1 ≤ 44 by omega),
      seg_push (show 22 + b ≤ r by omega) Φ,
      seg_empty (show r + 1 ≤ 44 by omega) Φ, seg_empty (show r ≤ 44 by omega) Φ]
    iintro ⟨H1, H2, H3, H4⟩
    iframe
  · rw [Nat.min_eq_right (show 22 ≤ r by omega), Nat.min_eq_right (show 22 ≤ r + 1 by omega),
      Nat.min_eq_right (show 44 ≤ r by omega), Nat.min_eq_right (show 44 ≤ r + 1 by omega),
      seg_push (show 44 ≤ r by omega) Φ]

/-- The wait for the `n.zrw`-th chunk from the z-peer (forward loop): every signal and every copy to the z-peer is out, so all it still owes lies above; the chunk arrives whole and is kept as its two halves. -/
theorem step_zrw (K : CellIx → ℕ) (c : Dev nD) (n : Cnt) {α : Type} {Q : α → sProp 𝕄} {k : PUnit → Prog (TpuEff nD τ sig (Elt F) Λ₀ .tc) α} (hb : n.bw = true) (hsig : n.sig = 3) (hzs : n.zs = 84) (hi : n.zrw < 64) (hn1 : n.n1 ≤ n.zrw) (hp1 : n.p1 ≤ n.zrw)
    {w : TpuEff nD τ sig (Elt F) Λ₀ .tc PUnit} (sR : DmaSem sig) (hsR : sR.val = 88 + n.zrw)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with zrw := n.zrw + 1 } -∗ WP c (k ⟨⟩) Q))
      ⊢ WP c (.op w k) Q := by
  have hcell : dcn c (88 + n.zrw) = dcell c sR := (dcn_of_val c sR _ hsR).symm
  have hMW : (levAts L lv : sProp 𝕄) ⊢ MayWait (c : Thread nD τ) (.dma sR) () (Owed c n) :=
    mayWait_lvl c (.dma sR) (Owed c n) 2
      (by dsimp only [lv]; split_ifs <;> omega)
      (fun g u h => by
        obtain ⟨htc, ⟨h, _⟩ | ⟨h, _⟩ | ⟨_, h⟩ | ⟨_, h⟩⟩ := Owed_pos c n g u h
        · omega
        · omega
        · exact ⟨htc, by omega⟩
        · exact ⟨htc, by omega⟩)
  have key := wait_own m K c (Owed c n) sR (by omega) hw hMW (Q := Q) (k := k)
  rw [hsR, dmaPay_zr m c n.zrw (by omega) 0] at key
  have hO : Owed c { n with zrw := n.zrw + 1 } = Owed c n := rfl
  unfold St StR
  rw [hO]
  dsimp only
  rw [seg_pop hi (fun i => pend (dcn c (88 + i))), seg_push (Nat.zero_le n.zrw) (fun i => semVal (dcn c (88 + i)) 0),
    seg_push hn1 (fun i => holdsAt m fullShare.left c (rows (rowZR c i) 128)),
    seg_push hp1 (fun i => holdsAt m fullShare.right c (rows (rowZR c i) 128)), hcell]
  iintro ⟨#Hctx, ⟨Howes, H1, H2, H3, H4, H5, H6, H7, ⟨Hp, H8⟩, H9, H10, H11, H12, H13, H14, Hrest⟩, Hk⟩
  iapply key
  isplitr; · iexact Hctx
  isplitl [Howes]; · iexact Howes
  isplitl [Hp]; · iexact Hp
  iintro ⟨Howes, Hsv, Hpay⟩
  icases (holdsOn_halves m c _).mp $$ Hpay with ⟨Hl, Hr⟩
  iapply Hk
  iframe

/-- The wait for one of the last 20 chunks from the z-peer (final loop): nothing is owed any more. -/
theorem step_zrd (K : CellIx → ℕ) (c : Dev nD) (n : Cnt) {α : Type} {Q : α → sProp 𝕄} {k : PUnit → Prog (TpuEff nD τ sig (Elt F) Λ₀ .tc) α} (hb : n.bw = true) (hsig : n.sig = 3) (hzs : n.zs = 84) (hn1 : n.n1 = 64) (hp1 : n.p1 = 64) (hn2 : n.n2 = 22) (hp2 : n.p2 = 22) (hi : n.zrd < 20)
    {w : TpuEff nD τ sig (Elt F) Λ₀ .tc PUnit} (sR : DmaSem sig) (hsR : sR.val = 152 + n.zrd)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with zrd := n.zrd + 1 } -∗ WP c (k ⟨⟩) Q))
      ⊢ WP c (.op w k) Q := by
  have hcell : dcn c (152 + n.zrd) = dcell c sR := (dcn_of_val c sR _ hsR).symm
  have hMW : (levAts L lv : sProp 𝕄) ⊢ MayWait (c : Thread nD τ) (.dma sR) () (Owed c n) := by
    rw [Owed_zero c n hsig hzs hn1 hp1 hn2 hp2, MayWait_zero]; iintro _; iempintro
  have key := wait_own m K c (Owed c n) sR (by omega) hw hMW (Q := Q) (k := k)
  rw [hsR, show 152 + n.zrd = 88 + (64 + n.zrd) by omega, dmaPay_zr m c (64 + n.zrd) (by omega) 0] at key
  have hO : Owed c { n with zrd := n.zrd + 1 } = Owed c n := rfl
  unfold St StR
  rw [hO]
  dsimp only
  rw [seg_pop hi (fun j => pend (dcn c (152 + j))),
    seg_push (Nat.zero_le n.zrd) (fun j => iprop(semVal (dcn c (152 + j)) 0 ∗ holdsOn m c (rows (rowZR c (64 + j)) 128))), hcell]
  iintro ⟨#Hctx, ⟨Howes, H1, H2, H3, H4, H5, H6, H7, H8, H9, ⟨Hp, H10⟩, H11, Hrest⟩, Hk⟩
  iapply key
  isplitr; · iexact Hctx
  isplitl [Howes]; · iexact Howes
  isplitl [Hp]; · iexact Hp
  iintro ⟨Howes, Hsv, Hpay⟩
  iapply Hk
  iframe

/-- The wait for the previous device's forward of chunk `n.rpw`: all forwards are out. One of the first 22 chunks waits to be relayed on; a later one is simply held. -/
theorem step_rpw (K : CellIx → ℕ) (c : Dev nD) (n : Cnt) {α : Type} {Q : α → sProp 𝕄} {k : PUnit → Prog (TpuEff nD τ sig (Elt F) Λ₀ .tc) α} (hb : n.bw = true) (hsig : n.sig = 3) (hzs : n.zs = 84) (hn1 : n.n1 = 64) (hp1 : n.p1 = 64) (hi : n.rpw < 64) (hn2 : n.n2 ≤ n.rpw)
    {w : TpuEff nD τ sig (Elt F) Λ₀ .tc PUnit} (sR : DmaSem sig) (hsR : sR.val = 300 + n.rpw)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with rpw := n.rpw + 1 } -∗ WP c (k ⟨⟩) Q))
      ⊢ WP c (.op w k) Q := by
  have hcell : dcn c (300 + n.rpw) = dcell c sR := (dcn_of_val c sR _ hsR).symm
  have hMW : (levAts L lv : sProp 𝕄) ⊢ MayWait (c : Thread nD τ) (.dma sR) () (Owed c n) :=
    mayWait_lvl c (.dma sR) (Owed c n) 3
      (by dsimp only [lv]; split_ifs <;> omega)
      (fun g u h => by
        obtain ⟨htc, ⟨h, _⟩ | ⟨h, _⟩ | ⟨h, _⟩ | ⟨_, h⟩⟩ := Owed_pos c n g u h
        · omega
        · omega
        · omega
        · exact ⟨htc, by omega⟩)
  have key := wait_own m K c (Owed c n) sR (by omega) hw hMW (Q := Q) (k := k)
  rw [hsR, dmaPay_h1rp m c n.rpw hi 0] at key
  have hkeep := keep_first (fun i => holdsOn m c (rows (rowH1P c i) 128)) n.n2 n.rpw hn2
  have hO : Owed c { n with rpw := n.rpw + 1 } = Owed c n := rfl
  unfold St StR
  rw [hO]
  dsimp only
  rw [seg_pop hi (fun i => pend (dcn c (300 + i))), seg_push (Nat.zero_le n.rpw) (fun i => semVal (dcn c (300 + i)) 0), hcell]
  iintro ⟨#Hctx, ⟨Howes, H1, H2, H3, H4, H5, H6, H7, H8, H9, H10, H11, H12, H13, H14, H15, H16, H17, H18, H19, H20, H21, H22, H23, ⟨Hp, H24⟩, H25, H26, H27, H28, Hrest⟩, Hk⟩
  iapply key
  isplitr; · iexact Hctx
  isplitl [Howes]; · iexact Howes
  isplitl [Hp]; · iexact Hp
  iintro ⟨Howes, Hsv, Hpay⟩
  icases hkeep $$ [H26 H28 Hpay] with ⟨H26, H28⟩
  · isplitl [H26]; · iexact H26
    isplitl [H28]; · iexact H28
    iexact Hpay
  iapply Hk
  iframe

/-- The wait for the next device's forward of chunk `n.rnw`. Chunks 22 … 43 wait to be relayed back; the others are simply held. -/
theorem step_rnw (K : CellIx → ℕ) (c : Dev nD) (n : Cnt) {α : Type} {Q : α → sProp 𝕄} {k : PUnit → Prog (TpuEff nD τ sig (Elt F) Λ₀ .tc) α} (hb : n.bw = true) (hsig : n.sig = 3) (hzs : n.zs = 84) (hn1 : n.n1 = 64) (hp1 : n.p1 = 64) (hi : n.rnw < 64) (hp2 : n.p2 ≤ n.rnw - 22)
    {w : TpuEff nD τ sig (Elt F) Λ₀ .tc PUnit} (sR : DmaSem sig) (hsR : sR.val = 364 + n.rnw)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with rnw := n.rnw + 1 } -∗ WP c (k ⟨⟩) Q))
      ⊢ WP c (.op w k) Q := by
  have hcell : dcn c (364 + n.rnw) = dcell c sR := (dcn_of_val c sR _ hsR).symm
  have hMW : (levAts L lv : sProp 𝕄) ⊢ MayWait (c : Thread nD τ) (.dma sR) () (Owed c n) :=
    mayWait_lvl c (.dma sR) (Owed c n) 3
      (by dsimp only [lv]; split_ifs <;> omega)
      (fun g u h => by
        obtain ⟨htc, ⟨h, _⟩ | ⟨h, _⟩ | ⟨h, _⟩ | ⟨_, h⟩⟩ := Owed_pos c n g u h
        · omega
        · omega
        · omega
        · exact ⟨htc, by omega⟩)
  have key := wait_own m K c (Owed c n) sR (by omega) hw hMW (Q := Q) (k := k)
  rw [hsR, dmaPay_h1rn m c n.rnw hi 0] at key
  have hkeep := keep_middle (fun i => holdsOn m c (rows (rowH1N c i) 128)) n.p2 n.rnw hp2
  have hO : Owed c { n with rnw := n.rnw + 1 } = Owed c n := rfl
  unfold St StR
  rw [hO]
  dsimp only
  rw [seg_pop hi (fun i => pend (dcn c (364 + i))), seg_push (Nat.zero_le n.rnw) (fun i => semVal (dcn c (364 + i)) 0), hcell]
  iintro ⟨#Hctx, ⟨Howes, H1, H2, H3, H4, H5, H6, H7, H8, H9, H10, H11, H12, H13, H14, H15, H16, H17, H18, H19, H20, H21, H22, H23, H24, H25, H26, H27, H28, ⟨Hp, H29⟩, H30, H31, H32, H33, H34, Hrest⟩, Hk⟩
  iapply key
  isplitr; · iexact Hctx
  isplitl [Howes]; · iexact Howes
  isplitl [Hp]; · iexact Hp
  iintro ⟨Howes, Hsv, Hpay⟩
  icases hkeep $$ [H31 H32 H34 Hpay] with ⟨H31, H32, H34⟩
  · isplitl [H31]; · iexact H31
    isplitl [H32]; · iexact H32
    isplitl [H34]; · iexact H34
    iexact Hpay
  iapply Hk
  iframe

/-- The wait for a relay from the previous device: nothing is owed any more. -/
theorem step_h2pw (K : CellIx → ℕ) (c : Dev nD) (n : Cnt) {α : Type} {Q : α → sProp 𝕄} {k : PUnit → Prog (TpuEff nD τ sig (Elt F) Λ₀ .tc) α} (hb : n.bw = true) (hsig : n.sig = 3) (hzs : n.zs = 84) (hn1 : n.n1 = 64) (hp1 : n.p1 = 64) (hn2 : n.n2 = 22) (hp2 : n.p2 = 22) (hi : n.h2pw < 22)
    {w : TpuEff nD τ sig (Elt F) Λ₀ .tc PUnit} (sR : DmaSem sig) (hsR : sR.val = 472 + n.h2pw)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with h2pw := n.h2pw + 1 } -∗ WP c (k ⟨⟩) Q))
      ⊢ WP c (.op w k) Q := by
  have hcell : dcn c (472 + n.h2pw) = dcell c sR := (dcn_of_val c sR _ hsR).symm
  have hMW : (levAts L lv : sProp 𝕄) ⊢ MayWait (c : Thread nD τ) (.dma sR) () (Owed c n) := by
    rw [Owed_zero c n hsig hzs hn1 hp1 hn2 hp2, MayWait_zero]; iintro _; iempintro
  have key := wait_own m K c (Owed c n) sR (by omega) hw hMW (Q := Q) (k := k)
  rw [hsR, dmaPay_h2rp m c n.h2pw hi 0] at key
  have hO : Owed c { n with h2pw := n.h2pw + 1 } = Owed c n := rfl
  unfold St StR
  rw [hO]
  dsimp only
  rw [seg_pop hi (fun j => pend (dcn c (472 + j))),
    seg_push (Nat.zero_le n.h2pw) (fun j => iprop(semVal (dcn c (472 + j)) 0 ∗ holdsOn m c (rows (rowH2P c j) 128))), hcell]
  iintro ⟨#Hctx, ⟨Howes, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, ⟨Hp, H43⟩, H44, Hrest⟩, Hk⟩
  iapply key
  isplitr; · iexact Hctx
  isplitl [Howes]; · iexact Howes
  isplitl [Hp]; · iexact Hp
  iintro ⟨Howes, Hsv, Hpay⟩
  iapply Hk
  iframe

/-- The wait for a relay from the next device. -/
theorem step_h2nw (K : CellIx → ℕ) (c : Dev nD) (n : Cnt) {α : Type} {Q : α → sProp 𝕄} {k : PUnit → Prog (TpuEff nD τ sig (Elt F) Λ₀ .tc) α} (hb : n.bw = true) (hsig : n.sig = 3) (hzs : n.zs = 84) (hn1 : n.n1 = 64) (hp1 : n.p1 = 64) (hn2 : n.n2 = 22) (hp2 : n.p2 = 22) (hi : n.h2nw < 22)
    {w : TpuEff nD τ sig (Elt F) Λ₀ .tc PUnit} (sR : DmaSem sig) (hsR : sR.val = 494 + n.h2nw)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with h2nw := n.h2nw + 1 } -∗ WP c (k ⟨⟩) Q))
      ⊢ WP c (.op w k) Q := by
  have hcell : dcn c (494 + n.h2nw) = dcell c sR := (dcn_of_val c sR _ hsR).symm
  have hMW : (levAts L lv : sProp 𝕄) ⊢ MayWait (c : Thread nD τ) (.dma sR) () (Owed c n) := by
    rw [Owed_zero c n hsig hzs hn1 hp1 hn2 hp2, MayWait_zero]; iintro _; iempintro
  have key := wait_own m K c (Owed c n) sR (by omega) hw hMW (Q := Q) (k := k)
  rw [hsR, dmaPay_h2rn m c n.h2nw hi 0] at key
  have hO : Owed c { n with h2nw := n.h2nw + 1 } = Owed c n := rfl
  unfold St StR
  rw [hO]
  dsimp only
  rw [seg_pop hi (fun j => pend (dcn c (494 + j))),
    seg_push (Nat.zero_le n.h2nw) (fun j => iprop(semVal (dcn c (494 + j)) 0 ∗ holdsOn m c (rows (rowH2N c j) 128))), hcell]
  iintro ⟨#Hctx, ⟨Howes, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, ⟨Hp, H45⟩, H46, Hrest⟩, Hk⟩
  iapply key
  isplitr; · iexact Hctx
  isplitl [Howes]; · iexact Howes
  isplitl [Hp]; · iexact Hp
  iintro ⟨Howes, Hsv, Hpay⟩
  iapply Hk
  iframe

/-- info: 'Cert.Kernel.AG.step_zrw' depends on axioms: [propext, Classical.choice, Quot.sound] -/
#guard_msgs in #print axioms step_zrw

/-- info: 'Cert.Kernel.AG.step_zrd' depends on axioms: [propext, Classical.choice, Quot.sound] -/
#guard_msgs in #print axioms step_zrd

/-- info: 'Cert.Kernel.AG.step_rpw' depends on axioms: [propext, Classical.choice, Quot.sound] -/
#guard_msgs in #print axioms step_rpw

/-- info: 'Cert.Kernel.AG.step_rnw' depends on axioms: [propext, Classical.choice, Quot.sound] -/
#guard_msgs in #print axioms step_rnw

/-- info: 'Cert.Kernel.AG.step_h2pw' depends on axioms: [propext, Classical.choice, Quot.sound] -/
#guard_msgs in #print axioms step_h2pw

/-- info: 'Cert.Kernel.AG.step_h2nw' depends on axioms: [propext, Classical.choice, Quot.sound] -/
#guard_msgs in #print axioms step_h2nw

end Cert.Kernel.AG

end
-- ==== Proof.W.StepsSendWait.lean ====
/-
  The waits for this device's own copies to have been read out of their source: the source comes back and the send cell closes.
-/
import proofs.«900672_g7700000000000673_dist_ag_v7x_xyz2x2x2_z_m32768_n1024_f32_1_alg».proof.Proof.W.Base
import proofs.«900672_g7700000000000673_dist_ag_v7x_xyz2x2x2_z_m32768_n1024_f32_1_alg».proof.Proof.W.Sets
import proofs.«900672_g7700000000000673_dist_ag_v7x_xyz2x2x2_z_m32768_n1024_f32_1_alg».proof.Proof.W.Routes

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Steps

/-! ## Taking part of a separating conjunction out, and putting what replaces it back in -/

/-- What is taken out of, and put back into, the second factor is taken out of and put back into the product. -/
private theorem focus_r {A B B' X Y : sProp 𝕄} (h : B ⊢ iprop(X ∗ (Y -∗ B'))) :
    iprop(A ∗ B) ⊢ iprop(X ∗ (Y -∗ A ∗ B')) := by
  iintro ⟨HA, HB⟩
  ihave H := h $$ HB
  icases H with ⟨HX, HW⟩
  isplitl [HX]; · iexact HX
  iintro HY
  isplitl [HA]; · iexact HA
  iapply HW; iexact HY

/-! ## The wait itself, on any send cell

A send cell has one round of one duty, the copy's having been read out of its source; the device holds the credit the
enqueue returned and the cell's position at the start of that round. Send cells sit at level 0 and every cell the device
still owes sits at level 1 or above, so the wait is admissible whatever is still owed. The wait hands over the duty's
payload; no later round has a duty, so the cell is closed at once and its counter comes back at zero. -/

private theorem wait_send (K : CellIx → ℕ) (c : Dev nD) (n : Cnt) {α : Type} {Q : α → sProp 𝕄} {k : PUnit → Prog (TpuEff nD τ sig (Elt F) Λ₀ .tc) α}
    (sR : DmaSem sig) (hk4 : 4 ≤ sR.val) (hlv : lv ((c : Thread nD τ), .dma sR) () = 0)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma sR) N128 K') :
    iprop(Ctx m K ∗ (∃ W, owes (c : Thread nD τ) (Owed c n) W)
        ∗ cred (tallyAt (dcell c sR) () N128) ∗ atPos ER (dcell c sR) 0 ∅ 0
        ∗ (((∃ W, owes (c : Thread nD τ) (Owed c n) W) ∗ semVal (dcell c sR) 0 ∗ dmaPay m c sR.val 0) -∗ WP c (k ⟨⟩) Q))
      ⊢ WP c (.op w k) Q := by
  unfold Ctx
  iintro ⟨⟨#Hrec, #Hlev⟩, ⟨%W, How⟩, Hc, Hat, Hk⟩
  ihave #Hinv := (recs_inv m K (c, some sR)) $$ Hrec
  ihave Hmw := (mayWait_lvl c (.dma sR) (Owed c n) 0 (le_of_eq hlv) (fun g u h => by
      obtain ⟨h1, h2⟩ := Owed_pos c n g u h
      exact ⟨h1, by rcases h2 with ⟨_, h⟩ | ⟨_, h⟩ | ⟨_, h⟩ | ⟨_, h⟩ <;> omega⟩)) $$ Hlev
  iapply (wp_wait_rest_token 𝒱₀ ER (agRd m) (c : Thread nD τ) none hw (Set.mem_univ (K (c, some sR))) () (R := 0) (T := ∅) (m := 0)
    (by rw [Nat.zero_add]; exact (expect_dma m c sR hk4).symm)) $$ [Hc How Hat Hmw]
  · isplitr; · iexact Hinv
    isplitl [Hc]; · iexact Hc
    isplitl [How]; · iexact How
    isplitl [Hmw]; · iexact Hmw
    iexact Hat
  iintro ⟨How, Hat, -, Hrest⟩
  ihave Hpay := (Entails.of_eq (rest_dma m c sR hk4)) $$ Hrest
  imod (cell_close ER (agRd m) (g := dcell c sR) (Set.mem_univ (K (c, some sR))) (fun h => h) (R := 1)
    (fun r hr => duties_dma_later m c sR hk4 r hr)) $$ [Hat] with Hv
  · isplitr; · iexact Hinv
    iexact Hat
  iapply Hk
  isplitl [How]; · iexists _; iexact How
  isplitl [Hv]; · iexact Hv
  iexact Hpay

/-! ## From the state to the wait and back -/

/-- Taking out of the second factor while the first factor absorbs something more that is put back. -/
private theorem focus_pair {H H' G G' X Y P : sProp 𝕄} (hH : iprop(H ∗ P) ⊢ H') (hG : G ⊢ iprop(X ∗ (Y -∗ G'))) :
    iprop(H ∗ G) ⊢ iprop(X ∗ ((Y ∗ P) -∗ H' ∗ G')) := by
  iintro ⟨HH, HG⟩
  ihave H := hG $$ HG
  icases H with ⟨HX, HW⟩
  isplitl [HX]; · iexact HX
  iintro ⟨HY, HP⟩
  isplitl [HH HP]
  · iapply hH
    isplitl [HH]; · iexact HH
    iexact HP
  iapply HW; iexact HY

-- An interval is compared with another by its bounds and its body, never by what it unfolds to.
attribute [local irreducible] seg

/-- Descend along a chain of separating conjunctions until the given step applies. -/
local syntax "seek " tactic : tactic
macro_rules | `(tactic| seek $t:tactic) => `(tactic| first | $t:tactic | (refine focus_r ?_; seek $t:tactic))

/-- The three intervals of a family of send cells with base number `b`, `s` copies enqueued and `w` of them waited, of
    `N` in all: the credits in flight, the positions of the cells not yet waited, and what is held of the cells already
    waited (`Ψ`). Waiting cell `b + w` takes its credit and its position out and puts `Ψ w` in. -/
private theorem send_cells (c : Dev nD) (b w s N : Nat) (hi : w < s) (hb : w < N) (Ψ : Nat → sProp 𝕄) (T : sProp 𝕄) :
    iprop((seg w s fun i => cred (tallyAt (dcn c (b + i)) () N128)) ∗ (seg w N fun i => atPos ER (dcn c (b + i)) 0 ∅ 0)
        ∗ (seg 0 w Ψ) ∗ T)
      ⊢ iprop((cred (tallyAt (dcn c (b + w)) () N128) ∗ atPos ER (dcn c (b + w)) 0 ∅ 0)
        ∗ (Ψ w -∗ (seg (w + 1) s fun i => cred (tallyAt (dcn c (b + i)) () N128)) ∗ (seg (w + 1) N fun i => atPos ER (dcn c (b + i)) 0 ∅ 0)
            ∗ (seg 0 (w + 1) Ψ) ∗ T)) := by
  rw [seg_pop hi, seg_pop hb, seg_push (Nat.zero_le w)]
  iintro ⟨⟨Hc, H1⟩, ⟨Hat, H2⟩, H3, HT⟩
  isplitl [Hc Hat]
  · isplitl [Hc]; · iexact Hc
    iexact Hat
  iintro Hv
  isplitl [H1]; · iexact H1
  isplitl [H2]; · iexact H2
  isplitl [H3 Hv]
  · isplitl [H3]; · iexact H3
    iexact Hv
  iexact HT

set_option maxRecDepth 8192 in
/-- The state around the wait of the next copy to the z-peer. -/
private theorem St_wz (c : Dev nD) (n : Cnt) (hi : n.wz < n.zs) (hb : n.wz < 84) :
    StR m c n ⊢ iprop((cred (tallyAt (dcn c (4 + n.wz)) () N128) ∗ atPos ER (dcn c (4 + n.wz)) 0 ∅ 0)
      ∗ ((semVal (dcn c (4 + n.wz)) 0 ∗ xAt m fullShare.left c (xrows (rowZS c n.wz) 128)) -∗ StR m c { n with wz := n.wz + 1 })) := by
  unfold StR; dsimp only
  seek (exact send_cells c 4 n.wz n.zs 84 hi hb (fun i => iprop(semVal (dcn c (4 + i)) 0 ∗ xAt m fullShare.left c (xrows (rowZS c i) 128))) _)

set_option maxRecDepth 8192 in
/-- The state around the wait of the next forward to the next device: the left half goes back among the halves held. -/
private theorem St_w1n (c : Dev nD) (n : Cnt) (hi : n.w1n < n.n1) (hb : n.w1n < 64) :
    StR m c n ⊢ iprop((cred (tallyAt (dcn c (172 + n.w1n)) () N128) ∗ atPos ER (dcn c (172 + n.w1n)) 0 ∅ 0)
      ∗ ((semVal (dcn c (172 + n.w1n)) 0 ∗ holdsAt m fullShare.left c (rows (rowZR c n.w1n) 128)) -∗ StR m c { n with w1n := n.w1n + 1 })) := by
  unfold StR; dsimp only
  seek (refine focus_pair (Entails.of_eq (seg_push (Nat.zero_le n.w1n) (fun i => holdsAt m fullShare.left c (rows (rowZR c i) 128))).symm) ?_)
  seek (exact send_cells c 172 n.w1n n.n1 64 hi hb (fun i => semVal (dcn c (172 + i)) 0) _)

set_option maxRecDepth 8192 in
/-- The state around the wait of the next forward to the previous device: the right half goes back. -/
private theorem St_w1p (c : Dev nD) (n : Cnt) (hi : n.w1p < n.p1) (hb : n.w1p < 64) :
    StR m c n ⊢ iprop((cred (tallyAt (dcn c (236 + n.w1p)) () N128) ∗ atPos ER (dcn c (236 + n.w1p)) 0 ∅ 0)
      ∗ ((semVal (dcn c (236 + n.w1p)) 0 ∗ holdsAt m fullShare.right c (rows (rowZR c n.w1p) 128)) -∗ StR m c { n with w1p := n.w1p + 1 })) := by
  unfold StR; dsimp only
  seek (refine focus_pair (Entails.of_eq (seg_push (Nat.zero_le n.w1p) (fun i => holdsAt m fullShare.right c (rows (rowZR c i) 128))).symm) ?_)
  seek (exact send_cells c 236 n.w1p n.p1 64 hi hb (fun i => semVal (dcn c (236 + i)) 0) _)

set_option maxRecDepth 8192 in
/-- The state around the wait of the next relay to the next device: the chunk received from the previous device goes back. -/
private theorem St_w2n (c : Dev nD) (n : Cnt) (hi : n.w2n < n.n2) (hb : n.w2n < 22) :
    StR m c n ⊢ iprop((cred (tallyAt (dcn c (428 + n.w2n)) () N128) ∗ atPos ER (dcn c (428 + n.w2n)) 0 ∅ 0)
      ∗ ((semVal (dcn c (428 + n.w2n)) 0 ∗ holdsOn m c (rows (rowH1P c n.w2n) 128)) -∗ StR m c { n with w2n := n.w2n + 1 })) := by
  unfold StR; dsimp only
  seek (refine focus_pair (Entails.of_eq (seg_push (Nat.zero_le n.w2n) (fun i => holdsOn m c (rows (rowH1P c i) 128))).symm) ?_)
  seek (exact send_cells c 428 n.w2n n.n2 22 hi hb (fun j => semVal (dcn c (428 + j)) 0) _)

set_option maxRecDepth 8192 in
/-- The state around the wait of the next relay to the previous device: chunk `22 + n.w2p` received from the next device goes back. -/
private theorem St_w2p (c : Dev nD) (n : Cnt) (hi : n.w2p < n.p2) (hb : n.w2p < 22) :
    StR m c n ⊢ iprop((cred (tallyAt (dcn c (450 + n.w2p)) () N128) ∗ atPos ER (dcn c (450 + n.w2p)) 0 ∅ 0)
      ∗ ((semVal (dcn c (450 + n.w2p)) 0 ∗ holdsOn m c (rows (rowH1N c (22 + n.w2p)) 128)) -∗ StR m c { n with w2p := n.w2p + 1 })) := by
  unfold StR; dsimp only
  seek (refine focus_pair (Entails.of_eq (seg_push (show 22 ≤ 22 + n.w2p by omega) (fun i => holdsOn m c (rows (rowH1N c i) 128))).symm) ?_)
  seek (exact send_cells c 450 n.w2p n.p2 22 hi hb (fun j => semVal (dcn c (450 + j)) 0) _)

/-- A wait on send cell `j` of the device, from the state: the credit and the position come out of the state, the wait
    runs, and the closed cell and the payload `P` go back in; what the device owes is untouched. -/
private theorem step_send_wait (K : CellIx → ℕ) (c : Dev nD) (n : Cnt) {α : Type} {Q : α → sProp 𝕄} {k : PUnit → Prog (TpuEff nD τ sig (Elt F) Λ₀ .tc) α}
    (n' : Cnt) (hO : Owed c n' = Owed c n) (j : Nat) (P : sProp 𝕄)
    (sR : DmaSem sig) (hsR : sR.val = j) (hk4 : 4 ≤ j) (hfam : j < 88 ∨ (172 ≤ j ∧ j < 300) ∨ (428 ≤ j ∧ j < 472))
    (hpay : dmaPay m c j 0 = P)
    (hfocus : StR m c n ⊢ iprop((cred (tallyAt (dcn c j) () N128) ∗ atPos ER (dcn c j) 0 ∅ 0) ∗ ((semVal (dcn c j) 0 ∗ P) -∗ StR m c n')))
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c n' -∗ WP c (k ⟨⟩) Q)) ⊢ WP c (.op w k) Q := by
  have hcell : dcell c sR = dcn c j := dcn_of_val c sR j hsR
  have hlv : lv ((c : Thread nD τ), .dma sR) () = 0 := by
    show (if sR.val < 88 then 0 else if sR.val < 172 then 2 else if sR.val < 300 then 0 else if sR.val < 428 then 3 else if sR.val < 472 then 0 else 4) = 0
    split_ifs <;> omega
  have core := wait_send m K c n (Q := Q) (k := k) sR (by omega) hlv hw
  rw [hcell, hsR, hpay] at core
  unfold St
  rw [hO]
  iintro ⟨#HC, ⟨How, HS⟩, Hk⟩
  ihave H := hfocus $$ HS
  icases H with ⟨⟨Hc, Hat⟩, Hback⟩
  iapply core
  isplitr; · iexact HC
  isplitl [How]; · iexact How
  isplitl [Hc]; · iexact Hc
  isplitl [Hat]; · iexact Hat
  iintro ⟨How, Hv, Hpay⟩
  iapply Hk
  isplitl [How]; · iexact How
  iapply Hback
  isplitl [Hv]; · iexact Hv
  iexact Hpay

/-- A copy to the z-peer has been read out of the argument block. -/
theorem step_wz (K : CellIx → ℕ) (c : Dev nD) (n : Cnt) {α : Type} {Q : α → sProp 𝕄} {k : PUnit → Prog (TpuEff nD τ sig (Elt F) Λ₀ .tc) α}
    (hi : n.wz < n.zs) (hb : n.wz < 84)
    {w : TpuEff nD τ sig (Elt F) Λ₀ .tc PUnit} (sR : DmaSem sig) (hsR : sR.val = 4 + n.wz)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with wz := n.wz + 1 } -∗ WP c (k ⟨⟩) Q))
      ⊢ WP c (.op w k) Q :=
  step_send_wait m K c n { n with wz := n.wz + 1 } rfl (4 + n.wz) _ sR hsR (by omega) (by omega) (dmaPay_zs m c n.wz hb 0) (St_wz m c n hi hb) hw

/-- A forward to the next device has been read out: the chunk's left half is back. -/
theorem step_w1n (K : CellIx → ℕ) (c : Dev nD) (n : Cnt) {α : Type} {Q : α → sProp 𝕄} {k : PUnit → Prog (TpuEff nD τ sig (Elt F) Λ₀ .tc) α}
    (hi : n.w1n < n.n1) (hb : n.w1n < 64)
    {w : TpuEff nD τ sig (Elt F) Λ₀ .tc PUnit} (sR : DmaSem sig) (hsR : sR.val = 172 + n.w1n)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with w1n := n.w1n + 1 } -∗ WP c (k ⟨⟩) Q))
      ⊢ WP c (.op w k) Q :=
  step_send_wait m K c n { n with w1n := n.w1n + 1 } rfl (172 + n.w1n) _ sR hsR (by omega) (by omega) (dmaPay_h1sn m c n.w1n hb 0) (St_w1n m c n hi hb) hw

/-- A forward to the previous device has been read out: the right half is back. -/
theorem step_w1p (K : CellIx → ℕ) (c : Dev nD) (n : Cnt) {α : Type} {Q : α → sProp 𝕄} {k : PUnit → Prog (TpuEff nD τ sig (Elt F) Λ₀ .tc) α}
    (hi : n.w1p < n.p1) (hb : n.w1p < 64)
    {w : TpuEff nD τ sig (Elt F) Λ₀ .tc PUnit} (sR : DmaSem sig) (hsR : sR.val = 236 + n.w1p)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with w1p := n.w1p + 1 } -∗ WP c (k ⟨⟩) Q))
      ⊢ WP c (.op w k) Q :=
  step_send_wait m K c n { n with w1p := n.w1p + 1 } rfl (236 + n.w1p) _ sR hsR (by omega) (by omega) (dmaPay_h1sp m c n.w1p hb 0) (St_w1p m c n hi hb) hw

/-- A relay to the next device has been read out. -/
theorem step_w2n (K : CellIx → ℕ) (c : Dev nD) (n : Cnt) {α : Type} {Q : α → sProp 𝕄} {k : PUnit → Prog (TpuEff nD τ sig (Elt F) Λ₀ .tc) α}
    (hi : n.w2n < n.n2) (hb : n.w2n < 22)
    {w : TpuEff nD τ sig (Elt F) Λ₀ .tc PUnit} (sR : DmaSem sig) (hsR : sR.val = 428 + n.w2n)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with w2n := n.w2n + 1 } -∗ WP c (k ⟨⟩) Q))
      ⊢ WP c (.op w k) Q :=
  step_send_wait m K c n { n with w2n := n.w2n + 1 } rfl (428 + n.w2n) _ sR hsR (by omega) (by omega) (dmaPay_h2sn m c n.w2n hb 0) (St_w2n m c n hi hb) hw

/-- A relay to the previous device has been read out. -/
theorem step_w2p (K : CellIx → ℕ) (c : Dev nD) (n : Cnt) {α : Type} {Q : α → sProp 𝕄} {k : PUnit → Prog (TpuEff nD τ sig (Elt F) Λ₀ .tc) α}
    (hi : n.w2p < n.p2) (hb : n.w2p < 22)
    {w : TpuEff nD τ sig (Elt F) Λ₀ .tc PUnit} (sR : DmaSem sig) (hsR : sR.val = 450 + n.w2p)
    (hw : ∀ K' : PUnit → sProp 𝕄, wpE (defs₀ (F := F)) 𝒱₀ (c : Thread nD τ) none Set.univ w K' = waitSpec (c : Thread nD τ) Set.univ (.dma sR) N128 K') :
    iprop(Ctx m K ∗ St m c n ∗ (St m c { n with w2p := n.w2p + 1 } -∗ WP c (k ⟨⟩) Q))
      ⊢ WP c (.op w k) Q :=
  step_send_wait m K c n { n with w2p := n.w2p + 1 } rfl (450 + n.w2p) _ sR hsR (by omega) (by omega) (dmaPay_h2sp m c n.w2p hb 0) (St_w2p m c n hi hb) hw

end Steps

/-- info: 'Cert.Kernel.AG.step_wz' depends on axioms: [propext, Classical.choice, Quot.sound] -/
#guard_msgs in #print axioms step_wz

/-- info: 'Cert.Kernel.AG.step_w1n' depends on axioms: [propext, Classical.choice, Quot.sound] -/
#guard_msgs in #print axioms step_w1n

/-- info: 'Cert.Kernel.AG.step_w1p' depends on axioms: [propext, Classical.choice, Quot.sound] -/
#guard_msgs in #print axioms step_w1p

/-- info: 'Cert.Kernel.AG.step_w2n' depends on axioms: [propext, Classical.choice, Quot.sound] -/
#guard_msgs in #print axioms step_w2n

/-- info: 'Cert.Kernel.AG.step_w2p' depends on axioms: [propext, Classical.choice, Quot.sound] -/
#guard_msgs in #print axioms step_w2p

end Cert.Kernel.AG

end
-- ==== Proof.W.StepsLocal.lean ====
/-
  The local copies: rows of the argument block into a slot of the staging buffer, and out of it into the own half of the result; the two cells of each slot go through 32 rounds.
  The state is cut into what is owed, the part the local copies never touch, and the twelve conjuncts of the local copies as a function of their four
  counters; each step moves one index between intervals of that last part and applies one rule of the rounds discipline at the cell of the copy's slot.
-/
import proofs.«900672_g7700000000000673_dist_ag_v7x_xyz2x2x2_z_m32768_n1024_f32_1_alg».proof.Proof.W.Base
import proofs.«900672_g7700000000000673_dist_ag_v7x_xyz2x2x2_z_m32768_n1024_f32_1_alg».proof.Proof.W.Sets
import proofs.«900672_g7700000000000673_dist_ag_v7x_xyz2x2x2_z_m32768_n1024_f32_1_alg».proof.Proof.W.Routes

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The state, cut at the local copies -/

/-- Everything the state holds beside what is owed and the local copies: no conjunct of it reads the four counters of the local copies. -/
private def FrSt (c : Dev nD) (n : Cnt) : sProp 𝕄 :=
  iprop(
    (seg n.sig 3 fun s => iprop(dutyTok ER (barCell (sigPeer c s)) 0 (sigDuty s) ∗ myLend (F := F) c s))
    ∗ (if n.bw then iprop(emp) else iprop(atPos ER (barCell c) 0 ∅ 0 ∗ cred (tallyAt (barCell c) () 3)))
    ∗ (if n.bw then iprop(
          (seg n.zs 84 fun i => lentOn (F := F) (zpeer c) (rows (rowZR (zpeer c) i) 128))
          ∗ (seg n.n1 64 fun i => lentOn (F := F) (nxt c) (rows (rowH1P (nxt c) i) 128))
          ∗ (seg n.p1 64 fun i => lentOn (F := F) (prv c) (rows (rowH1N (prv c) i) 128))
          ∗ (seg n.n2 22 fun j => lentOn (F := F) (nxt c) (rows (rowH2P (nxt c) j) 128))
          ∗ (seg n.p2 22 fun j => lentOn (F := F) (prv c) (rows (rowH2N (prv c) j) 128))) else iprop(emp))
    ∗ (seg n.zs 84 fun i => iprop(toks (dcn c (4 + i)) (dcn (zpeer c) (88 + i)) ∗ xAt m fullShare.left c (xrows (rowZS c i) 128)))
    ∗ (seg n.wz n.zs fun i => cred (tallyAt (dcn c (4 + i)) () N128))
    ∗ (seg n.wz 84 fun i => atPos ER (dcn c (4 + i)) 0 ∅ 0)
    ∗ (seg 0 n.wz fun i => iprop(semVal (dcn c (4 + i)) 0 ∗ xAt m fullShare.left c (xrows (rowZS c i) 128)))
    ∗ (seg n.zrw 64 fun i => pend (dcn c (88 + i))) ∗ (seg 0 n.zrw fun i => semVal (dcn c (88 + i)) 0)
    ∗ (seg n.zrd 20 fun j => pend (dcn c (152 + j)))
    ∗ (seg 0 n.zrd fun j => iprop(semVal (dcn c (152 + j)) 0 ∗ holdsOn m c (rows (rowZR c (64 + j)) 128)))
    ∗ (seg n.n1 n.zrw fun i => holdsAt m fullShare.left c (rows (rowZR c i) 128)) ∗ (seg 0 n.w1n fun i => holdsAt m fullShare.left c (rows (rowZR c i) 128))
    ∗ (seg n.p1 n.zrw fun i => holdsAt m fullShare.right c (rows (rowZR c i) 128)) ∗ (seg 0 n.w1p fun i => holdsAt m fullShare.right c (rows (rowZR c i) 128))
    ∗ (seg n.n1 64 fun i => toks (dcn c (172 + i)) (dcn (nxt c) (300 + i))) ∗ (seg n.w1n n.n1 fun i => cred (tallyAt (dcn c (172 + i)) () N128))
    ∗ (seg n.w1n 64 fun i => atPos ER (dcn c (172 + i)) 0 ∅ 0) ∗ (seg 0 n.w1n fun i => semVal (dcn c (172 + i)) 0)
    ∗ (seg n.p1 64 fun i => toks (dcn c (236 + i)) (dcn (prv c) (364 + i))) ∗ (seg n.w1p n.p1 fun i => cred (tallyAt (dcn c (236 + i)) () N128))
    ∗ (seg n.w1p 64 fun i => atPos ER (dcn c (236 + i)) 0 ∅ 0) ∗ (seg 0 n.w1p fun i => semVal (dcn c (236 + i)) 0)
    ∗ (seg n.rpw 64 fun i => pend (dcn c (300 + i))) ∗ (seg 0 n.rpw fun i => semVal (dcn c (300 + i)) 0)
    ∗ (seg n.n2 (min n.rpw 22) fun i => holdsOn m c (rows (rowH1P c i) 128)) ∗ (seg 0 n.w2n fun i => holdsOn m c (rows (rowH1P c i) 128))
    ∗ (seg 22 n.rpw fun i => holdsOn m c (rows (rowH1P c i) 128))
    ∗ (seg n.rnw 64 fun i => pend (dcn c (364 + i))) ∗ (seg 0 n.rnw fun i => semVal (dcn c (364 + i)) 0)
    ∗ (seg 0 (min n.rnw 22) fun i => holdsOn m c (rows (rowH1N c i) 128)) ∗ (seg (22 + n.p2) (min n.rnw 44) fun i => holdsOn m c (rows (rowH1N c i) 128))
    ∗ (seg 22 (22 + n.w2p) fun i => holdsOn m c (rows (rowH1N c i) 128)) ∗ (seg 44 n.rnw fun i => holdsOn m c (rows (rowH1N c i) 128))
    ∗ (seg n.n2 22 fun j => toks (dcn c (428 + j)) (dcn (nxt c) (472 + j))) ∗ (seg n.w2n n.n2 fun j => cred (tallyAt (dcn c (428 + j)) () N128))
    ∗ (seg n.w2n 22 fun j => atPos ER (dcn c (428 + j)) 0 ∅ 0) ∗ (seg 0 n.w2n fun j => semVal (dcn c (428 + j)) 0)
    ∗ (seg n.p2 22 fun j => toks (dcn c (450 + j)) (dcn (prv c) (494 + j))) ∗ (seg n.w2p n.p2 fun j => cred (tallyAt (dcn c (450 + j)) () N128))
    ∗ (seg n.w2p 22 fun j => atPos ER (dcn c (450 + j)) 0 ∅ 0) ∗ (seg 0 n.w2p fun j => semVal (dcn c (450 + j)) 0)
    ∗ (seg n.h2pw 22 fun j => pend (dcn c (472 + j))) ∗ (seg 0 n.h2pw fun j => iprop(semVal (dcn c (472 + j)) 0 ∗ holdsOn m c (rows (rowH2P c j) 128)))
    ∗ (seg n.h2nw 22 fun j => pend (dcn c (494 + j))) ∗ (seg 0 n.h2nw fun j => iprop(semVal (dcn c (494 + j)) 0 ∗ holdsOn m c (rows (rowH2N c j) 128))))

/-- What the state holds of the local copies, as a function of their four counters. -/
private def LocSt (c : Dev nD) (ci ciw co low : Nat) : sProp 𝕄 :=
  iprop(
    (seg ci 64 fun k => iprop(dutyTok ER (dcn c (k % 2)) (k / 2) 0 ∗ xAt m fullShare.right c (xrows (512 * k) 512)))
    ∗ (seg ciw ci fun k => cred (tallyAt (dcn c (k % 2)) () N512in))
    ∗ (seg 0 ciw fun k => xAt m fullShare.right c (xrows (512 * k) 512))
    ∗ locPos (dcn c 0) 0 ciw ∗ locPos (dcn c 1) 1 ciw
    ∗ (seg ci (low + 2) fun k => slotAny (F := F) c (k % 2)) ∗ (seg co ciw fun k => slotHas m c (k % 2) k)
    ∗ (seg co 64 fun k => iprop(dutyTok ER (dcn c (2 + k % 2)) (k / 2) 0 ∗ lentOn (F := F) c (rows (rowOwn c k) 512)))
    ∗ (seg low co fun k => cred (tallyAt (dcn c (2 + k % 2)) () N512out))
    ∗ (seg 0 low fun k => holdsOn m c (rows (rowOwn c k) 512))
    ∗ locPos (dcn c 2) 0 low ∗ locPos (dcn c 3) 1 low)

/-- One conjunct moved from the head of a chain into the head of its front part. -/
private theorem peel {A B Fr L : sProp 𝕄} (h : B ⊣⊢ iprop(Fr ∗ L)) : iprop(A ∗ B) ⊣⊢ iprop((A ∗ Fr) ∗ L) :=
  (sep_congr_right h).trans sep_assoc.symm

set_option maxHeartbeats 1000000 in
private theorem StR_split' (c : Dev nD) (n : Cnt) :
    StR m c n ⊣⊢ iprop(FrSt m c n ∗ LocSt m c n.ci n.ciw n.co n.low) := by
  unfold StR FrSt LocSt
  exact peel (peel (peel (peel (peel (peel (peel (peel (peel (peel (peel (peel (peel (peel (peel (peel (peel (peel (peel (peel (peel (peel (peel (peel (peel (peel (peel (peel (peel (peel (peel (peel (peel (peel (peel (peel (peel (peel (peel (peel (peel (peel (peel (peel (peel (BiEntails.rfl)))))))))))))))))))))))))))))))))))))))))))))

/-- The state is what is owed, the part the local copies do not touch, and the local copies' part. -/
private theorem StR_split (c : Dev nD) (n : Cnt) :
    StR m c n = iprop(FrSt m c n ∗ LocSt m c n.ci n.ciw n.co n.low) :=
  BI.equiv_iff.mp ⟨(StR_split' m c n).1, (StR_split' m c n).2⟩

/-! ## The position of a local cell -/

private theorem locPos_open (g : GSem nD τ sig) (s w : Nat) (h : (w + 1 - s) / 2 < 32) :
    (locPos g s w : sProp 𝕄) = iprop(atPos ER g ((w + 1 - s) / 2) ∅ 0 ∗ reached ER g ((w + 1 - s) / 2)) := by
  unfold locPos; rw [if_pos h]

private theorem locPos_closed (g : GSem nD τ sig) (s w : Nat) (h : 32 ≤ (w + 1 - s) / 2) :
    (locPos g s w : sProp 𝕄) = semVal g 0 := by
  unfold locPos; rw [if_neg (by omega)]

/-- The position only reads the round. -/
private theorem locPos_congr (g : GSem nD τ sig) (s w w' : Nat) (h : (w' + 1 - s) / 2 = (w + 1 - s) / 2) :
    (locPos g s w' : sProp 𝕄) = locPos g s w := by
  unfold locPos; rw [h]

/-- Below its last round a local cell has reached its round, and every earlier one. -/
private theorem locPos_reached (g : GSem nD τ sig) (s w r : Nat) (h : (w + 1 - s) / 2 < 32) (hr : r ≤ (w + 1 - s) / 2) :
    (locPos g s w : sProp 𝕄) ⊢ reached ER g r := by
  rw [locPos_open g s w h]
  iintro ⟨-, Hr⟩
  iapply (reached_mono ER hr)
  iexact Hr

/-- Of the two cells of a kind (numbers `b` and `b1 = b + 1`), the one of slot `j % 2` has reached round `j / 2` when its position is there or later. -/
private theorem locPair_reached (c : Dev nD) (b b1 : Nat) (hb1 : b1 = b + 1) (w j : Nat)
    (hlt : (w + 1 - j % 2) / 2 < 32) (hr : j / 2 ≤ (w + 1 - j % 2) / 2) :
    iprop(locPos (dcn c b) 0 w ∗ locPos (dcn c b1) 1 w) ⊢ (reached ER (dcn c (b + j % 2)) (j / 2) : sProp 𝕄) := by
  subst hb1
  rcases Nat.mod_two_eq_zero_or_one j with h | h
  · rw [h] at hlt hr ⊢
    rw [Nat.add_zero]
    iintro ⟨H, -⟩
    iapply (locPos_reached (dcn c b) 0 w (j / 2) hlt hr)
    iexact H
  · rw [h] at hlt hr ⊢
    iintro ⟨-, H⟩
    iapply (locPos_reached (dcn c (b + 1)) 1 w (j / 2) hlt hr)
    iexact H

/-- The cell of slot `w % 2` taken out of the pair; when it comes back one wait later, the pair is the pair one wait later: the other cell's round does not move. -/
private theorem locPair_take (c : Dev nD) (b b1 : Nat) (hb1 : b1 = b + 1) (w : Nat) :
    iprop(locPos (dcn c b) 0 w ∗ locPos (dcn c b1) 1 w) ⊢
      (iprop(locPos (dcn c (b + w % 2)) (w % 2) w
        ∗ (locPos (dcn c (b + w % 2)) (w % 2) (w + 1) -∗ locPos (dcn c b) 0 (w + 1) ∗ locPos (dcn c b1) 1 (w + 1))) : sProp 𝕄) := by
  subst hb1
  rcases Nat.mod_two_eq_zero_or_one w with h | h
  · rw [h, Nat.add_zero, locPos_congr (dcn c (b + 1)) 1 w (w + 1) (by omega)]
    iintro ⟨H0, H1⟩
    isplitl [H0]; · iexact H0
    iintro H0
    isplitl [H0]; · iexact H0
    iexact H1
  · rw [h, locPos_congr (dcn c b) 0 w (w + 1) (by omega)]
    iintro ⟨H0, H1⟩
    isplitl [H1]; · iexact H1
    iintro H1
    isplitl [H0]; · iexact H0
    iexact H1

/-! ## A wait on a local cell -/

/-- The wait that ends copy `w` of a kind (cells `b`, `b + 1`; slot `w % 2`, round `w / 2`): the copy's credit pays it, at a level below
    everything owed; the cell moves to its next round, or is closed after its last, and the copy's payload comes. -/
private theorem wait_loc (K : CellIx → ℕ) (c : Dev nD) {α : Type} {Q : α → sProp 𝕄} {k : PUnit → Prog (TpuEff nD τ sig (Elt F) Λ₀ .tc) α}
    (b w N : Nat) (h64 : w < 64) (hb : b + 1 < 4)
    {wt : TpuEff nD τ sig (Elt F) Λ₀ .tc PUnit} (sR : DmaSem sig) (hsR : sR.val = b + w % 2)
    (hexp : (agRd (F := F) m).expect (dcell c sR) (w / 2) = N)
    (hw : ∀ K' : PUnit → sProp 𝕄, wpE (defs₀ (F := F)) 𝒱₀ (c : Thread nD τ) none Set.univ wt K' = waitSpec (c : Thread nD τ) Set.univ (.dma sR) N K')
    (O : CellTallies nD τ sig Unit) (hO : ∀ g u, 0 < O g u → g.1.2 = .tc ∧ 0 < lv g u) :
    iprop(Ctx m K ∗ (∃ W, owes (c : Thread nD τ) O W) ∗ cred (tallyAt (dcn c (b + w % 2)) () N)
        ∗ locPos (dcn c (b + w % 2)) (w % 2) w
        ∗ (((∃ W, owes (c : Thread nD τ) O W) ∗ locPos (dcn c (b + w % 2)) (w % 2) (w + 1) ∗ dmaPay m c (b + w % 2) (w / 2)) -∗ WP c (k ⟨⟩) Q))
      ⊢ WP c (.op wt k) Q := by
  have hg : dcell c sR = dcn c (b + w % 2) := dcn_of_val c sR _ hsR
  have h2 : w % 2 < 2 := Nat.mod_lt _ (by decide)
  have hsR4 : sR.val < 4 := by omega
  have hR : (w + 1 - w % 2) / 2 = w / 2 := by omega
  have hR' : (w + 1 + 1 - w % 2) / 2 = w / 2 + 1 := by omega
  have hinv : recs m K ⊢ cellInv ER (agRd m) (K (c, some sR)) (dcell c sR) := recs_inv m K (c, some sR)
  have hlvl : (levAts L lv : sProp 𝕄) ⊢ MayWait (c : Thread nD τ) (.dma sR) () O :=
    mayWait_lvl c (.dma sR) O 0 (by show (if sR.val < 88 then 0 else _) ≤ 0; rw [if_pos (by omega)]) (fun g u h => hO g u h)
  have hrest := rest_loc m c sR hsR4 (w / 2) (by omega)
  rw [← hg, ← hsR, locPos_open _ _ _ (by omega : (w + 1 - w % 2) / 2 < 32), hR]
  by_cases hlast : w / 2 + 1 < 32
  · rw [locPos_open _ _ _ (by omega : (w + 1 + 1 - w % 2) / 2 < 32), hR']
    unfold Ctx
    iintro ⟨⟨#Hrecs, #Hlev⟩, ⟨%W, HO⟩, Hc, ⟨Hat, #Hr⟩, Hk⟩
    ihave #Hinv := hinv $$ Hrecs
    ihave #Hmw := hlvl $$ Hlev
    iapply (wp_wait_rest_token (Γ := .empty) (defs := defs₀ (F := F)) 𝒱₀ ER (agRd m) (c : Thread nD τ) none (κ := K (c, some sR))
        (w := wt) (sm := .dma sR) (k' := N) hw (Set.mem_univ _) () (O := O) (W := W) (R := w / 2) (T := ∅) (m := 0)
        (by rw [Nat.zero_add]; exact hexp.symm)) $$ [HO Hc Hat]
    · isplitr; · iexact Hinv
      isplitl [Hc]; · iexact Hc
      isplitl [HO]; · iexact HO
      isplitr; · iexact Hmw
      iexact Hat
    iintro ⟨HO, Hat, #Hr', Hpay⟩
    ihave Hpay := (Entails.of_eq hrest) $$ Hpay
    iapply Hk
    isplitl [HO]; · iexists _; iexact HO
    isplitl [Hat]
    · isplitl [Hat]; · iexact Hat
      iexact Hr'
    iexact Hpay
  · rw [locPos_closed _ _ _ (by omega : 32 ≤ (w + 1 + 1 - w % 2) / 2)]
    unfold Ctx
    iintro ⟨⟨#Hrecs, #Hlev⟩, ⟨%W, HO⟩, Hc, ⟨Hat, #Hr⟩, Hk⟩
    ihave #Hinv := hinv $$ Hrecs
    ihave #Hmw := hlvl $$ Hlev
    iapply (wp_wait_rest_token (Γ := .empty) (defs := defs₀ (F := F)) 𝒱₀ ER (agRd m) (c : Thread nD τ) none (κ := K (c, some sR))
        (w := wt) (sm := .dma sR) (k' := N) hw (Set.mem_univ _) () (O := O) (W := W) (R := w / 2) (T := ∅) (m := 0)
        (by rw [Nat.zero_add]; exact hexp.symm)) $$ [HO Hc Hat]
    · isplitr; · iexact Hinv
      isplitl [Hc]; · iexact Hc
      isplitl [HO]; · iexact HO
      isplitr; · iexact Hmw
      iexact Hat
    iintro ⟨HO, Hat, #Hr', Hpay⟩
    ihave Hpay := (Entails.of_eq hrest) $$ Hpay
    -- after its last round the cell has no duty left: close it
    imod (cell_close ER (agRd m) (g := dcell c sR) (κ := K (c, some sR)) (Es := Set.univ) (Set.mem_univ _) (fun h => h) (R := w / 2 + 1)
      (fun r hr => duties_loc_later m c sR hsR4 r (by omega))) $$ [Hat] with Hv
    · isplitr; · iexact Hinv
      iexact Hat
    iapply Hk
    isplitl [HO]; · iexists _; iexact HO
    isplitl [Hv]; · iexact Hv
    iexact Hpay

/-! ## What a set holds, as equations -/

private theorem slotAny_eq (d : Dev nD) (s : Nat) :
    (slotAny d s : sProp 𝕄) = iprop(∃ f : Buf (Elt F) ((d : Thread nD τ).loc cc0_scratch0), (((d : Thread nD τ).loc cc0_scratch0) ↦[slot s]{fullShare} f)) := rfl

private theorem xAt_eq (q : PosShare TreeShare) (d : Dev nD) (S : Finset S32768x1024.Idx) :
    (xAt m q d S : sProp 𝕄) = (((d : Thread nD τ).loc main_arg0) ↦[S]{q} m ((d : Thread nD τ).loc main_arg0)) := rfl

/-! ## The copy into a slot -/

set_option maxHeartbeats 1000000 in
/-- Copy `ci` into its slot, on the local copies' part of the state, the copy before it waited. -/
private theorem loc_ci (K : CellIx → ℕ) (c : Dev nD) {α : Type} {Q : α → sProp 𝕄} {k : PUnit → Prog (TpuEff nD τ sig (Elt F) Λ₀ .tc) α}
    (ci co low : Nat) (hi : ci < 64) (hfree : ci < low + 2)
    (offs : Fin 2 → Nat) (hs) (hv) (hos : offs = ![512 * ci, 0]) (sS : DmaSem sig) (hsS : sS.val = ci % 2) {hsrc hdst hsem} :
    iprop(Ctx m K ∗ LocSt m c ci ci co low ∗ (LocSt m c (ci + 1) ci co low -∗ WP c (k ⟨⟩) Q))
      ⊢ WP c (.op (.enqueueDma (xS512 offs hs) (.here (vSl (ci % 2) hv)) (.dma sS) hsrc hdst hsem) k) Q := by
  have hg : dcell c sS = dcn c (ci % 2) := dcn_of_val c sS _ hsS
  have hs2 : ci % 2 < 2 := Nat.mod_lt _ (by decide)
  have hsS4 : sS.val < 4 := by omega
  have hinv : recs m K ⊢ cellInv ER (agRd m) (K (c, some sS)) (dcell c sS) := recs_inv m K (c, some sS)
  have hreach := persistent_entails_right (locPair_reached (F := F) c 0 1 rfl ci ci (by omega) (by omega))
  rw [Nat.zero_add, ← hg] at hreach
  unfold LocSt
  rw [seg_pop hi, seg_pop hfree, seg_push (le_refl ci), ← hg, slotAny_eq c (ci % 2), xAt_eq m fullShare.right c (xrows (512 * ci) 512)]
  unfold Ctx
  iintro ⟨⟨#Hrecs, #Hlev⟩, ⟨⟨⟨Htok, Hx⟩, Hs1⟩, Hs2, Hs3, Hp0, Hp1, ⟨⟨%f, Hsl⟩, Hs6⟩, Hs7, Hs8, Hs9, Hs10, Hp2, Hp3⟩, Hk⟩
  ihave #Hinv := hinv $$ Hrecs
  ihave Hpp := hreach $$ [Hp0 Hp1]
  · isplitl [Hp0]; · iexact Hp0
    iexact Hp1
  icases Hpp with ⟨#Hr, Hp0, Hp1⟩
  have hrule := wp_copy_pointsTo (Γ := .empty) (defs := defs₀ (F := F)) 𝒱₀ ER (agRd m) (c : Thread nD τ) none
      (hsrc := hsrc) (hdst := hdst) (hsem := hsem) (Es := Set.univ) (Q := Q)
      (src := xS512 offs hs) (dst := vSl (ci % 2) hv) (sem := .dma sS) (k := k) (q := fullShare.right)
      (fs := m ((c : Thread nD τ).loc main_arg0)) (fd := f) (r := ci / 2) (d := 0) (κ := K (c, some sS))
      (by rw [duties_loc m c sS hsS4 (ci / 2) (by omega)]; exact Finset.mem_singleton_self _)
      () N512in rfl (amount_lin m c sS (by omega) (ci / 2) 0)
      (by
        rw [payload_dma, hsS, dmaPay_lin m c (ci % 2) hs2 (ci / 2), show 2 * (ci / 2) + ci % 2 = ci from by omega,
          xSlice512_set offs hs _ hos, vSlot_set (ci % 2) hv]
        unfold slotHas xAt
        iintro ⟨Hd, Hs⟩
        isplitl [Hd]
        · iexists _
          isplitl [Hd]; · iexact Hd
          ipureintro
          intro i hi h
          exact land_x_to_v offs hs (ci % 2) hv (512 * ci) hos (by omega) _ f i hi
        · iexact Hs)
  rw [xSlice512_set offs hs _ hos, vSlot_set (ci % 2) hv] at hrule
  iapply hrule $$ [Hx Hsl Htok]
  · isplitr; · iexact Hinv
    isplitl [Hx]; · iexact Hx
    isplitl [Hsl]; · iexact Hsl
    isplitl [Htok]; · iexact Htok
    iexact Hr
  iintro Hc
  iapply Hk
  iframe

/-! ## The four steps -/

private theorem St_cut (c : Dev nD) (n : Cnt) :
    St m c n = iprop((∃ W, owes (c : Thread nD τ) (Owed c n) W) ∗ FrSt m c n ∗ LocSt m c n.ci n.ciw n.co n.low) := by
  unfold St; rw [StR_split]

/-- Every cell still owed something sits above the local cells' level. -/
private theorem Owed_above (c : Dev nD) (n : Cnt) (g : GSem nD τ sig) (u : Unit) (h : 0 < Owed c n g u) : g.1.2 = .tc ∧ 0 < lv g u := by
  obtain ⟨h1, h2⟩ := Owed_pos c n g u h
  exact ⟨h1, by rcases h2 with ⟨-, h⟩ | ⟨-, h⟩ | ⟨-, h⟩ | ⟨-, h⟩ <;> omega⟩

/-- The copy of rows `512·n.ci` into the slot: the slot is free (the copy out of it two trips ago has been waited) and the one before has been waited. -/
theorem step_ci (K : CellIx → ℕ) (c : Dev nD) (n : Cnt) {α : Type} {Q : α → sProp 𝕄} {k : PUnit → Prog (TpuEff nD τ sig (Elt F) Λ₀ .tc) α}
    (hi : n.ci < 64) (hfree : n.ci < n.low + 2) (hone : n.ciw = n.ci)
    (offs : Fin 2 → Nat) (hs) (hv) (hos : offs = ![512 * n.ci, 0]) (sS : DmaSem sig) (hsS : sS.val = n.ci % 2) {hsrc hdst hsem} :
    iprop(Ctx m K ∗ St m c n ∗ (St m c { n with ci := n.ci + 1 } -∗ WP c (k ⟨⟩) Q))
      ⊢ WP c (.op (.enqueueDma (xS512 offs hs) (.here (vSl (n.ci % 2) hv)) (.dma sS) hsrc hdst hsem) k) Q := by
  have e : St m c { n with ci := n.ci + 1 }
      = iprop((∃ W, owes (c : Thread nD τ) (Owed c n) W) ∗ FrSt m c n ∗ LocSt m c (n.ci + 1) n.ciw n.co n.low) :=
    St_cut m c { n with ci := n.ci + 1 }
  rw [e, St_cut m c n, hone]
  iintro ⟨#HC, ⟨HO, HF, HL⟩, Hk⟩
  iapply (loc_ci m K c n.ci n.co n.low hi hfree offs hs hv hos sS hsS)
  isplitr; · iexact HC
  isplitl [HL]; · iexact HL
  iintro HL
  iapply Hk
  isplitl [HO]; · iexact HO
  isplitl [HF]; · iexact HF
  iexact HL

set_option maxHeartbeats 1000000 in
/-- Its wait: the slot holds the rows, the rows' share is back. -/
theorem step_ciw (K : CellIx → ℕ) (c : Dev nD) (n : Cnt) {α : Type} {Q : α → sProp 𝕄} {k : PUnit → Prog (TpuEff nD τ sig (Elt F) Λ₀ .tc) α}
    (hi : n.ciw < n.ci) (h64 : n.ciw < 64) (hco : n.co ≤ n.ciw)
    {w : TpuEff nD τ sig (Elt F) Λ₀ .tc PUnit} (sR : DmaSem sig) (hsR : sR.val = n.ciw % 2)
    (hw : ∀ K' : PUnit → sProp 𝕄, wpE (defs₀ (F := F)) 𝒱₀ (c : Thread nD τ) none Set.univ w K' = waitSpec (c : Thread nD τ) Set.univ (.dma sR) N512in K') :
    iprop(Ctx m K ∗ St m c n ∗ (St m c { n with ciw := n.ciw + 1 } -∗ WP c (k ⟨⟩) Q))
      ⊢ WP c (.op w k) Q := by
  have e : St m c { n with ciw := n.ciw + 1 }
      = iprop((∃ W, owes (c : Thread nD τ) (Owed c n) W) ∗ FrSt m c n ∗ LocSt m c n.ci (n.ciw + 1) n.co n.low) :=
    St_cut m c { n with ciw := n.ciw + 1 }
  have h2 : n.ciw % 2 < 2 := Nat.mod_lt _ (by decide)
  have hwait := wait_loc m K c (Q := Q) (k := k) 0 n.ciw N512in h64 (by omega) sR (by rw [Nat.zero_add]; exact hsR)
    (expect_lin m c sR (by omega) (n.ciw / 2) (by omega)) hw (Owed c n) (Owed_above c n)
  have htake := locPair_take (F := F) c 0 1 rfl n.ciw
  rw [Nat.zero_add] at hwait htake
  rw [dmaPay_lin m c (n.ciw % 2) h2 (n.ciw / 2), show 2 * (n.ciw / 2) + n.ciw % 2 = n.ciw from by omega] at hwait
  rw [e, St_cut m c n]
  unfold LocSt
  rw [seg_pop hi, seg_push (Nat.zero_le n.ciw), seg_push hco]
  iintro ⟨#HC, ⟨HO, HF, Hs1, ⟨Hc, Hs2⟩, Hs3, Hp0, Hp1, Hs6, Hs7, Hs8, Hs9, Hs10, Hp2, Hp3⟩, Hk⟩
  ihave Hp := htake $$ [Hp0 Hp1]
  · isplitl [Hp0]; · iexact Hp0
    iexact Hp1
  icases Hp with ⟨Hp, Hpb⟩
  iapply hwait
  isplitr; · iexact HC
  isplitl [HO]; · iexact HO
  isplitl [Hc]; · iexact Hc
  isplitl [Hp]; · iexact Hp
  iintro ⟨HO, Hp, Hsl, Hx⟩
  ihave Hpp := Hpb $$ Hp
  icases Hpp with ⟨Hp0, Hp1⟩
  iapply Hk
  iframe

private theorem slotHas_eq (d : Dev nD) (s k : Nat) :
    (slotHas m d s k : sProp 𝕄) = iprop(∃ f : Buf (Elt F) ((d : Thread nD τ).loc cc0_scratch0), (((d : Thread nD τ).loc cc0_scratch0) ↦[slot s]{fullShare} f)
      ∗ ⌜∀ i ∈ slot s, ∀ h : 512 * k + (i 1).val < 32768,
          f i = m ((d : Thread nD τ).loc main_arg0) (Shape.pair (d := ![32768, 1024]) ⟨512 * k + (i 1).val, h⟩ ⟨(i 2).val, (i 2).isLt⟩)⌝) := rfl

private theorem lentOn_eq (d : Dev nD) (S : Finset S65536x1024.Idx) :
    (lentOn d S : sProp 𝕄) = iprop(∃ f : Buf (Elt F) ((d : Thread nD τ).loc main_v1), (((d : Thread nD τ).loc main_v1) ↦[S]{fullShare} f)) := rfl

/-! ## The copy out of a slot -/

set_option maxHeartbeats 1000000 in
/-- Copy `co` out of its slot into the own half, on the local copies' part of the state: the slot holds block `co` of the argument,
    and the result's rows then hold the argument's rows at the matching offset, which is the gathered result there. -/
private theorem loc_co (K : CellIx → ℕ) (c : Dev nD) {α : Type} {Q : α → sProp 𝕄} {k : PUnit → Prog (TpuEff nD τ sig (Elt F) Λ₀ .tc) α}
    (ci ciw co low : Nat) (hi : co < ciw) (h64 : co < 64) (hfree : co < low + 2) (hlo : low ≤ co)
    (offd : Fin 2 → Nat) (hd) (hv) (hod : offd = ![rowOwn c co, 0]) (sS : DmaSem sig) (hsS : sS.val = 2 + co % 2) {hsrc hdst hsem} :
    iprop(Ctx m K ∗ LocSt m c ci ciw co low ∗ (LocSt m c ci ciw (co + 1) low -∗ WP c (k ⟨⟩) Q))
      ⊢ WP c (.op (.enqueueDma (vSl (co % 2) hv) (.here (oS512 offd hd)) (.dma sS) hsrc hdst hsem) k) Q := by
  have hg : dcell c sS = dcn c (2 + co % 2) := dcn_of_val c sS _ hsS
  have hs2 : co % 2 < 2 := Nat.mod_lt _ (by decide)
  have hsS4 : sS.val < 4 := by omega
  have hinv : recs m K ⊢ cellInv ER (agRd m) (K (c, some sS)) (dcell c sS) := recs_inv m K (c, some sS)
  have hreach := persistent_entails_right (locPair_reached (F := F) c 2 3 rfl low co (by omega) (by omega))
  rw [← hg] at hreach
  unfold LocSt
  rw [seg_pop hi, seg_pop h64, seg_push hlo, ← hg, slotHas_eq m c (co % 2) co, lentOn_eq c (rows (rowOwn c co) 512)]
  unfold Ctx
  iintro ⟨⟨#Hrecs, #Hlev⟩, ⟨Hs1, Hs2, Hs3, Hp0, Hp1, Hs6, ⟨⟨%f, Hsl, %hf⟩, Hs7⟩, ⟨⟨Htok, ⟨%fd, Hd⟩⟩, Hs8⟩, Hs9, Hs10, Hp2, Hp3⟩, Hk⟩
  ihave #Hinv := hinv $$ Hrecs
  ihave Hpp := hreach $$ [Hp2 Hp3]
  · isplitl [Hp2]; · iexact Hp2
    iexact Hp3
  icases Hpp with ⟨#Hr, Hp2, Hp3⟩
  have hrule := wp_copy_pointsTo (Γ := .empty) (defs := defs₀ (F := F)) 𝒱₀ ER (agRd m) (c : Thread nD τ) none
      (hsrc := hsrc) (hdst := hdst) (hsem := hsem) (Es := Set.univ) (Q := Q)
      (src := vSl (co % 2) hv) (dst := oS512 offd hd) (sem := .dma sS) (k := k) (q := fullShare)
      (fs := f) (fd := fd) (r := co / 2) (d := 0) (κ := K (c, some sS))
      (by rw [duties_loc m c sS hsS4 (co / 2) (by omega)]; exact Finset.mem_singleton_self _)
      () N512out rfl (amount_lout m c sS (by omega) hsS4 (co / 2) 0)
      (by
        rw [payload_dma, hsS, dmaPay_lout m c (co % 2) hs2 (co / 2), show 2 * (co / 2) + co % 2 = co from by omega,
          oSlice512_set offd hd _ hod, vSlot_set (co % 2) hv]
        unfold holdsOn slotAny
        iintro ⟨Hd, Hs⟩
        isplitl [Hd]
        · iexists _
          isplitl [Hd]; · iexact Hd
          ipureintro
          intro i hi
          have hi' := hi
          rw [mem_rows] at hi'
          have hz := (zc c).isLt
          have hlt : 512 * co + ((i 0).val - rowOwn c co) < 32768 := by omega
          refine (land_v_to_o (co % 2) hv hs2 offd hd (rowOwn c co) hod f fd i hi).trans ?_
          rw [goal_own m c co h64 i hi]
          have hr512 : (i 0).val - rowOwn c co < 512 := by omega
          refine (hf (vAt (co % 2) hs2 ⟨(i 0).val - rowOwn c co, hr512⟩ ⟨(i 1).val, (i 1).isLt⟩) (vAt_mem_slot _ hs2 _ _) hlt).trans (congrArg _ ?_)
          unfold rowIn
          congr 1
          apply Fin.ext
          show 512 * co + ((i 0).val - rowOwn c co) = (i 0).val % 32768
          unfold rowOwn mbase at hi' ⊢
          omega
        · iexists _; iexact Hs)
  rw [oSlice512_set offd hd _ hod, vSlot_set (co % 2) hv] at hrule
  iapply hrule $$ [Hsl Hd Htok]
  · isplitr; · iexact Hinv
    isplitl [Hsl]; · iexact Hsl
    isplitl [Hd]; · iexact Hd
    isplitl [Htok]; · iexact Htok
    iexact Hr
  iintro Hc
  iapply Hk
  iframe

/-- The copy out of the slot into rows `512·n.co` of the own half. -/
theorem step_co (K : CellIx → ℕ) (c : Dev nD) (n : Cnt) {α : Type} {Q : α → sProp 𝕄} {k : PUnit → Prog (TpuEff nD τ sig (Elt F) Λ₀ .tc) α}
    (hi : n.co < n.ciw) (h64 : n.co < 64) (hfree : n.co < n.low + 2) (hlo : n.low ≤ n.co)
    (offd : Fin 2 → Nat) (hd) (hv) (hod : offd = ![rowOwn c n.co, 0]) (sS : DmaSem sig) (hsS : sS.val = 2 + n.co % 2) {hsrc hdst hsem} :
    iprop(Ctx m K ∗ St m c n ∗ (St m c { n with co := n.co + 1 } -∗ WP c (k ⟨⟩) Q))
      ⊢ WP c (.op (.enqueueDma (vSl (n.co % 2) hv) (.here (oS512 offd hd)) (.dma sS) hsrc hdst hsem) k) Q := by
  have e : St m c { n with co := n.co + 1 }
      = iprop((∃ W, owes (c : Thread nD τ) (Owed c n) W) ∗ FrSt m c n ∗ LocSt m c n.ci n.ciw (n.co + 1) n.low) :=
    St_cut m c { n with co := n.co + 1 }
  rw [e, St_cut m c n]
  iintro ⟨#HC, ⟨HO, HF, HL⟩, Hk⟩
  iapply (loc_co m K c n.ci n.ciw n.co n.low hi h64 hfree hlo offd hd hv hod sS hsS)
  isplitr; · iexact HC
  isplitl [HL]; · iexact HL
  iintro HL
  iapply Hk
  isplitl [HO]; · iexact HO
  isplitl [HF]; · iexact HF
  iexact HL

set_option maxHeartbeats 1000000 in
/-- Its wait: the own half's rows hold the gathered result, the slot is free again. -/
theorem step_low (K : CellIx → ℕ) (c : Dev nD) (n : Cnt) {α : Type} {Q : α → sProp 𝕄} {k : PUnit → Prog (TpuEff nD τ sig (Elt F) Λ₀ .tc) α}
    (hi : n.low < n.co) (h64 : n.low < 64) (hci : n.ci ≤ n.low + 2)
    {w : TpuEff nD τ sig (Elt F) Λ₀ .tc PUnit} (sR : DmaSem sig) (hsR : sR.val = 2 + n.low % 2)
    (hw : ∀ K' : PUnit → sProp 𝕄, wpE (defs₀ (F := F)) 𝒱₀ (c : Thread nD τ) none Set.univ w K' = waitSpec (c : Thread nD τ) Set.univ (.dma sR) N512out K') :
    iprop(Ctx m K ∗ St m c n ∗ (St m c { n with low := n.low + 1 } -∗ WP c (k ⟨⟩) Q))
      ⊢ WP c (.op w k) Q := by
  have e : St m c { n with low := n.low + 1 }
      = iprop((∃ W, owes (c : Thread nD τ) (Owed c n) W) ∗ FrSt m c n ∗ LocSt m c n.ci n.ciw n.co (n.low + 1)) :=
    St_cut m c { n with low := n.low + 1 }
  have h2 : n.low % 2 < 2 := Nat.mod_lt _ (by decide)
  have hwait := wait_loc m K c (Q := Q) (k := k) 2 n.low N512out h64 (by omega) sR hsR
    (expect_lout m c sR (by omega) (by omega) (n.low / 2) (by omega)) hw (Owed c n) (Owed_above c n)
  have htake := locPair_take (F := F) c 2 3 rfl n.low
  rw [dmaPay_lout m c (n.low % 2) h2 (n.low / 2), show 2 * (n.low / 2) + n.low % 2 = n.low from by omega] at hwait
  rw [e, St_cut m c n]
  unfold LocSt
  rw [seg_pop hi, seg_push (Nat.zero_le n.low), show n.low + 1 + 2 = n.low + 2 + 1 from by omega, seg_push hci,
    show (n.low + 2) % 2 = n.low % 2 from by omega]
  iintro ⟨#HC, ⟨HO, HF, Hs1, Hs2, Hs3, Hp0, Hp1, Hs6, Hs7, Hs8, ⟨Hc, Hs9⟩, Hs10, Hp2, Hp3⟩, Hk⟩
  ihave Hp := htake $$ [Hp2 Hp3]
  · isplitl [Hp2]; · iexact Hp2
    iexact Hp3
  icases Hp with ⟨Hp, Hpb⟩
  iapply hwait
  isplitr; · iexact HC
  isplitl [HO]; · iexact HO
  isplitl [Hc]; · iexact Hc
  isplitl [Hp]; · iexact Hp
  iintro ⟨HO, Hp, Hho, Hsl⟩
  ihave Hpp := Hpb $$ Hp
  icases Hpp with ⟨Hp2, Hp3⟩
  iapply Hk
  iframe

/-- info: 'Cert.Kernel.AG.step_ci' depends on axioms: [propext, Classical.choice, Quot.sound] -/
#guard_msgs in #print axioms step_ci

/-- info: 'Cert.Kernel.AG.step_ciw' depends on axioms: [propext, Classical.choice, Quot.sound] -/
#guard_msgs in #print axioms step_ciw

/-- info: 'Cert.Kernel.AG.step_co' depends on axioms: [propext, Classical.choice, Quot.sound] -/
#guard_msgs in #print axioms step_co

/-- info: 'Cert.Kernel.AG.step_low' depends on axioms: [propext, Classical.choice, Quot.sound] -/
#guard_msgs in #print axioms step_low

end Cert.Kernel.AG

end
-- ==== Proof.W.Steps.lean ====
/-
  The step lemmas, one per kind of effect of the body, gathered.
-/
import proofs.«900672_g7700000000000673_dist_ag_v7x_xyz2x2x2_z_m32768_n1024_f32_1_alg».proof.Proof.W.StepsBar
import proofs.«900672_g7700000000000673_dist_ag_v7x_xyz2x2x2_z_m32768_n1024_f32_1_alg».proof.Proof.W.StepsSend
import proofs.«900672_g7700000000000673_dist_ag_v7x_xyz2x2x2_z_m32768_n1024_f32_1_alg».proof.Proof.W.StepsRecv
import proofs.«900672_g7700000000000673_dist_ag_v7x_xyz2x2x2_z_m32768_n1024_f32_1_alg».proof.Proof.W.StepsSendWait
import proofs.«900672_g7700000000000673_dist_ag_v7x_xyz2x2x2_z_m32768_n1024_f32_1_alg».proof.Proof.W.StepsLocal
-- ==== Proof.W.DevTable.lean ====
/-
  Which device each of the 259 printed device chains `k0_devN` addresses, as a function of the
  addressing device `c`: its z-peer, or its next or previous neighbour on its z-plane's ring. Each chain
  is word arithmetic on the device id; each equation is decided over the eight devices. `devN_val` is
  the equation of naturals, `devN_eq` the same as an equation of devices, for rewriting a printed address.
-/
import proofs.«900672_g7700000000000673_dist_ag_v7x_xyz2x2x2_z_m32768_n1024_f32_1_alg».proof.Proof.Mesh
import proofs.«900672_g7700000000000673_dist_ag_v7x_xyz2x2x2_z_m32768_n1024_f32_1_alg».proof.Proof.Gen.Kernel

namespace Cert.Kernel.AGDev

open Cert.Kernel Idealize.ShloMosaic Cert.AG

theorem dev1_val (c : Dev nD) : k0_dev1 c = (zpeer c).val := by revert c; decide +kernel
theorem dev1_eq (c : Dev nD) (h : k0_dev1 c < nD) : (⟨k0_dev1 c, h⟩ : Dev nD) = zpeer c := Fin.ext (dev1_val c)
theorem dev2_val (c : Dev nD) : k0_dev2 c = (nxt c).val := by revert c; decide +kernel
theorem dev2_eq (c : Dev nD) (h : k0_dev2 c < nD) : (⟨k0_dev2 c, h⟩ : Dev nD) = nxt c := Fin.ext (dev2_val c)
theorem dev3_val (c : Dev nD) : k0_dev3 c = (prv c).val := by revert c; decide +kernel
theorem dev3_eq (c : Dev nD) (h : k0_dev3 c < nD) : (⟨k0_dev3 c, h⟩ : Dev nD) = prv c := Fin.ext (dev3_val c)
theorem dev4_val (c : Dev nD) : k0_dev4 c = (zpeer c).val := by revert c; decide +kernel
theorem dev4_eq (c : Dev nD) (h : k0_dev4 c < nD) : (⟨k0_dev4 c, h⟩ : Dev nD) = zpeer c := Fin.ext (dev4_val c)
theorem dev5_val (c : Dev nD) : k0_dev5 c = (zpeer c).val := by revert c; decide +kernel
theorem dev5_eq (c : Dev nD) (h : k0_dev5 c < nD) : (⟨k0_dev5 c, h⟩ : Dev nD) = zpeer c := Fin.ext (dev5_val c)
theorem dev6_val (c : Dev nD) : k0_dev6 c = (zpeer c).val := by revert c; decide +kernel
theorem dev6_eq (c : Dev nD) (h : k0_dev6 c < nD) : (⟨k0_dev6 c, h⟩ : Dev nD) = zpeer c := Fin.ext (dev6_val c)
theorem dev7_val (c : Dev nD) : k0_dev7 c = (zpeer c).val := by revert c; decide +kernel
theorem dev7_eq (c : Dev nD) (h : k0_dev7 c < nD) : (⟨k0_dev7 c, h⟩ : Dev nD) = zpeer c := Fin.ext (dev7_val c)
theorem dev8_val (c : Dev nD) : k0_dev8 c = (zpeer c).val := by revert c; decide +kernel
theorem dev8_eq (c : Dev nD) (h : k0_dev8 c < nD) : (⟨k0_dev8 c, h⟩ : Dev nD) = zpeer c := Fin.ext (dev8_val c)
theorem dev9_val (c : Dev nD) : k0_dev9 c = (zpeer c).val := by revert c; decide +kernel
theorem dev9_eq (c : Dev nD) (h : k0_dev9 c < nD) : (⟨k0_dev9 c, h⟩ : Dev nD) = zpeer c := Fin.ext (dev9_val c)
theorem dev10_val (c : Dev nD) : k0_dev10 c = (zpeer c).val := by revert c; decide +kernel
theorem dev10_eq (c : Dev nD) (h : k0_dev10 c < nD) : (⟨k0_dev10 c, h⟩ : Dev nD) = zpeer c := Fin.ext (dev10_val c)
theorem dev11_val (c : Dev nD) : k0_dev11 c = (zpeer c).val := by revert c; decide +kernel
theorem dev11_eq (c : Dev nD) (h : k0_dev11 c < nD) : (⟨k0_dev11 c, h⟩ : Dev nD) = zpeer c := Fin.ext (dev11_val c)
theorem dev12_val (c : Dev nD) : k0_dev12 c = (zpeer c).val := by revert c; decide +kernel
theorem dev12_eq (c : Dev nD) (h : k0_dev12 c < nD) : (⟨k0_dev12 c, h⟩ : Dev nD) = zpeer c := Fin.ext (dev12_val c)
theorem dev13_val (c : Dev nD) : k0_dev13 c = (zpeer c).val := by revert c; decide +kernel
theorem dev13_eq (c : Dev nD) (h : k0_dev13 c < nD) : (⟨k0_dev13 c, h⟩ : Dev nD) = zpeer c := Fin.ext (dev13_val c)
theorem dev14_val (c : Dev nD) : k0_dev14 c = (zpeer c).val := by revert c; decide +kernel
theorem dev14_eq (c : Dev nD) (h : k0_dev14 c < nD) : (⟨k0_dev14 c, h⟩ : Dev nD) = zpeer c := Fin.ext (dev14_val c)
theorem dev15_val (c : Dev nD) : k0_dev15 c = (zpeer c).val := by revert c; decide +kernel
theorem dev15_eq (c : Dev nD) (h : k0_dev15 c < nD) : (⟨k0_dev15 c, h⟩ : Dev nD) = zpeer c := Fin.ext (dev15_val c)
theorem dev16_val (c : Dev nD) : k0_dev16 c = (zpeer c).val := by revert c; decide +kernel
theorem dev16_eq (c : Dev nD) (h : k0_dev16 c < nD) : (⟨k0_dev16 c, h⟩ : Dev nD) = zpeer c := Fin.ext (dev16_val c)
theorem dev17_val (c : Dev nD) : k0_dev17 c = (zpeer c).val := by revert c; decide +kernel
theorem dev17_eq (c : Dev nD) (h : k0_dev17 c < nD) : (⟨k0_dev17 c, h⟩ : Dev nD) = zpeer c := Fin.ext (dev17_val c)
theorem dev18_val (c : Dev nD) : k0_dev18 c = (zpeer c).val := by revert c; decide +kernel
theorem dev18_eq (c : Dev nD) (h : k0_dev18 c < nD) : (⟨k0_dev18 c, h⟩ : Dev nD) = zpeer c := Fin.ext (dev18_val c)
theorem dev19_val (c : Dev nD) : k0_dev19 c = (zpeer c).val := by revert c; decide +kernel
theorem dev19_eq (c : Dev nD) (h : k0_dev19 c < nD) : (⟨k0_dev19 c, h⟩ : Dev nD) = zpeer c := Fin.ext (dev19_val c)
theorem dev20_val (c : Dev nD) : k0_dev20 c = (zpeer c).val := by revert c; decide +kernel
theorem dev20_eq (c : Dev nD) (h : k0_dev20 c < nD) : (⟨k0_dev20 c, h⟩ : Dev nD) = zpeer c := Fin.ext (dev20_val c)
theorem dev21_val (c : Dev nD) : k0_dev21 c = (zpeer c).val := by revert c; decide +kernel
theorem dev21_eq (c : Dev nD) (h : k0_dev21 c < nD) : (⟨k0_dev21 c, h⟩ : Dev nD) = zpeer c := Fin.ext (dev21_val c)
theorem dev22_val (c : Dev nD) : k0_dev22 c = (zpeer c).val := by revert c; decide +kernel
theorem dev22_eq (c : Dev nD) (h : k0_dev22 c < nD) : (⟨k0_dev22 c, h⟩ : Dev nD) = zpeer c := Fin.ext (dev22_val c)
theorem dev23_val (c : Dev nD) : k0_dev23 c = (zpeer c).val := by revert c; decide +kernel
theorem dev23_eq (c : Dev nD) (h : k0_dev23 c < nD) : (⟨k0_dev23 c, h⟩ : Dev nD) = zpeer c := Fin.ext (dev23_val c)
theorem dev24_val (c : Dev nD) : k0_dev24 c = (zpeer c).val := by revert c; decide +kernel
theorem dev24_eq (c : Dev nD) (h : k0_dev24 c < nD) : (⟨k0_dev24 c, h⟩ : Dev nD) = zpeer c := Fin.ext (dev24_val c)
theorem dev25_val (c : Dev nD) : k0_dev25 c = (zpeer c).val := by revert c; decide +kernel
theorem dev25_eq (c : Dev nD) (h : k0_dev25 c < nD) : (⟨k0_dev25 c, h⟩ : Dev nD) = zpeer c := Fin.ext (dev25_val c)
theorem dev26_val (c : Dev nD) : k0_dev26 c = (zpeer c).val := by revert c; decide +kernel
theorem dev26_eq (c : Dev nD) (h : k0_dev26 c < nD) : (⟨k0_dev26 c, h⟩ : Dev nD) = zpeer c := Fin.ext (dev26_val c)
theorem dev27_val (c : Dev nD) : k0_dev27 c = (zpeer c).val := by revert c; decide +kernel
theorem dev27_eq (c : Dev nD) (h : k0_dev27 c < nD) : (⟨k0_dev27 c, h⟩ : Dev nD) = zpeer c := Fin.ext (dev27_val c)
theorem dev28_val (c : Dev nD) : k0_dev28 c = (zpeer c).val := by revert c; decide +kernel
theorem dev28_eq (c : Dev nD) (h : k0_dev28 c < nD) : (⟨k0_dev28 c, h⟩ : Dev nD) = zpeer c := Fin.ext (dev28_val c)
theorem dev29_val (c : Dev nD) : k0_dev29 c = (zpeer c).val := by revert c; decide +kernel
theorem dev29_eq (c : Dev nD) (h : k0_dev29 c < nD) : (⟨k0_dev29 c, h⟩ : Dev nD) = zpeer c := Fin.ext (dev29_val c)
theorem dev30_val (c : Dev nD) : k0_dev30 c = (zpeer c).val := by revert c; decide +kernel
theorem dev30_eq (c : Dev nD) (h : k0_dev30 c < nD) : (⟨k0_dev30 c, h⟩ : Dev nD) = zpeer c := Fin.ext (dev30_val c)
theorem dev31_val (c : Dev nD) : k0_dev31 c = (zpeer c).val := by revert c; decide +kernel
theorem dev31_eq (c : Dev nD) (h : k0_dev31 c < nD) : (⟨k0_dev31 c, h⟩ : Dev nD) = zpeer c := Fin.ext (dev31_val c)
theorem dev32_val (c : Dev nD) : k0_dev32 c = (zpeer c).val := by revert c; decide +kernel
theorem dev32_eq (c : Dev nD) (h : k0_dev32 c < nD) : (⟨k0_dev32 c, h⟩ : Dev nD) = zpeer c := Fin.ext (dev32_val c)
theorem dev33_val (c : Dev nD) : k0_dev33 c = (zpeer c).val := by revert c; decide +kernel
theorem dev33_eq (c : Dev nD) (h : k0_dev33 c < nD) : (⟨k0_dev33 c, h⟩ : Dev nD) = zpeer c := Fin.ext (dev33_val c)
theorem dev34_val (c : Dev nD) : k0_dev34 c = (zpeer c).val := by revert c; decide +kernel
theorem dev34_eq (c : Dev nD) (h : k0_dev34 c < nD) : (⟨k0_dev34 c, h⟩ : Dev nD) = zpeer c := Fin.ext (dev34_val c)
theorem dev35_val (c : Dev nD) : k0_dev35 c = (zpeer c).val := by revert c; decide +kernel
theorem dev35_eq (c : Dev nD) (h : k0_dev35 c < nD) : (⟨k0_dev35 c, h⟩ : Dev nD) = zpeer c := Fin.ext (dev35_val c)
theorem dev36_val (c : Dev nD) : k0_dev36 c = (zpeer c).val := by revert c; decide +kernel
theorem dev36_eq (c : Dev nD) (h : k0_dev36 c < nD) : (⟨k0_dev36 c, h⟩ : Dev nD) = zpeer c := Fin.ext (dev36_val c)
theorem dev37_val (c : Dev nD) : k0_dev37 c = (zpeer c).val := by revert c; decide +kernel
theorem dev37_eq (c : Dev nD) (h : k0_dev37 c < nD) : (⟨k0_dev37 c, h⟩ : Dev nD) = zpeer c := Fin.ext (dev37_val c)
theorem dev38_val (c : Dev nD) : k0_dev38 c = (zpeer c).val := by revert c; decide +kernel
theorem dev38_eq (c : Dev nD) (h : k0_dev38 c < nD) : (⟨k0_dev38 c, h⟩ : Dev nD) = zpeer c := Fin.ext (dev38_val c)
theorem dev39_val (c : Dev nD) : k0_dev39 c = (zpeer c).val := by revert c; decide +kernel
theorem dev39_eq (c : Dev nD) (h : k0_dev39 c < nD) : (⟨k0_dev39 c, h⟩ : Dev nD) = zpeer c := Fin.ext (dev39_val c)
theorem dev40_val (c : Dev nD) : k0_dev40 c = (zpeer c).val := by revert c; decide +kernel
theorem dev40_eq (c : Dev nD) (h : k0_dev40 c < nD) : (⟨k0_dev40 c, h⟩ : Dev nD) = zpeer c := Fin.ext (dev40_val c)
theorem dev41_val (c : Dev nD) : k0_dev41 c = (zpeer c).val := by revert c; decide +kernel
theorem dev41_eq (c : Dev nD) (h : k0_dev41 c < nD) : (⟨k0_dev41 c, h⟩ : Dev nD) = zpeer c := Fin.ext (dev41_val c)
theorem dev42_val (c : Dev nD) : k0_dev42 c = (zpeer c).val := by revert c; decide +kernel
theorem dev42_eq (c : Dev nD) (h : k0_dev42 c < nD) : (⟨k0_dev42 c, h⟩ : Dev nD) = zpeer c := Fin.ext (dev42_val c)
theorem dev43_val (c : Dev nD) : k0_dev43 c = (zpeer c).val := by revert c; decide +kernel
theorem dev43_eq (c : Dev nD) (h : k0_dev43 c < nD) : (⟨k0_dev43 c, h⟩ : Dev nD) = zpeer c := Fin.ext (dev43_val c)
theorem dev44_val (c : Dev nD) : k0_dev44 c = (zpeer c).val := by revert c; decide +kernel
theorem dev44_eq (c : Dev nD) (h : k0_dev44 c < nD) : (⟨k0_dev44 c, h⟩ : Dev nD) = zpeer c := Fin.ext (dev44_val c)
theorem dev45_val (c : Dev nD) : k0_dev45 c = (zpeer c).val := by revert c; decide +kernel
theorem dev45_eq (c : Dev nD) (h : k0_dev45 c < nD) : (⟨k0_dev45 c, h⟩ : Dev nD) = zpeer c := Fin.ext (dev45_val c)
theorem dev46_val (c : Dev nD) : k0_dev46 c = (zpeer c).val := by revert c; decide +kernel
theorem dev46_eq (c : Dev nD) (h : k0_dev46 c < nD) : (⟨k0_dev46 c, h⟩ : Dev nD) = zpeer c := Fin.ext (dev46_val c)
theorem dev47_val (c : Dev nD) : k0_dev47 c = (zpeer c).val := by revert c; decide +kernel
theorem dev47_eq (c : Dev nD) (h : k0_dev47 c < nD) : (⟨k0_dev47 c, h⟩ : Dev nD) = zpeer c := Fin.ext (dev47_val c)
theorem dev48_val (c : Dev nD) : k0_dev48 c = (zpeer c).val := by revert c; decide +kernel
theorem dev48_eq (c : Dev nD) (h : k0_dev48 c < nD) : (⟨k0_dev48 c, h⟩ : Dev nD) = zpeer c := Fin.ext (dev48_val c)
theorem dev49_val (c : Dev nD) : k0_dev49 c = (zpeer c).val := by revert c; decide +kernel
theorem dev49_eq (c : Dev nD) (h : k0_dev49 c < nD) : (⟨k0_dev49 c, h⟩ : Dev nD) = zpeer c := Fin.ext (dev49_val c)
theorem dev50_val (c : Dev nD) : k0_dev50 c = (zpeer c).val := by revert c; decide +kernel
theorem dev50_eq (c : Dev nD) (h : k0_dev50 c < nD) : (⟨k0_dev50 c, h⟩ : Dev nD) = zpeer c := Fin.ext (dev50_val c)
theorem dev51_val (c : Dev nD) : k0_dev51 c = (zpeer c).val := by revert c; decide +kernel
theorem dev51_eq (c : Dev nD) (h : k0_dev51 c < nD) : (⟨k0_dev51 c, h⟩ : Dev nD) = zpeer c := Fin.ext (dev51_val c)
theorem dev52_val (c : Dev nD) : k0_dev52 c = (zpeer c).val := by revert c; decide +kernel
theorem dev52_eq (c : Dev nD) (h : k0_dev52 c < nD) : (⟨k0_dev52 c, h⟩ : Dev nD) = zpeer c := Fin.ext (dev52_val c)
theorem dev53_val (c : Dev nD) : k0_dev53 c = (zpeer c).val := by revert c; decide +kernel
theorem dev53_eq (c : Dev nD) (h : k0_dev53 c < nD) : (⟨k0_dev53 c, h⟩ : Dev nD) = zpeer c := Fin.ext (dev53_val c)
theorem dev54_val (c : Dev nD) : k0_dev54 c = (zpeer c).val := by revert c; decide +kernel
theorem dev54_eq (c : Dev nD) (h : k0_dev54 c < nD) : (⟨k0_dev54 c, h⟩ : Dev nD) = zpeer c := Fin.ext (dev54_val c)
theorem dev55_val (c : Dev nD) : k0_dev55 c = (zpeer c).val := by revert c; decide +kernel
theorem dev55_eq (c : Dev nD) (h : k0_dev55 c < nD) : (⟨k0_dev55 c, h⟩ : Dev nD) = zpeer c := Fin.ext (dev55_val c)
theorem dev56_val (c : Dev nD) : k0_dev56 c = (zpeer c).val := by revert c; decide +kernel
theorem dev56_eq (c : Dev nD) (h : k0_dev56 c < nD) : (⟨k0_dev56 c, h⟩ : Dev nD) = zpeer c := Fin.ext (dev56_val c)
theorem dev57_val (c : Dev nD) : k0_dev57 c = (zpeer c).val := by revert c; decide +kernel
theorem dev57_eq (c : Dev nD) (h : k0_dev57 c < nD) : (⟨k0_dev57 c, h⟩ : Dev nD) = zpeer c := Fin.ext (dev57_val c)
theorem dev58_val (c : Dev nD) : k0_dev58 c = (zpeer c).val := by revert c; decide +kernel
theorem dev58_eq (c : Dev nD) (h : k0_dev58 c < nD) : (⟨k0_dev58 c, h⟩ : Dev nD) = zpeer c := Fin.ext (dev58_val c)
theorem dev59_val (c : Dev nD) : k0_dev59 c = (zpeer c).val := by revert c; decide +kernel
theorem dev59_eq (c : Dev nD) (h : k0_dev59 c < nD) : (⟨k0_dev59 c, h⟩ : Dev nD) = zpeer c := Fin.ext (dev59_val c)
theorem dev60_val (c : Dev nD) : k0_dev60 c = (zpeer c).val := by revert c; decide +kernel
theorem dev60_eq (c : Dev nD) (h : k0_dev60 c < nD) : (⟨k0_dev60 c, h⟩ : Dev nD) = zpeer c := Fin.ext (dev60_val c)
theorem dev61_val (c : Dev nD) : k0_dev61 c = (zpeer c).val := by revert c; decide +kernel
theorem dev61_eq (c : Dev nD) (h : k0_dev61 c < nD) : (⟨k0_dev61 c, h⟩ : Dev nD) = zpeer c := Fin.ext (dev61_val c)
theorem dev62_val (c : Dev nD) : k0_dev62 c = (zpeer c).val := by revert c; decide +kernel
theorem dev62_eq (c : Dev nD) (h : k0_dev62 c < nD) : (⟨k0_dev62 c, h⟩ : Dev nD) = zpeer c := Fin.ext (dev62_val c)
theorem dev63_val (c : Dev nD) : k0_dev63 c = (zpeer c).val := by revert c; decide +kernel
theorem dev63_eq (c : Dev nD) (h : k0_dev63 c < nD) : (⟨k0_dev63 c, h⟩ : Dev nD) = zpeer c := Fin.ext (dev63_val c)
theorem dev64_val (c : Dev nD) : k0_dev64 c = (zpeer c).val := by revert c; decide +kernel
theorem dev64_eq (c : Dev nD) (h : k0_dev64 c < nD) : (⟨k0_dev64 c, h⟩ : Dev nD) = zpeer c := Fin.ext (dev64_val c)
theorem dev65_val (c : Dev nD) : k0_dev65 c = (zpeer c).val := by revert c; decide +kernel
theorem dev65_eq (c : Dev nD) (h : k0_dev65 c < nD) : (⟨k0_dev65 c, h⟩ : Dev nD) = zpeer c := Fin.ext (dev65_val c)
theorem dev66_val (c : Dev nD) : k0_dev66 c = (zpeer c).val := by revert c; decide +kernel
theorem dev66_eq (c : Dev nD) (h : k0_dev66 c < nD) : (⟨k0_dev66 c, h⟩ : Dev nD) = zpeer c := Fin.ext (dev66_val c)
theorem dev67_val (c : Dev nD) : k0_dev67 c = (zpeer c).val := by revert c; decide +kernel
theorem dev67_eq (c : Dev nD) (h : k0_dev67 c < nD) : (⟨k0_dev67 c, h⟩ : Dev nD) = zpeer c := Fin.ext (dev67_val c)
theorem dev68_val (c : Dev nD) : k0_dev68 c = (zpeer c).val := by revert c; decide +kernel
theorem dev68_eq (c : Dev nD) (h : k0_dev68 c < nD) : (⟨k0_dev68 c, h⟩ : Dev nD) = zpeer c := Fin.ext (dev68_val c)
theorem dev69_val (c : Dev nD) : k0_dev69 c = (zpeer c).val := by revert c; decide +kernel
theorem dev69_eq (c : Dev nD) (h : k0_dev69 c < nD) : (⟨k0_dev69 c, h⟩ : Dev nD) = zpeer c := Fin.ext (dev69_val c)
theorem dev70_val (c : Dev nD) : k0_dev70 c = (zpeer c).val := by revert c; decide +kernel
theorem dev70_eq (c : Dev nD) (h : k0_dev70 c < nD) : (⟨k0_dev70 c, h⟩ : Dev nD) = zpeer c := Fin.ext (dev70_val c)
theorem dev71_val (c : Dev nD) : k0_dev71 c = (zpeer c).val := by revert c; decide +kernel
theorem dev71_eq (c : Dev nD) (h : k0_dev71 c < nD) : (⟨k0_dev71 c, h⟩ : Dev nD) = zpeer c := Fin.ext (dev71_val c)
theorem dev72_val (c : Dev nD) : k0_dev72 c = (zpeer c).val := by revert c; decide +kernel
theorem dev72_eq (c : Dev nD) (h : k0_dev72 c < nD) : (⟨k0_dev72 c, h⟩ : Dev nD) = zpeer c := Fin.ext (dev72_val c)
theorem dev73_val (c : Dev nD) : k0_dev73 c = (zpeer c).val := by revert c; decide +kernel
theorem dev73_eq (c : Dev nD) (h : k0_dev73 c < nD) : (⟨k0_dev73 c, h⟩ : Dev nD) = zpeer c := Fin.ext (dev73_val c)
theorem dev74_val (c : Dev nD) : k0_dev74 c = (zpeer c).val := by revert c; decide +kernel
theorem dev74_eq (c : Dev nD) (h : k0_dev74 c < nD) : (⟨k0_dev74 c, h⟩ : Dev nD) = zpeer c := Fin.ext (dev74_val c)
theorem dev75_val (c : Dev nD) : k0_dev75 c = (zpeer c).val := by revert c; decide +kernel
theorem dev75_eq (c : Dev nD) (h : k0_dev75 c < nD) : (⟨k0_dev75 c, h⟩ : Dev nD) = zpeer c := Fin.ext (dev75_val c)
theorem dev76_val (c : Dev nD) : k0_dev76 c = (zpeer c).val := by revert c; decide +kernel
theorem dev76_eq (c : Dev nD) (h : k0_dev76 c < nD) : (⟨k0_dev76 c, h⟩ : Dev nD) = zpeer c := Fin.ext (dev76_val c)
theorem dev77_val (c : Dev nD) : k0_dev77 c = (zpeer c).val := by revert c; decide +kernel
theorem dev77_eq (c : Dev nD) (h : k0_dev77 c < nD) : (⟨k0_dev77 c, h⟩ : Dev nD) = zpeer c := Fin.ext (dev77_val c)
theorem dev78_val (c : Dev nD) : k0_dev78 c = (zpeer c).val := by revert c; decide +kernel
theorem dev78_eq (c : Dev nD) (h : k0_dev78 c < nD) : (⟨k0_dev78 c, h⟩ : Dev nD) = zpeer c := Fin.ext (dev78_val c)
theorem dev79_val (c : Dev nD) : k0_dev79 c = (zpeer c).val := by revert c; decide +kernel
theorem dev79_eq (c : Dev nD) (h : k0_dev79 c < nD) : (⟨k0_dev79 c, h⟩ : Dev nD) = zpeer c := Fin.ext (dev79_val c)
theorem dev80_val (c : Dev nD) : k0_dev80 c = (zpeer c).val := by revert c; decide +kernel
theorem dev80_eq (c : Dev nD) (h : k0_dev80 c < nD) : (⟨k0_dev80 c, h⟩ : Dev nD) = zpeer c := Fin.ext (dev80_val c)
theorem dev81_val (c : Dev nD) : k0_dev81 c = (zpeer c).val := by revert c; decide +kernel
theorem dev81_eq (c : Dev nD) (h : k0_dev81 c < nD) : (⟨k0_dev81 c, h⟩ : Dev nD) = zpeer c := Fin.ext (dev81_val c)
theorem dev82_val (c : Dev nD) : k0_dev82 c = (zpeer c).val := by revert c; decide +kernel
theorem dev82_eq (c : Dev nD) (h : k0_dev82 c < nD) : (⟨k0_dev82 c, h⟩ : Dev nD) = zpeer c := Fin.ext (dev82_val c)
theorem dev83_val (c : Dev nD) : k0_dev83 c = (zpeer c).val := by revert c; decide +kernel
theorem dev83_eq (c : Dev nD) (h : k0_dev83 c < nD) : (⟨k0_dev83 c, h⟩ : Dev nD) = zpeer c := Fin.ext (dev83_val c)
theorem dev84_val (c : Dev nD) : k0_dev84 c = (zpeer c).val := by revert c; decide +kernel
theorem dev84_eq (c : Dev nD) (h : k0_dev84 c < nD) : (⟨k0_dev84 c, h⟩ : Dev nD) = zpeer c := Fin.ext (dev84_val c)
theorem dev85_val (c : Dev nD) : k0_dev85 c = (zpeer c).val := by revert c; decide +kernel
theorem dev85_eq (c : Dev nD) (h : k0_dev85 c < nD) : (⟨k0_dev85 c, h⟩ : Dev nD) = zpeer c := Fin.ext (dev85_val c)
theorem dev86_val (c : Dev nD) : k0_dev86 c = (zpeer c).val := by revert c; decide +kernel
theorem dev86_eq (c : Dev nD) (h : k0_dev86 c < nD) : (⟨k0_dev86 c, h⟩ : Dev nD) = zpeer c := Fin.ext (dev86_val c)
theorem dev87_val (c : Dev nD) : k0_dev87 c = (zpeer c).val := by revert c; decide +kernel
theorem dev87_eq (c : Dev nD) (h : k0_dev87 c < nD) : (⟨k0_dev87 c, h⟩ : Dev nD) = zpeer c := Fin.ext (dev87_val c)
theorem dev88_val (c : Dev nD) : k0_dev88 c = (nxt c).val := by revert c; decide +kernel
theorem dev88_eq (c : Dev nD) (h : k0_dev88 c < nD) : (⟨k0_dev88 c, h⟩ : Dev nD) = nxt c := Fin.ext (dev88_val c)
theorem dev89_val (c : Dev nD) : k0_dev89 c = (prv c).val := by revert c; decide +kernel
theorem dev89_eq (c : Dev nD) (h : k0_dev89 c < nD) : (⟨k0_dev89 c, h⟩ : Dev nD) = prv c := Fin.ext (dev89_val c)
theorem dev90_val (c : Dev nD) : k0_dev90 c = (nxt c).val := by revert c; decide +kernel
theorem dev90_eq (c : Dev nD) (h : k0_dev90 c < nD) : (⟨k0_dev90 c, h⟩ : Dev nD) = nxt c := Fin.ext (dev90_val c)
theorem dev91_val (c : Dev nD) : k0_dev91 c = (prv c).val := by revert c; decide +kernel
theorem dev91_eq (c : Dev nD) (h : k0_dev91 c < nD) : (⟨k0_dev91 c, h⟩ : Dev nD) = prv c := Fin.ext (dev91_val c)
theorem dev92_val (c : Dev nD) : k0_dev92 c = (nxt c).val := by revert c; decide +kernel
theorem dev92_eq (c : Dev nD) (h : k0_dev92 c < nD) : (⟨k0_dev92 c, h⟩ : Dev nD) = nxt c := Fin.ext (dev92_val c)
theorem dev93_val (c : Dev nD) : k0_dev93 c = (prv c).val := by revert c; decide +kernel
theorem dev93_eq (c : Dev nD) (h : k0_dev93 c < nD) : (⟨k0_dev93 c, h⟩ : Dev nD) = prv c := Fin.ext (dev93_val c)
theorem dev94_val (c : Dev nD) : k0_dev94 c = (nxt c).val := by revert c; decide +kernel
theorem dev94_eq (c : Dev nD) (h : k0_dev94 c < nD) : (⟨k0_dev94 c, h⟩ : Dev nD) = nxt c := Fin.ext (dev94_val c)
theorem dev95_val (c : Dev nD) : k0_dev95 c = (prv c).val := by revert c; decide +kernel
theorem dev95_eq (c : Dev nD) (h : k0_dev95 c < nD) : (⟨k0_dev95 c, h⟩ : Dev nD) = prv c := Fin.ext (dev95_val c)
theorem dev96_val (c : Dev nD) : k0_dev96 c = (nxt c).val := by revert c; decide +kernel
theorem dev96_eq (c : Dev nD) (h : k0_dev96 c < nD) : (⟨k0_dev96 c, h⟩ : Dev nD) = nxt c := Fin.ext (dev96_val c)
theorem dev97_val (c : Dev nD) : k0_dev97 c = (prv c).val := by revert c; decide +kernel
theorem dev97_eq (c : Dev nD) (h : k0_dev97 c < nD) : (⟨k0_dev97 c, h⟩ : Dev nD) = prv c := Fin.ext (dev97_val c)
theorem dev98_val (c : Dev nD) : k0_dev98 c = (nxt c).val := by revert c; decide +kernel
theorem dev98_eq (c : Dev nD) (h : k0_dev98 c < nD) : (⟨k0_dev98 c, h⟩ : Dev nD) = nxt c := Fin.ext (dev98_val c)
theorem dev99_val (c : Dev nD) : k0_dev99 c = (prv c).val := by revert c; decide +kernel
theorem dev99_eq (c : Dev nD) (h : k0_dev99 c < nD) : (⟨k0_dev99 c, h⟩ : Dev nD) = prv c := Fin.ext (dev99_val c)
theorem dev100_val (c : Dev nD) : k0_dev100 c = (nxt c).val := by revert c; decide +kernel
theorem dev100_eq (c : Dev nD) (h : k0_dev100 c < nD) : (⟨k0_dev100 c, h⟩ : Dev nD) = nxt c := Fin.ext (dev100_val c)
theorem dev101_val (c : Dev nD) : k0_dev101 c = (prv c).val := by revert c; decide +kernel
theorem dev101_eq (c : Dev nD) (h : k0_dev101 c < nD) : (⟨k0_dev101 c, h⟩ : Dev nD) = prv c := Fin.ext (dev101_val c)
theorem dev102_val (c : Dev nD) : k0_dev102 c = (nxt c).val := by revert c; decide +kernel
theorem dev102_eq (c : Dev nD) (h : k0_dev102 c < nD) : (⟨k0_dev102 c, h⟩ : Dev nD) = nxt c := Fin.ext (dev102_val c)
theorem dev103_val (c : Dev nD) : k0_dev103 c = (prv c).val := by revert c; decide +kernel
theorem dev103_eq (c : Dev nD) (h : k0_dev103 c < nD) : (⟨k0_dev103 c, h⟩ : Dev nD) = prv c := Fin.ext (dev103_val c)
theorem dev104_val (c : Dev nD) : k0_dev104 c = (nxt c).val := by revert c; decide +kernel
theorem dev104_eq (c : Dev nD) (h : k0_dev104 c < nD) : (⟨k0_dev104 c, h⟩ : Dev nD) = nxt c := Fin.ext (dev104_val c)
theorem dev105_val (c : Dev nD) : k0_dev105 c = (prv c).val := by revert c; decide +kernel
theorem dev105_eq (c : Dev nD) (h : k0_dev105 c < nD) : (⟨k0_dev105 c, h⟩ : Dev nD) = prv c := Fin.ext (dev105_val c)
theorem dev106_val (c : Dev nD) : k0_dev106 c = (nxt c).val := by revert c; decide +kernel
theorem dev106_eq (c : Dev nD) (h : k0_dev106 c < nD) : (⟨k0_dev106 c, h⟩ : Dev nD) = nxt c := Fin.ext (dev106_val c)
theorem dev107_val (c : Dev nD) : k0_dev107 c = (prv c).val := by revert c; decide +kernel
theorem dev107_eq (c : Dev nD) (h : k0_dev107 c < nD) : (⟨k0_dev107 c, h⟩ : Dev nD) = prv c := Fin.ext (dev107_val c)
theorem dev108_val (c : Dev nD) : k0_dev108 c = (nxt c).val := by revert c; decide +kernel
theorem dev108_eq (c : Dev nD) (h : k0_dev108 c < nD) : (⟨k0_dev108 c, h⟩ : Dev nD) = nxt c := Fin.ext (dev108_val c)
theorem dev109_val (c : Dev nD) : k0_dev109 c = (prv c).val := by revert c; decide +kernel
theorem dev109_eq (c : Dev nD) (h : k0_dev109 c < nD) : (⟨k0_dev109 c, h⟩ : Dev nD) = prv c := Fin.ext (dev109_val c)
theorem dev110_val (c : Dev nD) : k0_dev110 c = (nxt c).val := by revert c; decide +kernel
theorem dev110_eq (c : Dev nD) (h : k0_dev110 c < nD) : (⟨k0_dev110 c, h⟩ : Dev nD) = nxt c := Fin.ext (dev110_val c)
theorem dev111_val (c : Dev nD) : k0_dev111 c = (prv c).val := by revert c; decide +kernel
theorem dev111_eq (c : Dev nD) (h : k0_dev111 c < nD) : (⟨k0_dev111 c, h⟩ : Dev nD) = prv c := Fin.ext (dev111_val c)
theorem dev112_val (c : Dev nD) : k0_dev112 c = (nxt c).val := by revert c; decide +kernel
theorem dev112_eq (c : Dev nD) (h : k0_dev112 c < nD) : (⟨k0_dev112 c, h⟩ : Dev nD) = nxt c := Fin.ext (dev112_val c)
theorem dev113_val (c : Dev nD) : k0_dev113 c = (prv c).val := by revert c; decide +kernel
theorem dev113_eq (c : Dev nD) (h : k0_dev113 c < nD) : (⟨k0_dev113 c, h⟩ : Dev nD) = prv c := Fin.ext (dev113_val c)
theorem dev114_val (c : Dev nD) : k0_dev114 c = (nxt c).val := by revert c; decide +kernel
theorem dev114_eq (c : Dev nD) (h : k0_dev114 c < nD) : (⟨k0_dev114 c, h⟩ : Dev nD) = nxt c := Fin.ext (dev114_val c)
theorem dev115_val (c : Dev nD) : k0_dev115 c = (prv c).val := by revert c; decide +kernel
theorem dev115_eq (c : Dev nD) (h : k0_dev115 c < nD) : (⟨k0_dev115 c, h⟩ : Dev nD) = prv c := Fin.ext (dev115_val c)
theorem dev116_val (c : Dev nD) : k0_dev116 c = (nxt c).val := by revert c; decide +kernel
theorem dev116_eq (c : Dev nD) (h : k0_dev116 c < nD) : (⟨k0_dev116 c, h⟩ : Dev nD) = nxt c := Fin.ext (dev116_val c)
theorem dev117_val (c : Dev nD) : k0_dev117 c = (prv c).val := by revert c; decide +kernel
theorem dev117_eq (c : Dev nD) (h : k0_dev117 c < nD) : (⟨k0_dev117 c, h⟩ : Dev nD) = prv c := Fin.ext (dev117_val c)
theorem dev118_val (c : Dev nD) : k0_dev118 c = (nxt c).val := by revert c; decide +kernel
theorem dev118_eq (c : Dev nD) (h : k0_dev118 c < nD) : (⟨k0_dev118 c, h⟩ : Dev nD) = nxt c := Fin.ext (dev118_val c)
theorem dev119_val (c : Dev nD) : k0_dev119 c = (prv c).val := by revert c; decide +kernel
theorem dev119_eq (c : Dev nD) (h : k0_dev119 c < nD) : (⟨k0_dev119 c, h⟩ : Dev nD) = prv c := Fin.ext (dev119_val c)
theorem dev120_val (c : Dev nD) : k0_dev120 c = (nxt c).val := by revert c; decide +kernel
theorem dev120_eq (c : Dev nD) (h : k0_dev120 c < nD) : (⟨k0_dev120 c, h⟩ : Dev nD) = nxt c := Fin.ext (dev120_val c)
theorem dev121_val (c : Dev nD) : k0_dev121 c = (prv c).val := by revert c; decide +kernel
theorem dev121_eq (c : Dev nD) (h : k0_dev121 c < nD) : (⟨k0_dev121 c, h⟩ : Dev nD) = prv c := Fin.ext (dev121_val c)
theorem dev122_val (c : Dev nD) : k0_dev122 c = (nxt c).val := by revert c; decide +kernel
theorem dev122_eq (c : Dev nD) (h : k0_dev122 c < nD) : (⟨k0_dev122 c, h⟩ : Dev nD) = nxt c := Fin.ext (dev122_val c)
theorem dev123_val (c : Dev nD) : k0_dev123 c = (prv c).val := by revert c; decide +kernel
theorem dev123_eq (c : Dev nD) (h : k0_dev123 c < nD) : (⟨k0_dev123 c, h⟩ : Dev nD) = prv c := Fin.ext (dev123_val c)
theorem dev124_val (c : Dev nD) : k0_dev124 c = (nxt c).val := by revert c; decide +kernel
theorem dev124_eq (c : Dev nD) (h : k0_dev124 c < nD) : (⟨k0_dev124 c, h⟩ : Dev nD) = nxt c := Fin.ext (dev124_val c)
theorem dev125_val (c : Dev nD) : k0_dev125 c = (prv c).val := by revert c; decide +kernel
theorem dev125_eq (c : Dev nD) (h : k0_dev125 c < nD) : (⟨k0_dev125 c, h⟩ : Dev nD) = prv c := Fin.ext (dev125_val c)
theorem dev126_val (c : Dev nD) : k0_dev126 c = (nxt c).val := by revert c; decide +kernel
theorem dev126_eq (c : Dev nD) (h : k0_dev126 c < nD) : (⟨k0_dev126 c, h⟩ : Dev nD) = nxt c := Fin.ext (dev126_val c)
theorem dev127_val (c : Dev nD) : k0_dev127 c = (prv c).val := by revert c; decide +kernel
theorem dev127_eq (c : Dev nD) (h : k0_dev127 c < nD) : (⟨k0_dev127 c, h⟩ : Dev nD) = prv c := Fin.ext (dev127_val c)
theorem dev128_val (c : Dev nD) : k0_dev128 c = (nxt c).val := by revert c; decide +kernel
theorem dev128_eq (c : Dev nD) (h : k0_dev128 c < nD) : (⟨k0_dev128 c, h⟩ : Dev nD) = nxt c := Fin.ext (dev128_val c)
theorem dev129_val (c : Dev nD) : k0_dev129 c = (prv c).val := by revert c; decide +kernel
theorem dev129_eq (c : Dev nD) (h : k0_dev129 c < nD) : (⟨k0_dev129 c, h⟩ : Dev nD) = prv c := Fin.ext (dev129_val c)
theorem dev130_val (c : Dev nD) : k0_dev130 c = (nxt c).val := by revert c; decide +kernel
theorem dev130_eq (c : Dev nD) (h : k0_dev130 c < nD) : (⟨k0_dev130 c, h⟩ : Dev nD) = nxt c := Fin.ext (dev130_val c)
theorem dev131_val (c : Dev nD) : k0_dev131 c = (prv c).val := by revert c; decide +kernel
theorem dev131_eq (c : Dev nD) (h : k0_dev131 c < nD) : (⟨k0_dev131 c, h⟩ : Dev nD) = prv c := Fin.ext (dev131_val c)
theorem dev132_val (c : Dev nD) : k0_dev132 c = (nxt c).val := by revert c; decide +kernel
theorem dev132_eq (c : Dev nD) (h : k0_dev132 c < nD) : (⟨k0_dev132 c, h⟩ : Dev nD) = nxt c := Fin.ext (dev132_val c)
theorem dev133_val (c : Dev nD) : k0_dev133 c = (prv c).val := by revert c; decide +kernel
theorem dev133_eq (c : Dev nD) (h : k0_dev133 c < nD) : (⟨k0_dev133 c, h⟩ : Dev nD) = prv c := Fin.ext (dev133_val c)
theorem dev134_val (c : Dev nD) : k0_dev134 c = (nxt c).val := by revert c; decide +kernel
theorem dev134_eq (c : Dev nD) (h : k0_dev134 c < nD) : (⟨k0_dev134 c, h⟩ : Dev nD) = nxt c := Fin.ext (dev134_val c)
theorem dev135_val (c : Dev nD) : k0_dev135 c = (prv c).val := by revert c; decide +kernel
theorem dev135_eq (c : Dev nD) (h : k0_dev135 c < nD) : (⟨k0_dev135 c, h⟩ : Dev nD) = prv c := Fin.ext (dev135_val c)
theorem dev136_val (c : Dev nD) : k0_dev136 c = (nxt c).val := by revert c; decide +kernel
theorem dev136_eq (c : Dev nD) (h : k0_dev136 c < nD) : (⟨k0_dev136 c, h⟩ : Dev nD) = nxt c := Fin.ext (dev136_val c)
theorem dev137_val (c : Dev nD) : k0_dev137 c = (prv c).val := by revert c; decide +kernel
theorem dev137_eq (c : Dev nD) (h : k0_dev137 c < nD) : (⟨k0_dev137 c, h⟩ : Dev nD) = prv c := Fin.ext (dev137_val c)
theorem dev138_val (c : Dev nD) : k0_dev138 c = (nxt c).val := by revert c; decide +kernel
theorem dev138_eq (c : Dev nD) (h : k0_dev138 c < nD) : (⟨k0_dev138 c, h⟩ : Dev nD) = nxt c := Fin.ext (dev138_val c)
theorem dev139_val (c : Dev nD) : k0_dev139 c = (prv c).val := by revert c; decide +kernel
theorem dev139_eq (c : Dev nD) (h : k0_dev139 c < nD) : (⟨k0_dev139 c, h⟩ : Dev nD) = prv c := Fin.ext (dev139_val c)
theorem dev140_val (c : Dev nD) : k0_dev140 c = (nxt c).val := by revert c; decide +kernel
theorem dev140_eq (c : Dev nD) (h : k0_dev140 c < nD) : (⟨k0_dev140 c, h⟩ : Dev nD) = nxt c := Fin.ext (dev140_val c)
theorem dev141_val (c : Dev nD) : k0_dev141 c = (prv c).val := by revert c; decide +kernel
theorem dev141_eq (c : Dev nD) (h : k0_dev141 c < nD) : (⟨k0_dev141 c, h⟩ : Dev nD) = prv c := Fin.ext (dev141_val c)
theorem dev142_val (c : Dev nD) : k0_dev142 c = (nxt c).val := by revert c; decide +kernel
theorem dev142_eq (c : Dev nD) (h : k0_dev142 c < nD) : (⟨k0_dev142 c, h⟩ : Dev nD) = nxt c := Fin.ext (dev142_val c)
theorem dev143_val (c : Dev nD) : k0_dev143 c = (prv c).val := by revert c; decide +kernel
theorem dev143_eq (c : Dev nD) (h : k0_dev143 c < nD) : (⟨k0_dev143 c, h⟩ : Dev nD) = prv c := Fin.ext (dev143_val c)
theorem dev144_val (c : Dev nD) : k0_dev144 c = (nxt c).val := by revert c; decide +kernel
theorem dev144_eq (c : Dev nD) (h : k0_dev144 c < nD) : (⟨k0_dev144 c, h⟩ : Dev nD) = nxt c := Fin.ext (dev144_val c)
theorem dev145_val (c : Dev nD) : k0_dev145 c = (prv c).val := by revert c; decide +kernel
theorem dev145_eq (c : Dev nD) (h : k0_dev145 c < nD) : (⟨k0_dev145 c, h⟩ : Dev nD) = prv c := Fin.ext (dev145_val c)
theorem dev146_val (c : Dev nD) : k0_dev146 c = (nxt c).val := by revert c; decide +kernel
theorem dev146_eq (c : Dev nD) (h : k0_dev146 c < nD) : (⟨k0_dev146 c, h⟩ : Dev nD) = nxt c := Fin.ext (dev146_val c)
theorem dev147_val (c : Dev nD) : k0_dev147 c = (prv c).val := by revert c; decide +kernel
theorem dev147_eq (c : Dev nD) (h : k0_dev147 c < nD) : (⟨k0_dev147 c, h⟩ : Dev nD) = prv c := Fin.ext (dev147_val c)
theorem dev148_val (c : Dev nD) : k0_dev148 c = (nxt c).val := by revert c; decide +kernel
theorem dev148_eq (c : Dev nD) (h : k0_dev148 c < nD) : (⟨k0_dev148 c, h⟩ : Dev nD) = nxt c := Fin.ext (dev148_val c)
theorem dev149_val (c : Dev nD) : k0_dev149 c = (prv c).val := by revert c; decide +kernel
theorem dev149_eq (c : Dev nD) (h : k0_dev149 c < nD) : (⟨k0_dev149 c, h⟩ : Dev nD) = prv c := Fin.ext (dev149_val c)
theorem dev150_val (c : Dev nD) : k0_dev150 c = (nxt c).val := by revert c; decide +kernel
theorem dev150_eq (c : Dev nD) (h : k0_dev150 c < nD) : (⟨k0_dev150 c, h⟩ : Dev nD) = nxt c := Fin.ext (dev150_val c)
theorem dev151_val (c : Dev nD) : k0_dev151 c = (prv c).val := by revert c; decide +kernel
theorem dev151_eq (c : Dev nD) (h : k0_dev151 c < nD) : (⟨k0_dev151 c, h⟩ : Dev nD) = prv c := Fin.ext (dev151_val c)
theorem dev152_val (c : Dev nD) : k0_dev152 c = (nxt c).val := by revert c; decide +kernel
theorem dev152_eq (c : Dev nD) (h : k0_dev152 c < nD) : (⟨k0_dev152 c, h⟩ : Dev nD) = nxt c := Fin.ext (dev152_val c)
theorem dev153_val (c : Dev nD) : k0_dev153 c = (prv c).val := by revert c; decide +kernel
theorem dev153_eq (c : Dev nD) (h : k0_dev153 c < nD) : (⟨k0_dev153 c, h⟩ : Dev nD) = prv c := Fin.ext (dev153_val c)
theorem dev154_val (c : Dev nD) : k0_dev154 c = (nxt c).val := by revert c; decide +kernel
theorem dev154_eq (c : Dev nD) (h : k0_dev154 c < nD) : (⟨k0_dev154 c, h⟩ : Dev nD) = nxt c := Fin.ext (dev154_val c)
theorem dev155_val (c : Dev nD) : k0_dev155 c = (prv c).val := by revert c; decide +kernel
theorem dev155_eq (c : Dev nD) (h : k0_dev155 c < nD) : (⟨k0_dev155 c, h⟩ : Dev nD) = prv c := Fin.ext (dev155_val c)
theorem dev156_val (c : Dev nD) : k0_dev156 c = (nxt c).val := by revert c; decide +kernel
theorem dev156_eq (c : Dev nD) (h : k0_dev156 c < nD) : (⟨k0_dev156 c, h⟩ : Dev nD) = nxt c := Fin.ext (dev156_val c)
theorem dev157_val (c : Dev nD) : k0_dev157 c = (prv c).val := by revert c; decide +kernel
theorem dev157_eq (c : Dev nD) (h : k0_dev157 c < nD) : (⟨k0_dev157 c, h⟩ : Dev nD) = prv c := Fin.ext (dev157_val c)
theorem dev158_val (c : Dev nD) : k0_dev158 c = (nxt c).val := by revert c; decide +kernel
theorem dev158_eq (c : Dev nD) (h : k0_dev158 c < nD) : (⟨k0_dev158 c, h⟩ : Dev nD) = nxt c := Fin.ext (dev158_val c)
theorem dev159_val (c : Dev nD) : k0_dev159 c = (prv c).val := by revert c; decide +kernel
theorem dev159_eq (c : Dev nD) (h : k0_dev159 c < nD) : (⟨k0_dev159 c, h⟩ : Dev nD) = prv c := Fin.ext (dev159_val c)
theorem dev160_val (c : Dev nD) : k0_dev160 c = (nxt c).val := by revert c; decide +kernel
theorem dev160_eq (c : Dev nD) (h : k0_dev160 c < nD) : (⟨k0_dev160 c, h⟩ : Dev nD) = nxt c := Fin.ext (dev160_val c)
theorem dev161_val (c : Dev nD) : k0_dev161 c = (prv c).val := by revert c; decide +kernel
theorem dev161_eq (c : Dev nD) (h : k0_dev161 c < nD) : (⟨k0_dev161 c, h⟩ : Dev nD) = prv c := Fin.ext (dev161_val c)
theorem dev162_val (c : Dev nD) : k0_dev162 c = (nxt c).val := by revert c; decide +kernel
theorem dev162_eq (c : Dev nD) (h : k0_dev162 c < nD) : (⟨k0_dev162 c, h⟩ : Dev nD) = nxt c := Fin.ext (dev162_val c)
theorem dev163_val (c : Dev nD) : k0_dev163 c = (prv c).val := by revert c; decide +kernel
theorem dev163_eq (c : Dev nD) (h : k0_dev163 c < nD) : (⟨k0_dev163 c, h⟩ : Dev nD) = prv c := Fin.ext (dev163_val c)
theorem dev164_val (c : Dev nD) : k0_dev164 c = (nxt c).val := by revert c; decide +kernel
theorem dev164_eq (c : Dev nD) (h : k0_dev164 c < nD) : (⟨k0_dev164 c, h⟩ : Dev nD) = nxt c := Fin.ext (dev164_val c)
theorem dev165_val (c : Dev nD) : k0_dev165 c = (prv c).val := by revert c; decide +kernel
theorem dev165_eq (c : Dev nD) (h : k0_dev165 c < nD) : (⟨k0_dev165 c, h⟩ : Dev nD) = prv c := Fin.ext (dev165_val c)
theorem dev166_val (c : Dev nD) : k0_dev166 c = (nxt c).val := by revert c; decide +kernel
theorem dev166_eq (c : Dev nD) (h : k0_dev166 c < nD) : (⟨k0_dev166 c, h⟩ : Dev nD) = nxt c := Fin.ext (dev166_val c)
theorem dev167_val (c : Dev nD) : k0_dev167 c = (prv c).val := by revert c; decide +kernel
theorem dev167_eq (c : Dev nD) (h : k0_dev167 c < nD) : (⟨k0_dev167 c, h⟩ : Dev nD) = prv c := Fin.ext (dev167_val c)
theorem dev168_val (c : Dev nD) : k0_dev168 c = (nxt c).val := by revert c; decide +kernel
theorem dev168_eq (c : Dev nD) (h : k0_dev168 c < nD) : (⟨k0_dev168 c, h⟩ : Dev nD) = nxt c := Fin.ext (dev168_val c)
theorem dev169_val (c : Dev nD) : k0_dev169 c = (prv c).val := by revert c; decide +kernel
theorem dev169_eq (c : Dev nD) (h : k0_dev169 c < nD) : (⟨k0_dev169 c, h⟩ : Dev nD) = prv c := Fin.ext (dev169_val c)
theorem dev170_val (c : Dev nD) : k0_dev170 c = (nxt c).val := by revert c; decide +kernel
theorem dev170_eq (c : Dev nD) (h : k0_dev170 c < nD) : (⟨k0_dev170 c, h⟩ : Dev nD) = nxt c := Fin.ext (dev170_val c)
theorem dev171_val (c : Dev nD) : k0_dev171 c = (prv c).val := by revert c; decide +kernel
theorem dev171_eq (c : Dev nD) (h : k0_dev171 c < nD) : (⟨k0_dev171 c, h⟩ : Dev nD) = prv c := Fin.ext (dev171_val c)
theorem dev172_val (c : Dev nD) : k0_dev172 c = (nxt c).val := by revert c; decide +kernel
theorem dev172_eq (c : Dev nD) (h : k0_dev172 c < nD) : (⟨k0_dev172 c, h⟩ : Dev nD) = nxt c := Fin.ext (dev172_val c)
theorem dev173_val (c : Dev nD) : k0_dev173 c = (prv c).val := by revert c; decide +kernel
theorem dev173_eq (c : Dev nD) (h : k0_dev173 c < nD) : (⟨k0_dev173 c, h⟩ : Dev nD) = prv c := Fin.ext (dev173_val c)
theorem dev174_val (c : Dev nD) : k0_dev174 c = (nxt c).val := by revert c; decide +kernel
theorem dev174_eq (c : Dev nD) (h : k0_dev174 c < nD) : (⟨k0_dev174 c, h⟩ : Dev nD) = nxt c := Fin.ext (dev174_val c)
theorem dev175_val (c : Dev nD) : k0_dev175 c = (prv c).val := by revert c; decide +kernel
theorem dev175_eq (c : Dev nD) (h : k0_dev175 c < nD) : (⟨k0_dev175 c, h⟩ : Dev nD) = prv c := Fin.ext (dev175_val c)
theorem dev176_val (c : Dev nD) : k0_dev176 c = (nxt c).val := by revert c; decide +kernel
theorem dev176_eq (c : Dev nD) (h : k0_dev176 c < nD) : (⟨k0_dev176 c, h⟩ : Dev nD) = nxt c := Fin.ext (dev176_val c)
theorem dev177_val (c : Dev nD) : k0_dev177 c = (prv c).val := by revert c; decide +kernel
theorem dev177_eq (c : Dev nD) (h : k0_dev177 c < nD) : (⟨k0_dev177 c, h⟩ : Dev nD) = prv c := Fin.ext (dev177_val c)
theorem dev178_val (c : Dev nD) : k0_dev178 c = (nxt c).val := by revert c; decide +kernel
theorem dev178_eq (c : Dev nD) (h : k0_dev178 c < nD) : (⟨k0_dev178 c, h⟩ : Dev nD) = nxt c := Fin.ext (dev178_val c)
theorem dev179_val (c : Dev nD) : k0_dev179 c = (prv c).val := by revert c; decide +kernel
theorem dev179_eq (c : Dev nD) (h : k0_dev179 c < nD) : (⟨k0_dev179 c, h⟩ : Dev nD) = prv c := Fin.ext (dev179_val c)
theorem dev180_val (c : Dev nD) : k0_dev180 c = (nxt c).val := by revert c; decide +kernel
theorem dev180_eq (c : Dev nD) (h : k0_dev180 c < nD) : (⟨k0_dev180 c, h⟩ : Dev nD) = nxt c := Fin.ext (dev180_val c)
theorem dev181_val (c : Dev nD) : k0_dev181 c = (prv c).val := by revert c; decide +kernel
theorem dev181_eq (c : Dev nD) (h : k0_dev181 c < nD) : (⟨k0_dev181 c, h⟩ : Dev nD) = prv c := Fin.ext (dev181_val c)
theorem dev182_val (c : Dev nD) : k0_dev182 c = (nxt c).val := by revert c; decide +kernel
theorem dev182_eq (c : Dev nD) (h : k0_dev182 c < nD) : (⟨k0_dev182 c, h⟩ : Dev nD) = nxt c := Fin.ext (dev182_val c)
theorem dev183_val (c : Dev nD) : k0_dev183 c = (prv c).val := by revert c; decide +kernel
theorem dev183_eq (c : Dev nD) (h : k0_dev183 c < nD) : (⟨k0_dev183 c, h⟩ : Dev nD) = prv c := Fin.ext (dev183_val c)
theorem dev184_val (c : Dev nD) : k0_dev184 c = (nxt c).val := by revert c; decide +kernel
theorem dev184_eq (c : Dev nD) (h : k0_dev184 c < nD) : (⟨k0_dev184 c, h⟩ : Dev nD) = nxt c := Fin.ext (dev184_val c)
theorem dev185_val (c : Dev nD) : k0_dev185 c = (prv c).val := by revert c; decide +kernel
theorem dev185_eq (c : Dev nD) (h : k0_dev185 c < nD) : (⟨k0_dev185 c, h⟩ : Dev nD) = prv c := Fin.ext (dev185_val c)
theorem dev186_val (c : Dev nD) : k0_dev186 c = (nxt c).val := by revert c; decide +kernel
theorem dev186_eq (c : Dev nD) (h : k0_dev186 c < nD) : (⟨k0_dev186 c, h⟩ : Dev nD) = nxt c := Fin.ext (dev186_val c)
theorem dev187_val (c : Dev nD) : k0_dev187 c = (prv c).val := by revert c; decide +kernel
theorem dev187_eq (c : Dev nD) (h : k0_dev187 c < nD) : (⟨k0_dev187 c, h⟩ : Dev nD) = prv c := Fin.ext (dev187_val c)
theorem dev188_val (c : Dev nD) : k0_dev188 c = (nxt c).val := by revert c; decide +kernel
theorem dev188_eq (c : Dev nD) (h : k0_dev188 c < nD) : (⟨k0_dev188 c, h⟩ : Dev nD) = nxt c := Fin.ext (dev188_val c)
theorem dev189_val (c : Dev nD) : k0_dev189 c = (prv c).val := by revert c; decide +kernel
theorem dev189_eq (c : Dev nD) (h : k0_dev189 c < nD) : (⟨k0_dev189 c, h⟩ : Dev nD) = prv c := Fin.ext (dev189_val c)
theorem dev190_val (c : Dev nD) : k0_dev190 c = (nxt c).val := by revert c; decide +kernel
theorem dev190_eq (c : Dev nD) (h : k0_dev190 c < nD) : (⟨k0_dev190 c, h⟩ : Dev nD) = nxt c := Fin.ext (dev190_val c)
theorem dev191_val (c : Dev nD) : k0_dev191 c = (prv c).val := by revert c; decide +kernel
theorem dev191_eq (c : Dev nD) (h : k0_dev191 c < nD) : (⟨k0_dev191 c, h⟩ : Dev nD) = prv c := Fin.ext (dev191_val c)
theorem dev192_val (c : Dev nD) : k0_dev192 c = (nxt c).val := by revert c; decide +kernel
theorem dev192_eq (c : Dev nD) (h : k0_dev192 c < nD) : (⟨k0_dev192 c, h⟩ : Dev nD) = nxt c := Fin.ext (dev192_val c)
theorem dev193_val (c : Dev nD) : k0_dev193 c = (prv c).val := by revert c; decide +kernel
theorem dev193_eq (c : Dev nD) (h : k0_dev193 c < nD) : (⟨k0_dev193 c, h⟩ : Dev nD) = prv c := Fin.ext (dev193_val c)
theorem dev194_val (c : Dev nD) : k0_dev194 c = (nxt c).val := by revert c; decide +kernel
theorem dev194_eq (c : Dev nD) (h : k0_dev194 c < nD) : (⟨k0_dev194 c, h⟩ : Dev nD) = nxt c := Fin.ext (dev194_val c)
theorem dev195_val (c : Dev nD) : k0_dev195 c = (prv c).val := by revert c; decide +kernel
theorem dev195_eq (c : Dev nD) (h : k0_dev195 c < nD) : (⟨k0_dev195 c, h⟩ : Dev nD) = prv c := Fin.ext (dev195_val c)
theorem dev196_val (c : Dev nD) : k0_dev196 c = (nxt c).val := by revert c; decide +kernel
theorem dev196_eq (c : Dev nD) (h : k0_dev196 c < nD) : (⟨k0_dev196 c, h⟩ : Dev nD) = nxt c := Fin.ext (dev196_val c)
theorem dev197_val (c : Dev nD) : k0_dev197 c = (prv c).val := by revert c; decide +kernel
theorem dev197_eq (c : Dev nD) (h : k0_dev197 c < nD) : (⟨k0_dev197 c, h⟩ : Dev nD) = prv c := Fin.ext (dev197_val c)
theorem dev198_val (c : Dev nD) : k0_dev198 c = (nxt c).val := by revert c; decide +kernel
theorem dev198_eq (c : Dev nD) (h : k0_dev198 c < nD) : (⟨k0_dev198 c, h⟩ : Dev nD) = nxt c := Fin.ext (dev198_val c)
theorem dev199_val (c : Dev nD) : k0_dev199 c = (prv c).val := by revert c; decide +kernel
theorem dev199_eq (c : Dev nD) (h : k0_dev199 c < nD) : (⟨k0_dev199 c, h⟩ : Dev nD) = prv c := Fin.ext (dev199_val c)
theorem dev200_val (c : Dev nD) : k0_dev200 c = (nxt c).val := by revert c; decide +kernel
theorem dev200_eq (c : Dev nD) (h : k0_dev200 c < nD) : (⟨k0_dev200 c, h⟩ : Dev nD) = nxt c := Fin.ext (dev200_val c)
theorem dev201_val (c : Dev nD) : k0_dev201 c = (prv c).val := by revert c; decide +kernel
theorem dev201_eq (c : Dev nD) (h : k0_dev201 c < nD) : (⟨k0_dev201 c, h⟩ : Dev nD) = prv c := Fin.ext (dev201_val c)
theorem dev202_val (c : Dev nD) : k0_dev202 c = (nxt c).val := by revert c; decide +kernel
theorem dev202_eq (c : Dev nD) (h : k0_dev202 c < nD) : (⟨k0_dev202 c, h⟩ : Dev nD) = nxt c := Fin.ext (dev202_val c)
theorem dev203_val (c : Dev nD) : k0_dev203 c = (prv c).val := by revert c; decide +kernel
theorem dev203_eq (c : Dev nD) (h : k0_dev203 c < nD) : (⟨k0_dev203 c, h⟩ : Dev nD) = prv c := Fin.ext (dev203_val c)
theorem dev204_val (c : Dev nD) : k0_dev204 c = (nxt c).val := by revert c; decide +kernel
theorem dev204_eq (c : Dev nD) (h : k0_dev204 c < nD) : (⟨k0_dev204 c, h⟩ : Dev nD) = nxt c := Fin.ext (dev204_val c)
theorem dev205_val (c : Dev nD) : k0_dev205 c = (prv c).val := by revert c; decide +kernel
theorem dev205_eq (c : Dev nD) (h : k0_dev205 c < nD) : (⟨k0_dev205 c, h⟩ : Dev nD) = prv c := Fin.ext (dev205_val c)
theorem dev206_val (c : Dev nD) : k0_dev206 c = (nxt c).val := by revert c; decide +kernel
theorem dev206_eq (c : Dev nD) (h : k0_dev206 c < nD) : (⟨k0_dev206 c, h⟩ : Dev nD) = nxt c := Fin.ext (dev206_val c)
theorem dev207_val (c : Dev nD) : k0_dev207 c = (prv c).val := by revert c; decide +kernel
theorem dev207_eq (c : Dev nD) (h : k0_dev207 c < nD) : (⟨k0_dev207 c, h⟩ : Dev nD) = prv c := Fin.ext (dev207_val c)
theorem dev208_val (c : Dev nD) : k0_dev208 c = (nxt c).val := by revert c; decide +kernel
theorem dev208_eq (c : Dev nD) (h : k0_dev208 c < nD) : (⟨k0_dev208 c, h⟩ : Dev nD) = nxt c := Fin.ext (dev208_val c)
theorem dev209_val (c : Dev nD) : k0_dev209 c = (prv c).val := by revert c; decide +kernel
theorem dev209_eq (c : Dev nD) (h : k0_dev209 c < nD) : (⟨k0_dev209 c, h⟩ : Dev nD) = prv c := Fin.ext (dev209_val c)
theorem dev210_val (c : Dev nD) : k0_dev210 c = (nxt c).val := by revert c; decide +kernel
theorem dev210_eq (c : Dev nD) (h : k0_dev210 c < nD) : (⟨k0_dev210 c, h⟩ : Dev nD) = nxt c := Fin.ext (dev210_val c)
theorem dev211_val (c : Dev nD) : k0_dev211 c = (prv c).val := by revert c; decide +kernel
theorem dev211_eq (c : Dev nD) (h : k0_dev211 c < nD) : (⟨k0_dev211 c, h⟩ : Dev nD) = prv c := Fin.ext (dev211_val c)
theorem dev212_val (c : Dev nD) : k0_dev212 c = (nxt c).val := by revert c; decide +kernel
theorem dev212_eq (c : Dev nD) (h : k0_dev212 c < nD) : (⟨k0_dev212 c, h⟩ : Dev nD) = nxt c := Fin.ext (dev212_val c)
theorem dev213_val (c : Dev nD) : k0_dev213 c = (prv c).val := by revert c; decide +kernel
theorem dev213_eq (c : Dev nD) (h : k0_dev213 c < nD) : (⟨k0_dev213 c, h⟩ : Dev nD) = prv c := Fin.ext (dev213_val c)
theorem dev214_val (c : Dev nD) : k0_dev214 c = (nxt c).val := by revert c; decide +kernel
theorem dev214_eq (c : Dev nD) (h : k0_dev214 c < nD) : (⟨k0_dev214 c, h⟩ : Dev nD) = nxt c := Fin.ext (dev214_val c)
theorem dev215_val (c : Dev nD) : k0_dev215 c = (prv c).val := by revert c; decide +kernel
theorem dev215_eq (c : Dev nD) (h : k0_dev215 c < nD) : (⟨k0_dev215 c, h⟩ : Dev nD) = prv c := Fin.ext (dev215_val c)
theorem dev216_val (c : Dev nD) : k0_dev216 c = (nxt c).val := by revert c; decide +kernel
theorem dev216_eq (c : Dev nD) (h : k0_dev216 c < nD) : (⟨k0_dev216 c, h⟩ : Dev nD) = nxt c := Fin.ext (dev216_val c)
theorem dev217_val (c : Dev nD) : k0_dev217 c = (nxt c).val := by revert c; decide +kernel
theorem dev217_eq (c : Dev nD) (h : k0_dev217 c < nD) : (⟨k0_dev217 c, h⟩ : Dev nD) = nxt c := Fin.ext (dev217_val c)
theorem dev218_val (c : Dev nD) : k0_dev218 c = (nxt c).val := by revert c; decide +kernel
theorem dev218_eq (c : Dev nD) (h : k0_dev218 c < nD) : (⟨k0_dev218 c, h⟩ : Dev nD) = nxt c := Fin.ext (dev218_val c)
theorem dev219_val (c : Dev nD) : k0_dev219 c = (nxt c).val := by revert c; decide +kernel
theorem dev219_eq (c : Dev nD) (h : k0_dev219 c < nD) : (⟨k0_dev219 c, h⟩ : Dev nD) = nxt c := Fin.ext (dev219_val c)
theorem dev220_val (c : Dev nD) : k0_dev220 c = (nxt c).val := by revert c; decide +kernel
theorem dev220_eq (c : Dev nD) (h : k0_dev220 c < nD) : (⟨k0_dev220 c, h⟩ : Dev nD) = nxt c := Fin.ext (dev220_val c)
theorem dev221_val (c : Dev nD) : k0_dev221 c = (nxt c).val := by revert c; decide +kernel
theorem dev221_eq (c : Dev nD) (h : k0_dev221 c < nD) : (⟨k0_dev221 c, h⟩ : Dev nD) = nxt c := Fin.ext (dev221_val c)
theorem dev222_val (c : Dev nD) : k0_dev222 c = (nxt c).val := by revert c; decide +kernel
theorem dev222_eq (c : Dev nD) (h : k0_dev222 c < nD) : (⟨k0_dev222 c, h⟩ : Dev nD) = nxt c := Fin.ext (dev222_val c)
theorem dev223_val (c : Dev nD) : k0_dev223 c = (nxt c).val := by revert c; decide +kernel
theorem dev223_eq (c : Dev nD) (h : k0_dev223 c < nD) : (⟨k0_dev223 c, h⟩ : Dev nD) = nxt c := Fin.ext (dev223_val c)
theorem dev224_val (c : Dev nD) : k0_dev224 c = (nxt c).val := by revert c; decide +kernel
theorem dev224_eq (c : Dev nD) (h : k0_dev224 c < nD) : (⟨k0_dev224 c, h⟩ : Dev nD) = nxt c := Fin.ext (dev224_val c)
theorem dev225_val (c : Dev nD) : k0_dev225 c = (nxt c).val := by revert c; decide +kernel
theorem dev225_eq (c : Dev nD) (h : k0_dev225 c < nD) : (⟨k0_dev225 c, h⟩ : Dev nD) = nxt c := Fin.ext (dev225_val c)
theorem dev226_val (c : Dev nD) : k0_dev226 c = (nxt c).val := by revert c; decide +kernel
theorem dev226_eq (c : Dev nD) (h : k0_dev226 c < nD) : (⟨k0_dev226 c, h⟩ : Dev nD) = nxt c := Fin.ext (dev226_val c)
theorem dev227_val (c : Dev nD) : k0_dev227 c = (nxt c).val := by revert c; decide +kernel
theorem dev227_eq (c : Dev nD) (h : k0_dev227 c < nD) : (⟨k0_dev227 c, h⟩ : Dev nD) = nxt c := Fin.ext (dev227_val c)
theorem dev228_val (c : Dev nD) : k0_dev228 c = (nxt c).val := by revert c; decide +kernel
theorem dev228_eq (c : Dev nD) (h : k0_dev228 c < nD) : (⟨k0_dev228 c, h⟩ : Dev nD) = nxt c := Fin.ext (dev228_val c)
theorem dev229_val (c : Dev nD) : k0_dev229 c = (nxt c).val := by revert c; decide +kernel
theorem dev229_eq (c : Dev nD) (h : k0_dev229 c < nD) : (⟨k0_dev229 c, h⟩ : Dev nD) = nxt c := Fin.ext (dev229_val c)
theorem dev230_val (c : Dev nD) : k0_dev230 c = (nxt c).val := by revert c; decide +kernel
theorem dev230_eq (c : Dev nD) (h : k0_dev230 c < nD) : (⟨k0_dev230 c, h⟩ : Dev nD) = nxt c := Fin.ext (dev230_val c)
theorem dev231_val (c : Dev nD) : k0_dev231 c = (nxt c).val := by revert c; decide +kernel
theorem dev231_eq (c : Dev nD) (h : k0_dev231 c < nD) : (⟨k0_dev231 c, h⟩ : Dev nD) = nxt c := Fin.ext (dev231_val c)
theorem dev232_val (c : Dev nD) : k0_dev232 c = (nxt c).val := by revert c; decide +kernel
theorem dev232_eq (c : Dev nD) (h : k0_dev232 c < nD) : (⟨k0_dev232 c, h⟩ : Dev nD) = nxt c := Fin.ext (dev232_val c)
theorem dev233_val (c : Dev nD) : k0_dev233 c = (nxt c).val := by revert c; decide +kernel
theorem dev233_eq (c : Dev nD) (h : k0_dev233 c < nD) : (⟨k0_dev233 c, h⟩ : Dev nD) = nxt c := Fin.ext (dev233_val c)
theorem dev234_val (c : Dev nD) : k0_dev234 c = (nxt c).val := by revert c; decide +kernel
theorem dev234_eq (c : Dev nD) (h : k0_dev234 c < nD) : (⟨k0_dev234 c, h⟩ : Dev nD) = nxt c := Fin.ext (dev234_val c)
theorem dev235_val (c : Dev nD) : k0_dev235 c = (nxt c).val := by revert c; decide +kernel
theorem dev235_eq (c : Dev nD) (h : k0_dev235 c < nD) : (⟨k0_dev235 c, h⟩ : Dev nD) = nxt c := Fin.ext (dev235_val c)
theorem dev236_val (c : Dev nD) : k0_dev236 c = (nxt c).val := by revert c; decide +kernel
theorem dev236_eq (c : Dev nD) (h : k0_dev236 c < nD) : (⟨k0_dev236 c, h⟩ : Dev nD) = nxt c := Fin.ext (dev236_val c)
theorem dev237_val (c : Dev nD) : k0_dev237 c = (nxt c).val := by revert c; decide +kernel
theorem dev237_eq (c : Dev nD) (h : k0_dev237 c < nD) : (⟨k0_dev237 c, h⟩ : Dev nD) = nxt c := Fin.ext (dev237_val c)
theorem dev238_val (c : Dev nD) : k0_dev238 c = (prv c).val := by revert c; decide +kernel
theorem dev238_eq (c : Dev nD) (h : k0_dev238 c < nD) : (⟨k0_dev238 c, h⟩ : Dev nD) = prv c := Fin.ext (dev238_val c)
theorem dev239_val (c : Dev nD) : k0_dev239 c = (prv c).val := by revert c; decide +kernel
theorem dev239_eq (c : Dev nD) (h : k0_dev239 c < nD) : (⟨k0_dev239 c, h⟩ : Dev nD) = prv c := Fin.ext (dev239_val c)
theorem dev240_val (c : Dev nD) : k0_dev240 c = (prv c).val := by revert c; decide +kernel
theorem dev240_eq (c : Dev nD) (h : k0_dev240 c < nD) : (⟨k0_dev240 c, h⟩ : Dev nD) = prv c := Fin.ext (dev240_val c)
theorem dev241_val (c : Dev nD) : k0_dev241 c = (prv c).val := by revert c; decide +kernel
theorem dev241_eq (c : Dev nD) (h : k0_dev241 c < nD) : (⟨k0_dev241 c, h⟩ : Dev nD) = prv c := Fin.ext (dev241_val c)
theorem dev242_val (c : Dev nD) : k0_dev242 c = (prv c).val := by revert c; decide +kernel
theorem dev242_eq (c : Dev nD) (h : k0_dev242 c < nD) : (⟨k0_dev242 c, h⟩ : Dev nD) = prv c := Fin.ext (dev242_val c)
theorem dev243_val (c : Dev nD) : k0_dev243 c = (prv c).val := by revert c; decide +kernel
theorem dev243_eq (c : Dev nD) (h : k0_dev243 c < nD) : (⟨k0_dev243 c, h⟩ : Dev nD) = prv c := Fin.ext (dev243_val c)
theorem dev244_val (c : Dev nD) : k0_dev244 c = (prv c).val := by revert c; decide +kernel
theorem dev244_eq (c : Dev nD) (h : k0_dev244 c < nD) : (⟨k0_dev244 c, h⟩ : Dev nD) = prv c := Fin.ext (dev244_val c)
theorem dev245_val (c : Dev nD) : k0_dev245 c = (prv c).val := by revert c; decide +kernel
theorem dev245_eq (c : Dev nD) (h : k0_dev245 c < nD) : (⟨k0_dev245 c, h⟩ : Dev nD) = prv c := Fin.ext (dev245_val c)
theorem dev246_val (c : Dev nD) : k0_dev246 c = (prv c).val := by revert c; decide +kernel
theorem dev246_eq (c : Dev nD) (h : k0_dev246 c < nD) : (⟨k0_dev246 c, h⟩ : Dev nD) = prv c := Fin.ext (dev246_val c)
theorem dev247_val (c : Dev nD) : k0_dev247 c = (prv c).val := by revert c; decide +kernel
theorem dev247_eq (c : Dev nD) (h : k0_dev247 c < nD) : (⟨k0_dev247 c, h⟩ : Dev nD) = prv c := Fin.ext (dev247_val c)
theorem dev248_val (c : Dev nD) : k0_dev248 c = (prv c).val := by revert c; decide +kernel
theorem dev248_eq (c : Dev nD) (h : k0_dev248 c < nD) : (⟨k0_dev248 c, h⟩ : Dev nD) = prv c := Fin.ext (dev248_val c)
theorem dev249_val (c : Dev nD) : k0_dev249 c = (prv c).val := by revert c; decide +kernel
theorem dev249_eq (c : Dev nD) (h : k0_dev249 c < nD) : (⟨k0_dev249 c, h⟩ : Dev nD) = prv c := Fin.ext (dev249_val c)
theorem dev250_val (c : Dev nD) : k0_dev250 c = (prv c).val := by revert c; decide +kernel
theorem dev250_eq (c : Dev nD) (h : k0_dev250 c < nD) : (⟨k0_dev250 c, h⟩ : Dev nD) = prv c := Fin.ext (dev250_val c)
theorem dev251_val (c : Dev nD) : k0_dev251 c = (prv c).val := by revert c; decide +kernel
theorem dev251_eq (c : Dev nD) (h : k0_dev251 c < nD) : (⟨k0_dev251 c, h⟩ : Dev nD) = prv c := Fin.ext (dev251_val c)
theorem dev252_val (c : Dev nD) : k0_dev252 c = (prv c).val := by revert c; decide +kernel
theorem dev252_eq (c : Dev nD) (h : k0_dev252 c < nD) : (⟨k0_dev252 c, h⟩ : Dev nD) = prv c := Fin.ext (dev252_val c)
theorem dev253_val (c : Dev nD) : k0_dev253 c = (prv c).val := by revert c; decide +kernel
theorem dev253_eq (c : Dev nD) (h : k0_dev253 c < nD) : (⟨k0_dev253 c, h⟩ : Dev nD) = prv c := Fin.ext (dev253_val c)
theorem dev254_val (c : Dev nD) : k0_dev254 c = (prv c).val := by revert c; decide +kernel
theorem dev254_eq (c : Dev nD) (h : k0_dev254 c < nD) : (⟨k0_dev254 c, h⟩ : Dev nD) = prv c := Fin.ext (dev254_val c)
theorem dev255_val (c : Dev nD) : k0_dev255 c = (prv c).val := by revert c; decide +kernel
theorem dev255_eq (c : Dev nD) (h : k0_dev255 c < nD) : (⟨k0_dev255 c, h⟩ : Dev nD) = prv c := Fin.ext (dev255_val c)
theorem dev256_val (c : Dev nD) : k0_dev256 c = (prv c).val := by revert c; decide +kernel
theorem dev256_eq (c : Dev nD) (h : k0_dev256 c < nD) : (⟨k0_dev256 c, h⟩ : Dev nD) = prv c := Fin.ext (dev256_val c)
theorem dev257_val (c : Dev nD) : k0_dev257 c = (prv c).val := by revert c; decide +kernel
theorem dev257_eq (c : Dev nD) (h : k0_dev257 c < nD) : (⟨k0_dev257 c, h⟩ : Dev nD) = prv c := Fin.ext (dev257_val c)
theorem dev258_val (c : Dev nD) : k0_dev258 c = (prv c).val := by revert c; decide +kernel
theorem dev258_eq (c : Dev nD) (h : k0_dev258 c < nD) : (⟨k0_dev258 c, h⟩ : Dev nD) = prv c := Fin.ext (dev258_val c)
theorem dev259_val (c : Dev nD) : k0_dev259 c = (prv c).val := by revert c; decide +kernel
theorem dev259_eq (c : Dev nD) (h : k0_dev259 c < nD) : (⟨k0_dev259 c, h⟩ : Dev nD) = prv c := Fin.ext (dev259_val c)

/-- info: 'Cert.Kernel.AGDev.dev259_val' depends on axioms: [propext, Quot.sound] -/
#guard_msgs in #print axioms dev259_val

end Cert.Kernel.AGDev
-- ==== Proof.W.DevOff.lean ====
/-
  The seven printed offset functions `k0_off1 … k0_off7` in closed form, for every device `c` of the mesh.
  Write `z = (zc c).val` for the device's z-plane and `r = (rpos c).val` for its position on the plane's ring.
  The whole array has two halves of 32768 rows (one per z-plane), a half has four quarters of 8192 rows
  (one per ring position), a quarter has 64 chunks of 128 rows. Every offset is
      (a half's base) + (a quarter's number) * 8192 + (a chunk's row inside the quarter),
  computed by the program in 32-bit words from the device id; none of the sums wraps, and each equation is
  decided over the eight devices and the chunks the program addresses. The second coordinate (the column)
  is always 0.
    off1 : own half,     quarter r,       chunk i          (in the whole array)
    off2 : quarter r, chunk i                              (in the device's own block of 32768 rows)
    off3 : own half,     quarter r + 2,   chunks 44 … 63   (row 5632 = 44 * 128 onwards)
    off4 : quarter r + 2, chunks 44 … 63                   (in the device's own block)
    off5 : other half,   quarter r,       chunk i
    off6 : own half,     row 512 * k                       (the 64 local pieces of 512 rows)
    off7 : other half,   quarter r + q for the printed q ∈ {1, 2, 3}, at the printed row inside the quarter
-/
import proofs.«900672_g7700000000000673_dist_ag_v7x_xyz2x2x2_z_m32768_n1024_f32_1_alg».proof.Proof.Mesh
import proofs.«900672_g7700000000000673_dist_ag_v7x_xyz2x2x2_z_m32768_n1024_f32_1_alg».proof.Proof.Gen.Kernel
import proofs.«900672_g7700000000000673_dist_ag_v7x_xyz2x2x2_z_m32768_n1024_f32_1_alg».proof.Proof.W.DevTable

namespace Cert.Kernel.AGDev

open Cert.Kernel Idealize.ShloMosaic Cert.AG

/-- Chunk `i` of the device's own quarter, in its own half of the whole array. -/
theorem off1_eq (c : Dev nD) (i : Fin 64) :
    k0_off1 c (BitVec.ofNat 32 (128 * i.val))
      = ![(zc c).val * 32768 + (rpos c).val * 8192 + 128 * i.val, 0] := by
  have h : ∀ c : Dev nD, ∀ i : Fin 64, ∀ a : Fin 2,
      k0_off1 c (BitVec.ofNat 32 (128 * i.val)) a
        = (![(zc c).val * 32768 + (rpos c).val * 8192 + 128 * i.val, 0] : Fin 2 → Nat) a := by
    decide +kernel
  exact funext (h c i)

/-- Chunk `i` of the device's own quarter, in its own block. -/
theorem off2_eq (c : Dev nD) (i : Fin 64) :
    k0_off2 c (BitVec.ofNat 32 (128 * i.val))
      = ![(rpos c).val * 8192 + 128 * i.val, 0] := by
  have h : ∀ c : Dev nD, ∀ i : Fin 64, ∀ a : Fin 2,
      k0_off2 c (BitVec.ofNat 32 (128 * i.val)) a
        = (![(rpos c).val * 8192 + 128 * i.val, 0] : Fin 2 → Nat) a := by
    decide +kernel
  exact funext (h c i)

/-- Chunk `44 + i` of the quarter opposite the device's own on the ring, in its own half of the whole array. -/
theorem off3_eq (c : Dev nD) (i : Fin 20) :
    k0_off3 c (BitVec.ofNat 32 (5632 + 128 * i.val))
      = ![(zc c).val * 32768 + (((rpos c).val + 2) % 4) * 8192 + 5632 + 128 * i.val, 0] := by
  have h : ∀ c : Dev nD, ∀ i : Fin 20, ∀ a : Fin 2,
      k0_off3 c (BitVec.ofNat 32 (5632 + 128 * i.val)) a
        = (![(zc c).val * 32768 + (((rpos c).val + 2) % 4) * 8192 + 5632 + 128 * i.val, 0] : Fin 2 → Nat) a := by
    decide +kernel
  exact funext (h c i)

/-- Chunk `44 + i` of the quarter opposite the device's own on the ring, in its own block. -/
theorem off4_eq (c : Dev nD) (i : Fin 20) :
    k0_off4 c (BitVec.ofNat 32 (5632 + 128 * i.val))
      = ![(((rpos c).val + 2) % 4) * 8192 + 5632 + 128 * i.val, 0] := by
  have h : ∀ c : Dev nD, ∀ i : Fin 20, ∀ a : Fin 2,
      k0_off4 c (BitVec.ofNat 32 (5632 + 128 * i.val)) a
        = (![(((rpos c).val + 2) % 4) * 8192 + 5632 + 128 * i.val, 0] : Fin 2 → Nat) a := by
    decide +kernel
  exact funext (h c i)

/-- Chunk `i` of the device's own quarter, in the OTHER half of the whole array. -/
theorem off5_eq (c : Dev nD) (i : Fin 64) :
    k0_off5 c (BitVec.ofNat 32 (128 * i.val))
      = ![(1 - (zc c).val) * 32768 + (rpos c).val * 8192 + 128 * i.val, 0] := by
  have h : ∀ c : Dev nD, ∀ i : Fin 64, ∀ a : Fin 2,
      k0_off5 c (BitVec.ofNat 32 (128 * i.val)) a
        = (![(1 - (zc c).val) * 32768 + (rpos c).val * 8192 + 128 * i.val, 0] : Fin 2 → Nat) a := by
    decide +kernel
  exact funext (h c i)

/-- Piece `k` (512 rows) of the device's own half of the whole array. -/
theorem off6_eq (c : Dev nD) (k : Fin 64) :
    k0_off6 c (BitVec.ofNat 32 (512 * k.val))
      = ![(zc c).val * 32768 + 512 * k.val, 0] := by
  have h : ∀ c : Dev nD, ∀ k : Fin 64, ∀ a : Fin 2,
      k0_off6 c (BitVec.ofNat 32 (512 * k.val)) a
        = (![(zc c).val * 32768 + 512 * k.val, 0] : Fin 2 → Nat) a := by
    decide +kernel
  exact funext (h c k)

/-- Access `s` of the 172 the seventh function serves: the quarter `r + q` (mod 4) of the OTHER half, at the
    printed row inside the quarter, `q` and the row being the two printed parameters of access `s`. -/
theorem off7_eq (c : Dev nD) (s : Fin 172) :
    k0_off7 c (k0_off7_at s).1 (k0_off7_at s).2
      = ![(1 - (zc c).val) * 32768 + (((rpos c).val + (k0_off7_at s).1.toNat) % 4) * 8192
            + (k0_off7_at s).2.toNat, 0] := by
  have h : ∀ c : Dev nD, ∀ s : Fin 172, ∀ a : Fin 2,
      k0_off7 c (k0_off7_at s).1 (k0_off7_at s).2 a
        = (![(1 - (zc c).val) * 32768 + (((rpos c).val + (k0_off7_at s).1.toNat) % 4) * 8192
              + (k0_off7_at s).2.toNat, 0] : Fin 2 → Nat) a := by
    decide +kernel
  exact funext (h c s)

/-- info: 'Cert.Kernel.AGDev.off7_eq' depends on axioms: [propext, Quot.sound] -/
#guard_msgs in #print axioms off7_eq

/-- info: 'Cert.Kernel.AGDev.dev259_val' depends on axioms: [propext, Quot.sound] -/
#guard_msgs in #print axioms dev259_val

end Cert.Kernel.AGDev
-- ==== Proof.W.OffRows.lean ====
/-
  The printed offset functions `k0_off1 … k0_off7`, read as the row functions of the all-gather.

  The program slices its arrays at offsets it computes in 32-bit words from the device id. In closed form each is
      (a half's base) + (a quarter's number) * 8192 + (a row inside the quarter),
  with `z` the device's plane and `r` its position on the plane's ring. The row functions name the same rows by the
  copy that moves them: `rowZS` / `rowZR` for the 84 copies to and from the device in the other plane, `rowH1P` /
  `rowH1N` for the forwards of the ring neighbours, `rowH2P` / `rowH2N` for their relays of the opposite quarter,
  `rowOwn` for the local copies. Here every offset the program forms is shown to be one of those rows, for every
  device, with the chunk's number a plain natural. Since `r < 4`, the quarter `(r + 0) % 4` is `r`; the other
  quarters keep their `% 4` on both sides. Where a chunk is named from the other end of a copy (the receiver's rows
  through the sender's offset), the identities between neighbouring devices' row functions are used.
-/
import proofs.«900672_g7700000000000673_dist_ag_v7x_xyz2x2x2_z_m32768_n1024_f32_1_alg».proof.Proof.W.DevOff
import proofs.«900672_g7700000000000673_dist_ag_v7x_xyz2x2x2_z_m32768_n1024_f32_1_alg».proof.Proof.W.Cells
import proofs.«900672_g7700000000000673_dist_ag_v7x_xyz2x2x2_z_m32768_n1024_f32_1_alg».proof.Proof.W.Routes

namespace Cert.Kernel.AG

open Cert.Kernel Cert.Kernel.AGDev Cert.AG Idealize.ShloMosaic

/-- Two offsets in column 0 are equal when their rows are. -/
private theorem vec_row {a b : Nat} (h : a = b) : (![a, 0] : Fin 2 → Nat) = ![b, 0] := by rw [h]

/-! ## The copies to the device in the other plane -/

/-- Chunk `i < 64` of the device's own block: the rows its `i`-th copy to the other plane reads. -/
theorem off2_row (c : Dev nD) (i : Nat) (hi : i < 64) :
    k0_off2 c (BitVec.ofNat 32 (128 * i)) = ![rowZS c i, 0] := by
  have h : k0_off2 c (BitVec.ofNat 32 (128 * i)) = ![(rpos c).val * 8192 + 128 * i, 0] := off2_eq c ⟨i, hi⟩
  rw [h]
  refine vec_row ?_
  have hr := (rpos c).isLt
  unfold rowZS qrow
  rw [if_pos hi]
  omega

/-- The same chunk in the device's own half of the whole array: the rows that copy writes on the other plane's device,
    which holds them in the half it does not own, the sender's. -/
theorem off1_row (c : Dev nD) (i : Nat) (hi : i < 64) :
    k0_off1 c (BitVec.ofNat 32 (128 * i)) = ![rowZR (zpeer c) i, 0] := by
  have h : k0_off1 c (BitVec.ofNat 32 (128 * i))
      = ![(zc c).val * 32768 + (rpos c).val * 8192 + 128 * i, 0] := off1_eq c ⟨i, hi⟩
  rw [h, rowZR_zpeer]
  refine vec_row ?_
  have hr := (rpos c).isLt
  unfold mbase rowZS qrow
  rw [if_pos hi]
  omega

/-- Copies `64 ≤ i < 84` read chunks `44 … 63` of the opposite quarter of the device's own block. -/
theorem off4_row (c : Dev nD) (i : Nat) (h1 : 64 ≤ i) (h2 : i < 84) :
    k0_off4 c (BitVec.ofNat 32 (5632 + 128 * (i - 64))) = ![rowZS c i, 0] := by
  have h : k0_off4 c (BitVec.ofNat 32 (5632 + 128 * (i - 64)))
      = ![(((rpos c).val + 2) % 4) * 8192 + 5632 + 128 * (i - 64), 0] := off4_eq c ⟨i - 64, by omega⟩
  rw [h]
  refine vec_row ?_
  unfold rowZS qrow
  rw [if_neg (by omega)]

/-- and write the same chunks of the sender's half on the other plane's device. -/
theorem off3_row (c : Dev nD) (i : Nat) (h1 : 64 ≤ i) (h2 : i < 84) :
    k0_off3 c (BitVec.ofNat 32 (5632 + 128 * (i - 64))) = ![rowZR (zpeer c) i, 0] := by
  have h : k0_off3 c (BitVec.ofNat 32 (5632 + 128 * (i - 64)))
      = ![(zc c).val * 32768 + (((rpos c).val + 2) % 4) * 8192 + 5632 + 128 * (i - 64), 0] :=
    off3_eq c ⟨i - 64, by omega⟩
  rw [h, rowZR_zpeer]
  refine vec_row ?_
  unfold mbase rowZS qrow
  rw [if_neg (by omega)]
  omega

/-! ## The chunks received from the other plane, and their forwards along the ring -/

/-- Chunk `i < 64` of the device's own quarter in the OTHER half: the rows the `i`-th copy from the other plane wrote. -/
theorem off5_row (c : Dev nD) (i : Nat) (hi : i < 64) :
    k0_off5 c (BitVec.ofNat 32 (128 * i)) = ![rowZR c i, 0] := by
  have h : k0_off5 c (BitVec.ofNat 32 (128 * i))
      = ![(1 - (zc c).val) * 32768 + (rpos c).val * 8192 + 128 * i, 0] := off5_eq c ⟨i, hi⟩
  rw [h]
  refine vec_row ?_
  have hr := (rpos c).isLt
  unfold rowZR fbase rowZS qrow
  rw [if_pos hi]
  omega

/-- Forwarded to the next ring device, the chunk lands in the quarter one step back from that device's own. -/
theorem off5_row_nxt (c : Dev nD) (i : Nat) (hi : i < 64) :
    k0_off5 c (BitVec.ofNat 32 (128 * i)) = ![rowH1P (nxt c) i, 0] := by
  rw [rowH1P_nxt c i hi]
  exact off5_row c i hi

/-- Forwarded to the previous ring device, it lands in the quarter one step forward from that device's own. -/
theorem off5_row_prv (c : Dev nD) (i : Nat) (hi : i < 64) :
    k0_off5 c (BitVec.ofNat 32 (128 * i)) = ![rowH1N (prv c) i, 0] := by
  rw [rowH1N_prv c i hi]
  exact off5_row c i hi

/-! ## The local copies -/

/-- Piece `k < 64` of 512 rows of the device's own half. -/
theorem off6_row (c : Dev nD) (k : Nat) (hk : k < 64) :
    k0_off6 c (BitVec.ofNat 32 (512 * k)) = ![rowOwn c k, 0] := by
  have h : k0_off6 c (BitVec.ofNat 32 (512 * k)) = ![(zc c).val * 32768 + 512 * k, 0] := off6_eq c ⟨k, hk⟩
  rw [h]
  rfl

/-! ## The seventh function: a quarter of the other half, a number of ring steps away

It takes the ring step and the row inside the quarter as words. The program forms it at 172 pairs, listed in the
order first met: chunk `i < 64` three steps on and then one step on, alternately, and after those chunks `j < 44`
two steps on. -/

private theorem at_back_all :
    ∀ i : Fin 64, k0_off7_at ⟨2 * i.val, by omega⟩ = (3#32, BitVec.ofNat 32 (128 * i.val)) := by
  decide +kernel

/-- Pair `2 i` is three steps on (that is, one step back), chunk `i`. -/
private theorem at_back (i : Nat) (hi : i < 64) :
    k0_off7_at ⟨2 * i, by omega⟩ = (3#32, BitVec.ofNat 32 (128 * i)) :=
  at_back_all ⟨i, hi⟩

private theorem at_fwd_all :
    ∀ i : Fin 64, k0_off7_at ⟨2 * i.val + 1, by omega⟩ = (1#32, BitVec.ofNat 32 (128 * i.val)) := by
  decide +kernel

/-- Pair `2 i + 1` is one step on, chunk `i`. -/
private theorem at_fwd (i : Nat) (hi : i < 64) :
    k0_off7_at ⟨2 * i + 1, by omega⟩ = (1#32, BitVec.ofNat 32 (128 * i)) :=
  at_fwd_all ⟨i, hi⟩

private theorem at_opp_all :
    ∀ j : Fin 44, k0_off7_at ⟨128 + j.val, by omega⟩ = (2#32, BitVec.ofNat 32 (128 * j.val)) := by
  decide +kernel

/-- Pair `128 + j` is two steps on, chunk `j`. -/
private theorem at_opp (j : Nat) (hj : j < 44) :
    k0_off7_at ⟨128 + j, by omega⟩ = (2#32, BitVec.ofNat 32 (128 * j)) :=
  at_opp_all ⟨j, hj⟩

/-- A chunk's first row, as a word, is the number itself: `128 * i` is far below `2 ^ 32`. -/
private theorem toNat_chunk (i : Nat) (hi : i < 64) : (BitVec.ofNat 32 (128 * i)).toNat = 128 * i := by
  rw [BitVec.toNat_ofNat]
  exact Nat.mod_eq_of_lt (by omega)

/-- One step back, chunk `i`. -/
private theorem off7_back (c : Dev nD) (i : Nat) (hi : i < 64) :
    k0_off7 c 3#32 (BitVec.ofNat 32 (128 * i))
      = ![(1 - (zc c).val) * 32768 + (((rpos c).val + 3) % 4) * 8192 + 128 * i, 0] := by
  have h := off7_eq c ⟨2 * i, by omega⟩
  rw [at_back i hi] at h
  have e : k0_off7 c 3#32 (BitVec.ofNat 32 (128 * i))
      = ![(1 - (zc c).val) * 32768 + (((rpos c).val + (3#32 : BitVec 32).toNat) % 4) * 8192
            + (BitVec.ofNat 32 (128 * i)).toNat, 0] := h
  rw [e, toNat_chunk i hi]
  rfl

/-- One step on, chunk `i`. -/
private theorem off7_fwd (c : Dev nD) (i : Nat) (hi : i < 64) :
    k0_off7 c 1#32 (BitVec.ofNat 32 (128 * i))
      = ![(1 - (zc c).val) * 32768 + (((rpos c).val + 1) % 4) * 8192 + 128 * i, 0] := by
  have h := off7_eq c ⟨2 * i + 1, by omega⟩
  rw [at_fwd i hi] at h
  have e : k0_off7 c 1#32 (BitVec.ofNat 32 (128 * i))
      = ![(1 - (zc c).val) * 32768 + (((rpos c).val + (1#32 : BitVec 32).toNat) % 4) * 8192
            + (BitVec.ofNat 32 (128 * i)).toNat, 0] := h
  rw [e, toNat_chunk i hi]
  rfl

/-- Two steps on (the opposite quarter), chunk `j < 44`. -/
private theorem off7_opp (c : Dev nD) (j : Nat) (hj : j < 44) :
    k0_off7 c 2#32 (BitVec.ofNat 32 (128 * j))
      = ![(1 - (zc c).val) * 32768 + (((rpos c).val + 2) % 4) * 8192 + 128 * j, 0] := by
  have h := off7_eq c ⟨128 + j, by omega⟩
  rw [at_opp j hj] at h
  have e : k0_off7 c 2#32 (BitVec.ofNat 32 (128 * j))
      = ![(1 - (zc c).val) * 32768 + (((rpos c).val + (2#32 : BitVec 32).toNat) % 4) * 8192
            + (BitVec.ofNat 32 (128 * j)).toNat, 0] := h
  rw [e, toNat_chunk j (by omega)]
  rfl

/-- Two steps on, chunks `44 … 63`. The program never forms the function at these pairs, so this one is decided over
    the eight devices and the twenty chunks directly; no sum wraps. -/
private theorem off7_opp_tail (c : Dev nD) (i : Fin 20) :
    k0_off7 c 2#32 (BitVec.ofNat 32 (5632 + 128 * i.val))
      = ![(1 - (zc c).val) * 32768 + (((rpos c).val + 2) % 4) * 8192 + 5632 + 128 * i.val, 0] := by
  have h : ∀ c : Dev nD, ∀ i : Fin 20, ∀ a : Fin 2,
      k0_off7 c 2#32 (BitVec.ofNat 32 (5632 + 128 * i.val)) a
        = (![(1 - (zc c).val) * 32768 + (((rpos c).val + 2) % 4) * 8192 + 5632 + 128 * i.val, 0] : Fin 2 → Nat) a := by
    decide +kernel
  exact funext (h c i)

/-- The chunk the previous ring device forwarded: one step back. -/
theorem off7_rowH1P (c : Dev nD) (i : Nat) (hi : i < 64) :
    k0_off7 c 3#32 (BitVec.ofNat 32 (128 * i)) = ![rowH1P c i, 0] := by
  rw [off7_back c i hi]
  refine vec_row ?_
  unfold rowH1P fbase qrow
  rfl

/-- The chunk the next ring device forwarded: one step on. -/
theorem off7_rowH1N (c : Dev nD) (i : Nat) (hi : i < 64) :
    k0_off7 c 1#32 (BitVec.ofNat 32 (128 * i)) = ![rowH1N c i, 0] := by
  rw [off7_fwd c i hi]
  refine vec_row ?_
  unfold rowH1N fbase qrow
  rfl

/-- The first 22 chunks of the opposite quarter, relayed by the previous ring device. -/
theorem off7_rowH2P (c : Dev nD) (j : Nat) (hj : j < 22) :
    k0_off7 c 2#32 (BitVec.ofNat 32 (128 * j)) = ![rowH2P c j, 0] := by
  rw [off7_opp c j (by omega)]
  refine vec_row ?_
  unfold rowH2P fbase qrow
  rfl

/-- Chunks `22 … 43` of the opposite quarter, relayed by the next ring device. -/
theorem off7_rowH2N (c : Dev nD) (j : Nat) (hj : j < 22) :
    k0_off7 c 2#32 (BitVec.ofNat 32 (128 * (22 + j))) = ![rowH2N c j, 0] := by
  rw [off7_opp c (22 + j) (by omega)]
  refine vec_row ?_
  unfold rowH2N fbase qrow
  rfl

/-- What the previous device forwarded is, for the next device, the opposite quarter: the relay's destination. -/
theorem off7_rowH2P_nxt (c : Dev nD) (j : Nat) (hj : j < 22) :
    k0_off7 c 3#32 (BitVec.ofNat 32 (128 * j)) = ![rowH2P (nxt c) j, 0] := by
  rw [rowH2P_nxt c j]
  exact off7_rowH1P c j (by omega)

/-- What the next device forwarded is, for the previous device, the opposite quarter as well. -/
theorem off7_rowH2N_prv (c : Dev nD) (j : Nat) (hj : j < 22) :
    k0_off7 c 1#32 (BitVec.ofNat 32 (128 * (22 + j))) = ![rowH2N (prv c) j, 0] := by
  rw [rowH2N_prv c j]
  exact off7_rowH1N c (22 + j) (by omega)

/-- The last twenty chunks of the opposite quarter: the rows copies `64 ≤ i < 84` from the other plane wrote. -/
theorem off7_rowZR (c : Dev nD) (i : Nat) (h1 : 64 ≤ i) (h2 : i < 84) :
    k0_off7 c 2#32 (BitVec.ofNat 32 (5632 + 128 * (i - 64))) = ![rowZR c i, 0] := by
  have h : k0_off7 c 2#32 (BitVec.ofNat 32 (5632 + 128 * (i - 64)))
      = ![(1 - (zc c).val) * 32768 + (((rpos c).val + 2) % 4) * 8192 + 5632 + 128 * (i - 64), 0] :=
    off7_opp_tail c ⟨i - 64, by omega⟩
  rw [h]
  refine vec_row ?_
  unfold rowZR fbase rowZS qrow
  rw [if_neg (by omega)]
  omega

/-- info: 'Cert.Kernel.AG.off7_rowZR' depends on axioms: [propext, Quot.sound] -/
#guard_msgs in #print axioms off7_rowZR

/-- info: 'Cert.Kernel.AG.off7_rowH2N_prv' depends on axioms: [propext, Quot.sound] -/
#guard_msgs in #print axioms off7_rowH2N_prv

/-- info: 'Cert.Kernel.AG.off3_row' depends on axioms: [propext, Quot.sound] -/
#guard_msgs in #print axioms off3_row

end Cert.Kernel.AG
-- ==== Proof.W.Parts.lean ====
/-
  Running the printed body, one effect at a time, over the counters.

  The body is cut into parts of sixty printed statements. Between two effects the device's state is `St m c n` at literal
  counters `n`, and every effect of the body is an instance of one of the step lemmas at such counters. This module has the
  three lemmas that chain a part's effects (one effect and then the rest; the return; a part and then the rest), and the tactic
  that, at each effect, finds the step lemma the effect is an instance of and proves its hypotheses. With it every part has
  the same proof.
-/
import proofs.«900672_g7700000000000673_dist_ag_v7x_xyz2x2x2_z_m32768_n1024_f32_1_alg».proof.Proof.W.Steps
import proofs.«900672_g7700000000000673_dist_ag_v7x_xyz2x2x2_z_m32768_n1024_f32_1_alg».proof.Proof.W.DevTable
import proofs.«900672_g7700000000000673_dist_ag_v7x_xyz2x2x2_z_m32768_n1024_f32_1_alg».proof.Proof.W.OffRows
import proofs.«900672_g7700000000000673_dist_ag_v7x_xyz2x2x2_z_m32768_n1024_f32_1_alg».proof.Proof.Gen.Kernel.Skeleton

noncomputable section

namespace Cert.Kernel.AG

open Cert.Kernel Cert.Kernel.Gen Cert.Kernel.AGDev Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One effect, then the rest; the return; one part, then the rest

Every goal on the way through a part has the one shape `Ctx m K ∗ St m c n ∗ R ⊢ WP c prog Q`: the invariants, the state at
literal counters, and whatever the end of the part is owed. A step lemma turns the head effect into the state at the next
counters; the return hands the final state to the continuation; a part followed by more program is the part at the
continuation that runs the rest. -/

/-- An effect's step lemma, then the rest of the program from the state it leaves. -/
theorem step_chain (m : (ℓ : Loc nD τ sig) → Buf (Elt F) ℓ) (K : CellIx → ℕ) (c : Dev nD) (n n' : Cnt) {α : Type} {Q : α → sProp 𝕄}
    {p p' : Prog (TpuEff nD τ sig (Elt F) Λ₀ .tc) α} {R : sProp 𝕄}
    (hstep : iprop(Ctx m K ∗ St m c n ∗ (St m c n' -∗ WP c p' Q)) ⊢ WP c p Q)
    (hrest : iprop(Ctx m K ∗ St m c n' ∗ R) ⊢ WP c p' Q) :
    iprop(Ctx m K ∗ St m c n ∗ R) ⊢ WP c p Q := by
  iintro ⟨#HC, HS, HR⟩
  iapply hstep
  isplitr; · iexact HC
  isplitl [HS]; · iexact HS
  iintro HS'
  iapply hrest
  isplitr; · iexact HC
  isplitl [HS']; · iexact HS'
  iexact HR

/-- The return of a part: the state goes to the continuation. -/
theorem part_ret (m : (ℓ : Loc nD τ sig) → Buf (Elt F) ℓ) (K : CellIx → ℕ) (c : Dev nD) (n : Cnt) {α : Type} (v : α) (Kt : α → sProp 𝕄) :
    iprop(Ctx m K ∗ St m c n ∗ (∀ out, St m c n -∗ Kt out)) ⊢ WP c (.ret v) Kt := by
  iintro ⟨-, HS, HK⟩
  iapply (le_wp_ret frame (wpE (defs₀ (F := F)) 𝒱₀ (c : Thread nD τ) none) Set.univ v Kt)
  iapply HK
  iexact HS

/-- The return of a part whose continuation is told a fact about the returned value. -/
theorem part_ret_fact (m : (ℓ : Loc nD τ sig) → Buf (Elt F) ℓ) (K : CellIx → ℕ) (c : Dev nD) (n : Cnt) {α : Type} (φ : α → Prop) (v : α) (hv : φ v) (Kt : α → sProp 𝕄) :
    iprop(Ctx m K ∗ St m c n ∗ (∀ out, ⌜φ out⌝ -∗ St m c n -∗ Kt out)) ⊢ WP c (.ret v) Kt := by
  iintro ⟨-, HS, HK⟩
  iapply (le_wp_ret frame (wpE (defs₀ (F := F)) 𝒱₀ (c : Thread nD τ) none) Set.univ v Kt)
  iapply HK
  · ipureintro; exact hv
  · iexact HS

/-- A part, then the rest of the program from the state the part leaves, whatever the part returns. -/
theorem part_chain (m : (ℓ : Loc nD τ sig) → Buf (Elt F) ℓ) (K : CellIx → ℕ) (c : Dev nD) (n n' : Cnt) {α β : Type} {Q : α → sProp 𝕄}
    {p : Prog (TpuEff nD τ sig (Elt F) Λ₀ .tc) β} {rest : β → Prog (TpuEff nD τ sig (Elt F) Λ₀ .tc) α} {R : sProp 𝕄}
    (hpart : iprop(Ctx m K ∗ St m c n ∗ (∀ out, St m c n' -∗ WP c (rest out) Q)) ⊢ WP c p (fun out => WP c (rest out) Q))
    (hrest : ∀ out, iprop(Ctx m K ∗ St m c n' ∗ R) ⊢ WP c (rest out) Q) :
    iprop(Ctx m K ∗ St m c n ∗ R) ⊢ WP c (p >>= rest) Q := by
  show _ ⊢ wp frame (wpE (defs₀ (F := F)) 𝒱₀ (c : Thread nD τ) none) Set.univ (p >>= rest) Q
  rw [wp_bind]
  iintro ⟨#HC, HS, HR⟩
  iapply hpart
  isplitr; · iexact HC
  isplitl [HS]; · iexact HS
  iintro %out HS'
  iapply (hrest out)
  isplitr; · iexact HC
  isplitl [HS']; · iexact HS'
  iexact HR

/-- The same when the part tells its continuation a fact about what it returns. -/
theorem part_chain_fact (m : (ℓ : Loc nD τ sig) → Buf (Elt F) ℓ) (K : CellIx → ℕ) (c : Dev nD) (n n' : Cnt) {α β : Type} {Q : α → sProp 𝕄} (φ : β → Prop)
    {p : Prog (TpuEff nD τ sig (Elt F) Λ₀ .tc) β} {rest : β → Prog (TpuEff nD τ sig (Elt F) Λ₀ .tc) α} {R : sProp 𝕄}
    (hpart : iprop(Ctx m K ∗ St m c n ∗ (∀ out, ⌜φ out⌝ -∗ St m c n' -∗ WP c (rest out) Q)) ⊢ WP c p (fun out => WP c (rest out) Q))
    (hrest : ∀ out, φ out → iprop(Ctx m K ∗ St m c n' ∗ R) ⊢ WP c (rest out) Q) :
    iprop(Ctx m K ∗ St m c n ∗ R) ⊢ WP c (p >>= rest) Q := by
  show _ ⊢ wp frame (wpE (defs₀ (F := F)) 𝒱₀ (c : Thread nD τ) none) Set.univ (p >>= rest) Q
  rw [wp_bind]
  iintro ⟨#HC, HS, HR⟩
  iapply hpart
  isplitr; · iexact HC
  isplitl [HS]; · iexact HS
  iintro %out %hout HS'
  iapply (hrest out hout)
  isplitr; · iexact HC
  isplitl [HS']; · iexact HS'
  iexact HR

/-! ## The tactic

`ag_step` reads, from a goal of the one shape, the literal counters and the effect at the head of the program, and applies
that effect's step lemma. Which lemma: a barrier signal or wait by the effect itself; a copy or a DMA wait by the array its
(send) semaphore is cut from, which names the family; the copy's or wait's number in its family is the family's counter
(every family runs in increasing order). The lemma's device equation is the table's `devN_eq` of the printed chain `k0_devN`;
its offset equations are the row lemmas at the counter; a semaphore's number and a view's credit are found by evaluation; every
remaining hypothesis is a decidable fact about literal counters. The state the lemma leaves is then written with its counters
evaluated. -/

open Lean Elab Tactic Meta

/-- The number `N` when the constant is the printed device chain `k0_devN`. -/
def devNum? : Name → Option Nat
  | .str _ s => if s.startsWith "k0_dev" then (s.drop 6).toNat? else none
  | _ => none

/-- The number `N` when the constant is the semaphore array `cc0_scratchN`. -/
def scratchNum? : Name → Option Nat
  | .str _ s => if s.startsWith "cc0_scratch" then (s.drop 11).toNat? else none
  | _ => none

def findNum? (f : Name → Option Nat) (e : Expr) : Option Nat :=
  (e.find? fun t => t.isConst && (f t.constName!).isSome).bind fun t => f t.constName!

/-- `⟨k0_devN c, _⟩ = d`, where `d` is the device the table says chain `N` addresses (up to unfolding `sigPeer`). -/
elab "ag_dev" : tactic => withMainContext do
  let tgt ← instantiateMVars (← getMainTarget)
  let some (_, lhs, _) := tgt.eq? | throwError "ag_dev: not an equation: {tgt}"
  let some num := findNum? devNum? lhs | throwError "ag_dev: no printed device chain in {lhs}"
  let lem := mkIdent (`Cert.Kernel.AGDev ++ Name.mkSimple s!"dev{num}_eq")
  evalTactic (← `(tactic| exact ($lem _ _).trans rfl))

/-- A counter, evaluated; a literal again if it is a number. -/
def evalField (e : Expr) : MetaM Expr := do
  let e ← whnfD e
  match e.rawNatLit? with
  | some k => return mkNatLit k
  | none => return e

def natOfField (e : Expr) : MetaM Nat := do
  let e ← whnfD e
  match e.rawNatLit? with
  | some k => return k
  | none => throwError "ag_step: a counter that is not a literal: {e}"

/-- The pieces of a goal `Ctx m K ∗ St m c n ∗ R ⊢ WP c prog Q`. -/
structure Pieces where
  tgt : Expr
  args : Array Expr
  lhs : Expr
  inner : Expr
  st : Expr
  rhs : Expr
  rargs : Array Expr

def pieces (tgt : Expr) : MetaM Pieces := do
  let args := tgt.getAppArgs
  unless args.size ≥ 2 do throwError "ag_step: the goal is not an entailment: {tgt}"
  let lhs := args[args.size - 2]!
  let rhs := args[args.size - 1]!
  unless lhs.isApp && lhs.appArg!.isApp && lhs.appArg!.appFn!.isApp do throwError "ag_step: the goal's left side is not of the shape Ctx ∗ St ∗ R: {lhs}"
  let inner := lhs.appArg!
  let st := inner.appFn!.appArg!
  unless st.isAppOf ``St do throwError "ag_step: no state in second place: {st}"
  let rargs := rhs.getAppArgs
  unless rargs.size ≥ 2 do throwError "ag_step: the goal's right side is not a weakest precondition: {rhs}"
  return { tgt, args, lhs, inner, st, rhs, rargs }

/-- Write the goal's state with its counters evaluated, and its program with the head redex reduced. -/
def normGoal : TacticM Unit := withMainContext do
  let g ← getMainGoal
  let P ← pieces (← instantiateMVars (← g.getType))
  let n ← whnfD P.st.appArg!
  unless n.isAppOf ``Cnt.mk do throwError "ag_step: the counters are not a literal record: {n}"
  let fields ← (n.getAppArgs.mapM evalField : MetaM (Array Expr))
  let n' := mkAppN n.getAppFn fields
  let st' := mkApp P.st.appFn! n'
  let inner' := mkApp (mkApp P.inner.appFn!.appFn! st') P.inner.appArg!
  let lhs' := mkApp P.lhs.appFn! inner'
  let i := P.rargs.size - 2
  let rhs' := mkAppN P.rhs.getAppFn (P.rargs.set! i (← whnfCore P.rargs[i]!))
  let tgt' := mkAppN P.tgt.getAppFn ((P.args.set! (P.args.size - 2) lhs').set! (P.args.size - 1) rhs')
  replaceMainGoal [← g.replaceTargetDefEq tgt']

/-- Apply the step lemma `lem` to a goal `Ctx m K ∗ St m c n ∗ (St m c ?n' -∗ WP c ?p' Q) ⊢ WP c (.op eff k) Q`: its conclusion is
    unified with the goal, which fixes the device, offsets and semaphores it speaks of; then each hypothesis is proved according
    to its name. -/
def applyStep (g : MVarId) (lem : Name) (hos hod : Option (TSyntax `term)) : TacticM Unit := g.withContext do
  let c ← mkConstWithFreshMVarLevels lem
  let (xs, bis, concl) ← forallMetaTelescope (← inferType c)
  unless (← isDefEq concl (← g.getType)) do
    throwError "ag_step: {lem} does not fit the head effect: {concl}"
  g.assign (mkAppN c xs)
  let close (x : Expr) (tac : TSyntax `tactic) : TacticM Unit := do
    setGoals [x.mvarId!]
    evalTactic tac
    unless (← getGoals).isEmpty do throwError "ag_step: a hypothesis of {lem} is left open"
  let nameOf (x : Expr) : MetaM Name := return (← x.mvarId!.getDecl).userName
  for x in xs, bi in bis do
    unless (← x.mvarId!.isAssigned) do
      if bi.isInstImplicit then x.mvarId!.assign (← synthInstance (← inferType x))
  -- a wait's clause first: it says which semaphore is waited on
  for x in xs do
    unless (← x.mvarId!.isAssigned) do
      if (← nameOf x) == `hw then close x (← `(tactic| exact fun K' => wpE_waitDma2_eq _ _ _ _ K'))
  for x in xs do
    unless (← x.mvarId!.isAssigned) do
      let nm ← nameOf x
      if nm == `hdev then close x (← `(tactic| ag_dev))
      else if nm == `hk || nm == `hsS || nm == `hsR then close x (← `(tactic| rfl))
      else if nm == `hos then
        match hos with
        | some t => close x (← `(tactic| exact $t))
        | none => close x (← `(tactic| rfl))
      else if nm == `hod then
        match hod with
        | some t => close x (← `(tactic| exact $t))
        | none => close x (← `(tactic| rfl))
      else close x (← `(tactic| decide))

elab "ag_step" : tactic => withMainContext do
  let P ← pieces (← instantiateMVars (← getMainTarget))
  let n ← whnfD P.st.appArg!
  unless n.isAppOf ``Cnt.mk do throwError "ag_step: the counters are not a literal record: {n}"
  let cnt (i : Nat) : MetaM Nat := natOfField n.getAppArgs[i]!
  let prog ← whnfR P.rargs[P.rargs.size - 2]!
  unless prog.isAppOf ``Prog.op do throwError "ag_step: the program is not at an effect"
  let pargs := prog.getAppArgs
  let eff := pargs[pargs.size - 2]!
  let eargs := eff.getAppArgs
  let head ← match eff.getAppFn.constName? with
    | some (.str _ s) => pure s
    | _ => throwError "ag_step: the head effect is not a constructor: {eff}"
  let none' : Option (TSyntax `term) := none
  let (lem, hos, hod) : Name × Option (TSyntax `term) × Option (TSyntax `term) ←
    if head == "semSignal" then pure (``step_sig, none', none')
    else if head == "semWait" then pure (``step_barwait, none', none')
    else if head == "enqueueDma" then do
      let tgtE := eargs[eargs.size - 5]!
      let semE := eargs[eargs.size - 4]!
      if tgtE.isAppOf ``DmaTarget.remote then
        let targs := tgtE.getAppArgs
        let some s := findNum? scratchNum? targs[targs.size - 2]! | throwError "ag_step: a copy's send semaphore is cut from no array"
        if s == 3 then
          let i ← cnt 2
          let iq := quote i
          if i < 64 then
            pure (``step_zsend, some (← `(off2_row _ $iq (by decide))), some (← `(off1_row _ $iq (by decide))))
          else
            pure (``step_zsend, some (← `(off4_row _ $iq (by decide) (by decide))), some (← `(off3_row _ $iq (by decide) (by decide))))
        else if s == 5 then
          let iq := quote (← cnt 6)
          pure (``step_n1, some (← `(off5_row _ $iq (by decide))), some (← `(off5_row_nxt _ $iq (by decide))))
        else if s == 6 then
          let iq := quote (← cnt 7)
          pure (``step_p1, some (← `(off5_row _ $iq (by decide))), some (← `(off5_row_prv _ $iq (by decide))))
        else if s == 9 then
          let jq := quote (← cnt 12)
          pure (``step_n2, some (← `(off7_rowH1P _ $jq (by decide))), some (← `(off7_rowH2P_nxt _ $jq (by decide))))
        else if s == 10 then
          let j ← cnt 13
          let jq := quote j
          let jq' := quote (22 + j)
          pure (``step_p2, some (← `(off7_rowH1N _ $jq' (by decide))), some (← `(off7_rowH2N_prv _ $jq (by decide))))
        else throwError "ag_step: an addressed copy on array {s}"
      else
        let some s := findNum? scratchNum? semE | throwError "ag_step: a copy's semaphore is cut from no array"
        if s == 1 then pure (``step_ci, none', none')
        else if s == 2 then
          let kq := quote (← cnt 20)
          pure (``step_co, none', some (← `(off6_row _ $kq (by decide))))
        else throwError "ag_step: a local copy on array {s}"
    else if head == "waitDma2" then do
      let some s := findNum? scratchNum? eargs[eargs.size - 5]! | throwError "ag_step: a wait's semaphore is cut from no array"
      let lem ← match s with
        | 1 => pure ``step_ciw
        | 2 => pure ``step_low
        | 3 => pure ``step_wz
        | 4 => if (← cnt 4) < 64 then pure ``step_zrw else pure ``step_zrd
        | 5 => pure ``step_w1n
        | 6 => pure ``step_w1p
        | 7 => pure ``step_rpw
        | 8 => pure ``step_rnw
        | 9 => pure ``step_w2n
        | 10 => pure ``step_w2p
        | 11 => pure ``step_h2pw
        | 12 => pure ``step_h2nw
        | _ => throwError "ag_step: a wait on array {s}"
      pure (lem, none', none')
    else throwError "ag_step: no step lemma for the effect {head}"
  let others := (← getGoals).tail
  evalTactic (← `(tactic| apply step_chain))
  -- the goals left: the step and the rest of the program (and the next counters and program, which the step fixes)
  let mut step? : Option MVarId := none
  let mut rest? : Option MVarId := none
  for g in (← getGoals) do
    if others.contains g then continue
    match (← g.getTag).eraseMacroScopes with
    | .str _ "hstep" => step? := some g
    | .str _ "hrest" => rest? := some g
    | _ => pure ()
  let (some gs, some gr) := (step?, rest?) | throwError "ag_step: the chain lemma's goals were not found among {← (← getGoals).mapM fun g => g.getTag}"
  applyStep gs lem hos hod
  setGoals [gr]
  normGoal
  setGoals ((← getGoals) ++ others)

/-- Every effect up to the return, one after the other; an effect that no step lemma fits is reported where it stands. -/
elab "ag_steps" : tactic => do
  repeat
    let atEffect ← withMainContext do
      let P ← pieces (← instantiateMVars (← getMainTarget))
      return (← whnfR P.rargs[P.rargs.size - 2]!).isAppOf ``Prog.op
    unless atEffect do break
    evalTactic (← `(tactic| ag_step))

/-- A printed leaf part: its skeleton, its effects one by one, its return. -/
macro "ag_part " eq:ident skel:ident : tactic => `(tactic| (
  rw [$eq:ident]; unfold $skel:ident
  simp only [semSignalWord, semWaitWord, Prog.lift, Prog.bind_op, Prog.bind_ret, Prog.pure_eq_ret, wp_deviceId]
  ag_steps
  first
    | exact part_ret _ _ _ _ _ _
    | exact part_ret_fact _ _ _ _ _ _ (by rfl) _))

/-- info: 'Cert.Kernel.AG.step_chain' depends on axioms: [propext, Classical.choice, Quot.sound] -/
#guard_msgs in #print axioms step_chain

/-- info: 'Cert.Kernel.AG.part_chain_fact' depends on axioms: [propext, Classical.choice, Quot.sound] -/
#guard_msgs in #print axioms part_chain_fact

end Cert.Kernel.AG

end
-- ==== Proof.W.Leaves.lean ====
/-
  The leaf parts of the body, one statement each: from the state at the counters reached before the part, the part
  runs and leaves the state at the counters reached after it, whatever words it is handed and whatever it returns.
  The first part reads the device id and returns it; the second returns the barrier semaphore, which the third takes.
-/
import proofs.«900672_g7700000000000673_dist_ag_v7x_xyz2x2x2_z_m32768_n1024_f32_1_alg».proof.Proof.W.Parts

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
theorem part_1 (m : (ℓ : Loc nD τ sig) → Buf (Elt F) ℓ) (K : CellIx → ℕ) (c : Dev nD) (Kt : (Σ' (d0 : Dev nD) (v2 : BitVec 32) (v5 : BitVec 32) (v8 : BitVec 32) (v9 : BitVec 32) (v12 : BitVec 32) (v14 : BitVec 32) (v16 : BitVec 32) (v18 : BitVec 32) (v23 : BitVec 32) (v34 : BitVec 32) (v35 : BitVec 32), BitVec 32) → sProp 𝕄) :
    iprop(Ctx m K ∗ St m c ⟨0, false, 0, 0, 0, 0, 0, 0, 0, 0, 0, 0, 0, 0, 0, 0, 0, 0, 0, 0, 0, 0⟩ ∗ (∀ out, ⌜(fun out => out.1 = c) out⌝ -∗ St m c ⟨0, false, 0, 0, 0, 0, 0, 0, 0, 0, 0, 0, 0, 0, 0, 0, 0, 0, 0, 0, 0, 0⟩ -∗ Kt out))
      ⊢ WP c (k0_part1 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 ) Kt := by
  ag_part k0_part1_eq_skeleton k0_part1_skel

set_option maxRecDepth 65536 in
theorem part_2 (m : (ℓ : Loc nD τ sig) → Buf (Elt F) ℓ) (K : CellIx → ℕ) (c : Dev nD) (v2 v5 v8 v9 v12 v14 v23 v35 c4_i32_17 : BitVec 32) (Kt : (Σ' (v45 : BitVec 32) (v56 : BitVec 32) (v57 : BitVec 32) (v59 : BitVec 32) (v60 : Sems sig S_), BitVec 32) → sProp 𝕄) :
    iprop(Ctx m K ∗ St m c ⟨0, false, 0, 0, 0, 0, 0, 0, 0, 0, 0, 0, 0, 0, 0, 0, 0, 0, 0, 0, 0, 0⟩ ∗ (∀ out, ⌜(fun out => out.2.2.2.2.1 = SemArray.scalar (sig.barrier 0 rfl)) out⌝ -∗ St m c ⟨1, false, 0, 0, 0, 0, 0, 0, 0, 0, 0, 0, 0, 0, 0, 0, 0, 0, 0, 0, 0, 0⟩ -∗ Kt out))
      ⊢ WP c (k0_part2 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v35 c4_i32_17) Kt := by
  ag_part k0_part2_eq_skeleton k0_part2_skel

set_option maxRecDepth 65536 in
theorem part_3 (m : (ℓ : Loc nD τ sig) → Buf (Elt F) ℓ) (K : CellIx → ℕ) (c : Dev nD) (v2 v5 v8 v9 v16 v18 v23 v57 v70 : BitVec 32) (Kt : (Σ' (v100 : BitVec 32), BitVec 32) → sProp 𝕄) :
    iprop(Ctx m K ∗ St m c ⟨1, false, 0, 0, 0, 0, 0, 0, 0, 0, 0, 0, 0, 0, 0, 0, 0, 0, 0, 0, 0, 0⟩ ∗ (∀ out, St m c ⟨3, true, 1, 0, 0, 0, 0, 0, 0, 0, 0, 0, 0, 0, 0, 0, 0, 0, 0, 0, 0, 0⟩ -∗ Kt out))
      ⊢ WP c (k0_part3 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v16 v18 v23 v57 (SemArray.scalar (sig.barrier 0 rfl)) v70) Kt := by
  ag_part k0_part3_eq_skeleton k0_part3_skel

set_option maxRecDepth 65536 in
theorem part_4 (m : (ℓ : Loc nD τ sig) → Buf (Elt F) ℓ) (K : CellIx → ℕ) (c : Dev nD) (v2 v5 v9 v23 v57 v100 c1_i32_63 : BitVec 32) (Kt : (PUnit) → sProp 𝕄) :
    iprop(Ctx m K ∗ St m c ⟨3, true, 1, 0, 0, 0, 0, 0, 0, 0, 0, 0, 0, 0, 0, 0, 0, 0, 0, 0, 0, 0⟩ ∗ (∀ out, St m c ⟨3, true, 3, 0, 0, 0, 0, 0, 0, 0, 0, 0, 0, 0, 0, 0, 0, 0, 0, 0, 0, 0⟩ -∗ Kt out))
      ⊢ WP c (k0_part4 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v100 c1_i32_63) Kt := by
  ag_part k0_part4_eq_skeleton k0_part4_skel

set_option maxRecDepth 65536 in
theorem part_5 (m : (ℓ : Loc nD τ sig) → Buf (Elt F) ℓ) (K : CellIx → ℕ) (c : Dev nD) (v2 v5 v9 v23 v57 : BitVec 32) (Kt : (PUnit) → sProp 𝕄) :
    iprop(Ctx m K ∗ St m c ⟨3, true, 3, 0, 0, 0, 0, 0, 0, 0, 0, 0, 0, 0, 0, 0, 0, 0, 0, 0, 0, 0⟩ ∗ (∀ out, St m c ⟨3, true, 6, 0, 0, 0, 0, 0, 0, 0, 0, 0, 0, 0, 0, 0, 0, 0, 0, 0, 0, 0⟩ -∗ Kt out))
      ⊢ WP c (k0_part5 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part5_eq_skeleton k0_part5_skel

set_option maxRecDepth 65536 in
theorem part_6 (m : (ℓ : Loc nD τ sig) → Buf (Elt F) ℓ) (K : CellIx → ℕ) (c : Dev nD) (v2 v5 v9 v23 v57 : BitVec 32) (Kt : (Σ' (v203 : BitVec 32), BitVec 32) → sProp 𝕄) :
    iprop(Ctx m K ∗ St m c ⟨3, true, 6, 0, 0, 0, 0, 0, 0, 0, 0, 0, 0, 0, 0, 0, 0, 0, 0, 0, 0, 0⟩ ∗ (∀ out, St m c ⟨3, true, 8, 0, 0, 0, 0, 0, 0, 0, 0, 0, 0, 0, 0, 0, 0, 0, 0, 0, 0, 0⟩ -∗ Kt out))
      ⊢ WP c (k0_part6 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part6_eq_skeleton k0_part6_skel

set_option maxRecDepth 65536 in
theorem part_7 (m : (ℓ : Loc nD τ sig) → Buf (Elt F) ℓ) (K : CellIx → ℕ) (c : Dev nD) (v2 v5 v9 v23 v57 v203 v204 : BitVec 32) (Kt : (PUnit) → sProp 𝕄) :
    iprop(Ctx m K ∗ St m c ⟨3, true, 8, 0, 0, 0, 0, 0, 0, 0, 0, 0, 0, 0, 0, 0, 0, 0, 0, 0, 0, 0⟩ ∗ (∀ out, St m c ⟨3, true, 10, 0, 0, 0, 0, 0, 0, 0, 0, 0, 0, 0, 0, 0, 0, 0, 0, 0, 0, 0⟩ -∗ Kt out))
      ⊢ WP c (k0_part7 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v203 v204) Kt := by
  ag_part k0_part7_eq_skeleton k0_part7_skel

set_option maxRecDepth 65536 in
theorem part_8 (m : (ℓ : Loc nD τ sig) → Buf (Elt F) ℓ) (K : CellIx → ℕ) (c : Dev nD) (v2 v5 v9 v23 v57 : BitVec 32) (Kt : (Σ' (v274 : BitVec 32), BitVec 32) → sProp 𝕄) :
    iprop(Ctx m K ∗ St m c ⟨3, true, 10, 0, 0, 0, 0, 0, 0, 0, 0, 0, 0, 0, 0, 0, 0, 0, 0, 0, 0, 0⟩ ∗ (∀ out, St m c ⟨3, true, 13, 0, 0, 0, 0, 0, 0, 0, 0, 0, 0, 0, 0, 0, 0, 0, 0, 0, 0, 0⟩ -∗ Kt out))
      ⊢ WP c (k0_part8 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part8_eq_skeleton k0_part8_skel

set_option maxRecDepth 65536 in
theorem part_9 (m : (ℓ : Loc nD τ sig) → Buf (Elt F) ℓ) (K : CellIx → ℕ) (c : Dev nD) (v2 v5 v9 v23 v57 v274 c1664_i32 : BitVec 32) (Kt : (BitVec 32) → sProp 𝕄) :
    iprop(Ctx m K ∗ St m c ⟨3, true, 13, 0, 0, 0, 0, 0, 0, 0, 0, 0, 0, 0, 0, 0, 0, 0, 0, 0, 0, 0⟩ ∗ (∀ out, St m c ⟨3, true, 15, 0, 0, 0, 0, 0, 0, 0, 0, 0, 0, 0, 0, 0, 0, 0, 0, 0, 0, 0⟩ -∗ Kt out))
      ⊢ WP c (k0_part9 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v274 c1664_i32) Kt := by
  ag_part k0_part9_eq_skeleton k0_part9_skel

set_option maxRecDepth 65536 in
theorem part_10 (m : (ℓ : Loc nD τ sig) → Buf (Elt F) ℓ) (K : CellIx → ℕ) (c : Dev nD) (v2 v5 v9 v23 v57 v308 : BitVec 32) (Kt : (PUnit) → sProp 𝕄) :
    iprop(Ctx m K ∗ St m c ⟨3, true, 15, 0, 0, 0, 0, 0, 0, 0, 0, 0, 0, 0, 0, 0, 0, 0, 0, 0, 0, 0⟩ ∗ (∀ out, St m c ⟨3, true, 17, 0, 0, 0, 0, 0, 0, 0, 0, 0, 0, 0, 0, 0, 0, 0, 0, 0, 0, 0⟩ -∗ Kt out))
      ⊢ WP c (k0_part10 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v308) Kt := by
  ag_part k0_part10_eq_skeleton k0_part10_skel

set_option maxRecDepth 65536 in
theorem part_11 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 17, 0, 0, 0, 0, 0, 0, 0, 0, 0, 0, 0, 0, 0, 0, 0, 0, 0, 0, 0⟩ ∗ (∀ out, St m c ⟨3, true, 20, 0, 0, 0, 0, 0, 0, 0, 0, 0, 0, 0, 0, 0, 0, 0, 0, 0, 0, 0⟩ -∗ Kt out))
      ⊢ WP c (k0_part11 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part11_eq_skeleton k0_part11_skel

set_option maxRecDepth 65536 in
theorem part_12 (m : (ℓ : Loc nD τ sig) → Buf (Elt F) ℓ) (K : CellIx → ℕ) (c : Dev nD) (v2 v5 v9 v23 v57 c8192_i32_213 : BitVec 32) (Kt : (BitVec 32) → sProp 𝕄) :
    iprop(Ctx m K ∗ St m c ⟨3, true, 20, 0, 0, 0, 0, 0, 0, 0, 0, 0, 0, 0, 0, 0, 0, 0, 0, 0, 0, 0⟩ ∗ (∀ out, St m c ⟨3, true, 22, 0, 0, 0, 0, 0, 0, 0, 0, 0, 0, 0, 0, 0, 0, 0, 0, 0, 0, 0⟩ -∗ Kt out))
      ⊢ WP c (k0_part12 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 c8192_i32_213) Kt := by
  ag_part k0_part12_eq_skeleton k0_part12_skel

set_option maxRecDepth 65536 in
theorem part_13 (m : (ℓ : Loc nD τ sig) → Buf (Elt F) ℓ) (K : CellIx → ℕ) (c : Dev nD) (v2 v5 v9 v23 v57 v412 : BitVec 32) (Kt : (PUnit) → sProp 𝕄) :
    iprop(Ctx m K ∗ St m c ⟨3, true, 22, 0, 0, 0, 0, 0, 0, 0, 0, 0, 0, 0, 0, 0, 0, 0, 0, 0, 0, 0⟩ ∗ (∀ out, St m c ⟨3, true, 24, 0, 0, 0, 0, 0, 0, 0, 0, 0, 0, 0, 0, 0, 0, 0, 0, 0, 0, 0⟩ -∗ Kt out))
      ⊢ WP c (k0_part13 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v412) Kt := by
  ag_part k0_part13_eq_skeleton k0_part13_skel

set_option maxRecDepth 65536 in
theorem part_14 (m : (ℓ : Loc nD τ sig) → Buf (Elt F) ℓ) (K : CellIx → ℕ) (c : Dev nD) (v2 v5 v9 v23 v57 : BitVec 32) (Kt : (PUnit) → sProp 𝕄) :
    iprop(Ctx m K ∗ St m c ⟨3, true, 24, 0, 0, 0, 0, 0, 0, 0, 0, 0, 0, 0, 0, 0, 0, 0, 0, 0, 0, 0⟩ ∗ (∀ out, St m c ⟨3, true, 26, 0, 0, 0, 0, 0, 0, 0, 0, 0, 0, 0, 0, 0, 0, 0, 0, 0, 0, 0⟩ -∗ Kt out))
      ⊢ WP c (k0_part14 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part14_eq_skeleton k0_part14_skel

set_option maxRecDepth 65536 in
theorem part_15 (m : (ℓ : Loc nD τ sig) → Buf (Elt F) ℓ) (K : CellIx → ℕ) (c : Dev nD) (v2 v5 v9 v23 v57 : BitVec 32) (Kt : (PUnit) → sProp 𝕄) :
    iprop(Ctx m K ∗ St m c ⟨3, true, 26, 0, 0, 0, 0, 0, 0, 0, 0, 0, 0, 0, 0, 0, 0, 0, 0, 0, 0, 0⟩ ∗ (∀ out, St m c ⟨3, true, 29, 0, 0, 0, 0, 0, 0, 0, 0, 0, 0, 0, 0, 0, 0, 0, 0, 0, 0, 0⟩ -∗ Kt out))
      ⊢ WP c (k0_part15 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part15_eq_skeleton k0_part15_skel

set_option maxRecDepth 65536 in
theorem part_16 (m : (ℓ : Loc nD τ sig) → Buf (Elt F) ℓ) (K : CellIx → ℕ) (c : Dev nD) (v2 v5 v9 v23 v57 : BitVec 32) (Kt : (Σ' (v550 : BitVec 32), BitVec 32) → sProp 𝕄) :
    iprop(Ctx m K ∗ St m c ⟨3, true, 29, 0, 0, 0, 0, 0, 0, 0, 0, 0, 0, 0, 0, 0, 0, 0, 0, 0, 0, 0⟩ ∗ (∀ out, St m c ⟨3, true, 31, 0, 0, 0, 0, 0, 0, 0, 0, 0, 0, 0, 0, 0, 0, 0, 0, 0, 0, 0⟩ -∗ Kt out))
      ⊢ WP c (k0_part16 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part16_eq_skeleton k0_part16_skel

set_option maxRecDepth 65536 in
theorem part_17 (m : (ℓ : Loc nD τ sig) → Buf (Elt F) ℓ) (K : CellIx → ℕ) (c : Dev nD) (v2 v5 v9 v23 v57 v550 c1_i32_306 : BitVec 32) (Kt : (PUnit) → sProp 𝕄) :
    iprop(Ctx m K ∗ St m c ⟨3, true, 31, 0, 0, 0, 0, 0, 0, 0, 0, 0, 0, 0, 0, 0, 0, 0, 0, 0, 0, 0⟩ ∗ (∀ out, St m c ⟨3, true, 33, 0, 0, 0, 0, 0, 0, 0, 0, 0, 0, 0, 0, 0, 0, 0, 0, 0, 0, 0⟩ -∗ Kt out))
      ⊢ WP c (k0_part17 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v550 c1_i32_306) Kt := by
  ag_part k0_part17_eq_skeleton k0_part17_skel

set_option maxRecDepth 65536 in
theorem part_18 (m : (ℓ : Loc nD τ sig) → Buf (Elt F) ℓ) (K : CellIx → ℕ) (c : Dev nD) (v2 v5 v9 v23 v57 : BitVec 32) (Kt : (PUnit) → sProp 𝕄) :
    iprop(Ctx m K ∗ St m c ⟨3, true, 33, 0, 0, 0, 0, 0, 0, 0, 0, 0, 0, 0, 0, 0, 0, 0, 0, 0, 0, 0⟩ ∗ (∀ out, St m c ⟨3, true, 36, 0, 0, 0, 0, 0, 0, 0, 0, 0, 0, 0, 0, 0, 0, 0, 0, 0, 0, 0⟩ -∗ Kt out))
      ⊢ WP c (k0_part18 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part18_eq_skeleton k0_part18_skel

set_option maxRecDepth 65536 in
theorem part_19 (m : (ℓ : Loc nD τ sig) → Buf (Elt F) ℓ) (K : CellIx → ℕ) (c : Dev nD) (v2 v5 v9 v23 v57 : BitVec 32) (Kt : (Σ' (v653 : BitVec 32), BitVec 32) → sProp 𝕄) :
    iprop(Ctx m K ∗ St m c ⟨3, true, 36, 0, 0, 0, 0, 0, 0, 0, 0, 0, 0, 0, 0, 0, 0, 0, 0, 0, 0, 0⟩ ∗ (∀ out, St m c ⟨3, true, 38, 0, 0, 0, 0, 0, 0, 0, 0, 0, 0, 0, 0, 0, 0, 0, 0, 0, 0, 0⟩ -∗ Kt out))
      ⊢ WP c (k0_part19 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part19_eq_skeleton k0_part19_skel

set_option maxRecDepth 65536 in
theorem part_20 (m : (ℓ : Loc nD τ sig) → Buf (Elt F) ℓ) (K : CellIx → ℕ) (c : Dev nD) (v2 v5 v9 v23 v57 v653 v654 : BitVec 32) (Kt : (PUnit) → sProp 𝕄) :
    iprop(Ctx m K ∗ St m c ⟨3, true, 38, 0, 0, 0, 0, 0, 0, 0, 0, 0, 0, 0, 0, 0, 0, 0, 0, 0, 0, 0⟩ ∗ (∀ out, St m c ⟨3, true, 40, 0, 0, 0, 0, 0, 0, 0, 0, 0, 0, 0, 0, 0, 0, 0, 0, 0, 0, 0⟩ -∗ Kt out))
      ⊢ WP c (k0_part20 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v653 v654) Kt := by
  ag_part k0_part20_eq_skeleton k0_part20_skel

set_option maxRecDepth 65536 in
theorem part_21 (m : (ℓ : Loc nD τ sig) → Buf (Elt F) ℓ) (K : CellIx → ℕ) (c : Dev nD) (v2 v5 v9 v23 v57 : BitVec 32) (Kt : (Σ' (v724 : BitVec 32), BitVec 32) → sProp 𝕄) :
    iprop(Ctx m K ∗ St m c ⟨3, true, 40, 0, 0, 0, 0, 0, 0, 0, 0, 0, 0, 0, 0, 0, 0, 0, 0, 0, 0, 0⟩ ∗ (∀ out, St m c ⟨3, true, 43, 0, 0, 0, 0, 0, 0, 0, 0, 0, 0, 0, 0, 0, 0, 0, 0, 0, 0, 0⟩ -∗ Kt out))
      ⊢ WP c (k0_part21 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part21_eq_skeleton k0_part21_skel

set_option maxRecDepth 65536 in
theorem part_22 (m : (ℓ : Loc nD τ sig) → Buf (Elt F) ℓ) (K : CellIx → ℕ) (c : Dev nD) (v2 v5 v9 v23 v57 v724 c5504_i32 : BitVec 32) (Kt : (BitVec 32) → sProp 𝕄) :
    iprop(Ctx m K ∗ St m c ⟨3, true, 43, 0, 0, 0, 0, 0, 0, 0, 0, 0, 0, 0, 0, 0, 0, 0, 0, 0, 0, 0⟩ ∗ (∀ out, St m c ⟨3, true, 45, 0, 0, 0, 0, 0, 0, 0, 0, 0, 0, 0, 0, 0, 0, 0, 0, 0, 0, 0⟩ -∗ Kt out))
      ⊢ WP c (k0_part22 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v724 c5504_i32) Kt := by
  ag_part k0_part22_eq_skeleton k0_part22_skel

set_option maxRecDepth 65536 in
theorem part_23 (m : (ℓ : Loc nD τ sig) → Buf (Elt F) ℓ) (K : CellIx → ℕ) (c : Dev nD) (v2 v5 v9 v23 v57 v758 : BitVec 32) (Kt : (PUnit) → sProp 𝕄) :
    iprop(Ctx m K ∗ St m c ⟨3, true, 45, 0, 0, 0, 0, 0, 0, 0, 0, 0, 0, 0, 0, 0, 0, 0, 0, 0, 0, 0⟩ ∗ (∀ out, St m c ⟨3, true, 47, 0, 0, 0, 0, 0, 0, 0, 0, 0, 0, 0, 0, 0, 0, 0, 0, 0, 0, 0⟩ -∗ Kt out))
      ⊢ WP c (k0_part23 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v758) Kt := by
  ag_part k0_part23_eq_skeleton k0_part23_skel

set_option maxRecDepth 65536 in
theorem part_24 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 47, 0, 0, 0, 0, 0, 0, 0, 0, 0, 0, 0, 0, 0, 0, 0, 0, 0, 0, 0⟩ ∗ (∀ out, St m c ⟨3, true, 50, 0, 0, 0, 0, 0, 0, 0, 0, 0, 0, 0, 0, 0, 0, 0, 0, 0, 0, 0⟩ -∗ Kt out))
      ⊢ WP c (k0_part24 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part24_eq_skeleton k0_part24_skel

set_option maxRecDepth 65536 in
theorem part_25 (m : (ℓ : Loc nD τ sig) → Buf (Elt F) ℓ) (K : CellIx → ℕ) (c : Dev nD) (v2 v5 v9 v23 v57 c8192_i32_453 : BitVec 32) (Kt : (BitVec 32) → sProp 𝕄) :
    iprop(Ctx m K ∗ St m c ⟨3, true, 50, 0, 0, 0, 0, 0, 0, 0, 0, 0, 0, 0, 0, 0, 0, 0, 0, 0, 0, 0⟩ ∗ (∀ out, St m c ⟨3, true, 52, 0, 0, 0, 0, 0, 0, 0, 0, 0, 0, 0, 0, 0, 0, 0, 0, 0, 0, 0⟩ -∗ Kt out))
      ⊢ WP c (k0_part25 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 c8192_i32_453) Kt := by
  ag_part k0_part25_eq_skeleton k0_part25_skel

set_option maxRecDepth 65536 in
theorem part_26 (m : (ℓ : Loc nD τ sig) → Buf (Elt F) ℓ) (K : CellIx → ℕ) (c : Dev nD) (v2 v5 v9 v23 v57 v862 : BitVec 32) (Kt : (PUnit) → sProp 𝕄) :
    iprop(Ctx m K ∗ St m c ⟨3, true, 52, 0, 0, 0, 0, 0, 0, 0, 0, 0, 0, 0, 0, 0, 0, 0, 0, 0, 0, 0⟩ ∗ (∀ out, St m c ⟨3, true, 54, 0, 0, 0, 0, 0, 0, 0, 0, 0, 0, 0, 0, 0, 0, 0, 0, 0, 0, 0⟩ -∗ Kt out))
      ⊢ WP c (k0_part26 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v862) Kt := by
  ag_part k0_part26_eq_skeleton k0_part26_skel

set_option maxRecDepth 65536 in
theorem part_27 (m : (ℓ : Loc nD τ sig) → Buf (Elt F) ℓ) (K : CellIx → ℕ) (c : Dev nD) (v2 v5 v9 v23 v57 : BitVec 32) (Kt : (PUnit) → sProp 𝕄) :
    iprop(Ctx m K ∗ St m c ⟨3, true, 54, 0, 0, 0, 0, 0, 0, 0, 0, 0, 0, 0, 0, 0, 0, 0, 0, 0, 0, 0⟩ ∗ (∀ out, St m c ⟨3, true, 56, 0, 0, 0, 0, 0, 0, 0, 0, 0, 0, 0, 0, 0, 0, 0, 0, 0, 0, 0⟩ -∗ Kt out))
      ⊢ WP c (k0_part27 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part27_eq_skeleton k0_part27_skel

set_option maxRecDepth 65536 in
theorem part_28 (m : (ℓ : Loc nD τ sig) → Buf (Elt F) ℓ) (K : CellIx → ℕ) (c : Dev nD) (v2 v5 v9 v23 v57 : BitVec 32) (Kt : (PUnit) → sProp 𝕄) :
    iprop(Ctx m K ∗ St m c ⟨3, true, 56, 0, 0, 0, 0, 0, 0, 0, 0, 0, 0, 0, 0, 0, 0, 0, 0, 0, 0, 0⟩ ∗ (∀ out, St m c ⟨3, true, 59, 0, 0, 0, 0, 0, 0, 0, 0, 0, 0, 0, 0, 0, 0, 0, 0, 0, 0, 0⟩ -∗ Kt out))
      ⊢ WP c (k0_part28 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part28_eq_skeleton k0_part28_skel

set_option maxRecDepth 65536 in
theorem part_29 (m : (ℓ : Loc nD τ sig) → Buf (Elt F) ℓ) (K : CellIx → ℕ) (c : Dev nD) (v2 v5 v9 v23 v57 : BitVec 32) (Kt : (Σ' (v1000 : BitVec 32), BitVec 32) → sProp 𝕄) :
    iprop(Ctx m K ∗ St m c ⟨3, true, 59, 0, 0, 0, 0, 0, 0, 0, 0, 0, 0, 0, 0, 0, 0, 0, 0, 0, 0, 0⟩ ∗ (∀ out, St m c ⟨3, true, 61, 0, 0, 0, 0, 0, 0, 0, 0, 0, 0, 0, 0, 0, 0, 0, 0, 0, 0, 0⟩ -∗ Kt out))
      ⊢ WP c (k0_part29 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part29_eq_skeleton k0_part29_skel

set_option maxRecDepth 65536 in
theorem part_30 (m : (ℓ : Loc nD τ sig) → Buf (Elt F) ℓ) (K : CellIx → ℕ) (c : Dev nD) (v2 v5 v9 v23 v57 v1000 c1_i32_546 : BitVec 32) (Kt : (PUnit) → sProp 𝕄) :
    iprop(Ctx m K ∗ St m c ⟨3, true, 61, 0, 0, 0, 0, 0, 0, 0, 0, 0, 0, 0, 0, 0, 0, 0, 0, 0, 0, 0⟩ ∗ (∀ out, St m c ⟨3, true, 63, 0, 0, 0, 0, 0, 0, 0, 0, 0, 0, 0, 0, 0, 0, 0, 0, 0, 0, 0⟩ -∗ Kt out))
      ⊢ WP c (k0_part30 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v1000 c1_i32_546) Kt := by
  ag_part k0_part30_eq_skeleton k0_part30_skel

set_option maxRecDepth 65536 in
theorem part_31 (m : (ℓ : Loc nD τ sig) → Buf (Elt F) ℓ) (K : CellIx → ℕ) (c : Dev nD) (v2 v5 v9 v56 v57 : BitVec 32) (Kt : (PUnit) → sProp 𝕄) :
    iprop(Ctx m K ∗ St m c ⟨3, true, 63, 0, 0, 0, 0, 0, 0, 0, 0, 0, 0, 0, 0, 0, 0, 0, 0, 0, 0, 0⟩ ∗ (∀ out, St m c ⟨3, true, 66, 0, 0, 0, 0, 0, 0, 0, 0, 0, 0, 0, 0, 0, 0, 0, 0, 0, 0, 0⟩ -∗ Kt out))
      ⊢ WP c (k0_part31 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57) Kt := by
  ag_part k0_part31_eq_skeleton k0_part31_skel

set_option maxRecDepth 65536 in
theorem part_32 (m : (ℓ : Loc nD τ sig) → Buf (Elt F) ℓ) (K : CellIx → ℕ) (c : Dev nD) (v2 v5 v9 v56 v57 : BitVec 32) (Kt : (Σ' (v1103 : BitVec 32), BitVec 32) → sProp 𝕄) :
    iprop(Ctx m K ∗ St m c ⟨3, true, 66, 0, 0, 0, 0, 0, 0, 0, 0, 0, 0, 0, 0, 0, 0, 0, 0, 0, 0, 0⟩ ∗ (∀ out, St m c ⟨3, true, 68, 0, 0, 0, 0, 0, 0, 0, 0, 0, 0, 0, 0, 0, 0, 0, 0, 0, 0, 0⟩ -∗ Kt out))
      ⊢ WP c (k0_part32 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57) Kt := by
  ag_part k0_part32_eq_skeleton k0_part32_skel

set_option maxRecDepth 65536 in
theorem part_33 (m : (ℓ : Loc nD τ sig) → Buf (Elt F) ℓ) (K : CellIx → ℕ) (c : Dev nD) (v2 v5 v9 v56 v57 v1103 v1104 : BitVec 32) (Kt : (PUnit) → sProp 𝕄) :
    iprop(Ctx m K ∗ St m c ⟨3, true, 68, 0, 0, 0, 0, 0, 0, 0, 0, 0, 0, 0, 0, 0, 0, 0, 0, 0, 0, 0⟩ ∗ (∀ out, St m c ⟨3, true, 70, 0, 0, 0, 0, 0, 0, 0, 0, 0, 0, 0, 0, 0, 0, 0, 0, 0, 0, 0⟩ -∗ Kt out))
      ⊢ WP c (k0_part33 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57 v1103 v1104) Kt := by
  ag_part k0_part33_eq_skeleton k0_part33_skel

set_option maxRecDepth 65536 in
theorem part_34 (m : (ℓ : Loc nD τ sig) → Buf (Elt F) ℓ) (K : CellIx → ℕ) (c : Dev nD) (v2 v5 v9 v56 v57 : BitVec 32) (Kt : (Σ' (v1174 : BitVec 32), BitVec 32) → sProp 𝕄) :
    iprop(Ctx m K ∗ St m c ⟨3, true, 70, 0, 0, 0, 0, 0, 0, 0, 0, 0, 0, 0, 0, 0, 0, 0, 0, 0, 0, 0⟩ ∗ (∀ out, St m c ⟨3, true, 73, 0, 0, 0, 0, 0, 0, 0, 0, 0, 0, 0, 0, 0, 0, 0, 0, 0, 0, 0⟩ -∗ Kt out))
      ⊢ WP c (k0_part34 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57) Kt := by
  ag_part k0_part34_eq_skeleton k0_part34_skel

set_option maxRecDepth 65536 in
theorem part_35 (m : (ℓ : Loc nD τ sig) → Buf (Elt F) ℓ) (K : CellIx → ℕ) (c : Dev nD) (v2 v5 v9 v56 v57 v1174 c6784_i32_647 : BitVec 32) (Kt : (BitVec 32) → sProp 𝕄) :
    iprop(Ctx m K ∗ St m c ⟨3, true, 73, 0, 0, 0, 0, 0, 0, 0, 0, 0, 0, 0, 0, 0, 0, 0, 0, 0, 0, 0⟩ ∗ (∀ out, St m c ⟨3, true, 75, 0, 0, 0, 0, 0, 0, 0, 0, 0, 0, 0, 0, 0, 0, 0, 0, 0, 0, 0⟩ -∗ Kt out))
      ⊢ WP c (k0_part35 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57 v1174 c6784_i32_647) Kt := by
  ag_part k0_part35_eq_skeleton k0_part35_skel

set_option maxRecDepth 65536 in
theorem part_36 (m : (ℓ : Loc nD τ sig) → Buf (Elt F) ℓ) (K : CellIx → ℕ) (c : Dev nD) (v2 v5 v9 v56 v57 v1208 : BitVec 32) (Kt : (PUnit) → sProp 𝕄) :
    iprop(Ctx m K ∗ St m c ⟨3, true, 75, 0, 0, 0, 0, 0, 0, 0, 0, 0, 0, 0, 0, 0, 0, 0, 0, 0, 0, 0⟩ ∗ (∀ out, St m c ⟨3, true, 77, 0, 0, 0, 0, 0, 0, 0, 0, 0, 0, 0, 0, 0, 0, 0, 0, 0, 0, 0⟩ -∗ Kt out))
      ⊢ WP c (k0_part36 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57 v1208) Kt := by
  ag_part k0_part36_eq_skeleton k0_part36_skel

set_option maxRecDepth 65536 in
theorem part_37 (m : (ℓ : Loc nD τ sig) → Buf (Elt F) ℓ) (K : CellIx → ℕ) (c : Dev nD) (v2 v5 v9 v56 v57 : BitVec 32) (Kt : (BitVec 32) → sProp 𝕄) :
    iprop(Ctx m K ∗ St m c ⟨3, true, 77, 0, 0, 0, 0, 0, 0, 0, 0, 0, 0, 0, 0, 0, 0, 0, 0, 0, 0, 0⟩ ∗ (∀ out, St m c ⟨3, true, 80, 0, 0, 0, 0, 0, 0, 0, 0, 0, 0, 0, 0, 0, 0, 0, 0, 0, 0, 0⟩ -∗ Kt out))
      ⊢ WP c (k0_part37 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57) Kt := by
  ag_part k0_part37_eq_skeleton k0_part37_skel

set_option maxRecDepth 65536 in
theorem part_38 (m : (ℓ : Loc nD τ sig) → Buf (Elt F) ℓ) (K : CellIx → ℕ) (c : Dev nD) (v2 v5 v9 v56 v57 c8192_i32_709 : BitVec 32) (Kt : (BitVec 32) → sProp 𝕄) :
    iprop(Ctx m K ∗ St m c ⟨3, true, 80, 0, 0, 0, 0, 0, 0, 0, 0, 0, 0, 0, 0, 0, 0, 0, 0, 0, 0, 0⟩ ∗ (∀ out, St m c ⟨3, true, 82, 0, 0, 0, 0, 0, 0, 0, 0, 0, 0, 0, 0, 0, 0, 0, 0, 0, 0, 0⟩ -∗ Kt out))
      ⊢ WP c (k0_part38 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57 c8192_i32_709) Kt := by
  ag_part k0_part38_eq_skeleton k0_part38_skel

set_option maxRecDepth 65536 in
theorem part_39 (m : (ℓ : Loc nD τ sig) → Buf (Elt F) ℓ) (K : CellIx → ℕ) (c : Dev nD) (v2 v5 v9 v56 v57 v1312 : BitVec 32) (Kt : (PUnit) → sProp 𝕄) :
    iprop(Ctx m K ∗ St m c ⟨3, true, 82, 0, 0, 0, 0, 0, 0, 0, 0, 0, 0, 0, 0, 0, 0, 0, 0, 0, 0, 0⟩ ∗ (∀ out, St m c ⟨3, true, 84, 0, 0, 0, 0, 0, 0, 0, 0, 0, 0, 0, 0, 0, 0, 0, 0, 0, 0, 0⟩ -∗ Kt out))
      ⊢ WP c (k0_part39 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v56 v57 v1312) Kt := by
  ag_part k0_part39_eq_skeleton k0_part39_skel

set_option maxRecDepth 65536 in
theorem part_40 (m : (ℓ : Loc nD τ sig) → Buf (Elt F) ℓ) (K : CellIx → ℕ) (c : Dev nD) (v8 v12 v14 v16 v18 v23 v59 : BitVec 32) (Kt : (PUnit) → sProp 𝕄) :
    iprop(Ctx m K ∗ St m c ⟨3, true, 84, 0, 0, 0, 0, 0, 0, 0, 0, 0, 0, 0, 0, 0, 0, 0, 0, 0, 0, 0⟩ ∗ (∀ out, St m c ⟨3, true, 84, 0, 1, 0, 1, 1, 0, 0, 0, 0, 0, 0, 0, 0, 0, 0, 0, 0, 0, 0⟩ -∗ Kt out))
      ⊢ WP c (k0_part40 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v23 v59) Kt := by
  ag_part k0_part40_eq_skeleton k0_part40_skel

set_option maxRecDepth 65536 in
theorem part_41 (m : (ℓ : Loc nD τ sig) → Buf (Elt F) ℓ) (K : CellIx → ℕ) (c : Dev nD) (v2 v5 v9 v12 v14 v23 v57 v59 : BitVec 32) (Kt : (Σ' (v1408 : BitVec 32), BitVec 32) → sProp 𝕄) :
    iprop(Ctx m K ∗ St m c ⟨3, true, 84, 0, 1, 0, 1, 1, 0, 0, 0, 0, 0, 0, 0, 0, 0, 0, 0, 0, 0, 0⟩ ∗ (∀ out, St m c ⟨3, true, 84, 0, 2, 0, 1, 1, 0, 0, 0, 0, 0, 0, 0, 0, 0, 0, 1, 1, 1, 0⟩ -∗ Kt out))
      ⊢ WP c (k0_part41 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v12 v14 v23 v57 v59) Kt := by
  ag_part k0_part41_eq_skeleton k0_part41_skel

set_option maxRecDepth 65536 in
theorem part_42 (m : (ℓ : Loc nD τ sig) → Buf (Elt F) ℓ) (K : CellIx → ℕ) (c : Dev nD) (v8 v16 v18 v57 v1408 c1_i32_804 : BitVec 32) (Kt : (PUnit) → sProp 𝕄) :
    iprop(Ctx m K ∗ St m c ⟨3, true, 84, 0, 2, 0, 1, 1, 0, 0, 0, 0, 0, 0, 0, 0, 0, 0, 1, 1, 1, 0⟩ ∗ (∀ out, St m c ⟨3, true, 84, 0, 2, 0, 2, 2, 0, 0, 0, 0, 0, 0, 0, 0, 0, 0, 2, 2, 1, 0⟩ -∗ Kt out))
      ⊢ WP c (k0_part42 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v57 v1408 c1_i32_804) Kt := by
  ag_part k0_part42_eq_skeleton k0_part42_skel

set_option maxRecDepth 65536 in
theorem part_43 (m : (ℓ : Loc nD τ sig) → Buf (Elt F) ℓ) (K : CellIx → ℕ) (c : Dev nD) (v2 v5 v8 v9 v12 v14 v16 v23 v59 : BitVec 32) (Kt : (BitVec 32) → sProp 𝕄) :
    iprop(Ctx m K ∗ St m c ⟨3, true, 84, 0, 2, 0, 2, 2, 0, 0, 0, 0, 0, 0, 0, 0, 0, 0, 2, 2, 1, 0⟩ ∗ (∀ out, St m c ⟨3, true, 84, 0, 3, 0, 3, 2, 0, 0, 0, 0, 0, 0, 0, 0, 0, 0, 2, 2, 2, 0⟩ -∗ Kt out))
      ⊢ WP c (k0_part43 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v23 v59) Kt := by
  ag_part k0_part43_eq_skeleton k0_part43_skel

set_option maxRecDepth 65536 in
theorem part_44 (m : (ℓ : Loc nD τ sig) → Buf (Elt F) ℓ) (K : CellIx → ℕ) (c : Dev nD) (v8 v18 v57 v1471 : BitVec 32) (Kt : (PUnit) → sProp 𝕄) :
    iprop(Ctx m K ∗ St m c ⟨3, true, 84, 0, 3, 0, 3, 2, 0, 0, 0, 0, 0, 0, 0, 0, 0, 0, 2, 2, 2, 0⟩ ∗ (∀ out, St m c ⟨3, true, 84, 0, 3, 0, 3, 3, 0, 0, 0, 0, 0, 0, 0, 0, 0, 0, 3, 3, 2, 1⟩ -∗ Kt out))
      ⊢ WP c (k0_part44 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v18 v57 v1471) Kt := by
  ag_part k0_part44_eq_skeleton k0_part44_skel

set_option maxRecDepth 65536 in
theorem part_45 (m : (ℓ : Loc nD τ sig) → Buf (Elt F) ℓ) (K : CellIx → ℕ) (c : Dev nD) (v2 v5 v8 v9 v12 v14 v16 v18 v23 v59 : BitVec 32) (Kt : (PUnit) → sProp 𝕄) :
    iprop(Ctx m K ∗ St m c ⟨3, true, 84, 0, 3, 0, 3, 3, 0, 0, 0, 0, 0, 0, 0, 0, 0, 0, 3, 3, 2, 1⟩ ∗ (∀ out, St m c ⟨3, true, 84, 0, 4, 0, 4, 3, 0, 0, 0, 0, 0, 0, 0, 0, 0, 0, 3, 3, 3, 1⟩ -∗ Kt out))
      ⊢ WP c (k0_part45 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59) Kt := by
  ag_part k0_part45_eq_skeleton k0_part45_skel

set_option maxRecDepth 65536 in
theorem part_46 (m : (ℓ : Loc nD τ sig) → Buf (Elt F) ℓ) (K : CellIx → ℕ) (c : Dev nD) (v57 : BitVec 32) (Kt : (BitVec 32) → sProp 𝕄) :
    iprop(Ctx m K ∗ St m c ⟨3, true, 84, 0, 4, 0, 4, 3, 0, 0, 0, 0, 0, 0, 0, 0, 0, 0, 3, 3, 3, 1⟩ ∗ (∀ out, St m c ⟨3, true, 84, 0, 4, 0, 4, 4, 0, 0, 0, 0, 0, 0, 0, 0, 0, 0, 4, 4, 4, 2⟩ -∗ Kt out))
      ⊢ WP c (k0_part46 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v57) Kt := by
  ag_part k0_part46_eq_skeleton k0_part46_skel

set_option maxRecDepth 65536 in
theorem part_47 (m : (ℓ : Loc nD τ sig) → Buf (Elt F) ℓ) (K : CellIx → ℕ) (c : Dev nD) (v2 v5 v8 v9 v12 v14 v16 v18 v23 v59 c4_i32_933 : BitVec 32) (Kt : (PUnit) → sProp 𝕄) :
    iprop(Ctx m K ∗ St m c ⟨3, true, 84, 0, 4, 0, 4, 4, 0, 0, 0, 0, 0, 0, 0, 0, 0, 0, 4, 4, 4, 2⟩ ∗ (∀ out, St m c ⟨3, true, 84, 0, 5, 0, 5, 4, 0, 0, 0, 0, 0, 0, 0, 0, 0, 0, 4, 4, 4, 2⟩ -∗ Kt out))
      ⊢ WP c (k0_part47 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59 c4_i32_933) Kt := by
  ag_part k0_part47_eq_skeleton k0_part47_skel

set_option maxRecDepth 65536 in
theorem part_48 (m : (ℓ : Loc nD τ sig) → Buf (Elt F) ℓ) (K : CellIx → ℕ) (c : Dev nD) (v2 v5 v57 : BitVec 32) (Kt : (BitVec 32) → sProp 𝕄) :
    iprop(Ctx m K ∗ St m c ⟨3, true, 84, 0, 5, 0, 5, 4, 0, 0, 0, 0, 0, 0, 0, 0, 0, 0, 4, 4, 4, 2⟩ ∗ (∀ out, St m c ⟨3, true, 84, 0, 5, 0, 5, 5, 0, 0, 0, 0, 0, 0, 0, 0, 0, 0, 5, 5, 5, 3⟩ -∗ Kt out))
      ⊢ WP c (k0_part48 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v57) Kt := by
  ag_part k0_part48_eq_skeleton k0_part48_skel

set_option maxRecDepth 65536 in
theorem part_49 (m : (ℓ : Loc nD τ sig) → Buf (Elt F) ℓ) (K : CellIx → ℕ) (c : Dev nD) (v8 v9 v12 v14 v16 v18 v23 v59 v1622 : BitVec 32) (Kt : (PUnit) → sProp 𝕄) :
    iprop(Ctx m K ∗ St m c ⟨3, true, 84, 0, 5, 0, 5, 5, 0, 0, 0, 0, 0, 0, 0, 0, 0, 0, 5, 5, 5, 3⟩ ∗ (∀ out, St m c ⟨3, true, 84, 0, 6, 0, 6, 6, 0, 0, 0, 0, 0, 0, 0, 0, 0, 0, 5, 5, 5, 3⟩ -∗ Kt out))
      ⊢ WP c (k0_part49 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v9 v12 v14 v16 v18 v23 v59 v1622) Kt := by
  ag_part k0_part49_eq_skeleton k0_part49_skel

set_option maxRecDepth 65536 in
theorem part_50 (m : (ℓ : Loc nD τ sig) → Buf (Elt F) ℓ) (K : CellIx → ℕ) (c : Dev nD) (v2 v5 v9 v57 : BitVec 32) (Kt : (PUnit) → sProp 𝕄) :
    iprop(Ctx m K ∗ St m c ⟨3, true, 84, 0, 6, 0, 6, 6, 0, 0, 0, 0, 0, 0, 0, 0, 0, 0, 5, 5, 5, 3⟩ ∗ (∀ out, St m c ⟨3, true, 84, 0, 6, 0, 6, 6, 0, 0, 0, 0, 0, 0, 0, 0, 0, 0, 6, 6, 6, 4⟩ -∗ Kt out))
      ⊢ WP c (k0_part50 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v57) Kt := by
  ag_part k0_part50_eq_skeleton k0_part50_skel

set_option maxRecDepth 65536 in
theorem part_51 (m : (ℓ : Loc nD τ sig) → Buf (Elt F) ℓ) (K : CellIx → ℕ) (c : Dev nD) (v8 v12 v14 v16 v18 v23 v59 : BitVec 32) (Kt : (PUnit) → sProp 𝕄) :
    iprop(Ctx m K ∗ St m c ⟨3, true, 84, 0, 6, 0, 6, 6, 0, 0, 0, 0, 0, 0, 0, 0, 0, 0, 6, 6, 6, 4⟩ ∗ (∀ out, St m c ⟨3, true, 84, 0, 7, 0, 7, 7, 0, 0, 0, 0, 0, 0, 0, 0, 0, 0, 6, 6, 6, 4⟩ -∗ Kt out))
      ⊢ WP c (k0_part51 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v23 v59) Kt := by
  ag_part k0_part51_eq_skeleton k0_part51_skel

set_option maxRecDepth 65536 in
theorem part_52 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 84, 0, 7, 0, 7, 7, 0, 0, 0, 0, 0, 0, 0, 0, 0, 0, 6, 6, 6, 4⟩ ∗ (∀ out, St m c ⟨3, true, 84, 0, 8, 0, 7, 7, 0, 0, 0, 0, 0, 0, 0, 0, 0, 0, 7, 7, 7, 5⟩ -∗ Kt out))
      ⊢ WP c (k0_part52 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part52_eq_skeleton k0_part52_skel

set_option maxRecDepth 65536 in
theorem part_53 (m : (ℓ : Loc nD τ sig) → Buf (Elt F) ℓ) (K : CellIx → ℕ) (c : Dev nD) (v8 v12 v14 v16 v18 v59 v1745 : BitVec 32) (Kt : (PUnit) → sProp 𝕄) :
    iprop(Ctx m K ∗ St m c ⟨3, true, 84, 0, 8, 0, 7, 7, 0, 0, 0, 0, 0, 0, 0, 0, 0, 0, 7, 7, 7, 5⟩ ∗ (∀ out, St m c ⟨3, true, 84, 0, 8, 0, 8, 8, 0, 0, 0, 0, 0, 0, 0, 0, 0, 0, 7, 7, 7, 6⟩ -∗ Kt out))
      ⊢ WP c (k0_part53 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v59 v1745) Kt := by
  ag_part k0_part53_eq_skeleton k0_part53_skel

set_option maxRecDepth 65536 in
theorem part_54 (m : (ℓ : Loc nD τ sig) → Buf (Elt F) ℓ) (K : CellIx → ℕ) (c : Dev nD) (v2 v5 v9 v23 v57 v59 : BitVec 32) (Kt : (BitVec 32) → sProp 𝕄) :
    iprop(Ctx m K ∗ St m c ⟨3, true, 84, 0, 8, 0, 8, 8, 0, 0, 0, 0, 0, 0, 0, 0, 0, 0, 7, 7, 7, 6⟩ ∗ (∀ out, St m c ⟨3, true, 84, 0, 9, 0, 8, 8, 0, 0, 0, 0, 0, 0, 0, 0, 0, 0, 8, 8, 8, 6⟩ -∗ Kt out))
      ⊢ WP c (k0_part54 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v59) Kt := by
  ag_part k0_part54_eq_skeleton k0_part54_skel

set_option maxRecDepth 65536 in
theorem part_55 (m : (ℓ : Loc nD τ sig) → Buf (Elt F) ℓ) (K : CellIx → ℕ) (c : Dev nD) (v8 v12 v14 v16 v18 c4_i32_1139 : BitVec 32) (Kt : (PUnit) → sProp 𝕄) :
    iprop(Ctx m K ∗ St m c ⟨3, true, 84, 0, 9, 0, 8, 8, 0, 0, 0, 0, 0, 0, 0, 0, 0, 0, 8, 8, 8, 6⟩ ∗ (∀ out, St m c ⟨3, true, 84, 0, 9, 0, 9, 9, 0, 0, 0, 0, 0, 0, 0, 0, 0, 0, 8, 8, 8, 7⟩ -∗ Kt out))
      ⊢ WP c (k0_part55 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 c4_i32_1139) Kt := by
  ag_part k0_part55_eq_skeleton k0_part55_skel

set_option maxRecDepth 65536 in
theorem part_56 (m : (ℓ : Loc nD τ sig) → Buf (Elt F) ℓ) (K : CellIx → ℕ) (c : Dev nD) (v2 v5 v9 v12 v14 v23 v57 v59 : BitVec 32) (Kt : (BitVec 32) → sProp 𝕄) :
    iprop(Ctx m K ∗ St m c ⟨3, true, 84, 0, 9, 0, 9, 9, 0, 0, 0, 0, 0, 0, 0, 0, 0, 0, 8, 8, 8, 7⟩ ∗ (∀ out, St m c ⟨3, true, 84, 0, 10, 0, 9, 9, 0, 0, 0, 0, 0, 0, 0, 0, 0, 0, 9, 9, 9, 7⟩ -∗ Kt out))
      ⊢ WP c (k0_part56 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v12 v14 v23 v57 v59) Kt := by
  ag_part k0_part56_eq_skeleton k0_part56_skel

set_option maxRecDepth 65536 in
theorem part_57 (m : (ℓ : Loc nD τ sig) → Buf (Elt F) ℓ) (K : CellIx → ℕ) (c : Dev nD) (v8 v16 v18 v1867 : BitVec 32) (Kt : (PUnit) → sProp 𝕄) :
    iprop(Ctx m K ∗ St m c ⟨3, true, 84, 0, 10, 0, 9, 9, 0, 0, 0, 0, 0, 0, 0, 0, 0, 0, 9, 9, 9, 7⟩ ∗ (∀ out, St m c ⟨3, true, 84, 0, 10, 0, 10, 10, 0, 0, 0, 0, 0, 0, 0, 0, 0, 0, 10, 9, 9, 8⟩ -∗ Kt out))
      ⊢ WP c (k0_part57 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v1867) Kt := by
  ag_part k0_part57_eq_skeleton k0_part57_skel

set_option maxRecDepth 65536 in
theorem part_58 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 10, 0, 10, 10, 0, 0, 0, 0, 0, 0, 0, 0, 0, 0, 10, 9, 9, 8⟩ ∗ (∀ out, St m c ⟨3, true, 84, 0, 11, 0, 10, 10, 0, 0, 0, 0, 0, 0, 0, 0, 0, 0, 10, 10, 10, 8⟩ -∗ Kt out))
      ⊢ WP c (k0_part58 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part58_eq_skeleton k0_part58_skel

set_option maxRecDepth 65536 in
theorem part_59 (m : (ℓ : Loc nD τ sig) → Buf (Elt F) ℓ) (K : CellIx → ℕ) (c : Dev nD) (v8 v16 v18 : BitVec 32) (Kt : (PUnit) → sProp 𝕄) :
    iprop(Ctx m K ∗ St m c ⟨3, true, 84, 0, 11, 0, 10, 10, 0, 0, 0, 0, 0, 0, 0, 0, 0, 0, 10, 10, 10, 8⟩ ∗ (∀ out, St m c ⟨3, true, 84, 0, 11, 0, 11, 11, 0, 0, 0, 0, 0, 0, 0, 0, 0, 0, 11, 10, 10, 9⟩ -∗ Kt out))
      ⊢ WP c (k0_part59 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18) Kt := by
  ag_part k0_part59_eq_skeleton k0_part59_skel

set_option maxRecDepth 65536 in
theorem part_60 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 11, 0, 11, 11, 0, 0, 0, 0, 0, 0, 0, 0, 0, 0, 11, 10, 10, 9⟩ ∗ (∀ out, St m c ⟨3, true, 84, 0, 12, 0, 12, 11, 0, 0, 0, 0, 0, 0, 0, 0, 0, 0, 11, 11, 11, 9⟩ -∗ Kt out))
      ⊢ WP c (k0_part60 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part60_eq_skeleton k0_part60_skel

set_option maxRecDepth 65536 in
theorem part_61 (m : (ℓ : Loc nD τ sig) → Buf (Elt F) ℓ) (K : CellIx → ℕ) (c : Dev nD) (v8 v16 v18 v57 : BitVec 32) (Kt : (PUnit) → sProp 𝕄) :
    iprop(Ctx m K ∗ St m c ⟨3, true, 84, 0, 12, 0, 12, 11, 0, 0, 0, 0, 0, 0, 0, 0, 0, 0, 11, 11, 11, 9⟩ ∗ (∀ out, St m c ⟨3, true, 84, 0, 12, 0, 12, 12, 0, 0, 0, 0, 0, 0, 0, 0, 0, 0, 12, 12, 11, 10⟩ -∗ Kt out))
      ⊢ WP c (k0_part61 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v57) Kt := by
  ag_part k0_part61_eq_skeleton k0_part61_skel

set_option maxRecDepth 65536 in
theorem part_62 (m : (ℓ : Loc nD τ sig) → Buf (Elt F) ℓ) (K : CellIx → ℕ) (c : Dev nD) (v2 v5 v8 v9 v12 v14 v16 v23 v59 : BitVec 32) (Kt : (BitVec 32) → sProp 𝕄) :
    iprop(Ctx m K ∗ St m c ⟨3, true, 84, 0, 12, 0, 12, 12, 0, 0, 0, 0, 0, 0, 0, 0, 0, 0, 12, 12, 11, 10⟩ ∗ (∀ out, St m c ⟨3, true, 84, 0, 13, 0, 13, 12, 0, 0, 0, 0, 0, 0, 0, 0, 0, 0, 12, 12, 12, 10⟩ -∗ Kt out))
      ⊢ WP c (k0_part62 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v23 v59) Kt := by
  ag_part k0_part62_eq_skeleton k0_part62_skel

set_option maxRecDepth 65536 in
theorem part_63 (m : (ℓ : Loc nD τ sig) → Buf (Elt F) ℓ) (K : CellIx → ℕ) (c : Dev nD) (v8 v18 v57 v2051 : BitVec 32) (Kt : (PUnit) → sProp 𝕄) :
    iprop(Ctx m K ∗ St m c ⟨3, true, 84, 0, 13, 0, 13, 12, 0, 0, 0, 0, 0, 0, 0, 0, 0, 0, 12, 12, 12, 10⟩ ∗ (∀ out, St m c ⟨3, true, 84, 0, 13, 0, 13, 13, 0, 0, 0, 0, 0, 0, 0, 0, 0, 0, 13, 13, 12, 11⟩ -∗ Kt out))
      ⊢ WP c (k0_part63 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v18 v57 v2051) Kt := by
  ag_part k0_part63_eq_skeleton k0_part63_skel

set_option maxRecDepth 65536 in
theorem part_64 (m : (ℓ : Loc nD τ sig) → Buf (Elt F) ℓ) (K : CellIx → ℕ) (c : Dev nD) (v2 v5 v8 v9 v12 v14 v16 v18 v23 v59 : BitVec 32) (Kt : (PUnit) → sProp 𝕄) :
    iprop(Ctx m K ∗ St m c ⟨3, true, 84, 0, 13, 0, 13, 13, 0, 0, 0, 0, 0, 0, 0, 0, 0, 0, 13, 13, 12, 11⟩ ∗ (∀ out, St m c ⟨3, true, 84, 0, 14, 0, 14, 13, 0, 0, 0, 0, 0, 0, 0, 0, 0, 0, 13, 13, 13, 11⟩ -∗ Kt out))
      ⊢ WP c (k0_part64 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59) Kt := by
  ag_part k0_part64_eq_skeleton k0_part64_skel

set_option maxRecDepth 65536 in
theorem part_65 (m : (ℓ : Loc nD τ sig) → Buf (Elt F) ℓ) (K : CellIx → ℕ) (c : Dev nD) (v57 : BitVec 32) (Kt : (BitVec 32) → sProp 𝕄) :
    iprop(Ctx m K ∗ St m c ⟨3, true, 84, 0, 14, 0, 14, 13, 0, 0, 0, 0, 0, 0, 0, 0, 0, 0, 13, 13, 13, 11⟩ ∗ (∀ out, St m c ⟨3, true, 84, 0, 14, 0, 14, 14, 0, 0, 0, 0, 0, 0, 0, 0, 0, 0, 14, 14, 14, 12⟩ -∗ Kt out))
      ⊢ WP c (k0_part65 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v57) Kt := by
  ag_part k0_part65_eq_skeleton k0_part65_skel

set_option maxRecDepth 65536 in
theorem part_66 (m : (ℓ : Loc nD τ sig) → Buf (Elt F) ℓ) (K : CellIx → ℕ) (c : Dev nD) (v2 v5 v8 v9 v12 v14 v16 v18 v23 v59 c4_i32_1423 : BitVec 32) (Kt : (PUnit) → sProp 𝕄) :
    iprop(Ctx m K ∗ St m c ⟨3, true, 84, 0, 14, 0, 14, 14, 0, 0, 0, 0, 0, 0, 0, 0, 0, 0, 14, 14, 14, 12⟩ ∗ (∀ out, St m c ⟨3, true, 84, 0, 15, 0, 15, 14, 0, 0, 0, 0, 0, 0, 0, 0, 0, 0, 14, 14, 14, 12⟩ -∗ Kt out))
      ⊢ WP c (k0_part66 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59 c4_i32_1423) Kt := by
  ag_part k0_part66_eq_skeleton k0_part66_skel

set_option maxRecDepth 65536 in
theorem part_67 (m : (ℓ : Loc nD τ sig) → Buf (Elt F) ℓ) (K : CellIx → ℕ) (c : Dev nD) (v2 v5 v57 : BitVec 32) (Kt : (BitVec 32) → sProp 𝕄) :
    iprop(Ctx m K ∗ St m c ⟨3, true, 84, 0, 15, 0, 15, 14, 0, 0, 0, 0, 0, 0, 0, 0, 0, 0, 14, 14, 14, 12⟩ ∗ (∀ out, St m c ⟨3, true, 84, 0, 15, 0, 15, 15, 0, 0, 0, 0, 0, 0, 0, 0, 0, 0, 15, 15, 15, 13⟩ -∗ Kt out))
      ⊢ WP c (k0_part67 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v57) Kt := by
  ag_part k0_part67_eq_skeleton k0_part67_skel

set_option maxRecDepth 65536 in
theorem part_68 (m : (ℓ : Loc nD τ sig) → Buf (Elt F) ℓ) (K : CellIx → ℕ) (c : Dev nD) (v8 v9 v12 v14 v16 v18 v23 v59 v2202 : BitVec 32) (Kt : (PUnit) → sProp 𝕄) :
    iprop(Ctx m K ∗ St m c ⟨3, true, 84, 0, 15, 0, 15, 15, 0, 0, 0, 0, 0, 0, 0, 0, 0, 0, 15, 15, 15, 13⟩ ∗ (∀ out, St m c ⟨3, true, 84, 0, 16, 0, 16, 16, 0, 0, 0, 0, 0, 0, 0, 0, 0, 0, 15, 15, 15, 13⟩ -∗ Kt out))
      ⊢ WP c (k0_part68 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v9 v12 v14 v16 v18 v23 v59 v2202) Kt := by
  ag_part k0_part68_eq_skeleton k0_part68_skel

set_option maxRecDepth 65536 in
theorem part_69 (m : (ℓ : Loc nD τ sig) → Buf (Elt F) ℓ) (K : CellIx → ℕ) (c : Dev nD) (v2 v5 v9 v57 : BitVec 32) (Kt : (PUnit) → sProp 𝕄) :
    iprop(Ctx m K ∗ St m c ⟨3, true, 84, 0, 16, 0, 16, 16, 0, 0, 0, 0, 0, 0, 0, 0, 0, 0, 15, 15, 15, 13⟩ ∗ (∀ out, St m c ⟨3, true, 84, 0, 16, 0, 16, 16, 0, 0, 0, 0, 0, 0, 0, 0, 0, 0, 16, 16, 16, 14⟩ -∗ Kt out))
      ⊢ WP c (k0_part69 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v57) Kt := by
  ag_part k0_part69_eq_skeleton k0_part69_skel

set_option maxRecDepth 65536 in
theorem part_70 (m : (ℓ : Loc nD τ sig) → Buf (Elt F) ℓ) (K : CellIx → ℕ) (c : Dev nD) (v8 v12 v14 v16 v18 v23 v59 : BitVec 32) (Kt : (PUnit) → sProp 𝕄) :
    iprop(Ctx m K ∗ St m c ⟨3, true, 84, 0, 16, 0, 16, 16, 0, 0, 0, 0, 0, 0, 0, 0, 0, 0, 16, 16, 16, 14⟩ ∗ (∀ out, St m c ⟨3, true, 84, 0, 17, 0, 17, 17, 0, 0, 0, 0, 0, 0, 0, 0, 0, 0, 16, 16, 16, 14⟩ -∗ Kt out))
      ⊢ WP c (k0_part70 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v23 v59) Kt := by
  ag_part k0_part70_eq_skeleton k0_part70_skel

set_option maxRecDepth 65536 in
theorem part_71 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 84, 0, 17, 0, 17, 17, 0, 0, 0, 0, 0, 0, 0, 0, 0, 0, 16, 16, 16, 14⟩ ∗ (∀ out, St m c ⟨3, true, 84, 0, 18, 0, 17, 17, 0, 0, 0, 0, 0, 0, 0, 0, 0, 0, 17, 17, 17, 15⟩ -∗ Kt out))
      ⊢ WP c (k0_part71 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part71_eq_skeleton k0_part71_skel

set_option maxRecDepth 65536 in
theorem part_72 (m : (ℓ : Loc nD τ sig) → Buf (Elt F) ℓ) (K : CellIx → ℕ) (c : Dev nD) (v8 v12 v14 v16 v18 v59 v2325 : BitVec 32) (Kt : (PUnit) → sProp 𝕄) :
    iprop(Ctx m K ∗ St m c ⟨3, true, 84, 0, 18, 0, 17, 17, 0, 0, 0, 0, 0, 0, 0, 0, 0, 0, 17, 17, 17, 15⟩ ∗ (∀ out, St m c ⟨3, true, 84, 0, 18, 0, 18, 18, 0, 0, 0, 0, 0, 0, 0, 0, 0, 0, 17, 17, 17, 16⟩ -∗ Kt out))
      ⊢ WP c (k0_part72 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v59 v2325) Kt := by
  ag_part k0_part72_eq_skeleton k0_part72_skel

set_option maxRecDepth 65536 in
theorem part_73 (m : (ℓ : Loc nD τ sig) → Buf (Elt F) ℓ) (K : CellIx → ℕ) (c : Dev nD) (v2 v5 v9 v23 v57 v59 : BitVec 32) (Kt : (BitVec 32) → sProp 𝕄) :
    iprop(Ctx m K ∗ St m c ⟨3, true, 84, 0, 18, 0, 18, 18, 0, 0, 0, 0, 0, 0, 0, 0, 0, 0, 17, 17, 17, 16⟩ ∗ (∀ out, St m c ⟨3, true, 84, 0, 19, 0, 18, 18, 0, 0, 0, 0, 0, 0, 0, 0, 0, 0, 18, 18, 18, 16⟩ -∗ Kt out))
      ⊢ WP c (k0_part73 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v59) Kt := by
  ag_part k0_part73_eq_skeleton k0_part73_skel

set_option maxRecDepth 65536 in
theorem part_74 (m : (ℓ : Loc nD τ sig) → Buf (Elt F) ℓ) (K : CellIx → ℕ) (c : Dev nD) (v8 v12 v14 v16 v18 c4_i32_1628 : BitVec 32) (Kt : (PUnit) → sProp 𝕄) :
    iprop(Ctx m K ∗ St m c ⟨3, true, 84, 0, 19, 0, 18, 18, 0, 0, 0, 0, 0, 0, 0, 0, 0, 0, 18, 18, 18, 16⟩ ∗ (∀ out, St m c ⟨3, true, 84, 0, 19, 0, 19, 19, 0, 0, 0, 0, 0, 0, 0, 0, 0, 0, 18, 18, 18, 17⟩ -∗ Kt out))
      ⊢ WP c (k0_part74 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 c4_i32_1628) Kt := by
  ag_part k0_part74_eq_skeleton k0_part74_skel

set_option maxRecDepth 65536 in
theorem part_75 (m : (ℓ : Loc nD τ sig) → Buf (Elt F) ℓ) (K : CellIx → ℕ) (c : Dev nD) (v2 v5 v9 v12 v14 v23 v57 v59 : BitVec 32) (Kt : (BitVec 32) → sProp 𝕄) :
    iprop(Ctx m K ∗ St m c ⟨3, true, 84, 0, 19, 0, 19, 19, 0, 0, 0, 0, 0, 0, 0, 0, 0, 0, 18, 18, 18, 17⟩ ∗ (∀ out, St m c ⟨3, true, 84, 0, 20, 0, 19, 19, 0, 0, 0, 0, 0, 0, 0, 0, 0, 0, 19, 19, 19, 17⟩ -∗ Kt out))
      ⊢ WP c (k0_part75 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v12 v14 v23 v57 v59) Kt := by
  ag_part k0_part75_eq_skeleton k0_part75_skel

set_option maxRecDepth 65536 in
theorem part_76 (m : (ℓ : Loc nD τ sig) → Buf (Elt F) ℓ) (K : CellIx → ℕ) (c : Dev nD) (v8 v16 v18 v2447 : BitVec 32) (Kt : (PUnit) → sProp 𝕄) :
    iprop(Ctx m K ∗ St m c ⟨3, true, 84, 0, 20, 0, 19, 19, 0, 0, 0, 0, 0, 0, 0, 0, 0, 0, 19, 19, 19, 17⟩ ∗ (∀ out, St m c ⟨3, true, 84, 0, 20, 0, 20, 20, 0, 0, 0, 0, 0, 0, 0, 0, 0, 0, 20, 19, 19, 18⟩ -∗ Kt out))
      ⊢ WP c (k0_part76 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v2447) Kt := by
  ag_part k0_part76_eq_skeleton k0_part76_skel

set_option maxRecDepth 65536 in
theorem part_77 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 20, 0, 20, 20, 0, 0, 0, 0, 0, 0, 0, 0, 0, 0, 20, 19, 19, 18⟩ ∗ (∀ out, St m c ⟨3, true, 84, 0, 21, 0, 20, 20, 0, 0, 0, 0, 0, 0, 0, 0, 0, 0, 20, 20, 20, 18⟩ -∗ Kt out))
      ⊢ WP c (k0_part77 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part77_eq_skeleton k0_part77_skel

set_option maxRecDepth 65536 in
theorem part_78 (m : (ℓ : Loc nD τ sig) → Buf (Elt F) ℓ) (K : CellIx → ℕ) (c : Dev nD) (v8 v16 v18 : BitVec 32) (Kt : (PUnit) → sProp 𝕄) :
    iprop(Ctx m K ∗ St m c ⟨3, true, 84, 0, 21, 0, 20, 20, 0, 0, 0, 0, 0, 0, 0, 0, 0, 0, 20, 20, 20, 18⟩ ∗ (∀ out, St m c ⟨3, true, 84, 0, 21, 0, 21, 21, 0, 0, 0, 0, 0, 0, 0, 0, 0, 0, 21, 20, 20, 19⟩ -∗ Kt out))
      ⊢ WP c (k0_part78 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18) Kt := by
  ag_part k0_part78_eq_skeleton k0_part78_skel

set_option maxRecDepth 65536 in
theorem part_79 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 21, 0, 21, 21, 0, 0, 0, 0, 0, 0, 0, 0, 0, 0, 21, 20, 20, 19⟩ ∗ (∀ out, St m c ⟨3, true, 84, 0, 22, 0, 22, 21, 0, 0, 0, 0, 0, 0, 0, 0, 0, 0, 21, 21, 21, 19⟩ -∗ Kt out))
      ⊢ WP c (k0_part79 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part79_eq_skeleton k0_part79_skel

set_option maxRecDepth 65536 in
theorem part_80 (m : (ℓ : Loc nD τ sig) → Buf (Elt F) ℓ) (K : CellIx → ℕ) (c : Dev nD) (v8 v16 v18 v57 : BitVec 32) (Kt : (PUnit) → sProp 𝕄) :
    iprop(Ctx m K ∗ St m c ⟨3, true, 84, 0, 22, 0, 22, 21, 0, 0, 0, 0, 0, 0, 0, 0, 0, 0, 21, 21, 21, 19⟩ ∗ (∀ out, St m c ⟨3, true, 84, 0, 22, 0, 22, 22, 0, 0, 0, 0, 0, 0, 0, 0, 0, 0, 22, 22, 21, 20⟩ -∗ Kt out))
      ⊢ WP c (k0_part80 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v57) Kt := by
  ag_part k0_part80_eq_skeleton k0_part80_skel

set_option maxRecDepth 65536 in
theorem part_81 (m : (ℓ : Loc nD τ sig) → Buf (Elt F) ℓ) (K : CellIx → ℕ) (c : Dev nD) (v2 v5 v8 v9 v12 v14 v16 v23 v59 : BitVec 32) (Kt : (BitVec 32) → sProp 𝕄) :
    iprop(Ctx m K ∗ St m c ⟨3, true, 84, 0, 22, 0, 22, 22, 0, 0, 0, 0, 0, 0, 0, 0, 0, 0, 22, 22, 21, 20⟩ ∗ (∀ out, St m c ⟨3, true, 84, 0, 23, 0, 23, 22, 0, 0, 0, 0, 0, 0, 0, 0, 0, 0, 22, 22, 22, 20⟩ -∗ Kt out))
      ⊢ WP c (k0_part81 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v23 v59) Kt := by
  ag_part k0_part81_eq_skeleton k0_part81_skel

set_option maxRecDepth 65536 in
theorem part_82 (m : (ℓ : Loc nD τ sig) → Buf (Elt F) ℓ) (K : CellIx → ℕ) (c : Dev nD) (v8 v18 v57 v2631 : BitVec 32) (Kt : (PUnit) → sProp 𝕄) :
    iprop(Ctx m K ∗ St m c ⟨3, true, 84, 0, 23, 0, 23, 22, 0, 0, 0, 0, 0, 0, 0, 0, 0, 0, 22, 22, 22, 20⟩ ∗ (∀ out, St m c ⟨3, true, 84, 0, 23, 0, 23, 23, 0, 0, 0, 0, 0, 0, 0, 0, 0, 0, 23, 23, 22, 21⟩ -∗ Kt out))
      ⊢ WP c (k0_part82 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v18 v57 v2631) Kt := by
  ag_part k0_part82_eq_skeleton k0_part82_skel

set_option maxRecDepth 65536 in
theorem part_83 (m : (ℓ : Loc nD τ sig) → Buf (Elt F) ℓ) (K : CellIx → ℕ) (c : Dev nD) (v2 v5 v8 v9 v12 v14 v16 v18 v23 v59 : BitVec 32) (Kt : (PUnit) → sProp 𝕄) :
    iprop(Ctx m K ∗ St m c ⟨3, true, 84, 0, 23, 0, 23, 23, 0, 0, 0, 0, 0, 0, 0, 0, 0, 0, 23, 23, 22, 21⟩ ∗ (∀ out, St m c ⟨3, true, 84, 0, 24, 0, 24, 23, 0, 0, 0, 0, 0, 0, 0, 0, 0, 0, 23, 23, 23, 21⟩ -∗ Kt out))
      ⊢ WP c (k0_part83 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59) Kt := by
  ag_part k0_part83_eq_skeleton k0_part83_skel

set_option maxRecDepth 65536 in
theorem part_84 (m : (ℓ : Loc nD τ sig) → Buf (Elt F) ℓ) (K : CellIx → ℕ) (c : Dev nD) (v57 : BitVec 32) (Kt : (BitVec 32) → sProp 𝕄) :
    iprop(Ctx m K ∗ St m c ⟨3, true, 84, 0, 24, 0, 24, 23, 0, 0, 0, 0, 0, 0, 0, 0, 0, 0, 23, 23, 23, 21⟩ ∗ (∀ out, St m c ⟨3, true, 84, 0, 24, 0, 24, 24, 0, 0, 0, 0, 0, 0, 0, 0, 0, 0, 24, 24, 24, 22⟩ -∗ Kt out))
      ⊢ WP c (k0_part84 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v57) Kt := by
  ag_part k0_part84_eq_skeleton k0_part84_skel

set_option maxRecDepth 65536 in
theorem part_85 (m : (ℓ : Loc nD τ sig) → Buf (Elt F) ℓ) (K : CellIx → ℕ) (c : Dev nD) (v2 v5 v8 v9 v12 v14 v16 v18 v23 v59 c4_i32_1906 : BitVec 32) (Kt : (PUnit) → sProp 𝕄) :
    iprop(Ctx m K ∗ St m c ⟨3, true, 84, 0, 24, 0, 24, 24, 0, 0, 0, 0, 0, 0, 0, 0, 0, 0, 24, 24, 24, 22⟩ ∗ (∀ out, St m c ⟨3, true, 84, 0, 25, 0, 25, 24, 0, 0, 0, 0, 0, 0, 0, 0, 0, 0, 24, 24, 24, 22⟩ -∗ Kt out))
      ⊢ WP c (k0_part85 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59 c4_i32_1906) Kt := by
  ag_part k0_part85_eq_skeleton k0_part85_skel

set_option maxRecDepth 65536 in
theorem part_86 (m : (ℓ : Loc nD τ sig) → Buf (Elt F) ℓ) (K : CellIx → ℕ) (c : Dev nD) (v2 v5 v57 : BitVec 32) (Kt : (BitVec 32) → sProp 𝕄) :
    iprop(Ctx m K ∗ St m c ⟨3, true, 84, 0, 25, 0, 25, 24, 0, 0, 0, 0, 0, 0, 0, 0, 0, 0, 24, 24, 24, 22⟩ ∗ (∀ out, St m c ⟨3, true, 84, 0, 25, 0, 25, 25, 0, 0, 0, 0, 0, 0, 0, 0, 0, 0, 25, 25, 25, 23⟩ -∗ Kt out))
      ⊢ WP c (k0_part86 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v57) Kt := by
  ag_part k0_part86_eq_skeleton k0_part86_skel

set_option maxRecDepth 65536 in
theorem part_87 (m : (ℓ : Loc nD τ sig) → Buf (Elt F) ℓ) (K : CellIx → ℕ) (c : Dev nD) (v8 v9 v12 v14 v16 v18 v23 v59 v2782 : BitVec 32) (Kt : (PUnit) → sProp 𝕄) :
    iprop(Ctx m K ∗ St m c ⟨3, true, 84, 0, 25, 0, 25, 25, 0, 0, 0, 0, 0, 0, 0, 0, 0, 0, 25, 25, 25, 23⟩ ∗ (∀ out, St m c ⟨3, true, 84, 0, 26, 0, 26, 26, 0, 0, 0, 0, 0, 0, 0, 0, 0, 0, 25, 25, 25, 23⟩ -∗ Kt out))
      ⊢ WP c (k0_part87 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v9 v12 v14 v16 v18 v23 v59 v2782) Kt := by
  ag_part k0_part87_eq_skeleton k0_part87_skel

set_option maxRecDepth 65536 in
theorem part_88 (m : (ℓ : Loc nD τ sig) → Buf (Elt F) ℓ) (K : CellIx → ℕ) (c : Dev nD) (v2 v5 v9 v57 : BitVec 32) (Kt : (PUnit) → sProp 𝕄) :
    iprop(Ctx m K ∗ St m c ⟨3, true, 84, 0, 26, 0, 26, 26, 0, 0, 0, 0, 0, 0, 0, 0, 0, 0, 25, 25, 25, 23⟩ ∗ (∀ out, St m c ⟨3, true, 84, 0, 26, 0, 26, 26, 0, 0, 0, 0, 0, 0, 0, 0, 0, 0, 26, 26, 26, 24⟩ -∗ Kt out))
      ⊢ WP c (k0_part88 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v57) Kt := by
  ag_part k0_part88_eq_skeleton k0_part88_skel

set_option maxRecDepth 65536 in
theorem part_89 (m : (ℓ : Loc nD τ sig) → Buf (Elt F) ℓ) (K : CellIx → ℕ) (c : Dev nD) (v8 v12 v14 v16 v18 v23 v59 : BitVec 32) (Kt : (PUnit) → sProp 𝕄) :
    iprop(Ctx m K ∗ St m c ⟨3, true, 84, 0, 26, 0, 26, 26, 0, 0, 0, 0, 0, 0, 0, 0, 0, 0, 26, 26, 26, 24⟩ ∗ (∀ out, St m c ⟨3, true, 84, 0, 27, 0, 27, 27, 0, 0, 0, 0, 0, 0, 0, 0, 0, 0, 26, 26, 26, 24⟩ -∗ Kt out))
      ⊢ WP c (k0_part89 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v23 v59) Kt := by
  ag_part k0_part89_eq_skeleton k0_part89_skel

set_option maxRecDepth 65536 in
theorem part_90 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 84, 0, 27, 0, 27, 27, 0, 0, 0, 0, 0, 0, 0, 0, 0, 0, 26, 26, 26, 24⟩ ∗ (∀ out, St m c ⟨3, true, 84, 0, 28, 0, 27, 27, 0, 0, 0, 0, 0, 0, 0, 0, 0, 0, 27, 27, 27, 25⟩ -∗ Kt out))
      ⊢ WP c (k0_part90 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part90_eq_skeleton k0_part90_skel

set_option maxRecDepth 65536 in
theorem part_91 (m : (ℓ : Loc nD τ sig) → Buf (Elt F) ℓ) (K : CellIx → ℕ) (c : Dev nD) (v8 v12 v14 v16 v18 v59 v2905 : BitVec 32) (Kt : (PUnit) → sProp 𝕄) :
    iprop(Ctx m K ∗ St m c ⟨3, true, 84, 0, 28, 0, 27, 27, 0, 0, 0, 0, 0, 0, 0, 0, 0, 0, 27, 27, 27, 25⟩ ∗ (∀ out, St m c ⟨3, true, 84, 0, 28, 0, 28, 28, 0, 0, 0, 0, 0, 0, 0, 0, 0, 0, 27, 27, 27, 26⟩ -∗ Kt out))
      ⊢ WP c (k0_part91 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v59 v2905) Kt := by
  ag_part k0_part91_eq_skeleton k0_part91_skel

set_option maxRecDepth 65536 in
theorem part_92 (m : (ℓ : Loc nD τ sig) → Buf (Elt F) ℓ) (K : CellIx → ℕ) (c : Dev nD) (v2 v5 v9 v23 v57 v59 : BitVec 32) (Kt : (BitVec 32) → sProp 𝕄) :
    iprop(Ctx m K ∗ St m c ⟨3, true, 84, 0, 28, 0, 28, 28, 0, 0, 0, 0, 0, 0, 0, 0, 0, 0, 27, 27, 27, 26⟩ ∗ (∀ out, St m c ⟨3, true, 84, 0, 29, 0, 28, 28, 0, 0, 0, 0, 0, 0, 0, 0, 0, 0, 28, 28, 28, 26⟩ -∗ Kt out))
      ⊢ WP c (k0_part92 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v59) Kt := by
  ag_part k0_part92_eq_skeleton k0_part92_skel

set_option maxRecDepth 65536 in
theorem part_93 (m : (ℓ : Loc nD τ sig) → Buf (Elt F) ℓ) (K : CellIx → ℕ) (c : Dev nD) (v8 v12 v14 v16 v18 c4_i32_2108 : BitVec 32) (Kt : (PUnit) → sProp 𝕄) :
    iprop(Ctx m K ∗ St m c ⟨3, true, 84, 0, 29, 0, 28, 28, 0, 0, 0, 0, 0, 0, 0, 0, 0, 0, 28, 28, 28, 26⟩ ∗ (∀ out, St m c ⟨3, true, 84, 0, 29, 0, 29, 29, 0, 0, 0, 0, 0, 0, 0, 0, 0, 0, 28, 28, 28, 27⟩ -∗ Kt out))
      ⊢ WP c (k0_part93 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 c4_i32_2108) Kt := by
  ag_part k0_part93_eq_skeleton k0_part93_skel

set_option maxRecDepth 65536 in
theorem part_94 (m : (ℓ : Loc nD τ sig) → Buf (Elt F) ℓ) (K : CellIx → ℕ) (c : Dev nD) (v2 v5 v9 v12 v14 v23 v57 v59 : BitVec 32) (Kt : (BitVec 32) → sProp 𝕄) :
    iprop(Ctx m K ∗ St m c ⟨3, true, 84, 0, 29, 0, 29, 29, 0, 0, 0, 0, 0, 0, 0, 0, 0, 0, 28, 28, 28, 27⟩ ∗ (∀ out, St m c ⟨3, true, 84, 0, 30, 0, 29, 29, 0, 0, 0, 0, 0, 0, 0, 0, 0, 0, 29, 29, 29, 27⟩ -∗ Kt out))
      ⊢ WP c (k0_part94 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v12 v14 v23 v57 v59) Kt := by
  ag_part k0_part94_eq_skeleton k0_part94_skel

set_option maxRecDepth 65536 in
theorem part_95 (m : (ℓ : Loc nD τ sig) → Buf (Elt F) ℓ) (K : CellIx → ℕ) (c : Dev nD) (v8 v16 v18 v3027 : BitVec 32) (Kt : (PUnit) → sProp 𝕄) :
    iprop(Ctx m K ∗ St m c ⟨3, true, 84, 0, 30, 0, 29, 29, 0, 0, 0, 0, 0, 0, 0, 0, 0, 0, 29, 29, 29, 27⟩ ∗ (∀ out, St m c ⟨3, true, 84, 0, 30, 0, 30, 30, 0, 0, 0, 0, 0, 0, 0, 0, 0, 0, 30, 29, 29, 28⟩ -∗ Kt out))
      ⊢ WP c (k0_part95 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v3027) Kt := by
  ag_part k0_part95_eq_skeleton k0_part95_skel

set_option maxRecDepth 65536 in
theorem part_96 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 30, 0, 30, 30, 0, 0, 0, 0, 0, 0, 0, 0, 0, 0, 30, 29, 29, 28⟩ ∗ (∀ out, St m c ⟨3, true, 84, 0, 31, 0, 30, 30, 0, 0, 0, 0, 0, 0, 0, 0, 0, 0, 30, 30, 30, 28⟩ -∗ Kt out))
      ⊢ WP c (k0_part96 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part96_eq_skeleton k0_part96_skel

set_option maxRecDepth 65536 in
theorem part_97 (m : (ℓ : Loc nD τ sig) → Buf (Elt F) ℓ) (K : CellIx → ℕ) (c : Dev nD) (v8 v16 v18 : BitVec 32) (Kt : (PUnit) → sProp 𝕄) :
    iprop(Ctx m K ∗ St m c ⟨3, true, 84, 0, 31, 0, 30, 30, 0, 0, 0, 0, 0, 0, 0, 0, 0, 0, 30, 30, 30, 28⟩ ∗ (∀ out, St m c ⟨3, true, 84, 0, 31, 0, 31, 31, 0, 0, 0, 0, 0, 0, 0, 0, 0, 0, 31, 30, 30, 29⟩ -∗ Kt out))
      ⊢ WP c (k0_part97 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18) Kt := by
  ag_part k0_part97_eq_skeleton k0_part97_skel

set_option maxRecDepth 65536 in
theorem part_98 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 31, 0, 31, 31, 0, 0, 0, 0, 0, 0, 0, 0, 0, 0, 31, 30, 30, 29⟩ ∗ (∀ out, St m c ⟨3, true, 84, 0, 32, 0, 32, 31, 0, 0, 0, 0, 0, 0, 0, 0, 0, 0, 31, 31, 31, 29⟩ -∗ Kt out))
      ⊢ WP c (k0_part98 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part98_eq_skeleton k0_part98_skel

set_option maxRecDepth 65536 in
theorem part_99 (m : (ℓ : Loc nD τ sig) → Buf (Elt F) ℓ) (K : CellIx → ℕ) (c : Dev nD) (v8 v16 v18 v57 : BitVec 32) (Kt : (PUnit) → sProp 𝕄) :
    iprop(Ctx m K ∗ St m c ⟨3, true, 84, 0, 32, 0, 32, 31, 0, 0, 0, 0, 0, 0, 0, 0, 0, 0, 31, 31, 31, 29⟩ ∗ (∀ out, St m c ⟨3, true, 84, 0, 32, 0, 32, 32, 0, 0, 0, 0, 0, 0, 0, 0, 0, 0, 32, 32, 31, 30⟩ -∗ Kt out))
      ⊢ WP c (k0_part99 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v57) Kt := by
  ag_part k0_part99_eq_skeleton k0_part99_skel

set_option maxRecDepth 65536 in
theorem part_100 (m : (ℓ : Loc nD τ sig) → Buf (Elt F) ℓ) (K : CellIx → ℕ) (c : Dev nD) (v2 v5 v8 v9 v12 v14 v16 v23 v59 : BitVec 32) (Kt : (BitVec 32) → sProp 𝕄) :
    iprop(Ctx m K ∗ St m c ⟨3, true, 84, 0, 32, 0, 32, 32, 0, 0, 0, 0, 0, 0, 0, 0, 0, 0, 32, 32, 31, 30⟩ ∗ (∀ out, St m c ⟨3, true, 84, 0, 33, 0, 33, 32, 0, 0, 0, 0, 0, 0, 0, 0, 0, 0, 32, 32, 32, 30⟩ -∗ Kt out))
      ⊢ WP c (k0_part100 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v23 v59) Kt := by
  ag_part k0_part100_eq_skeleton k0_part100_skel

set_option maxRecDepth 65536 in
theorem part_101 (m : (ℓ : Loc nD τ sig) → Buf (Elt F) ℓ) (K : CellIx → ℕ) (c : Dev nD) (v8 v18 v57 v3211 : BitVec 32) (Kt : (PUnit) → sProp 𝕄) :
    iprop(Ctx m K ∗ St m c ⟨3, true, 84, 0, 33, 0, 33, 32, 0, 0, 0, 0, 0, 0, 0, 0, 0, 0, 32, 32, 32, 30⟩ ∗ (∀ out, St m c ⟨3, true, 84, 0, 33, 0, 33, 33, 0, 0, 0, 0, 0, 0, 0, 0, 0, 0, 33, 33, 32, 31⟩ -∗ Kt out))
      ⊢ WP c (k0_part101 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v18 v57 v3211) Kt := by
  ag_part k0_part101_eq_skeleton k0_part101_skel

set_option maxRecDepth 65536 in
theorem part_102 (m : (ℓ : Loc nD τ sig) → Buf (Elt F) ℓ) (K : CellIx → ℕ) (c : Dev nD) (v2 v5 v8 v9 v12 v14 v16 v18 v23 v59 : BitVec 32) (Kt : (PUnit) → sProp 𝕄) :
    iprop(Ctx m K ∗ St m c ⟨3, true, 84, 0, 33, 0, 33, 33, 0, 0, 0, 0, 0, 0, 0, 0, 0, 0, 33, 33, 32, 31⟩ ∗ (∀ out, St m c ⟨3, true, 84, 0, 34, 0, 34, 33, 0, 0, 0, 0, 0, 0, 0, 0, 0, 0, 33, 33, 33, 31⟩ -∗ Kt out))
      ⊢ WP c (k0_part102 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59) Kt := by
  ag_part k0_part102_eq_skeleton k0_part102_skel

set_option maxRecDepth 65536 in
theorem part_103 (m : (ℓ : Loc nD τ sig) → Buf (Elt F) ℓ) (K : CellIx → ℕ) (c : Dev nD) (v57 : BitVec 32) (Kt : (BitVec 32) → sProp 𝕄) :
    iprop(Ctx m K ∗ St m c ⟨3, true, 84, 0, 34, 0, 34, 33, 0, 0, 0, 0, 0, 0, 0, 0, 0, 0, 33, 33, 33, 31⟩ ∗ (∀ out, St m c ⟨3, true, 84, 0, 34, 0, 34, 34, 0, 0, 0, 0, 0, 0, 0, 0, 0, 0, 34, 34, 34, 32⟩ -∗ Kt out))
      ⊢ WP c (k0_part103 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v57) Kt := by
  ag_part k0_part103_eq_skeleton k0_part103_skel

set_option maxRecDepth 65536 in
theorem part_104 (m : (ℓ : Loc nD τ sig) → Buf (Elt F) ℓ) (K : CellIx → ℕ) (c : Dev nD) (v2 v5 v8 v9 v12 v14 v16 v18 v23 v59 c4_i32_2386 : BitVec 32) (Kt : (PUnit) → sProp 𝕄) :
    iprop(Ctx m K ∗ St m c ⟨3, true, 84, 0, 34, 0, 34, 34, 0, 0, 0, 0, 0, 0, 0, 0, 0, 0, 34, 34, 34, 32⟩ ∗ (∀ out, St m c ⟨3, true, 84, 0, 35, 0, 35, 34, 0, 0, 0, 0, 0, 0, 0, 0, 0, 0, 34, 34, 34, 32⟩ -∗ Kt out))
      ⊢ WP c (k0_part104 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59 c4_i32_2386) Kt := by
  ag_part k0_part104_eq_skeleton k0_part104_skel

set_option maxRecDepth 65536 in
theorem part_105 (m : (ℓ : Loc nD τ sig) → Buf (Elt F) ℓ) (K : CellIx → ℕ) (c : Dev nD) (v2 v5 v57 : BitVec 32) (Kt : (BitVec 32) → sProp 𝕄) :
    iprop(Ctx m K ∗ St m c ⟨3, true, 84, 0, 35, 0, 35, 34, 0, 0, 0, 0, 0, 0, 0, 0, 0, 0, 34, 34, 34, 32⟩ ∗ (∀ out, St m c ⟨3, true, 84, 0, 35, 0, 35, 35, 0, 0, 0, 0, 0, 0, 0, 0, 0, 0, 35, 35, 35, 33⟩ -∗ Kt out))
      ⊢ WP c (k0_part105 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v57) Kt := by
  ag_part k0_part105_eq_skeleton k0_part105_skel

set_option maxRecDepth 65536 in
theorem part_106 (m : (ℓ : Loc nD τ sig) → Buf (Elt F) ℓ) (K : CellIx → ℕ) (c : Dev nD) (v8 v9 v12 v14 v16 v18 v23 v59 v3362 : BitVec 32) (Kt : (PUnit) → sProp 𝕄) :
    iprop(Ctx m K ∗ St m c ⟨3, true, 84, 0, 35, 0, 35, 35, 0, 0, 0, 0, 0, 0, 0, 0, 0, 0, 35, 35, 35, 33⟩ ∗ (∀ out, St m c ⟨3, true, 84, 0, 36, 0, 36, 36, 0, 0, 0, 0, 0, 0, 0, 0, 0, 0, 35, 35, 35, 33⟩ -∗ Kt out))
      ⊢ WP c (k0_part106 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v9 v12 v14 v16 v18 v23 v59 v3362) Kt := by
  ag_part k0_part106_eq_skeleton k0_part106_skel

set_option maxRecDepth 65536 in
theorem part_107 (m : (ℓ : Loc nD τ sig) → Buf (Elt F) ℓ) (K : CellIx → ℕ) (c : Dev nD) (v2 v5 v9 v57 : BitVec 32) (Kt : (PUnit) → sProp 𝕄) :
    iprop(Ctx m K ∗ St m c ⟨3, true, 84, 0, 36, 0, 36, 36, 0, 0, 0, 0, 0, 0, 0, 0, 0, 0, 35, 35, 35, 33⟩ ∗ (∀ out, St m c ⟨3, true, 84, 0, 36, 0, 36, 36, 0, 0, 0, 0, 0, 0, 0, 0, 0, 0, 36, 36, 36, 34⟩ -∗ Kt out))
      ⊢ WP c (k0_part107 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v57) Kt := by
  ag_part k0_part107_eq_skeleton k0_part107_skel

set_option maxRecDepth 65536 in
theorem part_108 (m : (ℓ : Loc nD τ sig) → Buf (Elt F) ℓ) (K : CellIx → ℕ) (c : Dev nD) (v8 v12 v14 v16 v18 v23 v59 : BitVec 32) (Kt : (PUnit) → sProp 𝕄) :
    iprop(Ctx m K ∗ St m c ⟨3, true, 84, 0, 36, 0, 36, 36, 0, 0, 0, 0, 0, 0, 0, 0, 0, 0, 36, 36, 36, 34⟩ ∗ (∀ out, St m c ⟨3, true, 84, 0, 37, 0, 37, 37, 0, 0, 0, 0, 0, 0, 0, 0, 0, 0, 36, 36, 36, 34⟩ -∗ Kt out))
      ⊢ WP c (k0_part108 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v23 v59) Kt := by
  ag_part k0_part108_eq_skeleton k0_part108_skel

set_option maxRecDepth 65536 in
theorem part_109 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 84, 0, 37, 0, 37, 37, 0, 0, 0, 0, 0, 0, 0, 0, 0, 0, 36, 36, 36, 34⟩ ∗ (∀ out, St m c ⟨3, true, 84, 0, 38, 0, 37, 37, 0, 0, 0, 0, 0, 0, 0, 0, 0, 0, 37, 37, 37, 35⟩ -∗ Kt out))
      ⊢ WP c (k0_part109 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part109_eq_skeleton k0_part109_skel

set_option maxRecDepth 65536 in
theorem part_110 (m : (ℓ : Loc nD τ sig) → Buf (Elt F) ℓ) (K : CellIx → ℕ) (c : Dev nD) (v8 v12 v14 v16 v18 v59 v3485 : BitVec 32) (Kt : (PUnit) → sProp 𝕄) :
    iprop(Ctx m K ∗ St m c ⟨3, true, 84, 0, 38, 0, 37, 37, 0, 0, 0, 0, 0, 0, 0, 0, 0, 0, 37, 37, 37, 35⟩ ∗ (∀ out, St m c ⟨3, true, 84, 0, 38, 0, 38, 38, 0, 0, 0, 0, 0, 0, 0, 0, 0, 0, 37, 37, 37, 36⟩ -∗ Kt out))
      ⊢ WP c (k0_part110 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v59 v3485) Kt := by
  ag_part k0_part110_eq_skeleton k0_part110_skel

set_option maxRecDepth 65536 in
theorem part_111 (m : (ℓ : Loc nD τ sig) → Buf (Elt F) ℓ) (K : CellIx → ℕ) (c : Dev nD) (v2 v5 v9 v23 v57 v59 : BitVec 32) (Kt : (BitVec 32) → sProp 𝕄) :
    iprop(Ctx m K ∗ St m c ⟨3, true, 84, 0, 38, 0, 38, 38, 0, 0, 0, 0, 0, 0, 0, 0, 0, 0, 37, 37, 37, 36⟩ ∗ (∀ out, St m c ⟨3, true, 84, 0, 39, 0, 38, 38, 0, 0, 0, 0, 0, 0, 0, 0, 0, 0, 38, 38, 38, 36⟩ -∗ Kt out))
      ⊢ WP c (k0_part111 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v59) Kt := by
  ag_part k0_part111_eq_skeleton k0_part111_skel

set_option maxRecDepth 65536 in
theorem part_112 (m : (ℓ : Loc nD τ sig) → Buf (Elt F) ℓ) (K : CellIx → ℕ) (c : Dev nD) (v8 v12 v14 v16 v18 c4_i32_2588 : BitVec 32) (Kt : (PUnit) → sProp 𝕄) :
    iprop(Ctx m K ∗ St m c ⟨3, true, 84, 0, 39, 0, 38, 38, 0, 0, 0, 0, 0, 0, 0, 0, 0, 0, 38, 38, 38, 36⟩ ∗ (∀ out, St m c ⟨3, true, 84, 0, 39, 0, 39, 39, 0, 0, 0, 0, 0, 0, 0, 0, 0, 0, 38, 38, 38, 37⟩ -∗ Kt out))
      ⊢ WP c (k0_part112 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 c4_i32_2588) Kt := by
  ag_part k0_part112_eq_skeleton k0_part112_skel

set_option maxRecDepth 65536 in
theorem part_113 (m : (ℓ : Loc nD τ sig) → Buf (Elt F) ℓ) (K : CellIx → ℕ) (c : Dev nD) (v2 v5 v9 v12 v14 v23 v57 v59 : BitVec 32) (Kt : (BitVec 32) → sProp 𝕄) :
    iprop(Ctx m K ∗ St m c ⟨3, true, 84, 0, 39, 0, 39, 39, 0, 0, 0, 0, 0, 0, 0, 0, 0, 0, 38, 38, 38, 37⟩ ∗ (∀ out, St m c ⟨3, true, 84, 0, 40, 0, 39, 39, 0, 0, 0, 0, 0, 0, 0, 0, 0, 0, 39, 39, 39, 37⟩ -∗ Kt out))
      ⊢ WP c (k0_part113 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v12 v14 v23 v57 v59) Kt := by
  ag_part k0_part113_eq_skeleton k0_part113_skel

set_option maxRecDepth 65536 in
theorem part_114 (m : (ℓ : Loc nD τ sig) → Buf (Elt F) ℓ) (K : CellIx → ℕ) (c : Dev nD) (v8 v16 v18 v3607 : BitVec 32) (Kt : (PUnit) → sProp 𝕄) :
    iprop(Ctx m K ∗ St m c ⟨3, true, 84, 0, 40, 0, 39, 39, 0, 0, 0, 0, 0, 0, 0, 0, 0, 0, 39, 39, 39, 37⟩ ∗ (∀ out, St m c ⟨3, true, 84, 0, 40, 0, 40, 40, 0, 0, 0, 0, 0, 0, 0, 0, 0, 0, 40, 39, 39, 38⟩ -∗ Kt out))
      ⊢ WP c (k0_part114 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v3607) Kt := by
  ag_part k0_part114_eq_skeleton k0_part114_skel

set_option maxRecDepth 65536 in
theorem part_115 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 40, 0, 40, 40, 0, 0, 0, 0, 0, 0, 0, 0, 0, 0, 40, 39, 39, 38⟩ ∗ (∀ out, St m c ⟨3, true, 84, 0, 41, 0, 40, 40, 0, 0, 0, 0, 0, 0, 0, 0, 0, 0, 40, 40, 40, 38⟩ -∗ Kt out))
      ⊢ WP c (k0_part115 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part115_eq_skeleton k0_part115_skel

set_option maxRecDepth 65536 in
theorem part_116 (m : (ℓ : Loc nD τ sig) → Buf (Elt F) ℓ) (K : CellIx → ℕ) (c : Dev nD) (v8 v16 v18 : BitVec 32) (Kt : (PUnit) → sProp 𝕄) :
    iprop(Ctx m K ∗ St m c ⟨3, true, 84, 0, 41, 0, 40, 40, 0, 0, 0, 0, 0, 0, 0, 0, 0, 0, 40, 40, 40, 38⟩ ∗ (∀ out, St m c ⟨3, true, 84, 0, 41, 0, 41, 41, 0, 0, 0, 0, 0, 0, 0, 0, 0, 0, 41, 40, 40, 39⟩ -∗ Kt out))
      ⊢ WP c (k0_part116 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18) Kt := by
  ag_part k0_part116_eq_skeleton k0_part116_skel

set_option maxRecDepth 65536 in
theorem part_117 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 41, 0, 41, 41, 0, 0, 0, 0, 0, 0, 0, 0, 0, 0, 41, 40, 40, 39⟩ ∗ (∀ out, St m c ⟨3, true, 84, 0, 42, 0, 42, 41, 0, 0, 0, 0, 0, 0, 0, 0, 0, 0, 41, 41, 41, 39⟩ -∗ Kt out))
      ⊢ WP c (k0_part117 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part117_eq_skeleton k0_part117_skel

set_option maxRecDepth 65536 in
theorem part_118 (m : (ℓ : Loc nD τ sig) → Buf (Elt F) ℓ) (K : CellIx → ℕ) (c : Dev nD) (v8 v16 v18 v57 : BitVec 32) (Kt : (PUnit) → sProp 𝕄) :
    iprop(Ctx m K ∗ St m c ⟨3, true, 84, 0, 42, 0, 42, 41, 0, 0, 0, 0, 0, 0, 0, 0, 0, 0, 41, 41, 41, 39⟩ ∗ (∀ out, St m c ⟨3, true, 84, 0, 42, 0, 42, 42, 0, 0, 0, 0, 0, 0, 0, 0, 0, 0, 42, 42, 41, 40⟩ -∗ Kt out))
      ⊢ WP c (k0_part118 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v57) Kt := by
  ag_part k0_part118_eq_skeleton k0_part118_skel

set_option maxRecDepth 65536 in
theorem part_119 (m : (ℓ : Loc nD τ sig) → Buf (Elt F) ℓ) (K : CellIx → ℕ) (c : Dev nD) (v2 v5 v8 v9 v12 v14 v16 v23 v59 : BitVec 32) (Kt : (BitVec 32) → sProp 𝕄) :
    iprop(Ctx m K ∗ St m c ⟨3, true, 84, 0, 42, 0, 42, 42, 0, 0, 0, 0, 0, 0, 0, 0, 0, 0, 42, 42, 41, 40⟩ ∗ (∀ out, St m c ⟨3, true, 84, 0, 43, 0, 43, 42, 0, 0, 0, 0, 0, 0, 0, 0, 0, 0, 42, 42, 42, 40⟩ -∗ Kt out))
      ⊢ WP c (k0_part119 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v23 v59) Kt := by
  ag_part k0_part119_eq_skeleton k0_part119_skel

set_option maxRecDepth 65536 in
theorem part_120 (m : (ℓ : Loc nD τ sig) → Buf (Elt F) ℓ) (K : CellIx → ℕ) (c : Dev nD) (v8 v18 v57 v3791 : BitVec 32) (Kt : (PUnit) → sProp 𝕄) :
    iprop(Ctx m K ∗ St m c ⟨3, true, 84, 0, 43, 0, 43, 42, 0, 0, 0, 0, 0, 0, 0, 0, 0, 0, 42, 42, 42, 40⟩ ∗ (∀ out, St m c ⟨3, true, 84, 0, 43, 0, 43, 43, 0, 0, 0, 0, 0, 0, 0, 0, 0, 0, 43, 43, 42, 41⟩ -∗ Kt out))
      ⊢ WP c (k0_part120 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v18 v57 v3791) Kt := by
  ag_part k0_part120_eq_skeleton k0_part120_skel

set_option maxRecDepth 65536 in
theorem part_121 (m : (ℓ : Loc nD τ sig) → Buf (Elt F) ℓ) (K : CellIx → ℕ) (c : Dev nD) (v2 v5 v8 v9 v12 v14 v16 v18 v23 v59 : BitVec 32) (Kt : (PUnit) → sProp 𝕄) :
    iprop(Ctx m K ∗ St m c ⟨3, true, 84, 0, 43, 0, 43, 43, 0, 0, 0, 0, 0, 0, 0, 0, 0, 0, 43, 43, 42, 41⟩ ∗ (∀ out, St m c ⟨3, true, 84, 0, 44, 0, 44, 43, 0, 0, 0, 0, 0, 0, 0, 0, 0, 0, 43, 43, 43, 41⟩ -∗ Kt out))
      ⊢ WP c (k0_part121 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59) Kt := by
  ag_part k0_part121_eq_skeleton k0_part121_skel

set_option maxRecDepth 65536 in
theorem part_122 (m : (ℓ : Loc nD τ sig) → Buf (Elt F) ℓ) (K : CellIx → ℕ) (c : Dev nD) (v57 : BitVec 32) (Kt : (BitVec 32) → sProp 𝕄) :
    iprop(Ctx m K ∗ St m c ⟨3, true, 84, 0, 44, 0, 44, 43, 0, 0, 0, 0, 0, 0, 0, 0, 0, 0, 43, 43, 43, 41⟩ ∗ (∀ out, St m c ⟨3, true, 84, 0, 44, 0, 44, 44, 0, 0, 0, 0, 0, 0, 0, 0, 0, 0, 44, 44, 44, 42⟩ -∗ Kt out))
      ⊢ WP c (k0_part122 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v57) Kt := by
  ag_part k0_part122_eq_skeleton k0_part122_skel

set_option maxRecDepth 65536 in
theorem part_123 (m : (ℓ : Loc nD τ sig) → Buf (Elt F) ℓ) (K : CellIx → ℕ) (c : Dev nD) (v2 v5 v8 v9 v12 v14 v16 v18 v23 v59 c4_i32_2866 : BitVec 32) (Kt : (PUnit) → sProp 𝕄) :
    iprop(Ctx m K ∗ St m c ⟨3, true, 84, 0, 44, 0, 44, 44, 0, 0, 0, 0, 0, 0, 0, 0, 0, 0, 44, 44, 44, 42⟩ ∗ (∀ out, St m c ⟨3, true, 84, 0, 45, 0, 45, 44, 0, 0, 0, 0, 0, 0, 0, 0, 0, 0, 44, 44, 44, 42⟩ -∗ Kt out))
      ⊢ WP c (k0_part123 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59 c4_i32_2866) Kt := by
  ag_part k0_part123_eq_skeleton k0_part123_skel

set_option maxRecDepth 65536 in
theorem part_124 (m : (ℓ : Loc nD τ sig) → Buf (Elt F) ℓ) (K : CellIx → ℕ) (c : Dev nD) (v2 v5 v57 : BitVec 32) (Kt : (BitVec 32) → sProp 𝕄) :
    iprop(Ctx m K ∗ St m c ⟨3, true, 84, 0, 45, 0, 45, 44, 0, 0, 0, 0, 0, 0, 0, 0, 0, 0, 44, 44, 44, 42⟩ ∗ (∀ out, St m c ⟨3, true, 84, 0, 45, 0, 45, 45, 0, 0, 0, 0, 0, 0, 0, 0, 0, 0, 45, 45, 45, 43⟩ -∗ Kt out))
      ⊢ WP c (k0_part124 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v57) Kt := by
  ag_part k0_part124_eq_skeleton k0_part124_skel

set_option maxRecDepth 65536 in
theorem part_125 (m : (ℓ : Loc nD τ sig) → Buf (Elt F) ℓ) (K : CellIx → ℕ) (c : Dev nD) (v8 v9 v12 v14 v16 v18 v23 v59 v3942 : BitVec 32) (Kt : (PUnit) → sProp 𝕄) :
    iprop(Ctx m K ∗ St m c ⟨3, true, 84, 0, 45, 0, 45, 45, 0, 0, 0, 0, 0, 0, 0, 0, 0, 0, 45, 45, 45, 43⟩ ∗ (∀ out, St m c ⟨3, true, 84, 0, 46, 0, 46, 46, 0, 0, 0, 0, 0, 0, 0, 0, 0, 0, 45, 45, 45, 43⟩ -∗ Kt out))
      ⊢ WP c (k0_part125 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v9 v12 v14 v16 v18 v23 v59 v3942) Kt := by
  ag_part k0_part125_eq_skeleton k0_part125_skel

set_option maxRecDepth 65536 in
theorem part_126 (m : (ℓ : Loc nD τ sig) → Buf (Elt F) ℓ) (K : CellIx → ℕ) (c : Dev nD) (v2 v5 v9 v57 : BitVec 32) (Kt : (PUnit) → sProp 𝕄) :
    iprop(Ctx m K ∗ St m c ⟨3, true, 84, 0, 46, 0, 46, 46, 0, 0, 0, 0, 0, 0, 0, 0, 0, 0, 45, 45, 45, 43⟩ ∗ (∀ out, St m c ⟨3, true, 84, 0, 46, 0, 46, 46, 0, 0, 0, 0, 0, 0, 0, 0, 0, 0, 46, 46, 46, 44⟩ -∗ Kt out))
      ⊢ WP c (k0_part126 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v57) Kt := by
  ag_part k0_part126_eq_skeleton k0_part126_skel

set_option maxRecDepth 65536 in
theorem part_127 (m : (ℓ : Loc nD τ sig) → Buf (Elt F) ℓ) (K : CellIx → ℕ) (c : Dev nD) (v8 v12 v14 v16 v18 v23 v59 : BitVec 32) (Kt : (PUnit) → sProp 𝕄) :
    iprop(Ctx m K ∗ St m c ⟨3, true, 84, 0, 46, 0, 46, 46, 0, 0, 0, 0, 0, 0, 0, 0, 0, 0, 46, 46, 46, 44⟩ ∗ (∀ out, St m c ⟨3, true, 84, 0, 47, 0, 47, 47, 0, 0, 0, 0, 0, 0, 0, 0, 0, 0, 46, 46, 46, 44⟩ -∗ Kt out))
      ⊢ WP c (k0_part127 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v23 v59) Kt := by
  ag_part k0_part127_eq_skeleton k0_part127_skel

set_option maxRecDepth 65536 in
theorem part_128 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 84, 0, 47, 0, 47, 47, 0, 0, 0, 0, 0, 0, 0, 0, 0, 0, 46, 46, 46, 44⟩ ∗ (∀ out, St m c ⟨3, true, 84, 0, 48, 0, 47, 47, 0, 0, 0, 0, 0, 0, 0, 0, 0, 0, 47, 47, 47, 45⟩ -∗ Kt out))
      ⊢ WP c (k0_part128 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part128_eq_skeleton k0_part128_skel

set_option maxRecDepth 65536 in
theorem part_129 (m : (ℓ : Loc nD τ sig) → Buf (Elt F) ℓ) (K : CellIx → ℕ) (c : Dev nD) (v8 v12 v14 v16 v18 v59 v4065 : BitVec 32) (Kt : (PUnit) → sProp 𝕄) :
    iprop(Ctx m K ∗ St m c ⟨3, true, 84, 0, 48, 0, 47, 47, 0, 0, 0, 0, 0, 0, 0, 0, 0, 0, 47, 47, 47, 45⟩ ∗ (∀ out, St m c ⟨3, true, 84, 0, 48, 0, 48, 48, 0, 0, 0, 0, 0, 0, 0, 0, 0, 0, 47, 47, 47, 46⟩ -∗ Kt out))
      ⊢ WP c (k0_part129 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v59 v4065) Kt := by
  ag_part k0_part129_eq_skeleton k0_part129_skel

set_option maxRecDepth 65536 in
theorem part_130 (m : (ℓ : Loc nD τ sig) → Buf (Elt F) ℓ) (K : CellIx → ℕ) (c : Dev nD) (v2 v5 v9 v23 v57 v59 : BitVec 32) (Kt : (BitVec 32) → sProp 𝕄) :
    iprop(Ctx m K ∗ St m c ⟨3, true, 84, 0, 48, 0, 48, 48, 0, 0, 0, 0, 0, 0, 0, 0, 0, 0, 47, 47, 47, 46⟩ ∗ (∀ out, St m c ⟨3, true, 84, 0, 49, 0, 48, 48, 0, 0, 0, 0, 0, 0, 0, 0, 0, 0, 48, 48, 48, 46⟩ -∗ Kt out))
      ⊢ WP c (k0_part130 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v59) Kt := by
  ag_part k0_part130_eq_skeleton k0_part130_skel

set_option maxRecDepth 65536 in
theorem part_131 (m : (ℓ : Loc nD τ sig) → Buf (Elt F) ℓ) (K : CellIx → ℕ) (c : Dev nD) (v8 v12 v14 v16 v18 c4_i32_3068 : BitVec 32) (Kt : (PUnit) → sProp 𝕄) :
    iprop(Ctx m K ∗ St m c ⟨3, true, 84, 0, 49, 0, 48, 48, 0, 0, 0, 0, 0, 0, 0, 0, 0, 0, 48, 48, 48, 46⟩ ∗ (∀ out, St m c ⟨3, true, 84, 0, 49, 0, 49, 49, 0, 0, 0, 0, 0, 0, 0, 0, 0, 0, 48, 48, 48, 47⟩ -∗ Kt out))
      ⊢ WP c (k0_part131 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 c4_i32_3068) Kt := by
  ag_part k0_part131_eq_skeleton k0_part131_skel

set_option maxRecDepth 65536 in
theorem part_132 (m : (ℓ : Loc nD τ sig) → Buf (Elt F) ℓ) (K : CellIx → ℕ) (c : Dev nD) (v2 v5 v9 v12 v14 v23 v57 v59 : BitVec 32) (Kt : (BitVec 32) → sProp 𝕄) :
    iprop(Ctx m K ∗ St m c ⟨3, true, 84, 0, 49, 0, 49, 49, 0, 0, 0, 0, 0, 0, 0, 0, 0, 0, 48, 48, 48, 47⟩ ∗ (∀ out, St m c ⟨3, true, 84, 0, 50, 0, 49, 49, 0, 0, 0, 0, 0, 0, 0, 0, 0, 0, 49, 49, 49, 47⟩ -∗ Kt out))
      ⊢ WP c (k0_part132 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v12 v14 v23 v57 v59) Kt := by
  ag_part k0_part132_eq_skeleton k0_part132_skel

set_option maxRecDepth 65536 in
theorem part_133 (m : (ℓ : Loc nD τ sig) → Buf (Elt F) ℓ) (K : CellIx → ℕ) (c : Dev nD) (v8 v16 v18 v4187 : BitVec 32) (Kt : (PUnit) → sProp 𝕄) :
    iprop(Ctx m K ∗ St m c ⟨3, true, 84, 0, 50, 0, 49, 49, 0, 0, 0, 0, 0, 0, 0, 0, 0, 0, 49, 49, 49, 47⟩ ∗ (∀ out, St m c ⟨3, true, 84, 0, 50, 0, 50, 50, 0, 0, 0, 0, 0, 0, 0, 0, 0, 0, 50, 49, 49, 48⟩ -∗ Kt out))
      ⊢ WP c (k0_part133 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v4187) Kt := by
  ag_part k0_part133_eq_skeleton k0_part133_skel

set_option maxRecDepth 65536 in
theorem part_134 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 50, 0, 50, 50, 0, 0, 0, 0, 0, 0, 0, 0, 0, 0, 50, 49, 49, 48⟩ ∗ (∀ out, St m c ⟨3, true, 84, 0, 51, 0, 50, 50, 0, 0, 0, 0, 0, 0, 0, 0, 0, 0, 50, 50, 50, 48⟩ -∗ Kt out))
      ⊢ WP c (k0_part134 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part134_eq_skeleton k0_part134_skel

set_option maxRecDepth 65536 in
theorem part_135 (m : (ℓ : Loc nD τ sig) → Buf (Elt F) ℓ) (K : CellIx → ℕ) (c : Dev nD) (v8 v16 v18 : BitVec 32) (Kt : (PUnit) → sProp 𝕄) :
    iprop(Ctx m K ∗ St m c ⟨3, true, 84, 0, 51, 0, 50, 50, 0, 0, 0, 0, 0, 0, 0, 0, 0, 0, 50, 50, 50, 48⟩ ∗ (∀ out, St m c ⟨3, true, 84, 0, 51, 0, 51, 51, 0, 0, 0, 0, 0, 0, 0, 0, 0, 0, 51, 50, 50, 49⟩ -∗ Kt out))
      ⊢ WP c (k0_part135 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18) Kt := by
  ag_part k0_part135_eq_skeleton k0_part135_skel

set_option maxRecDepth 65536 in
theorem part_136 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 51, 0, 51, 51, 0, 0, 0, 0, 0, 0, 0, 0, 0, 0, 51, 50, 50, 49⟩ ∗ (∀ out, St m c ⟨3, true, 84, 0, 52, 0, 52, 51, 0, 0, 0, 0, 0, 0, 0, 0, 0, 0, 51, 51, 51, 49⟩ -∗ Kt out))
      ⊢ WP c (k0_part136 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part136_eq_skeleton k0_part136_skel

set_option maxRecDepth 65536 in
theorem part_137 (m : (ℓ : Loc nD τ sig) → Buf (Elt F) ℓ) (K : CellIx → ℕ) (c : Dev nD) (v8 v16 v18 v57 : BitVec 32) (Kt : (PUnit) → sProp 𝕄) :
    iprop(Ctx m K ∗ St m c ⟨3, true, 84, 0, 52, 0, 52, 51, 0, 0, 0, 0, 0, 0, 0, 0, 0, 0, 51, 51, 51, 49⟩ ∗ (∀ out, St m c ⟨3, true, 84, 0, 52, 0, 52, 52, 0, 0, 0, 0, 0, 0, 0, 0, 0, 0, 52, 52, 51, 50⟩ -∗ Kt out))
      ⊢ WP c (k0_part137 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v57) Kt := by
  ag_part k0_part137_eq_skeleton k0_part137_skel

set_option maxRecDepth 65536 in
theorem part_138 (m : (ℓ : Loc nD τ sig) → Buf (Elt F) ℓ) (K : CellIx → ℕ) (c : Dev nD) (v2 v5 v8 v9 v12 v14 v16 v23 v59 : BitVec 32) (Kt : (BitVec 32) → sProp 𝕄) :
    iprop(Ctx m K ∗ St m c ⟨3, true, 84, 0, 52, 0, 52, 52, 0, 0, 0, 0, 0, 0, 0, 0, 0, 0, 52, 52, 51, 50⟩ ∗ (∀ out, St m c ⟨3, true, 84, 0, 53, 0, 53, 52, 0, 0, 0, 0, 0, 0, 0, 0, 0, 0, 52, 52, 52, 50⟩ -∗ Kt out))
      ⊢ WP c (k0_part138 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v23 v59) Kt := by
  ag_part k0_part138_eq_skeleton k0_part138_skel

set_option maxRecDepth 65536 in
theorem part_139 (m : (ℓ : Loc nD τ sig) → Buf (Elt F) ℓ) (K : CellIx → ℕ) (c : Dev nD) (v8 v18 v57 v4371 : BitVec 32) (Kt : (PUnit) → sProp 𝕄) :
    iprop(Ctx m K ∗ St m c ⟨3, true, 84, 0, 53, 0, 53, 52, 0, 0, 0, 0, 0, 0, 0, 0, 0, 0, 52, 52, 52, 50⟩ ∗ (∀ out, St m c ⟨3, true, 84, 0, 53, 0, 53, 53, 0, 0, 0, 0, 0, 0, 0, 0, 0, 0, 53, 53, 52, 51⟩ -∗ Kt out))
      ⊢ WP c (k0_part139 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v18 v57 v4371) Kt := by
  ag_part k0_part139_eq_skeleton k0_part139_skel

set_option maxRecDepth 65536 in
theorem part_140 (m : (ℓ : Loc nD τ sig) → Buf (Elt F) ℓ) (K : CellIx → ℕ) (c : Dev nD) (v2 v5 v8 v9 v12 v14 v16 v18 v23 v59 : BitVec 32) (Kt : (PUnit) → sProp 𝕄) :
    iprop(Ctx m K ∗ St m c ⟨3, true, 84, 0, 53, 0, 53, 53, 0, 0, 0, 0, 0, 0, 0, 0, 0, 0, 53, 53, 52, 51⟩ ∗ (∀ out, St m c ⟨3, true, 84, 0, 54, 0, 54, 53, 0, 0, 0, 0, 0, 0, 0, 0, 0, 0, 53, 53, 53, 51⟩ -∗ Kt out))
      ⊢ WP c (k0_part140 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59) Kt := by
  ag_part k0_part140_eq_skeleton k0_part140_skel

set_option maxRecDepth 65536 in
theorem part_141 (m : (ℓ : Loc nD τ sig) → Buf (Elt F) ℓ) (K : CellIx → ℕ) (c : Dev nD) (v57 : BitVec 32) (Kt : (BitVec 32) → sProp 𝕄) :
    iprop(Ctx m K ∗ St m c ⟨3, true, 84, 0, 54, 0, 54, 53, 0, 0, 0, 0, 0, 0, 0, 0, 0, 0, 53, 53, 53, 51⟩ ∗ (∀ out, St m c ⟨3, true, 84, 0, 54, 0, 54, 54, 0, 0, 0, 0, 0, 0, 0, 0, 0, 0, 54, 54, 54, 52⟩ -∗ Kt out))
      ⊢ WP c (k0_part141 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v57) Kt := by
  ag_part k0_part141_eq_skeleton k0_part141_skel

set_option maxRecDepth 65536 in
theorem part_142 (m : (ℓ : Loc nD τ sig) → Buf (Elt F) ℓ) (K : CellIx → ℕ) (c : Dev nD) (v2 v5 v8 v9 v12 v14 v16 v18 v23 v59 c4_i32_3346 : BitVec 32) (Kt : (PUnit) → sProp 𝕄) :
    iprop(Ctx m K ∗ St m c ⟨3, true, 84, 0, 54, 0, 54, 54, 0, 0, 0, 0, 0, 0, 0, 0, 0, 0, 54, 54, 54, 52⟩ ∗ (∀ out, St m c ⟨3, true, 84, 0, 55, 0, 55, 54, 0, 0, 0, 0, 0, 0, 0, 0, 0, 0, 54, 54, 54, 52⟩ -∗ Kt out))
      ⊢ WP c (k0_part142 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59 c4_i32_3346) Kt := by
  ag_part k0_part142_eq_skeleton k0_part142_skel

set_option maxRecDepth 65536 in
theorem part_143 (m : (ℓ : Loc nD τ sig) → Buf (Elt F) ℓ) (K : CellIx → ℕ) (c : Dev nD) (v2 v5 v57 : BitVec 32) (Kt : (BitVec 32) → sProp 𝕄) :
    iprop(Ctx m K ∗ St m c ⟨3, true, 84, 0, 55, 0, 55, 54, 0, 0, 0, 0, 0, 0, 0, 0, 0, 0, 54, 54, 54, 52⟩ ∗ (∀ out, St m c ⟨3, true, 84, 0, 55, 0, 55, 55, 0, 0, 0, 0, 0, 0, 0, 0, 0, 0, 55, 55, 55, 53⟩ -∗ Kt out))
      ⊢ WP c (k0_part143 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v57) Kt := by
  ag_part k0_part143_eq_skeleton k0_part143_skel

set_option maxRecDepth 65536 in
theorem part_144 (m : (ℓ : Loc nD τ sig) → Buf (Elt F) ℓ) (K : CellIx → ℕ) (c : Dev nD) (v8 v9 v12 v14 v16 v18 v23 v59 v4522 : BitVec 32) (Kt : (PUnit) → sProp 𝕄) :
    iprop(Ctx m K ∗ St m c ⟨3, true, 84, 0, 55, 0, 55, 55, 0, 0, 0, 0, 0, 0, 0, 0, 0, 0, 55, 55, 55, 53⟩ ∗ (∀ out, St m c ⟨3, true, 84, 0, 56, 0, 56, 56, 0, 0, 0, 0, 0, 0, 0, 0, 0, 0, 55, 55, 55, 53⟩ -∗ Kt out))
      ⊢ WP c (k0_part144 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v9 v12 v14 v16 v18 v23 v59 v4522) Kt := by
  ag_part k0_part144_eq_skeleton k0_part144_skel

set_option maxRecDepth 65536 in
theorem part_145 (m : (ℓ : Loc nD τ sig) → Buf (Elt F) ℓ) (K : CellIx → ℕ) (c : Dev nD) (v2 v5 v9 v57 : BitVec 32) (Kt : (PUnit) → sProp 𝕄) :
    iprop(Ctx m K ∗ St m c ⟨3, true, 84, 0, 56, 0, 56, 56, 0, 0, 0, 0, 0, 0, 0, 0, 0, 0, 55, 55, 55, 53⟩ ∗ (∀ out, St m c ⟨3, true, 84, 0, 56, 0, 56, 56, 0, 0, 0, 0, 0, 0, 0, 0, 0, 0, 56, 56, 56, 54⟩ -∗ Kt out))
      ⊢ WP c (k0_part145 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v57) Kt := by
  ag_part k0_part145_eq_skeleton k0_part145_skel

set_option maxRecDepth 65536 in
theorem part_146 (m : (ℓ : Loc nD τ sig) → Buf (Elt F) ℓ) (K : CellIx → ℕ) (c : Dev nD) (v8 v12 v14 v16 v18 v23 v59 : BitVec 32) (Kt : (PUnit) → sProp 𝕄) :
    iprop(Ctx m K ∗ St m c ⟨3, true, 84, 0, 56, 0, 56, 56, 0, 0, 0, 0, 0, 0, 0, 0, 0, 0, 56, 56, 56, 54⟩ ∗ (∀ out, St m c ⟨3, true, 84, 0, 57, 0, 57, 57, 0, 0, 0, 0, 0, 0, 0, 0, 0, 0, 56, 56, 56, 54⟩ -∗ Kt out))
      ⊢ WP c (k0_part146 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v23 v59) Kt := by
  ag_part k0_part146_eq_skeleton k0_part146_skel

set_option maxRecDepth 65536 in
theorem part_147 (m : (ℓ : Loc nD τ sig) → Buf (Elt F) ℓ) (K : CellIx → ℕ) (c : Dev nD) (v2 v5 v9 v23 v57 : BitVec 32) (Kt : (BitVec 32) → sProp 𝕄) :
    iprop(Ctx m K ∗ St m c ⟨3, true, 84, 0, 57, 0, 57, 57, 0, 0, 0, 0, 0, 0, 0, 0, 0, 0, 56, 56, 56, 54⟩ ∗ (∀ out, St m c ⟨3, true, 84, 0, 58, 0, 57, 57, 0, 0, 0, 0, 0, 0, 0, 0, 0, 0, 57, 57, 57, 55⟩ -∗ Kt out))
      ⊢ WP c (k0_part147 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57) Kt := by
  ag_part k0_part147_eq_skeleton k0_part147_skel

set_option maxRecDepth 65536 in
theorem part_148 (m : (ℓ : Loc nD τ sig) → Buf (Elt F) ℓ) (K : CellIx → ℕ) (c : Dev nD) (v8 v12 v14 v16 v18 v59 v4645 : BitVec 32) (Kt : (PUnit) → sProp 𝕄) :
    iprop(Ctx m K ∗ St m c ⟨3, true, 84, 0, 58, 0, 57, 57, 0, 0, 0, 0, 0, 0, 0, 0, 0, 0, 57, 57, 57, 55⟩ ∗ (∀ out, St m c ⟨3, true, 84, 0, 58, 0, 58, 58, 0, 0, 0, 0, 0, 0, 0, 0, 0, 0, 57, 57, 57, 56⟩ -∗ Kt out))
      ⊢ WP c (k0_part148 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v59 v4645) Kt := by
  ag_part k0_part148_eq_skeleton k0_part148_skel

set_option maxRecDepth 65536 in
theorem part_149 (m : (ℓ : Loc nD τ sig) → Buf (Elt F) ℓ) (K : CellIx → ℕ) (c : Dev nD) (v2 v5 v9 v23 v57 v59 : BitVec 32) (Kt : (BitVec 32) → sProp 𝕄) :
    iprop(Ctx m K ∗ St m c ⟨3, true, 84, 0, 58, 0, 58, 58, 0, 0, 0, 0, 0, 0, 0, 0, 0, 0, 57, 57, 57, 56⟩ ∗ (∀ out, St m c ⟨3, true, 84, 0, 59, 0, 58, 58, 0, 0, 0, 0, 0, 0, 0, 0, 0, 0, 58, 58, 58, 56⟩ -∗ Kt out))
      ⊢ WP c (k0_part149 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v23 v57 v59) Kt := by
  ag_part k0_part149_eq_skeleton k0_part149_skel

set_option maxRecDepth 65536 in
theorem part_150 (m : (ℓ : Loc nD τ sig) → Buf (Elt F) ℓ) (K : CellIx → ℕ) (c : Dev nD) (v8 v12 v14 v16 v18 c4_i32_3548 : BitVec 32) (Kt : (PUnit) → sProp 𝕄) :
    iprop(Ctx m K ∗ St m c ⟨3, true, 84, 0, 59, 0, 58, 58, 0, 0, 0, 0, 0, 0, 0, 0, 0, 0, 58, 58, 58, 56⟩ ∗ (∀ out, St m c ⟨3, true, 84, 0, 59, 0, 59, 59, 0, 0, 0, 0, 0, 0, 0, 0, 0, 0, 58, 58, 58, 57⟩ -∗ Kt out))
      ⊢ WP c (k0_part150 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 c4_i32_3548) Kt := by
  ag_part k0_part150_eq_skeleton k0_part150_skel

set_option maxRecDepth 65536 in
theorem part_151 (m : (ℓ : Loc nD τ sig) → Buf (Elt F) ℓ) (K : CellIx → ℕ) (c : Dev nD) (v2 v5 v9 v12 v14 v23 v57 v59 : BitVec 32) (Kt : (BitVec 32) → sProp 𝕄) :
    iprop(Ctx m K ∗ St m c ⟨3, true, 84, 0, 59, 0, 59, 59, 0, 0, 0, 0, 0, 0, 0, 0, 0, 0, 58, 58, 58, 57⟩ ∗ (∀ out, St m c ⟨3, true, 84, 0, 60, 0, 59, 59, 0, 0, 0, 0, 0, 0, 0, 0, 0, 0, 59, 59, 59, 57⟩ -∗ Kt out))
      ⊢ WP c (k0_part151 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v12 v14 v23 v57 v59) Kt := by
  ag_part k0_part151_eq_skeleton k0_part151_skel

set_option maxRecDepth 65536 in
theorem part_152 (m : (ℓ : Loc nD τ sig) → Buf (Elt F) ℓ) (K : CellIx → ℕ) (c : Dev nD) (v8 v16 v18 v4767 : BitVec 32) (Kt : (PUnit) → sProp 𝕄) :
    iprop(Ctx m K ∗ St m c ⟨3, true, 84, 0, 60, 0, 59, 59, 0, 0, 0, 0, 0, 0, 0, 0, 0, 0, 59, 59, 59, 57⟩ ∗ (∀ out, St m c ⟨3, true, 84, 0, 60, 0, 60, 60, 0, 0, 0, 0, 0, 0, 0, 0, 0, 0, 60, 59, 59, 58⟩ -∗ Kt out))
      ⊢ WP c (k0_part152 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v4767) Kt := by
  ag_part k0_part152_eq_skeleton k0_part152_skel

set_option maxRecDepth 65536 in
theorem part_153 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 60, 0, 60, 60, 0, 0, 0, 0, 0, 0, 0, 0, 0, 0, 60, 59, 59, 58⟩ ∗ (∀ out, St m c ⟨3, true, 84, 0, 61, 0, 60, 60, 0, 0, 0, 0, 0, 0, 0, 0, 0, 0, 60, 60, 60, 58⟩ -∗ Kt out))
      ⊢ WP c (k0_part153 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part153_eq_skeleton k0_part153_skel

set_option maxRecDepth 65536 in
theorem part_154 (m : (ℓ : Loc nD τ sig) → Buf (Elt F) ℓ) (K : CellIx → ℕ) (c : Dev nD) (v8 v16 v18 : BitVec 32) (Kt : (PUnit) → sProp 𝕄) :
    iprop(Ctx m K ∗ St m c ⟨3, true, 84, 0, 61, 0, 60, 60, 0, 0, 0, 0, 0, 0, 0, 0, 0, 0, 60, 60, 60, 58⟩ ∗ (∀ out, St m c ⟨3, true, 84, 0, 61, 0, 61, 61, 0, 0, 0, 0, 0, 0, 0, 0, 0, 0, 61, 60, 60, 59⟩ -∗ Kt out))
      ⊢ WP c (k0_part154 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18) Kt := by
  ag_part k0_part154_eq_skeleton k0_part154_skel

set_option maxRecDepth 65536 in
theorem part_155 (m : (ℓ : Loc nD τ sig) → Buf (Elt F) ℓ) (K : CellIx → ℕ) (c : Dev nD) (v2 v5 v8 v9 v12 v14 v23 v57 v59 : BitVec 32) (Kt : (PUnit) → sProp 𝕄) :
    iprop(Ctx m K ∗ St m c ⟨3, true, 84, 0, 61, 0, 61, 61, 0, 0, 0, 0, 0, 0, 0, 0, 0, 0, 61, 60, 60, 59⟩ ∗ (∀ out, St m c ⟨3, true, 84, 0, 62, 0, 62, 61, 0, 0, 0, 0, 0, 0, 0, 0, 0, 0, 61, 61, 61, 59⟩ -∗ Kt out))
      ⊢ WP c (k0_part155 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v23 v57 v59) Kt := by
  ag_part k0_part155_eq_skeleton k0_part155_skel

set_option maxRecDepth 65536 in
theorem part_156 (m : (ℓ : Loc nD τ sig) → Buf (Elt F) ℓ) (K : CellIx → ℕ) (c : Dev nD) (v8 v16 v18 v57 : BitVec 32) (Kt : (PUnit) → sProp 𝕄) :
    iprop(Ctx m K ∗ St m c ⟨3, true, 84, 0, 62, 0, 62, 61, 0, 0, 0, 0, 0, 0, 0, 0, 0, 0, 61, 61, 61, 59⟩ ∗ (∀ out, St m c ⟨3, true, 84, 0, 62, 0, 62, 62, 0, 0, 0, 0, 0, 0, 0, 0, 0, 0, 62, 62, 61, 60⟩ -∗ Kt out))
      ⊢ WP c (k0_part156 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v57) Kt := by
  ag_part k0_part156_eq_skeleton k0_part156_skel

set_option maxRecDepth 65536 in
theorem part_157 (m : (ℓ : Loc nD τ sig) → Buf (Elt F) ℓ) (K : CellIx → ℕ) (c : Dev nD) (v2 v5 v8 v9 v12 v14 v16 v23 v59 : BitVec 32) (Kt : (BitVec 32) → sProp 𝕄) :
    iprop(Ctx m K ∗ St m c ⟨3, true, 84, 0, 62, 0, 62, 62, 0, 0, 0, 0, 0, 0, 0, 0, 0, 0, 62, 62, 61, 60⟩ ∗ (∀ out, St m c ⟨3, true, 84, 0, 63, 0, 63, 62, 0, 0, 0, 0, 0, 0, 0, 0, 0, 0, 62, 62, 62, 60⟩ -∗ Kt out))
      ⊢ WP c (k0_part157 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v23 v59) Kt := by
  ag_part k0_part157_eq_skeleton k0_part157_skel

set_option maxRecDepth 65536 in
theorem part_158 (m : (ℓ : Loc nD τ sig) → Buf (Elt F) ℓ) (K : CellIx → ℕ) (c : Dev nD) (v8 v18 v57 v4951 : BitVec 32) (Kt : (PUnit) → sProp 𝕄) :
    iprop(Ctx m K ∗ St m c ⟨3, true, 84, 0, 63, 0, 63, 62, 0, 0, 0, 0, 0, 0, 0, 0, 0, 0, 62, 62, 62, 60⟩ ∗ (∀ out, St m c ⟨3, true, 84, 0, 63, 0, 63, 63, 0, 0, 0, 0, 0, 0, 0, 0, 0, 0, 63, 63, 62, 61⟩ -∗ Kt out))
      ⊢ WP c (k0_part158 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v18 v57 v4951) Kt := by
  ag_part k0_part158_eq_skeleton k0_part158_skel

set_option maxRecDepth 65536 in
theorem part_159 (m : (ℓ : Loc nD τ sig) → Buf (Elt F) ℓ) (K : CellIx → ℕ) (c : Dev nD) (v2 v5 v8 v9 v12 v14 v16 v18 v23 v59 : BitVec 32) (Kt : (PUnit) → sProp 𝕄) :
    iprop(Ctx m K ∗ St m c ⟨3, true, 84, 0, 63, 0, 63, 63, 0, 0, 0, 0, 0, 0, 0, 0, 0, 0, 63, 63, 62, 61⟩ ∗ (∀ out, St m c ⟨3, true, 84, 0, 64, 0, 64, 63, 0, 0, 0, 0, 0, 0, 0, 0, 0, 0, 63, 63, 63, 61⟩ -∗ Kt out))
      ⊢ WP c (k0_part159 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v59) Kt := by
  ag_part k0_part159_eq_skeleton k0_part159_skel

set_option maxRecDepth 65536 in
theorem part_160 (m : (ℓ : Loc nD τ sig) → Buf (Elt F) ℓ) (K : CellIx → ℕ) (c : Dev nD) (v45 v57 v59 : BitVec 32) (Kt : (BitVec 32) → sProp 𝕄) :
    iprop(Ctx m K ∗ St m c ⟨3, true, 84, 0, 64, 0, 64, 63, 0, 0, 0, 0, 0, 0, 0, 0, 0, 0, 63, 63, 63, 61⟩ ∗ (∀ out, St m c ⟨3, true, 84, 0, 64, 0, 64, 64, 0, 0, 0, 0, 0, 0, 0, 0, 0, 0, 64, 64, 64, 62⟩ -∗ Kt out))
      ⊢ WP c (k0_part160 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v45 v57 v59) Kt := by
  ag_part k0_part160_eq_skeleton k0_part160_skel

set_option maxRecDepth 65536 in
theorem part_161 (m : (ℓ : Loc nD τ sig) → Buf (Elt F) ℓ) (K : CellIx → ℕ) (c : Dev nD) (v8 v12 v14 v16 v18 v34 v59 v5042 : BitVec 32) (Kt : (PUnit) → sProp 𝕄) :
    iprop(Ctx m K ∗ St m c ⟨3, true, 84, 0, 64, 0, 64, 64, 0, 0, 0, 0, 0, 0, 0, 0, 0, 0, 64, 64, 64, 62⟩ ∗ (∀ out, St m c ⟨3, true, 84, 0, 64, 0, 64, 64, 0, 0, 1, 0, 1, 0, 0, 0, 0, 0, 64, 64, 64, 62⟩ -∗ Kt out))
      ⊢ WP c (k0_part161 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v59 v5042) Kt := by
  ag_part k0_part161_eq_skeleton k0_part161_skel

set_option maxRecDepth 65536 in
theorem part_162 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 1, 0, 1, 0, 0, 0, 0, 0, 64, 64, 64, 62⟩ ∗ (∀ out, St m c ⟨3, true, 84, 0, 64, 0, 64, 64, 0, 0, 2, 1, 2, 0, 0, 0, 0, 0, 64, 64, 64, 62⟩ -∗ Kt out))
      ⊢ WP c (k0_part162 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part162_eq_skeleton k0_part162_skel

set_option maxRecDepth 65536 in
theorem part_163 (m : (ℓ : Loc nD τ sig) → Buf (Elt F) ℓ) (K : CellIx → ℕ) (c : Dev nD) (v8 v12 v14 v16 v18 v45 v59 v5107 : BitVec 32) (Kt : (PUnit) → sProp 𝕄) :
    iprop(Ctx m K ∗ St m c ⟨3, true, 84, 0, 64, 0, 64, 64, 0, 0, 2, 1, 2, 0, 0, 0, 0, 0, 64, 64, 64, 62⟩ ∗ (∀ out, St m c ⟨3, true, 84, 0, 64, 0, 64, 64, 0, 0, 3, 2, 3, 0, 0, 0, 0, 0, 64, 64, 64, 62⟩ -∗ Kt out))
      ⊢ WP c (k0_part163 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v45 v59 v5107) Kt := by
  ag_part k0_part163_eq_skeleton k0_part163_skel

set_option maxRecDepth 65536 in
theorem part_164 (m : (ℓ : Loc nD τ sig) → Buf (Elt F) ℓ) (K : CellIx → ℕ) (c : Dev nD) (v8 v12 v14 v16 v18 v34 v45 v59 : BitVec 32) (Kt : (PUnit) → sProp 𝕄) :
    iprop(Ctx m K ∗ St m c ⟨3, true, 84, 0, 64, 0, 64, 64, 0, 0, 3, 2, 3, 0, 0, 0, 0, 0, 64, 64, 64, 62⟩ ∗ (∀ out, St m c ⟨3, true, 84, 0, 64, 0, 64, 64, 0, 0, 4, 3, 3, 0, 0, 0, 0, 0, 64, 64, 64, 62⟩ -∗ Kt out))
      ⊢ WP c (k0_part164 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part164_eq_skeleton k0_part164_skel

set_option maxRecDepth 65536 in
theorem part_165 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 4, 3, 3, 0, 0, 0, 0, 0, 64, 64, 64, 62⟩ ∗ (∀ out, St m c ⟨3, true, 84, 0, 64, 0, 64, 64, 0, 0, 5, 4, 4, 0, 0, 0, 0, 0, 64, 64, 64, 62⟩ -∗ Kt out))
      ⊢ WP c (k0_part165 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part165_eq_skeleton k0_part165_skel

set_option maxRecDepth 65536 in
theorem part_166 (m : (ℓ : Loc nD τ sig) → Buf (Elt F) ℓ) (K : CellIx → ℕ) (c : Dev nD) (v8 v12 v14 v16 v18 v34 v45 v59 c4_i32_3948 : BitVec 32) (Kt : (PUnit) → sProp 𝕄) :
    iprop(Ctx m K ∗ St m c ⟨3, true, 84, 0, 64, 0, 64, 64, 0, 0, 5, 4, 4, 0, 0, 0, 0, 0, 64, 64, 64, 62⟩ ∗ (∀ out, St m c ⟨3, true, 84, 0, 64, 0, 64, 64, 0, 0, 5, 5, 5, 0, 0, 0, 0, 0, 64, 64, 64, 62⟩ -∗ Kt out))
      ⊢ WP c (k0_part166 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 c4_i32_3948) Kt := by
  ag_part k0_part166_eq_skeleton k0_part166_skel

set_option maxRecDepth 65536 in
theorem part_167 (m : (ℓ : Loc nD τ sig) → Buf (Elt F) ℓ) (K : CellIx → ℕ) (c : Dev nD) (v8 v12 v14 v16 v34 v45 v59 : BitVec 32) (Kt : (BitVec 32) → sProp 𝕄) :
    iprop(Ctx m K ∗ St m c ⟨3, true, 84, 0, 64, 0, 64, 64, 0, 0, 5, 5, 5, 0, 0, 0, 0, 0, 64, 64, 64, 62⟩ ∗ (∀ out, St m c ⟨3, true, 84, 0, 64, 0, 64, 64, 0, 0, 6, 6, 6, 0, 0, 0, 0, 0, 64, 64, 64, 62⟩ -∗ Kt out))
      ⊢ WP c (k0_part167 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v34 v45 v59) Kt := by
  ag_part k0_part167_eq_skeleton k0_part167_skel

set_option maxRecDepth 65536 in
theorem part_168 (m : (ℓ : Loc nD τ sig) → Buf (Elt F) ℓ) (K : CellIx → ℕ) (c : Dev nD) (v8 v12 v14 v18 v34 v59 v5272 : BitVec 32) (Kt : (PUnit) → sProp 𝕄) :
    iprop(Ctx m K ∗ St m c ⟨3, true, 84, 0, 64, 0, 64, 64, 0, 0, 6, 6, 6, 0, 0, 0, 0, 0, 64, 64, 64, 62⟩ ∗ (∀ out, St m c ⟨3, true, 84, 0, 64, 0, 64, 64, 0, 0, 7, 7, 7, 0, 0, 0, 0, 0, 64, 64, 64, 62⟩ -∗ Kt out))
      ⊢ WP c (k0_part168 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v18 v34 v59 v5272) Kt := by
  ag_part k0_part168_eq_skeleton k0_part168_skel

set_option maxRecDepth 65536 in
theorem part_169 (m : (ℓ : Loc nD τ sig) → Buf (Elt F) ℓ) (K : CellIx → ℕ) (c : Dev nD) (v8 v12 v14 v16 v18 v34 v45 v59 : BitVec 32) (Kt : (Σ' (v5338 : BitVec 32), BitVec 32) → sProp 𝕄) :
    iprop(Ctx m K ∗ St m c ⟨3, true, 84, 0, 64, 0, 64, 64, 0, 0, 7, 7, 7, 0, 0, 0, 0, 0, 64, 64, 64, 62⟩ ∗ (∀ out, St m c ⟨3, true, 84, 0, 64, 0, 64, 64, 0, 0, 8, 7, 8, 0, 0, 0, 0, 0, 64, 64, 64, 62⟩ -∗ Kt out))
      ⊢ WP c (k0_part169 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part169_eq_skeleton k0_part169_skel

set_option maxRecDepth 65536 in
theorem part_170 (m : (ℓ : Loc nD τ sig) → Buf (Elt F) ℓ) (K : CellIx → ℕ) (c : Dev nD) (v8 v12 v14 v16 v18 v34 v45 v59 v5338 c1_i32_4045 : BitVec 32) (Kt : (PUnit) → sProp 𝕄) :
    iprop(Ctx m K ∗ St m c ⟨3, true, 84, 0, 64, 0, 64, 64, 0, 0, 8, 7, 8, 0, 0, 0, 0, 0, 64, 64, 64, 62⟩ ∗ (∀ out, St m c ⟨3, true, 84, 0, 64, 0, 64, 64, 0, 0, 9, 8, 9, 0, 0, 0, 0, 0, 64, 64, 64, 62⟩ -∗ Kt out))
      ⊢ WP c (k0_part170 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v5338 c1_i32_4045) Kt := by
  ag_part k0_part170_eq_skeleton k0_part170_skel

set_option maxRecDepth 65536 in
theorem part_171 (m : (ℓ : Loc nD τ sig) → Buf (Elt F) ℓ) (K : CellIx → ℕ) (c : Dev nD) (v8 v12 v14 v16 v18 v45 v59 : BitVec 32) (Kt : (PUnit) → sProp 𝕄) :
    iprop(Ctx m K ∗ St m c ⟨3, true, 84, 0, 64, 0, 64, 64, 0, 0, 9, 8, 9, 0, 0, 0, 0, 0, 64, 64, 64, 62⟩ ∗ (∀ out, St m c ⟨3, true, 84, 0, 64, 0, 64, 64, 0, 0, 10, 9, 9, 0, 0, 0, 0, 0, 64, 64, 64, 62⟩ -∗ Kt out))
      ⊢ WP c (k0_part171 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v45 v59) Kt := by
  ag_part k0_part171_eq_skeleton k0_part171_skel

set_option maxRecDepth 65536 in
theorem part_172 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 10, 9, 9, 0, 0, 0, 0, 0, 64, 64, 64, 62⟩ ∗ (∀ out, St m c ⟨3, true, 84, 0, 64, 0, 64, 64, 0, 0, 11, 10, 10, 0, 0, 0, 0, 0, 64, 64, 64, 62⟩ -∗ Kt out))
      ⊢ WP c (k0_part172 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part172_eq_skeleton k0_part172_skel

set_option maxRecDepth 65536 in
theorem part_173 (m : (ℓ : Loc nD τ sig) → Buf (Elt F) ℓ) (K : CellIx → ℕ) (c : Dev nD) (v8 v12 v14 v16 v18 v34 v45 v59 v5437 : BitVec 32) (Kt : (PUnit) → sProp 𝕄) :
    iprop(Ctx m K ∗ St m c ⟨3, true, 84, 0, 64, 0, 64, 64, 0, 0, 11, 10, 10, 0, 0, 0, 0, 0, 64, 64, 64, 62⟩ ∗ (∀ out, St m c ⟨3, true, 84, 0, 64, 0, 64, 64, 0, 0, 12, 11, 11, 0, 0, 0, 0, 0, 64, 64, 64, 62⟩ -∗ Kt out))
      ⊢ WP c (k0_part173 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v5437) Kt := by
  ag_part k0_part173_eq_skeleton k0_part173_skel

set_option maxRecDepth 65536 in
theorem part_174 (m : (ℓ : Loc nD τ sig) → Buf (Elt F) ℓ) (K : CellIx → ℕ) (c : Dev nD) (v8 v12 v14 v16 v18 v34 v45 v59 : BitVec 32) (Kt : (Σ' (v5503 : BitVec 32), BitVec 32) → sProp 𝕄) :
    iprop(Ctx m K ∗ St m c ⟨3, true, 84, 0, 64, 0, 64, 64, 0, 0, 12, 11, 11, 0, 0, 0, 0, 0, 64, 64, 64, 62⟩ ∗ (∀ out, St m c ⟨3, true, 84, 0, 64, 0, 64, 64, 0, 0, 12, 12, 12, 0, 0, 0, 0, 0, 64, 64, 64, 62⟩ -∗ Kt out))
      ⊢ WP c (k0_part174 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part174_eq_skeleton k0_part174_skel

set_option maxRecDepth 65536 in
theorem part_175 (m : (ℓ : Loc nD τ sig) → Buf (Elt F) ℓ) (K : CellIx → ℕ) (c : Dev nD) (v8 v12 v14 v34 v45 v59 v5503 c1_i32_4167 : BitVec 32) (Kt : (PUnit) → sProp 𝕄) :
    iprop(Ctx m K ∗ St m c ⟨3, true, 84, 0, 64, 0, 64, 64, 0, 0, 12, 12, 12, 0, 0, 0, 0, 0, 64, 64, 64, 62⟩ ∗ (∀ out, St m c ⟨3, true, 84, 0, 64, 0, 64, 64, 0, 0, 13, 13, 13, 0, 0, 0, 0, 0, 64, 64, 64, 62⟩ -∗ Kt out))
      ⊢ WP c (k0_part175 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v34 v45 v59 v5503 c1_i32_4167) Kt := by
  ag_part k0_part175_eq_skeleton k0_part175_skel

set_option maxRecDepth 65536 in
theorem part_176 (m : (ℓ : Loc nD τ sig) → Buf (Elt F) ℓ) (K : CellIx → ℕ) (c : Dev nD) (v8 v12 v14 v16 v18 v34 v59 : BitVec 32) (Kt : (PUnit) → sProp 𝕄) :
    iprop(Ctx m K ∗ St m c ⟨3, true, 84, 0, 64, 0, 64, 64, 0, 0, 13, 13, 13, 0, 0, 0, 0, 0, 64, 64, 64, 62⟩ ∗ (∀ out, St m c ⟨3, true, 84, 0, 64, 0, 64, 64, 0, 0, 14, 13, 14, 0, 0, 0, 0, 0, 64, 64, 64, 62⟩ -∗ Kt out))
      ⊢ WP c (k0_part176 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v59) Kt := by
  ag_part k0_part176_eq_skeleton k0_part176_skel

set_option maxRecDepth 65536 in
theorem part_177 (m : (ℓ : Loc nD τ sig) → Buf (Elt F) ℓ) (K : CellIx → ℕ) (c : Dev nD) (v8 v12 v14 v16 v18 v34 v45 v59 : BitVec 32) (Kt : (Σ' (v5602 : BitVec 32), BitVec 32) → sProp 𝕄) :
    iprop(Ctx m K ∗ St m c ⟨3, true, 84, 0, 64, 0, 64, 64, 0, 0, 14, 13, 14, 0, 0, 0, 0, 0, 64, 64, 64, 62⟩ ∗ (∀ out, St m c ⟨3, true, 84, 0, 64, 0, 64, 64, 0, 0, 15, 14, 15, 0, 0, 0, 0, 0, 64, 64, 64, 62⟩ -∗ Kt out))
      ⊢ WP c (k0_part177 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part177_eq_skeleton k0_part177_skel

set_option maxRecDepth 65536 in
theorem part_178 (m : (ℓ : Loc nD τ sig) → Buf (Elt F) ℓ) (K : CellIx → ℕ) (c : Dev nD) (v8 v12 v14 v16 v18 v34 v45 v59 v5602 c2_i32_4240 : BitVec 32) (Kt : (BitVec 32) → sProp 𝕄) :
    iprop(Ctx m K ∗ St m c ⟨3, true, 84, 0, 64, 0, 64, 64, 0, 0, 15, 14, 15, 0, 0, 0, 0, 0, 64, 64, 64, 62⟩ ∗ (∀ out, St m c ⟨3, true, 84, 0, 64, 0, 64, 64, 0, 0, 16, 15, 16, 0, 0, 0, 0, 0, 64, 64, 64, 62⟩ -∗ Kt out))
      ⊢ WP c (k0_part178 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v5602 c2_i32_4240) Kt := by
  ag_part k0_part178_eq_skeleton k0_part178_skel

set_option maxRecDepth 65536 in
theorem part_179 (m : (ℓ : Loc nD τ sig) → Buf (Elt F) ℓ) (K : CellIx → ℕ) (c : Dev nD) (v8 v12 v14 v16 v18 v45 v59 v5637 : BitVec 32) (Kt : (PUnit) → sProp 𝕄) :
    iprop(Ctx m K ∗ St m c ⟨3, true, 84, 0, 64, 0, 64, 64, 0, 0, 16, 15, 16, 0, 0, 0, 0, 0, 64, 64, 64, 62⟩ ∗ (∀ out, St m c ⟨3, true, 84, 0, 64, 0, 64, 64, 0, 0, 17, 16, 16, 0, 0, 0, 0, 0, 64, 64, 64, 62⟩ -∗ Kt out))
      ⊢ WP c (k0_part179 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v45 v59 v5637) Kt := by
  ag_part k0_part179_eq_skeleton k0_part179_skel

set_option maxRecDepth 65536 in
theorem part_180 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 17, 16, 16, 0, 0, 0, 0, 0, 64, 64, 64, 62⟩ ∗ (∀ out, St m c ⟨3, true, 84, 0, 64, 0, 64, 64, 0, 0, 18, 17, 17, 0, 0, 0, 0, 0, 64, 64, 64, 62⟩ -∗ Kt out))
      ⊢ WP c (k0_part180 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part180_eq_skeleton k0_part180_skel

set_option maxRecDepth 65536 in
theorem part_181 (m : (ℓ : Loc nD τ sig) → Buf (Elt F) ℓ) (K : CellIx → ℕ) (c : Dev nD) (v8 v12 v14 v16 v18 v34 v45 v59 v5701 : BitVec 32) (Kt : (PUnit) → sProp 𝕄) :
    iprop(Ctx m K ∗ St m c ⟨3, true, 84, 0, 64, 0, 64, 64, 0, 0, 18, 17, 17, 0, 0, 0, 0, 0, 64, 64, 64, 62⟩ ∗ (∀ out, St m c ⟨3, true, 84, 0, 64, 0, 64, 64, 0, 0, 18, 18, 18, 0, 0, 0, 0, 0, 64, 64, 64, 62⟩ -∗ Kt out))
      ⊢ WP c (k0_part181 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v5701) Kt := by
  ag_part k0_part181_eq_skeleton k0_part181_skel

set_option maxRecDepth 65536 in
theorem part_182 (m : (ℓ : Loc nD τ sig) → Buf (Elt F) ℓ) (K : CellIx → ℕ) (c : Dev nD) (v8 v12 v14 v16 v34 v45 v59 : BitVec 32) (Kt : (Σ' (v5767 : BitVec 32), BitVec 32) → sProp 𝕄) :
    iprop(Ctx m K ∗ St m c ⟨3, true, 84, 0, 64, 0, 64, 64, 0, 0, 18, 18, 18, 0, 0, 0, 0, 0, 64, 64, 64, 62⟩ ∗ (∀ out, St m c ⟨3, true, 84, 0, 64, 0, 64, 64, 0, 0, 19, 19, 19, 0, 0, 0, 0, 0, 64, 64, 64, 62⟩ -∗ Kt out))
      ⊢ WP c (k0_part182 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v34 v45 v59) Kt := by
  ag_part k0_part182_eq_skeleton k0_part182_skel

set_option maxRecDepth 65536 in
theorem part_183 (m : (ℓ : Loc nD τ sig) → Buf (Elt F) ℓ) (K : CellIx → ℕ) (c : Dev nD) (v8 v12 v14 v18 v34 v45 v59 v5767 c2_i32_4362 : BitVec 32) (Kt : (BitVec 32) → sProp 𝕄) :
    iprop(Ctx m K ∗ St m c ⟨3, true, 84, 0, 64, 0, 64, 64, 0, 0, 19, 19, 19, 0, 0, 0, 0, 0, 64, 64, 64, 62⟩ ∗ (∀ out, St m c ⟨3, true, 84, 0, 64, 0, 64, 64, 0, 0, 20, 20, 20, 0, 0, 0, 0, 0, 64, 64, 64, 62⟩ -∗ Kt out))
      ⊢ WP c (k0_part183 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v18 v34 v45 v59 v5767 c2_i32_4362) Kt := by
  ag_part k0_part183_eq_skeleton k0_part183_skel

set_option maxRecDepth 65536 in
theorem part_184 (m : (ℓ : Loc nD τ sig) → Buf (Elt F) ℓ) (K : CellIx → ℕ) (c : Dev nD) (v8 v12 v14 v16 v18 v34 v59 v5802 : BitVec 32) (Kt : (PUnit) → sProp 𝕄) :
    iprop(Ctx m K ∗ St m c ⟨3, true, 84, 0, 64, 0, 64, 64, 0, 0, 20, 20, 20, 0, 0, 0, 0, 0, 64, 64, 64, 62⟩ ∗ (∀ out, St m c ⟨3, true, 84, 0, 64, 0, 64, 64, 0, 0, 21, 20, 21, 0, 0, 0, 0, 0, 64, 64, 64, 62⟩ -∗ Kt out))
      ⊢ WP c (k0_part184 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v59 v5802) Kt := by
  ag_part k0_part184_eq_skeleton k0_part184_skel

set_option maxRecDepth 65536 in
theorem part_185 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 21, 20, 21, 0, 0, 0, 0, 0, 64, 64, 64, 62⟩ ∗ (∀ out, St m c ⟨3, true, 84, 0, 64, 0, 64, 64, 0, 0, 22, 21, 22, 0, 0, 0, 0, 0, 64, 64, 64, 62⟩ -∗ Kt out))
      ⊢ WP c (k0_part185 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part185_eq_skeleton k0_part185_skel

set_option maxRecDepth 65536 in
theorem part_186 (m : (ℓ : Loc nD τ sig) → Buf (Elt F) ℓ) (K : CellIx → ℕ) (c : Dev nD) (v8 v12 v14 v16 v18 v34 v45 v59 v5867 : BitVec 32) (Kt : (PUnit) → sProp 𝕄) :
    iprop(Ctx m K ∗ St m c ⟨3, true, 84, 0, 64, 0, 64, 64, 0, 0, 22, 21, 22, 0, 0, 0, 0, 0, 64, 64, 64, 62⟩ ∗ (∀ out, St m c ⟨3, true, 84, 0, 64, 0, 64, 64, 0, 0, 23, 22, 22, 0, 0, 0, 0, 0, 64, 64, 64, 62⟩ -∗ Kt out))
      ⊢ WP c (k0_part186 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v5867) Kt := by
  ag_part k0_part186_eq_skeleton k0_part186_skel

set_option maxRecDepth 65536 in
theorem part_187 (m : (ℓ : Loc nD τ sig) → Buf (Elt F) ℓ) (K : CellIx → ℕ) (c : Dev nD) (v8 v12 v16 v18 v34 v45 v59 : BitVec 32) (Kt : (Σ' (v5932 : BitVec 32), BitVec 32) → sProp 𝕄) :
    iprop(Ctx m K ∗ St m c ⟨3, true, 84, 0, 64, 0, 64, 64, 0, 0, 23, 22, 22, 0, 0, 0, 0, 0, 64, 64, 64, 62⟩ ∗ (∀ out, St m c ⟨3, true, 84, 0, 64, 0, 64, 64, 0, 0, 24, 23, 22, 1, 0, 0, 0, 0, 64, 64, 64, 62⟩ -∗ Kt out))
      ⊢ WP c (k0_part187 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v16 v18 v34 v45 v59) Kt := by
  ag_part k0_part187_eq_skeleton k0_part187_skel

set_option maxRecDepth 65536 in
theorem part_188 (m : (ℓ : Loc nD τ sig) → Buf (Elt F) ℓ) (K : CellIx → ℕ) (c : Dev nD) (v8 v14 v16 v18 v34 v45 v59 v5932 c2_i32_4484 : BitVec 32) (Kt : (BitVec 32) → sProp 𝕄) :
    iprop(Ctx m K ∗ St m c ⟨3, true, 84, 0, 64, 0, 64, 64, 0, 0, 24, 23, 22, 1, 0, 0, 0, 0, 64, 64, 64, 62⟩ ∗ (∀ out, St m c ⟨3, true, 84, 0, 64, 0, 64, 64, 0, 0, 25, 24, 22, 2, 0, 0, 0, 0, 64, 64, 64, 62⟩ -∗ Kt out))
      ⊢ WP c (k0_part188 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v14 v16 v18 v34 v45 v59 v5932 c2_i32_4484) Kt := by
  ag_part k0_part188_eq_skeleton k0_part188_skel

set_option maxRecDepth 65536 in
theorem part_189 (m : (ℓ : Loc nD τ sig) → Buf (Elt F) ℓ) (K : CellIx → ℕ) (c : Dev nD) (v8 v12 v14 v16 v18 v45 v59 v5967 : BitVec 32) (Kt : (PUnit) → sProp 𝕄) :
    iprop(Ctx m K ∗ St m c ⟨3, true, 84, 0, 64, 0, 64, 64, 0, 0, 25, 24, 22, 2, 0, 0, 0, 0, 64, 64, 64, 62⟩ ∗ (∀ out, St m c ⟨3, true, 84, 0, 64, 0, 64, 64, 0, 0, 25, 25, 22, 3, 0, 0, 0, 0, 64, 64, 64, 62⟩ -∗ Kt out))
      ⊢ WP c (k0_part189 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v45 v59 v5967) Kt := by
  ag_part k0_part189_eq_skeleton k0_part189_skel

set_option maxRecDepth 65536 in
theorem part_190 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 25, 25, 22, 3, 0, 0, 0, 0, 64, 64, 64, 62⟩ ∗ (∀ out, St m c ⟨3, true, 84, 0, 64, 0, 64, 64, 0, 0, 26, 26, 22, 4, 0, 0, 0, 0, 64, 64, 64, 62⟩ -∗ Kt out))
      ⊢ WP c (k0_part190 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part190_eq_skeleton k0_part190_skel

set_option maxRecDepth 65536 in
theorem part_191 (m : (ℓ : Loc nD τ sig) → Buf (Elt F) ℓ) (K : CellIx → ℕ) (c : Dev nD) (v8 v12 v14 v16 v18 v34 v59 v6032 : BitVec 32) (Kt : (PUnit) → sProp 𝕄) :
    iprop(Ctx m K ∗ St m c ⟨3, true, 84, 0, 64, 0, 64, 64, 0, 0, 26, 26, 22, 4, 0, 0, 0, 0, 64, 64, 64, 62⟩ ∗ (∀ out, St m c ⟨3, true, 84, 0, 64, 0, 64, 64, 0, 0, 27, 27, 22, 5, 0, 0, 0, 0, 64, 64, 64, 62⟩ -∗ Kt out))
      ⊢ WP c (k0_part191 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v59 v6032) Kt := by
  ag_part k0_part191_eq_skeleton k0_part191_skel

set_option maxRecDepth 65536 in
theorem part_192 (m : (ℓ : Loc nD τ sig) → Buf (Elt F) ℓ) (K : CellIx → ℕ) (c : Dev nD) (v8 v12 v14 v16 v18 v34 v45 v59 : BitVec 32) (Kt : (PUnit) → sProp 𝕄) :
    iprop(Ctx m K ∗ St m c ⟨3, true, 84, 0, 64, 0, 64, 64, 0, 0, 27, 27, 22, 5, 0, 0, 0, 0, 64, 64, 64, 62⟩ ∗ (∀ out, St m c ⟨3, true, 84, 0, 64, 0, 64, 64, 0, 0, 28, 28, 22, 5, 0, 0, 0, 0, 64, 64, 64, 62⟩ -∗ Kt out))
      ⊢ WP c (k0_part192 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part192_eq_skeleton k0_part192_skel

set_option maxRecDepth 65536 in
theorem part_193 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 28, 28, 22, 5, 0, 0, 0, 0, 64, 64, 64, 62⟩ ∗ (∀ out, St m c ⟨3, true, 84, 0, 64, 0, 64, 64, 0, 0, 29, 29, 22, 6, 0, 0, 0, 0, 64, 64, 64, 62⟩ -∗ Kt out))
      ⊢ WP c (k0_part193 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part193_eq_skeleton k0_part193_skel

set_option maxRecDepth 65536 in
theorem part_194 (m : (ℓ : Loc nD τ sig) → Buf (Elt F) ℓ) (K : CellIx → ℕ) (c : Dev nD) (v8 v12 v14 v16 v18 v34 v45 v59 c4_i32_4630 : BitVec 32) (Kt : (PUnit) → sProp 𝕄) :
    iprop(Ctx m K ∗ St m c ⟨3, true, 84, 0, 64, 0, 64, 64, 0, 0, 29, 29, 22, 6, 0, 0, 0, 0, 64, 64, 64, 62⟩ ∗ (∀ out, St m c ⟨3, true, 84, 0, 64, 0, 64, 64, 0, 0, 30, 29, 22, 7, 0, 0, 0, 0, 64, 64, 64, 62⟩ -∗ Kt out))
      ⊢ WP c (k0_part194 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 c4_i32_4630) Kt := by
  ag_part k0_part194_eq_skeleton k0_part194_skel

set_option maxRecDepth 65536 in
theorem part_195 (m : (ℓ : Loc nD τ sig) → Buf (Elt F) ℓ) (K : CellIx → ℕ) (c : Dev nD) (v8 v12 v16 v18 v34 v45 v59 : BitVec 32) (Kt : (BitVec 32) → sProp 𝕄) :
    iprop(Ctx m K ∗ St m c ⟨3, true, 84, 0, 64, 0, 64, 64, 0, 0, 30, 29, 22, 7, 0, 0, 0, 0, 64, 64, 64, 62⟩ ∗ (∀ out, St m c ⟨3, true, 84, 0, 64, 0, 64, 64, 0, 0, 31, 30, 22, 8, 0, 0, 0, 0, 64, 64, 64, 62⟩ -∗ Kt out))
      ⊢ WP c (k0_part195 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v16 v18 v34 v45 v59) Kt := by
  ag_part k0_part195_eq_skeleton k0_part195_skel

set_option maxRecDepth 65536 in
theorem part_196 (m : (ℓ : Loc nD τ sig) → Buf (Elt F) ℓ) (K : CellIx → ℕ) (c : Dev nD) (v8 v14 v16 v18 v45 v59 v6197 : BitVec 32) (Kt : (PUnit) → sProp 𝕄) :
    iprop(Ctx m K ∗ St m c ⟨3, true, 84, 0, 64, 0, 64, 64, 0, 0, 31, 30, 22, 8, 0, 0, 0, 0, 64, 64, 64, 62⟩ ∗ (∀ out, St m c ⟨3, true, 84, 0, 64, 0, 64, 64, 0, 0, 32, 31, 22, 9, 0, 0, 0, 0, 64, 64, 64, 62⟩ -∗ Kt out))
      ⊢ WP c (k0_part196 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v14 v16 v18 v45 v59 v6197) Kt := by
  ag_part k0_part196_eq_skeleton k0_part196_skel

set_option maxRecDepth 65536 in
theorem part_197 (m : (ℓ : Loc nD τ sig) → Buf (Elt F) ℓ) (K : CellIx → ℕ) (c : Dev nD) (v8 v12 v14 v16 v18 v34 v45 v59 : BitVec 32) (Kt : (Σ' (v6263 : BitVec 32), BitVec 32) → sProp 𝕄) :
    iprop(Ctx m K ∗ St m c ⟨3, true, 84, 0, 64, 0, 64, 64, 0, 0, 32, 31, 22, 9, 0, 0, 0, 0, 64, 64, 64, 62⟩ ∗ (∀ out, St m c ⟨3, true, 84, 0, 64, 0, 64, 64, 0, 0, 32, 32, 22, 10, 0, 0, 0, 0, 64, 64, 64, 62⟩ -∗ Kt out))
      ⊢ WP c (k0_part197 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part197_eq_skeleton k0_part197_skel

set_option maxRecDepth 65536 in
theorem part_198 (m : (ℓ : Loc nD τ sig) → Buf (Elt F) ℓ) (K : CellIx → ℕ) (c : Dev nD) (v8 v12 v14 v16 v18 v34 v45 v59 v6263 c1_i32_4727 : BitVec 32) (Kt : (PUnit) → sProp 𝕄) :
    iprop(Ctx m K ∗ St m c ⟨3, true, 84, 0, 64, 0, 64, 64, 0, 0, 32, 32, 22, 10, 0, 0, 0, 0, 64, 64, 64, 62⟩ ∗ (∀ out, St m c ⟨3, true, 84, 0, 64, 0, 64, 64, 0, 0, 33, 33, 22, 11, 0, 0, 0, 0, 64, 64, 64, 62⟩ -∗ Kt out))
      ⊢ WP c (k0_part198 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6263 c1_i32_4727) Kt := by
  ag_part k0_part198_eq_skeleton k0_part198_skel

set_option maxRecDepth 65536 in
theorem part_199 (m : (ℓ : Loc nD τ sig) → Buf (Elt F) ℓ) (K : CellIx → ℕ) (c : Dev nD) (v8 v12 v14 v16 v18 v34 v59 : BitVec 32) (Kt : (PUnit) → sProp 𝕄) :
    iprop(Ctx m K ∗ St m c ⟨3, true, 84, 0, 64, 0, 64, 64, 0, 0, 33, 33, 22, 11, 0, 0, 0, 0, 64, 64, 64, 62⟩ ∗ (∀ out, St m c ⟨3, true, 84, 0, 64, 0, 64, 64, 0, 0, 34, 34, 22, 11, 0, 0, 0, 0, 64, 64, 64, 62⟩ -∗ Kt out))
      ⊢ WP c (k0_part199 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v59) Kt := by
  ag_part k0_part199_eq_skeleton k0_part199_skel

set_option maxRecDepth 65536 in
theorem part_200 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 34, 34, 22, 11, 0, 0, 0, 0, 64, 64, 64, 62⟩ ∗ (∀ out, St m c ⟨3, true, 84, 0, 64, 0, 64, 64, 0, 0, 35, 35, 22, 12, 0, 0, 0, 0, 64, 64, 64, 62⟩ -∗ Kt out))
      ⊢ WP c (k0_part200 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part200_eq_skeleton k0_part200_skel

set_option maxRecDepth 65536 in
theorem part_201 (m : (ℓ : Loc nD τ sig) → Buf (Elt F) ℓ) (K : CellIx → ℕ) (c : Dev nD) (v8 v12 v14 v16 v18 v34 v45 v59 v6362 : BitVec 32) (Kt : (PUnit) → sProp 𝕄) :
    iprop(Ctx m K ∗ St m c ⟨3, true, 84, 0, 64, 0, 64, 64, 0, 0, 35, 35, 22, 12, 0, 0, 0, 0, 64, 64, 64, 62⟩ ∗ (∀ out, St m c ⟨3, true, 84, 0, 64, 0, 64, 64, 0, 0, 36, 36, 22, 13, 0, 0, 0, 0, 64, 64, 64, 62⟩ -∗ Kt out))
      ⊢ WP c (k0_part201 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6362) Kt := by
  ag_part k0_part201_eq_skeleton k0_part201_skel

set_option maxRecDepth 65536 in
theorem part_202 (m : (ℓ : Loc nD τ sig) → Buf (Elt F) ℓ) (K : CellIx → ℕ) (c : Dev nD) (v8 v12 v14 v16 v18 v34 v45 v59 : BitVec 32) (Kt : (Σ' (v6428 : BitVec 32), BitVec 32) → sProp 𝕄) :
    iprop(Ctx m K ∗ St m c ⟨3, true, 84, 0, 64, 0, 64, 64, 0, 0, 36, 36, 22, 13, 0, 0, 0, 0, 64, 64, 64, 62⟩ ∗ (∀ out, St m c ⟨3, true, 84, 0, 64, 0, 64, 64, 0, 0, 37, 36, 22, 14, 0, 0, 0, 0, 64, 64, 64, 62⟩ -∗ Kt out))
      ⊢ WP c (k0_part202 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part202_eq_skeleton k0_part202_skel

set_option maxRecDepth 65536 in
theorem part_203 (m : (ℓ : Loc nD τ sig) → Buf (Elt F) ℓ) (K : CellIx → ℕ) (c : Dev nD) (v8 v16 v18 v34 v45 v59 v6428 c1_i32_4849 : BitVec 32) (Kt : (PUnit) → sProp 𝕄) :
    iprop(Ctx m K ∗ St m c ⟨3, true, 84, 0, 64, 0, 64, 64, 0, 0, 37, 36, 22, 14, 0, 0, 0, 0, 64, 64, 64, 62⟩ ∗ (∀ out, St m c ⟨3, true, 84, 0, 64, 0, 64, 64, 0, 0, 38, 37, 22, 15, 0, 0, 0, 0, 64, 64, 64, 62⟩ -∗ Kt out))
      ⊢ WP c (k0_part203 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v34 v45 v59 v6428 c1_i32_4849) Kt := by
  ag_part k0_part203_eq_skeleton k0_part203_skel

set_option maxRecDepth 65536 in
theorem part_204 (m : (ℓ : Loc nD τ sig) → Buf (Elt F) ℓ) (K : CellIx → ℕ) (c : Dev nD) (v8 v12 v14 v16 v18 v45 v59 : BitVec 32) (Kt : (PUnit) → sProp 𝕄) :
    iprop(Ctx m K ∗ St m c ⟨3, true, 84, 0, 64, 0, 64, 64, 0, 0, 38, 37, 22, 15, 0, 0, 0, 0, 64, 64, 64, 62⟩ ∗ (∀ out, St m c ⟨3, true, 84, 0, 64, 0, 64, 64, 0, 0, 38, 38, 22, 16, 0, 0, 0, 0, 64, 64, 64, 62⟩ -∗ Kt out))
      ⊢ WP c (k0_part204 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v45 v59) Kt := by
  ag_part k0_part204_eq_skeleton k0_part204_skel

set_option maxRecDepth 65536 in
theorem part_205 (m : (ℓ : Loc nD τ sig) → Buf (Elt F) ℓ) (K : CellIx → ℕ) (c : Dev nD) (v8 v12 v14 v16 v18 v34 v45 v59 : BitVec 32) (Kt : (Σ' (v6527 : BitVec 32), BitVec 32) → sProp 𝕄) :
    iprop(Ctx m K ∗ St m c ⟨3, true, 84, 0, 64, 0, 64, 64, 0, 0, 38, 38, 22, 16, 0, 0, 0, 0, 64, 64, 64, 62⟩ ∗ (∀ out, St m c ⟨3, true, 84, 0, 64, 0, 64, 64, 0, 0, 39, 39, 22, 17, 0, 0, 0, 0, 64, 64, 64, 62⟩ -∗ Kt out))
      ⊢ WP c (k0_part205 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part205_eq_skeleton k0_part205_skel

set_option maxRecDepth 65536 in
theorem part_206 (m : (ℓ : Loc nD τ sig) → Buf (Elt F) ℓ) (K : CellIx → ℕ) (c : Dev nD) (v8 v12 v14 v16 v18 v34 v45 v59 v6527 c2_i32_4922 : BitVec 32) (Kt : (BitVec 32) → sProp 𝕄) :
    iprop(Ctx m K ∗ St m c ⟨3, true, 84, 0, 64, 0, 64, 64, 0, 0, 39, 39, 22, 17, 0, 0, 0, 0, 64, 64, 64, 62⟩ ∗ (∀ out, St m c ⟨3, true, 84, 0, 64, 0, 64, 64, 0, 0, 40, 40, 22, 18, 0, 0, 0, 0, 64, 64, 64, 62⟩ -∗ Kt out))
      ⊢ WP c (k0_part206 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6527 c2_i32_4922) Kt := by
  ag_part k0_part206_eq_skeleton k0_part206_skel

set_option maxRecDepth 65536 in
theorem part_207 (m : (ℓ : Loc nD τ sig) → Buf (Elt F) ℓ) (K : CellIx → ℕ) (c : Dev nD) (v8 v12 v14 v16 v18 v34 v59 v6562 : BitVec 32) (Kt : (PUnit) → sProp 𝕄) :
    iprop(Ctx m K ∗ St m c ⟨3, true, 84, 0, 64, 0, 64, 64, 0, 0, 40, 40, 22, 18, 0, 0, 0, 0, 64, 64, 64, 62⟩ ∗ (∀ out, St m c ⟨3, true, 84, 0, 64, 0, 64, 64, 0, 0, 41, 41, 22, 18, 0, 0, 0, 0, 64, 64, 64, 62⟩ -∗ Kt out))
      ⊢ WP c (k0_part207 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v59 v6562) Kt := by
  ag_part k0_part207_eq_skeleton k0_part207_skel

set_option maxRecDepth 65536 in
theorem part_208 (m : (ℓ : Loc nD τ sig) → Buf (Elt F) ℓ) (K : CellIx → ℕ) (c : Dev nD) (v8 v12 v14 v16 v18 v34 v45 v59 : BitVec 32) (Kt : (BitVec 32) → sProp 𝕄) :
    iprop(Ctx m K ∗ St m c ⟨3, true, 84, 0, 64, 0, 64, 64, 0, 0, 41, 41, 22, 18, 0, 0, 0, 0, 64, 64, 64, 62⟩ ∗ (∀ out, St m c ⟨3, true, 84, 0, 64, 0, 64, 64, 0, 0, 42, 42, 22, 19, 0, 0, 0, 0, 64, 64, 64, 62⟩ -∗ Kt out))
      ⊢ WP c (k0_part208 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59) Kt := by
  ag_part k0_part208_eq_skeleton k0_part208_skel

set_option maxRecDepth 65536 in
theorem part_209 (m : (ℓ : Loc nD τ sig) → Buf (Elt F) ℓ) (K : CellIx → ℕ) (c : Dev nD) (v8 v12 v14 v16 v18 v34 v45 v59 v6626 : BitVec 32) (Kt : (PUnit) → sProp 𝕄) :
    iprop(Ctx m K ∗ St m c ⟨3, true, 84, 0, 64, 0, 64, 64, 0, 0, 42, 42, 22, 19, 0, 0, 0, 0, 64, 64, 64, 62⟩ ∗ (∀ out, St m c ⟨3, true, 84, 0, 64, 0, 64, 64, 0, 0, 43, 42, 22, 20, 0, 0, 0, 0, 64, 64, 64, 62⟩ -∗ Kt out))
      ⊢ WP c (k0_part209 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6626) Kt := by
  ag_part k0_part209_eq_skeleton k0_part209_skel

set_option maxRecDepth 65536 in
theorem part_210 (m : (ℓ : Loc nD τ sig) → Buf (Elt F) ℓ) (K : CellIx → ℕ) (c : Dev nD) (v8 v12 v16 v18 v34 v45 v59 : BitVec 32) (Kt : (Σ' (v6692 : BitVec 32), BitVec 32) → sProp 𝕄) :
    iprop(Ctx m K ∗ St m c ⟨3, true, 84, 0, 64, 0, 64, 64, 0, 0, 43, 42, 22, 20, 0, 0, 0, 0, 64, 64, 64, 62⟩ ∗ (∀ out, St m c ⟨3, true, 84, 0, 64, 0, 64, 64, 0, 0, 44, 43, 22, 21, 0, 0, 0, 0, 64, 64, 64, 62⟩ -∗ Kt out))
      ⊢ WP c (k0_part210 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v16 v18 v34 v45 v59) Kt := by
  ag_part k0_part210_eq_skeleton k0_part210_skel

set_option maxRecDepth 65536 in
theorem part_211 (m : (ℓ : Loc nD τ sig) → Buf (Elt F) ℓ) (K : CellIx → ℕ) (c : Dev nD) (v8 v14 v16 v18 v34 v45 v59 v6692 c2_i32_5044 : BitVec 32) (Kt : (BitVec 32) → sProp 𝕄) :
    iprop(Ctx m K ∗ St m c ⟨3, true, 84, 0, 64, 0, 64, 64, 0, 0, 44, 43, 22, 21, 0, 0, 0, 0, 64, 64, 64, 62⟩ ∗ (∀ out, St m c ⟨3, true, 84, 0, 64, 0, 64, 64, 0, 0, 45, 44, 22, 22, 0, 0, 0, 0, 64, 64, 64, 62⟩ -∗ Kt out))
      ⊢ WP c (k0_part211 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v14 v16 v18 v34 v45 v59 v6692 c2_i32_5044) Kt := by
  ag_part k0_part211_eq_skeleton k0_part211_skel

set_option maxRecDepth 65536 in
theorem part_212 (m : (ℓ : Loc nD τ sig) → Buf (Elt F) ℓ) (K : CellIx → ℕ) (c : Dev nD) (v8 v12 v14 v16 v18 v34 v45 v59 v6727 : BitVec 32) (Kt : (Σ' (v6758 : BitVec 32), BitVec 32) → sProp 𝕄) :
    iprop(Ctx m K ∗ St m c ⟨3, true, 84, 0, 64, 0, 64, 64, 0, 0, 45, 44, 22, 22, 0, 0, 0, 0, 64, 64, 64, 62⟩ ∗ (∀ out, St m c ⟨3, true, 84, 0, 64, 0, 64, 64, 0, 0, 46, 45, 22, 22, 0, 0, 0, 0, 64, 64, 64, 62⟩ -∗ Kt out))
      ⊢ WP c (k0_part212 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6727) Kt := by
  ag_part k0_part212_eq_skeleton k0_part212_skel

set_option maxRecDepth 65536 in
theorem part_213 (m : (ℓ : Loc nD τ sig) → Buf (Elt F) ℓ) (K : CellIx → ℕ) (c : Dev nD) (v8 v12 v14 v16 v18 v34 v45 v59 v6758 c1_i32_5093 : BitVec 32) (Kt : (BitVec 32) → sProp 𝕄) :
    iprop(Ctx m K ∗ St m c ⟨3, true, 84, 0, 64, 0, 64, 64, 0, 0, 46, 45, 22, 22, 0, 0, 0, 0, 64, 64, 64, 62⟩ ∗ (∀ out, St m c ⟨3, true, 84, 0, 64, 0, 64, 64, 0, 0, 47, 47, 22, 22, 0, 0, 0, 0, 64, 64, 64, 62⟩ -∗ Kt out))
      ⊢ WP c (k0_part213 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6758 c1_i32_5093) Kt := by
  ag_part k0_part213_eq_skeleton k0_part213_skel

set_option maxRecDepth 65536 in
theorem part_214 (m : (ℓ : Loc nD τ sig) → Buf (Elt F) ℓ) (K : CellIx → ℕ) (c : Dev nD) (v8 v12 v14 v16 v18 v34 v45 v59 v6792 : BitVec 32) (Kt : (Σ' (v6823 : BitVec 32), BitVec 32) → sProp 𝕄) :
    iprop(Ctx m K ∗ St m c ⟨3, true, 84, 0, 64, 0, 64, 64, 0, 0, 47, 47, 22, 22, 0, 0, 0, 0, 64, 64, 64, 62⟩ ∗ (∀ out, St m c ⟨3, true, 84, 0, 64, 0, 64, 64, 0, 0, 48, 48, 22, 22, 0, 0, 0, 0, 64, 64, 64, 62⟩ -∗ Kt out))
      ⊢ WP c (k0_part214 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6792) Kt := by
  ag_part k0_part214_eq_skeleton k0_part214_skel

set_option maxRecDepth 65536 in
theorem part_215 (m : (ℓ : Loc nD τ sig) → Buf (Elt F) ℓ) (K : CellIx → ℕ) (c : Dev nD) (v8 v12 v14 v16 v18 v34 v45 v59 v6823 c1_i32_5143 : BitVec 32) (Kt : (BitVec 32) → sProp 𝕄) :
    iprop(Ctx m K ∗ St m c ⟨3, true, 84, 0, 64, 0, 64, 64, 0, 0, 48, 48, 22, 22, 0, 0, 0, 0, 64, 64, 64, 62⟩ ∗ (∀ out, St m c ⟨3, true, 84, 0, 64, 0, 64, 64, 0, 0, 50, 49, 22, 22, 0, 0, 0, 0, 64, 64, 64, 62⟩ -∗ Kt out))
      ⊢ WP c (k0_part215 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6823 c1_i32_5143) Kt := by
  ag_part k0_part215_eq_skeleton k0_part215_skel

set_option maxRecDepth 65536 in
theorem part_216 (m : (ℓ : Loc nD τ sig) → Buf (Elt F) ℓ) (K : CellIx → ℕ) (c : Dev nD) (v8 v12 v14 v16 v18 v34 v45 v59 v6857 : BitVec 32) (Kt : (Σ' (v6888 : BitVec 32), BitVec 32) → sProp 𝕄) :
    iprop(Ctx m K ∗ St m c ⟨3, true, 84, 0, 64, 0, 64, 64, 0, 0, 50, 49, 22, 22, 0, 0, 0, 0, 64, 64, 64, 62⟩ ∗ (∀ out, St m c ⟨3, true, 84, 0, 64, 0, 64, 64, 0, 0, 51, 50, 22, 22, 0, 0, 0, 0, 64, 64, 64, 62⟩ -∗ Kt out))
      ⊢ WP c (k0_part216 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6857) Kt := by
  ag_part k0_part216_eq_skeleton k0_part216_skel

set_option maxRecDepth 65536 in
theorem part_217 (m : (ℓ : Loc nD τ sig) → Buf (Elt F) ℓ) (K : CellIx → ℕ) (c : Dev nD) (v8 v12 v14 v16 v18 v34 v45 v59 v6888 c1_i32_5193 : BitVec 32) (Kt : (BitVec 32) → sProp 𝕄) :
    iprop(Ctx m K ∗ St m c ⟨3, true, 84, 0, 64, 0, 64, 64, 0, 0, 51, 50, 22, 22, 0, 0, 0, 0, 64, 64, 64, 62⟩ ∗ (∀ out, St m c ⟨3, true, 84, 0, 64, 0, 64, 64, 0, 0, 52, 52, 22, 22, 0, 0, 0, 0, 64, 64, 64, 62⟩ -∗ Kt out))
      ⊢ WP c (k0_part217 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6888 c1_i32_5193) Kt := by
  ag_part k0_part217_eq_skeleton k0_part217_skel

set_option maxRecDepth 65536 in
theorem part_218 (m : (ℓ : Loc nD τ sig) → Buf (Elt F) ℓ) (K : CellIx → ℕ) (c : Dev nD) (v8 v12 v14 v16 v18 v34 v45 v59 v6922 : BitVec 32) (Kt : (Σ' (v6953 : BitVec 32), BitVec 32) → sProp 𝕄) :
    iprop(Ctx m K ∗ St m c ⟨3, true, 84, 0, 64, 0, 64, 64, 0, 0, 52, 52, 22, 22, 0, 0, 0, 0, 64, 64, 64, 62⟩ ∗ (∀ out, St m c ⟨3, true, 84, 0, 64, 0, 64, 64, 0, 0, 53, 53, 22, 22, 0, 0, 0, 0, 64, 64, 64, 62⟩ -∗ Kt out))
      ⊢ WP c (k0_part218 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6922) Kt := by
  ag_part k0_part218_eq_skeleton k0_part218_skel

set_option maxRecDepth 65536 in
theorem part_219 (m : (ℓ : Loc nD τ sig) → Buf (Elt F) ℓ) (K : CellIx → ℕ) (c : Dev nD) (v8 v12 v14 v16 v18 v34 v45 v59 v6953 c1_i32_5243 : BitVec 32) (Kt : (BitVec 32) → sProp 𝕄) :
    iprop(Ctx m K ∗ St m c ⟨3, true, 84, 0, 64, 0, 64, 64, 0, 0, 53, 53, 22, 22, 0, 0, 0, 0, 64, 64, 64, 62⟩ ∗ (∀ out, St m c ⟨3, true, 84, 0, 64, 0, 64, 64, 0, 0, 55, 54, 22, 22, 0, 0, 0, 0, 64, 64, 64, 62⟩ -∗ Kt out))
      ⊢ WP c (k0_part219 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6953 c1_i32_5243) Kt := by
  ag_part k0_part219_eq_skeleton k0_part219_skel

set_option maxRecDepth 65536 in
theorem part_220 (m : (ℓ : Loc nD τ sig) → Buf (Elt F) ℓ) (K : CellIx → ℕ) (c : Dev nD) (v8 v12 v14 v16 v18 v34 v45 v59 v6987 : BitVec 32) (Kt : (Σ' (v7018 : BitVec 32), BitVec 32) → sProp 𝕄) :
    iprop(Ctx m K ∗ St m c ⟨3, true, 84, 0, 64, 0, 64, 64, 0, 0, 55, 54, 22, 22, 0, 0, 0, 0, 64, 64, 64, 62⟩ ∗ (∀ out, St m c ⟨3, true, 84, 0, 64, 0, 64, 64, 0, 0, 56, 55, 22, 22, 0, 0, 0, 0, 64, 64, 64, 62⟩ -∗ Kt out))
      ⊢ WP c (k0_part220 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v6987) Kt := by
  ag_part k0_part220_eq_skeleton k0_part220_skel

set_option maxRecDepth 65536 in
theorem part_221 (m : (ℓ : Loc nD τ sig) → Buf (Elt F) ℓ) (K : CellIx → ℕ) (c : Dev nD) (v8 v12 v14 v16 v18 v34 v45 v59 v7018 c1_i32_5293 : BitVec 32) (Kt : (BitVec 32) → sProp 𝕄) :
    iprop(Ctx m K ∗ St m c ⟨3, true, 84, 0, 64, 0, 64, 64, 0, 0, 56, 55, 22, 22, 0, 0, 0, 0, 64, 64, 64, 62⟩ ∗ (∀ out, St m c ⟨3, true, 84, 0, 64, 0, 64, 64, 0, 0, 57, 57, 22, 22, 0, 0, 0, 0, 64, 64, 64, 62⟩ -∗ Kt out))
      ⊢ WP c (k0_part221 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v7018 c1_i32_5293) Kt := by
  ag_part k0_part221_eq_skeleton k0_part221_skel

set_option maxRecDepth 65536 in
theorem part_222 (m : (ℓ : Loc nD τ sig) → Buf (Elt F) ℓ) (K : CellIx → ℕ) (c : Dev nD) (v8 v12 v14 v16 v18 v34 v45 v59 v7052 : BitVec 32) (Kt : (Σ' (v7083 : BitVec 32), BitVec 32) → sProp 𝕄) :
    iprop(Ctx m K ∗ St m c ⟨3, true, 84, 0, 64, 0, 64, 64, 0, 0, 57, 57, 22, 22, 0, 0, 0, 0, 64, 64, 64, 62⟩ ∗ (∀ out, St m c ⟨3, true, 84, 0, 64, 0, 64, 64, 0, 0, 58, 58, 22, 22, 0, 0, 0, 0, 64, 64, 64, 62⟩ -∗ Kt out))
      ⊢ WP c (k0_part222 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v7052) Kt := by
  ag_part k0_part222_eq_skeleton k0_part222_skel

set_option maxRecDepth 65536 in
theorem part_223 (m : (ℓ : Loc nD τ sig) → Buf (Elt F) ℓ) (K : CellIx → ℕ) (c : Dev nD) (v8 v12 v14 v16 v18 v34 v45 v59 v7083 c1_i32_5343 : BitVec 32) (Kt : (BitVec 32) → sProp 𝕄) :
    iprop(Ctx m K ∗ St m c ⟨3, true, 84, 0, 64, 0, 64, 64, 0, 0, 58, 58, 22, 22, 0, 0, 0, 0, 64, 64, 64, 62⟩ ∗ (∀ out, St m c ⟨3, true, 84, 0, 64, 0, 64, 64, 0, 0, 60, 59, 22, 22, 0, 0, 0, 0, 64, 64, 64, 62⟩ -∗ Kt out))
      ⊢ WP c (k0_part223 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v7083 c1_i32_5343) Kt := by
  ag_part k0_part223_eq_skeleton k0_part223_skel

set_option maxRecDepth 65536 in
theorem part_224 (m : (ℓ : Loc nD τ sig) → Buf (Elt F) ℓ) (K : CellIx → ℕ) (c : Dev nD) (v8 v12 v14 v16 v18 v34 v45 v59 v7117 : BitVec 32) (Kt : (Σ' (v7148 : BitVec 32), BitVec 32) → sProp 𝕄) :
    iprop(Ctx m K ∗ St m c ⟨3, true, 84, 0, 64, 0, 64, 64, 0, 0, 60, 59, 22, 22, 0, 0, 0, 0, 64, 64, 64, 62⟩ ∗ (∀ out, St m c ⟨3, true, 84, 0, 64, 0, 64, 64, 0, 0, 61, 60, 22, 22, 0, 0, 0, 0, 64, 64, 64, 62⟩ -∗ Kt out))
      ⊢ WP c (k0_part224 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v7117) Kt := by
  ag_part k0_part224_eq_skeleton k0_part224_skel

set_option maxRecDepth 65536 in
theorem part_225 (m : (ℓ : Loc nD τ sig) → Buf (Elt F) ℓ) (K : CellIx → ℕ) (c : Dev nD) (v8 v12 v14 v16 v18 v34 v45 v59 v7148 c1_i32_5393 : BitVec 32) (Kt : (BitVec 32) → sProp 𝕄) :
    iprop(Ctx m K ∗ St m c ⟨3, true, 84, 0, 64, 0, 64, 64, 0, 0, 61, 60, 22, 22, 0, 0, 0, 0, 64, 64, 64, 62⟩ ∗ (∀ out, St m c ⟨3, true, 84, 0, 64, 0, 64, 64, 0, 0, 62, 62, 22, 22, 0, 0, 0, 0, 64, 64, 64, 62⟩ -∗ Kt out))
      ⊢ WP c (k0_part225 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v7148 c1_i32_5393) Kt := by
  ag_part k0_part225_eq_skeleton k0_part225_skel

set_option maxRecDepth 65536 in
theorem part_226 (m : (ℓ : Loc nD τ sig) → Buf (Elt F) ℓ) (K : CellIx → ℕ) (c : Dev nD) (v8 v12 v14 v16 v18 v34 v45 v59 v7182 : BitVec 32) (Kt : (Σ' (v7213 : BitVec 32), BitVec 32) → sProp 𝕄) :
    iprop(Ctx m K ∗ St m c ⟨3, true, 84, 0, 64, 0, 64, 64, 0, 0, 62, 62, 22, 22, 0, 0, 0, 0, 64, 64, 64, 62⟩ ∗ (∀ out, St m c ⟨3, true, 84, 0, 64, 0, 64, 64, 0, 0, 63, 63, 22, 22, 0, 0, 0, 0, 64, 64, 64, 62⟩ -∗ Kt out))
      ⊢ WP c (k0_part226 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v59 v7182) Kt := by
  ag_part k0_part226_eq_skeleton k0_part226_skel

set_option maxRecDepth 65536 in
theorem part_227 (m : (ℓ : Loc nD τ sig) → Buf (Elt F) ℓ) (K : CellIx → ℕ) (c : Dev nD) (v8 v12 v14 v16 v18 v34 v56 v59 v7213 c1_i32_5443 : BitVec 32) (Kt : (BitVec 32) → sProp 𝕄) :
    iprop(Ctx m K ∗ St m c ⟨3, true, 84, 0, 64, 0, 64, 64, 0, 0, 63, 63, 22, 22, 0, 0, 0, 0, 64, 64, 64, 62⟩ ∗ (∀ out, St m c ⟨3, true, 84, 0, 64, 0, 64, 64, 0, 0, 64, 64, 22, 22, 0, 0, 1, 0, 64, 64, 64, 62⟩ -∗ Kt out))
      ⊢ WP c (k0_part227 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v56 v59 v7213 c1_i32_5443) Kt := by
  ag_part k0_part227_eq_skeleton k0_part227_skel

set_option maxRecDepth 65536 in
theorem part_228 (m : (ℓ : Loc nD τ sig) → Buf (Elt F) ℓ) (K : CellIx → ℕ) (c : Dev nD) (v8 v16 v18 v56 v59 v7247 : BitVec 32) (Kt : (Σ' (v7278 : BitVec 32), BitVec 32) → sProp 𝕄) :
    iprop(Ctx m K ∗ St m c ⟨3, true, 84, 0, 64, 0, 64, 64, 0, 0, 64, 64, 22, 22, 0, 0, 1, 0, 64, 64, 64, 62⟩ ∗ (∀ out, St m c ⟨3, true, 84, 0, 64, 0, 64, 64, 0, 0, 64, 64, 22, 22, 0, 0, 3, 0, 64, 64, 64, 62⟩ -∗ Kt out))
      ⊢ WP c (k0_part228 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7247) Kt := by
  ag_part k0_part228_eq_skeleton k0_part228_skel

set_option maxRecDepth 65536 in
theorem part_229 (m : (ℓ : Loc nD τ sig) → Buf (Elt F) ℓ) (K : CellIx → ℕ) (c : Dev nD) (v8 v16 v18 v56 v59 v7278 c1_i32_5493 : BitVec 32) (Kt : (BitVec 32) → sProp 𝕄) :
    iprop(Ctx m K ∗ St m c ⟨3, true, 84, 0, 64, 0, 64, 64, 0, 0, 64, 64, 22, 22, 0, 0, 3, 0, 64, 64, 64, 62⟩ ∗ (∀ out, St m c ⟨3, true, 84, 0, 64, 0, 64, 64, 0, 0, 64, 64, 22, 22, 0, 0, 6, 0, 64, 64, 64, 62⟩ -∗ Kt out))
      ⊢ WP c (k0_part229 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7278 c1_i32_5493) Kt := by
  ag_part k0_part229_eq_skeleton k0_part229_skel

set_option maxRecDepth 65536 in
theorem part_230 (m : (ℓ : Loc nD τ sig) → Buf (Elt F) ℓ) (K : CellIx → ℕ) (c : Dev nD) (v8 v16 v18 v56 v59 v7312 : BitVec 32) (Kt : (Σ' (v7343 : BitVec 32), BitVec 32) → sProp 𝕄) :
    iprop(Ctx m K ∗ St m c ⟨3, true, 84, 0, 64, 0, 64, 64, 0, 0, 64, 64, 22, 22, 0, 0, 6, 0, 64, 64, 64, 62⟩ ∗ (∀ out, St m c ⟨3, true, 84, 0, 64, 0, 64, 64, 0, 0, 64, 64, 22, 22, 0, 0, 8, 0, 64, 64, 64, 62⟩ -∗ Kt out))
      ⊢ WP c (k0_part230 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7312) Kt := by
  ag_part k0_part230_eq_skeleton k0_part230_skel

set_option maxRecDepth 65536 in
theorem part_231 (m : (ℓ : Loc nD τ sig) → Buf (Elt F) ℓ) (K : CellIx → ℕ) (c : Dev nD) (v8 v16 v18 v56 v59 v7343 c1_i32_5543 : BitVec 32) (Kt : (BitVec 32) → sProp 𝕄) :
    iprop(Ctx m K ∗ St m c ⟨3, true, 84, 0, 64, 0, 64, 64, 0, 0, 64, 64, 22, 22, 0, 0, 8, 0, 64, 64, 64, 62⟩ ∗ (∀ out, St m c ⟨3, true, 84, 0, 64, 0, 64, 64, 0, 0, 64, 64, 22, 22, 0, 0, 11, 0, 64, 64, 64, 62⟩ -∗ Kt out))
      ⊢ WP c (k0_part231 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7343 c1_i32_5543) Kt := by
  ag_part k0_part231_eq_skeleton k0_part231_skel

set_option maxRecDepth 65536 in
theorem part_232 (m : (ℓ : Loc nD τ sig) → Buf (Elt F) ℓ) (K : CellIx → ℕ) (c : Dev nD) (v8 v16 v18 v56 v59 v7377 : BitVec 32) (Kt : (Σ' (v7408 : BitVec 32), BitVec 32) → sProp 𝕄) :
    iprop(Ctx m K ∗ St m c ⟨3, true, 84, 0, 64, 0, 64, 64, 0, 0, 64, 64, 22, 22, 0, 0, 11, 0, 64, 64, 64, 62⟩ ∗ (∀ out, St m c ⟨3, true, 84, 0, 64, 0, 64, 64, 0, 0, 64, 64, 22, 22, 0, 0, 13, 0, 64, 64, 64, 62⟩ -∗ Kt out))
      ⊢ WP c (k0_part232 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7377) Kt := by
  ag_part k0_part232_eq_skeleton k0_part232_skel

set_option maxRecDepth 65536 in
theorem part_233 (m : (ℓ : Loc nD τ sig) → Buf (Elt F) ℓ) (K : CellIx → ℕ) (c : Dev nD) (v8 v16 v18 v56 v59 v7408 c1_i32_5593 : BitVec 32) (Kt : (BitVec 32) → sProp 𝕄) :
    iprop(Ctx m K ∗ St m c ⟨3, true, 84, 0, 64, 0, 64, 64, 0, 0, 64, 64, 22, 22, 0, 0, 13, 0, 64, 64, 64, 62⟩ ∗ (∀ out, St m c ⟨3, true, 84, 0, 64, 0, 64, 64, 0, 0, 64, 64, 22, 22, 0, 0, 16, 0, 64, 64, 64, 62⟩ -∗ Kt out))
      ⊢ WP c (k0_part233 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7408 c1_i32_5593) Kt := by
  ag_part k0_part233_eq_skeleton k0_part233_skel

set_option maxRecDepth 65536 in
theorem part_234 (m : (ℓ : Loc nD τ sig) → Buf (Elt F) ℓ) (K : CellIx → ℕ) (c : Dev nD) (v8 v16 v18 v56 v59 v7442 : BitVec 32) (Kt : (Σ' (v7473 : BitVec 32), BitVec 32) → sProp 𝕄) :
    iprop(Ctx m K ∗ St m c ⟨3, true, 84, 0, 64, 0, 64, 64, 0, 0, 64, 64, 22, 22, 0, 0, 16, 0, 64, 64, 64, 62⟩ ∗ (∀ out, St m c ⟨3, true, 84, 0, 64, 0, 64, 64, 0, 0, 64, 64, 22, 22, 0, 0, 18, 0, 64, 64, 64, 62⟩ -∗ Kt out))
      ⊢ WP c (k0_part234 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7442) Kt := by
  ag_part k0_part234_eq_skeleton k0_part234_skel

set_option maxRecDepth 65536 in
theorem part_235 (m : (ℓ : Loc nD τ sig) → Buf (Elt F) ℓ) (K : CellIx → ℕ) (c : Dev nD) (v8 v16 v18 v56 v59 v7473 c1_i32_5643 : BitVec 32) (Kt : (BitVec 32) → sProp 𝕄) :
    iprop(Ctx m K ∗ St m c ⟨3, true, 84, 0, 64, 0, 64, 64, 0, 0, 64, 64, 22, 22, 0, 0, 18, 0, 64, 64, 64, 62⟩ ∗ (∀ out, St m c ⟨3, true, 84, 0, 64, 0, 64, 64, 0, 0, 64, 64, 22, 22, 0, 0, 21, 0, 64, 64, 64, 62⟩ -∗ Kt out))
      ⊢ WP c (k0_part235 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7473 c1_i32_5643) Kt := by
  ag_part k0_part235_eq_skeleton k0_part235_skel

set_option maxRecDepth 65536 in
theorem part_236 (m : (ℓ : Loc nD τ sig) → Buf (Elt F) ℓ) (K : CellIx → ℕ) (c : Dev nD) (v8 v16 v18 v56 v59 v7507 : BitVec 32) (Kt : (Σ' (v7538 : BitVec 32), BitVec 32) → sProp 𝕄) :
    iprop(Ctx m K ∗ St m c ⟨3, true, 84, 0, 64, 0, 64, 64, 0, 0, 64, 64, 22, 22, 0, 0, 21, 0, 64, 64, 64, 62⟩ ∗ (∀ out, St m c ⟨3, true, 84, 0, 64, 0, 64, 64, 0, 0, 64, 64, 22, 22, 0, 0, 22, 1, 64, 64, 64, 62⟩ -∗ Kt out))
      ⊢ WP c (k0_part236 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7507) Kt := by
  ag_part k0_part236_eq_skeleton k0_part236_skel

set_option maxRecDepth 65536 in
theorem part_237 (m : (ℓ : Loc nD τ sig) → Buf (Elt F) ℓ) (K : CellIx → ℕ) (c : Dev nD) (v8 v16 v18 v56 v59 v7538 c1_i32_5693 : BitVec 32) (Kt : (BitVec 32) → sProp 𝕄) :
    iprop(Ctx m K ∗ St m c ⟨3, true, 84, 0, 64, 0, 64, 64, 0, 0, 64, 64, 22, 22, 0, 0, 22, 1, 64, 64, 64, 62⟩ ∗ (∀ out, St m c ⟨3, true, 84, 0, 64, 0, 64, 64, 0, 0, 64, 64, 22, 22, 0, 0, 22, 4, 64, 64, 64, 62⟩ -∗ Kt out))
      ⊢ WP c (k0_part237 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7538 c1_i32_5693) Kt := by
  ag_part k0_part237_eq_skeleton k0_part237_skel

set_option maxRecDepth 65536 in
theorem part_238 (m : (ℓ : Loc nD τ sig) → Buf (Elt F) ℓ) (K : CellIx → ℕ) (c : Dev nD) (v8 v16 v18 v56 v59 v7572 : BitVec 32) (Kt : (Σ' (v7603 : BitVec 32), BitVec 32) → sProp 𝕄) :
    iprop(Ctx m K ∗ St m c ⟨3, true, 84, 0, 64, 0, 64, 64, 0, 0, 64, 64, 22, 22, 0, 0, 22, 4, 64, 64, 64, 62⟩ ∗ (∀ out, St m c ⟨3, true, 84, 0, 64, 0, 64, 64, 0, 0, 64, 64, 22, 22, 0, 0, 22, 6, 64, 64, 64, 62⟩ -∗ Kt out))
      ⊢ WP c (k0_part238 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7572) Kt := by
  ag_part k0_part238_eq_skeleton k0_part238_skel

set_option maxRecDepth 65536 in
theorem part_239 (m : (ℓ : Loc nD τ sig) → Buf (Elt F) ℓ) (K : CellIx → ℕ) (c : Dev nD) (v8 v16 v18 v56 v59 v7603 c1_i32_5743 : BitVec 32) (Kt : (BitVec 32) → sProp 𝕄) :
    iprop(Ctx m K ∗ St m c ⟨3, true, 84, 0, 64, 0, 64, 64, 0, 0, 64, 64, 22, 22, 0, 0, 22, 6, 64, 64, 64, 62⟩ ∗ (∀ out, St m c ⟨3, true, 84, 0, 64, 0, 64, 64, 0, 0, 64, 64, 22, 22, 0, 0, 22, 9, 64, 64, 64, 62⟩ -∗ Kt out))
      ⊢ WP c (k0_part239 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7603 c1_i32_5743) Kt := by
  ag_part k0_part239_eq_skeleton k0_part239_skel

set_option maxRecDepth 65536 in
theorem part_240 (m : (ℓ : Loc nD τ sig) → Buf (Elt F) ℓ) (K : CellIx → ℕ) (c : Dev nD) (v8 v16 v18 v56 v59 v7637 : BitVec 32) (Kt : (Σ' (v7668 : BitVec 32), BitVec 32) → sProp 𝕄) :
    iprop(Ctx m K ∗ St m c ⟨3, true, 84, 0, 64, 0, 64, 64, 0, 0, 64, 64, 22, 22, 0, 0, 22, 9, 64, 64, 64, 62⟩ ∗ (∀ out, St m c ⟨3, true, 84, 0, 64, 0, 64, 64, 0, 0, 64, 64, 22, 22, 0, 0, 22, 11, 64, 64, 64, 62⟩ -∗ Kt out))
      ⊢ WP c (k0_part240 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7637) Kt := by
  ag_part k0_part240_eq_skeleton k0_part240_skel

set_option maxRecDepth 65536 in
theorem part_241 (m : (ℓ : Loc nD τ sig) → Buf (Elt F) ℓ) (K : CellIx → ℕ) (c : Dev nD) (v8 v16 v18 v56 v59 v7668 c1_i32_5793 : BitVec 32) (Kt : (BitVec 32) → sProp 𝕄) :
    iprop(Ctx m K ∗ St m c ⟨3, true, 84, 0, 64, 0, 64, 64, 0, 0, 64, 64, 22, 22, 0, 0, 22, 11, 64, 64, 64, 62⟩ ∗ (∀ out, St m c ⟨3, true, 84, 0, 64, 0, 64, 64, 0, 0, 64, 64, 22, 22, 0, 0, 22, 14, 64, 64, 64, 62⟩ -∗ Kt out))
      ⊢ WP c (k0_part241 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7668 c1_i32_5793) Kt := by
  ag_part k0_part241_eq_skeleton k0_part241_skel

set_option maxRecDepth 65536 in
theorem part_242 (m : (ℓ : Loc nD τ sig) → Buf (Elt F) ℓ) (K : CellIx → ℕ) (c : Dev nD) (v8 v16 v18 v56 v59 v7702 : BitVec 32) (Kt : (Σ' (v7733 : BitVec 32), BitVec 32) → sProp 𝕄) :
    iprop(Ctx m K ∗ St m c ⟨3, true, 84, 0, 64, 0, 64, 64, 0, 0, 64, 64, 22, 22, 0, 0, 22, 14, 64, 64, 64, 62⟩ ∗ (∀ out, St m c ⟨3, true, 84, 0, 64, 0, 64, 64, 0, 0, 64, 64, 22, 22, 0, 0, 22, 16, 64, 64, 64, 62⟩ -∗ Kt out))
      ⊢ WP c (k0_part242 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7702) Kt := by
  ag_part k0_part242_eq_skeleton k0_part242_skel

set_option maxRecDepth 65536 in
theorem part_243 (m : (ℓ : Loc nD τ sig) → Buf (Elt F) ℓ) (K : CellIx → ℕ) (c : Dev nD) (v8 v16 v18 v56 v59 v7733 c1_i32_5843 : BitVec 32) (Kt : (BitVec 32) → sProp 𝕄) :
    iprop(Ctx m K ∗ St m c ⟨3, true, 84, 0, 64, 0, 64, 64, 0, 0, 64, 64, 22, 22, 0, 0, 22, 16, 64, 64, 64, 62⟩ ∗ (∀ out, St m c ⟨3, true, 84, 0, 64, 0, 64, 64, 0, 0, 64, 64, 22, 22, 0, 0, 22, 19, 64, 64, 64, 62⟩ -∗ Kt out))
      ⊢ WP c (k0_part243 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7733 c1_i32_5843) Kt := by
  ag_part k0_part243_eq_skeleton k0_part243_skel

set_option maxRecDepth 65536 in
theorem part_244 (m : (ℓ : Loc nD τ sig) → Buf (Elt F) ℓ) (K : CellIx → ℕ) (c : Dev nD) (v8 v16 v18 v56 v59 v7767 : BitVec 32) (Kt : (Σ' (v7798 : BitVec 32), BitVec 32) → sProp 𝕄) :
    iprop(Ctx m K ∗ St m c ⟨3, true, 84, 0, 64, 0, 64, 64, 0, 0, 64, 64, 22, 22, 0, 0, 22, 19, 64, 64, 64, 62⟩ ∗ (∀ out, St m c ⟨3, true, 84, 0, 64, 0, 64, 64, 0, 0, 64, 64, 22, 22, 0, 0, 22, 21, 64, 64, 64, 62⟩ -∗ Kt out))
      ⊢ WP c (k0_part244 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v16 v18 v56 v59 v7767) Kt := by
  ag_part k0_part244_eq_skeleton k0_part244_skel

set_option maxRecDepth 65536 in
theorem part_245 (m : (ℓ : Loc nD τ sig) → Buf (Elt F) ℓ) (K : CellIx → ℕ) (c : Dev nD) (v2 v5 v8 v9 v7798 c1_i32_5893 : BitVec 32) (Kt : (PUnit) → sProp 𝕄) :
    iprop(Ctx m K ∗ St m c ⟨3, true, 84, 0, 64, 0, 64, 64, 0, 0, 64, 64, 22, 22, 0, 0, 22, 21, 64, 64, 64, 62⟩ ∗ (∀ out, St m c ⟨3, true, 84, 0, 64, 2, 64, 64, 0, 0, 64, 64, 22, 22, 0, 0, 22, 22, 64, 64, 64, 62⟩ -∗ Kt out))
      ⊢ WP c (k0_part245 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v7798 c1_i32_5893) Kt := by
  ag_part k0_part245_eq_skeleton k0_part245_skel

set_option maxRecDepth 65536 in
theorem part_246 (m : (ℓ : Loc nD τ sig) → Buf (Elt F) ℓ) (K : CellIx → ℕ) (c : Dev nD) (v2 v5 v9 : BitVec 32) (Kt : (PUnit) → sProp 𝕄) :
    iprop(Ctx m K ∗ St m c ⟨3, true, 84, 0, 64, 2, 64, 64, 0, 0, 64, 64, 22, 22, 0, 0, 22, 22, 64, 64, 64, 62⟩ ∗ (∀ out, St m c ⟨3, true, 84, 0, 64, 5, 64, 64, 0, 0, 64, 64, 22, 22, 0, 0, 22, 22, 64, 64, 64, 62⟩ -∗ Kt out))
      ⊢ WP c (k0_part246 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9) Kt := by
  ag_part k0_part246_eq_skeleton k0_part246_skel

set_option maxRecDepth 65536 in
theorem part_247 (m : (ℓ : Loc nD τ sig) → Buf (Elt F) ℓ) (K : CellIx → ℕ) (c : Dev nD) (v2 v5 v9 : BitVec 32) (Kt : (PUnit) → sProp 𝕄) :
    iprop(Ctx m K ∗ St m c ⟨3, true, 84, 0, 64, 5, 64, 64, 0, 0, 64, 64, 22, 22, 0, 0, 22, 22, 64, 64, 64, 62⟩ ∗ (∀ out, St m c ⟨3, true, 84, 0, 64, 9, 64, 64, 0, 0, 64, 64, 22, 22, 0, 0, 22, 22, 64, 64, 64, 62⟩ -∗ Kt out))
      ⊢ WP c (k0_part247 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9) Kt := by
  ag_part k0_part247_eq_skeleton k0_part247_skel

set_option maxRecDepth 65536 in
theorem part_248 (m : (ℓ : Loc nD τ sig) → Buf (Elt F) ℓ) (K : CellIx → ℕ) (c : Dev nD) (v2 v5 v9 : BitVec 32) (Kt : (BitVec 32) → sProp 𝕄) :
    iprop(Ctx m K ∗ St m c ⟨3, true, 84, 0, 64, 9, 64, 64, 0, 0, 64, 64, 22, 22, 0, 0, 22, 22, 64, 64, 64, 62⟩ ∗ (∀ out, St m c ⟨3, true, 84, 0, 64, 12, 64, 64, 0, 0, 64, 64, 22, 22, 0, 0, 22, 22, 64, 64, 64, 62⟩ -∗ Kt out))
      ⊢ WP c (k0_part248 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9) Kt := by
  ag_part k0_part248_eq_skeleton k0_part248_skel

set_option maxRecDepth 65536 in
theorem part_249 (m : (ℓ : Loc nD τ sig) → Buf (Elt F) ℓ) (K : CellIx → ℕ) (c : Dev nD) (v2 v5 v9 c4_i32_5994 : BitVec 32) (Kt : (BitVec 32) → sProp 𝕄) :
    iprop(Ctx m K ∗ St m c ⟨3, true, 84, 0, 64, 12, 64, 64, 0, 0, 64, 64, 22, 22, 0, 0, 22, 22, 64, 64, 64, 62⟩ ∗ (∀ out, St m c ⟨3, true, 84, 0, 64, 15, 64, 64, 0, 0, 64, 64, 22, 22, 0, 0, 22, 22, 64, 64, 64, 62⟩ -∗ Kt out))
      ⊢ WP c (k0_part249 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 c4_i32_5994) Kt := by
  ag_part k0_part249_eq_skeleton k0_part249_skel

set_option maxRecDepth 65536 in
theorem part_250 (m : (ℓ : Loc nD τ sig) → Buf (Elt F) ℓ) (K : CellIx → ℕ) (c : Dev nD) (v2 v5 v9 v7956 : BitVec 32) (Kt : (BitVec 32) → sProp 𝕄) :
    iprop(Ctx m K ∗ St m c ⟨3, true, 84, 0, 64, 15, 64, 64, 0, 0, 64, 64, 22, 22, 0, 0, 22, 22, 64, 64, 64, 62⟩ ∗ (∀ out, St m c ⟨3, true, 84, 0, 64, 18, 64, 64, 0, 0, 64, 64, 22, 22, 0, 0, 22, 22, 64, 64, 64, 62⟩ -∗ Kt out))
      ⊢ WP c (k0_part250 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v7956) Kt := by
  ag_part k0_part250_eq_skeleton k0_part250_skel

set_option maxRecDepth 65536 in
theorem part_251 (m : (ℓ : Loc nD τ sig) → Buf (Elt F) ℓ) (K : CellIx → ℕ) (c : Dev nD) (v2 v5 v9 v7988 : BitVec 32) (Kt : (PUnit) → sProp 𝕄) :
    iprop(Ctx m K ∗ St m c ⟨3, true, 84, 0, 64, 18, 64, 64, 0, 0, 64, 64, 22, 22, 0, 0, 22, 22, 64, 64, 64, 62⟩ ∗ (∀ out, St m c ⟨3, true, 84, 3, 64, 20, 64, 64, 0, 0, 64, 64, 22, 22, 0, 0, 22, 22, 64, 64, 64, 62⟩ -∗ Kt out))
      ⊢ WP c (k0_part251 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v9 v7988) Kt := by
  ag_part k0_part251_eq_skeleton k0_part251_skel

set_option maxRecDepth 65536 in
theorem part_252 (m : (ℓ : Loc nD τ sig) → Buf (Elt F) ℓ) (K : CellIx → ℕ) (c : Dev nD) (Kt : (PUnit) → sProp 𝕄) :
    iprop(Ctx m K ∗ St m c ⟨3, true, 84, 3, 64, 20, 64, 64, 0, 0, 64, 64, 22, 22, 0, 0, 22, 22, 64, 64, 64, 62⟩ ∗ (∀ out, St m c ⟨3, true, 84, 9, 64, 20, 64, 64, 0, 0, 64, 64, 22, 22, 0, 0, 22, 22, 64, 64, 64, 62⟩ -∗ Kt out))
      ⊢ WP c (k0_part252 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part252_eq_skeleton k0_part252_skel

set_option maxRecDepth 65536 in
theorem part_253 (m : (ℓ : Loc nD τ sig) → Buf (Elt F) ℓ) (K : CellIx → ℕ) (c : Dev nD) (Kt : (PUnit) → sProp 𝕄) :
    iprop(Ctx m K ∗ St m c ⟨3, true, 84, 9, 64, 20, 64, 64, 0, 0, 64, 64, 22, 22, 0, 0, 22, 22, 64, 64, 64, 62⟩ ∗ (∀ out, St m c ⟨3, true, 84, 15, 64, 20, 64, 64, 0, 0, 64, 64, 22, 22, 0, 0, 22, 22, 64, 64, 64, 62⟩ -∗ Kt out))
      ⊢ WP c (k0_part253 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part253_eq_skeleton k0_part253_skel

set_option maxRecDepth 65536 in
theorem part_254 (m : (ℓ : Loc nD τ sig) → Buf (Elt F) ℓ) (K : CellIx → ℕ) (c : Dev nD) (Kt : (PUnit) → sProp 𝕄) :
    iprop(Ctx m K ∗ St m c ⟨3, true, 84, 15, 64, 20, 64, 64, 0, 0, 64, 64, 22, 22, 0, 0, 22, 22, 64, 64, 64, 62⟩ ∗ (∀ out, St m c ⟨3, true, 84, 21, 64, 20, 64, 64, 0, 0, 64, 64, 22, 22, 0, 0, 22, 22, 64, 64, 64, 62⟩ -∗ Kt out))
      ⊢ WP c (k0_part254 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part254_eq_skeleton k0_part254_skel

set_option maxRecDepth 65536 in
theorem part_255 (m : (ℓ : Loc nD τ sig) → Buf (Elt F) ℓ) (K : CellIx → ℕ) (c : Dev nD) (Kt : (PUnit) → sProp 𝕄) :
    iprop(Ctx m K ∗ St m c ⟨3, true, 84, 21, 64, 20, 64, 64, 0, 0, 64, 64, 22, 22, 0, 0, 22, 22, 64, 64, 64, 62⟩ ∗ (∀ out, St m c ⟨3, true, 84, 27, 64, 20, 64, 64, 0, 0, 64, 64, 22, 22, 0, 0, 22, 22, 64, 64, 64, 62⟩ -∗ Kt out))
      ⊢ WP c (k0_part255 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part255_eq_skeleton k0_part255_skel

set_option maxRecDepth 65536 in
theorem part_256 (m : (ℓ : Loc nD τ sig) → Buf (Elt F) ℓ) (K : CellIx → ℕ) (c : Dev nD) (Kt : (PUnit) → sProp 𝕄) :
    iprop(Ctx m K ∗ St m c ⟨3, true, 84, 27, 64, 20, 64, 64, 0, 0, 64, 64, 22, 22, 0, 0, 22, 22, 64, 64, 64, 62⟩ ∗ (∀ out, St m c ⟨3, true, 84, 33, 64, 20, 64, 64, 0, 0, 64, 64, 22, 22, 0, 0, 22, 22, 64, 64, 64, 62⟩ -∗ Kt out))
      ⊢ WP c (k0_part256 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part256_eq_skeleton k0_part256_skel

set_option maxRecDepth 65536 in
theorem part_257 (m : (ℓ : Loc nD τ sig) → Buf (Elt F) ℓ) (K : CellIx → ℕ) (c : Dev nD) (Kt : (PUnit) → sProp 𝕄) :
    iprop(Ctx m K ∗ St m c ⟨3, true, 84, 33, 64, 20, 64, 64, 0, 0, 64, 64, 22, 22, 0, 0, 22, 22, 64, 64, 64, 62⟩ ∗ (∀ out, St m c ⟨3, true, 84, 39, 64, 20, 64, 64, 0, 0, 64, 64, 22, 22, 0, 0, 22, 22, 64, 64, 64, 62⟩ -∗ Kt out))
      ⊢ WP c (k0_part257 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part257_eq_skeleton k0_part257_skel

set_option maxRecDepth 65536 in
theorem part_258 (m : (ℓ : Loc nD τ sig) → Buf (Elt F) ℓ) (K : CellIx → ℕ) (c : Dev nD) (Kt : (PUnit) → sProp 𝕄) :
    iprop(Ctx m K ∗ St m c ⟨3, true, 84, 39, 64, 20, 64, 64, 0, 0, 64, 64, 22, 22, 0, 0, 22, 22, 64, 64, 64, 62⟩ ∗ (∀ out, St m c ⟨3, true, 84, 45, 64, 20, 64, 64, 0, 0, 64, 64, 22, 22, 0, 0, 22, 22, 64, 64, 64, 62⟩ -∗ Kt out))
      ⊢ WP c (k0_part258 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part258_eq_skeleton k0_part258_skel

set_option maxRecDepth 65536 in
theorem part_259 (m : (ℓ : Loc nD τ sig) → Buf (Elt F) ℓ) (K : CellIx → ℕ) (c : Dev nD) (Kt : (PUnit) → sProp 𝕄) :
    iprop(Ctx m K ∗ St m c ⟨3, true, 84, 45, 64, 20, 64, 64, 0, 0, 64, 64, 22, 22, 0, 0, 22, 22, 64, 64, 64, 62⟩ ∗ (∀ out, St m c ⟨3, true, 84, 51, 64, 20, 64, 64, 0, 0, 64, 64, 22, 22, 0, 0, 22, 22, 64, 64, 64, 62⟩ -∗ Kt out))
      ⊢ WP c (k0_part259 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part259_eq_skeleton k0_part259_skel

set_option maxRecDepth 65536 in
theorem part_260 (m : (ℓ : Loc nD τ sig) → Buf (Elt F) ℓ) (K : CellIx → ℕ) (c : Dev nD) (Kt : (PUnit) → sProp 𝕄) :
    iprop(Ctx m K ∗ St m c ⟨3, true, 84, 51, 64, 20, 64, 64, 0, 0, 64, 64, 22, 22, 0, 0, 22, 22, 64, 64, 64, 62⟩ ∗ (∀ out, St m c ⟨3, true, 84, 57, 64, 20, 64, 64, 0, 0, 64, 64, 22, 22, 0, 0, 22, 22, 64, 64, 64, 62⟩ -∗ Kt out))
      ⊢ WP c (k0_part260 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part260_eq_skeleton k0_part260_skel

set_option maxRecDepth 65536 in
theorem part_261 (m : (ℓ : Loc nD τ sig) → Buf (Elt F) ℓ) (K : CellIx → ℕ) (c : Dev nD) (Kt : (PUnit) → sProp 𝕄) :
    iprop(Ctx m K ∗ St m c ⟨3, true, 84, 57, 64, 20, 64, 64, 0, 0, 64, 64, 22, 22, 0, 0, 22, 22, 64, 64, 64, 62⟩ ∗ (∀ out, St m c ⟨3, true, 84, 63, 64, 20, 64, 64, 0, 0, 64, 64, 22, 22, 0, 0, 22, 22, 64, 64, 64, 62⟩ -∗ Kt out))
      ⊢ WP c (k0_part261 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part261_eq_skeleton k0_part261_skel

set_option maxRecDepth 65536 in
theorem part_262 (m : (ℓ : Loc nD τ sig) → Buf (Elt F) ℓ) (K : CellIx → ℕ) (c : Dev nD) (Kt : (PUnit) → sProp 𝕄) :
    iprop(Ctx m K ∗ St m c ⟨3, true, 84, 63, 64, 20, 64, 64, 0, 0, 64, 64, 22, 22, 0, 0, 22, 22, 64, 64, 64, 62⟩ ∗ (∀ out, St m c ⟨3, true, 84, 69, 64, 20, 64, 64, 0, 0, 64, 64, 22, 22, 0, 0, 22, 22, 64, 64, 64, 62⟩ -∗ Kt out))
      ⊢ WP c (k0_part262 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part262_eq_skeleton k0_part262_skel

set_option maxRecDepth 65536 in
theorem part_263 (m : (ℓ : Loc nD τ sig) → Buf (Elt F) ℓ) (K : CellIx → ℕ) (c : Dev nD) (Kt : (PUnit) → sProp 𝕄) :
    iprop(Ctx m K ∗ St m c ⟨3, true, 84, 69, 64, 20, 64, 64, 0, 0, 64, 64, 22, 22, 0, 0, 22, 22, 64, 64, 64, 62⟩ ∗ (∀ out, St m c ⟨3, true, 84, 75, 64, 20, 64, 64, 0, 0, 64, 64, 22, 22, 0, 0, 22, 22, 64, 64, 64, 62⟩ -∗ Kt out))
      ⊢ WP c (k0_part263 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part263_eq_skeleton k0_part263_skel

set_option maxRecDepth 65536 in
theorem part_264 (m : (ℓ : Loc nD τ sig) → Buf (Elt F) ℓ) (K : CellIx → ℕ) (c : Dev nD) (Kt : (PUnit) → sProp 𝕄) :
    iprop(Ctx m K ∗ St m c ⟨3, true, 84, 75, 64, 20, 64, 64, 0, 0, 64, 64, 22, 22, 0, 0, 22, 22, 64, 64, 64, 62⟩ ∗ (∀ out, St m c ⟨3, true, 84, 81, 64, 20, 64, 64, 0, 0, 64, 64, 22, 22, 0, 0, 22, 22, 64, 64, 64, 62⟩ -∗ Kt out))
      ⊢ WP c (k0_part264 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part264_eq_skeleton k0_part264_skel

set_option maxRecDepth 65536 in
theorem part_265 (m : (ℓ : Loc nD τ sig) → Buf (Elt F) ℓ) (K : CellIx → ℕ) (c : Dev nD) (Kt : (PUnit) → sProp 𝕄) :
    iprop(Ctx m K ∗ St m c ⟨3, true, 84, 81, 64, 20, 64, 64, 0, 0, 64, 64, 22, 22, 0, 0, 22, 22, 64, 64, 64, 62⟩ ∗ (∀ out, St m c ⟨3, true, 84, 84, 64, 20, 64, 64, 2, 1, 64, 64, 22, 22, 0, 0, 22, 22, 64, 64, 64, 62⟩ -∗ Kt out))
      ⊢ WP c (k0_part265 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part265_eq_skeleton k0_part265_skel

set_option maxRecDepth 65536 in
theorem part_266 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 2, 1, 64, 64, 22, 22, 0, 0, 22, 22, 64, 64, 64, 62⟩ ∗ (∀ out, St m c ⟨3, true, 84, 84, 64, 20, 64, 64, 5, 4, 64, 64, 22, 22, 0, 0, 22, 22, 64, 64, 64, 62⟩ -∗ Kt out))
      ⊢ WP c (k0_part266 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part266_eq_skeleton k0_part266_skel

set_option maxRecDepth 65536 in
theorem part_267 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 5, 4, 64, 64, 22, 22, 0, 0, 22, 22, 64, 64, 64, 62⟩ ∗ (∀ out, St m c ⟨3, true, 84, 84, 64, 20, 64, 64, 8, 7, 64, 64, 22, 22, 0, 0, 22, 22, 64, 64, 64, 62⟩ -∗ Kt out))
      ⊢ WP c (k0_part267 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part267_eq_skeleton k0_part267_skel

set_option maxRecDepth 65536 in
theorem part_268 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 8, 7, 64, 64, 22, 22, 0, 0, 22, 22, 64, 64, 64, 62⟩ ∗ (∀ out, St m c ⟨3, true, 84, 84, 64, 20, 64, 64, 11, 10, 64, 64, 22, 22, 0, 0, 22, 22, 64, 64, 64, 62⟩ -∗ Kt out))
      ⊢ WP c (k0_part268 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part268_eq_skeleton k0_part268_skel

set_option maxRecDepth 65536 in
theorem part_269 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 11, 10, 64, 64, 22, 22, 0, 0, 22, 22, 64, 64, 64, 62⟩ ∗ (∀ out, St m c ⟨3, true, 84, 84, 64, 20, 64, 64, 14, 13, 64, 64, 22, 22, 0, 0, 22, 22, 64, 64, 64, 62⟩ -∗ Kt out))
      ⊢ WP c (k0_part269 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part269_eq_skeleton k0_part269_skel

set_option maxRecDepth 65536 in
theorem part_270 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 14, 13, 64, 64, 22, 22, 0, 0, 22, 22, 64, 64, 64, 62⟩ ∗ (∀ out, St m c ⟨3, true, 84, 84, 64, 20, 64, 64, 17, 16, 64, 64, 22, 22, 0, 0, 22, 22, 64, 64, 64, 62⟩ -∗ Kt out))
      ⊢ WP c (k0_part270 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part270_eq_skeleton k0_part270_skel

set_option maxRecDepth 65536 in
theorem part_271 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 17, 16, 64, 64, 22, 22, 0, 0, 22, 22, 64, 64, 64, 62⟩ ∗ (∀ out, St m c ⟨3, true, 84, 84, 64, 20, 64, 64, 20, 19, 64, 64, 22, 22, 0, 0, 22, 22, 64, 64, 64, 62⟩ -∗ Kt out))
      ⊢ WP c (k0_part271 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part271_eq_skeleton k0_part271_skel

set_option maxRecDepth 65536 in
theorem part_272 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 20, 19, 64, 64, 22, 22, 0, 0, 22, 22, 64, 64, 64, 62⟩ ∗ (∀ out, St m c ⟨3, true, 84, 84, 64, 20, 64, 64, 23, 22, 64, 64, 22, 22, 0, 0, 22, 22, 64, 64, 64, 62⟩ -∗ Kt out))
      ⊢ WP c (k0_part272 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part272_eq_skeleton k0_part272_skel

set_option maxRecDepth 65536 in
theorem part_273 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 23, 22, 64, 64, 22, 22, 0, 0, 22, 22, 64, 64, 64, 62⟩ ∗ (∀ out, St m c ⟨3, true, 84, 84, 64, 20, 64, 64, 26, 25, 64, 64, 22, 22, 0, 0, 22, 22, 64, 64, 64, 62⟩ -∗ Kt out))
      ⊢ WP c (k0_part273 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part273_eq_skeleton k0_part273_skel

set_option maxRecDepth 65536 in
theorem part_274 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 26, 25, 64, 64, 22, 22, 0, 0, 22, 22, 64, 64, 64, 62⟩ ∗ (∀ out, St m c ⟨3, true, 84, 84, 64, 20, 64, 64, 29, 28, 64, 64, 22, 22, 0, 0, 22, 22, 64, 64, 64, 62⟩ -∗ Kt out))
      ⊢ WP c (k0_part274 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part274_eq_skeleton k0_part274_skel

set_option maxRecDepth 65536 in
theorem part_275 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 29, 28, 64, 64, 22, 22, 0, 0, 22, 22, 64, 64, 64, 62⟩ ∗ (∀ out, St m c ⟨3, true, 84, 84, 64, 20, 64, 64, 32, 31, 64, 64, 22, 22, 0, 0, 22, 22, 64, 64, 64, 62⟩ -∗ Kt out))
      ⊢ WP c (k0_part275 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part275_eq_skeleton k0_part275_skel

set_option maxRecDepth 65536 in
theorem part_276 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 32, 31, 64, 64, 22, 22, 0, 0, 22, 22, 64, 64, 64, 62⟩ ∗ (∀ out, St m c ⟨3, true, 84, 84, 64, 20, 64, 64, 35, 34, 64, 64, 22, 22, 0, 0, 22, 22, 64, 64, 64, 62⟩ -∗ Kt out))
      ⊢ WP c (k0_part276 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part276_eq_skeleton k0_part276_skel

set_option maxRecDepth 65536 in
theorem part_277 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 35, 34, 64, 64, 22, 22, 0, 0, 22, 22, 64, 64, 64, 62⟩ ∗ (∀ out, St m c ⟨3, true, 84, 84, 64, 20, 64, 64, 38, 37, 64, 64, 22, 22, 0, 0, 22, 22, 64, 64, 64, 62⟩ -∗ Kt out))
      ⊢ WP c (k0_part277 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part277_eq_skeleton k0_part277_skel

set_option maxRecDepth 65536 in
theorem part_278 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 38, 37, 64, 64, 22, 22, 0, 0, 22, 22, 64, 64, 64, 62⟩ ∗ (∀ out, St m c ⟨3, true, 84, 84, 64, 20, 64, 64, 41, 40, 64, 64, 22, 22, 0, 0, 22, 22, 64, 64, 64, 62⟩ -∗ Kt out))
      ⊢ WP c (k0_part278 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part278_eq_skeleton k0_part278_skel

set_option maxRecDepth 65536 in
theorem part_279 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 41, 40, 64, 64, 22, 22, 0, 0, 22, 22, 64, 64, 64, 62⟩ ∗ (∀ out, St m c ⟨3, true, 84, 84, 64, 20, 64, 64, 44, 43, 64, 64, 22, 22, 0, 0, 22, 22, 64, 64, 64, 62⟩ -∗ Kt out))
      ⊢ WP c (k0_part279 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part279_eq_skeleton k0_part279_skel

set_option maxRecDepth 65536 in
theorem part_280 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 44, 43, 64, 64, 22, 22, 0, 0, 22, 22, 64, 64, 64, 62⟩ ∗ (∀ out, St m c ⟨3, true, 84, 84, 64, 20, 64, 64, 47, 46, 64, 64, 22, 22, 0, 0, 22, 22, 64, 64, 64, 62⟩ -∗ Kt out))
      ⊢ WP c (k0_part280 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part280_eq_skeleton k0_part280_skel

set_option maxRecDepth 65536 in
theorem part_281 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 47, 46, 64, 64, 22, 22, 0, 0, 22, 22, 64, 64, 64, 62⟩ ∗ (∀ out, St m c ⟨3, true, 84, 84, 64, 20, 64, 64, 50, 49, 64, 64, 22, 22, 0, 0, 22, 22, 64, 64, 64, 62⟩ -∗ Kt out))
      ⊢ WP c (k0_part281 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part281_eq_skeleton k0_part281_skel

set_option maxRecDepth 65536 in
theorem part_282 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 50, 49, 64, 64, 22, 22, 0, 0, 22, 22, 64, 64, 64, 62⟩ ∗ (∀ out, St m c ⟨3, true, 84, 84, 64, 20, 64, 64, 53, 52, 64, 64, 22, 22, 0, 0, 22, 22, 64, 64, 64, 62⟩ -∗ Kt out))
      ⊢ WP c (k0_part282 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part282_eq_skeleton k0_part282_skel

set_option maxRecDepth 65536 in
theorem part_283 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 53, 52, 64, 64, 22, 22, 0, 0, 22, 22, 64, 64, 64, 62⟩ ∗ (∀ out, St m c ⟨3, true, 84, 84, 64, 20, 64, 64, 56, 55, 64, 64, 22, 22, 0, 0, 22, 22, 64, 64, 64, 62⟩ -∗ Kt out))
      ⊢ WP c (k0_part283 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part283_eq_skeleton k0_part283_skel

set_option maxRecDepth 65536 in
theorem part_284 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 56, 55, 64, 64, 22, 22, 0, 0, 22, 22, 64, 64, 64, 62⟩ ∗ (∀ out, St m c ⟨3, true, 84, 84, 64, 20, 64, 64, 59, 58, 64, 64, 22, 22, 0, 0, 22, 22, 64, 64, 64, 62⟩ -∗ Kt out))
      ⊢ WP c (k0_part284 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part284_eq_skeleton k0_part284_skel

set_option maxRecDepth 65536 in
theorem part_285 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 59, 58, 64, 64, 22, 22, 0, 0, 22, 22, 64, 64, 64, 62⟩ ∗ (∀ out, St m c ⟨3, true, 84, 84, 64, 20, 64, 64, 62, 61, 64, 64, 22, 22, 0, 0, 22, 22, 64, 64, 64, 62⟩ -∗ Kt out))
      ⊢ WP c (k0_part285 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part285_eq_skeleton k0_part285_skel

set_option maxRecDepth 65536 in
theorem part_286 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 62, 61, 64, 64, 22, 22, 0, 0, 22, 22, 64, 64, 64, 62⟩ ∗ (∀ out, St m c ⟨3, true, 84, 84, 64, 20, 64, 64, 64, 64, 64, 64, 22, 22, 1, 0, 22, 22, 64, 64, 64, 62⟩ -∗ Kt out))
      ⊢ WP c (k0_part286 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part286_eq_skeleton k0_part286_skel

set_option maxRecDepth 65536 in
theorem part_287 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 64, 64, 64, 64, 22, 22, 1, 0, 22, 22, 64, 64, 64, 62⟩ ∗ (∀ out, St m c ⟨3, true, 84, 84, 64, 20, 64, 64, 64, 64, 64, 64, 22, 22, 7, 0, 22, 22, 64, 64, 64, 62⟩ -∗ Kt out))
      ⊢ WP c (k0_part287 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part287_eq_skeleton k0_part287_skel

set_option maxRecDepth 65536 in
theorem part_288 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 64, 64, 64, 64, 22, 22, 7, 0, 22, 22, 64, 64, 64, 62⟩ ∗ (∀ out, St m c ⟨3, true, 84, 84, 64, 20, 64, 64, 64, 64, 64, 64, 22, 22, 13, 0, 22, 22, 64, 64, 64, 62⟩ -∗ Kt out))
      ⊢ WP c (k0_part288 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part288_eq_skeleton k0_part288_skel

set_option maxRecDepth 65536 in
theorem part_289 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 64, 64, 64, 64, 22, 22, 13, 0, 22, 22, 64, 64, 64, 62⟩ ∗ (∀ out, St m c ⟨3, true, 84, 84, 64, 20, 64, 64, 64, 64, 64, 64, 22, 22, 19, 0, 22, 22, 64, 64, 64, 62⟩ -∗ Kt out))
      ⊢ WP c (k0_part289 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part289_eq_skeleton k0_part289_skel

set_option maxRecDepth 65536 in
theorem part_290 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 64, 64, 64, 64, 22, 22, 19, 0, 22, 22, 64, 64, 64, 62⟩ ∗ (∀ out, St m c ⟨3, true, 84, 84, 64, 20, 64, 64, 64, 64, 64, 64, 22, 22, 22, 3, 22, 22, 64, 64, 64, 62⟩ -∗ Kt out))
      ⊢ WP c (k0_part290 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part290_eq_skeleton k0_part290_skel

set_option maxRecDepth 65536 in
theorem part_291 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 64, 64, 64, 64, 22, 22, 22, 3, 22, 22, 64, 64, 64, 62⟩ ∗ (∀ out, St m c ⟨3, true, 84, 84, 64, 20, 64, 64, 64, 64, 64, 64, 22, 22, 22, 9, 22, 22, 64, 64, 64, 62⟩ -∗ Kt out))
      ⊢ WP c (k0_part291 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part291_eq_skeleton k0_part291_skel

set_option maxRecDepth 65536 in
theorem part_292 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 64, 64, 64, 64, 22, 22, 22, 9, 22, 22, 64, 64, 64, 62⟩ ∗ (∀ out, St m c ⟨3, true, 84, 84, 64, 20, 64, 64, 64, 64, 64, 64, 22, 22, 22, 15, 22, 22, 64, 64, 64, 62⟩ -∗ Kt out))
      ⊢ WP c (k0_part292 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part292_eq_skeleton k0_part292_skel

set_option maxRecDepth 65536 in
theorem part_293 (m : (ℓ : Loc nD τ sig) → Buf (Elt F) ℓ) (K : CellIx → ℕ) (c : Dev nD) (Kt : (PUnit) → sProp 𝕄) :
    iprop(Ctx m K ∗ St m c ⟨3, true, 84, 84, 64, 20, 64, 64, 64, 64, 64, 64, 22, 22, 22, 15, 22, 22, 64, 64, 64, 62⟩ ∗ (∀ out, St m c ⟨3, true, 84, 84, 64, 20, 64, 64, 64, 64, 64, 64, 22, 22, 22, 21, 22, 22, 64, 64, 64, 62⟩ -∗ Kt out))
      ⊢ WP c (k0_part293 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c) Kt := by
  ag_part k0_part293_eq_skeleton k0_part293_skel

end Cert.Kernel.AG

end
-- ==== Proof.W.Seq.lean ====
/-
  Running the printed parts in sequence.

  A part of the second level, and the body itself, are printed as a sequence of parts, each handing a tuple of words to the
  rest. Each part's theorem is stated at any continuation, so the sequence is proved by applying, part after part, the part's
  theorem at the continuation that runs the rest: the weakest precondition of `p >>= rest` is that of `p` at the weakest
  precondition of `rest`. The state's counters after one part are the counters before the next.
-/
import proofs.«900672_g7700000000000673_dist_ag_v7x_xyz2x2x2_z_m32768_n1024_f32_1_alg».proof.Proof.W.Parts

noncomputable section

namespace Cert.Kernel.AG

open Cert.Kernel Cert.Kernel.Gen Cert.Kernel.AGDev Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Lean Elab Tactic Meta

/-! ## Parts in sequence

A part of the second level, and the body itself, run printed parts one after the other, each handing a tuple of words to the
rest. `ag_seq` reads the part `k0_partN` at the head, applies its theorem `part_N` at the continuation that runs the rest, then
takes the returned tuple apart; a fact the part tells about what it returns (the device it read; the barrier semaphore) is
substituted. -/

/-- The number `N` when the constant is the printed part `k0_partN`. -/
private def partNum? : Name → Option Nat
  | .str _ s => if s.startsWith "k0_part" then (s.drop 7).toNat? else none
  | _ => none

/-- Take a tuple apart into its components, as far as it goes. -/
private partial def splitTuple (g : MVarId) (x : FVarId) : MetaM MVarId := g.withContext do
  let ty ← whnfD (← x.getType)
  if ty.isAppOf ``PSigma || ty.isAppOf ``PUnit then
    match (← g.cases x) with
    | #[s] =>
      if h : 1 < s.fields.size then
        let e := s.fields[1]
        if e.isFVar then splitTuple s.mvarId e.fvarId! else pure s.mvarId
      else pure s.mvarId
    | _ => throwError "ag_seq: a returned value that is not a tuple"
  else pure g

/-- Close `g` by the theorem `lem`, all of whose arguments its conclusion fixes. -/
private def closeBy (g : MVarId) (lem : Name) : MetaM Bool := g.withContext do
  let c ← mkConstWithFreshMVarLevels lem
  let (xs, bis, concl) ← forallMetaTelescope (← inferType c)
  unless (← isDefEq concl (← g.getType)) do return false
  for x in xs, bi in bis do
    unless (← x.mvarId!.isAssigned) do
      if bi.isInstImplicit then x.mvarId!.assign (← synthInstance (← inferType x))
  g.assign (mkAppN c xs)
  return true

elab "ag_seq" : tactic => withMainContext do
  let g₀ ← getMainGoal
  let others := (← getGoals).tail
  let P ← pieces (← instantiateMVars (← g₀.getType))
  let prog ← whnfCore P.rargs[P.rargs.size - 2]!
  let (p, bound) := if prog.isAppOfArity ``Bind.bind 6 then (prog.getAppArgs[4]!, true) else (prog, false)
  let some N := (p.getAppFn.constName?).bind partNum? | throwError "ag_seq: the program is not at a printed part"
  let lem := `Cert.Kernel.AG ++ Name.mkSimple s!"part_{N}"
  if !bound then
    -- the part is all that is left: its theorem is the goal
    unless (← closeBy g₀ lem) do throwError "ag_seq: {lem} does not fit the goal"
    setGoals others
    return
  let find (nm : String) : TacticM MVarId := do
    for g in (← getGoals) do
      if others.contains g then continue
      if let .str _ s := (← g.getTag).eraseMacroScopes then
        if s == nm then return g
    throwError "ag_seq: the chain lemma's goal {nm} was not found"
  let s ← saveState
  evalTactic (← `(tactic| apply part_chain))
  let mut fact := false
  unless (← closeBy (← find "hpart") lem) do
    s.restore
    evalTactic (← `(tactic| apply part_chain_fact))
    unless (← closeBy (← find "hpart") lem) do throwError "ag_seq: {lem} does not fit the head of the program"
    fact := true
  let gr ← find "hrest"
  let (x, gr) ← gr.intro1
  let gr ← splitTuple gr x
  setGoals [gr]
  if fact then
    let h := mkIdent `hout
    let h' := mkIdent `hout'
    evalTactic (← `(tactic| (intro $h:ident; dsimp only at $h:ident; have $h':ident := Eq.symm $h:ident; subst $h':ident)))
  -- the goal as a plain application again (introducing and substituting may leave it annotated)
  let g ← getMainGoal
  let t ← instantiateMVars (← g.getType)
  replaceMainGoal [← g.replaceTargetDefEq t.consumeMData.headBeta]
  normGoal
  setGoals ((← getGoals) ++ others)

/-- Every part in sequence, one after the other; a part whose theorem does not fit is reported where it stands. -/
elab "ag_seqs" : tactic => do
  repeat
    if (← getGoals).isEmpty then break
    let atPart ← withMainContext do
      let P ← pieces (← instantiateMVars (← getMainTarget))
      let prog ← whnfCore P.rargs[P.rargs.size - 2]!
      let p := if prog.isAppOfArity ``Bind.bind 6 then prog.getAppArgs[4]! else prog
      return ((p.getAppFn.constName?).bind partNum?).isSome
    unless atPart do break
    evalTactic (← `(tactic| ag_seq))

/-- The return of the body, which returns nothing: the state goes to the continuation. -/
theorem part_ret_unit (m : (ℓ : Loc nD τ sig) → Buf (Elt F) ℓ) (K : CellIx → ℕ) (c : Dev nD) (n : Cnt) (Kt : PUnit → sProp 𝕄) :
    iprop(Ctx m K ∗ St m c n ∗ (St m c n -∗ Kt ⟨⟩)) ⊢ WP c (.ret ⟨⟩) Kt := by
  iintro ⟨-, HS, HK⟩
  iapply (le_wp_ret frame (wpE (defs₀ (F := F)) 𝒱₀ (c : Thread nD τ) none) Set.univ PUnit.unit Kt)
  iapply HK
  iexact HS

/-- A printed part of the second level, or the body: its parts in sequence, then whatever effects it has of its own, then its return. -/
macro "ag_parts " eq:ident skel:ident : tactic => `(tactic| (
  rw [$eq:ident]; unfold $skel:ident
  ag_seqs
  try simp only [semSignalWord, semWaitWord, Prog.lift, Prog.bind_op, Prog.bind_ret, Prog.pure_eq_ret, wp_deviceId]
  try ag_steps
  first
    | done
    | exact part_ret _ _ _ _ _ _
    | exact part_ret_fact _ _ _ _ _ _ (by rfl) _
    | exact part_ret_unit _ _ _ _ _))

/-- info: 'Cert.Kernel.AG.part_ret_unit' depends on axioms: [propext, Classical.choice, Quot.sound] -/
#guard_msgs in #print axioms part_ret_unit

end Cert.Kernel.AG

end
-- ==== Proof.W.Body.lean ====
/-
  The body whole. Its printed text is five stretches of up to sixty leaf parts each, then three last waits. Each
  stretch runs its leaves in order, from the counters its first leaf starts at to those its last leaf ends at: the first
  covers the barrier, the 84 copies to the z-peer and the first twelve trips of the forward loop; the second and third the
  rest of that loop and the start of the relay loop; the fourth the relay loop and half of the last receives; the fifth the
  remaining receives and the waits for the device's own sends. The body is the five in sequence and the three waits.
-/
import proofs.«900672_g7700000000000673_dist_ag_v7x_xyz2x2x2_z_m32768_n1024_f32_1_alg».proof.Proof.W.LaunchDefs
import proofs.«900672_g7700000000000673_dist_ag_v7x_xyz2x2x2_z_m32768_n1024_f32_1_alg».proof.Proof.W.Leaves
import proofs.«900672_g7700000000000673_dist_ag_v7x_xyz2x2x2_z_m32768_n1024_f32_1_alg».proof.Proof.W.Seq

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

set_option maxRecDepth 65536 in
/-- The first stretch reads the device id, which it returns first: its continuation learns that it is `c`. -/
theorem part_294 (m : (ℓ : Loc nD τ sig) → Buf (Elt F) ℓ) (K : CellIx → ℕ) (c : Dev nD) (Kt : (Σ' (d0 : Dev nD) (v2 : BitVec 32) (v5 : BitVec 32) (v8 : BitVec 32) (v9 : BitVec 32) (v12 : BitVec 32) (v14 : BitVec 32) (v16 : BitVec 32) (v18 : BitVec 32) (v23 : BitVec 32) (v34 : BitVec 32) (v45 : BitVec 32) (v56 : BitVec 32) (v57 : BitVec 32), BitVec 32) → sProp 𝕄) :
    iprop(Ctx m K ∗ St m c ⟨0, false, 0, 0, 0, 0, 0, 0, 0, 0, 0, 0, 0, 0, 0, 0, 0, 0, 0, 0, 0, 0⟩ ∗ (∀ out, ⌜(fun out => out.1 = c) out⌝ -∗ St m c ⟨3, true, 84, 0, 12, 0, 12, 11, 0, 0, 0, 0, 0, 0, 0, 0, 0, 0, 11, 11, 11, 9⟩ -∗ Kt out))
      ⊢ WP c (k0_part294 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12) Kt := by
  ag_parts k0_part294_eq_skeleton k0_part294_skel

set_option maxRecDepth 65536 in
theorem part_295 (m : (ℓ : Loc nD τ sig) → Buf (Elt F) ℓ) (K : CellIx → ℕ) (c : Dev nD) (v2 v5 v8 v9 v12 v14 v16 v18 v23 v57 v59 : BitVec 32) (Kt : (PUnit) → sProp 𝕄) :
    iprop(Ctx m K ∗ St m c ⟨3, true, 84, 0, 12, 0, 12, 11, 0, 0, 0, 0, 0, 0, 0, 0, 0, 0, 11, 11, 11, 9⟩ ∗ (∀ out, St m c ⟨3, true, 84, 0, 43, 0, 43, 43, 0, 0, 0, 0, 0, 0, 0, 0, 0, 0, 43, 43, 42, 41⟩ -∗ Kt out))
      ⊢ WP c (k0_part295 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v57 v59) Kt := by
  ag_parts k0_part295_eq_skeleton k0_part295_skel

set_option maxRecDepth 65536 in
theorem part_296 (m : (ℓ : Loc nD τ sig) → Buf (Elt F) ℓ) (K : CellIx → ℕ) (c : Dev nD) (v2 v5 v8 v9 v12 v14 v16 v18 v23 v34 v45 v57 v59 : BitVec 32) (Kt : (BitVec 32) → sProp 𝕄) :
    iprop(Ctx m K ∗ St m c ⟨3, true, 84, 0, 43, 0, 43, 43, 0, 0, 0, 0, 0, 0, 0, 0, 0, 0, 43, 43, 42, 41⟩ ∗ (∀ out, St m c ⟨3, true, 84, 0, 64, 0, 64, 64, 0, 0, 18, 17, 17, 0, 0, 0, 0, 0, 64, 64, 64, 62⟩ -∗ Kt out))
      ⊢ WP c (k0_part296 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v12 v14 v16 v18 v23 v34 v45 v57 v59) Kt := by
  ag_parts k0_part296_eq_skeleton k0_part296_skel

set_option maxRecDepth 65536 in
theorem part_297 (m : (ℓ : Loc nD τ sig) → Buf (Elt F) ℓ) (K : CellIx → ℕ) (c : Dev nD) (v8 v12 v14 v16 v18 v34 v45 v56 v59 v5701 : BitVec 32) (Kt : (Σ' (v7668 : BitVec 32), BitVec 32) → sProp 𝕄) :
    iprop(Ctx m K ∗ St m c ⟨3, true, 84, 0, 64, 0, 64, 64, 0, 0, 18, 17, 17, 0, 0, 0, 0, 0, 64, 64, 64, 62⟩ ∗ (∀ out, St m c ⟨3, true, 84, 0, 64, 0, 64, 64, 0, 0, 64, 64, 22, 22, 0, 0, 22, 11, 64, 64, 64, 62⟩ -∗ Kt out))
      ⊢ WP c (k0_part297 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v8 v12 v14 v16 v18 v34 v45 v56 v59 v5701) Kt := by
  ag_parts k0_part297_eq_skeleton k0_part297_skel

set_option maxRecDepth 65536 in
theorem part_298 (m : (ℓ : Loc nD τ sig) → Buf (Elt F) ℓ) (K : CellIx → ℕ) (c : Dev nD) (v2 v5 v8 v9 v16 v18 v56 v59 v7668 c1_i32_5793 : BitVec 32) (Kt : (PUnit) → sProp 𝕄) :
    iprop(Ctx m K ∗ St m c ⟨3, true, 84, 0, 64, 0, 64, 64, 0, 0, 64, 64, 22, 22, 0, 0, 22, 11, 64, 64, 64, 62⟩ ∗ (∀ out, St m c ⟨3, true, 84, 84, 64, 20, 64, 64, 64, 64, 64, 64, 22, 22, 22, 21, 22, 22, 64, 64, 64, 62⟩ -∗ Kt out))
      ⊢ WP c (k0_part298 (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10 cc0_scratch11 cc0_scratch12 c v2 v5 v8 v9 v16 v18 v56 v59 v7668 c1_i32_5793) Kt := by
  ag_parts k0_part298_eq_skeleton k0_part298_skel

set_option maxRecDepth 65536 in
/-- The body on device `c`, from the state where nothing has happened to the state where everything has: the five
    stretches in sequence, then the last relay's send wait and the waits of the last two local copies. -/
theorem body_all (m : (ℓ : Loc nD τ sig) → Buf (Elt F) ℓ) (K : CellIx → ℕ) (c : Dev nD) (Kt : PUnit → sProp 𝕄) :
    iprop(Ctx m K ∗ St m c Cnt.start ∗ (St m c Cnt.done -∗ Kt ⟨⟩))
      ⊢ WP c (cc0_body (F := F) (Memref.whole main_arg0) (Memref.isWhole_whole _) (Memref.whole main_v1) (Memref.isWhole_whole _) (Memref.whole cc0_scratch0) (Memref.isWhole_whole _) cc0_scratch1 cc0_scratch2 cc0_scratch3 cc0_scratch4 cc0_scratch5 cc0_scratch6
          cc0_scratch7 cc0_scratch8 cc0_scratch9 cc0_scratch10 cc0_scratch11 cc0_scratch12) Kt := by
  ag_parts cc0_body_eq_skeleton cc0_body_skel

/-- info: 'Cert.Kernel.AG.body_all' depends on axioms: [propext, Classical.choice, Quot.sound] -/
#guard_msgs in #print axioms body_all

end Cert.Kernel.AG

end
-- ==== Proof.W.Run.lean ====
/-
  The run of the whole mesh, from the launch theorem.
  No window is staged, so the pipeline has one point and no cell of its own: the library's body obligation is the body's
  own theorem between the state where nothing has happened and the state where everything has, with what the device owes
  at launch before it and nothing owed after it. The launch theorem then mints the protocol's ghost state, deals it, lets
  every device enter its body and leave it, and reads the final memory.
-/
import proofs.«900672_g7700000000000673_dist_ag_v7x_xyz2x2x2_z_m32768_n1024_f32_1_alg».proof.Proof.W.Ghost
import proofs.«900672_g7700000000000673_dist_ag_v7x_xyz2x2x2_z_m32768_n1024_f32_1_alg».proof.Proof.W.Entry
import proofs.«900672_g7700000000000673_dist_ag_v7x_xyz2x2x2_z_m32768_n1024_f32_1_alg».proof.Proof.W.Exit
import proofs.«900672_g7700000000000673_dist_ag_v7x_xyz2x2x2_z_m32768_n1024_f32_1_alg».proof.Proof.W.Body

noncomputable section

namespace Cert.Kernel.AG

open Cert.Kernel Cert.Kernel.Gen Cert.AG

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one point's body, in the library's form -/

omit [FloatOps F] in
/-- No window is staged: a separating conjunction over the windows is empty. -/
private theorem bigSep_W0 (Φ : Fin cfg0.W → sProp 𝕄) : bigSep Finset.univ Φ = iprop(emp) := by
  rw [show (Finset.univ : Finset (Fin cfg0.W)) = ∅ from Finset.univ_eq_empty]; exact bigSep_empty

/-- The invariant before the point with what is owed at launch is the state where nothing has happened, at some record of
    the cells' invariants. -/
private theorem St_start_intro (c : Dev nD) :
    iprop(Φ₀ m c ∗ (dats (F := F) m 0 c).owesAt () t0_0.castSucc) ⊢ iprop(∃ K : CellIx → ℕ, Ctx m K ∗ St m c Cnt.start) := by
  unfold Φ₀ St
  iintro ⟨⟨%K, Hctx, HR⟩, ⟨%W, -, HO⟩⟩
  iexists K
  isplitl [Hctx]; · iexact Hctx
  isplitl [HO]
  · iexists W; iexact HO
  iexact HR

/-- The state where everything has happened owes nothing: it is the invariant after the point with nothing owed. -/
private theorem St_done_elim (c : Dev nD) :
    St m c Cnt.done ⊢ iprop(Φ₁ m c ∗ (dats (F := F) m 0 c).owesAt () t0_0.succ) := by
  unfold Φ₁ St
  rw [Owed_zero c Cnt.done rfl rfl rfl rfl rfl rfl]
  iintro ⟨⟨%W, HO⟩, HR⟩
  isplitl [HR]; · iexact HR
  iexists W
  isplitr; · ipureintro; exact fun _ _ => Or.inl trivial
  iexact HO

/-! ## The run -/

section
-- the printed body enters only by name: the table's row at the body's label is compared with it without unfolding its text
attribute [local irreducible] cc0_body
set_option maxRecDepth 16384 in
/-- The library's body obligation on device `c`: the one point's body from `Φ₀` and what is owed at launch to `Φ₁` and nothing owed. -/
theorem body_obligation (c : Dev nD) : BodyObligation (dats (F := F) m 0 c) (defs₀ (F := F)) 𝒱₀ () Set.univ := fun t => by
  rw [Gen.fin_N0 t]
  rw [bigSep_W0, bigSep_W0]
  show iprop(Φ₀ m c ∗ (dats (F := F) m 0 c).owesAt () t0_0.castSucc ∗ emp)
    ⊢ WP c (cc0_body (F := F) (Memref.whole main_arg0) (Memref.isWhole_whole _) (Memref.whole main_v1) (Memref.isWhole_whole _)
        (Memref.whole cc0_scratch0) (Memref.isWhole_whole _) cc0_scratch1 cc0_scratch2 cc0_scratch3 cc0_scratch4 cc0_scratch5 cc0_scratch6
        cc0_scratch7 cc0_scratch8 cc0_scratch9 cc0_scratch10 cc0_scratch11 cc0_scratch12)
      (fun _ => iprop(Φ₁ m c ∗ (dats (F := F) m 0 c).owesAt () t0_0.succ ∗ emp))
  iintro ⟨HΦ, HO, -⟩
  ihave Hs := (St_start_intro m c) $$ [HΦ HO]
  · isplitl [HΦ] <;> iassumption
  icases Hs with ⟨%K, Hctx, Hst⟩
  iapply (body_all m K c fun _ => iprop(Φ₁ m c ∗ (dats (F := F) m 0 c).owesAt () t0_0.succ ∗ emp))
  isplitl [Hctx]; · iexact Hctx
  isplitl [Hst]; · iexact Hst
  iintro Hd
  ihave Hd' := (St_done_elim m c) $$ Hd
  icases Hd' with ⟨H1, H2⟩
  isplitl [H1]; · iexact H1
  isplitl [H2]; · iexact H2
  iempintro
end

/-! ### The theorem's side conditions -/

/-- The kernel's own semaphores are its 516 DMA semaphores: all scoped, distinct, and (no window being staged) none a staging
    semaphore. -/
theorem ownSemFacts : Pipeline.OwnSemFacts cfg0.spec osem :=
  ⟨fun k => by revert k; decide, fun _ _ h => SemLoc.dma.inj h, fun _ w _ => w.elim0⟩

omit [FloatOps F] in
/-- Only TensorCore threads wait. -/
theorem L_of_ne (g : GSem nD τ sig) (h : g.1.2 ≠ .tc) : L g = ∅ := if_neg h

/-- The pipeline itself waits on nothing: no window is staged. -/
theorem waits (c : Dev nD) : (levAts L lv : sProp 𝕄) ⊢ Pipeline.cellsWaits cfgs (dats (F := F) m) () 0 c :=
  Pipeline.cellsWaits_intro cfgs (dats (F := F) m) () 0 c fun w _ _ => w.elim0

/-- At the compiled mesh of eight devices, for any contents, from any memory with zero counters: every weakly fair
    execution terminates, nothing faults, every device's result array ends at the gathered result and its argument block
    as it was. -/
theorem run_kernel : θ_run defs (onTc (τ := τ) (main (F := F))) (s₀ m ρ) (fun r => ∀ c : Dev nD,
    r.2.mem ((c.tc : Thread nD τ).loc main_v1) = goal m c
    ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats (F := F) m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0)
    (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob_ag m)
    (hA := fun _ w => w.elim0) (hpf := fun _ k => k.elim0)
    (X := X m) (Y := Y m) (Z := fun _ => iprop(emp))
    (hX := start_intro m ρ) (hin := phi0_intro m) (hout := phi1_exit m)
    (QY := QY m)
    (hY := read_final m)
    (hQ := fun _ h c => (h c).2.2)

/-- info: 'Cert.Kernel.AG.run_kernel' depends on axioms: [propext, Classical.choice, Quot.sound] -/
#guard_msgs in #print axioms run_kernel

end Cert.Kernel.AG

end
-- ==== Proof.Reference.lean ====
/-
  The reference is the identity: its @main returns its argument array untouched. So every execution of it ends at
  once with the argument array holding what it held, which is both its frame and its value.
-/
import proofs.«900672_g7700000000000673_dist_ag_v7x_xyz2x2x2_z_m32768_n1024_f32_1_alg».proof.Defs
import proofs.«900672_g7700000000000673_dist_ag_v7x_xyz2x2x2_z_m32768_n1024_f32_1_alg».proof.Proof.Gen.ReferenceIdeal
import proofs.«900672_g7700000000000673_dist_ag_v7x_xyz2x2x2_z_m32768_n1024_f32_1_alg».proof.Proof.Gen.Pre_finite_inputs_ReferenceIdeal
import Idealize.ShloMosaic.Lib.StableHlo.Run

noncomputable section

namespace Cert.AG.Ref

open Idealize.ShloMosaic Idealize.SL.Sem Cert.ReferenceIdeal

/-- The identity program leaves every TensorCore buffer of its one device at its launch contents. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r =>
      ∀ (d : Dev nD) (b : Ref sig .tc), r.2.mem ((d.tc : Thread nD τ).loc b) = m ((d.tc : Thread nD τ).loc b)) :=
  (θ_run (defs (F := Ideal)) _ _).mono (fun _ h d b => (h d b).trans rfl)
    (StableHlo.run_seq (by decide) (by decide) (defs (F := Ideal)) (main (F := Ideal)) (fun _ => [])
      (fun _ => rfl) (fun _ => trivial) m ρ)

end Cert.AG.Ref

end
-- ==== Proof.Value.lean ====
/-
  The value of the all-gather: when every device's block is its z-block of one whole array, each device's gathered
  result IS that whole array. The own half is the device's own block, which sits at its own z; every row of the other
  half was copied from a device of the other z-plane, whose block sits at the other z: in both cases row `i` of the
  result is row `i` of the whole array.
-/
import proofs.«900672_g7700000000000673_dist_ag_v7x_xyz2x2x2_z_m32768_n1024_f32_1_alg».proof.Proof.Contents

namespace Cert.AG

open Idealize.ShloMosaic Cert.KernelIdeal

/-- A row of a device's block lies inside the whole array once moved to the device's z-half. -/
theorem row_lt (c : Fin nDev) (j : S32768x1024.Idx) : (zc c).val * 32768 + (j 0).val < 65536 := by
  have h0 : (j 0).val < 32768 := (j 0).isLt
  have h1 : (zc c).val < 2 := (zc c).isLt
  omega

/-- Along the one cut dimension the mesh gives a device the block numbered by its z coordinate: the rows are cut along
    the innermost mesh axis only, and a device's coordinate on that axis is its id modulo two. -/
private theorem meshLin_z (c : Fin nDev) : Layout.meshLin [2, 2, 2] c.val [2] = (zc c).val := by
  revert c; decide

/-- An index of the whole array is determined by its row and its column. -/
private theorem pair_eq (i : S65536x1024.Idx) (r l : Nat) (hr : r < 65536) (hl : l < 1024)
    (h0 : r = (i 0).val) (h1 : l = (i 1).val) :
    Shape.pair (d := ![65536, 1024]) ⟨r, hr⟩ ⟨l, hl⟩ = i := by
  subst h0 h1
  exact Shape.pair_eta i

/-- A device's block of the whole array, as the claim names it: the rows at the device's z. -/
theorem block_apply {α : Type} (X : S65536x1024.Idx → α) (c : Fin nDev) (j : S32768x1024.Idx) :
    (Layout.blockN ⟨2, ![32768, 1024]⟩ ⟨2, ![65536, 1024]⟩ (Layout.meshBlock [2, 2, 2] ![[2], []] c) X) j
      = X (Shape.pair (d := ![65536, 1024]) ⟨(zc c).val * 32768 + (j 0).val, row_lt c j⟩ ⟨(j 1).val, (j 1).isLt⟩) := by
  rw [Layout.blockN_apply]
  refine congrArg X ?_
  funext b
  apply Fin.ext
  rcases b with ⟨_ | _ | n, hb⟩
  · show Layout.meshLin [2, 2, 2] c.val [2] * 32768 + (j 0).val = (zc c).val * 32768 + (j 0).val
    rw [meshLin_z]
  · show 0 * 1024 + (j 1).val = (j 1).val
    rw [Nat.zero_mul, Nat.zero_add]
  · exact absurd hb (by simp)

/-- With every device holding its z-block of `X`, every device gathers `X`. -/
theorem gathered_of_blocks {α : Type} (X : S65536x1024.Idx → α) (xs : Fin nDev → S32768x1024.Idx → α)
    (h : ∀ c : Fin nDev, xs c = Layout.blockN ⟨2, ![32768, 1024]⟩ ⟨2, ![65536, 1024]⟩ (Layout.meshBlock [2, 2, 2] ![[2], []] c) X)
    (c : Fin nDev) : gathered xs c = X := by
  funext i
  have hi : (i 0).val < 65536 := (i 0).isLt
  have hz : (zc c).val < 2 := (zc c).isLt
  unfold gathered
  by_cases hc : (i 0).val / 32768 = (zc c).val
  · -- the own half: the device's z is the half the row lies in
    rw [if_pos hc, h c, block_apply]
    refine congrArg X (pair_eq i _ _ _ _ ?_ rfl)
    show (zc c).val * 32768 + (i 0).val % 32768 = (i 0).val
    omega
  · -- the other half: the source device's z is the other one, which is again the half the row lies in
    have hs : (zc (srcDev c ((i 0).val % 32768))).val = 1 - (zc c).val := zc_srcDev c _
    rw [if_neg hc, h (srcDev c ((i 0).val % 32768)), block_apply]
    refine congrArg X (pair_eq i _ _ _ _ ?_ rfl)
    show (zc (srcDev c ((i 0).val % 32768))).val * 32768 + (i 0).val % 32768 = (i 0).val
    omega

/-- info: 'Cert.AG.gathered_of_blocks' depends on axioms: [propext, Quot.sound] -/
#guard_msgs in #print axioms gathered_of_blocks

end Cert.AG
-- ==== Proof.lean ====
/-
  The proof of `Cert.Claim`: the five conjuncts, under the witnesses of the programs' stated facts (the instances the
  generated modules prove).

  1. The kernel as printed (word level) runs and leaves each device's argument block as it was: the run of the whole mesh
     at the word-level instance, its value dropped.
  2. The same for the kernel read at the ideal instance: `run_kernel`, its value dropped.
  3. The reference is the identity program: it ends at once with its argument array as it was.
  4. The ideal pass rewrote no operation, so that the idealization is sanctioned holds trivially.
  5. At the ideal instance, when every device's argument block is its block of the reference's whole array (the rows at the
     device's coordinate on the innermost mesh axis), both programs run, the reference ends holding that whole array, and
     every device's result array ends holding it too: `run_kernel` names each device's result as the gathered array, and the
     gathered array of the blocks of one whole array is that array (`gathered_of_blocks`); the arguments of both end as they
     were.
-/
import proofs.«900672_g7700000000000673_dist_ag_v7x_xyz2x2x2_z_m32768_n1024_f32_1_alg».proof.Defs
import proofs.«900672_g7700000000000673_dist_ag_v7x_xyz2x2x2_z_m32768_n1024_f32_1_alg».proof.Proof.Gen.Kernel
import proofs.«900672_g7700000000000673_dist_ag_v7x_xyz2x2x2_z_m32768_n1024_f32_1_alg».proof.Proof.Gen.KernelIdeal
import proofs.«900672_g7700000000000673_dist_ag_v7x_xyz2x2x2_z_m32768_n1024_f32_1_alg».proof.Proof.Gen.ReferenceIdeal
import proofs.«900672_g7700000000000673_dist_ag_v7x_xyz2x2x2_z_m32768_n1024_f32_1_alg».proof.Proof.Gen.Pre_finite_inputs_Kernel
import proofs.«900672_g7700000000000673_dist_ag_v7x_xyz2x2x2_z_m32768_n1024_f32_1_alg».proof.Proof.Gen.Pre_finite_inputs_ReferenceIdeal
import proofs.«900672_g7700000000000673_dist_ag_v7x_xyz2x2x2_z_m32768_n1024_f32_1_alg».proof.Proof.Run
import proofs.«900672_g7700000000000673_dist_ag_v7x_xyz2x2x2_z_m32768_n1024_f32_1_alg».proof.Proof.W.Run
import proofs.«900672_g7700000000000673_dist_ag_v7x_xyz2x2x2_z_m32768_n1024_f32_1_alg».proof.Proof.Reference
import proofs.«900672_g7700000000000673_dist_ag_v7x_xyz2x2x2_z_m32768_n1024_f32_1_alg».proof.Proof.Value
import Idealize.ShloMosaic.Adequacy
import Idealize.ShloMosaic.Init

noncomputable section

namespace Cert.Proof

open Idealize.ShloMosaic Idealize.SL.Sem

/-- The kernel as printed runs, and every device's argument block ends as it was: the word-level run of the whole mesh, its
    value dropped. -/
theorem frame_Kernel [Cert.Kernel.Facts] [Cert.Pre_finite_inputs_Kernel.Facts] : Cert.frame_Kernel :=
  fun m ρ _ => (θ_run _ _ _).mono (fun _ h c => (h c).2) (Cert.Kernel.AG.run_kernel (F := Bits) m ρ)

/-- The kernel at the ideal instance runs, and every device's argument block ends as it was. -/
theorem frame_KernelIdeal [Cert.KernelIdeal.Facts] [Cert.Pre_finite_inputs_Kernel.Facts] : Cert.frame_KernelIdeal :=
  fun m ρ _ => (θ_run _ _ _).mono (fun _ h c => (h c).2) (Cert.KernelIdeal.AG.run_kernel (F := Ideal) m ρ)

/-- The reference runs, and its argument array ends as it was. -/
theorem frame_ReferenceIdeal [Cert.ReferenceIdeal.Facts] [Cert.Pre_finite_inputs_ReferenceIdeal.Facts] : Cert.frame_ReferenceIdeal :=
  fun m ρ _ => (θ_run _ _ _).mono (fun _ h c => h c Cert.ReferenceIdeal.main_arg0) (Cert.AG.Ref.run m ρ)

/-- Both run; the reference ends holding its whole argument array, and every device's result array ends holding that array. -/
theorem algebraic [Cert.KernelIdeal.Facts] [Cert.ReferenceIdeal.Facts] [Cert.Pre_finite_inputs_Kernel.Facts] :
    Cert.algebraic_KernelIdeal_ReferenceIdeal :=
  fun m ρ m' ρ' _ hblk =>
    ⟨m' (((0 : Dev Cert.ReferenceIdeal.nD).tc : Thread Cert.ReferenceIdeal.nD Cert.ReferenceIdeal.τ).loc Cert.ReferenceIdeal.main_arg0),
      (θ_run _ _ _).mono
        (fun _ h c => ⟨(h c).1.trans (Cert.AG.gathered_of_blocks _ (Cert.KernelIdeal.AG.xs m) hblk c), (h c).2⟩)
        (Cert.KernelIdeal.AG.run_kernel (F := Ideal) m ρ),
      (θ_run _ _ _).mono (fun _ h => ⟨h 0 Cert.ReferenceIdeal.main_arg0, h 0 Cert.ReferenceIdeal.main_arg0⟩) (Cert.AG.Ref.run m' ρ')⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, trivial, algebraic⟩

end Cert.Proof

end
